-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S65536x32 : Shape := ⟨2, ![65536, 32]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_

variable [Facts]

def fn {F : FTy → Type} [FloatOps F] (main_arg0 : FVec F S262144x128 .f32) (main_arg1 : IVec S65536x32 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_c_0 : IVec S_ 32 := constantI S_ 32 0#32
  let main_v4 : IVec S65536x32 32 := broadcastInDim S65536x32 ![] bcast_S_S65536x32 main_c_0
  let main_v5 : IVec S65536x32 1 := cmpi .sge main_arg1 main_v4
  let main_c_1 : IVec S_ 32 := constantI S_ 32 262144#32
  let main_v6 : IVec S65536x32 32 := broadcastInDim S65536x32 ![] bcast_S_S65536x32 main_c_1
  let main_v7 : IVec S65536x32 1 := cmpi .sle main_arg1 main_v6
  let main_v8 : IVec S65536x32 1 := andi main_v5 main_v7
  let main_c_2 : IVec S_ 1 := constantI S_ 1 1#1
  let main_v9 : IVec S_ 1 := (fun x v => Host.reduce IntOp.andi x v reducesTo_S65536x32_S_d0_1 h_S_) main_v8 main_c_2
  let main_v10 : IVec S_ 1 := andi main_v3 main_v9
  main_v10
-- ==== Kernel.lean ====
abbrev S262144x128 : Shape := ⟨2, ![262144, 128]⟩
abbrev S65536x32 : Shape := ⟨2, ![65536, 32]⟩
abbrev S1x128 : Shape := ⟨2, ![1, 128]⟩
abbrev S_ : Shape := ⟨0, ![]⟩
abbrev S262145x128 : Shape := ⟨2, ![262145, 128]⟩
abbrev S262145x1x128 : Shape := ⟨3, ![262145, 1, 128]⟩
abbrev S2048x32 : Shape := ⟨2, ![2048, 32]⟩
abbrev S65536 : Shape := ⟨1, ![65536]⟩
abbrev S2048x1x128 : Shape := ⟨3, ![2048, 1, 128]⟩
abbrev S1x1x128 : Shape := ⟨3, ![1, 1, 128]⟩
abbrev S1 : Shape := ⟨1, ![1]⟩
abbrev S2048x128 : Shape := ⟨2, ![2048, 128]⟩
abbrev S32768x128 : Shape := ⟨2, ![32768, 128]⟩
abbrev S65536x128 : Shape := ⟨2, ![65536, 128]⟩

abbrev nBuf : Space → Nat
  | .hbm => 106
  | .vmem => 128
  | .smem => 32
  | _ => 0

abbrev bufTy : (tb : Table) → Fin (tcTables nBuf tb) → BufTy
  | .hbm, ⟨0, _⟩ => ⟨S262144x128, .f32⟩
  | .hbm, ⟨1, _⟩ => ⟨S65536x32, .i32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S262145x128, .f32⟩
  | .hbm, ⟨6, _⟩ => ⟨S262145x1x128, .f32⟩
  | .hbm, ⟨7, _⟩ => ⟨S2048x32, .i32⟩
  | .hbm, ⟨8, _⟩ => ⟨S2048x1x128, .f32⟩
  | .hbm, ⟨9, _⟩ => ⟨S2048x128, .f32⟩
  | .hbm, ⟨10, _⟩ => ⟨S2048x32, .i32⟩
  | .hbm, ⟨11, _⟩ => ⟨S2048x1x128, .f32⟩
  | .hbm, ⟨12, _⟩ => ⟨S2048x128, .f32⟩
  | .hbm, ⟨13, _⟩ => ⟨S2048x32, .i32⟩
  | .hbm, ⟨14, _⟩ => ⟨S2048x1x128, .f32⟩
  | .hbm, ⟨15, _⟩ => ⟨S2048x128, .f32⟩
  | .hbm, ⟨16, _⟩ => ⟨S2048x32, .i32⟩
  | .hbm, ⟨17, _⟩ => ⟨S2048x1x128, .f32⟩
  | .hbm, ⟨18, _⟩ => ⟨S2048x128, .f32⟩
  | .hbm, ⟨19, _⟩ => ⟨S2048x32, .i32⟩
  | .hbm, ⟨20, _⟩ => ⟨S2048x1x128, .f32⟩
  | .hbm, ⟨21, _⟩ => ⟨S2048x128, .f32⟩
  | .hbm, ⟨22, _⟩ => ⟨S2048x32, .i32⟩
  | .hbm, ⟨23, _⟩ => ⟨S2048x1x128, .f32⟩
  | .hbm, ⟨24, _⟩ => ⟨S2048x128, .f32⟩
  | .hbm, ⟨25, _⟩ => ⟨S2048x32, .i32⟩
  | .hbm, ⟨26, _⟩ => ⟨S2048x1x128, .f32⟩
  | .hbm, ⟨27, _⟩ => ⟨S2048x128, .f32⟩
  | .hbm, ⟨28, _⟩ => ⟨S2048x32, .i32⟩
  | .hbm, ⟨29, _⟩ => ⟨S2048x1x128, .f32⟩
  | .hbm, ⟨30, _⟩ => ⟨S2048x128, .f32⟩
  | .hbm, ⟨31, _⟩ => ⟨S2048x32, .i32⟩
  | .hbm, ⟨32, _⟩ => ⟨S2048x1x128, .f32⟩
  | .hbm, ⟨33, _⟩ => ⟨S2048x128, .f32⟩
  | .hbm, ⟨34, _⟩ => ⟨S2048x32, .i32⟩
  | .hbm, ⟨35, _⟩ => ⟨S2048x1x128, .f32⟩
  | .hbm, ⟨36, _⟩ => ⟨S2048x128, .f32⟩
  | .hbm, ⟨37, _⟩ => ⟨S2048x32, .i32⟩
  | .hbm, ⟨38, _⟩ => ⟨S2048x1x128, .f32⟩
  | .hbm, ⟨39, _⟩ => ⟨S2048x128, .f32⟩
  | .hbm, ⟨40, _⟩ => ⟨S2048x32, .i32⟩
  | .hbm, ⟨41, _⟩ => ⟨S2048x1x128, .f32⟩
  | .hbm, ⟨42, _⟩ => ⟨S2048x128, .f32⟩
  | .hbm, ⟨43, _⟩ => ⟨S2048x32, .i32⟩
  | .hbm, ⟨44, _⟩ => ⟨S2048x1x128, .f32⟩
  | .hbm, ⟨45, _⟩ => ⟨S2048x128, .f32⟩
  | .hbm, ⟨46, _⟩ => ⟨S2048x32, .i32⟩
  | .hbm, ⟨47, _⟩ => ⟨S2048x1x128, .f32⟩
  | .hbm, ⟨48, _⟩ => ⟨S2048x128, .f32⟩
  | .hbm, ⟨49, _⟩ => ⟨S2048x32, .i32⟩
  | .hbm, ⟨50, _⟩ => ⟨S2048x1x128, .f32⟩
  | .hbm, ⟨51, _⟩ => ⟨S2048x128, .f32⟩
  | .hbm, ⟨52, _⟩ => ⟨S2048x32, .i32⟩
  | .hbm, ⟨53, _⟩ => ⟨S2048x1x128, .f32⟩
  | .hbm, ⟨54, _⟩ => ⟨S2048x128, .f32⟩
  | .hbm, ⟨55, _⟩ => ⟨S2048x32, .i32⟩
  | .hbm, ⟨56, _⟩ => ⟨S2048x1x128, .f32⟩
  | .hbm, ⟨57, _⟩ => ⟨S2048x128, .f32⟩
  | .hbm, ⟨58, _⟩ => ⟨S2048x32, .i32⟩
  | .hbm, ⟨59, _⟩ => ⟨S2048x1x128, .f32⟩
  | .hbm, ⟨60, _⟩ => ⟨S2048x128, .f32⟩
  | .hbm, ⟨61, _⟩ => ⟨S2048x32, .i32⟩
  | .hbm, ⟨62, _⟩ => ⟨S2048x1x128, .f32⟩
  | .hbm, ⟨63, _⟩ => ⟨S2048x128, .f32⟩
  | .hbm, ⟨64, _⟩ => ⟨S2048x32, .i32⟩
  | .hbm, ⟨65, _⟩ => ⟨S2048x1x128, .f32⟩
  | .hbm, ⟨66, _⟩ => ⟨S2048x128, .f32⟩
  | .hbm, ⟨67, _⟩ => ⟨S2048x32, .i32⟩
  | .hbm, ⟨68, _⟩ => ⟨S2048x1x128, .f32⟩
  | .hbm, ⟨69, _⟩ => ⟨S2048x128, .f32⟩
  | .hbm, ⟨70, _⟩ => ⟨S2048x32, .i32⟩
  | .hbm, ⟨71, _⟩ => ⟨S2048x1x128, .f32⟩
  | .hbm, ⟨72, _⟩ => ⟨S2048x128, .f32⟩
  | .hbm, ⟨73, _⟩ => ⟨S2048x32, .i32⟩
  | .hbm, ⟨74, _⟩ => ⟨S2048x1x128, .f32⟩
  | .hbm, ⟨75, _⟩ => ⟨S2048x128, .f32⟩
  | .hbm, ⟨76, _⟩ => ⟨S2048x32, .i32⟩
  | .hbm, ⟨77, _⟩ => ⟨S2048x1x128, .f32⟩
  | .hbm, ⟨78, _⟩ => ⟨S2048x128, .f32⟩
  | .hbm, ⟨79, _⟩ => ⟨S2048x32, .i32⟩
  | .hbm, ⟨80, _⟩ => ⟨S2048x1x128, .f32⟩
  | .hbm, ⟨81, _⟩ => ⟨S2048x128, .f32⟩
  | .hbm, ⟨82, _⟩ => ⟨S2048x32, .i32⟩
  | .hbm, ⟨83, _⟩ => ⟨S2048x1x128, .f32⟩
  | .hbm, ⟨84, _⟩ => ⟨S2048x128, .f32⟩
  | .hbm, ⟨85, _⟩ => ⟨S2048x32, .i32⟩
  | .hbm, ⟨86, _⟩ => ⟨S2048x1x128, .f32⟩
  | .hbm, ⟨87, _⟩ => ⟨S2048x128, .f32⟩
  | .hbm, ⟨88, _⟩ => ⟨S2048x32, .i32⟩
  | .hbm, ⟨89, _⟩ => ⟨S2048x1x128, .f32⟩
  | .hbm, ⟨90, _⟩ => ⟨S2048x128, .f32⟩
  | .hbm, ⟨91, _⟩ => ⟨S2048x32, .i32⟩
  | .hbm, ⟨92, _⟩ => ⟨S2048x1x128, .f32⟩
  | .hbm, ⟨93, _⟩ => ⟨S2048x128, .f32⟩
  | .hbm, ⟨94, _⟩ => ⟨S2048x32, .i32⟩
  | .hbm, ⟨95, _⟩ => ⟨S2048x1x128, .f32⟩
  | .hbm, ⟨96, _⟩ => ⟨S2048x128, .f32⟩
  | .hbm, ⟨97, _⟩ => ⟨S2048x32, .i32⟩
  | .hbm, ⟨98, _⟩ => ⟨S2048x1x128, .f32⟩
  | .hbm, ⟨99, _⟩ => ⟨S2048x128, .f32⟩
  | .hbm, ⟨100, _⟩ => ⟨S2048x32, .i32⟩
  | .hbm, ⟨101, _⟩ => ⟨S2048x1x128, .f32⟩
  | .hbm, ⟨102, _⟩ => ⟨S2048x128, .f32⟩
  | .hbm, ⟨103, _⟩ => ⟨S32768x128, .f32⟩
  | .hbm, ⟨104, _⟩ => ⟨S32768x128, .f32⟩
  | .hbm, ⟨105, _⟩ => ⟨S65536x128, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x1x128, .f32⟩
  | .local _ .vmem, ⟨53, _⟩ => ⟨S1x1x128, .f32⟩
  | .local _ .vmem, ⟨54, _⟩ => ⟨S1x1x128, .f32⟩
  | .local _ .vmem, ⟨55, _⟩ => ⟨S1x1x128, .f32⟩
  | .local _ .vmem, ⟨56, _⟩ => ⟨S1x1x128, .f32⟩
  | .local _ .vmem, ⟨57, _⟩ => ⟨S1x1x128, .f32⟩
  | .local _ .vmem, ⟨58, _⟩ => ⟨S1x1x128, .f32⟩
  | .local _ .vmem, ⟨59, _⟩ => ⟨S1x1x128, .f32⟩
  | .local _ .vmem, ⟨60, _⟩ => ⟨S1x1x128, .f32⟩
  | .local _ .vmem, ⟨61, _⟩ => ⟨S1x1x128, .f32⟩
  | .local _ .vmem, ⟨62, _⟩ => ⟨S1x1x128, .f32⟩
  | .local _ .vmem, ⟨63, _⟩ => ⟨S1x1x128, .f32⟩
  | .local _ .vmem, ⟨64, _⟩ => ⟨S1x1x128, .f32⟩
  | .local _ .vmem, ⟨65, _⟩ => ⟨S1x1x128, .f32⟩
  | .local _ .vmem, ⟨66, _⟩ => ⟨S1x1x128, .f32⟩
  | .local _ .vmem, ⟨67, _⟩ => ⟨S1x1x128, .f32⟩
  | .local _ .vmem, ⟨68, _⟩ => ⟨S1x1x128, .f32⟩
  | .local _ .vmem, ⟨69, _⟩ => ⟨S1x1x128, .f32⟩
  | .local _ .vmem, ⟨70, _⟩ => ⟨S1x1x128, .f32⟩
  | .local _ .vmem, ⟨71, _⟩ => ⟨S1x1x128, .f32⟩
  | .local _ .vmem, ⟨72, _⟩ => ⟨S1x1x128, .f32⟩
  | .local _ .vmem, ⟨73, _⟩ => ⟨S1x1x128, .f32⟩
  | .local _ .vmem, ⟨74, _⟩ => ⟨S1x1x128, .f32⟩
  | .local _ .vmem, ⟨75, _⟩ => ⟨S1x1x128, .f32⟩
  | .local _ .vmem, ⟨76, _⟩ => ⟨S1x1x128, .f32⟩
  | .local _ .vmem, ⟨77, _⟩ => ⟨S1x1x128, .f32⟩
  | .local _ .vmem, ⟨78, _⟩ => ⟨S1x1x128, .f32⟩
  | .local _ .vmem, ⟨79, _⟩ => ⟨S1x1x128, .f32⟩
  | .local _ .vmem, ⟨80, _⟩ => ⟨S1x1x128, .f32⟩
  | .local _ .vmem, ⟨81, _⟩ => ⟨S1x1x128, .f32⟩
  | .local _ .vmem, ⟨82, _⟩ => ⟨S1x1x128, .f32⟩
  | .local _ .vmem, ⟨83, _⟩ => ⟨S1x1x128, .f32⟩
  | .local _ .vmem, ⟨84, _⟩ => ⟨S1x1x128, .f32⟩
  | .local _ .vmem, ⟨85, _⟩ => ⟨S1x1x128, .f32⟩
  | .local _ .vmem, ⟨86, _⟩ => ⟨S1x1x128, .f32⟩
  | .local _ .vmem, ⟨87, _⟩ => ⟨S1x1x128, .f32⟩
  | .local _ .vmem, ⟨88, _⟩ => ⟨S1x1x128, .f32⟩
  | .local _ .vmem, ⟨89, _⟩ => ⟨S1x1x128, .f32⟩
  | .local _ .vmem, ⟨90, _⟩ => ⟨S1x1x128, .f32⟩
  | .local _ .vmem, ⟨91, _⟩ => ⟨S1x1x128, .f32⟩
  | .local _ .vmem, ⟨92, _⟩ => ⟨S1x1x128, .f32⟩
  | .local _ .vmem, ⟨93, _⟩ => ⟨S1x1x128, .f32⟩
  | .local _ .vmem, ⟨94, _⟩ => ⟨S1x1x128, .f32⟩
  | .local _ .vmem, ⟨95, _⟩ => ⟨S1x1x128, .f32⟩
  | .local _ .vmem, ⟨96, _⟩ => ⟨S1x1x128, .f32⟩
  | .local _ .vmem, ⟨97, _⟩ => ⟨S1x1x128, .f32⟩
  | .local _ .vmem, ⟨98, _⟩ => ⟨S1x1x128, .f32⟩
  | .local _ .vmem, ⟨99, _⟩ => ⟨S1x1x128, .f32⟩
  | .local _ .vmem, ⟨100, _⟩ => ⟨S1x1x128, .f32⟩
  | .local _ .vmem, ⟨101, _⟩ => ⟨S1x1x128, .f32⟩
  | .local _ .vmem, ⟨102, _⟩ => ⟨S1x1x128, .f32⟩
  | .local _ .vmem, ⟨103, _⟩ => ⟨S1x1x128, .f32⟩
  | .local _ .vmem, ⟨104, _⟩ => ⟨S1x1x128, .f32⟩
  | .local _ .vmem, ⟨105, _⟩ => ⟨S1x1x128, .f32⟩
  | .local _ .vmem, ⟨106, _⟩ => ⟨S1x1x128, .f32⟩
  | .local _ .vmem, ⟨107, _⟩ => ⟨S1x1x128, .f32⟩
  | .local _ .vmem, ⟨108, _⟩ => ⟨S1x1x128, .f32⟩
  | .local _ .vmem, ⟨109, _⟩ => ⟨S1x1x128, .f32⟩
  | .local _ .vmem, ⟨110, _⟩ => ⟨S1x1x128, .f32⟩
  | .local _ .vmem, ⟨111, _⟩ => ⟨S1x1x128, .f32⟩
  | .local _ .vmem, ⟨112, _⟩ => ⟨S1x1x128, .f32⟩
  | .local _ .vmem, ⟨113, _⟩ => ⟨S1x1x128, .f32⟩
  | .local _ .vmem, ⟨114, _⟩ => ⟨S1x1x128, .f32⟩
  | .local _ .vmem, ⟨115, _⟩ => ⟨S1x1x128, .f32⟩
  | .local _ .vmem, ⟨116, _⟩ => ⟨S1x1x128, .f32⟩
  | .local _ .vmem, ⟨117, _⟩ => ⟨S1x1x128, .f32⟩
  | .local _ .vmem, ⟨118, _⟩ => ⟨S1x1x128, .f32⟩
  | .local _ .vmem, ⟨119, _⟩ => ⟨S1x1x128, .f32⟩
  | .local _ .vmem, ⟨120, _⟩ => ⟨S1x1x128, .f32⟩
  | .local _ .vmem, ⟨121, _⟩ => ⟨S1x1x128, .f32⟩
  | .local _ .vmem, ⟨122, _⟩ => ⟨S1x1x128, .f32⟩
  | .local _ .vmem, ⟨123, _⟩ => ⟨S1x1x128, .f32⟩
  | .local _ .vmem, ⟨124, _⟩ => ⟨S1x1x128, .f32⟩
  | .local _ .vmem, ⟨125, _⟩ => ⟨S1x1x128, .f32⟩
  | .local _ .vmem, ⟨126, _⟩ => ⟨S1x1x128, .f32⟩
  | .local _ .vmem, ⟨127, _⟩ => ⟨S1x1x128, .f32⟩
  | .local _ .smem, ⟨0, _⟩ => ⟨S65536, .i32⟩
  | .local _ .smem, ⟨1, _⟩ => ⟨S65536, .i32⟩
  | .local _ .smem, ⟨2, _⟩ => ⟨S65536, .i32⟩
  | .local _ .smem, ⟨3, _⟩ => ⟨S65536, .i32⟩
  | .local _ .smem, ⟨4, _⟩ => ⟨S65536, .i32⟩
  | .local _ .smem, ⟨5, _⟩ => ⟨S65536, .i32⟩
  | .local _ .smem, ⟨6, _⟩ => ⟨S65536, .i32⟩
  | .local _ .smem, ⟨7, _⟩ => ⟨S65536, .i32⟩
  | .local _ .smem, ⟨8, _⟩ => ⟨S65536, .i32⟩
  | .local _ .smem, ⟨9, _⟩ => ⟨S65536, .i32⟩
  | .local _ .smem, ⟨10, _⟩ => ⟨S65536, .i32⟩
  | .local _ .smem, ⟨11, _⟩ => ⟨S65536, .i32⟩
  | .local _ .smem, ⟨12, _⟩ => ⟨S65536, .i32⟩
  | .local _ .smem, ⟨13, _⟩ => ⟨S65536, .i32⟩
  | .local _ .smem, ⟨14, _⟩ => ⟨S65536, .i32⟩
  | .local _ .smem, ⟨15, _⟩ => ⟨S65536, .i32⟩
  | .local _ .smem, ⟨16, _⟩ => ⟨S65536, .i32⟩
  | .local _ .smem, ⟨17, _⟩ => ⟨S65536, .i32⟩
  | .local _ .smem, ⟨18, _⟩ => ⟨S65536, .i32⟩
  | .local _ .smem, ⟨19, _⟩ => ⟨S65536, .i32⟩
  | .local _ .smem, ⟨20, _⟩ => ⟨S65536, .i32⟩
  | .local _ .smem, ⟨21, _⟩ => ⟨S65536, .i32⟩
  | .local _ .smem, ⟨22, _⟩ => ⟨S65536, .i32⟩
  | .local _ .smem, ⟨23, _⟩ => ⟨S65536, .i32⟩
  | .local _ .smem, ⟨24, _⟩ => ⟨S65536, .i32⟩
  | .local _ .smem, ⟨25, _⟩ => ⟨S65536, .i32⟩
  | .local _ .smem, ⟨26, _⟩ => ⟨S65536, .i32⟩
  | .local _ .smem, ⟨27, _⟩ => ⟨S65536, .i32⟩
  | .local _ .smem, ⟨28, _⟩ => ⟨S65536, .i32⟩
  | .local _ .smem, ⟨29, _⟩ => ⟨S65536, .i32⟩
  | .local _ .smem, ⟨30, _⟩ => ⟨S65536, .i32⟩
  | .local _ .smem, ⟨31, _⟩ => ⟨S65536, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v14 : Ref sig .tc := ⟨.hbm, 14, rfl⟩
abbrev main_v15 : Ref sig .tc := ⟨.hbm, 15, rfl⟩
abbrev main_v16 : Ref sig .tc := ⟨.hbm, 16, rfl⟩
abbrev main_v18 : Ref sig .tc := ⟨.hbm, 17, rfl⟩
abbrev main_v19 : Ref sig .tc := ⟨.hbm, 18, rfl⟩
abbrev main_v20 : Ref sig .tc := ⟨.hbm, 19, rfl⟩
abbrev main_v22 : Ref sig .tc := ⟨.hbm, 20, rfl⟩
abbrev main_v23 : Ref sig .tc := ⟨.hbm, 21, rfl⟩
abbrev main_v24 : Ref sig .tc := ⟨.hbm, 22, rfl⟩
abbrev main_v26 : Ref sig .tc := ⟨.hbm, 23, rfl⟩
abbrev main_v27 : Ref sig .tc := ⟨.hbm, 24, rfl⟩
abbrev main_v28 : Ref sig .tc := ⟨.hbm, 25, rfl⟩
abbrev main_v30 : Ref sig .tc := ⟨.hbm, 26, rfl⟩
abbrev main_v31 : Ref sig .tc := ⟨.hbm, 27, rfl⟩
abbrev main_v32 : Ref sig .tc := ⟨.hbm, 28, rfl⟩
abbrev main_v34 : Ref sig .tc := ⟨.hbm, 29, rfl⟩
abbrev main_v35 : Ref sig .tc := ⟨.hbm, 30, rfl⟩
abbrev main_v36 : Ref sig .tc := ⟨.hbm, 31, rfl⟩
abbrev main_v38 : Ref sig .tc := ⟨.hbm, 32, rfl⟩
abbrev main_v39 : Ref sig .tc := ⟨.hbm, 33, rfl⟩
abbrev main_v40 : Ref sig .tc := ⟨.hbm, 34, rfl⟩
abbrev main_v42 : Ref sig .tc := ⟨.hbm, 35, rfl⟩
abbrev main_v43 : Ref sig .tc := ⟨.hbm, 36, rfl⟩
abbrev main_v44 : Ref sig .tc := ⟨.hbm, 37, rfl⟩
abbrev main_v46 : Ref sig .tc := ⟨.hbm, 38, rfl⟩
abbrev main_v47 : Ref sig .tc := ⟨.hbm, 39, rfl⟩
abbrev main_v48 : Ref sig .tc := ⟨.hbm, 40, rfl⟩
abbrev main_v50 : Ref sig .tc := ⟨.hbm, 41, rfl⟩
abbrev main_v51 : Ref sig .tc := ⟨.hbm, 42, rfl⟩
abbrev main_v52 : Ref sig .tc := ⟨.hbm, 43, rfl⟩
abbrev main_v54 : Ref sig .tc := ⟨.hbm, 44, rfl⟩
abbrev main_v55 : Ref sig .tc := ⟨.hbm, 45, rfl⟩
abbrev main_v56 : Ref sig .tc := ⟨.hbm, 46, rfl⟩
abbrev main_v58 : Ref sig .tc := ⟨.hbm, 47, rfl⟩
abbrev main_v59 : Ref sig .tc := ⟨.hbm, 48, rfl⟩
abbrev main_v60 : Ref sig .tc := ⟨.hbm, 49, rfl⟩
abbrev main_v62 : Ref sig .tc := ⟨.hbm, 50, rfl⟩
abbrev main_v63 : Ref sig .tc := ⟨.hbm, 51, rfl⟩
abbrev main_v64 : Ref sig .tc := ⟨.hbm, 52, rfl⟩
abbrev main_v66 : Ref sig .tc := ⟨.hbm, 53, rfl⟩
abbrev main_v67 : Ref sig .tc := ⟨.hbm, 54, rfl⟩
abbrev main_v68 : Ref sig .tc := ⟨.hbm, 55, rfl⟩
abbrev main_v70 : Ref sig .tc := ⟨.hbm, 56, rfl⟩
abbrev main_v71 : Ref sig .tc := ⟨.hbm, 57, rfl⟩
abbrev main_v72 : Ref sig .tc := ⟨.hbm, 58, rfl⟩
abbrev main_v74 : Ref sig .tc := ⟨.hbm, 59, rfl⟩
abbrev main_v75 : Ref sig .tc := ⟨.hbm, 60, rfl⟩
abbrev main_v76 : Ref sig .tc := ⟨.hbm, 61, rfl⟩
abbrev main_v78 : Ref sig .tc := ⟨.hbm, 62, rfl⟩
abbrev main_v79 : Ref sig .tc := ⟨.hbm, 63, rfl⟩
abbrev main_v80 : Ref sig .tc := ⟨.hbm, 64, rfl⟩
abbrev main_v82 : Ref sig .tc := ⟨.hbm, 65, rfl⟩
abbrev main_v83 : Ref sig .tc := ⟨.hbm, 66, rfl⟩
abbrev main_v84 : Ref sig .tc := ⟨.hbm, 67, rfl⟩
abbrev main_v86 : Ref sig .tc := ⟨.hbm, 68, rfl⟩
abbrev main_v87 : Ref sig .tc := ⟨.hbm, 69, rfl⟩
abbrev main_v88 : Ref sig .tc := ⟨.hbm, 70, rfl⟩
abbrev main_v90 : Ref sig .tc := ⟨.hbm, 71, rfl⟩
abbrev main_v91 : Ref sig .tc := ⟨.hbm, 72, rfl⟩
abbrev main_v92 : Ref sig .tc := ⟨.hbm, 73, rfl⟩
abbrev main_v94 : Ref sig .tc := ⟨.hbm, 74, rfl⟩
abbrev main_v95 : Ref sig .tc := ⟨.hbm, 75, rfl⟩
abbrev main_v96 : Ref sig .tc := ⟨.hbm, 76, rfl⟩
abbrev main_v98 : Ref sig .tc := ⟨.hbm, 77, rfl⟩
abbrev main_v99 : Ref sig .tc := ⟨.hbm, 78, rfl⟩
abbrev main_v100 : Ref sig .tc := ⟨.hbm, 79, rfl⟩
abbrev main_v102 : Ref sig .tc := ⟨.hbm, 80, rfl⟩
abbrev main_v103 : Ref sig .tc := ⟨.hbm, 81, rfl⟩
abbrev main_v104 : Ref sig .tc := ⟨.hbm, 82, rfl⟩
abbrev main_v106 : Ref sig .tc := ⟨.hbm, 83, rfl⟩
abbrev main_v107 : Ref sig .tc := ⟨.hbm, 84, rfl⟩
abbrev main_v108 : Ref sig .tc := ⟨.hbm, 85, rfl⟩
abbrev main_v110 : Ref sig .tc := ⟨.hbm, 86, rfl⟩
abbrev main_v111 : Ref sig .tc := ⟨.hbm, 87, rfl⟩
abbrev main_v112 : Ref sig .tc := ⟨.hbm, 88, rfl⟩
abbrev main_v114 : Ref sig .tc := ⟨.hbm, 89, rfl⟩
abbrev main_v115 : Ref sig .tc := ⟨.hbm, 90, rfl⟩
abbrev main_v116 : Ref sig .tc := ⟨.hbm, 91, rfl⟩
abbrev main_v118 : Ref sig .tc := ⟨.hbm, 92, rfl⟩
abbrev main_v119 : Ref sig .tc := ⟨.hbm, 93, rfl⟩
abbrev main_v120 : Ref sig .tc := ⟨.hbm, 94, rfl⟩
abbrev main_v122 : Ref sig .tc := ⟨.hbm, 95, rfl⟩
abbrev main_v123 : Ref sig .tc := ⟨.hbm, 96, rfl⟩
abbrev main_v124 : Ref sig .tc := ⟨.hbm, 97, rfl⟩
abbrev main_v126 : Ref sig .tc := ⟨.hbm, 98, rfl⟩
abbrev main_v127 : Ref sig .tc := ⟨.hbm, 99, rfl⟩
abbrev main_v128 : Ref sig .tc := ⟨.hbm, 100, rfl⟩
abbrev main_v130 : Ref sig .tc := ⟨.hbm, 101, rfl⟩
abbrev main_v131 : Ref sig .tc := ⟨.hbm, 102, rfl⟩
abbrev main_v132 : Ref sig .tc := ⟨.hbm, 103, rfl⟩
abbrev main_v133 : Ref sig .tc := ⟨.hbm, 104, rfl⟩
abbrev main_v134 : Ref sig .tc := ⟨.hbm, 105, rfl⟩
abbrev main_v5 : Ref sig .tc := ⟨.smem, 0, rfl⟩
abbrev main_v9 : Ref sig .tc := ⟨.smem, 1, rfl⟩
abbrev main_v13 : Ref sig .tc := ⟨.smem, 2, rfl⟩
abbrev main_v17 : Ref sig .tc := ⟨.smem, 3, rfl⟩
abbrev main_v21 : Ref sig .tc := ⟨.smem, 4, rfl⟩
abbrev main_v25 : Ref sig .tc := ⟨.smem, 5, rfl⟩
abbrev main_v29 : Ref sig .tc := ⟨.smem, 6, rfl⟩
abbrev main_v33 : Ref sig .tc := ⟨.smem, 7, rfl⟩
abbrev main_v37 : Ref sig .tc := ⟨.smem, 8, rfl⟩
abbrev main_v41 : Ref sig .tc := ⟨.smem, 9, rfl⟩
abbrev main_v45 : Ref sig .tc := ⟨.smem, 10, rfl⟩
abbrev main_v49 : Ref sig .tc := ⟨.smem, 11, rfl⟩
abbrev main_v53 : Ref sig .tc := ⟨.smem, 12, rfl⟩
abbrev main_v57 : Ref sig .tc := ⟨.smem, 13, rfl⟩
abbrev main_v61 : Ref sig .tc := ⟨.smem, 14, rfl⟩
abbrev main_v65 : Ref sig .tc := ⟨.smem, 15, rfl⟩
abbrev main_v69 : Ref sig .tc := ⟨.smem, 16, rfl⟩
abbrev main_v73 : Ref sig .tc := ⟨.smem, 17, rfl⟩
abbrev main_v77 : Ref sig .tc := ⟨.smem, 18, rfl⟩
abbrev main_v81 : Ref sig .tc := ⟨.smem, 19, rfl⟩
abbrev main_v85 : Ref sig .tc := ⟨.smem, 20, rfl⟩
abbrev main_v89 : Ref sig .tc := ⟨.smem, 21, rfl⟩
abbrev main_v93 : Ref sig .tc := ⟨.smem, 22, rfl⟩
abbrev main_v97 : Ref sig .tc := ⟨.smem, 23, rfl⟩
abbrev main_v101 : Ref sig .tc := ⟨.smem, 24, rfl⟩
abbrev main_v105 : Ref sig .tc := ⟨.smem, 25, rfl⟩
abbrev main_v109 : Ref sig .tc := ⟨.smem, 26, rfl⟩
abbrev main_v113 : Ref sig .tc := ⟨.smem, 27, rfl⟩
abbrev main_v117 : Ref sig .tc := ⟨.smem, 28, rfl⟩
abbrev main_v121 : Ref sig .tc := ⟨.smem, 29, rfl⟩
abbrev main_v125 : Ref sig .tc := ⟨.smem, 30, rfl⟩
abbrev main_v129 : Ref sig .tc := ⟨.smem, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc8_stg0_0 : Ref sig .tc := ⟨.vmem, 32, rfl⟩
abbrev cc8_stg0_1 : Ref sig .tc := ⟨.vmem, 33, rfl⟩
abbrev cc8_stg1_0 : Ref sig .tc := ⟨.vmem, 34, rfl⟩
abbrev cc8_stg1_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg1_1 : Ref sig .tc := ⟨.vmem, 39, rfl⟩
abbrev cc10_stg0_0 : Ref sig .tc := ⟨.vmem, 40, rfl⟩
abbrev cc10_stg0_1 : Ref sig .tc := ⟨.vmem, 41, rfl⟩
abbrev cc10_stg1_0 : Ref sig .tc := ⟨.vmem, 42, rfl⟩
abbrev cc10_stg1_1 : Ref sig .tc := ⟨.vmem, 43, rfl⟩
abbrev cc11_stg0_0 : Ref sig .tc := ⟨.vmem, 44, rfl⟩
abbrev cc11_stg0_1 : Ref sig .tc := ⟨.vmem, 45, rfl⟩
abbrev cc11_stg1_0 : Ref sig .tc := ⟨.vmem, 46, rfl⟩
abbrev cc11_stg1_1 : Ref sig .tc := ⟨.vmem, 47, rfl⟩
abbrev cc12_stg0_0 : Ref sig .tc := ⟨.vmem, 48, rfl⟩
abbrev cc12_stg0_1 : Ref sig .tc := ⟨.vmem, 49, rfl⟩
abbrev cc12_stg1_0 : Ref sig .tc := ⟨.vmem, 50, rfl⟩
abbrev cc12_stg1_1 : Ref sig .tc := ⟨.vmem, 51, rfl⟩
abbrev cc13_stg0_0 : Ref sig .tc := ⟨.vmem, 52, rfl⟩
abbrev cc13_stg0_1 : Ref sig .tc := ⟨.vmem, 53, rfl⟩
abbrev cc13_stg1_0 : Ref sig .tc := ⟨.vmem, 54, rfl⟩
abbrev cc13_stg1_1 : Ref sig .tc := ⟨.vmem, 55, rfl⟩
abbrev cc14_stg0_0 : Ref sig .tc := ⟨.vmem, 56, rfl⟩
abbrev cc14_stg0_1 : Ref sig .tc := ⟨.vmem, 57, rfl⟩
abbrev cc14_stg1_0 : Ref sig .tc := ⟨.vmem, 58, rfl⟩
abbrev cc14_stg1_1 : Ref sig .tc := ⟨.vmem, 59, rfl⟩
abbrev cc15_stg0_0 : Ref sig .tc := ⟨.vmem, 60, rfl⟩
abbrev cc15_stg0_1 : Ref sig .tc := ⟨.vmem, 61, rfl⟩
abbrev cc15_stg1_0 : Ref sig .tc := ⟨.vmem, 62, rfl⟩
abbrev cc15_stg1_1 : Ref sig .tc := ⟨.vmem, 63, rfl⟩
abbrev cc16_stg0_0 : Ref sig .tc := ⟨.vmem, 64, rfl⟩
abbrev cc16_stg0_1 : Ref sig .tc := ⟨.vmem, 65, rfl⟩
abbrev cc16_stg1_0 : Ref sig .tc := ⟨.vmem, 66, rfl⟩
abbrev cc16_stg1_1 : Ref sig .tc := ⟨.vmem, 67, rfl⟩
abbrev cc17_stg0_0 : Ref sig .tc := ⟨.vmem, 68, rfl⟩
abbrev cc17_stg0_1 : Ref sig .tc := ⟨.vmem, 69, rfl⟩
abbrev cc17_stg1_0 : Ref sig .tc := ⟨.vmem, 70, rfl⟩
abbrev cc17_stg1_1 : Ref sig .tc := ⟨.vmem, 71, rfl⟩
abbrev cc18_stg0_0 : Ref sig .tc := ⟨.vmem, 72, rfl⟩
abbrev cc18_stg0_1 : Ref sig .tc := ⟨.vmem, 73, rfl⟩
abbrev cc18_stg1_0 : Ref sig .tc := ⟨.vmem, 74, rfl⟩
abbrev cc18_stg1_1 : Ref sig .tc := ⟨.vmem, 75, rfl⟩
abbrev cc19_stg0_0 : Ref sig .tc := ⟨.vmem, 76, rfl⟩
abbrev cc19_stg0_1 : Ref sig .tc := ⟨.vmem, 77, rfl⟩
abbrev cc19_stg1_0 : Ref sig .tc := ⟨.vmem, 78, rfl⟩
abbrev cc19_stg1_1 : Ref sig .tc := ⟨.vmem, 79, rfl⟩
abbrev cc20_stg0_0 : Ref sig .tc := ⟨.vmem, 80, rfl⟩
abbrev cc20_stg0_1 : Ref sig .tc := ⟨.vmem, 81, rfl⟩
abbrev cc20_stg1_0 : Ref sig .tc := ⟨.vmem, 82, rfl⟩
abbrev cc20_stg1_1 : Ref sig .tc := ⟨.vmem, 83, rfl⟩
abbrev cc21_stg0_0 : Ref sig .tc := ⟨.vmem, 84, rfl⟩
abbrev cc21_stg0_1 : Ref sig .tc := ⟨.vmem, 85, rfl⟩
abbrev cc21_stg1_0 : Ref sig .tc := ⟨.vmem, 86, rfl⟩
abbrev cc21_stg1_1 : Ref sig .tc := ⟨.vmem, 87, rfl⟩
abbrev cc22_stg0_0 : Ref sig .tc := ⟨.vmem, 88, rfl⟩
abbrev cc22_stg0_1 : Ref sig .tc := ⟨.vmem, 89, rfl⟩
abbrev cc22_stg1_0 : Ref sig .tc := ⟨.vmem, 90, rfl⟩
abbrev cc22_stg1_1 : Ref sig .tc := ⟨.vmem, 91, rfl⟩
abbrev cc23_stg0_0 : Ref sig .tc := ⟨.vmem, 92, rfl⟩
abbrev cc23_stg0_1 : Ref sig .tc := ⟨.vmem, 93, rfl⟩
abbrev cc23_stg1_0 : Ref sig .tc := ⟨.vmem, 94, rfl⟩
abbrev cc23_stg1_1 : Ref sig .tc := ⟨.vmem, 95, rfl⟩
abbrev cc24_stg0_0 : Ref sig .tc := ⟨.vmem, 96, rfl⟩
abbrev cc24_stg0_1 : Ref sig .tc := ⟨.vmem, 97, rfl⟩
abbrev cc24_stg1_0 : Ref sig .tc := ⟨.vmem, 98, rfl⟩
abbrev cc24_stg1_1 : Ref sig .tc := ⟨.vmem, 99, rfl⟩
abbrev cc25_stg0_0 : Ref sig .tc := ⟨.vmem, 100, rfl⟩
abbrev cc25_stg0_1 : Ref sig .tc := ⟨.vmem, 101, rfl⟩
abbrev cc25_stg1_0 : Ref sig .tc := ⟨.vmem, 102, rfl⟩
abbrev cc25_stg1_1 : Ref sig .tc := ⟨.vmem, 103, rfl⟩
abbrev cc26_stg0_0 : Ref sig .tc := ⟨.vmem, 104, rfl⟩
abbrev cc26_stg0_1 : Ref sig .tc := ⟨.vmem, 105, rfl⟩
abbrev cc26_stg1_0 : Ref sig .tc := ⟨.vmem, 106, rfl⟩
abbrev cc26_stg1_1 : Ref sig .tc := ⟨.vmem, 107, rfl⟩
abbrev cc27_stg0_0 : Ref sig .tc := ⟨.vmem, 108, rfl⟩
abbrev cc27_stg0_1 : Ref sig .tc := ⟨.vmem, 109, rfl⟩
abbrev cc27_stg1_0 : Ref sig .tc := ⟨.vmem, 110, rfl⟩
abbrev cc27_stg1_1 : Ref sig .tc := ⟨.vmem, 111, rfl⟩
abbrev cc28_stg0_0 : Ref sig .tc := ⟨.vmem, 112, rfl⟩
abbrev cc28_stg0_1 : Ref sig .tc := ⟨.vmem, 113, rfl⟩
abbrev cc28_stg1_0 : Ref sig .tc := ⟨.vmem, 114, rfl⟩
abbrev cc28_stg1_1 : Ref sig .tc := ⟨.vmem, 115, rfl⟩
abbrev cc29_stg0_0 : Ref sig .tc := ⟨.vmem, 116, rfl⟩
abbrev cc29_stg0_1 : Ref sig .tc := ⟨.vmem, 117, rfl⟩
abbrev cc29_stg1_0 : Ref sig .tc := ⟨.vmem, 118, rfl⟩
abbrev cc29_stg1_1 : Ref sig .tc := ⟨.vmem, 119, rfl⟩
abbrev cc30_stg0_0 : Ref sig .tc := ⟨.vmem, 120, rfl⟩
abbrev cc30_stg0_1 : Ref sig .tc := ⟨.vmem, 121, rfl⟩
abbrev cc30_stg1_0 : Ref sig .tc := ⟨.vmem, 122, rfl⟩
abbrev cc30_stg1_1 : Ref sig .tc := ⟨.vmem, 123, rfl⟩
abbrev cc31_stg0_0 : Ref sig .tc := ⟨.vmem, 124, rfl⟩
abbrev cc31_stg0_1 : Ref sig .tc := ⟨.vmem, 125, rfl⟩
abbrev cc31_stg1_0 : Ref sig .tc := ⟨.vmem, 126, rfl⟩
abbrev cc31_stg1_1 : Ref sig .tc := ⟨.vmem, 127, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31
abbrev cc8_sem0_0 : DmaSem sig := 32
abbrev cc8_sem0_1 : DmaSem sig := 33
abbrev cc8_sem1_0 : DmaSem sig := 34
abbrev cc8_sem1_1 : DmaSem sig := 35
abbrev cc9_sem0_0 : DmaSem sig := 36
abbrev cc9_sem0_1 : DmaSem sig := 37
abbrev cc9_sem1_0 : DmaSem sig := 38
abbrev cc9_sem1_1 : DmaSem sig := 39
abbrev cc10_sem0_0 : DmaSem sig := 40
abbrev cc10_sem0_1 : DmaSem sig := 41
abbrev cc10_sem1_0 : DmaSem sig := 42
abbrev cc10_sem1_1 : DmaSem sig := 43
abbrev cc11_sem0_0 : DmaSem sig := 44
abbrev cc11_sem0_1 : DmaSem sig := 45
abbrev cc11_sem1_0 : DmaSem sig := 46
abbrev cc11_sem1_1 : DmaSem sig := 47
abbrev cc12_sem0_0 : DmaSem sig := 48
abbrev cc12_sem0_1 : DmaSem sig := 49
abbrev cc12_sem1_0 : DmaSem sig := 50
abbrev cc12_sem1_1 : DmaSem sig := 51
abbrev cc13_sem0_0 : DmaSem sig := 52
abbrev cc13_sem0_1 : DmaSem sig := 53
abbrev cc13_sem1_0 : DmaSem sig := 54
abbrev cc13_sem1_1 : DmaSem sig := 55
abbrev cc14_sem0_0 : DmaSem sig := 56
abbrev cc14_sem0_1 : DmaSem sig := 57
abbrev cc14_sem1_0 : DmaSem sig := 58
abbrev cc14_sem1_1 : DmaSem sig := 59
abbrev cc15_sem0_0 : DmaSem sig := 60
abbrev cc15_sem0_1 : DmaSem sig := 61
abbrev cc15_sem1_0 : DmaSem sig := 62
abbrev cc15_sem1_1 : DmaSem sig := 63
abbrev cc16_sem0_0 : DmaSem sig := 64
abbrev cc16_sem0_1 : DmaSem sig := 65
abbrev cc16_sem1_0 : DmaSem sig := 66
abbrev cc16_sem1_1 : DmaSem sig := 67
abbrev cc17_sem0_0 : DmaSem sig := 68
abbrev cc17_sem0_1 : DmaSem sig := 69
abbrev cc17_sem1_0 : DmaSem sig := 70
abbrev cc17_sem1_1 : DmaSem sig := 71
abbrev cc18_sem0_0 : DmaSem sig := 72
abbrev cc18_sem0_1 : DmaSem sig := 73
abbrev cc18_sem1_0 : DmaSem sig := 74
abbrev cc18_sem1_1 : DmaSem sig := 75
abbrev cc19_sem0_0 : DmaSem sig := 76
abbrev cc19_sem0_1 : DmaSem sig := 77
abbrev cc19_sem1_0 : DmaSem sig := 78
abbrev cc19_sem1_1 : DmaSem sig := 79
abbrev cc20_sem0_0 : DmaSem sig := 80
abbrev cc20_sem0_1 : DmaSem sig := 81
abbrev cc20_sem1_0 : DmaSem sig := 82
abbrev cc20_sem1_1 : DmaSem sig := 83
abbrev cc21_sem0_0 : DmaSem sig := 84
abbrev cc21_sem0_1 : DmaSem sig := 85
abbrev cc21_sem1_0 : DmaSem sig := 86
abbrev cc21_sem1_1 : DmaSem sig := 87
abbrev cc22_sem0_0 : DmaSem sig := 88
abbrev cc22_sem0_1 : DmaSem sig := 89
abbrev cc22_sem1_0 : DmaSem sig := 90
abbrev cc22_sem1_1 : DmaSem sig := 91
abbrev cc23_sem0_0 : DmaSem sig := 92
abbrev cc23_sem0_1 : DmaSem sig := 93
abbrev cc23_sem1_0 : DmaSem sig := 94
abbrev cc23_sem1_1 : DmaSem sig := 95
abbrev cc24_sem0_0 : DmaSem sig := 96
abbrev cc24_sem0_1 : DmaSem sig := 97
abbrev cc24_sem1_0 : DmaSem sig := 98
abbrev cc24_sem1_1 : DmaSem sig := 99
abbrev cc25_sem0_0 : DmaSem sig := 100
abbrev cc25_sem0_1 : DmaSem sig := 101
abbrev cc25_sem1_0 : DmaSem sig := 102
abbrev cc25_sem1_1 : DmaSem sig := 103
abbrev cc26_sem0_0 : DmaSem sig := 104
abbrev cc26_sem0_1 : DmaSem sig := 105
abbrev cc26_sem1_0 : DmaSem sig := 106
abbrev cc26_sem1_1 : DmaSem sig := 107
abbrev cc27_sem0_0 : DmaSem sig := 108
abbrev cc27_sem0_1 : DmaSem sig := 109
abbrev cc27_sem1_0 : DmaSem sig := 110
abbrev cc27_sem1_1 : DmaSem sig := 111
abbrev cc28_sem0_0 : DmaSem sig := 112
abbrev cc28_sem0_1 : DmaSem sig := 113
abbrev cc28_sem1_0 : DmaSem sig := 114
abbrev cc28_sem1_1 : DmaSem sig := 115
abbrev cc29_sem0_0 : DmaSem sig := 116
abbrev cc29_sem0_1 : DmaSem sig := 117
abbrev cc29_sem1_0 : DmaSem sig := 118
abbrev cc29_sem1_1 : DmaSem sig := 119
abbrev cc30_sem0_0 : DmaSem sig := 120
abbrev cc30_sem0_1 : DmaSem sig := 121
abbrev cc30_sem1_0 : DmaSem sig := 122
abbrev cc30_sem1_1 : DmaSem sig := 123
abbrev cc31_sem0_0 : DmaSem sig := 124
abbrev cc31_sem0_1 : DmaSem sig := 125
abbrev cc31_sem1_0 : DmaSem sig := 126
abbrev cc31_sem1_1 : DmaSem sig := 127

abbrev nD : Nat := 1
abbrev τ : Topo := Topo.v7x

variable {F : FTy → Type} [FloatOps F]

abbrev grid0 : Pipeline.Grid := ⟨2, ![2048, 32], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc0_transform_0 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2048, 32], ![false, false]⟩

abbrev pre1 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc1_transform_0 (k1_off1_inb : ∀ i : grid1.Coords, ∀ a, (k1_off1 i) a + S1.size a ≤ S65536.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k1_off1_inb i)) numel1_S1
  let c0_i32 : BitVec 32 := 0#32
  let c0_i32_0 : BitVec 32 := 0#32
  let c0_i32_1 : BitVec 32 := 0#32
  ![v3.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2048, 32], ![false, false]⟩

abbrev pre2 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc2_transform_0 (k2_off1_inb : ∀ i : grid2.Coords, ∀ a, (k2_off1 i) a + S1.size a ≤ S65536.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k2_off1_inb i)) numel1_S1
  let c0_i32 : BitVec 32 := 0#32
  let c0_i32_0 : BitVec 32 := 0#32
  let c0_i32_1 : BitVec 32 := 0#32
  ![v3.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![2048, 32], ![false, false]⟩

abbrev pre3 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc3_transform_0 (k3_off1_inb : ∀ i : grid3.Coords, ∀ a, (k3_off1 i) a + S1.size a ≤ S65536.size a) (numel1_S1 : S1.numel = 1) (pf : pre3.Contents (Elt F)) (i : grid3.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k3_off1_inb i)) numel1_S1
  let c0_i32 : BitVec 32 := 0#32
  let c0_i32_0 : BitVec 32 := 0#32
  let c0_i32_1 : BitVec 32 := 0#32
  ![v3.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![2048, 32], ![false, false]⟩

abbrev pre4 : Pipeline.Prefetch sig := ⟨1, ![main_v21.idx], fun | 0 => main_v21.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc4_transform_0 (k4_off1_inb : ∀ i : grid4.Coords, ∀ a, (k4_off1 i) a + S1.size a ≤ S65536.size a) (numel1_S1 : S1.numel = 1) (pf : pre4.Contents (Elt F)) (i : grid4.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k4_off1_inb i)) numel1_S1
  let c0_i32 : BitVec 32 := 0#32
  let c0_i32_0 : BitVec 32 := 0#32
  let c0_i32_1 : BitVec 32 := 0#32
  ![v3.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev grid5 : Pipeline.Grid := ⟨2, ![2048, 32], ![false, false]⟩

abbrev pre5 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc5_transform_0 (k5_off1_inb : ∀ i : grid5.Coords, ∀ a, (k5_off1 i) a + S1.size a ≤ S65536.size a) (numel1_S1 : S1.numel = 1) (pf : pre5.Contents (Elt F)) (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k5_off1_inb i)) numel1_S1
  let c0_i32 : BitVec 32 := 0#32
  let c0_i32_0 : BitVec 32 := 0#32
  let c0_i32_1 : BitVec 32 := 0#32
  ![v3.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev grid6 : Pipeline.Grid := ⟨2, ![2048, 32], ![false, false]⟩

abbrev pre6 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc6_transform_0 (k6_off1_inb : ∀ i : grid6.Coords, ∀ a, (k6_off1 i) a + S1.size a ≤ S65536.size a) (numel1_S1 : S1.numel = 1) (pf : pre6.Contents (Elt F)) (i : grid6.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k6_off1_inb i)) numel1_S1
  let c0_i32 : BitVec 32 := 0#32
  let c0_i32_0 : BitVec 32 := 0#32
  let c0_i32_1 : BitVec 32 := 0#32
  ![v3.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev grid7 : Pipeline.Grid := ⟨2, ![2048, 32], ![false, false]⟩

abbrev pre7 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc7_transform_0 (k7_off1_inb : ∀ i : grid7.Coords, ∀ a, (k7_off1 i) a + S1.size a ≤ S65536.size a) (numel1_S1 : S1.numel = 1) (pf : pre7.Contents (Elt F)) (i : grid7.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k7_off1_inb i)) numel1_S1
  let c0_i32 : BitVec 32 := 0#32
  let c0_i32_0 : BitVec 32 := 0#32
  let c0_i32_1 : BitVec 32 := 0#32
  ![v3.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev grid8 : Pipeline.Grid := ⟨2, ![2048, 32], ![false, false]⟩

abbrev pre8 : Pipeline.Prefetch sig := ⟨1, ![main_v37.idx], fun | 0 => main_v37.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc8_transform_0 (k8_off1_inb : ∀ i : grid8.Coords, ∀ a, (k8_off1 i) a + S1.size a ≤ S65536.size a) (numel1_S1 : S1.numel = 1) (pf : pre8.Contents (Elt F)) (i : grid8.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k8_off1_inb i)) numel1_S1
  let c0_i32 : BitVec 32 := 0#32
  let c0_i32_0 : BitVec 32 := 0#32
  let c0_i32_1 : BitVec 32 := 0#32
  ![v3.toNat, c0_i32.toNat, c0_i32_0.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x1x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev grid9 : Pipeline.Grid := ⟨2, ![2048, 32], ![false, false]⟩

abbrev pre9 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc9_transform_0 (k9_off1_inb : ∀ i : grid9.Coords, ∀ a, (k9_off1 i) a + S1.size a ≤ S65536.size a) (numel1_S1 : S1.numel = 1) (pf : pre9.Contents (Elt F)) (i : grid9.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k9_off1_inb i)) numel1_S1
  let c0_i32 : BitVec 32 := 0#32
  let c0_i32_0 : BitVec 32 := 0#32
  let c0_i32_1 : BitVec 32 := 0#32
  ![v3.toNat, c0_i32.toNat, c0_i32_0.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x1x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev grid10 : Pipeline.Grid := ⟨2, ![2048, 32], ![false, false]⟩

abbrev pre10 : Pipeline.Prefetch sig := ⟨1, ![main_v45.idx], fun | 0 => main_v45.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc10_transform_0 (k10_off1_inb : ∀ i : grid10.Coords, ∀ a, (k10_off1 i) a + S1.size a ≤ S65536.size a) (numel1_S1 : S1.numel = 1) (pf : pre10.Contents (Elt F)) (i : grid10.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k10_off1_inb i)) numel1_S1
  let c0_i32 : BitVec 32 := 0#32
  let c0_i32_0 : BitVec 32 := 0#32
  let c0_i32_1 : BitVec 32 := 0#32
  ![v3.toNat, c0_i32.toNat, c0_i32_0.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x1x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev grid11 : Pipeline.Grid := ⟨2, ![2048, 32], ![false, false]⟩

abbrev pre11 : Pipeline.Prefetch sig := ⟨1, ![main_v49.idx], fun | 0 => main_v49.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc11_transform_0 (k11_off1_inb : ∀ i : grid11.Coords, ∀ a, (k11_off1 i) a + S1.size a ≤ S65536.size a) (numel1_S1 : S1.numel = 1) (pf : pre11.Contents (Elt F)) (i : grid11.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k11_off1_inb i)) numel1_S1
  let c0_i32 : BitVec 32 := 0#32
  let c0_i32_0 : BitVec 32 := 0#32
  let c0_i32_1 : BitVec 32 := 0#32
  ![v3.toNat, c0_i32.toNat, c0_i32_0.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1x1x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev grid12 : Pipeline.Grid := ⟨2, ![2048, 32], ![false, false]⟩

abbrev pre12 : Pipeline.Prefetch sig := ⟨1, ![main_v53.idx], fun | 0 => main_v53.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc12_transform_0 (k12_off1_inb : ∀ i : grid12.Coords, ∀ a, (k12_off1 i) a + S1.size a ≤ S65536.size a) (numel1_S1 : S1.numel = 1) (pf : pre12.Contents (Elt F)) (i : grid12.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k12_off1_inb i)) numel1_S1
  let c0_i32 : BitVec 32 := 0#32
  let c0_i32_0 : BitVec 32 := 0#32
  let c0_i32_1 : BitVec 32 := 0#32
  ![v3.toNat, c0_i32.toNat, c0_i32_0.toNat]

def cc12_transform_1 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1x1x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, false]

abbrev grid13 : Pipeline.Grid := ⟨2, ![2048, 32], ![false, false]⟩

abbrev pre13 : Pipeline.Prefetch sig := ⟨1, ![main_v57.idx], fun | 0 => main_v57.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc13_transform_0 (k13_off1_inb : ∀ i : grid13.Coords, ∀ a, (k13_off1 i) a + S1.size a ≤ S65536.size a) (numel1_S1 : S1.numel = 1) (pf : pre13.Contents (Elt F)) (i : grid13.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k13_off1_inb i)) numel1_S1
  let c0_i32 : BitVec 32 := 0#32
  let c0_i32_0 : BitVec 32 := 0#32
  let c0_i32_1 : BitVec 32 := 0#32
  ![v3.toNat, c0_i32.toNat, c0_i32_0.toNat]

def cc13_transform_1 (i : grid13.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x1x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S1x1x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, false]

abbrev grid14 : Pipeline.Grid := ⟨2, ![2048, 32], ![false, false]⟩

abbrev pre14 : Pipeline.Prefetch sig := ⟨1, ![main_v61.idx], fun | 0 => main_v61.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc14_transform_0 (k14_off1_inb : ∀ i : grid14.Coords, ∀ a, (k14_off1 i) a + S1.size a ≤ S65536.size a) (numel1_S1 : S1.numel = 1) (pf : pre14.Contents (Elt F)) (i : grid14.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k14_off1_inb i)) numel1_S1
  let c0_i32 : BitVec 32 := 0#32
  let c0_i32_0 : BitVec 32 := 0#32
  let c0_i32_1 : BitVec 32 := 0#32
  ![v3.toNat, c0_i32.toNat, c0_i32_0.toNat]

def cc14_transform_1 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x1x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 2 → Memref sig .tc .vmem S1x1x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, false]

abbrev grid15 : Pipeline.Grid := ⟨2, ![2048, 32], ![false, false]⟩

abbrev pre15 : Pipeline.Prefetch sig := ⟨1, ![main_v65.idx], fun | 0 => main_v65.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc15_transform_0 (k15_off1_inb : ∀ i : grid15.Coords, ∀ a, (k15_off1 i) a + S1.size a ≤ S65536.size a) (numel1_S1 : S1.numel = 1) (pf : pre15.Contents (Elt F)) (i : grid15.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k15_off1_inb i)) numel1_S1
  let c0_i32 : BitVec 32 := 0#32
  let c0_i32_0 : BitVec 32 := 0#32
  let c0_i32_1 : BitVec 32 := 0#32
  ![v3.toNat, c0_i32.toNat, c0_i32_0.toNat]

def cc15_transform_1 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x1x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 2 → Memref sig .tc .vmem S1x1x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, false]

abbrev grid16 : Pipeline.Grid := ⟨2, ![2048, 32], ![false, false]⟩

abbrev pre16 : Pipeline.Prefetch sig := ⟨1, ![main_v69.idx], fun | 0 => main_v69.names | ⟨_ + 1, h⟩ => absurd h (Nat.not_lt.2 (Nat.le_add_left _ _)), fun | 0 => rfl | ⟨_ + 1, h⟩ => absurd h (Nat.not_lt.2 (Nat.le_add_left _ _))⟩

def k16_off1 (i : grid16.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc16_transform_0 (k16_off1_inb : ∀ i : grid16.Coords, ∀ a, (k16_off1 i) a + S1.size a ≤ S65536.size a) (numel1_S1 : S1.numel = 1) (pf : pre16.Contents (Elt F)) (i : grid16.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k16_off1_inb i)) numel1_S1
  let c0_i32 : BitVec 32 := 0#32
  let c0_i32_0 : BitVec 32 := 0#32
  let c0_i32_1 : BitVec 32 := 0#32
  ![v3.toNat, c0_i32.toNat, c0_i32_0.toNat]

def cc16_transform_1 (i : grid16.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x1x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S1x1x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true, false]

abbrev grid17 : Pipeline.Grid := ⟨2, ![2048, 32], ![false, false]⟩

abbrev pre17 : Pipeline.Prefetch sig := ⟨1, ![main_v73.idx], fun | 0 => main_v73.names | ⟨_ + 1, h⟩ => absurd h (Nat.not_lt.2 (Nat.le_add_left _ _)), fun | 0 => rfl | ⟨_ + 1, h⟩ => absurd h (Nat.not_lt.2 (Nat.le_add_left _ _))⟩

def k17_off1 (i : grid17.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc17_transform_0 (k17_off1_inb : ∀ i : grid17.Coords, ∀ a, (k17_off1 i) a + S1.size a ≤ S65536.size a) (numel1_S1 : S1.numel = 1) (pf : pre17.Contents (Elt F)) (i : grid17.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k17_off1_inb i)) numel1_S1
  let c0_i32 : BitVec 32 := 0#32
  let c0_i32_0 : BitVec 32 := 0#32
  let c0_i32_1 : BitVec 32 := 0#32
  ![v3.toNat, c0_i32.toNat, c0_i32_0.toNat]

def cc17_transform_1 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage17_0 : Fin 2 → Memref sig .tc .vmem S1x1x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, true]

abbrev stage17_1 : Fin 2 → Memref sig .tc .vmem S1x1x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true, false]

abbrev grid18 : Pipeline.Grid := ⟨2, ![2048, 32], ![false, false]⟩

abbrev pre18 : Pipeline.Prefetch sig := ⟨1, ![main_v77.idx], fun | 0 => main_v77.names | ⟨_ + 1, h⟩ => absurd h (Nat.not_lt.2 (Nat.le_add_left _ _)), fun | 0 => rfl | ⟨_ + 1, h⟩ => absurd h (Nat.not_lt.2 (Nat.le_add_left _ _))⟩

def k18_off1 (i : grid18.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc18_transform_0 (k18_off1_inb : ∀ i : grid18.Coords, ∀ a, (k18_off1 i) a + S1.size a ≤ S65536.size a) (numel1_S1 : S1.numel = 1) (pf : pre18.Contents (Elt F)) (i : grid18.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k18_off1_inb i)) numel1_S1
  let c0_i32 : BitVec 32 := 0#32
  let c0_i32_0 : BitVec 32 := 0#32
  let c0_i32_1 : BitVec 32 := 0#32
  ![v3.toNat, c0_i32.toNat, c0_i32_0.toNat]

def cc18_transform_1 (i : grid18.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage18_0 : Fin 2 → Memref sig .tc .vmem S1x1x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, true]

abbrev stage18_1 : Fin 2 → Memref sig .tc .vmem S1x1x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true, false]

abbrev grid19 : Pipeline.Grid := ⟨2, ![2048, 32], ![false, false]⟩

abbrev pre19 : Pipeline.Prefetch sig := ⟨1, ![main_v81.idx], fun | 0 => main_v81.names | ⟨_ + 1, h⟩ => absurd h (Nat.not_lt.2 (Nat.le_add_left _ _)), fun | 0 => rfl | ⟨_ + 1, h⟩ => absurd h (Nat.not_lt.2 (Nat.le_add_left _ _))⟩

def k19_off1 (i : grid19.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc19_transform_0 (k19_off1_inb : ∀ i : grid19.Coords, ∀ a, (k19_off1 i) a + S1.size a ≤ S65536.size a) (numel1_S1 : S1.numel = 1) (pf : pre19.Contents (Elt F)) (i : grid19.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k19_off1_inb i)) numel1_S1
  let c0_i32 : BitVec 32 := 0#32
  let c0_i32_0 : BitVec 32 := 0#32
  let c0_i32_1 : BitVec 32 := 0#32
  ![v3.toNat, c0_i32.toNat, c0_i32_0.toNat]

def cc19_transform_1 (i : grid19.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage19_0 : Fin 2 → Memref sig .tc .vmem S1x1x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, true]

abbrev stage19_1 : Fin 2 → Memref sig .tc .vmem S1x1x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true, false]

abbrev grid20 : Pipeline.Grid := ⟨2, ![2048, 32], ![false, false]⟩

abbrev pre20 : Pipeline.Prefetch sig := ⟨1, ![main_v85.idx], fun | 0 => main_v85.names | ⟨_ + 1, h⟩ => absurd h (Nat.not_lt.2 (Nat.le_add_left _ _)), fun | 0 => rfl | ⟨_ + 1, h⟩ => absurd h (Nat.not_lt.2 (Nat.le_add_left _ _))⟩

def k20_off1 (i : grid20.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc20_transform_0 (k20_off1_inb : ∀ i : grid20.Coords, ∀ a, (k20_off1 i) a + S1.size a ≤ S65536.size a) (numel1_S1 : S1.numel = 1) (pf : pre20.Contents (Elt F)) (i : grid20.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k20_off1_inb i)) numel1_S1
  let c0_i32 : BitVec 32 := 0#32
  let c0_i32_0 : BitVec 32 := 0#32
  let c0_i32_1 : BitVec 32 := 0#32
  ![v3.toNat, c0_i32.toNat, c0_i32_0.toNat]

def cc20_transform_1 (i : grid20.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage20_0 : Fin 2 → Memref sig .tc .vmem S1x1x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, true]

abbrev stage20_1 : Fin 2 → Memref sig .tc .vmem S1x1x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true, false]

abbrev grid21 : Pipeline.Grid := ⟨2, ![2048, 32], ![false, false]⟩

abbrev pre21 : Pipeline.Prefetch sig := ⟨1, ![main_v89.idx], fun | 0 => main_v89.names | ⟨_ + 1, h⟩ => absurd h (Nat.not_lt.2 (Nat.le_add_left _ _)), fun | 0 => rfl | ⟨_ + 1, h⟩ => absurd h (Nat.not_lt.2 (Nat.le_add_left _ _))⟩

def k21_off1 (i : grid21.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc21_transform_0 (k21_off1_inb : ∀ i : grid21.Coords, ∀ a, (k21_off1 i) a + S1.size a ≤ S65536.size a) (numel1_S1 : S1.numel = 1) (pf : pre21.Contents (Elt F)) (i : grid21.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k21_off1_inb i)) numel1_S1
  let c0_i32 : BitVec 32 := 0#32
  let c0_i32_0 : BitVec 32 := 0#32
  let c0_i32_1 : BitVec 32 := 0#32
  ![v3.toNat, c0_i32.toNat, c0_i32_0.toNat]

def cc21_transform_1 (i : grid21.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage21_0 : Fin 2 → Memref sig .tc .vmem S1x1x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, true]

abbrev stage21_1 : Fin 2 → Memref sig .tc .vmem S1x1x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true, false]

abbrev grid22 : Pipeline.Grid := ⟨2, ![2048, 32], ![false, false]⟩

abbrev pre22 : Pipeline.Prefetch sig := ⟨1, ![main_v93.idx], fun | 0 => main_v93.names | ⟨_ + 1, h⟩ => absurd h (Nat.not_lt.2 (Nat.le_add_left _ _)), fun | 0 => rfl | ⟨_ + 1, h⟩ => absurd h (Nat.not_lt.2 (Nat.le_add_left _ _))⟩

def k22_off1 (i : grid22.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc22_transform_0 (k22_off1_inb : ∀ i : grid22.Coords, ∀ a, (k22_off1 i) a + S1.size a ≤ S65536.size a) (numel1_S1 : S1.numel = 1) (pf : pre22.Contents (Elt F)) (i : grid22.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k22_off1_inb i)) numel1_S1
  let c0_i32 : BitVec 32 := 0#32
  let c0_i32_0 : BitVec 32 := 0#32
  let c0_i32_1 : BitVec 32 := 0#32
  ![v3.toNat, c0_i32.toNat, c0_i32_0.toNat]

def cc22_transform_1 (i : grid22.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage22_0 : Fin 2 → Memref sig .tc .vmem S1x1x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true, true]

abbrev stage22_1 : Fin 2 → Memref sig .tc .vmem S1x1x128 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true, false]

abbrev grid23 : Pipeline.Grid := ⟨2, ![2048, 32], ![false, false]⟩

abbrev pre23 : Pipeline.Prefetch sig := ⟨1, ![main_v97.idx], fun | 0 => main_v97.names | ⟨_ + 1, h⟩ => absurd h (Nat.not_lt.2 (Nat.le_add_left _ _)), fun | 0 => rfl | ⟨_ + 1, h⟩ => absurd h (Nat.not_lt.2 (Nat.le_add_left _ _))⟩

def k23_off1 (i : grid23.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc23_transform_0 (k23_off1_inb : ∀ i : grid23.Coords, ∀ a, (k23_off1 i) a + S1.size a ≤ S65536.size a) (numel1_S1 : S1.numel = 1) (pf : pre23.Contents (Elt F)) (i : grid23.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k23_off1_inb i)) numel1_S1
  let c0_i32 : BitVec 32 := 0#32
  let c0_i32_0 : BitVec 32 := 0#32
  let c0_i32_1 : BitVec 32 := 0#32
  ![v3.toNat, c0_i32.toNat, c0_i32_0.toNat]

def cc23_transform_1 (i : grid23.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage23_0 : Fin 2 → Memref sig .tc .vmem S1x1x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true, true]

abbrev stage23_1 : Fin 2 → Memref sig .tc .vmem S1x1x128 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true, false]

abbrev grid24 : Pipeline.Grid := ⟨2, ![2048, 32], ![false, false]⟩

abbrev pre24 : Pipeline.Prefetch sig := ⟨1, ![main_v101.idx], fun | 0 => main_v101.names | ⟨_ + 1, h⟩ => absurd h (Nat.not_lt.2 (Nat.le_add_left _ _)), fun | 0 => rfl | ⟨_ + 1, h⟩ => absurd h (Nat.not_lt.2 (Nat.le_add_left _ _))⟩

def k24_off1 (i : grid24.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc24_transform_0 (k24_off1_inb : ∀ i : grid24.Coords, ∀ a, (k24_off1 i) a + S1.size a ≤ S65536.size a) (numel1_S1 : S1.numel = 1) (pf : pre24.Contents (Elt F)) (i : grid24.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k24_off1_inb i)) numel1_S1
  let c0_i32 : BitVec 32 := 0#32
  let c0_i32_0 : BitVec 32 := 0#32
  let c0_i32_1 : BitVec 32 := 0#32
  ![v3.toNat, c0_i32.toNat, c0_i32_0.toNat]

def cc24_transform_1 (i : grid24.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage24_0 : Fin 2 → Memref sig .tc .vmem S1x1x128 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true, true]

abbrev stage24_1 : Fin 2 → Memref sig .tc .vmem S1x1x128 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true, false]

abbrev grid25 : Pipeline.Grid := ⟨2, ![2048, 32], ![false, false]⟩

abbrev pre25 : Pipeline.Prefetch sig := ⟨1, ![main_v105.idx], fun | 0 => main_v105.names | ⟨_ + 1, h⟩ => absurd h (Nat.not_lt.2 (Nat.le_add_left _ _)), fun | 0 => rfl | ⟨_ + 1, h⟩ => absurd h (Nat.not_lt.2 (Nat.le_add_left _ _))⟩

def k25_off1 (i : grid25.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc25_transform_0 (k25_off1_inb : ∀ i : grid25.Coords, ∀ a, (k25_off1 i) a + S1.size a ≤ S65536.size a) (numel1_S1 : S1.numel = 1) (pf : pre25.Contents (Elt F)) (i : grid25.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k25_off1_inb i)) numel1_S1
  let c0_i32 : BitVec 32 := 0#32
  let c0_i32_0 : BitVec 32 := 0#32
  let c0_i32_1 : BitVec 32 := 0#32
  ![v3.toNat, c0_i32.toNat, c0_i32_0.toNat]

def cc25_transform_1 (i : grid25.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage25_0 : Fin 2 → Memref sig .tc .vmem S1x1x128 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true, true]

abbrev stage25_1 : Fin 2 → Memref sig .tc .vmem S1x1x128 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true, false]

abbrev grid26 : Pipeline.Grid := ⟨2, ![2048, 32], ![false, false]⟩

abbrev pre26 : Pipeline.Prefetch sig := ⟨1, ![main_v109.idx], fun | 0 => main_v109.names | ⟨_ + 1, h⟩ => absurd h (Nat.not_lt.2 (Nat.le_add_left _ _)), fun | 0 => rfl | ⟨_ + 1, h⟩ => absurd h (Nat.not_lt.2 (Nat.le_add_left _ _))⟩

def k26_off1 (i : grid26.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc26_transform_0 (k26_off1_inb : ∀ i : grid26.Coords, ∀ a, (k26_off1 i) a + S1.size a ≤ S65536.size a) (numel1_S1 : S1.numel = 1) (pf : pre26.Contents (Elt F)) (i : grid26.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k26_off1_inb i)) numel1_S1
  let c0_i32 : BitVec 32 := 0#32
  let c0_i32_0 : BitVec 32 := 0#32
  let c0_i32_1 : BitVec 32 := 0#32
  ![v3.toNat, c0_i32.toNat, c0_i32_0.toNat]

def cc26_transform_1 (i : grid26.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage26_0 : Fin 2 → Memref sig .tc .vmem S1x1x128 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true, true]

abbrev stage26_1 : Fin 2 → Memref sig .tc .vmem S1x1x128 .f32 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![true, false]

abbrev grid27 : Pipeline.Grid := ⟨2, ![2048, 32], ![false, false]⟩

abbrev pre27 : Pipeline.Prefetch sig := ⟨1, ![main_v113.idx], fun | 0 => main_v113.names | ⟨_ + 1, h⟩ => absurd h (Nat.not_lt.2 (Nat.le_add_left _ _)), fun | 0 => rfl | ⟨_ + 1, h⟩ => absurd h (Nat.not_lt.2 (Nat.le_add_left _ _))⟩

def k27_off1 (i : grid27.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc27_transform_0 (k27_off1_inb : ∀ i : grid27.Coords, ∀ a, (k27_off1 i) a + S1.size a ≤ S65536.size a) (numel1_S1 : S1.numel = 1) (pf : pre27.Contents (Elt F)) (i : grid27.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k27_off1_inb i)) numel1_S1
  let c0_i32 : BitVec 32 := 0#32
  let c0_i32_0 : BitVec 32 := 0#32
  let c0_i32_1 : BitVec 32 := 0#32
  ![v3.toNat, c0_i32.toNat, c0_i32_0.toNat]

def cc27_transform_1 (i : grid27.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage27_0 : Fin 2 → Memref sig .tc .vmem S1x1x128 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true, true]

abbrev stage27_1 : Fin 2 → Memref sig .tc .vmem S1x1x128 .f32 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![true, false]

abbrev grid28 : Pipeline.Grid := ⟨2, ![2048, 32], ![false, false]⟩

abbrev pre28 : Pipeline.Prefetch sig := ⟨1, ![main_v117.idx], fun | 0 => main_v117.names | ⟨_ + 1, h⟩ => absurd h (Nat.not_lt.2 (Nat.le_add_left _ _)), fun | 0 => rfl | ⟨_ + 1, h⟩ => absurd h (Nat.not_lt.2 (Nat.le_add_left _ _))⟩

def k28_off1 (i : grid28.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc28_transform_0 (k28_off1_inb : ∀ i : grid28.Coords, ∀ a, (k28_off1 i) a + S1.size a ≤ S65536.size a) (numel1_S1 : S1.numel = 1) (pf : pre28.Contents (Elt F)) (i : grid28.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k28_off1_inb i)) numel1_S1
  let c0_i32 : BitVec 32 := 0#32
  let c0_i32_0 : BitVec 32 := 0#32
  let c0_i32_1 : BitVec 32 := 0#32
  ![v3.toNat, c0_i32.toNat, c0_i32_0.toNat]

def cc28_transform_1 (i : grid28.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage28_0 : Fin 2 → Memref sig .tc .vmem S1x1x128 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true, true]

abbrev stage28_1 : Fin 2 → Memref sig .tc .vmem S1x1x128 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true, false]

abbrev grid29 : Pipeline.Grid := ⟨2, ![2048, 32], ![false, false]⟩

abbrev pre29 : Pipeline.Prefetch sig := ⟨1, ![main_v121.idx], fun | 0 => main_v121.names | ⟨_ + 1, h⟩ => absurd h (Nat.not_lt.2 (Nat.le_add_left _ _)), fun | 0 => rfl | ⟨_ + 1, h⟩ => absurd h (Nat.not_lt.2 (Nat.le_add_left _ _))⟩

def k29_off1 (i : grid29.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc29_transform_0 (k29_off1_inb : ∀ i : grid29.Coords, ∀ a, (k29_off1 i) a + S1.size a ≤ S65536.size a) (numel1_S1 : S1.numel = 1) (pf : pre29.Contents (Elt F)) (i : grid29.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k29_off1_inb i)) numel1_S1
  let c0_i32 : BitVec 32 := 0#32
  let c0_i32_0 : BitVec 32 := 0#32
  let c0_i32_1 : BitVec 32 := 0#32
  ![v3.toNat, c0_i32.toNat, c0_i32_0.toNat]

def cc29_transform_1 (i : grid29.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage29_0 : Fin 2 → Memref sig .tc .vmem S1x1x128 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true, true]

abbrev stage29_1 : Fin 2 → Memref sig .tc .vmem S1x1x128 .f32 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![true, false]

abbrev grid30 : Pipeline.Grid := ⟨2, ![2048, 32], ![false, false]⟩

abbrev pre30 : Pipeline.Prefetch sig := ⟨1, ![main_v125.idx], fun | 0 => main_v125.names | ⟨_ + 1, h⟩ => absurd h (Nat.not_lt.2 (Nat.le_add_left _ _)), fun | 0 => rfl | ⟨_ + 1, h⟩ => absurd h (Nat.not_lt.2 (Nat.le_add_left _ _))⟩

def k30_off1 (i : grid30.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc30_transform_0 (k30_off1_inb : ∀ i : grid30.Coords, ∀ a, (k30_off1 i) a + S1.size a ≤ S65536.size a) (numel1_S1 : S1.numel = 1) (pf : pre30.Contents (Elt F)) (i : grid30.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k30_off1_inb i)) numel1_S1
  let c0_i32 : BitVec 32 := 0#32
  let c0_i32_0 : BitVec 32 := 0#32
  let c0_i32_1 : BitVec 32 := 0#32
  ![v3.toNat, c0_i32.toNat, c0_i32_0.toNat]

def cc30_transform_1 (i : grid30.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage30_0 : Fin 2 → Memref sig .tc .vmem S1x1x128 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true, true]

abbrev stage30_1 : Fin 2 → Memref sig .tc .vmem S1x1x128 .f32 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![true, false]

abbrev grid31 : Pipeline.Grid := ⟨2, ![2048, 32], ![false, false]⟩

abbrev pre31 : Pipeline.Prefetch sig := ⟨1, ![main_v129.idx], fun | 0 => main_v129.names | ⟨_ + 1, h⟩ => absurd h (Nat.not_lt.2 (Nat.le_add_left _ _)), fun | 0 => rfl | ⟨_ + 1, h⟩ => absurd h (Nat.not_lt.2 (Nat.le_add_left _ _))⟩

def k31_off1 (i : grid31.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def cc31_transform_0 (k31_off1_inb : ∀ i : grid31.Coords, ∀ a, (k31_off1 i) a + S1.size a ≤ S65536.size a) (numel1_S1 : S1.numel = 1) (pf : pre31.Contents (Elt F)) (i : grid31.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let v2 : Index := Scalar.indexCast v1
  let v3 : BitVec 32 := pf.at 0 (Rect.unit (s := S65536) ![v2.toNat] S1.size (k31_off1_inb i)) numel1_S1
  let c0_i32 : BitVec 32 := 0#32
  let c0_i32_0 : BitVec 32 := 0#32
  let c0_i32_1 : BitVec 32 := 0#32
  ![v3.toNat, c0_i32.toNat, c0_i32_0.toNat]

def cc31_transform_1 (i : grid31.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage31_0 : Fin 2 → Memref sig .tc .vmem S1x1x128 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true, true]

abbrev stage31_1 : Fin 2 → Memref sig .tc .vmem S1x1x128 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true, false]

class Facts₀ : Prop where
  slices_S262144x128_S1x128_0_0 : S262144x128.Slices ![0, 0] S1x128
  bcast_S_S1x128 : S_.BroadcastsInDim S1x128 (![] : Fin 0 → Fin S1x128.rank)
  concatenates_S262144x128_S1x128_S262145x128_d0 : Shape.Concatenates [S262144x128, S1x128] S262145x128 0
  bcast_S262145x128_S262145x1x128_0_2 : S262145x128.BroadcastsInDim S262145x1x128 (![0, 2] : Fin 2 → Fin S262145x1x128.rank)
  slices_S65536x32_S2048x32_0_0 : S65536x32.Slices ![0, 0] S2048x32
  shapeCasts_S2048x32_S65536 : S2048x32.ShapeCasts S65536
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S2048x1x128_S2048x128 : S2048x1x128.ShapeCasts S2048x128
  slices_S65536x32_S2048x32_2048_0 : S65536x32.Slices ![2048, 0] S2048x32
  slices_S65536x32_S2048x32_4096_0 : S65536x32.Slices ![4096, 0] S2048x32
  slices_S65536x32_S2048x32_6144_0 : S65536x32.Slices ![6144, 0] S2048x32
  slices_S65536x32_S2048x32_8192_0 : S65536x32.Slices ![8192, 0] S2048x32
  slices_S65536x32_S2048x32_10240_0 : S65536x32.Slices ![10240, 0] S2048x32
  slices_S65536x32_S2048x32_12288_0 : S65536x32.Slices ![12288, 0] S2048x32
  slices_S65536x32_S2048x32_14336_0 : S65536x32.Slices ![14336, 0] S2048x32
  slices_S65536x32_S2048x32_16384_0 : S65536x32.Slices ![16384, 0] S2048x32
  slices_S65536x32_S2048x32_18432_0 : S65536x32.Slices ![18432, 0] S2048x32
  slices_S65536x32_S2048x32_20480_0 : S65536x32.Slices ![20480, 0] S2048x32
  slices_S65536x32_S2048x32_22528_0 : S65536x32.Slices ![22528, 0] S2048x32
  slices_S65536x32_S2048x32_24576_0 : S65536x32.Slices ![24576, 0] S2048x32
  slices_S65536x32_S2048x32_26624_0 : S65536x32.Slices ![26624, 0] S2048x32
  slices_S65536x32_S2048x32_28672_0 : S65536x32.Slices ![28672, 0] S2048x32
  slices_S65536x32_S2048x32_30720_0 : S65536x32.Slices ![30720, 0] S2048x32
  slices_S65536x32_S2048x32_32768_0 : S65536x32.Slices ![32768, 0] S2048x32
  slices_S65536x32_S2048x32_34816_0 : S65536x32.Slices ![34816, 0] S2048x32
  slices_S65536x32_S2048x32_36864_0 : S65536x32.Slices ![36864, 0] S2048x32
  slices_S65536x32_S2048x32_38912_0 : S65536x32.Slices ![38912, 0] S2048x32
  slices_S65536x32_S2048x32_40960_0 : S65536x32.Slices ![40960, 0] S2048x32
  slices_S65536x32_S2048x32_43008_0 : S65536x32.Slices ![43008, 0] S2048x32
  slices_S65536x32_S2048x32_45056_0 : S65536x32.Slices ![45056, 0] S2048x32
  slices_S65536x32_S2048x32_47104_0 : S65536x32.Slices ![47104, 0] S2048x32
  slices_S65536x32_S2048x32_49152_0 : S65536x32.Slices ![49152, 0] S2048x32
  slices_S65536x32_S2048x32_51200_0 : S65536x32.Slices ![51200, 0] S2048x32
  slices_S65536x32_S2048x32_53248_0 : S65536x32.Slices ![53248, 0] S2048x32
  slices_S65536x32_S2048x32_55296_0 : S65536x32.Slices ![55296, 0] S2048x32
  slices_S65536x32_S2048x32_57344_0 : S65536x32.Slices ![57344, 0] S2048x32
  slices_S65536x32_S2048x32_59392_0 : S65536x32.Slices ![59392, 0] S2048x32
  slices_S65536x32_S2048x32_61440_0 : S65536x32.Slices ![61440, 0] S2048x32
  slices_S65536x32_S2048x32_63488_0 : S65536x32.Slices ![63488, 0] S2048x32
  concatenates_S2048x128_S2048x128_S2048x128_S2048x128_S2048x128_S2048x128_S2048x128_S2048x128_S2048x128_S2048x128_S2048x128_S2048x128_S2048x128_S2048x128_S2048x128_S2048x128_S32768x128_d0 : Shape.Concatenates [S2048x128, S2048x128, S2048x128, S2048x128, S2048x128, S2048x128, S2048x128, S2048x128, S2048x128, S2048x128, S2048x128, S2048x128, S2048x128, S2048x128, S2048x128, S2048x128] S32768x128 0
  concatenates_S32768x128_S32768x128_S65536x128_d0 : Shape.Concatenates [S32768x128, S32768x128] S65536x128 0
  hrank0 : 0 < grid0.rank
  k0_off1_inb : ∀ i : grid0.Coords, ∀ a, (k0_off1 i) a + S1.size a ≤ S65536.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2048x1x128.size a
  hwx0_1 : ∀ i : grid0.Coords, EltTy.bits .f32 = 32 ∨ (Rect.block (s := S2048x1x128) S1x1x128.size (cc0_transform_1 i) (hinb0_1 i)).WholeWords (EltTy.packing .f32)
  hrank1 : 0 < grid1.rank
  k1_off1_inb : ∀ i : grid1.Coords, ∀ a, (k1_off1 i) a + S1.size a ≤ S65536.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S2048x1x128.size a
  hwx1_1 : ∀ i : grid1.Coords, EltTy.bits .f32 = 32 ∨ (Rect.block (s := S2048x1x128) S1x1x128.size (cc1_transform_1 i) (hinb1_1 i)).WholeWords (EltTy.packing .f32)
  hrank2 : 0 < grid2.rank
  k2_off1_inb : ∀ i : grid2.Coords, ∀ a, (k2_off1 i) a + S1.size a ≤ S65536.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S2048x1x128.size a
  hwx2_1 : ∀ i : grid2.Coords, EltTy.bits .f32 = 32 ∨ (Rect.block (s := S2048x1x128) S1x1x128.size (cc2_transform_1 i) (hinb2_1 i)).WholeWords (EltTy.packing .f32)
  hrank3 : 0 < grid3.rank
  k3_off1_inb : ∀ i : grid3.Coords, ∀ a, (k3_off1 i) a + S1.size a ≤ S65536.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x128.size a ≤ S2048x1x128.size a
  hwx3_1 : ∀ i : grid3.Coords, EltTy.bits .f32 = 32 ∨ (Rect.block (s := S2048x1x128) S1x1x128.size (cc3_transform_1 i) (hinb3_1 i)).WholeWords (EltTy.packing .f32)
  hrank4 : 0 < grid4.rank
  k4_off1_inb : ∀ i : grid4.Coords, ∀ a, (k4_off1 i) a + S1.size a ≤ S65536.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x128.size a ≤ S2048x1x128.size a
  hwx4_1 : ∀ i : grid4.Coords, EltTy.bits .f32 = 32 ∨ (Rect.block (s := S2048x1x128) S1x1x128.size (cc4_transform_1 i) (hinb4_1 i)).WholeWords (EltTy.packing .f32)
  hrank5 : 0 < grid5.rank
  k5_off1_inb : ∀ i : grid5.Coords, ∀ a, (k5_off1 i) a + S1.size a ≤ S65536.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x128.size a ≤ S2048x1x128.size a
  hwx5_1 : ∀ i : grid5.Coords, EltTy.bits .f32 = 32 ∨ (Rect.block (s := S2048x1x128) S1x1x128.size (cc5_transform_1 i) (hinb5_1 i)).WholeWords (EltTy.packing .f32)
  hrank6 : 0 < grid6.rank
  k6_off1_inb : ∀ i : grid6.Coords, ∀ a, (k6_off1 i) a + S1.size a ≤ S65536.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x128.size a ≤ S2048x1x128.size a
  hwx6_1 : ∀ i : grid6.Coords, EltTy.bits .f32 = 32 ∨ (Rect.block (s := S2048x1x128) S1x1x128.size (cc6_transform_1 i) (hinb6_1 i)).WholeWords (EltTy.packing .f32)
  hrank7 : 0 < grid7.rank
  k7_off1_inb : ∀ i : grid7.Coords, ∀ a, (k7_off1 i) a + S1.size a ≤ S65536.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x128.size a ≤ S2048x1x128.size a
  hwx7_1 : ∀ i : grid7.Coords, EltTy.bits .f32 = 32 ∨ (Rect.block (s := S2048x1x128) S1x1x128.size (cc7_transform_1 i) (hinb7_1 i)).WholeWords (EltTy.packing .f32)
  hrank8 : 0 < grid8.rank
  k8_off1_inb : ∀ i : grid8.Coords, ∀ a, (k8_off1 i) a + S1.size a ≤ S65536.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x1x128.size a ≤ S2048x1x128.size a
  hwx8_1 : ∀ i : grid8.Coords, EltTy.bits .f32 = 32 ∨ (Rect.block (s := S2048x1x128) S1x1x128.size (cc8_transform_1 i) (hinb8_1 i)).WholeWords (EltTy.packing .f32)
  hrank9 : 0 < grid9.rank
  k9_off1_inb : ∀ i : grid9.Coords, ∀ a, (k9_off1 i) a + S1.size a ≤ S65536.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x1x128.size a ≤ S2048x1x128.size a
  hwx9_1 : ∀ i : grid9.Coords, EltTy.bits .f32 = 32 ∨ (Rect.block (s := S2048x1x128) S1x1x128.size (cc9_transform_1 i) (hinb9_1 i)).WholeWords (EltTy.packing .f32)
  hrank10 : 0 < grid10.rank
  k10_off1_inb : ∀ i : grid10.Coords, ∀ a, (k10_off1 i) a + S1.size a ≤ S65536.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x1x128.size a ≤ S2048x1x128.size a
  hwx10_1 : ∀ i : grid10.Coords, EltTy.bits .f32 = 32 ∨ (Rect.block (s := S2048x1x128) S1x1x128.size (cc10_transform_1 i) (hinb10_1 i)).WholeWords (EltTy.packing .f32)
  hrank11 : 0 < grid11.rank
  k11_off1_inb : ∀ i : grid11.Coords, ∀ a, (k11_off1 i) a + S1.size a ≤ S65536.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x1x128.size a ≤ S2048x1x128.size a
  hwx11_1 : ∀ i : grid11.Coords, EltTy.bits .f32 = 32 ∨ (Rect.block (s := S2048x1x128) S1x1x128.size (cc11_transform_1 i) (hinb11_1 i)).WholeWords (EltTy.packing .f32)
  hrank12 : 0 < grid12.rank
  k12_off1_inb : ∀ i : grid12.Coords, ∀ a, (k12_off1 i) a + S1.size a ≤ S65536.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x1x128.size a ≤ S2048x1x128.size a
  hwx12_1 : ∀ i : grid12.Coords, EltTy.bits .f32 = 32 ∨ (Rect.block (s := S2048x1x128) S1x1x128.size (cc12_transform_1 i) (hinb12_1 i)).WholeWords (EltTy.packing .f32)
  hrank13 : 0 < grid13.rank
  k13_off1_inb : ∀ i : grid13.Coords, ∀ a, (k13_off1 i) a + S1.size a ≤ S65536.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x1x128.size a ≤ S2048x1x128.size a
  hwx13_1 : ∀ i : grid13.Coords, EltTy.bits .f32 = 32 ∨ (Rect.block (s := S2048x1x128) S1x1x128.size (cc13_transform_1 i) (hinb13_1 i)).WholeWords (EltTy.packing .f32)
  hrank14 : 0 < grid14.rank
  k14_off1_inb : ∀ i : grid14.Coords, ∀ a, (k14_off1 i) a + S1.size a ≤ S65536.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1x1x128.size a ≤ S2048x1x128.size a
  hwx14_1 : ∀ i : grid14.Coords, EltTy.bits .f32 = 32 ∨ (Rect.block (s := S2048x1x128) S1x1x128.size (cc14_transform_1 i) (hinb14_1 i)).WholeWords (EltTy.packing .f32)
  hrank15 : 0 < grid15.rank
  k15_off1_inb : ∀ i : grid15.Coords, ∀ a, (k15_off1 i) a + S1.size a ≤ S65536.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1x1x128.size a ≤ S2048x1x128.size a
  hwx15_1 : ∀ i : grid15.Coords, EltTy.bits .f32 = 32 ∨ (Rect.block (s := S2048x1x128) S1x1x128.size (cc15_transform_1 i) (hinb15_1 i)).WholeWords (EltTy.packing .f32)
  hrank16 : 0 < grid16.rank
  k16_off1_inb : ∀ i : grid16.Coords, ∀ a, (k16_off1 i) a + S1.size a ≤ S65536.size a
  hstage16_0 : ∀ j, (stage16_0 j).IsWhole
  nbuf16_0 : grid16.bufCount reads16_0 false = 2
  hreads16_0 : ∀ {F : FTy → Type} [FloatOps F] (pf : pre16.Contents (Elt F)) (i i' : grid16.Coords), (∀ a, reads16_0 a = true → i a = i' a) → cc16_transform_0 k16_off1_inb numel1_S1 pf i = cc16_transform_0 k16_off1_inb numel1_S1 pf i'
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x1x128.size a ≤ S2048x1x128.size a
  hwx16_1 : ∀ i : grid16.Coords, EltTy.bits .f32 = 32 ∨ (Rect.block (s := S2048x1x128) S1x1x128.size (cc16_transform_1 i) (hinb16_1 i)).WholeWords (EltTy.packing .f32)
  hrank17 : 0 < grid17.rank
  k17_off1_inb : ∀ i : grid17.Coords, ∀ a, (k17_off1 i) a + S1.size a ≤ S65536.size a
  hstage17_0 : ∀ j, (stage17_0 j).IsWhole
  nbuf17_0 : grid17.bufCount reads17_0 false = 2
  hreads17_0 : ∀ {F : FTy → Type} [FloatOps F] (pf : pre17.Contents (Elt F)) (i i' : grid17.Coords), (∀ a, reads17_0 a = true → i a = i' a) → cc17_transform_0 k17_off1_inb numel1_S1 pf i = cc17_transform_0 k17_off1_inb numel1_S1 pf i'
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S1x1x128.size a ≤ S2048x1x128.size a
  hwx17_1 : ∀ i : grid17.Coords, EltTy.bits .f32 = 32 ∨ (Rect.block (s := S2048x1x128) S1x1x128.size (cc17_transform_1 i) (hinb17_1 i)).WholeWords (EltTy.packing .f32)
  hrank18 : 0 < grid18.rank
  k18_off1_inb : ∀ i : grid18.Coords, ∀ a, (k18_off1 i) a + S1.size a ≤ S65536.size a
  hstage18_0 : ∀ j, (stage18_0 j).IsWhole
  nbuf18_0 : grid18.bufCount reads18_0 false = 2
  hreads18_0 : ∀ {F : FTy → Type} [FloatOps F] (pf : pre18.Contents (Elt F)) (i i' : grid18.Coords), (∀ a, reads18_0 a = true → i a = i' a) → cc18_transform_0 k18_off1_inb numel1_S1 pf i = cc18_transform_0 k18_off1_inb numel1_S1 pf i'
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1x1x128.size a ≤ S2048x1x128.size a
  hwx18_1 : ∀ i : grid18.Coords, EltTy.bits .f32 = 32 ∨ (Rect.block (s := S2048x1x128) S1x1x128.size (cc18_transform_1 i) (hinb18_1 i)).WholeWords (EltTy.packing .f32)
  hrank19 : 0 < grid19.rank
  k19_off1_inb : ∀ i : grid19.Coords, ∀ a, (k19_off1 i) a + S1.size a ≤ S65536.size a
  hstage19_0 : ∀ j, (stage19_0 j).IsWhole
  nbuf19_0 : grid19.bufCount reads19_0 false = 2
  hreads19_0 : ∀ {F : FTy → Type} [FloatOps F] (pf : pre19.Contents (Elt F)) (i i' : grid19.Coords), (∀ a, reads19_0 a = true → i a = i' a) → cc19_transform_0 k19_off1_inb numel1_S1 pf i = cc19_transform_0 k19_off1_inb numel1_S1 pf i'
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S1x1x128.size a ≤ S2048x1x128.size a
  hwx19_1 : ∀ i : grid19.Coords, EltTy.bits .f32 = 32 ∨ (Rect.block (s := S2048x1x128) S1x1x128.size (cc19_transform_1 i) (hinb19_1 i)).WholeWords (EltTy.packing .f32)
  hrank20 : 0 < grid20.rank
  k20_off1_inb : ∀ i : grid20.Coords, ∀ a, (k20_off1 i) a + S1.size a ≤ S65536.size a
  hstage20_0 : ∀ j, (stage20_0 j).IsWhole
  nbuf20_0 : grid20.bufCount reads20_0 false = 2
  hreads20_0 : ∀ {F : FTy → Type} [FloatOps F] (pf : pre20.Contents (Elt F)) (i i' : grid20.Coords), (∀ a, reads20_0 a = true → i a = i' a) → cc20_transform_0 k20_off1_inb numel1_S1 pf i = cc20_transform_0 k20_off1_inb numel1_S1 pf i'
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S1x1x128.size a ≤ S2048x1x128.size a
  hwx20_1 : ∀ i : grid20.Coords, EltTy.bits .f32 = 32 ∨ (Rect.block (s := S2048x1x128) S1x1x128.size (cc20_transform_1 i) (hinb20_1 i)).WholeWords (EltTy.packing .f32)
  hrank21 : 0 < grid21.rank
  k21_off1_inb : ∀ i : grid21.Coords, ∀ a, (k21_off1 i) a + S1.size a ≤ S65536.size a
  hstage21_0 : ∀ j, (stage21_0 j).IsWhole
  nbuf21_0 : grid21.bufCount reads21_0 false = 2
  hreads21_0 : ∀ {F : FTy → Type} [FloatOps F] (pf : pre21.Contents (Elt F)) (i i' : grid21.Coords), (∀ a, reads21_0 a = true → i a = i' a) → cc21_transform_0 k21_off1_inb numel1_S1 pf i = cc21_transform_0 k21_off1_inb numel1_S1 pf i'
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S1x1x128.size a ≤ S2048x1x128.size a
  hwx21_1 : ∀ i : grid21.Coords, EltTy.bits .f32 = 32 ∨ (Rect.block (s := S2048x1x128) S1x1x128.size (cc21_transform_1 i) (hinb21_1 i)).WholeWords (EltTy.packing .f32)
  hrank22 : 0 < grid22.rank
  k22_off1_inb : ∀ i : grid22.Coords, ∀ a, (k22_off1 i) a + S1.size a ≤ S65536.size a
  hstage22_0 : ∀ j, (stage22_0 j).IsWhole
  nbuf22_0 : grid22.bufCount reads22_0 false = 2
  hreads22_0 : ∀ {F : FTy → Type} [FloatOps F] (pf : pre22.Contents (Elt F)) (i i' : grid22.Coords), (∀ a, reads22_0 a = true → i a = i' a) → cc22_transform_0 k22_off1_inb numel1_S1 pf i = cc22_transform_0 k22_off1_inb numel1_S1 pf i'
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S1x1x128.size a ≤ S2048x1x128.size a
  hwx22_1 : ∀ i : grid22.Coords, EltTy.bits .f32 = 32 ∨ (Rect.block (s := S2048x1x128) S1x1x128.size (cc22_transform_1 i) (hinb22_1 i)).WholeWords (EltTy.packing .f32)
  hrank23 : 0 < grid23.rank
  k23_off1_inb : ∀ i : grid23.Coords, ∀ a, (k23_off1 i) a + S1.size a ≤ S65536.size a
  hstage23_0 : ∀ j, (stage23_0 j).IsWhole
  nbuf23_0 : grid23.bufCount reads23_0 false = 2
  hreads23_0 : ∀ {F : FTy → Type} [FloatOps F] (pf : pre23.Contents (Elt F)) (i i' : grid23.Coords), (∀ a, reads23_0 a = true → i a = i' a) → cc23_transform_0 k23_off1_inb numel1_S1 pf i = cc23_transform_0 k23_off1_inb numel1_S1 pf i'
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S1x1x128.size a ≤ S2048x1x128.size a
  hwx23_1 : ∀ i : grid23.Coords, EltTy.bits .f32 = 32 ∨ (Rect.block (s := S2048x1x128) S1x1x128.size (cc23_transform_1 i) (hinb23_1 i)).WholeWords (EltTy.packing .f32)
  hrank24 : 0 < grid24.rank
  k24_off1_inb : ∀ i : grid24.Coords, ∀ a, (k24_off1 i) a + S1.size a ≤ S65536.size a
  hstage24_0 : ∀ j, (stage24_0 j).IsWhole
  nbuf24_0 : grid24.bufCount reads24_0 false = 2
  hreads24_0 : ∀ {F : FTy → Type} [FloatOps F] (pf : pre24.Contents (Elt F)) (i i' : grid24.Coords), (∀ a, reads24_0 a = true → i a = i' a) → cc24_transform_0 k24_off1_inb numel1_S1 pf i = cc24_transform_0 k24_off1_inb numel1_S1 pf i'
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S1x1x128.size a ≤ S2048x1x128.size a
  hwx24_1 : ∀ i : grid24.Coords, EltTy.bits .f32 = 32 ∨ (Rect.block (s := S2048x1x128) S1x1x128.size (cc24_transform_1 i) (hinb24_1 i)).WholeWords (EltTy.packing .f32)
  hrank25 : 0 < grid25.rank
  k25_off1_inb : ∀ i : grid25.Coords, ∀ a, (k25_off1 i) a + S1.size a ≤ S65536.size a
  hstage25_0 : ∀ j, (stage25_0 j).IsWhole
  nbuf25_0 : grid25.bufCount reads25_0 false = 2
  hreads25_0 : ∀ {F : FTy → Type} [FloatOps F] (pf : pre25.Contents (Elt F)) (i i' : grid25.Coords), (∀ a, reads25_0 a = true → i a = i' a) → cc25_transform_0 k25_off1_inb numel1_S1 pf i = cc25_transform_0 k25_off1_inb numel1_S1 pf i'
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S1x1x128.size a ≤ S2048x1x128.size a
  hwx25_1 : ∀ i : grid25.Coords, EltTy.bits .f32 = 32 ∨ (Rect.block (s := S2048x1x128) S1x1x128.size (cc25_transform_1 i) (hinb25_1 i)).WholeWords (EltTy.packing .f32)
  hrank26 : 0 < grid26.rank
  k26_off1_inb : ∀ i : grid26.Coords, ∀ a, (k26_off1 i) a + S1.size a ≤ S65536.size a
  hstage26_0 : ∀ j, (stage26_0 j).IsWhole
  nbuf26_0 : grid26.bufCount reads26_0 false = 2
  hreads26_0 : ∀ {F : FTy → Type} [FloatOps F] (pf : pre26.Contents (Elt F)) (i i' : grid26.Coords), (∀ a, reads26_0 a = true → i a = i' a) → cc26_transform_0 k26_off1_inb numel1_S1 pf i = cc26_transform_0 k26_off1_inb numel1_S1 pf i'
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S1x1x128.size a ≤ S2048x1x128.size a
  hwx26_1 : ∀ i : grid26.Coords, EltTy.bits .f32 = 32 ∨ (Rect.block (s := S2048x1x128) S1x1x128.size (cc26_transform_1 i) (hinb26_1 i)).WholeWords (EltTy.packing .f32)
  hrank27 : 0 < grid27.rank
  k27_off1_inb : ∀ i : grid27.Coords, ∀ a, (k27_off1 i) a + S1.size a ≤ S65536.size a
  hstage27_0 : ∀ j, (stage27_0 j).IsWhole
  nbuf27_0 : grid27.bufCount reads27_0 false = 2
  hreads27_0 : ∀ {F : FTy → Type} [FloatOps F] (pf : pre27.Contents (Elt F)) (i i' : grid27.Coords), (∀ a, reads27_0 a = true → i a = i' a) → cc27_transform_0 k27_off1_inb numel1_S1 pf i = cc27_transform_0 k27_off1_inb numel1_S1 pf i'
  hstage27_1 : ∀ j, (stage27_1 j).IsWhole
  nbuf27_1 : grid27.bufCount reads27_1 false = 2
  hreads27_1 : ∀ i i' : grid27.Coords, (∀ a, reads27_1 a = true → i a = i' a) → cc27_transform_1 i = cc27_transform_1 i'
  hinb27_1 : ∀ (i : grid27.Coords) a, (cc27_transform_1 i a + 1) * S1x1x128.size a ≤ S2048x1x128.size a
  hwx27_1 : ∀ i : grid27.Coords, EltTy.bits .f32 = 32 ∨ (Rect.block (s := S2048x1x128) S1x1x128.size (cc27_transform_1 i) (hinb27_1 i)).WholeWords (EltTy.packing .f32)
  hrank28 : 0 < grid28.rank
  k28_off1_inb : ∀ i : grid28.Coords, ∀ a, (k28_off1 i) a + S1.size a ≤ S65536.size a
  hstage28_0 : ∀ j, (stage28_0 j).IsWhole
  nbuf28_0 : grid28.bufCount reads28_0 false = 2
  hreads28_0 : ∀ {F : FTy → Type} [FloatOps F] (pf : pre28.Contents (Elt F)) (i i' : grid28.Coords), (∀ a, reads28_0 a = true → i a = i' a) → cc28_transform_0 k28_off1_inb numel1_S1 pf i = cc28_transform_0 k28_off1_inb numel1_S1 pf i'
  hstage28_1 : ∀ j, (stage28_1 j).IsWhole
  nbuf28_1 : grid28.bufCount reads28_1 false = 2
  hreads28_1 : ∀ i i' : grid28.Coords, (∀ a, reads28_1 a = true → i a = i' a) → cc28_transform_1 i = cc28_transform_1 i'
  hinb28_1 : ∀ (i : grid28.Coords) a, (cc28_transform_1 i a + 1) * S1x1x128.size a ≤ S2048x1x128.size a
  hwx28_1 : ∀ i : grid28.Coords, EltTy.bits .f32 = 32 ∨ (Rect.block (s := S2048x1x128) S1x1x128.size (cc28_transform_1 i) (hinb28_1 i)).WholeWords (EltTy.packing .f32)
  hrank29 : 0 < grid29.rank
  k29_off1_inb : ∀ i : grid29.Coords, ∀ a, (k29_off1 i) a + S1.size a ≤ S65536.size a
  hstage29_0 : ∀ j, (stage29_0 j).IsWhole
  nbuf29_0 : grid29.bufCount reads29_0 false = 2
  hreads29_0 : ∀ {F : FTy → Type} [FloatOps F] (pf : pre29.Contents (Elt F)) (i i' : grid29.Coords), (∀ a, reads29_0 a = true → i a = i' a) → cc29_transform_0 k29_off1_inb numel1_S1 pf i = cc29_transform_0 k29_off1_inb numel1_S1 pf i'
  hstage29_1 : ∀ j, (stage29_1 j).IsWhole
  nbuf29_1 : grid29.bufCount reads29_1 false = 2
  hreads29_1 : ∀ i i' : grid29.Coords, (∀ a, reads29_1 a = true → i a = i' a) → cc29_transform_1 i = cc29_transform_1 i'
  hinb29_1 : ∀ (i : grid29.Coords) a, (cc29_transform_1 i a + 1) * S1x1x128.size a ≤ S2048x1x128.size a
  hwx29_1 : ∀ i : grid29.Coords, EltTy.bits .f32 = 32 ∨ (Rect.block (s := S2048x1x128) S1x1x128.size (cc29_transform_1 i) (hinb29_1 i)).WholeWords (EltTy.packing .f32)
  hrank30 : 0 < grid30.rank
  k30_off1_inb : ∀ i : grid30.Coords, ∀ a, (k30_off1 i) a + S1.size a ≤ S65536.size a
  hstage30_0 : ∀ j, (stage30_0 j).IsWhole
  nbuf30_0 : grid30.bufCount reads30_0 false = 2
  hreads30_0 : ∀ {F : FTy → Type} [FloatOps F] (pf : pre30.Contents (Elt F)) (i i' : grid30.Coords), (∀ a, reads30_0 a = true → i a = i' a) → cc30_transform_0 k30_off1_inb numel1_S1 pf i = cc30_transform_0 k30_off1_inb numel1_S1 pf i'
  hstage30_1 : ∀ j, (stage30_1 j).IsWhole
  nbuf30_1 : grid30.bufCount reads30_1 false = 2
  hreads30_1 : ∀ i i' : grid30.Coords, (∀ a, reads30_1 a = true → i a = i' a) → cc30_transform_1 i = cc30_transform_1 i'
  hinb30_1 : ∀ (i : grid30.Coords) a, (cc30_transform_1 i a + 1) * S1x1x128.size a ≤ S2048x1x128.size a
  hwx30_1 : ∀ i : grid30.Coords, EltTy.bits .f32 = 32 ∨ (Rect.block (s := S2048x1x128) S1x1x128.size (cc30_transform_1 i) (hinb30_1 i)).WholeWords (EltTy.packing .f32)
  hrank31 : 0 < grid31.rank
  k31_off1_inb : ∀ i : grid31.Coords, ∀ a, (k31_off1 i) a + S1.size a ≤ S65536.size a
  hstage31_0 : ∀ j, (stage31_0 j).IsWhole
  nbuf31_0 : grid31.bufCount reads31_0 false = 2
  hreads31_0 : ∀ {F : FTy → Type} [FloatOps F] (pf : pre31.Contents (Elt F)) (i i' : grid31.Coords), (∀ a, reads31_0 a = true → i a = i' a) → cc31_transform_0 k31_off1_inb numel1_S1 pf i = cc31_transform_0 k31_off1_inb numel1_S1 pf i'
  hstage31_1 : ∀ j, (stage31_1 j).IsWhole
  nbuf31_1 : grid31.bufCount reads31_1 false = 2
  hreads31_1 : ∀ i i' : grid31.Coords, (∀ a, reads31_1 a = true → i a = i' a) → cc31_transform_1 i = cc31_transform_1 i'
  hinb31_1 : ∀ (i : grid31.Coords) a, (cc31_transform_1 i a + 1) * S1x1x128.size a ≤ S2048x1x128.size a
  hwx31_1 : ∀ i : grid31.Coords, EltTy.bits .f32 = 32 ∨ (Rect.block (s := S2048x1x128) S1x1x128.size (cc31_transform_1 i) (hinb31_1 i)).WholeWords (EltTy.packing .f32)

variable [Facts₀]

abbrev spec0_0 : Pipeline.WinSpec sig grid0.rank :=
  Pipeline.WinSpec.ofSpec (Memref.whole main_v3) S1x1x128.size reads0_0 false false 2 stage0_0 sem0_0 nbuf0_0 hstage0_0

abbrev spec0_1 : Pipeline.WinSpec sig grid0.rank :=
  Pipeline.WinSpec.ofSpec (Memref.whole main_v6) S1x1x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x128.size a ≤ S262145x1x128.size a), EltTy.bits .f32 = 32 ∨ (Rect.block (s := S262145x1x128) S1x1x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev spec1_0 : Pipeline.WinSpec sig grid1.rank :=
  Pipeline.WinSpec.ofSpec (Memref.whole main_v3) S1x1x128.size reads1_0 false false 2 stage1_0 sem1_0 nbuf1_0 hstage1_0

abbrev spec1_1 : Pipeline.WinSpec sig grid1.rank :=
  Pipeline.WinSpec.ofSpec (Memref.whole main_v10) S1x1x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S262145x1x128.size a), EltTy.bits .f32 = 32 ∨ (Rect.block (s := S262145x1x128) S1x1x128.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev spec2_0 : Pipeline.WinSpec sig grid2.rank :=
  Pipeline.WinSpec.ofSpec (Memref.whole main_v3) S1x1x128.size reads2_0 false false 2 stage2_0 sem2_0 nbuf2_0 hstage2_0

abbrev spec2_1 : Pipeline.WinSpec sig grid2.rank :=
  Pipeline.WinSpec.ofSpec (Memref.whole main_v14) S1x1x128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S262145x1x128.size a), EltTy.bits .f32 = 32 ∨ (Rect.block (s := S262145x1x128) S1x1x128.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev spec3_0 : Pipeline.WinSpec sig grid3.rank :=
  Pipeline.WinSpec.ofSpec (Memref.whole main_v3) S1x1x128.size reads3_0 false false 2 stage3_0 sem3_0 nbuf3_0 hstage3_0

abbrev spec3_1 : Pipeline.WinSpec sig grid3.rank :=
  Pipeline.WinSpec.ofSpec (Memref.whole main_v18) S1x1x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S262145x1x128.size a), EltTy.bits .f32 = 32 ∨ (Rect.block (s := S262145x1x128) S1x1x128.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))
abbrev spec4_0 : Pipeline.WinSpec sig grid4.rank :=
  Pipeline.WinSpec.ofSpec (Memref.whole main_v3) S1x1x128.size reads4_0 false false 2 stage4_0 sem4_0 nbuf4_0 hstage4_0

abbrev spec4_1 : Pipeline.WinSpec sig grid4.rank :=
  Pipeline.WinSpec.ofSpec (Memref.whole main_v22) S1x1x128.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_0 k4_off1_inb numel1_S1 pf | 1 => cc4_transform_1 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | ⟨_ + 2, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S262145x1x128.size a), EltTy.bits .f32 = 32 ∨ (Rect.block (s := S262145x1x128) S1x1x128.size (cc4_transform_0 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | ⟨_ + 2, h⟩ => absurd h (Nat.not_lt.2 (Nat.le_add_left _ _))
abbrev spec5_0 : Pipeline.WinSpec sig grid5.rank :=
  Pipeline.WinSpec.ofSpec (Memref.whole main_v3) S1x1x128.size reads5_0 false false 2 stage5_0 sem5_0 nbuf5_0 hstage5_0

abbrev spec5_1 : Pipeline.WinSpec sig grid5.rank :=
  Pipeline.WinSpec.ofSpec (Memref.whole main_v26) S1x1x128.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_0 k5_off1_inb numel1_S1 pf | 1 => cc5_transform_1 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | ⟨_ + 2, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S262145x1x128.size a), EltTy.bits .f32 = 32 ∨ (Rect.block (s := S262145x1x128) S1x1x128.size (cc5_transform_0 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | ⟨_ + 2, h⟩ => absurd h (Nat.not_lt.2 (Nat.le_add_left _ _))
abbrev spec6_0 : Pipeline.WinSpec sig grid6.rank :=
  Pipeline.WinSpec.ofSpec (Memref.whole main_v3) S1x1x128.size reads6_0 false false 2 stage6_0 sem6_0 nbuf6_0 hstage6_0

abbrev spec6_1 : Pipeline.WinSpec sig grid6.rank :=
  Pipeline.WinSpec.ofSpec (Memref.whole main_v30) S1x1x128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_0 k6_off1_inb numel1_S1 pf | 1 => cc6_transform_1 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 | ⟨_ + 2, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S262145x1x128.size a), EltTy.bits .f32 = 32 ∨ (Rect.block (s := S262145x1x128) S1x1x128.size (cc6_transform_0 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok i).elim fun h _ => h a | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok i).elim fun _ h => h | 1 => hwx6_1 | ⟨_ + 2, h⟩ => absurd h (Nat.not_lt.2 (Nat.le_add_left _ _))
abbrev spec7_0 : Pipeline.WinSpec sig grid7.rank :=
  Pipeline.WinSpec.ofSpec (Memref.whole main_v3) S1x1x128.size reads7_0 false false 2 stage7_0 sem7_0 nbuf7_0 hstage7_0

abbrev spec7_1 : Pipeline.WinSpec sig grid7.rank :=
  Pipeline.WinSpec.ofSpec (Memref.whole main_v34) S1x1x128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_0 k7_off1_inb numel1_S1 pf | 1 => cc7_transform_1 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 | ⟨_ + 2, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S262145x1x128.size a), EltTy.bits .f32 = 32 ∨ (Rect.block (s := S262145x1x128) S1x1x128.size (cc7_transform_0 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok i).elim fun h _ => h a | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok i).elim fun _ h => h | 1 => hwx7_1 | ⟨_ + 2, h⟩ => absurd h (Nat.not_lt.2 (Nat.le_add_left _ _))
abbrev spec8_0 : Pipeline.WinSpec sig grid8.rank :=
  Pipeline.WinSpec.ofSpec (Memref.whole main_v3) S1x1x128.size reads8_0 false false 2 stage8_0 sem8_0 nbuf8_0 hstage8_0

abbrev spec8_1 : Pipeline.WinSpec sig grid8.rank :=
  Pipeline.WinSpec.ofSpec (Memref.whole main_v38) S1x1x128.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_0 k8_off1_inb numel1_S1 pf | 1 => cc8_transform_1 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 | ⟨_ + 2, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x128.size a ≤ S262145x1x128.size a), EltTy.bits .f32 = 32 ∨ (Rect.block (s := S262145x1x128) S1x1x128.size (cc8_transform_0 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok i).elim fun h _ => h a | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok i).elim fun _ h => h | 1 => hwx8_1 | ⟨_ + 2, h⟩ => absurd h (Nat.not_lt.2 (Nat.le_add_left _ _))
abbrev spec9_0 : Pipeline.WinSpec sig grid9.rank :=
  Pipeline.WinSpec.ofSpec (Memref.whole main_v3) S1x1x128.size reads9_0 false false 2 stage9_0 sem9_0 nbuf9_0 hstage9_0

abbrev spec9_1 : Pipeline.WinSpec sig grid9.rank :=
  Pipeline.WinSpec.ofSpec (Memref.whole main_v42) S1x1x128.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_0 k9_off1_inb numel1_S1 pf | 1 => cc9_transform_1 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 | ⟨_ + 2, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x128.size a ≤ S262145x1x128.size a), EltTy.bits .f32 = 32 ∨ (Rect.block (s := S262145x1x128) S1x1x128.size (cc9_transform_0 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok i).elim fun h _ => h a | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok i).elim fun _ h => h | 1 => hwx9_1 | ⟨_ + 2, h⟩ => absurd h (Nat.not_lt.2 (Nat.le_add_left _ _))
abbrev spec10_0 : Pipeline.WinSpec sig grid10.rank :=
  Pipeline.WinSpec.ofSpec (Memref.whole main_v3) S1x1x128.size reads10_0 false false 2 stage10_0 sem10_0 nbuf10_0 hstage10_0

abbrev spec10_1 : Pipeline.WinSpec sig grid10.rank :=
  Pipeline.WinSpec.ofSpec (Memref.whole main_v46) S1x1x128.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_0 k10_off1_inb numel1_S1 pf | 1 => cc10_transform_1 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 | ⟨_ + 2, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x128.size a ≤ S262145x1x128.size a), EltTy.bits .f32 = 32 ∨ (Rect.block (s := S262145x1x128) S1x1x128.size (cc10_transform_0 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok i).elim fun h _ => h a | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok i).elim fun _ h => h | 1 => hwx10_1 | ⟨_ + 2, h⟩ => absurd h (Nat.not_lt.2 (Nat.le_add_left _ _))
abbrev spec11_0 : Pipeline.WinSpec sig grid11.rank :=
  Pipeline.WinSpec.ofSpec (Memref.whole main_v3) S1x1x128.size reads11_0 false false 2 stage11_0 sem11_0 nbuf11_0 hstage11_0

abbrev spec11_1 : Pipeline.WinSpec sig grid11.rank :=
  Pipeline.WinSpec.ofSpec (Memref.whole main_v50) S1x1x128.size reads11_1 true false 2 stage11_1 sem11_1 nbuf11_1 hstage11_1

abbrev spec11 : Fin 2 → Pipeline.WinSpec sig grid11.rank := fun | 0 => spec11_0 | 1 => spec11_1 | ⟨_ + 2, h⟩ => absurd h (Nat.not_lt.2 (Nat.le_add_left _ _))
theorem hcount11 : ∀ w, grid11.bufCount (spec11 w).reads (spec11 w).sync = (spec11 w).nbuf := fun | 0 => nbuf11_0 | 1 => nbuf11_1 | ⟨_ + 2, h⟩ => absurd h (Nat.not_lt.2 (Nat.le_add_left _ _))
abbrev ix11 (pf : pre11.Contents (Elt F)) : (w : Fin 2) → grid11.Coords → Fin (spec11 w).shape.rank → Nat := fun | 0 => cc11_transform_0 k11_off1_inb numel1_S1 pf | 1 => cc11_transform_1 | ⟨_ + 2, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 | ⟨_ + 2, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x128.size a ≤ S262145x1x128.size a), EltTy.bits .f32 = 32 ∨ (Rect.block (s := S262145x1x128) S1x1x128.size (cc11_transform_0 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok i).elim fun h _ => h a | 1 => hinb11_1 | ⟨_ + 2, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok i).elim fun _ h => h | 1 => hwx11_1 | ⟨_ + 2, h⟩ => absurd h (Nat.not_lt.2 (Nat.le_add_left _ _))
abbrev spec12_0 : Pipeline.WinSpec sig grid12.rank :=
  Pipeline.WinSpec.ofSpec (Memref.whole main_v3) S1x1x128.size reads12_0 false false 2 stage12_0 sem12_0 nbuf12_0 hstage12_0

abbrev spec12_1 : Pipeline.WinSpec sig grid12.rank :=
  Pipeline.WinSpec.ofSpec (Memref.whole main_v54) S1x1x128.size reads12_1 true false 2 stage12_1 sem12_1 nbuf12_1 hstage12_1

abbrev spec12 : Fin 2 → Pipeline.WinSpec sig grid12.rank := fun | 0 => spec12_0 | 1 => spec12_1 | ⟨_ + 2, h⟩ => absurd h (Nat.not_lt.2 (Nat.le_add_left _ _))
theorem hcount12 : ∀ w, grid12.bufCount (spec12 w).reads (spec12 w).sync = (spec12 w).nbuf := fun | 0 => nbuf12_0 | 1 => nbuf12_1 | ⟨_ + 2, h⟩ => absurd h (Nat.not_lt.2 (Nat.le_add_left _ _))
abbrev ix12 (pf : pre12.Contents (Elt F)) : (w : Fin 2) → grid12.Coords → Fin (spec12 w).shape.rank → Nat := fun | 0 => cc12_transform_0 k12_off1_inb numel1_S1 pf | 1 => cc12_transform_1 | ⟨_ + 2, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 | ⟨_ + 2, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x128.size a ≤ S262145x1x128.size a), EltTy.bits .f32 = 32 ∨ (Rect.block (s := S262145x1x128) S1x1x128.size (cc12_transform_0 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok i).elim fun h _ => h a | 1 => hinb12_1 | ⟨_ + 2, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok i).elim fun _ h => h | 1 => hwx12_1 | ⟨_ + 2, h⟩ => absurd h (Nat.not_lt.2 (Nat.le_add_left _ _))
abbrev spec13_0 : Pipeline.WinSpec sig grid13.rank :=
  Pipeline.WinSpec.ofSpec (Memref.whole main_v3) S1x1x128.size reads13_0 false false 2 stage13_0 sem13_0 nbuf13_0 hstage13_0

abbrev spec13_1 : Pipeline.WinSpec sig grid13.rank :=
  Pipeline.WinSpec.ofSpec (Memref.whole main_v58) S1x1x128.size reads13_1 true false 2 stage13_1 sem13_1 nbuf13_1 hstage13_1

abbrev spec13 : Fin 2 → Pipeline.WinSpec sig grid13.rank := fun | 0 => spec13_0 | 1 => spec13_1 | ⟨_ + 2, h⟩ => absurd h (Nat.not_lt.2 (Nat.le_add_left _ _))
theorem hcount13 : ∀ w, grid13.bufCount (spec13 w).reads (spec13 w).sync = (spec13 w).nbuf := fun | 0 => nbuf13_0 | 1 => nbuf13_1 | ⟨_ + 2, h⟩ => absurd h (Nat.not_lt.2 (Nat.le_add_left _ _))
abbrev ix13 (pf : pre13.Contents (Elt F)) : (w : Fin 2) → grid13.Coords → Fin (spec13 w).shape.rank → Nat := fun | 0 => cc13_transform_0 k13_off1_inb numel1_S1 pf | 1 => cc13_transform_1 | ⟨_ + 2, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 | ⟨_ + 2, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x128.size a ≤ S262145x1x128.size a), EltTy.bits .f32 = 32 ∨ (Rect.block (s := S262145x1x128) S1x1x128.size (cc13_transform_0 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok i).elim fun h _ => h a | 1 => hinb13_1 | ⟨_ + 2, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok i).elim fun _ h => h | 1 => hwx13_1 | ⟨_ + 2, h⟩ => absurd h (Nat.not_lt.2 (Nat.le_add_left _ _))
abbrev spec14_0 : Pipeline.WinSpec sig grid14.rank :=
  Pipeline.WinSpec.ofSpec (Memref.whole main_v3) S1x1x128.size reads14_0 false false 2 stage14_0 sem14_0 nbuf14_0 hstage14_0

abbrev spec14_1 : Pipeline.WinSpec sig grid14.rank :=
  Pipeline.WinSpec.ofSpec (Memref.whole main_v62) S1x1x128.size reads14_1 true false 2 stage14_1 sem14_1 nbuf14_1 hstage14_1

abbrev spec14 : Fin 2 → Pipeline.WinSpec sig grid14.rank := fun | 0 => spec14_0 | 1 => spec14_1 | ⟨_ + 2, h⟩ => absurd h (Nat.not_lt.2 (Nat.le_add_left _ _))
theorem hcount14 : ∀ w, grid14.bufCount (spec14 w).reads (spec14 w).sync = (spec14 w).nbuf := fun | 0 => nbuf14_0 | 1 => nbuf14_1 | ⟨_ + 2, h⟩ => absurd h (Nat.not_lt.2 (Nat.le_add_left _ _))
abbrev ix14 (pf : pre14.Contents (Elt F)) : (w : Fin 2) → grid14.Coords → Fin (spec14 w).shape.rank → Nat := fun | 0 => cc14_transform_0 k14_off1_inb numel1_S1 pf | 1 => cc14_transform_1 | ⟨_ + 2, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 | ⟨_ + 2, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x128.size a ≤ S262145x1x128.size a), EltTy.bits .f32 = 32 ∨ (Rect.block (s := S262145x1x128) S1x1x128.size (cc14_transform_0 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok i).elim fun h _ => h a | 1 => hinb14_1 | ⟨_ + 2, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok i).elim fun _ h => h | 1 => hwx14_1 | ⟨_ + 2, h⟩ => absurd h (Nat.not_lt.2 (Nat.le_add_left _ _))
abbrev spec15_0 : Pipeline.WinSpec sig grid15.rank :=
  Pipeline.WinSpec.ofSpec (Memref.whole main_v3) S1x1x128.size reads15_0 false false 2 stage15_0 sem15_0 nbuf15_0 hstage15_0

abbrev spec15_1 : Pipeline.WinSpec sig grid15.rank :=
  Pipeline.WinSpec.ofSpec (Memref.whole main_v66) S1x1x128.size reads15_1 true false 2 stage15_1 sem15_1 nbuf15_1 hstage15_1

abbrev spec15 : Fin 2 → Pipeline.WinSpec sig grid15.rank := fun | 0 => spec15_0 | 1 => spec15_1 | ⟨_ + 2, h⟩ => absurd h (Nat.not_lt.2 (Nat.le_add_left _ _))
theorem hcount15 : ∀ w, grid15.bufCount (spec15 w).reads (spec15 w).sync = (spec15 w).nbuf := fun | 0 => nbuf15_0 | 1 => nbuf15_1 | ⟨_ + 2, h⟩ => absurd h (Nat.not_lt.2 (Nat.le_add_left _ _))
abbrev ix15 (pf : pre15.Contents (Elt F)) : (w : Fin 2) → grid15.Coords → Fin (spec15 w).shape.rank → Nat := fun | 0 => cc15_transform_0 k15_off1_inb numel1_S1 pf | 1 => cc15_transform_1 | ⟨_ + 2, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 | ⟨_ + 2, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x128.size a ≤ S262145x1x128.size a), EltTy.bits .f32 = 32 ∨ (Rect.block (s := S262145x1x128) S1x1x128.size (cc15_transform_0 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok i).elim fun h _ => h a | 1 => hinb15_1 | ⟨_ + 2, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok i).elim fun _ h => h | 1 => hwx15_1 | ⟨_ + 2, h⟩ => absurd h (Nat.not_lt.2 (Nat.le_add_left _ _))
abbrev spec16_0 : Pipeline.WinSpec sig grid16.rank :=
  Pipeline.WinSpec.ofSpec (Memref.whole main_v3) S1x1x128.size reads16_0 false false 2 stage16_0 sem16_0 nbuf16_0 hstage16_0

abbrev spec16_1 : Pipeline.WinSpec sig grid16.rank :=
  Pipeline.WinSpec.ofSpec (Memref.whole main_v70) S1x1x128.size reads16_1 true false 2 stage16_1 sem16_1 nbuf16_1 hstage16_1

abbrev spec16 : Fin 2 → Pipeline.WinSpec sig grid16.rank := fun | 0 => spec16_0 | 1 => spec16_1 | ⟨_ + 2, h⟩ => absurd h (Nat.not_lt.2 (Nat.le_add_left _ _))
theorem hcount16 : ∀ w, grid16.bufCount (spec16 w).reads (spec16 w).sync = (spec16 w).nbuf := fun | 0 => nbuf16_0 | 1 => nbuf16_1 | ⟨_ + 2, h⟩ => absurd h (Nat.not_lt.2 (Nat.le_add_left _ _))
abbrev ix16 (pf : pre16.Contents (Elt F)) : (w : Fin 2) → grid16.Coords → Fin (spec16 w).shape.rank → Nat := fun | 0 => cc16_transform_0 k16_off1_inb numel1_S1 pf | 1 => cc16_transform_1 | ⟨_ + 2, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 pf | 1 => hreads16_1 | ⟨_ + 2, h⟩ => absurd h (Nat.not_lt.2 (Nat.le_add_left _ _))
def ok16 (pf : pre16.Contents (Elt F)) : Prop :=
  (∀ i : grid16.Coords, ∃ h : (∀ a, (cc16_transform_0 k16_off1_inb numel1_S1 pf i a + 1) * S1x1x128.size a ≤ S262145x1x128.size a), EltTy.bits .f32 = 32 ∨ (Rect.block (s := S262145x1x128) S1x1x128.size (cc16_transform_0 k16_off1_inb numel1_S1 pf i) h).WholeWords (EltTy.packing .f32))
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun pf hok => fun | 0 => fun i a => (hok i).elim fun h _ => h a | 1 => hinb16_1 | ⟨_ + 2, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun pf hok => fun | 0 => fun i => (hok i).elim fun _ h => h | 1 => hwx16_1 | ⟨_ + 2, h⟩ => absurd h (Nat.not_lt.2 (Nat.le_add_left _ _))
abbrev spec17_0 : Pipeline.WinSpec sig grid17.rank :=
  Pipeline.WinSpec.ofSpec (Memref.whole main_v3) S1x1x128.size reads17_0 false false 2 stage17_0 sem17_0 nbuf17_0 hstage17_0

abbrev spec17_1 : Pipeline.WinSpec sig grid17.rank :=
  Pipeline.WinSpec.ofSpec (Memref.whole main_v74) S1x1x128.size reads17_1 true false 2 stage17_1 sem17_1 nbuf17_1 hstage17_1

abbrev spec17 : Fin 2 → Pipeline.WinSpec sig grid17.rank := fun | 0 => spec17_0 | 1 => spec17_1 | ⟨_ + 2, h⟩ => absurd h (Nat.not_lt.2 (Nat.le_add_left _ _))
theorem hcount17 : ∀ w, grid17.bufCount (spec17 w).reads (spec17 w).sync = (spec17 w).nbuf := fun | 0 => nbuf17_0 | 1 => nbuf17_1 | ⟨_ + 2, h⟩ => absurd h (Nat.not_lt.2 (Nat.le_add_left _ _))
abbrev ix17 (pf : pre17.Contents (Elt F)) : (w : Fin 2) → grid17.Coords → Fin (spec17 w).shape.rank → Nat := fun | 0 => cc17_transform_0 k17_off1_inb numel1_S1 pf | 1 => cc17_transform_1 | ⟨_ + 2, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 pf | 1 => hreads17_1 | ⟨_ + 2, h⟩ => absurd h (Nat.not_lt.2 (Nat.le_add_left _ _))
def ok17 (pf : pre17.Contents (Elt F)) : Prop :=
  (∀ i : grid17.Coords, ∃ h : (∀ a, (cc17_transform_0 k17_off1_inb numel1_S1 pf i a + 1) * S1x1x128.size a ≤ S262145x1x128.size a), EltTy.bits .f32 = 32 ∨ (Rect.block (s := S262145x1x128) S1x1x128.size (cc17_transform_0 k17_off1_inb numel1_S1 pf i) h).WholeWords (EltTy.packing .f32))
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun pf hok => fun | 0 => fun i a => (hok i).elim fun h _ => h a | 1 => hinb17_1 | ⟨_ + 2, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun pf hok => fun | 0 => fun i => (hok i).elim fun _ h => h | 1 => hwx17_1 | ⟨_ + 2, h⟩ => absurd h (Nat.not_lt.2 (Nat.le_add_left _ _))
abbrev spec18_0 : Pipeline.WinSpec sig grid18.rank :=
  Pipeline.WinSpec.ofSpec (Memref.whole main_v3) S1x1x128.size reads18_0 false false 2 stage18_0 sem18_0 nbuf18_0 hstage18_0

abbrev spec18_1 : Pipeline.WinSpec sig grid18.rank :=
  Pipeline.WinSpec.ofSpec (Memref.whole main_v78) S1x1x128.size reads18_1 true false 2 stage18_1 sem18_1 nbuf18_1 hstage18_1

abbrev spec18 : Fin 2 → Pipeline.WinSpec sig grid18.rank := fun | 0 => spec18_0 | 1 => spec18_1 | ⟨_ + 2, h⟩ => absurd h (Nat.not_lt.2 (Nat.le_add_left _ _))
theorem hcount18 : ∀ w, grid18.bufCount (spec18 w).reads (spec18 w).sync = (spec18 w).nbuf := fun | 0 => nbuf18_0 | 1 => nbuf18_1 | ⟨_ + 2, h⟩ => absurd h (Nat.not_lt.2 (Nat.le_add_left _ _))
abbrev ix18 (pf : pre18.Contents (Elt F)) : (w : Fin 2) → grid18.Coords → Fin (spec18 w).shape.rank → Nat := fun | 0 => cc18_transform_0 k18_off1_inb numel1_S1 pf | 1 => cc18_transform_1 | ⟨_ + 2, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 pf | 1 => hreads18_1 | ⟨_ + 2, h⟩ => absurd h (Nat.not_lt.2 (Nat.le_add_left _ _))
def ok18 (pf : pre18.Contents (Elt F)) : Prop :=
  (∀ i : grid18.Coords, ∃ h : (∀ a, (cc18_transform_0 k18_off1_inb numel1_S1 pf i a + 1) * S1x1x128.size a ≤ S262145x1x128.size a), EltTy.bits .f32 = 32 ∨ (Rect.block (s := S262145x1x128) S1x1x128.size (cc18_transform_0 k18_off1_inb numel1_S1 pf i) h).WholeWords (EltTy.packing .f32))
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun pf hok => fun | 0 => fun i a => (hok i).elim fun h _ => h a | 1 => hinb18_1 | ⟨_ + 2, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun pf hok => fun | 0 => fun i => (hok i).elim fun _ h => h | 1 => hwx18_1 | ⟨_ + 2, h⟩ => absurd h (Nat.not_lt.2 (Nat.le_add_left _ _))
abbrev spec19_0 : Pipeline.WinSpec sig grid19.rank :=
  Pipeline.WinSpec.ofSpec (Memref.whole main_v3) S1x1x128.size reads19_0 false false 2 stage19_0 sem19_0 nbuf19_0 hstage19_0

abbrev spec19_1 : Pipeline.WinSpec sig grid19.rank :=
  Pipeline.WinSpec.ofSpec (Memref.whole main_v82) S1x1x128.size reads19_1 true false 2 stage19_1 sem19_1 nbuf19_1 hstage19_1

abbrev spec19 : Fin 2 → Pipeline.WinSpec sig grid19.rank := fun | 0 => spec19_0 | 1 => spec19_1 | ⟨_ + 2, h⟩ => absurd h (Nat.not_lt.2 (Nat.le_add_left _ _))
theorem hcount19 : ∀ w, grid19.bufCount (spec19 w).reads (spec19 w).sync = (spec19 w).nbuf := fun | 0 => nbuf19_0 | 1 => nbuf19_1 | ⟨_ + 2, h⟩ => absurd h (Nat.not_lt.2 (Nat.le_add_left _ _))
abbrev ix19 (pf : pre19.Contents (Elt F)) : (w : Fin 2) → grid19.Coords → Fin (spec19 w).shape.rank → Nat := fun | 0 => cc19_transform_0 k19_off1_inb numel1_S1 pf | 1 => cc19_transform_1 | ⟨_ + 2, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 pf | 1 => hreads19_1 | ⟨_ + 2, h⟩ => absurd h (Nat.not_lt.2 (Nat.le_add_left _ _))
def ok19 (pf : pre19.Contents (Elt F)) : Prop :=
  (∀ i : grid19.Coords, ∃ h : (∀ a, (cc19_transform_0 k19_off1_inb numel1_S1 pf i a + 1) * S1x1x128.size a ≤ S262145x1x128.size a), EltTy.bits .f32 = 32 ∨ (Rect.block (s := S262145x1x128) S1x1x128.size (cc19_transform_0 k19_off1_inb numel1_S1 pf i) h).WholeWords (EltTy.packing .f32))
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun pf hok => fun | 0 => fun i a => (hok i).elim fun h _ => h a | 1 => hinb19_1 | ⟨_ + 2, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun pf hok => fun | 0 => fun i => (hok i).elim fun _ h => h | 1 => hwx19_1 | ⟨_ + 2, h⟩ => absurd h (Nat.not_lt.2 (Nat.le_add_left _ _))
abbrev spec20_0 : Pipeline.WinSpec sig grid20.rank :=
  Pipeline.WinSpec.ofSpec (Memref.whole main_v3) S1x1x128.size reads20_0 false false 2 stage20_0 sem20_0 nbuf20_0 hstage20_0

abbrev spec20_1 : Pipeline.WinSpec sig grid20.rank :=
  Pipeline.WinSpec.ofSpec (Memref.whole main_v86) S1x1x128.size reads20_1 true false 2 stage20_1 sem20_1 nbuf20_1 hstage20_1

abbrev spec20 : Fin 2 → Pipeline.WinSpec sig grid20.rank := fun | 0 => spec20_0 | 1 => spec20_1 | ⟨_ + 2, h⟩ => absurd h (Nat.not_lt.2 (Nat.le_add_left _ _))
theorem hcount20 : ∀ w, grid20.bufCount (spec20 w).reads (spec20 w).sync = (spec20 w).nbuf := fun | 0 => nbuf20_0 | 1 => nbuf20_1 | ⟨_ + 2, h⟩ => absurd h (Nat.not_lt.2 (Nat.le_add_left _ _))
abbrev ix20 (pf : pre20.Contents (Elt F)) : (w : Fin 2) → grid20.Coords → Fin (spec20 w).shape.rank → Nat := fun | 0 => cc20_transform_0 k20_off1_inb numel1_S1 pf | 1 => cc20_transform_1 | ⟨_ + 2, h⟩ => absurd h (Nat.not_lt.2 (Nat.le_add_left _ _))
theorem hreads20 : ∀ (pf : pre20.Contents (Elt F)) w (i i' : grid20.Coords), (∀ a, (spec20 w).reads a = true → i a = i' a) → ix20 pf w i = ix20 pf w i' := fun pf => fun | 0 => hreads20_0 pf | 1 => hreads20_1 | ⟨_ + 2, h⟩ => absurd h (Nat.not_lt.2 (Nat.le_add_left _ _))
def ok20 (pf : pre20.Contents (Elt F)) : Prop :=
  (∀ i : grid20.Coords, ∃ h : (∀ a, (cc20_transform_0 k20_off1_inb numel1_S1 pf i a + 1) * S1x1x128.size a ≤ S262145x1x128.size a), EltTy.bits .f32 = 32 ∨ (Rect.block (s := S262145x1x128) S1x1x128.size (cc20_transform_0 k20_off1_inb numel1_S1 pf i) h).WholeWords (EltTy.packing .f32))
instance (pf : pre20.Contents (Elt F)) : Decidable (ok20 pf) := decidable_of_iff' _ (Iff.of_eq (ok20.eq_1 pf))
theorem hinb20 : ∀ (pf : pre20.Contents (Elt F)), ok20 pf → ∀ w (i : grid20.Coords) a, (ix20 pf w i a + 1) * (spec20 w).size a ≤ (spec20 w).shape.size a :=
  fun pf hok => fun | 0 => fun i a => (hok i).elim fun h _ => h a | 1 => hinb20_1 | ⟨_ + 2, h⟩ => absurd h (Nat.not_lt.2 (Nat.le_add_left _ _))
theorem hwx20 : ∀ (pf : pre20.Contents (Elt F)) (hok : ok20 pf) w (i : grid20.Coords), (spec20 w).elt.bits = 32 ∨ (Rect.block (spec20 w).size (ix20 pf w i) (hinb20 pf hok w i)).WholeWords (spec20 w).elt.packing :=
  fun pf hok => fun | 0 => fun i => (hok i).elim fun _ h => h | 1 => hwx20_1 | ⟨_ + 2, h⟩ => absurd h (Nat.not_lt.2 (Nat.le_add_left _ _))
abbrev spec21_0 : Pipeline.WinSpec sig grid21.rank :=
  Pipeline.WinSpec.ofSpec (Memref.whole main_v3) S1x1x128.size reads21_0 false false 2 stage21_0 sem21_0 nbuf21_0 hstage21_0

abbrev spec21_1 : Pipeline.WinSpec sig grid21.rank :=
  Pipeline.WinSpec.ofSpec (Memref.whole main_v90) S1x1x128.size reads21_1 true false 2 stage21_1 sem21_1 nbuf21_1 hstage21_1

abbrev spec21 : Fin 2 → Pipeline.WinSpec sig grid21.rank := fun | 0 => spec21_0 | 1 => spec21_1 | ⟨_ + 2, h⟩ => absurd h (Nat.not_lt.2 (Nat.le_add_left _ _))
theorem hcount21 : ∀ w, grid21.bufCount (spec21 w).reads (spec21 w).sync = (spec21 w).nbuf := fun | 0 => nbuf21_0 | 1 => nbuf21_1 | ⟨_ + 2, h⟩ => absurd h (Nat.not_lt.2 (Nat.le_add_left _ _))
abbrev ix21 (pf : pre21.Contents (Elt F)) : (w : Fin 2) → grid21.Coords → Fin (spec21 w).shape.rank → Nat := fun | 0 => cc21_transform_0 k21_off1_inb numel1_S1 pf | 1 => cc21_transform_1 | ⟨_ + 2, h⟩ => absurd h (Nat.not_lt.2 (Nat.le_add_left _ _))
theorem hreads21 : ∀ (pf : pre21.Contents (Elt F)) w (i i' : grid21.Coords), (∀ a, (spec21 w).reads a = true → i a = i' a) → ix21 pf w i = ix21 pf w i' := fun pf => fun | 0 => hreads21_0 pf | 1 => hreads21_1 | ⟨_ + 2, h⟩ => absurd h (Nat.not_lt.2 (Nat.le_add_left _ _))
def ok21 (pf : pre21.Contents (Elt F)) : Prop :=
  (∀ i : grid21.Coords, ∃ h : (∀ a, (cc21_transform_0 k21_off1_inb numel1_S1 pf i a + 1) * S1x1x128.size a ≤ S262145x1x128.size a), EltTy.bits .f32 = 32 ∨ (Rect.block (s := S262145x1x128) S1x1x128.size (cc21_transform_0 k21_off1_inb numel1_S1 pf i) h).WholeWords (EltTy.packing .f32))
instance (pf : pre21.Contents (Elt F)) : Decidable (ok21 pf) := decidable_of_iff' _ (Iff.of_eq (ok21.eq_1 pf))
theorem hinb21 : ∀ (pf : pre21.Contents (Elt F)), ok21 pf → ∀ w (i : grid21.Coords) a, (ix21 pf w i a + 1) * (spec21 w).size a ≤ (spec21 w).shape.size a :=
  fun pf hok => fun | 0 => fun i a => (hok i).elim fun h _ => h a | 1 => hinb21_1 | ⟨_ + 2, h⟩ => absurd h (Nat.not_lt.2 (Nat.le_add_left _ _))
theorem hwx21 : ∀ (pf : pre21.Contents (Elt F)) (hok : ok21 pf) w (i : grid21.Coords), (spec21 w).elt.bits = 32 ∨ (Rect.block (spec21 w).size (ix21 pf w i) (hinb21 pf hok w i)).WholeWords (spec21 w).elt.packing :=
  fun pf hok => fun | 0 => fun i => (hok i).elim fun _ h => h | 1 => hwx21_1 | ⟨_ + 2, h⟩ => absurd h (Nat.not_lt.2 (Nat.le_add_left _ _))
abbrev spec22_0 : Pipeline.WinSpec sig grid22.rank :=
  Pipeline.WinSpec.ofSpec (Memref.whole main_v3) S1x1x128.size reads22_0 false false 2 stage22_0 sem22_0 nbuf22_0 hstage22_0

abbrev spec22_1 : Pipeline.WinSpec sig grid22.rank :=
  Pipeline.WinSpec.ofSpec (Memref.whole main_v94) S1x1x128.size reads22_1 true false 2 stage22_1 sem22_1 nbuf22_1 hstage22_1

abbrev spec22 : Fin 2 → Pipeline.WinSpec sig grid22.rank := fun | 0 => spec22_0 | 1 => spec22_1 | ⟨_ + 2, h⟩ => absurd h (Nat.not_lt.2 (Nat.le_add_left _ _))
theorem hcount22 : ∀ w, grid22.bufCount (spec22 w).reads (spec22 w).sync = (spec22 w).nbuf := fun | 0 => nbuf22_0 | 1 => nbuf22_1 | ⟨_ + 2, h⟩ => absurd h (Nat.not_lt.2 (Nat.le_add_left _ _))
abbrev ix22 (pf : pre22.Contents (Elt F)) : (w : Fin 2) → grid22.Coords → Fin (spec22 w).shape.rank → Nat := fun | 0 => cc22_transform_0 k22_off1_inb numel1_S1 pf | 1 => cc22_transform_1 | ⟨_ + 2, h⟩ => absurd h (Nat.not_lt.2 (Nat.le_add_left _ _))
theorem hreads22 : ∀ (pf : pre22.Contents (Elt F)) w (i i' : grid22.Coords), (∀ a, (spec22 w).reads a = true → i a = i' a) → ix22 pf w i = ix22 pf w i' := fun pf => fun | 0 => hreads22_0 pf | 1 => hreads22_1 | ⟨_ + 2, h⟩ => absurd h (Nat.not_lt.2 (Nat.le_add_left _ _))
def ok22 (pf : pre22.Contents (Elt F)) : Prop :=
  (∀ i : grid22.Coords, ∃ h : (∀ a, (cc22_transform_0 k22_off1_inb numel1_S1 pf i a + 1) * S1x1x128.size a ≤ S262145x1x128.size a), EltTy.bits .f32 = 32 ∨ (Rect.block (s := S262145x1x128) S1x1x128.size (cc22_transform_0 k22_off1_inb numel1_S1 pf i) h).WholeWords (EltTy.packing .f32))
instance (pf : pre22.Contents (Elt F)) : Decidable (ok22 pf) := decidable_of_iff' _ (Iff.of_eq (ok22.eq_1 pf))
theorem hinb22 : ∀ (pf : pre22.Contents (Elt F)), ok22 pf → ∀ w (i : grid22.Coords) a, (ix22 pf w i a + 1) * (spec22 w).size a ≤ (spec22 w).shape.size a :=
  fun pf hok => fun | 0 => fun i a => (hok i).elim fun h _ => h a | 1 => hinb22_1 | ⟨_ + 2, h⟩ => absurd h (Nat.not_lt.2 (Nat.le_add_left _ _))
theorem hwx22 : ∀ (pf : pre22.Contents (Elt F)) (hok : ok22 pf) w (i : grid22.Coords), (spec22 w).elt.bits = 32 ∨ (Rect.block (spec22 w).size (ix22 pf w i) (hinb22 pf hok w i)).WholeWords (spec22 w).elt.packing :=
  fun pf hok => fun | 0 => fun i => (hok i).elim fun _ h => h | 1 => hwx22_1 | ⟨_ + 2, h⟩ => absurd h (Nat.not_lt.2 (Nat.le_add_left _ _))
abbrev spec23_0 : Pipeline.WinSpec sig grid23.rank :=
  Pipeline.WinSpec.ofSpec (Memref.whole main_v3) S1x1x128.size reads23_0 false false 2 stage23_0 sem23_0 nbuf23_0 hstage23_0

abbrev spec23_1 : Pipeline.WinSpec sig grid23.rank :=
  Pipeline.WinSpec.ofSpec (Memref.whole main_v98) S1x1x128.size reads23_1 true false 2 stage23_1 sem23_1 nbuf23_1 hstage23_1

abbrev spec23 : Fin 2 → Pipeline.WinSpec sig grid23.rank := fun | 0 => spec23_0 | 1 => spec23_1 | ⟨_ + 2, h⟩ => absurd h (Nat.not_lt.2 (Nat.le_add_left _ _))
theorem hcount23 : ∀ w, grid23.bufCount (spec23 w).reads (spec23 w).sync = (spec23 w).nbuf := fun | 0 => nbuf23_0 | 1 => nbuf23_1 | ⟨_ + 2, h⟩ => absurd h (Nat.not_lt.2 (Nat.le_add_left _ _))
abbrev ix23 (pf : pre23.Contents (Elt F)) : (w : Fin 2) → grid23.Coords → Fin (spec23 w).shape.rank → Nat := fun | 0 => cc23_transform_0 k23_off1_inb numel1_S1 pf | 1 => cc23_transform_1 | ⟨_ + 2, h⟩ => absurd h (Nat.not_lt.2 (Nat.le_add_left _ _))
theorem hreads23 : ∀ (pf : pre23.Contents (Elt F)) w (i i' : grid23.Coords), (∀ a, (spec23 w).reads a = true → i a = i' a) → ix23 pf w i = ix23 pf w i' := fun pf => fun | 0 => hreads23_0 pf | 1 => hreads23_1 | ⟨_ + 2, h⟩ => absurd h (Nat.not_lt.2 (Nat.le_add_left _ _))
def ok23 (pf : pre23.Contents (Elt F)) : Prop :=
  (∀ i : grid23.Coords, ∃ h : (∀ a, (cc23_transform_0 k23_off1_inb numel1_S1 pf i a + 1) * S1x1x128.size a ≤ S262145x1x128.size a), EltTy.bits .f32 = 32 ∨ (Rect.block (s := S262145x1x128) S1x1x128.size (cc23_transform_0 k23_off1_inb numel1_S1 pf i) h).WholeWords (EltTy.packing .f32))
instance (pf : pre23.Contents (Elt F)) : Decidable (ok23 pf) := decidable_of_iff' _ (Iff.of_eq (ok23.eq_1 pf))
theorem hinb23 : ∀ (pf : pre23.Contents (Elt F)), ok23 pf → ∀ w (i : grid23.Coords) a, (ix23 pf w i a + 1) * (spec23 w).size a ≤ (spec23 w).shape.size a :=
  fun pf hok => fun | 0 => fun i a => (hok i).elim fun h _ => h a | 1 => hinb23_1 | ⟨_ + 2, h⟩ => absurd h (Nat.not_lt.2 (Nat.le_add_left _ _))
theorem hwx23 : ∀ (pf : pre23.Contents (Elt F)) (hok : ok23 pf) w (i : grid23.Coords), (spec23 w).elt.bits = 32 ∨ (Rect.block (spec23 w).size (ix23 pf w i) (hinb23 pf hok w i)).WholeWords (spec23 w).elt.packing :=
  fun pf hok => fun | 0 => fun i => (hok i).elim fun _ h => h | 1 => hwx23_1 | ⟨_ + 2, h⟩ => absurd h (Nat.not_lt.2 (Nat.le_add_left _ _))
abbrev spec24_0 : Pipeline.WinSpec sig grid24.rank :=
  Pipeline.WinSpec.ofSpec (Memref.whole main_v3) S1x1x128.size reads24_0 false false 2 stage24_0 sem24_0 nbuf24_0 hstage24_0

abbrev spec24_1 : Pipeline.WinSpec sig grid24.rank :=
  Pipeline.WinSpec.ofSpec (Memref.whole main_v102) S1x1x128.size reads24_1 true false 2 stage24_1 sem24_1 nbuf24_1 hstage24_1

abbrev spec24 : Fin 2 → Pipeline.WinSpec sig grid24.rank := fun | 0 => spec24_0 | 1 => spec24_1 | ⟨_ + 2, h⟩ => absurd h (Nat.not_lt.2 (Nat.le_add_left _ _))
theorem hcount24 : ∀ w, grid24.bufCount (spec24 w).reads (spec24 w).sync = (spec24 w).nbuf := fun | 0 => nbuf24_0 | 1 => nbuf24_1 | ⟨_ + 2, h⟩ => absurd h (Nat.not_lt.2 (Nat.le_add_left _ _))
abbrev ix24 (pf : pre24.Contents (Elt F)) : (w : Fin 2) → grid24.Coords → Fin (spec24 w).shape.rank → Nat := fun | 0 => cc24_transform_0 k24_off1_inb numel1_S1 pf | 1 => cc24_transform_1 | ⟨_ + 2, h⟩ => absurd h (Nat.not_lt.2 (Nat.le_add_left _ _))
theorem hreads24 : ∀ (pf : pre24.Contents (Elt F)) w (i i' : grid24.Coords), (∀ a, (spec24 w).reads a = true → i a = i' a) → ix24 pf w i = ix24 pf w i' := fun pf => fun | 0 => hreads24_0 pf | 1 => hreads24_1 | ⟨_ + 2, h⟩ => absurd h (Nat.not_lt.2 (Nat.le_add_left _ _))
def ok24 (pf : pre24.Contents (Elt F)) : Prop :=
  (∀ i : grid24.Coords, ∃ h : (∀ a, (cc24_transform_0 k24_off1_inb numel1_S1 pf i a + 1) * S1x1x128.size a ≤ S262145x1x128.size a), EltTy.bits .f32 = 32 ∨ (Rect.block (s := S262145x1x128) S1x1x128.size (cc24_transform_0 k24_off1_inb numel1_S1 pf i) h).WholeWords (EltTy.packing .f32))
instance (pf : pre24.Contents (Elt F)) : Decidable (ok24 pf) := decidable_of_iff' _ (Iff.of_eq (ok24.eq_1 pf))
theorem hinb24 : ∀ (pf : pre24.Contents (Elt F)), ok24 pf → ∀ w (i : grid24.Coords) a, (ix24 pf w i a + 1) * (spec24 w).size a ≤ (spec24 w).shape.size a :=
  fun pf hok => fun | 0 => fun i a => (hok i).elim fun h _ => h a | 1 => hinb24_1 | ⟨_ + 2, h⟩ => absurd h (Nat.not_lt.2 (Nat.le_add_left _ _))
theorem hwx24 : ∀ (pf : pre24.Contents (Elt F)) (hok : ok24 pf) w (i : grid24.Coords), (spec24 w).elt.bits = 32 ∨ (Rect.block (spec24 w).size (ix24 pf w i) (hinb24 pf hok w i)).WholeWords (spec24 w).elt.packing :=
  fun pf hok => fun | 0 => fun i => (hok i).elim fun _ h => h | 1 => hwx24_1 | ⟨_ + 2, h⟩ => absurd h (Nat.not_lt.2 (Nat.le_add_left _ _))
abbrev spec25_0 : Pipeline.WinSpec sig grid25.rank :=
  Pipeline.WinSpec.ofSpec (Memref.whole main_v3) S1x1x128.size reads25_0 false false 2 stage25_0 sem25_0 nbuf25_0 hstage25_0

abbrev spec25_1 : Pipeline.WinSpec sig grid25.rank :=
  Pipeline.WinSpec.ofSpec (Memref.whole main_v106) S1x1x128.size reads25_1 true false 2 stage25_1 sem25_1 nbuf25_1 hstage25_1

abbrev spec25 : Fin 2 → Pipeline.WinSpec sig grid25.rank := fun | 0 => spec25_0 | 1 => spec25_1 | ⟨_ + 2, h⟩ => absurd h (Nat.not_lt.2 (Nat.le_add_left _ _))
theorem hcount25 : ∀ w, grid25.bufCount (spec25 w).reads (spec25 w).sync = (spec25 w).nbuf := fun | 0 => nbuf25_0 | 1 => nbuf25_1 | ⟨_ + 2, h⟩ => absurd h (Nat.not_lt.2 (Nat.le_add_left _ _))
abbrev ix25 (pf : pre25.Contents (Elt F)) : (w : Fin 2) → grid25.Coords → Fin (spec25 w).shape.rank → Nat := fun | 0 => cc25_transform_0 k25_off1_inb numel1_S1 pf | 1 => cc25_transform_1 | ⟨_ + 2, h⟩ => absurd h (Nat.not_lt.2 (Nat.le_add_left _ _))
theorem hreads25 : ∀ (pf : pre25.Contents (Elt F)) w (i i' : grid25.Coords), (∀ a, (spec25 w).reads a = true → i a = i' a) → ix25 pf w i = ix25 pf w i' := fun pf => fun | 0 => hreads25_0 pf | 1 => hreads25_1 | ⟨_ + 2, h⟩ => absurd h (Nat.not_lt.2 (Nat.le_add_left _ _))
def ok25 (pf : pre25.Contents (Elt F)) : Prop :=
  (∀ i : grid25.Coords, ∃ h : (∀ a, (cc25_transform_0 k25_off1_inb numel1_S1 pf i a + 1) * S1x1x128.size a ≤ S262145x1x128.size a), EltTy.bits .f32 = 32 ∨ (Rect.block (s := S262145x1x128) S1x1x128.size (cc25_transform_0 k25_off1_inb numel1_S1 pf i) h).WholeWords (EltTy.packing .f32))
instance (pf : pre25.Contents (Elt F)) : Decidable (ok25 pf) := decidable_of_iff' _ (Iff.of_eq (ok25.eq_1 pf))
theorem hinb25 : ∀ (pf : pre25.Contents (Elt F)), ok25 pf → ∀ w (i : grid25.Coords) a, (ix25 pf w i a + 1) * (spec25 w).size a ≤ (spec25 w).shape.size a :=
  fun pf hok => fun | 0 => fun i a => (hok i).elim fun h _ => h a | 1 => hinb25_1 | ⟨_ + 2, h⟩ => absurd h (Nat.not_lt.2 (Nat.le_add_left _ _))
theorem hwx25 : ∀ (pf : pre25.Contents (Elt F)) (hok : ok25 pf) w (i : grid25.Coords), (spec25 w).elt.bits = 32 ∨ (Rect.block (spec25 w).size (ix25 pf w i) (hinb25 pf hok w i)).WholeWords (spec25 w).elt.packing :=
  fun pf hok => fun | 0 => fun i => (hok i).elim fun _ h => h | 1 => hwx25_1 | ⟨_ + 2, h⟩ => absurd h (Nat.not_lt.2 (Nat.le_add_left _ _))
abbrev spec26_0 : Pipeline.WinSpec sig grid26.rank :=
  Pipeline.WinSpec.ofSpec (Memref.whole main_v3) S1x1x128.size reads26_0 false false 2 stage26_0 sem26_0 nbuf26_0 hstage26_0

abbrev spec26_1 : Pipeline.WinSpec sig grid26.rank :=
  Pipeline.WinSpec.ofSpec (Memref.whole main_v110) S1x1x128.size reads26_1 true false 2 stage26_1 sem26_1 nbuf26_1 hstage26_1

abbrev spec26 : Fin 2 → Pipeline.WinSpec sig grid26.rank := fun | 0 => spec26_0 | 1 => spec26_1 | ⟨_ + 2, h⟩ => absurd h (Nat.not_lt.2 (Nat.le_add_left _ _))
theorem hcount26 : ∀ w, grid26.bufCount (spec26 w).reads (spec26 w).sync = (spec26 w).nbuf := fun | 0 => nbuf26_0 | 1 => nbuf26_1 | ⟨_ + 2, h⟩ => absurd h (Nat.not_lt.2 (Nat.le_add_left _ _))
abbrev ix26 (pf : pre26.Contents (Elt F)) : (w : Fin 2) → grid26.Coords → Fin (spec26 w).shape.rank → Nat := fun | 0 => cc26_transform_0 k26_off1_inb numel1_S1 pf | 1 => cc26_transform_1 | ⟨_ + 2, h⟩ => absurd h (Nat.not_lt.2 (Nat.le_add_left _ _))
theorem hreads26 : ∀ (pf : pre26.Contents (Elt F)) w (i i' : grid26.Coords), (∀ a, (spec26 w).reads a = true → i a = i' a) → ix26 pf w i = ix26 pf w i' := fun pf => fun | 0 => hreads26_0 pf | 1 => hreads26_1 | ⟨_ + 2, h⟩ => absurd h (Nat.not_lt.2 (Nat.le_add_left _ _))
def ok26 (pf : pre26.Contents (Elt F)) : Prop :=
  (∀ i : grid26.Coords, ∃ h : (∀ a, (cc26_transform_0 k26_off1_inb numel1_S1 pf i a + 1) * S1x1x128.size a ≤ S262145x1x128.size a), EltTy.bits .f32 = 32 ∨ (Rect.block (s := S262145x1x128) S1x1x128.size (cc26_transform_0 k26_off1_inb numel1_S1 pf i) h).WholeWords (EltTy.packing .f32))
instance (pf : pre26.Contents (Elt F)) : Decidable (ok26 pf) := decidable_of_iff' _ (Iff.of_eq (ok26.eq_1 pf))
theorem hinb26 : ∀ (pf : pre26.Contents (Elt F)), ok26 pf → ∀ w (i : grid26.Coords) a, (ix26 pf w i a + 1) * (spec26 w).size a ≤ (spec26 w).shape.size a :=
  fun pf hok => fun | 0 => fun i a => (hok i).elim fun h _ => h a | 1 => hinb26_1 | ⟨_ + 2, h⟩ => absurd h (Nat.not_lt.2 (Nat.le_add_left _ _))
theorem hwx26 : ∀ (pf : pre26.Contents (Elt F)) (hok : ok26 pf) w (i : grid26.Coords), (spec26 w).elt.bits = 32 ∨ (Rect.block (spec26 w).size (ix26 pf w i) (hinb26 pf hok w i)).WholeWords (spec26 w).elt.packing :=
  fun pf hok => fun | 0 => fun i => (hok i).elim fun _ h => h | 1 => hwx26_1 | ⟨_ + 2, h⟩ => absurd h (Nat.not_lt.2 (Nat.le_add_left _ _))
abbrev spec27_0 : Pipeline.WinSpec sig grid27.rank :=
  Pipeline.WinSpec.ofSpec (Memref.whole main_v3) S1x1x128.size reads27_0 false false 2 stage27_0 sem27_0 nbuf27_0 hstage27_0

abbrev spec27_1 : Pipeline.WinSpec sig grid27.rank :=
  Pipeline.WinSpec.ofSpec (Memref.whole main_v114) S1x1x128.size reads27_1 true false 2 stage27_1 sem27_1 nbuf27_1 hstage27_1

abbrev spec27 : Fin 2 → Pipeline.WinSpec sig grid27.rank := fun | 0 => spec27_0 | 1 => spec27_1 | ⟨_ + 2, h⟩ => absurd h (Nat.not_lt.2 (Nat.le_add_left _ _))
theorem hcount27 : ∀ w, grid27.bufCount (spec27 w).reads (spec27 w).sync = (spec27 w).nbuf := fun | 0 => nbuf27_0 | 1 => nbuf27_1 | ⟨_ + 2, h⟩ => absurd h (Nat.not_lt.2 (Nat.le_add_left _ _))
abbrev ix27 (pf : pre27.Contents (Elt F)) : (w : Fin 2) → grid27.Coords → Fin (spec27 w).shape.rank → Nat := fun | 0 => cc27_transform_0 k27_off1_inb numel1_S1 pf | 1 => cc27_transform_1 | ⟨_ + 2, h⟩ => absurd h (Nat.not_lt.2 (Nat.le_add_left _ _))
theorem hreads27 : ∀ (pf : pre27.Contents (Elt F)) w (i i' : grid27.Coords), (∀ a, (spec27 w).reads a = true → i a = i' a) → ix27 pf w i = ix27 pf w i' := fun pf => fun | 0 => hreads27_0 pf | 1 => hreads27_1 | ⟨_ + 2, h⟩ => absurd h (Nat.not_lt.2 (Nat.le_add_left _ _))
def ok27 (pf : pre27.Contents (Elt F)) : Prop :=
  (∀ i : grid27.Coords, ∃ h : (∀ a, (cc27_transform_0 k27_off1_inb numel1_S1 pf i a + 1) * S1x1x128.size a ≤ S262145x1x128.size a), EltTy.bits .f32 = 32 ∨ (Rect.block (s := S262145x1x128) S1x1x128.size (cc27_transform_0 k27_off1_inb numel1_S1 pf i) h).WholeWords (EltTy.packing .f32))
instance (pf : pre27.Contents (Elt F)) : Decidable (ok27 pf) := decidable_of_iff' _ (Iff.of_eq (ok27.eq_1 pf))
theorem hinb27 : ∀ (pf : pre27.Contents (Elt F)), ok27 pf → ∀ w (i : grid27.Coords) a, (ix27 pf w i a + 1) * (spec27 w).size a ≤ (spec27 w).shape.size a :=
  fun pf hok => fun | 0 => fun i a => (hok i).elim fun h _ => h a | 1 => hinb27_1 | ⟨_ + 2, h⟩ => absurd h (Nat.not_lt.2 (Nat.le_add_left _ _))
theorem hwx27 : ∀ (pf : pre27.Contents (Elt F)) (hok : ok27 pf) w (i : grid27.Coords), (spec27 w).elt.bits = 32 ∨ (Rect.block (spec27 w).size (ix27 pf w i) (hinb27 pf hok w i)).WholeWords (spec27 w).elt.packing :=
  fun pf hok => fun | 0 => fun i => (hok i).elim fun _ h => h | 1 => hwx27_1 | ⟨_ + 2, h⟩ => absurd h (Nat.not_lt.2 (Nat.le_add_left _ _))
abbrev spec28_0 : Pipeline.WinSpec sig grid28.rank :=
  Pipeline.WinSpec.ofSpec (Memref.whole main_v3) S1x1x128.size reads28_0 false false 2 stage28_0 sem28_0 nbuf28_0 hstage28_0

abbrev spec28_1 : Pipeline.WinSpec sig grid28.rank :=
  Pipeline.WinSpec.ofSpec (Memref.whole main_v118) S1x1x128.size reads28_1 true false 2 stage28_1 sem28_1 nbuf28_1 hstage28_1

abbrev spec28 : Fin 2 → Pipeline.WinSpec sig grid28.rank := fun | 0 => spec28_0 | 1 => spec28_1 | ⟨_ + 2, h⟩ => absurd h (Nat.not_lt.2 (Nat.le_add_left _ _))
theorem hcount28 : ∀ w, grid28.bufCount (spec28 w).reads (spec28 w).sync = (spec28 w).nbuf := fun | 0 => nbuf28_0 | 1 => nbuf28_1 | ⟨_ + 2, h⟩ => absurd h (Nat.not_lt.2 (Nat.le_add_left _ _))
abbrev ix28 (pf : pre28.Contents (Elt F)) : (w : Fin 2) → grid28.Coords → Fin (spec28 w).shape.rank → Nat := fun | 0 => cc28_transform_0 k28_off1_inb numel1_S1 pf | 1 => cc28_transform_1 | ⟨_ + 2, h⟩ => absurd h (Nat.not_lt.2 (Nat.le_add_left _ _))
theorem hreads28 : ∀ (pf : pre28.Contents (Elt F)) w (i i' : grid28.Coords), (∀ a, (spec28 w).reads a = true → i a = i' a) → ix28 pf w i = ix28 pf w i' := fun pf => fun | 0 => hreads28_0 pf | 1 => hreads28_1 | ⟨_ + 2, h⟩ => absurd h (Nat.not_lt.2 (Nat.le_add_left _ _))
def ok28 (pf : pre28.Contents (Elt F)) : Prop :=
  (∀ i : grid28.Coords, ∃ h : (∀ a, (cc28_transform_0 k28_off1_inb numel1_S1 pf i a + 1) * S1x1x128.size a ≤ S262145x1x128.size a), EltTy.bits .f32 = 32 ∨ (Rect.block (s := S262145x1x128) S1x1x128.size (cc28_transform_0 k28_off1_inb numel1_S1 pf i) h).WholeWords (EltTy.packing .f32))
instance (pf : pre28.Contents (Elt F)) : Decidable (ok28 pf) := decidable_of_iff' _ (Iff.of_eq (ok28.eq_1 pf))
theorem hinb28 : ∀ (pf : pre28.Contents (Elt F)), ok28 pf → ∀ w (i : grid28.Coords) a, (ix28 pf w i a + 1) * (spec28 w).size a ≤ (spec28 w).shape.size a :=
  fun pf hok => fun | 0 => fun i a => (hok i).elim fun h _ => h a | 1 => hinb28_1 | ⟨_ + 2, h⟩ => absurd h (Nat.not_lt.2 (Nat.le_add_left _ _))
theorem hwx28 : ∀ (pf : pre28.Contents (Elt F)) (hok : ok28 pf) w (i : grid28.Coords), (spec28 w).elt.bits = 32 ∨ (Rect.block (spec28 w).size (ix28 pf w i) (hinb28 pf hok w i)).WholeWords (spec28 w).elt.packing :=
  fun pf hok => fun | 0 => fun i => (hok i).elim fun _ h => h | 1 => hwx28_1 | ⟨_ + 2, h⟩ => absurd h (Nat.not_lt.2 (Nat.le_add_left _ _))
abbrev spec29_0 : Pipeline.WinSpec sig grid29.rank :=
  Pipeline.WinSpec.ofSpec (Memref.whole main_v3) S1x1x128.size reads29_0 false false 2 stage29_0 sem29_0 nbuf29_0 hstage29_0

abbrev spec29_1 : Pipeline.WinSpec sig grid29.rank :=
  Pipeline.WinSpec.ofSpec (Memref.whole main_v122) S1x1x128.size reads29_1 true false 2 stage29_1 sem29_1 nbuf29_1 hstage29_1

abbrev spec29 : Fin 2 → Pipeline.WinSpec sig grid29.rank := fun | 0 => spec29_0 | 1 => spec29_1 | ⟨_ + 2, h⟩ => absurd h (Nat.not_lt.2 (Nat.le_add_left _ _))
theorem hcount29 : ∀ w, grid29.bufCount (spec29 w).reads (spec29 w).sync = (spec29 w).nbuf := fun | 0 => nbuf29_0 | 1 => nbuf29_1 | ⟨_ + 2, h⟩ => absurd h (Nat.not_lt.2 (Nat.le_add_left _ _))
abbrev ix29 (pf : pre29.Contents (Elt F)) : (w : Fin 2) → grid29.Coords → Fin (spec29 w).shape.rank → Nat := fun | 0 => cc29_transform_0 k29_off1_inb numel1_S1 pf | 1 => cc29_transform_1 | ⟨_ + 2, h⟩ => absurd h (Nat.not_lt.2 (Nat.le_add_left _ _))
theorem hreads29 : ∀ (pf : pre29.Contents (Elt F)) w (i i' : grid29.Coords), (∀ a, (spec29 w).reads a = true → i a = i' a) → ix29 pf w i = ix29 pf w i' := fun pf => fun | 0 => hreads29_0 pf | 1 => hreads29_1 | ⟨_ + 2, h⟩ => absurd h (Nat.not_lt.2 (Nat.le_add_left _ _))
def ok29 (pf : pre29.Contents (Elt F)) : Prop :=
  (∀ i : grid29.Coords, ∃ h : (∀ a, (cc29_transform_0 k29_off1_inb numel1_S1 pf i a + 1) * S1x1x128.size a ≤ S262145x1x128.size a), EltTy.bits .f32 = 32 ∨ (Rect.block (s := S262145x1x128) S1x1x128.size (cc29_transform_0 k29_off1_inb numel1_S1 pf i) h).WholeWords (EltTy.packing .f32))
instance (pf : pre29.Contents (Elt F)) : Decidable (ok29 pf) := decidable_of_iff' _ (Iff.of_eq (ok29.eq_1 pf))
theorem hinb29 : ∀ (pf : pre29.Contents (Elt F)), ok29 pf → ∀ w (i : grid29.Coords) a, (ix29 pf w i a + 1) * (spec29 w).size a ≤ (spec29 w).shape.size a :=
  fun pf hok => fun | 0 => fun i a => (hok i).elim fun h _ => h a | 1 => hinb29_1 | ⟨_ + 2, h⟩ => absurd h (Nat.not_lt.2 (Nat.le_add_left _ _))
theorem hwx29 : ∀ (pf : pre29.Contents (Elt F)) (hok : ok29 pf) w (i : grid29.Coords), (spec29 w).elt.bits = 32 ∨ (Rect.block (spec29 w).size (ix29 pf w i) (hinb29 pf hok w i)).WholeWords (spec29 w).elt.packing :=
  fun pf hok => fun | 0 => fun i => (hok i).elim fun _ h => h | 1 => hwx29_1 | ⟨_ + 2, h⟩ => absurd h (Nat.not_lt.2 (Nat.le_add_left _ _))
abbrev spec30_0 : Pipeline.WinSpec sig grid30.rank :=
  Pipeline.WinSpec.ofSpec (Memref.whole main_v3) S1x1x128.size reads30_0 false false 2 stage30_0 sem30_0 nbuf30_0 hstage30_0

abbrev spec30_1 : Pipeline.WinSpec sig grid30.rank :=
  Pipeline.WinSpec.ofSpec (Memref.whole main_v126) S1x1x128.size reads30_1 true false 2 stage30_1 sem30_1 nbuf30_1 hstage30_1

abbrev spec30 : Fin 2 → Pipeline.WinSpec sig grid30.rank := fun | 0 => spec30_0 | 1 => spec30_1 | ⟨_ + 2, h⟩ => absurd h (Nat.not_lt.2 (Nat.le_add_left _ _))
theorem hcount30 : ∀ w, grid30.bufCount (spec30 w).reads (spec30 w).sync = (spec30 w).nbuf := fun | 0 => nbuf30_0 | 1 => nbuf30_1 | ⟨_ + 2, h⟩ => absurd h (Nat.not_lt.2 (Nat.le_add_left _ _))
abbrev ix30 (pf : pre30.Contents (Elt F)) : (w : Fin 2) → grid30.Coords → Fin (spec30 w).shape.rank → Nat := fun | 0 => cc30_transform_0 k30_off1_inb numel1_S1 pf | 1 => cc30_transform_1 | ⟨_ + 2, h⟩ => absurd h (Nat.not_lt.2 (Nat.le_add_left _ _))
theorem hreads30 : ∀ (pf : pre30.Contents (Elt F)) w (i i' : grid30.Coords), (∀ a, (spec30 w).reads a = true → i a = i' a) → ix30 pf w i = ix30 pf w i' := fun pf => fun | 0 => hreads30_0 pf | 1 => hreads30_1 | ⟨_ + 2, h⟩ => absurd h (Nat.not_lt.2 (Nat.le_add_left _ _))
def ok30 (pf : pre30.Contents (Elt F)) : Prop :=
  (∀ i : grid30.Coords, ∃ h : (∀ a, (cc30_transform_0 k30_off1_inb numel1_S1 pf i a + 1) * S1x1x128.size a ≤ S262145x1x128.size a), EltTy.bits .f32 = 32 ∨ (Rect.block (s := S262145x1x128) S1x1x128.size (cc30_transform_0 k30_off1_inb numel1_S1 pf i) h).WholeWords (EltTy.packing .f32))
instance (pf : pre30.Contents (Elt F)) : Decidable (ok30 pf) := decidable_of_iff' _ (Iff.of_eq (ok30.eq_1 pf))
theorem hinb30 : ∀ (pf : pre30.Contents (Elt F)), ok30 pf → ∀ w (i : grid30.Coords) a, (ix30 pf w i a + 1) * (spec30 w).size a ≤ (spec30 w).shape.size a :=
  fun pf hok => fun | 0 => fun i a => (hok i).elim fun h _ => h a | 1 => hinb30_1 | ⟨_ + 2, h⟩ => absurd h (Nat.not_lt.2 (Nat.le_add_left _ _))
theorem hwx30 : ∀ (pf : pre30.Contents (Elt F)) (hok : ok30 pf) w (i : grid30.Coords), (spec30 w).elt.bits = 32 ∨ (Rect.block (spec30 w).size (ix30 pf w i) (hinb30 pf hok w i)).WholeWords (spec30 w).elt.packing :=
  fun pf hok => fun | 0 => fun i => (hok i).elim fun _ h => h | 1 => hwx30_1 | ⟨_ + 2, h⟩ => absurd h (Nat.not_lt.2 (Nat.le_add_left _ _))
abbrev spec31_0 : Pipeline.WinSpec sig grid31.rank :=
  Pipeline.WinSpec.ofSpec (Memref.whole main_v3) S1x1x128.size reads31_0 false false 2 stage31_0 sem31_0 nbuf31_0 hstage31_0

abbrev spec31_1 : Pipeline.WinSpec sig grid31.rank :=
  Pipeline.WinSpec.ofSpec (Memref.whole main_v130) S1x1x128.size reads31_1 true false 2 stage31_1 sem31_1 nbuf31_1 hstage31_1

abbrev spec31 : Fin 2 → Pipeline.WinSpec sig grid31.rank := fun | 0 => spec31_0 | 1 => spec31_1 | ⟨_ + 2, h⟩ => absurd h (Nat.not_lt.2 (Nat.le_add_left _ _))
theorem hcount31 : ∀ w, grid31.bufCount (spec31 w).reads (spec31 w).sync = (spec31 w).nbuf := fun | 0 => nbuf31_0 | 1 => nbuf31_1 | ⟨_ + 2, h⟩ => absurd h (Nat.not_lt.2 (Nat.le_add_left _ _))
abbrev ix31 (pf : pre31.Contents (Elt F)) : (w : Fin 2) → grid31.Coords → Fin (spec31 w).shape.rank → Nat := fun | 0 => cc31_transform_0 k31_off1_inb numel1_S1 pf | 1 => cc31_transform_1 | ⟨_ + 2, h⟩ => absurd h (Nat.not_lt.2 (Nat.le_add_left _ _))
theorem hreads31 : ∀ (pf : pre31.Contents (Elt F)) w (i i' : grid31.Coords), (∀ a, (spec31 w).reads a = true → i a = i' a) → ix31 pf w i = ix31 pf w i' := fun pf => fun | 0 => hreads31_0 pf | 1 => hreads31_1 | ⟨_ + 2, h⟩ => absurd h (Nat.not_lt.2 (Nat.le_add_left _ _))
def ok31 (pf : pre31.Contents (Elt F)) : Prop :=
  (∀ i : grid31.Coords, ∃ h : (∀ a, (cc31_transform_0 k31_off1_inb numel1_S1 pf i a + 1) * S1x1x128.size a ≤ S262145x1x128.size a), EltTy.bits .f32 = 32 ∨ (Rect.block (s := S262145x1x128) S1x1x128.size (cc31_transform_0 k31_off1_inb numel1_S1 pf i) h).WholeWords (EltTy.packing .f32))
instance (pf : pre31.Contents (Elt F)) : Decidable (ok31 pf) := decidable_of_iff' _ (Iff.of_eq (ok31.eq_1 pf))
theorem hinb31 : ∀ (pf : pre31.Contents (Elt F)), ok31 pf → ∀ w (i : grid31.Coords) a, (ix31 pf w i a + 1) * (spec31 w).size a ≤ (spec31 w).shape.size a :=
  fun pf hok => fun | 0 => fun i a => (hok i).elim fun h _ => h a | 1 => hinb31_1 | ⟨_ + 2, h⟩ => absurd h (Nat.not_lt.2 (Nat.le_add_left _ _))
theorem hwx31 : ∀ (pf : pre31.Contents (Elt F)) (hok : ok31 pf) w (i : grid31.Coords), (spec31 w).elt.bits = 32 ∨ (Rect.block (spec31 w).size (ix31 pf w i) (hinb31 pf hok w i)).WholeWords (spec31 w).elt.packing :=
  fun pf hok => fun | 0 => fun i => (hok i).elim fun _ h => h | 1 => hwx31_1 | ⟨_ + 2, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole
  harr20 : ∀ w, (spec20 w).arr.IsWhole
  harr21 : ∀ w, (spec21 w).arr.IsWhole
  harr22 : ∀ w, (spec22 w).arr.IsWhole
  harr23 : ∀ w, (spec23 w).arr.IsWhole
  harr24 : ∀ w, (spec24 w).arr.IsWhole
  harr25 : ∀ w, (spec25 w).arr.IsWhole
  harr26 : ∀ w, (spec26 w).arr.IsWhole
  harr27 : ∀ w, (spec27 w).arr.IsWhole
  harr28 : ∀ w, (spec28 w).arr.IsWhole
  harr29 : ∀ w, (spec29 w).arr.IsWhole
  harr30 : ∀ w, (spec30 w).arr.IsWhole
  harr31 : ∀ w, (spec31 w).arr.IsWhole

variable [Facts]
-- ==== ReferenceIdeal.lean ====
abbrev S262144x128 : Shape := ⟨2, ![262144, 128]⟩
abbrev S65536x32 : Shape := ⟨2, ![65536, 32]⟩
abbrev S1x128 : Shape := ⟨2, ![1, 128]⟩
abbrev S_ : Shape := ⟨0, ![]⟩
abbrev S262145x128 : Shape := ⟨2, ![262145, 128]⟩
abbrev S65536x32x1 : Shape := ⟨3, ![65536, 32, 1]⟩
abbrev S65536x32x128 : Shape := ⟨3, ![65536, 32, 128]⟩
abbrev S65536x128 : Shape := ⟨2, ![65536, 128]⟩

abbrev nBuf : Space → Nat
  | .hbm => 17
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S65536x32, .i32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S262145x128, .f32⟩
  | .hbm, ⟨6, _⟩ => ⟨S_, .i32⟩
  | .hbm, ⟨7, _⟩ => ⟨S65536x32, .i32⟩
  | .hbm, ⟨8, _⟩ => ⟨S65536x32, .i1⟩
  | .hbm, ⟨9, _⟩ => ⟨S_, .i32⟩
  | .hbm, ⟨10, _⟩ => ⟨S65536x32, .i32⟩
  | .hbm, ⟨11, _⟩ => ⟨S65536x32, .i32⟩
  | .hbm, ⟨12, _⟩ => ⟨S65536x32, .i32⟩
  | .hbm, ⟨13, _⟩ => ⟨S65536x32x1, .i32⟩
  | .hbm, ⟨14, _⟩ => ⟨S65536x32x128, .f32⟩
  | .hbm, ⟨15, _⟩ => ⟨S_, .f32⟩
  | .hbm, ⟨16, _⟩ => ⟨S65536x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  slices_S262144x128_S1x128_0_0 : S262144x128.Slices ![0, 0] S1x128
  bcast_S_S1x128 : S_.BroadcastsInDim S1x128 (![] : Fin 0 → Fin S1x128.rank)
  concatenates_S262144x128_S1x128_S262145x128_d0 : Shape.Concatenates [S262144x128, S1x128] S262145x128 0
  bcast_S_S65536x32 : S_.BroadcastsInDim S65536x32 (![] : Fin 0 → Fin S65536x32.rank)
  bcast_S65536x32_S65536x32x1_0_1 : S65536x32.BroadcastsInDim S65536x32x1 (![0, 1] : Fin 2 → Fin S65536x32x1.rank)
  reducesTo_S65536x32x128_S65536x128_d1 : S65536x32x128.ReducesTo [1] S65536x128
  h_S_ : 0 < S_.numel
  gather_S262145x128_S65536x32x1_S65536x32x128_2_0_n_n_0_2_1128_wf : GatherDims.WF S262145x128 S65536x32x1 S65536x32x128 [2] [0] [] [0] [] 2 ![1, 128]

variable [Facts₀]

def gather_S262145x128_S65536x32x1_S65536x32x128_2_0_n_n_0_2_1128 : GatherDims S262145x128 S65536x32x1 S65536x32x128 where
  offsetDims := [2]
  collapsedSliceDims := [0]
  operandBatchingDims := []
  startIndicesBatchingDims := []
  startIndexMap := [0]
  indexVectorDim := 2
  sliceSizes := ![1, 128]
  wf := gather_S262145x128_S65536x32x1_S65536x32x128_2_0_n_n_0_2_1128_wf

class Facts : Prop extends Facts₀ where

variable [Facts]
-- ==== Proof.KB.Chain.lean ====
import proofs.«411409_j5669356831307_3_alg».proof.Proof.KernelRegions
import Idealize.ShloMosaic.Lib.Pipeline.FrameSuffix
import Idealize.ShloMosaic.Lib.StableHlo.Run
import Idealize.ShloMosaic.Lib.Pipeline.Kit
import Idealize.ShloMosaic.Lib.Pipeline.RegionsLoop

set_option maxRecDepth 16384

noncomputable section

namespace Cert.Kernel.Hand

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- The buffers after the first host stretch (the padded feature array is there), read at the TensorCore references:
    what every region proof data are stated over. -/
abbrev Vent (c : Dev nD) (b : Ref sig .tc) : Buf (Elt F) ((c : Thread nD τ).loc b) := V1 m c b

/-- No variant, no level, nothing owed between cores: the program signals nobody. -/
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Rst (c : Dev nD) : sProp (MT nD τ sig Unit (Elt F) ℕ (UR sig nD τ) ℕ) := iprop((∃ r, prngReg c r) ∗ ∃ W, owes (c : Thread nD τ) (0 : CellTallies nD τ sig Unit) W)

/-! ## The arguments and the padded feature array reach every item unchanged -/

theorem V0_arg1 (c : Dev nD) : V0 m c main_arg1 = m ((c : Thread nD τ).loc main_arg1) := rfl
theorem V1_arg1 (c : Dev nD) : V1 m c main_arg1 = m ((c : Thread nD τ).loc main_arg1) := (V1_of m c main_arg1 (by decide)).trans (V0_arg1 m c)
theorem V1_v3 (c : Dev nD) : V1 m c main_v3 = V1 m c main_v3 := rfl
variable (outs : Outs (F := F))
theorem V2_arg1 (c : Dev nD) : V2 m outs c main_arg1 = m ((c : Thread nD τ).loc main_arg1) := (V2_of m outs c main_arg1 (by decide)).trans (V1_arg1 m c)
theorem V2_v3 (c : Dev nD) : V2 m outs c main_v3 = V1 m c main_v3 := (V2_of m outs c main_v3 (by decide)).trans (V1_v3 m c)
theorem V3_arg1 (c : Dev nD) : V3 m outs c main_arg1 = m ((c : Thread nD τ).loc main_arg1) := (V3_of m outs c main_arg1 (by decide)).trans (V2_arg1 m outs c)
theorem V3_v3 (c : Dev nD) : V3 m outs c main_v3 = V1 m c main_v3 := (V3_of m outs c main_v3 (by decide)).trans (V2_v3 m outs c)
theorem V4_arg1 (c : Dev nD) : V4 m outs c main_arg1 = m ((c : Thread nD τ).loc main_arg1) := (V4_of m outs c main_arg1 (by decide)).trans (V3_arg1 m outs c)
theorem V4_v3 (c : Dev nD) : V4 m outs c main_v3 = V1 m c main_v3 := (V4_of m outs c main_v3 (by decide)).trans (V3_v3 m outs c)
theorem V5_arg1 (c : Dev nD) : V5 m outs c main_arg1 = m ((c : Thread nD τ).loc main_arg1) := (V5_of m outs c main_arg1 (by decide)).trans (V4_arg1 m outs c)
theorem V5_v3 (c : Dev nD) : V5 m outs c main_v3 = V1 m c main_v3 := (V5_of m outs c main_v3 (by decide)).trans (V4_v3 m outs c)
theorem V6_arg1 (c : Dev nD) : V6 m outs c main_arg1 = m ((c : Thread nD τ).loc main_arg1) := (V6_of m outs c main_arg1 (by decide)).trans (V5_arg1 m outs c)
theorem V6_v3 (c : Dev nD) : V6 m outs c main_v3 = V1 m c main_v3 := (V6_of m outs c main_v3 (by decide)).trans (V5_v3 m outs c)
theorem V7_arg1 (c : Dev nD) : V7 m outs c main_arg1 = m ((c : Thread nD τ).loc main_arg1) := (V7_of m outs c main_arg1 (by decide)).trans (V6_arg1 m outs c)
theorem V7_v3 (c : Dev nD) : V7 m outs c main_v3 = V1 m c main_v3 := (V7_of m outs c main_v3 (by decide)).trans (V6_v3 m outs c)
theorem V8_arg1 (c : Dev nD) : V8 m outs c main_arg1 = m ((c : Thread nD τ).loc main_arg1) := (V8_of m outs c main_arg1 (by decide)).trans (V7_arg1 m outs c)
theorem V8_v3 (c : Dev nD) : V8 m outs c main_v3 = V1 m c main_v3 := (V8_of m outs c main_v3 (by decide)).trans (V7_v3 m outs c)
theorem V9_arg1 (c : Dev nD) : V9 m outs c main_arg1 = m ((c : Thread nD τ).loc main_arg1) := (V9_of m outs c main_arg1 (by decide)).trans (V8_arg1 m outs c)
theorem V9_v3 (c : Dev nD) : V9 m outs c main_v3 = V1 m c main_v3 := (V9_of m outs c main_v3 (by decide)).trans (V8_v3 m outs c)
theorem V10_arg1 (c : Dev nD) : V10 m outs c main_arg1 = m ((c : Thread nD τ).loc main_arg1) := (V10_of m outs c main_arg1 (by decide)).trans (V9_arg1 m outs c)
theorem V10_v3 (c : Dev nD) : V10 m outs c main_v3 = V1 m c main_v3 := (V10_of m outs c main_v3 (by decide)).trans (V9_v3 m outs c)
theorem V11_arg1 (c : Dev nD) : V11 m outs c main_arg1 = m ((c : Thread nD τ).loc main_arg1) := (V11_of m outs c main_arg1 (by decide)).trans (V10_arg1 m outs c)
theorem V11_v3 (c : Dev nD) : V11 m outs c main_v3 = V1 m c main_v3 := (V11_of m outs c main_v3 (by decide)).trans (V10_v3 m outs c)
theorem V12_arg1 (c : Dev nD) : V12 m outs c main_arg1 = m ((c : Thread nD τ).loc main_arg1) := (V12_of m outs c main_arg1 (by decide)).trans (V11_arg1 m outs c)
theorem V12_v3 (c : Dev nD) : V12 m outs c main_v3 = V1 m c main_v3 := (V12_of m outs c main_v3 (by decide)).trans (V11_v3 m outs c)
theorem V13_arg1 (c : Dev nD) : V13 m outs c main_arg1 = m ((c : Thread nD τ).loc main_arg1) := (V13_of m outs c main_arg1 (by decide)).trans (V12_arg1 m outs c)
theorem V13_v3 (c : Dev nD) : V13 m outs c main_v3 = V1 m c main_v3 := (V13_of m outs c main_v3 (by decide)).trans (V12_v3 m outs c)
theorem V14_arg1 (c : Dev nD) : V14 m outs c main_arg1 = m ((c : Thread nD τ).loc main_arg1) := (V14_of m outs c main_arg1 (by decide)).trans (V13_arg1 m outs c)
theorem V14_v3 (c : Dev nD) : V14 m outs c main_v3 = V1 m c main_v3 := (V14_of m outs c main_v3 (by decide)).trans (V13_v3 m outs c)
theorem V15_arg1 (c : Dev nD) : V15 m outs c main_arg1 = m ((c : Thread nD τ).loc main_arg1) := (V15_of m outs c main_arg1 (by decide)).trans (V14_arg1 m outs c)
theorem V15_v3 (c : Dev nD) : V15 m outs c main_v3 = V1 m c main_v3 := (V15_of m outs c main_v3 (by decide)).trans (V14_v3 m outs c)
theorem V16_arg1 (c : Dev nD) : V16 m outs c main_arg1 = m ((c : Thread nD τ).loc main_arg1) := (V16_of m outs c main_arg1 (by decide)).trans (V15_arg1 m outs c)
theorem V16_v3 (c : Dev nD) : V16 m outs c main_v3 = V1 m c main_v3 := (V16_of m outs c main_v3 (by decide)).trans (V15_v3 m outs c)
theorem V17_arg1 (c : Dev nD) : V17 m outs c main_arg1 = m ((c : Thread nD τ).loc main_arg1) := (V17_of m outs c main_arg1 (by decide)).trans (V16_arg1 m outs c)
theorem V17_v3 (c : Dev nD) : V17 m outs c main_v3 = V1 m c main_v3 := (V17_of m outs c main_v3 (by decide)).trans (V16_v3 m outs c)
theorem V18_arg1 (c : Dev nD) : V18 m outs c main_arg1 = m ((c : Thread nD τ).loc main_arg1) := (V18_of m outs c main_arg1 (by decide)).trans (V17_arg1 m outs c)
theorem V18_v3 (c : Dev nD) : V18 m outs c main_v3 = V1 m c main_v3 := (V18_of m outs c main_v3 (by decide)).trans (V17_v3 m outs c)
theorem V19_arg1 (c : Dev nD) : V19 m outs c main_arg1 = m ((c : Thread nD τ).loc main_arg1) := (V19_of m outs c main_arg1 (by decide)).trans (V18_arg1 m outs c)
theorem V19_v3 (c : Dev nD) : V19 m outs c main_v3 = V1 m c main_v3 := (V19_of m outs c main_v3 (by decide)).trans (V18_v3 m outs c)
theorem V20_arg1 (c : Dev nD) : V20 m outs c main_arg1 = m ((c : Thread nD τ).loc main_arg1) := (V20_of m outs c main_arg1 (by decide)).trans (V19_arg1 m outs c)
theorem V20_v3 (c : Dev nD) : V20 m outs c main_v3 = V1 m c main_v3 := (V20_of m outs c main_v3 (by decide)).trans (V19_v3 m outs c)
theorem V21_arg1 (c : Dev nD) : V21 m outs c main_arg1 = m ((c : Thread nD τ).loc main_arg1) := (V21_of m outs c main_arg1 (by decide)).trans (V20_arg1 m outs c)
theorem V21_v3 (c : Dev nD) : V21 m outs c main_v3 = V1 m c main_v3 := (V21_of m outs c main_v3 (by decide)).trans (V20_v3 m outs c)
theorem V22_arg1 (c : Dev nD) : V22 m outs c main_arg1 = m ((c : Thread nD τ).loc main_arg1) := (V22_of m outs c main_arg1 (by decide)).trans (V21_arg1 m outs c)
theorem V22_v3 (c : Dev nD) : V22 m outs c main_v3 = V1 m c main_v3 := (V22_of m outs c main_v3 (by decide)).trans (V21_v3 m outs c)
theorem V23_arg1 (c : Dev nD) : V23 m outs c main_arg1 = m ((c : Thread nD τ).loc main_arg1) := (V23_of m outs c main_arg1 (by decide)).trans (V22_arg1 m outs c)
theorem V23_v3 (c : Dev nD) : V23 m outs c main_v3 = V1 m c main_v3 := (V23_of m outs c main_v3 (by decide)).trans (V22_v3 m outs c)
theorem V24_arg1 (c : Dev nD) : V24 m outs c main_arg1 = m ((c : Thread nD τ).loc main_arg1) := (V24_of m outs c main_arg1 (by decide)).trans (V23_arg1 m outs c)
theorem V24_v3 (c : Dev nD) : V24 m outs c main_v3 = V1 m c main_v3 := (V24_of m outs c main_v3 (by decide)).trans (V23_v3 m outs c)
theorem V25_arg1 (c : Dev nD) : V25 m outs c main_arg1 = m ((c : Thread nD τ).loc main_arg1) := (V25_of m outs c main_arg1 (by decide)).trans (V24_arg1 m outs c)
theorem V25_v3 (c : Dev nD) : V25 m outs c main_v3 = V1 m c main_v3 := (V25_of m outs c main_v3 (by decide)).trans (V24_v3 m outs c)
theorem V26_arg1 (c : Dev nD) : V26 m outs c main_arg1 = m ((c : Thread nD τ).loc main_arg1) := (V26_of m outs c main_arg1 (by decide)).trans (V25_arg1 m outs c)
theorem V26_v3 (c : Dev nD) : V26 m outs c main_v3 = V1 m c main_v3 := (V26_of m outs c main_v3 (by decide)).trans (V25_v3 m outs c)
theorem V27_arg1 (c : Dev nD) : V27 m outs c main_arg1 = m ((c : Thread nD τ).loc main_arg1) := (V27_of m outs c main_arg1 (by decide)).trans (V26_arg1 m outs c)
theorem V27_v3 (c : Dev nD) : V27 m outs c main_v3 = V1 m c main_v3 := (V27_of m outs c main_v3 (by decide)).trans (V26_v3 m outs c)
theorem V28_arg1 (c : Dev nD) : V28 m outs c main_arg1 = m ((c : Thread nD τ).loc main_arg1) := (V28_of m outs c main_arg1 (by decide)).trans (V27_arg1 m outs c)
theorem V28_v3 (c : Dev nD) : V28 m outs c main_v3 = V1 m c main_v3 := (V28_of m outs c main_v3 (by decide)).trans (V27_v3 m outs c)
theorem V29_arg1 (c : Dev nD) : V29 m outs c main_arg1 = m ((c : Thread nD τ).loc main_arg1) := (V29_of m outs c main_arg1 (by decide)).trans (V28_arg1 m outs c)
theorem V29_v3 (c : Dev nD) : V29 m outs c main_v3 = V1 m c main_v3 := (V29_of m outs c main_v3 (by decide)).trans (V28_v3 m outs c)
theorem V30_arg1 (c : Dev nD) : V30 m outs c main_arg1 = m ((c : Thread nD τ).loc main_arg1) := (V30_of m outs c main_arg1 (by decide)).trans (V29_arg1 m outs c)
theorem V30_v3 (c : Dev nD) : V30 m outs c main_v3 = V1 m c main_v3 := (V30_of m outs c main_v3 (by decide)).trans (V29_v3 m outs c)
theorem V31_arg1 (c : Dev nD) : V31 m outs c main_arg1 = m ((c : Thread nD τ).loc main_arg1) := (V31_of m outs c main_arg1 (by decide)).trans (V30_arg1 m outs c)
theorem V31_v3 (c : Dev nD) : V31 m outs c main_v3 = V1 m c main_v3 := (V31_of m outs c main_v3 (by decide)).trans (V30_v3 m outs c)
theorem V32_arg1 (c : Dev nD) : V32 m outs c main_arg1 = m ((c : Thread nD τ).loc main_arg1) := (V32_of m outs c main_arg1 (by decide)).trans (V31_arg1 m outs c)
theorem V32_v3 (c : Dev nD) : V32 m outs c main_v3 = V1 m c main_v3 := (V32_of m outs c main_v3 (by decide)).trans (V31_v3 m outs c)
theorem V33_arg1 (c : Dev nD) : V33 m outs c main_arg1 = m ((c : Thread nD τ).loc main_arg1) := (V33_of m outs c main_arg1 (by decide)).trans (V32_arg1 m outs c)
theorem V33_v3 (c : Dev nD) : V33 m outs c main_v3 = V1 m c main_v3 := (V33_of m outs c main_v3 (by decide)).trans (V32_v3 m outs c)
theorem V34_arg1 (c : Dev nD) : V34 m outs c main_arg1 = m ((c : Thread nD τ).loc main_arg1) := (V34_of m outs c main_arg1 (by decide)).trans (V33_arg1 m outs c)
theorem V34_v3 (c : Dev nD) : V34 m outs c main_v3 = V1 m c main_v3 := (V34_of m outs c main_v3 (by decide)).trans (V33_v3 m outs c)
theorem V35_arg1 (c : Dev nD) : V35 m outs c main_arg1 = m ((c : Thread nD τ).loc main_arg1) := (V35_of m outs c main_arg1 (by decide)).trans (V34_arg1 m outs c)
theorem V35_v3 (c : Dev nD) : V35 m outs c main_v3 = V1 m c main_v3 := (V35_of m outs c main_v3 (by decide)).trans (V34_v3 m outs c)
theorem V36_arg1 (c : Dev nD) : V36 m outs c main_arg1 = m ((c : Thread nD τ).loc main_arg1) := (V36_of m outs c main_arg1 (by decide)).trans (V35_arg1 m outs c)
theorem V36_v3 (c : Dev nD) : V36 m outs c main_v3 = V1 m c main_v3 := (V36_of m outs c main_v3 (by decide)).trans (V35_v3 m outs c)
theorem V37_arg1 (c : Dev nD) : V37 m outs c main_arg1 = m ((c : Thread nD τ).loc main_arg1) := (V37_of m outs c main_arg1 (by decide)).trans (V36_arg1 m outs c)
theorem V37_v3 (c : Dev nD) : V37 m outs c main_v3 = V1 m c main_v3 := (V37_of m outs c main_v3 (by decide)).trans (V36_v3 m outs c)
theorem V38_arg1 (c : Dev nD) : V38 m outs c main_arg1 = m ((c : Thread nD τ).loc main_arg1) := (V38_of m outs c main_arg1 (by decide)).trans (V37_arg1 m outs c)
theorem V38_v3 (c : Dev nD) : V38 m outs c main_v3 = V1 m c main_v3 := (V38_of m outs c main_v3 (by decide)).trans (V37_v3 m outs c)
theorem V39_arg1 (c : Dev nD) : V39 m outs c main_arg1 = m ((c : Thread nD τ).loc main_arg1) := (V39_of m outs c main_arg1 (by decide)).trans (V38_arg1 m outs c)
theorem V39_v3 (c : Dev nD) : V39 m outs c main_v3 = V1 m c main_v3 := (V39_of m outs c main_v3 (by decide)).trans (V38_v3 m outs c)
theorem V40_arg1 (c : Dev nD) : V40 m outs c main_arg1 = m ((c : Thread nD τ).loc main_arg1) := (V40_of m outs c main_arg1 (by decide)).trans (V39_arg1 m outs c)
theorem V40_v3 (c : Dev nD) : V40 m outs c main_v3 = V1 m c main_v3 := (V40_of m outs c main_v3 (by decide)).trans (V39_v3 m outs c)
theorem V41_arg1 (c : Dev nD) : V41 m outs c main_arg1 = m ((c : Thread nD τ).loc main_arg1) := (V41_of m outs c main_arg1 (by decide)).trans (V40_arg1 m outs c)
theorem V41_v3 (c : Dev nD) : V41 m outs c main_v3 = V1 m c main_v3 := (V41_of m outs c main_v3 (by decide)).trans (V40_v3 m outs c)
theorem V42_arg1 (c : Dev nD) : V42 m outs c main_arg1 = m ((c : Thread nD τ).loc main_arg1) := (V42_of m outs c main_arg1 (by decide)).trans (V41_arg1 m outs c)
theorem V42_v3 (c : Dev nD) : V42 m outs c main_v3 = V1 m c main_v3 := (V42_of m outs c main_v3 (by decide)).trans (V41_v3 m outs c)
theorem V43_arg1 (c : Dev nD) : V43 m outs c main_arg1 = m ((c : Thread nD τ).loc main_arg1) := (V43_of m outs c main_arg1 (by decide)).trans (V42_arg1 m outs c)
theorem V43_v3 (c : Dev nD) : V43 m outs c main_v3 = V1 m c main_v3 := (V43_of m outs c main_v3 (by decide)).trans (V42_v3 m outs c)
theorem V44_arg1 (c : Dev nD) : V44 m outs c main_arg1 = m ((c : Thread nD τ).loc main_arg1) := (V44_of m outs c main_arg1 (by decide)).trans (V43_arg1 m outs c)
theorem V44_v3 (c : Dev nD) : V44 m outs c main_v3 = V1 m c main_v3 := (V44_of m outs c main_v3 (by decide)).trans (V43_v3 m outs c)
theorem V45_arg1 (c : Dev nD) : V45 m outs c main_arg1 = m ((c : Thread nD τ).loc main_arg1) := (V45_of m outs c main_arg1 (by decide)).trans (V44_arg1 m outs c)
theorem V45_v3 (c : Dev nD) : V45 m outs c main_v3 = V1 m c main_v3 := (V45_of m outs c main_v3 (by decide)).trans (V44_v3 m outs c)
theorem V46_arg1 (c : Dev nD) : V46 m outs c main_arg1 = m ((c : Thread nD τ).loc main_arg1) := (V46_of m outs c main_arg1 (by decide)).trans (V45_arg1 m outs c)
theorem V46_v3 (c : Dev nD) : V46 m outs c main_v3 = V1 m c main_v3 := (V46_of m outs c main_v3 (by decide)).trans (V45_v3 m outs c)
theorem V47_arg1 (c : Dev nD) : V47 m outs c main_arg1 = m ((c : Thread nD τ).loc main_arg1) := (V47_of m outs c main_arg1 (by decide)).trans (V46_arg1 m outs c)
theorem V47_v3 (c : Dev nD) : V47 m outs c main_v3 = V1 m c main_v3 := (V47_of m outs c main_v3 (by decide)).trans (V46_v3 m outs c)
theorem V48_arg1 (c : Dev nD) : V48 m outs c main_arg1 = m ((c : Thread nD τ).loc main_arg1) := (V48_of m outs c main_arg1 (by decide)).trans (V47_arg1 m outs c)
theorem V48_v3 (c : Dev nD) : V48 m outs c main_v3 = V1 m c main_v3 := (V48_of m outs c main_v3 (by decide)).trans (V47_v3 m outs c)
theorem V49_arg1 (c : Dev nD) : V49 m outs c main_arg1 = m ((c : Thread nD τ).loc main_arg1) := (V49_of m outs c main_arg1 (by decide)).trans (V48_arg1 m outs c)
theorem V49_v3 (c : Dev nD) : V49 m outs c main_v3 = V1 m c main_v3 := (V49_of m outs c main_v3 (by decide)).trans (V48_v3 m outs c)
theorem V50_arg1 (c : Dev nD) : V50 m outs c main_arg1 = m ((c : Thread nD τ).loc main_arg1) := (V50_of m outs c main_arg1 (by decide)).trans (V49_arg1 m outs c)
theorem V50_v3 (c : Dev nD) : V50 m outs c main_v3 = V1 m c main_v3 := (V50_of m outs c main_v3 (by decide)).trans (V49_v3 m outs c)
theorem V51_arg1 (c : Dev nD) : V51 m outs c main_arg1 = m ((c : Thread nD τ).loc main_arg1) := (V51_of m outs c main_arg1 (by decide)).trans (V50_arg1 m outs c)
theorem V51_v3 (c : Dev nD) : V51 m outs c main_v3 = V1 m c main_v3 := (V51_of m outs c main_v3 (by decide)).trans (V50_v3 m outs c)
theorem V52_arg1 (c : Dev nD) : V52 m outs c main_arg1 = m ((c : Thread nD τ).loc main_arg1) := (V52_of m outs c main_arg1 (by decide)).trans (V51_arg1 m outs c)
theorem V52_v3 (c : Dev nD) : V52 m outs c main_v3 = V1 m c main_v3 := (V52_of m outs c main_v3 (by decide)).trans (V51_v3 m outs c)
theorem V53_arg1 (c : Dev nD) : V53 m outs c main_arg1 = m ((c : Thread nD τ).loc main_arg1) := (V53_of m outs c main_arg1 (by decide)).trans (V52_arg1 m outs c)
theorem V53_v3 (c : Dev nD) : V53 m outs c main_v3 = V1 m c main_v3 := (V53_of m outs c main_v3 (by decide)).trans (V52_v3 m outs c)
theorem V54_arg1 (c : Dev nD) : V54 m outs c main_arg1 = m ((c : Thread nD τ).loc main_arg1) := (V54_of m outs c main_arg1 (by decide)).trans (V53_arg1 m outs c)
theorem V54_v3 (c : Dev nD) : V54 m outs c main_v3 = V1 m c main_v3 := (V54_of m outs c main_v3 (by decide)).trans (V53_v3 m outs c)
theorem V55_arg1 (c : Dev nD) : V55 m outs c main_arg1 = m ((c : Thread nD τ).loc main_arg1) := (V55_of m outs c main_arg1 (by decide)).trans (V54_arg1 m outs c)
theorem V55_v3 (c : Dev nD) : V55 m outs c main_v3 = V1 m c main_v3 := (V55_of m outs c main_v3 (by decide)).trans (V54_v3 m outs c)
theorem V56_arg1 (c : Dev nD) : V56 m outs c main_arg1 = m ((c : Thread nD τ).loc main_arg1) := (V56_of m outs c main_arg1 (by decide)).trans (V55_arg1 m outs c)
theorem V56_v3 (c : Dev nD) : V56 m outs c main_v3 = V1 m c main_v3 := (V56_of m outs c main_v3 (by decide)).trans (V55_v3 m outs c)
theorem V57_arg1 (c : Dev nD) : V57 m outs c main_arg1 = m ((c : Thread nD τ).loc main_arg1) := (V57_of m outs c main_arg1 (by decide)).trans (V56_arg1 m outs c)
theorem V57_v3 (c : Dev nD) : V57 m outs c main_v3 = V1 m c main_v3 := (V57_of m outs c main_v3 (by decide)).trans (V56_v3 m outs c)
theorem V58_arg1 (c : Dev nD) : V58 m outs c main_arg1 = m ((c : Thread nD τ).loc main_arg1) := (V58_of m outs c main_arg1 (by decide)).trans (V57_arg1 m outs c)
theorem V58_v3 (c : Dev nD) : V58 m outs c main_v3 = V1 m c main_v3 := (V58_of m outs c main_v3 (by decide)).trans (V57_v3 m outs c)
theorem V59_arg1 (c : Dev nD) : V59 m outs c main_arg1 = m ((c : Thread nD τ).loc main_arg1) := (V59_of m outs c main_arg1 (by decide)).trans (V58_arg1 m outs c)
theorem V59_v3 (c : Dev nD) : V59 m outs c main_v3 = V1 m c main_v3 := (V59_of m outs c main_v3 (by decide)).trans (V58_v3 m outs c)
theorem V60_arg1 (c : Dev nD) : V60 m outs c main_arg1 = m ((c : Thread nD τ).loc main_arg1) := (V60_of m outs c main_arg1 (by decide)).trans (V59_arg1 m outs c)
theorem V60_v3 (c : Dev nD) : V60 m outs c main_v3 = V1 m c main_v3 := (V60_of m outs c main_v3 (by decide)).trans (V59_v3 m outs c)
theorem V61_arg1 (c : Dev nD) : V61 m outs c main_arg1 = m ((c : Thread nD τ).loc main_arg1) := (V61_of m outs c main_arg1 (by decide)).trans (V60_arg1 m outs c)
theorem V61_v3 (c : Dev nD) : V61 m outs c main_v3 = V1 m c main_v3 := (V61_of m outs c main_v3 (by decide)).trans (V60_v3 m outs c)
theorem V62_arg1 (c : Dev nD) : V62 m outs c main_arg1 = m ((c : Thread nD τ).loc main_arg1) := (V62_of m outs c main_arg1 (by decide)).trans (V61_arg1 m outs c)
theorem V62_v3 (c : Dev nD) : V62 m outs c main_v3 = V1 m c main_v3 := (V62_of m outs c main_v3 (by decide)).trans (V61_v3 m outs c)
theorem V63_arg1 (c : Dev nD) : V63 m outs c main_arg1 = m ((c : Thread nD τ).loc main_arg1) := (V63_of m outs c main_arg1 (by decide)).trans (V62_arg1 m outs c)
theorem V63_v3 (c : Dev nD) : V63 m outs c main_v3 = V1 m c main_v3 := (V63_of m outs c main_v3 (by decide)).trans (V62_v3 m outs c)
theorem V64_arg1 (c : Dev nD) : V64 m outs c main_arg1 = m ((c : Thread nD τ).loc main_arg1) := (V64_of m outs c main_arg1 (by decide)).trans (V63_arg1 m outs c)
theorem V64_v3 (c : Dev nD) : V64 m outs c main_v3 = V1 m c main_v3 := (V64_of m outs c main_v3 (by decide)).trans (V63_v3 m outs c)

/-! ## A region output array holds at the region entry what it held after the first host stretch: nothing writes it before -/
theorem V1_o0 (c : Dev nD) : V1 m c main_v6 = V1 m c main_v6 := rfl
theorem V1_o1 (c : Dev nD) : V1 m c main_v10 = V1 m c main_v10 := rfl
theorem V2_o1 (c : Dev nD) : V2 m outs c main_v10 = V1 m c main_v10 := (V2_of m outs c main_v10 (by decide)).trans (V1_o1 m c)
theorem V3_o1 (c : Dev nD) : V3 m outs c main_v10 = V1 m c main_v10 := (V3_of m outs c main_v10 (by decide)).trans (V2_o1 m outs c)
theorem V1_o2 (c : Dev nD) : V1 m c main_v14 = V1 m c main_v14 := rfl
theorem V2_o2 (c : Dev nD) : V2 m outs c main_v14 = V1 m c main_v14 := (V2_of m outs c main_v14 (by decide)).trans (V1_o2 m c)
theorem V3_o2 (c : Dev nD) : V3 m outs c main_v14 = V1 m c main_v14 := (V3_of m outs c main_v14 (by decide)).trans (V2_o2 m outs c)
theorem V4_o2 (c : Dev nD) : V4 m outs c main_v14 = V1 m c main_v14 := (V4_of m outs c main_v14 (by decide)).trans (V3_o2 m outs c)
theorem V5_o2 (c : Dev nD) : V5 m outs c main_v14 = V1 m c main_v14 := (V5_of m outs c main_v14 (by decide)).trans (V4_o2 m outs c)
theorem V1_o3 (c : Dev nD) : V1 m c main_v18 = V1 m c main_v18 := rfl
theorem V2_o3 (c : Dev nD) : V2 m outs c main_v18 = V1 m c main_v18 := (V2_of m outs c main_v18 (by decide)).trans (V1_o3 m c)
theorem V3_o3 (c : Dev nD) : V3 m outs c main_v18 = V1 m c main_v18 := (V3_of m outs c main_v18 (by decide)).trans (V2_o3 m outs c)
theorem V4_o3 (c : Dev nD) : V4 m outs c main_v18 = V1 m c main_v18 := (V4_of m outs c main_v18 (by decide)).trans (V3_o3 m outs c)
theorem V5_o3 (c : Dev nD) : V5 m outs c main_v18 = V1 m c main_v18 := (V5_of m outs c main_v18 (by decide)).trans (V4_o3 m outs c)
theorem V6_o3 (c : Dev nD) : V6 m outs c main_v18 = V1 m c main_v18 := (V6_of m outs c main_v18 (by decide)).trans (V5_o3 m outs c)
theorem V7_o3 (c : Dev nD) : V7 m outs c main_v18 = V1 m c main_v18 := (V7_of m outs c main_v18 (by decide)).trans (V6_o3 m outs c)
theorem V1_o4 (c : Dev nD) : V1 m c main_v22 = V1 m c main_v22 := rfl
theorem V2_o4 (c : Dev nD) : V2 m outs c main_v22 = V1 m c main_v22 := (V2_of m outs c main_v22 (by decide)).trans (V1_o4 m c)
theorem V3_o4 (c : Dev nD) : V3 m outs c main_v22 = V1 m c main_v22 := (V3_of m outs c main_v22 (by decide)).trans (V2_o4 m outs c)
theorem V4_o4 (c : Dev nD) : V4 m outs c main_v22 = V1 m c main_v22 := (V4_of m outs c main_v22 (by decide)).trans (V3_o4 m outs c)
theorem V5_o4 (c : Dev nD) : V5 m outs c main_v22 = V1 m c main_v22 := (V5_of m outs c main_v22 (by decide)).trans (V4_o4 m outs c)
theorem V6_o4 (c : Dev nD) : V6 m outs c main_v22 = V1 m c main_v22 := (V6_of m outs c main_v22 (by decide)).trans (V5_o4 m outs c)
theorem V7_o4 (c : Dev nD) : V7 m outs c main_v22 = V1 m c main_v22 := (V7_of m outs c main_v22 (by decide)).trans (V6_o4 m outs c)
theorem V8_o4 (c : Dev nD) : V8 m outs c main_v22 = V1 m c main_v22 := (V8_of m outs c main_v22 (by decide)).trans (V7_o4 m outs c)
theorem V9_o4 (c : Dev nD) : V9 m outs c main_v22 = V1 m c main_v22 := (V9_of m outs c main_v22 (by decide)).trans (V8_o4 m outs c)
theorem V1_o5 (c : Dev nD) : V1 m c main_v26 = V1 m c main_v26 := rfl
theorem V2_o5 (c : Dev nD) : V2 m outs c main_v26 = V1 m c main_v26 := (V2_of m outs c main_v26 (by decide)).trans (V1_o5 m c)
theorem V3_o5 (c : Dev nD) : V3 m outs c main_v26 = V1 m c main_v26 := (V3_of m outs c main_v26 (by decide)).trans (V2_o5 m outs c)
theorem V4_o5 (c : Dev nD) : V4 m outs c main_v26 = V1 m c main_v26 := (V4_of m outs c main_v26 (by decide)).trans (V3_o5 m outs c)
theorem V5_o5 (c : Dev nD) : V5 m outs c main_v26 = V1 m c main_v26 := (V5_of m outs c main_v26 (by decide)).trans (V4_o5 m outs c)
theorem V6_o5 (c : Dev nD) : V6 m outs c main_v26 = V1 m c main_v26 := (V6_of m outs c main_v26 (by decide)).trans (V5_o5 m outs c)
theorem V7_o5 (c : Dev nD) : V7 m outs c main_v26 = V1 m c main_v26 := (V7_of m outs c main_v26 (by decide)).trans (V6_o5 m outs c)
theorem V8_o5 (c : Dev nD) : V8 m outs c main_v26 = V1 m c main_v26 := (V8_of m outs c main_v26 (by decide)).trans (V7_o5 m outs c)
theorem V9_o5 (c : Dev nD) : V9 m outs c main_v26 = V1 m c main_v26 := (V9_of m outs c main_v26 (by decide)).trans (V8_o5 m outs c)
theorem V10_o5 (c : Dev nD) : V10 m outs c main_v26 = V1 m c main_v26 := (V10_of m outs c main_v26 (by decide)).trans (V9_o5 m outs c)
theorem V11_o5 (c : Dev nD) : V11 m outs c main_v26 = V1 m c main_v26 := (V11_of m outs c main_v26 (by decide)).trans (V10_o5 m outs c)
theorem V1_o6 (c : Dev nD) : V1 m c main_v30 = V1 m c main_v30 := rfl
theorem V2_o6 (c : Dev nD) : V2 m outs c main_v30 = V1 m c main_v30 := (V2_of m outs c main_v30 (by decide)).trans (V1_o6 m c)
theorem V3_o6 (c : Dev nD) : V3 m outs c main_v30 = V1 m c main_v30 := (V3_of m outs c main_v30 (by decide)).trans (V2_o6 m outs c)
theorem V4_o6 (c : Dev nD) : V4 m outs c main_v30 = V1 m c main_v30 := (V4_of m outs c main_v30 (by decide)).trans (V3_o6 m outs c)
theorem V5_o6 (c : Dev nD) : V5 m outs c main_v30 = V1 m c main_v30 := (V5_of m outs c main_v30 (by decide)).trans (V4_o6 m outs c)
theorem V6_o6 (c : Dev nD) : V6 m outs c main_v30 = V1 m c main_v30 := (V6_of m outs c main_v30 (by decide)).trans (V5_o6 m outs c)
theorem V7_o6 (c : Dev nD) : V7 m outs c main_v30 = V1 m c main_v30 := (V7_of m outs c main_v30 (by decide)).trans (V6_o6 m outs c)
theorem V8_o6 (c : Dev nD) : V8 m outs c main_v30 = V1 m c main_v30 := (V8_of m outs c main_v30 (by decide)).trans (V7_o6 m outs c)
theorem V9_o6 (c : Dev nD) : V9 m outs c main_v30 = V1 m c main_v30 := (V9_of m outs c main_v30 (by decide)).trans (V8_o6 m outs c)
theorem V10_o6 (c : Dev nD) : V10 m outs c main_v30 = V1 m c main_v30 := (V10_of m outs c main_v30 (by decide)).trans (V9_o6 m outs c)
theorem V11_o6 (c : Dev nD) : V11 m outs c main_v30 = V1 m c main_v30 := (V11_of m outs c main_v30 (by decide)).trans (V10_o6 m outs c)
theorem V12_o6 (c : Dev nD) : V12 m outs c main_v30 = V1 m c main_v30 := (V12_of m outs c main_v30 (by decide)).trans (V11_o6 m outs c)
theorem V13_o6 (c : Dev nD) : V13 m outs c main_v30 = V1 m c main_v30 := (V13_of m outs c main_v30 (by decide)).trans (V12_o6 m outs c)
theorem V1_o7 (c : Dev nD) : V1 m c main_v34 = V1 m c main_v34 := rfl
theorem V2_o7 (c : Dev nD) : V2 m outs c main_v34 = V1 m c main_v34 := (V2_of m outs c main_v34 (by decide)).trans (V1_o7 m c)
theorem V3_o7 (c : Dev nD) : V3 m outs c main_v34 = V1 m c main_v34 := (V3_of m outs c main_v34 (by decide)).trans (V2_o7 m outs c)
theorem V4_o7 (c : Dev nD) : V4 m outs c main_v34 = V1 m c main_v34 := (V4_of m outs c main_v34 (by decide)).trans (V3_o7 m outs c)
theorem V5_o7 (c : Dev nD) : V5 m outs c main_v34 = V1 m c main_v34 := (V5_of m outs c main_v34 (by decide)).trans (V4_o7 m outs c)
theorem V6_o7 (c : Dev nD) : V6 m outs c main_v34 = V1 m c main_v34 := (V6_of m outs c main_v34 (by decide)).trans (V5_o7 m outs c)
theorem V7_o7 (c : Dev nD) : V7 m outs c main_v34 = V1 m c main_v34 := (V7_of m outs c main_v34 (by decide)).trans (V6_o7 m outs c)
theorem V8_o7 (c : Dev nD) : V8 m outs c main_v34 = V1 m c main_v34 := (V8_of m outs c main_v34 (by decide)).trans (V7_o7 m outs c)
theorem V9_o7 (c : Dev nD) : V9 m outs c main_v34 = V1 m c main_v34 := (V9_of m outs c main_v34 (by decide)).trans (V8_o7 m outs c)
theorem V10_o7 (c : Dev nD) : V10 m outs c main_v34 = V1 m c main_v34 := (V10_of m outs c main_v34 (by decide)).trans (V9_o7 m outs c)
theorem V11_o7 (c : Dev nD) : V11 m outs c main_v34 = V1 m c main_v34 := (V11_of m outs c main_v34 (by decide)).trans (V10_o7 m outs c)
theorem V12_o7 (c : Dev nD) : V12 m outs c main_v34 = V1 m c main_v34 := (V12_of m outs c main_v34 (by decide)).trans (V11_o7 m outs c)
theorem V13_o7 (c : Dev nD) : V13 m outs c main_v34 = V1 m c main_v34 := (V13_of m outs c main_v34 (by decide)).trans (V12_o7 m outs c)
theorem V14_o7 (c : Dev nD) : V14 m outs c main_v34 = V1 m c main_v34 := (V14_of m outs c main_v34 (by decide)).trans (V13_o7 m outs c)
theorem V15_o7 (c : Dev nD) : V15 m outs c main_v34 = V1 m c main_v34 := (V15_of m outs c main_v34 (by decide)).trans (V14_o7 m outs c)
theorem V1_o8 (c : Dev nD) : V1 m c main_v38 = V1 m c main_v38 := rfl
theorem V2_o8 (c : Dev nD) : V2 m outs c main_v38 = V1 m c main_v38 := (V2_of m outs c main_v38 (by decide)).trans (V1_o8 m c)
theorem V3_o8 (c : Dev nD) : V3 m outs c main_v38 = V1 m c main_v38 := (V3_of m outs c main_v38 (by decide)).trans (V2_o8 m outs c)
theorem V4_o8 (c : Dev nD) : V4 m outs c main_v38 = V1 m c main_v38 := (V4_of m outs c main_v38 (by decide)).trans (V3_o8 m outs c)
theorem V5_o8 (c : Dev nD) : V5 m outs c main_v38 = V1 m c main_v38 := (V5_of m outs c main_v38 (by decide)).trans (V4_o8 m outs c)
theorem V6_o8 (c : Dev nD) : V6 m outs c main_v38 = V1 m c main_v38 := (V6_of m outs c main_v38 (by decide)).trans (V5_o8 m outs c)
theorem V7_o8 (c : Dev nD) : V7 m outs c main_v38 = V1 m c main_v38 := (V7_of m outs c main_v38 (by decide)).trans (V6_o8 m outs c)
theorem V8_o8 (c : Dev nD) : V8 m outs c main_v38 = V1 m c main_v38 := (V8_of m outs c main_v38 (by decide)).trans (V7_o8 m outs c)
theorem V9_o8 (c : Dev nD) : V9 m outs c main_v38 = V1 m c main_v38 := (V9_of m outs c main_v38 (by decide)).trans (V8_o8 m outs c)
theorem V10_o8 (c : Dev nD) : V10 m outs c main_v38 = V1 m c main_v38 := (V10_of m outs c main_v38 (by decide)).trans (V9_o8 m outs c)
theorem V11_o8 (c : Dev nD) : V11 m outs c main_v38 = V1 m c main_v38 := (V11_of m outs c main_v38 (by decide)).trans (V10_o8 m outs c)
theorem V12_o8 (c : Dev nD) : V12 m outs c main_v38 = V1 m c main_v38 := (V12_of m outs c main_v38 (by decide)).trans (V11_o8 m outs c)
theorem V13_o8 (c : Dev nD) : V13 m outs c main_v38 = V1 m c main_v38 := (V13_of m outs c main_v38 (by decide)).trans (V12_o8 m outs c)
theorem V14_o8 (c : Dev nD) : V14 m outs c main_v38 = V1 m c main_v38 := (V14_of m outs c main_v38 (by decide)).trans (V13_o8 m outs c)
theorem V15_o8 (c : Dev nD) : V15 m outs c main_v38 = V1 m c main_v38 := (V15_of m outs c main_v38 (by decide)).trans (V14_o8 m outs c)
theorem V16_o8 (c : Dev nD) : V16 m outs c main_v38 = V1 m c main_v38 := (V16_of m outs c main_v38 (by decide)).trans (V15_o8 m outs c)
theorem V17_o8 (c : Dev nD) : V17 m outs c main_v38 = V1 m c main_v38 := (V17_of m outs c main_v38 (by decide)).trans (V16_o8 m outs c)
theorem V1_o9 (c : Dev nD) : V1 m c main_v42 = V1 m c main_v42 := rfl
theorem V2_o9 (c : Dev nD) : V2 m outs c main_v42 = V1 m c main_v42 := (V2_of m outs c main_v42 (by decide)).trans (V1_o9 m c)
theorem V3_o9 (c : Dev nD) : V3 m outs c main_v42 = V1 m c main_v42 := (V3_of m outs c main_v42 (by decide)).trans (V2_o9 m outs c)
theorem V4_o9 (c : Dev nD) : V4 m outs c main_v42 = V1 m c main_v42 := (V4_of m outs c main_v42 (by decide)).trans (V3_o9 m outs c)
theorem V5_o9 (c : Dev nD) : V5 m outs c main_v42 = V1 m c main_v42 := (V5_of m outs c main_v42 (by decide)).trans (V4_o9 m outs c)
theorem V6_o9 (c : Dev nD) : V6 m outs c main_v42 = V1 m c main_v42 := (V6_of m outs c main_v42 (by decide)).trans (V5_o9 m outs c)
theorem V7_o9 (c : Dev nD) : V7 m outs c main_v42 = V1 m c main_v42 := (V7_of m outs c main_v42 (by decide)).trans (V6_o9 m outs c)
theorem V8_o9 (c : Dev nD) : V8 m outs c main_v42 = V1 m c main_v42 := (V8_of m outs c main_v42 (by decide)).trans (V7_o9 m outs c)
theorem V9_o9 (c : Dev nD) : V9 m outs c main_v42 = V1 m c main_v42 := (V9_of m outs c main_v42 (by decide)).trans (V8_o9 m outs c)
theorem V10_o9 (c : Dev nD) : V10 m outs c main_v42 = V1 m c main_v42 := (V10_of m outs c main_v42 (by decide)).trans (V9_o9 m outs c)
theorem V11_o9 (c : Dev nD) : V11 m outs c main_v42 = V1 m c main_v42 := (V11_of m outs c main_v42 (by decide)).trans (V10_o9 m outs c)
theorem V12_o9 (c : Dev nD) : V12 m outs c main_v42 = V1 m c main_v42 := (V12_of m outs c main_v42 (by decide)).trans (V11_o9 m outs c)
theorem V13_o9 (c : Dev nD) : V13 m outs c main_v42 = V1 m c main_v42 := (V13_of m outs c main_v42 (by decide)).trans (V12_o9 m outs c)
theorem V14_o9 (c : Dev nD) : V14 m outs c main_v42 = V1 m c main_v42 := (V14_of m outs c main_v42 (by decide)).trans (V13_o9 m outs c)
theorem V15_o9 (c : Dev nD) : V15 m outs c main_v42 = V1 m c main_v42 := (V15_of m outs c main_v42 (by decide)).trans (V14_o9 m outs c)
theorem V16_o9 (c : Dev nD) : V16 m outs c main_v42 = V1 m c main_v42 := (V16_of m outs c main_v42 (by decide)).trans (V15_o9 m outs c)
theorem V17_o9 (c : Dev nD) : V17 m outs c main_v42 = V1 m c main_v42 := (V17_of m outs c main_v42 (by decide)).trans (V16_o9 m outs c)
theorem V18_o9 (c : Dev nD) : V18 m outs c main_v42 = V1 m c main_v42 := (V18_of m outs c main_v42 (by decide)).trans (V17_o9 m outs c)
theorem V19_o9 (c : Dev nD) : V19 m outs c main_v42 = V1 m c main_v42 := (V19_of m outs c main_v42 (by decide)).trans (V18_o9 m outs c)
theorem V1_o10 (c : Dev nD) : V1 m c main_v46 = V1 m c main_v46 := rfl
theorem V2_o10 (c : Dev nD) : V2 m outs c main_v46 = V1 m c main_v46 := (V2_of m outs c main_v46 (by decide)).trans (V1_o10 m c)
theorem V3_o10 (c : Dev nD) : V3 m outs c main_v46 = V1 m c main_v46 := (V3_of m outs c main_v46 (by decide)).trans (V2_o10 m outs c)
theorem V4_o10 (c : Dev nD) : V4 m outs c main_v46 = V1 m c main_v46 := (V4_of m outs c main_v46 (by decide)).trans (V3_o10 m outs c)
theorem V5_o10 (c : Dev nD) : V5 m outs c main_v46 = V1 m c main_v46 := (V5_of m outs c main_v46 (by decide)).trans (V4_o10 m outs c)
theorem V6_o10 (c : Dev nD) : V6 m outs c main_v46 = V1 m c main_v46 := (V6_of m outs c main_v46 (by decide)).trans (V5_o10 m outs c)
theorem V7_o10 (c : Dev nD) : V7 m outs c main_v46 = V1 m c main_v46 := (V7_of m outs c main_v46 (by decide)).trans (V6_o10 m outs c)
theorem V8_o10 (c : Dev nD) : V8 m outs c main_v46 = V1 m c main_v46 := (V8_of m outs c main_v46 (by decide)).trans (V7_o10 m outs c)
theorem V9_o10 (c : Dev nD) : V9 m outs c main_v46 = V1 m c main_v46 := (V9_of m outs c main_v46 (by decide)).trans (V8_o10 m outs c)
theorem V10_o10 (c : Dev nD) : V10 m outs c main_v46 = V1 m c main_v46 := (V10_of m outs c main_v46 (by decide)).trans (V9_o10 m outs c)
theorem V11_o10 (c : Dev nD) : V11 m outs c main_v46 = V1 m c main_v46 := (V11_of m outs c main_v46 (by decide)).trans (V10_o10 m outs c)
theorem V12_o10 (c : Dev nD) : V12 m outs c main_v46 = V1 m c main_v46 := (V12_of m outs c main_v46 (by decide)).trans (V11_o10 m outs c)
theorem V13_o10 (c : Dev nD) : V13 m outs c main_v46 = V1 m c main_v46 := (V13_of m outs c main_v46 (by decide)).trans (V12_o10 m outs c)
theorem V14_o10 (c : Dev nD) : V14 m outs c main_v46 = V1 m c main_v46 := (V14_of m outs c main_v46 (by decide)).trans (V13_o10 m outs c)
theorem V15_o10 (c : Dev nD) : V15 m outs c main_v46 = V1 m c main_v46 := (V15_of m outs c main_v46 (by decide)).trans (V14_o10 m outs c)
theorem V16_o10 (c : Dev nD) : V16 m outs c main_v46 = V1 m c main_v46 := (V16_of m outs c main_v46 (by decide)).trans (V15_o10 m outs c)
theorem V17_o10 (c : Dev nD) : V17 m outs c main_v46 = V1 m c main_v46 := (V17_of m outs c main_v46 (by decide)).trans (V16_o10 m outs c)
theorem V18_o10 (c : Dev nD) : V18 m outs c main_v46 = V1 m c main_v46 := (V18_of m outs c main_v46 (by decide)).trans (V17_o10 m outs c)
theorem V19_o10 (c : Dev nD) : V19 m outs c main_v46 = V1 m c main_v46 := (V19_of m outs c main_v46 (by decide)).trans (V18_o10 m outs c)
theorem V20_o10 (c : Dev nD) : V20 m outs c main_v46 = V1 m c main_v46 := (V20_of m outs c main_v46 (by decide)).trans (V19_o10 m outs c)
theorem V21_o10 (c : Dev nD) : V21 m outs c main_v46 = V1 m c main_v46 := (V21_of m outs c main_v46 (by decide)).trans (V20_o10 m outs c)
theorem V1_o11 (c : Dev nD) : V1 m c main_v50 = V1 m c main_v50 := rfl
theorem V2_o11 (c : Dev nD) : V2 m outs c main_v50 = V1 m c main_v50 := (V2_of m outs c main_v50 (by decide)).trans (V1_o11 m c)
theorem V3_o11 (c : Dev nD) : V3 m outs c main_v50 = V1 m c main_v50 := (V3_of m outs c main_v50 (by decide)).trans (V2_o11 m outs c)
theorem V4_o11 (c : Dev nD) : V4 m outs c main_v50 = V1 m c main_v50 := (V4_of m outs c main_v50 (by decide)).trans (V3_o11 m outs c)
theorem V5_o11 (c : Dev nD) : V5 m outs c main_v50 = V1 m c main_v50 := (V5_of m outs c main_v50 (by decide)).trans (V4_o11 m outs c)
theorem V6_o11 (c : Dev nD) : V6 m outs c main_v50 = V1 m c main_v50 := (V6_of m outs c main_v50 (by decide)).trans (V5_o11 m outs c)
theorem V7_o11 (c : Dev nD) : V7 m outs c main_v50 = V1 m c main_v50 := (V7_of m outs c main_v50 (by decide)).trans (V6_o11 m outs c)
theorem V8_o11 (c : Dev nD) : V8 m outs c main_v50 = V1 m c main_v50 := (V8_of m outs c main_v50 (by decide)).trans (V7_o11 m outs c)
theorem V9_o11 (c : Dev nD) : V9 m outs c main_v50 = V1 m c main_v50 := (V9_of m outs c main_v50 (by decide)).trans (V8_o11 m outs c)
theorem V10_o11 (c : Dev nD) : V10 m outs c main_v50 = V1 m c main_v50 := (V10_of m outs c main_v50 (by decide)).trans (V9_o11 m outs c)
theorem V11_o11 (c : Dev nD) : V11 m outs c main_v50 = V1 m c main_v50 := (V11_of m outs c main_v50 (by decide)).trans (V10_o11 m outs c)
theorem V12_o11 (c : Dev nD) : V12 m outs c main_v50 = V1 m c main_v50 := (V12_of m outs c main_v50 (by decide)).trans (V11_o11 m outs c)
theorem V13_o11 (c : Dev nD) : V13 m outs c main_v50 = V1 m c main_v50 := (V13_of m outs c main_v50 (by decide)).trans (V12_o11 m outs c)
theorem V14_o11 (c : Dev nD) : V14 m outs c main_v50 = V1 m c main_v50 := (V14_of m outs c main_v50 (by decide)).trans (V13_o11 m outs c)
theorem V15_o11 (c : Dev nD) : V15 m outs c main_v50 = V1 m c main_v50 := (V15_of m outs c main_v50 (by decide)).trans (V14_o11 m outs c)
theorem V16_o11 (c : Dev nD) : V16 m outs c main_v50 = V1 m c main_v50 := (V16_of m outs c main_v50 (by decide)).trans (V15_o11 m outs c)
theorem V17_o11 (c : Dev nD) : V17 m outs c main_v50 = V1 m c main_v50 := (V17_of m outs c main_v50 (by decide)).trans (V16_o11 m outs c)
theorem V18_o11 (c : Dev nD) : V18 m outs c main_v50 = V1 m c main_v50 := (V18_of m outs c main_v50 (by decide)).trans (V17_o11 m outs c)
theorem V19_o11 (c : Dev nD) : V19 m outs c main_v50 = V1 m c main_v50 := (V19_of m outs c main_v50 (by decide)).trans (V18_o11 m outs c)
theorem V20_o11 (c : Dev nD) : V20 m outs c main_v50 = V1 m c main_v50 := (V20_of m outs c main_v50 (by decide)).trans (V19_o11 m outs c)
theorem V21_o11 (c : Dev nD) : V21 m outs c main_v50 = V1 m c main_v50 := (V21_of m outs c main_v50 (by decide)).trans (V20_o11 m outs c)
theorem V22_o11 (c : Dev nD) : V22 m outs c main_v50 = V1 m c main_v50 := (V22_of m outs c main_v50 (by decide)).trans (V21_o11 m outs c)
theorem V23_o11 (c : Dev nD) : V23 m outs c main_v50 = V1 m c main_v50 := (V23_of m outs c main_v50 (by decide)).trans (V22_o11 m outs c)
theorem V1_o12 (c : Dev nD) : V1 m c main_v54 = V1 m c main_v54 := rfl
theorem V2_o12 (c : Dev nD) : V2 m outs c main_v54 = V1 m c main_v54 := (V2_of m outs c main_v54 (by decide)).trans (V1_o12 m c)
theorem V3_o12 (c : Dev nD) : V3 m outs c main_v54 = V1 m c main_v54 := (V3_of m outs c main_v54 (by decide)).trans (V2_o12 m outs c)
theorem V4_o12 (c : Dev nD) : V4 m outs c main_v54 = V1 m c main_v54 := (V4_of m outs c main_v54 (by decide)).trans (V3_o12 m outs c)
theorem V5_o12 (c : Dev nD) : V5 m outs c main_v54 = V1 m c main_v54 := (V5_of m outs c main_v54 (by decide)).trans (V4_o12 m outs c)
theorem V6_o12 (c : Dev nD) : V6 m outs c main_v54 = V1 m c main_v54 := (V6_of m outs c main_v54 (by decide)).trans (V5_o12 m outs c)
theorem V7_o12 (c : Dev nD) : V7 m outs c main_v54 = V1 m c main_v54 := (V7_of m outs c main_v54 (by decide)).trans (V6_o12 m outs c)
theorem V8_o12 (c : Dev nD) : V8 m outs c main_v54 = V1 m c main_v54 := (V8_of m outs c main_v54 (by decide)).trans (V7_o12 m outs c)
theorem V9_o12 (c : Dev nD) : V9 m outs c main_v54 = V1 m c main_v54 := (V9_of m outs c main_v54 (by decide)).trans (V8_o12 m outs c)
theorem V10_o12 (c : Dev nD) : V10 m outs c main_v54 = V1 m c main_v54 := (V10_of m outs c main_v54 (by decide)).trans (V9_o12 m outs c)
theorem V11_o12 (c : Dev nD) : V11 m outs c main_v54 = V1 m c main_v54 := (V11_of m outs c main_v54 (by decide)).trans (V10_o12 m outs c)
theorem V12_o12 (c : Dev nD) : V12 m outs c main_v54 = V1 m c main_v54 := (V12_of m outs c main_v54 (by decide)).trans (V11_o12 m outs c)
theorem V13_o12 (c : Dev nD) : V13 m outs c main_v54 = V1 m c main_v54 := (V13_of m outs c main_v54 (by decide)).trans (V12_o12 m outs c)
theorem V14_o12 (c : Dev nD) : V14 m outs c main_v54 = V1 m c main_v54 := (V14_of m outs c main_v54 (by decide)).trans (V13_o12 m outs c)
theorem V15_o12 (c : Dev nD) : V15 m outs c main_v54 = V1 m c main_v54 := (V15_of m outs c main_v54 (by decide)).trans (V14_o12 m outs c)
theorem V16_o12 (c : Dev nD) : V16 m outs c main_v54 = V1 m c main_v54 := (V16_of m outs c main_v54 (by decide)).trans (V15_o12 m outs c)
theorem V17_o12 (c : Dev nD) : V17 m outs c main_v54 = V1 m c main_v54 := (V17_of m outs c main_v54 (by decide)).trans (V16_o12 m outs c)
theorem V18_o12 (c : Dev nD) : V18 m outs c main_v54 = V1 m c main_v54 := (V18_of m outs c main_v54 (by decide)).trans (V17_o12 m outs c)
theorem V19_o12 (c : Dev nD) : V19 m outs c main_v54 = V1 m c main_v54 := (V19_of m outs c main_v54 (by decide)).trans (V18_o12 m outs c)
theorem V20_o12 (c : Dev nD) : V20 m outs c main_v54 = V1 m c main_v54 := (V20_of m outs c main_v54 (by decide)).trans (V19_o12 m outs c)
theorem V21_o12 (c : Dev nD) : V21 m outs c main_v54 = V1 m c main_v54 := (V21_of m outs c main_v54 (by decide)).trans (V20_o12 m outs c)
theorem V22_o12 (c : Dev nD) : V22 m outs c main_v54 = V1 m c main_v54 := (V22_of m outs c main_v54 (by decide)).trans (V21_o12 m outs c)
theorem V23_o12 (c : Dev nD) : V23 m outs c main_v54 = V1 m c main_v54 := (V23_of m outs c main_v54 (by decide)).trans (V22_o12 m outs c)
theorem V24_o12 (c : Dev nD) : V24 m outs c main_v54 = V1 m c main_v54 := (V24_of m outs c main_v54 (by decide)).trans (V23_o12 m outs c)
theorem V25_o12 (c : Dev nD) : V25 m outs c main_v54 = V1 m c main_v54 := (V25_of m outs c main_v54 (by decide)).trans (V24_o12 m outs c)
theorem V1_o13 (c : Dev nD) : V1 m c main_v58 = V1 m c main_v58 := rfl
theorem V2_o13 (c : Dev nD) : V2 m outs c main_v58 = V1 m c main_v58 := (V2_of m outs c main_v58 (by decide)).trans (V1_o13 m c)
theorem V3_o13 (c : Dev nD) : V3 m outs c main_v58 = V1 m c main_v58 := (V3_of m outs c main_v58 (by decide)).trans (V2_o13 m outs c)
theorem V4_o13 (c : Dev nD) : V4 m outs c main_v58 = V1 m c main_v58 := (V4_of m outs c main_v58 (by decide)).trans (V3_o13 m outs c)
theorem V5_o13 (c : Dev nD) : V5 m outs c main_v58 = V1 m c main_v58 := (V5_of m outs c main_v58 (by decide)).trans (V4_o13 m outs c)
theorem V6_o13 (c : Dev nD) : V6 m outs c main_v58 = V1 m c main_v58 := (V6_of m outs c main_v58 (by decide)).trans (V5_o13 m outs c)
theorem V7_o13 (c : Dev nD) : V7 m outs c main_v58 = V1 m c main_v58 := (V7_of m outs c main_v58 (by decide)).trans (V6_o13 m outs c)
theorem V8_o13 (c : Dev nD) : V8 m outs c main_v58 = V1 m c main_v58 := (V8_of m outs c main_v58 (by decide)).trans (V7_o13 m outs c)
theorem V9_o13 (c : Dev nD) : V9 m outs c main_v58 = V1 m c main_v58 := (V9_of m outs c main_v58 (by decide)).trans (V8_o13 m outs c)
theorem V10_o13 (c : Dev nD) : V10 m outs c main_v58 = V1 m c main_v58 := (V10_of m outs c main_v58 (by decide)).trans (V9_o13 m outs c)
theorem V11_o13 (c : Dev nD) : V11 m outs c main_v58 = V1 m c main_v58 := (V11_of m outs c main_v58 (by decide)).trans (V10_o13 m outs c)
theorem V12_o13 (c : Dev nD) : V12 m outs c main_v58 = V1 m c main_v58 := (V12_of m outs c main_v58 (by decide)).trans (V11_o13 m outs c)
theorem V13_o13 (c : Dev nD) : V13 m outs c main_v58 = V1 m c main_v58 := (V13_of m outs c main_v58 (by decide)).trans (V12_o13 m outs c)
theorem V14_o13 (c : Dev nD) : V14 m outs c main_v58 = V1 m c main_v58 := (V14_of m outs c main_v58 (by decide)).trans (V13_o13 m outs c)
theorem V15_o13 (c : Dev nD) : V15 m outs c main_v58 = V1 m c main_v58 := (V15_of m outs c main_v58 (by decide)).trans (V14_o13 m outs c)
theorem V16_o13 (c : Dev nD) : V16 m outs c main_v58 = V1 m c main_v58 := (V16_of m outs c main_v58 (by decide)).trans (V15_o13 m outs c)
theorem V17_o13 (c : Dev nD) : V17 m outs c main_v58 = V1 m c main_v58 := (V17_of m outs c main_v58 (by decide)).trans (V16_o13 m outs c)
theorem V18_o13 (c : Dev nD) : V18 m outs c main_v58 = V1 m c main_v58 := (V18_of m outs c main_v58 (by decide)).trans (V17_o13 m outs c)
theorem V19_o13 (c : Dev nD) : V19 m outs c main_v58 = V1 m c main_v58 := (V19_of m outs c main_v58 (by decide)).trans (V18_o13 m outs c)
theorem V20_o13 (c : Dev nD) : V20 m outs c main_v58 = V1 m c main_v58 := (V20_of m outs c main_v58 (by decide)).trans (V19_o13 m outs c)
theorem V21_o13 (c : Dev nD) : V21 m outs c main_v58 = V1 m c main_v58 := (V21_of m outs c main_v58 (by decide)).trans (V20_o13 m outs c)
theorem V22_o13 (c : Dev nD) : V22 m outs c main_v58 = V1 m c main_v58 := (V22_of m outs c main_v58 (by decide)).trans (V21_o13 m outs c)
theorem V23_o13 (c : Dev nD) : V23 m outs c main_v58 = V1 m c main_v58 := (V23_of m outs c main_v58 (by decide)).trans (V22_o13 m outs c)
theorem V24_o13 (c : Dev nD) : V24 m outs c main_v58 = V1 m c main_v58 := (V24_of m outs c main_v58 (by decide)).trans (V23_o13 m outs c)
theorem V25_o13 (c : Dev nD) : V25 m outs c main_v58 = V1 m c main_v58 := (V25_of m outs c main_v58 (by decide)).trans (V24_o13 m outs c)
theorem V26_o13 (c : Dev nD) : V26 m outs c main_v58 = V1 m c main_v58 := (V26_of m outs c main_v58 (by decide)).trans (V25_o13 m outs c)
theorem V27_o13 (c : Dev nD) : V27 m outs c main_v58 = V1 m c main_v58 := (V27_of m outs c main_v58 (by decide)).trans (V26_o13 m outs c)
theorem V1_o14 (c : Dev nD) : V1 m c main_v62 = V1 m c main_v62 := rfl
theorem V2_o14 (c : Dev nD) : V2 m outs c main_v62 = V1 m c main_v62 := (V2_of m outs c main_v62 (by decide)).trans (V1_o14 m c)
theorem V3_o14 (c : Dev nD) : V3 m outs c main_v62 = V1 m c main_v62 := (V3_of m outs c main_v62 (by decide)).trans (V2_o14 m outs c)
theorem V4_o14 (c : Dev nD) : V4 m outs c main_v62 = V1 m c main_v62 := (V4_of m outs c main_v62 (by decide)).trans (V3_o14 m outs c)
theorem V5_o14 (c : Dev nD) : V5 m outs c main_v62 = V1 m c main_v62 := (V5_of m outs c main_v62 (by decide)).trans (V4_o14 m outs c)
theorem V6_o14 (c : Dev nD) : V6 m outs c main_v62 = V1 m c main_v62 := (V6_of m outs c main_v62 (by decide)).trans (V5_o14 m outs c)
theorem V7_o14 (c : Dev nD) : V7 m outs c main_v62 = V1 m c main_v62 := (V7_of m outs c main_v62 (by decide)).trans (V6_o14 m outs c)
theorem V8_o14 (c : Dev nD) : V8 m outs c main_v62 = V1 m c main_v62 := (V8_of m outs c main_v62 (by decide)).trans (V7_o14 m outs c)
theorem V9_o14 (c : Dev nD) : V9 m outs c main_v62 = V1 m c main_v62 := (V9_of m outs c main_v62 (by decide)).trans (V8_o14 m outs c)
theorem V10_o14 (c : Dev nD) : V10 m outs c main_v62 = V1 m c main_v62 := (V10_of m outs c main_v62 (by decide)).trans (V9_o14 m outs c)
theorem V11_o14 (c : Dev nD) : V11 m outs c main_v62 = V1 m c main_v62 := (V11_of m outs c main_v62 (by decide)).trans (V10_o14 m outs c)
theorem V12_o14 (c : Dev nD) : V12 m outs c main_v62 = V1 m c main_v62 := (V12_of m outs c main_v62 (by decide)).trans (V11_o14 m outs c)
theorem V13_o14 (c : Dev nD) : V13 m outs c main_v62 = V1 m c main_v62 := (V13_of m outs c main_v62 (by decide)).trans (V12_o14 m outs c)
theorem V14_o14 (c : Dev nD) : V14 m outs c main_v62 = V1 m c main_v62 := (V14_of m outs c main_v62 (by decide)).trans (V13_o14 m outs c)
theorem V15_o14 (c : Dev nD) : V15 m outs c main_v62 = V1 m c main_v62 := (V15_of m outs c main_v62 (by decide)).trans (V14_o14 m outs c)
theorem V16_o14 (c : Dev nD) : V16 m outs c main_v62 = V1 m c main_v62 := (V16_of m outs c main_v62 (by decide)).trans (V15_o14 m outs c)
theorem V17_o14 (c : Dev nD) : V17 m outs c main_v62 = V1 m c main_v62 := (V17_of m outs c main_v62 (by decide)).trans (V16_o14 m outs c)
theorem V18_o14 (c : Dev nD) : V18 m outs c main_v62 = V1 m c main_v62 := (V18_of m outs c main_v62 (by decide)).trans (V17_o14 m outs c)
theorem V19_o14 (c : Dev nD) : V19 m outs c main_v62 = V1 m c main_v62 := (V19_of m outs c main_v62 (by decide)).trans (V18_o14 m outs c)
theorem V20_o14 (c : Dev nD) : V20 m outs c main_v62 = V1 m c main_v62 := (V20_of m outs c main_v62 (by decide)).trans (V19_o14 m outs c)
theorem V21_o14 (c : Dev nD) : V21 m outs c main_v62 = V1 m c main_v62 := (V21_of m outs c main_v62 (by decide)).trans (V20_o14 m outs c)
theorem V22_o14 (c : Dev nD) : V22 m outs c main_v62 = V1 m c main_v62 := (V22_of m outs c main_v62 (by decide)).trans (V21_o14 m outs c)
theorem V23_o14 (c : Dev nD) : V23 m outs c main_v62 = V1 m c main_v62 := (V23_of m outs c main_v62 (by decide)).trans (V22_o14 m outs c)
theorem V24_o14 (c : Dev nD) : V24 m outs c main_v62 = V1 m c main_v62 := (V24_of m outs c main_v62 (by decide)).trans (V23_o14 m outs c)
theorem V25_o14 (c : Dev nD) : V25 m outs c main_v62 = V1 m c main_v62 := (V25_of m outs c main_v62 (by decide)).trans (V24_o14 m outs c)
theorem V26_o14 (c : Dev nD) : V26 m outs c main_v62 = V1 m c main_v62 := (V26_of m outs c main_v62 (by decide)).trans (V25_o14 m outs c)
theorem V27_o14 (c : Dev nD) : V27 m outs c main_v62 = V1 m c main_v62 := (V27_of m outs c main_v62 (by decide)).trans (V26_o14 m outs c)
theorem V28_o14 (c : Dev nD) : V28 m outs c main_v62 = V1 m c main_v62 := (V28_of m outs c main_v62 (by decide)).trans (V27_o14 m outs c)
theorem V29_o14 (c : Dev nD) : V29 m outs c main_v62 = V1 m c main_v62 := (V29_of m outs c main_v62 (by decide)).trans (V28_o14 m outs c)
theorem V1_o15 (c : Dev nD) : V1 m c main_v66 = V1 m c main_v66 := rfl
theorem V2_o15 (c : Dev nD) : V2 m outs c main_v66 = V1 m c main_v66 := (V2_of m outs c main_v66 (by decide)).trans (V1_o15 m c)
theorem V3_o15 (c : Dev nD) : V3 m outs c main_v66 = V1 m c main_v66 := (V3_of m outs c main_v66 (by decide)).trans (V2_o15 m outs c)
theorem V4_o15 (c : Dev nD) : V4 m outs c main_v66 = V1 m c main_v66 := (V4_of m outs c main_v66 (by decide)).trans (V3_o15 m outs c)
theorem V5_o15 (c : Dev nD) : V5 m outs c main_v66 = V1 m c main_v66 := (V5_of m outs c main_v66 (by decide)).trans (V4_o15 m outs c)
theorem V6_o15 (c : Dev nD) : V6 m outs c main_v66 = V1 m c main_v66 := (V6_of m outs c main_v66 (by decide)).trans (V5_o15 m outs c)
theorem V7_o15 (c : Dev nD) : V7 m outs c main_v66 = V1 m c main_v66 := (V7_of m outs c main_v66 (by decide)).trans (V6_o15 m outs c)
theorem V8_o15 (c : Dev nD) : V8 m outs c main_v66 = V1 m c main_v66 := (V8_of m outs c main_v66 (by decide)).trans (V7_o15 m outs c)
theorem V9_o15 (c : Dev nD) : V9 m outs c main_v66 = V1 m c main_v66 := (V9_of m outs c main_v66 (by decide)).trans (V8_o15 m outs c)
theorem V10_o15 (c : Dev nD) : V10 m outs c main_v66 = V1 m c main_v66 := (V10_of m outs c main_v66 (by decide)).trans (V9_o15 m outs c)
theorem V11_o15 (c : Dev nD) : V11 m outs c main_v66 = V1 m c main_v66 := (V11_of m outs c main_v66 (by decide)).trans (V10_o15 m outs c)
theorem V12_o15 (c : Dev nD) : V12 m outs c main_v66 = V1 m c main_v66 := (V12_of m outs c main_v66 (by decide)).trans (V11_o15 m outs c)
theorem V13_o15 (c : Dev nD) : V13 m outs c main_v66 = V1 m c main_v66 := (V13_of m outs c main_v66 (by decide)).trans (V12_o15 m outs c)
theorem V14_o15 (c : Dev nD) : V14 m outs c main_v66 = V1 m c main_v66 := (V14_of m outs c main_v66 (by decide)).trans (V13_o15 m outs c)
theorem V15_o15 (c : Dev nD) : V15 m outs c main_v66 = V1 m c main_v66 := (V15_of m outs c main_v66 (by decide)).trans (V14_o15 m outs c)
theorem V16_o15 (c : Dev nD) : V16 m outs c main_v66 = V1 m c main_v66 := (V16_of m outs c main_v66 (by decide)).trans (V15_o15 m outs c)
theorem V17_o15 (c : Dev nD) : V17 m outs c main_v66 = V1 m c main_v66 := (V17_of m outs c main_v66 (by decide)).trans (V16_o15 m outs c)
theorem V18_o15 (c : Dev nD) : V18 m outs c main_v66 = V1 m c main_v66 := (V18_of m outs c main_v66 (by decide)).trans (V17_o15 m outs c)
theorem V19_o15 (c : Dev nD) : V19 m outs c main_v66 = V1 m c main_v66 := (V19_of m outs c main_v66 (by decide)).trans (V18_o15 m outs c)
theorem V20_o15 (c : Dev nD) : V20 m outs c main_v66 = V1 m c main_v66 := (V20_of m outs c main_v66 (by decide)).trans (V19_o15 m outs c)
theorem V21_o15 (c : Dev nD) : V21 m outs c main_v66 = V1 m c main_v66 := (V21_of m outs c main_v66 (by decide)).trans (V20_o15 m outs c)
theorem V22_o15 (c : Dev nD) : V22 m outs c main_v66 = V1 m c main_v66 := (V22_of m outs c main_v66 (by decide)).trans (V21_o15 m outs c)
theorem V23_o15 (c : Dev nD) : V23 m outs c main_v66 = V1 m c main_v66 := (V23_of m outs c main_v66 (by decide)).trans (V22_o15 m outs c)
theorem V24_o15 (c : Dev nD) : V24 m outs c main_v66 = V1 m c main_v66 := (V24_of m outs c main_v66 (by decide)).trans (V23_o15 m outs c)
theorem V25_o15 (c : Dev nD) : V25 m outs c main_v66 = V1 m c main_v66 := (V25_of m outs c main_v66 (by decide)).trans (V24_o15 m outs c)
theorem V26_o15 (c : Dev nD) : V26 m outs c main_v66 = V1 m c main_v66 := (V26_of m outs c main_v66 (by decide)).trans (V25_o15 m outs c)
theorem V27_o15 (c : Dev nD) : V27 m outs c main_v66 = V1 m c main_v66 := (V27_of m outs c main_v66 (by decide)).trans (V26_o15 m outs c)
theorem V28_o15 (c : Dev nD) : V28 m outs c main_v66 = V1 m c main_v66 := (V28_of m outs c main_v66 (by decide)).trans (V27_o15 m outs c)
theorem V29_o15 (c : Dev nD) : V29 m outs c main_v66 = V1 m c main_v66 := (V29_of m outs c main_v66 (by decide)).trans (V28_o15 m outs c)
theorem V30_o15 (c : Dev nD) : V30 m outs c main_v66 = V1 m c main_v66 := (V30_of m outs c main_v66 (by decide)).trans (V29_o15 m outs c)
theorem V31_o15 (c : Dev nD) : V31 m outs c main_v66 = V1 m c main_v66 := (V31_of m outs c main_v66 (by decide)).trans (V30_o15 m outs c)
theorem V1_o16 (c : Dev nD) : V1 m c main_v70 = V1 m c main_v70 := rfl
theorem V2_o16 (c : Dev nD) : V2 m outs c main_v70 = V1 m c main_v70 := (V2_of m outs c main_v70 (by decide)).trans (V1_o16 m c)
theorem V3_o16 (c : Dev nD) : V3 m outs c main_v70 = V1 m c main_v70 := (V3_of m outs c main_v70 (by decide)).trans (V2_o16 m outs c)
theorem V4_o16 (c : Dev nD) : V4 m outs c main_v70 = V1 m c main_v70 := (V4_of m outs c main_v70 (by decide)).trans (V3_o16 m outs c)
theorem V5_o16 (c : Dev nD) : V5 m outs c main_v70 = V1 m c main_v70 := (V5_of m outs c main_v70 (by decide)).trans (V4_o16 m outs c)
theorem V6_o16 (c : Dev nD) : V6 m outs c main_v70 = V1 m c main_v70 := (V6_of m outs c main_v70 (by decide)).trans (V5_o16 m outs c)
theorem V7_o16 (c : Dev nD) : V7 m outs c main_v70 = V1 m c main_v70 := (V7_of m outs c main_v70 (by decide)).trans (V6_o16 m outs c)
theorem V8_o16 (c : Dev nD) : V8 m outs c main_v70 = V1 m c main_v70 := (V8_of m outs c main_v70 (by decide)).trans (V7_o16 m outs c)
theorem V9_o16 (c : Dev nD) : V9 m outs c main_v70 = V1 m c main_v70 := (V9_of m outs c main_v70 (by decide)).trans (V8_o16 m outs c)
theorem V10_o16 (c : Dev nD) : V10 m outs c main_v70 = V1 m c main_v70 := (V10_of m outs c main_v70 (by decide)).trans (V9_o16 m outs c)
theorem V11_o16 (c : Dev nD) : V11 m outs c main_v70 = V1 m c main_v70 := (V11_of m outs c main_v70 (by decide)).trans (V10_o16 m outs c)
theorem V12_o16 (c : Dev nD) : V12 m outs c main_v70 = V1 m c main_v70 := (V12_of m outs c main_v70 (by decide)).trans (V11_o16 m outs c)
theorem V13_o16 (c : Dev nD) : V13 m outs c main_v70 = V1 m c main_v70 := (V13_of m outs c main_v70 (by decide)).trans (V12_o16 m outs c)
theorem V14_o16 (c : Dev nD) : V14 m outs c main_v70 = V1 m c main_v70 := (V14_of m outs c main_v70 (by decide)).trans (V13_o16 m outs c)
theorem V15_o16 (c : Dev nD) : V15 m outs c main_v70 = V1 m c main_v70 := (V15_of m outs c main_v70 (by decide)).trans (V14_o16 m outs c)
theorem V16_o16 (c : Dev nD) : V16 m outs c main_v70 = V1 m c main_v70 := (V16_of m outs c main_v70 (by decide)).trans (V15_o16 m outs c)
theorem V17_o16 (c : Dev nD) : V17 m outs c main_v70 = V1 m c main_v70 := (V17_of m outs c main_v70 (by decide)).trans (V16_o16 m outs c)
theorem V18_o16 (c : Dev nD) : V18 m outs c main_v70 = V1 m c main_v70 := (V18_of m outs c main_v70 (by decide)).trans (V17_o16 m outs c)
theorem V19_o16 (c : Dev nD) : V19 m outs c main_v70 = V1 m c main_v70 := (V19_of m outs c main_v70 (by decide)).trans (V18_o16 m outs c)
theorem V20_o16 (c : Dev nD) : V20 m outs c main_v70 = V1 m c main_v70 := (V20_of m outs c main_v70 (by decide)).trans (V19_o16 m outs c)
theorem V21_o16 (c : Dev nD) : V21 m outs c main_v70 = V1 m c main_v70 := (V21_of m outs c main_v70 (by decide)).trans (V20_o16 m outs c)
theorem V22_o16 (c : Dev nD) : V22 m outs c main_v70 = V1 m c main_v70 := (V22_of m outs c main_v70 (by decide)).trans (V21_o16 m outs c)
theorem V23_o16 (c : Dev nD) : V23 m outs c main_v70 = V1 m c main_v70 := (V23_of m outs c main_v70 (by decide)).trans (V22_o16 m outs c)
theorem V24_o16 (c : Dev nD) : V24 m outs c main_v70 = V1 m c main_v70 := (V24_of m outs c main_v70 (by decide)).trans (V23_o16 m outs c)
theorem V25_o16 (c : Dev nD) : V25 m outs c main_v70 = V1 m c main_v70 := (V25_of m outs c main_v70 (by decide)).trans (V24_o16 m outs c)
theorem V26_o16 (c : Dev nD) : V26 m outs c main_v70 = V1 m c main_v70 := (V26_of m outs c main_v70 (by decide)).trans (V25_o16 m outs c)
theorem V27_o16 (c : Dev nD) : V27 m outs c main_v70 = V1 m c main_v70 := (V27_of m outs c main_v70 (by decide)).trans (V26_o16 m outs c)
theorem V28_o16 (c : Dev nD) : V28 m outs c main_v70 = V1 m c main_v70 := (V28_of m outs c main_v70 (by decide)).trans (V27_o16 m outs c)
theorem V29_o16 (c : Dev nD) : V29 m outs c main_v70 = V1 m c main_v70 := (V29_of m outs c main_v70 (by decide)).trans (V28_o16 m outs c)
theorem V30_o16 (c : Dev nD) : V30 m outs c main_v70 = V1 m c main_v70 := (V30_of m outs c main_v70 (by decide)).trans (V29_o16 m outs c)
theorem V31_o16 (c : Dev nD) : V31 m outs c main_v70 = V1 m c main_v70 := (V31_of m outs c main_v70 (by decide)).trans (V30_o16 m outs c)
theorem V32_o16 (c : Dev nD) : V32 m outs c main_v70 = V1 m c main_v70 := (V32_of m outs c main_v70 (by decide)).trans (V31_o16 m outs c)
theorem V33_o16 (c : Dev nD) : V33 m outs c main_v70 = V1 m c main_v70 := (V33_of m outs c main_v70 (by decide)).trans (V32_o16 m outs c)
theorem V1_o17 (c : Dev nD) : V1 m c main_v74 = V1 m c main_v74 := rfl
theorem V2_o17 (c : Dev nD) : V2 m outs c main_v74 = V1 m c main_v74 := (V2_of m outs c main_v74 (by decide)).trans (V1_o17 m c)
theorem V3_o17 (c : Dev nD) : V3 m outs c main_v74 = V1 m c main_v74 := (V3_of m outs c main_v74 (by decide)).trans (V2_o17 m outs c)
theorem V4_o17 (c : Dev nD) : V4 m outs c main_v74 = V1 m c main_v74 := (V4_of m outs c main_v74 (by decide)).trans (V3_o17 m outs c)
theorem V5_o17 (c : Dev nD) : V5 m outs c main_v74 = V1 m c main_v74 := (V5_of m outs c main_v74 (by decide)).trans (V4_o17 m outs c)
theorem V6_o17 (c : Dev nD) : V6 m outs c main_v74 = V1 m c main_v74 := (V6_of m outs c main_v74 (by decide)).trans (V5_o17 m outs c)
theorem V7_o17 (c : Dev nD) : V7 m outs c main_v74 = V1 m c main_v74 := (V7_of m outs c main_v74 (by decide)).trans (V6_o17 m outs c)
theorem V8_o17 (c : Dev nD) : V8 m outs c main_v74 = V1 m c main_v74 := (V8_of m outs c main_v74 (by decide)).trans (V7_o17 m outs c)
theorem V9_o17 (c : Dev nD) : V9 m outs c main_v74 = V1 m c main_v74 := (V9_of m outs c main_v74 (by decide)).trans (V8_o17 m outs c)
theorem V10_o17 (c : Dev nD) : V10 m outs c main_v74 = V1 m c main_v74 := (V10_of m outs c main_v74 (by decide)).trans (V9_o17 m outs c)
theorem V11_o17 (c : Dev nD) : V11 m outs c main_v74 = V1 m c main_v74 := (V11_of m outs c main_v74 (by decide)).trans (V10_o17 m outs c)
theorem V12_o17 (c : Dev nD) : V12 m outs c main_v74 = V1 m c main_v74 := (V12_of m outs c main_v74 (by decide)).trans (V11_o17 m outs c)
theorem V13_o17 (c : Dev nD) : V13 m outs c main_v74 = V1 m c main_v74 := (V13_of m outs c main_v74 (by decide)).trans (V12_o17 m outs c)
theorem V14_o17 (c : Dev nD) : V14 m outs c main_v74 = V1 m c main_v74 := (V14_of m outs c main_v74 (by decide)).trans (V13_o17 m outs c)
theorem V15_o17 (c : Dev nD) : V15 m outs c main_v74 = V1 m c main_v74 := (V15_of m outs c main_v74 (by decide)).trans (V14_o17 m outs c)
theorem V16_o17 (c : Dev nD) : V16 m outs c main_v74 = V1 m c main_v74 := (V16_of m outs c main_v74 (by decide)).trans (V15_o17 m outs c)
theorem V17_o17 (c : Dev nD) : V17 m outs c main_v74 = V1 m c main_v74 := (V17_of m outs c main_v74 (by decide)).trans (V16_o17 m outs c)
theorem V18_o17 (c : Dev nD) : V18 m outs c main_v74 = V1 m c main_v74 := (V18_of m outs c main_v74 (by decide)).trans (V17_o17 m outs c)
theorem V19_o17 (c : Dev nD) : V19 m outs c main_v74 = V1 m c main_v74 := (V19_of m outs c main_v74 (by decide)).trans (V18_o17 m outs c)
theorem V20_o17 (c : Dev nD) : V20 m outs c main_v74 = V1 m c main_v74 := (V20_of m outs c main_v74 (by decide)).trans (V19_o17 m outs c)
theorem V21_o17 (c : Dev nD) : V21 m outs c main_v74 = V1 m c main_v74 := (V21_of m outs c main_v74 (by decide)).trans (V20_o17 m outs c)
theorem V22_o17 (c : Dev nD) : V22 m outs c main_v74 = V1 m c main_v74 := (V22_of m outs c main_v74 (by decide)).trans (V21_o17 m outs c)
theorem V23_o17 (c : Dev nD) : V23 m outs c main_v74 = V1 m c main_v74 := (V23_of m outs c main_v74 (by decide)).trans (V22_o17 m outs c)
theorem V24_o17 (c : Dev nD) : V24 m outs c main_v74 = V1 m c main_v74 := (V24_of m outs c main_v74 (by decide)).trans (V23_o17 m outs c)
theorem V25_o17 (c : Dev nD) : V25 m outs c main_v74 = V1 m c main_v74 := (V25_of m outs c main_v74 (by decide)).trans (V24_o17 m outs c)
theorem V26_o17 (c : Dev nD) : V26 m outs c main_v74 = V1 m c main_v74 := (V26_of m outs c main_v74 (by decide)).trans (V25_o17 m outs c)
theorem V27_o17 (c : Dev nD) : V27 m outs c main_v74 = V1 m c main_v74 := (V27_of m outs c main_v74 (by decide)).trans (V26_o17 m outs c)
theorem V28_o17 (c : Dev nD) : V28 m outs c main_v74 = V1 m c main_v74 := (V28_of m outs c main_v74 (by decide)).trans (V27_o17 m outs c)
theorem V29_o17 (c : Dev nD) : V29 m outs c main_v74 = V1 m c main_v74 := (V29_of m outs c main_v74 (by decide)).trans (V28_o17 m outs c)
theorem V30_o17 (c : Dev nD) : V30 m outs c main_v74 = V1 m c main_v74 := (V30_of m outs c main_v74 (by decide)).trans (V29_o17 m outs c)
theorem V31_o17 (c : Dev nD) : V31 m outs c main_v74 = V1 m c main_v74 := (V31_of m outs c main_v74 (by decide)).trans (V30_o17 m outs c)
theorem V32_o17 (c : Dev nD) : V32 m outs c main_v74 = V1 m c main_v74 := (V32_of m outs c main_v74 (by decide)).trans (V31_o17 m outs c)
theorem V33_o17 (c : Dev nD) : V33 m outs c main_v74 = V1 m c main_v74 := (V33_of m outs c main_v74 (by decide)).trans (V32_o17 m outs c)
theorem V34_o17 (c : Dev nD) : V34 m outs c main_v74 = V1 m c main_v74 := (V34_of m outs c main_v74 (by decide)).trans (V33_o17 m outs c)
theorem V35_o17 (c : Dev nD) : V35 m outs c main_v74 = V1 m c main_v74 := (V35_of m outs c main_v74 (by decide)).trans (V34_o17 m outs c)
theorem V1_o18 (c : Dev nD) : V1 m c main_v78 = V1 m c main_v78 := rfl
theorem V2_o18 (c : Dev nD) : V2 m outs c main_v78 = V1 m c main_v78 := (V2_of m outs c main_v78 (by decide)).trans (V1_o18 m c)
theorem V3_o18 (c : Dev nD) : V3 m outs c main_v78 = V1 m c main_v78 := (V3_of m outs c main_v78 (by decide)).trans (V2_o18 m outs c)
theorem V4_o18 (c : Dev nD) : V4 m outs c main_v78 = V1 m c main_v78 := (V4_of m outs c main_v78 (by decide)).trans (V3_o18 m outs c)
theorem V5_o18 (c : Dev nD) : V5 m outs c main_v78 = V1 m c main_v78 := (V5_of m outs c main_v78 (by decide)).trans (V4_o18 m outs c)
theorem V6_o18 (c : Dev nD) : V6 m outs c main_v78 = V1 m c main_v78 := (V6_of m outs c main_v78 (by decide)).trans (V5_o18 m outs c)
theorem V7_o18 (c : Dev nD) : V7 m outs c main_v78 = V1 m c main_v78 := (V7_of m outs c main_v78 (by decide)).trans (V6_o18 m outs c)
theorem V8_o18 (c : Dev nD) : V8 m outs c main_v78 = V1 m c main_v78 := (V8_of m outs c main_v78 (by decide)).trans (V7_o18 m outs c)
theorem V9_o18 (c : Dev nD) : V9 m outs c main_v78 = V1 m c main_v78 := (V9_of m outs c main_v78 (by decide)).trans (V8_o18 m outs c)
theorem V10_o18 (c : Dev nD) : V10 m outs c main_v78 = V1 m c main_v78 := (V10_of m outs c main_v78 (by decide)).trans (V9_o18 m outs c)
theorem V11_o18 (c : Dev nD) : V11 m outs c main_v78 = V1 m c main_v78 := (V11_of m outs c main_v78 (by decide)).trans (V10_o18 m outs c)
theorem V12_o18 (c : Dev nD) : V12 m outs c main_v78 = V1 m c main_v78 := (V12_of m outs c main_v78 (by decide)).trans (V11_o18 m outs c)
theorem V13_o18 (c : Dev nD) : V13 m outs c main_v78 = V1 m c main_v78 := (V13_of m outs c main_v78 (by decide)).trans (V12_o18 m outs c)
theorem V14_o18 (c : Dev nD) : V14 m outs c main_v78 = V1 m c main_v78 := (V14_of m outs c main_v78 (by decide)).trans (V13_o18 m outs c)
theorem V15_o18 (c : Dev nD) : V15 m outs c main_v78 = V1 m c main_v78 := (V15_of m outs c main_v78 (by decide)).trans (V14_o18 m outs c)
theorem V16_o18 (c : Dev nD) : V16 m outs c main_v78 = V1 m c main_v78 := (V16_of m outs c main_v78 (by decide)).trans (V15_o18 m outs c)
theorem V17_o18 (c : Dev nD) : V17 m outs c main_v78 = V1 m c main_v78 := (V17_of m outs c main_v78 (by decide)).trans (V16_o18 m outs c)
theorem V18_o18 (c : Dev nD) : V18 m outs c main_v78 = V1 m c main_v78 := (V18_of m outs c main_v78 (by decide)).trans (V17_o18 m outs c)
theorem V19_o18 (c : Dev nD) : V19 m outs c main_v78 = V1 m c main_v78 := (V19_of m outs c main_v78 (by decide)).trans (V18_o18 m outs c)
theorem V20_o18 (c : Dev nD) : V20 m outs c main_v78 = V1 m c main_v78 := (V20_of m outs c main_v78 (by decide)).trans (V19_o18 m outs c)
theorem V21_o18 (c : Dev nD) : V21 m outs c main_v78 = V1 m c main_v78 := (V21_of m outs c main_v78 (by decide)).trans (V20_o18 m outs c)
theorem V22_o18 (c : Dev nD) : V22 m outs c main_v78 = V1 m c main_v78 := (V22_of m outs c main_v78 (by decide)).trans (V21_o18 m outs c)
theorem V23_o18 (c : Dev nD) : V23 m outs c main_v78 = V1 m c main_v78 := (V23_of m outs c main_v78 (by decide)).trans (V22_o18 m outs c)
theorem V24_o18 (c : Dev nD) : V24 m outs c main_v78 = V1 m c main_v78 := (V24_of m outs c main_v78 (by decide)).trans (V23_o18 m outs c)
theorem V25_o18 (c : Dev nD) : V25 m outs c main_v78 = V1 m c main_v78 := (V25_of m outs c main_v78 (by decide)).trans (V24_o18 m outs c)
theorem V26_o18 (c : Dev nD) : V26 m outs c main_v78 = V1 m c main_v78 := (V26_of m outs c main_v78 (by decide)).trans (V25_o18 m outs c)
theorem V27_o18 (c : Dev nD) : V27 m outs c main_v78 = V1 m c main_v78 := (V27_of m outs c main_v78 (by decide)).trans (V26_o18 m outs c)
theorem V28_o18 (c : Dev nD) : V28 m outs c main_v78 = V1 m c main_v78 := (V28_of m outs c main_v78 (by decide)).trans (V27_o18 m outs c)
theorem V29_o18 (c : Dev nD) : V29 m outs c main_v78 = V1 m c main_v78 := (V29_of m outs c main_v78 (by decide)).trans (V28_o18 m outs c)
theorem V30_o18 (c : Dev nD) : V30 m outs c main_v78 = V1 m c main_v78 := (V30_of m outs c main_v78 (by decide)).trans (V29_o18 m outs c)
theorem V31_o18 (c : Dev nD) : V31 m outs c main_v78 = V1 m c main_v78 := (V31_of m outs c main_v78 (by decide)).trans (V30_o18 m outs c)
theorem V32_o18 (c : Dev nD) : V32 m outs c main_v78 = V1 m c main_v78 := (V32_of m outs c main_v78 (by decide)).trans (V31_o18 m outs c)
theorem V33_o18 (c : Dev nD) : V33 m outs c main_v78 = V1 m c main_v78 := (V33_of m outs c main_v78 (by decide)).trans (V32_o18 m outs c)
theorem V34_o18 (c : Dev nD) : V34 m outs c main_v78 = V1 m c main_v78 := (V34_of m outs c main_v78 (by decide)).trans (V33_o18 m outs c)
theorem V35_o18 (c : Dev nD) : V35 m outs c main_v78 = V1 m c main_v78 := (V35_of m outs c main_v78 (by decide)).trans (V34_o18 m outs c)
theorem V36_o18 (c : Dev nD) : V36 m outs c main_v78 = V1 m c main_v78 := (V36_of m outs c main_v78 (by decide)).trans (V35_o18 m outs c)
theorem V37_o18 (c : Dev nD) : V37 m outs c main_v78 = V1 m c main_v78 := (V37_of m outs c main_v78 (by decide)).trans (V36_o18 m outs c)
theorem V1_o19 (c : Dev nD) : V1 m c main_v82 = V1 m c main_v82 := rfl
theorem V2_o19 (c : Dev nD) : V2 m outs c main_v82 = V1 m c main_v82 := (V2_of m outs c main_v82 (by decide)).trans (V1_o19 m c)
theorem V3_o19 (c : Dev nD) : V3 m outs c main_v82 = V1 m c main_v82 := (V3_of m outs c main_v82 (by decide)).trans (V2_o19 m outs c)
theorem V4_o19 (c : Dev nD) : V4 m outs c main_v82 = V1 m c main_v82 := (V4_of m outs c main_v82 (by decide)).trans (V3_o19 m outs c)
theorem V5_o19 (c : Dev nD) : V5 m outs c main_v82 = V1 m c main_v82 := (V5_of m outs c main_v82 (by decide)).trans (V4_o19 m outs c)
theorem V6_o19 (c : Dev nD) : V6 m outs c main_v82 = V1 m c main_v82 := (V6_of m outs c main_v82 (by decide)).trans (V5_o19 m outs c)
theorem V7_o19 (c : Dev nD) : V7 m outs c main_v82 = V1 m c main_v82 := (V7_of m outs c main_v82 (by decide)).trans (V6_o19 m outs c)
theorem V8_o19 (c : Dev nD) : V8 m outs c main_v82 = V1 m c main_v82 := (V8_of m outs c main_v82 (by decide)).trans (V7_o19 m outs c)
theorem V9_o19 (c : Dev nD) : V9 m outs c main_v82 = V1 m c main_v82 := (V9_of m outs c main_v82 (by decide)).trans (V8_o19 m outs c)
theorem V10_o19 (c : Dev nD) : V10 m outs c main_v82 = V1 m c main_v82 := (V10_of m outs c main_v82 (by decide)).trans (V9_o19 m outs c)
theorem V11_o19 (c : Dev nD) : V11 m outs c main_v82 = V1 m c main_v82 := (V11_of m outs c main_v82 (by decide)).trans (V10_o19 m outs c)
theorem V12_o19 (c : Dev nD) : V12 m outs c main_v82 = V1 m c main_v82 := (V12_of m outs c main_v82 (by decide)).trans (V11_o19 m outs c)
theorem V13_o19 (c : Dev nD) : V13 m outs c main_v82 = V1 m c main_v82 := (V13_of m outs c main_v82 (by decide)).trans (V12_o19 m outs c)
theorem V14_o19 (c : Dev nD) : V14 m outs c main_v82 = V1 m c main_v82 := (V14_of m outs c main_v82 (by decide)).trans (V13_o19 m outs c)
theorem V15_o19 (c : Dev nD) : V15 m outs c main_v82 = V1 m c main_v82 := (V15_of m outs c main_v82 (by decide)).trans (V14_o19 m outs c)
theorem V16_o19 (c : Dev nD) : V16 m outs c main_v82 = V1 m c main_v82 := (V16_of m outs c main_v82 (by decide)).trans (V15_o19 m outs c)
theorem V17_o19 (c : Dev nD) : V17 m outs c main_v82 = V1 m c main_v82 := (V17_of m outs c main_v82 (by decide)).trans (V16_o19 m outs c)
theorem V18_o19 (c : Dev nD) : V18 m outs c main_v82 = V1 m c main_v82 := (V18_of m outs c main_v82 (by decide)).trans (V17_o19 m outs c)
theorem V19_o19 (c : Dev nD) : V19 m outs c main_v82 = V1 m c main_v82 := (V19_of m outs c main_v82 (by decide)).trans (V18_o19 m outs c)
theorem V20_o19 (c : Dev nD) : V20 m outs c main_v82 = V1 m c main_v82 := (V20_of m outs c main_v82 (by decide)).trans (V19_o19 m outs c)
theorem V21_o19 (c : Dev nD) : V21 m outs c main_v82 = V1 m c main_v82 := (V21_of m outs c main_v82 (by decide)).trans (V20_o19 m outs c)
theorem V22_o19 (c : Dev nD) : V22 m outs c main_v82 = V1 m c main_v82 := (V22_of m outs c main_v82 (by decide)).trans (V21_o19 m outs c)
theorem V23_o19 (c : Dev nD) : V23 m outs c main_v82 = V1 m c main_v82 := (V23_of m outs c main_v82 (by decide)).trans (V22_o19 m outs c)
theorem V24_o19 (c : Dev nD) : V24 m outs c main_v82 = V1 m c main_v82 := (V24_of m outs c main_v82 (by decide)).trans (V23_o19 m outs c)
theorem V25_o19 (c : Dev nD) : V25 m outs c main_v82 = V1 m c main_v82 := (V25_of m outs c main_v82 (by decide)).trans (V24_o19 m outs c)
theorem V26_o19 (c : Dev nD) : V26 m outs c main_v82 = V1 m c main_v82 := (V26_of m outs c main_v82 (by decide)).trans (V25_o19 m outs c)
theorem V27_o19 (c : Dev nD) : V27 m outs c main_v82 = V1 m c main_v82 := (V27_of m outs c main_v82 (by decide)).trans (V26_o19 m outs c)
theorem V28_o19 (c : Dev nD) : V28 m outs c main_v82 = V1 m c main_v82 := (V28_of m outs c main_v82 (by decide)).trans (V27_o19 m outs c)
theorem V29_o19 (c : Dev nD) : V29 m outs c main_v82 = V1 m c main_v82 := (V29_of m outs c main_v82 (by decide)).trans (V28_o19 m outs c)
theorem V30_o19 (c : Dev nD) : V30 m outs c main_v82 = V1 m c main_v82 := (V30_of m outs c main_v82 (by decide)).trans (V29_o19 m outs c)
theorem V31_o19 (c : Dev nD) : V31 m outs c main_v82 = V1 m c main_v82 := (V31_of m outs c main_v82 (by decide)).trans (V30_o19 m outs c)
theorem V32_o19 (c : Dev nD) : V32 m outs c main_v82 = V1 m c main_v82 := (V32_of m outs c main_v82 (by decide)).trans (V31_o19 m outs c)
theorem V33_o19 (c : Dev nD) : V33 m outs c main_v82 = V1 m c main_v82 := (V33_of m outs c main_v82 (by decide)).trans (V32_o19 m outs c)
theorem V34_o19 (c : Dev nD) : V34 m outs c main_v82 = V1 m c main_v82 := (V34_of m outs c main_v82 (by decide)).trans (V33_o19 m outs c)
theorem V35_o19 (c : Dev nD) : V35 m outs c main_v82 = V1 m c main_v82 := (V35_of m outs c main_v82 (by decide)).trans (V34_o19 m outs c)
theorem V36_o19 (c : Dev nD) : V36 m outs c main_v82 = V1 m c main_v82 := (V36_of m outs c main_v82 (by decide)).trans (V35_o19 m outs c)
theorem V37_o19 (c : Dev nD) : V37 m outs c main_v82 = V1 m c main_v82 := (V37_of m outs c main_v82 (by decide)).trans (V36_o19 m outs c)
theorem V38_o19 (c : Dev nD) : V38 m outs c main_v82 = V1 m c main_v82 := (V38_of m outs c main_v82 (by decide)).trans (V37_o19 m outs c)
theorem V39_o19 (c : Dev nD) : V39 m outs c main_v82 = V1 m c main_v82 := (V39_of m outs c main_v82 (by decide)).trans (V38_o19 m outs c)
theorem V1_o20 (c : Dev nD) : V1 m c main_v86 = V1 m c main_v86 := rfl
theorem V2_o20 (c : Dev nD) : V2 m outs c main_v86 = V1 m c main_v86 := (V2_of m outs c main_v86 (by decide)).trans (V1_o20 m c)
theorem V3_o20 (c : Dev nD) : V3 m outs c main_v86 = V1 m c main_v86 := (V3_of m outs c main_v86 (by decide)).trans (V2_o20 m outs c)
theorem V4_o20 (c : Dev nD) : V4 m outs c main_v86 = V1 m c main_v86 := (V4_of m outs c main_v86 (by decide)).trans (V3_o20 m outs c)
theorem V5_o20 (c : Dev nD) : V5 m outs c main_v86 = V1 m c main_v86 := (V5_of m outs c main_v86 (by decide)).trans (V4_o20 m outs c)
theorem V6_o20 (c : Dev nD) : V6 m outs c main_v86 = V1 m c main_v86 := (V6_of m outs c main_v86 (by decide)).trans (V5_o20 m outs c)
theorem V7_o20 (c : Dev nD) : V7 m outs c main_v86 = V1 m c main_v86 := (V7_of m outs c main_v86 (by decide)).trans (V6_o20 m outs c)
theorem V8_o20 (c : Dev nD) : V8 m outs c main_v86 = V1 m c main_v86 := (V8_of m outs c main_v86 (by decide)).trans (V7_o20 m outs c)
theorem V9_o20 (c : Dev nD) : V9 m outs c main_v86 = V1 m c main_v86 := (V9_of m outs c main_v86 (by decide)).trans (V8_o20 m outs c)
theorem V10_o20 (c : Dev nD) : V10 m outs c main_v86 = V1 m c main_v86 := (V10_of m outs c main_v86 (by decide)).trans (V9_o20 m outs c)
theorem V11_o20 (c : Dev nD) : V11 m outs c main_v86 = V1 m c main_v86 := (V11_of m outs c main_v86 (by decide)).trans (V10_o20 m outs c)
theorem V12_o20 (c : Dev nD) : V12 m outs c main_v86 = V1 m c main_v86 := (V12_of m outs c main_v86 (by decide)).trans (V11_o20 m outs c)
theorem V13_o20 (c : Dev nD) : V13 m outs c main_v86 = V1 m c main_v86 := (V13_of m outs c main_v86 (by decide)).trans (V12_o20 m outs c)
theorem V14_o20 (c : Dev nD) : V14 m outs c main_v86 = V1 m c main_v86 := (V14_of m outs c main_v86 (by decide)).trans (V13_o20 m outs c)
theorem V15_o20 (c : Dev nD) : V15 m outs c main_v86 = V1 m c main_v86 := (V15_of m outs c main_v86 (by decide)).trans (V14_o20 m outs c)
theorem V16_o20 (c : Dev nD) : V16 m outs c main_v86 = V1 m c main_v86 := (V16_of m outs c main_v86 (by decide)).trans (V15_o20 m outs c)
theorem V17_o20 (c : Dev nD) : V17 m outs c main_v86 = V1 m c main_v86 := (V17_of m outs c main_v86 (by decide)).trans (V16_o20 m outs c)
theorem V18_o20 (c : Dev nD) : V18 m outs c main_v86 = V1 m c main_v86 := (V18_of m outs c main_v86 (by decide)).trans (V17_o20 m outs c)
theorem V19_o20 (c : Dev nD) : V19 m outs c main_v86 = V1 m c main_v86 := (V19_of m outs c main_v86 (by decide)).trans (V18_o20 m outs c)
theorem V20_o20 (c : Dev nD) : V20 m outs c main_v86 = V1 m c main_v86 := (V20_of m outs c main_v86 (by decide)).trans (V19_o20 m outs c)
theorem V21_o20 (c : Dev nD) : V21 m outs c main_v86 = V1 m c main_v86 := (V21_of m outs c main_v86 (by decide)).trans (V20_o20 m outs c)
theorem V22_o20 (c : Dev nD) : V22 m outs c main_v86 = V1 m c main_v86 := (V22_of m outs c main_v86 (by decide)).trans (V21_o20 m outs c)
theorem V23_o20 (c : Dev nD) : V23 m outs c main_v86 = V1 m c main_v86 := (V23_of m outs c main_v86 (by decide)).trans (V22_o20 m outs c)
theorem V24_o20 (c : Dev nD) : V24 m outs c main_v86 = V1 m c main_v86 := (V24_of m outs c main_v86 (by decide)).trans (V23_o20 m outs c)
theorem V25_o20 (c : Dev nD) : V25 m outs c main_v86 = V1 m c main_v86 := (V25_of m outs c main_v86 (by decide)).trans (V24_o20 m outs c)
theorem V26_o20 (c : Dev nD) : V26 m outs c main_v86 = V1 m c main_v86 := (V26_of m outs c main_v86 (by decide)).trans (V25_o20 m outs c)
theorem V27_o20 (c : Dev nD) : V27 m outs c main_v86 = V1 m c main_v86 := (V27_of m outs c main_v86 (by decide)).trans (V26_o20 m outs c)
theorem V28_o20 (c : Dev nD) : V28 m outs c main_v86 = V1 m c main_v86 := (V28_of m outs c main_v86 (by decide)).trans (V27_o20 m outs c)
theorem V29_o20 (c : Dev nD) : V29 m outs c main_v86 = V1 m c main_v86 := (V29_of m outs c main_v86 (by decide)).trans (V28_o20 m outs c)
theorem V30_o20 (c : Dev nD) : V30 m outs c main_v86 = V1 m c main_v86 := (V30_of m outs c main_v86 (by decide)).trans (V29_o20 m outs c)
theorem V31_o20 (c : Dev nD) : V31 m outs c main_v86 = V1 m c main_v86 := (V31_of m outs c main_v86 (by decide)).trans (V30_o20 m outs c)
theorem V32_o20 (c : Dev nD) : V32 m outs c main_v86 = V1 m c main_v86 := (V32_of m outs c main_v86 (by decide)).trans (V31_o20 m outs c)
theorem V33_o20 (c : Dev nD) : V33 m outs c main_v86 = V1 m c main_v86 := (V33_of m outs c main_v86 (by decide)).trans (V32_o20 m outs c)
theorem V34_o20 (c : Dev nD) : V34 m outs c main_v86 = V1 m c main_v86 := (V34_of m outs c main_v86 (by decide)).trans (V33_o20 m outs c)
theorem V35_o20 (c : Dev nD) : V35 m outs c main_v86 = V1 m c main_v86 := (V35_of m outs c main_v86 (by decide)).trans (V34_o20 m outs c)
theorem V36_o20 (c : Dev nD) : V36 m outs c main_v86 = V1 m c main_v86 := (V36_of m outs c main_v86 (by decide)).trans (V35_o20 m outs c)
theorem V37_o20 (c : Dev nD) : V37 m outs c main_v86 = V1 m c main_v86 := (V37_of m outs c main_v86 (by decide)).trans (V36_o20 m outs c)
theorem V38_o20 (c : Dev nD) : V38 m outs c main_v86 = V1 m c main_v86 := (V38_of m outs c main_v86 (by decide)).trans (V37_o20 m outs c)
theorem V39_o20 (c : Dev nD) : V39 m outs c main_v86 = V1 m c main_v86 := (V39_of m outs c main_v86 (by decide)).trans (V38_o20 m outs c)
theorem V40_o20 (c : Dev nD) : V40 m outs c main_v86 = V1 m c main_v86 := (V40_of m outs c main_v86 (by decide)).trans (V39_o20 m outs c)
theorem V41_o20 (c : Dev nD) : V41 m outs c main_v86 = V1 m c main_v86 := (V41_of m outs c main_v86 (by decide)).trans (V40_o20 m outs c)
theorem V1_o21 (c : Dev nD) : V1 m c main_v90 = V1 m c main_v90 := rfl
theorem V2_o21 (c : Dev nD) : V2 m outs c main_v90 = V1 m c main_v90 := (V2_of m outs c main_v90 (by decide)).trans (V1_o21 m c)
theorem V3_o21 (c : Dev nD) : V3 m outs c main_v90 = V1 m c main_v90 := (V3_of m outs c main_v90 (by decide)).trans (V2_o21 m outs c)
theorem V4_o21 (c : Dev nD) : V4 m outs c main_v90 = V1 m c main_v90 := (V4_of m outs c main_v90 (by decide)).trans (V3_o21 m outs c)
theorem V5_o21 (c : Dev nD) : V5 m outs c main_v90 = V1 m c main_v90 := (V5_of m outs c main_v90 (by decide)).trans (V4_o21 m outs c)
theorem V6_o21 (c : Dev nD) : V6 m outs c main_v90 = V1 m c main_v90 := (V6_of m outs c main_v90 (by decide)).trans (V5_o21 m outs c)
theorem V7_o21 (c : Dev nD) : V7 m outs c main_v90 = V1 m c main_v90 := (V7_of m outs c main_v90 (by decide)).trans (V6_o21 m outs c)
theorem V8_o21 (c : Dev nD) : V8 m outs c main_v90 = V1 m c main_v90 := (V8_of m outs c main_v90 (by decide)).trans (V7_o21 m outs c)
theorem V9_o21 (c : Dev nD) : V9 m outs c main_v90 = V1 m c main_v90 := (V9_of m outs c main_v90 (by decide)).trans (V8_o21 m outs c)
theorem V10_o21 (c : Dev nD) : V10 m outs c main_v90 = V1 m c main_v90 := (V10_of m outs c main_v90 (by decide)).trans (V9_o21 m outs c)
theorem V11_o21 (c : Dev nD) : V11 m outs c main_v90 = V1 m c main_v90 := (V11_of m outs c main_v90 (by decide)).trans (V10_o21 m outs c)
theorem V12_o21 (c : Dev nD) : V12 m outs c main_v90 = V1 m c main_v90 := (V12_of m outs c main_v90 (by decide)).trans (V11_o21 m outs c)
theorem V13_o21 (c : Dev nD) : V13 m outs c main_v90 = V1 m c main_v90 := (V13_of m outs c main_v90 (by decide)).trans (V12_o21 m outs c)
theorem V14_o21 (c : Dev nD) : V14 m outs c main_v90 = V1 m c main_v90 := (V14_of m outs c main_v90 (by decide)).trans (V13_o21 m outs c)
theorem V15_o21 (c : Dev nD) : V15 m outs c main_v90 = V1 m c main_v90 := (V15_of m outs c main_v90 (by decide)).trans (V14_o21 m outs c)
theorem V16_o21 (c : Dev nD) : V16 m outs c main_v90 = V1 m c main_v90 := (V16_of m outs c main_v90 (by decide)).trans (V15_o21 m outs c)
theorem V17_o21 (c : Dev nD) : V17 m outs c main_v90 = V1 m c main_v90 := (V17_of m outs c main_v90 (by decide)).trans (V16_o21 m outs c)
theorem V18_o21 (c : Dev nD) : V18 m outs c main_v90 = V1 m c main_v90 := (V18_of m outs c main_v90 (by decide)).trans (V17_o21 m outs c)
theorem V19_o21 (c : Dev nD) : V19 m outs c main_v90 = V1 m c main_v90 := (V19_of m outs c main_v90 (by decide)).trans (V18_o21 m outs c)
theorem V20_o21 (c : Dev nD) : V20 m outs c main_v90 = V1 m c main_v90 := (V20_of m outs c main_v90 (by decide)).trans (V19_o21 m outs c)
theorem V21_o21 (c : Dev nD) : V21 m outs c main_v90 = V1 m c main_v90 := (V21_of m outs c main_v90 (by decide)).trans (V20_o21 m outs c)
theorem V22_o21 (c : Dev nD) : V22 m outs c main_v90 = V1 m c main_v90 := (V22_of m outs c main_v90 (by decide)).trans (V21_o21 m outs c)
theorem V23_o21 (c : Dev nD) : V23 m outs c main_v90 = V1 m c main_v90 := (V23_of m outs c main_v90 (by decide)).trans (V22_o21 m outs c)
theorem V24_o21 (c : Dev nD) : V24 m outs c main_v90 = V1 m c main_v90 := (V24_of m outs c main_v90 (by decide)).trans (V23_o21 m outs c)
theorem V25_o21 (c : Dev nD) : V25 m outs c main_v90 = V1 m c main_v90 := (V25_of m outs c main_v90 (by decide)).trans (V24_o21 m outs c)
theorem V26_o21 (c : Dev nD) : V26 m outs c main_v90 = V1 m c main_v90 := (V26_of m outs c main_v90 (by decide)).trans (V25_o21 m outs c)
theorem V27_o21 (c : Dev nD) : V27 m outs c main_v90 = V1 m c main_v90 := (V27_of m outs c main_v90 (by decide)).trans (V26_o21 m outs c)
theorem V28_o21 (c : Dev nD) : V28 m outs c main_v90 = V1 m c main_v90 := (V28_of m outs c main_v90 (by decide)).trans (V27_o21 m outs c)
theorem V29_o21 (c : Dev nD) : V29 m outs c main_v90 = V1 m c main_v90 := (V29_of m outs c main_v90 (by decide)).trans (V28_o21 m outs c)
theorem V30_o21 (c : Dev nD) : V30 m outs c main_v90 = V1 m c main_v90 := (V30_of m outs c main_v90 (by decide)).trans (V29_o21 m outs c)
theorem V31_o21 (c : Dev nD) : V31 m outs c main_v90 = V1 m c main_v90 := (V31_of m outs c main_v90 (by decide)).trans (V30_o21 m outs c)
theorem V32_o21 (c : Dev nD) : V32 m outs c main_v90 = V1 m c main_v90 := (V32_of m outs c main_v90 (by decide)).trans (V31_o21 m outs c)
theorem V33_o21 (c : Dev nD) : V33 m outs c main_v90 = V1 m c main_v90 := (V33_of m outs c main_v90 (by decide)).trans (V32_o21 m outs c)
theorem V34_o21 (c : Dev nD) : V34 m outs c main_v90 = V1 m c main_v90 := (V34_of m outs c main_v90 (by decide)).trans (V33_o21 m outs c)
theorem V35_o21 (c : Dev nD) : V35 m outs c main_v90 = V1 m c main_v90 := (V35_of m outs c main_v90 (by decide)).trans (V34_o21 m outs c)
theorem V36_o21 (c : Dev nD) : V36 m outs c main_v90 = V1 m c main_v90 := (V36_of m outs c main_v90 (by decide)).trans (V35_o21 m outs c)
theorem V37_o21 (c : Dev nD) : V37 m outs c main_v90 = V1 m c main_v90 := (V37_of m outs c main_v90 (by decide)).trans (V36_o21 m outs c)
theorem V38_o21 (c : Dev nD) : V38 m outs c main_v90 = V1 m c main_v90 := (V38_of m outs c main_v90 (by decide)).trans (V37_o21 m outs c)
theorem V39_o21 (c : Dev nD) : V39 m outs c main_v90 = V1 m c main_v90 := (V39_of m outs c main_v90 (by decide)).trans (V38_o21 m outs c)
theorem V40_o21 (c : Dev nD) : V40 m outs c main_v90 = V1 m c main_v90 := (V40_of m outs c main_v90 (by decide)).trans (V39_o21 m outs c)
theorem V41_o21 (c : Dev nD) : V41 m outs c main_v90 = V1 m c main_v90 := (V41_of m outs c main_v90 (by decide)).trans (V40_o21 m outs c)
theorem V42_o21 (c : Dev nD) : V42 m outs c main_v90 = V1 m c main_v90 := (V42_of m outs c main_v90 (by decide)).trans (V41_o21 m outs c)
theorem V43_o21 (c : Dev nD) : V43 m outs c main_v90 = V1 m c main_v90 := (V43_of m outs c main_v90 (by decide)).trans (V42_o21 m outs c)
theorem V1_o22 (c : Dev nD) : V1 m c main_v94 = V1 m c main_v94 := rfl
theorem V2_o22 (c : Dev nD) : V2 m outs c main_v94 = V1 m c main_v94 := (V2_of m outs c main_v94 (by decide)).trans (V1_o22 m c)
theorem V3_o22 (c : Dev nD) : V3 m outs c main_v94 = V1 m c main_v94 := (V3_of m outs c main_v94 (by decide)).trans (V2_o22 m outs c)
theorem V4_o22 (c : Dev nD) : V4 m outs c main_v94 = V1 m c main_v94 := (V4_of m outs c main_v94 (by decide)).trans (V3_o22 m outs c)
theorem V5_o22 (c : Dev nD) : V5 m outs c main_v94 = V1 m c main_v94 := (V5_of m outs c main_v94 (by decide)).trans (V4_o22 m outs c)
theorem V6_o22 (c : Dev nD) : V6 m outs c main_v94 = V1 m c main_v94 := (V6_of m outs c main_v94 (by decide)).trans (V5_o22 m outs c)
theorem V7_o22 (c : Dev nD) : V7 m outs c main_v94 = V1 m c main_v94 := (V7_of m outs c main_v94 (by decide)).trans (V6_o22 m outs c)
theorem V8_o22 (c : Dev nD) : V8 m outs c main_v94 = V1 m c main_v94 := (V8_of m outs c main_v94 (by decide)).trans (V7_o22 m outs c)
theorem V9_o22 (c : Dev nD) : V9 m outs c main_v94 = V1 m c main_v94 := (V9_of m outs c main_v94 (by decide)).trans (V8_o22 m outs c)
theorem V10_o22 (c : Dev nD) : V10 m outs c main_v94 = V1 m c main_v94 := (V10_of m outs c main_v94 (by decide)).trans (V9_o22 m outs c)
theorem V11_o22 (c : Dev nD) : V11 m outs c main_v94 = V1 m c main_v94 := (V11_of m outs c main_v94 (by decide)).trans (V10_o22 m outs c)
theorem V12_o22 (c : Dev nD) : V12 m outs c main_v94 = V1 m c main_v94 := (V12_of m outs c main_v94 (by decide)).trans (V11_o22 m outs c)
theorem V13_o22 (c : Dev nD) : V13 m outs c main_v94 = V1 m c main_v94 := (V13_of m outs c main_v94 (by decide)).trans (V12_o22 m outs c)
theorem V14_o22 (c : Dev nD) : V14 m outs c main_v94 = V1 m c main_v94 := (V14_of m outs c main_v94 (by decide)).trans (V13_o22 m outs c)
theorem V15_o22 (c : Dev nD) : V15 m outs c main_v94 = V1 m c main_v94 := (V15_of m outs c main_v94 (by decide)).trans (V14_o22 m outs c)
theorem V16_o22 (c : Dev nD) : V16 m outs c main_v94 = V1 m c main_v94 := (V16_of m outs c main_v94 (by decide)).trans (V15_o22 m outs c)
theorem V17_o22 (c : Dev nD) : V17 m outs c main_v94 = V1 m c main_v94 := (V17_of m outs c main_v94 (by decide)).trans (V16_o22 m outs c)
theorem V18_o22 (c : Dev nD) : V18 m outs c main_v94 = V1 m c main_v94 := (V18_of m outs c main_v94 (by decide)).trans (V17_o22 m outs c)
theorem V19_o22 (c : Dev nD) : V19 m outs c main_v94 = V1 m c main_v94 := (V19_of m outs c main_v94 (by decide)).trans (V18_o22 m outs c)
theorem V20_o22 (c : Dev nD) : V20 m outs c main_v94 = V1 m c main_v94 := (V20_of m outs c main_v94 (by decide)).trans (V19_o22 m outs c)
theorem V21_o22 (c : Dev nD) : V21 m outs c main_v94 = V1 m c main_v94 := (V21_of m outs c main_v94 (by decide)).trans (V20_o22 m outs c)
theorem V22_o22 (c : Dev nD) : V22 m outs c main_v94 = V1 m c main_v94 := (V22_of m outs c main_v94 (by decide)).trans (V21_o22 m outs c)
theorem V23_o22 (c : Dev nD) : V23 m outs c main_v94 = V1 m c main_v94 := (V23_of m outs c main_v94 (by decide)).trans (V22_o22 m outs c)
theorem V24_o22 (c : Dev nD) : V24 m outs c main_v94 = V1 m c main_v94 := (V24_of m outs c main_v94 (by decide)).trans (V23_o22 m outs c)
theorem V25_o22 (c : Dev nD) : V25 m outs c main_v94 = V1 m c main_v94 := (V25_of m outs c main_v94 (by decide)).trans (V24_o22 m outs c)
theorem V26_o22 (c : Dev nD) : V26 m outs c main_v94 = V1 m c main_v94 := (V26_of m outs c main_v94 (by decide)).trans (V25_o22 m outs c)
theorem V27_o22 (c : Dev nD) : V27 m outs c main_v94 = V1 m c main_v94 := (V27_of m outs c main_v94 (by decide)).trans (V26_o22 m outs c)
theorem V28_o22 (c : Dev nD) : V28 m outs c main_v94 = V1 m c main_v94 := (V28_of m outs c main_v94 (by decide)).trans (V27_o22 m outs c)
theorem V29_o22 (c : Dev nD) : V29 m outs c main_v94 = V1 m c main_v94 := (V29_of m outs c main_v94 (by decide)).trans (V28_o22 m outs c)
theorem V30_o22 (c : Dev nD) : V30 m outs c main_v94 = V1 m c main_v94 := (V30_of m outs c main_v94 (by decide)).trans (V29_o22 m outs c)
theorem V31_o22 (c : Dev nD) : V31 m outs c main_v94 = V1 m c main_v94 := (V31_of m outs c main_v94 (by decide)).trans (V30_o22 m outs c)
theorem V32_o22 (c : Dev nD) : V32 m outs c main_v94 = V1 m c main_v94 := (V32_of m outs c main_v94 (by decide)).trans (V31_o22 m outs c)
theorem V33_o22 (c : Dev nD) : V33 m outs c main_v94 = V1 m c main_v94 := (V33_of m outs c main_v94 (by decide)).trans (V32_o22 m outs c)
theorem V34_o22 (c : Dev nD) : V34 m outs c main_v94 = V1 m c main_v94 := (V34_of m outs c main_v94 (by decide)).trans (V33_o22 m outs c)
theorem V35_o22 (c : Dev nD) : V35 m outs c main_v94 = V1 m c main_v94 := (V35_of m outs c main_v94 (by decide)).trans (V34_o22 m outs c)
theorem V36_o22 (c : Dev nD) : V36 m outs c main_v94 = V1 m c main_v94 := (V36_of m outs c main_v94 (by decide)).trans (V35_o22 m outs c)
theorem V37_o22 (c : Dev nD) : V37 m outs c main_v94 = V1 m c main_v94 := (V37_of m outs c main_v94 (by decide)).trans (V36_o22 m outs c)
theorem V38_o22 (c : Dev nD) : V38 m outs c main_v94 = V1 m c main_v94 := (V38_of m outs c main_v94 (by decide)).trans (V37_o22 m outs c)
theorem V39_o22 (c : Dev nD) : V39 m outs c main_v94 = V1 m c main_v94 := (V39_of m outs c main_v94 (by decide)).trans (V38_o22 m outs c)
theorem V40_o22 (c : Dev nD) : V40 m outs c main_v94 = V1 m c main_v94 := (V40_of m outs c main_v94 (by decide)).trans (V39_o22 m outs c)
theorem V41_o22 (c : Dev nD) : V41 m outs c main_v94 = V1 m c main_v94 := (V41_of m outs c main_v94 (by decide)).trans (V40_o22 m outs c)
theorem V42_o22 (c : Dev nD) : V42 m outs c main_v94 = V1 m c main_v94 := (V42_of m outs c main_v94 (by decide)).trans (V41_o22 m outs c)
theorem V43_o22 (c : Dev nD) : V43 m outs c main_v94 = V1 m c main_v94 := (V43_of m outs c main_v94 (by decide)).trans (V42_o22 m outs c)
theorem V44_o22 (c : Dev nD) : V44 m outs c main_v94 = V1 m c main_v94 := (V44_of m outs c main_v94 (by decide)).trans (V43_o22 m outs c)
theorem V45_o22 (c : Dev nD) : V45 m outs c main_v94 = V1 m c main_v94 := (V45_of m outs c main_v94 (by decide)).trans (V44_o22 m outs c)
theorem V1_o23 (c : Dev nD) : V1 m c main_v98 = V1 m c main_v98 := rfl
theorem V2_o23 (c : Dev nD) : V2 m outs c main_v98 = V1 m c main_v98 := (V2_of m outs c main_v98 (by decide)).trans (V1_o23 m c)
theorem V3_o23 (c : Dev nD) : V3 m outs c main_v98 = V1 m c main_v98 := (V3_of m outs c main_v98 (by decide)).trans (V2_o23 m outs c)
theorem V4_o23 (c : Dev nD) : V4 m outs c main_v98 = V1 m c main_v98 := (V4_of m outs c main_v98 (by decide)).trans (V3_o23 m outs c)
theorem V5_o23 (c : Dev nD) : V5 m outs c main_v98 = V1 m c main_v98 := (V5_of m outs c main_v98 (by decide)).trans (V4_o23 m outs c)
theorem V6_o23 (c : Dev nD) : V6 m outs c main_v98 = V1 m c main_v98 := (V6_of m outs c main_v98 (by decide)).trans (V5_o23 m outs c)
theorem V7_o23 (c : Dev nD) : V7 m outs c main_v98 = V1 m c main_v98 := (V7_of m outs c main_v98 (by decide)).trans (V6_o23 m outs c)
theorem V8_o23 (c : Dev nD) : V8 m outs c main_v98 = V1 m c main_v98 := (V8_of m outs c main_v98 (by decide)).trans (V7_o23 m outs c)
theorem V9_o23 (c : Dev nD) : V9 m outs c main_v98 = V1 m c main_v98 := (V9_of m outs c main_v98 (by decide)).trans (V8_o23 m outs c)
theorem V10_o23 (c : Dev nD) : V10 m outs c main_v98 = V1 m c main_v98 := (V10_of m outs c main_v98 (by decide)).trans (V9_o23 m outs c)
theorem V11_o23 (c : Dev nD) : V11 m outs c main_v98 = V1 m c main_v98 := (V11_of m outs c main_v98 (by decide)).trans (V10_o23 m outs c)
theorem V12_o23 (c : Dev nD) : V12 m outs c main_v98 = V1 m c main_v98 := (V12_of m outs c main_v98 (by decide)).trans (V11_o23 m outs c)
theorem V13_o23 (c : Dev nD) : V13 m outs c main_v98 = V1 m c main_v98 := (V13_of m outs c main_v98 (by decide)).trans (V12_o23 m outs c)
theorem V14_o23 (c : Dev nD) : V14 m outs c main_v98 = V1 m c main_v98 := (V14_of m outs c main_v98 (by decide)).trans (V13_o23 m outs c)
theorem V15_o23 (c : Dev nD) : V15 m outs c main_v98 = V1 m c main_v98 := (V15_of m outs c main_v98 (by decide)).trans (V14_o23 m outs c)
theorem V16_o23 (c : Dev nD) : V16 m outs c main_v98 = V1 m c main_v98 := (V16_of m outs c main_v98 (by decide)).trans (V15_o23 m outs c)
theorem V17_o23 (c : Dev nD) : V17 m outs c main_v98 = V1 m c main_v98 := (V17_of m outs c main_v98 (by decide)).trans (V16_o23 m outs c)
theorem V18_o23 (c : Dev nD) : V18 m outs c main_v98 = V1 m c main_v98 := (V18_of m outs c main_v98 (by decide)).trans (V17_o23 m outs c)
theorem V19_o23 (c : Dev nD) : V19 m outs c main_v98 = V1 m c main_v98 := (V19_of m outs c main_v98 (by decide)).trans (V18_o23 m outs c)
theorem V20_o23 (c : Dev nD) : V20 m outs c main_v98 = V1 m c main_v98 := (V20_of m outs c main_v98 (by decide)).trans (V19_o23 m outs c)
theorem V21_o23 (c : Dev nD) : V21 m outs c main_v98 = V1 m c main_v98 := (V21_of m outs c main_v98 (by decide)).trans (V20_o23 m outs c)
theorem V22_o23 (c : Dev nD) : V22 m outs c main_v98 = V1 m c main_v98 := (V22_of m outs c main_v98 (by decide)).trans (V21_o23 m outs c)
theorem V23_o23 (c : Dev nD) : V23 m outs c main_v98 = V1 m c main_v98 := (V23_of m outs c main_v98 (by decide)).trans (V22_o23 m outs c)
theorem V24_o23 (c : Dev nD) : V24 m outs c main_v98 = V1 m c main_v98 := (V24_of m outs c main_v98 (by decide)).trans (V23_o23 m outs c)
theorem V25_o23 (c : Dev nD) : V25 m outs c main_v98 = V1 m c main_v98 := (V25_of m outs c main_v98 (by decide)).trans (V24_o23 m outs c)
theorem V26_o23 (c : Dev nD) : V26 m outs c main_v98 = V1 m c main_v98 := (V26_of m outs c main_v98 (by decide)).trans (V25_o23 m outs c)
theorem V27_o23 (c : Dev nD) : V27 m outs c main_v98 = V1 m c main_v98 := (V27_of m outs c main_v98 (by decide)).trans (V26_o23 m outs c)
theorem V28_o23 (c : Dev nD) : V28 m outs c main_v98 = V1 m c main_v98 := (V28_of m outs c main_v98 (by decide)).trans (V27_o23 m outs c)
theorem V29_o23 (c : Dev nD) : V29 m outs c main_v98 = V1 m c main_v98 := (V29_of m outs c main_v98 (by decide)).trans (V28_o23 m outs c)
theorem V30_o23 (c : Dev nD) : V30 m outs c main_v98 = V1 m c main_v98 := (V30_of m outs c main_v98 (by decide)).trans (V29_o23 m outs c)
theorem V31_o23 (c : Dev nD) : V31 m outs c main_v98 = V1 m c main_v98 := (V31_of m outs c main_v98 (by decide)).trans (V30_o23 m outs c)
theorem V32_o23 (c : Dev nD) : V32 m outs c main_v98 = V1 m c main_v98 := (V32_of m outs c main_v98 (by decide)).trans (V31_o23 m outs c)
theorem V33_o23 (c : Dev nD) : V33 m outs c main_v98 = V1 m c main_v98 := (V33_of m outs c main_v98 (by decide)).trans (V32_o23 m outs c)
theorem V34_o23 (c : Dev nD) : V34 m outs c main_v98 = V1 m c main_v98 := (V34_of m outs c main_v98 (by decide)).trans (V33_o23 m outs c)
theorem V35_o23 (c : Dev nD) : V35 m outs c main_v98 = V1 m c main_v98 := (V35_of m outs c main_v98 (by decide)).trans (V34_o23 m outs c)
theorem V36_o23 (c : Dev nD) : V36 m outs c main_v98 = V1 m c main_v98 := (V36_of m outs c main_v98 (by decide)).trans (V35_o23 m outs c)
theorem V37_o23 (c : Dev nD) : V37 m outs c main_v98 = V1 m c main_v98 := (V37_of m outs c main_v98 (by decide)).trans (V36_o23 m outs c)
theorem V38_o23 (c : Dev nD) : V38 m outs c main_v98 = V1 m c main_v98 := (V38_of m outs c main_v98 (by decide)).trans (V37_o23 m outs c)
theorem V39_o23 (c : Dev nD) : V39 m outs c main_v98 = V1 m c main_v98 := (V39_of m outs c main_v98 (by decide)).trans (V38_o23 m outs c)
theorem V40_o23 (c : Dev nD) : V40 m outs c main_v98 = V1 m c main_v98 := (V40_of m outs c main_v98 (by decide)).trans (V39_o23 m outs c)
theorem V41_o23 (c : Dev nD) : V41 m outs c main_v98 = V1 m c main_v98 := (V41_of m outs c main_v98 (by decide)).trans (V40_o23 m outs c)
theorem V42_o23 (c : Dev nD) : V42 m outs c main_v98 = V1 m c main_v98 := (V42_of m outs c main_v98 (by decide)).trans (V41_o23 m outs c)
theorem V43_o23 (c : Dev nD) : V43 m outs c main_v98 = V1 m c main_v98 := (V43_of m outs c main_v98 (by decide)).trans (V42_o23 m outs c)
theorem V44_o23 (c : Dev nD) : V44 m outs c main_v98 = V1 m c main_v98 := (V44_of m outs c main_v98 (by decide)).trans (V43_o23 m outs c)
theorem V45_o23 (c : Dev nD) : V45 m outs c main_v98 = V1 m c main_v98 := (V45_of m outs c main_v98 (by decide)).trans (V44_o23 m outs c)
theorem V46_o23 (c : Dev nD) : V46 m outs c main_v98 = V1 m c main_v98 := (V46_of m outs c main_v98 (by decide)).trans (V45_o23 m outs c)
theorem V47_o23 (c : Dev nD) : V47 m outs c main_v98 = V1 m c main_v98 := (V47_of m outs c main_v98 (by decide)).trans (V46_o23 m outs c)
theorem V1_o24 (c : Dev nD) : V1 m c main_v102 = V1 m c main_v102 := rfl
theorem V2_o24 (c : Dev nD) : V2 m outs c main_v102 = V1 m c main_v102 := (V2_of m outs c main_v102 (by decide)).trans (V1_o24 m c)
theorem V3_o24 (c : Dev nD) : V3 m outs c main_v102 = V1 m c main_v102 := (V3_of m outs c main_v102 (by decide)).trans (V2_o24 m outs c)
theorem V4_o24 (c : Dev nD) : V4 m outs c main_v102 = V1 m c main_v102 := (V4_of m outs c main_v102 (by decide)).trans (V3_o24 m outs c)
theorem V5_o24 (c : Dev nD) : V5 m outs c main_v102 = V1 m c main_v102 := (V5_of m outs c main_v102 (by decide)).trans (V4_o24 m outs c)
theorem V6_o24 (c : Dev nD) : V6 m outs c main_v102 = V1 m c main_v102 := (V6_of m outs c main_v102 (by decide)).trans (V5_o24 m outs c)
theorem V7_o24 (c : Dev nD) : V7 m outs c main_v102 = V1 m c main_v102 := (V7_of m outs c main_v102 (by decide)).trans (V6_o24 m outs c)
theorem V8_o24 (c : Dev nD) : V8 m outs c main_v102 = V1 m c main_v102 := (V8_of m outs c main_v102 (by decide)).trans (V7_o24 m outs c)
theorem V9_o24 (c : Dev nD) : V9 m outs c main_v102 = V1 m c main_v102 := (V9_of m outs c main_v102 (by decide)).trans (V8_o24 m outs c)
theorem V10_o24 (c : Dev nD) : V10 m outs c main_v102 = V1 m c main_v102 := (V10_of m outs c main_v102 (by decide)).trans (V9_o24 m outs c)
theorem V11_o24 (c : Dev nD) : V11 m outs c main_v102 = V1 m c main_v102 := (V11_of m outs c main_v102 (by decide)).trans (V10_o24 m outs c)
theorem V12_o24 (c : Dev nD) : V12 m outs c main_v102 = V1 m c main_v102 := (V12_of m outs c main_v102 (by decide)).trans (V11_o24 m outs c)
theorem V13_o24 (c : Dev nD) : V13 m outs c main_v102 = V1 m c main_v102 := (V13_of m outs c main_v102 (by decide)).trans (V12_o24 m outs c)
theorem V14_o24 (c : Dev nD) : V14 m outs c main_v102 = V1 m c main_v102 := (V14_of m outs c main_v102 (by decide)).trans (V13_o24 m outs c)
theorem V15_o24 (c : Dev nD) : V15 m outs c main_v102 = V1 m c main_v102 := (V15_of m outs c main_v102 (by decide)).trans (V14_o24 m outs c)
theorem V16_o24 (c : Dev nD) : V16 m outs c main_v102 = V1 m c main_v102 := (V16_of m outs c main_v102 (by decide)).trans (V15_o24 m outs c)
theorem V17_o24 (c : Dev nD) : V17 m outs c main_v102 = V1 m c main_v102 := (V17_of m outs c main_v102 (by decide)).trans (V16_o24 m outs c)
theorem V18_o24 (c : Dev nD) : V18 m outs c main_v102 = V1 m c main_v102 := (V18_of m outs c main_v102 (by decide)).trans (V17_o24 m outs c)
theorem V19_o24 (c : Dev nD) : V19 m outs c main_v102 = V1 m c main_v102 := (V19_of m outs c main_v102 (by decide)).trans (V18_o24 m outs c)
theorem V20_o24 (c : Dev nD) : V20 m outs c main_v102 = V1 m c main_v102 := (V20_of m outs c main_v102 (by decide)).trans (V19_o24 m outs c)
theorem V21_o24 (c : Dev nD) : V21 m outs c main_v102 = V1 m c main_v102 := (V21_of m outs c main_v102 (by decide)).trans (V20_o24 m outs c)
theorem V22_o24 (c : Dev nD) : V22 m outs c main_v102 = V1 m c main_v102 := (V22_of m outs c main_v102 (by decide)).trans (V21_o24 m outs c)
theorem V23_o24 (c : Dev nD) : V23 m outs c main_v102 = V1 m c main_v102 := (V23_of m outs c main_v102 (by decide)).trans (V22_o24 m outs c)
theorem V24_o24 (c : Dev nD) : V24 m outs c main_v102 = V1 m c main_v102 := (V24_of m outs c main_v102 (by decide)).trans (V23_o24 m outs c)
theorem V25_o24 (c : Dev nD) : V25 m outs c main_v102 = V1 m c main_v102 := (V25_of m outs c main_v102 (by decide)).trans (V24_o24 m outs c)
theorem V26_o24 (c : Dev nD) : V26 m outs c main_v102 = V1 m c main_v102 := (V26_of m outs c main_v102 (by decide)).trans (V25_o24 m outs c)
theorem V27_o24 (c : Dev nD) : V27 m outs c main_v102 = V1 m c main_v102 := (V27_of m outs c main_v102 (by decide)).trans (V26_o24 m outs c)
theorem V28_o24 (c : Dev nD) : V28 m outs c main_v102 = V1 m c main_v102 := (V28_of m outs c main_v102 (by decide)).trans (V27_o24 m outs c)
theorem V29_o24 (c : Dev nD) : V29 m outs c main_v102 = V1 m c main_v102 := (V29_of m outs c main_v102 (by decide)).trans (V28_o24 m outs c)
theorem V30_o24 (c : Dev nD) : V30 m outs c main_v102 = V1 m c main_v102 := (V30_of m outs c main_v102 (by decide)).trans (V29_o24 m outs c)
theorem V31_o24 (c : Dev nD) : V31 m outs c main_v102 = V1 m c main_v102 := (V31_of m outs c main_v102 (by decide)).trans (V30_o24 m outs c)
theorem V32_o24 (c : Dev nD) : V32 m outs c main_v102 = V1 m c main_v102 := (V32_of m outs c main_v102 (by decide)).trans (V31_o24 m outs c)
theorem V33_o24 (c : Dev nD) : V33 m outs c main_v102 = V1 m c main_v102 := (V33_of m outs c main_v102 (by decide)).trans (V32_o24 m outs c)
theorem V34_o24 (c : Dev nD) : V34 m outs c main_v102 = V1 m c main_v102 := (V34_of m outs c main_v102 (by decide)).trans (V33_o24 m outs c)
theorem V35_o24 (c : Dev nD) : V35 m outs c main_v102 = V1 m c main_v102 := (V35_of m outs c main_v102 (by decide)).trans (V34_o24 m outs c)
theorem V36_o24 (c : Dev nD) : V36 m outs c main_v102 = V1 m c main_v102 := (V36_of m outs c main_v102 (by decide)).trans (V35_o24 m outs c)
theorem V37_o24 (c : Dev nD) : V37 m outs c main_v102 = V1 m c main_v102 := (V37_of m outs c main_v102 (by decide)).trans (V36_o24 m outs c)
theorem V38_o24 (c : Dev nD) : V38 m outs c main_v102 = V1 m c main_v102 := (V38_of m outs c main_v102 (by decide)).trans (V37_o24 m outs c)
theorem V39_o24 (c : Dev nD) : V39 m outs c main_v102 = V1 m c main_v102 := (V39_of m outs c main_v102 (by decide)).trans (V38_o24 m outs c)
theorem V40_o24 (c : Dev nD) : V40 m outs c main_v102 = V1 m c main_v102 := (V40_of m outs c main_v102 (by decide)).trans (V39_o24 m outs c)
theorem V41_o24 (c : Dev nD) : V41 m outs c main_v102 = V1 m c main_v102 := (V41_of m outs c main_v102 (by decide)).trans (V40_o24 m outs c)
theorem V42_o24 (c : Dev nD) : V42 m outs c main_v102 = V1 m c main_v102 := (V42_of m outs c main_v102 (by decide)).trans (V41_o24 m outs c)
theorem V43_o24 (c : Dev nD) : V43 m outs c main_v102 = V1 m c main_v102 := (V43_of m outs c main_v102 (by decide)).trans (V42_o24 m outs c)
theorem V44_o24 (c : Dev nD) : V44 m outs c main_v102 = V1 m c main_v102 := (V44_of m outs c main_v102 (by decide)).trans (V43_o24 m outs c)
theorem V45_o24 (c : Dev nD) : V45 m outs c main_v102 = V1 m c main_v102 := (V45_of m outs c main_v102 (by decide)).trans (V44_o24 m outs c)
theorem V46_o24 (c : Dev nD) : V46 m outs c main_v102 = V1 m c main_v102 := (V46_of m outs c main_v102 (by decide)).trans (V45_o24 m outs c)
theorem V47_o24 (c : Dev nD) : V47 m outs c main_v102 = V1 m c main_v102 := (V47_of m outs c main_v102 (by decide)).trans (V46_o24 m outs c)
theorem V48_o24 (c : Dev nD) : V48 m outs c main_v102 = V1 m c main_v102 := (V48_of m outs c main_v102 (by decide)).trans (V47_o24 m outs c)
theorem V49_o24 (c : Dev nD) : V49 m outs c main_v102 = V1 m c main_v102 := (V49_of m outs c main_v102 (by decide)).trans (V48_o24 m outs c)
theorem V1_o25 (c : Dev nD) : V1 m c main_v106 = V1 m c main_v106 := rfl
theorem V2_o25 (c : Dev nD) : V2 m outs c main_v106 = V1 m c main_v106 := (V2_of m outs c main_v106 (by decide)).trans (V1_o25 m c)
theorem V3_o25 (c : Dev nD) : V3 m outs c main_v106 = V1 m c main_v106 := (V3_of m outs c main_v106 (by decide)).trans (V2_o25 m outs c)
theorem V4_o25 (c : Dev nD) : V4 m outs c main_v106 = V1 m c main_v106 := (V4_of m outs c main_v106 (by decide)).trans (V3_o25 m outs c)
theorem V5_o25 (c : Dev nD) : V5 m outs c main_v106 = V1 m c main_v106 := (V5_of m outs c main_v106 (by decide)).trans (V4_o25 m outs c)
theorem V6_o25 (c : Dev nD) : V6 m outs c main_v106 = V1 m c main_v106 := (V6_of m outs c main_v106 (by decide)).trans (V5_o25 m outs c)
theorem V7_o25 (c : Dev nD) : V7 m outs c main_v106 = V1 m c main_v106 := (V7_of m outs c main_v106 (by decide)).trans (V6_o25 m outs c)
theorem V8_o25 (c : Dev nD) : V8 m outs c main_v106 = V1 m c main_v106 := (V8_of m outs c main_v106 (by decide)).trans (V7_o25 m outs c)
theorem V9_o25 (c : Dev nD) : V9 m outs c main_v106 = V1 m c main_v106 := (V9_of m outs c main_v106 (by decide)).trans (V8_o25 m outs c)
theorem V10_o25 (c : Dev nD) : V10 m outs c main_v106 = V1 m c main_v106 := (V10_of m outs c main_v106 (by decide)).trans (V9_o25 m outs c)
theorem V11_o25 (c : Dev nD) : V11 m outs c main_v106 = V1 m c main_v106 := (V11_of m outs c main_v106 (by decide)).trans (V10_o25 m outs c)
theorem V12_o25 (c : Dev nD) : V12 m outs c main_v106 = V1 m c main_v106 := (V12_of m outs c main_v106 (by decide)).trans (V11_o25 m outs c)
theorem V13_o25 (c : Dev nD) : V13 m outs c main_v106 = V1 m c main_v106 := (V13_of m outs c main_v106 (by decide)).trans (V12_o25 m outs c)
theorem V14_o25 (c : Dev nD) : V14 m outs c main_v106 = V1 m c main_v106 := (V14_of m outs c main_v106 (by decide)).trans (V13_o25 m outs c)
theorem V15_o25 (c : Dev nD) : V15 m outs c main_v106 = V1 m c main_v106 := (V15_of m outs c main_v106 (by decide)).trans (V14_o25 m outs c)
theorem V16_o25 (c : Dev nD) : V16 m outs c main_v106 = V1 m c main_v106 := (V16_of m outs c main_v106 (by decide)).trans (V15_o25 m outs c)
theorem V17_o25 (c : Dev nD) : V17 m outs c main_v106 = V1 m c main_v106 := (V17_of m outs c main_v106 (by decide)).trans (V16_o25 m outs c)
theorem V18_o25 (c : Dev nD) : V18 m outs c main_v106 = V1 m c main_v106 := (V18_of m outs c main_v106 (by decide)).trans (V17_o25 m outs c)
theorem V19_o25 (c : Dev nD) : V19 m outs c main_v106 = V1 m c main_v106 := (V19_of m outs c main_v106 (by decide)).trans (V18_o25 m outs c)
theorem V20_o25 (c : Dev nD) : V20 m outs c main_v106 = V1 m c main_v106 := (V20_of m outs c main_v106 (by decide)).trans (V19_o25 m outs c)
theorem V21_o25 (c : Dev nD) : V21 m outs c main_v106 = V1 m c main_v106 := (V21_of m outs c main_v106 (by decide)).trans (V20_o25 m outs c)
theorem V22_o25 (c : Dev nD) : V22 m outs c main_v106 = V1 m c main_v106 := (V22_of m outs c main_v106 (by decide)).trans (V21_o25 m outs c)
theorem V23_o25 (c : Dev nD) : V23 m outs c main_v106 = V1 m c main_v106 := (V23_of m outs c main_v106 (by decide)).trans (V22_o25 m outs c)
theorem V24_o25 (c : Dev nD) : V24 m outs c main_v106 = V1 m c main_v106 := (V24_of m outs c main_v106 (by decide)).trans (V23_o25 m outs c)
theorem V25_o25 (c : Dev nD) : V25 m outs c main_v106 = V1 m c main_v106 := (V25_of m outs c main_v106 (by decide)).trans (V24_o25 m outs c)
theorem V26_o25 (c : Dev nD) : V26 m outs c main_v106 = V1 m c main_v106 := (V26_of m outs c main_v106 (by decide)).trans (V25_o25 m outs c)
theorem V27_o25 (c : Dev nD) : V27 m outs c main_v106 = V1 m c main_v106 := (V27_of m outs c main_v106 (by decide)).trans (V26_o25 m outs c)
theorem V28_o25 (c : Dev nD) : V28 m outs c main_v106 = V1 m c main_v106 := (V28_of m outs c main_v106 (by decide)).trans (V27_o25 m outs c)
theorem V29_o25 (c : Dev nD) : V29 m outs c main_v106 = V1 m c main_v106 := (V29_of m outs c main_v106 (by decide)).trans (V28_o25 m outs c)
theorem V30_o25 (c : Dev nD) : V30 m outs c main_v106 = V1 m c main_v106 := (V30_of m outs c main_v106 (by decide)).trans (V29_o25 m outs c)
theorem V31_o25 (c : Dev nD) : V31 m outs c main_v106 = V1 m c main_v106 := (V31_of m outs c main_v106 (by decide)).trans (V30_o25 m outs c)
theorem V32_o25 (c : Dev nD) : V32 m outs c main_v106 = V1 m c main_v106 := (V32_of m outs c main_v106 (by decide)).trans (V31_o25 m outs c)
theorem V33_o25 (c : Dev nD) : V33 m outs c main_v106 = V1 m c main_v106 := (V33_of m outs c main_v106 (by decide)).trans (V32_o25 m outs c)
theorem V34_o25 (c : Dev nD) : V34 m outs c main_v106 = V1 m c main_v106 := (V34_of m outs c main_v106 (by decide)).trans (V33_o25 m outs c)
theorem V35_o25 (c : Dev nD) : V35 m outs c main_v106 = V1 m c main_v106 := (V35_of m outs c main_v106 (by decide)).trans (V34_o25 m outs c)
theorem V36_o25 (c : Dev nD) : V36 m outs c main_v106 = V1 m c main_v106 := (V36_of m outs c main_v106 (by decide)).trans (V35_o25 m outs c)
theorem V37_o25 (c : Dev nD) : V37 m outs c main_v106 = V1 m c main_v106 := (V37_of m outs c main_v106 (by decide)).trans (V36_o25 m outs c)
theorem V38_o25 (c : Dev nD) : V38 m outs c main_v106 = V1 m c main_v106 := (V38_of m outs c main_v106 (by decide)).trans (V37_o25 m outs c)
theorem V39_o25 (c : Dev nD) : V39 m outs c main_v106 = V1 m c main_v106 := (V39_of m outs c main_v106 (by decide)).trans (V38_o25 m outs c)
theorem V40_o25 (c : Dev nD) : V40 m outs c main_v106 = V1 m c main_v106 := (V40_of m outs c main_v106 (by decide)).trans (V39_o25 m outs c)
theorem V41_o25 (c : Dev nD) : V41 m outs c main_v106 = V1 m c main_v106 := (V41_of m outs c main_v106 (by decide)).trans (V40_o25 m outs c)
theorem V42_o25 (c : Dev nD) : V42 m outs c main_v106 = V1 m c main_v106 := (V42_of m outs c main_v106 (by decide)).trans (V41_o25 m outs c)
theorem V43_o25 (c : Dev nD) : V43 m outs c main_v106 = V1 m c main_v106 := (V43_of m outs c main_v106 (by decide)).trans (V42_o25 m outs c)
theorem V44_o25 (c : Dev nD) : V44 m outs c main_v106 = V1 m c main_v106 := (V44_of m outs c main_v106 (by decide)).trans (V43_o25 m outs c)
theorem V45_o25 (c : Dev nD) : V45 m outs c main_v106 = V1 m c main_v106 := (V45_of m outs c main_v106 (by decide)).trans (V44_o25 m outs c)
theorem V46_o25 (c : Dev nD) : V46 m outs c main_v106 = V1 m c main_v106 := (V46_of m outs c main_v106 (by decide)).trans (V45_o25 m outs c)
theorem V47_o25 (c : Dev nD) : V47 m outs c main_v106 = V1 m c main_v106 := (V47_of m outs c main_v106 (by decide)).trans (V46_o25 m outs c)
theorem V48_o25 (c : Dev nD) : V48 m outs c main_v106 = V1 m c main_v106 := (V48_of m outs c main_v106 (by decide)).trans (V47_o25 m outs c)
theorem V49_o25 (c : Dev nD) : V49 m outs c main_v106 = V1 m c main_v106 := (V49_of m outs c main_v106 (by decide)).trans (V48_o25 m outs c)
theorem V50_o25 (c : Dev nD) : V50 m outs c main_v106 = V1 m c main_v106 := (V50_of m outs c main_v106 (by decide)).trans (V49_o25 m outs c)
theorem V51_o25 (c : Dev nD) : V51 m outs c main_v106 = V1 m c main_v106 := (V51_of m outs c main_v106 (by decide)).trans (V50_o25 m outs c)
theorem V1_o26 (c : Dev nD) : V1 m c main_v110 = V1 m c main_v110 := rfl
theorem V2_o26 (c : Dev nD) : V2 m outs c main_v110 = V1 m c main_v110 := (V2_of m outs c main_v110 (by decide)).trans (V1_o26 m c)
theorem V3_o26 (c : Dev nD) : V3 m outs c main_v110 = V1 m c main_v110 := (V3_of m outs c main_v110 (by decide)).trans (V2_o26 m outs c)
theorem V4_o26 (c : Dev nD) : V4 m outs c main_v110 = V1 m c main_v110 := (V4_of m outs c main_v110 (by decide)).trans (V3_o26 m outs c)
theorem V5_o26 (c : Dev nD) : V5 m outs c main_v110 = V1 m c main_v110 := (V5_of m outs c main_v110 (by decide)).trans (V4_o26 m outs c)
theorem V6_o26 (c : Dev nD) : V6 m outs c main_v110 = V1 m c main_v110 := (V6_of m outs c main_v110 (by decide)).trans (V5_o26 m outs c)
theorem V7_o26 (c : Dev nD) : V7 m outs c main_v110 = V1 m c main_v110 := (V7_of m outs c main_v110 (by decide)).trans (V6_o26 m outs c)
theorem V8_o26 (c : Dev nD) : V8 m outs c main_v110 = V1 m c main_v110 := (V8_of m outs c main_v110 (by decide)).trans (V7_o26 m outs c)
theorem V9_o26 (c : Dev nD) : V9 m outs c main_v110 = V1 m c main_v110 := (V9_of m outs c main_v110 (by decide)).trans (V8_o26 m outs c)
theorem V10_o26 (c : Dev nD) : V10 m outs c main_v110 = V1 m c main_v110 := (V10_of m outs c main_v110 (by decide)).trans (V9_o26 m outs c)
theorem V11_o26 (c : Dev nD) : V11 m outs c main_v110 = V1 m c main_v110 := (V11_of m outs c main_v110 (by decide)).trans (V10_o26 m outs c)
theorem V12_o26 (c : Dev nD) : V12 m outs c main_v110 = V1 m c main_v110 := (V12_of m outs c main_v110 (by decide)).trans (V11_o26 m outs c)
theorem V13_o26 (c : Dev nD) : V13 m outs c main_v110 = V1 m c main_v110 := (V13_of m outs c main_v110 (by decide)).trans (V12_o26 m outs c)
theorem V14_o26 (c : Dev nD) : V14 m outs c main_v110 = V1 m c main_v110 := (V14_of m outs c main_v110 (by decide)).trans (V13_o26 m outs c)
theorem V15_o26 (c : Dev nD) : V15 m outs c main_v110 = V1 m c main_v110 := (V15_of m outs c main_v110 (by decide)).trans (V14_o26 m outs c)
theorem V16_o26 (c : Dev nD) : V16 m outs c main_v110 = V1 m c main_v110 := (V16_of m outs c main_v110 (by decide)).trans (V15_o26 m outs c)
theorem V17_o26 (c : Dev nD) : V17 m outs c main_v110 = V1 m c main_v110 := (V17_of m outs c main_v110 (by decide)).trans (V16_o26 m outs c)
theorem V18_o26 (c : Dev nD) : V18 m outs c main_v110 = V1 m c main_v110 := (V18_of m outs c main_v110 (by decide)).trans (V17_o26 m outs c)
theorem V19_o26 (c : Dev nD) : V19 m outs c main_v110 = V1 m c main_v110 := (V19_of m outs c main_v110 (by decide)).trans (V18_o26 m outs c)
theorem V20_o26 (c : Dev nD) : V20 m outs c main_v110 = V1 m c main_v110 := (V20_of m outs c main_v110 (by decide)).trans (V19_o26 m outs c)
theorem V21_o26 (c : Dev nD) : V21 m outs c main_v110 = V1 m c main_v110 := (V21_of m outs c main_v110 (by decide)).trans (V20_o26 m outs c)
theorem V22_o26 (c : Dev nD) : V22 m outs c main_v110 = V1 m c main_v110 := (V22_of m outs c main_v110 (by decide)).trans (V21_o26 m outs c)
theorem V23_o26 (c : Dev nD) : V23 m outs c main_v110 = V1 m c main_v110 := (V23_of m outs c main_v110 (by decide)).trans (V22_o26 m outs c)
theorem V24_o26 (c : Dev nD) : V24 m outs c main_v110 = V1 m c main_v110 := (V24_of m outs c main_v110 (by decide)).trans (V23_o26 m outs c)
theorem V25_o26 (c : Dev nD) : V25 m outs c main_v110 = V1 m c main_v110 := (V25_of m outs c main_v110 (by decide)).trans (V24_o26 m outs c)
theorem V26_o26 (c : Dev nD) : V26 m outs c main_v110 = V1 m c main_v110 := (V26_of m outs c main_v110 (by decide)).trans (V25_o26 m outs c)
theorem V27_o26 (c : Dev nD) : V27 m outs c main_v110 = V1 m c main_v110 := (V27_of m outs c main_v110 (by decide)).trans (V26_o26 m outs c)
theorem V28_o26 (c : Dev nD) : V28 m outs c main_v110 = V1 m c main_v110 := (V28_of m outs c main_v110 (by decide)).trans (V27_o26 m outs c)
theorem V29_o26 (c : Dev nD) : V29 m outs c main_v110 = V1 m c main_v110 := (V29_of m outs c main_v110 (by decide)).trans (V28_o26 m outs c)
theorem V30_o26 (c : Dev nD) : V30 m outs c main_v110 = V1 m c main_v110 := (V30_of m outs c main_v110 (by decide)).trans (V29_o26 m outs c)
theorem V31_o26 (c : Dev nD) : V31 m outs c main_v110 = V1 m c main_v110 := (V31_of m outs c main_v110 (by decide)).trans (V30_o26 m outs c)
theorem V32_o26 (c : Dev nD) : V32 m outs c main_v110 = V1 m c main_v110 := (V32_of m outs c main_v110 (by decide)).trans (V31_o26 m outs c)
theorem V33_o26 (c : Dev nD) : V33 m outs c main_v110 = V1 m c main_v110 := (V33_of m outs c main_v110 (by decide)).trans (V32_o26 m outs c)
theorem V34_o26 (c : Dev nD) : V34 m outs c main_v110 = V1 m c main_v110 := (V34_of m outs c main_v110 (by decide)).trans (V33_o26 m outs c)
theorem V35_o26 (c : Dev nD) : V35 m outs c main_v110 = V1 m c main_v110 := (V35_of m outs c main_v110 (by decide)).trans (V34_o26 m outs c)
theorem V36_o26 (c : Dev nD) : V36 m outs c main_v110 = V1 m c main_v110 := (V36_of m outs c main_v110 (by decide)).trans (V35_o26 m outs c)
theorem V37_o26 (c : Dev nD) : V37 m outs c main_v110 = V1 m c main_v110 := (V37_of m outs c main_v110 (by decide)).trans (V36_o26 m outs c)
theorem V38_o26 (c : Dev nD) : V38 m outs c main_v110 = V1 m c main_v110 := (V38_of m outs c main_v110 (by decide)).trans (V37_o26 m outs c)
theorem V39_o26 (c : Dev nD) : V39 m outs c main_v110 = V1 m c main_v110 := (V39_of m outs c main_v110 (by decide)).trans (V38_o26 m outs c)
theorem V40_o26 (c : Dev nD) : V40 m outs c main_v110 = V1 m c main_v110 := (V40_of m outs c main_v110 (by decide)).trans (V39_o26 m outs c)
theorem V41_o26 (c : Dev nD) : V41 m outs c main_v110 = V1 m c main_v110 := (V41_of m outs c main_v110 (by decide)).trans (V40_o26 m outs c)
theorem V42_o26 (c : Dev nD) : V42 m outs c main_v110 = V1 m c main_v110 := (V42_of m outs c main_v110 (by decide)).trans (V41_o26 m outs c)
theorem V43_o26 (c : Dev nD) : V43 m outs c main_v110 = V1 m c main_v110 := (V43_of m outs c main_v110 (by decide)).trans (V42_o26 m outs c)
theorem V44_o26 (c : Dev nD) : V44 m outs c main_v110 = V1 m c main_v110 := (V44_of m outs c main_v110 (by decide)).trans (V43_o26 m outs c)
theorem V45_o26 (c : Dev nD) : V45 m outs c main_v110 = V1 m c main_v110 := (V45_of m outs c main_v110 (by decide)).trans (V44_o26 m outs c)
theorem V46_o26 (c : Dev nD) : V46 m outs c main_v110 = V1 m c main_v110 := (V46_of m outs c main_v110 (by decide)).trans (V45_o26 m outs c)
theorem V47_o26 (c : Dev nD) : V47 m outs c main_v110 = V1 m c main_v110 := (V47_of m outs c main_v110 (by decide)).trans (V46_o26 m outs c)
theorem V48_o26 (c : Dev nD) : V48 m outs c main_v110 = V1 m c main_v110 := (V48_of m outs c main_v110 (by decide)).trans (V47_o26 m outs c)
theorem V49_o26 (c : Dev nD) : V49 m outs c main_v110 = V1 m c main_v110 := (V49_of m outs c main_v110 (by decide)).trans (V48_o26 m outs c)
theorem V50_o26 (c : Dev nD) : V50 m outs c main_v110 = V1 m c main_v110 := (V50_of m outs c main_v110 (by decide)).trans (V49_o26 m outs c)
theorem V51_o26 (c : Dev nD) : V51 m outs c main_v110 = V1 m c main_v110 := (V51_of m outs c main_v110 (by decide)).trans (V50_o26 m outs c)
theorem V52_o26 (c : Dev nD) : V52 m outs c main_v110 = V1 m c main_v110 := (V52_of m outs c main_v110 (by decide)).trans (V51_o26 m outs c)
theorem V53_o26 (c : Dev nD) : V53 m outs c main_v110 = V1 m c main_v110 := (V53_of m outs c main_v110 (by decide)).trans (V52_o26 m outs c)
theorem V1_o27 (c : Dev nD) : V1 m c main_v114 = V1 m c main_v114 := rfl
theorem V2_o27 (c : Dev nD) : V2 m outs c main_v114 = V1 m c main_v114 := (V2_of m outs c main_v114 (by decide)).trans (V1_o27 m c)
theorem V3_o27 (c : Dev nD) : V3 m outs c main_v114 = V1 m c main_v114 := (V3_of m outs c main_v114 (by decide)).trans (V2_o27 m outs c)
theorem V4_o27 (c : Dev nD) : V4 m outs c main_v114 = V1 m c main_v114 := (V4_of m outs c main_v114 (by decide)).trans (V3_o27 m outs c)
theorem V5_o27 (c : Dev nD) : V5 m outs c main_v114 = V1 m c main_v114 := (V5_of m outs c main_v114 (by decide)).trans (V4_o27 m outs c)
theorem V6_o27 (c : Dev nD) : V6 m outs c main_v114 = V1 m c main_v114 := (V6_of m outs c main_v114 (by decide)).trans (V5_o27 m outs c)
theorem V7_o27 (c : Dev nD) : V7 m outs c main_v114 = V1 m c main_v114 := (V7_of m outs c main_v114 (by decide)).trans (V6_o27 m outs c)
theorem V8_o27 (c : Dev nD) : V8 m outs c main_v114 = V1 m c main_v114 := (V8_of m outs c main_v114 (by decide)).trans (V7_o27 m outs c)
theorem V9_o27 (c : Dev nD) : V9 m outs c main_v114 = V1 m c main_v114 := (V9_of m outs c main_v114 (by decide)).trans (V8_o27 m outs c)
theorem V10_o27 (c : Dev nD) : V10 m outs c main_v114 = V1 m c main_v114 := (V10_of m outs c main_v114 (by decide)).trans (V9_o27 m outs c)
theorem V11_o27 (c : Dev nD) : V11 m outs c main_v114 = V1 m c main_v114 := (V11_of m outs c main_v114 (by decide)).trans (V10_o27 m outs c)
theorem V12_o27 (c : Dev nD) : V12 m outs c main_v114 = V1 m c main_v114 := (V12_of m outs c main_v114 (by decide)).trans (V11_o27 m outs c)
theorem V13_o27 (c : Dev nD) : V13 m outs c main_v114 = V1 m c main_v114 := (V13_of m outs c main_v114 (by decide)).trans (V12_o27 m outs c)
theorem V14_o27 (c : Dev nD) : V14 m outs c main_v114 = V1 m c main_v114 := (V14_of m outs c main_v114 (by decide)).trans (V13_o27 m outs c)
theorem V15_o27 (c : Dev nD) : V15 m outs c main_v114 = V1 m c main_v114 := (V15_of m outs c main_v114 (by decide)).trans (V14_o27 m outs c)
theorem V16_o27 (c : Dev nD) : V16 m outs c main_v114 = V1 m c main_v114 := (V16_of m outs c main_v114 (by decide)).trans (V15_o27 m outs c)
theorem V17_o27 (c : Dev nD) : V17 m outs c main_v114 = V1 m c main_v114 := (V17_of m outs c main_v114 (by decide)).trans (V16_o27 m outs c)
theorem V18_o27 (c : Dev nD) : V18 m outs c main_v114 = V1 m c main_v114 := (V18_of m outs c main_v114 (by decide)).trans (V17_o27 m outs c)
theorem V19_o27 (c : Dev nD) : V19 m outs c main_v114 = V1 m c main_v114 := (V19_of m outs c main_v114 (by decide)).trans (V18_o27 m outs c)
theorem V20_o27 (c : Dev nD) : V20 m outs c main_v114 = V1 m c main_v114 := (V20_of m outs c main_v114 (by decide)).trans (V19_o27 m outs c)
theorem V21_o27 (c : Dev nD) : V21 m outs c main_v114 = V1 m c main_v114 := (V21_of m outs c main_v114 (by decide)).trans (V20_o27 m outs c)
theorem V22_o27 (c : Dev nD) : V22 m outs c main_v114 = V1 m c main_v114 := (V22_of m outs c main_v114 (by decide)).trans (V21_o27 m outs c)
theorem V23_o27 (c : Dev nD) : V23 m outs c main_v114 = V1 m c main_v114 := (V23_of m outs c main_v114 (by decide)).trans (V22_o27 m outs c)
theorem V24_o27 (c : Dev nD) : V24 m outs c main_v114 = V1 m c main_v114 := (V24_of m outs c main_v114 (by decide)).trans (V23_o27 m outs c)
theorem V25_o27 (c : Dev nD) : V25 m outs c main_v114 = V1 m c main_v114 := (V25_of m outs c main_v114 (by decide)).trans (V24_o27 m outs c)
theorem V26_o27 (c : Dev nD) : V26 m outs c main_v114 = V1 m c main_v114 := (V26_of m outs c main_v114 (by decide)).trans (V25_o27 m outs c)
theorem V27_o27 (c : Dev nD) : V27 m outs c main_v114 = V1 m c main_v114 := (V27_of m outs c main_v114 (by decide)).trans (V26_o27 m outs c)
theorem V28_o27 (c : Dev nD) : V28 m outs c main_v114 = V1 m c main_v114 := (V28_of m outs c main_v114 (by decide)).trans (V27_o27 m outs c)
theorem V29_o27 (c : Dev nD) : V29 m outs c main_v114 = V1 m c main_v114 := (V29_of m outs c main_v114 (by decide)).trans (V28_o27 m outs c)
theorem V30_o27 (c : Dev nD) : V30 m outs c main_v114 = V1 m c main_v114 := (V30_of m outs c main_v114 (by decide)).trans (V29_o27 m outs c)
theorem V31_o27 (c : Dev nD) : V31 m outs c main_v114 = V1 m c main_v114 := (V31_of m outs c main_v114 (by decide)).trans (V30_o27 m outs c)
theorem V32_o27 (c : Dev nD) : V32 m outs c main_v114 = V1 m c main_v114 := (V32_of m outs c main_v114 (by decide)).trans (V31_o27 m outs c)
theorem V33_o27 (c : Dev nD) : V33 m outs c main_v114 = V1 m c main_v114 := (V33_of m outs c main_v114 (by decide)).trans (V32_o27 m outs c)
theorem V34_o27 (c : Dev nD) : V34 m outs c main_v114 = V1 m c main_v114 := (V34_of m outs c main_v114 (by decide)).trans (V33_o27 m outs c)
theorem V35_o27 (c : Dev nD) : V35 m outs c main_v114 = V1 m c main_v114 := (V35_of m outs c main_v114 (by decide)).trans (V34_o27 m outs c)
theorem V36_o27 (c : Dev nD) : V36 m outs c main_v114 = V1 m c main_v114 := (V36_of m outs c main_v114 (by decide)).trans (V35_o27 m outs c)
theorem V37_o27 (c : Dev nD) : V37 m outs c main_v114 = V1 m c main_v114 := (V37_of m outs c main_v114 (by decide)).trans (V36_o27 m outs c)
theorem V38_o27 (c : Dev nD) : V38 m outs c main_v114 = V1 m c main_v114 := (V38_of m outs c main_v114 (by decide)).trans (V37_o27 m outs c)
theorem V39_o27 (c : Dev nD) : V39 m outs c main_v114 = V1 m c main_v114 := (V39_of m outs c main_v114 (by decide)).trans (V38_o27 m outs c)
theorem V40_o27 (c : Dev nD) : V40 m outs c main_v114 = V1 m c main_v114 := (V40_of m outs c main_v114 (by decide)).trans (V39_o27 m outs c)
theorem V41_o27 (c : Dev nD) : V41 m outs c main_v114 = V1 m c main_v114 := (V41_of m outs c main_v114 (by decide)).trans (V40_o27 m outs c)
theorem V42_o27 (c : Dev nD) : V42 m outs c main_v114 = V1 m c main_v114 := (V42_of m outs c main_v114 (by decide)).trans (V41_o27 m outs c)
theorem V43_o27 (c : Dev nD) : V43 m outs c main_v114 = V1 m c main_v114 := (V43_of m outs c main_v114 (by decide)).trans (V42_o27 m outs c)
theorem V44_o27 (c : Dev nD) : V44 m outs c main_v114 = V1 m c main_v114 := (V44_of m outs c main_v114 (by decide)).trans (V43_o27 m outs c)
theorem V45_o27 (c : Dev nD) : V45 m outs c main_v114 = V1 m c main_v114 := (V45_of m outs c main_v114 (by decide)).trans (V44_o27 m outs c)
theorem V46_o27 (c : Dev nD) : V46 m outs c main_v114 = V1 m c main_v114 := (V46_of m outs c main_v114 (by decide)).trans (V45_o27 m outs c)
theorem V47_o27 (c : Dev nD) : V47 m outs c main_v114 = V1 m c main_v114 := (V47_of m outs c main_v114 (by decide)).trans (V46_o27 m outs c)
theorem V48_o27 (c : Dev nD) : V48 m outs c main_v114 = V1 m c main_v114 := (V48_of m outs c main_v114 (by decide)).trans (V47_o27 m outs c)
theorem V49_o27 (c : Dev nD) : V49 m outs c main_v114 = V1 m c main_v114 := (V49_of m outs c main_v114 (by decide)).trans (V48_o27 m outs c)
theorem V50_o27 (c : Dev nD) : V50 m outs c main_v114 = V1 m c main_v114 := (V50_of m outs c main_v114 (by decide)).trans (V49_o27 m outs c)
theorem V51_o27 (c : Dev nD) : V51 m outs c main_v114 = V1 m c main_v114 := (V51_of m outs c main_v114 (by decide)).trans (V50_o27 m outs c)
theorem V52_o27 (c : Dev nD) : V52 m outs c main_v114 = V1 m c main_v114 := (V52_of m outs c main_v114 (by decide)).trans (V51_o27 m outs c)
theorem V53_o27 (c : Dev nD) : V53 m outs c main_v114 = V1 m c main_v114 := (V53_of m outs c main_v114 (by decide)).trans (V52_o27 m outs c)
theorem V54_o27 (c : Dev nD) : V54 m outs c main_v114 = V1 m c main_v114 := (V54_of m outs c main_v114 (by decide)).trans (V53_o27 m outs c)
theorem V55_o27 (c : Dev nD) : V55 m outs c main_v114 = V1 m c main_v114 := (V55_of m outs c main_v114 (by decide)).trans (V54_o27 m outs c)
theorem V1_o28 (c : Dev nD) : V1 m c main_v118 = V1 m c main_v118 := rfl
theorem V2_o28 (c : Dev nD) : V2 m outs c main_v118 = V1 m c main_v118 := (V2_of m outs c main_v118 (by decide)).trans (V1_o28 m c)
theorem V3_o28 (c : Dev nD) : V3 m outs c main_v118 = V1 m c main_v118 := (V3_of m outs c main_v118 (by decide)).trans (V2_o28 m outs c)
theorem V4_o28 (c : Dev nD) : V4 m outs c main_v118 = V1 m c main_v118 := (V4_of m outs c main_v118 (by decide)).trans (V3_o28 m outs c)
theorem V5_o28 (c : Dev nD) : V5 m outs c main_v118 = V1 m c main_v118 := (V5_of m outs c main_v118 (by decide)).trans (V4_o28 m outs c)
theorem V6_o28 (c : Dev nD) : V6 m outs c main_v118 = V1 m c main_v118 := (V6_of m outs c main_v118 (by decide)).trans (V5_o28 m outs c)
theorem V7_o28 (c : Dev nD) : V7 m outs c main_v118 = V1 m c main_v118 := (V7_of m outs c main_v118 (by decide)).trans (V6_o28 m outs c)
theorem V8_o28 (c : Dev nD) : V8 m outs c main_v118 = V1 m c main_v118 := (V8_of m outs c main_v118 (by decide)).trans (V7_o28 m outs c)
theorem V9_o28 (c : Dev nD) : V9 m outs c main_v118 = V1 m c main_v118 := (V9_of m outs c main_v118 (by decide)).trans (V8_o28 m outs c)
theorem V10_o28 (c : Dev nD) : V10 m outs c main_v118 = V1 m c main_v118 := (V10_of m outs c main_v118 (by decide)).trans (V9_o28 m outs c)
theorem V11_o28 (c : Dev nD) : V11 m outs c main_v118 = V1 m c main_v118 := (V11_of m outs c main_v118 (by decide)).trans (V10_o28 m outs c)
theorem V12_o28 (c : Dev nD) : V12 m outs c main_v118 = V1 m c main_v118 := (V12_of m outs c main_v118 (by decide)).trans (V11_o28 m outs c)
theorem V13_o28 (c : Dev nD) : V13 m outs c main_v118 = V1 m c main_v118 := (V13_of m outs c main_v118 (by decide)).trans (V12_o28 m outs c)
theorem V14_o28 (c : Dev nD) : V14 m outs c main_v118 = V1 m c main_v118 := (V14_of m outs c main_v118 (by decide)).trans (V13_o28 m outs c)
theorem V15_o28 (c : Dev nD) : V15 m outs c main_v118 = V1 m c main_v118 := (V15_of m outs c main_v118 (by decide)).trans (V14_o28 m outs c)
theorem V16_o28 (c : Dev nD) : V16 m outs c main_v118 = V1 m c main_v118 := (V16_of m outs c main_v118 (by decide)).trans (V15_o28 m outs c)
theorem V17_o28 (c : Dev nD) : V17 m outs c main_v118 = V1 m c main_v118 := (V17_of m outs c main_v118 (by decide)).trans (V16_o28 m outs c)
theorem V18_o28 (c : Dev nD) : V18 m outs c main_v118 = V1 m c main_v118 := (V18_of m outs c main_v118 (by decide)).trans (V17_o28 m outs c)
theorem V19_o28 (c : Dev nD) : V19 m outs c main_v118 = V1 m c main_v118 := (V19_of m outs c main_v118 (by decide)).trans (V18_o28 m outs c)
theorem V20_o28 (c : Dev nD) : V20 m outs c main_v118 = V1 m c main_v118 := (V20_of m outs c main_v118 (by decide)).trans (V19_o28 m outs c)
theorem V21_o28 (c : Dev nD) : V21 m outs c main_v118 = V1 m c main_v118 := (V21_of m outs c main_v118 (by decide)).trans (V20_o28 m outs c)
theorem V22_o28 (c : Dev nD) : V22 m outs c main_v118 = V1 m c main_v118 := (V22_of m outs c main_v118 (by decide)).trans (V21_o28 m outs c)
theorem V23_o28 (c : Dev nD) : V23 m outs c main_v118 = V1 m c main_v118 := (V23_of m outs c main_v118 (by decide)).trans (V22_o28 m outs c)
theorem V24_o28 (c : Dev nD) : V24 m outs c main_v118 = V1 m c main_v118 := (V24_of m outs c main_v118 (by decide)).trans (V23_o28 m outs c)
theorem V25_o28 (c : Dev nD) : V25 m outs c main_v118 = V1 m c main_v118 := (V25_of m outs c main_v118 (by decide)).trans (V24_o28 m outs c)
theorem V26_o28 (c : Dev nD) : V26 m outs c main_v118 = V1 m c main_v118 := (V26_of m outs c main_v118 (by decide)).trans (V25_o28 m outs c)
theorem V27_o28 (c : Dev nD) : V27 m outs c main_v118 = V1 m c main_v118 := (V27_of m outs c main_v118 (by decide)).trans (V26_o28 m outs c)
theorem V28_o28 (c : Dev nD) : V28 m outs c main_v118 = V1 m c main_v118 := (V28_of m outs c main_v118 (by decide)).trans (V27_o28 m outs c)
theorem V29_o28 (c : Dev nD) : V29 m outs c main_v118 = V1 m c main_v118 := (V29_of m outs c main_v118 (by decide)).trans (V28_o28 m outs c)
theorem V30_o28 (c : Dev nD) : V30 m outs c main_v118 = V1 m c main_v118 := (V30_of m outs c main_v118 (by decide)).trans (V29_o28 m outs c)
theorem V31_o28 (c : Dev nD) : V31 m outs c main_v118 = V1 m c main_v118 := (V31_of m outs c main_v118 (by decide)).trans (V30_o28 m outs c)
theorem V32_o28 (c : Dev nD) : V32 m outs c main_v118 = V1 m c main_v118 := (V32_of m outs c main_v118 (by decide)).trans (V31_o28 m outs c)
theorem V33_o28 (c : Dev nD) : V33 m outs c main_v118 = V1 m c main_v118 := (V33_of m outs c main_v118 (by decide)).trans (V32_o28 m outs c)
theorem V34_o28 (c : Dev nD) : V34 m outs c main_v118 = V1 m c main_v118 := (V34_of m outs c main_v118 (by decide)).trans (V33_o28 m outs c)
theorem V35_o28 (c : Dev nD) : V35 m outs c main_v118 = V1 m c main_v118 := (V35_of m outs c main_v118 (by decide)).trans (V34_o28 m outs c)
theorem V36_o28 (c : Dev nD) : V36 m outs c main_v118 = V1 m c main_v118 := (V36_of m outs c main_v118 (by decide)).trans (V35_o28 m outs c)
theorem V37_o28 (c : Dev nD) : V37 m outs c main_v118 = V1 m c main_v118 := (V37_of m outs c main_v118 (by decide)).trans (V36_o28 m outs c)
theorem V38_o28 (c : Dev nD) : V38 m outs c main_v118 = V1 m c main_v118 := (V38_of m outs c main_v118 (by decide)).trans (V37_o28 m outs c)
theorem V39_o28 (c : Dev nD) : V39 m outs c main_v118 = V1 m c main_v118 := (V39_of m outs c main_v118 (by decide)).trans (V38_o28 m outs c)
theorem V40_o28 (c : Dev nD) : V40 m outs c main_v118 = V1 m c main_v118 := (V40_of m outs c main_v118 (by decide)).trans (V39_o28 m outs c)
theorem V41_o28 (c : Dev nD) : V41 m outs c main_v118 = V1 m c main_v118 := (V41_of m outs c main_v118 (by decide)).trans (V40_o28 m outs c)
theorem V42_o28 (c : Dev nD) : V42 m outs c main_v118 = V1 m c main_v118 := (V42_of m outs c main_v118 (by decide)).trans (V41_o28 m outs c)
theorem V43_o28 (c : Dev nD) : V43 m outs c main_v118 = V1 m c main_v118 := (V43_of m outs c main_v118 (by decide)).trans (V42_o28 m outs c)
theorem V44_o28 (c : Dev nD) : V44 m outs c main_v118 = V1 m c main_v118 := (V44_of m outs c main_v118 (by decide)).trans (V43_o28 m outs c)
theorem V45_o28 (c : Dev nD) : V45 m outs c main_v118 = V1 m c main_v118 := (V45_of m outs c main_v118 (by decide)).trans (V44_o28 m outs c)
theorem V46_o28 (c : Dev nD) : V46 m outs c main_v118 = V1 m c main_v118 := (V46_of m outs c main_v118 (by decide)).trans (V45_o28 m outs c)
theorem V47_o28 (c : Dev nD) : V47 m outs c main_v118 = V1 m c main_v118 := (V47_of m outs c main_v118 (by decide)).trans (V46_o28 m outs c)
theorem V48_o28 (c : Dev nD) : V48 m outs c main_v118 = V1 m c main_v118 := (V48_of m outs c main_v118 (by decide)).trans (V47_o28 m outs c)
theorem V49_o28 (c : Dev nD) : V49 m outs c main_v118 = V1 m c main_v118 := (V49_of m outs c main_v118 (by decide)).trans (V48_o28 m outs c)
theorem V50_o28 (c : Dev nD) : V50 m outs c main_v118 = V1 m c main_v118 := (V50_of m outs c main_v118 (by decide)).trans (V49_o28 m outs c)
theorem V51_o28 (c : Dev nD) : V51 m outs c main_v118 = V1 m c main_v118 := (V51_of m outs c main_v118 (by decide)).trans (V50_o28 m outs c)
theorem V52_o28 (c : Dev nD) : V52 m outs c main_v118 = V1 m c main_v118 := (V52_of m outs c main_v118 (by decide)).trans (V51_o28 m outs c)
theorem V53_o28 (c : Dev nD) : V53 m outs c main_v118 = V1 m c main_v118 := (V53_of m outs c main_v118 (by decide)).trans (V52_o28 m outs c)
theorem V54_o28 (c : Dev nD) : V54 m outs c main_v118 = V1 m c main_v118 := (V54_of m outs c main_v118 (by decide)).trans (V53_o28 m outs c)
theorem V55_o28 (c : Dev nD) : V55 m outs c main_v118 = V1 m c main_v118 := (V55_of m outs c main_v118 (by decide)).trans (V54_o28 m outs c)
theorem V56_o28 (c : Dev nD) : V56 m outs c main_v118 = V1 m c main_v118 := (V56_of m outs c main_v118 (by decide)).trans (V55_o28 m outs c)
theorem V57_o28 (c : Dev nD) : V57 m outs c main_v118 = V1 m c main_v118 := (V57_of m outs c main_v118 (by decide)).trans (V56_o28 m outs c)
theorem V1_o29 (c : Dev nD) : V1 m c main_v122 = V1 m c main_v122 := rfl
theorem V2_o29 (c : Dev nD) : V2 m outs c main_v122 = V1 m c main_v122 := (V2_of m outs c main_v122 (by decide)).trans (V1_o29 m c)
theorem V3_o29 (c : Dev nD) : V3 m outs c main_v122 = V1 m c main_v122 := (V3_of m outs c main_v122 (by decide)).trans (V2_o29 m outs c)
theorem V4_o29 (c : Dev nD) : V4 m outs c main_v122 = V1 m c main_v122 := (V4_of m outs c main_v122 (by decide)).trans (V3_o29 m outs c)
theorem V5_o29 (c : Dev nD) : V5 m outs c main_v122 = V1 m c main_v122 := (V5_of m outs c main_v122 (by decide)).trans (V4_o29 m outs c)
theorem V6_o29 (c : Dev nD) : V6 m outs c main_v122 = V1 m c main_v122 := (V6_of m outs c main_v122 (by decide)).trans (V5_o29 m outs c)
theorem V7_o29 (c : Dev nD) : V7 m outs c main_v122 = V1 m c main_v122 := (V7_of m outs c main_v122 (by decide)).trans (V6_o29 m outs c)
theorem V8_o29 (c : Dev nD) : V8 m outs c main_v122 = V1 m c main_v122 := (V8_of m outs c main_v122 (by decide)).trans (V7_o29 m outs c)
theorem V9_o29 (c : Dev nD) : V9 m outs c main_v122 = V1 m c main_v122 := (V9_of m outs c main_v122 (by decide)).trans (V8_o29 m outs c)
theorem V10_o29 (c : Dev nD) : V10 m outs c main_v122 = V1 m c main_v122 := (V10_of m outs c main_v122 (by decide)).trans (V9_o29 m outs c)
theorem V11_o29 (c : Dev nD) : V11 m outs c main_v122 = V1 m c main_v122 := (V11_of m outs c main_v122 (by decide)).trans (V10_o29 m outs c)
theorem V12_o29 (c : Dev nD) : V12 m outs c main_v122 = V1 m c main_v122 := (V12_of m outs c main_v122 (by decide)).trans (V11_o29 m outs c)
theorem V13_o29 (c : Dev nD) : V13 m outs c main_v122 = V1 m c main_v122 := (V13_of m outs c main_v122 (by decide)).trans (V12_o29 m outs c)
theorem V14_o29 (c : Dev nD) : V14 m outs c main_v122 = V1 m c main_v122 := (V14_of m outs c main_v122 (by decide)).trans (V13_o29 m outs c)
theorem V15_o29 (c : Dev nD) : V15 m outs c main_v122 = V1 m c main_v122 := (V15_of m outs c main_v122 (by decide)).trans (V14_o29 m outs c)
theorem V16_o29 (c : Dev nD) : V16 m outs c main_v122 = V1 m c main_v122 := (V16_of m outs c main_v122 (by decide)).trans (V15_o29 m outs c)
theorem V17_o29 (c : Dev nD) : V17 m outs c main_v122 = V1 m c main_v122 := (V17_of m outs c main_v122 (by decide)).trans (V16_o29 m outs c)
theorem V18_o29 (c : Dev nD) : V18 m outs c main_v122 = V1 m c main_v122 := (V18_of m outs c main_v122 (by decide)).trans (V17_o29 m outs c)
theorem V19_o29 (c : Dev nD) : V19 m outs c main_v122 = V1 m c main_v122 := (V19_of m outs c main_v122 (by decide)).trans (V18_o29 m outs c)
theorem V20_o29 (c : Dev nD) : V20 m outs c main_v122 = V1 m c main_v122 := (V20_of m outs c main_v122 (by decide)).trans (V19_o29 m outs c)
theorem V21_o29 (c : Dev nD) : V21 m outs c main_v122 = V1 m c main_v122 := (V21_of m outs c main_v122 (by decide)).trans (V20_o29 m outs c)
theorem V22_o29 (c : Dev nD) : V22 m outs c main_v122 = V1 m c main_v122 := (V22_of m outs c main_v122 (by decide)).trans (V21_o29 m outs c)
theorem V23_o29 (c : Dev nD) : V23 m outs c main_v122 = V1 m c main_v122 := (V23_of m outs c main_v122 (by decide)).trans (V22_o29 m outs c)
theorem V24_o29 (c : Dev nD) : V24 m outs c main_v122 = V1 m c main_v122 := (V24_of m outs c main_v122 (by decide)).trans (V23_o29 m outs c)
theorem V25_o29 (c : Dev nD) : V25 m outs c main_v122 = V1 m c main_v122 := (V25_of m outs c main_v122 (by decide)).trans (V24_o29 m outs c)
theorem V26_o29 (c : Dev nD) : V26 m outs c main_v122 = V1 m c main_v122 := (V26_of m outs c main_v122 (by decide)).trans (V25_o29 m outs c)
theorem V27_o29 (c : Dev nD) : V27 m outs c main_v122 = V1 m c main_v122 := (V27_of m outs c main_v122 (by decide)).trans (V26_o29 m outs c)
theorem V28_o29 (c : Dev nD) : V28 m outs c main_v122 = V1 m c main_v122 := (V28_of m outs c main_v122 (by decide)).trans (V27_o29 m outs c)
theorem V29_o29 (c : Dev nD) : V29 m outs c main_v122 = V1 m c main_v122 := (V29_of m outs c main_v122 (by decide)).trans (V28_o29 m outs c)
theorem V30_o29 (c : Dev nD) : V30 m outs c main_v122 = V1 m c main_v122 := (V30_of m outs c main_v122 (by decide)).trans (V29_o29 m outs c)
theorem V31_o29 (c : Dev nD) : V31 m outs c main_v122 = V1 m c main_v122 := (V31_of m outs c main_v122 (by decide)).trans (V30_o29 m outs c)
theorem V32_o29 (c : Dev nD) : V32 m outs c main_v122 = V1 m c main_v122 := (V32_of m outs c main_v122 (by decide)).trans (V31_o29 m outs c)
theorem V33_o29 (c : Dev nD) : V33 m outs c main_v122 = V1 m c main_v122 := (V33_of m outs c main_v122 (by decide)).trans (V32_o29 m outs c)
theorem V34_o29 (c : Dev nD) : V34 m outs c main_v122 = V1 m c main_v122 := (V34_of m outs c main_v122 (by decide)).trans (V33_o29 m outs c)
theorem V35_o29 (c : Dev nD) : V35 m outs c main_v122 = V1 m c main_v122 := (V35_of m outs c main_v122 (by decide)).trans (V34_o29 m outs c)
theorem V36_o29 (c : Dev nD) : V36 m outs c main_v122 = V1 m c main_v122 := (V36_of m outs c main_v122 (by decide)).trans (V35_o29 m outs c)
theorem V37_o29 (c : Dev nD) : V37 m outs c main_v122 = V1 m c main_v122 := (V37_of m outs c main_v122 (by decide)).trans (V36_o29 m outs c)
theorem V38_o29 (c : Dev nD) : V38 m outs c main_v122 = V1 m c main_v122 := (V38_of m outs c main_v122 (by decide)).trans (V37_o29 m outs c)
theorem V39_o29 (c : Dev nD) : V39 m outs c main_v122 = V1 m c main_v122 := (V39_of m outs c main_v122 (by decide)).trans (V38_o29 m outs c)
theorem V40_o29 (c : Dev nD) : V40 m outs c main_v122 = V1 m c main_v122 := (V40_of m outs c main_v122 (by decide)).trans (V39_o29 m outs c)
theorem V41_o29 (c : Dev nD) : V41 m outs c main_v122 = V1 m c main_v122 := (V41_of m outs c main_v122 (by decide)).trans (V40_o29 m outs c)
theorem V42_o29 (c : Dev nD) : V42 m outs c main_v122 = V1 m c main_v122 := (V42_of m outs c main_v122 (by decide)).trans (V41_o29 m outs c)
theorem V43_o29 (c : Dev nD) : V43 m outs c main_v122 = V1 m c main_v122 := (V43_of m outs c main_v122 (by decide)).trans (V42_o29 m outs c)
theorem V44_o29 (c : Dev nD) : V44 m outs c main_v122 = V1 m c main_v122 := (V44_of m outs c main_v122 (by decide)).trans (V43_o29 m outs c)
theorem V45_o29 (c : Dev nD) : V45 m outs c main_v122 = V1 m c main_v122 := (V45_of m outs c main_v122 (by decide)).trans (V44_o29 m outs c)
theorem V46_o29 (c : Dev nD) : V46 m outs c main_v122 = V1 m c main_v122 := (V46_of m outs c main_v122 (by decide)).trans (V45_o29 m outs c)
theorem V47_o29 (c : Dev nD) : V47 m outs c main_v122 = V1 m c main_v122 := (V47_of m outs c main_v122 (by decide)).trans (V46_o29 m outs c)
theorem V48_o29 (c : Dev nD) : V48 m outs c main_v122 = V1 m c main_v122 := (V48_of m outs c main_v122 (by decide)).trans (V47_o29 m outs c)
theorem V49_o29 (c : Dev nD) : V49 m outs c main_v122 = V1 m c main_v122 := (V49_of m outs c main_v122 (by decide)).trans (V48_o29 m outs c)
theorem V50_o29 (c : Dev nD) : V50 m outs c main_v122 = V1 m c main_v122 := (V50_of m outs c main_v122 (by decide)).trans (V49_o29 m outs c)
theorem V51_o29 (c : Dev nD) : V51 m outs c main_v122 = V1 m c main_v122 := (V51_of m outs c main_v122 (by decide)).trans (V50_o29 m outs c)
theorem V52_o29 (c : Dev nD) : V52 m outs c main_v122 = V1 m c main_v122 := (V52_of m outs c main_v122 (by decide)).trans (V51_o29 m outs c)
theorem V53_o29 (c : Dev nD) : V53 m outs c main_v122 = V1 m c main_v122 := (V53_of m outs c main_v122 (by decide)).trans (V52_o29 m outs c)
theorem V54_o29 (c : Dev nD) : V54 m outs c main_v122 = V1 m c main_v122 := (V54_of m outs c main_v122 (by decide)).trans (V53_o29 m outs c)
theorem V55_o29 (c : Dev nD) : V55 m outs c main_v122 = V1 m c main_v122 := (V55_of m outs c main_v122 (by decide)).trans (V54_o29 m outs c)
theorem V56_o29 (c : Dev nD) : V56 m outs c main_v122 = V1 m c main_v122 := (V56_of m outs c main_v122 (by decide)).trans (V55_o29 m outs c)
theorem V57_o29 (c : Dev nD) : V57 m outs c main_v122 = V1 m c main_v122 := (V57_of m outs c main_v122 (by decide)).trans (V56_o29 m outs c)
theorem V58_o29 (c : Dev nD) : V58 m outs c main_v122 = V1 m c main_v122 := (V58_of m outs c main_v122 (by decide)).trans (V57_o29 m outs c)
theorem V59_o29 (c : Dev nD) : V59 m outs c main_v122 = V1 m c main_v122 := (V59_of m outs c main_v122 (by decide)).trans (V58_o29 m outs c)
theorem V1_o30 (c : Dev nD) : V1 m c main_v126 = V1 m c main_v126 := rfl
theorem V2_o30 (c : Dev nD) : V2 m outs c main_v126 = V1 m c main_v126 := (V2_of m outs c main_v126 (by decide)).trans (V1_o30 m c)
theorem V3_o30 (c : Dev nD) : V3 m outs c main_v126 = V1 m c main_v126 := (V3_of m outs c main_v126 (by decide)).trans (V2_o30 m outs c)
theorem V4_o30 (c : Dev nD) : V4 m outs c main_v126 = V1 m c main_v126 := (V4_of m outs c main_v126 (by decide)).trans (V3_o30 m outs c)
theorem V5_o30 (c : Dev nD) : V5 m outs c main_v126 = V1 m c main_v126 := (V5_of m outs c main_v126 (by decide)).trans (V4_o30 m outs c)
theorem V6_o30 (c : Dev nD) : V6 m outs c main_v126 = V1 m c main_v126 := (V6_of m outs c main_v126 (by decide)).trans (V5_o30 m outs c)
theorem V7_o30 (c : Dev nD) : V7 m outs c main_v126 = V1 m c main_v126 := (V7_of m outs c main_v126 (by decide)).trans (V6_o30 m outs c)
theorem V8_o30 (c : Dev nD) : V8 m outs c main_v126 = V1 m c main_v126 := (V8_of m outs c main_v126 (by decide)).trans (V7_o30 m outs c)
theorem V9_o30 (c : Dev nD) : V9 m outs c main_v126 = V1 m c main_v126 := (V9_of m outs c main_v126 (by decide)).trans (V8_o30 m outs c)
theorem V10_o30 (c : Dev nD) : V10 m outs c main_v126 = V1 m c main_v126 := (V10_of m outs c main_v126 (by decide)).trans (V9_o30 m outs c)
theorem V11_o30 (c : Dev nD) : V11 m outs c main_v126 = V1 m c main_v126 := (V11_of m outs c main_v126 (by decide)).trans (V10_o30 m outs c)
theorem V12_o30 (c : Dev nD) : V12 m outs c main_v126 = V1 m c main_v126 := (V12_of m outs c main_v126 (by decide)).trans (V11_o30 m outs c)
theorem V13_o30 (c : Dev nD) : V13 m outs c main_v126 = V1 m c main_v126 := (V13_of m outs c main_v126 (by decide)).trans (V12_o30 m outs c)
theorem V14_o30 (c : Dev nD) : V14 m outs c main_v126 = V1 m c main_v126 := (V14_of m outs c main_v126 (by decide)).trans (V13_o30 m outs c)
theorem V15_o30 (c : Dev nD) : V15 m outs c main_v126 = V1 m c main_v126 := (V15_of m outs c main_v126 (by decide)).trans (V14_o30 m outs c)
theorem V16_o30 (c : Dev nD) : V16 m outs c main_v126 = V1 m c main_v126 := (V16_of m outs c main_v126 (by decide)).trans (V15_o30 m outs c)
theorem V17_o30 (c : Dev nD) : V17 m outs c main_v126 = V1 m c main_v126 := (V17_of m outs c main_v126 (by decide)).trans (V16_o30 m outs c)
theorem V18_o30 (c : Dev nD) : V18 m outs c main_v126 = V1 m c main_v126 := (V18_of m outs c main_v126 (by decide)).trans (V17_o30 m outs c)
theorem V19_o30 (c : Dev nD) : V19 m outs c main_v126 = V1 m c main_v126 := (V19_of m outs c main_v126 (by decide)).trans (V18_o30 m outs c)
theorem V20_o30 (c : Dev nD) : V20 m outs c main_v126 = V1 m c main_v126 := (V20_of m outs c main_v126 (by decide)).trans (V19_o30 m outs c)
theorem V21_o30 (c : Dev nD) : V21 m outs c main_v126 = V1 m c main_v126 := (V21_of m outs c main_v126 (by decide)).trans (V20_o30 m outs c)
theorem V22_o30 (c : Dev nD) : V22 m outs c main_v126 = V1 m c main_v126 := (V22_of m outs c main_v126 (by decide)).trans (V21_o30 m outs c)
theorem V23_o30 (c : Dev nD) : V23 m outs c main_v126 = V1 m c main_v126 := (V23_of m outs c main_v126 (by decide)).trans (V22_o30 m outs c)
theorem V24_o30 (c : Dev nD) : V24 m outs c main_v126 = V1 m c main_v126 := (V24_of m outs c main_v126 (by decide)).trans (V23_o30 m outs c)
theorem V25_o30 (c : Dev nD) : V25 m outs c main_v126 = V1 m c main_v126 := (V25_of m outs c main_v126 (by decide)).trans (V24_o30 m outs c)
theorem V26_o30 (c : Dev nD) : V26 m outs c main_v126 = V1 m c main_v126 := (V26_of m outs c main_v126 (by decide)).trans (V25_o30 m outs c)
theorem V27_o30 (c : Dev nD) : V27 m outs c main_v126 = V1 m c main_v126 := (V27_of m outs c main_v126 (by decide)).trans (V26_o30 m outs c)
theorem V28_o30 (c : Dev nD) : V28 m outs c main_v126 = V1 m c main_v126 := (V28_of m outs c main_v126 (by decide)).trans (V27_o30 m outs c)
theorem V29_o30 (c : Dev nD) : V29 m outs c main_v126 = V1 m c main_v126 := (V29_of m outs c main_v126 (by decide)).trans (V28_o30 m outs c)
theorem V30_o30 (c : Dev nD) : V30 m outs c main_v126 = V1 m c main_v126 := (V30_of m outs c main_v126 (by decide)).trans (V29_o30 m outs c)
theorem V31_o30 (c : Dev nD) : V31 m outs c main_v126 = V1 m c main_v126 := (V31_of m outs c main_v126 (by decide)).trans (V30_o30 m outs c)
theorem V32_o30 (c : Dev nD) : V32 m outs c main_v126 = V1 m c main_v126 := (V32_of m outs c main_v126 (by decide)).trans (V31_o30 m outs c)
theorem V33_o30 (c : Dev nD) : V33 m outs c main_v126 = V1 m c main_v126 := (V33_of m outs c main_v126 (by decide)).trans (V32_o30 m outs c)
theorem V34_o30 (c : Dev nD) : V34 m outs c main_v126 = V1 m c main_v126 := (V34_of m outs c main_v126 (by decide)).trans (V33_o30 m outs c)
theorem V35_o30 (c : Dev nD) : V35 m outs c main_v126 = V1 m c main_v126 := (V35_of m outs c main_v126 (by decide)).trans (V34_o30 m outs c)
theorem V36_o30 (c : Dev nD) : V36 m outs c main_v126 = V1 m c main_v126 := (V36_of m outs c main_v126 (by decide)).trans (V35_o30 m outs c)
theorem V37_o30 (c : Dev nD) : V37 m outs c main_v126 = V1 m c main_v126 := (V37_of m outs c main_v126 (by decide)).trans (V36_o30 m outs c)
theorem V38_o30 (c : Dev nD) : V38 m outs c main_v126 = V1 m c main_v126 := (V38_of m outs c main_v126 (by decide)).trans (V37_o30 m outs c)
theorem V39_o30 (c : Dev nD) : V39 m outs c main_v126 = V1 m c main_v126 := (V39_of m outs c main_v126 (by decide)).trans (V38_o30 m outs c)
theorem V40_o30 (c : Dev nD) : V40 m outs c main_v126 = V1 m c main_v126 := (V40_of m outs c main_v126 (by decide)).trans (V39_o30 m outs c)
theorem V41_o30 (c : Dev nD) : V41 m outs c main_v126 = V1 m c main_v126 := (V41_of m outs c main_v126 (by decide)).trans (V40_o30 m outs c)
theorem V42_o30 (c : Dev nD) : V42 m outs c main_v126 = V1 m c main_v126 := (V42_of m outs c main_v126 (by decide)).trans (V41_o30 m outs c)
theorem V43_o30 (c : Dev nD) : V43 m outs c main_v126 = V1 m c main_v126 := (V43_of m outs c main_v126 (by decide)).trans (V42_o30 m outs c)
theorem V44_o30 (c : Dev nD) : V44 m outs c main_v126 = V1 m c main_v126 := (V44_of m outs c main_v126 (by decide)).trans (V43_o30 m outs c)
theorem V45_o30 (c : Dev nD) : V45 m outs c main_v126 = V1 m c main_v126 := (V45_of m outs c main_v126 (by decide)).trans (V44_o30 m outs c)
theorem V46_o30 (c : Dev nD) : V46 m outs c main_v126 = V1 m c main_v126 := (V46_of m outs c main_v126 (by decide)).trans (V45_o30 m outs c)
theorem V47_o30 (c : Dev nD) : V47 m outs c main_v126 = V1 m c main_v126 := (V47_of m outs c main_v126 (by decide)).trans (V46_o30 m outs c)
theorem V48_o30 (c : Dev nD) : V48 m outs c main_v126 = V1 m c main_v126 := (V48_of m outs c main_v126 (by decide)).trans (V47_o30 m outs c)
theorem V49_o30 (c : Dev nD) : V49 m outs c main_v126 = V1 m c main_v126 := (V49_of m outs c main_v126 (by decide)).trans (V48_o30 m outs c)
theorem V50_o30 (c : Dev nD) : V50 m outs c main_v126 = V1 m c main_v126 := (V50_of m outs c main_v126 (by decide)).trans (V49_o30 m outs c)
theorem V51_o30 (c : Dev nD) : V51 m outs c main_v126 = V1 m c main_v126 := (V51_of m outs c main_v126 (by decide)).trans (V50_o30 m outs c)
theorem V52_o30 (c : Dev nD) : V52 m outs c main_v126 = V1 m c main_v126 := (V52_of m outs c main_v126 (by decide)).trans (V51_o30 m outs c)
theorem V53_o30 (c : Dev nD) : V53 m outs c main_v126 = V1 m c main_v126 := (V53_of m outs c main_v126 (by decide)).trans (V52_o30 m outs c)
theorem V54_o30 (c : Dev nD) : V54 m outs c main_v126 = V1 m c main_v126 := (V54_of m outs c main_v126 (by decide)).trans (V53_o30 m outs c)
theorem V55_o30 (c : Dev nD) : V55 m outs c main_v126 = V1 m c main_v126 := (V55_of m outs c main_v126 (by decide)).trans (V54_o30 m outs c)
theorem V56_o30 (c : Dev nD) : V56 m outs c main_v126 = V1 m c main_v126 := (V56_of m outs c main_v126 (by decide)).trans (V55_o30 m outs c)
theorem V57_o30 (c : Dev nD) : V57 m outs c main_v126 = V1 m c main_v126 := (V57_of m outs c main_v126 (by decide)).trans (V56_o30 m outs c)
theorem V58_o30 (c : Dev nD) : V58 m outs c main_v126 = V1 m c main_v126 := (V58_of m outs c main_v126 (by decide)).trans (V57_o30 m outs c)
theorem V59_o30 (c : Dev nD) : V59 m outs c main_v126 = V1 m c main_v126 := (V59_of m outs c main_v126 (by decide)).trans (V58_o30 m outs c)
theorem V60_o30 (c : Dev nD) : V60 m outs c main_v126 = V1 m c main_v126 := (V60_of m outs c main_v126 (by decide)).trans (V59_o30 m outs c)
theorem V61_o30 (c : Dev nD) : V61 m outs c main_v126 = V1 m c main_v126 := (V61_of m outs c main_v126 (by decide)).trans (V60_o30 m outs c)
theorem V1_o31 (c : Dev nD) : V1 m c main_v130 = V1 m c main_v130 := rfl
theorem V2_o31 (c : Dev nD) : V2 m outs c main_v130 = V1 m c main_v130 := (V2_of m outs c main_v130 (by decide)).trans (V1_o31 m c)
theorem V3_o31 (c : Dev nD) : V3 m outs c main_v130 = V1 m c main_v130 := (V3_of m outs c main_v130 (by decide)).trans (V2_o31 m outs c)
theorem V4_o31 (c : Dev nD) : V4 m outs c main_v130 = V1 m c main_v130 := (V4_of m outs c main_v130 (by decide)).trans (V3_o31 m outs c)
theorem V5_o31 (c : Dev nD) : V5 m outs c main_v130 = V1 m c main_v130 := (V5_of m outs c main_v130 (by decide)).trans (V4_o31 m outs c)
theorem V6_o31 (c : Dev nD) : V6 m outs c main_v130 = V1 m c main_v130 := (V6_of m outs c main_v130 (by decide)).trans (V5_o31 m outs c)
theorem V7_o31 (c : Dev nD) : V7 m outs c main_v130 = V1 m c main_v130 := (V7_of m outs c main_v130 (by decide)).trans (V6_o31 m outs c)
theorem V8_o31 (c : Dev nD) : V8 m outs c main_v130 = V1 m c main_v130 := (V8_of m outs c main_v130 (by decide)).trans (V7_o31 m outs c)
theorem V9_o31 (c : Dev nD) : V9 m outs c main_v130 = V1 m c main_v130 := (V9_of m outs c main_v130 (by decide)).trans (V8_o31 m outs c)
theorem V10_o31 (c : Dev nD) : V10 m outs c main_v130 = V1 m c main_v130 := (V10_of m outs c main_v130 (by decide)).trans (V9_o31 m outs c)
theorem V11_o31 (c : Dev nD) : V11 m outs c main_v130 = V1 m c main_v130 := (V11_of m outs c main_v130 (by decide)).trans (V10_o31 m outs c)
theorem V12_o31 (c : Dev nD) : V12 m outs c main_v130 = V1 m c main_v130 := (V12_of m outs c main_v130 (by decide)).trans (V11_o31 m outs c)
theorem V13_o31 (c : Dev nD) : V13 m outs c main_v130 = V1 m c main_v130 := (V13_of m outs c main_v130 (by decide)).trans (V12_o31 m outs c)
theorem V14_o31 (c : Dev nD) : V14 m outs c main_v130 = V1 m c main_v130 := (V14_of m outs c main_v130 (by decide)).trans (V13_o31 m outs c)
theorem V15_o31 (c : Dev nD) : V15 m outs c main_v130 = V1 m c main_v130 := (V15_of m outs c main_v130 (by decide)).trans (V14_o31 m outs c)
theorem V16_o31 (c : Dev nD) : V16 m outs c main_v130 = V1 m c main_v130 := (V16_of m outs c main_v130 (by decide)).trans (V15_o31 m outs c)
theorem V17_o31 (c : Dev nD) : V17 m outs c main_v130 = V1 m c main_v130 := (V17_of m outs c main_v130 (by decide)).trans (V16_o31 m outs c)
theorem V18_o31 (c : Dev nD) : V18 m outs c main_v130 = V1 m c main_v130 := (V18_of m outs c main_v130 (by decide)).trans (V17_o31 m outs c)
theorem V19_o31 (c : Dev nD) : V19 m outs c main_v130 = V1 m c main_v130 := (V19_of m outs c main_v130 (by decide)).trans (V18_o31 m outs c)
theorem V20_o31 (c : Dev nD) : V20 m outs c main_v130 = V1 m c main_v130 := (V20_of m outs c main_v130 (by decide)).trans (V19_o31 m outs c)
theorem V21_o31 (c : Dev nD) : V21 m outs c main_v130 = V1 m c main_v130 := (V21_of m outs c main_v130 (by decide)).trans (V20_o31 m outs c)
theorem V22_o31 (c : Dev nD) : V22 m outs c main_v130 = V1 m c main_v130 := (V22_of m outs c main_v130 (by decide)).trans (V21_o31 m outs c)
theorem V23_o31 (c : Dev nD) : V23 m outs c main_v130 = V1 m c main_v130 := (V23_of m outs c main_v130 (by decide)).trans (V22_o31 m outs c)
theorem V24_o31 (c : Dev nD) : V24 m outs c main_v130 = V1 m c main_v130 := (V24_of m outs c main_v130 (by decide)).trans (V23_o31 m outs c)
theorem V25_o31 (c : Dev nD) : V25 m outs c main_v130 = V1 m c main_v130 := (V25_of m outs c main_v130 (by decide)).trans (V24_o31 m outs c)
theorem V26_o31 (c : Dev nD) : V26 m outs c main_v130 = V1 m c main_v130 := (V26_of m outs c main_v130 (by decide)).trans (V25_o31 m outs c)
theorem V27_o31 (c : Dev nD) : V27 m outs c main_v130 = V1 m c main_v130 := (V27_of m outs c main_v130 (by decide)).trans (V26_o31 m outs c)
theorem V28_o31 (c : Dev nD) : V28 m outs c main_v130 = V1 m c main_v130 := (V28_of m outs c main_v130 (by decide)).trans (V27_o31 m outs c)
theorem V29_o31 (c : Dev nD) : V29 m outs c main_v130 = V1 m c main_v130 := (V29_of m outs c main_v130 (by decide)).trans (V28_o31 m outs c)
theorem V30_o31 (c : Dev nD) : V30 m outs c main_v130 = V1 m c main_v130 := (V30_of m outs c main_v130 (by decide)).trans (V29_o31 m outs c)
theorem V31_o31 (c : Dev nD) : V31 m outs c main_v130 = V1 m c main_v130 := (V31_of m outs c main_v130 (by decide)).trans (V30_o31 m outs c)
theorem V32_o31 (c : Dev nD) : V32 m outs c main_v130 = V1 m c main_v130 := (V32_of m outs c main_v130 (by decide)).trans (V31_o31 m outs c)
theorem V33_o31 (c : Dev nD) : V33 m outs c main_v130 = V1 m c main_v130 := (V33_of m outs c main_v130 (by decide)).trans (V32_o31 m outs c)
theorem V34_o31 (c : Dev nD) : V34 m outs c main_v130 = V1 m c main_v130 := (V34_of m outs c main_v130 (by decide)).trans (V33_o31 m outs c)
theorem V35_o31 (c : Dev nD) : V35 m outs c main_v130 = V1 m c main_v130 := (V35_of m outs c main_v130 (by decide)).trans (V34_o31 m outs c)
theorem V36_o31 (c : Dev nD) : V36 m outs c main_v130 = V1 m c main_v130 := (V36_of m outs c main_v130 (by decide)).trans (V35_o31 m outs c)
theorem V37_o31 (c : Dev nD) : V37 m outs c main_v130 = V1 m c main_v130 := (V37_of m outs c main_v130 (by decide)).trans (V36_o31 m outs c)
theorem V38_o31 (c : Dev nD) : V38 m outs c main_v130 = V1 m c main_v130 := (V38_of m outs c main_v130 (by decide)).trans (V37_o31 m outs c)
theorem V39_o31 (c : Dev nD) : V39 m outs c main_v130 = V1 m c main_v130 := (V39_of m outs c main_v130 (by decide)).trans (V38_o31 m outs c)
theorem V40_o31 (c : Dev nD) : V40 m outs c main_v130 = V1 m c main_v130 := (V40_of m outs c main_v130 (by decide)).trans (V39_o31 m outs c)
theorem V41_o31 (c : Dev nD) : V41 m outs c main_v130 = V1 m c main_v130 := (V41_of m outs c main_v130 (by decide)).trans (V40_o31 m outs c)
theorem V42_o31 (c : Dev nD) : V42 m outs c main_v130 = V1 m c main_v130 := (V42_of m outs c main_v130 (by decide)).trans (V41_o31 m outs c)
theorem V43_o31 (c : Dev nD) : V43 m outs c main_v130 = V1 m c main_v130 := (V43_of m outs c main_v130 (by decide)).trans (V42_o31 m outs c)
theorem V44_o31 (c : Dev nD) : V44 m outs c main_v130 = V1 m c main_v130 := (V44_of m outs c main_v130 (by decide)).trans (V43_o31 m outs c)
theorem V45_o31 (c : Dev nD) : V45 m outs c main_v130 = V1 m c main_v130 := (V45_of m outs c main_v130 (by decide)).trans (V44_o31 m outs c)
theorem V46_o31 (c : Dev nD) : V46 m outs c main_v130 = V1 m c main_v130 := (V46_of m outs c main_v130 (by decide)).trans (V45_o31 m outs c)
theorem V47_o31 (c : Dev nD) : V47 m outs c main_v130 = V1 m c main_v130 := (V47_of m outs c main_v130 (by decide)).trans (V46_o31 m outs c)
theorem V48_o31 (c : Dev nD) : V48 m outs c main_v130 = V1 m c main_v130 := (V48_of m outs c main_v130 (by decide)).trans (V47_o31 m outs c)
theorem V49_o31 (c : Dev nD) : V49 m outs c main_v130 = V1 m c main_v130 := (V49_of m outs c main_v130 (by decide)).trans (V48_o31 m outs c)
theorem V50_o31 (c : Dev nD) : V50 m outs c main_v130 = V1 m c main_v130 := (V50_of m outs c main_v130 (by decide)).trans (V49_o31 m outs c)
theorem V51_o31 (c : Dev nD) : V51 m outs c main_v130 = V1 m c main_v130 := (V51_of m outs c main_v130 (by decide)).trans (V50_o31 m outs c)
theorem V52_o31 (c : Dev nD) : V52 m outs c main_v130 = V1 m c main_v130 := (V52_of m outs c main_v130 (by decide)).trans (V51_o31 m outs c)
theorem V53_o31 (c : Dev nD) : V53 m outs c main_v130 = V1 m c main_v130 := (V53_of m outs c main_v130 (by decide)).trans (V52_o31 m outs c)
theorem V54_o31 (c : Dev nD) : V54 m outs c main_v130 = V1 m c main_v130 := (V54_of m outs c main_v130 (by decide)).trans (V53_o31 m outs c)
theorem V55_o31 (c : Dev nD) : V55 m outs c main_v130 = V1 m c main_v130 := (V55_of m outs c main_v130 (by decide)).trans (V54_o31 m outs c)
theorem V56_o31 (c : Dev nD) : V56 m outs c main_v130 = V1 m c main_v130 := (V56_of m outs c main_v130 (by decide)).trans (V55_o31 m outs c)
theorem V57_o31 (c : Dev nD) : V57 m outs c main_v130 = V1 m c main_v130 := (V57_of m outs c main_v130 (by decide)).trans (V56_o31 m outs c)
theorem V58_o31 (c : Dev nD) : V58 m outs c main_v130 = V1 m c main_v130 := (V58_of m outs c main_v130 (by decide)).trans (V57_o31 m outs c)
theorem V59_o31 (c : Dev nD) : V59 m outs c main_v130 = V1 m c main_v130 := (V59_of m outs c main_v130 (by decide)).trans (V58_o31 m outs c)
theorem V60_o31 (c : Dev nD) : V60 m outs c main_v130 = V1 m c main_v130 := (V60_of m outs c main_v130 (by decide)).trans (V59_o31 m outs c)
theorem V61_o31 (c : Dev nD) : V61 m outs c main_v130 = V1 m c main_v130 := (V61_of m outs c main_v130 (by decide)).trans (V60_o31 m outs c)
theorem V62_o31 (c : Dev nD) : V62 m outs c main_v130 = V1 m c main_v130 := (V62_of m outs c main_v130 (by decide)).trans (V61_o31 m outs c)
theorem V63_o31 (c : Dev nD) : V63 m outs c main_v130 = V1 m c main_v130 := (V63_of m outs c main_v130 (by decide)).trans (V62_o31 m outs c)

/-! ## The prefetched tables: host stretch k slices the index input and flattens the slice; read off the launch memory -/
def tbl0 : pre0.Contents (Elt F) := fun j => StableHlo.after hostOps0 (V0 m (0 : Dev nD)) (pre0.ref j)
def tbl1 : pre1.Contents (Elt F) := fun j => StableHlo.after hostOps1 (V0 m (0 : Dev nD)) (pre1.ref j)
def tbl2 : pre2.Contents (Elt F) := fun j => StableHlo.after hostOps2 (V0 m (0 : Dev nD)) (pre2.ref j)
def tbl3 : pre3.Contents (Elt F) := fun j => StableHlo.after hostOps3 (V0 m (0 : Dev nD)) (pre3.ref j)
def tbl4 : pre4.Contents (Elt F) := fun j => StableHlo.after hostOps4 (V0 m (0 : Dev nD)) (pre4.ref j)
def tbl5 : pre5.Contents (Elt F) := fun j => StableHlo.after hostOps5 (V0 m (0 : Dev nD)) (pre5.ref j)
def tbl6 : pre6.Contents (Elt F) := fun j => StableHlo.after hostOps6 (V0 m (0 : Dev nD)) (pre6.ref j)
def tbl7 : pre7.Contents (Elt F) := fun j => StableHlo.after hostOps7 (V0 m (0 : Dev nD)) (pre7.ref j)
def tbl8 : pre8.Contents (Elt F) := fun j => StableHlo.after hostOps8 (V0 m (0 : Dev nD)) (pre8.ref j)
def tbl9 : pre9.Contents (Elt F) := fun j => StableHlo.after hostOps9 (V0 m (0 : Dev nD)) (pre9.ref j)
def tbl10 : pre10.Contents (Elt F) := fun j => StableHlo.after hostOps10 (V0 m (0 : Dev nD)) (pre10.ref j)
def tbl11 : pre11.Contents (Elt F) := fun j => StableHlo.after hostOps11 (V0 m (0 : Dev nD)) (pre11.ref j)
def tbl12 : pre12.Contents (Elt F) := fun j => StableHlo.after hostOps12 (V0 m (0 : Dev nD)) (pre12.ref j)
def tbl13 : pre13.Contents (Elt F) := fun j => StableHlo.after hostOps13 (V0 m (0 : Dev nD)) (pre13.ref j)
def tbl14 : pre14.Contents (Elt F) := fun j => StableHlo.after hostOps14 (V0 m (0 : Dev nD)) (pre14.ref j)
def tbl15 : pre15.Contents (Elt F) := fun j => StableHlo.after hostOps15 (V0 m (0 : Dev nD)) (pre15.ref j)
def tbl16 : pre16.Contents (Elt F) := fun j => StableHlo.after hostOps16 (V0 m (0 : Dev nD)) (pre16.ref j)
def tbl17 : pre17.Contents (Elt F) := fun j => StableHlo.after hostOps17 (V0 m (0 : Dev nD)) (pre17.ref j)
def tbl18 : pre18.Contents (Elt F) := fun j => StableHlo.after hostOps18 (V0 m (0 : Dev nD)) (pre18.ref j)
def tbl19 : pre19.Contents (Elt F) := fun j => StableHlo.after hostOps19 (V0 m (0 : Dev nD)) (pre19.ref j)
def tbl20 : pre20.Contents (Elt F) := fun j => StableHlo.after hostOps20 (V0 m (0 : Dev nD)) (pre20.ref j)
def tbl21 : pre21.Contents (Elt F) := fun j => StableHlo.after hostOps21 (V0 m (0 : Dev nD)) (pre21.ref j)
def tbl22 : pre22.Contents (Elt F) := fun j => StableHlo.after hostOps22 (V0 m (0 : Dev nD)) (pre22.ref j)
def tbl23 : pre23.Contents (Elt F) := fun j => StableHlo.after hostOps23 (V0 m (0 : Dev nD)) (pre23.ref j)
def tbl24 : pre24.Contents (Elt F) := fun j => StableHlo.after hostOps24 (V0 m (0 : Dev nD)) (pre24.ref j)
def tbl25 : pre25.Contents (Elt F) := fun j => StableHlo.after hostOps25 (V0 m (0 : Dev nD)) (pre25.ref j)
def tbl26 : pre26.Contents (Elt F) := fun j => StableHlo.after hostOps26 (V0 m (0 : Dev nD)) (pre26.ref j)
def tbl27 : pre27.Contents (Elt F) := fun j => StableHlo.after hostOps27 (V0 m (0 : Dev nD)) (pre27.ref j)
def tbl28 : pre28.Contents (Elt F) := fun j => StableHlo.after hostOps28 (V0 m (0 : Dev nD)) (pre28.ref j)
def tbl29 : pre29.Contents (Elt F) := fun j => StableHlo.after hostOps29 (V0 m (0 : Dev nD)) (pre29.ref j)
def tbl30 : pre30.Contents (Elt F) := fun j => StableHlo.after hostOps30 (V0 m (0 : Dev nD)) (pre30.ref j)
def tbl31 : pre31.Contents (Elt F) := fun j => StableHlo.after hostOps31 (V0 m (0 : Dev nD)) (pre31.ref j)

/-- At the entry of region 0 its table buffer holds the table read off the launch memory, whatever the earlier regions left. -/
theorem Vin0_tbl (c : Dev nD) (j : Fin pre0.K) : V1 m c (pre0.ref j) = tbl0 m j := by
  obtain rfl : c = 0 := Subsingleton.elim _ _
  obtain rfl : j = 0 := Subsingleton.elim _ _
  rfl
/-- At the entry of region 1 its table buffer holds the table read off the launch memory, whatever the earlier regions left. -/
theorem Vin1_tbl (c : Dev nD) (j : Fin pre1.K) : V3 m outs c (pre1.ref j) = tbl1 m j := by
  obtain rfl : c = 0 := Subsingleton.elim _ _
  obtain rfl : j = 0 := Subsingleton.elim _ _
  show StableHlo.after hostOps1 (V2 m outs (0 : Dev nD)) (Proc.devRef .tc main_v9) = StableHlo.after hostOps1 (V0 m (0 : Dev nD)) (Proc.devRef .tc main_v9)
  after_results
  rw [show V2 m outs (0 : Dev nD) (Proc.devRef .tc main_arg1) = V0 m (0 : Dev nD) (Proc.devRef .tc main_arg1) from V2_arg1 m outs 0]
/-- At the entry of region 2 its table buffer holds the table read off the launch memory, whatever the earlier regions left. -/
theorem Vin2_tbl (c : Dev nD) (j : Fin pre2.K) : V5 m outs c (pre2.ref j) = tbl2 m j := by
  obtain rfl : c = 0 := Subsingleton.elim _ _
  obtain rfl : j = 0 := Subsingleton.elim _ _
  show StableHlo.after hostOps2 (V4 m outs (0 : Dev nD)) (Proc.devRef .tc main_v13) = StableHlo.after hostOps2 (V0 m (0 : Dev nD)) (Proc.devRef .tc main_v13)
  after_results
  rw [show V4 m outs (0 : Dev nD) (Proc.devRef .tc main_arg1) = V0 m (0 : Dev nD) (Proc.devRef .tc main_arg1) from V4_arg1 m outs 0]
/-- At the entry of region 3 its table buffer holds the table read off the launch memory, whatever the earlier regions left. -/
theorem Vin3_tbl (c : Dev nD) (j : Fin pre3.K) : V7 m outs c (pre3.ref j) = tbl3 m j := by
  obtain rfl : c = 0 := Subsingleton.elim _ _
  obtain rfl : j = 0 := Subsingleton.elim _ _
  show StableHlo.after hostOps3 (V6 m outs (0 : Dev nD)) (Proc.devRef .tc main_v17) = StableHlo.after hostOps3 (V0 m (0 : Dev nD)) (Proc.devRef .tc main_v17)
  after_results
  rw [show V6 m outs (0 : Dev nD) (Proc.devRef .tc main_arg1) = V0 m (0 : Dev nD) (Proc.devRef .tc main_arg1) from V6_arg1 m outs 0]
/-- At the entry of region 4 its table buffer holds the table read off the launch memory, whatever the earlier regions left. -/
theorem Vin4_tbl (c : Dev nD) (j : Fin pre4.K) : V9 m outs c (pre4.ref j) = tbl4 m j := by
  obtain rfl : c = 0 := Subsingleton.elim _ _
  obtain rfl : j = 0 := Subsingleton.elim _ _
  show StableHlo.after hostOps4 (V8 m outs (0 : Dev nD)) (Proc.devRef .tc main_v21) = StableHlo.after hostOps4 (V0 m (0 : Dev nD)) (Proc.devRef .tc main_v21)
  after_results
  rw [show V8 m outs (0 : Dev nD) (Proc.devRef .tc main_arg1) = V0 m (0 : Dev nD) (Proc.devRef .tc main_arg1) from V8_arg1 m outs 0]
/-- At the entry of region 5 its table buffer holds the table read off the launch memory, whatever the earlier regions left. -/
theorem Vin5_tbl (c : Dev nD) (j : Fin pre5.K) : V11 m outs c (pre5.ref j) = tbl5 m j := by
  obtain rfl : c = 0 := Subsingleton.elim _ _
  obtain rfl : j = 0 := Subsingleton.elim _ _
  show StableHlo.after hostOps5 (V10 m outs (0 : Dev nD)) (Proc.devRef .tc main_v25) = StableHlo.after hostOps5 (V0 m (0 : Dev nD)) (Proc.devRef .tc main_v25)
  after_results
  rw [show V10 m outs (0 : Dev nD) (Proc.devRef .tc main_arg1) = V0 m (0 : Dev nD) (Proc.devRef .tc main_arg1) from V10_arg1 m outs 0]
/-- At the entry of region 6 its table buffer holds the table read off the launch memory, whatever the earlier regions left. -/
theorem Vin6_tbl (c : Dev nD) (j : Fin pre6.K) : V13 m outs c (pre6.ref j) = tbl6 m j := by
  obtain rfl : c = 0 := Subsingleton.elim _ _
  obtain rfl : j = 0 := Subsingleton.elim _ _
  show StableHlo.after hostOps6 (V12 m outs (0 : Dev nD)) (Proc.devRef .tc main_v29) = StableHlo.after hostOps6 (V0 m (0 : Dev nD)) (Proc.devRef .tc main_v29)
  after_results
  rw [show V12 m outs (0 : Dev nD) (Proc.devRef .tc main_arg1) = V0 m (0 : Dev nD) (Proc.devRef .tc main_arg1) from V12_arg1 m outs 0]
/-- At the entry of region 7 its table buffer holds the table read off the launch memory, whatever the earlier regions left. -/
theorem Vin7_tbl (c : Dev nD) (j : Fin pre7.K) : V15 m outs c (pre7.ref j) = tbl7 m j := by
  obtain rfl : c = 0 := Subsingleton.elim _ _
  obtain rfl : j = 0 := Subsingleton.elim _ _
  show StableHlo.after hostOps7 (V14 m outs (0 : Dev nD)) (Proc.devRef .tc main_v33) = StableHlo.after hostOps7 (V0 m (0 : Dev nD)) (Proc.devRef .tc main_v33)
  after_results
  rw [show V14 m outs (0 : Dev nD) (Proc.devRef .tc main_arg1) = V0 m (0 : Dev nD) (Proc.devRef .tc main_arg1) from V14_arg1 m outs 0]
/-- At the entry of region 8 its table buffer holds the table read off the launch memory, whatever the earlier regions left. -/
theorem Vin8_tbl (c : Dev nD) (j : Fin pre8.K) : V17 m outs c (pre8.ref j) = tbl8 m j := by
  obtain rfl : c = 0 := Subsingleton.elim _ _
  obtain rfl : j = 0 := Subsingleton.elim _ _
  show StableHlo.after hostOps8 (V16 m outs (0 : Dev nD)) (Proc.devRef .tc main_v37) = StableHlo.after hostOps8 (V0 m (0 : Dev nD)) (Proc.devRef .tc main_v37)
  after_results
  rw [show V16 m outs (0 : Dev nD) (Proc.devRef .tc main_arg1) = V0 m (0 : Dev nD) (Proc.devRef .tc main_arg1) from V16_arg1 m outs 0]
/-- At the entry of region 9 its table buffer holds the table read off the launch memory, whatever the earlier regions left. -/
theorem Vin9_tbl (c : Dev nD) (j : Fin pre9.K) : V19 m outs c (pre9.ref j) = tbl9 m j := by
  obtain rfl : c = 0 := Subsingleton.elim _ _
  obtain rfl : j = 0 := Subsingleton.elim _ _
  show StableHlo.after hostOps9 (V18 m outs (0 : Dev nD)) (Proc.devRef .tc main_v41) = StableHlo.after hostOps9 (V0 m (0 : Dev nD)) (Proc.devRef .tc main_v41)
  after_results
  rw [show V18 m outs (0 : Dev nD) (Proc.devRef .tc main_arg1) = V0 m (0 : Dev nD) (Proc.devRef .tc main_arg1) from V18_arg1 m outs 0]
/-- At the entry of region 10 its table buffer holds the table read off the launch memory, whatever the earlier regions left. -/
theorem Vin10_tbl (c : Dev nD) (j : Fin pre10.K) : V21 m outs c (pre10.ref j) = tbl10 m j := by
  obtain rfl : c = 0 := Subsingleton.elim _ _
  obtain rfl : j = 0 := Subsingleton.elim _ _
  show StableHlo.after hostOps10 (V20 m outs (0 : Dev nD)) (Proc.devRef .tc main_v45) = StableHlo.after hostOps10 (V0 m (0 : Dev nD)) (Proc.devRef .tc main_v45)
  after_results
  rw [show V20 m outs (0 : Dev nD) (Proc.devRef .tc main_arg1) = V0 m (0 : Dev nD) (Proc.devRef .tc main_arg1) from V20_arg1 m outs 0]
/-- At the entry of region 11 its table buffer holds the table read off the launch memory, whatever the earlier regions left. -/
theorem Vin11_tbl (c : Dev nD) (j : Fin pre11.K) : V23 m outs c (pre11.ref j) = tbl11 m j := by
  obtain rfl : c = 0 := Subsingleton.elim _ _
  obtain rfl : j = 0 := Subsingleton.elim _ _
  show StableHlo.after hostOps11 (V22 m outs (0 : Dev nD)) (Proc.devRef .tc main_v49) = StableHlo.after hostOps11 (V0 m (0 : Dev nD)) (Proc.devRef .tc main_v49)
  after_results
  rw [show V22 m outs (0 : Dev nD) (Proc.devRef .tc main_arg1) = V0 m (0 : Dev nD) (Proc.devRef .tc main_arg1) from V22_arg1 m outs 0]
/-- At the entry of region 12 its table buffer holds the table read off the launch memory, whatever the earlier regions left. -/
theorem Vin12_tbl (c : Dev nD) (j : Fin pre12.K) : V25 m outs c (pre12.ref j) = tbl12 m j := by
  obtain rfl : c = 0 := Subsingleton.elim _ _
  obtain rfl : j = 0 := Subsingleton.elim _ _
  show StableHlo.after hostOps12 (V24 m outs (0 : Dev nD)) (Proc.devRef .tc main_v53) = StableHlo.after hostOps12 (V0 m (0 : Dev nD)) (Proc.devRef .tc main_v53)
  after_results
  rw [show V24 m outs (0 : Dev nD) (Proc.devRef .tc main_arg1) = V0 m (0 : Dev nD) (Proc.devRef .tc main_arg1) from V24_arg1 m outs 0]
/-- At the entry of region 13 its table buffer holds the table read off the launch memory, whatever the earlier regions left. -/
theorem Vin13_tbl (c : Dev nD) (j : Fin pre13.K) : V27 m outs c (pre13.ref j) = tbl13 m j := by
  obtain rfl : c = 0 := Subsingleton.elim _ _
  obtain rfl : j = 0 := Subsingleton.elim _ _
  show StableHlo.after hostOps13 (V26 m outs (0 : Dev nD)) (Proc.devRef .tc main_v57) = StableHlo.after hostOps13 (V0 m (0 : Dev nD)) (Proc.devRef .tc main_v57)
  after_results
  rw [show V26 m outs (0 : Dev nD) (Proc.devRef .tc main_arg1) = V0 m (0 : Dev nD) (Proc.devRef .tc main_arg1) from V26_arg1 m outs 0]
/-- At the entry of region 14 its table buffer holds the table read off the launch memory, whatever the earlier regions left. -/
theorem Vin14_tbl (c : Dev nD) (j : Fin pre14.K) : V29 m outs c (pre14.ref j) = tbl14 m j := by
  obtain rfl : c = 0 := Subsingleton.elim _ _
  obtain rfl : j = 0 := Subsingleton.elim _ _
  show StableHlo.after hostOps14 (V28 m outs (0 : Dev nD)) (Proc.devRef .tc main_v61) = StableHlo.after hostOps14 (V0 m (0 : Dev nD)) (Proc.devRef .tc main_v61)
  after_results
  rw [show V28 m outs (0 : Dev nD) (Proc.devRef .tc main_arg1) = V0 m (0 : Dev nD) (Proc.devRef .tc main_arg1) from V28_arg1 m outs 0]
/-- At the entry of region 15 its table buffer holds the table read off the launch memory, whatever the earlier regions left. -/
theorem Vin15_tbl (c : Dev nD) (j : Fin pre15.K) : V31 m outs c (pre15.ref j) = tbl15 m j := by
  obtain rfl : c = 0 := Subsingleton.elim _ _
  obtain rfl : j = 0 := Subsingleton.elim _ _
  show StableHlo.after hostOps15 (V30 m outs (0 : Dev nD)) (Proc.devRef .tc main_v65) = StableHlo.after hostOps15 (V0 m (0 : Dev nD)) (Proc.devRef .tc main_v65)
  after_results
  rw [show V30 m outs (0 : Dev nD) (Proc.devRef .tc main_arg1) = V0 m (0 : Dev nD) (Proc.devRef .tc main_arg1) from V30_arg1 m outs 0]
/-- At the entry of region 16 its table buffer holds the table read off the launch memory, whatever the earlier regions left. -/
theorem Vin16_tbl (c : Dev nD) (j : Fin pre16.K) : V33 m outs c (pre16.ref j) = tbl16 m j := by
  obtain rfl : c = 0 := Subsingleton.elim _ _
  obtain rfl : j = 0 := Subsingleton.elim _ _
  show StableHlo.after hostOps16 (V32 m outs (0 : Dev nD)) (Proc.devRef .tc main_v69) = StableHlo.after hostOps16 (V0 m (0 : Dev nD)) (Proc.devRef .tc main_v69)
  after_results
  rw [show V32 m outs (0 : Dev nD) (Proc.devRef .tc main_arg1) = V0 m (0 : Dev nD) (Proc.devRef .tc main_arg1) from V32_arg1 m outs 0]
/-- At the entry of region 17 its table buffer holds the table read off the launch memory, whatever the earlier regions left. -/
theorem Vin17_tbl (c : Dev nD) (j : Fin pre17.K) : V35 m outs c (pre17.ref j) = tbl17 m j := by
  obtain rfl : c = 0 := Subsingleton.elim _ _
  obtain rfl : j = 0 := Subsingleton.elim _ _
  show StableHlo.after hostOps17 (V34 m outs (0 : Dev nD)) (Proc.devRef .tc main_v73) = StableHlo.after hostOps17 (V0 m (0 : Dev nD)) (Proc.devRef .tc main_v73)
  after_results
  rw [show V34 m outs (0 : Dev nD) (Proc.devRef .tc main_arg1) = V0 m (0 : Dev nD) (Proc.devRef .tc main_arg1) from V34_arg1 m outs 0]
/-- At the entry of region 18 its table buffer holds the table read off the launch memory, whatever the earlier regions left. -/
theorem Vin18_tbl (c : Dev nD) (j : Fin pre18.K) : V37 m outs c (pre18.ref j) = tbl18 m j := by
  obtain rfl : c = 0 := Subsingleton.elim _ _
  obtain rfl : j = 0 := Subsingleton.elim _ _
  show StableHlo.after hostOps18 (V36 m outs (0 : Dev nD)) (Proc.devRef .tc main_v77) = StableHlo.after hostOps18 (V0 m (0 : Dev nD)) (Proc.devRef .tc main_v77)
  after_results
  rw [show V36 m outs (0 : Dev nD) (Proc.devRef .tc main_arg1) = V0 m (0 : Dev nD) (Proc.devRef .tc main_arg1) from V36_arg1 m outs 0]
/-- At the entry of region 19 its table buffer holds the table read off the launch memory, whatever the earlier regions left. -/
theorem Vin19_tbl (c : Dev nD) (j : Fin pre19.K) : V39 m outs c (pre19.ref j) = tbl19 m j := by
  obtain rfl : c = 0 := Subsingleton.elim _ _
  obtain rfl : j = 0 := Subsingleton.elim _ _
  show StableHlo.after hostOps19 (V38 m outs (0 : Dev nD)) (Proc.devRef .tc main_v81) = StableHlo.after hostOps19 (V0 m (0 : Dev nD)) (Proc.devRef .tc main_v81)
  after_results
  rw [show V38 m outs (0 : Dev nD) (Proc.devRef .tc main_arg1) = V0 m (0 : Dev nD) (Proc.devRef .tc main_arg1) from V38_arg1 m outs 0]
/-- At the entry of region 20 its table buffer holds the table read off the launch memory, whatever the earlier regions left. -/
theorem Vin20_tbl (c : Dev nD) (j : Fin pre20.K) : V41 m outs c (pre20.ref j) = tbl20 m j := by
  obtain rfl : c = 0 := Subsingleton.elim _ _
  obtain rfl : j = 0 := Subsingleton.elim _ _
  show StableHlo.after hostOps20 (V40 m outs (0 : Dev nD)) (Proc.devRef .tc main_v85) = StableHlo.after hostOps20 (V0 m (0 : Dev nD)) (Proc.devRef .tc main_v85)
  after_results
  rw [show V40 m outs (0 : Dev nD) (Proc.devRef .tc main_arg1) = V0 m (0 : Dev nD) (Proc.devRef .tc main_arg1) from V40_arg1 m outs 0]
/-- At the entry of region 21 its table buffer holds the table read off the launch memory, whatever the earlier regions left. -/
theorem Vin21_tbl (c : Dev nD) (j : Fin pre21.K) : V43 m outs c (pre21.ref j) = tbl21 m j := by
  obtain rfl : c = 0 := Subsingleton.elim _ _
  obtain rfl : j = 0 := Subsingleton.elim _ _
  show StableHlo.after hostOps21 (V42 m outs (0 : Dev nD)) (Proc.devRef .tc main_v89) = StableHlo.after hostOps21 (V0 m (0 : Dev nD)) (Proc.devRef .tc main_v89)
  after_results
  rw [show V42 m outs (0 : Dev nD) (Proc.devRef .tc main_arg1) = V0 m (0 : Dev nD) (Proc.devRef .tc main_arg1) from V42_arg1 m outs 0]
/-- At the entry of region 22 its table buffer holds the table read off the launch memory, whatever the earlier regions left. -/
theorem Vin22_tbl (c : Dev nD) (j : Fin pre22.K) : V45 m outs c (pre22.ref j) = tbl22 m j := by
  obtain rfl : c = 0 := Subsingleton.elim _ _
  obtain rfl : j = 0 := Subsingleton.elim _ _
  show StableHlo.after hostOps22 (V44 m outs (0 : Dev nD)) (Proc.devRef .tc main_v93) = StableHlo.after hostOps22 (V0 m (0 : Dev nD)) (Proc.devRef .tc main_v93)
  after_results
  rw [show V44 m outs (0 : Dev nD) (Proc.devRef .tc main_arg1) = V0 m (0 : Dev nD) (Proc.devRef .tc main_arg1) from V44_arg1 m outs 0]
/-- At the entry of region 23 its table buffer holds the table read off the launch memory, whatever the earlier regions left. -/
theorem Vin23_tbl (c : Dev nD) (j : Fin pre23.K) : V47 m outs c (pre23.ref j) = tbl23 m j := by
  obtain rfl : c = 0 := Subsingleton.elim _ _
  obtain rfl : j = 0 := Subsingleton.elim _ _
  show StableHlo.after hostOps23 (V46 m outs (0 : Dev nD)) (Proc.devRef .tc main_v97) = StableHlo.after hostOps23 (V0 m (0 : Dev nD)) (Proc.devRef .tc main_v97)
  after_results
  rw [show V46 m outs (0 : Dev nD) (Proc.devRef .tc main_arg1) = V0 m (0 : Dev nD) (Proc.devRef .tc main_arg1) from V46_arg1 m outs 0]
/-- At the entry of region 24 its table buffer holds the table read off the launch memory, whatever the earlier regions left. -/
theorem Vin24_tbl (c : Dev nD) (j : Fin pre24.K) : V49 m outs c (pre24.ref j) = tbl24 m j := by
  obtain rfl : c = 0 := Subsingleton.elim _ _
  obtain rfl : j = 0 := Subsingleton.elim _ _
  show StableHlo.after hostOps24 (V48 m outs (0 : Dev nD)) (Proc.devRef .tc main_v101) = StableHlo.after hostOps24 (V0 m (0 : Dev nD)) (Proc.devRef .tc main_v101)
  after_results
  rw [show V48 m outs (0 : Dev nD) (Proc.devRef .tc main_arg1) = V0 m (0 : Dev nD) (Proc.devRef .tc main_arg1) from V48_arg1 m outs 0]
/-- At the entry of region 25 its table buffer holds the table read off the launch memory, whatever the earlier regions left. -/
theorem Vin25_tbl (c : Dev nD) (j : Fin pre25.K) : V51 m outs c (pre25.ref j) = tbl25 m j := by
  obtain rfl : c = 0 := Subsingleton.elim _ _
  obtain rfl : j = 0 := Subsingleton.elim _ _
  show StableHlo.after hostOps25 (V50 m outs (0 : Dev nD)) (Proc.devRef .tc main_v105) = StableHlo.after hostOps25 (V0 m (0 : Dev nD)) (Proc.devRef .tc main_v105)
  after_results
  rw [show V50 m outs (0 : Dev nD) (Proc.devRef .tc main_arg1) = V0 m (0 : Dev nD) (Proc.devRef .tc main_arg1) from V50_arg1 m outs 0]
/-- At the entry of region 26 its table buffer holds the table read off the launch memory, whatever the earlier regions left. -/
theorem Vin26_tbl (c : Dev nD) (j : Fin pre26.K) : V53 m outs c (pre26.ref j) = tbl26 m j := by
  obtain rfl : c = 0 := Subsingleton.elim _ _
  obtain rfl : j = 0 := Subsingleton.elim _ _
  show StableHlo.after hostOps26 (V52 m outs (0 : Dev nD)) (Proc.devRef .tc main_v109) = StableHlo.after hostOps26 (V0 m (0 : Dev nD)) (Proc.devRef .tc main_v109)
  after_results
  rw [show V52 m outs (0 : Dev nD) (Proc.devRef .tc main_arg1) = V0 m (0 : Dev nD) (Proc.devRef .tc main_arg1) from V52_arg1 m outs 0]
/-- At the entry of region 27 its table buffer holds the table read off the launch memory, whatever the earlier regions left. -/
theorem Vin27_tbl (c : Dev nD) (j : Fin pre27.K) : V55 m outs c (pre27.ref j) = tbl27 m j := by
  obtain rfl : c = 0 := Subsingleton.elim _ _
  obtain rfl : j = 0 := Subsingleton.elim _ _
  show StableHlo.after hostOps27 (V54 m outs (0 : Dev nD)) (Proc.devRef .tc main_v113) = StableHlo.after hostOps27 (V0 m (0 : Dev nD)) (Proc.devRef .tc main_v113)
  after_results
  rw [show V54 m outs (0 : Dev nD) (Proc.devRef .tc main_arg1) = V0 m (0 : Dev nD) (Proc.devRef .tc main_arg1) from V54_arg1 m outs 0]
/-- At the entry of region 28 its table buffer holds the table read off the launch memory, whatever the earlier regions left. -/
theorem Vin28_tbl (c : Dev nD) (j : Fin pre28.K) : V57 m outs c (pre28.ref j) = tbl28 m j := by
  obtain rfl : c = 0 := Subsingleton.elim _ _
  obtain rfl : j = 0 := Subsingleton.elim _ _
  show StableHlo.after hostOps28 (V56 m outs (0 : Dev nD)) (Proc.devRef .tc main_v117) = StableHlo.after hostOps28 (V0 m (0 : Dev nD)) (Proc.devRef .tc main_v117)
  after_results
  rw [show V56 m outs (0 : Dev nD) (Proc.devRef .tc main_arg1) = V0 m (0 : Dev nD) (Proc.devRef .tc main_arg1) from V56_arg1 m outs 0]
/-- At the entry of region 29 its table buffer holds the table read off the launch memory, whatever the earlier regions left. -/
theorem Vin29_tbl (c : Dev nD) (j : Fin pre29.K) : V59 m outs c (pre29.ref j) = tbl29 m j := by
  obtain rfl : c = 0 := Subsingleton.elim _ _
  obtain rfl : j = 0 := Subsingleton.elim _ _
  show StableHlo.after hostOps29 (V58 m outs (0 : Dev nD)) (Proc.devRef .tc main_v121) = StableHlo.after hostOps29 (V0 m (0 : Dev nD)) (Proc.devRef .tc main_v121)
  after_results
  rw [show V58 m outs (0 : Dev nD) (Proc.devRef .tc main_arg1) = V0 m (0 : Dev nD) (Proc.devRef .tc main_arg1) from V58_arg1 m outs 0]
/-- At the entry of region 30 its table buffer holds the table read off the launch memory, whatever the earlier regions left. -/
theorem Vin30_tbl (c : Dev nD) (j : Fin pre30.K) : V61 m outs c (pre30.ref j) = tbl30 m j := by
  obtain rfl : c = 0 := Subsingleton.elim _ _
  obtain rfl : j = 0 := Subsingleton.elim _ _
  show StableHlo.after hostOps30 (V60 m outs (0 : Dev nD)) (Proc.devRef .tc main_v125) = StableHlo.after hostOps30 (V0 m (0 : Dev nD)) (Proc.devRef .tc main_v125)
  after_results
  rw [show V60 m outs (0 : Dev nD) (Proc.devRef .tc main_arg1) = V0 m (0 : Dev nD) (Proc.devRef .tc main_arg1) from V60_arg1 m outs 0]
/-- At the entry of region 31 its table buffer holds the table read off the launch memory, whatever the earlier regions left. -/
theorem Vin31_tbl (c : Dev nD) (j : Fin pre31.K) : V63 m outs c (pre31.ref j) = tbl31 m j := by
  obtain rfl : c = 0 := Subsingleton.elim _ _
  obtain rfl : j = 0 := Subsingleton.elim _ _
  show StableHlo.after hostOps31 (V62 m outs (0 : Dev nD)) (Proc.devRef .tc main_v129) = StableHlo.after hostOps31 (V0 m (0 : Dev nD)) (Proc.devRef .tc main_v129)
  after_results
  rw [show V62 m outs (0 : Dev nD) (Proc.devRef .tc main_arg1) = V0 m (0 : Dev nD) (Proc.devRef .tc main_arg1) from V62_arg1 m outs 0]

/-! ## Each region: the buffers it is entered from and left at, as the conditional frame names them -/

abbrev Vin0 (m : (ℓ : Loc nD τ sig) → Buf (Elt F) ℓ) (outs : Outs (F := F)) (c : Dev nD) : Valuation τ sig (Elt F) := V1 m c
abbrev Vout0 (m : (ℓ : Loc nD τ sig) → Buf (Elt F) ℓ) (outs : Outs (F := F)) (c : Dev nD) : Valuation τ sig (Elt F) := V2 m outs c
theorem Vin0_v3 (m : (ℓ : Loc nD τ sig) → Buf (Elt F) ℓ) (outs : Outs (F := F)) (c : Dev nD) : Vin0 m outs c main_v3 = V1 m c main_v3 := V1_v3 m c
theorem Vin0_out (m : (ℓ : Loc nD τ sig) → Buf (Elt F) ℓ) (outs : Outs (F := F)) (c : Dev nD) : Vin0 m outs c main_v6 = V1 m c main_v6 := V1_o0 m c
theorem Vout0_v3 (m : (ℓ : Loc nD τ sig) → Buf (Elt F) ℓ) (outs : Outs (F := F)) (c : Dev nD) : Vout0 m outs c main_v3 = V1 m c main_v3 := V2_v3 m outs c
theorem Vout0_out (m : (ℓ : Loc nD τ sig) → Buf (Elt F) ℓ) (outs : Outs (F := F)) (c : Dev nD) : Vout0 m outs c main_v6 = outs 2 main_v6 c := Function.update_self _ _ _
theorem Vout0_of (m : (ℓ : Loc nD τ sig) → Buf (Elt F) ℓ) (outs : Outs (F := F)) (c : Dev nD) (r : Ref sig .tc) (hr : r ∉ ([main_v6] : List (Ref sig .tc))) : Vout0 m outs c r = Vin0 m outs c r := V2_of m outs c r hr
theorem Vin0_tbl' (m : (ℓ : Loc nD τ sig) → Buf (Elt F) ℓ) (outs : Outs (F := F)) (c : Dev nD) (j : Fin pre0.K) : Vin0 m outs c (pre0.ref j) = tbl0 m j := Vin0_tbl m c j
abbrev Vin1 (m : (ℓ : Loc nD τ sig) → Buf (Elt F) ℓ) (outs : Outs (F := F)) (c : Dev nD) : Valuation τ sig (Elt F) := V3 m outs c
abbrev Vout1 (m : (ℓ : Loc nD τ sig) → Buf (Elt F) ℓ) (outs : Outs (F := F)) (c : Dev nD) : Valuation τ sig (Elt F) := V4 m outs c
theorem Vin1_v3 (m : (ℓ : Loc nD τ sig) → Buf (Elt F) ℓ) (outs : Outs (F := F)) (c : Dev nD) : Vin1 m outs c main_v3 = V1 m c main_v3 := V3_v3 m outs c
theorem Vin1_out (m : (ℓ : Loc nD τ sig) → Buf (Elt F) ℓ) (outs : Outs (F := F)) (c : Dev nD) : Vin1 m outs c main_v10 = V1 m c main_v10 := V3_o1 m outs c
theorem Vout1_v3 (m : (ℓ : Loc nD τ sig) → Buf (Elt F) ℓ) (outs : Outs (F := F)) (c : Dev nD) : Vout1 m outs c main_v3 = V1 m c main_v3 := V4_v3 m outs c
theorem Vout1_out (m : (ℓ : Loc nD τ sig) → Buf (Elt F) ℓ) (outs : Outs (F := F)) (c : Dev nD) : Vout1 m outs c main_v10 = outs 4 main_v10 c := Function.update_self _ _ _
theorem Vout1_of (m : (ℓ : Loc nD τ sig) → Buf (Elt F) ℓ) (outs : Outs (F := F)) (c : Dev nD) (r : Ref sig .tc) (hr : r ∉ ([main_v10] : List (Ref sig .tc))) : Vout1 m outs c r = Vin1 m outs c r := V4_of m outs c r hr
theorem Vin1_tbl' (m : (ℓ : Loc nD τ sig) → Buf (Elt F) ℓ) (outs : Outs (F := F)) (c : Dev nD) (j : Fin pre1.K) : Vin1 m outs c (pre1.ref j) = tbl1 m j := Vin1_tbl m outs c j
abbrev Vin2 (m : (ℓ : Loc nD τ sig) → Buf (Elt F) ℓ) (outs : Outs (F := F)) (c : Dev nD) : Valuation τ sig (Elt F) := V5 m outs c
abbrev Vout2 (m : (ℓ : Loc nD τ sig) → Buf (Elt F) ℓ) (outs : Outs (F := F)) (c : Dev nD) : Valuation τ sig (Elt F) := V6 m outs c
theorem Vin2_v3 (m : (ℓ : Loc nD τ sig) → Buf (Elt F) ℓ) (outs : Outs (F := F)) (c : Dev nD) : Vin2 m outs c main_v3 = V1 m c main_v3 := V5_v3 m outs c
theorem Vin2_out (m : (ℓ : Loc nD τ sig) → Buf (Elt F) ℓ) (outs : Outs (F := F)) (c : Dev nD) : Vin2 m outs c main_v14 = V1 m c main_v14 := V5_o2 m outs c
theorem Vout2_v3 (m : (ℓ : Loc nD τ sig) → Buf (Elt F) ℓ) (outs : Outs (F := F)) (c : Dev nD) : Vout2 m outs c main_v3 = V1 m c main_v3 := V6_v3 m outs c
theorem Vout2_out (m : (ℓ : Loc nD τ sig) → Buf (Elt F) ℓ) (outs : Outs (F := F)) (c : Dev nD) : Vout2 m outs c main_v14 = outs 6 main_v14 c := Function.update_self _ _ _
theorem Vout2_of (m : (ℓ : Loc nD τ sig) → Buf (Elt F) ℓ) (outs : Outs (F := F)) (c : Dev nD) (r : Ref sig .tc) (hr : r ∉ ([main_v14] : List (Ref sig .tc))) : Vout2 m outs c r = Vin2 m outs c r := V6_of m outs c r hr
theorem Vin2_tbl' (m : (ℓ : Loc nD τ sig) → Buf (Elt F) ℓ) (outs : Outs (F := F)) (c : Dev nD) (j : Fin pre2.K) : Vin2 m outs c (pre2.ref j) = tbl2 m j := Vin2_tbl m outs c j
abbrev Vin3 (m : (ℓ : Loc nD τ sig) → Buf (Elt F) ℓ) (outs : Outs (F := F)) (c : Dev nD) : Valuation τ sig (Elt F) := V7 m outs c
abbrev Vout3 (m : (ℓ : Loc nD τ sig) → Buf (Elt F) ℓ) (outs : Outs (F := F)) (c : Dev nD) : Valuation τ sig (Elt F) := V8 m outs c
theorem Vin3_v3 (m : (ℓ : Loc nD τ sig) → Buf (Elt F) ℓ) (outs : Outs (F := F)) (c : Dev nD) : Vin3 m outs c main_v3 = V1 m c main_v3 := V7_v3 m outs c
theorem Vin3_out (m : (ℓ : Loc nD τ sig) → Buf (Elt F) ℓ) (outs : Outs (F := F)) (c : Dev nD) : Vin3 m outs c main_v18 = V1 m c main_v18 := V7_o3 m outs c
theorem Vout3_v3 (m : (ℓ : Loc nD τ sig) → Buf (Elt F) ℓ) (outs : Outs (F := F)) (c : Dev nD) : Vout3 m outs c main_v3 = V1 m c main_v3 := V8_v3 m outs c
theorem Vout3_out (m : (ℓ : Loc nD τ sig) → Buf (Elt F) ℓ) (outs : Outs (F := F)) (c : Dev nD) : Vout3 m outs c main_v18 = outs 8 main_v18 c := Function.update_self _ _ _
theorem Vout3_of (m : (ℓ : Loc nD τ sig) → Buf (Elt F) ℓ) (outs : Outs (F := F)) (c : Dev nD) (r : Ref sig .tc) (hr : r ∉ ([main_v18] : List (Ref sig .tc))) : Vout3 m outs c r = Vin3 m outs c r := V8_of m outs c r hr
theorem Vin3_tbl' (m : (ℓ : Loc nD τ sig) → Buf (Elt F) ℓ) (outs : Outs (F := F)) (c : Dev nD) (j : Fin pre3.K) : Vin3 m outs c (pre3.ref j) = tbl3 m j := Vin3_tbl m outs c j
abbrev Vin4 (m : (ℓ : Loc nD τ sig) → Buf (Elt F) ℓ) (outs : Outs (F := F)) (c : Dev nD) : Valuation τ sig (Elt F) := V9 m outs c
abbrev Vout4 (m : (ℓ : Loc nD τ sig) → Buf (Elt F) ℓ) (outs : Outs (F := F)) (c : Dev nD) : Valuation τ sig (Elt F) := V10 m outs c
theorem Vin4_v3 (m : (ℓ : Loc nD τ sig) → Buf (Elt F) ℓ) (outs : Outs (F := F)) (c : Dev nD) : Vin4 m outs c main_v3 = V1 m c main_v3 := V9_v3 m outs c
theorem Vin4_out (m : (ℓ : Loc nD τ sig) → Buf (Elt F) ℓ) (outs : Outs (F := F)) (c : Dev nD) : Vin4 m outs c main_v22 = V1 m c main_v22 := V9_o4 m outs c
theorem Vout4_v3 (m : (ℓ : Loc nD τ sig) → Buf (Elt F) ℓ) (outs : Outs (F := F)) (c : Dev nD) : Vout4 m outs c main_v3 = V1 m c main_v3 := V10_v3 m outs c
theorem Vout4_out (m : (ℓ : Loc nD τ sig) → Buf (Elt F) ℓ) (outs : Outs (F := F)) (c : Dev nD) : Vout4 m outs c main_v22 = outs 10 main_v22 c := Function.update_self _ _ _
theorem Vout4_of (m : (ℓ : Loc nD τ sig) → Buf (Elt F) ℓ) (outs : Outs (F := F)) (c : Dev nD) (r : Ref sig .tc) (hr : r ∉ ([main_v22] : List (Ref sig .tc))) : Vout4 m outs c r = Vin4 m outs c r := V10_of m outs c r hr
theorem Vin4_tbl' (m : (ℓ : Loc nD τ sig) → Buf (Elt F) ℓ) (outs : Outs (F := F)) (c : Dev nD) (j : Fin pre4.K) : Vin4 m outs c (pre4.ref j) = tbl4 m j := Vin4_tbl m outs c j
abbrev Vin5 (m : (ℓ : Loc nD τ sig) → Buf (Elt F) ℓ) (outs : Outs (F := F)) (c : Dev nD) : Valuation τ sig (Elt F) := V11 m outs c
abbrev Vout5 (m : (ℓ : Loc nD τ sig) → Buf (Elt F) ℓ) (outs : Outs (F := F)) (c : Dev nD) : Valuation τ sig (Elt F) := V12 m outs c
theorem Vin5_v3 (m : (ℓ : Loc nD τ sig) → Buf (Elt F) ℓ) (outs : Outs (F := F)) (c : Dev nD) : Vin5 m outs c main_v3 = V1 m c main_v3 := V11_v3 m outs c
theorem Vin5_out (m : (ℓ : Loc nD τ sig) → Buf (Elt F) ℓ) (outs : Outs (F := F)) (c : Dev nD) : Vin5 m outs c main_v26 = V1 m c main_v26 := V11_o5 m outs c
theorem Vout5_v3 (m : (ℓ : Loc nD τ sig) → Buf (Elt F) ℓ) (outs : Outs (F := F)) (c : Dev nD) : Vout5 m outs c main_v3 = V1 m c main_v3 := V12_v3 m outs c
theorem Vout5_out (m : (ℓ : Loc nD τ sig) → Buf (Elt F) ℓ) (outs : Outs (F := F)) (c : Dev nD) : Vout5 m outs c main_v26 = outs 12 main_v26 c := Function.update_self _ _ _
theorem Vout5_of (m : (ℓ : Loc nD τ sig) → Buf (Elt F) ℓ) (outs : Outs (F := F)) (c : Dev nD) (r : Ref sig .tc) (hr : r ∉ ([main_v26] : List (Ref sig .tc))) : Vout5 m outs c r = Vin5 m outs c r := V12_of m outs c r hr
theorem Vin5_tbl' (m : (ℓ : Loc nD τ sig) → Buf (Elt F) ℓ) (outs : Outs (F := F)) (c : Dev nD) (j : Fin pre5.K) : Vin5 m outs c (pre5.ref j) = tbl5 m j := Vin5_tbl m outs c j
abbrev Vin6 (m : (ℓ : Loc nD τ sig) → Buf (Elt F) ℓ) (outs : Outs (F := F)) (c : Dev nD) : Valuation τ sig (Elt F) := V13 m outs c
abbrev Vout6 (m : (ℓ : Loc nD τ sig) → Buf (Elt F) ℓ) (outs : Outs (F := F)) (c : Dev nD) : Valuation τ sig (Elt F) := V14 m outs c
theorem Vin6_v3 (m : (ℓ : Loc nD τ sig) → Buf (Elt F) ℓ) (outs : Outs (F := F)) (c : Dev nD) : Vin6 m outs c main_v3 = V1 m c main_v3 := V13_v3 m outs c
theorem Vin6_out (m : (ℓ : Loc nD τ sig) → Buf (Elt F) ℓ) (outs : Outs (F := F)) (c : Dev nD) : Vin6 m outs c main_v30 = V1 m c main_v30 := V13_o6 m outs c
theorem Vout6_v3 (m : (ℓ : Loc nD τ sig) → Buf (Elt F) ℓ) (outs : Outs (F := F)) (c : Dev nD) : Vout6 m outs c main_v3 = V1 m c main_v3 := V14_v3 m outs c
theorem Vout6_out (m : (ℓ : Loc nD τ sig) → Buf (Elt F) ℓ) (outs : Outs (F := F)) (c : Dev nD) : Vout6 m outs c main_v30 = outs 14 main_v30 c := Function.update_self _ _ _
theorem Vout6_of (m : (ℓ : Loc nD τ sig) → Buf (Elt F) ℓ) (outs : Outs (F := F)) (c : Dev nD) (r : Ref sig .tc) (hr : r ∉ ([main_v30] : List (Ref sig .tc))) : Vout6 m outs c r = Vin6 m outs c r := V14_of m outs c r hr
theorem Vin6_tbl' (m : (ℓ : Loc nD τ sig) → Buf (Elt F) ℓ) (outs : Outs (F := F)) (c : Dev nD) (j : Fin pre6.K) : Vin6 m outs c (pre6.ref j) = tbl6 m j := Vin6_tbl m outs c j
abbrev Vin7 (m : (ℓ : Loc nD τ sig) → Buf (Elt F) ℓ) (outs : Outs (F := F)) (c : Dev nD) : Valuation τ sig (Elt F) := V15 m outs c
abbrev Vout7 (m : (ℓ : Loc nD τ sig) → Buf (Elt F) ℓ) (outs : Outs (F := F)) (c : Dev nD) : Valuation τ sig (Elt F) := V16 m outs c
theorem Vin7_v3 (m : (ℓ : Loc nD τ sig) → Buf (Elt F) ℓ) (outs : Outs (F := F)) (c : Dev nD) : Vin7 m outs c main_v3 = V1 m c main_v3 := V15_v3 m outs c
theorem Vin7_out (m : (ℓ : Loc nD τ sig) → Buf (Elt F) ℓ) (outs : Outs (F := F)) (c : Dev nD) : Vin7 m outs c main_v34 = V1 m c main_v34 := V15_o7 m outs c
theorem Vout7_v3 (m : (ℓ : Loc nD τ sig) → Buf (Elt F) ℓ) (outs : Outs (F := F)) (c : Dev nD) : Vout7 m outs c main_v3 = V1 m c main_v3 := V16_v3 m outs c
theorem Vout7_out (m : (ℓ : Loc nD τ sig) → Buf (Elt F) ℓ) (outs : Outs (F := F)) (c : Dev nD) : Vout7 m outs c main_v34 = outs 16 main_v34 c := Function.update_self _ _ _
theorem Vout7_of (m : (ℓ : Loc nD τ sig) → Buf (Elt F) ℓ) (outs : Outs (F := F)) (c : Dev nD) (r : Ref sig .tc) (hr : r ∉ ([main_v34] : List (Ref sig .tc))) : Vout7 m outs c r = Vin7 m outs c r := V16_of m outs c r hr
theorem Vin7_tbl' (m : (ℓ : Loc nD τ sig) → Buf (Elt F) ℓ) (outs : Outs (F := F)) (c : Dev nD) (j : Fin pre7.K) : Vin7 m outs c (pre7.ref j) = tbl7 m j := Vin7_tbl m outs c j
abbrev Vin8 (m : (ℓ : Loc nD τ sig) → Buf (Elt F) ℓ) (outs : Outs (F := F)) (c : Dev nD) : Valuation τ sig (Elt F) := V17 m outs c
abbrev Vout8 (m : (ℓ : Loc nD τ sig) → Buf (Elt F) ℓ) (outs : Outs (F := F)) (c : Dev nD) : Valuation τ sig (Elt F) := V18 m outs c
theorem Vin8_v3 (m : (ℓ : Loc nD τ sig) → Buf (Elt F) ℓ) (outs : Outs (F := F)) (c : Dev nD) : Vin8 m outs c main_v3 = V1 m c main_v3 := V17_v3 m outs c
theorem Vin8_out (m : (ℓ : Loc nD τ sig) → Buf (Elt F) ℓ) (outs : Outs (F := F)) (c : Dev nD) : Vin8 m outs c main_v38 = V1 m c main_v38 := V17_o8 m outs c
theorem Vout8_v3 (m : (ℓ : Loc nD τ sig) → Buf (Elt F) ℓ) (outs : Outs (F := F)) (c : Dev nD) : Vout8 m outs c main_v3 = V1 m c main_v3 := V18_v3 m outs c
theorem Vout8_out (m : (ℓ : Loc nD τ sig) → Buf (Elt F) ℓ) (outs : Outs (F := F)) (c : Dev nD) : Vout8 m outs c main_v38 = outs 18 main_v38 c := Function.update_self _ _ _
theorem Vout8_of (m : (ℓ : Loc nD τ sig) → Buf (Elt F) ℓ) (outs : Outs (F := F)) (c : Dev nD) (r : Ref sig .tc) (hr : r ∉ ([main_v38] : List (Ref sig .tc))) : Vout8 m outs c r = Vin8 m outs c r := V18_of m outs c r hr
theorem Vin8_tbl' (m : (ℓ : Loc nD τ sig) → Buf (Elt F) ℓ) (outs : Outs (F := F)) (c : Dev nD) (j : Fin pre8.K) : Vin8 m outs c (pre8.ref j) = tbl8 m j := Vin8_tbl m outs c j
abbrev Vin9 (m : (ℓ : Loc nD τ sig) → Buf (Elt F) ℓ) (outs : Outs (F := F)) (c : Dev nD) : Valuation τ sig (Elt F) := V19 m outs c
abbrev Vout9 (m : (ℓ : Loc nD τ sig) → Buf (Elt F) ℓ) (outs : Outs (F := F)) (c : Dev nD) : Valuation τ sig (Elt F) := V20 m outs c
theorem Vin9_v3 (m : (ℓ : Loc nD τ sig) → Buf (Elt F) ℓ) (outs : Outs (F := F)) (c : Dev nD) : Vin9 m outs c main_v3 = V1 m c main_v3 := V19_v3 m outs c
theorem Vin9_out (m : (ℓ : Loc nD τ sig) → Buf (Elt F) ℓ) (outs : Outs (F := F)) (c : Dev nD) : Vin9 m outs c main_v42 = V1 m c main_v42 := V19_o9 m outs c
theorem Vout9_v3 (m : (ℓ : Loc nD τ sig) → Buf (Elt F) ℓ) (outs : Outs (F := F)) (c : Dev nD) : Vout9 m outs c main_v3 = V1 m c main_v3 := V20_v3 m outs c
theorem Vout9_out (m : (ℓ : Loc nD τ sig) → Buf (Elt F) ℓ) (outs : Outs (F := F)) (c : Dev nD) : Vout9 m outs c main_v42 = outs 20 main_v42 c := Function.update_self _ _ _
theorem Vout9_of (m : (ℓ : Loc nD τ sig) → Buf (Elt F) ℓ) (outs : Outs (F := F)) (c : Dev nD) (r : Ref sig .tc) (hr : r ∉ ([main_v42] : List (Ref sig .tc))) : Vout9 m outs c r = Vin9 m outs c r := V20_of m outs c r hr
theorem Vin9_tbl' (m : (ℓ : Loc nD τ sig) → Buf (Elt F) ℓ) (outs : Outs (F := F)) (c : Dev nD) (j : Fin pre9.K) : Vin9 m outs c (pre9.ref j) = tbl9 m j := Vin9_tbl m outs c j
abbrev Vin10 (m : (ℓ : Loc nD τ sig) → Buf (Elt F) ℓ) (outs : Outs (F := F)) (c : Dev nD) : Valuation τ sig (Elt F) := V21 m outs c
abbrev Vout10 (m : (ℓ : Loc nD τ sig) → Buf (Elt F) ℓ) (outs : Outs (F := F)) (c : Dev nD) : Valuation τ sig (Elt F) := V22 m outs c
theorem Vin10_v3 (m : (ℓ : Loc nD τ sig) → Buf (Elt F) ℓ) (outs : Outs (F := F)) (c : Dev nD) : Vin10 m outs c main_v3 = V1 m c main_v3 := V21_v3 m outs c
theorem Vin10_out (m : (ℓ : Loc nD τ sig) → Buf (Elt F) ℓ) (outs : Outs (F := F)) (c : Dev nD) : Vin10 m outs c main_v46 = V1 m c main_v46 := V21_o10 m outs c
theorem Vout10_v3 (m : (ℓ : Loc nD τ sig) → Buf (Elt F) ℓ) (outs : Outs (F := F)) (c : Dev nD) : Vout10 m outs c main_v3 = V1 m c main_v3 := V22_v3 m outs c
theorem Vout10_out (m : (ℓ : Loc nD τ sig) → Buf (Elt F) ℓ) (outs : Outs (F := F)) (c : Dev nD) : Vout10 m outs c main_v46 = outs 22 main_v46 c := Function.update_self _ _ _
theorem Vout10_of (m : (ℓ : Loc nD τ sig) → Buf (Elt F) ℓ) (outs : Outs (F := F)) (c : Dev nD) (r : Ref sig .tc) (hr : r ∉ ([main_v46] : List (Ref sig .tc))) : Vout10 m outs c r = Vin10 m outs c r := V22_of m outs c r hr
theorem Vin10_tbl' (m : (ℓ : Loc nD τ sig) → Buf (Elt F) ℓ) (outs : Outs (F := F)) (c : Dev nD) (j : Fin pre10.K) : Vin10 m outs c (pre10.ref j) = tbl10 m j := Vin10_tbl m outs c j
abbrev Vin11 (m : (ℓ : Loc nD τ sig) → Buf (Elt F) ℓ) (outs : Outs (F := F)) (c : Dev nD) : Valuation τ sig (Elt F) := V23 m outs c
abbrev Vout11 (m : (ℓ : Loc nD τ sig) → Buf (Elt F) ℓ) (outs : Outs (F := F)) (c : Dev nD) : Valuation τ sig (Elt F) := V24 m outs c
theorem Vin11_v3 (m : (ℓ : Loc nD τ sig) → Buf (Elt F) ℓ) (outs : Outs (F := F)) (c : Dev nD) : Vin11 m outs c main_v3 = V1 m c main_v3 := V23_v3 m outs c
theorem Vin11_out (m : (ℓ : Loc nD τ sig) → Buf (Elt F) ℓ) (outs : Outs (F := F)) (c : Dev nD) : Vin11 m outs c main_v50 = V1 m c main_v50 := V23_o11 m outs c
theorem Vout11_v3 (m : (ℓ : Loc nD τ sig) → Buf (Elt F) ℓ) (outs : Outs (F := F)) (c : Dev nD) : Vout11 m outs c main_v3 = V1 m c main_v3 := V24_v3 m outs c
theorem Vout11_out (m : (ℓ : Loc nD τ sig) → Buf (Elt F) ℓ) (outs : Outs (F := F)) (c : Dev nD) : Vout11 m outs c main_v50 = outs 24 main_v50 c := Function.update_self _ _ _
theorem Vout11_of (m : (ℓ : Loc nD τ sig) → Buf (Elt F) ℓ) (outs : Outs (F := F)) (c : Dev nD) (r : Ref sig .tc) (hr : r ∉ ([main_v50] : List (Ref sig .tc))) : Vout11 m outs c r = Vin11 m outs c r := V24_of m outs c r hr
theorem Vin11_tbl' (m : (ℓ : Loc nD τ sig) → Buf (Elt F) ℓ) (outs : Outs (F := F)) (c : Dev nD) (j : Fin pre11.K) : Vin11 m outs c (pre11.ref j) = tbl11 m j := Vin11_tbl m outs c j
abbrev Vin12 (m : (ℓ : Loc nD τ sig) → Buf (Elt F) ℓ) (outs : Outs (F := F)) (c : Dev nD) : Valuation τ sig (Elt F) := V25 m outs c
abbrev Vout12 (m : (ℓ : Loc nD τ sig) → Buf (Elt F) ℓ) (outs : Outs (F := F)) (c : Dev nD) : Valuation τ sig (Elt F) := V26 m outs c
theorem Vin12_v3 (m : (ℓ : Loc nD τ sig) → Buf (Elt F) ℓ) (outs : Outs (F := F)) (c : Dev nD) : Vin12 m outs c main_v3 = V1 m c main_v3 := V25_v3 m outs c
theorem Vin12_out (m : (ℓ : Loc nD τ sig) → Buf (Elt F) ℓ) (outs : Outs (F := F)) (c : Dev nD) : Vin12 m outs c main_v54 = V1 m c main_v54 := V25_o12 m outs c
theorem Vout12_v3 (m : (ℓ : Loc nD τ sig) → Buf (Elt F) ℓ) (outs : Outs (F := F)) (c : Dev nD) : Vout12 m outs c main_v3 = V1 m c main_v3 := V26_v3 m outs c
theorem Vout12_out (m : (ℓ : Loc nD τ sig) → Buf (Elt F) ℓ) (outs : Outs (F := F)) (c : Dev nD) : Vout12 m outs c main_v54 = outs 26 main_v54 c := Function.update_self _ _ _
theorem Vout12_of (m : (ℓ : Loc nD τ sig) → Buf (Elt F) ℓ) (outs : Outs (F := F)) (c : Dev nD) (r : Ref sig .tc) (hr : r ∉ ([main_v54] : List (Ref sig .tc))) : Vout12 m outs c r = Vin12 m outs c r := V26_of m outs c r hr
theorem Vin12_tbl' (m : (ℓ : Loc nD τ sig) → Buf (Elt F) ℓ) (outs : Outs (F := F)) (c : Dev nD) (j : Fin pre12.K) : Vin12 m outs c (pre12.ref j) = tbl12 m j := Vin12_tbl m outs c j
abbrev Vin13 (m : (ℓ : Loc nD τ sig) → Buf (Elt F) ℓ) (outs : Outs (F := F)) (c : Dev nD) : Valuation τ sig (Elt F) := V27 m outs c
abbrev Vout13 (m : (ℓ : Loc nD τ sig) → Buf (Elt F) ℓ) (outs : Outs (F := F)) (c : Dev nD) : Valuation τ sig (Elt F) := V28 m outs c
theorem Vin13_v3 (m : (ℓ : Loc nD τ sig) → Buf (Elt F) ℓ) (outs : Outs (F := F)) (c : Dev nD) : Vin13 m outs c main_v3 = V1 m c main_v3 := V27_v3 m outs c
theorem Vin13_out (m : (ℓ : Loc nD τ sig) → Buf (Elt F) ℓ) (outs : Outs (F := F)) (c : Dev nD) : Vin13 m outs c main_v58 = V1 m c main_v58 := V27_o13 m outs c
theorem Vout13_v3 (m : (ℓ : Loc nD τ sig) → Buf (Elt F) ℓ) (outs : Outs (F := F)) (c : Dev nD) : Vout13 m outs c main_v3 = V1 m c main_v3 := V28_v3 m outs c
theorem Vout13_out (m : (ℓ : Loc nD τ sig) → Buf (Elt F) ℓ) (outs : Outs (F := F)) (c : Dev nD) : Vout13 m outs c main_v58 = outs 28 main_v58 c := Function.update_self _ _ _
theorem Vout13_of (m : (ℓ : Loc nD τ sig) → Buf (Elt F) ℓ) (outs : Outs (F := F)) (c : Dev nD) (r : Ref sig .tc) (hr : r ∉ ([main_v58] : List (Ref sig .tc))) : Vout13 m outs c r = Vin13 m outs c r := V28_of m outs c r hr
theorem Vin13_tbl' (m : (ℓ : Loc nD τ sig) → Buf (Elt F) ℓ) (outs : Outs (F := F)) (c : Dev nD) (j : Fin pre13.K) : Vin13 m outs c (pre13.ref j) = tbl13 m j := Vin13_tbl m outs c j
abbrev Vin14 (m : (ℓ : Loc nD τ sig) → Buf (Elt F) ℓ) (outs : Outs (F := F)) (c : Dev nD) : Valuation τ sig (Elt F) := V29 m outs c
abbrev Vout14 (m : (ℓ : Loc nD τ sig) → Buf (Elt F) ℓ) (outs : Outs (F := F)) (c : Dev nD) : Valuation τ sig (Elt F) := V30 m outs c
theorem Vin14_v3 (m : (ℓ : Loc nD τ sig) → Buf (Elt F) ℓ) (outs : Outs (F := F)) (c : Dev nD) : Vin14 m outs c main_v3 = V1 m c main_v3 := V29_v3 m outs c
theorem Vin14_out (m : (ℓ : Loc nD τ sig) → Buf (Elt F) ℓ) (outs : Outs (F := F)) (c : Dev nD) : Vin14 m outs c main_v62 = V1 m c main_v62 := V29_o14 m outs c
theorem Vout14_v3 (m : (ℓ : Loc nD τ sig) → Buf (Elt F) ℓ) (outs : Outs (F := F)) (c : Dev nD) : Vout14 m outs c main_v3 = V1 m c main_v3 := V30_v3 m outs c
theorem Vout14_out (m : (ℓ : Loc nD τ sig) → Buf (Elt F) ℓ) (outs : Outs (F := F)) (c : Dev nD) : Vout14 m outs c main_v62 = outs 30 main_v62 c := Function.update_self _ _ _
theorem Vout14_of (m : (ℓ : Loc nD τ sig) → Buf (Elt F) ℓ) (outs : Outs (F := F)) (c : Dev nD) (r : Ref sig .tc) (hr : r ∉ ([main_v62] : List (Ref sig .tc))) : Vout14 m outs c r = Vin14 m outs c r := V30_of m outs c r hr
theorem Vin14_tbl' (m : (ℓ : Loc nD τ sig) → Buf (Elt F) ℓ) (outs : Outs (F := F)) (c : Dev nD) (j : Fin pre14.K) : Vin14 m outs c (pre14.ref j) = tbl14 m j := Vin14_tbl m outs c j
abbrev Vin15 (m : (ℓ : Loc nD τ sig) → Buf (Elt F) ℓ) (outs : Outs (F := F)) (c : Dev nD) : Valuation τ sig (Elt F) := V31 m outs c
abbrev Vout15 (m : (ℓ : Loc nD τ sig) → Buf (Elt F) ℓ) (outs : Outs (F := F)) (c : Dev nD) : Valuation τ sig (Elt F) := V32 m outs c
theorem Vin15_v3 (m : (ℓ : Loc nD τ sig) → Buf (Elt F) ℓ) (outs : Outs (F := F)) (c : Dev nD) : Vin15 m outs c main_v3 = V1 m c main_v3 := V31_v3 m outs c
theorem Vin15_out (m : (ℓ : Loc nD τ sig) → Buf (Elt F) ℓ) (outs : Outs (F := F)) (c : Dev nD) : Vin15 m outs c main_v66 = V1 m c main_v66 := V31_o15 m outs c
theorem Vout15_v3 (m : (ℓ : Loc nD τ sig) → Buf (Elt F) ℓ) (outs : Outs (F := F)) (c : Dev nD) : Vout15 m outs c main_v3 = V1 m c main_v3 := V32_v3 m outs c
theorem Vout15_out (m : (ℓ : Loc nD τ sig) → Buf (Elt F) ℓ) (outs : Outs (F := F)) (c : Dev nD) : Vout15 m outs c main_v66 = outs 32 main_v66 c := Function.update_self _ _ _
theorem Vout15_of (m : (ℓ : Loc nD τ sig) → Buf (Elt F) ℓ) (outs : Outs (F := F)) (c : Dev nD) (r : Ref sig .tc) (hr : r ∉ ([main_v66] : List (Ref sig .tc))) : Vout15 m outs c r = Vin15 m outs c r := V32_of m outs c r hr
theorem Vin15_tbl' (m : (ℓ : Loc nD τ sig) → Buf (Elt F) ℓ) (outs : Outs (F := F)) (c : Dev nD) (j : Fin pre15.K) : Vin15 m outs c (pre15.ref j) = tbl15 m j := Vin15_tbl m outs c j
abbrev Vin16 (m : (ℓ : Loc nD τ sig) → Buf (Elt F) ℓ) (outs : Outs (F := F)) (c : Dev nD) : Valuation τ sig (Elt F) := V33 m outs c
abbrev Vout16 (m : (ℓ : Loc nD τ sig) → Buf (Elt F) ℓ) (outs : Outs (F := F)) (c : Dev nD) : Valuation τ sig (Elt F) := V34 m outs c
theorem Vin16_v3 (m : (ℓ : Loc nD τ sig) → Buf (Elt F) ℓ) (outs : Outs (F := F)) (c : Dev nD) : Vin16 m outs c main_v3 = V1 m c main_v3 := V33_v3 m outs c
theorem Vin16_out (m : (ℓ : Loc nD τ sig) → Buf (Elt F) ℓ) (outs : Outs (F := F)) (c : Dev nD) : Vin16 m outs c main_v70 = V1 m c main_v70 := V33_o16 m outs c
theorem Vout16_v3 (m : (ℓ : Loc nD τ sig) → Buf (Elt F) ℓ) (outs : Outs (F := F)) (c : Dev nD) : Vout16 m outs c main_v3 = V1 m c main_v3 := V34_v3 m outs c
theorem Vout16_out (m : (ℓ : Loc nD τ sig) → Buf (Elt F) ℓ) (outs : Outs (F := F)) (c : Dev nD) : Vout16 m outs c main_v70 = outs 34 main_v70 c := Function.update_self _ _ _
theorem Vout16_of (m : (ℓ : Loc nD τ sig) → Buf (Elt F) ℓ) (outs : Outs (F := F)) (c : Dev nD) (r : Ref sig .tc) (hr : r ∉ ([main_v70] : List (Ref sig .tc))) : Vout16 m outs c r = Vin16 m outs c r := V34_of m outs c r hr
theorem Vin16_tbl' (m : (ℓ : Loc nD τ sig) → Buf (Elt F) ℓ) (outs : Outs (F := F)) (c : Dev nD) (j : Fin pre16.K) : Vin16 m outs c (pre16.ref j) = tbl16 m j := Vin16_tbl m outs c j
abbrev Vin17 (m : (ℓ : Loc nD τ sig) → Buf (Elt F) ℓ) (outs : Outs (F := F)) (c : Dev nD) : Valuation τ sig (Elt F) := V35 m outs c
abbrev Vout17 (m : (ℓ : Loc nD τ sig) → Buf (Elt F) ℓ) (outs : Outs (F := F)) (c : Dev nD) : Valuation τ sig (Elt F) := V36 m outs c
theorem Vin17_v3 (m : (ℓ : Loc nD τ sig) → Buf (Elt F) ℓ) (outs : Outs (F := F)) (c : Dev nD) : Vin17 m outs c main_v3 = V1 m c main_v3 := V35_v3 m outs c
theorem Vin17_out (m : (ℓ : Loc nD τ sig) → Buf (Elt F) ℓ) (outs : Outs (F := F)) (c : Dev nD) : Vin17 m outs c main_v74 = V1 m c main_v74 := V35_o17 m outs c
theorem Vout17_v3 (m : (ℓ : Loc nD τ sig) → Buf (Elt F) ℓ) (outs : Outs (F := F)) (c : Dev nD) : Vout17 m outs c main_v3 = V1 m c main_v3 := V36_v3 m outs c
theorem Vout17_out (m : (ℓ : Loc nD τ sig) → Buf (Elt F) ℓ) (outs : Outs (F := F)) (c : Dev nD) : Vout17 m outs c main_v74 = outs 36 main_v74 c := Function.update_self _ _ _
theorem Vout17_of (m : (ℓ : Loc nD τ sig) → Buf (Elt F) ℓ) (outs : Outs (F := F)) (c : Dev nD) (r : Ref sig .tc) (hr : r ∉ ([main_v74] : List (Ref sig .tc))) : Vout17 m outs c r = Vin17 m outs c r := V36_of m outs c r hr
theorem Vin17_tbl' (m : (ℓ : Loc nD τ sig) → Buf (Elt F) ℓ) (outs : Outs (F := F)) (c : Dev nD) (j : Fin pre17.K) : Vin17 m outs c (pre17.ref j) = tbl17 m j := Vin17_tbl m outs c j
abbrev Vin18 (m : (ℓ : Loc nD τ sig) → Buf (Elt F) ℓ) (outs : Outs (F := F)) (c : Dev nD) : Valuation τ sig (Elt F) := V37 m outs c
abbrev Vout18 (m : (ℓ : Loc nD τ sig) → Buf (Elt F) ℓ) (outs : Outs (F := F)) (c : Dev nD) : Valuation τ sig (Elt F) := V38 m outs c
theorem Vin18_v3 (m : (ℓ : Loc nD τ sig) → Buf (Elt F) ℓ) (outs : Outs (F := F)) (c : Dev nD) : Vin18 m outs c main_v3 = V1 m c main_v3 := V37_v3 m outs c
theorem Vin18_out (m : (ℓ : Loc nD τ sig) → Buf (Elt F) ℓ) (outs : Outs (F := F)) (c : Dev nD) : Vin18 m outs c main_v78 = V1 m c main_v78 := V37_o18 m outs c
theorem Vout18_v3 (m : (ℓ : Loc nD τ sig) → Buf (Elt F) ℓ) (outs : Outs (F := F)) (c : Dev nD) : Vout18 m outs c main_v3 = V1 m c main_v3 := V38_v3 m outs c
theorem Vout18_out (m : (ℓ : Loc nD τ sig) → Buf (Elt F) ℓ) (outs : Outs (F := F)) (c : Dev nD) : Vout18 m outs c main_v78 = outs 38 main_v78 c := Function.update_self _ _ _
theorem Vout18_of (m : (ℓ : Loc nD τ sig) → Buf (Elt F) ℓ) (outs : Outs (F := F)) (c : Dev nD) (r : Ref sig .tc) (hr : r ∉ ([main_v78] : List (Ref sig .tc))) : Vout18 m outs c r = Vin18 m outs c r := V38_of m outs c r hr
theorem Vin18_tbl' (m : (ℓ : Loc nD τ sig) → Buf (Elt F) ℓ) (outs : Outs (F := F)) (c : Dev nD) (j : Fin pre18.K) : Vin18 m outs c (pre18.ref j) = tbl18 m j := Vin18_tbl m outs c j
abbrev Vin19 (m : (ℓ : Loc nD τ sig) → Buf (Elt F) ℓ) (outs : Outs (F := F)) (c : Dev nD) : Valuation τ sig (Elt F) := V39 m outs c
abbrev Vout19 (m : (ℓ : Loc nD τ sig) → Buf (Elt F) ℓ) (outs : Outs (F := F)) (c : Dev nD) : Valuation τ sig (Elt F) := V40 m outs c
theorem Vin19_v3 (m : (ℓ : Loc nD τ sig) → Buf (Elt F) ℓ) (outs : Outs (F := F)) (c : Dev nD) : Vin19 m outs c main_v3 = V1 m c main_v3 := V39_v3 m outs c
theorem Vin19_out (m : (ℓ : Loc nD τ sig) → Buf (Elt F) ℓ) (outs : Outs (F := F)) (c : Dev nD) : Vin19 m outs c main_v82 = V1 m c main_v82 := V39_o19 m outs c
theorem Vout19_v3 (m : (ℓ : Loc nD τ sig) → Buf (Elt F) ℓ) (outs : Outs (F := F)) (c : Dev nD) : Vout19 m outs c main_v3 = V1 m c main_v3 := V40_v3 m outs c
theorem Vout19_out (m : (ℓ : Loc nD τ sig) → Buf (Elt F) ℓ) (outs : Outs (F := F)) (c : Dev nD) : Vout19 m outs c main_v82 = outs 40 main_v82 c := Function.update_self _ _ _
theorem Vout19_of (m : (ℓ : Loc nD τ sig) → Buf (Elt F) ℓ) (outs : Outs (F := F)) (c : Dev nD) (r : Ref sig .tc) (hr : r ∉ ([main_v82] : List (Ref sig .tc))) : Vout19 m outs c r = Vin19 m outs c r := V40_of m outs c r hr
theorem Vin19_tbl' (m : (ℓ : Loc nD τ sig) → Buf (Elt F) ℓ) (outs : Outs (F := F)) (c : Dev nD) (j : Fin pre19.K) : Vin19 m outs c (pre19.ref j) = tbl19 m j := Vin19_tbl m outs c j
abbrev Vin20 (m : (ℓ : Loc nD τ sig) → Buf (Elt F) ℓ) (outs : Outs (F := F)) (c : Dev nD) : Valuation τ sig (Elt F) := V41 m outs c
abbrev Vout20 (m : (ℓ : Loc nD τ sig) → Buf (Elt F) ℓ) (outs : Outs (F := F)) (c : Dev nD) : Valuation τ sig (Elt F) := V42 m outs c
theorem Vin20_v3 (m : (ℓ : Loc nD τ sig) → Buf (Elt F) ℓ) (outs : Outs (F := F)) (c : Dev nD) : Vin20 m outs c main_v3 = V1 m c main_v3 := V41_v3 m outs c
theorem Vin20_out (m : (ℓ : Loc nD τ sig) → Buf (Elt F) ℓ) (outs : Outs (F := F)) (c : Dev nD) : Vin20 m outs c main_v86 = V1 m c main_v86 := V41_o20 m outs c
theorem Vout20_v3 (m : (ℓ : Loc nD τ sig) → Buf (Elt F) ℓ) (outs : Outs (F := F)) (c : Dev nD) : Vout20 m outs c main_v3 = V1 m c main_v3 := V42_v3 m outs c
theorem Vout20_out (m : (ℓ : Loc nD τ sig) → Buf (Elt F) ℓ) (outs : Outs (F := F)) (c : Dev nD) : Vout20 m outs c main_v86 = outs 42 main_v86 c := Function.update_self _ _ _
theorem Vout20_of (m : (ℓ : Loc nD τ sig) → Buf (Elt F) ℓ) (outs : Outs (F := F)) (c : Dev nD) (r : Ref sig .tc) (hr : r ∉ ([main_v86] : List (Ref sig .tc))) : Vout20 m outs c r = Vin20 m outs c r := V42_of m outs c r hr
theorem Vin20_tbl' (m : (ℓ : Loc nD τ sig) → Buf (Elt F) ℓ) (outs : Outs (F := F)) (c : Dev nD) (j : Fin pre20.K) : Vin20 m outs c (pre20.ref j) = tbl20 m j := Vin20_tbl m outs c j
abbrev Vin21 (m : (ℓ : Loc nD τ sig) → Buf (Elt F) ℓ) (outs : Outs (F := F)) (c : Dev nD) : Valuation τ sig (Elt F) := V43 m outs c
abbrev Vout21 (m : (ℓ : Loc nD τ sig) → Buf (Elt F) ℓ) (outs : Outs (F := F)) (c : Dev nD) : Valuation τ sig (Elt F) := V44 m outs c
theorem Vin21_v3 (m : (ℓ : Loc nD τ sig) → Buf (Elt F) ℓ) (outs : Outs (F := F)) (c : Dev nD) : Vin21 m outs c main_v3 = V1 m c main_v3 := V43_v3 m outs c
theorem Vin21_out (m : (ℓ : Loc nD τ sig) → Buf (Elt F) ℓ) (outs : Outs (F := F)) (c : Dev nD) : Vin21 m outs c main_v90 = V1 m c main_v90 := V43_o21 m outs c
theorem Vout21_v3 (m : (ℓ : Loc nD τ sig) → Buf (Elt F) ℓ) (outs : Outs (F := F)) (c : Dev nD) : Vout21 m outs c main_v3 = V1 m c main_v3 := V44_v3 m outs c
theorem Vout21_out (m : (ℓ : Loc nD τ sig) → Buf (Elt F) ℓ) (outs : Outs (F := F)) (c : Dev nD) : Vout21 m outs c main_v90 = outs 44 main_v90 c := Function.update_self _ _ _
theorem Vout21_of (m : (ℓ : Loc nD τ sig) → Buf (Elt F) ℓ) (outs : Outs (F := F)) (c : Dev nD) (r : Ref sig .tc) (hr : r ∉ ([main_v90] : List (Ref sig .tc))) : Vout21 m outs c r = Vin21 m outs c r := V44_of m outs c r hr
theorem Vin21_tbl' (m : (ℓ : Loc nD τ sig) → Buf (Elt F) ℓ) (outs : Outs (F := F)) (c : Dev nD) (j : Fin pre21.K) : Vin21 m outs c (pre21.ref j) = tbl21 m j := Vin21_tbl m outs c j
abbrev Vin22 (m : (ℓ : Loc nD τ sig) → Buf (Elt F) ℓ) (outs : Outs (F := F)) (c : Dev nD) : Valuation τ sig (Elt F) := V45 m outs c
abbrev Vout22 (m : (ℓ : Loc nD τ sig) → Buf (Elt F) ℓ) (outs : Outs (F := F)) (c : Dev nD) : Valuation τ sig (Elt F) := V46 m outs c
theorem Vin22_v3 (m : (ℓ : Loc nD τ sig) → Buf (Elt F) ℓ) (outs : Outs (F := F)) (c : Dev nD) : Vin22 m outs c main_v3 = V1 m c main_v3 := V45_v3 m outs c
theorem Vin22_out (m : (ℓ : Loc nD τ sig) → Buf (Elt F) ℓ) (outs : Outs (F := F)) (c : Dev nD) : Vin22 m outs c main_v94 = V1 m c main_v94 := V45_o22 m outs c
theorem Vout22_v3 (m : (ℓ : Loc nD τ sig) → Buf (Elt F) ℓ) (outs : Outs (F := F)) (c : Dev nD) : Vout22 m outs c main_v3 = V1 m c main_v3 := V46_v3 m outs c
theorem Vout22_out (m : (ℓ : Loc nD τ sig) → Buf (Elt F) ℓ) (outs : Outs (F := F)) (c : Dev nD) : Vout22 m outs c main_v94 = outs 46 main_v94 c := Function.update_self _ _ _
theorem Vout22_of (m : (ℓ : Loc nD τ sig) → Buf (Elt F) ℓ) (outs : Outs (F := F)) (c : Dev nD) (r : Ref sig .tc) (hr : r ∉ ([main_v94] : List (Ref sig .tc))) : Vout22 m outs c r = Vin22 m outs c r := V46_of m outs c r hr
theorem Vin22_tbl' (m : (ℓ : Loc nD τ sig) → Buf (Elt F) ℓ) (outs : Outs (F := F)) (c : Dev nD) (j : Fin pre22.K) : Vin22 m outs c (pre22.ref j) = tbl22 m j := Vin22_tbl m outs c j
abbrev Vin23 (m : (ℓ : Loc nD τ sig) → Buf (Elt F) ℓ) (outs : Outs (F := F)) (c : Dev nD) : Valuation τ sig (Elt F) := V47 m outs c
abbrev Vout23 (m : (ℓ : Loc nD τ sig) → Buf (Elt F) ℓ) (outs : Outs (F := F)) (c : Dev nD) : Valuation τ sig (Elt F) := V48 m outs c
theorem Vin23_v3 (m : (ℓ : Loc nD τ sig) → Buf (Elt F) ℓ) (outs : Outs (F := F)) (c : Dev nD) : Vin23 m outs c main_v3 = V1 m c main_v3 := V47_v3 m outs c
theorem Vin23_out (m : (ℓ : Loc nD τ sig) → Buf (Elt F) ℓ) (outs : Outs (F := F)) (c : Dev nD) : Vin23 m outs c main_v98 = V1 m c main_v98 := V47_o23 m outs c
theorem Vout23_v3 (m : (ℓ : Loc nD τ sig) → Buf (Elt F) ℓ) (outs : Outs (F := F)) (c : Dev nD) : Vout23 m outs c main_v3 = V1 m c main_v3 := V48_v3 m outs c
theorem Vout23_out (m : (ℓ : Loc nD τ sig) → Buf (Elt F) ℓ) (outs : Outs (F := F)) (c : Dev nD) : Vout23 m outs c main_v98 = outs 48 main_v98 c := Function.update_self _ _ _
theorem Vout23_of (m : (ℓ : Loc nD τ sig) → Buf (Elt F) ℓ) (outs : Outs (F := F)) (c : Dev nD) (r : Ref sig .tc) (hr : r ∉ ([main_v98] : List (Ref sig .tc))) : Vout23 m outs c r = Vin23 m outs c r := V48_of m outs c r hr
theorem Vin23_tbl' (m : (ℓ : Loc nD τ sig) → Buf (Elt F) ℓ) (outs : Outs (F := F)) (c : Dev nD) (j : Fin pre23.K) : Vin23 m outs c (pre23.ref j) = tbl23 m j := Vin23_tbl m outs c j
abbrev Vin24 (m : (ℓ : Loc nD τ sig) → Buf (Elt F) ℓ) (outs : Outs (F := F)) (c : Dev nD) : Valuation τ sig (Elt F) := V49 m outs c
abbrev Vout24 (m : (ℓ : Loc nD τ sig) → Buf (Elt F) ℓ) (outs : Outs (F := F)) (c : Dev nD) : Valuation τ sig (Elt F) := V50 m outs c
theorem Vin24_v3 (m : (ℓ : Loc nD τ sig) → Buf (Elt F) ℓ) (outs : Outs (F := F)) (c : Dev nD) : Vin24 m outs c main_v3 = V1 m c main_v3 := V49_v3 m outs c
theorem Vin24_out (m : (ℓ : Loc nD τ sig) → Buf (Elt F) ℓ) (outs : Outs (F := F)) (c : Dev nD) : Vin24 m outs c main_v102 = V1 m c main_v102 := V49_o24 m outs c
theorem Vout24_v3 (m : (ℓ : Loc nD τ sig) → Buf (Elt F) ℓ) (outs : Outs (F := F)) (c : Dev nD) : Vout24 m outs c main_v3 = V1 m c main_v3 := V50_v3 m outs c
theorem Vout24_out (m : (ℓ : Loc nD τ sig) → Buf (Elt F) ℓ) (outs : Outs (F := F)) (c : Dev nD) : Vout24 m outs c main_v102 = outs 50 main_v102 c := Function.update_self _ _ _
theorem Vout24_of (m : (ℓ : Loc nD τ sig) → Buf (Elt F) ℓ) (outs : Outs (F := F)) (c : Dev nD) (r : Ref sig .tc) (hr : r ∉ ([main_v102] : List (Ref sig .tc))) : Vout24 m outs c r = Vin24 m outs c r := V50_of m outs c r hr
theorem Vin24_tbl' (m : (ℓ : Loc nD τ sig) → Buf (Elt F) ℓ) (outs : Outs (F := F)) (c : Dev nD) (j : Fin pre24.K) : Vin24 m outs c (pre24.ref j) = tbl24 m j := Vin24_tbl m outs c j
abbrev Vin25 (m : (ℓ : Loc nD τ sig) → Buf (Elt F) ℓ) (outs : Outs (F := F)) (c : Dev nD) : Valuation τ sig (Elt F) := V51 m outs c
abbrev Vout25 (m : (ℓ : Loc nD τ sig) → Buf (Elt F) ℓ) (outs : Outs (F := F)) (c : Dev nD) : Valuation τ sig (Elt F) := V52 m outs c
theorem Vin25_v3 (m : (ℓ : Loc nD τ sig) → Buf (Elt F) ℓ) (outs : Outs (F := F)) (c : Dev nD) : Vin25 m outs c main_v3 = V1 m c main_v3 := V51_v3 m outs c
theorem Vin25_out (m : (ℓ : Loc nD τ sig) → Buf (Elt F) ℓ) (outs : Outs (F := F)) (c : Dev nD) : Vin25 m outs c main_v106 = V1 m c main_v106 := V51_o25 m outs c
theorem Vout25_v3 (m : (ℓ : Loc nD τ sig) → Buf (Elt F) ℓ) (outs : Outs (F := F)) (c : Dev nD) : Vout25 m outs c main_v3 = V1 m c main_v3 := V52_v3 m outs c
theorem Vout25_out (m : (ℓ : Loc nD τ sig) → Buf (Elt F) ℓ) (outs : Outs (F := F)) (c : Dev nD) : Vout25 m outs c main_v106 = outs 52 main_v106 c := Function.update_self _ _ _
theorem Vout25_of (m : (ℓ : Loc nD τ sig) → Buf (Elt F) ℓ) (outs : Outs (F := F)) (c : Dev nD) (r : Ref sig .tc) (hr : r ∉ ([main_v106] : List (Ref sig .tc))) : Vout25 m outs c r = Vin25 m outs c r := V52_of m outs c r hr
theorem Vin25_tbl' (m : (ℓ : Loc nD τ sig) → Buf (Elt F) ℓ) (outs : Outs (F := F)) (c : Dev nD) (j : Fin pre25.K) : Vin25 m outs c (pre25.ref j) = tbl25 m j := Vin25_tbl m outs c j
abbrev Vin26 (m : (ℓ : Loc nD τ sig) → Buf (Elt F) ℓ) (outs : Outs (F := F)) (c : Dev nD) : Valuation τ sig (Elt F) := V53 m outs c
abbrev Vout26 (m : (ℓ : Loc nD τ sig) → Buf (Elt F) ℓ) (outs : Outs (F := F)) (c : Dev nD) : Valuation τ sig (Elt F) := V54 m outs c
theorem Vin26_v3 (m : (ℓ : Loc nD τ sig) → Buf (Elt F) ℓ) (outs : Outs (F := F)) (c : Dev nD) : Vin26 m outs c main_v3 = V1 m c main_v3 := V53_v3 m outs c
theorem Vin26_out (m : (ℓ : Loc nD τ sig) → Buf (Elt F) ℓ) (outs : Outs (F := F)) (c : Dev nD) : Vin26 m outs c main_v110 = V1 m c main_v110 := V53_o26 m outs c
theorem Vout26_v3 (m : (ℓ : Loc nD τ sig) → Buf (Elt F) ℓ) (outs : Outs (F := F)) (c : Dev nD) : Vout26 m outs c main_v3 = V1 m c main_v3 := V54_v3 m outs c
theorem Vout26_out (m : (ℓ : Loc nD τ sig) → Buf (Elt F) ℓ) (outs : Outs (F := F)) (c : Dev nD) : Vout26 m outs c main_v110 = outs 54 main_v110 c := Function.update_self _ _ _
theorem Vout26_of (m : (ℓ : Loc nD τ sig) → Buf (Elt F) ℓ) (outs : Outs (F := F)) (c : Dev nD) (r : Ref sig .tc) (hr : r ∉ ([main_v110] : List (Ref sig .tc))) : Vout26 m outs c r = Vin26 m outs c r := V54_of m outs c r hr
theorem Vin26_tbl' (m : (ℓ : Loc nD τ sig) → Buf (Elt F) ℓ) (outs : Outs (F := F)) (c : Dev nD) (j : Fin pre26.K) : Vin26 m outs c (pre26.ref j) = tbl26 m j := Vin26_tbl m outs c j
abbrev Vin27 (m : (ℓ : Loc nD τ sig) → Buf (Elt F) ℓ) (outs : Outs (F := F)) (c : Dev nD) : Valuation τ sig (Elt F) := V55 m outs c
abbrev Vout27 (m : (ℓ : Loc nD τ sig) → Buf (Elt F) ℓ) (outs : Outs (F := F)) (c : Dev nD) : Valuation τ sig (Elt F) := V56 m outs c
theorem Vin27_v3 (m : (ℓ : Loc nD τ sig) → Buf (Elt F) ℓ) (outs : Outs (F := F)) (c : Dev nD) : Vin27 m outs c main_v3 = V1 m c main_v3 := V55_v3 m outs c
theorem Vin27_out (m : (ℓ : Loc nD τ sig) → Buf (Elt F) ℓ) (outs : Outs (F := F)) (c : Dev nD) : Vin27 m outs c main_v114 = V1 m c main_v114 := V55_o27 m outs c
theorem Vout27_v3 (m : (ℓ : Loc nD τ sig) → Buf (Elt F) ℓ) (outs : Outs (F := F)) (c : Dev nD) : Vout27 m outs c main_v3 = V1 m c main_v3 := V56_v3 m outs c
theorem Vout27_out (m : (ℓ : Loc nD τ sig) → Buf (Elt F) ℓ) (outs : Outs (F := F)) (c : Dev nD) : Vout27 m outs c main_v114 = outs 56 main_v114 c := Function.update_self _ _ _
theorem Vout27_of (m : (ℓ : Loc nD τ sig) → Buf (Elt F) ℓ) (outs : Outs (F := F)) (c : Dev nD) (r : Ref sig .tc) (hr : r ∉ ([main_v114] : List (Ref sig .tc))) : Vout27 m outs c r = Vin27 m outs c r := V56_of m outs c r hr
theorem Vin27_tbl' (m : (ℓ : Loc nD τ sig) → Buf (Elt F) ℓ) (outs : Outs (F := F)) (c : Dev nD) (j : Fin pre27.K) : Vin27 m outs c (pre27.ref j) = tbl27 m j := Vin27_tbl m outs c j
abbrev Vin28 (m : (ℓ : Loc nD τ sig) → Buf (Elt F) ℓ) (outs : Outs (F := F)) (c : Dev nD) : Valuation τ sig (Elt F) := V57 m outs c
abbrev Vout28 (m : (ℓ : Loc nD τ sig) → Buf (Elt F) ℓ) (outs : Outs (F := F)) (c : Dev nD) : Valuation τ sig (Elt F) := V58 m outs c
theorem Vin28_v3 (m : (ℓ : Loc nD τ sig) → Buf (Elt F) ℓ) (outs : Outs (F := F)) (c : Dev nD) : Vin28 m outs c main_v3 = V1 m c main_v3 := V57_v3 m outs c
theorem Vin28_out (m : (ℓ : Loc nD τ sig) → Buf (Elt F) ℓ) (outs : Outs (F := F)) (c : Dev nD) : Vin28 m outs c main_v118 = V1 m c main_v118 := V57_o28 m outs c
theorem Vout28_v3 (m : (ℓ : Loc nD τ sig) → Buf (Elt F) ℓ) (outs : Outs (F := F)) (c : Dev nD) : Vout28 m outs c main_v3 = V1 m c main_v3 := V58_v3 m outs c
theorem Vout28_out (m : (ℓ : Loc nD τ sig) → Buf (Elt F) ℓ) (outs : Outs (F := F)) (c : Dev nD) : Vout28 m outs c main_v118 = outs 58 main_v118 c := Function.update_self _ _ _
theorem Vout28_of (m : (ℓ : Loc nD τ sig) → Buf (Elt F) ℓ) (outs : Outs (F := F)) (c : Dev nD) (r : Ref sig .tc) (hr : r ∉ ([main_v118] : List (Ref sig .tc))) : Vout28 m outs c r = Vin28 m outs c r := V58_of m outs c r hr
theorem Vin28_tbl' (m : (ℓ : Loc nD τ sig) → Buf (Elt F) ℓ) (outs : Outs (F := F)) (c : Dev nD) (j : Fin pre28.K) : Vin28 m outs c (pre28.ref j) = tbl28 m j := Vin28_tbl m outs c j
abbrev Vin29 (m : (ℓ : Loc nD τ sig) → Buf (Elt F) ℓ) (outs : Outs (F := F)) (c : Dev nD) : Valuation τ sig (Elt F) := V59 m outs c
abbrev Vout29 (m : (ℓ : Loc nD τ sig) → Buf (Elt F) ℓ) (outs : Outs (F := F)) (c : Dev nD) : Valuation τ sig (Elt F) := V60 m outs c
theorem Vin29_v3 (m : (ℓ : Loc nD τ sig) → Buf (Elt F) ℓ) (outs : Outs (F := F)) (c : Dev nD) : Vin29 m outs c main_v3 = V1 m c main_v3 := V59_v3 m outs c
theorem Vin29_out (m : (ℓ : Loc nD τ sig) → Buf (Elt F) ℓ) (outs : Outs (F := F)) (c : Dev nD) : Vin29 m outs c main_v122 = V1 m c main_v122 := V59_o29 m outs c
theorem Vout29_v3 (m : (ℓ : Loc nD τ sig) → Buf (Elt F) ℓ) (outs : Outs (F := F)) (c : Dev nD) : Vout29 m outs c main_v3 = V1 m c main_v3 := V60_v3 m outs c
theorem Vout29_out (m : (ℓ : Loc nD τ sig) → Buf (Elt F) ℓ) (outs : Outs (F := F)) (c : Dev nD) : Vout29 m outs c main_v122 = outs 60 main_v122 c := Function.update_self _ _ _
theorem Vout29_of (m : (ℓ : Loc nD τ sig) → Buf (Elt F) ℓ) (outs : Outs (F := F)) (c : Dev nD) (r : Ref sig .tc) (hr : r ∉ ([main_v122] : List (Ref sig .tc))) : Vout29 m outs c r = Vin29 m outs c r := V60_of m outs c r hr
theorem Vin29_tbl' (m : (ℓ : Loc nD τ sig) → Buf (Elt F) ℓ) (outs : Outs (F := F)) (c : Dev nD) (j : Fin pre29.K) : Vin29 m outs c (pre29.ref j) = tbl29 m j := Vin29_tbl m outs c j
abbrev Vin30 (m : (ℓ : Loc nD τ sig) → Buf (Elt F) ℓ) (outs : Outs (F := F)) (c : Dev nD) : Valuation τ sig (Elt F) := V61 m outs c
abbrev Vout30 (m : (ℓ : Loc nD τ sig) → Buf (Elt F) ℓ) (outs : Outs (F := F)) (c : Dev nD) : Valuation τ sig (Elt F) := V62 m outs c
theorem Vin30_v3 (m : (ℓ : Loc nD τ sig) → Buf (Elt F) ℓ) (outs : Outs (F := F)) (c : Dev nD) : Vin30 m outs c main_v3 = V1 m c main_v3 := V61_v3 m outs c
theorem Vin30_out (m : (ℓ : Loc nD τ sig) → Buf (Elt F) ℓ) (outs : Outs (F := F)) (c : Dev nD) : Vin30 m outs c main_v126 = V1 m c main_v126 := V61_o30 m outs c
theorem Vout30_v3 (m : (ℓ : Loc nD τ sig) → Buf (Elt F) ℓ) (outs : Outs (F := F)) (c : Dev nD) : Vout30 m outs c main_v3 = V1 m c main_v3 := V62_v3 m outs c
theorem Vout30_out (m : (ℓ : Loc nD τ sig) → Buf (Elt F) ℓ) (outs : Outs (F := F)) (c : Dev nD) : Vout30 m outs c main_v126 = outs 62 main_v126 c := Function.update_self _ _ _
theorem Vout30_of (m : (ℓ : Loc nD τ sig) → Buf (Elt F) ℓ) (outs : Outs (F := F)) (c : Dev nD) (r : Ref sig .tc) (hr : r ∉ ([main_v126] : List (Ref sig .tc))) : Vout30 m outs c r = Vin30 m outs c r := V62_of m outs c r hr
theorem Vin30_tbl' (m : (ℓ : Loc nD τ sig) → Buf (Elt F) ℓ) (outs : Outs (F := F)) (c : Dev nD) (j : Fin pre30.K) : Vin30 m outs c (pre30.ref j) = tbl30 m j := Vin30_tbl m outs c j
abbrev Vin31 (m : (ℓ : Loc nD τ sig) → Buf (Elt F) ℓ) (outs : Outs (F := F)) (c : Dev nD) : Valuation τ sig (Elt F) := V63 m outs c
abbrev Vout31 (m : (ℓ : Loc nD τ sig) → Buf (Elt F) ℓ) (outs : Outs (F := F)) (c : Dev nD) : Valuation τ sig (Elt F) := V64 m outs c
theorem Vin31_v3 (m : (ℓ : Loc nD τ sig) → Buf (Elt F) ℓ) (outs : Outs (F := F)) (c : Dev nD) : Vin31 m outs c main_v3 = V1 m c main_v3 := V63_v3 m outs c
theorem Vin31_out (m : (ℓ : Loc nD τ sig) → Buf (Elt F) ℓ) (outs : Outs (F := F)) (c : Dev nD) : Vin31 m outs c main_v130 = V1 m c main_v130 := V63_o31 m outs c
theorem Vout31_v3 (m : (ℓ : Loc nD τ sig) → Buf (Elt F) ℓ) (outs : Outs (F := F)) (c : Dev nD) : Vout31 m outs c main_v3 = V1 m c main_v3 := V64_v3 m outs c
theorem Vout31_out (m : (ℓ : Loc nD τ sig) → Buf (Elt F) ℓ) (outs : Outs (F := F)) (c : Dev nD) : Vout31 m outs c main_v130 = outs 64 main_v130 c := Function.update_self _ _ _
theorem Vout31_of (m : (ℓ : Loc nD τ sig) → Buf (Elt F) ℓ) (outs : Outs (F := F)) (c : Dev nD) (r : Ref sig .tc) (hr : r ∉ ([main_v130] : List (Ref sig .tc))) : Vout31 m outs c r = Vin31 m outs c r := V64_of m outs c r hr
theorem Vin31_tbl' (m : (ℓ : Loc nD τ sig) → Buf (Elt F) ℓ) (outs : Outs (F := F)) (c : Dev nD) (j : Fin pre31.K) : Vin31 m outs c (pre31.ref j) = tbl31 m j := Vin31_tbl m outs c j

end Cert.Kernel.Hand

end
-- ==== Proof.PreDecode.lean ====
/- The precondition read back at the pooling indices: every index is between 0 and 262144, the number of the
   zero row appended to the feature array, so it names a row of the padded array. -/
import proofs.«411409_j5669356831307_3_alg».proof.Pre_finite_inputs
import proofs.«411409_j5669356831307_3_alg».proof.Proof.Gen.Pre_finite_inputs
import Idealize.ShloMosaic.Lib.StableHlo.Predicate
import Idealize.ShloMosaic.Lib.ReduceAll

set_option maxRecDepth 16384

noncomputable section

namespace Cert.PreDecode

open Idealize.ShloMosaic

variable {F : FTy → Type} [FloatOps F]

/-- The result of a reduction over every axis has one index. -/
instance : Subsingleton Cert.Pre_finite_inputs.S_.Idx := ⟨fun a b => funext fun d => d.elim0⟩

/-- One entry of the index predicate, read back: a word that is at least 0 and at most 262144, signed. -/
theorem word_in_range (w lo hi : BitVec 32) (hlo : lo = 0#32) (hhi : hi = 262144#32)
    (h : IntOp.andi (IntOp.cmpi .sge w lo) (IntOp.cmpi .sle w hi) = 1#1) : 0 ≤ w.toInt ∧ w.toInt ≤ 262144 := by
  subst hlo hhi
  obtain ⟨h0, h1⟩ := IntOp.andi_eq_one.1 h
  rw [IntOp.cmpi_sge] at h0
  rw [IntOp.cmpi_sle] at h1
  have e0 : (0#32).toInt = 0 := by decide
  have e1 : (262144#32).toInt = 262144 := by decide
  rw [e0] at h0; rw [e1] at h1
  exact ⟨h0, h1⟩

/-- THE PRECONDITION DECODED at the pooling indices: each lies in [0, 262144]. -/
theorem pools_in_range [Cert.Pre_finite_inputs.Facts] (x : FVec F Cert.Pre_finite_inputs.S262144x128 .f32) (p : IVec Cert.Pre_finite_inputs.S65536x32 32)
    (h : Cert.Pre_finite_inputs.fn (F := F) x p = fun _ => 1#1) : ∀ idx, 0 ≤ (p idx).toInt ∧ (p idx).toInt ≤ 262144 := by
  intro idx
  have e := congrFun h (fun a => a.elim0)
  dsimp only [Cert.Pre_finite_inputs.fn] at e
  obtain ⟨-, e2⟩ := IntOp.andi_eq_one.1 e
  have e3 := Host.reduce_andi_all _ _ _ _ _ e2 idx
  exact word_in_range (p idx) _ _ rfl rfl e3

/-- A word in [0, 262144] signed is at most 262144 unsigned. -/
theorem toNat_le_of_toInt (w : BitVec 32) (h : 0 ≤ w.toInt ∧ w.toInt ≤ 262144) : w.toNat ≤ 262144 := by
  obtain ⟨h0, h1⟩ := h
  have hw := w.isLt
  rw [BitVec.toInt_eq_toNat_cond] at h0 h1
  by_cases hc : 2 * w.toNat < 2 ^ 32
  · rw [if_pos hc] at h1; omega
  · rw [if_neg hc] at h0; omega

/-- Every pooling index, read unsigned, is at most 262144: a row of the padded feature array. -/
theorem pools_toNat_le [Cert.Pre_finite_inputs.Facts] (x : FVec F Cert.Pre_finite_inputs.S262144x128 .f32) (p : IVec Cert.Pre_finite_inputs.S65536x32 32)
    (h : Cert.Pre_finite_inputs.fn (F := F) x p = fun _ => 1#1) : ∀ idx, (p idx).toNat ≤ 262144 :=
  fun idx => toNat_le_of_toInt _ (pools_in_range x p h idx)

end Cert.PreDecode

end
-- ==== Proof.KB.R0.Pipe.lean ====
/- Region 0 (the first 2048 pooled rows): the pipeline at an admissible table, the blocks its windows stage,
   the branch condition of the body and the names the runs are stated over. -/
/- Region 0: the body run once per case of its one branch. Case A (neighbour 0): the accumulator is set to -inf and
   then maximised with the gathered row. Case B (a later neighbour): the accumulator the point before left is
   maximised with the gathered row. Each run finds the pieces the output's staging buffer ends with. -/
/- Region 0: where the grid meets the body's branch and where the output row is written back, in closed form.
   The grid is 2048 rows by 32 neighbours, the neighbour axis fastest: point t is row t / 32, neighbour t % 32. -/
/- Region 0: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg0
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre0.Contents (Elt F)) (hO : ok0 (F := F) pf)

abbrev adm : (pcfg0 (F := F)).Adm := ⟨pf, hO⟩
abbrev cfgM : Pipeline.Cfg sig Λ₀ := cfg0 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec0 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec0 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid0.Coords) : Prop := (Scalar.cmpi .ne (Scalar.extui (Scalar.cmpi .eq (BitVec.ofNat 32 (i 1).val) 0#32)) 0#32) = 1#1

abbrev VO_1 : View sig .tc .vmem S1x1x128 .f32 := (Memref.whole cc0_stg1_0 : Memref sig .tc .vmem S1x1x128 .f32).view
abbrev tbM : Memref sig .tc .smem S65536 .i32 := Memref.whole main_v5
abbrev htbM : (tbM).IsWhole := Memref.isWhole_whole _
abbrev ms_0 (t : Fin (cfgM pf hO).N) : Memref sig .tc .vmem S1x1x128 .f32 := spec0_0.stage ((cfgM pf hO).slots t 0)
abbrev hs_0 (t : Fin (cfgM pf hO).N) : (ms_0 pf hO t).IsWhole := hstage0_0 (((cfgM pf hO).slots t 0).cast nbuf0_0)
abbrev ms_1 (t : Fin (cfgM pf hO).N) : Memref sig .tc .vmem S1x1x128 .f32 := spec0_1.stage ((cfgM pf hO).slots t 1)
abbrev hs_1 (t : Fin (cfgM pf hO).N) : (ms_1 pf hO t).IsWhole := hstage0_1 (((cfgM pf hO).slots t 1).cast nbuf0_1)

/-- The body as the pipeline calls it at point `t`. -/
abbrev bodyAt (t : Fin (cfgM pf hO).N) : Prog (TpuEff nD τ sig (Elt F) Λ₀ .tc) PUnit :=
  cc0__gather_max_kernel (grid0.coords t) (Memref.whole main_v5) (Memref.isWhole_whole _) (spec0_0.stage ((cfgM pf hO).slots t 0)) (hstage0_0 (((cfgM pf hO).slots t 0).cast nbuf0_0)) (spec0_1.stage ((cfgM pf hO).slots t 1)) (hstage0_1 (((cfgM pf hO).slots t 1).cast nbuf0_1))

theorem N_eq : (cfgM pf hO).N = 65536 := N_0

end
end Cert.Kernel.Rg0

namespace Cert.Kernel.Rg0
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid0.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc0__gather_max_kernel i tbM htbM arg3 harg3 arg4 harg4) K } := by
  refine ⟨?_, fun E K => ?run⟩
  case run =>
    simp only [cc0__gather_max_kernel_eq_skeleton]; unfold cc0__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid0.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc0__gather_max_kernel i tbM htbM arg3 harg3 arg4 harg4) K } := by
  refine ⟨?_, fun E K => ?run⟩
  case run =>
    simp only [cc0__gather_max_kernel_eq_skeleton]; unfold cc0__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg0

namespace Cert.Kernel.Rg0
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre0.Contents (Elt F)) (hO : ok0 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid0.stride 1 = 1 := by decide
/-- A row lasts 32 consecutive points. -/
theorem stride_0 : grid0.stride 0 = 32 := by decide

/-- The neighbour coordinate of point t is t % 32. -/
theorem coords_1 (t : Fin grid0.N) : (grid0.coords t 1).val = t.val % 32 := by
  show t.val / grid0.stride 1 % grid0.bound 1 = t.val % 32
  rw [stride_1, Nat.div_one]; rfl

/-- The row coordinate of point t is t / 32 (modulo the 2048 rows). -/
theorem coords_0 (t : Fin grid0.N) : (grid0.coords t 0).val = t.val / 32 % 2048 := by
  show t.val / grid0.stride 0 % grid0.bound 0 = _
  rw [stride_0]; rfl

/-- The branch is taken exactly at a row's first neighbour. -/
theorem hcond : ∀ t : Fin (cfgM pf hO).N, cond (grid0.coords t) ↔ t.val % 32 = 0 := by
  intro t
  have e : (grid0.coords t 1).val = t.val % 32 := coords_1 t
  exact (cond_fin32 (grid0.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc0_transform_1 (grid0.coords t) = _
  unfold cc0_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg0

namespace Cert.Kernel.Rg0
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre0.Contents (Elt F)) (hO : ok0 (F := F) pf)

/-- Case A's pieces for the output tile its block, so they cover it. -/
theorem cover_A_1 (c : Dev nD) (i : grid0.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid0.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid0.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid0.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid0.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid0.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid0.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid0.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid0.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec0 w)
  after w t := match w with
    | ⟨0, _⟩ => iblk V pf hO c 0 t
    | ⟨1, _⟩ => (outsAt V pf hO c t.val t.isLt)
  Φ _ := iprop(Pipeline.ΦA spec0 c ∗ Pipeline.prefHeld pre0 c (fun _ => fullShare) pf)
  q _ := fullShare
  owed _ := 0

theorem A_eq (c : Dev nD) (w : Fin (cfgM pf hO).W) : (dat V pf hO c).A w = V c (Pipeline.arrRef spec0 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid0.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid0.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W0, bigSep_W0]
  exact sound_body V pf hO c t

end
end Cert.Kernel.Rg0

end
-- ==== Proof.KB.R1.Pipe.lean ====
/- Region 1 (the first 2048 pooled rows): the pipeline at an admissible table, the blocks its windows stage,
   the branch condition of the body and the names the runs are stated over. -/
/- Region 1: the body run once per case of its one branch. Case A (neighbour 0): the accumulator is set to -inf and
   then maximised with the gathered row. Case B (a later neighbour): the accumulator the point before left is
   maximised with the gathered row. Each run finds the pieces the output's staging buffer ends with. -/
/- Region 1: where the grid meets the body's branch and where the output row is written back, in closed form.
   The grid is 2048 rows by 32 neighbours, the neighbour axis fastest: point t is row t / 32, neighbour t % 32. -/
/- Region 1: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg1
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre1.Contents (Elt F)) (hO : ok1 (F := F) pf)

abbrev adm : (pcfg1 (F := F)).Adm := ⟨pf, hO⟩
abbrev cfgM : Pipeline.Cfg sig Λ₀ := cfg1 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec1 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec1 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid1.Coords) : Prop := (Scalar.cmpi .ne (Scalar.extui (Scalar.cmpi .eq (BitVec.ofNat 32 (i 1).val) 0#32)) 0#32) = 1#1

abbrev VO_1 : View sig .tc .vmem S1x1x128 .f32 := (Memref.whole cc1_stg1_0 : Memref sig .tc .vmem S1x1x128 .f32).view
abbrev tbM : Memref sig .tc .smem S65536 .i32 := Memref.whole main_v9
abbrev htbM : (tbM).IsWhole := Memref.isWhole_whole _
abbrev ms_0 (t : Fin (cfgM pf hO).N) : Memref sig .tc .vmem S1x1x128 .f32 := spec1_0.stage ((cfgM pf hO).slots t 0)
abbrev hs_0 (t : Fin (cfgM pf hO).N) : (ms_0 pf hO t).IsWhole := hstage1_0 (((cfgM pf hO).slots t 0).cast nbuf1_0)
abbrev ms_1 (t : Fin (cfgM pf hO).N) : Memref sig .tc .vmem S1x1x128 .f32 := spec1_1.stage ((cfgM pf hO).slots t 1)
abbrev hs_1 (t : Fin (cfgM pf hO).N) : (ms_1 pf hO t).IsWhole := hstage1_1 (((cfgM pf hO).slots t 1).cast nbuf1_1)

/-- The body as the pipeline calls it at point `t`. -/
abbrev bodyAt (t : Fin (cfgM pf hO).N) : Prog (TpuEff nD τ sig (Elt F) Λ₀ .tc) PUnit :=
  cc1__gather_max_kernel (grid1.coords t) (Memref.whole main_v9) (Memref.isWhole_whole _) (spec1_0.stage ((cfgM pf hO).slots t 0)) (hstage1_0 (((cfgM pf hO).slots t 0).cast nbuf1_0)) (spec1_1.stage ((cfgM pf hO).slots t 1)) (hstage1_1 (((cfgM pf hO).slots t 1).cast nbuf1_1))

theorem N_eq : (cfgM pf hO).N = 65536 := N_1

end
end Cert.Kernel.Rg1

namespace Cert.Kernel.Rg1
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid1.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc1__gather_max_kernel i tbM htbM arg3 harg3 arg4 harg4) K } := by
  refine ⟨?_, fun E K => ?run⟩
  case run =>
    simp only [cc1__gather_max_kernel_eq_skeleton]; unfold cc1__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid1.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc1__gather_max_kernel i tbM htbM arg3 harg3 arg4 harg4) K } := by
  refine ⟨?_, fun E K => ?run⟩
  case run =>
    simp only [cc1__gather_max_kernel_eq_skeleton]; unfold cc1__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg1

namespace Cert.Kernel.Rg1
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre1.Contents (Elt F)) (hO : ok1 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid1.stride 1 = 1 := by decide
/-- A row lasts 32 consecutive points. -/
theorem stride_0 : grid1.stride 0 = 32 := by decide

/-- The neighbour coordinate of point t is t % 32. -/
theorem coords_1 (t : Fin grid1.N) : (grid1.coords t 1).val = t.val % 32 := by
  show t.val / grid1.stride 1 % grid1.bound 1 = t.val % 32
  rw [stride_1, Nat.div_one]; rfl

/-- The row coordinate of point t is t / 32 (modulo the 2048 rows). -/
theorem coords_0 (t : Fin grid1.N) : (grid1.coords t 0).val = t.val / 32 % 2048 := by
  show t.val / grid1.stride 0 % grid1.bound 0 = _
  rw [stride_0]; rfl

/-- The branch is taken exactly at a row's first neighbour. -/
theorem hcond : ∀ t : Fin (cfgM pf hO).N, cond (grid1.coords t) ↔ t.val % 32 = 0 := by
  intro t
  have e : (grid1.coords t 1).val = t.val % 32 := coords_1 t
  exact (cond_fin32 (grid1.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc1_transform_1 (grid1.coords t) = _
  unfold cc1_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg1

namespace Cert.Kernel.Rg1
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre1.Contents (Elt F)) (hO : ok1 (F := F) pf)

/-- Case A's pieces for the output tile its block, so they cover it. -/
theorem cover_A_1 (c : Dev nD) (i : grid1.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid1.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid1.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid1.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid1.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid1.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid1.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid1.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid1.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec1 w)
  after w t := match w with
    | ⟨0, _⟩ => iblk V pf hO c 0 t
    | ⟨1, _⟩ => (outsAt V pf hO c t.val t.isLt)
  Φ _ := iprop(Pipeline.ΦA spec1 c ∗ Pipeline.prefHeld pre1 c (fun _ => fullShare) pf)
  q _ := fullShare
  owed _ := 0

theorem A_eq (c : Dev nD) (w : Fin (cfgM pf hO).W) : (dat V pf hO c).A w = V c (Pipeline.arrRef spec1 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid1.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid1.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W1, bigSep_W1]
  exact sound_body V pf hO c t

end
end Cert.Kernel.Rg1

end
-- ==== Proof.KB.R2.Pipe.lean ====
/- Region 2 (the first 2048 pooled rows): the pipeline at an admissible table, the blocks its windows stage,
   the branch condition of the body and the names the runs are stated over. -/
/- Region 2: the body run once per case of its one branch. Case A (neighbour 0): the accumulator is set to -inf and
   then maximised with the gathered row. Case B (a later neighbour): the accumulator the point before left is
   maximised with the gathered row. Each run finds the pieces the output's staging buffer ends with. -/
/- Region 2: where the grid meets the body's branch and where the output row is written back, in closed form.
   The grid is 2048 rows by 32 neighbours, the neighbour axis fastest: point t is row t / 32, neighbour t % 32. -/
/- Region 2: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg2
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre2.Contents (Elt F)) (hO : ok2 (F := F) pf)

abbrev adm : (pcfg2 (F := F)).Adm := ⟨pf, hO⟩
abbrev cfgM : Pipeline.Cfg sig Λ₀ := cfg2 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec2 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec2 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid2.Coords) : Prop := (Scalar.cmpi .ne (Scalar.extui (Scalar.cmpi .eq (BitVec.ofNat 32 (i 1).val) 0#32)) 0#32) = 1#1

abbrev VO_1 : View sig .tc .vmem S1x1x128 .f32 := (Memref.whole cc2_stg1_0 : Memref sig .tc .vmem S1x1x128 .f32).view
abbrev tbM : Memref sig .tc .smem S65536 .i32 := Memref.whole main_v13
abbrev htbM : (tbM).IsWhole := Memref.isWhole_whole _
abbrev ms_0 (t : Fin (cfgM pf hO).N) : Memref sig .tc .vmem S1x1x128 .f32 := spec2_0.stage ((cfgM pf hO).slots t 0)
abbrev hs_0 (t : Fin (cfgM pf hO).N) : (ms_0 pf hO t).IsWhole := hstage2_0 (((cfgM pf hO).slots t 0).cast nbuf2_0)
abbrev ms_1 (t : Fin (cfgM pf hO).N) : Memref sig .tc .vmem S1x1x128 .f32 := spec2_1.stage ((cfgM pf hO).slots t 1)
abbrev hs_1 (t : Fin (cfgM pf hO).N) : (ms_1 pf hO t).IsWhole := hstage2_1 (((cfgM pf hO).slots t 1).cast nbuf2_1)

/-- The body as the pipeline calls it at point `t`. -/
abbrev bodyAt (t : Fin (cfgM pf hO).N) : Prog (TpuEff nD τ sig (Elt F) Λ₀ .tc) PUnit :=
  cc2__gather_max_kernel (grid2.coords t) (Memref.whole main_v13) (Memref.isWhole_whole _) (spec2_0.stage ((cfgM pf hO).slots t 0)) (hstage2_0 (((cfgM pf hO).slots t 0).cast nbuf2_0)) (spec2_1.stage ((cfgM pf hO).slots t 1)) (hstage2_1 (((cfgM pf hO).slots t 1).cast nbuf2_1))

theorem N_eq : (cfgM pf hO).N = 65536 := N_2

end
end Cert.Kernel.Rg2

namespace Cert.Kernel.Rg2
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid2.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc2__gather_max_kernel i tbM htbM arg3 harg3 arg4 harg4) K } := by
  refine ⟨?_, fun E K => ?run⟩
  case run =>
    simp only [cc2__gather_max_kernel_eq_skeleton]; unfold cc2__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid2.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc2__gather_max_kernel i tbM htbM arg3 harg3 arg4 harg4) K } := by
  refine ⟨?_, fun E K => ?run⟩
  case run =>
    simp only [cc2__gather_max_kernel_eq_skeleton]; unfold cc2__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg2

namespace Cert.Kernel.Rg2
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre2.Contents (Elt F)) (hO : ok2 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid2.stride 1 = 1 := by decide
/-- A row lasts 32 consecutive points. -/
theorem stride_0 : grid2.stride 0 = 32 := by decide

/-- The neighbour coordinate of point t is t % 32. -/
theorem coords_1 (t : Fin grid2.N) : (grid2.coords t 1).val = t.val % 32 := by
  show t.val / grid2.stride 1 % grid2.bound 1 = t.val % 32
  rw [stride_1, Nat.div_one]; rfl

/-- The row coordinate of point t is t / 32 (modulo the 2048 rows). -/
theorem coords_0 (t : Fin grid2.N) : (grid2.coords t 0).val = t.val / 32 % 2048 := by
  show t.val / grid2.stride 0 % grid2.bound 0 = _
  rw [stride_0]; rfl

/-- The branch is taken exactly at a row's first neighbour. -/
theorem hcond : ∀ t : Fin (cfgM pf hO).N, cond (grid2.coords t) ↔ t.val % 32 = 0 := by
  intro t
  have e : (grid2.coords t 1).val = t.val % 32 := coords_1 t
  exact (cond_fin32 (grid2.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc2_transform_1 (grid2.coords t) = _
  unfold cc2_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg2

namespace Cert.Kernel.Rg2
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre2.Contents (Elt F)) (hO : ok2 (F := F) pf)

/-- Case A's pieces for the output tile its block, so they cover it. -/
theorem cover_A_1 (c : Dev nD) (i : grid2.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid2.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid2.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid2.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid2.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid2.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid2.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid2.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid2.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec2 w)
  after w t := match w with
    | ⟨0, _⟩ => iblk V pf hO c 0 t
    | ⟨1, _⟩ => (outsAt V pf hO c t.val t.isLt)
  Φ _ := iprop(Pipeline.ΦA spec2 c ∗ Pipeline.prefHeld pre2 c (fun _ => fullShare) pf)
  q _ := fullShare
  owed _ := 0

theorem A_eq (c : Dev nD) (w : Fin (cfgM pf hO).W) : (dat V pf hO c).A w = V c (Pipeline.arrRef spec2 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid2.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid2.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W2, bigSep_W2]
  exact sound_body V pf hO c t

end
end Cert.Kernel.Rg2

end
-- ==== Proof.KB.R3.Pipe.lean ====
/- Region 3 (the first 2048 pooled rows): the pipeline at an admissible table, the blocks its windows stage,
   the branch condition of the body and the names the runs are stated over. -/
/- Region 3: the body run once per case of its one branch. Case A (neighbour 0): the accumulator is set to -inf and
   then maximised with the gathered row. Case B (a later neighbour): the accumulator the point before left is
   maximised with the gathered row. Each run finds the pieces the output's staging buffer ends with. -/
/- Region 3: where the grid meets the body's branch and where the output row is written back, in closed form.
   The grid is 2048 rows by 32 neighbours, the neighbour axis fastest: point t is row t / 32, neighbour t % 32. -/
/- Region 3: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg3
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre3.Contents (Elt F)) (hO : ok3 (F := F) pf)

abbrev adm : (pcfg3 (F := F)).Adm := ⟨pf, hO⟩
abbrev cfgM : Pipeline.Cfg sig Λ₀ := cfg3 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec3 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec3 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid3.Coords) : Prop := (Scalar.cmpi .ne (Scalar.extui (Scalar.cmpi .eq (BitVec.ofNat 32 (i 1).val) 0#32)) 0#32) = 1#1

abbrev VO_1 : View sig .tc .vmem S1x1x128 .f32 := (Memref.whole cc3_stg1_0 : Memref sig .tc .vmem S1x1x128 .f32).view
abbrev tbM : Memref sig .tc .smem S65536 .i32 := Memref.whole main_v17
abbrev htbM : (tbM).IsWhole := Memref.isWhole_whole _
abbrev ms_0 (t : Fin (cfgM pf hO).N) : Memref sig .tc .vmem S1x1x128 .f32 := spec3_0.stage ((cfgM pf hO).slots t 0)
abbrev hs_0 (t : Fin (cfgM pf hO).N) : (ms_0 pf hO t).IsWhole := hstage3_0 (((cfgM pf hO).slots t 0).cast nbuf3_0)
abbrev ms_1 (t : Fin (cfgM pf hO).N) : Memref sig .tc .vmem S1x1x128 .f32 := spec3_1.stage ((cfgM pf hO).slots t 1)
abbrev hs_1 (t : Fin (cfgM pf hO).N) : (ms_1 pf hO t).IsWhole := hstage3_1 (((cfgM pf hO).slots t 1).cast nbuf3_1)

/-- The body as the pipeline calls it at point `t`. -/
abbrev bodyAt (t : Fin (cfgM pf hO).N) : Prog (TpuEff nD τ sig (Elt F) Λ₀ .tc) PUnit :=
  cc3__gather_max_kernel (grid3.coords t) (Memref.whole main_v17) (Memref.isWhole_whole _) (spec3_0.stage ((cfgM pf hO).slots t 0)) (hstage3_0 (((cfgM pf hO).slots t 0).cast nbuf3_0)) (spec3_1.stage ((cfgM pf hO).slots t 1)) (hstage3_1 (((cfgM pf hO).slots t 1).cast nbuf3_1))

theorem N_eq : (cfgM pf hO).N = 65536 := N_3

end
end Cert.Kernel.Rg3

namespace Cert.Kernel.Rg3
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid3.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc3__gather_max_kernel i tbM htbM arg3 harg3 arg4 harg4) K } := by
  refine ⟨?_, fun E K => ?run⟩
  case run =>
    simp only [cc3__gather_max_kernel_eq_skeleton]; unfold cc3__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid3.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc3__gather_max_kernel i tbM htbM arg3 harg3 arg4 harg4) K } := by
  refine ⟨?_, fun E K => ?run⟩
  case run =>
    simp only [cc3__gather_max_kernel_eq_skeleton]; unfold cc3__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg3

namespace Cert.Kernel.Rg3
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre3.Contents (Elt F)) (hO : ok3 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid3.stride 1 = 1 := by decide
/-- A row lasts 32 consecutive points. -/
theorem stride_0 : grid3.stride 0 = 32 := by decide

/-- The neighbour coordinate of point t is t % 32. -/
theorem coords_1 (t : Fin grid3.N) : (grid3.coords t 1).val = t.val % 32 := by
  show t.val / grid3.stride 1 % grid3.bound 1 = t.val % 32
  rw [stride_1, Nat.div_one]; rfl

/-- The row coordinate of point t is t / 32 (modulo the 2048 rows). -/
theorem coords_0 (t : Fin grid3.N) : (grid3.coords t 0).val = t.val / 32 % 2048 := by
  show t.val / grid3.stride 0 % grid3.bound 0 = _
  rw [stride_0]; rfl

/-- The branch is taken exactly at a row's first neighbour. -/
theorem hcond : ∀ t : Fin (cfgM pf hO).N, cond (grid3.coords t) ↔ t.val % 32 = 0 := by
  intro t
  have e : (grid3.coords t 1).val = t.val % 32 := coords_1 t
  exact (cond_fin32 (grid3.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc3_transform_1 (grid3.coords t) = _
  unfold cc3_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg3

namespace Cert.Kernel.Rg3
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre3.Contents (Elt F)) (hO : ok3 (F := F) pf)

/-- Case A's pieces for the output tile its block, so they cover it. -/
theorem cover_A_1 (c : Dev nD) (i : grid3.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid3.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid3.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid3.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid3.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid3.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid3.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid3.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid3.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec3 w)
  after w t := match w with
    | ⟨0, _⟩ => iblk V pf hO c 0 t
    | ⟨1, _⟩ => (outsAt V pf hO c t.val t.isLt)
  Φ _ := iprop(Pipeline.ΦA spec3 c ∗ Pipeline.prefHeld pre3 c (fun _ => fullShare) pf)
  q _ := fullShare
  owed _ := 0

theorem A_eq (c : Dev nD) (w : Fin (cfgM pf hO).W) : (dat V pf hO c).A w = V c (Pipeline.arrRef spec3 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid3.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid3.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W3, bigSep_W3]
  exact sound_body V pf hO c t

end
end Cert.Kernel.Rg3

end
-- ==== Proof.KB.R4.Pipe.lean ====
/- Region 4 (the first 2048 pooled rows): the pipeline at an admissible table, the blocks its windows stage,
   the branch condition of the body and the names the runs are stated over. -/
/- Region 4: the body run once per case of its one branch. Case A (neighbour 0): the accumulator is set to -inf and
   then maximised with the gathered row. Case B (a later neighbour): the accumulator the point before left is
   maximised with the gathered row. Each run finds the pieces the output's staging buffer ends with. -/
/- Region 4: where the grid meets the body's branch and where the output row is written back, in closed form.
   The grid is 2048 rows by 32 neighbours, the neighbour axis fastest: point t is row t / 32, neighbour t % 32. -/
/- Region 4: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg4
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre4.Contents (Elt F)) (hO : ok4 (F := F) pf)

abbrev adm : (pcfg4 (F := F)).Adm := ⟨pf, hO⟩
abbrev cfgM : Pipeline.Cfg sig Λ₀ := cfg4 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec4 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec4 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid4.Coords) : Prop := (Scalar.cmpi .ne (Scalar.extui (Scalar.cmpi .eq (BitVec.ofNat 32 (i 1).val) 0#32)) 0#32) = 1#1

abbrev VO_1 : View sig .tc .vmem S1x1x128 .f32 := (Memref.whole cc4_stg1_0 : Memref sig .tc .vmem S1x1x128 .f32).view
abbrev tbM : Memref sig .tc .smem S65536 .i32 := Memref.whole main_v21
abbrev htbM : (tbM).IsWhole := Memref.isWhole_whole _
abbrev ms_0 (t : Fin (cfgM pf hO).N) : Memref sig .tc .vmem S1x1x128 .f32 := spec4_0.stage ((cfgM pf hO).slots t 0)
abbrev hs_0 (t : Fin (cfgM pf hO).N) : (ms_0 pf hO t).IsWhole := hstage4_0 (((cfgM pf hO).slots t 0).cast nbuf4_0)
abbrev ms_1 (t : Fin (cfgM pf hO).N) : Memref sig .tc .vmem S1x1x128 .f32 := spec4_1.stage ((cfgM pf hO).slots t 1)
abbrev hs_1 (t : Fin (cfgM pf hO).N) : (ms_1 pf hO t).IsWhole := hstage4_1 (((cfgM pf hO).slots t 1).cast nbuf4_1)

/-- The body as the pipeline calls it at point `t`. -/
abbrev bodyAt (t : Fin (cfgM pf hO).N) : Prog (TpuEff nD τ sig (Elt F) Λ₀ .tc) PUnit :=
  cc4__gather_max_kernel (grid4.coords t) (Memref.whole main_v21) (Memref.isWhole_whole _) (spec4_0.stage ((cfgM pf hO).slots t 0)) (hstage4_0 (((cfgM pf hO).slots t 0).cast nbuf4_0)) (spec4_1.stage ((cfgM pf hO).slots t 1)) (hstage4_1 (((cfgM pf hO).slots t 1).cast nbuf4_1))

theorem N_eq : (cfgM pf hO).N = 65536 := N_4

end
end Cert.Kernel.Rg4

namespace Cert.Kernel.Rg4
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid4.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc4__gather_max_kernel i tbM htbM arg3 harg3 arg4 harg4) K } := by
  refine ⟨?_, fun E K => ?run⟩
  case run =>
    simp only [cc4__gather_max_kernel_eq_skeleton]; unfold cc4__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid4.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc4__gather_max_kernel i tbM htbM arg3 harg3 arg4 harg4) K } := by
  refine ⟨?_, fun E K => ?run⟩
  case run =>
    simp only [cc4__gather_max_kernel_eq_skeleton]; unfold cc4__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg4

namespace Cert.Kernel.Rg4
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre4.Contents (Elt F)) (hO : ok4 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid4.stride 1 = 1 := by decide
/-- A row lasts 32 consecutive points. -/
theorem stride_0 : grid4.stride 0 = 32 := by decide

/-- The neighbour coordinate of point t is t % 32. -/
theorem coords_1 (t : Fin grid4.N) : (grid4.coords t 1).val = t.val % 32 := by
  show t.val / grid4.stride 1 % grid4.bound 1 = t.val % 32
  rw [stride_1, Nat.div_one]; rfl

/-- The row coordinate of point t is t / 32 (modulo the 2048 rows). -/
theorem coords_0 (t : Fin grid4.N) : (grid4.coords t 0).val = t.val / 32 % 2048 := by
  show t.val / grid4.stride 0 % grid4.bound 0 = _
  rw [stride_0]; rfl

/-- The branch is taken exactly at a row's first neighbour. -/
theorem hcond : ∀ t : Fin (cfgM pf hO).N, cond (grid4.coords t) ↔ t.val % 32 = 0 := by
  intro t
  have e : (grid4.coords t 1).val = t.val % 32 := coords_1 t
  exact (cond_fin32 (grid4.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc4_transform_1 (grid4.coords t) = _
  unfold cc4_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg4

namespace Cert.Kernel.Rg4
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre4.Contents (Elt F)) (hO : ok4 (F := F) pf)

/-- Case A's pieces for the output tile its block, so they cover it. -/
theorem cover_A_1 (c : Dev nD) (i : grid4.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid4.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid4.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid4.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid4.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid4.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid4.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid4.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid4.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec4 w)
  after w t := match w with
    | ⟨0, _⟩ => iblk V pf hO c 0 t
    | ⟨1, _⟩ => (outsAt V pf hO c t.val t.isLt)
  Φ _ := iprop(Pipeline.ΦA spec4 c ∗ Pipeline.prefHeld pre4 c (fun _ => fullShare) pf)
  q _ := fullShare
  owed _ := 0

theorem A_eq (c : Dev nD) (w : Fin (cfgM pf hO).W) : (dat V pf hO c).A w = V c (Pipeline.arrRef spec4 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid4.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid4.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W4, bigSep_W4]
  exact sound_body V pf hO c t

end
end Cert.Kernel.Rg4

end
-- ==== Proof.KB.R5.Pipe.lean ====
/- Region 5 (the first 2048 pooled rows): the pipeline at an admissible table, the blocks its windows stage,
   the branch condition of the body and the names the runs are stated over. -/
/- Region 5: the body run once per case of its one branch. Case A (neighbour 0): the accumulator is set to -inf and
   then maximised with the gathered row. Case B (a later neighbour): the accumulator the point before left is
   maximised with the gathered row. Each run finds the pieces the output's staging buffer ends with. -/
/- Region 5: where the grid meets the body's branch and where the output row is written back, in closed form.
   The grid is 2048 rows by 32 neighbours, the neighbour axis fastest: point t is row t / 32, neighbour t % 32. -/
/- Region 5: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg5
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre5.Contents (Elt F)) (hO : ok5 (F := F) pf)

abbrev adm : (pcfg5 (F := F)).Adm := ⟨pf, hO⟩
abbrev cfgM : Pipeline.Cfg sig Λ₀ := cfg5 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec5 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec5 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid5.Coords) : Prop := (Scalar.cmpi .ne (Scalar.extui (Scalar.cmpi .eq (BitVec.ofNat 32 (i 1).val) 0#32)) 0#32) = 1#1

abbrev VO_1 : View sig .tc .vmem S1x1x128 .f32 := (Memref.whole cc5_stg1_0 : Memref sig .tc .vmem S1x1x128 .f32).view
abbrev tbM : Memref sig .tc .smem S65536 .i32 := Memref.whole main_v25
abbrev htbM : (tbM).IsWhole := Memref.isWhole_whole _
abbrev ms_0 (t : Fin (cfgM pf hO).N) : Memref sig .tc .vmem S1x1x128 .f32 := spec5_0.stage ((cfgM pf hO).slots t 0)
abbrev hs_0 (t : Fin (cfgM pf hO).N) : (ms_0 pf hO t).IsWhole := hstage5_0 (((cfgM pf hO).slots t 0).cast nbuf5_0)
abbrev ms_1 (t : Fin (cfgM pf hO).N) : Memref sig .tc .vmem S1x1x128 .f32 := spec5_1.stage ((cfgM pf hO).slots t 1)
abbrev hs_1 (t : Fin (cfgM pf hO).N) : (ms_1 pf hO t).IsWhole := hstage5_1 (((cfgM pf hO).slots t 1).cast nbuf5_1)

/-- The body as the pipeline calls it at point `t`. -/
abbrev bodyAt (t : Fin (cfgM pf hO).N) : Prog (TpuEff nD τ sig (Elt F) Λ₀ .tc) PUnit :=
  cc5__gather_max_kernel (grid5.coords t) (Memref.whole main_v25) (Memref.isWhole_whole _) (spec5_0.stage ((cfgM pf hO).slots t 0)) (hstage5_0 (((cfgM pf hO).slots t 0).cast nbuf5_0)) (spec5_1.stage ((cfgM pf hO).slots t 1)) (hstage5_1 (((cfgM pf hO).slots t 1).cast nbuf5_1))

theorem N_eq : (cfgM pf hO).N = 65536 := N_5

end
end Cert.Kernel.Rg5

namespace Cert.Kernel.Rg5
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid5.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc5__gather_max_kernel i tbM htbM arg3 harg3 arg4 harg4) K } := by
  refine ⟨?_, fun E K => ?run⟩
  case run =>
    simp only [cc5__gather_max_kernel_eq_skeleton]; unfold cc5__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid5.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc5__gather_max_kernel i tbM htbM arg3 harg3 arg4 harg4) K } := by
  refine ⟨?_, fun E K => ?run⟩
  case run =>
    simp only [cc5__gather_max_kernel_eq_skeleton]; unfold cc5__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg5

namespace Cert.Kernel.Rg5
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre5.Contents (Elt F)) (hO : ok5 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid5.stride 1 = 1 := by decide
/-- A row lasts 32 consecutive points. -/
theorem stride_0 : grid5.stride 0 = 32 := by decide

/-- The neighbour coordinate of point t is t % 32. -/
theorem coords_1 (t : Fin grid5.N) : (grid5.coords t 1).val = t.val % 32 := by
  show t.val / grid5.stride 1 % grid5.bound 1 = t.val % 32
  rw [stride_1, Nat.div_one]; rfl

/-- The row coordinate of point t is t / 32 (modulo the 2048 rows). -/
theorem coords_0 (t : Fin grid5.N) : (grid5.coords t 0).val = t.val / 32 % 2048 := by
  show t.val / grid5.stride 0 % grid5.bound 0 = _
  rw [stride_0]; rfl

/-- The branch is taken exactly at a row's first neighbour. -/
theorem hcond : ∀ t : Fin (cfgM pf hO).N, cond (grid5.coords t) ↔ t.val % 32 = 0 := by
  intro t
  have e : (grid5.coords t 1).val = t.val % 32 := coords_1 t
  exact (cond_fin32 (grid5.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc5_transform_1 (grid5.coords t) = _
  unfold cc5_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg5

namespace Cert.Kernel.Rg5
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre5.Contents (Elt F)) (hO : ok5 (F := F) pf)

/-- Case A's pieces for the output tile its block, so they cover it. -/
theorem cover_A_1 (c : Dev nD) (i : grid5.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid5.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid5.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid5.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid5.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid5.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid5.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid5.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid5.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec5 w)
  after w t := match w with
    | ⟨0, _⟩ => iblk V pf hO c 0 t
    | ⟨1, _⟩ => (outsAt V pf hO c t.val t.isLt)
  Φ _ := iprop(Pipeline.ΦA spec5 c ∗ Pipeline.prefHeld pre5 c (fun _ => fullShare) pf)
  q _ := fullShare
  owed _ := 0

theorem A_eq (c : Dev nD) (w : Fin (cfgM pf hO).W) : (dat V pf hO c).A w = V c (Pipeline.arrRef spec5 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid5.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid5.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W5, bigSep_W5]
  exact sound_body V pf hO c t

end
end Cert.Kernel.Rg5

end
-- ==== Proof.KB.R6.Pipe.lean ====
/- Region 6 (the first 2048 pooled rows): the pipeline at an admissible table, the blocks its windows stage,
   the branch condition of the body and the names the runs are stated over. -/
/- Region 6: the body run once per case of its one branch. Case A (neighbour 0): the accumulator is set to -inf and
   then maximised with the gathered row. Case B (a later neighbour): the accumulator the point before left is
   maximised with the gathered row. Each run finds the pieces the output's staging buffer ends with. -/
/- Region 6: where the grid meets the body's branch and where the output row is written back, in closed form.
   The grid is 2048 rows by 32 neighbours, the neighbour axis fastest: point t is row t / 32, neighbour t % 32. -/
/- Region 6: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg6
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre6.Contents (Elt F)) (hO : ok6 (F := F) pf)

abbrev adm : (pcfg6 (F := F)).Adm := ⟨pf, hO⟩
abbrev cfgM : Pipeline.Cfg sig Λ₀ := cfg6 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec6 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec6 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid6.Coords) : Prop := (Scalar.cmpi .ne (Scalar.extui (Scalar.cmpi .eq (BitVec.ofNat 32 (i 1).val) 0#32)) 0#32) = 1#1

abbrev VO_1 : View sig .tc .vmem S1x1x128 .f32 := (Memref.whole cc6_stg1_0 : Memref sig .tc .vmem S1x1x128 .f32).view
abbrev tbM : Memref sig .tc .smem S65536 .i32 := Memref.whole main_v29
abbrev htbM : (tbM).IsWhole := Memref.isWhole_whole _
abbrev ms_0 (t : Fin (cfgM pf hO).N) : Memref sig .tc .vmem S1x1x128 .f32 := spec6_0.stage ((cfgM pf hO).slots t 0)
abbrev hs_0 (t : Fin (cfgM pf hO).N) : (ms_0 pf hO t).IsWhole := hstage6_0 (((cfgM pf hO).slots t 0).cast nbuf6_0)
abbrev ms_1 (t : Fin (cfgM pf hO).N) : Memref sig .tc .vmem S1x1x128 .f32 := spec6_1.stage ((cfgM pf hO).slots t 1)
abbrev hs_1 (t : Fin (cfgM pf hO).N) : (ms_1 pf hO t).IsWhole := hstage6_1 (((cfgM pf hO).slots t 1).cast nbuf6_1)

/-- The body as the pipeline calls it at point `t`. -/
abbrev bodyAt (t : Fin (cfgM pf hO).N) : Prog (TpuEff nD τ sig (Elt F) Λ₀ .tc) PUnit :=
  cc6__gather_max_kernel (grid6.coords t) (Memref.whole main_v29) (Memref.isWhole_whole _) (spec6_0.stage ((cfgM pf hO).slots t 0)) (hstage6_0 (((cfgM pf hO).slots t 0).cast nbuf6_0)) (spec6_1.stage ((cfgM pf hO).slots t 1)) (hstage6_1 (((cfgM pf hO).slots t 1).cast nbuf6_1))

theorem N_eq : (cfgM pf hO).N = 65536 := N_6

end
end Cert.Kernel.Rg6

namespace Cert.Kernel.Rg6
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid6.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc6__gather_max_kernel i tbM htbM arg3 harg3 arg4 harg4) K } := by
  refine ⟨?_, fun E K => ?run⟩
  case run =>
    simp only [cc6__gather_max_kernel_eq_skeleton]; unfold cc6__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid6.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc6__gather_max_kernel i tbM htbM arg3 harg3 arg4 harg4) K } := by
  refine ⟨?_, fun E K => ?run⟩
  case run =>
    simp only [cc6__gather_max_kernel_eq_skeleton]; unfold cc6__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg6

namespace Cert.Kernel.Rg6
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre6.Contents (Elt F)) (hO : ok6 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid6.stride 1 = 1 := by decide
/-- A row lasts 32 consecutive points. -/
theorem stride_0 : grid6.stride 0 = 32 := by decide

/-- The neighbour coordinate of point t is t % 32. -/
theorem coords_1 (t : Fin grid6.N) : (grid6.coords t 1).val = t.val % 32 := by
  show t.val / grid6.stride 1 % grid6.bound 1 = t.val % 32
  rw [stride_1, Nat.div_one]; rfl

/-- The row coordinate of point t is t / 32 (modulo the 2048 rows). -/
theorem coords_0 (t : Fin grid6.N) : (grid6.coords t 0).val = t.val / 32 % 2048 := by
  show t.val / grid6.stride 0 % grid6.bound 0 = _
  rw [stride_0]; rfl

/-- The branch is taken exactly at a row's first neighbour. -/
theorem hcond : ∀ t : Fin (cfgM pf hO).N, cond (grid6.coords t) ↔ t.val % 32 = 0 := by
  intro t
  have e : (grid6.coords t 1).val = t.val % 32 := coords_1 t
  exact (cond_fin32 (grid6.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc6_transform_1 (grid6.coords t) = _
  unfold cc6_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg6

namespace Cert.Kernel.Rg6
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre6.Contents (Elt F)) (hO : ok6 (F := F) pf)

/-- Case A's pieces for the output tile its block, so they cover it. -/
theorem cover_A_1 (c : Dev nD) (i : grid6.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid6.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid6.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid6.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid6.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid6.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid6.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid6.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid6.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec6 w)
  after w t := match w with
    | ⟨0, _⟩ => iblk V pf hO c 0 t
    | ⟨1, _⟩ => (outsAt V pf hO c t.val t.isLt)
  Φ _ := iprop(Pipeline.ΦA spec6 c ∗ Pipeline.prefHeld pre6 c (fun _ => fullShare) pf)
  q _ := fullShare
  owed _ := 0

theorem A_eq (c : Dev nD) (w : Fin (cfgM pf hO).W) : (dat V pf hO c).A w = V c (Pipeline.arrRef spec6 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid6.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid6.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W6, bigSep_W6]
  exact sound_body V pf hO c t

end
end Cert.Kernel.Rg6

end
-- ==== Proof.KB.R7.Pipe.lean ====
/- Region 7 (the first 2048 pooled rows): the pipeline at an admissible table, the blocks its windows stage,
   the branch condition of the body and the names the runs are stated over. -/
/- Region 7: the body run once per case of its one branch. Case A (neighbour 0): the accumulator is set to -inf and
   then maximised with the gathered row. Case B (a later neighbour): the accumulator the point before left is
   maximised with the gathered row. Each run finds the pieces the output's staging buffer ends with. -/
/- Region 7: where the grid meets the body's branch and where the output row is written back, in closed form.
   The grid is 2048 rows by 32 neighbours, the neighbour axis fastest: point t is row t / 32, neighbour t % 32. -/
/- Region 7: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg7
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre7.Contents (Elt F)) (hO : ok7 (F := F) pf)

abbrev adm : (pcfg7 (F := F)).Adm := ⟨pf, hO⟩
abbrev cfgM : Pipeline.Cfg sig Λ₀ := cfg7 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec7 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec7 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid7.Coords) : Prop := (Scalar.cmpi .ne (Scalar.extui (Scalar.cmpi .eq (BitVec.ofNat 32 (i 1).val) 0#32)) 0#32) = 1#1

abbrev VO_1 : View sig .tc .vmem S1x1x128 .f32 := (Memref.whole cc7_stg1_0 : Memref sig .tc .vmem S1x1x128 .f32).view
abbrev tbM : Memref sig .tc .smem S65536 .i32 := Memref.whole main_v33
abbrev htbM : (tbM).IsWhole := Memref.isWhole_whole _
abbrev ms_0 (t : Fin (cfgM pf hO).N) : Memref sig .tc .vmem S1x1x128 .f32 := spec7_0.stage ((cfgM pf hO).slots t 0)
abbrev hs_0 (t : Fin (cfgM pf hO).N) : (ms_0 pf hO t).IsWhole := hstage7_0 (((cfgM pf hO).slots t 0).cast nbuf7_0)
abbrev ms_1 (t : Fin (cfgM pf hO).N) : Memref sig .tc .vmem S1x1x128 .f32 := spec7_1.stage ((cfgM pf hO).slots t 1)
abbrev hs_1 (t : Fin (cfgM pf hO).N) : (ms_1 pf hO t).IsWhole := hstage7_1 (((cfgM pf hO).slots t 1).cast nbuf7_1)

/-- The body as the pipeline calls it at point `t`. -/
abbrev bodyAt (t : Fin (cfgM pf hO).N) : Prog (TpuEff nD τ sig (Elt F) Λ₀ .tc) PUnit :=
  cc7__gather_max_kernel (grid7.coords t) (Memref.whole main_v33) (Memref.isWhole_whole _) (spec7_0.stage ((cfgM pf hO).slots t 0)) (hstage7_0 (((cfgM pf hO).slots t 0).cast nbuf7_0)) (spec7_1.stage ((cfgM pf hO).slots t 1)) (hstage7_1 (((cfgM pf hO).slots t 1).cast nbuf7_1))

theorem N_eq : (cfgM pf hO).N = 65536 := N_7

end
end Cert.Kernel.Rg7

namespace Cert.Kernel.Rg7
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid7.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc7__gather_max_kernel i tbM htbM arg3 harg3 arg4 harg4) K } := by
  refine ⟨?_, fun E K => ?run⟩
  case run =>
    simp only [cc7__gather_max_kernel_eq_skeleton]; unfold cc7__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid7.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc7__gather_max_kernel i tbM htbM arg3 harg3 arg4 harg4) K } := by
  refine ⟨?_, fun E K => ?run⟩
  case run =>
    simp only [cc7__gather_max_kernel_eq_skeleton]; unfold cc7__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg7

namespace Cert.Kernel.Rg7
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre7.Contents (Elt F)) (hO : ok7 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid7.stride 1 = 1 := by decide
/-- A row lasts 32 consecutive points. -/
theorem stride_0 : grid7.stride 0 = 32 := by decide

/-- The neighbour coordinate of point t is t % 32. -/
theorem coords_1 (t : Fin grid7.N) : (grid7.coords t 1).val = t.val % 32 := by
  show t.val / grid7.stride 1 % grid7.bound 1 = t.val % 32
  rw [stride_1, Nat.div_one]; rfl

/-- The row coordinate of point t is t / 32 (modulo the 2048 rows). -/
theorem coords_0 (t : Fin grid7.N) : (grid7.coords t 0).val = t.val / 32 % 2048 := by
  show t.val / grid7.stride 0 % grid7.bound 0 = _
  rw [stride_0]; rfl

/-- The branch is taken exactly at a row's first neighbour. -/
theorem hcond : ∀ t : Fin (cfgM pf hO).N, cond (grid7.coords t) ↔ t.val % 32 = 0 := by
  intro t
  have e : (grid7.coords t 1).val = t.val % 32 := coords_1 t
  exact (cond_fin32 (grid7.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc7_transform_1 (grid7.coords t) = _
  unfold cc7_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg7

namespace Cert.Kernel.Rg7
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre7.Contents (Elt F)) (hO : ok7 (F := F) pf)

/-- Case A's pieces for the output tile its block, so they cover it. -/
theorem cover_A_1 (c : Dev nD) (i : grid7.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid7.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid7.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid7.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid7.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid7.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid7.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid7.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid7.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec7 w)
  after w t := match w with
    | ⟨0, _⟩ => iblk V pf hO c 0 t
    | ⟨1, _⟩ => (outsAt V pf hO c t.val t.isLt)
  Φ _ := iprop(Pipeline.ΦA spec7 c ∗ Pipeline.prefHeld pre7 c (fun _ => fullShare) pf)
  q _ := fullShare
  owed _ := 0

theorem A_eq (c : Dev nD) (w : Fin (cfgM pf hO).W) : (dat V pf hO c).A w = V c (Pipeline.arrRef spec7 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid7.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid7.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W7, bigSep_W7]
  exact sound_body V pf hO c t

end
end Cert.Kernel.Rg7

end
-- ==== Proof.KB.R8.Pipe.lean ====
/- Region 8 (the first 2048 pooled rows): the pipeline at an admissible table, the blocks its windows stage,
   the branch condition of the body and the names the runs are stated over. -/
/- Region 8: the body run once per case of its one branch. Case A (neighbour 0): the accumulator is set to -inf and
   then maximised with the gathered row. Case B (a later neighbour): the accumulator the point before left is
   maximised with the gathered row. Each run finds the pieces the output's staging buffer ends with. -/
/- Region 8: where the grid meets the body's branch and where the output row is written back, in closed form.
   The grid is 2048 rows by 32 neighbours, the neighbour axis fastest: point t is row t / 32, neighbour t % 32. -/
/- Region 8: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg8
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre8.Contents (Elt F)) (hO : ok8 (F := F) pf)

abbrev adm : (pcfg8 (F := F)).Adm := ⟨pf, hO⟩
abbrev cfgM : Pipeline.Cfg sig Λ₀ := cfg8 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec8 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec8 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid8.Coords) : Prop := (Scalar.cmpi .ne (Scalar.extui (Scalar.cmpi .eq (BitVec.ofNat 32 (i 1).val) 0#32)) 0#32) = 1#1

abbrev VO_1 : View sig .tc .vmem S1x1x128 .f32 := (Memref.whole cc8_stg1_0 : Memref sig .tc .vmem S1x1x128 .f32).view
abbrev tbM : Memref sig .tc .smem S65536 .i32 := Memref.whole main_v37
abbrev htbM : (tbM).IsWhole := Memref.isWhole_whole _
abbrev ms_0 (t : Fin (cfgM pf hO).N) : Memref sig .tc .vmem S1x1x128 .f32 := spec8_0.stage ((cfgM pf hO).slots t 0)
abbrev hs_0 (t : Fin (cfgM pf hO).N) : (ms_0 pf hO t).IsWhole := hstage8_0 (((cfgM pf hO).slots t 0).cast nbuf8_0)
abbrev ms_1 (t : Fin (cfgM pf hO).N) : Memref sig .tc .vmem S1x1x128 .f32 := spec8_1.stage ((cfgM pf hO).slots t 1)
abbrev hs_1 (t : Fin (cfgM pf hO).N) : (ms_1 pf hO t).IsWhole := hstage8_1 (((cfgM pf hO).slots t 1).cast nbuf8_1)

/-- The body as the pipeline calls it at point `t`. -/
abbrev bodyAt (t : Fin (cfgM pf hO).N) : Prog (TpuEff nD τ sig (Elt F) Λ₀ .tc) PUnit :=
  cc8__gather_max_kernel (grid8.coords t) (Memref.whole main_v37) (Memref.isWhole_whole _) (spec8_0.stage ((cfgM pf hO).slots t 0)) (hstage8_0 (((cfgM pf hO).slots t 0).cast nbuf8_0)) (spec8_1.stage ((cfgM pf hO).slots t 1)) (hstage8_1 (((cfgM pf hO).slots t 1).cast nbuf8_1))

theorem N_eq : (cfgM pf hO).N = 65536 := N_8

end
end Cert.Kernel.Rg8

namespace Cert.Kernel.Rg8
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid8.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc8__gather_max_kernel i tbM htbM arg3 harg3 arg4 harg4) K } := by
  refine ⟨?_, fun E K => ?run⟩
  case run =>
    simp only [cc8__gather_max_kernel_eq_skeleton]; unfold cc8__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid8.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc8__gather_max_kernel i tbM htbM arg3 harg3 arg4 harg4) K } := by
  refine ⟨?_, fun E K => ?run⟩
  case run =>
    simp only [cc8__gather_max_kernel_eq_skeleton]; unfold cc8__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg8

namespace Cert.Kernel.Rg8
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre8.Contents (Elt F)) (hO : ok8 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid8.stride 1 = 1 := by decide
/-- A row lasts 32 consecutive points. -/
theorem stride_0 : grid8.stride 0 = 32 := by decide

/-- The neighbour coordinate of point t is t % 32. -/
theorem coords_1 (t : Fin grid8.N) : (grid8.coords t 1).val = t.val % 32 := by
  show t.val / grid8.stride 1 % grid8.bound 1 = t.val % 32
  rw [stride_1, Nat.div_one]; rfl

/-- The row coordinate of point t is t / 32 (modulo the 2048 rows). -/
theorem coords_0 (t : Fin grid8.N) : (grid8.coords t 0).val = t.val / 32 % 2048 := by
  show t.val / grid8.stride 0 % grid8.bound 0 = _
  rw [stride_0]; rfl

/-- The branch is taken exactly at a row's first neighbour. -/
theorem hcond : ∀ t : Fin (cfgM pf hO).N, cond (grid8.coords t) ↔ t.val % 32 = 0 := by
  intro t
  have e : (grid8.coords t 1).val = t.val % 32 := coords_1 t
  exact (cond_fin32 (grid8.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc8_transform_1 (grid8.coords t) = _
  unfold cc8_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg8

namespace Cert.Kernel.Rg8
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre8.Contents (Elt F)) (hO : ok8 (F := F) pf)

/-- Case A's pieces for the output tile its block, so they cover it. -/
theorem cover_A_1 (c : Dev nD) (i : grid8.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid8.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid8.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid8.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid8.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid8.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid8.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid8.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid8.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec8 w)
  after w t := match w with
    | ⟨0, _⟩ => iblk V pf hO c 0 t
    | ⟨1, _⟩ => (outsAt V pf hO c t.val t.isLt)
  Φ _ := iprop(Pipeline.ΦA spec8 c ∗ Pipeline.prefHeld pre8 c (fun _ => fullShare) pf)
  q _ := fullShare
  owed _ := 0

theorem A_eq (c : Dev nD) (w : Fin (cfgM pf hO).W) : (dat V pf hO c).A w = V c (Pipeline.arrRef spec8 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid8.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid8.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W8, bigSep_W8]
  exact sound_body V pf hO c t

end
end Cert.Kernel.Rg8

end
-- ==== Proof.KB.R9.Pipe.lean ====
/- Region 9 (the first 2048 pooled rows): the pipeline at an admissible table, the blocks its windows stage,
   the branch condition of the body and the names the runs are stated over. -/
/- Region 9: the body run once per case of its one branch. Case A (neighbour 0): the accumulator is set to -inf and
   then maximised with the gathered row. Case B (a later neighbour): the accumulator the point before left is
   maximised with the gathered row. Each run finds the pieces the output's staging buffer ends with. -/
/- Region 9: where the grid meets the body's branch and where the output row is written back, in closed form.
   The grid is 2048 rows by 32 neighbours, the neighbour axis fastest: point t is row t / 32, neighbour t % 32. -/
/- Region 9: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg9
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre9.Contents (Elt F)) (hO : ok9 (F := F) pf)

abbrev adm : (pcfg9 (F := F)).Adm := ⟨pf, hO⟩
abbrev cfgM : Pipeline.Cfg sig Λ₀ := cfg9 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec9 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec9 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid9.Coords) : Prop := (Scalar.cmpi .ne (Scalar.extui (Scalar.cmpi .eq (BitVec.ofNat 32 (i 1).val) 0#32)) 0#32) = 1#1

abbrev VO_1 : View sig .tc .vmem S1x1x128 .f32 := (Memref.whole cc9_stg1_0 : Memref sig .tc .vmem S1x1x128 .f32).view
abbrev tbM : Memref sig .tc .smem S65536 .i32 := Memref.whole main_v41
abbrev htbM : (tbM).IsWhole := Memref.isWhole_whole _
abbrev ms_0 (t : Fin (cfgM pf hO).N) : Memref sig .tc .vmem S1x1x128 .f32 := spec9_0.stage ((cfgM pf hO).slots t 0)
abbrev hs_0 (t : Fin (cfgM pf hO).N) : (ms_0 pf hO t).IsWhole := hstage9_0 (((cfgM pf hO).slots t 0).cast nbuf9_0)
abbrev ms_1 (t : Fin (cfgM pf hO).N) : Memref sig .tc .vmem S1x1x128 .f32 := spec9_1.stage ((cfgM pf hO).slots t 1)
abbrev hs_1 (t : Fin (cfgM pf hO).N) : (ms_1 pf hO t).IsWhole := hstage9_1 (((cfgM pf hO).slots t 1).cast nbuf9_1)

/-- The body as the pipeline calls it at point `t`. -/
abbrev bodyAt (t : Fin (cfgM pf hO).N) : Prog (TpuEff nD τ sig (Elt F) Λ₀ .tc) PUnit :=
  cc9__gather_max_kernel (grid9.coords t) (Memref.whole main_v41) (Memref.isWhole_whole _) (spec9_0.stage ((cfgM pf hO).slots t 0)) (hstage9_0 (((cfgM pf hO).slots t 0).cast nbuf9_0)) (spec9_1.stage ((cfgM pf hO).slots t 1)) (hstage9_1 (((cfgM pf hO).slots t 1).cast nbuf9_1))

theorem N_eq : (cfgM pf hO).N = 65536 := N_9

end
end Cert.Kernel.Rg9

namespace Cert.Kernel.Rg9
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid9.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc9__gather_max_kernel i tbM htbM arg3 harg3 arg4 harg4) K } := by
  refine ⟨?_, fun E K => ?run⟩
  case run =>
    simp only [cc9__gather_max_kernel_eq_skeleton]; unfold cc9__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid9.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc9__gather_max_kernel i tbM htbM arg3 harg3 arg4 harg4) K } := by
  refine ⟨?_, fun E K => ?run⟩
  case run =>
    simp only [cc9__gather_max_kernel_eq_skeleton]; unfold cc9__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg9

namespace Cert.Kernel.Rg9
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre9.Contents (Elt F)) (hO : ok9 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid9.stride 1 = 1 := by decide
/-- A row lasts 32 consecutive points. -/
theorem stride_0 : grid9.stride 0 = 32 := by decide

/-- The neighbour coordinate of point t is t % 32. -/
theorem coords_1 (t : Fin grid9.N) : (grid9.coords t 1).val = t.val % 32 := by
  show t.val / grid9.stride 1 % grid9.bound 1 = t.val % 32
  rw [stride_1, Nat.div_one]; rfl

/-- The row coordinate of point t is t / 32 (modulo the 2048 rows). -/
theorem coords_0 (t : Fin grid9.N) : (grid9.coords t 0).val = t.val / 32 % 2048 := by
  show t.val / grid9.stride 0 % grid9.bound 0 = _
  rw [stride_0]; rfl

/-- The branch is taken exactly at a row's first neighbour. -/
theorem hcond : ∀ t : Fin (cfgM pf hO).N, cond (grid9.coords t) ↔ t.val % 32 = 0 := by
  intro t
  have e : (grid9.coords t 1).val = t.val % 32 := coords_1 t
  exact (cond_fin32 (grid9.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc9_transform_1 (grid9.coords t) = _
  unfold cc9_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg9

namespace Cert.Kernel.Rg9
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre9.Contents (Elt F)) (hO : ok9 (F := F) pf)

/-- Case A's pieces for the output tile its block, so they cover it. -/
theorem cover_A_1 (c : Dev nD) (i : grid9.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid9.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid9.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid9.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid9.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid9.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid9.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid9.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid9.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec9 w)
  after w t := match w with
    | ⟨0, _⟩ => iblk V pf hO c 0 t
    | ⟨1, _⟩ => (outsAt V pf hO c t.val t.isLt)
  Φ _ := iprop(Pipeline.ΦA spec9 c ∗ Pipeline.prefHeld pre9 c (fun _ => fullShare) pf)
  q _ := fullShare
  owed _ := 0

theorem A_eq (c : Dev nD) (w : Fin (cfgM pf hO).W) : (dat V pf hO c).A w = V c (Pipeline.arrRef spec9 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid9.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid9.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W9, bigSep_W9]
  exact sound_body V pf hO c t

end
end Cert.Kernel.Rg9

end
-- ==== Proof.KB.R10.Pipe.lean ====
/- Region 10 (the first 2048 pooled rows): the pipeline at an admissible table, the blocks its windows stage,
   the branch condition of the body and the names the runs are stated over. -/
/- Region 10: the body run once per case of its one branch. Case A (neighbour 0): the accumulator is set to -inf and
   then maximised with the gathered row. Case B (a later neighbour): the accumulator the point before left is
   maximised with the gathered row. Each run finds the pieces the output's staging buffer ends with. -/
/- Region 10: where the grid meets the body's branch and where the output row is written back, in closed form.
   The grid is 2048 rows by 32 neighbours, the neighbour axis fastest: point t is row t / 32, neighbour t % 32. -/
/- Region 10: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg10
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre10.Contents (Elt F)) (hO : ok10 (F := F) pf)

abbrev adm : (pcfg10 (F := F)).Adm := ⟨pf, hO⟩
abbrev cfgM : Pipeline.Cfg sig Λ₀ := cfg10 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec10 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec10 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid10.Coords) : Prop := (Scalar.cmpi .ne (Scalar.extui (Scalar.cmpi .eq (BitVec.ofNat 32 (i 1).val) 0#32)) 0#32) = 1#1

abbrev VO_1 : View sig .tc .vmem S1x1x128 .f32 := (Memref.whole cc10_stg1_0 : Memref sig .tc .vmem S1x1x128 .f32).view
abbrev tbM : Memref sig .tc .smem S65536 .i32 := Memref.whole main_v45
abbrev htbM : (tbM).IsWhole := Memref.isWhole_whole _
abbrev ms_0 (t : Fin (cfgM pf hO).N) : Memref sig .tc .vmem S1x1x128 .f32 := spec10_0.stage ((cfgM pf hO).slots t 0)
abbrev hs_0 (t : Fin (cfgM pf hO).N) : (ms_0 pf hO t).IsWhole := hstage10_0 (((cfgM pf hO).slots t 0).cast nbuf10_0)
abbrev ms_1 (t : Fin (cfgM pf hO).N) : Memref sig .tc .vmem S1x1x128 .f32 := spec10_1.stage ((cfgM pf hO).slots t 1)
abbrev hs_1 (t : Fin (cfgM pf hO).N) : (ms_1 pf hO t).IsWhole := hstage10_1 (((cfgM pf hO).slots t 1).cast nbuf10_1)

/-- The body as the pipeline calls it at point `t`. -/
abbrev bodyAt (t : Fin (cfgM pf hO).N) : Prog (TpuEff nD τ sig (Elt F) Λ₀ .tc) PUnit :=
  cc10__gather_max_kernel (grid10.coords t) (Memref.whole main_v45) (Memref.isWhole_whole _) (spec10_0.stage ((cfgM pf hO).slots t 0)) (hstage10_0 (((cfgM pf hO).slots t 0).cast nbuf10_0)) (spec10_1.stage ((cfgM pf hO).slots t 1)) (hstage10_1 (((cfgM pf hO).slots t 1).cast nbuf10_1))

theorem N_eq : (cfgM pf hO).N = 65536 := N_10

end
end Cert.Kernel.Rg10

namespace Cert.Kernel.Rg10
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid10.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc10__gather_max_kernel i tbM htbM arg3 harg3 arg4 harg4) K } := by
  refine ⟨?_, fun E K => ?run⟩
  case run =>
    simp only [cc10__gather_max_kernel_eq_skeleton]; unfold cc10__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid10.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc10__gather_max_kernel i tbM htbM arg3 harg3 arg4 harg4) K } := by
  refine ⟨?_, fun E K => ?run⟩
  case run =>
    simp only [cc10__gather_max_kernel_eq_skeleton]; unfold cc10__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg10

namespace Cert.Kernel.Rg10
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre10.Contents (Elt F)) (hO : ok10 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid10.stride 1 = 1 := by decide
/-- A row lasts 32 consecutive points. -/
theorem stride_0 : grid10.stride 0 = 32 := by decide

/-- The neighbour coordinate of point t is t % 32. -/
theorem coords_1 (t : Fin grid10.N) : (grid10.coords t 1).val = t.val % 32 := by
  show t.val / grid10.stride 1 % grid10.bound 1 = t.val % 32
  rw [stride_1, Nat.div_one]; rfl

/-- The row coordinate of point t is t / 32 (modulo the 2048 rows). -/
theorem coords_0 (t : Fin grid10.N) : (grid10.coords t 0).val = t.val / 32 % 2048 := by
  show t.val / grid10.stride 0 % grid10.bound 0 = _
  rw [stride_0]; rfl

/-- The branch is taken exactly at a row's first neighbour. -/
theorem hcond : ∀ t : Fin (cfgM pf hO).N, cond (grid10.coords t) ↔ t.val % 32 = 0 := by
  intro t
  have e : (grid10.coords t 1).val = t.val % 32 := coords_1 t
  exact (cond_fin32 (grid10.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc10_transform_1 (grid10.coords t) = _
  unfold cc10_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg10

namespace Cert.Kernel.Rg10
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre10.Contents (Elt F)) (hO : ok10 (F := F) pf)

/-- Case A's pieces for the output tile its block, so they cover it. -/
theorem cover_A_1 (c : Dev nD) (i : grid10.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid10.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid10.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid10.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid10.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid10.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid10.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid10.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid10.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec10 w)
  after w t := match w with
    | ⟨0, _⟩ => iblk V pf hO c 0 t
    | ⟨1, _⟩ => (outsAt V pf hO c t.val t.isLt)
  Φ _ := iprop(Pipeline.ΦA spec10 c ∗ Pipeline.prefHeld pre10 c (fun _ => fullShare) pf)
  q _ := fullShare
  owed _ := 0

theorem A_eq (c : Dev nD) (w : Fin (cfgM pf hO).W) : (dat V pf hO c).A w = V c (Pipeline.arrRef spec10 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid10.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid10.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W10, bigSep_W10]
  exact sound_body V pf hO c t

end
end Cert.Kernel.Rg10

end
-- ==== Proof.KB.R11.Pipe.lean ====
/- Region 11 (the first 2048 pooled rows): the pipeline at an admissible table, the blocks its windows stage,
   the branch condition of the body and the names the runs are stated over. -/
/- Region 11: the body run once per case of its one branch. Case A (neighbour 0): the accumulator is set to -inf and
   then maximised with the gathered row. Case B (a later neighbour): the accumulator the point before left is
   maximised with the gathered row. Each run finds the pieces the output's staging buffer ends with. -/
/- Region 11: where the grid meets the body's branch and where the output row is written back, in closed form.
   The grid is 2048 rows by 32 neighbours, the neighbour axis fastest: point t is row t / 32, neighbour t % 32. -/
/- Region 11: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg11
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre11.Contents (Elt F)) (hO : ok11 (F := F) pf)

abbrev adm : (pcfg11 (F := F)).Adm := ⟨pf, hO⟩
abbrev cfgM : Pipeline.Cfg sig Λ₀ := cfg11 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec11 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec11 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid11.Coords) : Prop := (Scalar.cmpi .ne (Scalar.extui (Scalar.cmpi .eq (BitVec.ofNat 32 (i 1).val) 0#32)) 0#32) = 1#1

abbrev VO_1 : View sig .tc .vmem S1x1x128 .f32 := (Memref.whole cc11_stg1_0 : Memref sig .tc .vmem S1x1x128 .f32).view
abbrev tbM : Memref sig .tc .smem S65536 .i32 := Memref.whole main_v49
abbrev htbM : (tbM).IsWhole := Memref.isWhole_whole _
abbrev ms_0 (t : Fin (cfgM pf hO).N) : Memref sig .tc .vmem S1x1x128 .f32 := spec11_0.stage ((cfgM pf hO).slots t 0)
abbrev hs_0 (t : Fin (cfgM pf hO).N) : (ms_0 pf hO t).IsWhole := hstage11_0 (((cfgM pf hO).slots t 0).cast nbuf11_0)
abbrev ms_1 (t : Fin (cfgM pf hO).N) : Memref sig .tc .vmem S1x1x128 .f32 := spec11_1.stage ((cfgM pf hO).slots t 1)
abbrev hs_1 (t : Fin (cfgM pf hO).N) : (ms_1 pf hO t).IsWhole := hstage11_1 (((cfgM pf hO).slots t 1).cast nbuf11_1)

/-- The body as the pipeline calls it at point `t`. -/
abbrev bodyAt (t : Fin (cfgM pf hO).N) : Prog (TpuEff nD τ sig (Elt F) Λ₀ .tc) PUnit :=
  cc11__gather_max_kernel (grid11.coords t) (Memref.whole main_v49) (Memref.isWhole_whole _) (spec11_0.stage ((cfgM pf hO).slots t 0)) (hstage11_0 (((cfgM pf hO).slots t 0).cast nbuf11_0)) (spec11_1.stage ((cfgM pf hO).slots t 1)) (hstage11_1 (((cfgM pf hO).slots t 1).cast nbuf11_1))

theorem N_eq : (cfgM pf hO).N = 65536 := N_11

end
end Cert.Kernel.Rg11

namespace Cert.Kernel.Rg11
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid11.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc11__gather_max_kernel i tbM htbM arg3 harg3 arg4 harg4) K } := by
  refine ⟨?_, fun E K => ?run⟩
  case run =>
    simp only [cc11__gather_max_kernel_eq_skeleton]; unfold cc11__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid11.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc11__gather_max_kernel i tbM htbM arg3 harg3 arg4 harg4) K } := by
  refine ⟨?_, fun E K => ?run⟩
  case run =>
    simp only [cc11__gather_max_kernel_eq_skeleton]; unfold cc11__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg11

namespace Cert.Kernel.Rg11
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre11.Contents (Elt F)) (hO : ok11 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid11.stride 1 = 1 := by decide
/-- A row lasts 32 consecutive points. -/
theorem stride_0 : grid11.stride 0 = 32 := by decide

/-- The neighbour coordinate of point t is t % 32. -/
theorem coords_1 (t : Fin grid11.N) : (grid11.coords t 1).val = t.val % 32 := by
  show t.val / grid11.stride 1 % grid11.bound 1 = t.val % 32
  rw [stride_1, Nat.div_one]; rfl

/-- The row coordinate of point t is t / 32 (modulo the 2048 rows). -/
theorem coords_0 (t : Fin grid11.N) : (grid11.coords t 0).val = t.val / 32 % 2048 := by
  show t.val / grid11.stride 0 % grid11.bound 0 = _
  rw [stride_0]; rfl

/-- The branch is taken exactly at a row's first neighbour. -/
theorem hcond : ∀ t : Fin (cfgM pf hO).N, cond (grid11.coords t) ↔ t.val % 32 = 0 := by
  intro t
  have e : (grid11.coords t 1).val = t.val % 32 := coords_1 t
  exact (cond_fin32 (grid11.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc11_transform_1 (grid11.coords t) = _
  unfold cc11_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg11

namespace Cert.Kernel.Rg11
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre11.Contents (Elt F)) (hO : ok11 (F := F) pf)

/-- Case A's pieces for the output tile its block, so they cover it. -/
theorem cover_A_1 (c : Dev nD) (i : grid11.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid11.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid11.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid11.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid11.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid11.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid11.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid11.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid11.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec11 w)
  after w t := match w with
    | ⟨0, _⟩ => iblk V pf hO c 0 t
    | ⟨1, _⟩ => (outsAt V pf hO c t.val t.isLt)
  Φ _ := iprop(Pipeline.ΦA spec11 c ∗ Pipeline.prefHeld pre11 c (fun _ => fullShare) pf)
  q _ := fullShare
  owed _ := 0

theorem A_eq (c : Dev nD) (w : Fin (cfgM pf hO).W) : (dat V pf hO c).A w = V c (Pipeline.arrRef spec11 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid11.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid11.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W11, bigSep_W11]
  exact sound_body V pf hO c t

end
end Cert.Kernel.Rg11

end
-- ==== Proof.KB.R12.Pipe.lean ====
/- Region 12 (the first 2048 pooled rows): the pipeline at an admissible table, the blocks its windows stage,
   the branch condition of the body and the names the runs are stated over. -/
/- Region 12: the body run once per case of its one branch. Case A (neighbour 0): the accumulator is set to -inf and
   then maximised with the gathered row. Case B (a later neighbour): the accumulator the point before left is
   maximised with the gathered row. Each run finds the pieces the output's staging buffer ends with. -/
/- Region 12: where the grid meets the body's branch and where the output row is written back, in closed form.
   The grid is 2048 rows by 32 neighbours, the neighbour axis fastest: point t is row t / 32, neighbour t % 32. -/
/- Region 12: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg12
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre12.Contents (Elt F)) (hO : ok12 (F := F) pf)

abbrev adm : (pcfg12 (F := F)).Adm := ⟨pf, hO⟩
abbrev cfgM : Pipeline.Cfg sig Λ₀ := cfg12 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec12 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec12 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid12.Coords) : Prop := (Scalar.cmpi .ne (Scalar.extui (Scalar.cmpi .eq (BitVec.ofNat 32 (i 1).val) 0#32)) 0#32) = 1#1

abbrev VO_1 : View sig .tc .vmem S1x1x128 .f32 := (Memref.whole cc12_stg1_0 : Memref sig .tc .vmem S1x1x128 .f32).view
abbrev tbM : Memref sig .tc .smem S65536 .i32 := Memref.whole main_v53
abbrev htbM : (tbM).IsWhole := Memref.isWhole_whole _
abbrev ms_0 (t : Fin (cfgM pf hO).N) : Memref sig .tc .vmem S1x1x128 .f32 := spec12_0.stage ((cfgM pf hO).slots t 0)
abbrev hs_0 (t : Fin (cfgM pf hO).N) : (ms_0 pf hO t).IsWhole := hstage12_0 (((cfgM pf hO).slots t 0).cast nbuf12_0)
abbrev ms_1 (t : Fin (cfgM pf hO).N) : Memref sig .tc .vmem S1x1x128 .f32 := spec12_1.stage ((cfgM pf hO).slots t 1)
abbrev hs_1 (t : Fin (cfgM pf hO).N) : (ms_1 pf hO t).IsWhole := hstage12_1 (((cfgM pf hO).slots t 1).cast nbuf12_1)

/-- The body as the pipeline calls it at point `t`. -/
abbrev bodyAt (t : Fin (cfgM pf hO).N) : Prog (TpuEff nD τ sig (Elt F) Λ₀ .tc) PUnit :=
  cc12__gather_max_kernel (grid12.coords t) (Memref.whole main_v53) (Memref.isWhole_whole _) (spec12_0.stage ((cfgM pf hO).slots t 0)) (hstage12_0 (((cfgM pf hO).slots t 0).cast nbuf12_0)) (spec12_1.stage ((cfgM pf hO).slots t 1)) (hstage12_1 (((cfgM pf hO).slots t 1).cast nbuf12_1))

theorem N_eq : (cfgM pf hO).N = 65536 := N_12

end
end Cert.Kernel.Rg12

namespace Cert.Kernel.Rg12
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid12.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc12__gather_max_kernel i tbM htbM arg3 harg3 arg4 harg4) K } := by
  refine ⟨?_, fun E K => ?run⟩
  case run =>
    simp only [cc12__gather_max_kernel_eq_skeleton]; unfold cc12__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid12.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc12__gather_max_kernel i tbM htbM arg3 harg3 arg4 harg4) K } := by
  refine ⟨?_, fun E K => ?run⟩
  case run =>
    simp only [cc12__gather_max_kernel_eq_skeleton]; unfold cc12__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg12

namespace Cert.Kernel.Rg12
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre12.Contents (Elt F)) (hO : ok12 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid12.stride 1 = 1 := by decide
/-- A row lasts 32 consecutive points. -/
theorem stride_0 : grid12.stride 0 = 32 := by decide

/-- The neighbour coordinate of point t is t % 32. -/
theorem coords_1 (t : Fin grid12.N) : (grid12.coords t 1).val = t.val % 32 := by
  show t.val / grid12.stride 1 % grid12.bound 1 = t.val % 32
  rw [stride_1, Nat.div_one]; rfl

/-- The row coordinate of point t is t / 32 (modulo the 2048 rows). -/
theorem coords_0 (t : Fin grid12.N) : (grid12.coords t 0).val = t.val / 32 % 2048 := by
  show t.val / grid12.stride 0 % grid12.bound 0 = _
  rw [stride_0]; rfl

/-- The branch is taken exactly at a row's first neighbour. -/
theorem hcond : ∀ t : Fin (cfgM pf hO).N, cond (grid12.coords t) ↔ t.val % 32 = 0 := by
  intro t
  have e : (grid12.coords t 1).val = t.val % 32 := coords_1 t
  exact (cond_fin32 (grid12.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc12_transform_1 (grid12.coords t) = _
  unfold cc12_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg12

namespace Cert.Kernel.Rg12
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre12.Contents (Elt F)) (hO : ok12 (F := F) pf)

/-- Case A's pieces for the output tile its block, so they cover it. -/
theorem cover_A_1 (c : Dev nD) (i : grid12.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid12.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid12.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid12.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid12.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid12.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid12.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid12.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid12.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec12 w)
  after w t := match w with
    | ⟨0, _⟩ => iblk V pf hO c 0 t
    | ⟨1, _⟩ => (outsAt V pf hO c t.val t.isLt)
  Φ _ := iprop(Pipeline.ΦA spec12 c ∗ Pipeline.prefHeld pre12 c (fun _ => fullShare) pf)
  q _ := fullShare
  owed _ := 0

theorem A_eq (c : Dev nD) (w : Fin (cfgM pf hO).W) : (dat V pf hO c).A w = V c (Pipeline.arrRef spec12 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid12.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid12.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W12, bigSep_W12]
  exact sound_body V pf hO c t

end
end Cert.Kernel.Rg12

end
-- ==== Proof.KB.R13.Pipe.lean ====
/- Region 13 (the first 2048 pooled rows): the pipeline at an admissible table, the blocks its windows stage,
   the branch condition of the body and the names the runs are stated over. -/
/- Region 13: the body run once per case of its one branch. Case A (neighbour 0): the accumulator is set to -inf and
   then maximised with the gathered row. Case B (a later neighbour): the accumulator the point before left is
   maximised with the gathered row. Each run finds the pieces the output's staging buffer ends with. -/
/- Region 13: where the grid meets the body's branch and where the output row is written back, in closed form.
   The grid is 2048 rows by 32 neighbours, the neighbour axis fastest: point t is row t / 32, neighbour t % 32. -/
/- Region 13: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg13
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre13.Contents (Elt F)) (hO : ok13 (F := F) pf)

abbrev adm : (pcfg13 (F := F)).Adm := ⟨pf, hO⟩
abbrev cfgM : Pipeline.Cfg sig Λ₀ := cfg13 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec13 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec13 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid13.Coords) : Prop := (Scalar.cmpi .ne (Scalar.extui (Scalar.cmpi .eq (BitVec.ofNat 32 (i 1).val) 0#32)) 0#32) = 1#1

abbrev VO_1 : View sig .tc .vmem S1x1x128 .f32 := (Memref.whole cc13_stg1_0 : Memref sig .tc .vmem S1x1x128 .f32).view
abbrev tbM : Memref sig .tc .smem S65536 .i32 := Memref.whole main_v57
abbrev htbM : (tbM).IsWhole := Memref.isWhole_whole _
abbrev ms_0 (t : Fin (cfgM pf hO).N) : Memref sig .tc .vmem S1x1x128 .f32 := spec13_0.stage ((cfgM pf hO).slots t 0)
abbrev hs_0 (t : Fin (cfgM pf hO).N) : (ms_0 pf hO t).IsWhole := hstage13_0 (((cfgM pf hO).slots t 0).cast nbuf13_0)
abbrev ms_1 (t : Fin (cfgM pf hO).N) : Memref sig .tc .vmem S1x1x128 .f32 := spec13_1.stage ((cfgM pf hO).slots t 1)
abbrev hs_1 (t : Fin (cfgM pf hO).N) : (ms_1 pf hO t).IsWhole := hstage13_1 (((cfgM pf hO).slots t 1).cast nbuf13_1)

/-- The body as the pipeline calls it at point `t`. -/
abbrev bodyAt (t : Fin (cfgM pf hO).N) : Prog (TpuEff nD τ sig (Elt F) Λ₀ .tc) PUnit :=
  cc13__gather_max_kernel (grid13.coords t) (Memref.whole main_v57) (Memref.isWhole_whole _) (spec13_0.stage ((cfgM pf hO).slots t 0)) (hstage13_0 (((cfgM pf hO).slots t 0).cast nbuf13_0)) (spec13_1.stage ((cfgM pf hO).slots t 1)) (hstage13_1 (((cfgM pf hO).slots t 1).cast nbuf13_1))

theorem N_eq : (cfgM pf hO).N = 65536 := N_13

end
end Cert.Kernel.Rg13

namespace Cert.Kernel.Rg13
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid13.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc13__gather_max_kernel i tbM htbM arg3 harg3 arg4 harg4) K } := by
  refine ⟨?_, fun E K => ?run⟩
  case run =>
    simp only [cc13__gather_max_kernel_eq_skeleton]; unfold cc13__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid13.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc13__gather_max_kernel i tbM htbM arg3 harg3 arg4 harg4) K } := by
  refine ⟨?_, fun E K => ?run⟩
  case run =>
    simp only [cc13__gather_max_kernel_eq_skeleton]; unfold cc13__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg13

namespace Cert.Kernel.Rg13
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre13.Contents (Elt F)) (hO : ok13 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid13.stride 1 = 1 := by decide
/-- A row lasts 32 consecutive points. -/
theorem stride_0 : grid13.stride 0 = 32 := by decide

/-- The neighbour coordinate of point t is t % 32. -/
theorem coords_1 (t : Fin grid13.N) : (grid13.coords t 1).val = t.val % 32 := by
  show t.val / grid13.stride 1 % grid13.bound 1 = t.val % 32
  rw [stride_1, Nat.div_one]; rfl

/-- The row coordinate of point t is t / 32 (modulo the 2048 rows). -/
theorem coords_0 (t : Fin grid13.N) : (grid13.coords t 0).val = t.val / 32 % 2048 := by
  show t.val / grid13.stride 0 % grid13.bound 0 = _
  rw [stride_0]; rfl

/-- The branch is taken exactly at a row's first neighbour. -/
theorem hcond : ∀ t : Fin (cfgM pf hO).N, cond (grid13.coords t) ↔ t.val % 32 = 0 := by
  intro t
  have e : (grid13.coords t 1).val = t.val % 32 := coords_1 t
  exact (cond_fin32 (grid13.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc13_transform_1 (grid13.coords t) = _
  unfold cc13_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg13

namespace Cert.Kernel.Rg13
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre13.Contents (Elt F)) (hO : ok13 (F := F) pf)

/-- Case A's pieces for the output tile its block, so they cover it. -/
theorem cover_A_1 (c : Dev nD) (i : grid13.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid13.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid13.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid13.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid13.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid13.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid13.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid13.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid13.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec13 w)
  after w t := match w with
    | ⟨0, _⟩ => iblk V pf hO c 0 t
    | ⟨1, _⟩ => (outsAt V pf hO c t.val t.isLt)
  Φ _ := iprop(Pipeline.ΦA spec13 c ∗ Pipeline.prefHeld pre13 c (fun _ => fullShare) pf)
  q _ := fullShare
  owed _ := 0

theorem A_eq (c : Dev nD) (w : Fin (cfgM pf hO).W) : (dat V pf hO c).A w = V c (Pipeline.arrRef spec13 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid13.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid13.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W13, bigSep_W13]
  exact sound_body V pf hO c t

end
end Cert.Kernel.Rg13

end
-- ==== Proof.KB.R14.Pipe.lean ====
/- Region 14 (the first 2048 pooled rows): the pipeline at an admissible table, the blocks its windows stage,
   the branch condition of the body and the names the runs are stated over. -/
/- Region 14: the body run once per case of its one branch. Case A (neighbour 0): the accumulator is set to -inf and
   then maximised with the gathered row. Case B (a later neighbour): the accumulator the point before left is
   maximised with the gathered row. Each run finds the pieces the output's staging buffer ends with. -/
/- Region 14: where the grid meets the body's branch and where the output row is written back, in closed form.
   The grid is 2048 rows by 32 neighbours, the neighbour axis fastest: point t is row t / 32, neighbour t % 32. -/
/- Region 14: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg14
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre14.Contents (Elt F)) (hO : ok14 (F := F) pf)

abbrev adm : (pcfg14 (F := F)).Adm := ⟨pf, hO⟩
abbrev cfgM : Pipeline.Cfg sig Λ₀ := cfg14 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec14 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec14 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid14.Coords) : Prop := (Scalar.cmpi .ne (Scalar.extui (Scalar.cmpi .eq (BitVec.ofNat 32 (i 1).val) 0#32)) 0#32) = 1#1

abbrev VO_1 : View sig .tc .vmem S1x1x128 .f32 := (Memref.whole cc14_stg1_0 : Memref sig .tc .vmem S1x1x128 .f32).view
abbrev tbM : Memref sig .tc .smem S65536 .i32 := Memref.whole main_v61
abbrev htbM : (tbM).IsWhole := Memref.isWhole_whole _
abbrev ms_0 (t : Fin (cfgM pf hO).N) : Memref sig .tc .vmem S1x1x128 .f32 := spec14_0.stage ((cfgM pf hO).slots t 0)
abbrev hs_0 (t : Fin (cfgM pf hO).N) : (ms_0 pf hO t).IsWhole := hstage14_0 (((cfgM pf hO).slots t 0).cast nbuf14_0)
abbrev ms_1 (t : Fin (cfgM pf hO).N) : Memref sig .tc .vmem S1x1x128 .f32 := spec14_1.stage ((cfgM pf hO).slots t 1)
abbrev hs_1 (t : Fin (cfgM pf hO).N) : (ms_1 pf hO t).IsWhole := hstage14_1 (((cfgM pf hO).slots t 1).cast nbuf14_1)

/-- The body as the pipeline calls it at point `t`. -/
abbrev bodyAt (t : Fin (cfgM pf hO).N) : Prog (TpuEff nD τ sig (Elt F) Λ₀ .tc) PUnit :=
  cc14__gather_max_kernel (grid14.coords t) (Memref.whole main_v61) (Memref.isWhole_whole _) (spec14_0.stage ((cfgM pf hO).slots t 0)) (hstage14_0 (((cfgM pf hO).slots t 0).cast nbuf14_0)) (spec14_1.stage ((cfgM pf hO).slots t 1)) (hstage14_1 (((cfgM pf hO).slots t 1).cast nbuf14_1))

theorem N_eq : (cfgM pf hO).N = 65536 := N_14

end
end Cert.Kernel.Rg14

namespace Cert.Kernel.Rg14
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid14.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc14__gather_max_kernel i tbM htbM arg3 harg3 arg4 harg4) K } := by
  refine ⟨?_, fun E K => ?run⟩
  case run =>
    simp only [cc14__gather_max_kernel_eq_skeleton]; unfold cc14__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid14.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc14__gather_max_kernel i tbM htbM arg3 harg3 arg4 harg4) K } := by
  refine ⟨?_, fun E K => ?run⟩
  case run =>
    simp only [cc14__gather_max_kernel_eq_skeleton]; unfold cc14__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg14

namespace Cert.Kernel.Rg14
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre14.Contents (Elt F)) (hO : ok14 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid14.stride 1 = 1 := by decide
/-- A row lasts 32 consecutive points. -/
theorem stride_0 : grid14.stride 0 = 32 := by decide

/-- The neighbour coordinate of point t is t % 32. -/
theorem coords_1 (t : Fin grid14.N) : (grid14.coords t 1).val = t.val % 32 := by
  show t.val / grid14.stride 1 % grid14.bound 1 = t.val % 32
  rw [stride_1, Nat.div_one]; rfl

/-- The row coordinate of point t is t / 32 (modulo the 2048 rows). -/
theorem coords_0 (t : Fin grid14.N) : (grid14.coords t 0).val = t.val / 32 % 2048 := by
  show t.val / grid14.stride 0 % grid14.bound 0 = _
  rw [stride_0]; rfl

/-- The branch is taken exactly at a row's first neighbour. -/
theorem hcond : ∀ t : Fin (cfgM pf hO).N, cond (grid14.coords t) ↔ t.val % 32 = 0 := by
  intro t
  have e : (grid14.coords t 1).val = t.val % 32 := coords_1 t
  exact (cond_fin32 (grid14.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc14_transform_1 (grid14.coords t) = _
  unfold cc14_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg14

namespace Cert.Kernel.Rg14
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre14.Contents (Elt F)) (hO : ok14 (F := F) pf)

/-- Case A's pieces for the output tile its block, so they cover it. -/
theorem cover_A_1 (c : Dev nD) (i : grid14.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid14.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid14.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid14.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid14.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid14.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid14.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid14.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid14.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec14 w)
  after w t := match w with
    | ⟨0, _⟩ => iblk V pf hO c 0 t
    | ⟨1, _⟩ => (outsAt V pf hO c t.val t.isLt)
  Φ _ := iprop(Pipeline.ΦA spec14 c ∗ Pipeline.prefHeld pre14 c (fun _ => fullShare) pf)
  q _ := fullShare
  owed _ := 0

theorem A_eq (c : Dev nD) (w : Fin (cfgM pf hO).W) : (dat V pf hO c).A w = V c (Pipeline.arrRef spec14 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid14.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid14.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W14, bigSep_W14]
  exact sound_body V pf hO c t

end
end Cert.Kernel.Rg14

end
-- ==== Proof.KB.R15.Pipe.lean ====
/- Region 15 (the first 2048 pooled rows): the pipeline at an admissible table, the blocks its windows stage,
   the branch condition of the body and the names the runs are stated over. -/
/- Region 15: the body run once per case of its one branch. Case A (neighbour 0): the accumulator is set to -inf and
   then maximised with the gathered row. Case B (a later neighbour): the accumulator the point before left is
   maximised with the gathered row. Each run finds the pieces the output's staging buffer ends with. -/
/- Region 15: where the grid meets the body's branch and where the output row is written back, in closed form.
   The grid is 2048 rows by 32 neighbours, the neighbour axis fastest: point t is row t / 32, neighbour t % 32. -/
/- Region 15: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg15
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre15.Contents (Elt F)) (hO : ok15 (F := F) pf)

abbrev adm : (pcfg15 (F := F)).Adm := ⟨pf, hO⟩
abbrev cfgM : Pipeline.Cfg sig Λ₀ := cfg15 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec15 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec15 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid15.Coords) : Prop := (Scalar.cmpi .ne (Scalar.extui (Scalar.cmpi .eq (BitVec.ofNat 32 (i 1).val) 0#32)) 0#32) = 1#1

abbrev VO_1 : View sig .tc .vmem S1x1x128 .f32 := (Memref.whole cc15_stg1_0 : Memref sig .tc .vmem S1x1x128 .f32).view
abbrev tbM : Memref sig .tc .smem S65536 .i32 := Memref.whole main_v65
abbrev htbM : (tbM).IsWhole := Memref.isWhole_whole _
abbrev ms_0 (t : Fin (cfgM pf hO).N) : Memref sig .tc .vmem S1x1x128 .f32 := spec15_0.stage ((cfgM pf hO).slots t 0)
abbrev hs_0 (t : Fin (cfgM pf hO).N) : (ms_0 pf hO t).IsWhole := hstage15_0 (((cfgM pf hO).slots t 0).cast nbuf15_0)
abbrev ms_1 (t : Fin (cfgM pf hO).N) : Memref sig .tc .vmem S1x1x128 .f32 := spec15_1.stage ((cfgM pf hO).slots t 1)
abbrev hs_1 (t : Fin (cfgM pf hO).N) : (ms_1 pf hO t).IsWhole := hstage15_1 (((cfgM pf hO).slots t 1).cast nbuf15_1)

/-- The body as the pipeline calls it at point `t`. -/
abbrev bodyAt (t : Fin (cfgM pf hO).N) : Prog (TpuEff nD τ sig (Elt F) Λ₀ .tc) PUnit :=
  cc15__gather_max_kernel (grid15.coords t) (Memref.whole main_v65) (Memref.isWhole_whole _) (spec15_0.stage ((cfgM pf hO).slots t 0)) (hstage15_0 (((cfgM pf hO).slots t 0).cast nbuf15_0)) (spec15_1.stage ((cfgM pf hO).slots t 1)) (hstage15_1 (((cfgM pf hO).slots t 1).cast nbuf15_1))

theorem N_eq : (cfgM pf hO).N = 65536 := N_15

end
end Cert.Kernel.Rg15

namespace Cert.Kernel.Rg15
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid15.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc15__gather_max_kernel i tbM htbM arg3 harg3 arg4 harg4) K } := by
  refine ⟨?_, fun E K => ?run⟩
  case run =>
    simp only [cc15__gather_max_kernel_eq_skeleton]; unfold cc15__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid15.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc15__gather_max_kernel i tbM htbM arg3 harg3 arg4 harg4) K } := by
  refine ⟨?_, fun E K => ?run⟩
  case run =>
    simp only [cc15__gather_max_kernel_eq_skeleton]; unfold cc15__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg15

namespace Cert.Kernel.Rg15
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre15.Contents (Elt F)) (hO : ok15 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid15.stride 1 = 1 := by decide
/-- A row lasts 32 consecutive points. -/
theorem stride_0 : grid15.stride 0 = 32 := by decide

/-- The neighbour coordinate of point t is t % 32. -/
theorem coords_1 (t : Fin grid15.N) : (grid15.coords t 1).val = t.val % 32 := by
  show t.val / grid15.stride 1 % grid15.bound 1 = t.val % 32
  rw [stride_1, Nat.div_one]; rfl

/-- The row coordinate of point t is t / 32 (modulo the 2048 rows). -/
theorem coords_0 (t : Fin grid15.N) : (grid15.coords t 0).val = t.val / 32 % 2048 := by
  show t.val / grid15.stride 0 % grid15.bound 0 = _
  rw [stride_0]; rfl

/-- The branch is taken exactly at a row's first neighbour. -/
theorem hcond : ∀ t : Fin (cfgM pf hO).N, cond (grid15.coords t) ↔ t.val % 32 = 0 := by
  intro t
  have e : (grid15.coords t 1).val = t.val % 32 := coords_1 t
  exact (cond_fin32 (grid15.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc15_transform_1 (grid15.coords t) = _
  unfold cc15_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg15

namespace Cert.Kernel.Rg15
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre15.Contents (Elt F)) (hO : ok15 (F := F) pf)

/-- Case A's pieces for the output tile its block, so they cover it. -/
theorem cover_A_1 (c : Dev nD) (i : grid15.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid15.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid15.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid15.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid15.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid15.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid15.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid15.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid15.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec15 w)
  after w t := match w with
    | ⟨0, _⟩ => iblk V pf hO c 0 t
    | ⟨1, _⟩ => (outsAt V pf hO c t.val t.isLt)
  Φ _ := iprop(Pipeline.ΦA spec15 c ∗ Pipeline.prefHeld pre15 c (fun _ => fullShare) pf)
  q _ := fullShare
  owed _ := 0

theorem A_eq (c : Dev nD) (w : Fin (cfgM pf hO).W) : (dat V pf hO c).A w = V c (Pipeline.arrRef spec15 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid15.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid15.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W15, bigSep_W15]
  exact sound_body V pf hO c t

end
end Cert.Kernel.Rg15

end
-- ==== Proof.KB.R16.Pipe.lean ====
/- Region 16 (the first 2048 pooled rows): the pipeline at an admissible table, the blocks its windows stage,
   the branch condition of the body and the names the runs are stated over. -/
/- Region 16: the body run once per case of its one branch. Case A (neighbour 0): the accumulator is set to -inf and
   then maximised with the gathered row. Case B (a later neighbour): the accumulator the point before left is
   maximised with the gathered row. Each run finds the pieces the output's staging buffer ends with. -/
/- Region 16: where the grid meets the body's branch and where the output row is written back, in closed form.
   The grid is 2048 rows by 32 neighbours, the neighbour axis fastest: point t is row t / 32, neighbour t % 32. -/
/- Region 16: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg16
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre16.Contents (Elt F)) (hO : ok16 (F := F) pf)

abbrev adm : (pcfg16 (F := F)).Adm := ⟨pf, hO⟩
abbrev cfgM : Pipeline.Cfg sig Λ₀ := cfg16 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec16 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec16 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid16.Coords) : Prop := (Scalar.cmpi .ne (Scalar.extui (Scalar.cmpi .eq (BitVec.ofNat 32 (i 1).val) 0#32)) 0#32) = 1#1

abbrev VO_1 : View sig .tc .vmem S1x1x128 .f32 := (Memref.whole cc16_stg1_0 : Memref sig .tc .vmem S1x1x128 .f32).view
abbrev tbM : Memref sig .tc .smem S65536 .i32 := Memref.whole main_v69
abbrev htbM : (tbM).IsWhole := Memref.isWhole_whole _
abbrev ms_0 (t : Fin (cfgM pf hO).N) : Memref sig .tc .vmem S1x1x128 .f32 := spec16_0.stage ((cfgM pf hO).slots t 0)
abbrev hs_0 (t : Fin (cfgM pf hO).N) : (ms_0 pf hO t).IsWhole := hstage16_0 (((cfgM pf hO).slots t 0).cast nbuf16_0)
abbrev ms_1 (t : Fin (cfgM pf hO).N) : Memref sig .tc .vmem S1x1x128 .f32 := spec16_1.stage ((cfgM pf hO).slots t 1)
abbrev hs_1 (t : Fin (cfgM pf hO).N) : (ms_1 pf hO t).IsWhole := hstage16_1 (((cfgM pf hO).slots t 1).cast nbuf16_1)

/-- The body as the pipeline calls it at point `t`. -/
abbrev bodyAt (t : Fin (cfgM pf hO).N) : Prog (TpuEff nD τ sig (Elt F) Λ₀ .tc) PUnit :=
  cc16__gather_max_kernel (grid16.coords t) (Memref.whole main_v69) (Memref.isWhole_whole _) (spec16_0.stage ((cfgM pf hO).slots t 0)) (hstage16_0 (((cfgM pf hO).slots t 0).cast nbuf16_0)) (spec16_1.stage ((cfgM pf hO).slots t 1)) (hstage16_1 (((cfgM pf hO).slots t 1).cast nbuf16_1))

theorem N_eq : (cfgM pf hO).N = 65536 := N_16

end
end Cert.Kernel.Rg16

namespace Cert.Kernel.Rg16
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid16.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc16__gather_max_kernel i tbM htbM arg3 harg3 arg4 harg4) K } := by
  refine ⟨?_, fun E K => ?run⟩
  case run =>
    simp only [cc16__gather_max_kernel_eq_skeleton]; unfold cc16__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid16.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc16__gather_max_kernel i tbM htbM arg3 harg3 arg4 harg4) K } := by
  refine ⟨?_, fun E K => ?run⟩
  case run =>
    simp only [cc16__gather_max_kernel_eq_skeleton]; unfold cc16__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg16

namespace Cert.Kernel.Rg16
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre16.Contents (Elt F)) (hO : ok16 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid16.stride 1 = 1 := by decide
/-- A row lasts 32 consecutive points. -/
theorem stride_0 : grid16.stride 0 = 32 := by decide

/-- The neighbour coordinate of point t is t % 32. -/
theorem coords_1 (t : Fin grid16.N) : (grid16.coords t 1).val = t.val % 32 := by
  show t.val / grid16.stride 1 % grid16.bound 1 = t.val % 32
  rw [stride_1, Nat.div_one]; rfl

/-- The row coordinate of point t is t / 32 (modulo the 2048 rows). -/
theorem coords_0 (t : Fin grid16.N) : (grid16.coords t 0).val = t.val / 32 % 2048 := by
  show t.val / grid16.stride 0 % grid16.bound 0 = _
  rw [stride_0]; rfl

/-- The branch is taken exactly at a row's first neighbour. -/
theorem hcond : ∀ t : Fin (cfgM pf hO).N, cond (grid16.coords t) ↔ t.val % 32 = 0 := by
  intro t
  have e : (grid16.coords t 1).val = t.val % 32 := coords_1 t
  exact (cond_fin32 (grid16.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc16_transform_1 (grid16.coords t) = _
  unfold cc16_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg16

namespace Cert.Kernel.Rg16
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre16.Contents (Elt F)) (hO : ok16 (F := F) pf)

/-- Case A's pieces for the output tile its block, so they cover it. -/
theorem cover_A_1 (c : Dev nD) (i : grid16.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid16.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid16.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid16.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid16.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid16.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid16.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid16.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid16.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec16 w)
  after w t := match w with
    | ⟨0, _⟩ => iblk V pf hO c 0 t
    | ⟨1, _⟩ => (outsAt V pf hO c t.val t.isLt)
  Φ _ := iprop(Pipeline.ΦA spec16 c ∗ Pipeline.prefHeld pre16 c (fun _ => fullShare) pf)
  q _ := fullShare
  owed _ := 0

theorem A_eq (c : Dev nD) (w : Fin (cfgM pf hO).W) : (dat V pf hO c).A w = V c (Pipeline.arrRef spec16 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid16.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid16.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W16, bigSep_W16]
  exact sound_body V pf hO c t

end
end Cert.Kernel.Rg16

end
-- ==== Proof.KB.R17.Pipe.lean ====
/- Region 17 (the first 2048 pooled rows): the pipeline at an admissible table, the blocks its windows stage,
   the branch condition of the body and the names the runs are stated over. -/
/- Region 17: the body run once per case of its one branch. Case A (neighbour 0): the accumulator is set to -inf and
   then maximised with the gathered row. Case B (a later neighbour): the accumulator the point before left is
   maximised with the gathered row. Each run finds the pieces the output's staging buffer ends with. -/
/- Region 17: where the grid meets the body's branch and where the output row is written back, in closed form.
   The grid is 2048 rows by 32 neighbours, the neighbour axis fastest: point t is row t / 32, neighbour t % 32. -/
/- Region 17: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg17
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre17.Contents (Elt F)) (hO : ok17 (F := F) pf)

abbrev adm : (pcfg17 (F := F)).Adm := ⟨pf, hO⟩
abbrev cfgM : Pipeline.Cfg sig Λ₀ := cfg17 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec17 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec17 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid17.Coords) : Prop := (Scalar.cmpi .ne (Scalar.extui (Scalar.cmpi .eq (BitVec.ofNat 32 (i 1).val) 0#32)) 0#32) = 1#1

abbrev VO_1 : View sig .tc .vmem S1x1x128 .f32 := (Memref.whole cc17_stg1_0 : Memref sig .tc .vmem S1x1x128 .f32).view
abbrev tbM : Memref sig .tc .smem S65536 .i32 := Memref.whole main_v73
abbrev htbM : (tbM).IsWhole := Memref.isWhole_whole _
abbrev ms_0 (t : Fin (cfgM pf hO).N) : Memref sig .tc .vmem S1x1x128 .f32 := spec17_0.stage ((cfgM pf hO).slots t 0)
abbrev hs_0 (t : Fin (cfgM pf hO).N) : (ms_0 pf hO t).IsWhole := hstage17_0 (((cfgM pf hO).slots t 0).cast nbuf17_0)
abbrev ms_1 (t : Fin (cfgM pf hO).N) : Memref sig .tc .vmem S1x1x128 .f32 := spec17_1.stage ((cfgM pf hO).slots t 1)
abbrev hs_1 (t : Fin (cfgM pf hO).N) : (ms_1 pf hO t).IsWhole := hstage17_1 (((cfgM pf hO).slots t 1).cast nbuf17_1)

/-- The body as the pipeline calls it at point `t`. -/
abbrev bodyAt (t : Fin (cfgM pf hO).N) : Prog (TpuEff nD τ sig (Elt F) Λ₀ .tc) PUnit :=
  cc17__gather_max_kernel (grid17.coords t) (Memref.whole main_v73) (Memref.isWhole_whole _) (spec17_0.stage ((cfgM pf hO).slots t 0)) (hstage17_0 (((cfgM pf hO).slots t 0).cast nbuf17_0)) (spec17_1.stage ((cfgM pf hO).slots t 1)) (hstage17_1 (((cfgM pf hO).slots t 1).cast nbuf17_1))

theorem N_eq : (cfgM pf hO).N = 65536 := N_17

end
end Cert.Kernel.Rg17

namespace Cert.Kernel.Rg17
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid17.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc17__gather_max_kernel i tbM htbM arg3 harg3 arg4 harg4) K } := by
  refine ⟨?_, fun E K => ?run⟩
  case run =>
    simp only [cc17__gather_max_kernel_eq_skeleton]; unfold cc17__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid17.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc17__gather_max_kernel i tbM htbM arg3 harg3 arg4 harg4) K } := by
  refine ⟨?_, fun E K => ?run⟩
  case run =>
    simp only [cc17__gather_max_kernel_eq_skeleton]; unfold cc17__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg17

namespace Cert.Kernel.Rg17
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre17.Contents (Elt F)) (hO : ok17 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid17.stride 1 = 1 := by decide
/-- A row lasts 32 consecutive points. -/
theorem stride_0 : grid17.stride 0 = 32 := by decide

/-- The neighbour coordinate of point t is t % 32. -/
theorem coords_1 (t : Fin grid17.N) : (grid17.coords t 1).val = t.val % 32 := by
  show t.val / grid17.stride 1 % grid17.bound 1 = t.val % 32
  rw [stride_1, Nat.div_one]; rfl

/-- The row coordinate of point t is t / 32 (modulo the 2048 rows). -/
theorem coords_0 (t : Fin grid17.N) : (grid17.coords t 0).val = t.val / 32 % 2048 := by
  show t.val / grid17.stride 0 % grid17.bound 0 = _
  rw [stride_0]; rfl

/-- The branch is taken exactly at a row's first neighbour. -/
theorem hcond : ∀ t : Fin (cfgM pf hO).N, cond (grid17.coords t) ↔ t.val % 32 = 0 := by
  intro t
  have e : (grid17.coords t 1).val = t.val % 32 := coords_1 t
  exact (cond_fin32 (grid17.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc17_transform_1 (grid17.coords t) = _
  unfold cc17_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg17

namespace Cert.Kernel.Rg17
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre17.Contents (Elt F)) (hO : ok17 (F := F) pf)

/-- Case A's pieces for the output tile its block, so they cover it. -/
theorem cover_A_1 (c : Dev nD) (i : grid17.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid17.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid17.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid17.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid17.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid17.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid17.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid17.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid17.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec17 w)
  after w t := match w with
    | ⟨0, _⟩ => iblk V pf hO c 0 t
    | ⟨1, _⟩ => (outsAt V pf hO c t.val t.isLt)
  Φ _ := iprop(Pipeline.ΦA spec17 c ∗ Pipeline.prefHeld pre17 c (fun _ => fullShare) pf)
  q _ := fullShare
  owed _ := 0

theorem A_eq (c : Dev nD) (w : Fin (cfgM pf hO).W) : (dat V pf hO c).A w = V c (Pipeline.arrRef spec17 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid17.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid17.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W17, bigSep_W17]
  exact sound_body V pf hO c t

end
end Cert.Kernel.Rg17

end
-- ==== Proof.KB.R18.Pipe.lean ====
/- Region 18 (the first 2048 pooled rows): the pipeline at an admissible table, the blocks its windows stage,
   the branch condition of the body and the names the runs are stated over. -/
/- Region 18: the body run once per case of its one branch. Case A (neighbour 0): the accumulator is set to -inf and
   then maximised with the gathered row. Case B (a later neighbour): the accumulator the point before left is
   maximised with the gathered row. Each run finds the pieces the output's staging buffer ends with. -/
/- Region 18: where the grid meets the body's branch and where the output row is written back, in closed form.
   The grid is 2048 rows by 32 neighbours, the neighbour axis fastest: point t is row t / 32, neighbour t % 32. -/
/- Region 18: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg18
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre18.Contents (Elt F)) (hO : ok18 (F := F) pf)

abbrev adm : (pcfg18 (F := F)).Adm := ⟨pf, hO⟩
abbrev cfgM : Pipeline.Cfg sig Λ₀ := cfg18 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec18 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec18 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid18.Coords) : Prop := (Scalar.cmpi .ne (Scalar.extui (Scalar.cmpi .eq (BitVec.ofNat 32 (i 1).val) 0#32)) 0#32) = 1#1

abbrev VO_1 : View sig .tc .vmem S1x1x128 .f32 := (Memref.whole cc18_stg1_0 : Memref sig .tc .vmem S1x1x128 .f32).view
abbrev tbM : Memref sig .tc .smem S65536 .i32 := Memref.whole main_v77
abbrev htbM : (tbM).IsWhole := Memref.isWhole_whole _
abbrev ms_0 (t : Fin (cfgM pf hO).N) : Memref sig .tc .vmem S1x1x128 .f32 := spec18_0.stage ((cfgM pf hO).slots t 0)
abbrev hs_0 (t : Fin (cfgM pf hO).N) : (ms_0 pf hO t).IsWhole := hstage18_0 (((cfgM pf hO).slots t 0).cast nbuf18_0)
abbrev ms_1 (t : Fin (cfgM pf hO).N) : Memref sig .tc .vmem S1x1x128 .f32 := spec18_1.stage ((cfgM pf hO).slots t 1)
abbrev hs_1 (t : Fin (cfgM pf hO).N) : (ms_1 pf hO t).IsWhole := hstage18_1 (((cfgM pf hO).slots t 1).cast nbuf18_1)

/-- The body as the pipeline calls it at point `t`. -/
abbrev bodyAt (t : Fin (cfgM pf hO).N) : Prog (TpuEff nD τ sig (Elt F) Λ₀ .tc) PUnit :=
  cc18__gather_max_kernel (grid18.coords t) (Memref.whole main_v77) (Memref.isWhole_whole _) (spec18_0.stage ((cfgM pf hO).slots t 0)) (hstage18_0 (((cfgM pf hO).slots t 0).cast nbuf18_0)) (spec18_1.stage ((cfgM pf hO).slots t 1)) (hstage18_1 (((cfgM pf hO).slots t 1).cast nbuf18_1))

theorem N_eq : (cfgM pf hO).N = 65536 := N_18

end
end Cert.Kernel.Rg18

namespace Cert.Kernel.Rg18
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid18.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc18__gather_max_kernel i tbM htbM arg3 harg3 arg4 harg4) K } := by
  refine ⟨?_, fun E K => ?run⟩
  case run =>
    simp only [cc18__gather_max_kernel_eq_skeleton]; unfold cc18__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid18.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc18__gather_max_kernel i tbM htbM arg3 harg3 arg4 harg4) K } := by
  refine ⟨?_, fun E K => ?run⟩
  case run =>
    simp only [cc18__gather_max_kernel_eq_skeleton]; unfold cc18__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg18

namespace Cert.Kernel.Rg18
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre18.Contents (Elt F)) (hO : ok18 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid18.stride 1 = 1 := by decide
/-- A row lasts 32 consecutive points. -/
theorem stride_0 : grid18.stride 0 = 32 := by decide

/-- The neighbour coordinate of point t is t % 32. -/
theorem coords_1 (t : Fin grid18.N) : (grid18.coords t 1).val = t.val % 32 := by
  show t.val / grid18.stride 1 % grid18.bound 1 = t.val % 32
  rw [stride_1, Nat.div_one]; rfl

/-- The row coordinate of point t is t / 32 (modulo the 2048 rows). -/
theorem coords_0 (t : Fin grid18.N) : (grid18.coords t 0).val = t.val / 32 % 2048 := by
  show t.val / grid18.stride 0 % grid18.bound 0 = _
  rw [stride_0]; rfl

/-- The branch is taken exactly at a row's first neighbour. -/
theorem hcond : ∀ t : Fin (cfgM pf hO).N, cond (grid18.coords t) ↔ t.val % 32 = 0 := by
  intro t
  have e : (grid18.coords t 1).val = t.val % 32 := coords_1 t
  exact (cond_fin32 (grid18.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc18_transform_1 (grid18.coords t) = _
  unfold cc18_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg18

namespace Cert.Kernel.Rg18
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre18.Contents (Elt F)) (hO : ok18 (F := F) pf)

/-- Case A's pieces for the output tile its block, so they cover it. -/
theorem cover_A_1 (c : Dev nD) (i : grid18.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid18.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid18.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid18.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid18.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid18.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid18.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid18.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid18.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec18 w)
  after w t := match w with
    | ⟨0, _⟩ => iblk V pf hO c 0 t
    | ⟨1, _⟩ => (outsAt V pf hO c t.val t.isLt)
  Φ _ := iprop(Pipeline.ΦA spec18 c ∗ Pipeline.prefHeld pre18 c (fun _ => fullShare) pf)
  q _ := fullShare
  owed _ := 0

theorem A_eq (c : Dev nD) (w : Fin (cfgM pf hO).W) : (dat V pf hO c).A w = V c (Pipeline.arrRef spec18 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid18.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid18.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W18, bigSep_W18]
  exact sound_body V pf hO c t

end
end Cert.Kernel.Rg18

end
-- ==== Proof.KB.R19.Pipe.lean ====
/- Region 19 (the first 2048 pooled rows): the pipeline at an admissible table, the blocks its windows stage,
   the branch condition of the body and the names the runs are stated over. -/
/- Region 19: the body run once per case of its one branch. Case A (neighbour 0): the accumulator is set to -inf and
   then maximised with the gathered row. Case B (a later neighbour): the accumulator the point before left is
   maximised with the gathered row. Each run finds the pieces the output's staging buffer ends with. -/
/- Region 19: where the grid meets the body's branch and where the output row is written back, in closed form.
   The grid is 2048 rows by 32 neighbours, the neighbour axis fastest: point t is row t / 32, neighbour t % 32. -/
/- Region 19: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg19
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre19.Contents (Elt F)) (hO : ok19 (F := F) pf)

abbrev adm : (pcfg19 (F := F)).Adm := ⟨pf, hO⟩
abbrev cfgM : Pipeline.Cfg sig Λ₀ := cfg19 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec19 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec19 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid19.Coords) : Prop := (Scalar.cmpi .ne (Scalar.extui (Scalar.cmpi .eq (BitVec.ofNat 32 (i 1).val) 0#32)) 0#32) = 1#1

abbrev VO_1 : View sig .tc .vmem S1x1x128 .f32 := (Memref.whole cc19_stg1_0 : Memref sig .tc .vmem S1x1x128 .f32).view
abbrev tbM : Memref sig .tc .smem S65536 .i32 := Memref.whole main_v81
abbrev htbM : (tbM).IsWhole := Memref.isWhole_whole _
abbrev ms_0 (t : Fin (cfgM pf hO).N) : Memref sig .tc .vmem S1x1x128 .f32 := spec19_0.stage ((cfgM pf hO).slots t 0)
abbrev hs_0 (t : Fin (cfgM pf hO).N) : (ms_0 pf hO t).IsWhole := hstage19_0 (((cfgM pf hO).slots t 0).cast nbuf19_0)
abbrev ms_1 (t : Fin (cfgM pf hO).N) : Memref sig .tc .vmem S1x1x128 .f32 := spec19_1.stage ((cfgM pf hO).slots t 1)
abbrev hs_1 (t : Fin (cfgM pf hO).N) : (ms_1 pf hO t).IsWhole := hstage19_1 (((cfgM pf hO).slots t 1).cast nbuf19_1)

/-- The body as the pipeline calls it at point `t`. -/
abbrev bodyAt (t : Fin (cfgM pf hO).N) : Prog (TpuEff nD τ sig (Elt F) Λ₀ .tc) PUnit :=
  cc19__gather_max_kernel (grid19.coords t) (Memref.whole main_v81) (Memref.isWhole_whole _) (spec19_0.stage ((cfgM pf hO).slots t 0)) (hstage19_0 (((cfgM pf hO).slots t 0).cast nbuf19_0)) (spec19_1.stage ((cfgM pf hO).slots t 1)) (hstage19_1 (((cfgM pf hO).slots t 1).cast nbuf19_1))

theorem N_eq : (cfgM pf hO).N = 65536 := N_19

end
end Cert.Kernel.Rg19

namespace Cert.Kernel.Rg19
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid19.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc19__gather_max_kernel i tbM htbM arg3 harg3 arg4 harg4) K } := by
  refine ⟨?_, fun E K => ?run⟩
  case run =>
    simp only [cc19__gather_max_kernel_eq_skeleton]; unfold cc19__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid19.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc19__gather_max_kernel i tbM htbM arg3 harg3 arg4 harg4) K } := by
  refine ⟨?_, fun E K => ?run⟩
  case run =>
    simp only [cc19__gather_max_kernel_eq_skeleton]; unfold cc19__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg19

namespace Cert.Kernel.Rg19
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre19.Contents (Elt F)) (hO : ok19 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid19.stride 1 = 1 := by decide
/-- A row lasts 32 consecutive points. -/
theorem stride_0 : grid19.stride 0 = 32 := by decide

/-- The neighbour coordinate of point t is t % 32. -/
theorem coords_1 (t : Fin grid19.N) : (grid19.coords t 1).val = t.val % 32 := by
  show t.val / grid19.stride 1 % grid19.bound 1 = t.val % 32
  rw [stride_1, Nat.div_one]; rfl

/-- The row coordinate of point t is t / 32 (modulo the 2048 rows). -/
theorem coords_0 (t : Fin grid19.N) : (grid19.coords t 0).val = t.val / 32 % 2048 := by
  show t.val / grid19.stride 0 % grid19.bound 0 = _
  rw [stride_0]; rfl

/-- The branch is taken exactly at a row's first neighbour. -/
theorem hcond : ∀ t : Fin (cfgM pf hO).N, cond (grid19.coords t) ↔ t.val % 32 = 0 := by
  intro t
  have e : (grid19.coords t 1).val = t.val % 32 := coords_1 t
  exact (cond_fin32 (grid19.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc19_transform_1 (grid19.coords t) = _
  unfold cc19_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg19

namespace Cert.Kernel.Rg19
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre19.Contents (Elt F)) (hO : ok19 (F := F) pf)

/-- Case A's pieces for the output tile its block, so they cover it. -/
theorem cover_A_1 (c : Dev nD) (i : grid19.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid19.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid19.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid19.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid19.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid19.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid19.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid19.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid19.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec19 w)
  after w t := match w with
    | ⟨0, _⟩ => iblk V pf hO c 0 t
    | ⟨1, _⟩ => (outsAt V pf hO c t.val t.isLt)
  Φ _ := iprop(Pipeline.ΦA spec19 c ∗ Pipeline.prefHeld pre19 c (fun _ => fullShare) pf)
  q _ := fullShare
  owed _ := 0

theorem A_eq (c : Dev nD) (w : Fin (cfgM pf hO).W) : (dat V pf hO c).A w = V c (Pipeline.arrRef spec19 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid19.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid19.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W19, bigSep_W19]
  exact sound_body V pf hO c t

end
end Cert.Kernel.Rg19

end
-- ==== Proof.KB.R20.Pipe.lean ====
/- Region 20 (the first 2048 pooled rows): the pipeline at an admissible table, the blocks its windows stage,
   the branch condition of the body and the names the runs are stated over. -/
/- Region 20: the body run once per case of its one branch. Case A (neighbour 0): the accumulator is set to -inf and
   then maximised with the gathered row. Case B (a later neighbour): the accumulator the point before left is
   maximised with the gathered row. Each run finds the pieces the output's staging buffer ends with. -/
/- Region 20: where the grid meets the body's branch and where the output row is written back, in closed form.
   The grid is 2048 rows by 32 neighbours, the neighbour axis fastest: point t is row t / 32, neighbour t % 32. -/
/- Region 20: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg20
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre20.Contents (Elt F)) (hO : ok20 (F := F) pf)

abbrev adm : (pcfg20 (F := F)).Adm := ⟨pf, hO⟩
abbrev cfgM : Pipeline.Cfg sig Λ₀ := cfg20 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec20 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec20 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid20.Coords) : Prop := (Scalar.cmpi .ne (Scalar.extui (Scalar.cmpi .eq (BitVec.ofNat 32 (i 1).val) 0#32)) 0#32) = 1#1

abbrev VO_1 : View sig .tc .vmem S1x1x128 .f32 := (Memref.whole cc20_stg1_0 : Memref sig .tc .vmem S1x1x128 .f32).view
abbrev tbM : Memref sig .tc .smem S65536 .i32 := Memref.whole main_v85
abbrev htbM : (tbM).IsWhole := Memref.isWhole_whole _
abbrev ms_0 (t : Fin (cfgM pf hO).N) : Memref sig .tc .vmem S1x1x128 .f32 := spec20_0.stage ((cfgM pf hO).slots t 0)
abbrev hs_0 (t : Fin (cfgM pf hO).N) : (ms_0 pf hO t).IsWhole := hstage20_0 (((cfgM pf hO).slots t 0).cast nbuf20_0)
abbrev ms_1 (t : Fin (cfgM pf hO).N) : Memref sig .tc .vmem S1x1x128 .f32 := spec20_1.stage ((cfgM pf hO).slots t 1)
abbrev hs_1 (t : Fin (cfgM pf hO).N) : (ms_1 pf hO t).IsWhole := hstage20_1 (((cfgM pf hO).slots t 1).cast nbuf20_1)

/-- The body as the pipeline calls it at point `t`. -/
abbrev bodyAt (t : Fin (cfgM pf hO).N) : Prog (TpuEff nD τ sig (Elt F) Λ₀ .tc) PUnit :=
  cc20__gather_max_kernel (grid20.coords t) (Memref.whole main_v85) (Memref.isWhole_whole _) (spec20_0.stage ((cfgM pf hO).slots t 0)) (hstage20_0 (((cfgM pf hO).slots t 0).cast nbuf20_0)) (spec20_1.stage ((cfgM pf hO).slots t 1)) (hstage20_1 (((cfgM pf hO).slots t 1).cast nbuf20_1))

theorem N_eq : (cfgM pf hO).N = 65536 := N_20

end
end Cert.Kernel.Rg20

namespace Cert.Kernel.Rg20
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid20.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc20__gather_max_kernel i tbM htbM arg3 harg3 arg4 harg4) K } := by
  refine ⟨?_, fun E K => ?run⟩
  case run =>
    simp only [cc20__gather_max_kernel_eq_skeleton]; unfold cc20__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid20.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc20__gather_max_kernel i tbM htbM arg3 harg3 arg4 harg4) K } := by
  refine ⟨?_, fun E K => ?run⟩
  case run =>
    simp only [cc20__gather_max_kernel_eq_skeleton]; unfold cc20__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg20

namespace Cert.Kernel.Rg20
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre20.Contents (Elt F)) (hO : ok20 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid20.stride 1 = 1 := by decide
/-- A row lasts 32 consecutive points. -/
theorem stride_0 : grid20.stride 0 = 32 := by decide

/-- The neighbour coordinate of point t is t % 32. -/
theorem coords_1 (t : Fin grid20.N) : (grid20.coords t 1).val = t.val % 32 := by
  show t.val / grid20.stride 1 % grid20.bound 1 = t.val % 32
  rw [stride_1, Nat.div_one]; rfl

/-- The row coordinate of point t is t / 32 (modulo the 2048 rows). -/
theorem coords_0 (t : Fin grid20.N) : (grid20.coords t 0).val = t.val / 32 % 2048 := by
  show t.val / grid20.stride 0 % grid20.bound 0 = _
  rw [stride_0]; rfl

/-- The branch is taken exactly at a row's first neighbour. -/
theorem hcond : ∀ t : Fin (cfgM pf hO).N, cond (grid20.coords t) ↔ t.val % 32 = 0 := by
  intro t
  have e : (grid20.coords t 1).val = t.val % 32 := coords_1 t
  exact (cond_fin32 (grid20.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc20_transform_1 (grid20.coords t) = _
  unfold cc20_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg20

namespace Cert.Kernel.Rg20
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre20.Contents (Elt F)) (hO : ok20 (F := F) pf)

/-- Case A's pieces for the output tile its block, so they cover it. -/
theorem cover_A_1 (c : Dev nD) (i : grid20.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid20.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid20.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid20.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid20.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid20.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid20.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid20.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid20.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec20 w)
  after w t := match w with
    | ⟨0, _⟩ => iblk V pf hO c 0 t
    | ⟨1, _⟩ => (outsAt V pf hO c t.val t.isLt)
  Φ _ := iprop(Pipeline.ΦA spec20 c ∗ Pipeline.prefHeld pre20 c (fun _ => fullShare) pf)
  q _ := fullShare
  owed _ := 0

theorem A_eq (c : Dev nD) (w : Fin (cfgM pf hO).W) : (dat V pf hO c).A w = V c (Pipeline.arrRef spec20 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid20.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid20.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W20, bigSep_W20]
  exact sound_body V pf hO c t

end
end Cert.Kernel.Rg20

end
-- ==== Proof.KB.R21.Pipe.lean ====
/- Region 21 (the first 2048 pooled rows): the pipeline at an admissible table, the blocks its windows stage,
   the branch condition of the body and the names the runs are stated over. -/
/- Region 21: the body run once per case of its one branch. Case A (neighbour 0): the accumulator is set to -inf and
   then maximised with the gathered row. Case B (a later neighbour): the accumulator the point before left is
   maximised with the gathered row. Each run finds the pieces the output's staging buffer ends with. -/
/- Region 21: where the grid meets the body's branch and where the output row is written back, in closed form.
   The grid is 2048 rows by 32 neighbours, the neighbour axis fastest: point t is row t / 32, neighbour t % 32. -/
/- Region 21: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg21
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre21.Contents (Elt F)) (hO : ok21 (F := F) pf)

abbrev adm : (pcfg21 (F := F)).Adm := ⟨pf, hO⟩
abbrev cfgM : Pipeline.Cfg sig Λ₀ := cfg21 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec21 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec21 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid21.Coords) : Prop := (Scalar.cmpi .ne (Scalar.extui (Scalar.cmpi .eq (BitVec.ofNat 32 (i 1).val) 0#32)) 0#32) = 1#1

abbrev VO_1 : View sig .tc .vmem S1x1x128 .f32 := (Memref.whole cc21_stg1_0 : Memref sig .tc .vmem S1x1x128 .f32).view
abbrev tbM : Memref sig .tc .smem S65536 .i32 := Memref.whole main_v89
abbrev htbM : (tbM).IsWhole := Memref.isWhole_whole _
abbrev ms_0 (t : Fin (cfgM pf hO).N) : Memref sig .tc .vmem S1x1x128 .f32 := spec21_0.stage ((cfgM pf hO).slots t 0)
abbrev hs_0 (t : Fin (cfgM pf hO).N) : (ms_0 pf hO t).IsWhole := hstage21_0 (((cfgM pf hO).slots t 0).cast nbuf21_0)
abbrev ms_1 (t : Fin (cfgM pf hO).N) : Memref sig .tc .vmem S1x1x128 .f32 := spec21_1.stage ((cfgM pf hO).slots t 1)
abbrev hs_1 (t : Fin (cfgM pf hO).N) : (ms_1 pf hO t).IsWhole := hstage21_1 (((cfgM pf hO).slots t 1).cast nbuf21_1)

/-- The body as the pipeline calls it at point `t`. -/
abbrev bodyAt (t : Fin (cfgM pf hO).N) : Prog (TpuEff nD τ sig (Elt F) Λ₀ .tc) PUnit :=
  cc21__gather_max_kernel (grid21.coords t) (Memref.whole main_v89) (Memref.isWhole_whole _) (spec21_0.stage ((cfgM pf hO).slots t 0)) (hstage21_0 (((cfgM pf hO).slots t 0).cast nbuf21_0)) (spec21_1.stage ((cfgM pf hO).slots t 1)) (hstage21_1 (((cfgM pf hO).slots t 1).cast nbuf21_1))

theorem N_eq : (cfgM pf hO).N = 65536 := N_21

end
end Cert.Kernel.Rg21

namespace Cert.Kernel.Rg21
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid21.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc21__gather_max_kernel i tbM htbM arg3 harg3 arg4 harg4) K } := by
  refine ⟨?_, fun E K => ?run⟩
  case run =>
    simp only [cc21__gather_max_kernel_eq_skeleton]; unfold cc21__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid21.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc21__gather_max_kernel i tbM htbM arg3 harg3 arg4 harg4) K } := by
  refine ⟨?_, fun E K => ?run⟩
  case run =>
    simp only [cc21__gather_max_kernel_eq_skeleton]; unfold cc21__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg21

namespace Cert.Kernel.Rg21
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre21.Contents (Elt F)) (hO : ok21 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid21.stride 1 = 1 := by decide
/-- A row lasts 32 consecutive points. -/
theorem stride_0 : grid21.stride 0 = 32 := by decide

/-- The neighbour coordinate of point t is t % 32. -/
theorem coords_1 (t : Fin grid21.N) : (grid21.coords t 1).val = t.val % 32 := by
  show t.val / grid21.stride 1 % grid21.bound 1 = t.val % 32
  rw [stride_1, Nat.div_one]; rfl

/-- The row coordinate of point t is t / 32 (modulo the 2048 rows). -/
theorem coords_0 (t : Fin grid21.N) : (grid21.coords t 0).val = t.val / 32 % 2048 := by
  show t.val / grid21.stride 0 % grid21.bound 0 = _
  rw [stride_0]; rfl

/-- The branch is taken exactly at a row's first neighbour. -/
theorem hcond : ∀ t : Fin (cfgM pf hO).N, cond (grid21.coords t) ↔ t.val % 32 = 0 := by
  intro t
  have e : (grid21.coords t 1).val = t.val % 32 := coords_1 t
  exact (cond_fin32 (grid21.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc21_transform_1 (grid21.coords t) = _
  unfold cc21_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg21

namespace Cert.Kernel.Rg21
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre21.Contents (Elt F)) (hO : ok21 (F := F) pf)

/-- Case A's pieces for the output tile its block, so they cover it. -/
theorem cover_A_1 (c : Dev nD) (i : grid21.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid21.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid21.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid21.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid21.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid21.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid21.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid21.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid21.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec21 w)
  after w t := match w with
    | ⟨0, _⟩ => iblk V pf hO c 0 t
    | ⟨1, _⟩ => (outsAt V pf hO c t.val t.isLt)
  Φ _ := iprop(Pipeline.ΦA spec21 c ∗ Pipeline.prefHeld pre21 c (fun _ => fullShare) pf)
  q _ := fullShare
  owed _ := 0

theorem A_eq (c : Dev nD) (w : Fin (cfgM pf hO).W) : (dat V pf hO c).A w = V c (Pipeline.arrRef spec21 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid21.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid21.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W21, bigSep_W21]
  exact sound_body V pf hO c t

end
end Cert.Kernel.Rg21

end
-- ==== Proof.KB.R22.Pipe.lean ====
/- Region 22 (the first 2048 pooled rows): the pipeline at an admissible table, the blocks its windows stage,
   the branch condition of the body and the names the runs are stated over. -/
/- Region 22: the body run once per case of its one branch. Case A (neighbour 0): the accumulator is set to -inf and
   then maximised with the gathered row. Case B (a later neighbour): the accumulator the point before left is
   maximised with the gathered row. Each run finds the pieces the output's staging buffer ends with. -/
/- Region 22: where the grid meets the body's branch and where the output row is written back, in closed form.
   The grid is 2048 rows by 32 neighbours, the neighbour axis fastest: point t is row t / 32, neighbour t % 32. -/
/- Region 22: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg22
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre22.Contents (Elt F)) (hO : ok22 (F := F) pf)

abbrev adm : (pcfg22 (F := F)).Adm := ⟨pf, hO⟩
abbrev cfgM : Pipeline.Cfg sig Λ₀ := cfg22 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec22 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec22 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid22.Coords) : Prop := (Scalar.cmpi .ne (Scalar.extui (Scalar.cmpi .eq (BitVec.ofNat 32 (i 1).val) 0#32)) 0#32) = 1#1

abbrev VO_1 : View sig .tc .vmem S1x1x128 .f32 := (Memref.whole cc22_stg1_0 : Memref sig .tc .vmem S1x1x128 .f32).view
abbrev tbM : Memref sig .tc .smem S65536 .i32 := Memref.whole main_v93
abbrev htbM : (tbM).IsWhole := Memref.isWhole_whole _
abbrev ms_0 (t : Fin (cfgM pf hO).N) : Memref sig .tc .vmem S1x1x128 .f32 := spec22_0.stage ((cfgM pf hO).slots t 0)
abbrev hs_0 (t : Fin (cfgM pf hO).N) : (ms_0 pf hO t).IsWhole := hstage22_0 (((cfgM pf hO).slots t 0).cast nbuf22_0)
abbrev ms_1 (t : Fin (cfgM pf hO).N) : Memref sig .tc .vmem S1x1x128 .f32 := spec22_1.stage ((cfgM pf hO).slots t 1)
abbrev hs_1 (t : Fin (cfgM pf hO).N) : (ms_1 pf hO t).IsWhole := hstage22_1 (((cfgM pf hO).slots t 1).cast nbuf22_1)

/-- The body as the pipeline calls it at point `t`. -/
abbrev bodyAt (t : Fin (cfgM pf hO).N) : Prog (TpuEff nD τ sig (Elt F) Λ₀ .tc) PUnit :=
  cc22__gather_max_kernel (grid22.coords t) (Memref.whole main_v93) (Memref.isWhole_whole _) (spec22_0.stage ((cfgM pf hO).slots t 0)) (hstage22_0 (((cfgM pf hO).slots t 0).cast nbuf22_0)) (spec22_1.stage ((cfgM pf hO).slots t 1)) (hstage22_1 (((cfgM pf hO).slots t 1).cast nbuf22_1))

theorem N_eq : (cfgM pf hO).N = 65536 := N_22

end
end Cert.Kernel.Rg22

namespace Cert.Kernel.Rg22
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid22.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc22__gather_max_kernel i tbM htbM arg3 harg3 arg4 harg4) K } := by
  refine ⟨?_, fun E K => ?run⟩
  case run =>
    simp only [cc22__gather_max_kernel_eq_skeleton]; unfold cc22__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid22.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc22__gather_max_kernel i tbM htbM arg3 harg3 arg4 harg4) K } := by
  refine ⟨?_, fun E K => ?run⟩
  case run =>
    simp only [cc22__gather_max_kernel_eq_skeleton]; unfold cc22__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg22

namespace Cert.Kernel.Rg22
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre22.Contents (Elt F)) (hO : ok22 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid22.stride 1 = 1 := by decide
/-- A row lasts 32 consecutive points. -/
theorem stride_0 : grid22.stride 0 = 32 := by decide

/-- The neighbour coordinate of point t is t % 32. -/
theorem coords_1 (t : Fin grid22.N) : (grid22.coords t 1).val = t.val % 32 := by
  show t.val / grid22.stride 1 % grid22.bound 1 = t.val % 32
  rw [stride_1, Nat.div_one]; rfl

/-- The row coordinate of point t is t / 32 (modulo the 2048 rows). -/
theorem coords_0 (t : Fin grid22.N) : (grid22.coords t 0).val = t.val / 32 % 2048 := by
  show t.val / grid22.stride 0 % grid22.bound 0 = _
  rw [stride_0]; rfl

/-- The branch is taken exactly at a row's first neighbour. -/
theorem hcond : ∀ t : Fin (cfgM pf hO).N, cond (grid22.coords t) ↔ t.val % 32 = 0 := by
  intro t
  have e : (grid22.coords t 1).val = t.val % 32 := coords_1 t
  exact (cond_fin32 (grid22.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc22_transform_1 (grid22.coords t) = _
  unfold cc22_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg22

namespace Cert.Kernel.Rg22
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre22.Contents (Elt F)) (hO : ok22 (F := F) pf)

/-- Case A's pieces for the output tile its block, so they cover it. -/
theorem cover_A_1 (c : Dev nD) (i : grid22.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid22.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid22.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid22.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid22.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid22.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid22.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid22.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid22.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec22 w)
  after w t := match w with
    | ⟨0, _⟩ => iblk V pf hO c 0 t
    | ⟨1, _⟩ => (outsAt V pf hO c t.val t.isLt)
  Φ _ := iprop(Pipeline.ΦA spec22 c ∗ Pipeline.prefHeld pre22 c (fun _ => fullShare) pf)
  q _ := fullShare
  owed _ := 0

theorem A_eq (c : Dev nD) (w : Fin (cfgM pf hO).W) : (dat V pf hO c).A w = V c (Pipeline.arrRef spec22 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid22.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid22.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W22, bigSep_W22]
  exact sound_body V pf hO c t

end
end Cert.Kernel.Rg22

end
-- ==== Proof.KB.R23.Pipe.lean ====
/- Region 23 (the first 2048 pooled rows): the pipeline at an admissible table, the blocks its windows stage,
   the branch condition of the body and the names the runs are stated over. -/
/- Region 23: the body run once per case of its one branch. Case A (neighbour 0): the accumulator is set to -inf and
   then maximised with the gathered row. Case B (a later neighbour): the accumulator the point before left is
   maximised with the gathered row. Each run finds the pieces the output's staging buffer ends with. -/
/- Region 23: where the grid meets the body's branch and where the output row is written back, in closed form.
   The grid is 2048 rows by 32 neighbours, the neighbour axis fastest: point t is row t / 32, neighbour t % 32. -/
/- Region 23: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg23
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre23.Contents (Elt F)) (hO : ok23 (F := F) pf)

abbrev adm : (pcfg23 (F := F)).Adm := ⟨pf, hO⟩
abbrev cfgM : Pipeline.Cfg sig Λ₀ := cfg23 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec23 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec23 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid23.Coords) : Prop := (Scalar.cmpi .ne (Scalar.extui (Scalar.cmpi .eq (BitVec.ofNat 32 (i 1).val) 0#32)) 0#32) = 1#1

abbrev VO_1 : View sig .tc .vmem S1x1x128 .f32 := (Memref.whole cc23_stg1_0 : Memref sig .tc .vmem S1x1x128 .f32).view
abbrev tbM : Memref sig .tc .smem S65536 .i32 := Memref.whole main_v97
abbrev htbM : (tbM).IsWhole := Memref.isWhole_whole _
abbrev ms_0 (t : Fin (cfgM pf hO).N) : Memref sig .tc .vmem S1x1x128 .f32 := spec23_0.stage ((cfgM pf hO).slots t 0)
abbrev hs_0 (t : Fin (cfgM pf hO).N) : (ms_0 pf hO t).IsWhole := hstage23_0 (((cfgM pf hO).slots t 0).cast nbuf23_0)
abbrev ms_1 (t : Fin (cfgM pf hO).N) : Memref sig .tc .vmem S1x1x128 .f32 := spec23_1.stage ((cfgM pf hO).slots t 1)
abbrev hs_1 (t : Fin (cfgM pf hO).N) : (ms_1 pf hO t).IsWhole := hstage23_1 (((cfgM pf hO).slots t 1).cast nbuf23_1)

/-- The body as the pipeline calls it at point `t`. -/
abbrev bodyAt (t : Fin (cfgM pf hO).N) : Prog (TpuEff nD τ sig (Elt F) Λ₀ .tc) PUnit :=
  cc23__gather_max_kernel (grid23.coords t) (Memref.whole main_v97) (Memref.isWhole_whole _) (spec23_0.stage ((cfgM pf hO).slots t 0)) (hstage23_0 (((cfgM pf hO).slots t 0).cast nbuf23_0)) (spec23_1.stage ((cfgM pf hO).slots t 1)) (hstage23_1 (((cfgM pf hO).slots t 1).cast nbuf23_1))

theorem N_eq : (cfgM pf hO).N = 65536 := N_23

end
end Cert.Kernel.Rg23

namespace Cert.Kernel.Rg23
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid23.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc23__gather_max_kernel i tbM htbM arg3 harg3 arg4 harg4) K } := by
  refine ⟨?_, fun E K => ?run⟩
  case run =>
    simp only [cc23__gather_max_kernel_eq_skeleton]; unfold cc23__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid23.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc23__gather_max_kernel i tbM htbM arg3 harg3 arg4 harg4) K } := by
  refine ⟨?_, fun E K => ?run⟩
  case run =>
    simp only [cc23__gather_max_kernel_eq_skeleton]; unfold cc23__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg23

namespace Cert.Kernel.Rg23
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre23.Contents (Elt F)) (hO : ok23 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid23.stride 1 = 1 := by decide
/-- A row lasts 32 consecutive points. -/
theorem stride_0 : grid23.stride 0 = 32 := by decide

/-- The neighbour coordinate of point t is t % 32. -/
theorem coords_1 (t : Fin grid23.N) : (grid23.coords t 1).val = t.val % 32 := by
  show t.val / grid23.stride 1 % grid23.bound 1 = t.val % 32
  rw [stride_1, Nat.div_one]; rfl

/-- The row coordinate of point t is t / 32 (modulo the 2048 rows). -/
theorem coords_0 (t : Fin grid23.N) : (grid23.coords t 0).val = t.val / 32 % 2048 := by
  show t.val / grid23.stride 0 % grid23.bound 0 = _
  rw [stride_0]; rfl

/-- The branch is taken exactly at a row's first neighbour. -/
theorem hcond : ∀ t : Fin (cfgM pf hO).N, cond (grid23.coords t) ↔ t.val % 32 = 0 := by
  intro t
  have e : (grid23.coords t 1).val = t.val % 32 := coords_1 t
  exact (cond_fin32 (grid23.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc23_transform_1 (grid23.coords t) = _
  unfold cc23_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg23

namespace Cert.Kernel.Rg23
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre23.Contents (Elt F)) (hO : ok23 (F := F) pf)

/-- Case A's pieces for the output tile its block, so they cover it. -/
theorem cover_A_1 (c : Dev nD) (i : grid23.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid23.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid23.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid23.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid23.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid23.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid23.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid23.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid23.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec23 w)
  after w t := match w with
    | ⟨0, _⟩ => iblk V pf hO c 0 t
    | ⟨1, _⟩ => (outsAt V pf hO c t.val t.isLt)
  Φ _ := iprop(Pipeline.ΦA spec23 c ∗ Pipeline.prefHeld pre23 c (fun _ => fullShare) pf)
  q _ := fullShare
  owed _ := 0

theorem A_eq (c : Dev nD) (w : Fin (cfgM pf hO).W) : (dat V pf hO c).A w = V c (Pipeline.arrRef spec23 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid23.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid23.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W23, bigSep_W23]
  exact sound_body V pf hO c t

end
end Cert.Kernel.Rg23

end
-- ==== Proof.KB.R24.Pipe.lean ====
/- Region 24 (the first 2048 pooled rows): the pipeline at an admissible table, the blocks its windows stage,
   the branch condition of the body and the names the runs are stated over. -/
/- Region 24: the body run once per case of its one branch. Case A (neighbour 0): the accumulator is set to -inf and
   then maximised with the gathered row. Case B (a later neighbour): the accumulator the point before left is
   maximised with the gathered row. Each run finds the pieces the output's staging buffer ends with. -/
/- Region 24: where the grid meets the body's branch and where the output row is written back, in closed form.
   The grid is 2048 rows by 32 neighbours, the neighbour axis fastest: point t is row t / 32, neighbour t % 32. -/
/- Region 24: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg24
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre24.Contents (Elt F)) (hO : ok24 (F := F) pf)

abbrev adm : (pcfg24 (F := F)).Adm := ⟨pf, hO⟩
abbrev cfgM : Pipeline.Cfg sig Λ₀ := cfg24 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec24 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec24 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid24.Coords) : Prop := (Scalar.cmpi .ne (Scalar.extui (Scalar.cmpi .eq (BitVec.ofNat 32 (i 1).val) 0#32)) 0#32) = 1#1

abbrev VO_1 : View sig .tc .vmem S1x1x128 .f32 := (Memref.whole cc24_stg1_0 : Memref sig .tc .vmem S1x1x128 .f32).view
abbrev tbM : Memref sig .tc .smem S65536 .i32 := Memref.whole main_v101
abbrev htbM : (tbM).IsWhole := Memref.isWhole_whole _
abbrev ms_0 (t : Fin (cfgM pf hO).N) : Memref sig .tc .vmem S1x1x128 .f32 := spec24_0.stage ((cfgM pf hO).slots t 0)
abbrev hs_0 (t : Fin (cfgM pf hO).N) : (ms_0 pf hO t).IsWhole := hstage24_0 (((cfgM pf hO).slots t 0).cast nbuf24_0)
abbrev ms_1 (t : Fin (cfgM pf hO).N) : Memref sig .tc .vmem S1x1x128 .f32 := spec24_1.stage ((cfgM pf hO).slots t 1)
abbrev hs_1 (t : Fin (cfgM pf hO).N) : (ms_1 pf hO t).IsWhole := hstage24_1 (((cfgM pf hO).slots t 1).cast nbuf24_1)

/-- The body as the pipeline calls it at point `t`. -/
abbrev bodyAt (t : Fin (cfgM pf hO).N) : Prog (TpuEff nD τ sig (Elt F) Λ₀ .tc) PUnit :=
  cc24__gather_max_kernel (grid24.coords t) (Memref.whole main_v101) (Memref.isWhole_whole _) (spec24_0.stage ((cfgM pf hO).slots t 0)) (hstage24_0 (((cfgM pf hO).slots t 0).cast nbuf24_0)) (spec24_1.stage ((cfgM pf hO).slots t 1)) (hstage24_1 (((cfgM pf hO).slots t 1).cast nbuf24_1))

theorem N_eq : (cfgM pf hO).N = 65536 := N_24

end
end Cert.Kernel.Rg24

namespace Cert.Kernel.Rg24
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid24.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc24__gather_max_kernel i tbM htbM arg3 harg3 arg4 harg4) K } := by
  refine ⟨?_, fun E K => ?run⟩
  case run =>
    simp only [cc24__gather_max_kernel_eq_skeleton]; unfold cc24__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid24.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc24__gather_max_kernel i tbM htbM arg3 harg3 arg4 harg4) K } := by
  refine ⟨?_, fun E K => ?run⟩
  case run =>
    simp only [cc24__gather_max_kernel_eq_skeleton]; unfold cc24__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg24

namespace Cert.Kernel.Rg24
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre24.Contents (Elt F)) (hO : ok24 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid24.stride 1 = 1 := by decide
/-- A row lasts 32 consecutive points. -/
theorem stride_0 : grid24.stride 0 = 32 := by decide

/-- The neighbour coordinate of point t is t % 32. -/
theorem coords_1 (t : Fin grid24.N) : (grid24.coords t 1).val = t.val % 32 := by
  show t.val / grid24.stride 1 % grid24.bound 1 = t.val % 32
  rw [stride_1, Nat.div_one]; rfl

/-- The row coordinate of point t is t / 32 (modulo the 2048 rows). -/
theorem coords_0 (t : Fin grid24.N) : (grid24.coords t 0).val = t.val / 32 % 2048 := by
  show t.val / grid24.stride 0 % grid24.bound 0 = _
  rw [stride_0]; rfl

/-- The branch is taken exactly at a row's first neighbour. -/
theorem hcond : ∀ t : Fin (cfgM pf hO).N, cond (grid24.coords t) ↔ t.val % 32 = 0 := by
  intro t
  have e : (grid24.coords t 1).val = t.val % 32 := coords_1 t
  exact (cond_fin32 (grid24.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc24_transform_1 (grid24.coords t) = _
  unfold cc24_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg24

namespace Cert.Kernel.Rg24
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre24.Contents (Elt F)) (hO : ok24 (F := F) pf)

/-- Case A's pieces for the output tile its block, so they cover it. -/
theorem cover_A_1 (c : Dev nD) (i : grid24.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid24.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid24.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid24.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid24.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid24.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid24.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid24.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid24.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec24 w)
  after w t := match w with
    | ⟨0, _⟩ => iblk V pf hO c 0 t
    | ⟨1, _⟩ => (outsAt V pf hO c t.val t.isLt)
  Φ _ := iprop(Pipeline.ΦA spec24 c ∗ Pipeline.prefHeld pre24 c (fun _ => fullShare) pf)
  q _ := fullShare
  owed _ := 0

theorem A_eq (c : Dev nD) (w : Fin (cfgM pf hO).W) : (dat V pf hO c).A w = V c (Pipeline.arrRef spec24 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid24.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid24.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W24, bigSep_W24]
  exact sound_body V pf hO c t

end
end Cert.Kernel.Rg24

end
-- ==== Proof.KB.R25.Pipe.lean ====
/- Region 25 (the first 2048 pooled rows): the pipeline at an admissible table, the blocks its windows stage,
   the branch condition of the body and the names the runs are stated over. -/
/- Region 25: the body run once per case of its one branch. Case A (neighbour 0): the accumulator is set to -inf and
   then maximised with the gathered row. Case B (a later neighbour): the accumulator the point before left is
   maximised with the gathered row. Each run finds the pieces the output's staging buffer ends with. -/
/- Region 25: where the grid meets the body's branch and where the output row is written back, in closed form.
   The grid is 2048 rows by 32 neighbours, the neighbour axis fastest: point t is row t / 32, neighbour t % 32. -/
/- Region 25: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg25
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre25.Contents (Elt F)) (hO : ok25 (F := F) pf)

abbrev adm : (pcfg25 (F := F)).Adm := ⟨pf, hO⟩
abbrev cfgM : Pipeline.Cfg sig Λ₀ := cfg25 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec25 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec25 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid25.Coords) : Prop := (Scalar.cmpi .ne (Scalar.extui (Scalar.cmpi .eq (BitVec.ofNat 32 (i 1).val) 0#32)) 0#32) = 1#1

abbrev VO_1 : View sig .tc .vmem S1x1x128 .f32 := (Memref.whole cc25_stg1_0 : Memref sig .tc .vmem S1x1x128 .f32).view
abbrev tbM : Memref sig .tc .smem S65536 .i32 := Memref.whole main_v105
abbrev htbM : (tbM).IsWhole := Memref.isWhole_whole _
abbrev ms_0 (t : Fin (cfgM pf hO).N) : Memref sig .tc .vmem S1x1x128 .f32 := spec25_0.stage ((cfgM pf hO).slots t 0)
abbrev hs_0 (t : Fin (cfgM pf hO).N) : (ms_0 pf hO t).IsWhole := hstage25_0 (((cfgM pf hO).slots t 0).cast nbuf25_0)
abbrev ms_1 (t : Fin (cfgM pf hO).N) : Memref sig .tc .vmem S1x1x128 .f32 := spec25_1.stage ((cfgM pf hO).slots t 1)
abbrev hs_1 (t : Fin (cfgM pf hO).N) : (ms_1 pf hO t).IsWhole := hstage25_1 (((cfgM pf hO).slots t 1).cast nbuf25_1)

/-- The body as the pipeline calls it at point `t`. -/
abbrev bodyAt (t : Fin (cfgM pf hO).N) : Prog (TpuEff nD τ sig (Elt F) Λ₀ .tc) PUnit :=
  cc25__gather_max_kernel (grid25.coords t) (Memref.whole main_v105) (Memref.isWhole_whole _) (spec25_0.stage ((cfgM pf hO).slots t 0)) (hstage25_0 (((cfgM pf hO).slots t 0).cast nbuf25_0)) (spec25_1.stage ((cfgM pf hO).slots t 1)) (hstage25_1 (((cfgM pf hO).slots t 1).cast nbuf25_1))

theorem N_eq : (cfgM pf hO).N = 65536 := N_25

end
end Cert.Kernel.Rg25

namespace Cert.Kernel.Rg25
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid25.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc25__gather_max_kernel i tbM htbM arg3 harg3 arg4 harg4) K } := by
  refine ⟨?_, fun E K => ?run⟩
  case run =>
    simp only [cc25__gather_max_kernel_eq_skeleton]; unfold cc25__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid25.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc25__gather_max_kernel i tbM htbM arg3 harg3 arg4 harg4) K } := by
  refine ⟨?_, fun E K => ?run⟩
  case run =>
    simp only [cc25__gather_max_kernel_eq_skeleton]; unfold cc25__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg25

namespace Cert.Kernel.Rg25
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre25.Contents (Elt F)) (hO : ok25 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid25.stride 1 = 1 := by decide
/-- A row lasts 32 consecutive points. -/
theorem stride_0 : grid25.stride 0 = 32 := by decide

/-- The neighbour coordinate of point t is t % 32. -/
theorem coords_1 (t : Fin grid25.N) : (grid25.coords t 1).val = t.val % 32 := by
  show t.val / grid25.stride 1 % grid25.bound 1 = t.val % 32
  rw [stride_1, Nat.div_one]; rfl

/-- The row coordinate of point t is t / 32 (modulo the 2048 rows). -/
theorem coords_0 (t : Fin grid25.N) : (grid25.coords t 0).val = t.val / 32 % 2048 := by
  show t.val / grid25.stride 0 % grid25.bound 0 = _
  rw [stride_0]; rfl

/-- The branch is taken exactly at a row's first neighbour. -/
theorem hcond : ∀ t : Fin (cfgM pf hO).N, cond (grid25.coords t) ↔ t.val % 32 = 0 := by
  intro t
  have e : (grid25.coords t 1).val = t.val % 32 := coords_1 t
  exact (cond_fin32 (grid25.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc25_transform_1 (grid25.coords t) = _
  unfold cc25_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg25

namespace Cert.Kernel.Rg25
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre25.Contents (Elt F)) (hO : ok25 (F := F) pf)

/-- Case A's pieces for the output tile its block, so they cover it. -/
theorem cover_A_1 (c : Dev nD) (i : grid25.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid25.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid25.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid25.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid25.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid25.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid25.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid25.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid25.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec25 w)
  after w t := match w with
    | ⟨0, _⟩ => iblk V pf hO c 0 t
    | ⟨1, _⟩ => (outsAt V pf hO c t.val t.isLt)
  Φ _ := iprop(Pipeline.ΦA spec25 c ∗ Pipeline.prefHeld pre25 c (fun _ => fullShare) pf)
  q _ := fullShare
  owed _ := 0

theorem A_eq (c : Dev nD) (w : Fin (cfgM pf hO).W) : (dat V pf hO c).A w = V c (Pipeline.arrRef spec25 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid25.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid25.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W25, bigSep_W25]
  exact sound_body V pf hO c t

end
end Cert.Kernel.Rg25

end
-- ==== Proof.KB.R26.Pipe.lean ====
/- Region 26 (the first 2048 pooled rows): the pipeline at an admissible table, the blocks its windows stage,
   the branch condition of the body and the names the runs are stated over. -/
/- Region 26: the body run once per case of its one branch. Case A (neighbour 0): the accumulator is set to -inf and
   then maximised with the gathered row. Case B (a later neighbour): the accumulator the point before left is
   maximised with the gathered row. Each run finds the pieces the output's staging buffer ends with. -/
/- Region 26: where the grid meets the body's branch and where the output row is written back, in closed form.
   The grid is 2048 rows by 32 neighbours, the neighbour axis fastest: point t is row t / 32, neighbour t % 32. -/
/- Region 26: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg26
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre26.Contents (Elt F)) (hO : ok26 (F := F) pf)

abbrev adm : (pcfg26 (F := F)).Adm := ⟨pf, hO⟩
abbrev cfgM : Pipeline.Cfg sig Λ₀ := cfg26 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec26 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec26 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid26.Coords) : Prop := (Scalar.cmpi .ne (Scalar.extui (Scalar.cmpi .eq (BitVec.ofNat 32 (i 1).val) 0#32)) 0#32) = 1#1

abbrev VO_1 : View sig .tc .vmem S1x1x128 .f32 := (Memref.whole cc26_stg1_0 : Memref sig .tc .vmem S1x1x128 .f32).view
abbrev tbM : Memref sig .tc .smem S65536 .i32 := Memref.whole main_v109
abbrev htbM : (tbM).IsWhole := Memref.isWhole_whole _
abbrev ms_0 (t : Fin (cfgM pf hO).N) : Memref sig .tc .vmem S1x1x128 .f32 := spec26_0.stage ((cfgM pf hO).slots t 0)
abbrev hs_0 (t : Fin (cfgM pf hO).N) : (ms_0 pf hO t).IsWhole := hstage26_0 (((cfgM pf hO).slots t 0).cast nbuf26_0)
abbrev ms_1 (t : Fin (cfgM pf hO).N) : Memref sig .tc .vmem S1x1x128 .f32 := spec26_1.stage ((cfgM pf hO).slots t 1)
abbrev hs_1 (t : Fin (cfgM pf hO).N) : (ms_1 pf hO t).IsWhole := hstage26_1 (((cfgM pf hO).slots t 1).cast nbuf26_1)

/-- The body as the pipeline calls it at point `t`. -/
abbrev bodyAt (t : Fin (cfgM pf hO).N) : Prog (TpuEff nD τ sig (Elt F) Λ₀ .tc) PUnit :=
  cc26__gather_max_kernel (grid26.coords t) (Memref.whole main_v109) (Memref.isWhole_whole _) (spec26_0.stage ((cfgM pf hO).slots t 0)) (hstage26_0 (((cfgM pf hO).slots t 0).cast nbuf26_0)) (spec26_1.stage ((cfgM pf hO).slots t 1)) (hstage26_1 (((cfgM pf hO).slots t 1).cast nbuf26_1))

theorem N_eq : (cfgM pf hO).N = 65536 := N_26

end
end Cert.Kernel.Rg26

namespace Cert.Kernel.Rg26
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid26.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc26__gather_max_kernel i tbM htbM arg3 harg3 arg4 harg4) K } := by
  refine ⟨?_, fun E K => ?run⟩
  case run =>
    simp only [cc26__gather_max_kernel_eq_skeleton]; unfold cc26__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid26.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc26__gather_max_kernel i tbM htbM arg3 harg3 arg4 harg4) K } := by
  refine ⟨?_, fun E K => ?run⟩
  case run =>
    simp only [cc26__gather_max_kernel_eq_skeleton]; unfold cc26__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg26

namespace Cert.Kernel.Rg26
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre26.Contents (Elt F)) (hO : ok26 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid26.stride 1 = 1 := by decide
/-- A row lasts 32 consecutive points. -/
theorem stride_0 : grid26.stride 0 = 32 := by decide

/-- The neighbour coordinate of point t is t % 32. -/
theorem coords_1 (t : Fin grid26.N) : (grid26.coords t 1).val = t.val % 32 := by
  show t.val / grid26.stride 1 % grid26.bound 1 = t.val % 32
  rw [stride_1, Nat.div_one]; rfl

/-- The row coordinate of point t is t / 32 (modulo the 2048 rows). -/
theorem coords_0 (t : Fin grid26.N) : (grid26.coords t 0).val = t.val / 32 % 2048 := by
  show t.val / grid26.stride 0 % grid26.bound 0 = _
  rw [stride_0]; rfl

/-- The branch is taken exactly at a row's first neighbour. -/
theorem hcond : ∀ t : Fin (cfgM pf hO).N, cond (grid26.coords t) ↔ t.val % 32 = 0 := by
  intro t
  have e : (grid26.coords t 1).val = t.val % 32 := coords_1 t
  exact (cond_fin32 (grid26.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc26_transform_1 (grid26.coords t) = _
  unfold cc26_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg26

namespace Cert.Kernel.Rg26
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre26.Contents (Elt F)) (hO : ok26 (F := F) pf)

/-- Case A's pieces for the output tile its block, so they cover it. -/
theorem cover_A_1 (c : Dev nD) (i : grid26.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid26.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid26.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid26.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid26.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid26.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid26.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid26.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid26.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec26 w)
  after w t := match w with
    | ⟨0, _⟩ => iblk V pf hO c 0 t
    | ⟨1, _⟩ => (outsAt V pf hO c t.val t.isLt)
  Φ _ := iprop(Pipeline.ΦA spec26 c ∗ Pipeline.prefHeld pre26 c (fun _ => fullShare) pf)
  q _ := fullShare
  owed _ := 0

theorem A_eq (c : Dev nD) (w : Fin (cfgM pf hO).W) : (dat V pf hO c).A w = V c (Pipeline.arrRef spec26 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid26.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid26.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W26, bigSep_W26]
  exact sound_body V pf hO c t

end
end Cert.Kernel.Rg26

end
-- ==== Proof.KB.R27.Pipe.lean ====
/- Region 27 (the first 2048 pooled rows): the pipeline at an admissible table, the blocks its windows stage,
   the branch condition of the body and the names the runs are stated over. -/
/- Region 27: the body run once per case of its one branch. Case A (neighbour 0): the accumulator is set to -inf and
   then maximised with the gathered row. Case B (a later neighbour): the accumulator the point before left is
   maximised with the gathered row. Each run finds the pieces the output's staging buffer ends with. -/
/- Region 27: where the grid meets the body's branch and where the output row is written back, in closed form.
   The grid is 2048 rows by 32 neighbours, the neighbour axis fastest: point t is row t / 32, neighbour t % 32. -/
/- Region 27: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg27
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre27.Contents (Elt F)) (hO : ok27 (F := F) pf)

abbrev adm : (pcfg27 (F := F)).Adm := ⟨pf, hO⟩
abbrev cfgM : Pipeline.Cfg sig Λ₀ := cfg27 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec27 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec27 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid27.Coords) : Prop := (Scalar.cmpi .ne (Scalar.extui (Scalar.cmpi .eq (BitVec.ofNat 32 (i 1).val) 0#32)) 0#32) = 1#1

abbrev VO_1 : View sig .tc .vmem S1x1x128 .f32 := (Memref.whole cc27_stg1_0 : Memref sig .tc .vmem S1x1x128 .f32).view
abbrev tbM : Memref sig .tc .smem S65536 .i32 := Memref.whole main_v113
abbrev htbM : (tbM).IsWhole := Memref.isWhole_whole _
abbrev ms_0 (t : Fin (cfgM pf hO).N) : Memref sig .tc .vmem S1x1x128 .f32 := spec27_0.stage ((cfgM pf hO).slots t 0)
abbrev hs_0 (t : Fin (cfgM pf hO).N) : (ms_0 pf hO t).IsWhole := hstage27_0 (((cfgM pf hO).slots t 0).cast nbuf27_0)
abbrev ms_1 (t : Fin (cfgM pf hO).N) : Memref sig .tc .vmem S1x1x128 .f32 := spec27_1.stage ((cfgM pf hO).slots t 1)
abbrev hs_1 (t : Fin (cfgM pf hO).N) : (ms_1 pf hO t).IsWhole := hstage27_1 (((cfgM pf hO).slots t 1).cast nbuf27_1)

/-- The body as the pipeline calls it at point `t`. -/
abbrev bodyAt (t : Fin (cfgM pf hO).N) : Prog (TpuEff nD τ sig (Elt F) Λ₀ .tc) PUnit :=
  cc27__gather_max_kernel (grid27.coords t) (Memref.whole main_v113) (Memref.isWhole_whole _) (spec27_0.stage ((cfgM pf hO).slots t 0)) (hstage27_0 (((cfgM pf hO).slots t 0).cast nbuf27_0)) (spec27_1.stage ((cfgM pf hO).slots t 1)) (hstage27_1 (((cfgM pf hO).slots t 1).cast nbuf27_1))

theorem N_eq : (cfgM pf hO).N = 65536 := N_27

end
end Cert.Kernel.Rg27

namespace Cert.Kernel.Rg27
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid27.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc27__gather_max_kernel i tbM htbM arg3 harg3 arg4 harg4) K } := by
  refine ⟨?_, fun E K => ?run⟩
  case run =>
    simp only [cc27__gather_max_kernel_eq_skeleton]; unfold cc27__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid27.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc27__gather_max_kernel i tbM htbM arg3 harg3 arg4 harg4) K } := by
  refine ⟨?_, fun E K => ?run⟩
  case run =>
    simp only [cc27__gather_max_kernel_eq_skeleton]; unfold cc27__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg27

namespace Cert.Kernel.Rg27
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre27.Contents (Elt F)) (hO : ok27 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid27.stride 1 = 1 := by decide
/-- A row lasts 32 consecutive points. -/
theorem stride_0 : grid27.stride 0 = 32 := by decide

/-- The neighbour coordinate of point t is t % 32. -/
theorem coords_1 (t : Fin grid27.N) : (grid27.coords t 1).val = t.val % 32 := by
  show t.val / grid27.stride 1 % grid27.bound 1 = t.val % 32
  rw [stride_1, Nat.div_one]; rfl

/-- The row coordinate of point t is t / 32 (modulo the 2048 rows). -/
theorem coords_0 (t : Fin grid27.N) : (grid27.coords t 0).val = t.val / 32 % 2048 := by
  show t.val / grid27.stride 0 % grid27.bound 0 = _
  rw [stride_0]; rfl

/-- The branch is taken exactly at a row's first neighbour. -/
theorem hcond : ∀ t : Fin (cfgM pf hO).N, cond (grid27.coords t) ↔ t.val % 32 = 0 := by
  intro t
  have e : (grid27.coords t 1).val = t.val % 32 := coords_1 t
  exact (cond_fin32 (grid27.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc27_transform_1 (grid27.coords t) = _
  unfold cc27_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg27

namespace Cert.Kernel.Rg27
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre27.Contents (Elt F)) (hO : ok27 (F := F) pf)

/-- Case A's pieces for the output tile its block, so they cover it. -/
theorem cover_A_1 (c : Dev nD) (i : grid27.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid27.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid27.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid27.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid27.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid27.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid27.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid27.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid27.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec27 w)
  after w t := match w with
    | ⟨0, _⟩ => iblk V pf hO c 0 t
    | ⟨1, _⟩ => (outsAt V pf hO c t.val t.isLt)
  Φ _ := iprop(Pipeline.ΦA spec27 c ∗ Pipeline.prefHeld pre27 c (fun _ => fullShare) pf)
  q _ := fullShare
  owed _ := 0

theorem A_eq (c : Dev nD) (w : Fin (cfgM pf hO).W) : (dat V pf hO c).A w = V c (Pipeline.arrRef spec27 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid27.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid27.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W27, bigSep_W27]
  exact sound_body V pf hO c t

end
end Cert.Kernel.Rg27

end
-- ==== Proof.KB.R28.Pipe.lean ====
/- Region 28 (the first 2048 pooled rows): the pipeline at an admissible table, the blocks its windows stage,
   the branch condition of the body and the names the runs are stated over. -/
/- Region 28: the body run once per case of its one branch. Case A (neighbour 0): the accumulator is set to -inf and
   then maximised with the gathered row. Case B (a later neighbour): the accumulator the point before left is
   maximised with the gathered row. Each run finds the pieces the output's staging buffer ends with. -/
/- Region 28: where the grid meets the body's branch and where the output row is written back, in closed form.
   The grid is 2048 rows by 32 neighbours, the neighbour axis fastest: point t is row t / 32, neighbour t % 32. -/
/- Region 28: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg28
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre28.Contents (Elt F)) (hO : ok28 (F := F) pf)

abbrev adm : (pcfg28 (F := F)).Adm := ⟨pf, hO⟩
abbrev cfgM : Pipeline.Cfg sig Λ₀ := cfg28 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec28 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec28 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid28.Coords) : Prop := (Scalar.cmpi .ne (Scalar.extui (Scalar.cmpi .eq (BitVec.ofNat 32 (i 1).val) 0#32)) 0#32) = 1#1

abbrev VO_1 : View sig .tc .vmem S1x1x128 .f32 := (Memref.whole cc28_stg1_0 : Memref sig .tc .vmem S1x1x128 .f32).view
abbrev tbM : Memref sig .tc .smem S65536 .i32 := Memref.whole main_v117
abbrev htbM : (tbM).IsWhole := Memref.isWhole_whole _
abbrev ms_0 (t : Fin (cfgM pf hO).N) : Memref sig .tc .vmem S1x1x128 .f32 := spec28_0.stage ((cfgM pf hO).slots t 0)
abbrev hs_0 (t : Fin (cfgM pf hO).N) : (ms_0 pf hO t).IsWhole := hstage28_0 (((cfgM pf hO).slots t 0).cast nbuf28_0)
abbrev ms_1 (t : Fin (cfgM pf hO).N) : Memref sig .tc .vmem S1x1x128 .f32 := spec28_1.stage ((cfgM pf hO).slots t 1)
abbrev hs_1 (t : Fin (cfgM pf hO).N) : (ms_1 pf hO t).IsWhole := hstage28_1 (((cfgM pf hO).slots t 1).cast nbuf28_1)

/-- The body as the pipeline calls it at point `t`. -/
abbrev bodyAt (t : Fin (cfgM pf hO).N) : Prog (TpuEff nD τ sig (Elt F) Λ₀ .tc) PUnit :=
  cc28__gather_max_kernel (grid28.coords t) (Memref.whole main_v117) (Memref.isWhole_whole _) (spec28_0.stage ((cfgM pf hO).slots t 0)) (hstage28_0 (((cfgM pf hO).slots t 0).cast nbuf28_0)) (spec28_1.stage ((cfgM pf hO).slots t 1)) (hstage28_1 (((cfgM pf hO).slots t 1).cast nbuf28_1))

theorem N_eq : (cfgM pf hO).N = 65536 := N_28

end
end Cert.Kernel.Rg28

namespace Cert.Kernel.Rg28
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid28.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc28__gather_max_kernel i tbM htbM arg3 harg3 arg4 harg4) K } := by
  refine ⟨?_, fun E K => ?run⟩
  case run =>
    simp only [cc28__gather_max_kernel_eq_skeleton]; unfold cc28__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid28.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc28__gather_max_kernel i tbM htbM arg3 harg3 arg4 harg4) K } := by
  refine ⟨?_, fun E K => ?run⟩
  case run =>
    simp only [cc28__gather_max_kernel_eq_skeleton]; unfold cc28__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg28

namespace Cert.Kernel.Rg28
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre28.Contents (Elt F)) (hO : ok28 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid28.stride 1 = 1 := by decide
/-- A row lasts 32 consecutive points. -/
theorem stride_0 : grid28.stride 0 = 32 := by decide

/-- The neighbour coordinate of point t is t % 32. -/
theorem coords_1 (t : Fin grid28.N) : (grid28.coords t 1).val = t.val % 32 := by
  show t.val / grid28.stride 1 % grid28.bound 1 = t.val % 32
  rw [stride_1, Nat.div_one]; rfl

/-- The row coordinate of point t is t / 32 (modulo the 2048 rows). -/
theorem coords_0 (t : Fin grid28.N) : (grid28.coords t 0).val = t.val / 32 % 2048 := by
  show t.val / grid28.stride 0 % grid28.bound 0 = _
  rw [stride_0]; rfl

/-- The branch is taken exactly at a row's first neighbour. -/
theorem hcond : ∀ t : Fin (cfgM pf hO).N, cond (grid28.coords t) ↔ t.val % 32 = 0 := by
  intro t
  have e : (grid28.coords t 1).val = t.val % 32 := coords_1 t
  exact (cond_fin32 (grid28.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc28_transform_1 (grid28.coords t) = _
  unfold cc28_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg28

namespace Cert.Kernel.Rg28
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre28.Contents (Elt F)) (hO : ok28 (F := F) pf)

/-- Case A's pieces for the output tile its block, so they cover it. -/
theorem cover_A_1 (c : Dev nD) (i : grid28.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid28.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid28.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid28.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid28.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid28.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid28.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid28.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid28.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec28 w)
  after w t := match w with
    | ⟨0, _⟩ => iblk V pf hO c 0 t
    | ⟨1, _⟩ => (outsAt V pf hO c t.val t.isLt)
  Φ _ := iprop(Pipeline.ΦA spec28 c ∗ Pipeline.prefHeld pre28 c (fun _ => fullShare) pf)
  q _ := fullShare
  owed _ := 0

theorem A_eq (c : Dev nD) (w : Fin (cfgM pf hO).W) : (dat V pf hO c).A w = V c (Pipeline.arrRef spec28 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid28.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid28.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W28, bigSep_W28]
  exact sound_body V pf hO c t

end
end Cert.Kernel.Rg28

end
-- ==== Proof.KB.R29.Pipe.lean ====
/- Region 29 (the first 2048 pooled rows): the pipeline at an admissible table, the blocks its windows stage,
   the branch condition of the body and the names the runs are stated over. -/
/- Region 29: the body run once per case of its one branch. Case A (neighbour 0): the accumulator is set to -inf and
   then maximised with the gathered row. Case B (a later neighbour): the accumulator the point before left is
   maximised with the gathered row. Each run finds the pieces the output's staging buffer ends with. -/
/- Region 29: where the grid meets the body's branch and where the output row is written back, in closed form.
   The grid is 2048 rows by 32 neighbours, the neighbour axis fastest: point t is row t / 32, neighbour t % 32. -/
/- Region 29: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg29
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre29.Contents (Elt F)) (hO : ok29 (F := F) pf)

abbrev adm : (pcfg29 (F := F)).Adm := ⟨pf, hO⟩
abbrev cfgM : Pipeline.Cfg sig Λ₀ := cfg29 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec29 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec29 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid29.Coords) : Prop := (Scalar.cmpi .ne (Scalar.extui (Scalar.cmpi .eq (BitVec.ofNat 32 (i 1).val) 0#32)) 0#32) = 1#1

abbrev VO_1 : View sig .tc .vmem S1x1x128 .f32 := (Memref.whole cc29_stg1_0 : Memref sig .tc .vmem S1x1x128 .f32).view
abbrev tbM : Memref sig .tc .smem S65536 .i32 := Memref.whole main_v121
abbrev htbM : (tbM).IsWhole := Memref.isWhole_whole _
abbrev ms_0 (t : Fin (cfgM pf hO).N) : Memref sig .tc .vmem S1x1x128 .f32 := spec29_0.stage ((cfgM pf hO).slots t 0)
abbrev hs_0 (t : Fin (cfgM pf hO).N) : (ms_0 pf hO t).IsWhole := hstage29_0 (((cfgM pf hO).slots t 0).cast nbuf29_0)
abbrev ms_1 (t : Fin (cfgM pf hO).N) : Memref sig .tc .vmem S1x1x128 .f32 := spec29_1.stage ((cfgM pf hO).slots t 1)
abbrev hs_1 (t : Fin (cfgM pf hO).N) : (ms_1 pf hO t).IsWhole := hstage29_1 (((cfgM pf hO).slots t 1).cast nbuf29_1)

/-- The body as the pipeline calls it at point `t`. -/
abbrev bodyAt (t : Fin (cfgM pf hO).N) : Prog (TpuEff nD τ sig (Elt F) Λ₀ .tc) PUnit :=
  cc29__gather_max_kernel (grid29.coords t) (Memref.whole main_v121) (Memref.isWhole_whole _) (spec29_0.stage ((cfgM pf hO).slots t 0)) (hstage29_0 (((cfgM pf hO).slots t 0).cast nbuf29_0)) (spec29_1.stage ((cfgM pf hO).slots t 1)) (hstage29_1 (((cfgM pf hO).slots t 1).cast nbuf29_1))

theorem N_eq : (cfgM pf hO).N = 65536 := N_29

end
end Cert.Kernel.Rg29

namespace Cert.Kernel.Rg29
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid29.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc29__gather_max_kernel i tbM htbM arg3 harg3 arg4 harg4) K } := by
  refine ⟨?_, fun E K => ?run⟩
  case run =>
    simp only [cc29__gather_max_kernel_eq_skeleton]; unfold cc29__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid29.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc29__gather_max_kernel i tbM htbM arg3 harg3 arg4 harg4) K } := by
  refine ⟨?_, fun E K => ?run⟩
  case run =>
    simp only [cc29__gather_max_kernel_eq_skeleton]; unfold cc29__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg29

namespace Cert.Kernel.Rg29
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre29.Contents (Elt F)) (hO : ok29 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid29.stride 1 = 1 := by decide
/-- A row lasts 32 consecutive points. -/
theorem stride_0 : grid29.stride 0 = 32 := by decide

/-- The neighbour coordinate of point t is t % 32. -/
theorem coords_1 (t : Fin grid29.N) : (grid29.coords t 1).val = t.val % 32 := by
  show t.val / grid29.stride 1 % grid29.bound 1 = t.val % 32
  rw [stride_1, Nat.div_one]; rfl

/-- The row coordinate of point t is t / 32 (modulo the 2048 rows). -/
theorem coords_0 (t : Fin grid29.N) : (grid29.coords t 0).val = t.val / 32 % 2048 := by
  show t.val / grid29.stride 0 % grid29.bound 0 = _
  rw [stride_0]; rfl

/-- The branch is taken exactly at a row's first neighbour. -/
theorem hcond : ∀ t : Fin (cfgM pf hO).N, cond (grid29.coords t) ↔ t.val % 32 = 0 := by
  intro t
  have e : (grid29.coords t 1).val = t.val % 32 := coords_1 t
  exact (cond_fin32 (grid29.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc29_transform_1 (grid29.coords t) = _
  unfold cc29_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg29

namespace Cert.Kernel.Rg29
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre29.Contents (Elt F)) (hO : ok29 (F := F) pf)

/-- Case A's pieces for the output tile its block, so they cover it. -/
theorem cover_A_1 (c : Dev nD) (i : grid29.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid29.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid29.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid29.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid29.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid29.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid29.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid29.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid29.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec29 w)
  after w t := match w with
    | ⟨0, _⟩ => iblk V pf hO c 0 t
    | ⟨1, _⟩ => (outsAt V pf hO c t.val t.isLt)
  Φ _ := iprop(Pipeline.ΦA spec29 c ∗ Pipeline.prefHeld pre29 c (fun _ => fullShare) pf)
  q _ := fullShare
  owed _ := 0

theorem A_eq (c : Dev nD) (w : Fin (cfgM pf hO).W) : (dat V pf hO c).A w = V c (Pipeline.arrRef spec29 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid29.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid29.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W29, bigSep_W29]
  exact sound_body V pf hO c t

end
end Cert.Kernel.Rg29

end
-- ==== Proof.KB.R30.Pipe.lean ====
/- Region 30 (the first 2048 pooled rows): the pipeline at an admissible table, the blocks its windows stage,
   the branch condition of the body and the names the runs are stated over. -/
/- Region 30: the body run once per case of its one branch. Case A (neighbour 0): the accumulator is set to -inf and
   then maximised with the gathered row. Case B (a later neighbour): the accumulator the point before left is
   maximised with the gathered row. Each run finds the pieces the output's staging buffer ends with. -/
/- Region 30: where the grid meets the body's branch and where the output row is written back, in closed form.
   The grid is 2048 rows by 32 neighbours, the neighbour axis fastest: point t is row t / 32, neighbour t % 32. -/
/- Region 30: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg30
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre30.Contents (Elt F)) (hO : ok30 (F := F) pf)

abbrev adm : (pcfg30 (F := F)).Adm := ⟨pf, hO⟩
abbrev cfgM : Pipeline.Cfg sig Λ₀ := cfg30 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec30 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec30 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid30.Coords) : Prop := (Scalar.cmpi .ne (Scalar.extui (Scalar.cmpi .eq (BitVec.ofNat 32 (i 1).val) 0#32)) 0#32) = 1#1

abbrev VO_1 : View sig .tc .vmem S1x1x128 .f32 := (Memref.whole cc30_stg1_0 : Memref sig .tc .vmem S1x1x128 .f32).view
abbrev tbM : Memref sig .tc .smem S65536 .i32 := Memref.whole main_v125
abbrev htbM : (tbM).IsWhole := Memref.isWhole_whole _
abbrev ms_0 (t : Fin (cfgM pf hO).N) : Memref sig .tc .vmem S1x1x128 .f32 := spec30_0.stage ((cfgM pf hO).slots t 0)
abbrev hs_0 (t : Fin (cfgM pf hO).N) : (ms_0 pf hO t).IsWhole := hstage30_0 (((cfgM pf hO).slots t 0).cast nbuf30_0)
abbrev ms_1 (t : Fin (cfgM pf hO).N) : Memref sig .tc .vmem S1x1x128 .f32 := spec30_1.stage ((cfgM pf hO).slots t 1)
abbrev hs_1 (t : Fin (cfgM pf hO).N) : (ms_1 pf hO t).IsWhole := hstage30_1 (((cfgM pf hO).slots t 1).cast nbuf30_1)

/-- The body as the pipeline calls it at point `t`. -/
abbrev bodyAt (t : Fin (cfgM pf hO).N) : Prog (TpuEff nD τ sig (Elt F) Λ₀ .tc) PUnit :=
  cc30__gather_max_kernel (grid30.coords t) (Memref.whole main_v125) (Memref.isWhole_whole _) (spec30_0.stage ((cfgM pf hO).slots t 0)) (hstage30_0 (((cfgM pf hO).slots t 0).cast nbuf30_0)) (spec30_1.stage ((cfgM pf hO).slots t 1)) (hstage30_1 (((cfgM pf hO).slots t 1).cast nbuf30_1))

theorem N_eq : (cfgM pf hO).N = 65536 := N_30

end
end Cert.Kernel.Rg30

namespace Cert.Kernel.Rg30
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid30.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc30__gather_max_kernel i tbM htbM arg3 harg3 arg4 harg4) K } := by
  refine ⟨?_, fun E K => ?run⟩
  case run =>
    simp only [cc30__gather_max_kernel_eq_skeleton]; unfold cc30__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid30.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc30__gather_max_kernel i tbM htbM arg3 harg3 arg4 harg4) K } := by
  refine ⟨?_, fun E K => ?run⟩
  case run =>
    simp only [cc30__gather_max_kernel_eq_skeleton]; unfold cc30__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg30

namespace Cert.Kernel.Rg30
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre30.Contents (Elt F)) (hO : ok30 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid30.stride 1 = 1 := by decide
/-- A row lasts 32 consecutive points. -/
theorem stride_0 : grid30.stride 0 = 32 := by decide

/-- The neighbour coordinate of point t is t % 32. -/
theorem coords_1 (t : Fin grid30.N) : (grid30.coords t 1).val = t.val % 32 := by
  show t.val / grid30.stride 1 % grid30.bound 1 = t.val % 32
  rw [stride_1, Nat.div_one]; rfl

/-- The row coordinate of point t is t / 32 (modulo the 2048 rows). -/
theorem coords_0 (t : Fin grid30.N) : (grid30.coords t 0).val = t.val / 32 % 2048 := by
  show t.val / grid30.stride 0 % grid30.bound 0 = _
  rw [stride_0]; rfl

/-- The branch is taken exactly at a row's first neighbour. -/
theorem hcond : ∀ t : Fin (cfgM pf hO).N, cond (grid30.coords t) ↔ t.val % 32 = 0 := by
  intro t
  have e : (grid30.coords t 1).val = t.val % 32 := coords_1 t
  exact (cond_fin32 (grid30.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc30_transform_1 (grid30.coords t) = _
  unfold cc30_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg30

namespace Cert.Kernel.Rg30
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre30.Contents (Elt F)) (hO : ok30 (F := F) pf)

/-- Case A's pieces for the output tile its block, so they cover it. -/
theorem cover_A_1 (c : Dev nD) (i : grid30.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid30.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid30.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid30.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid30.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid30.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid30.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid30.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid30.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec30 w)
  after w t := match w with
    | ⟨0, _⟩ => iblk V pf hO c 0 t
    | ⟨1, _⟩ => (outsAt V pf hO c t.val t.isLt)
  Φ _ := iprop(Pipeline.ΦA spec30 c ∗ Pipeline.prefHeld pre30 c (fun _ => fullShare) pf)
  q _ := fullShare
  owed _ := 0

theorem A_eq (c : Dev nD) (w : Fin (cfgM pf hO).W) : (dat V pf hO c).A w = V c (Pipeline.arrRef spec30 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid30.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid30.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W30, bigSep_W30]
  exact sound_body V pf hO c t

end
end Cert.Kernel.Rg30

end
-- ==== Proof.KB.R31.Pipe.lean ====
/- Region 31 (the first 2048 pooled rows): the pipeline at an admissible table, the blocks its windows stage,
   the branch condition of the body and the names the runs are stated over. -/
/- Region 31: the body run once per case of its one branch. Case A (neighbour 0): the accumulator is set to -inf and
   then maximised with the gathered row. Case B (a later neighbour): the accumulator the point before left is
   maximised with the gathered row. Each run finds the pieces the output's staging buffer ends with. -/
/- Region 31: where the grid meets the body's branch and where the output row is written back, in closed form.
   The grid is 2048 rows by 32 neighbours, the neighbour axis fastest: point t is row t / 32, neighbour t % 32. -/
/- Region 31: what the output's staging buffer holds after each point (the running maximum over a row's neighbours
   so far), the pipeline's proof data over it, and the body obligation at every point. -/
import proofs.«411409_j5669356831307_3_alg».proof.Proof.Gen.Kernel.Launch
import proofs.«411409_j5669356831307_3_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Rg31
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre31.Contents (Elt F)) (hO : ok31 (F := F) pf)

abbrev adm : (pcfg31 (F := F)).Adm := ⟨pf, hO⟩
abbrev cfgM : Pipeline.Cfg sig Λ₀ := cfg31 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec31 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec31 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid31.Coords) : Prop := (Scalar.cmpi .ne (Scalar.extui (Scalar.cmpi .eq (BitVec.ofNat 32 (i 1).val) 0#32)) 0#32) = 1#1

abbrev VO_1 : View sig .tc .vmem S1x1x128 .f32 := (Memref.whole cc31_stg1_0 : Memref sig .tc .vmem S1x1x128 .f32).view
abbrev tbM : Memref sig .tc .smem S65536 .i32 := Memref.whole main_v129
abbrev htbM : (tbM).IsWhole := Memref.isWhole_whole _
abbrev ms_0 (t : Fin (cfgM pf hO).N) : Memref sig .tc .vmem S1x1x128 .f32 := spec31_0.stage ((cfgM pf hO).slots t 0)
abbrev hs_0 (t : Fin (cfgM pf hO).N) : (ms_0 pf hO t).IsWhole := hstage31_0 (((cfgM pf hO).slots t 0).cast nbuf31_0)
abbrev ms_1 (t : Fin (cfgM pf hO).N) : Memref sig .tc .vmem S1x1x128 .f32 := spec31_1.stage ((cfgM pf hO).slots t 1)
abbrev hs_1 (t : Fin (cfgM pf hO).N) : (ms_1 pf hO t).IsWhole := hstage31_1 (((cfgM pf hO).slots t 1).cast nbuf31_1)

/-- The body as the pipeline calls it at point `t`. -/
abbrev bodyAt (t : Fin (cfgM pf hO).N) : Prog (TpuEff nD τ sig (Elt F) Λ₀ .tc) PUnit :=
  cc31__gather_max_kernel (grid31.coords t) (Memref.whole main_v129) (Memref.isWhole_whole _) (spec31_0.stage ((cfgM pf hO).slots t 0)) (hstage31_0 (((cfgM pf hO).slots t 0).cast nbuf31_0)) (spec31_1.stage ((cfgM pf hO).slots t 1)) (hstage31_1 (((cfgM pf hO).slots t 1).cast nbuf31_1))

theorem N_eq : (cfgM pf hO).N = 65536 := N_31

end
end Cert.Kernel.Rg31

namespace Cert.Kernel.Rg31
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid31.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc31__gather_max_kernel i tbM htbM arg3 harg3 arg4 harg4) K } := by
  refine ⟨?_, fun E K => ?run⟩
  case run =>
    simp only [cc31__gather_max_kernel_eq_skeleton]; unfold cc31__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid31.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc31__gather_max_kernel i tbM htbM arg3 harg3 arg4 harg4) K } := by
  refine ⟨?_, fun E K => ?run⟩
  case run =>
    simp only [cc31__gather_max_kernel_eq_skeleton]; unfold cc31__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.Kernel.Rg31

namespace Cert.Kernel.Rg31
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre31.Contents (Elt F)) (hO : ok31 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid31.stride 1 = 1 := by decide
/-- A row lasts 32 consecutive points. -/
theorem stride_0 : grid31.stride 0 = 32 := by decide

/-- The neighbour coordinate of point t is t % 32. -/
theorem coords_1 (t : Fin grid31.N) : (grid31.coords t 1).val = t.val % 32 := by
  show t.val / grid31.stride 1 % grid31.bound 1 = t.val % 32
  rw [stride_1, Nat.div_one]; rfl

/-- The row coordinate of point t is t / 32 (modulo the 2048 rows). -/
theorem coords_0 (t : Fin grid31.N) : (grid31.coords t 0).val = t.val / 32 % 2048 := by
  show t.val / grid31.stride 0 % grid31.bound 0 = _
  rw [stride_0]; rfl

/-- The branch is taken exactly at a row's first neighbour. -/
theorem hcond : ∀ t : Fin (cfgM pf hO).N, cond (grid31.coords t) ↔ t.val % 32 = 0 := by
  intro t
  have e : (grid31.coords t 1).val = t.val % 32 := coords_1 t
  exact (cond_fin32 (grid31.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc31_transform_1 (grid31.coords t) = _
  unfold cc31_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.Kernel.Rg31

namespace Cert.Kernel.Rg31
section

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre31.Contents (Elt F)) (hO : ok31 (F := F) pf)

/-- Case A's pieces for the output tile its block, so they cover it. -/
theorem cover_A_1 (c : Dev nD) (i : grid31.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid31.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid31.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid31.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid31.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid31.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid31.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid31.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid31.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec31 w)
  after w t := match w with
    | ⟨0, _⟩ => iblk V pf hO c 0 t
    | ⟨1, _⟩ => (outsAt V pf hO c t.val t.isLt)
  Φ _ := iprop(Pipeline.ΦA spec31 c ∗ Pipeline.prefHeld pre31 c (fun _ => fullShare) pf)
  q _ := fullShare
  owed _ := 0

theorem A_eq (c : Dev nD) (w : Fin (cfgM pf hO).W) : (dat V pf hO c).A w = V c (Pipeline.arrRef spec31 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid31.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid31.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W31, bigSep_W31]
  exact sound_body V pf hO c t

end
end Cert.Kernel.Rg31

end
-- ==== Proof.KB.Family.lean ====
import proofs.«411409_j5669356831307_3_alg».proof.Proof.KB.Chain
import proofs.«411409_j5669356831307_3_alg».proof.Proof.KB.R0.Pipe
import proofs.«411409_j5669356831307_3_alg».proof.Proof.KB.R1.Pipe
import proofs.«411409_j5669356831307_3_alg».proof.Proof.KB.R2.Pipe
import proofs.«411409_j5669356831307_3_alg».proof.Proof.KB.R3.Pipe
import proofs.«411409_j5669356831307_3_alg».proof.Proof.KB.R4.Pipe
import proofs.«411409_j5669356831307_3_alg».proof.Proof.KB.R5.Pipe
import proofs.«411409_j5669356831307_3_alg».proof.Proof.KB.R6.Pipe
import proofs.«411409_j5669356831307_3_alg».proof.Proof.KB.R7.Pipe
import proofs.«411409_j5669356831307_3_alg».proof.Proof.KB.R8.Pipe
import proofs.«411409_j5669356831307_3_alg».proof.Proof.KB.R9.Pipe
import proofs.«411409_j5669356831307_3_alg».proof.Proof.KB.R10.Pipe
import proofs.«411409_j5669356831307_3_alg».proof.Proof.KB.R11.Pipe
import proofs.«411409_j5669356831307_3_alg».proof.Proof.KB.R12.Pipe
import proofs.«411409_j5669356831307_3_alg».proof.Proof.KB.R13.Pipe
import proofs.«411409_j5669356831307_3_alg».proof.Proof.KB.R14.Pipe
import proofs.«411409_j5669356831307_3_alg».proof.Proof.KB.R15.Pipe
import proofs.«411409_j5669356831307_3_alg».proof.Proof.KB.R16.Pipe
import proofs.«411409_j5669356831307_3_alg».proof.Proof.KB.R17.Pipe
import proofs.«411409_j5669356831307_3_alg».proof.Proof.KB.R18.Pipe
import proofs.«411409_j5669356831307_3_alg».proof.Proof.KB.R19.Pipe
import proofs.«411409_j5669356831307_3_alg».proof.Proof.KB.R20.Pipe
import proofs.«411409_j5669356831307_3_alg».proof.Proof.KB.R21.Pipe
import proofs.«411409_j5669356831307_3_alg».proof.Proof.KB.R22.Pipe
import proofs.«411409_j5669356831307_3_alg».proof.Proof.KB.R23.Pipe
import proofs.«411409_j5669356831307_3_alg».proof.Proof.KB.R24.Pipe
import proofs.«411409_j5669356831307_3_alg».proof.Proof.KB.R25.Pipe
import proofs.«411409_j5669356831307_3_alg».proof.Proof.KB.R26.Pipe
import proofs.«411409_j5669356831307_3_alg».proof.Proof.KB.R27.Pipe
import proofs.«411409_j5669356831307_3_alg».proof.Proof.KB.R28.Pipe
import proofs.«411409_j5669356831307_3_alg».proof.Proof.KB.R29.Pipe
import proofs.«411409_j5669356831307_3_alg».proof.Proof.KB.R30.Pipe
import proofs.«411409_j5669356831307_3_alg».proof.Proof.KB.R31.Pipe
import Idealize.ShloMosaic.Lib.Pipeline.FrameSuffix
import Idealize.ShloMosaic.Lib.StableHlo.Run
import Idealize.ShloMosaic.Lib.Pipeline.Kit
import Idealize.ShloMosaic.Lib.Pipeline.RegionsLoop

set_option maxRecDepth 16384

noncomputable section

namespace Cert.Kernel.Hand

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- Every table is admissible: each index names a row of the padded feature array. -/
structure OkAll : Prop where
  h0 : ok0 (F := F) (tbl0 m)
  h1 : ok1 (F := F) (tbl1 m)
  h2 : ok2 (F := F) (tbl2 m)
  h3 : ok3 (F := F) (tbl3 m)
  h4 : ok4 (F := F) (tbl4 m)
  h5 : ok5 (F := F) (tbl5 m)
  h6 : ok6 (F := F) (tbl6 m)
  h7 : ok7 (F := F) (tbl7 m)
  h8 : ok8 (F := F) (tbl8 m)
  h9 : ok9 (F := F) (tbl9 m)
  h10 : ok10 (F := F) (tbl10 m)
  h11 : ok11 (F := F) (tbl11 m)
  h12 : ok12 (F := F) (tbl12 m)
  h13 : ok13 (F := F) (tbl13 m)
  h14 : ok14 (F := F) (tbl14 m)
  h15 : ok15 (F := F) (tbl15 m)
  h16 : ok16 (F := F) (tbl16 m)
  h17 : ok17 (F := F) (tbl17 m)
  h18 : ok18 (F := F) (tbl18 m)
  h19 : ok19 (F := F) (tbl19 m)
  h20 : ok20 (F := F) (tbl20 m)
  h21 : ok21 (F := F) (tbl21 m)
  h22 : ok22 (F := F) (tbl22 m)
  h23 : ok23 (F := F) (tbl23 m)
  h24 : ok24 (F := F) (tbl24 m)
  h25 : ok25 (F := F) (tbl25 m)
  h26 : ok26 (F := F) (tbl26 m)
  h27 : ok27 (F := F) (tbl27 m)
  h28 : ok28 (F := F) (tbl28 m)
  h29 : ok29 (F := F) (tbl29 m)
  h30 : ok30 (F := F) (tbl30 m)
  h31 : ok31 (F := F) (tbl31 m)

variable (h : OkAll m)

/-- The tables as admissible contents, region by region. -/
def admAll : (p : Fin 32) → (pcfgs (F := F) p).Adm
  | ⟨0, _⟩ => ⟨tbl0 m, h.h0⟩
  | ⟨1, _⟩ => ⟨tbl1 m, h.h1⟩
  | ⟨2, _⟩ => ⟨tbl2 m, h.h2⟩
  | ⟨3, _⟩ => ⟨tbl3 m, h.h3⟩
  | ⟨4, _⟩ => ⟨tbl4 m, h.h4⟩
  | ⟨5, _⟩ => ⟨tbl5 m, h.h5⟩
  | ⟨6, _⟩ => ⟨tbl6 m, h.h6⟩
  | ⟨7, _⟩ => ⟨tbl7 m, h.h7⟩
  | ⟨8, _⟩ => ⟨tbl8 m, h.h8⟩
  | ⟨9, _⟩ => ⟨tbl9 m, h.h9⟩
  | ⟨10, _⟩ => ⟨tbl10 m, h.h10⟩
  | ⟨11, _⟩ => ⟨tbl11 m, h.h11⟩
  | ⟨12, _⟩ => ⟨tbl12 m, h.h12⟩
  | ⟨13, _⟩ => ⟨tbl13 m, h.h13⟩
  | ⟨14, _⟩ => ⟨tbl14 m, h.h14⟩
  | ⟨15, _⟩ => ⟨tbl15 m, h.h15⟩
  | ⟨16, _⟩ => ⟨tbl16 m, h.h16⟩
  | ⟨17, _⟩ => ⟨tbl17 m, h.h17⟩
  | ⟨18, _⟩ => ⟨tbl18 m, h.h18⟩
  | ⟨19, _⟩ => ⟨tbl19 m, h.h19⟩
  | ⟨20, _⟩ => ⟨tbl20 m, h.h20⟩
  | ⟨21, _⟩ => ⟨tbl21 m, h.h21⟩
  | ⟨22, _⟩ => ⟨tbl22 m, h.h22⟩
  | ⟨23, _⟩ => ⟨tbl23 m, h.h23⟩
  | ⟨24, _⟩ => ⟨tbl24 m, h.h24⟩
  | ⟨25, _⟩ => ⟨tbl25 m, h.h25⟩
  | ⟨26, _⟩ => ⟨tbl26 m, h.h26⟩
  | ⟨27, _⟩ => ⟨tbl27 m, h.h27⟩
  | ⟨28, _⟩ => ⟨tbl28 m, h.h28⟩
  | ⟨29, _⟩ => ⟨tbl29 m, h.h29⟩
  | ⟨30, _⟩ => ⟨tbl30 m, h.h30⟩
  | ⟨31, _⟩ => ⟨tbl31 m, h.h31⟩
  | ⟨_ + 32, hh⟩ => absurd hh (Nat.not_lt.2 (Nat.le_add_left _ _))

/-- The proof data of every region, over the buffers after the first host stretch and the table of the region. -/
def pdats : (p : Fin 32) → (c : Dev nD) → Dat τ (Elt F) Unit ℕ (UR sig nD τ) ℕ (Pipeline.pin (pcfgs (F := F)) (admAll m h) p) c
  | ⟨0, _⟩ => fun c => Rg0.dat (Vent m) (tbl0 m) h.h0 c
  | ⟨1, _⟩ => fun c => Rg1.dat (Vent m) (tbl1 m) h.h1 c
  | ⟨2, _⟩ => fun c => Rg2.dat (Vent m) (tbl2 m) h.h2 c
  | ⟨3, _⟩ => fun c => Rg3.dat (Vent m) (tbl3 m) h.h3 c
  | ⟨4, _⟩ => fun c => Rg4.dat (Vent m) (tbl4 m) h.h4 c
  | ⟨5, _⟩ => fun c => Rg5.dat (Vent m) (tbl5 m) h.h5 c
  | ⟨6, _⟩ => fun c => Rg6.dat (Vent m) (tbl6 m) h.h6 c
  | ⟨7, _⟩ => fun c => Rg7.dat (Vent m) (tbl7 m) h.h7 c
  | ⟨8, _⟩ => fun c => Rg8.dat (Vent m) (tbl8 m) h.h8 c
  | ⟨9, _⟩ => fun c => Rg9.dat (Vent m) (tbl9 m) h.h9 c
  | ⟨10, _⟩ => fun c => Rg10.dat (Vent m) (tbl10 m) h.h10 c
  | ⟨11, _⟩ => fun c => Rg11.dat (Vent m) (tbl11 m) h.h11 c
  | ⟨12, _⟩ => fun c => Rg12.dat (Vent m) (tbl12 m) h.h12 c
  | ⟨13, _⟩ => fun c => Rg13.dat (Vent m) (tbl13 m) h.h13 c
  | ⟨14, _⟩ => fun c => Rg14.dat (Vent m) (tbl14 m) h.h14 c
  | ⟨15, _⟩ => fun c => Rg15.dat (Vent m) (tbl15 m) h.h15 c
  | ⟨16, _⟩ => fun c => Rg16.dat (Vent m) (tbl16 m) h.h16 c
  | ⟨17, _⟩ => fun c => Rg17.dat (Vent m) (tbl17 m) h.h17 c
  | ⟨18, _⟩ => fun c => Rg18.dat (Vent m) (tbl18 m) h.h18 c
  | ⟨19, _⟩ => fun c => Rg19.dat (Vent m) (tbl19 m) h.h19 c
  | ⟨20, _⟩ => fun c => Rg20.dat (Vent m) (tbl20 m) h.h20 c
  | ⟨21, _⟩ => fun c => Rg21.dat (Vent m) (tbl21 m) h.h21 c
  | ⟨22, _⟩ => fun c => Rg22.dat (Vent m) (tbl22 m) h.h22 c
  | ⟨23, _⟩ => fun c => Rg23.dat (Vent m) (tbl23 m) h.h23 c
  | ⟨24, _⟩ => fun c => Rg24.dat (Vent m) (tbl24 m) h.h24 c
  | ⟨25, _⟩ => fun c => Rg25.dat (Vent m) (tbl25 m) h.h25 c
  | ⟨26, _⟩ => fun c => Rg26.dat (Vent m) (tbl26 m) h.h26 c
  | ⟨27, _⟩ => fun c => Rg27.dat (Vent m) (tbl27 m) h.h27 c
  | ⟨28, _⟩ => fun c => Rg28.dat (Vent m) (tbl28 m) h.h28 c
  | ⟨29, _⟩ => fun c => Rg29.dat (Vent m) (tbl29 m) h.h29 c
  | ⟨30, _⟩ => fun c => Rg30.dat (Vent m) (tbl30 m) h.h30 c
  | ⟨31, _⟩ => fun c => Rg31.dat (Vent m) (tbl31 m) h.h31 c
  | ⟨_ + 32, hh⟩ => absurd hh (Nat.not_lt.2 (Nat.le_add_left _ _))

/-- What region k leaves in the buffers: its output array at the pooled rows (the write-backs folded), everything else as found. -/
def outsJ0 (c : Dev nD) : Valuation τ sig (Elt F) := Pipeline.withArrays spec0 c (V1 m c) fun w => (Rg0.dat (Vent m) (tbl0 m) h.h0 c).arrAt w (Rg0.cfgM (tbl0 m) h.h0).N
def outsJ1 (c : Dev nD) : Valuation τ sig (Elt F) := Pipeline.withArrays spec1 c (V1 m c) fun w => (Rg1.dat (Vent m) (tbl1 m) h.h1 c).arrAt w (Rg1.cfgM (tbl1 m) h.h1).N
def outsJ2 (c : Dev nD) : Valuation τ sig (Elt F) := Pipeline.withArrays spec2 c (V1 m c) fun w => (Rg2.dat (Vent m) (tbl2 m) h.h2 c).arrAt w (Rg2.cfgM (tbl2 m) h.h2).N
def outsJ3 (c : Dev nD) : Valuation τ sig (Elt F) := Pipeline.withArrays spec3 c (V1 m c) fun w => (Rg3.dat (Vent m) (tbl3 m) h.h3 c).arrAt w (Rg3.cfgM (tbl3 m) h.h3).N
def outsJ4 (c : Dev nD) : Valuation τ sig (Elt F) := Pipeline.withArrays spec4 c (V1 m c) fun w => (Rg4.dat (Vent m) (tbl4 m) h.h4 c).arrAt w (Rg4.cfgM (tbl4 m) h.h4).N
def outsJ5 (c : Dev nD) : Valuation τ sig (Elt F) := Pipeline.withArrays spec5 c (V1 m c) fun w => (Rg5.dat (Vent m) (tbl5 m) h.h5 c).arrAt w (Rg5.cfgM (tbl5 m) h.h5).N
def outsJ6 (c : Dev nD) : Valuation τ sig (Elt F) := Pipeline.withArrays spec6 c (V1 m c) fun w => (Rg6.dat (Vent m) (tbl6 m) h.h6 c).arrAt w (Rg6.cfgM (tbl6 m) h.h6).N
def outsJ7 (c : Dev nD) : Valuation τ sig (Elt F) := Pipeline.withArrays spec7 c (V1 m c) fun w => (Rg7.dat (Vent m) (tbl7 m) h.h7 c).arrAt w (Rg7.cfgM (tbl7 m) h.h7).N
def outsJ8 (c : Dev nD) : Valuation τ sig (Elt F) := Pipeline.withArrays spec8 c (V1 m c) fun w => (Rg8.dat (Vent m) (tbl8 m) h.h8 c).arrAt w (Rg8.cfgM (tbl8 m) h.h8).N
def outsJ9 (c : Dev nD) : Valuation τ sig (Elt F) := Pipeline.withArrays spec9 c (V1 m c) fun w => (Rg9.dat (Vent m) (tbl9 m) h.h9 c).arrAt w (Rg9.cfgM (tbl9 m) h.h9).N
def outsJ10 (c : Dev nD) : Valuation τ sig (Elt F) := Pipeline.withArrays spec10 c (V1 m c) fun w => (Rg10.dat (Vent m) (tbl10 m) h.h10 c).arrAt w (Rg10.cfgM (tbl10 m) h.h10).N
def outsJ11 (c : Dev nD) : Valuation τ sig (Elt F) := Pipeline.withArrays spec11 c (V1 m c) fun w => (Rg11.dat (Vent m) (tbl11 m) h.h11 c).arrAt w (Rg11.cfgM (tbl11 m) h.h11).N
def outsJ12 (c : Dev nD) : Valuation τ sig (Elt F) := Pipeline.withArrays spec12 c (V1 m c) fun w => (Rg12.dat (Vent m) (tbl12 m) h.h12 c).arrAt w (Rg12.cfgM (tbl12 m) h.h12).N
def outsJ13 (c : Dev nD) : Valuation τ sig (Elt F) := Pipeline.withArrays spec13 c (V1 m c) fun w => (Rg13.dat (Vent m) (tbl13 m) h.h13 c).arrAt w (Rg13.cfgM (tbl13 m) h.h13).N
def outsJ14 (c : Dev nD) : Valuation τ sig (Elt F) := Pipeline.withArrays spec14 c (V1 m c) fun w => (Rg14.dat (Vent m) (tbl14 m) h.h14 c).arrAt w (Rg14.cfgM (tbl14 m) h.h14).N
def outsJ15 (c : Dev nD) : Valuation τ sig (Elt F) := Pipeline.withArrays spec15 c (V1 m c) fun w => (Rg15.dat (Vent m) (tbl15 m) h.h15 c).arrAt w (Rg15.cfgM (tbl15 m) h.h15).N
def outsJ16 (c : Dev nD) : Valuation τ sig (Elt F) := Pipeline.withArrays spec16 c (V1 m c) fun w => (Rg16.dat (Vent m) (tbl16 m) h.h16 c).arrAt w (Rg16.cfgM (tbl16 m) h.h16).N
def outsJ17 (c : Dev nD) : Valuation τ sig (Elt F) := Pipeline.withArrays spec17 c (V1 m c) fun w => (Rg17.dat (Vent m) (tbl17 m) h.h17 c).arrAt w (Rg17.cfgM (tbl17 m) h.h17).N
def outsJ18 (c : Dev nD) : Valuation τ sig (Elt F) := Pipeline.withArrays spec18 c (V1 m c) fun w => (Rg18.dat (Vent m) (tbl18 m) h.h18 c).arrAt w (Rg18.cfgM (tbl18 m) h.h18).N
def outsJ19 (c : Dev nD) : Valuation τ sig (Elt F) := Pipeline.withArrays spec19 c (V1 m c) fun w => (Rg19.dat (Vent m) (tbl19 m) h.h19 c).arrAt w (Rg19.cfgM (tbl19 m) h.h19).N
def outsJ20 (c : Dev nD) : Valuation τ sig (Elt F) := Pipeline.withArrays spec20 c (V1 m c) fun w => (Rg20.dat (Vent m) (tbl20 m) h.h20 c).arrAt w (Rg20.cfgM (tbl20 m) h.h20).N
def outsJ21 (c : Dev nD) : Valuation τ sig (Elt F) := Pipeline.withArrays spec21 c (V1 m c) fun w => (Rg21.dat (Vent m) (tbl21 m) h.h21 c).arrAt w (Rg21.cfgM (tbl21 m) h.h21).N
def outsJ22 (c : Dev nD) : Valuation τ sig (Elt F) := Pipeline.withArrays spec22 c (V1 m c) fun w => (Rg22.dat (Vent m) (tbl22 m) h.h22 c).arrAt w (Rg22.cfgM (tbl22 m) h.h22).N
def outsJ23 (c : Dev nD) : Valuation τ sig (Elt F) := Pipeline.withArrays spec23 c (V1 m c) fun w => (Rg23.dat (Vent m) (tbl23 m) h.h23 c).arrAt w (Rg23.cfgM (tbl23 m) h.h23).N
def outsJ24 (c : Dev nD) : Valuation τ sig (Elt F) := Pipeline.withArrays spec24 c (V1 m c) fun w => (Rg24.dat (Vent m) (tbl24 m) h.h24 c).arrAt w (Rg24.cfgM (tbl24 m) h.h24).N
def outsJ25 (c : Dev nD) : Valuation τ sig (Elt F) := Pipeline.withArrays spec25 c (V1 m c) fun w => (Rg25.dat (Vent m) (tbl25 m) h.h25 c).arrAt w (Rg25.cfgM (tbl25 m) h.h25).N
def outsJ26 (c : Dev nD) : Valuation τ sig (Elt F) := Pipeline.withArrays spec26 c (V1 m c) fun w => (Rg26.dat (Vent m) (tbl26 m) h.h26 c).arrAt w (Rg26.cfgM (tbl26 m) h.h26).N
def outsJ27 (c : Dev nD) : Valuation τ sig (Elt F) := Pipeline.withArrays spec27 c (V1 m c) fun w => (Rg27.dat (Vent m) (tbl27 m) h.h27 c).arrAt w (Rg27.cfgM (tbl27 m) h.h27).N
def outsJ28 (c : Dev nD) : Valuation τ sig (Elt F) := Pipeline.withArrays spec28 c (V1 m c) fun w => (Rg28.dat (Vent m) (tbl28 m) h.h28 c).arrAt w (Rg28.cfgM (tbl28 m) h.h28).N
def outsJ29 (c : Dev nD) : Valuation τ sig (Elt F) := Pipeline.withArrays spec29 c (V1 m c) fun w => (Rg29.dat (Vent m) (tbl29 m) h.h29 c).arrAt w (Rg29.cfgM (tbl29 m) h.h29).N
def outsJ30 (c : Dev nD) : Valuation τ sig (Elt F) := Pipeline.withArrays spec30 c (V1 m c) fun w => (Rg30.dat (Vent m) (tbl30 m) h.h30 c).arrAt w (Rg30.cfgM (tbl30 m) h.h30).N
def outsJ31 (c : Dev nD) : Valuation τ sig (Elt F) := Pipeline.withArrays spec31 c (V1 m c) fun w => (Rg31.dat (Vent m) (tbl31 m) h.h31 c).arrAt w (Rg31.cfgM (tbl31 m) h.h31).N

def outsAll : Outs (F := F) := fun J r c => match J with
  | 2 => outsJ0 m h c r
  | 4 => outsJ1 m h c r
  | 6 => outsJ2 m h c r
  | 8 => outsJ3 m h c r
  | 10 => outsJ4 m h c r
  | 12 => outsJ5 m h c r
  | 14 => outsJ6 m h c r
  | 16 => outsJ7 m h c r
  | 18 => outsJ8 m h c r
  | 20 => outsJ9 m h c r
  | 22 => outsJ10 m h c r
  | 24 => outsJ11 m h c r
  | 26 => outsJ12 m h c r
  | 28 => outsJ13 m h c r
  | 30 => outsJ14 m h c r
  | 32 => outsJ15 m h c r
  | 34 => outsJ16 m h c r
  | 36 => outsJ17 m h c r
  | 38 => outsJ18 m h c r
  | 40 => outsJ19 m h c r
  | 42 => outsJ20 m h c r
  | 44 => outsJ21 m h c r
  | 46 => outsJ22 m h c r
  | 48 => outsJ23 m h c r
  | 50 => outsJ24 m h c r
  | 52 => outsJ25 m h c r
  | 54 => outsJ26 m h c r
  | 56 => outsJ27 m h c r
  | 58 => outsJ28 m h c r
  | 60 => outsJ29 m h c r
  | 62 => outsJ30 m h c r
  | 64 => outsJ31 m h c r
  | _ => m ((c : Thread nD τ).loc r)

theorem outsAll_0 (c : Dev nD) : outsAll m h 2 main_v6 c = (Rg0.dat (Vent m) (tbl0 m) h.h0 c).arrAt 1 (Rg0.cfgM (tbl0 m) h.h0).N := by
  show outsJ0 m h c (Proc.devRef (τ := τ) .tc main_v6) = _
  exact Pipeline.withArrays_arr spec0 winFacts0.arr_inj c _ _ 1
theorem outsAll_1 (c : Dev nD) : outsAll m h 4 main_v10 c = (Rg1.dat (Vent m) (tbl1 m) h.h1 c).arrAt 1 (Rg1.cfgM (tbl1 m) h.h1).N := by
  show outsJ1 m h c (Proc.devRef (τ := τ) .tc main_v10) = _
  exact Pipeline.withArrays_arr spec1 winFacts1.arr_inj c _ _ 1
theorem outsAll_2 (c : Dev nD) : outsAll m h 6 main_v14 c = (Rg2.dat (Vent m) (tbl2 m) h.h2 c).arrAt 1 (Rg2.cfgM (tbl2 m) h.h2).N := by
  show outsJ2 m h c (Proc.devRef (τ := τ) .tc main_v14) = _
  exact Pipeline.withArrays_arr spec2 winFacts2.arr_inj c _ _ 1
theorem outsAll_3 (c : Dev nD) : outsAll m h 8 main_v18 c = (Rg3.dat (Vent m) (tbl3 m) h.h3 c).arrAt 1 (Rg3.cfgM (tbl3 m) h.h3).N := by
  show outsJ3 m h c (Proc.devRef (τ := τ) .tc main_v18) = _
  exact Pipeline.withArrays_arr spec3 winFacts3.arr_inj c _ _ 1
theorem outsAll_4 (c : Dev nD) : outsAll m h 10 main_v22 c = (Rg4.dat (Vent m) (tbl4 m) h.h4 c).arrAt 1 (Rg4.cfgM (tbl4 m) h.h4).N := by
  show outsJ4 m h c (Proc.devRef (τ := τ) .tc main_v22) = _
  exact Pipeline.withArrays_arr spec4 winFacts4.arr_inj c _ _ 1
theorem outsAll_5 (c : Dev nD) : outsAll m h 12 main_v26 c = (Rg5.dat (Vent m) (tbl5 m) h.h5 c).arrAt 1 (Rg5.cfgM (tbl5 m) h.h5).N := by
  show outsJ5 m h c (Proc.devRef (τ := τ) .tc main_v26) = _
  exact Pipeline.withArrays_arr spec5 winFacts5.arr_inj c _ _ 1
theorem outsAll_6 (c : Dev nD) : outsAll m h 14 main_v30 c = (Rg6.dat (Vent m) (tbl6 m) h.h6 c).arrAt 1 (Rg6.cfgM (tbl6 m) h.h6).N := by
  show outsJ6 m h c (Proc.devRef (τ := τ) .tc main_v30) = _
  exact Pipeline.withArrays_arr spec6 winFacts6.arr_inj c _ _ 1
theorem outsAll_7 (c : Dev nD) : outsAll m h 16 main_v34 c = (Rg7.dat (Vent m) (tbl7 m) h.h7 c).arrAt 1 (Rg7.cfgM (tbl7 m) h.h7).N := by
  show outsJ7 m h c (Proc.devRef (τ := τ) .tc main_v34) = _
  exact Pipeline.withArrays_arr spec7 winFacts7.arr_inj c _ _ 1
theorem outsAll_8 (c : Dev nD) : outsAll m h 18 main_v38 c = (Rg8.dat (Vent m) (tbl8 m) h.h8 c).arrAt 1 (Rg8.cfgM (tbl8 m) h.h8).N := by
  show outsJ8 m h c (Proc.devRef (τ := τ) .tc main_v38) = _
  exact Pipeline.withArrays_arr spec8 winFacts8.arr_inj c _ _ 1
theorem outsAll_9 (c : Dev nD) : outsAll m h 20 main_v42 c = (Rg9.dat (Vent m) (tbl9 m) h.h9 c).arrAt 1 (Rg9.cfgM (tbl9 m) h.h9).N := by
  show outsJ9 m h c (Proc.devRef (τ := τ) .tc main_v42) = _
  exact Pipeline.withArrays_arr spec9 winFacts9.arr_inj c _ _ 1
theorem outsAll_10 (c : Dev nD) : outsAll m h 22 main_v46 c = (Rg10.dat (Vent m) (tbl10 m) h.h10 c).arrAt 1 (Rg10.cfgM (tbl10 m) h.h10).N := by
  show outsJ10 m h c (Proc.devRef (τ := τ) .tc main_v46) = _
  exact Pipeline.withArrays_arr spec10 winFacts10.arr_inj c _ _ 1
theorem outsAll_11 (c : Dev nD) : outsAll m h 24 main_v50 c = (Rg11.dat (Vent m) (tbl11 m) h.h11 c).arrAt 1 (Rg11.cfgM (tbl11 m) h.h11).N := by
  show outsJ11 m h c (Proc.devRef (τ := τ) .tc main_v50) = _
  exact Pipeline.withArrays_arr spec11 winFacts11.arr_inj c _ _ 1
theorem outsAll_12 (c : Dev nD) : outsAll m h 26 main_v54 c = (Rg12.dat (Vent m) (tbl12 m) h.h12 c).arrAt 1 (Rg12.cfgM (tbl12 m) h.h12).N := by
  show outsJ12 m h c (Proc.devRef (τ := τ) .tc main_v54) = _
  exact Pipeline.withArrays_arr spec12 winFacts12.arr_inj c _ _ 1
theorem outsAll_13 (c : Dev nD) : outsAll m h 28 main_v58 c = (Rg13.dat (Vent m) (tbl13 m) h.h13 c).arrAt 1 (Rg13.cfgM (tbl13 m) h.h13).N := by
  show outsJ13 m h c (Proc.devRef (τ := τ) .tc main_v58) = _
  exact Pipeline.withArrays_arr spec13 winFacts13.arr_inj c _ _ 1
theorem outsAll_14 (c : Dev nD) : outsAll m h 30 main_v62 c = (Rg14.dat (Vent m) (tbl14 m) h.h14 c).arrAt 1 (Rg14.cfgM (tbl14 m) h.h14).N := by
  show outsJ14 m h c (Proc.devRef (τ := τ) .tc main_v62) = _
  exact Pipeline.withArrays_arr spec14 winFacts14.arr_inj c _ _ 1
theorem outsAll_15 (c : Dev nD) : outsAll m h 32 main_v66 c = (Rg15.dat (Vent m) (tbl15 m) h.h15 c).arrAt 1 (Rg15.cfgM (tbl15 m) h.h15).N := by
  show outsJ15 m h c (Proc.devRef (τ := τ) .tc main_v66) = _
  exact Pipeline.withArrays_arr spec15 winFacts15.arr_inj c _ _ 1
theorem outsAll_16 (c : Dev nD) : outsAll m h 34 main_v70 c = (Rg16.dat (Vent m) (tbl16 m) h.h16 c).arrAt 1 (Rg16.cfgM (tbl16 m) h.h16).N := by
  show outsJ16 m h c (Proc.devRef (τ := τ) .tc main_v70) = _
  exact Pipeline.withArrays_arr spec16 winFacts16.arr_inj c _ _ 1
theorem outsAll_17 (c : Dev nD) : outsAll m h 36 main_v74 c = (Rg17.dat (Vent m) (tbl17 m) h.h17 c).arrAt 1 (Rg17.cfgM (tbl17 m) h.h17).N := by
  show outsJ17 m h c (Proc.devRef (τ := τ) .tc main_v74) = _
  exact Pipeline.withArrays_arr spec17 winFacts17.arr_inj c _ _ 1
theorem outsAll_18 (c : Dev nD) : outsAll m h 38 main_v78 c = (Rg18.dat (Vent m) (tbl18 m) h.h18 c).arrAt 1 (Rg18.cfgM (tbl18 m) h.h18).N := by
  show outsJ18 m h c (Proc.devRef (τ := τ) .tc main_v78) = _
  exact Pipeline.withArrays_arr spec18 winFacts18.arr_inj c _ _ 1
theorem outsAll_19 (c : Dev nD) : outsAll m h 40 main_v82 c = (Rg19.dat (Vent m) (tbl19 m) h.h19 c).arrAt 1 (Rg19.cfgM (tbl19 m) h.h19).N := by
  show outsJ19 m h c (Proc.devRef (τ := τ) .tc main_v82) = _
  exact Pipeline.withArrays_arr spec19 winFacts19.arr_inj c _ _ 1
theorem outsAll_20 (c : Dev nD) : outsAll m h 42 main_v86 c = (Rg20.dat (Vent m) (tbl20 m) h.h20 c).arrAt 1 (Rg20.cfgM (tbl20 m) h.h20).N := by
  show outsJ20 m h c (Proc.devRef (τ := τ) .tc main_v86) = _
  exact Pipeline.withArrays_arr spec20 winFacts20.arr_inj c _ _ 1
theorem outsAll_21 (c : Dev nD) : outsAll m h 44 main_v90 c = (Rg21.dat (Vent m) (tbl21 m) h.h21 c).arrAt 1 (Rg21.cfgM (tbl21 m) h.h21).N := by
  show outsJ21 m h c (Proc.devRef (τ := τ) .tc main_v90) = _
  exact Pipeline.withArrays_arr spec21 winFacts21.arr_inj c _ _ 1
theorem outsAll_22 (c : Dev nD) : outsAll m h 46 main_v94 c = (Rg22.dat (Vent m) (tbl22 m) h.h22 c).arrAt 1 (Rg22.cfgM (tbl22 m) h.h22).N := by
  show outsJ22 m h c (Proc.devRef (τ := τ) .tc main_v94) = _
  exact Pipeline.withArrays_arr spec22 winFacts22.arr_inj c _ _ 1
theorem outsAll_23 (c : Dev nD) : outsAll m h 48 main_v98 c = (Rg23.dat (Vent m) (tbl23 m) h.h23 c).arrAt 1 (Rg23.cfgM (tbl23 m) h.h23).N := by
  show outsJ23 m h c (Proc.devRef (τ := τ) .tc main_v98) = _
  exact Pipeline.withArrays_arr spec23 winFacts23.arr_inj c _ _ 1
theorem outsAll_24 (c : Dev nD) : outsAll m h 50 main_v102 c = (Rg24.dat (Vent m) (tbl24 m) h.h24 c).arrAt 1 (Rg24.cfgM (tbl24 m) h.h24).N := by
  show outsJ24 m h c (Proc.devRef (τ := τ) .tc main_v102) = _
  exact Pipeline.withArrays_arr spec24 winFacts24.arr_inj c _ _ 1
theorem outsAll_25 (c : Dev nD) : outsAll m h 52 main_v106 c = (Rg25.dat (Vent m) (tbl25 m) h.h25 c).arrAt 1 (Rg25.cfgM (tbl25 m) h.h25).N := by
  show outsJ25 m h c (Proc.devRef (τ := τ) .tc main_v106) = _
  exact Pipeline.withArrays_arr spec25 winFacts25.arr_inj c _ _ 1
theorem outsAll_26 (c : Dev nD) : outsAll m h 54 main_v110 c = (Rg26.dat (Vent m) (tbl26 m) h.h26 c).arrAt 1 (Rg26.cfgM (tbl26 m) h.h26).N := by
  show outsJ26 m h c (Proc.devRef (τ := τ) .tc main_v110) = _
  exact Pipeline.withArrays_arr spec26 winFacts26.arr_inj c _ _ 1
theorem outsAll_27 (c : Dev nD) : outsAll m h 56 main_v114 c = (Rg27.dat (Vent m) (tbl27 m) h.h27 c).arrAt 1 (Rg27.cfgM (tbl27 m) h.h27).N := by
  show outsJ27 m h c (Proc.devRef (τ := τ) .tc main_v114) = _
  exact Pipeline.withArrays_arr spec27 winFacts27.arr_inj c _ _ 1
theorem outsAll_28 (c : Dev nD) : outsAll m h 58 main_v118 c = (Rg28.dat (Vent m) (tbl28 m) h.h28 c).arrAt 1 (Rg28.cfgM (tbl28 m) h.h28).N := by
  show outsJ28 m h c (Proc.devRef (τ := τ) .tc main_v118) = _
  exact Pipeline.withArrays_arr spec28 winFacts28.arr_inj c _ _ 1
theorem outsAll_29 (c : Dev nD) : outsAll m h 60 main_v122 c = (Rg29.dat (Vent m) (tbl29 m) h.h29 c).arrAt 1 (Rg29.cfgM (tbl29 m) h.h29).N := by
  show outsJ29 m h c (Proc.devRef (τ := τ) .tc main_v122) = _
  exact Pipeline.withArrays_arr spec29 winFacts29.arr_inj c _ _ 1
theorem outsAll_30 (c : Dev nD) : outsAll m h 62 main_v126 c = (Rg30.dat (Vent m) (tbl30 m) h.h30 c).arrAt 1 (Rg30.cfgM (tbl30 m) h.h30).N := by
  show outsJ30 m h c (Proc.devRef (τ := τ) .tc main_v126) = _
  exact Pipeline.withArrays_arr spec30 winFacts30.arr_inj c _ _ 1
theorem outsAll_31 (c : Dev nD) : outsAll m h 64 main_v130 c = (Rg31.dat (Vent m) (tbl31 m) h.h31 c).arrAt 1 (Rg31.cfgM (tbl31 m) h.h31).N := by
  show outsJ31 m h c (Proc.devRef (τ := τ) .tc main_v130) = _
  exact Pipeline.withArrays_arr spec31 winFacts31.arr_inj c _ _ 1

end Cert.Kernel.Hand

end
-- ==== Proof.KB.R0.Link.lean ====
/- Region 0's table satisfies the pipeline's side condition: its words are pooling indices, which the precondition
   bounds by 262144, the last row of the padded feature array. -/
/- Region 0 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 0's table is one of the pooling indices, so at most 262144. -/
theorem tbl0_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl0 m 0 x : BitVec 32).toNat ≤ 262144 := by
  show (StableHlo.after hostOps0 (V0 m (0 : Dev nD)) (Proc.devRef .tc main_v5) x : BitVec 32).toNat ≤ 262144
  after_results
  exact slice_cast_all (fun w : BitVec 32 => w.toNat ≤ 262144) _ _ _ _ (fun k => Cert.PreDecode.toNat_le_of_toInt _ (hb k)) x

/-- The pipeline's side condition at region 0's table: the feature window's block, at the row the table names,
    lies inside the padded feature array (and a transfer of 32-bit elements moves whole words). -/
theorem okT0 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok0 (F := F) (tbl0 m) := by
  intro i
  exact ⟨block_inside _ _ (tbl0_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 0's proof data are what the region finds: the padded feature array and the (not yet
    written) output array hold at its entry what they held after the first host stretch. -/
theorem hA0 (c : Dev nD) (w : Fin 2) : (pdats m h 0 c).A w = Vin0 m (outsAll m h) c (Pipeline.arrRef spec0 w) :=
  match w with
  | ⟨0, _⟩ => (Vin0_v3 m (outsAll m h) c).symm
  | ⟨1, _⟩ => (Vin0_out m (outsAll m h) c).symm

/-- At the exit each array holds what the pipeline leaves. -/
theorem hF0 (c : Dev nD) (w : Fin 2) : (pdats m h 0 c).arrAt w (Pipeline.pin (pcfgs (F := F)) (admAll m h) 0).N = Vout0 m (outsAll m h) c (Pipeline.arrRef spec0 w) :=
  match w with
  | ⟨0, _⟩ => ((pdats m h 0 c).arrAt_in 0 rfl _).trans (Vout0_v3 m (outsAll m h) c).symm
  | ⟨1, _⟩ => ((Vout0_out m (outsAll m h) c).trans (outsAll_0 m h c)).symm

theorem hrest0 (c : Dev nD) : ∀ b, b ∉ Finset.univ.image (Pipeline.arrRef spec0) → Vout0 m (outsAll m h) c b = Vin0 m (outsAll m h) c b :=
  fun b hb => Vout0_of m (outsAll m h) c b (fun hm => hb (by
    rw [List.mem_singleton] at hm; subst hm
    exact Finset.mem_image.mpr ⟨1, Finset.mem_univ _, rfl⟩))

set_option backward.isDefEq.respectTransparency.types false in
def reg0 : Pipeline.RegionSeg (pcfgs (F := F)) (admAll m h) (pdats m h) () defs₀ 𝒱₀ L lv 0 where
  win := winFacts0.to₀
  block_pos := block_pos0
  stage_whole := stage_whole0
  K := PEmpty
  osem k := k.elim
  ho := Pipeline.OwnSemFacts.none _
  hbody c := (Rg0.body_obligation (Vent m) (tbl0 m) h.h0 c).loose
  hwaits := Pipeline.hwaits_of_owed_zero _ _ _ _ L lv 0 fun _ _ => rfl
  pre c := iprop(StableHlo.held (c : Thread nD τ) (Pipeline.ucRefs τ sig) (Vin0 m (outsAll m h) c) ∗ Rst c)
  post c := iprop(StableHlo.held (c : Thread nD τ) (Pipeline.ucRefs τ sig) (Vout0 m (outsAll m h) c) ∗ Rst c)
  X c := iprop(∃ r, prngReg c r)
  Y c := iprop((∃ r, prngReg c r) ∗ Pipeline.prefHeld pre0 c (fun _ => fullShare) (tbl0 m))
  Z c := Pipeline.unscopedRestP (Ix := Unit) (Name := ℕ) (U := UR sig nD τ) (Lvl := ℕ) pre0 spec0 c (fun b => Vin0 m (outsAll m h) c b)
  hentry c := by
    rw [Pipeline.ownSems0_none]
    have hsplit0 := Pipeline.arrays_of_unscopedBufs (p := 0) (pcfgs (F := F)) (admAll m h) (pdats m h) winFacts0 arr_whole0 c
      ((pdats m h 0 c).share_full fun _ => rfl) (fun b => Vin0 m (outsAll m h) c b) (hA0 m h c)
    rw [Pipeline.unscopedBufs_held] at hsplit0
    have hsplit : (StableHlo.held (c : Thread nD τ) (Pipeline.ucRefs τ sig) (Vin0 m (outsAll m h) c) : sProp 𝕄)
        ⊢ iprop((pdats m h 0 c).arrays ((pdats m h 0 c).arrAt · 0) ∗ Pipeline.unscopedRest spec0 c (fun b => Vin0 m (outsAll m h) c b)) := hsplit0
    rw [Pipeline.unscopedRest_split preFacts0 c,
      show (fun k => Vin0 m (outsAll m h) c (pre0.ref k)) = tbl0 m from funext fun k => Vin0_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 0 c).Φ 0 = iprop(Pipeline.ΦA spec0 c ∗ Pipeline.prefHeld pre0 c (fun _ => fullShare) (tbl0 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 0 c).Φ (Fin.last _) = iprop(Pipeline.ΦA spec0 c ∗ Pipeline.prefHeld pre0 c (fun _ => fullShare) (tbl0 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 0) (pcfgs (F := F)) (admAll m h) (Ix := Unit) (Name := ℕ) (U := UR sig nD τ) (Lvl := ℕ)
      winFacts0 arr_whole0 c (pdats m h) ((pdats m h 0 c).share_full fun _ => rfl)
      (fun b => Vin0 m (outsAll m h) c b) (fun b => Vout0 m (outsAll m h) c b) ((pdats m h 0 c).arrAt · (Pipeline.pin (pcfgs (F := F)) (admAll m h) 0).N) (hF0 m h c) (hrest0 m h c)
    rw [Pipeline.unscopedBufs_held] at hjoin0
    have hjoin : (iprop((pdats m h 0 c).arrays ((pdats m h 0 c).arrAt · (Pipeline.pin (pcfgs (F := F)) (admAll m h) 0).N) ∗ Pipeline.unscopedRest spec0 c (fun b => Vin0 m (outsAll m h) c b)) : sProp 𝕄)
        ⊢ StableHlo.held (c : Thread nD τ) (Pipeline.ucRefs τ sig) (Vout0 m (outsAll m h) c) := hjoin0
    rw [Pipeline.unscopedRest_split preFacts0 c,
      show (fun k => Vin0 m (outsAll m h) c (pre0.ref k)) = tbl0 m from funext fun k => Vin0_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R1.Link.lean ====
/- Region 1's table satisfies the pipeline's side condition: its words are pooling indices, which the precondition
   bounds by 262144, the last row of the padded feature array. -/
/- Region 1 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 1's table is one of the pooling indices, so at most 262144. -/
theorem tbl1_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl1 m 0 x : BitVec 32).toNat ≤ 262144 := by
  show (StableHlo.after hostOps1 (V0 m (0 : Dev nD)) (Proc.devRef .tc main_v9) x : BitVec 32).toNat ≤ 262144
  after_results
  exact slice_cast_all (fun w : BitVec 32 => w.toNat ≤ 262144) _ _ _ _ (fun k => Cert.PreDecode.toNat_le_of_toInt _ (hb k)) x

/-- The pipeline's side condition at region 1's table: the feature window's block, at the row the table names,
    lies inside the padded feature array (and a transfer of 32-bit elements moves whole words). -/
theorem okT1 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok1 (F := F) (tbl1 m) := by
  intro i
  exact ⟨block_inside _ _ (tbl1_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 1's proof data are what the region finds: the padded feature array and the (not yet
    written) output array hold at its entry what they held after the first host stretch. -/
theorem hA1 (c : Dev nD) (w : Fin 2) : (pdats m h 1 c).A w = Vin1 m (outsAll m h) c (Pipeline.arrRef spec1 w) :=
  match w with
  | ⟨0, _⟩ => (Vin1_v3 m (outsAll m h) c).symm
  | ⟨1, _⟩ => (Vin1_out m (outsAll m h) c).symm

/-- At the exit each array holds what the pipeline leaves. -/
theorem hF1 (c : Dev nD) (w : Fin 2) : (pdats m h 1 c).arrAt w (Pipeline.pin (pcfgs (F := F)) (admAll m h) 1).N = Vout1 m (outsAll m h) c (Pipeline.arrRef spec1 w) :=
  match w with
  | ⟨0, _⟩ => ((pdats m h 1 c).arrAt_in 0 rfl _).trans (Vout1_v3 m (outsAll m h) c).symm
  | ⟨1, _⟩ => ((Vout1_out m (outsAll m h) c).trans (outsAll_1 m h c)).symm

theorem hrest1 (c : Dev nD) : ∀ b, b ∉ Finset.univ.image (Pipeline.arrRef spec1) → Vout1 m (outsAll m h) c b = Vin1 m (outsAll m h) c b :=
  fun b hb => Vout1_of m (outsAll m h) c b (fun hm => hb (by
    rw [List.mem_singleton] at hm; subst hm
    exact Finset.mem_image.mpr ⟨1, Finset.mem_univ _, rfl⟩))

set_option backward.isDefEq.respectTransparency.types false in
def reg1 : Pipeline.RegionSeg (pcfgs (F := F)) (admAll m h) (pdats m h) () defs₀ 𝒱₀ L lv 1 where
  win := winFacts1.to₀
  block_pos := block_pos1
  stage_whole := stage_whole1
  K := PEmpty
  osem k := k.elim
  ho := Pipeline.OwnSemFacts.none _
  hbody c := (Rg1.body_obligation (Vent m) (tbl1 m) h.h1 c).loose
  hwaits := Pipeline.hwaits_of_owed_zero _ _ _ _ L lv 1 fun _ _ => rfl
  pre c := iprop(StableHlo.held (c : Thread nD τ) (Pipeline.ucRefs τ sig) (Vin1 m (outsAll m h) c) ∗ Rst c)
  post c := iprop(StableHlo.held (c : Thread nD τ) (Pipeline.ucRefs τ sig) (Vout1 m (outsAll m h) c) ∗ Rst c)
  X c := iprop(∃ r, prngReg c r)
  Y c := iprop((∃ r, prngReg c r) ∗ Pipeline.prefHeld pre1 c (fun _ => fullShare) (tbl1 m))
  Z c := Pipeline.unscopedRestP (Ix := Unit) (Name := ℕ) (U := UR sig nD τ) (Lvl := ℕ) pre1 spec1 c (fun b => Vin1 m (outsAll m h) c b)
  hentry c := by
    rw [Pipeline.ownSems0_none]
    have hsplit0 := Pipeline.arrays_of_unscopedBufs (p := 1) (pcfgs (F := F)) (admAll m h) (pdats m h) winFacts1 arr_whole1 c
      ((pdats m h 1 c).share_full fun _ => rfl) (fun b => Vin1 m (outsAll m h) c b) (hA1 m h c)
    rw [Pipeline.unscopedBufs_held] at hsplit0
    have hsplit : (StableHlo.held (c : Thread nD τ) (Pipeline.ucRefs τ sig) (Vin1 m (outsAll m h) c) : sProp 𝕄)
        ⊢ iprop((pdats m h 1 c).arrays ((pdats m h 1 c).arrAt · 0) ∗ Pipeline.unscopedRest spec1 c (fun b => Vin1 m (outsAll m h) c b)) := hsplit0
    rw [Pipeline.unscopedRest_split preFacts1 c,
      show (fun k => Vin1 m (outsAll m h) c (pre1.ref k)) = tbl1 m from funext fun k => Vin1_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 1 c).Φ 0 = iprop(Pipeline.ΦA spec1 c ∗ Pipeline.prefHeld pre1 c (fun _ => fullShare) (tbl1 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 1 c).Φ (Fin.last _) = iprop(Pipeline.ΦA spec1 c ∗ Pipeline.prefHeld pre1 c (fun _ => fullShare) (tbl1 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 1) (pcfgs (F := F)) (admAll m h) (Ix := Unit) (Name := ℕ) (U := UR sig nD τ) (Lvl := ℕ)
      winFacts1 arr_whole1 c (pdats m h) ((pdats m h 1 c).share_full fun _ => rfl)
      (fun b => Vin1 m (outsAll m h) c b) (fun b => Vout1 m (outsAll m h) c b) ((pdats m h 1 c).arrAt · (Pipeline.pin (pcfgs (F := F)) (admAll m h) 1).N) (hF1 m h c) (hrest1 m h c)
    rw [Pipeline.unscopedBufs_held] at hjoin0
    have hjoin : (iprop((pdats m h 1 c).arrays ((pdats m h 1 c).arrAt · (Pipeline.pin (pcfgs (F := F)) (admAll m h) 1).N) ∗ Pipeline.unscopedRest spec1 c (fun b => Vin1 m (outsAll m h) c b)) : sProp 𝕄)
        ⊢ StableHlo.held (c : Thread nD τ) (Pipeline.ucRefs τ sig) (Vout1 m (outsAll m h) c) := hjoin0
    rw [Pipeline.unscopedRest_split preFacts1 c,
      show (fun k => Vin1 m (outsAll m h) c (pre1.ref k)) = tbl1 m from funext fun k => Vin1_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R2.Link.lean ====
/- Region 2's table satisfies the pipeline's side condition: its words are pooling indices, which the precondition
   bounds by 262144, the last row of the padded feature array. -/
/- Region 2 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 2's table is one of the pooling indices, so at most 262144. -/
theorem tbl2_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl2 m 0 x : BitVec 32).toNat ≤ 262144 := by
  show (StableHlo.after hostOps2 (V0 m (0 : Dev nD)) (Proc.devRef .tc main_v13) x : BitVec 32).toNat ≤ 262144
  after_results
  exact slice_cast_all (fun w : BitVec 32 => w.toNat ≤ 262144) _ _ _ _ (fun k => Cert.PreDecode.toNat_le_of_toInt _ (hb k)) x

/-- The pipeline's side condition at region 2's table: the feature window's block, at the row the table names,
    lies inside the padded feature array (and a transfer of 32-bit elements moves whole words). -/
theorem okT2 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok2 (F := F) (tbl2 m) := by
  intro i
  exact ⟨block_inside _ _ (tbl2_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 2's proof data are what the region finds: the padded feature array and the (not yet
    written) output array hold at its entry what they held after the first host stretch. -/
theorem hA2 (c : Dev nD) (w : Fin 2) : (pdats m h 2 c).A w = Vin2 m (outsAll m h) c (Pipeline.arrRef spec2 w) :=
  match w with
  | ⟨0, _⟩ => (Vin2_v3 m (outsAll m h) c).symm
  | ⟨1, _⟩ => (Vin2_out m (outsAll m h) c).symm

/-- At the exit each array holds what the pipeline leaves. -/
theorem hF2 (c : Dev nD) (w : Fin 2) : (pdats m h 2 c).arrAt w (Pipeline.pin (pcfgs (F := F)) (admAll m h) 2).N = Vout2 m (outsAll m h) c (Pipeline.arrRef spec2 w) :=
  match w with
  | ⟨0, _⟩ => ((pdats m h 2 c).arrAt_in 0 rfl _).trans (Vout2_v3 m (outsAll m h) c).symm
  | ⟨1, _⟩ => ((Vout2_out m (outsAll m h) c).trans (outsAll_2 m h c)).symm

theorem hrest2 (c : Dev nD) : ∀ b, b ∉ Finset.univ.image (Pipeline.arrRef spec2) → Vout2 m (outsAll m h) c b = Vin2 m (outsAll m h) c b :=
  fun b hb => Vout2_of m (outsAll m h) c b (fun hm => hb (by
    rw [List.mem_singleton] at hm; subst hm
    exact Finset.mem_image.mpr ⟨1, Finset.mem_univ _, rfl⟩))

set_option backward.isDefEq.respectTransparency.types false in
def reg2 : Pipeline.RegionSeg (pcfgs (F := F)) (admAll m h) (pdats m h) () defs₀ 𝒱₀ L lv 2 where
  win := winFacts2.to₀
  block_pos := block_pos2
  stage_whole := stage_whole2
  K := PEmpty
  osem k := k.elim
  ho := Pipeline.OwnSemFacts.none _
  hbody c := (Rg2.body_obligation (Vent m) (tbl2 m) h.h2 c).loose
  hwaits := Pipeline.hwaits_of_owed_zero _ _ _ _ L lv 2 fun _ _ => rfl
  pre c := iprop(StableHlo.held (c : Thread nD τ) (Pipeline.ucRefs τ sig) (Vin2 m (outsAll m h) c) ∗ Rst c)
  post c := iprop(StableHlo.held (c : Thread nD τ) (Pipeline.ucRefs τ sig) (Vout2 m (outsAll m h) c) ∗ Rst c)
  X c := iprop(∃ r, prngReg c r)
  Y c := iprop((∃ r, prngReg c r) ∗ Pipeline.prefHeld pre2 c (fun _ => fullShare) (tbl2 m))
  Z c := Pipeline.unscopedRestP (Ix := Unit) (Name := ℕ) (U := UR sig nD τ) (Lvl := ℕ) pre2 spec2 c (fun b => Vin2 m (outsAll m h) c b)
  hentry c := by
    rw [Pipeline.ownSems0_none]
    have hsplit0 := Pipeline.arrays_of_unscopedBufs (p := 2) (pcfgs (F := F)) (admAll m h) (pdats m h) winFacts2 arr_whole2 c
      ((pdats m h 2 c).share_full fun _ => rfl) (fun b => Vin2 m (outsAll m h) c b) (hA2 m h c)
    rw [Pipeline.unscopedBufs_held] at hsplit0
    have hsplit : (StableHlo.held (c : Thread nD τ) (Pipeline.ucRefs τ sig) (Vin2 m (outsAll m h) c) : sProp 𝕄)
        ⊢ iprop((pdats m h 2 c).arrays ((pdats m h 2 c).arrAt · 0) ∗ Pipeline.unscopedRest spec2 c (fun b => Vin2 m (outsAll m h) c b)) := hsplit0
    rw [Pipeline.unscopedRest_split preFacts2 c,
      show (fun k => Vin2 m (outsAll m h) c (pre2.ref k)) = tbl2 m from funext fun k => Vin2_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 2 c).Φ 0 = iprop(Pipeline.ΦA spec2 c ∗ Pipeline.prefHeld pre2 c (fun _ => fullShare) (tbl2 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 2 c).Φ (Fin.last _) = iprop(Pipeline.ΦA spec2 c ∗ Pipeline.prefHeld pre2 c (fun _ => fullShare) (tbl2 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 2) (pcfgs (F := F)) (admAll m h) (Ix := Unit) (Name := ℕ) (U := UR sig nD τ) (Lvl := ℕ)
      winFacts2 arr_whole2 c (pdats m h) ((pdats m h 2 c).share_full fun _ => rfl)
      (fun b => Vin2 m (outsAll m h) c b) (fun b => Vout2 m (outsAll m h) c b) ((pdats m h 2 c).arrAt · (Pipeline.pin (pcfgs (F := F)) (admAll m h) 2).N) (hF2 m h c) (hrest2 m h c)
    rw [Pipeline.unscopedBufs_held] at hjoin0
    have hjoin : (iprop((pdats m h 2 c).arrays ((pdats m h 2 c).arrAt · (Pipeline.pin (pcfgs (F := F)) (admAll m h) 2).N) ∗ Pipeline.unscopedRest spec2 c (fun b => Vin2 m (outsAll m h) c b)) : sProp 𝕄)
        ⊢ StableHlo.held (c : Thread nD τ) (Pipeline.ucRefs τ sig) (Vout2 m (outsAll m h) c) := hjoin0
    rw [Pipeline.unscopedRest_split preFacts2 c,
      show (fun k => Vin2 m (outsAll m h) c (pre2.ref k)) = tbl2 m from funext fun k => Vin2_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R3.Link.lean ====
/- Region 3's table satisfies the pipeline's side condition: its words are pooling indices, which the precondition
   bounds by 262144, the last row of the padded feature array. -/
/- Region 3 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 3's table is one of the pooling indices, so at most 262144. -/
theorem tbl3_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl3 m 0 x : BitVec 32).toNat ≤ 262144 := by
  show (StableHlo.after hostOps3 (V0 m (0 : Dev nD)) (Proc.devRef .tc main_v17) x : BitVec 32).toNat ≤ 262144
  after_results
  exact slice_cast_all (fun w : BitVec 32 => w.toNat ≤ 262144) _ _ _ _ (fun k => Cert.PreDecode.toNat_le_of_toInt _ (hb k)) x

/-- The pipeline's side condition at region 3's table: the feature window's block, at the row the table names,
    lies inside the padded feature array (and a transfer of 32-bit elements moves whole words). -/
theorem okT3 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok3 (F := F) (tbl3 m) := by
  intro i
  exact ⟨block_inside _ _ (tbl3_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 3's proof data are what the region finds: the padded feature array and the (not yet
    written) output array hold at its entry what they held after the first host stretch. -/
theorem hA3 (c : Dev nD) (w : Fin 2) : (pdats m h 3 c).A w = Vin3 m (outsAll m h) c (Pipeline.arrRef spec3 w) :=
  match w with
  | ⟨0, _⟩ => (Vin3_v3 m (outsAll m h) c).symm
  | ⟨1, _⟩ => (Vin3_out m (outsAll m h) c).symm

/-- At the exit each array holds what the pipeline leaves. -/
theorem hF3 (c : Dev nD) (w : Fin 2) : (pdats m h 3 c).arrAt w (Pipeline.pin (pcfgs (F := F)) (admAll m h) 3).N = Vout3 m (outsAll m h) c (Pipeline.arrRef spec3 w) :=
  match w with
  | ⟨0, _⟩ => ((pdats m h 3 c).arrAt_in 0 rfl _).trans (Vout3_v3 m (outsAll m h) c).symm
  | ⟨1, _⟩ => ((Vout3_out m (outsAll m h) c).trans (outsAll_3 m h c)).symm

theorem hrest3 (c : Dev nD) : ∀ b, b ∉ Finset.univ.image (Pipeline.arrRef spec3) → Vout3 m (outsAll m h) c b = Vin3 m (outsAll m h) c b :=
  fun b hb => Vout3_of m (outsAll m h) c b (fun hm => hb (by
    rw [List.mem_singleton] at hm; subst hm
    exact Finset.mem_image.mpr ⟨1, Finset.mem_univ _, rfl⟩))

set_option backward.isDefEq.respectTransparency.types false in
def reg3 : Pipeline.RegionSeg (pcfgs (F := F)) (admAll m h) (pdats m h) () defs₀ 𝒱₀ L lv 3 where
  win := winFacts3.to₀
  block_pos := block_pos3
  stage_whole := stage_whole3
  K := PEmpty
  osem k := k.elim
  ho := Pipeline.OwnSemFacts.none _
  hbody c := (Rg3.body_obligation (Vent m) (tbl3 m) h.h3 c).loose
  hwaits := Pipeline.hwaits_of_owed_zero _ _ _ _ L lv 3 fun _ _ => rfl
  pre c := iprop(StableHlo.held (c : Thread nD τ) (Pipeline.ucRefs τ sig) (Vin3 m (outsAll m h) c) ∗ Rst c)
  post c := iprop(StableHlo.held (c : Thread nD τ) (Pipeline.ucRefs τ sig) (Vout3 m (outsAll m h) c) ∗ Rst c)
  X c := iprop(∃ r, prngReg c r)
  Y c := iprop((∃ r, prngReg c r) ∗ Pipeline.prefHeld pre3 c (fun _ => fullShare) (tbl3 m))
  Z c := Pipeline.unscopedRestP (Ix := Unit) (Name := ℕ) (U := UR sig nD τ) (Lvl := ℕ) pre3 spec3 c (fun b => Vin3 m (outsAll m h) c b)
  hentry c := by
    rw [Pipeline.ownSems0_none]
    have hsplit0 := Pipeline.arrays_of_unscopedBufs (p := 3) (pcfgs (F := F)) (admAll m h) (pdats m h) winFacts3 arr_whole3 c
      ((pdats m h 3 c).share_full fun _ => rfl) (fun b => Vin3 m (outsAll m h) c b) (hA3 m h c)
    rw [Pipeline.unscopedBufs_held] at hsplit0
    have hsplit : (StableHlo.held (c : Thread nD τ) (Pipeline.ucRefs τ sig) (Vin3 m (outsAll m h) c) : sProp 𝕄)
        ⊢ iprop((pdats m h 3 c).arrays ((pdats m h 3 c).arrAt · 0) ∗ Pipeline.unscopedRest spec3 c (fun b => Vin3 m (outsAll m h) c b)) := hsplit0
    rw [Pipeline.unscopedRest_split preFacts3 c,
      show (fun k => Vin3 m (outsAll m h) c (pre3.ref k)) = tbl3 m from funext fun k => Vin3_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 3 c).Φ 0 = iprop(Pipeline.ΦA spec3 c ∗ Pipeline.prefHeld pre3 c (fun _ => fullShare) (tbl3 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 3 c).Φ (Fin.last _) = iprop(Pipeline.ΦA spec3 c ∗ Pipeline.prefHeld pre3 c (fun _ => fullShare) (tbl3 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 3) (pcfgs (F := F)) (admAll m h) (Ix := Unit) (Name := ℕ) (U := UR sig nD τ) (Lvl := ℕ)
      winFacts3 arr_whole3 c (pdats m h) ((pdats m h 3 c).share_full fun _ => rfl)
      (fun b => Vin3 m (outsAll m h) c b) (fun b => Vout3 m (outsAll m h) c b) ((pdats m h 3 c).arrAt · (Pipeline.pin (pcfgs (F := F)) (admAll m h) 3).N) (hF3 m h c) (hrest3 m h c)
    rw [Pipeline.unscopedBufs_held] at hjoin0
    have hjoin : (iprop((pdats m h 3 c).arrays ((pdats m h 3 c).arrAt · (Pipeline.pin (pcfgs (F := F)) (admAll m h) 3).N) ∗ Pipeline.unscopedRest spec3 c (fun b => Vin3 m (outsAll m h) c b)) : sProp 𝕄)
        ⊢ StableHlo.held (c : Thread nD τ) (Pipeline.ucRefs τ sig) (Vout3 m (outsAll m h) c) := hjoin0
    rw [Pipeline.unscopedRest_split preFacts3 c,
      show (fun k => Vin3 m (outsAll m h) c (pre3.ref k)) = tbl3 m from funext fun k => Vin3_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R4.Link.lean ====
/- Region 4's table satisfies the pipeline's side condition: its words are pooling indices, which the precondition
   bounds by 262144, the last row of the padded feature array. -/
/- Region 4 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 4's table is one of the pooling indices, so at most 262144. -/
theorem tbl4_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl4 m 0 x : BitVec 32).toNat ≤ 262144 := by
  show (StableHlo.after hostOps4 (V0 m (0 : Dev nD)) (Proc.devRef .tc main_v21) x : BitVec 32).toNat ≤ 262144
  after_results
  exact slice_cast_all (fun w : BitVec 32 => w.toNat ≤ 262144) _ _ _ _ (fun k => Cert.PreDecode.toNat_le_of_toInt _ (hb k)) x

/-- The pipeline's side condition at region 4's table: the feature window's block, at the row the table names,
    lies inside the padded feature array (and a transfer of 32-bit elements moves whole words). -/
theorem okT4 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok4 (F := F) (tbl4 m) := by
  intro i
  exact ⟨block_inside _ _ (tbl4_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 4's proof data are what the region finds: the padded feature array and the (not yet
    written) output array hold at its entry what they held after the first host stretch. -/
theorem hA4 (c : Dev nD) (w : Fin 2) : (pdats m h 4 c).A w = Vin4 m (outsAll m h) c (Pipeline.arrRef spec4 w) :=
  match w with
  | ⟨0, _⟩ => (Vin4_v3 m (outsAll m h) c).symm
  | ⟨1, _⟩ => (Vin4_out m (outsAll m h) c).symm

/-- At the exit each array holds what the pipeline leaves. -/
theorem hF4 (c : Dev nD) (w : Fin 2) : (pdats m h 4 c).arrAt w (Pipeline.pin (pcfgs (F := F)) (admAll m h) 4).N = Vout4 m (outsAll m h) c (Pipeline.arrRef spec4 w) :=
  match w with
  | ⟨0, _⟩ => ((pdats m h 4 c).arrAt_in 0 rfl _).trans (Vout4_v3 m (outsAll m h) c).symm
  | ⟨1, _⟩ => ((Vout4_out m (outsAll m h) c).trans (outsAll_4 m h c)).symm

theorem hrest4 (c : Dev nD) : ∀ b, b ∉ Finset.univ.image (Pipeline.arrRef spec4) → Vout4 m (outsAll m h) c b = Vin4 m (outsAll m h) c b :=
  fun b hb => Vout4_of m (outsAll m h) c b (fun hm => hb (by
    rw [List.mem_singleton] at hm; subst hm
    exact Finset.mem_image.mpr ⟨1, Finset.mem_univ _, rfl⟩))

set_option backward.isDefEq.respectTransparency.types false in
def reg4 : Pipeline.RegionSeg (pcfgs (F := F)) (admAll m h) (pdats m h) () defs₀ 𝒱₀ L lv 4 where
  win := winFacts4.to₀
  block_pos := block_pos4
  stage_whole := stage_whole4
  K := PEmpty
  osem k := k.elim
  ho := Pipeline.OwnSemFacts.none _
  hbody c := (Rg4.body_obligation (Vent m) (tbl4 m) h.h4 c).loose
  hwaits := Pipeline.hwaits_of_owed_zero _ _ _ _ L lv 4 fun _ _ => rfl
  pre c := iprop(StableHlo.held (c : Thread nD τ) (Pipeline.ucRefs τ sig) (Vin4 m (outsAll m h) c) ∗ Rst c)
  post c := iprop(StableHlo.held (c : Thread nD τ) (Pipeline.ucRefs τ sig) (Vout4 m (outsAll m h) c) ∗ Rst c)
  X c := iprop(∃ r, prngReg c r)
  Y c := iprop((∃ r, prngReg c r) ∗ Pipeline.prefHeld pre4 c (fun _ => fullShare) (tbl4 m))
  Z c := Pipeline.unscopedRestP (Ix := Unit) (Name := ℕ) (U := UR sig nD τ) (Lvl := ℕ) pre4 spec4 c (fun b => Vin4 m (outsAll m h) c b)
  hentry c := by
    rw [Pipeline.ownSems0_none]
    have hsplit0 := Pipeline.arrays_of_unscopedBufs (p := 4) (pcfgs (F := F)) (admAll m h) (pdats m h) winFacts4 arr_whole4 c
      ((pdats m h 4 c).share_full fun _ => rfl) (fun b => Vin4 m (outsAll m h) c b) (hA4 m h c)
    rw [Pipeline.unscopedBufs_held] at hsplit0
    have hsplit : (StableHlo.held (c : Thread nD τ) (Pipeline.ucRefs τ sig) (Vin4 m (outsAll m h) c) : sProp 𝕄)
        ⊢ iprop((pdats m h 4 c).arrays ((pdats m h 4 c).arrAt · 0) ∗ Pipeline.unscopedRest spec4 c (fun b => Vin4 m (outsAll m h) c b)) := hsplit0
    rw [Pipeline.unscopedRest_split preFacts4 c,
      show (fun k => Vin4 m (outsAll m h) c (pre4.ref k)) = tbl4 m from funext fun k => Vin4_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 4 c).Φ 0 = iprop(Pipeline.ΦA spec4 c ∗ Pipeline.prefHeld pre4 c (fun _ => fullShare) (tbl4 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 4 c).Φ (Fin.last _) = iprop(Pipeline.ΦA spec4 c ∗ Pipeline.prefHeld pre4 c (fun _ => fullShare) (tbl4 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 4) (pcfgs (F := F)) (admAll m h) (Ix := Unit) (Name := ℕ) (U := UR sig nD τ) (Lvl := ℕ)
      winFacts4 arr_whole4 c (pdats m h) ((pdats m h 4 c).share_full fun _ => rfl)
      (fun b => Vin4 m (outsAll m h) c b) (fun b => Vout4 m (outsAll m h) c b) ((pdats m h 4 c).arrAt · (Pipeline.pin (pcfgs (F := F)) (admAll m h) 4).N) (hF4 m h c) (hrest4 m h c)
    rw [Pipeline.unscopedBufs_held] at hjoin0
    have hjoin : (iprop((pdats m h 4 c).arrays ((pdats m h 4 c).arrAt · (Pipeline.pin (pcfgs (F := F)) (admAll m h) 4).N) ∗ Pipeline.unscopedRest spec4 c (fun b => Vin4 m (outsAll m h) c b)) : sProp 𝕄)
        ⊢ StableHlo.held (c : Thread nD τ) (Pipeline.ucRefs τ sig) (Vout4 m (outsAll m h) c) := hjoin0
    rw [Pipeline.unscopedRest_split preFacts4 c,
      show (fun k => Vin4 m (outsAll m h) c (pre4.ref k)) = tbl4 m from funext fun k => Vin4_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R5.Link.lean ====
/- Region 5's table satisfies the pipeline's side condition: its words are pooling indices, which the precondition
   bounds by 262144, the last row of the padded feature array. -/
/- Region 5 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 5's table is one of the pooling indices, so at most 262144. -/
theorem tbl5_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl5 m 0 x : BitVec 32).toNat ≤ 262144 := by
  show (StableHlo.after hostOps5 (V0 m (0 : Dev nD)) (Proc.devRef .tc main_v25) x : BitVec 32).toNat ≤ 262144
  after_results
  exact slice_cast_all (fun w : BitVec 32 => w.toNat ≤ 262144) _ _ _ _ (fun k => Cert.PreDecode.toNat_le_of_toInt _ (hb k)) x

/-- The pipeline's side condition at region 5's table: the feature window's block, at the row the table names,
    lies inside the padded feature array (and a transfer of 32-bit elements moves whole words). -/
theorem okT5 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok5 (F := F) (tbl5 m) := by
  intro i
  exact ⟨block_inside _ _ (tbl5_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 5's proof data are what the region finds: the padded feature array and the (not yet
    written) output array hold at its entry what they held after the first host stretch. -/
theorem hA5 (c : Dev nD) (w : Fin 2) : (pdats m h 5 c).A w = Vin5 m (outsAll m h) c (Pipeline.arrRef spec5 w) :=
  match w with
  | ⟨0, _⟩ => (Vin5_v3 m (outsAll m h) c).symm
  | ⟨1, _⟩ => (Vin5_out m (outsAll m h) c).symm

/-- At the exit each array holds what the pipeline leaves. -/
theorem hF5 (c : Dev nD) (w : Fin 2) : (pdats m h 5 c).arrAt w (Pipeline.pin (pcfgs (F := F)) (admAll m h) 5).N = Vout5 m (outsAll m h) c (Pipeline.arrRef spec5 w) :=
  match w with
  | ⟨0, _⟩ => ((pdats m h 5 c).arrAt_in 0 rfl _).trans (Vout5_v3 m (outsAll m h) c).symm
  | ⟨1, _⟩ => ((Vout5_out m (outsAll m h) c).trans (outsAll_5 m h c)).symm

theorem hrest5 (c : Dev nD) : ∀ b, b ∉ Finset.univ.image (Pipeline.arrRef spec5) → Vout5 m (outsAll m h) c b = Vin5 m (outsAll m h) c b :=
  fun b hb => Vout5_of m (outsAll m h) c b (fun hm => hb (by
    rw [List.mem_singleton] at hm; subst hm
    exact Finset.mem_image.mpr ⟨1, Finset.mem_univ _, rfl⟩))

set_option backward.isDefEq.respectTransparency.types false in
def reg5 : Pipeline.RegionSeg (pcfgs (F := F)) (admAll m h) (pdats m h) () defs₀ 𝒱₀ L lv 5 where
  win := winFacts5.to₀
  block_pos := block_pos5
  stage_whole := stage_whole5
  K := PEmpty
  osem k := k.elim
  ho := Pipeline.OwnSemFacts.none _
  hbody c := (Rg5.body_obligation (Vent m) (tbl5 m) h.h5 c).loose
  hwaits := Pipeline.hwaits_of_owed_zero _ _ _ _ L lv 5 fun _ _ => rfl
  pre c := iprop(StableHlo.held (c : Thread nD τ) (Pipeline.ucRefs τ sig) (Vin5 m (outsAll m h) c) ∗ Rst c)
  post c := iprop(StableHlo.held (c : Thread nD τ) (Pipeline.ucRefs τ sig) (Vout5 m (outsAll m h) c) ∗ Rst c)
  X c := iprop(∃ r, prngReg c r)
  Y c := iprop((∃ r, prngReg c r) ∗ Pipeline.prefHeld pre5 c (fun _ => fullShare) (tbl5 m))
  Z c := Pipeline.unscopedRestP (Ix := Unit) (Name := ℕ) (U := UR sig nD τ) (Lvl := ℕ) pre5 spec5 c (fun b => Vin5 m (outsAll m h) c b)
  hentry c := by
    rw [Pipeline.ownSems0_none]
    have hsplit0 := Pipeline.arrays_of_unscopedBufs (p := 5) (pcfgs (F := F)) (admAll m h) (pdats m h) winFacts5 arr_whole5 c
      ((pdats m h 5 c).share_full fun _ => rfl) (fun b => Vin5 m (outsAll m h) c b) (hA5 m h c)
    rw [Pipeline.unscopedBufs_held] at hsplit0
    have hsplit : (StableHlo.held (c : Thread nD τ) (Pipeline.ucRefs τ sig) (Vin5 m (outsAll m h) c) : sProp 𝕄)
        ⊢ iprop((pdats m h 5 c).arrays ((pdats m h 5 c).arrAt · 0) ∗ Pipeline.unscopedRest spec5 c (fun b => Vin5 m (outsAll m h) c b)) := hsplit0
    rw [Pipeline.unscopedRest_split preFacts5 c,
      show (fun k => Vin5 m (outsAll m h) c (pre5.ref k)) = tbl5 m from funext fun k => Vin5_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 5 c).Φ 0 = iprop(Pipeline.ΦA spec5 c ∗ Pipeline.prefHeld pre5 c (fun _ => fullShare) (tbl5 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 5 c).Φ (Fin.last _) = iprop(Pipeline.ΦA spec5 c ∗ Pipeline.prefHeld pre5 c (fun _ => fullShare) (tbl5 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 5) (pcfgs (F := F)) (admAll m h) (Ix := Unit) (Name := ℕ) (U := UR sig nD τ) (Lvl := ℕ)
      winFacts5 arr_whole5 c (pdats m h) ((pdats m h 5 c).share_full fun _ => rfl)
      (fun b => Vin5 m (outsAll m h) c b) (fun b => Vout5 m (outsAll m h) c b) ((pdats m h 5 c).arrAt · (Pipeline.pin (pcfgs (F := F)) (admAll m h) 5).N) (hF5 m h c) (hrest5 m h c)
    rw [Pipeline.unscopedBufs_held] at hjoin0
    have hjoin : (iprop((pdats m h 5 c).arrays ((pdats m h 5 c).arrAt · (Pipeline.pin (pcfgs (F := F)) (admAll m h) 5).N) ∗ Pipeline.unscopedRest spec5 c (fun b => Vin5 m (outsAll m h) c b)) : sProp 𝕄)
        ⊢ StableHlo.held (c : Thread nD τ) (Pipeline.ucRefs τ sig) (Vout5 m (outsAll m h) c) := hjoin0
    rw [Pipeline.unscopedRest_split preFacts5 c,
      show (fun k => Vin5 m (outsAll m h) c (pre5.ref k)) = tbl5 m from funext fun k => Vin5_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R6.Link.lean ====
/- Region 6's table satisfies the pipeline's side condition: its words are pooling indices, which the precondition
   bounds by 262144, the last row of the padded feature array. -/
/- Region 6 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 6's table is one of the pooling indices, so at most 262144. -/
theorem tbl6_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl6 m 0 x : BitVec 32).toNat ≤ 262144 := by
  show (StableHlo.after hostOps6 (V0 m (0 : Dev nD)) (Proc.devRef .tc main_v29) x : BitVec 32).toNat ≤ 262144
  after_results
  exact slice_cast_all (fun w : BitVec 32 => w.toNat ≤ 262144) _ _ _ _ (fun k => Cert.PreDecode.toNat_le_of_toInt _ (hb k)) x

/-- The pipeline's side condition at region 6's table: the feature window's block, at the row the table names,
    lies inside the padded feature array (and a transfer of 32-bit elements moves whole words). -/
theorem okT6 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok6 (F := F) (tbl6 m) := by
  intro i
  exact ⟨block_inside _ _ (tbl6_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 6's proof data are what the region finds: the padded feature array and the (not yet
    written) output array hold at its entry what they held after the first host stretch. -/
theorem hA6 (c : Dev nD) (w : Fin 2) : (pdats m h 6 c).A w = Vin6 m (outsAll m h) c (Pipeline.arrRef spec6 w) :=
  match w with
  | ⟨0, _⟩ => (Vin6_v3 m (outsAll m h) c).symm
  | ⟨1, _⟩ => (Vin6_out m (outsAll m h) c).symm

/-- At the exit each array holds what the pipeline leaves. -/
theorem hF6 (c : Dev nD) (w : Fin 2) : (pdats m h 6 c).arrAt w (Pipeline.pin (pcfgs (F := F)) (admAll m h) 6).N = Vout6 m (outsAll m h) c (Pipeline.arrRef spec6 w) :=
  match w with
  | ⟨0, _⟩ => ((pdats m h 6 c).arrAt_in 0 rfl _).trans (Vout6_v3 m (outsAll m h) c).symm
  | ⟨1, _⟩ => ((Vout6_out m (outsAll m h) c).trans (outsAll_6 m h c)).symm

theorem hrest6 (c : Dev nD) : ∀ b, b ∉ Finset.univ.image (Pipeline.arrRef spec6) → Vout6 m (outsAll m h) c b = Vin6 m (outsAll m h) c b :=
  fun b hb => Vout6_of m (outsAll m h) c b (fun hm => hb (by
    rw [List.mem_singleton] at hm; subst hm
    exact Finset.mem_image.mpr ⟨1, Finset.mem_univ _, rfl⟩))

set_option backward.isDefEq.respectTransparency.types false in
def reg6 : Pipeline.RegionSeg (pcfgs (F := F)) (admAll m h) (pdats m h) () defs₀ 𝒱₀ L lv 6 where
  win := winFacts6.to₀
  block_pos := block_pos6
  stage_whole := stage_whole6
  K := PEmpty
  osem k := k.elim
  ho := Pipeline.OwnSemFacts.none _
  hbody c := (Rg6.body_obligation (Vent m) (tbl6 m) h.h6 c).loose
  hwaits := Pipeline.hwaits_of_owed_zero _ _ _ _ L lv 6 fun _ _ => rfl
  pre c := iprop(StableHlo.held (c : Thread nD τ) (Pipeline.ucRefs τ sig) (Vin6 m (outsAll m h) c) ∗ Rst c)
  post c := iprop(StableHlo.held (c : Thread nD τ) (Pipeline.ucRefs τ sig) (Vout6 m (outsAll m h) c) ∗ Rst c)
  X c := iprop(∃ r, prngReg c r)
  Y c := iprop((∃ r, prngReg c r) ∗ Pipeline.prefHeld pre6 c (fun _ => fullShare) (tbl6 m))
  Z c := Pipeline.unscopedRestP (Ix := Unit) (Name := ℕ) (U := UR sig nD τ) (Lvl := ℕ) pre6 spec6 c (fun b => Vin6 m (outsAll m h) c b)
  hentry c := by
    rw [Pipeline.ownSems0_none]
    have hsplit0 := Pipeline.arrays_of_unscopedBufs (p := 6) (pcfgs (F := F)) (admAll m h) (pdats m h) winFacts6 arr_whole6 c
      ((pdats m h 6 c).share_full fun _ => rfl) (fun b => Vin6 m (outsAll m h) c b) (hA6 m h c)
    rw [Pipeline.unscopedBufs_held] at hsplit0
    have hsplit : (StableHlo.held (c : Thread nD τ) (Pipeline.ucRefs τ sig) (Vin6 m (outsAll m h) c) : sProp 𝕄)
        ⊢ iprop((pdats m h 6 c).arrays ((pdats m h 6 c).arrAt · 0) ∗ Pipeline.unscopedRest spec6 c (fun b => Vin6 m (outsAll m h) c b)) := hsplit0
    rw [Pipeline.unscopedRest_split preFacts6 c,
      show (fun k => Vin6 m (outsAll m h) c (pre6.ref k)) = tbl6 m from funext fun k => Vin6_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 6 c).Φ 0 = iprop(Pipeline.ΦA spec6 c ∗ Pipeline.prefHeld pre6 c (fun _ => fullShare) (tbl6 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 6 c).Φ (Fin.last _) = iprop(Pipeline.ΦA spec6 c ∗ Pipeline.prefHeld pre6 c (fun _ => fullShare) (tbl6 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 6) (pcfgs (F := F)) (admAll m h) (Ix := Unit) (Name := ℕ) (U := UR sig nD τ) (Lvl := ℕ)
      winFacts6 arr_whole6 c (pdats m h) ((pdats m h 6 c).share_full fun _ => rfl)
      (fun b => Vin6 m (outsAll m h) c b) (fun b => Vout6 m (outsAll m h) c b) ((pdats m h 6 c).arrAt · (Pipeline.pin (pcfgs (F := F)) (admAll m h) 6).N) (hF6 m h c) (hrest6 m h c)
    rw [Pipeline.unscopedBufs_held] at hjoin0
    have hjoin : (iprop((pdats m h 6 c).arrays ((pdats m h 6 c).arrAt · (Pipeline.pin (pcfgs (F := F)) (admAll m h) 6).N) ∗ Pipeline.unscopedRest spec6 c (fun b => Vin6 m (outsAll m h) c b)) : sProp 𝕄)
        ⊢ StableHlo.held (c : Thread nD τ) (Pipeline.ucRefs τ sig) (Vout6 m (outsAll m h) c) := hjoin0
    rw [Pipeline.unscopedRest_split preFacts6 c,
      show (fun k => Vin6 m (outsAll m h) c (pre6.ref k)) = tbl6 m from funext fun k => Vin6_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R7.Link.lean ====
/- Region 7's table satisfies the pipeline's side condition: its words are pooling indices, which the precondition
   bounds by 262144, the last row of the padded feature array. -/
/- Region 7 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 7's table is one of the pooling indices, so at most 262144. -/
theorem tbl7_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl7 m 0 x : BitVec 32).toNat ≤ 262144 := by
  show (StableHlo.after hostOps7 (V0 m (0 : Dev nD)) (Proc.devRef .tc main_v33) x : BitVec 32).toNat ≤ 262144
  after_results
  exact slice_cast_all (fun w : BitVec 32 => w.toNat ≤ 262144) _ _ _ _ (fun k => Cert.PreDecode.toNat_le_of_toInt _ (hb k)) x

/-- The pipeline's side condition at region 7's table: the feature window's block, at the row the table names,
    lies inside the padded feature array (and a transfer of 32-bit elements moves whole words). -/
theorem okT7 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok7 (F := F) (tbl7 m) := by
  intro i
  exact ⟨block_inside _ _ (tbl7_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 7's proof data are what the region finds: the padded feature array and the (not yet
    written) output array hold at its entry what they held after the first host stretch. -/
theorem hA7 (c : Dev nD) (w : Fin 2) : (pdats m h 7 c).A w = Vin7 m (outsAll m h) c (Pipeline.arrRef spec7 w) :=
  match w with
  | ⟨0, _⟩ => (Vin7_v3 m (outsAll m h) c).symm
  | ⟨1, _⟩ => (Vin7_out m (outsAll m h) c).symm

/-- At the exit each array holds what the pipeline leaves. -/
theorem hF7 (c : Dev nD) (w : Fin 2) : (pdats m h 7 c).arrAt w (Pipeline.pin (pcfgs (F := F)) (admAll m h) 7).N = Vout7 m (outsAll m h) c (Pipeline.arrRef spec7 w) :=
  match w with
  | ⟨0, _⟩ => ((pdats m h 7 c).arrAt_in 0 rfl _).trans (Vout7_v3 m (outsAll m h) c).symm
  | ⟨1, _⟩ => ((Vout7_out m (outsAll m h) c).trans (outsAll_7 m h c)).symm

theorem hrest7 (c : Dev nD) : ∀ b, b ∉ Finset.univ.image (Pipeline.arrRef spec7) → Vout7 m (outsAll m h) c b = Vin7 m (outsAll m h) c b :=
  fun b hb => Vout7_of m (outsAll m h) c b (fun hm => hb (by
    rw [List.mem_singleton] at hm; subst hm
    exact Finset.mem_image.mpr ⟨1, Finset.mem_univ _, rfl⟩))

set_option backward.isDefEq.respectTransparency.types false in
def reg7 : Pipeline.RegionSeg (pcfgs (F := F)) (admAll m h) (pdats m h) () defs₀ 𝒱₀ L lv 7 where
  win := winFacts7.to₀
  block_pos := block_pos7
  stage_whole := stage_whole7
  K := PEmpty
  osem k := k.elim
  ho := Pipeline.OwnSemFacts.none _
  hbody c := (Rg7.body_obligation (Vent m) (tbl7 m) h.h7 c).loose
  hwaits := Pipeline.hwaits_of_owed_zero _ _ _ _ L lv 7 fun _ _ => rfl
  pre c := iprop(StableHlo.held (c : Thread nD τ) (Pipeline.ucRefs τ sig) (Vin7 m (outsAll m h) c) ∗ Rst c)
  post c := iprop(StableHlo.held (c : Thread nD τ) (Pipeline.ucRefs τ sig) (Vout7 m (outsAll m h) c) ∗ Rst c)
  X c := iprop(∃ r, prngReg c r)
  Y c := iprop((∃ r, prngReg c r) ∗ Pipeline.prefHeld pre7 c (fun _ => fullShare) (tbl7 m))
  Z c := Pipeline.unscopedRestP (Ix := Unit) (Name := ℕ) (U := UR sig nD τ) (Lvl := ℕ) pre7 spec7 c (fun b => Vin7 m (outsAll m h) c b)
  hentry c := by
    rw [Pipeline.ownSems0_none]
    have hsplit0 := Pipeline.arrays_of_unscopedBufs (p := 7) (pcfgs (F := F)) (admAll m h) (pdats m h) winFacts7 arr_whole7 c
      ((pdats m h 7 c).share_full fun _ => rfl) (fun b => Vin7 m (outsAll m h) c b) (hA7 m h c)
    rw [Pipeline.unscopedBufs_held] at hsplit0
    have hsplit : (StableHlo.held (c : Thread nD τ) (Pipeline.ucRefs τ sig) (Vin7 m (outsAll m h) c) : sProp 𝕄)
        ⊢ iprop((pdats m h 7 c).arrays ((pdats m h 7 c).arrAt · 0) ∗ Pipeline.unscopedRest spec7 c (fun b => Vin7 m (outsAll m h) c b)) := hsplit0
    rw [Pipeline.unscopedRest_split preFacts7 c,
      show (fun k => Vin7 m (outsAll m h) c (pre7.ref k)) = tbl7 m from funext fun k => Vin7_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 7 c).Φ 0 = iprop(Pipeline.ΦA spec7 c ∗ Pipeline.prefHeld pre7 c (fun _ => fullShare) (tbl7 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 7 c).Φ (Fin.last _) = iprop(Pipeline.ΦA spec7 c ∗ Pipeline.prefHeld pre7 c (fun _ => fullShare) (tbl7 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 7) (pcfgs (F := F)) (admAll m h) (Ix := Unit) (Name := ℕ) (U := UR sig nD τ) (Lvl := ℕ)
      winFacts7 arr_whole7 c (pdats m h) ((pdats m h 7 c).share_full fun _ => rfl)
      (fun b => Vin7 m (outsAll m h) c b) (fun b => Vout7 m (outsAll m h) c b) ((pdats m h 7 c).arrAt · (Pipeline.pin (pcfgs (F := F)) (admAll m h) 7).N) (hF7 m h c) (hrest7 m h c)
    rw [Pipeline.unscopedBufs_held] at hjoin0
    have hjoin : (iprop((pdats m h 7 c).arrays ((pdats m h 7 c).arrAt · (Pipeline.pin (pcfgs (F := F)) (admAll m h) 7).N) ∗ Pipeline.unscopedRest spec7 c (fun b => Vin7 m (outsAll m h) c b)) : sProp 𝕄)
        ⊢ StableHlo.held (c : Thread nD τ) (Pipeline.ucRefs τ sig) (Vout7 m (outsAll m h) c) := hjoin0
    rw [Pipeline.unscopedRest_split preFacts7 c,
      show (fun k => Vin7 m (outsAll m h) c (pre7.ref k)) = tbl7 m from funext fun k => Vin7_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R8.Link.lean ====
/- Region 8's table satisfies the pipeline's side condition: its words are pooling indices, which the precondition
   bounds by 262144, the last row of the padded feature array. -/
/- Region 8 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 8's table is one of the pooling indices, so at most 262144. -/
theorem tbl8_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl8 m 0 x : BitVec 32).toNat ≤ 262144 := by
  show (StableHlo.after hostOps8 (V0 m (0 : Dev nD)) (Proc.devRef .tc main_v37) x : BitVec 32).toNat ≤ 262144
  after_results
  exact slice_cast_all (fun w : BitVec 32 => w.toNat ≤ 262144) _ _ _ _ (fun k => Cert.PreDecode.toNat_le_of_toInt _ (hb k)) x

/-- The pipeline's side condition at region 8's table: the feature window's block, at the row the table names,
    lies inside the padded feature array (and a transfer of 32-bit elements moves whole words). -/
theorem okT8 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok8 (F := F) (tbl8 m) := by
  intro i
  exact ⟨block_inside _ _ (tbl8_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 8's proof data are what the region finds: the padded feature array and the (not yet
    written) output array hold at its entry what they held after the first host stretch. -/
theorem hA8 (c : Dev nD) (w : Fin 2) : (pdats m h 8 c).A w = Vin8 m (outsAll m h) c (Pipeline.arrRef spec8 w) :=
  match w with
  | ⟨0, _⟩ => (Vin8_v3 m (outsAll m h) c).symm
  | ⟨1, _⟩ => (Vin8_out m (outsAll m h) c).symm

/-- At the exit each array holds what the pipeline leaves. -/
theorem hF8 (c : Dev nD) (w : Fin 2) : (pdats m h 8 c).arrAt w (Pipeline.pin (pcfgs (F := F)) (admAll m h) 8).N = Vout8 m (outsAll m h) c (Pipeline.arrRef spec8 w) :=
  match w with
  | ⟨0, _⟩ => ((pdats m h 8 c).arrAt_in 0 rfl _).trans (Vout8_v3 m (outsAll m h) c).symm
  | ⟨1, _⟩ => ((Vout8_out m (outsAll m h) c).trans (outsAll_8 m h c)).symm

theorem hrest8 (c : Dev nD) : ∀ b, b ∉ Finset.univ.image (Pipeline.arrRef spec8) → Vout8 m (outsAll m h) c b = Vin8 m (outsAll m h) c b :=
  fun b hb => Vout8_of m (outsAll m h) c b (fun hm => hb (by
    rw [List.mem_singleton] at hm; subst hm
    exact Finset.mem_image.mpr ⟨1, Finset.mem_univ _, rfl⟩))

set_option backward.isDefEq.respectTransparency.types false in
def reg8 : Pipeline.RegionSeg (pcfgs (F := F)) (admAll m h) (pdats m h) () defs₀ 𝒱₀ L lv 8 where
  win := winFacts8.to₀
  block_pos := block_pos8
  stage_whole := stage_whole8
  K := PEmpty
  osem k := k.elim
  ho := Pipeline.OwnSemFacts.none _
  hbody c := (Rg8.body_obligation (Vent m) (tbl8 m) h.h8 c).loose
  hwaits := Pipeline.hwaits_of_owed_zero _ _ _ _ L lv 8 fun _ _ => rfl
  pre c := iprop(StableHlo.held (c : Thread nD τ) (Pipeline.ucRefs τ sig) (Vin8 m (outsAll m h) c) ∗ Rst c)
  post c := iprop(StableHlo.held (c : Thread nD τ) (Pipeline.ucRefs τ sig) (Vout8 m (outsAll m h) c) ∗ Rst c)
  X c := iprop(∃ r, prngReg c r)
  Y c := iprop((∃ r, prngReg c r) ∗ Pipeline.prefHeld pre8 c (fun _ => fullShare) (tbl8 m))
  Z c := Pipeline.unscopedRestP (Ix := Unit) (Name := ℕ) (U := UR sig nD τ) (Lvl := ℕ) pre8 spec8 c (fun b => Vin8 m (outsAll m h) c b)
  hentry c := by
    rw [Pipeline.ownSems0_none]
    have hsplit0 := Pipeline.arrays_of_unscopedBufs (p := 8) (pcfgs (F := F)) (admAll m h) (pdats m h) winFacts8 arr_whole8 c
      ((pdats m h 8 c).share_full fun _ => rfl) (fun b => Vin8 m (outsAll m h) c b) (hA8 m h c)
    rw [Pipeline.unscopedBufs_held] at hsplit0
    have hsplit : (StableHlo.held (c : Thread nD τ) (Pipeline.ucRefs τ sig) (Vin8 m (outsAll m h) c) : sProp 𝕄)
        ⊢ iprop((pdats m h 8 c).arrays ((pdats m h 8 c).arrAt · 0) ∗ Pipeline.unscopedRest spec8 c (fun b => Vin8 m (outsAll m h) c b)) := hsplit0
    rw [Pipeline.unscopedRest_split preFacts8 c,
      show (fun k => Vin8 m (outsAll m h) c (pre8.ref k)) = tbl8 m from funext fun k => Vin8_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 8 c).Φ 0 = iprop(Pipeline.ΦA spec8 c ∗ Pipeline.prefHeld pre8 c (fun _ => fullShare) (tbl8 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 8 c).Φ (Fin.last _) = iprop(Pipeline.ΦA spec8 c ∗ Pipeline.prefHeld pre8 c (fun _ => fullShare) (tbl8 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 8) (pcfgs (F := F)) (admAll m h) (Ix := Unit) (Name := ℕ) (U := UR sig nD τ) (Lvl := ℕ)
      winFacts8 arr_whole8 c (pdats m h) ((pdats m h 8 c).share_full fun _ => rfl)
      (fun b => Vin8 m (outsAll m h) c b) (fun b => Vout8 m (outsAll m h) c b) ((pdats m h 8 c).arrAt · (Pipeline.pin (pcfgs (F := F)) (admAll m h) 8).N) (hF8 m h c) (hrest8 m h c)
    rw [Pipeline.unscopedBufs_held] at hjoin0
    have hjoin : (iprop((pdats m h 8 c).arrays ((pdats m h 8 c).arrAt · (Pipeline.pin (pcfgs (F := F)) (admAll m h) 8).N) ∗ Pipeline.unscopedRest spec8 c (fun b => Vin8 m (outsAll m h) c b)) : sProp 𝕄)
        ⊢ StableHlo.held (c : Thread nD τ) (Pipeline.ucRefs τ sig) (Vout8 m (outsAll m h) c) := hjoin0
    rw [Pipeline.unscopedRest_split preFacts8 c,
      show (fun k => Vin8 m (outsAll m h) c (pre8.ref k)) = tbl8 m from funext fun k => Vin8_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R9.Link.lean ====
/- Region 9's table satisfies the pipeline's side condition: its words are pooling indices, which the precondition
   bounds by 262144, the last row of the padded feature array. -/
/- Region 9 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 9's table is one of the pooling indices, so at most 262144. -/
theorem tbl9_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl9 m 0 x : BitVec 32).toNat ≤ 262144 := by
  show (StableHlo.after hostOps9 (V0 m (0 : Dev nD)) (Proc.devRef .tc main_v41) x : BitVec 32).toNat ≤ 262144
  after_results
  exact slice_cast_all (fun w : BitVec 32 => w.toNat ≤ 262144) _ _ _ _ (fun k => Cert.PreDecode.toNat_le_of_toInt _ (hb k)) x

/-- The pipeline's side condition at region 9's table: the feature window's block, at the row the table names,
    lies inside the padded feature array (and a transfer of 32-bit elements moves whole words). -/
theorem okT9 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok9 (F := F) (tbl9 m) := by
  intro i
  exact ⟨block_inside _ _ (tbl9_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 9's proof data are what the region finds: the padded feature array and the (not yet
    written) output array hold at its entry what they held after the first host stretch. -/
theorem hA9 (c : Dev nD) (w : Fin 2) : (pdats m h 9 c).A w = Vin9 m (outsAll m h) c (Pipeline.arrRef spec9 w) :=
  match w with
  | ⟨0, _⟩ => (Vin9_v3 m (outsAll m h) c).symm
  | ⟨1, _⟩ => (Vin9_out m (outsAll m h) c).symm

/-- At the exit each array holds what the pipeline leaves. -/
theorem hF9 (c : Dev nD) (w : Fin 2) : (pdats m h 9 c).arrAt w (Pipeline.pin (pcfgs (F := F)) (admAll m h) 9).N = Vout9 m (outsAll m h) c (Pipeline.arrRef spec9 w) :=
  match w with
  | ⟨0, _⟩ => ((pdats m h 9 c).arrAt_in 0 rfl _).trans (Vout9_v3 m (outsAll m h) c).symm
  | ⟨1, _⟩ => ((Vout9_out m (outsAll m h) c).trans (outsAll_9 m h c)).symm

theorem hrest9 (c : Dev nD) : ∀ b, b ∉ Finset.univ.image (Pipeline.arrRef spec9) → Vout9 m (outsAll m h) c b = Vin9 m (outsAll m h) c b :=
  fun b hb => Vout9_of m (outsAll m h) c b (fun hm => hb (by
    rw [List.mem_singleton] at hm; subst hm
    exact Finset.mem_image.mpr ⟨1, Finset.mem_univ _, rfl⟩))

set_option backward.isDefEq.respectTransparency.types false in
def reg9 : Pipeline.RegionSeg (pcfgs (F := F)) (admAll m h) (pdats m h) () defs₀ 𝒱₀ L lv 9 where
  win := winFacts9.to₀
  block_pos := block_pos9
  stage_whole := stage_whole9
  K := PEmpty
  osem k := k.elim
  ho := Pipeline.OwnSemFacts.none _
  hbody c := (Rg9.body_obligation (Vent m) (tbl9 m) h.h9 c).loose
  hwaits := Pipeline.hwaits_of_owed_zero _ _ _ _ L lv 9 fun _ _ => rfl
  pre c := iprop(StableHlo.held (c : Thread nD τ) (Pipeline.ucRefs τ sig) (Vin9 m (outsAll m h) c) ∗ Rst c)
  post c := iprop(StableHlo.held (c : Thread nD τ) (Pipeline.ucRefs τ sig) (Vout9 m (outsAll m h) c) ∗ Rst c)
  X c := iprop(∃ r, prngReg c r)
  Y c := iprop((∃ r, prngReg c r) ∗ Pipeline.prefHeld pre9 c (fun _ => fullShare) (tbl9 m))
  Z c := Pipeline.unscopedRestP (Ix := Unit) (Name := ℕ) (U := UR sig nD τ) (Lvl := ℕ) pre9 spec9 c (fun b => Vin9 m (outsAll m h) c b)
  hentry c := by
    rw [Pipeline.ownSems0_none]
    have hsplit0 := Pipeline.arrays_of_unscopedBufs (p := 9) (pcfgs (F := F)) (admAll m h) (pdats m h) winFacts9 arr_whole9 c
      ((pdats m h 9 c).share_full fun _ => rfl) (fun b => Vin9 m (outsAll m h) c b) (hA9 m h c)
    rw [Pipeline.unscopedBufs_held] at hsplit0
    have hsplit : (StableHlo.held (c : Thread nD τ) (Pipeline.ucRefs τ sig) (Vin9 m (outsAll m h) c) : sProp 𝕄)
        ⊢ iprop((pdats m h 9 c).arrays ((pdats m h 9 c).arrAt · 0) ∗ Pipeline.unscopedRest spec9 c (fun b => Vin9 m (outsAll m h) c b)) := hsplit0
    rw [Pipeline.unscopedRest_split preFacts9 c,
      show (fun k => Vin9 m (outsAll m h) c (pre9.ref k)) = tbl9 m from funext fun k => Vin9_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 9 c).Φ 0 = iprop(Pipeline.ΦA spec9 c ∗ Pipeline.prefHeld pre9 c (fun _ => fullShare) (tbl9 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 9 c).Φ (Fin.last _) = iprop(Pipeline.ΦA spec9 c ∗ Pipeline.prefHeld pre9 c (fun _ => fullShare) (tbl9 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 9) (pcfgs (F := F)) (admAll m h) (Ix := Unit) (Name := ℕ) (U := UR sig nD τ) (Lvl := ℕ)
      winFacts9 arr_whole9 c (pdats m h) ((pdats m h 9 c).share_full fun _ => rfl)
      (fun b => Vin9 m (outsAll m h) c b) (fun b => Vout9 m (outsAll m h) c b) ((pdats m h 9 c).arrAt · (Pipeline.pin (pcfgs (F := F)) (admAll m h) 9).N) (hF9 m h c) (hrest9 m h c)
    rw [Pipeline.unscopedBufs_held] at hjoin0
    have hjoin : (iprop((pdats m h 9 c).arrays ((pdats m h 9 c).arrAt · (Pipeline.pin (pcfgs (F := F)) (admAll m h) 9).N) ∗ Pipeline.unscopedRest spec9 c (fun b => Vin9 m (outsAll m h) c b)) : sProp 𝕄)
        ⊢ StableHlo.held (c : Thread nD τ) (Pipeline.ucRefs τ sig) (Vout9 m (outsAll m h) c) := hjoin0
    rw [Pipeline.unscopedRest_split preFacts9 c,
      show (fun k => Vin9 m (outsAll m h) c (pre9.ref k)) = tbl9 m from funext fun k => Vin9_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R10.Link.lean ====
/- Region 10's table satisfies the pipeline's side condition: its words are pooling indices, which the precondition
   bounds by 262144, the last row of the padded feature array. -/
/- Region 10 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 10's table is one of the pooling indices, so at most 262144. -/
theorem tbl10_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl10 m 0 x : BitVec 32).toNat ≤ 262144 := by
  show (StableHlo.after hostOps10 (V0 m (0 : Dev nD)) (Proc.devRef .tc main_v45) x : BitVec 32).toNat ≤ 262144
  after_results
  exact slice_cast_all (fun w : BitVec 32 => w.toNat ≤ 262144) _ _ _ _ (fun k => Cert.PreDecode.toNat_le_of_toInt _ (hb k)) x

/-- The pipeline's side condition at region 10's table: the feature window's block, at the row the table names,
    lies inside the padded feature array (and a transfer of 32-bit elements moves whole words). -/
theorem okT10 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok10 (F := F) (tbl10 m) := by
  intro i
  exact ⟨block_inside _ _ (tbl10_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 10's proof data are what the region finds: the padded feature array and the (not yet
    written) output array hold at its entry what they held after the first host stretch. -/
theorem hA10 (c : Dev nD) (w : Fin 2) : (pdats m h 10 c).A w = Vin10 m (outsAll m h) c (Pipeline.arrRef spec10 w) :=
  match w with
  | ⟨0, _⟩ => (Vin10_v3 m (outsAll m h) c).symm
  | ⟨1, _⟩ => (Vin10_out m (outsAll m h) c).symm

/-- At the exit each array holds what the pipeline leaves. -/
theorem hF10 (c : Dev nD) (w : Fin 2) : (pdats m h 10 c).arrAt w (Pipeline.pin (pcfgs (F := F)) (admAll m h) 10).N = Vout10 m (outsAll m h) c (Pipeline.arrRef spec10 w) :=
  match w with
  | ⟨0, _⟩ => ((pdats m h 10 c).arrAt_in 0 rfl _).trans (Vout10_v3 m (outsAll m h) c).symm
  | ⟨1, _⟩ => ((Vout10_out m (outsAll m h) c).trans (outsAll_10 m h c)).symm

theorem hrest10 (c : Dev nD) : ∀ b, b ∉ Finset.univ.image (Pipeline.arrRef spec10) → Vout10 m (outsAll m h) c b = Vin10 m (outsAll m h) c b :=
  fun b hb => Vout10_of m (outsAll m h) c b (fun hm => hb (by
    rw [List.mem_singleton] at hm; subst hm
    exact Finset.mem_image.mpr ⟨1, Finset.mem_univ _, rfl⟩))

set_option backward.isDefEq.respectTransparency.types false in
def reg10 : Pipeline.RegionSeg (pcfgs (F := F)) (admAll m h) (pdats m h) () defs₀ 𝒱₀ L lv 10 where
  win := winFacts10.to₀
  block_pos := block_pos10
  stage_whole := stage_whole10
  K := PEmpty
  osem k := k.elim
  ho := Pipeline.OwnSemFacts.none _
  hbody c := (Rg10.body_obligation (Vent m) (tbl10 m) h.h10 c).loose
  hwaits := Pipeline.hwaits_of_owed_zero _ _ _ _ L lv 10 fun _ _ => rfl
  pre c := iprop(StableHlo.held (c : Thread nD τ) (Pipeline.ucRefs τ sig) (Vin10 m (outsAll m h) c) ∗ Rst c)
  post c := iprop(StableHlo.held (c : Thread nD τ) (Pipeline.ucRefs τ sig) (Vout10 m (outsAll m h) c) ∗ Rst c)
  X c := iprop(∃ r, prngReg c r)
  Y c := iprop((∃ r, prngReg c r) ∗ Pipeline.prefHeld pre10 c (fun _ => fullShare) (tbl10 m))
  Z c := Pipeline.unscopedRestP (Ix := Unit) (Name := ℕ) (U := UR sig nD τ) (Lvl := ℕ) pre10 spec10 c (fun b => Vin10 m (outsAll m h) c b)
  hentry c := by
    rw [Pipeline.ownSems0_none]
    have hsplit0 := Pipeline.arrays_of_unscopedBufs (p := 10) (pcfgs (F := F)) (admAll m h) (pdats m h) winFacts10 arr_whole10 c
      ((pdats m h 10 c).share_full fun _ => rfl) (fun b => Vin10 m (outsAll m h) c b) (hA10 m h c)
    rw [Pipeline.unscopedBufs_held] at hsplit0
    have hsplit : (StableHlo.held (c : Thread nD τ) (Pipeline.ucRefs τ sig) (Vin10 m (outsAll m h) c) : sProp 𝕄)
        ⊢ iprop((pdats m h 10 c).arrays ((pdats m h 10 c).arrAt · 0) ∗ Pipeline.unscopedRest spec10 c (fun b => Vin10 m (outsAll m h) c b)) := hsplit0
    rw [Pipeline.unscopedRest_split preFacts10 c,
      show (fun k => Vin10 m (outsAll m h) c (pre10.ref k)) = tbl10 m from funext fun k => Vin10_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 10 c).Φ 0 = iprop(Pipeline.ΦA spec10 c ∗ Pipeline.prefHeld pre10 c (fun _ => fullShare) (tbl10 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 10 c).Φ (Fin.last _) = iprop(Pipeline.ΦA spec10 c ∗ Pipeline.prefHeld pre10 c (fun _ => fullShare) (tbl10 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 10) (pcfgs (F := F)) (admAll m h) (Ix := Unit) (Name := ℕ) (U := UR sig nD τ) (Lvl := ℕ)
      winFacts10 arr_whole10 c (pdats m h) ((pdats m h 10 c).share_full fun _ => rfl)
      (fun b => Vin10 m (outsAll m h) c b) (fun b => Vout10 m (outsAll m h) c b) ((pdats m h 10 c).arrAt · (Pipeline.pin (pcfgs (F := F)) (admAll m h) 10).N) (hF10 m h c) (hrest10 m h c)
    rw [Pipeline.unscopedBufs_held] at hjoin0
    have hjoin : (iprop((pdats m h 10 c).arrays ((pdats m h 10 c).arrAt · (Pipeline.pin (pcfgs (F := F)) (admAll m h) 10).N) ∗ Pipeline.unscopedRest spec10 c (fun b => Vin10 m (outsAll m h) c b)) : sProp 𝕄)
        ⊢ StableHlo.held (c : Thread nD τ) (Pipeline.ucRefs τ sig) (Vout10 m (outsAll m h) c) := hjoin0
    rw [Pipeline.unscopedRest_split preFacts10 c,
      show (fun k => Vin10 m (outsAll m h) c (pre10.ref k)) = tbl10 m from funext fun k => Vin10_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R11.Link.lean ====
/- Region 11's table satisfies the pipeline's side condition: its words are pooling indices, which the precondition
   bounds by 262144, the last row of the padded feature array. -/
/- Region 11 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 11's table is one of the pooling indices, so at most 262144. -/
theorem tbl11_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl11 m 0 x : BitVec 32).toNat ≤ 262144 := by
  show (StableHlo.after hostOps11 (V0 m (0 : Dev nD)) (Proc.devRef .tc main_v49) x : BitVec 32).toNat ≤ 262144
  after_results
  exact slice_cast_all (fun w : BitVec 32 => w.toNat ≤ 262144) _ _ _ _ (fun k => Cert.PreDecode.toNat_le_of_toInt _ (hb k)) x

/-- The pipeline's side condition at region 11's table: the feature window's block, at the row the table names,
    lies inside the padded feature array (and a transfer of 32-bit elements moves whole words). -/
theorem okT11 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok11 (F := F) (tbl11 m) := by
  intro i
  exact ⟨block_inside _ _ (tbl11_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 11's proof data are what the region finds: the padded feature array and the (not yet
    written) output array hold at its entry what they held after the first host stretch. -/
theorem hA11 (c : Dev nD) (w : Fin 2) : (pdats m h 11 c).A w = Vin11 m (outsAll m h) c (Pipeline.arrRef spec11 w) :=
  match w with
  | ⟨0, _⟩ => (Vin11_v3 m (outsAll m h) c).symm
  | ⟨1, _⟩ => (Vin11_out m (outsAll m h) c).symm

/-- At the exit each array holds what the pipeline leaves. -/
theorem hF11 (c : Dev nD) (w : Fin 2) : (pdats m h 11 c).arrAt w (Pipeline.pin (pcfgs (F := F)) (admAll m h) 11).N = Vout11 m (outsAll m h) c (Pipeline.arrRef spec11 w) :=
  match w with
  | ⟨0, _⟩ => ((pdats m h 11 c).arrAt_in 0 rfl _).trans (Vout11_v3 m (outsAll m h) c).symm
  | ⟨1, _⟩ => ((Vout11_out m (outsAll m h) c).trans (outsAll_11 m h c)).symm

theorem hrest11 (c : Dev nD) : ∀ b, b ∉ Finset.univ.image (Pipeline.arrRef spec11) → Vout11 m (outsAll m h) c b = Vin11 m (outsAll m h) c b :=
  fun b hb => Vout11_of m (outsAll m h) c b (fun hm => hb (by
    rw [List.mem_singleton] at hm; subst hm
    exact Finset.mem_image.mpr ⟨1, Finset.mem_univ _, rfl⟩))

set_option backward.isDefEq.respectTransparency.types false in
def reg11 : Pipeline.RegionSeg (pcfgs (F := F)) (admAll m h) (pdats m h) () defs₀ 𝒱₀ L lv 11 where
  win := winFacts11.to₀
  block_pos := block_pos11
  stage_whole := stage_whole11
  K := PEmpty
  osem k := k.elim
  ho := Pipeline.OwnSemFacts.none _
  hbody c := (Rg11.body_obligation (Vent m) (tbl11 m) h.h11 c).loose
  hwaits := Pipeline.hwaits_of_owed_zero _ _ _ _ L lv 11 fun _ _ => rfl
  pre c := iprop(StableHlo.held (c : Thread nD τ) (Pipeline.ucRefs τ sig) (Vin11 m (outsAll m h) c) ∗ Rst c)
  post c := iprop(StableHlo.held (c : Thread nD τ) (Pipeline.ucRefs τ sig) (Vout11 m (outsAll m h) c) ∗ Rst c)
  X c := iprop(∃ r, prngReg c r)
  Y c := iprop((∃ r, prngReg c r) ∗ Pipeline.prefHeld pre11 c (fun _ => fullShare) (tbl11 m))
  Z c := Pipeline.unscopedRestP (Ix := Unit) (Name := ℕ) (U := UR sig nD τ) (Lvl := ℕ) pre11 spec11 c (fun b => Vin11 m (outsAll m h) c b)
  hentry c := by
    rw [Pipeline.ownSems0_none]
    have hsplit0 := Pipeline.arrays_of_unscopedBufs (p := 11) (pcfgs (F := F)) (admAll m h) (pdats m h) winFacts11 arr_whole11 c
      ((pdats m h 11 c).share_full fun _ => rfl) (fun b => Vin11 m (outsAll m h) c b) (hA11 m h c)
    rw [Pipeline.unscopedBufs_held] at hsplit0
    have hsplit : (StableHlo.held (c : Thread nD τ) (Pipeline.ucRefs τ sig) (Vin11 m (outsAll m h) c) : sProp 𝕄)
        ⊢ iprop((pdats m h 11 c).arrays ((pdats m h 11 c).arrAt · 0) ∗ Pipeline.unscopedRest spec11 c (fun b => Vin11 m (outsAll m h) c b)) := hsplit0
    rw [Pipeline.unscopedRest_split preFacts11 c,
      show (fun k => Vin11 m (outsAll m h) c (pre11.ref k)) = tbl11 m from funext fun k => Vin11_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 11 c).Φ 0 = iprop(Pipeline.ΦA spec11 c ∗ Pipeline.prefHeld pre11 c (fun _ => fullShare) (tbl11 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 11 c).Φ (Fin.last _) = iprop(Pipeline.ΦA spec11 c ∗ Pipeline.prefHeld pre11 c (fun _ => fullShare) (tbl11 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 11) (pcfgs (F := F)) (admAll m h) (Ix := Unit) (Name := ℕ) (U := UR sig nD τ) (Lvl := ℕ)
      winFacts11 arr_whole11 c (pdats m h) ((pdats m h 11 c).share_full fun _ => rfl)
      (fun b => Vin11 m (outsAll m h) c b) (fun b => Vout11 m (outsAll m h) c b) ((pdats m h 11 c).arrAt · (Pipeline.pin (pcfgs (F := F)) (admAll m h) 11).N) (hF11 m h c) (hrest11 m h c)
    rw [Pipeline.unscopedBufs_held] at hjoin0
    have hjoin : (iprop((pdats m h 11 c).arrays ((pdats m h 11 c).arrAt · (Pipeline.pin (pcfgs (F := F)) (admAll m h) 11).N) ∗ Pipeline.unscopedRest spec11 c (fun b => Vin11 m (outsAll m h) c b)) : sProp 𝕄)
        ⊢ StableHlo.held (c : Thread nD τ) (Pipeline.ucRefs τ sig) (Vout11 m (outsAll m h) c) := hjoin0
    rw [Pipeline.unscopedRest_split preFacts11 c,
      show (fun k => Vin11 m (outsAll m h) c (pre11.ref k)) = tbl11 m from funext fun k => Vin11_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R12.Link.lean ====
/- Region 12's table satisfies the pipeline's side condition: its words are pooling indices, which the precondition
   bounds by 262144, the last row of the padded feature array. -/
/- Region 12 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 12's table is one of the pooling indices, so at most 262144. -/
theorem tbl12_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl12 m 0 x : BitVec 32).toNat ≤ 262144 := by
  show (StableHlo.after hostOps12 (V0 m (0 : Dev nD)) (Proc.devRef .tc main_v53) x : BitVec 32).toNat ≤ 262144
  after_results
  exact slice_cast_all (fun w : BitVec 32 => w.toNat ≤ 262144) _ _ _ _ (fun k => Cert.PreDecode.toNat_le_of_toInt _ (hb k)) x

/-- The pipeline's side condition at region 12's table: the feature window's block, at the row the table names,
    lies inside the padded feature array (and a transfer of 32-bit elements moves whole words). -/
theorem okT12 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok12 (F := F) (tbl12 m) := by
  intro i
  exact ⟨block_inside _ _ (tbl12_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 12's proof data are what the region finds: the padded feature array and the (not yet
    written) output array hold at its entry what they held after the first host stretch. -/
theorem hA12 (c : Dev nD) (w : Fin 2) : (pdats m h 12 c).A w = Vin12 m (outsAll m h) c (Pipeline.arrRef spec12 w) :=
  match w with
  | ⟨0, _⟩ => (Vin12_v3 m (outsAll m h) c).symm
  | ⟨1, _⟩ => (Vin12_out m (outsAll m h) c).symm

/-- At the exit each array holds what the pipeline leaves. -/
theorem hF12 (c : Dev nD) (w : Fin 2) : (pdats m h 12 c).arrAt w (Pipeline.pin (pcfgs (F := F)) (admAll m h) 12).N = Vout12 m (outsAll m h) c (Pipeline.arrRef spec12 w) :=
  match w with
  | ⟨0, _⟩ => ((pdats m h 12 c).arrAt_in 0 rfl _).trans (Vout12_v3 m (outsAll m h) c).symm
  | ⟨1, _⟩ => ((Vout12_out m (outsAll m h) c).trans (outsAll_12 m h c)).symm

theorem hrest12 (c : Dev nD) : ∀ b, b ∉ Finset.univ.image (Pipeline.arrRef spec12) → Vout12 m (outsAll m h) c b = Vin12 m (outsAll m h) c b :=
  fun b hb => Vout12_of m (outsAll m h) c b (fun hm => hb (by
    rw [List.mem_singleton] at hm; subst hm
    exact Finset.mem_image.mpr ⟨1, Finset.mem_univ _, rfl⟩))

set_option backward.isDefEq.respectTransparency.types false in
def reg12 : Pipeline.RegionSeg (pcfgs (F := F)) (admAll m h) (pdats m h) () defs₀ 𝒱₀ L lv 12 where
  win := winFacts12.to₀
  block_pos := block_pos12
  stage_whole := stage_whole12
  K := PEmpty
  osem k := k.elim
  ho := Pipeline.OwnSemFacts.none _
  hbody c := (Rg12.body_obligation (Vent m) (tbl12 m) h.h12 c).loose
  hwaits := Pipeline.hwaits_of_owed_zero _ _ _ _ L lv 12 fun _ _ => rfl
  pre c := iprop(StableHlo.held (c : Thread nD τ) (Pipeline.ucRefs τ sig) (Vin12 m (outsAll m h) c) ∗ Rst c)
  post c := iprop(StableHlo.held (c : Thread nD τ) (Pipeline.ucRefs τ sig) (Vout12 m (outsAll m h) c) ∗ Rst c)
  X c := iprop(∃ r, prngReg c r)
  Y c := iprop((∃ r, prngReg c r) ∗ Pipeline.prefHeld pre12 c (fun _ => fullShare) (tbl12 m))
  Z c := Pipeline.unscopedRestP (Ix := Unit) (Name := ℕ) (U := UR sig nD τ) (Lvl := ℕ) pre12 spec12 c (fun b => Vin12 m (outsAll m h) c b)
  hentry c := by
    rw [Pipeline.ownSems0_none]
    have hsplit0 := Pipeline.arrays_of_unscopedBufs (p := 12) (pcfgs (F := F)) (admAll m h) (pdats m h) winFacts12 arr_whole12 c
      ((pdats m h 12 c).share_full fun _ => rfl) (fun b => Vin12 m (outsAll m h) c b) (hA12 m h c)
    rw [Pipeline.unscopedBufs_held] at hsplit0
    have hsplit : (StableHlo.held (c : Thread nD τ) (Pipeline.ucRefs τ sig) (Vin12 m (outsAll m h) c) : sProp 𝕄)
        ⊢ iprop((pdats m h 12 c).arrays ((pdats m h 12 c).arrAt · 0) ∗ Pipeline.unscopedRest spec12 c (fun b => Vin12 m (outsAll m h) c b)) := hsplit0
    rw [Pipeline.unscopedRest_split preFacts12 c,
      show (fun k => Vin12 m (outsAll m h) c (pre12.ref k)) = tbl12 m from funext fun k => Vin12_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 12 c).Φ 0 = iprop(Pipeline.ΦA spec12 c ∗ Pipeline.prefHeld pre12 c (fun _ => fullShare) (tbl12 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 12 c).Φ (Fin.last _) = iprop(Pipeline.ΦA spec12 c ∗ Pipeline.prefHeld pre12 c (fun _ => fullShare) (tbl12 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 12) (pcfgs (F := F)) (admAll m h) (Ix := Unit) (Name := ℕ) (U := UR sig nD τ) (Lvl := ℕ)
      winFacts12 arr_whole12 c (pdats m h) ((pdats m h 12 c).share_full fun _ => rfl)
      (fun b => Vin12 m (outsAll m h) c b) (fun b => Vout12 m (outsAll m h) c b) ((pdats m h 12 c).arrAt · (Pipeline.pin (pcfgs (F := F)) (admAll m h) 12).N) (hF12 m h c) (hrest12 m h c)
    rw [Pipeline.unscopedBufs_held] at hjoin0
    have hjoin : (iprop((pdats m h 12 c).arrays ((pdats m h 12 c).arrAt · (Pipeline.pin (pcfgs (F := F)) (admAll m h) 12).N) ∗ Pipeline.unscopedRest spec12 c (fun b => Vin12 m (outsAll m h) c b)) : sProp 𝕄)
        ⊢ StableHlo.held (c : Thread nD τ) (Pipeline.ucRefs τ sig) (Vout12 m (outsAll m h) c) := hjoin0
    rw [Pipeline.unscopedRest_split preFacts12 c,
      show (fun k => Vin12 m (outsAll m h) c (pre12.ref k)) = tbl12 m from funext fun k => Vin12_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R13.Link.lean ====
/- Region 13's table satisfies the pipeline's side condition: its words are pooling indices, which the precondition
   bounds by 262144, the last row of the padded feature array. -/
/- Region 13 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 13's table is one of the pooling indices, so at most 262144. -/
theorem tbl13_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl13 m 0 x : BitVec 32).toNat ≤ 262144 := by
  show (StableHlo.after hostOps13 (V0 m (0 : Dev nD)) (Proc.devRef .tc main_v57) x : BitVec 32).toNat ≤ 262144
  after_results
  exact slice_cast_all (fun w : BitVec 32 => w.toNat ≤ 262144) _ _ _ _ (fun k => Cert.PreDecode.toNat_le_of_toInt _ (hb k)) x

/-- The pipeline's side condition at region 13's table: the feature window's block, at the row the table names,
    lies inside the padded feature array (and a transfer of 32-bit elements moves whole words). -/
theorem okT13 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok13 (F := F) (tbl13 m) := by
  intro i
  exact ⟨block_inside _ _ (tbl13_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 13's proof data are what the region finds: the padded feature array and the (not yet
    written) output array hold at its entry what they held after the first host stretch. -/
theorem hA13 (c : Dev nD) (w : Fin 2) : (pdats m h 13 c).A w = Vin13 m (outsAll m h) c (Pipeline.arrRef spec13 w) :=
  match w with
  | ⟨0, _⟩ => (Vin13_v3 m (outsAll m h) c).symm
  | ⟨1, _⟩ => (Vin13_out m (outsAll m h) c).symm

/-- At the exit each array holds what the pipeline leaves. -/
theorem hF13 (c : Dev nD) (w : Fin 2) : (pdats m h 13 c).arrAt w (Pipeline.pin (pcfgs (F := F)) (admAll m h) 13).N = Vout13 m (outsAll m h) c (Pipeline.arrRef spec13 w) :=
  match w with
  | ⟨0, _⟩ => ((pdats m h 13 c).arrAt_in 0 rfl _).trans (Vout13_v3 m (outsAll m h) c).symm
  | ⟨1, _⟩ => ((Vout13_out m (outsAll m h) c).trans (outsAll_13 m h c)).symm

theorem hrest13 (c : Dev nD) : ∀ b, b ∉ Finset.univ.image (Pipeline.arrRef spec13) → Vout13 m (outsAll m h) c b = Vin13 m (outsAll m h) c b :=
  fun b hb => Vout13_of m (outsAll m h) c b (fun hm => hb (by
    rw [List.mem_singleton] at hm; subst hm
    exact Finset.mem_image.mpr ⟨1, Finset.mem_univ _, rfl⟩))

set_option backward.isDefEq.respectTransparency.types false in
def reg13 : Pipeline.RegionSeg (pcfgs (F := F)) (admAll m h) (pdats m h) () defs₀ 𝒱₀ L lv 13 where
  win := winFacts13.to₀
  block_pos := block_pos13
  stage_whole := stage_whole13
  K := PEmpty
  osem k := k.elim
  ho := Pipeline.OwnSemFacts.none _
  hbody c := (Rg13.body_obligation (Vent m) (tbl13 m) h.h13 c).loose
  hwaits := Pipeline.hwaits_of_owed_zero _ _ _ _ L lv 13 fun _ _ => rfl
  pre c := iprop(StableHlo.held (c : Thread nD τ) (Pipeline.ucRefs τ sig) (Vin13 m (outsAll m h) c) ∗ Rst c)
  post c := iprop(StableHlo.held (c : Thread nD τ) (Pipeline.ucRefs τ sig) (Vout13 m (outsAll m h) c) ∗ Rst c)
  X c := iprop(∃ r, prngReg c r)
  Y c := iprop((∃ r, prngReg c r) ∗ Pipeline.prefHeld pre13 c (fun _ => fullShare) (tbl13 m))
  Z c := Pipeline.unscopedRestP (Ix := Unit) (Name := ℕ) (U := UR sig nD τ) (Lvl := ℕ) pre13 spec13 c (fun b => Vin13 m (outsAll m h) c b)
  hentry c := by
    rw [Pipeline.ownSems0_none]
    have hsplit0 := Pipeline.arrays_of_unscopedBufs (p := 13) (pcfgs (F := F)) (admAll m h) (pdats m h) winFacts13 arr_whole13 c
      ((pdats m h 13 c).share_full fun _ => rfl) (fun b => Vin13 m (outsAll m h) c b) (hA13 m h c)
    rw [Pipeline.unscopedBufs_held] at hsplit0
    have hsplit : (StableHlo.held (c : Thread nD τ) (Pipeline.ucRefs τ sig) (Vin13 m (outsAll m h) c) : sProp 𝕄)
        ⊢ iprop((pdats m h 13 c).arrays ((pdats m h 13 c).arrAt · 0) ∗ Pipeline.unscopedRest spec13 c (fun b => Vin13 m (outsAll m h) c b)) := hsplit0
    rw [Pipeline.unscopedRest_split preFacts13 c,
      show (fun k => Vin13 m (outsAll m h) c (pre13.ref k)) = tbl13 m from funext fun k => Vin13_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 13 c).Φ 0 = iprop(Pipeline.ΦA spec13 c ∗ Pipeline.prefHeld pre13 c (fun _ => fullShare) (tbl13 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 13 c).Φ (Fin.last _) = iprop(Pipeline.ΦA spec13 c ∗ Pipeline.prefHeld pre13 c (fun _ => fullShare) (tbl13 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 13) (pcfgs (F := F)) (admAll m h) (Ix := Unit) (Name := ℕ) (U := UR sig nD τ) (Lvl := ℕ)
      winFacts13 arr_whole13 c (pdats m h) ((pdats m h 13 c).share_full fun _ => rfl)
      (fun b => Vin13 m (outsAll m h) c b) (fun b => Vout13 m (outsAll m h) c b) ((pdats m h 13 c).arrAt · (Pipeline.pin (pcfgs (F := F)) (admAll m h) 13).N) (hF13 m h c) (hrest13 m h c)
    rw [Pipeline.unscopedBufs_held] at hjoin0
    have hjoin : (iprop((pdats m h 13 c).arrays ((pdats m h 13 c).arrAt · (Pipeline.pin (pcfgs (F := F)) (admAll m h) 13).N) ∗ Pipeline.unscopedRest spec13 c (fun b => Vin13 m (outsAll m h) c b)) : sProp 𝕄)
        ⊢ StableHlo.held (c : Thread nD τ) (Pipeline.ucRefs τ sig) (Vout13 m (outsAll m h) c) := hjoin0
    rw [Pipeline.unscopedRest_split preFacts13 c,
      show (fun k => Vin13 m (outsAll m h) c (pre13.ref k)) = tbl13 m from funext fun k => Vin13_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R14.Link.lean ====
/- Region 14's table satisfies the pipeline's side condition: its words are pooling indices, which the precondition
   bounds by 262144, the last row of the padded feature array. -/
/- Region 14 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 14's table is one of the pooling indices, so at most 262144. -/
theorem tbl14_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl14 m 0 x : BitVec 32).toNat ≤ 262144 := by
  show (StableHlo.after hostOps14 (V0 m (0 : Dev nD)) (Proc.devRef .tc main_v61) x : BitVec 32).toNat ≤ 262144
  after_results
  exact slice_cast_all (fun w : BitVec 32 => w.toNat ≤ 262144) _ _ _ _ (fun k => Cert.PreDecode.toNat_le_of_toInt _ (hb k)) x

/-- The pipeline's side condition at region 14's table: the feature window's block, at the row the table names,
    lies inside the padded feature array (and a transfer of 32-bit elements moves whole words). -/
theorem okT14 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok14 (F := F) (tbl14 m) := by
  intro i
  exact ⟨block_inside _ _ (tbl14_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 14's proof data are what the region finds: the padded feature array and the (not yet
    written) output array hold at its entry what they held after the first host stretch. -/
theorem hA14 (c : Dev nD) (w : Fin 2) : (pdats m h 14 c).A w = Vin14 m (outsAll m h) c (Pipeline.arrRef spec14 w) :=
  match w with
  | ⟨0, _⟩ => (Vin14_v3 m (outsAll m h) c).symm
  | ⟨1, _⟩ => (Vin14_out m (outsAll m h) c).symm

/-- At the exit each array holds what the pipeline leaves. -/
theorem hF14 (c : Dev nD) (w : Fin 2) : (pdats m h 14 c).arrAt w (Pipeline.pin (pcfgs (F := F)) (admAll m h) 14).N = Vout14 m (outsAll m h) c (Pipeline.arrRef spec14 w) :=
  match w with
  | ⟨0, _⟩ => ((pdats m h 14 c).arrAt_in 0 rfl _).trans (Vout14_v3 m (outsAll m h) c).symm
  | ⟨1, _⟩ => ((Vout14_out m (outsAll m h) c).trans (outsAll_14 m h c)).symm

theorem hrest14 (c : Dev nD) : ∀ b, b ∉ Finset.univ.image (Pipeline.arrRef spec14) → Vout14 m (outsAll m h) c b = Vin14 m (outsAll m h) c b :=
  fun b hb => Vout14_of m (outsAll m h) c b (fun hm => hb (by
    rw [List.mem_singleton] at hm; subst hm
    exact Finset.mem_image.mpr ⟨1, Finset.mem_univ _, rfl⟩))

set_option backward.isDefEq.respectTransparency.types false in
def reg14 : Pipeline.RegionSeg (pcfgs (F := F)) (admAll m h) (pdats m h) () defs₀ 𝒱₀ L lv 14 where
  win := winFacts14.to₀
  block_pos := block_pos14
  stage_whole := stage_whole14
  K := PEmpty
  osem k := k.elim
  ho := Pipeline.OwnSemFacts.none _
  hbody c := (Rg14.body_obligation (Vent m) (tbl14 m) h.h14 c).loose
  hwaits := Pipeline.hwaits_of_owed_zero _ _ _ _ L lv 14 fun _ _ => rfl
  pre c := iprop(StableHlo.held (c : Thread nD τ) (Pipeline.ucRefs τ sig) (Vin14 m (outsAll m h) c) ∗ Rst c)
  post c := iprop(StableHlo.held (c : Thread nD τ) (Pipeline.ucRefs τ sig) (Vout14 m (outsAll m h) c) ∗ Rst c)
  X c := iprop(∃ r, prngReg c r)
  Y c := iprop((∃ r, prngReg c r) ∗ Pipeline.prefHeld pre14 c (fun _ => fullShare) (tbl14 m))
  Z c := Pipeline.unscopedRestP (Ix := Unit) (Name := ℕ) (U := UR sig nD τ) (Lvl := ℕ) pre14 spec14 c (fun b => Vin14 m (outsAll m h) c b)
  hentry c := by
    rw [Pipeline.ownSems0_none]
    have hsplit0 := Pipeline.arrays_of_unscopedBufs (p := 14) (pcfgs (F := F)) (admAll m h) (pdats m h) winFacts14 arr_whole14 c
      ((pdats m h 14 c).share_full fun _ => rfl) (fun b => Vin14 m (outsAll m h) c b) (hA14 m h c)
    rw [Pipeline.unscopedBufs_held] at hsplit0
    have hsplit : (StableHlo.held (c : Thread nD τ) (Pipeline.ucRefs τ sig) (Vin14 m (outsAll m h) c) : sProp 𝕄)
        ⊢ iprop((pdats m h 14 c).arrays ((pdats m h 14 c).arrAt · 0) ∗ Pipeline.unscopedRest spec14 c (fun b => Vin14 m (outsAll m h) c b)) := hsplit0
    rw [Pipeline.unscopedRest_split preFacts14 c,
      show (fun k => Vin14 m (outsAll m h) c (pre14.ref k)) = tbl14 m from funext fun k => Vin14_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 14 c).Φ 0 = iprop(Pipeline.ΦA spec14 c ∗ Pipeline.prefHeld pre14 c (fun _ => fullShare) (tbl14 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 14 c).Φ (Fin.last _) = iprop(Pipeline.ΦA spec14 c ∗ Pipeline.prefHeld pre14 c (fun _ => fullShare) (tbl14 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 14) (pcfgs (F := F)) (admAll m h) (Ix := Unit) (Name := ℕ) (U := UR sig nD τ) (Lvl := ℕ)
      winFacts14 arr_whole14 c (pdats m h) ((pdats m h 14 c).share_full fun _ => rfl)
      (fun b => Vin14 m (outsAll m h) c b) (fun b => Vout14 m (outsAll m h) c b) ((pdats m h 14 c).arrAt · (Pipeline.pin (pcfgs (F := F)) (admAll m h) 14).N) (hF14 m h c) (hrest14 m h c)
    rw [Pipeline.unscopedBufs_held] at hjoin0
    have hjoin : (iprop((pdats m h 14 c).arrays ((pdats m h 14 c).arrAt · (Pipeline.pin (pcfgs (F := F)) (admAll m h) 14).N) ∗ Pipeline.unscopedRest spec14 c (fun b => Vin14 m (outsAll m h) c b)) : sProp 𝕄)
        ⊢ StableHlo.held (c : Thread nD τ) (Pipeline.ucRefs τ sig) (Vout14 m (outsAll m h) c) := hjoin0
    rw [Pipeline.unscopedRest_split preFacts14 c,
      show (fun k => Vin14 m (outsAll m h) c (pre14.ref k)) = tbl14 m from funext fun k => Vin14_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R15.Link.lean ====
/- Region 15's table satisfies the pipeline's side condition: its words are pooling indices, which the precondition
   bounds by 262144, the last row of the padded feature array. -/
/- Region 15 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 15's table is one of the pooling indices, so at most 262144. -/
theorem tbl15_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl15 m 0 x : BitVec 32).toNat ≤ 262144 := by
  show (StableHlo.after hostOps15 (V0 m (0 : Dev nD)) (Proc.devRef .tc main_v65) x : BitVec 32).toNat ≤ 262144
  after_results
  exact slice_cast_all (fun w : BitVec 32 => w.toNat ≤ 262144) _ _ _ _ (fun k => Cert.PreDecode.toNat_le_of_toInt _ (hb k)) x

/-- The pipeline's side condition at region 15's table: the feature window's block, at the row the table names,
    lies inside the padded feature array (and a transfer of 32-bit elements moves whole words). -/
theorem okT15 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok15 (F := F) (tbl15 m) := by
  intro i
  exact ⟨block_inside _ _ (tbl15_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 15's proof data are what the region finds: the padded feature array and the (not yet
    written) output array hold at its entry what they held after the first host stretch. -/
theorem hA15 (c : Dev nD) (w : Fin 2) : (pdats m h 15 c).A w = Vin15 m (outsAll m h) c (Pipeline.arrRef spec15 w) :=
  match w with
  | ⟨0, _⟩ => (Vin15_v3 m (outsAll m h) c).symm
  | ⟨1, _⟩ => (Vin15_out m (outsAll m h) c).symm

/-- At the exit each array holds what the pipeline leaves. -/
theorem hF15 (c : Dev nD) (w : Fin 2) : (pdats m h 15 c).arrAt w (Pipeline.pin (pcfgs (F := F)) (admAll m h) 15).N = Vout15 m (outsAll m h) c (Pipeline.arrRef spec15 w) :=
  match w with
  | ⟨0, _⟩ => ((pdats m h 15 c).arrAt_in 0 rfl _).trans (Vout15_v3 m (outsAll m h) c).symm
  | ⟨1, _⟩ => ((Vout15_out m (outsAll m h) c).trans (outsAll_15 m h c)).symm

theorem hrest15 (c : Dev nD) : ∀ b, b ∉ Finset.univ.image (Pipeline.arrRef spec15) → Vout15 m (outsAll m h) c b = Vin15 m (outsAll m h) c b :=
  fun b hb => Vout15_of m (outsAll m h) c b (fun hm => hb (by
    rw [List.mem_singleton] at hm; subst hm
    exact Finset.mem_image.mpr ⟨1, Finset.mem_univ _, rfl⟩))

set_option backward.isDefEq.respectTransparency.types false in
def reg15 : Pipeline.RegionSeg (pcfgs (F := F)) (admAll m h) (pdats m h) () defs₀ 𝒱₀ L lv 15 where
  win := winFacts15.to₀
  block_pos := block_pos15
  stage_whole := stage_whole15
  K := PEmpty
  osem k := k.elim
  ho := Pipeline.OwnSemFacts.none _
  hbody c := (Rg15.body_obligation (Vent m) (tbl15 m) h.h15 c).loose
  hwaits := Pipeline.hwaits_of_owed_zero _ _ _ _ L lv 15 fun _ _ => rfl
  pre c := iprop(StableHlo.held (c : Thread nD τ) (Pipeline.ucRefs τ sig) (Vin15 m (outsAll m h) c) ∗ Rst c)
  post c := iprop(StableHlo.held (c : Thread nD τ) (Pipeline.ucRefs τ sig) (Vout15 m (outsAll m h) c) ∗ Rst c)
  X c := iprop(∃ r, prngReg c r)
  Y c := iprop((∃ r, prngReg c r) ∗ Pipeline.prefHeld pre15 c (fun _ => fullShare) (tbl15 m))
  Z c := Pipeline.unscopedRestP (Ix := Unit) (Name := ℕ) (U := UR sig nD τ) (Lvl := ℕ) pre15 spec15 c (fun b => Vin15 m (outsAll m h) c b)
  hentry c := by
    rw [Pipeline.ownSems0_none]
    have hsplit0 := Pipeline.arrays_of_unscopedBufs (p := 15) (pcfgs (F := F)) (admAll m h) (pdats m h) winFacts15 arr_whole15 c
      ((pdats m h 15 c).share_full fun _ => rfl) (fun b => Vin15 m (outsAll m h) c b) (hA15 m h c)
    rw [Pipeline.unscopedBufs_held] at hsplit0
    have hsplit : (StableHlo.held (c : Thread nD τ) (Pipeline.ucRefs τ sig) (Vin15 m (outsAll m h) c) : sProp 𝕄)
        ⊢ iprop((pdats m h 15 c).arrays ((pdats m h 15 c).arrAt · 0) ∗ Pipeline.unscopedRest spec15 c (fun b => Vin15 m (outsAll m h) c b)) := hsplit0
    rw [Pipeline.unscopedRest_split preFacts15 c,
      show (fun k => Vin15 m (outsAll m h) c (pre15.ref k)) = tbl15 m from funext fun k => Vin15_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 15 c).Φ 0 = iprop(Pipeline.ΦA spec15 c ∗ Pipeline.prefHeld pre15 c (fun _ => fullShare) (tbl15 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 15 c).Φ (Fin.last _) = iprop(Pipeline.ΦA spec15 c ∗ Pipeline.prefHeld pre15 c (fun _ => fullShare) (tbl15 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 15) (pcfgs (F := F)) (admAll m h) (Ix := Unit) (Name := ℕ) (U := UR sig nD τ) (Lvl := ℕ)
      winFacts15 arr_whole15 c (pdats m h) ((pdats m h 15 c).share_full fun _ => rfl)
      (fun b => Vin15 m (outsAll m h) c b) (fun b => Vout15 m (outsAll m h) c b) ((pdats m h 15 c).arrAt · (Pipeline.pin (pcfgs (F := F)) (admAll m h) 15).N) (hF15 m h c) (hrest15 m h c)
    rw [Pipeline.unscopedBufs_held] at hjoin0
    have hjoin : (iprop((pdats m h 15 c).arrays ((pdats m h 15 c).arrAt · (Pipeline.pin (pcfgs (F := F)) (admAll m h) 15).N) ∗ Pipeline.unscopedRest spec15 c (fun b => Vin15 m (outsAll m h) c b)) : sProp 𝕄)
        ⊢ StableHlo.held (c : Thread nD τ) (Pipeline.ucRefs τ sig) (Vout15 m (outsAll m h) c) := hjoin0
    rw [Pipeline.unscopedRest_split preFacts15 c,
      show (fun k => Vin15 m (outsAll m h) c (pre15.ref k)) = tbl15 m from funext fun k => Vin15_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R16.Link.lean ====
/- Region 16's table satisfies the pipeline's side condition: its words are pooling indices, which the precondition
   bounds by 262144, the last row of the padded feature array. -/
/- Region 16 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 16's table is one of the pooling indices, so at most 262144. -/
theorem tbl16_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl16 m 0 x : BitVec 32).toNat ≤ 262144 := by
  show (StableHlo.after hostOps16 (V0 m (0 : Dev nD)) (Proc.devRef .tc main_v69) x : BitVec 32).toNat ≤ 262144
  after_results
  exact slice_cast_all (fun w : BitVec 32 => w.toNat ≤ 262144) _ _ _ _ (fun k => Cert.PreDecode.toNat_le_of_toInt _ (hb k)) x

/-- The pipeline's side condition at region 16's table: the feature window's block, at the row the table names,
    lies inside the padded feature array (and a transfer of 32-bit elements moves whole words). -/
theorem okT16 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok16 (F := F) (tbl16 m) := by
  intro i
  exact ⟨block_inside _ _ (tbl16_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 16's proof data are what the region finds: the padded feature array and the (not yet
    written) output array hold at its entry what they held after the first host stretch. -/
theorem hA16 (c : Dev nD) (w : Fin 2) : (pdats m h 16 c).A w = Vin16 m (outsAll m h) c (Pipeline.arrRef spec16 w) :=
  match w with
  | ⟨0, _⟩ => (Vin16_v3 m (outsAll m h) c).symm
  | ⟨1, _⟩ => (Vin16_out m (outsAll m h) c).symm

/-- At the exit each array holds what the pipeline leaves. -/
theorem hF16 (c : Dev nD) (w : Fin 2) : (pdats m h 16 c).arrAt w (Pipeline.pin (pcfgs (F := F)) (admAll m h) 16).N = Vout16 m (outsAll m h) c (Pipeline.arrRef spec16 w) :=
  match w with
  | ⟨0, _⟩ => ((pdats m h 16 c).arrAt_in 0 rfl _).trans (Vout16_v3 m (outsAll m h) c).symm
  | ⟨1, _⟩ => ((Vout16_out m (outsAll m h) c).trans (outsAll_16 m h c)).symm

theorem hrest16 (c : Dev nD) : ∀ b, b ∉ Finset.univ.image (Pipeline.arrRef spec16) → Vout16 m (outsAll m h) c b = Vin16 m (outsAll m h) c b :=
  fun b hb => Vout16_of m (outsAll m h) c b (fun hm => hb (by
    rw [List.mem_singleton] at hm; subst hm
    exact Finset.mem_image.mpr ⟨1, Finset.mem_univ _, rfl⟩))

set_option backward.isDefEq.respectTransparency.types false in
def reg16 : Pipeline.RegionSeg (pcfgs (F := F)) (admAll m h) (pdats m h) () defs₀ 𝒱₀ L lv 16 where
  win := winFacts16.to₀
  block_pos := block_pos16
  stage_whole := stage_whole16
  K := PEmpty
  osem k := k.elim
  ho := Pipeline.OwnSemFacts.none _
  hbody c := (Rg16.body_obligation (Vent m) (tbl16 m) h.h16 c).loose
  hwaits := Pipeline.hwaits_of_owed_zero _ _ _ _ L lv 16 fun _ _ => rfl
  pre c := iprop(StableHlo.held (c : Thread nD τ) (Pipeline.ucRefs τ sig) (Vin16 m (outsAll m h) c) ∗ Rst c)
  post c := iprop(StableHlo.held (c : Thread nD τ) (Pipeline.ucRefs τ sig) (Vout16 m (outsAll m h) c) ∗ Rst c)
  X c := iprop(∃ r, prngReg c r)
  Y c := iprop((∃ r, prngReg c r) ∗ Pipeline.prefHeld pre16 c (fun _ => fullShare) (tbl16 m))
  Z c := Pipeline.unscopedRestP (Ix := Unit) (Name := ℕ) (U := UR sig nD τ) (Lvl := ℕ) pre16 spec16 c (fun b => Vin16 m (outsAll m h) c b)
  hentry c := by
    rw [Pipeline.ownSems0_none]
    have hsplit0 := Pipeline.arrays_of_unscopedBufs (p := 16) (pcfgs (F := F)) (admAll m h) (pdats m h) winFacts16 arr_whole16 c
      ((pdats m h 16 c).share_full fun _ => rfl) (fun b => Vin16 m (outsAll m h) c b) (hA16 m h c)
    rw [Pipeline.unscopedBufs_held] at hsplit0
    have hsplit : (StableHlo.held (c : Thread nD τ) (Pipeline.ucRefs τ sig) (Vin16 m (outsAll m h) c) : sProp 𝕄)
        ⊢ iprop((pdats m h 16 c).arrays ((pdats m h 16 c).arrAt · 0) ∗ Pipeline.unscopedRest spec16 c (fun b => Vin16 m (outsAll m h) c b)) := hsplit0
    rw [Pipeline.unscopedRest_split preFacts16 c,
      show (fun k => Vin16 m (outsAll m h) c (pre16.ref k)) = tbl16 m from funext fun k => Vin16_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 16 c).Φ 0 = iprop(Pipeline.ΦA spec16 c ∗ Pipeline.prefHeld pre16 c (fun _ => fullShare) (tbl16 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 16 c).Φ (Fin.last _) = iprop(Pipeline.ΦA spec16 c ∗ Pipeline.prefHeld pre16 c (fun _ => fullShare) (tbl16 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 16) (pcfgs (F := F)) (admAll m h) (Ix := Unit) (Name := ℕ) (U := UR sig nD τ) (Lvl := ℕ)
      winFacts16 arr_whole16 c (pdats m h) ((pdats m h 16 c).share_full fun _ => rfl)
      (fun b => Vin16 m (outsAll m h) c b) (fun b => Vout16 m (outsAll m h) c b) ((pdats m h 16 c).arrAt · (Pipeline.pin (pcfgs (F := F)) (admAll m h) 16).N) (hF16 m h c) (hrest16 m h c)
    rw [Pipeline.unscopedBufs_held] at hjoin0
    have hjoin : (iprop((pdats m h 16 c).arrays ((pdats m h 16 c).arrAt · (Pipeline.pin (pcfgs (F := F)) (admAll m h) 16).N) ∗ Pipeline.unscopedRest spec16 c (fun b => Vin16 m (outsAll m h) c b)) : sProp 𝕄)
        ⊢ StableHlo.held (c : Thread nD τ) (Pipeline.ucRefs τ sig) (Vout16 m (outsAll m h) c) := hjoin0
    rw [Pipeline.unscopedRest_split preFacts16 c,
      show (fun k => Vin16 m (outsAll m h) c (pre16.ref k)) = tbl16 m from funext fun k => Vin16_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R17.Link.lean ====
/- Region 17's table satisfies the pipeline's side condition: its words are pooling indices, which the precondition
   bounds by 262144, the last row of the padded feature array. -/
/- Region 17 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 17's table is one of the pooling indices, so at most 262144. -/
theorem tbl17_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl17 m 0 x : BitVec 32).toNat ≤ 262144 := by
  show (StableHlo.after hostOps17 (V0 m (0 : Dev nD)) (Proc.devRef .tc main_v73) x : BitVec 32).toNat ≤ 262144
  after_results
  exact slice_cast_all (fun w : BitVec 32 => w.toNat ≤ 262144) _ _ _ _ (fun k => Cert.PreDecode.toNat_le_of_toInt _ (hb k)) x

/-- The pipeline's side condition at region 17's table: the feature window's block, at the row the table names,
    lies inside the padded feature array (and a transfer of 32-bit elements moves whole words). -/
theorem okT17 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok17 (F := F) (tbl17 m) := by
  intro i
  exact ⟨block_inside _ _ (tbl17_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 17's proof data are what the region finds: the padded feature array and the (not yet
    written) output array hold at its entry what they held after the first host stretch. -/
theorem hA17 (c : Dev nD) (w : Fin 2) : (pdats m h 17 c).A w = Vin17 m (outsAll m h) c (Pipeline.arrRef spec17 w) :=
  match w with
  | ⟨0, _⟩ => (Vin17_v3 m (outsAll m h) c).symm
  | ⟨1, _⟩ => (Vin17_out m (outsAll m h) c).symm

/-- At the exit each array holds what the pipeline leaves. -/
theorem hF17 (c : Dev nD) (w : Fin 2) : (pdats m h 17 c).arrAt w (Pipeline.pin (pcfgs (F := F)) (admAll m h) 17).N = Vout17 m (outsAll m h) c (Pipeline.arrRef spec17 w) :=
  match w with
  | ⟨0, _⟩ => ((pdats m h 17 c).arrAt_in 0 rfl _).trans (Vout17_v3 m (outsAll m h) c).symm
  | ⟨1, _⟩ => ((Vout17_out m (outsAll m h) c).trans (outsAll_17 m h c)).symm

theorem hrest17 (c : Dev nD) : ∀ b, b ∉ Finset.univ.image (Pipeline.arrRef spec17) → Vout17 m (outsAll m h) c b = Vin17 m (outsAll m h) c b :=
  fun b hb => Vout17_of m (outsAll m h) c b (fun hm => hb (by
    rw [List.mem_singleton] at hm; subst hm
    exact Finset.mem_image.mpr ⟨1, Finset.mem_univ _, rfl⟩))

set_option backward.isDefEq.respectTransparency.types false in
def reg17 : Pipeline.RegionSeg (pcfgs (F := F)) (admAll m h) (pdats m h) () defs₀ 𝒱₀ L lv 17 where
  win := winFacts17.to₀
  block_pos := block_pos17
  stage_whole := stage_whole17
  K := PEmpty
  osem k := k.elim
  ho := Pipeline.OwnSemFacts.none _
  hbody c := (Rg17.body_obligation (Vent m) (tbl17 m) h.h17 c).loose
  hwaits := Pipeline.hwaits_of_owed_zero _ _ _ _ L lv 17 fun _ _ => rfl
  pre c := iprop(StableHlo.held (c : Thread nD τ) (Pipeline.ucRefs τ sig) (Vin17 m (outsAll m h) c) ∗ Rst c)
  post c := iprop(StableHlo.held (c : Thread nD τ) (Pipeline.ucRefs τ sig) (Vout17 m (outsAll m h) c) ∗ Rst c)
  X c := iprop(∃ r, prngReg c r)
  Y c := iprop((∃ r, prngReg c r) ∗ Pipeline.prefHeld pre17 c (fun _ => fullShare) (tbl17 m))
  Z c := Pipeline.unscopedRestP (Ix := Unit) (Name := ℕ) (U := UR sig nD τ) (Lvl := ℕ) pre17 spec17 c (fun b => Vin17 m (outsAll m h) c b)
  hentry c := by
    rw [Pipeline.ownSems0_none]
    have hsplit0 := Pipeline.arrays_of_unscopedBufs (p := 17) (pcfgs (F := F)) (admAll m h) (pdats m h) winFacts17 arr_whole17 c
      ((pdats m h 17 c).share_full fun _ => rfl) (fun b => Vin17 m (outsAll m h) c b) (hA17 m h c)
    rw [Pipeline.unscopedBufs_held] at hsplit0
    have hsplit : (StableHlo.held (c : Thread nD τ) (Pipeline.ucRefs τ sig) (Vin17 m (outsAll m h) c) : sProp 𝕄)
        ⊢ iprop((pdats m h 17 c).arrays ((pdats m h 17 c).arrAt · 0) ∗ Pipeline.unscopedRest spec17 c (fun b => Vin17 m (outsAll m h) c b)) := hsplit0
    rw [Pipeline.unscopedRest_split preFacts17 c,
      show (fun k => Vin17 m (outsAll m h) c (pre17.ref k)) = tbl17 m from funext fun k => Vin17_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 17 c).Φ 0 = iprop(Pipeline.ΦA spec17 c ∗ Pipeline.prefHeld pre17 c (fun _ => fullShare) (tbl17 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 17 c).Φ (Fin.last _) = iprop(Pipeline.ΦA spec17 c ∗ Pipeline.prefHeld pre17 c (fun _ => fullShare) (tbl17 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 17) (pcfgs (F := F)) (admAll m h) (Ix := Unit) (Name := ℕ) (U := UR sig nD τ) (Lvl := ℕ)
      winFacts17 arr_whole17 c (pdats m h) ((pdats m h 17 c).share_full fun _ => rfl)
      (fun b => Vin17 m (outsAll m h) c b) (fun b => Vout17 m (outsAll m h) c b) ((pdats m h 17 c).arrAt · (Pipeline.pin (pcfgs (F := F)) (admAll m h) 17).N) (hF17 m h c) (hrest17 m h c)
    rw [Pipeline.unscopedBufs_held] at hjoin0
    have hjoin : (iprop((pdats m h 17 c).arrays ((pdats m h 17 c).arrAt · (Pipeline.pin (pcfgs (F := F)) (admAll m h) 17).N) ∗ Pipeline.unscopedRest spec17 c (fun b => Vin17 m (outsAll m h) c b)) : sProp 𝕄)
        ⊢ StableHlo.held (c : Thread nD τ) (Pipeline.ucRefs τ sig) (Vout17 m (outsAll m h) c) := hjoin0
    rw [Pipeline.unscopedRest_split preFacts17 c,
      show (fun k => Vin17 m (outsAll m h) c (pre17.ref k)) = tbl17 m from funext fun k => Vin17_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R18.Link.lean ====
/- Region 18's table satisfies the pipeline's side condition: its words are pooling indices, which the precondition
   bounds by 262144, the last row of the padded feature array. -/
/- Region 18 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 18's table is one of the pooling indices, so at most 262144. -/
theorem tbl18_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl18 m 0 x : BitVec 32).toNat ≤ 262144 := by
  show (StableHlo.after hostOps18 (V0 m (0 : Dev nD)) (Proc.devRef .tc main_v77) x : BitVec 32).toNat ≤ 262144
  after_results
  exact slice_cast_all (fun w : BitVec 32 => w.toNat ≤ 262144) _ _ _ _ (fun k => Cert.PreDecode.toNat_le_of_toInt _ (hb k)) x

/-- The pipeline's side condition at region 18's table: the feature window's block, at the row the table names,
    lies inside the padded feature array (and a transfer of 32-bit elements moves whole words). -/
theorem okT18 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok18 (F := F) (tbl18 m) := by
  intro i
  exact ⟨block_inside _ _ (tbl18_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 18's proof data are what the region finds: the padded feature array and the (not yet
    written) output array hold at its entry what they held after the first host stretch. -/
theorem hA18 (c : Dev nD) (w : Fin 2) : (pdats m h 18 c).A w = Vin18 m (outsAll m h) c (Pipeline.arrRef spec18 w) :=
  match w with
  | ⟨0, _⟩ => (Vin18_v3 m (outsAll m h) c).symm
  | ⟨1, _⟩ => (Vin18_out m (outsAll m h) c).symm

/-- At the exit each array holds what the pipeline leaves. -/
theorem hF18 (c : Dev nD) (w : Fin 2) : (pdats m h 18 c).arrAt w (Pipeline.pin (pcfgs (F := F)) (admAll m h) 18).N = Vout18 m (outsAll m h) c (Pipeline.arrRef spec18 w) :=
  match w with
  | ⟨0, _⟩ => ((pdats m h 18 c).arrAt_in 0 rfl _).trans (Vout18_v3 m (outsAll m h) c).symm
  | ⟨1, _⟩ => ((Vout18_out m (outsAll m h) c).trans (outsAll_18 m h c)).symm

theorem hrest18 (c : Dev nD) : ∀ b, b ∉ Finset.univ.image (Pipeline.arrRef spec18) → Vout18 m (outsAll m h) c b = Vin18 m (outsAll m h) c b :=
  fun b hb => Vout18_of m (outsAll m h) c b (fun hm => hb (by
    rw [List.mem_singleton] at hm; subst hm
    exact Finset.mem_image.mpr ⟨1, Finset.mem_univ _, rfl⟩))

set_option backward.isDefEq.respectTransparency.types false in
def reg18 : Pipeline.RegionSeg (pcfgs (F := F)) (admAll m h) (pdats m h) () defs₀ 𝒱₀ L lv 18 where
  win := winFacts18.to₀
  block_pos := block_pos18
  stage_whole := stage_whole18
  K := PEmpty
  osem k := k.elim
  ho := Pipeline.OwnSemFacts.none _
  hbody c := (Rg18.body_obligation (Vent m) (tbl18 m) h.h18 c).loose
  hwaits := Pipeline.hwaits_of_owed_zero _ _ _ _ L lv 18 fun _ _ => rfl
  pre c := iprop(StableHlo.held (c : Thread nD τ) (Pipeline.ucRefs τ sig) (Vin18 m (outsAll m h) c) ∗ Rst c)
  post c := iprop(StableHlo.held (c : Thread nD τ) (Pipeline.ucRefs τ sig) (Vout18 m (outsAll m h) c) ∗ Rst c)
  X c := iprop(∃ r, prngReg c r)
  Y c := iprop((∃ r, prngReg c r) ∗ Pipeline.prefHeld pre18 c (fun _ => fullShare) (tbl18 m))
  Z c := Pipeline.unscopedRestP (Ix := Unit) (Name := ℕ) (U := UR sig nD τ) (Lvl := ℕ) pre18 spec18 c (fun b => Vin18 m (outsAll m h) c b)
  hentry c := by
    rw [Pipeline.ownSems0_none]
    have hsplit0 := Pipeline.arrays_of_unscopedBufs (p := 18) (pcfgs (F := F)) (admAll m h) (pdats m h) winFacts18 arr_whole18 c
      ((pdats m h 18 c).share_full fun _ => rfl) (fun b => Vin18 m (outsAll m h) c b) (hA18 m h c)
    rw [Pipeline.unscopedBufs_held] at hsplit0
    have hsplit : (StableHlo.held (c : Thread nD τ) (Pipeline.ucRefs τ sig) (Vin18 m (outsAll m h) c) : sProp 𝕄)
        ⊢ iprop((pdats m h 18 c).arrays ((pdats m h 18 c).arrAt · 0) ∗ Pipeline.unscopedRest spec18 c (fun b => Vin18 m (outsAll m h) c b)) := hsplit0
    rw [Pipeline.unscopedRest_split preFacts18 c,
      show (fun k => Vin18 m (outsAll m h) c (pre18.ref k)) = tbl18 m from funext fun k => Vin18_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 18 c).Φ 0 = iprop(Pipeline.ΦA spec18 c ∗ Pipeline.prefHeld pre18 c (fun _ => fullShare) (tbl18 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 18 c).Φ (Fin.last _) = iprop(Pipeline.ΦA spec18 c ∗ Pipeline.prefHeld pre18 c (fun _ => fullShare) (tbl18 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 18) (pcfgs (F := F)) (admAll m h) (Ix := Unit) (Name := ℕ) (U := UR sig nD τ) (Lvl := ℕ)
      winFacts18 arr_whole18 c (pdats m h) ((pdats m h 18 c).share_full fun _ => rfl)
      (fun b => Vin18 m (outsAll m h) c b) (fun b => Vout18 m (outsAll m h) c b) ((pdats m h 18 c).arrAt · (Pipeline.pin (pcfgs (F := F)) (admAll m h) 18).N) (hF18 m h c) (hrest18 m h c)
    rw [Pipeline.unscopedBufs_held] at hjoin0
    have hjoin : (iprop((pdats m h 18 c).arrays ((pdats m h 18 c).arrAt · (Pipeline.pin (pcfgs (F := F)) (admAll m h) 18).N) ∗ Pipeline.unscopedRest spec18 c (fun b => Vin18 m (outsAll m h) c b)) : sProp 𝕄)
        ⊢ StableHlo.held (c : Thread nD τ) (Pipeline.ucRefs τ sig) (Vout18 m (outsAll m h) c) := hjoin0
    rw [Pipeline.unscopedRest_split preFacts18 c,
      show (fun k => Vin18 m (outsAll m h) c (pre18.ref k)) = tbl18 m from funext fun k => Vin18_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R19.Link.lean ====
/- Region 19's table satisfies the pipeline's side condition: its words are pooling indices, which the precondition
   bounds by 262144, the last row of the padded feature array. -/
/- Region 19 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 19's table is one of the pooling indices, so at most 262144. -/
theorem tbl19_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl19 m 0 x : BitVec 32).toNat ≤ 262144 := by
  show (StableHlo.after hostOps19 (V0 m (0 : Dev nD)) (Proc.devRef .tc main_v81) x : BitVec 32).toNat ≤ 262144
  after_results
  exact slice_cast_all (fun w : BitVec 32 => w.toNat ≤ 262144) _ _ _ _ (fun k => Cert.PreDecode.toNat_le_of_toInt _ (hb k)) x

/-- The pipeline's side condition at region 19's table: the feature window's block, at the row the table names,
    lies inside the padded feature array (and a transfer of 32-bit elements moves whole words). -/
theorem okT19 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok19 (F := F) (tbl19 m) := by
  intro i
  exact ⟨block_inside _ _ (tbl19_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 19's proof data are what the region finds: the padded feature array and the (not yet
    written) output array hold at its entry what they held after the first host stretch. -/
theorem hA19 (c : Dev nD) (w : Fin 2) : (pdats m h 19 c).A w = Vin19 m (outsAll m h) c (Pipeline.arrRef spec19 w) :=
  match w with
  | ⟨0, _⟩ => (Vin19_v3 m (outsAll m h) c).symm
  | ⟨1, _⟩ => (Vin19_out m (outsAll m h) c).symm

/-- At the exit each array holds what the pipeline leaves. -/
theorem hF19 (c : Dev nD) (w : Fin 2) : (pdats m h 19 c).arrAt w (Pipeline.pin (pcfgs (F := F)) (admAll m h) 19).N = Vout19 m (outsAll m h) c (Pipeline.arrRef spec19 w) :=
  match w with
  | ⟨0, _⟩ => ((pdats m h 19 c).arrAt_in 0 rfl _).trans (Vout19_v3 m (outsAll m h) c).symm
  | ⟨1, _⟩ => ((Vout19_out m (outsAll m h) c).trans (outsAll_19 m h c)).symm

theorem hrest19 (c : Dev nD) : ∀ b, b ∉ Finset.univ.image (Pipeline.arrRef spec19) → Vout19 m (outsAll m h) c b = Vin19 m (outsAll m h) c b :=
  fun b hb => Vout19_of m (outsAll m h) c b (fun hm => hb (by
    rw [List.mem_singleton] at hm; subst hm
    exact Finset.mem_image.mpr ⟨1, Finset.mem_univ _, rfl⟩))

set_option backward.isDefEq.respectTransparency.types false in
def reg19 : Pipeline.RegionSeg (pcfgs (F := F)) (admAll m h) (pdats m h) () defs₀ 𝒱₀ L lv 19 where
  win := winFacts19.to₀
  block_pos := block_pos19
  stage_whole := stage_whole19
  K := PEmpty
  osem k := k.elim
  ho := Pipeline.OwnSemFacts.none _
  hbody c := (Rg19.body_obligation (Vent m) (tbl19 m) h.h19 c).loose
  hwaits := Pipeline.hwaits_of_owed_zero _ _ _ _ L lv 19 fun _ _ => rfl
  pre c := iprop(StableHlo.held (c : Thread nD τ) (Pipeline.ucRefs τ sig) (Vin19 m (outsAll m h) c) ∗ Rst c)
  post c := iprop(StableHlo.held (c : Thread nD τ) (Pipeline.ucRefs τ sig) (Vout19 m (outsAll m h) c) ∗ Rst c)
  X c := iprop(∃ r, prngReg c r)
  Y c := iprop((∃ r, prngReg c r) ∗ Pipeline.prefHeld pre19 c (fun _ => fullShare) (tbl19 m))
  Z c := Pipeline.unscopedRestP (Ix := Unit) (Name := ℕ) (U := UR sig nD τ) (Lvl := ℕ) pre19 spec19 c (fun b => Vin19 m (outsAll m h) c b)
  hentry c := by
    rw [Pipeline.ownSems0_none]
    have hsplit0 := Pipeline.arrays_of_unscopedBufs (p := 19) (pcfgs (F := F)) (admAll m h) (pdats m h) winFacts19 arr_whole19 c
      ((pdats m h 19 c).share_full fun _ => rfl) (fun b => Vin19 m (outsAll m h) c b) (hA19 m h c)
    rw [Pipeline.unscopedBufs_held] at hsplit0
    have hsplit : (StableHlo.held (c : Thread nD τ) (Pipeline.ucRefs τ sig) (Vin19 m (outsAll m h) c) : sProp 𝕄)
        ⊢ iprop((pdats m h 19 c).arrays ((pdats m h 19 c).arrAt · 0) ∗ Pipeline.unscopedRest spec19 c (fun b => Vin19 m (outsAll m h) c b)) := hsplit0
    rw [Pipeline.unscopedRest_split preFacts19 c,
      show (fun k => Vin19 m (outsAll m h) c (pre19.ref k)) = tbl19 m from funext fun k => Vin19_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 19 c).Φ 0 = iprop(Pipeline.ΦA spec19 c ∗ Pipeline.prefHeld pre19 c (fun _ => fullShare) (tbl19 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 19 c).Φ (Fin.last _) = iprop(Pipeline.ΦA spec19 c ∗ Pipeline.prefHeld pre19 c (fun _ => fullShare) (tbl19 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 19) (pcfgs (F := F)) (admAll m h) (Ix := Unit) (Name := ℕ) (U := UR sig nD τ) (Lvl := ℕ)
      winFacts19 arr_whole19 c (pdats m h) ((pdats m h 19 c).share_full fun _ => rfl)
      (fun b => Vin19 m (outsAll m h) c b) (fun b => Vout19 m (outsAll m h) c b) ((pdats m h 19 c).arrAt · (Pipeline.pin (pcfgs (F := F)) (admAll m h) 19).N) (hF19 m h c) (hrest19 m h c)
    rw [Pipeline.unscopedBufs_held] at hjoin0
    have hjoin : (iprop((pdats m h 19 c).arrays ((pdats m h 19 c).arrAt · (Pipeline.pin (pcfgs (F := F)) (admAll m h) 19).N) ∗ Pipeline.unscopedRest spec19 c (fun b => Vin19 m (outsAll m h) c b)) : sProp 𝕄)
        ⊢ StableHlo.held (c : Thread nD τ) (Pipeline.ucRefs τ sig) (Vout19 m (outsAll m h) c) := hjoin0
    rw [Pipeline.unscopedRest_split preFacts19 c,
      show (fun k => Vin19 m (outsAll m h) c (pre19.ref k)) = tbl19 m from funext fun k => Vin19_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R20.Link.lean ====
/- Region 20's table satisfies the pipeline's side condition: its words are pooling indices, which the precondition
   bounds by 262144, the last row of the padded feature array. -/
/- Region 20 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 20's table is one of the pooling indices, so at most 262144. -/
theorem tbl20_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl20 m 0 x : BitVec 32).toNat ≤ 262144 := by
  show (StableHlo.after hostOps20 (V0 m (0 : Dev nD)) (Proc.devRef .tc main_v85) x : BitVec 32).toNat ≤ 262144
  after_results
  exact slice_cast_all (fun w : BitVec 32 => w.toNat ≤ 262144) _ _ _ _ (fun k => Cert.PreDecode.toNat_le_of_toInt _ (hb k)) x

/-- The pipeline's side condition at region 20's table: the feature window's block, at the row the table names,
    lies inside the padded feature array (and a transfer of 32-bit elements moves whole words). -/
theorem okT20 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok20 (F := F) (tbl20 m) := by
  intro i
  exact ⟨block_inside _ _ (tbl20_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 20's proof data are what the region finds: the padded feature array and the (not yet
    written) output array hold at its entry what they held after the first host stretch. -/
theorem hA20 (c : Dev nD) (w : Fin 2) : (pdats m h 20 c).A w = Vin20 m (outsAll m h) c (Pipeline.arrRef spec20 w) :=
  match w with
  | ⟨0, _⟩ => (Vin20_v3 m (outsAll m h) c).symm
  | ⟨1, _⟩ => (Vin20_out m (outsAll m h) c).symm

/-- At the exit each array holds what the pipeline leaves. -/
theorem hF20 (c : Dev nD) (w : Fin 2) : (pdats m h 20 c).arrAt w (Pipeline.pin (pcfgs (F := F)) (admAll m h) 20).N = Vout20 m (outsAll m h) c (Pipeline.arrRef spec20 w) :=
  match w with
  | ⟨0, _⟩ => ((pdats m h 20 c).arrAt_in 0 rfl _).trans (Vout20_v3 m (outsAll m h) c).symm
  | ⟨1, _⟩ => ((Vout20_out m (outsAll m h) c).trans (outsAll_20 m h c)).symm

theorem hrest20 (c : Dev nD) : ∀ b, b ∉ Finset.univ.image (Pipeline.arrRef spec20) → Vout20 m (outsAll m h) c b = Vin20 m (outsAll m h) c b :=
  fun b hb => Vout20_of m (outsAll m h) c b (fun hm => hb (by
    rw [List.mem_singleton] at hm; subst hm
    exact Finset.mem_image.mpr ⟨1, Finset.mem_univ _, rfl⟩))

set_option backward.isDefEq.respectTransparency.types false in
def reg20 : Pipeline.RegionSeg (pcfgs (F := F)) (admAll m h) (pdats m h) () defs₀ 𝒱₀ L lv 20 where
  win := winFacts20.to₀
  block_pos := block_pos20
  stage_whole := stage_whole20
  K := PEmpty
  osem k := k.elim
  ho := Pipeline.OwnSemFacts.none _
  hbody c := (Rg20.body_obligation (Vent m) (tbl20 m) h.h20 c).loose
  hwaits := Pipeline.hwaits_of_owed_zero _ _ _ _ L lv 20 fun _ _ => rfl
  pre c := iprop(StableHlo.held (c : Thread nD τ) (Pipeline.ucRefs τ sig) (Vin20 m (outsAll m h) c) ∗ Rst c)
  post c := iprop(StableHlo.held (c : Thread nD τ) (Pipeline.ucRefs τ sig) (Vout20 m (outsAll m h) c) ∗ Rst c)
  X c := iprop(∃ r, prngReg c r)
  Y c := iprop((∃ r, prngReg c r) ∗ Pipeline.prefHeld pre20 c (fun _ => fullShare) (tbl20 m))
  Z c := Pipeline.unscopedRestP (Ix := Unit) (Name := ℕ) (U := UR sig nD τ) (Lvl := ℕ) pre20 spec20 c (fun b => Vin20 m (outsAll m h) c b)
  hentry c := by
    rw [Pipeline.ownSems0_none]
    have hsplit0 := Pipeline.arrays_of_unscopedBufs (p := 20) (pcfgs (F := F)) (admAll m h) (pdats m h) winFacts20 arr_whole20 c
      ((pdats m h 20 c).share_full fun _ => rfl) (fun b => Vin20 m (outsAll m h) c b) (hA20 m h c)
    rw [Pipeline.unscopedBufs_held] at hsplit0
    have hsplit : (StableHlo.held (c : Thread nD τ) (Pipeline.ucRefs τ sig) (Vin20 m (outsAll m h) c) : sProp 𝕄)
        ⊢ iprop((pdats m h 20 c).arrays ((pdats m h 20 c).arrAt · 0) ∗ Pipeline.unscopedRest spec20 c (fun b => Vin20 m (outsAll m h) c b)) := hsplit0
    rw [Pipeline.unscopedRest_split preFacts20 c,
      show (fun k => Vin20 m (outsAll m h) c (pre20.ref k)) = tbl20 m from funext fun k => Vin20_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 20 c).Φ 0 = iprop(Pipeline.ΦA spec20 c ∗ Pipeline.prefHeld pre20 c (fun _ => fullShare) (tbl20 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 20 c).Φ (Fin.last _) = iprop(Pipeline.ΦA spec20 c ∗ Pipeline.prefHeld pre20 c (fun _ => fullShare) (tbl20 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 20) (pcfgs (F := F)) (admAll m h) (Ix := Unit) (Name := ℕ) (U := UR sig nD τ) (Lvl := ℕ)
      winFacts20 arr_whole20 c (pdats m h) ((pdats m h 20 c).share_full fun _ => rfl)
      (fun b => Vin20 m (outsAll m h) c b) (fun b => Vout20 m (outsAll m h) c b) ((pdats m h 20 c).arrAt · (Pipeline.pin (pcfgs (F := F)) (admAll m h) 20).N) (hF20 m h c) (hrest20 m h c)
    rw [Pipeline.unscopedBufs_held] at hjoin0
    have hjoin : (iprop((pdats m h 20 c).arrays ((pdats m h 20 c).arrAt · (Pipeline.pin (pcfgs (F := F)) (admAll m h) 20).N) ∗ Pipeline.unscopedRest spec20 c (fun b => Vin20 m (outsAll m h) c b)) : sProp 𝕄)
        ⊢ StableHlo.held (c : Thread nD τ) (Pipeline.ucRefs τ sig) (Vout20 m (outsAll m h) c) := hjoin0
    rw [Pipeline.unscopedRest_split preFacts20 c,
      show (fun k => Vin20 m (outsAll m h) c (pre20.ref k)) = tbl20 m from funext fun k => Vin20_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R21.Link.lean ====
/- Region 21's table satisfies the pipeline's side condition: its words are pooling indices, which the precondition
   bounds by 262144, the last row of the padded feature array. -/
/- Region 21 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 21's table is one of the pooling indices, so at most 262144. -/
theorem tbl21_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl21 m 0 x : BitVec 32).toNat ≤ 262144 := by
  show (StableHlo.after hostOps21 (V0 m (0 : Dev nD)) (Proc.devRef .tc main_v89) x : BitVec 32).toNat ≤ 262144
  after_results
  exact slice_cast_all (fun w : BitVec 32 => w.toNat ≤ 262144) _ _ _ _ (fun k => Cert.PreDecode.toNat_le_of_toInt _ (hb k)) x

/-- The pipeline's side condition at region 21's table: the feature window's block, at the row the table names,
    lies inside the padded feature array (and a transfer of 32-bit elements moves whole words). -/
theorem okT21 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok21 (F := F) (tbl21 m) := by
  intro i
  exact ⟨block_inside _ _ (tbl21_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 21's proof data are what the region finds: the padded feature array and the (not yet
    written) output array hold at its entry what they held after the first host stretch. -/
theorem hA21 (c : Dev nD) (w : Fin 2) : (pdats m h 21 c).A w = Vin21 m (outsAll m h) c (Pipeline.arrRef spec21 w) :=
  match w with
  | ⟨0, _⟩ => (Vin21_v3 m (outsAll m h) c).symm
  | ⟨1, _⟩ => (Vin21_out m (outsAll m h) c).symm

/-- At the exit each array holds what the pipeline leaves. -/
theorem hF21 (c : Dev nD) (w : Fin 2) : (pdats m h 21 c).arrAt w (Pipeline.pin (pcfgs (F := F)) (admAll m h) 21).N = Vout21 m (outsAll m h) c (Pipeline.arrRef spec21 w) :=
  match w with
  | ⟨0, _⟩ => ((pdats m h 21 c).arrAt_in 0 rfl _).trans (Vout21_v3 m (outsAll m h) c).symm
  | ⟨1, _⟩ => ((Vout21_out m (outsAll m h) c).trans (outsAll_21 m h c)).symm

theorem hrest21 (c : Dev nD) : ∀ b, b ∉ Finset.univ.image (Pipeline.arrRef spec21) → Vout21 m (outsAll m h) c b = Vin21 m (outsAll m h) c b :=
  fun b hb => Vout21_of m (outsAll m h) c b (fun hm => hb (by
    rw [List.mem_singleton] at hm; subst hm
    exact Finset.mem_image.mpr ⟨1, Finset.mem_univ _, rfl⟩))

set_option backward.isDefEq.respectTransparency.types false in
def reg21 : Pipeline.RegionSeg (pcfgs (F := F)) (admAll m h) (pdats m h) () defs₀ 𝒱₀ L lv 21 where
  win := winFacts21.to₀
  block_pos := block_pos21
  stage_whole := stage_whole21
  K := PEmpty
  osem k := k.elim
  ho := Pipeline.OwnSemFacts.none _
  hbody c := (Rg21.body_obligation (Vent m) (tbl21 m) h.h21 c).loose
  hwaits := Pipeline.hwaits_of_owed_zero _ _ _ _ L lv 21 fun _ _ => rfl
  pre c := iprop(StableHlo.held (c : Thread nD τ) (Pipeline.ucRefs τ sig) (Vin21 m (outsAll m h) c) ∗ Rst c)
  post c := iprop(StableHlo.held (c : Thread nD τ) (Pipeline.ucRefs τ sig) (Vout21 m (outsAll m h) c) ∗ Rst c)
  X c := iprop(∃ r, prngReg c r)
  Y c := iprop((∃ r, prngReg c r) ∗ Pipeline.prefHeld pre21 c (fun _ => fullShare) (tbl21 m))
  Z c := Pipeline.unscopedRestP (Ix := Unit) (Name := ℕ) (U := UR sig nD τ) (Lvl := ℕ) pre21 spec21 c (fun b => Vin21 m (outsAll m h) c b)
  hentry c := by
    rw [Pipeline.ownSems0_none]
    have hsplit0 := Pipeline.arrays_of_unscopedBufs (p := 21) (pcfgs (F := F)) (admAll m h) (pdats m h) winFacts21 arr_whole21 c
      ((pdats m h 21 c).share_full fun _ => rfl) (fun b => Vin21 m (outsAll m h) c b) (hA21 m h c)
    rw [Pipeline.unscopedBufs_held] at hsplit0
    have hsplit : (StableHlo.held (c : Thread nD τ) (Pipeline.ucRefs τ sig) (Vin21 m (outsAll m h) c) : sProp 𝕄)
        ⊢ iprop((pdats m h 21 c).arrays ((pdats m h 21 c).arrAt · 0) ∗ Pipeline.unscopedRest spec21 c (fun b => Vin21 m (outsAll m h) c b)) := hsplit0
    rw [Pipeline.unscopedRest_split preFacts21 c,
      show (fun k => Vin21 m (outsAll m h) c (pre21.ref k)) = tbl21 m from funext fun k => Vin21_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 21 c).Φ 0 = iprop(Pipeline.ΦA spec21 c ∗ Pipeline.prefHeld pre21 c (fun _ => fullShare) (tbl21 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 21 c).Φ (Fin.last _) = iprop(Pipeline.ΦA spec21 c ∗ Pipeline.prefHeld pre21 c (fun _ => fullShare) (tbl21 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 21) (pcfgs (F := F)) (admAll m h) (Ix := Unit) (Name := ℕ) (U := UR sig nD τ) (Lvl := ℕ)
      winFacts21 arr_whole21 c (pdats m h) ((pdats m h 21 c).share_full fun _ => rfl)
      (fun b => Vin21 m (outsAll m h) c b) (fun b => Vout21 m (outsAll m h) c b) ((pdats m h 21 c).arrAt · (Pipeline.pin (pcfgs (F := F)) (admAll m h) 21).N) (hF21 m h c) (hrest21 m h c)
    rw [Pipeline.unscopedBufs_held] at hjoin0
    have hjoin : (iprop((pdats m h 21 c).arrays ((pdats m h 21 c).arrAt · (Pipeline.pin (pcfgs (F := F)) (admAll m h) 21).N) ∗ Pipeline.unscopedRest spec21 c (fun b => Vin21 m (outsAll m h) c b)) : sProp 𝕄)
        ⊢ StableHlo.held (c : Thread nD τ) (Pipeline.ucRefs τ sig) (Vout21 m (outsAll m h) c) := hjoin0
    rw [Pipeline.unscopedRest_split preFacts21 c,
      show (fun k => Vin21 m (outsAll m h) c (pre21.ref k)) = tbl21 m from funext fun k => Vin21_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R22.Link.lean ====
/- Region 22's table satisfies the pipeline's side condition: its words are pooling indices, which the precondition
   bounds by 262144, the last row of the padded feature array. -/
/- Region 22 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 22's table is one of the pooling indices, so at most 262144. -/
theorem tbl22_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl22 m 0 x : BitVec 32).toNat ≤ 262144 := by
  show (StableHlo.after hostOps22 (V0 m (0 : Dev nD)) (Proc.devRef .tc main_v93) x : BitVec 32).toNat ≤ 262144
  after_results
  exact slice_cast_all (fun w : BitVec 32 => w.toNat ≤ 262144) _ _ _ _ (fun k => Cert.PreDecode.toNat_le_of_toInt _ (hb k)) x

/-- The pipeline's side condition at region 22's table: the feature window's block, at the row the table names,
    lies inside the padded feature array (and a transfer of 32-bit elements moves whole words). -/
theorem okT22 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok22 (F := F) (tbl22 m) := by
  intro i
  exact ⟨block_inside _ _ (tbl22_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 22's proof data are what the region finds: the padded feature array and the (not yet
    written) output array hold at its entry what they held after the first host stretch. -/
theorem hA22 (c : Dev nD) (w : Fin 2) : (pdats m h 22 c).A w = Vin22 m (outsAll m h) c (Pipeline.arrRef spec22 w) :=
  match w with
  | ⟨0, _⟩ => (Vin22_v3 m (outsAll m h) c).symm
  | ⟨1, _⟩ => (Vin22_out m (outsAll m h) c).symm

/-- At the exit each array holds what the pipeline leaves. -/
theorem hF22 (c : Dev nD) (w : Fin 2) : (pdats m h 22 c).arrAt w (Pipeline.pin (pcfgs (F := F)) (admAll m h) 22).N = Vout22 m (outsAll m h) c (Pipeline.arrRef spec22 w) :=
  match w with
  | ⟨0, _⟩ => ((pdats m h 22 c).arrAt_in 0 rfl _).trans (Vout22_v3 m (outsAll m h) c).symm
  | ⟨1, _⟩ => ((Vout22_out m (outsAll m h) c).trans (outsAll_22 m h c)).symm

theorem hrest22 (c : Dev nD) : ∀ b, b ∉ Finset.univ.image (Pipeline.arrRef spec22) → Vout22 m (outsAll m h) c b = Vin22 m (outsAll m h) c b :=
  fun b hb => Vout22_of m (outsAll m h) c b (fun hm => hb (by
    rw [List.mem_singleton] at hm; subst hm
    exact Finset.mem_image.mpr ⟨1, Finset.mem_univ _, rfl⟩))

set_option backward.isDefEq.respectTransparency.types false in
def reg22 : Pipeline.RegionSeg (pcfgs (F := F)) (admAll m h) (pdats m h) () defs₀ 𝒱₀ L lv 22 where
  win := winFacts22.to₀
  block_pos := block_pos22
  stage_whole := stage_whole22
  K := PEmpty
  osem k := k.elim
  ho := Pipeline.OwnSemFacts.none _
  hbody c := (Rg22.body_obligation (Vent m) (tbl22 m) h.h22 c).loose
  hwaits := Pipeline.hwaits_of_owed_zero _ _ _ _ L lv 22 fun _ _ => rfl
  pre c := iprop(StableHlo.held (c : Thread nD τ) (Pipeline.ucRefs τ sig) (Vin22 m (outsAll m h) c) ∗ Rst c)
  post c := iprop(StableHlo.held (c : Thread nD τ) (Pipeline.ucRefs τ sig) (Vout22 m (outsAll m h) c) ∗ Rst c)
  X c := iprop(∃ r, prngReg c r)
  Y c := iprop((∃ r, prngReg c r) ∗ Pipeline.prefHeld pre22 c (fun _ => fullShare) (tbl22 m))
  Z c := Pipeline.unscopedRestP (Ix := Unit) (Name := ℕ) (U := UR sig nD τ) (Lvl := ℕ) pre22 spec22 c (fun b => Vin22 m (outsAll m h) c b)
  hentry c := by
    rw [Pipeline.ownSems0_none]
    have hsplit0 := Pipeline.arrays_of_unscopedBufs (p := 22) (pcfgs (F := F)) (admAll m h) (pdats m h) winFacts22 arr_whole22 c
      ((pdats m h 22 c).share_full fun _ => rfl) (fun b => Vin22 m (outsAll m h) c b) (hA22 m h c)
    rw [Pipeline.unscopedBufs_held] at hsplit0
    have hsplit : (StableHlo.held (c : Thread nD τ) (Pipeline.ucRefs τ sig) (Vin22 m (outsAll m h) c) : sProp 𝕄)
        ⊢ iprop((pdats m h 22 c).arrays ((pdats m h 22 c).arrAt · 0) ∗ Pipeline.unscopedRest spec22 c (fun b => Vin22 m (outsAll m h) c b)) := hsplit0
    rw [Pipeline.unscopedRest_split preFacts22 c,
      show (fun k => Vin22 m (outsAll m h) c (pre22.ref k)) = tbl22 m from funext fun k => Vin22_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 22 c).Φ 0 = iprop(Pipeline.ΦA spec22 c ∗ Pipeline.prefHeld pre22 c (fun _ => fullShare) (tbl22 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 22 c).Φ (Fin.last _) = iprop(Pipeline.ΦA spec22 c ∗ Pipeline.prefHeld pre22 c (fun _ => fullShare) (tbl22 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 22) (pcfgs (F := F)) (admAll m h) (Ix := Unit) (Name := ℕ) (U := UR sig nD τ) (Lvl := ℕ)
      winFacts22 arr_whole22 c (pdats m h) ((pdats m h 22 c).share_full fun _ => rfl)
      (fun b => Vin22 m (outsAll m h) c b) (fun b => Vout22 m (outsAll m h) c b) ((pdats m h 22 c).arrAt · (Pipeline.pin (pcfgs (F := F)) (admAll m h) 22).N) (hF22 m h c) (hrest22 m h c)
    rw [Pipeline.unscopedBufs_held] at hjoin0
    have hjoin : (iprop((pdats m h 22 c).arrays ((pdats m h 22 c).arrAt · (Pipeline.pin (pcfgs (F := F)) (admAll m h) 22).N) ∗ Pipeline.unscopedRest spec22 c (fun b => Vin22 m (outsAll m h) c b)) : sProp 𝕄)
        ⊢ StableHlo.held (c : Thread nD τ) (Pipeline.ucRefs τ sig) (Vout22 m (outsAll m h) c) := hjoin0
    rw [Pipeline.unscopedRest_split preFacts22 c,
      show (fun k => Vin22 m (outsAll m h) c (pre22.ref k)) = tbl22 m from funext fun k => Vin22_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R23.Link.lean ====
/- Region 23's table satisfies the pipeline's side condition: its words are pooling indices, which the precondition
   bounds by 262144, the last row of the padded feature array. -/
/- Region 23 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 23's table is one of the pooling indices, so at most 262144. -/
theorem tbl23_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl23 m 0 x : BitVec 32).toNat ≤ 262144 := by
  show (StableHlo.after hostOps23 (V0 m (0 : Dev nD)) (Proc.devRef .tc main_v97) x : BitVec 32).toNat ≤ 262144
  after_results
  exact slice_cast_all (fun w : BitVec 32 => w.toNat ≤ 262144) _ _ _ _ (fun k => Cert.PreDecode.toNat_le_of_toInt _ (hb k)) x

/-- The pipeline's side condition at region 23's table: the feature window's block, at the row the table names,
    lies inside the padded feature array (and a transfer of 32-bit elements moves whole words). -/
theorem okT23 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok23 (F := F) (tbl23 m) := by
  intro i
  exact ⟨block_inside _ _ (tbl23_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 23's proof data are what the region finds: the padded feature array and the (not yet
    written) output array hold at its entry what they held after the first host stretch. -/
theorem hA23 (c : Dev nD) (w : Fin 2) : (pdats m h 23 c).A w = Vin23 m (outsAll m h) c (Pipeline.arrRef spec23 w) :=
  match w with
  | ⟨0, _⟩ => (Vin23_v3 m (outsAll m h) c).symm
  | ⟨1, _⟩ => (Vin23_out m (outsAll m h) c).symm

/-- At the exit each array holds what the pipeline leaves. -/
theorem hF23 (c : Dev nD) (w : Fin 2) : (pdats m h 23 c).arrAt w (Pipeline.pin (pcfgs (F := F)) (admAll m h) 23).N = Vout23 m (outsAll m h) c (Pipeline.arrRef spec23 w) :=
  match w with
  | ⟨0, _⟩ => ((pdats m h 23 c).arrAt_in 0 rfl _).trans (Vout23_v3 m (outsAll m h) c).symm
  | ⟨1, _⟩ => ((Vout23_out m (outsAll m h) c).trans (outsAll_23 m h c)).symm

theorem hrest23 (c : Dev nD) : ∀ b, b ∉ Finset.univ.image (Pipeline.arrRef spec23) → Vout23 m (outsAll m h) c b = Vin23 m (outsAll m h) c b :=
  fun b hb => Vout23_of m (outsAll m h) c b (fun hm => hb (by
    rw [List.mem_singleton] at hm; subst hm
    exact Finset.mem_image.mpr ⟨1, Finset.mem_univ _, rfl⟩))

set_option backward.isDefEq.respectTransparency.types false in
def reg23 : Pipeline.RegionSeg (pcfgs (F := F)) (admAll m h) (pdats m h) () defs₀ 𝒱₀ L lv 23 where
  win := winFacts23.to₀
  block_pos := block_pos23
  stage_whole := stage_whole23
  K := PEmpty
  osem k := k.elim
  ho := Pipeline.OwnSemFacts.none _
  hbody c := (Rg23.body_obligation (Vent m) (tbl23 m) h.h23 c).loose
  hwaits := Pipeline.hwaits_of_owed_zero _ _ _ _ L lv 23 fun _ _ => rfl
  pre c := iprop(StableHlo.held (c : Thread nD τ) (Pipeline.ucRefs τ sig) (Vin23 m (outsAll m h) c) ∗ Rst c)
  post c := iprop(StableHlo.held (c : Thread nD τ) (Pipeline.ucRefs τ sig) (Vout23 m (outsAll m h) c) ∗ Rst c)
  X c := iprop(∃ r, prngReg c r)
  Y c := iprop((∃ r, prngReg c r) ∗ Pipeline.prefHeld pre23 c (fun _ => fullShare) (tbl23 m))
  Z c := Pipeline.unscopedRestP (Ix := Unit) (Name := ℕ) (U := UR sig nD τ) (Lvl := ℕ) pre23 spec23 c (fun b => Vin23 m (outsAll m h) c b)
  hentry c := by
    rw [Pipeline.ownSems0_none]
    have hsplit0 := Pipeline.arrays_of_unscopedBufs (p := 23) (pcfgs (F := F)) (admAll m h) (pdats m h) winFacts23 arr_whole23 c
      ((pdats m h 23 c).share_full fun _ => rfl) (fun b => Vin23 m (outsAll m h) c b) (hA23 m h c)
    rw [Pipeline.unscopedBufs_held] at hsplit0
    have hsplit : (StableHlo.held (c : Thread nD τ) (Pipeline.ucRefs τ sig) (Vin23 m (outsAll m h) c) : sProp 𝕄)
        ⊢ iprop((pdats m h 23 c).arrays ((pdats m h 23 c).arrAt · 0) ∗ Pipeline.unscopedRest spec23 c (fun b => Vin23 m (outsAll m h) c b)) := hsplit0
    rw [Pipeline.unscopedRest_split preFacts23 c,
      show (fun k => Vin23 m (outsAll m h) c (pre23.ref k)) = tbl23 m from funext fun k => Vin23_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 23 c).Φ 0 = iprop(Pipeline.ΦA spec23 c ∗ Pipeline.prefHeld pre23 c (fun _ => fullShare) (tbl23 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 23 c).Φ (Fin.last _) = iprop(Pipeline.ΦA spec23 c ∗ Pipeline.prefHeld pre23 c (fun _ => fullShare) (tbl23 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 23) (pcfgs (F := F)) (admAll m h) (Ix := Unit) (Name := ℕ) (U := UR sig nD τ) (Lvl := ℕ)
      winFacts23 arr_whole23 c (pdats m h) ((pdats m h 23 c).share_full fun _ => rfl)
      (fun b => Vin23 m (outsAll m h) c b) (fun b => Vout23 m (outsAll m h) c b) ((pdats m h 23 c).arrAt · (Pipeline.pin (pcfgs (F := F)) (admAll m h) 23).N) (hF23 m h c) (hrest23 m h c)
    rw [Pipeline.unscopedBufs_held] at hjoin0
    have hjoin : (iprop((pdats m h 23 c).arrays ((pdats m h 23 c).arrAt · (Pipeline.pin (pcfgs (F := F)) (admAll m h) 23).N) ∗ Pipeline.unscopedRest spec23 c (fun b => Vin23 m (outsAll m h) c b)) : sProp 𝕄)
        ⊢ StableHlo.held (c : Thread nD τ) (Pipeline.ucRefs τ sig) (Vout23 m (outsAll m h) c) := hjoin0
    rw [Pipeline.unscopedRest_split preFacts23 c,
      show (fun k => Vin23 m (outsAll m h) c (pre23.ref k)) = tbl23 m from funext fun k => Vin23_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R24.Link.lean ====
/- Region 24's table satisfies the pipeline's side condition: its words are pooling indices, which the precondition
   bounds by 262144, the last row of the padded feature array. -/
/- Region 24 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 24's table is one of the pooling indices, so at most 262144. -/
theorem tbl24_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl24 m 0 x : BitVec 32).toNat ≤ 262144 := by
  show (StableHlo.after hostOps24 (V0 m (0 : Dev nD)) (Proc.devRef .tc main_v101) x : BitVec 32).toNat ≤ 262144
  after_results
  exact slice_cast_all (fun w : BitVec 32 => w.toNat ≤ 262144) _ _ _ _ (fun k => Cert.PreDecode.toNat_le_of_toInt _ (hb k)) x

/-- The pipeline's side condition at region 24's table: the feature window's block, at the row the table names,
    lies inside the padded feature array (and a transfer of 32-bit elements moves whole words). -/
theorem okT24 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok24 (F := F) (tbl24 m) := by
  intro i
  exact ⟨block_inside _ _ (tbl24_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 24's proof data are what the region finds: the padded feature array and the (not yet
    written) output array hold at its entry what they held after the first host stretch. -/
theorem hA24 (c : Dev nD) (w : Fin 2) : (pdats m h 24 c).A w = Vin24 m (outsAll m h) c (Pipeline.arrRef spec24 w) :=
  match w with
  | ⟨0, _⟩ => (Vin24_v3 m (outsAll m h) c).symm
  | ⟨1, _⟩ => (Vin24_out m (outsAll m h) c).symm

/-- At the exit each array holds what the pipeline leaves. -/
theorem hF24 (c : Dev nD) (w : Fin 2) : (pdats m h 24 c).arrAt w (Pipeline.pin (pcfgs (F := F)) (admAll m h) 24).N = Vout24 m (outsAll m h) c (Pipeline.arrRef spec24 w) :=
  match w with
  | ⟨0, _⟩ => ((pdats m h 24 c).arrAt_in 0 rfl _).trans (Vout24_v3 m (outsAll m h) c).symm
  | ⟨1, _⟩ => ((Vout24_out m (outsAll m h) c).trans (outsAll_24 m h c)).symm

theorem hrest24 (c : Dev nD) : ∀ b, b ∉ Finset.univ.image (Pipeline.arrRef spec24) → Vout24 m (outsAll m h) c b = Vin24 m (outsAll m h) c b :=
  fun b hb => Vout24_of m (outsAll m h) c b (fun hm => hb (by
    rw [List.mem_singleton] at hm; subst hm
    exact Finset.mem_image.mpr ⟨1, Finset.mem_univ _, rfl⟩))

set_option backward.isDefEq.respectTransparency.types false in
def reg24 : Pipeline.RegionSeg (pcfgs (F := F)) (admAll m h) (pdats m h) () defs₀ 𝒱₀ L lv 24 where
  win := winFacts24.to₀
  block_pos := block_pos24
  stage_whole := stage_whole24
  K := PEmpty
  osem k := k.elim
  ho := Pipeline.OwnSemFacts.none _
  hbody c := (Rg24.body_obligation (Vent m) (tbl24 m) h.h24 c).loose
  hwaits := Pipeline.hwaits_of_owed_zero _ _ _ _ L lv 24 fun _ _ => rfl
  pre c := iprop(StableHlo.held (c : Thread nD τ) (Pipeline.ucRefs τ sig) (Vin24 m (outsAll m h) c) ∗ Rst c)
  post c := iprop(StableHlo.held (c : Thread nD τ) (Pipeline.ucRefs τ sig) (Vout24 m (outsAll m h) c) ∗ Rst c)
  X c := iprop(∃ r, prngReg c r)
  Y c := iprop((∃ r, prngReg c r) ∗ Pipeline.prefHeld pre24 c (fun _ => fullShare) (tbl24 m))
  Z c := Pipeline.unscopedRestP (Ix := Unit) (Name := ℕ) (U := UR sig nD τ) (Lvl := ℕ) pre24 spec24 c (fun b => Vin24 m (outsAll m h) c b)
  hentry c := by
    rw [Pipeline.ownSems0_none]
    have hsplit0 := Pipeline.arrays_of_unscopedBufs (p := 24) (pcfgs (F := F)) (admAll m h) (pdats m h) winFacts24 arr_whole24 c
      ((pdats m h 24 c).share_full fun _ => rfl) (fun b => Vin24 m (outsAll m h) c b) (hA24 m h c)
    rw [Pipeline.unscopedBufs_held] at hsplit0
    have hsplit : (StableHlo.held (c : Thread nD τ) (Pipeline.ucRefs τ sig) (Vin24 m (outsAll m h) c) : sProp 𝕄)
        ⊢ iprop((pdats m h 24 c).arrays ((pdats m h 24 c).arrAt · 0) ∗ Pipeline.unscopedRest spec24 c (fun b => Vin24 m (outsAll m h) c b)) := hsplit0
    rw [Pipeline.unscopedRest_split preFacts24 c,
      show (fun k => Vin24 m (outsAll m h) c (pre24.ref k)) = tbl24 m from funext fun k => Vin24_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 24 c).Φ 0 = iprop(Pipeline.ΦA spec24 c ∗ Pipeline.prefHeld pre24 c (fun _ => fullShare) (tbl24 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 24 c).Φ (Fin.last _) = iprop(Pipeline.ΦA spec24 c ∗ Pipeline.prefHeld pre24 c (fun _ => fullShare) (tbl24 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 24) (pcfgs (F := F)) (admAll m h) (Ix := Unit) (Name := ℕ) (U := UR sig nD τ) (Lvl := ℕ)
      winFacts24 arr_whole24 c (pdats m h) ((pdats m h 24 c).share_full fun _ => rfl)
      (fun b => Vin24 m (outsAll m h) c b) (fun b => Vout24 m (outsAll m h) c b) ((pdats m h 24 c).arrAt · (Pipeline.pin (pcfgs (F := F)) (admAll m h) 24).N) (hF24 m h c) (hrest24 m h c)
    rw [Pipeline.unscopedBufs_held] at hjoin0
    have hjoin : (iprop((pdats m h 24 c).arrays ((pdats m h 24 c).arrAt · (Pipeline.pin (pcfgs (F := F)) (admAll m h) 24).N) ∗ Pipeline.unscopedRest spec24 c (fun b => Vin24 m (outsAll m h) c b)) : sProp 𝕄)
        ⊢ StableHlo.held (c : Thread nD τ) (Pipeline.ucRefs τ sig) (Vout24 m (outsAll m h) c) := hjoin0
    rw [Pipeline.unscopedRest_split preFacts24 c,
      show (fun k => Vin24 m (outsAll m h) c (pre24.ref k)) = tbl24 m from funext fun k => Vin24_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R25.Link.lean ====
/- Region 25's table satisfies the pipeline's side condition: its words are pooling indices, which the precondition
   bounds by 262144, the last row of the padded feature array. -/
/- Region 25 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 25's table is one of the pooling indices, so at most 262144. -/
theorem tbl25_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl25 m 0 x : BitVec 32).toNat ≤ 262144 := by
  show (StableHlo.after hostOps25 (V0 m (0 : Dev nD)) (Proc.devRef .tc main_v105) x : BitVec 32).toNat ≤ 262144
  after_results
  exact slice_cast_all (fun w : BitVec 32 => w.toNat ≤ 262144) _ _ _ _ (fun k => Cert.PreDecode.toNat_le_of_toInt _ (hb k)) x

/-- The pipeline's side condition at region 25's table: the feature window's block, at the row the table names,
    lies inside the padded feature array (and a transfer of 32-bit elements moves whole words). -/
theorem okT25 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok25 (F := F) (tbl25 m) := by
  intro i
  exact ⟨block_inside _ _ (tbl25_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 25's proof data are what the region finds: the padded feature array and the (not yet
    written) output array hold at its entry what they held after the first host stretch. -/
theorem hA25 (c : Dev nD) (w : Fin 2) : (pdats m h 25 c).A w = Vin25 m (outsAll m h) c (Pipeline.arrRef spec25 w) :=
  match w with
  | ⟨0, _⟩ => (Vin25_v3 m (outsAll m h) c).symm
  | ⟨1, _⟩ => (Vin25_out m (outsAll m h) c).symm

/-- At the exit each array holds what the pipeline leaves. -/
theorem hF25 (c : Dev nD) (w : Fin 2) : (pdats m h 25 c).arrAt w (Pipeline.pin (pcfgs (F := F)) (admAll m h) 25).N = Vout25 m (outsAll m h) c (Pipeline.arrRef spec25 w) :=
  match w with
  | ⟨0, _⟩ => ((pdats m h 25 c).arrAt_in 0 rfl _).trans (Vout25_v3 m (outsAll m h) c).symm
  | ⟨1, _⟩ => ((Vout25_out m (outsAll m h) c).trans (outsAll_25 m h c)).symm

theorem hrest25 (c : Dev nD) : ∀ b, b ∉ Finset.univ.image (Pipeline.arrRef spec25) → Vout25 m (outsAll m h) c b = Vin25 m (outsAll m h) c b :=
  fun b hb => Vout25_of m (outsAll m h) c b (fun hm => hb (by
    rw [List.mem_singleton] at hm; subst hm
    exact Finset.mem_image.mpr ⟨1, Finset.mem_univ _, rfl⟩))

set_option backward.isDefEq.respectTransparency.types false in
def reg25 : Pipeline.RegionSeg (pcfgs (F := F)) (admAll m h) (pdats m h) () defs₀ 𝒱₀ L lv 25 where
  win := winFacts25.to₀
  block_pos := block_pos25
  stage_whole := stage_whole25
  K := PEmpty
  osem k := k.elim
  ho := Pipeline.OwnSemFacts.none _
  hbody c := (Rg25.body_obligation (Vent m) (tbl25 m) h.h25 c).loose
  hwaits := Pipeline.hwaits_of_owed_zero _ _ _ _ L lv 25 fun _ _ => rfl
  pre c := iprop(StableHlo.held (c : Thread nD τ) (Pipeline.ucRefs τ sig) (Vin25 m (outsAll m h) c) ∗ Rst c)
  post c := iprop(StableHlo.held (c : Thread nD τ) (Pipeline.ucRefs τ sig) (Vout25 m (outsAll m h) c) ∗ Rst c)
  X c := iprop(∃ r, prngReg c r)
  Y c := iprop((∃ r, prngReg c r) ∗ Pipeline.prefHeld pre25 c (fun _ => fullShare) (tbl25 m))
  Z c := Pipeline.unscopedRestP (Ix := Unit) (Name := ℕ) (U := UR sig nD τ) (Lvl := ℕ) pre25 spec25 c (fun b => Vin25 m (outsAll m h) c b)
  hentry c := by
    rw [Pipeline.ownSems0_none]
    have hsplit0 := Pipeline.arrays_of_unscopedBufs (p := 25) (pcfgs (F := F)) (admAll m h) (pdats m h) winFacts25 arr_whole25 c
      ((pdats m h 25 c).share_full fun _ => rfl) (fun b => Vin25 m (outsAll m h) c b) (hA25 m h c)
    rw [Pipeline.unscopedBufs_held] at hsplit0
    have hsplit : (StableHlo.held (c : Thread nD τ) (Pipeline.ucRefs τ sig) (Vin25 m (outsAll m h) c) : sProp 𝕄)
        ⊢ iprop((pdats m h 25 c).arrays ((pdats m h 25 c).arrAt · 0) ∗ Pipeline.unscopedRest spec25 c (fun b => Vin25 m (outsAll m h) c b)) := hsplit0
    rw [Pipeline.unscopedRest_split preFacts25 c,
      show (fun k => Vin25 m (outsAll m h) c (pre25.ref k)) = tbl25 m from funext fun k => Vin25_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 25 c).Φ 0 = iprop(Pipeline.ΦA spec25 c ∗ Pipeline.prefHeld pre25 c (fun _ => fullShare) (tbl25 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 25 c).Φ (Fin.last _) = iprop(Pipeline.ΦA spec25 c ∗ Pipeline.prefHeld pre25 c (fun _ => fullShare) (tbl25 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 25) (pcfgs (F := F)) (admAll m h) (Ix := Unit) (Name := ℕ) (U := UR sig nD τ) (Lvl := ℕ)
      winFacts25 arr_whole25 c (pdats m h) ((pdats m h 25 c).share_full fun _ => rfl)
      (fun b => Vin25 m (outsAll m h) c b) (fun b => Vout25 m (outsAll m h) c b) ((pdats m h 25 c).arrAt · (Pipeline.pin (pcfgs (F := F)) (admAll m h) 25).N) (hF25 m h c) (hrest25 m h c)
    rw [Pipeline.unscopedBufs_held] at hjoin0
    have hjoin : (iprop((pdats m h 25 c).arrays ((pdats m h 25 c).arrAt · (Pipeline.pin (pcfgs (F := F)) (admAll m h) 25).N) ∗ Pipeline.unscopedRest spec25 c (fun b => Vin25 m (outsAll m h) c b)) : sProp 𝕄)
        ⊢ StableHlo.held (c : Thread nD τ) (Pipeline.ucRefs τ sig) (Vout25 m (outsAll m h) c) := hjoin0
    rw [Pipeline.unscopedRest_split preFacts25 c,
      show (fun k => Vin25 m (outsAll m h) c (pre25.ref k)) = tbl25 m from funext fun k => Vin25_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R26.Link.lean ====
/- Region 26's table satisfies the pipeline's side condition: its words are pooling indices, which the precondition
   bounds by 262144, the last row of the padded feature array. -/
/- Region 26 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 26's table is one of the pooling indices, so at most 262144. -/
theorem tbl26_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl26 m 0 x : BitVec 32).toNat ≤ 262144 := by
  show (StableHlo.after hostOps26 (V0 m (0 : Dev nD)) (Proc.devRef .tc main_v109) x : BitVec 32).toNat ≤ 262144
  after_results
  exact slice_cast_all (fun w : BitVec 32 => w.toNat ≤ 262144) _ _ _ _ (fun k => Cert.PreDecode.toNat_le_of_toInt _ (hb k)) x

/-- The pipeline's side condition at region 26's table: the feature window's block, at the row the table names,
    lies inside the padded feature array (and a transfer of 32-bit elements moves whole words). -/
theorem okT26 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok26 (F := F) (tbl26 m) := by
  intro i
  exact ⟨block_inside _ _ (tbl26_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 26's proof data are what the region finds: the padded feature array and the (not yet
    written) output array hold at its entry what they held after the first host stretch. -/
theorem hA26 (c : Dev nD) (w : Fin 2) : (pdats m h 26 c).A w = Vin26 m (outsAll m h) c (Pipeline.arrRef spec26 w) :=
  match w with
  | ⟨0, _⟩ => (Vin26_v3 m (outsAll m h) c).symm
  | ⟨1, _⟩ => (Vin26_out m (outsAll m h) c).symm

/-- At the exit each array holds what the pipeline leaves. -/
theorem hF26 (c : Dev nD) (w : Fin 2) : (pdats m h 26 c).arrAt w (Pipeline.pin (pcfgs (F := F)) (admAll m h) 26).N = Vout26 m (outsAll m h) c (Pipeline.arrRef spec26 w) :=
  match w with
  | ⟨0, _⟩ => ((pdats m h 26 c).arrAt_in 0 rfl _).trans (Vout26_v3 m (outsAll m h) c).symm
  | ⟨1, _⟩ => ((Vout26_out m (outsAll m h) c).trans (outsAll_26 m h c)).symm

theorem hrest26 (c : Dev nD) : ∀ b, b ∉ Finset.univ.image (Pipeline.arrRef spec26) → Vout26 m (outsAll m h) c b = Vin26 m (outsAll m h) c b :=
  fun b hb => Vout26_of m (outsAll m h) c b (fun hm => hb (by
    rw [List.mem_singleton] at hm; subst hm
    exact Finset.mem_image.mpr ⟨1, Finset.mem_univ _, rfl⟩))

set_option backward.isDefEq.respectTransparency.types false in
def reg26 : Pipeline.RegionSeg (pcfgs (F := F)) (admAll m h) (pdats m h) () defs₀ 𝒱₀ L lv 26 where
  win := winFacts26.to₀
  block_pos := block_pos26
  stage_whole := stage_whole26
  K := PEmpty
  osem k := k.elim
  ho := Pipeline.OwnSemFacts.none _
  hbody c := (Rg26.body_obligation (Vent m) (tbl26 m) h.h26 c).loose
  hwaits := Pipeline.hwaits_of_owed_zero _ _ _ _ L lv 26 fun _ _ => rfl
  pre c := iprop(StableHlo.held (c : Thread nD τ) (Pipeline.ucRefs τ sig) (Vin26 m (outsAll m h) c) ∗ Rst c)
  post c := iprop(StableHlo.held (c : Thread nD τ) (Pipeline.ucRefs τ sig) (Vout26 m (outsAll m h) c) ∗ Rst c)
  X c := iprop(∃ r, prngReg c r)
  Y c := iprop((∃ r, prngReg c r) ∗ Pipeline.prefHeld pre26 c (fun _ => fullShare) (tbl26 m))
  Z c := Pipeline.unscopedRestP (Ix := Unit) (Name := ℕ) (U := UR sig nD τ) (Lvl := ℕ) pre26 spec26 c (fun b => Vin26 m (outsAll m h) c b)
  hentry c := by
    rw [Pipeline.ownSems0_none]
    have hsplit0 := Pipeline.arrays_of_unscopedBufs (p := 26) (pcfgs (F := F)) (admAll m h) (pdats m h) winFacts26 arr_whole26 c
      ((pdats m h 26 c).share_full fun _ => rfl) (fun b => Vin26 m (outsAll m h) c b) (hA26 m h c)
    rw [Pipeline.unscopedBufs_held] at hsplit0
    have hsplit : (StableHlo.held (c : Thread nD τ) (Pipeline.ucRefs τ sig) (Vin26 m (outsAll m h) c) : sProp 𝕄)
        ⊢ iprop((pdats m h 26 c).arrays ((pdats m h 26 c).arrAt · 0) ∗ Pipeline.unscopedRest spec26 c (fun b => Vin26 m (outsAll m h) c b)) := hsplit0
    rw [Pipeline.unscopedRest_split preFacts26 c,
      show (fun k => Vin26 m (outsAll m h) c (pre26.ref k)) = tbl26 m from funext fun k => Vin26_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 26 c).Φ 0 = iprop(Pipeline.ΦA spec26 c ∗ Pipeline.prefHeld pre26 c (fun _ => fullShare) (tbl26 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 26 c).Φ (Fin.last _) = iprop(Pipeline.ΦA spec26 c ∗ Pipeline.prefHeld pre26 c (fun _ => fullShare) (tbl26 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 26) (pcfgs (F := F)) (admAll m h) (Ix := Unit) (Name := ℕ) (U := UR sig nD τ) (Lvl := ℕ)
      winFacts26 arr_whole26 c (pdats m h) ((pdats m h 26 c).share_full fun _ => rfl)
      (fun b => Vin26 m (outsAll m h) c b) (fun b => Vout26 m (outsAll m h) c b) ((pdats m h 26 c).arrAt · (Pipeline.pin (pcfgs (F := F)) (admAll m h) 26).N) (hF26 m h c) (hrest26 m h c)
    rw [Pipeline.unscopedBufs_held] at hjoin0
    have hjoin : (iprop((pdats m h 26 c).arrays ((pdats m h 26 c).arrAt · (Pipeline.pin (pcfgs (F := F)) (admAll m h) 26).N) ∗ Pipeline.unscopedRest spec26 c (fun b => Vin26 m (outsAll m h) c b)) : sProp 𝕄)
        ⊢ StableHlo.held (c : Thread nD τ) (Pipeline.ucRefs τ sig) (Vout26 m (outsAll m h) c) := hjoin0
    rw [Pipeline.unscopedRest_split preFacts26 c,
      show (fun k => Vin26 m (outsAll m h) c (pre26.ref k)) = tbl26 m from funext fun k => Vin26_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R27.Link.lean ====
/- Region 27's table satisfies the pipeline's side condition: its words are pooling indices, which the precondition
   bounds by 262144, the last row of the padded feature array. -/
/- Region 27 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 27's table is one of the pooling indices, so at most 262144. -/
theorem tbl27_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl27 m 0 x : BitVec 32).toNat ≤ 262144 := by
  show (StableHlo.after hostOps27 (V0 m (0 : Dev nD)) (Proc.devRef .tc main_v113) x : BitVec 32).toNat ≤ 262144
  after_results
  exact slice_cast_all (fun w : BitVec 32 => w.toNat ≤ 262144) _ _ _ _ (fun k => Cert.PreDecode.toNat_le_of_toInt _ (hb k)) x

/-- The pipeline's side condition at region 27's table: the feature window's block, at the row the table names,
    lies inside the padded feature array (and a transfer of 32-bit elements moves whole words). -/
theorem okT27 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok27 (F := F) (tbl27 m) := by
  intro i
  exact ⟨block_inside _ _ (tbl27_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 27's proof data are what the region finds: the padded feature array and the (not yet
    written) output array hold at its entry what they held after the first host stretch. -/
theorem hA27 (c : Dev nD) (w : Fin 2) : (pdats m h 27 c).A w = Vin27 m (outsAll m h) c (Pipeline.arrRef spec27 w) :=
  match w with
  | ⟨0, _⟩ => (Vin27_v3 m (outsAll m h) c).symm
  | ⟨1, _⟩ => (Vin27_out m (outsAll m h) c).symm

/-- At the exit each array holds what the pipeline leaves. -/
theorem hF27 (c : Dev nD) (w : Fin 2) : (pdats m h 27 c).arrAt w (Pipeline.pin (pcfgs (F := F)) (admAll m h) 27).N = Vout27 m (outsAll m h) c (Pipeline.arrRef spec27 w) :=
  match w with
  | ⟨0, _⟩ => ((pdats m h 27 c).arrAt_in 0 rfl _).trans (Vout27_v3 m (outsAll m h) c).symm
  | ⟨1, _⟩ => ((Vout27_out m (outsAll m h) c).trans (outsAll_27 m h c)).symm

theorem hrest27 (c : Dev nD) : ∀ b, b ∉ Finset.univ.image (Pipeline.arrRef spec27) → Vout27 m (outsAll m h) c b = Vin27 m (outsAll m h) c b :=
  fun b hb => Vout27_of m (outsAll m h) c b (fun hm => hb (by
    rw [List.mem_singleton] at hm; subst hm
    exact Finset.mem_image.mpr ⟨1, Finset.mem_univ _, rfl⟩))

set_option backward.isDefEq.respectTransparency.types false in
def reg27 : Pipeline.RegionSeg (pcfgs (F := F)) (admAll m h) (pdats m h) () defs₀ 𝒱₀ L lv 27 where
  win := winFacts27.to₀
  block_pos := block_pos27
  stage_whole := stage_whole27
  K := PEmpty
  osem k := k.elim
  ho := Pipeline.OwnSemFacts.none _
  hbody c := (Rg27.body_obligation (Vent m) (tbl27 m) h.h27 c).loose
  hwaits := Pipeline.hwaits_of_owed_zero _ _ _ _ L lv 27 fun _ _ => rfl
  pre c := iprop(StableHlo.held (c : Thread nD τ) (Pipeline.ucRefs τ sig) (Vin27 m (outsAll m h) c) ∗ Rst c)
  post c := iprop(StableHlo.held (c : Thread nD τ) (Pipeline.ucRefs τ sig) (Vout27 m (outsAll m h) c) ∗ Rst c)
  X c := iprop(∃ r, prngReg c r)
  Y c := iprop((∃ r, prngReg c r) ∗ Pipeline.prefHeld pre27 c (fun _ => fullShare) (tbl27 m))
  Z c := Pipeline.unscopedRestP (Ix := Unit) (Name := ℕ) (U := UR sig nD τ) (Lvl := ℕ) pre27 spec27 c (fun b => Vin27 m (outsAll m h) c b)
  hentry c := by
    rw [Pipeline.ownSems0_none]
    have hsplit0 := Pipeline.arrays_of_unscopedBufs (p := 27) (pcfgs (F := F)) (admAll m h) (pdats m h) winFacts27 arr_whole27 c
      ((pdats m h 27 c).share_full fun _ => rfl) (fun b => Vin27 m (outsAll m h) c b) (hA27 m h c)
    rw [Pipeline.unscopedBufs_held] at hsplit0
    have hsplit : (StableHlo.held (c : Thread nD τ) (Pipeline.ucRefs τ sig) (Vin27 m (outsAll m h) c) : sProp 𝕄)
        ⊢ iprop((pdats m h 27 c).arrays ((pdats m h 27 c).arrAt · 0) ∗ Pipeline.unscopedRest spec27 c (fun b => Vin27 m (outsAll m h) c b)) := hsplit0
    rw [Pipeline.unscopedRest_split preFacts27 c,
      show (fun k => Vin27 m (outsAll m h) c (pre27.ref k)) = tbl27 m from funext fun k => Vin27_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 27 c).Φ 0 = iprop(Pipeline.ΦA spec27 c ∗ Pipeline.prefHeld pre27 c (fun _ => fullShare) (tbl27 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 27 c).Φ (Fin.last _) = iprop(Pipeline.ΦA spec27 c ∗ Pipeline.prefHeld pre27 c (fun _ => fullShare) (tbl27 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 27) (pcfgs (F := F)) (admAll m h) (Ix := Unit) (Name := ℕ) (U := UR sig nD τ) (Lvl := ℕ)
      winFacts27 arr_whole27 c (pdats m h) ((pdats m h 27 c).share_full fun _ => rfl)
      (fun b => Vin27 m (outsAll m h) c b) (fun b => Vout27 m (outsAll m h) c b) ((pdats m h 27 c).arrAt · (Pipeline.pin (pcfgs (F := F)) (admAll m h) 27).N) (hF27 m h c) (hrest27 m h c)
    rw [Pipeline.unscopedBufs_held] at hjoin0
    have hjoin : (iprop((pdats m h 27 c).arrays ((pdats m h 27 c).arrAt · (Pipeline.pin (pcfgs (F := F)) (admAll m h) 27).N) ∗ Pipeline.unscopedRest spec27 c (fun b => Vin27 m (outsAll m h) c b)) : sProp 𝕄)
        ⊢ StableHlo.held (c : Thread nD τ) (Pipeline.ucRefs τ sig) (Vout27 m (outsAll m h) c) := hjoin0
    rw [Pipeline.unscopedRest_split preFacts27 c,
      show (fun k => Vin27 m (outsAll m h) c (pre27.ref k)) = tbl27 m from funext fun k => Vin27_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R28.Link.lean ====
/- Region 28's table satisfies the pipeline's side condition: its words are pooling indices, which the precondition
   bounds by 262144, the last row of the padded feature array. -/
/- Region 28 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 28's table is one of the pooling indices, so at most 262144. -/
theorem tbl28_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl28 m 0 x : BitVec 32).toNat ≤ 262144 := by
  show (StableHlo.after hostOps28 (V0 m (0 : Dev nD)) (Proc.devRef .tc main_v117) x : BitVec 32).toNat ≤ 262144
  after_results
  exact slice_cast_all (fun w : BitVec 32 => w.toNat ≤ 262144) _ _ _ _ (fun k => Cert.PreDecode.toNat_le_of_toInt _ (hb k)) x

/-- The pipeline's side condition at region 28's table: the feature window's block, at the row the table names,
    lies inside the padded feature array (and a transfer of 32-bit elements moves whole words). -/
theorem okT28 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok28 (F := F) (tbl28 m) := by
  intro i
  exact ⟨block_inside _ _ (tbl28_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 28's proof data are what the region finds: the padded feature array and the (not yet
    written) output array hold at its entry what they held after the first host stretch. -/
theorem hA28 (c : Dev nD) (w : Fin 2) : (pdats m h 28 c).A w = Vin28 m (outsAll m h) c (Pipeline.arrRef spec28 w) :=
  match w with
  | ⟨0, _⟩ => (Vin28_v3 m (outsAll m h) c).symm
  | ⟨1, _⟩ => (Vin28_out m (outsAll m h) c).symm

/-- At the exit each array holds what the pipeline leaves. -/
theorem hF28 (c : Dev nD) (w : Fin 2) : (pdats m h 28 c).arrAt w (Pipeline.pin (pcfgs (F := F)) (admAll m h) 28).N = Vout28 m (outsAll m h) c (Pipeline.arrRef spec28 w) :=
  match w with
  | ⟨0, _⟩ => ((pdats m h 28 c).arrAt_in 0 rfl _).trans (Vout28_v3 m (outsAll m h) c).symm
  | ⟨1, _⟩ => ((Vout28_out m (outsAll m h) c).trans (outsAll_28 m h c)).symm

theorem hrest28 (c : Dev nD) : ∀ b, b ∉ Finset.univ.image (Pipeline.arrRef spec28) → Vout28 m (outsAll m h) c b = Vin28 m (outsAll m h) c b :=
  fun b hb => Vout28_of m (outsAll m h) c b (fun hm => hb (by
    rw [List.mem_singleton] at hm; subst hm
    exact Finset.mem_image.mpr ⟨1, Finset.mem_univ _, rfl⟩))

set_option backward.isDefEq.respectTransparency.types false in
def reg28 : Pipeline.RegionSeg (pcfgs (F := F)) (admAll m h) (pdats m h) () defs₀ 𝒱₀ L lv 28 where
  win := winFacts28.to₀
  block_pos := block_pos28
  stage_whole := stage_whole28
  K := PEmpty
  osem k := k.elim
  ho := Pipeline.OwnSemFacts.none _
  hbody c := (Rg28.body_obligation (Vent m) (tbl28 m) h.h28 c).loose
  hwaits := Pipeline.hwaits_of_owed_zero _ _ _ _ L lv 28 fun _ _ => rfl
  pre c := iprop(StableHlo.held (c : Thread nD τ) (Pipeline.ucRefs τ sig) (Vin28 m (outsAll m h) c) ∗ Rst c)
  post c := iprop(StableHlo.held (c : Thread nD τ) (Pipeline.ucRefs τ sig) (Vout28 m (outsAll m h) c) ∗ Rst c)
  X c := iprop(∃ r, prngReg c r)
  Y c := iprop((∃ r, prngReg c r) ∗ Pipeline.prefHeld pre28 c (fun _ => fullShare) (tbl28 m))
  Z c := Pipeline.unscopedRestP (Ix := Unit) (Name := ℕ) (U := UR sig nD τ) (Lvl := ℕ) pre28 spec28 c (fun b => Vin28 m (outsAll m h) c b)
  hentry c := by
    rw [Pipeline.ownSems0_none]
    have hsplit0 := Pipeline.arrays_of_unscopedBufs (p := 28) (pcfgs (F := F)) (admAll m h) (pdats m h) winFacts28 arr_whole28 c
      ((pdats m h 28 c).share_full fun _ => rfl) (fun b => Vin28 m (outsAll m h) c b) (hA28 m h c)
    rw [Pipeline.unscopedBufs_held] at hsplit0
    have hsplit : (StableHlo.held (c : Thread nD τ) (Pipeline.ucRefs τ sig) (Vin28 m (outsAll m h) c) : sProp 𝕄)
        ⊢ iprop((pdats m h 28 c).arrays ((pdats m h 28 c).arrAt · 0) ∗ Pipeline.unscopedRest spec28 c (fun b => Vin28 m (outsAll m h) c b)) := hsplit0
    rw [Pipeline.unscopedRest_split preFacts28 c,
      show (fun k => Vin28 m (outsAll m h) c (pre28.ref k)) = tbl28 m from funext fun k => Vin28_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 28 c).Φ 0 = iprop(Pipeline.ΦA spec28 c ∗ Pipeline.prefHeld pre28 c (fun _ => fullShare) (tbl28 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 28 c).Φ (Fin.last _) = iprop(Pipeline.ΦA spec28 c ∗ Pipeline.prefHeld pre28 c (fun _ => fullShare) (tbl28 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 28) (pcfgs (F := F)) (admAll m h) (Ix := Unit) (Name := ℕ) (U := UR sig nD τ) (Lvl := ℕ)
      winFacts28 arr_whole28 c (pdats m h) ((pdats m h 28 c).share_full fun _ => rfl)
      (fun b => Vin28 m (outsAll m h) c b) (fun b => Vout28 m (outsAll m h) c b) ((pdats m h 28 c).arrAt · (Pipeline.pin (pcfgs (F := F)) (admAll m h) 28).N) (hF28 m h c) (hrest28 m h c)
    rw [Pipeline.unscopedBufs_held] at hjoin0
    have hjoin : (iprop((pdats m h 28 c).arrays ((pdats m h 28 c).arrAt · (Pipeline.pin (pcfgs (F := F)) (admAll m h) 28).N) ∗ Pipeline.unscopedRest spec28 c (fun b => Vin28 m (outsAll m h) c b)) : sProp 𝕄)
        ⊢ StableHlo.held (c : Thread nD τ) (Pipeline.ucRefs τ sig) (Vout28 m (outsAll m h) c) := hjoin0
    rw [Pipeline.unscopedRest_split preFacts28 c,
      show (fun k => Vin28 m (outsAll m h) c (pre28.ref k)) = tbl28 m from funext fun k => Vin28_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R29.Link.lean ====
/- Region 29's table satisfies the pipeline's side condition: its words are pooling indices, which the precondition
   bounds by 262144, the last row of the padded feature array. -/
/- Region 29 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 29's table is one of the pooling indices, so at most 262144. -/
theorem tbl29_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl29 m 0 x : BitVec 32).toNat ≤ 262144 := by
  show (StableHlo.after hostOps29 (V0 m (0 : Dev nD)) (Proc.devRef .tc main_v121) x : BitVec 32).toNat ≤ 262144
  after_results
  exact slice_cast_all (fun w : BitVec 32 => w.toNat ≤ 262144) _ _ _ _ (fun k => Cert.PreDecode.toNat_le_of_toInt _ (hb k)) x

/-- The pipeline's side condition at region 29's table: the feature window's block, at the row the table names,
    lies inside the padded feature array (and a transfer of 32-bit elements moves whole words). -/
theorem okT29 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok29 (F := F) (tbl29 m) := by
  intro i
  exact ⟨block_inside _ _ (tbl29_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 29's proof data are what the region finds: the padded feature array and the (not yet
    written) output array hold at its entry what they held after the first host stretch. -/
theorem hA29 (c : Dev nD) (w : Fin 2) : (pdats m h 29 c).A w = Vin29 m (outsAll m h) c (Pipeline.arrRef spec29 w) :=
  match w with
  | ⟨0, _⟩ => (Vin29_v3 m (outsAll m h) c).symm
  | ⟨1, _⟩ => (Vin29_out m (outsAll m h) c).symm

/-- At the exit each array holds what the pipeline leaves. -/
theorem hF29 (c : Dev nD) (w : Fin 2) : (pdats m h 29 c).arrAt w (Pipeline.pin (pcfgs (F := F)) (admAll m h) 29).N = Vout29 m (outsAll m h) c (Pipeline.arrRef spec29 w) :=
  match w with
  | ⟨0, _⟩ => ((pdats m h 29 c).arrAt_in 0 rfl _).trans (Vout29_v3 m (outsAll m h) c).symm
  | ⟨1, _⟩ => ((Vout29_out m (outsAll m h) c).trans (outsAll_29 m h c)).symm

theorem hrest29 (c : Dev nD) : ∀ b, b ∉ Finset.univ.image (Pipeline.arrRef spec29) → Vout29 m (outsAll m h) c b = Vin29 m (outsAll m h) c b :=
  fun b hb => Vout29_of m (outsAll m h) c b (fun hm => hb (by
    rw [List.mem_singleton] at hm; subst hm
    exact Finset.mem_image.mpr ⟨1, Finset.mem_univ _, rfl⟩))

set_option backward.isDefEq.respectTransparency.types false in
def reg29 : Pipeline.RegionSeg (pcfgs (F := F)) (admAll m h) (pdats m h) () defs₀ 𝒱₀ L lv 29 where
  win := winFacts29.to₀
  block_pos := block_pos29
  stage_whole := stage_whole29
  K := PEmpty
  osem k := k.elim
  ho := Pipeline.OwnSemFacts.none _
  hbody c := (Rg29.body_obligation (Vent m) (tbl29 m) h.h29 c).loose
  hwaits := Pipeline.hwaits_of_owed_zero _ _ _ _ L lv 29 fun _ _ => rfl
  pre c := iprop(StableHlo.held (c : Thread nD τ) (Pipeline.ucRefs τ sig) (Vin29 m (outsAll m h) c) ∗ Rst c)
  post c := iprop(StableHlo.held (c : Thread nD τ) (Pipeline.ucRefs τ sig) (Vout29 m (outsAll m h) c) ∗ Rst c)
  X c := iprop(∃ r, prngReg c r)
  Y c := iprop((∃ r, prngReg c r) ∗ Pipeline.prefHeld pre29 c (fun _ => fullShare) (tbl29 m))
  Z c := Pipeline.unscopedRestP (Ix := Unit) (Name := ℕ) (U := UR sig nD τ) (Lvl := ℕ) pre29 spec29 c (fun b => Vin29 m (outsAll m h) c b)
  hentry c := by
    rw [Pipeline.ownSems0_none]
    have hsplit0 := Pipeline.arrays_of_unscopedBufs (p := 29) (pcfgs (F := F)) (admAll m h) (pdats m h) winFacts29 arr_whole29 c
      ((pdats m h 29 c).share_full fun _ => rfl) (fun b => Vin29 m (outsAll m h) c b) (hA29 m h c)
    rw [Pipeline.unscopedBufs_held] at hsplit0
    have hsplit : (StableHlo.held (c : Thread nD τ) (Pipeline.ucRefs τ sig) (Vin29 m (outsAll m h) c) : sProp 𝕄)
        ⊢ iprop((pdats m h 29 c).arrays ((pdats m h 29 c).arrAt · 0) ∗ Pipeline.unscopedRest spec29 c (fun b => Vin29 m (outsAll m h) c b)) := hsplit0
    rw [Pipeline.unscopedRest_split preFacts29 c,
      show (fun k => Vin29 m (outsAll m h) c (pre29.ref k)) = tbl29 m from funext fun k => Vin29_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 29 c).Φ 0 = iprop(Pipeline.ΦA spec29 c ∗ Pipeline.prefHeld pre29 c (fun _ => fullShare) (tbl29 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 29 c).Φ (Fin.last _) = iprop(Pipeline.ΦA spec29 c ∗ Pipeline.prefHeld pre29 c (fun _ => fullShare) (tbl29 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 29) (pcfgs (F := F)) (admAll m h) (Ix := Unit) (Name := ℕ) (U := UR sig nD τ) (Lvl := ℕ)
      winFacts29 arr_whole29 c (pdats m h) ((pdats m h 29 c).share_full fun _ => rfl)
      (fun b => Vin29 m (outsAll m h) c b) (fun b => Vout29 m (outsAll m h) c b) ((pdats m h 29 c).arrAt · (Pipeline.pin (pcfgs (F := F)) (admAll m h) 29).N) (hF29 m h c) (hrest29 m h c)
    rw [Pipeline.unscopedBufs_held] at hjoin0
    have hjoin : (iprop((pdats m h 29 c).arrays ((pdats m h 29 c).arrAt · (Pipeline.pin (pcfgs (F := F)) (admAll m h) 29).N) ∗ Pipeline.unscopedRest spec29 c (fun b => Vin29 m (outsAll m h) c b)) : sProp 𝕄)
        ⊢ StableHlo.held (c : Thread nD τ) (Pipeline.ucRefs τ sig) (Vout29 m (outsAll m h) c) := hjoin0
    rw [Pipeline.unscopedRest_split preFacts29 c,
      show (fun k => Vin29 m (outsAll m h) c (pre29.ref k)) = tbl29 m from funext fun k => Vin29_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R30.Link.lean ====
/- Region 30's table satisfies the pipeline's side condition: its words are pooling indices, which the precondition
   bounds by 262144, the last row of the padded feature array. -/
/- Region 30 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 30's table is one of the pooling indices, so at most 262144. -/
theorem tbl30_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl30 m 0 x : BitVec 32).toNat ≤ 262144 := by
  show (StableHlo.after hostOps30 (V0 m (0 : Dev nD)) (Proc.devRef .tc main_v125) x : BitVec 32).toNat ≤ 262144
  after_results
  exact slice_cast_all (fun w : BitVec 32 => w.toNat ≤ 262144) _ _ _ _ (fun k => Cert.PreDecode.toNat_le_of_toInt _ (hb k)) x

/-- The pipeline's side condition at region 30's table: the feature window's block, at the row the table names,
    lies inside the padded feature array (and a transfer of 32-bit elements moves whole words). -/
theorem okT30 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok30 (F := F) (tbl30 m) := by
  intro i
  exact ⟨block_inside _ _ (tbl30_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 30's proof data are what the region finds: the padded feature array and the (not yet
    written) output array hold at its entry what they held after the first host stretch. -/
theorem hA30 (c : Dev nD) (w : Fin 2) : (pdats m h 30 c).A w = Vin30 m (outsAll m h) c (Pipeline.arrRef spec30 w) :=
  match w with
  | ⟨0, _⟩ => (Vin30_v3 m (outsAll m h) c).symm
  | ⟨1, _⟩ => (Vin30_out m (outsAll m h) c).symm

/-- At the exit each array holds what the pipeline leaves. -/
theorem hF30 (c : Dev nD) (w : Fin 2) : (pdats m h 30 c).arrAt w (Pipeline.pin (pcfgs (F := F)) (admAll m h) 30).N = Vout30 m (outsAll m h) c (Pipeline.arrRef spec30 w) :=
  match w with
  | ⟨0, _⟩ => ((pdats m h 30 c).arrAt_in 0 rfl _).trans (Vout30_v3 m (outsAll m h) c).symm
  | ⟨1, _⟩ => ((Vout30_out m (outsAll m h) c).trans (outsAll_30 m h c)).symm

theorem hrest30 (c : Dev nD) : ∀ b, b ∉ Finset.univ.image (Pipeline.arrRef spec30) → Vout30 m (outsAll m h) c b = Vin30 m (outsAll m h) c b :=
  fun b hb => Vout30_of m (outsAll m h) c b (fun hm => hb (by
    rw [List.mem_singleton] at hm; subst hm
    exact Finset.mem_image.mpr ⟨1, Finset.mem_univ _, rfl⟩))

set_option backward.isDefEq.respectTransparency.types false in
def reg30 : Pipeline.RegionSeg (pcfgs (F := F)) (admAll m h) (pdats m h) () defs₀ 𝒱₀ L lv 30 where
  win := winFacts30.to₀
  block_pos := block_pos30
  stage_whole := stage_whole30
  K := PEmpty
  osem k := k.elim
  ho := Pipeline.OwnSemFacts.none _
  hbody c := (Rg30.body_obligation (Vent m) (tbl30 m) h.h30 c).loose
  hwaits := Pipeline.hwaits_of_owed_zero _ _ _ _ L lv 30 fun _ _ => rfl
  pre c := iprop(StableHlo.held (c : Thread nD τ) (Pipeline.ucRefs τ sig) (Vin30 m (outsAll m h) c) ∗ Rst c)
  post c := iprop(StableHlo.held (c : Thread nD τ) (Pipeline.ucRefs τ sig) (Vout30 m (outsAll m h) c) ∗ Rst c)
  X c := iprop(∃ r, prngReg c r)
  Y c := iprop((∃ r, prngReg c r) ∗ Pipeline.prefHeld pre30 c (fun _ => fullShare) (tbl30 m))
  Z c := Pipeline.unscopedRestP (Ix := Unit) (Name := ℕ) (U := UR sig nD τ) (Lvl := ℕ) pre30 spec30 c (fun b => Vin30 m (outsAll m h) c b)
  hentry c := by
    rw [Pipeline.ownSems0_none]
    have hsplit0 := Pipeline.arrays_of_unscopedBufs (p := 30) (pcfgs (F := F)) (admAll m h) (pdats m h) winFacts30 arr_whole30 c
      ((pdats m h 30 c).share_full fun _ => rfl) (fun b => Vin30 m (outsAll m h) c b) (hA30 m h c)
    rw [Pipeline.unscopedBufs_held] at hsplit0
    have hsplit : (StableHlo.held (c : Thread nD τ) (Pipeline.ucRefs τ sig) (Vin30 m (outsAll m h) c) : sProp 𝕄)
        ⊢ iprop((pdats m h 30 c).arrays ((pdats m h 30 c).arrAt · 0) ∗ Pipeline.unscopedRest spec30 c (fun b => Vin30 m (outsAll m h) c b)) := hsplit0
    rw [Pipeline.unscopedRest_split preFacts30 c,
      show (fun k => Vin30 m (outsAll m h) c (pre30.ref k)) = tbl30 m from funext fun k => Vin30_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 30 c).Φ 0 = iprop(Pipeline.ΦA spec30 c ∗ Pipeline.prefHeld pre30 c (fun _ => fullShare) (tbl30 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 30 c).Φ (Fin.last _) = iprop(Pipeline.ΦA spec30 c ∗ Pipeline.prefHeld pre30 c (fun _ => fullShare) (tbl30 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 30) (pcfgs (F := F)) (admAll m h) (Ix := Unit) (Name := ℕ) (U := UR sig nD τ) (Lvl := ℕ)
      winFacts30 arr_whole30 c (pdats m h) ((pdats m h 30 c).share_full fun _ => rfl)
      (fun b => Vin30 m (outsAll m h) c b) (fun b => Vout30 m (outsAll m h) c b) ((pdats m h 30 c).arrAt · (Pipeline.pin (pcfgs (F := F)) (admAll m h) 30).N) (hF30 m h c) (hrest30 m h c)
    rw [Pipeline.unscopedBufs_held] at hjoin0
    have hjoin : (iprop((pdats m h 30 c).arrays ((pdats m h 30 c).arrAt · (Pipeline.pin (pcfgs (F := F)) (admAll m h) 30).N) ∗ Pipeline.unscopedRest spec30 c (fun b => Vin30 m (outsAll m h) c b)) : sProp 𝕄)
        ⊢ StableHlo.held (c : Thread nD τ) (Pipeline.ucRefs τ sig) (Vout30 m (outsAll m h) c) := hjoin0
    rw [Pipeline.unscopedRest_split preFacts30 c,
      show (fun k => Vin30 m (outsAll m h) c (pre30.ref k)) = tbl30 m from funext fun k => Vin30_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.R31.Link.lean ====
/- Region 31's table satisfies the pipeline's side condition: its words are pooling indices, which the precondition
   bounds by 262144, the last row of the padded feature array. -/
/- Region 31 as a segment of the program: entered from the buffers after the host stretch before it, left at those
   buffers with its output array at the pooled rows. Its two arrays are split out of the unscoped buffers and put back;
   its table is lent to the pipeline and returned; the generator register rides through; nothing is owed. -/
import proofs.«411409_j5669356831307_3_alg».proof.Proof.KB.Chain
import proofs.«411409_j5669356831307_3_alg».proof.Proof.PreDecode
import Idealize.ShloMosaic.Lib.StableHlo.Run
import Idealize.ShloMosaic.Lib.Pipeline.Value
import proofs.«411409_j5669356831307_3_alg».proof.Proof.KB.Family
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand
section

open Cert.Kernel.Gen Cert.Kernel.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 31's table is one of the pooling indices, so at most 262144. -/
theorem tbl31_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl31 m 0 x : BitVec 32).toNat ≤ 262144 := by
  show (StableHlo.after hostOps31 (V0 m (0 : Dev nD)) (Proc.devRef .tc main_v129) x : BitVec 32).toNat ≤ 262144
  after_results
  exact slice_cast_all (fun w : BitVec 32 => w.toNat ≤ 262144) _ _ _ _ (fun k => Cert.PreDecode.toNat_le_of_toInt _ (hb k)) x

/-- The pipeline's side condition at region 31's table: the feature window's block, at the row the table names,
    lies inside the padded feature array (and a transfer of 32-bit elements moves whole words). -/
theorem okT31 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok31 (F := F) (tbl31 m) := by
  intro i
  exact ⟨block_inside _ _ (tbl31_le m hb _) rfl, Or.inl rfl⟩

end
end Cert.Kernel.Hand

namespace Cert.Kernel.Hand
section

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 31's proof data are what the region finds: the padded feature array and the (not yet
    written) output array hold at its entry what they held after the first host stretch. -/
theorem hA31 (c : Dev nD) (w : Fin 2) : (pdats m h 31 c).A w = Vin31 m (outsAll m h) c (Pipeline.arrRef spec31 w) :=
  match w with
  | ⟨0, _⟩ => (Vin31_v3 m (outsAll m h) c).symm
  | ⟨1, _⟩ => (Vin31_out m (outsAll m h) c).symm

/-- At the exit each array holds what the pipeline leaves. -/
theorem hF31 (c : Dev nD) (w : Fin 2) : (pdats m h 31 c).arrAt w (Pipeline.pin (pcfgs (F := F)) (admAll m h) 31).N = Vout31 m (outsAll m h) c (Pipeline.arrRef spec31 w) :=
  match w with
  | ⟨0, _⟩ => ((pdats m h 31 c).arrAt_in 0 rfl _).trans (Vout31_v3 m (outsAll m h) c).symm
  | ⟨1, _⟩ => ((Vout31_out m (outsAll m h) c).trans (outsAll_31 m h c)).symm

theorem hrest31 (c : Dev nD) : ∀ b, b ∉ Finset.univ.image (Pipeline.arrRef spec31) → Vout31 m (outsAll m h) c b = Vin31 m (outsAll m h) c b :=
  fun b hb => Vout31_of m (outsAll m h) c b (fun hm => hb (by
    rw [List.mem_singleton] at hm; subst hm
    exact Finset.mem_image.mpr ⟨1, Finset.mem_univ _, rfl⟩))

set_option backward.isDefEq.respectTransparency.types false in
def reg31 : Pipeline.RegionSeg (pcfgs (F := F)) (admAll m h) (pdats m h) () defs₀ 𝒱₀ L lv 31 where
  win := winFacts31.to₀
  block_pos := block_pos31
  stage_whole := stage_whole31
  K := PEmpty
  osem k := k.elim
  ho := Pipeline.OwnSemFacts.none _
  hbody c := (Rg31.body_obligation (Vent m) (tbl31 m) h.h31 c).loose
  hwaits := Pipeline.hwaits_of_owed_zero _ _ _ _ L lv 31 fun _ _ => rfl
  pre c := iprop(StableHlo.held (c : Thread nD τ) (Pipeline.ucRefs τ sig) (Vin31 m (outsAll m h) c) ∗ Rst c)
  post c := iprop(StableHlo.held (c : Thread nD τ) (Pipeline.ucRefs τ sig) (Vout31 m (outsAll m h) c) ∗ Rst c)
  X c := iprop(∃ r, prngReg c r)
  Y c := iprop((∃ r, prngReg c r) ∗ Pipeline.prefHeld pre31 c (fun _ => fullShare) (tbl31 m))
  Z c := Pipeline.unscopedRestP (Ix := Unit) (Name := ℕ) (U := UR sig nD τ) (Lvl := ℕ) pre31 spec31 c (fun b => Vin31 m (outsAll m h) c b)
  hentry c := by
    rw [Pipeline.ownSems0_none]
    have hsplit0 := Pipeline.arrays_of_unscopedBufs (p := 31) (pcfgs (F := F)) (admAll m h) (pdats m h) winFacts31 arr_whole31 c
      ((pdats m h 31 c).share_full fun _ => rfl) (fun b => Vin31 m (outsAll m h) c b) (hA31 m h c)
    rw [Pipeline.unscopedBufs_held] at hsplit0
    have hsplit : (StableHlo.held (c : Thread nD τ) (Pipeline.ucRefs τ sig) (Vin31 m (outsAll m h) c) : sProp 𝕄)
        ⊢ iprop((pdats m h 31 c).arrays ((pdats m h 31 c).arrAt · 0) ∗ Pipeline.unscopedRest spec31 c (fun b => Vin31 m (outsAll m h) c b)) := hsplit0
    rw [Pipeline.unscopedRest_split preFacts31 c,
      show (fun k => Vin31 m (outsAll m h) c (pre31.ref k)) = tbl31 m from funext fun k => Vin31_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 31 c).Φ 0 = iprop(Pipeline.ΦA spec31 c ∗ Pipeline.prefHeld pre31 c (fun _ => fullShare) (tbl31 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 31 c).Φ (Fin.last _) = iprop(Pipeline.ΦA spec31 c ∗ Pipeline.prefHeld pre31 c (fun _ => fullShare) (tbl31 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 31) (pcfgs (F := F)) (admAll m h) (Ix := Unit) (Name := ℕ) (U := UR sig nD τ) (Lvl := ℕ)
      winFacts31 arr_whole31 c (pdats m h) ((pdats m h 31 c).share_full fun _ => rfl)
      (fun b => Vin31 m (outsAll m h) c b) (fun b => Vout31 m (outsAll m h) c b) ((pdats m h 31 c).arrAt · (Pipeline.pin (pcfgs (F := F)) (admAll m h) 31).N) (hF31 m h c) (hrest31 m h c)
    rw [Pipeline.unscopedBufs_held] at hjoin0
    have hjoin : (iprop((pdats m h 31 c).arrays ((pdats m h 31 c).arrAt · (Pipeline.pin (pcfgs (F := F)) (admAll m h) 31).N) ∗ Pipeline.unscopedRest spec31 c (fun b => Vin31 m (outsAll m h) c b)) : sProp 𝕄)
        ⊢ StableHlo.held (c : Thread nD τ) (Pipeline.ucRefs τ sig) (Vout31 m (outsAll m h) c) := hjoin0
    rw [Pipeline.unscopedRest_split preFacts31 c,
      show (fun k => Vin31 m (outsAll m h) c (pre31.ref k)) = tbl31 m from funext fun k => Vin31_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.Kernel.Hand

end
-- ==== Proof.KB.Frame.lean ====
import proofs.«411409_j5669356831307_3_alg».proof.Proof.KB.R0.Link
import proofs.«411409_j5669356831307_3_alg».proof.Proof.KB.R1.Link
import proofs.«411409_j5669356831307_3_alg».proof.Proof.KB.R2.Link
import proofs.«411409_j5669356831307_3_alg».proof.Proof.KB.R3.Link
import proofs.«411409_j5669356831307_3_alg».proof.Proof.KB.R4.Link
import proofs.«411409_j5669356831307_3_alg».proof.Proof.KB.R5.Link
import proofs.«411409_j5669356831307_3_alg».proof.Proof.KB.R6.Link
import proofs.«411409_j5669356831307_3_alg».proof.Proof.KB.R7.Link
import proofs.«411409_j5669356831307_3_alg».proof.Proof.KB.R8.Link
import proofs.«411409_j5669356831307_3_alg».proof.Proof.KB.R9.Link
import proofs.«411409_j5669356831307_3_alg».proof.Proof.KB.R10.Link
import proofs.«411409_j5669356831307_3_alg».proof.Proof.KB.R11.Link
import proofs.«411409_j5669356831307_3_alg».proof.Proof.KB.R12.Link
import proofs.«411409_j5669356831307_3_alg».proof.Proof.KB.R13.Link
import proofs.«411409_j5669356831307_3_alg».proof.Proof.KB.R14.Link
import proofs.«411409_j5669356831307_3_alg».proof.Proof.KB.R15.Link
import proofs.«411409_j5669356831307_3_alg».proof.Proof.KB.R16.Link
import proofs.«411409_j5669356831307_3_alg».proof.Proof.KB.R17.Link
import proofs.«411409_j5669356831307_3_alg».proof.Proof.KB.R18.Link
import proofs.«411409_j5669356831307_3_alg».proof.Proof.KB.R19.Link
import proofs.«411409_j5669356831307_3_alg».proof.Proof.KB.R20.Link
import proofs.«411409_j5669356831307_3_alg».proof.Proof.KB.R21.Link
import proofs.«411409_j5669356831307_3_alg».proof.Proof.KB.R22.Link
import proofs.«411409_j5669356831307_3_alg».proof.Proof.KB.R23.Link
import proofs.«411409_j5669356831307_3_alg».proof.Proof.KB.R24.Link
import proofs.«411409_j5669356831307_3_alg».proof.Proof.KB.R25.Link
import proofs.«411409_j5669356831307_3_alg».proof.Proof.KB.R26.Link
import proofs.«411409_j5669356831307_3_alg».proof.Proof.KB.R27.Link
import proofs.«411409_j5669356831307_3_alg».proof.Proof.KB.R28.Link
import proofs.«411409_j5669356831307_3_alg».proof.Proof.KB.R29.Link
import proofs.«411409_j5669356831307_3_alg».proof.Proof.KB.R30.Link
import proofs.«411409_j5669356831307_3_alg».proof.Proof.KB.R31.Link
import Idealize.ShloMosaic.Lib.Pipeline.Kit

set_option maxRecDepth 16384

noncomputable section

namespace Cert.Kernel.Hand

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (h : OkAll m)

set_option backward.isDefEq.respectTransparency.types false in
/-- THE RUN. Under admissible tables every weakly fair execution of @main terminates, faults nowhere, leaves the
    arguments as launched (and, where the conditional frame names it, the result buffer at the last valuation). -/
theorem run_all (m : (ℓ : Loc nD τ sig) → Buf (Elt F) ℓ) (ρ : Dev nD → PrngReg) (h : OkAll m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond (F := F) m emb₁ () 𝒱₀ L lv (fun _ _ => rfl) ρ (outsAll m h) (admAll m h) (pdats m h) (O₀ := 0) (G := fun _ => iprop(emp))
    (u₀ := initOf (Pipeline.cells (Pipeline.pin (pcfgs (F := F)) (admAll m h)) (cellOf_inj (admAll m h))) (Pipeline.launchToks (Pipeline.pin (pcfgs (F := F)) (admAll m h)) (cellOf_inj (admAll m h))))
    (hu₀ := by
      iintro Hu; imodintro
      isplitl [Hu]
      · iapply (show (ownU (initOf (Pipeline.cells (Pipeline.pin (pcfgs (F := F)) (admAll m h)) (cellOf_inj (admAll m h))) (Pipeline.launchToks (Pipeline.pin (pcfgs (F := F)) (admAll m h)) (cellOf_inj (admAll m h)))) : sProp 𝕄)
            ⊢ BI.own (emb₁ (initOf (Pipeline.cells (Pipeline.pin (pcfgs (F := F)) (admAll m h)) (cellOf_inj (admAll m h))) (Pipeline.launchToks (Pipeline.pin (pcfgs (F := F)) (admAll m h)) (cellOf_inj (admAll m h))))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE32 := fun c => by iintro ⟨-, HO⟩; iexact HO)
    (reg0 m h) (fun c => .rfl) (fun c => .rfl)
    (reg1 m h) (fun c => .rfl) (fun c => .rfl)
    (reg2 m h) (fun c => .rfl) (fun c => .rfl)
    (reg3 m h) (fun c => .rfl) (fun c => .rfl)
    (reg4 m h) (fun c => .rfl) (fun c => .rfl)
    (reg5 m h) (fun c => .rfl) (fun c => .rfl)
    (reg6 m h) (fun c => .rfl) (fun c => .rfl)
    (reg7 m h) (fun c => .rfl) (fun c => .rfl)
    (reg8 m h) (fun c => .rfl) (fun c => .rfl)
    (reg9 m h) (fun c => .rfl) (fun c => .rfl)
    (reg10 m h) (fun c => .rfl) (fun c => .rfl)
    (reg11 m h) (fun c => .rfl) (fun c => .rfl)
    (reg12 m h) (fun c => .rfl) (fun c => .rfl)
    (reg13 m h) (fun c => .rfl) (fun c => .rfl)
    (reg14 m h) (fun c => .rfl) (fun c => .rfl)
    (reg15 m h) (fun c => .rfl) (fun c => .rfl)
    (reg16 m h) (fun c => .rfl) (fun c => .rfl)
    (reg17 m h) (fun c => .rfl) (fun c => .rfl)
    (reg18 m h) (fun c => .rfl) (fun c => .rfl)
    (reg19 m h) (fun c => .rfl) (fun c => .rfl)
    (reg20 m h) (fun c => .rfl) (fun c => .rfl)
    (reg21 m h) (fun c => .rfl) (fun c => .rfl)
    (reg22 m h) (fun c => .rfl) (fun c => .rfl)
    (reg23 m h) (fun c => .rfl) (fun c => .rfl)
    (reg24 m h) (fun c => .rfl) (fun c => .rfl)
    (reg25 m h) (fun c => .rfl) (fun c => .rfl)
    (reg26 m h) (fun c => .rfl) (fun c => .rfl)
    (reg27 m h) (fun c => .rfl) (fun c => .rfl)
    (reg28 m h) (fun c => .rfl) (fun c => .rfl)
    (reg29 m h) (fun c => .rfl) (fun c => .rfl)
    (reg30 m h) (fun c => .rfl) (fun c => .rfl)
    (reg31 m h) (fun c => .rfl) (fun c => .rfl)

end Cert.Kernel.Hand

end
-- ==== Proof.KB.Pre.lean ====
import proofs.«411409_j5669356831307_3_alg».proof.Proof.KB.R0.Link
import proofs.«411409_j5669356831307_3_alg».proof.Proof.KB.R1.Link
import proofs.«411409_j5669356831307_3_alg».proof.Proof.KB.R2.Link
import proofs.«411409_j5669356831307_3_alg».proof.Proof.KB.R3.Link
import proofs.«411409_j5669356831307_3_alg».proof.Proof.KB.R4.Link
import proofs.«411409_j5669356831307_3_alg».proof.Proof.KB.R5.Link
import proofs.«411409_j5669356831307_3_alg».proof.Proof.KB.R6.Link
import proofs.«411409_j5669356831307_3_alg».proof.Proof.KB.R7.Link
import proofs.«411409_j5669356831307_3_alg».proof.Proof.KB.R8.Link
import proofs.«411409_j5669356831307_3_alg».proof.Proof.KB.R9.Link
import proofs.«411409_j5669356831307_3_alg».proof.Proof.KB.R10.Link
import proofs.«411409_j5669356831307_3_alg».proof.Proof.KB.R11.Link
import proofs.«411409_j5669356831307_3_alg».proof.Proof.KB.R12.Link
import proofs.«411409_j5669356831307_3_alg».proof.Proof.KB.R13.Link
import proofs.«411409_j5669356831307_3_alg».proof.Proof.KB.R14.Link
import proofs.«411409_j5669356831307_3_alg».proof.Proof.KB.R15.Link
import proofs.«411409_j5669356831307_3_alg».proof.Proof.KB.R16.Link
import proofs.«411409_j5669356831307_3_alg».proof.Proof.KB.R17.Link
import proofs.«411409_j5669356831307_3_alg».proof.Proof.KB.R18.Link
import proofs.«411409_j5669356831307_3_alg».proof.Proof.KB.R19.Link
import proofs.«411409_j5669356831307_3_alg».proof.Proof.KB.R20.Link
import proofs.«411409_j5669356831307_3_alg».proof.Proof.KB.R21.Link
import proofs.«411409_j5669356831307_3_alg».proof.Proof.KB.R22.Link
import proofs.«411409_j5669356831307_3_alg».proof.Proof.KB.R23.Link
import proofs.«411409_j5669356831307_3_alg».proof.Proof.KB.R24.Link
import proofs.«411409_j5669356831307_3_alg».proof.Proof.KB.R25.Link
import proofs.«411409_j5669356831307_3_alg».proof.Proof.KB.R26.Link
import proofs.«411409_j5669356831307_3_alg».proof.Proof.KB.R27.Link
import proofs.«411409_j5669356831307_3_alg».proof.Proof.KB.R28.Link
import proofs.«411409_j5669356831307_3_alg».proof.Proof.KB.R29.Link
import proofs.«411409_j5669356831307_3_alg».proof.Proof.KB.R30.Link
import proofs.«411409_j5669356831307_3_alg».proof.Proof.KB.R31.Link
import proofs.«411409_j5669356831307_3_alg».proof.Proof.PreDecode

noncomputable section

namespace Cert.Kernel.Hand

open Cert.Kernel.Gen Cert.Kernel.GenP
open Idealize.ShloMosaic Idealize.ShloMosaic.TcCoe Idealize.SL.Sem

variable {F : FTy → Type} [FloatOps F]

/-- Under the precondition (every index names a row of the padded feature array) every region table is admissible. -/
theorem okAll_of_pre (m : (ℓ : Loc nD τ sig) → Buf (Elt F) ℓ)
    (hpre : ∀ c : Dev nD, Cert.Pre_finite_inputs.fn (F := F) (m ((c.tc : Thread nD τ).loc main_arg0)) (m ((c.tc : Thread nD τ).loc main_arg1)) = (fun _ => 1#1)) : OkAll m :=
  have hb := Cert.PreDecode.pools_in_range _ _ (hpre 0)
  ⟨okT0 m hb, okT1 m hb, okT2 m hb, okT3 m hb, okT4 m hb, okT5 m hb, okT6 m hb, okT7 m hb, okT8 m hb, okT9 m hb, okT10 m hb, okT11 m hb, okT12 m hb, okT13 m hb, okT14 m hb, okT15 m hb, okT16 m hb, okT17 m hb, okT18 m hb, okT19 m hb, okT20 m hb, okT21 m hb, okT22 m hb, okT23 m hb, okT24 m hb, okT25 m hb, okT26 m hb, okT27 m hb, okT28 m hb, okT29 m hb, okT30 m hb, okT31 m hb⟩

end Cert.Kernel.Hand

end
-- ==== Proof.KI.Chain.lean ====
import proofs.«411409_j5669356831307_3_alg».proof.Proof.KernelIdealRegions
import Idealize.ShloMosaic.Lib.Pipeline.FrameSuffix
import Idealize.ShloMosaic.Lib.StableHlo.Run
import Idealize.ShloMosaic.Lib.Pipeline.Kit
import Idealize.ShloMosaic.Lib.Pipeline.RegionsLoop

set_option maxRecDepth 16384

noncomputable section

namespace Cert.KernelIdeal.Hand

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- The buffers after the first host stretch (the padded feature array is there), read at the TensorCore references:
    what every region proof data are stated over. -/
abbrev Vent (c : Dev nD) (b : Ref sig .tc) : Buf (Elt F) ((c : Thread nD τ).loc b) := V1 m c b

/-- No variant, no level, nothing owed between cores: the program signals nobody. -/
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Rst (c : Dev nD) : sProp (MT nD τ sig Unit (Elt F) ℕ (UR sig nD τ) ℕ) := iprop((∃ r, prngReg c r) ∗ ∃ W, owes (c : Thread nD τ) (0 : CellTallies nD τ sig Unit) W)

/-! ## The arguments and the padded feature array reach every item unchanged -/

theorem V0_arg1 (c : Dev nD) : V0 m c main_arg1 = m ((c : Thread nD τ).loc main_arg1) := rfl
theorem V1_arg1 (c : Dev nD) : V1 m c main_arg1 = m ((c : Thread nD τ).loc main_arg1) := (V1_of m c main_arg1 (by decide)).trans (V0_arg1 m c)
theorem V1_v3 (c : Dev nD) : V1 m c main_v3 = V1 m c main_v3 := rfl
variable (outs : Outs (F := F))
theorem V2_arg1 (c : Dev nD) : V2 m outs c main_arg1 = m ((c : Thread nD τ).loc main_arg1) := (V2_of m outs c main_arg1 (by decide)).trans (V1_arg1 m c)
theorem V2_v3 (c : Dev nD) : V2 m outs c main_v3 = V1 m c main_v3 := (V2_of m outs c main_v3 (by decide)).trans (V1_v3 m c)
theorem V3_arg1 (c : Dev nD) : V3 m outs c main_arg1 = m ((c : Thread nD τ).loc main_arg1) := (V3_of m outs c main_arg1 (by decide)).trans (V2_arg1 m outs c)
theorem V3_v3 (c : Dev nD) : V3 m outs c main_v3 = V1 m c main_v3 := (V3_of m outs c main_v3 (by decide)).trans (V2_v3 m outs c)
theorem V4_arg1 (c : Dev nD) : V4 m outs c main_arg1 = m ((c : Thread nD τ).loc main_arg1) := (V4_of m outs c main_arg1 (by decide)).trans (V3_arg1 m outs c)
theorem V4_v3 (c : Dev nD) : V4 m outs c main_v3 = V1 m c main_v3 := (V4_of m outs c main_v3 (by decide)).trans (V3_v3 m outs c)
theorem V5_arg1 (c : Dev nD) : V5 m outs c main_arg1 = m ((c : Thread nD τ).loc main_arg1) := (V5_of m outs c main_arg1 (by decide)).trans (V4_arg1 m outs c)
theorem V5_v3 (c : Dev nD) : V5 m outs c main_v3 = V1 m c main_v3 := (V5_of m outs c main_v3 (by decide)).trans (V4_v3 m outs c)
theorem V6_arg1 (c : Dev nD) : V6 m outs c main_arg1 = m ((c : Thread nD τ).loc main_arg1) := (V6_of m outs c main_arg1 (by decide)).trans (V5_arg1 m outs c)
theorem V6_v3 (c : Dev nD) : V6 m outs c main_v3 = V1 m c main_v3 := (V6_of m outs c main_v3 (by decide)).trans (V5_v3 m outs c)
theorem V7_arg1 (c : Dev nD) : V7 m outs c main_arg1 = m ((c : Thread nD τ).loc main_arg1) := (V7_of m outs c main_arg1 (by decide)).trans (V6_arg1 m outs c)
theorem V7_v3 (c : Dev nD) : V7 m outs c main_v3 = V1 m c main_v3 := (V7_of m outs c main_v3 (by decide)).trans (V6_v3 m outs c)
theorem V8_arg1 (c : Dev nD) : V8 m outs c main_arg1 = m ((c : Thread nD τ).loc main_arg1) := (V8_of m outs c main_arg1 (by decide)).trans (V7_arg1 m outs c)
theorem V8_v3 (c : Dev nD) : V8 m outs c main_v3 = V1 m c main_v3 := (V8_of m outs c main_v3 (by decide)).trans (V7_v3 m outs c)
theorem V9_arg1 (c : Dev nD) : V9 m outs c main_arg1 = m ((c : Thread nD τ).loc main_arg1) := (V9_of m outs c main_arg1 (by decide)).trans (V8_arg1 m outs c)
theorem V9_v3 (c : Dev nD) : V9 m outs c main_v3 = V1 m c main_v3 := (V9_of m outs c main_v3 (by decide)).trans (V8_v3 m outs c)
theorem V10_arg1 (c : Dev nD) : V10 m outs c main_arg1 = m ((c : Thread nD τ).loc main_arg1) := (V10_of m outs c main_arg1 (by decide)).trans (V9_arg1 m outs c)
theorem V10_v3 (c : Dev nD) : V10 m outs c main_v3 = V1 m c main_v3 := (V10_of m outs c main_v3 (by decide)).trans (V9_v3 m outs c)
theorem V11_arg1 (c : Dev nD) : V11 m outs c main_arg1 = m ((c : Thread nD τ).loc main_arg1) := (V11_of m outs c main_arg1 (by decide)).trans (V10_arg1 m outs c)
theorem V11_v3 (c : Dev nD) : V11 m outs c main_v3 = V1 m c main_v3 := (V11_of m outs c main_v3 (by decide)).trans (V10_v3 m outs c)
theorem V12_arg1 (c : Dev nD) : V12 m outs c main_arg1 = m ((c : Thread nD τ).loc main_arg1) := (V12_of m outs c main_arg1 (by decide)).trans (V11_arg1 m outs c)
theorem V12_v3 (c : Dev nD) : V12 m outs c main_v3 = V1 m c main_v3 := (V12_of m outs c main_v3 (by decide)).trans (V11_v3 m outs c)
theorem V13_arg1 (c : Dev nD) : V13 m outs c main_arg1 = m ((c : Thread nD τ).loc main_arg1) := (V13_of m outs c main_arg1 (by decide)).trans (V12_arg1 m outs c)
theorem V13_v3 (c : Dev nD) : V13 m outs c main_v3 = V1 m c main_v3 := (V13_of m outs c main_v3 (by decide)).trans (V12_v3 m outs c)
theorem V14_arg1 (c : Dev nD) : V14 m outs c main_arg1 = m ((c : Thread nD τ).loc main_arg1) := (V14_of m outs c main_arg1 (by decide)).trans (V13_arg1 m outs c)
theorem V14_v3 (c : Dev nD) : V14 m outs c main_v3 = V1 m c main_v3 := (V14_of m outs c main_v3 (by decide)).trans (V13_v3 m outs c)
theorem V15_arg1 (c : Dev nD) : V15 m outs c main_arg1 = m ((c : Thread nD τ).loc main_arg1) := (V15_of m outs c main_arg1 (by decide)).trans (V14_arg1 m outs c)
theorem V15_v3 (c : Dev nD) : V15 m outs c main_v3 = V1 m c main_v3 := (V15_of m outs c main_v3 (by decide)).trans (V14_v3 m outs c)
theorem V16_arg1 (c : Dev nD) : V16 m outs c main_arg1 = m ((c : Thread nD τ).loc main_arg1) := (V16_of m outs c main_arg1 (by decide)).trans (V15_arg1 m outs c)
theorem V16_v3 (c : Dev nD) : V16 m outs c main_v3 = V1 m c main_v3 := (V16_of m outs c main_v3 (by decide)).trans (V15_v3 m outs c)
theorem V17_arg1 (c : Dev nD) : V17 m outs c main_arg1 = m ((c : Thread nD τ).loc main_arg1) := (V17_of m outs c main_arg1 (by decide)).trans (V16_arg1 m outs c)
theorem V17_v3 (c : Dev nD) : V17 m outs c main_v3 = V1 m c main_v3 := (V17_of m outs c main_v3 (by decide)).trans (V16_v3 m outs c)
theorem V18_arg1 (c : Dev nD) : V18 m outs c main_arg1 = m ((c : Thread nD τ).loc main_arg1) := (V18_of m outs c main_arg1 (by decide)).trans (V17_arg1 m outs c)
theorem V18_v3 (c : Dev nD) : V18 m outs c main_v3 = V1 m c main_v3 := (V18_of m outs c main_v3 (by decide)).trans (V17_v3 m outs c)
theorem V19_arg1 (c : Dev nD) : V19 m outs c main_arg1 = m ((c : Thread nD τ).loc main_arg1) := (V19_of m outs c main_arg1 (by decide)).trans (V18_arg1 m outs c)
theorem V19_v3 (c : Dev nD) : V19 m outs c main_v3 = V1 m c main_v3 := (V19_of m outs c main_v3 (by decide)).trans (V18_v3 m outs c)
theorem V20_arg1 (c : Dev nD) : V20 m outs c main_arg1 = m ((c : Thread nD τ).loc main_arg1) := (V20_of m outs c main_arg1 (by decide)).trans (V19_arg1 m outs c)
theorem V20_v3 (c : Dev nD) : V20 m outs c main_v3 = V1 m c main_v3 := (V20_of m outs c main_v3 (by decide)).trans (V19_v3 m outs c)
theorem V21_arg1 (c : Dev nD) : V21 m outs c main_arg1 = m ((c : Thread nD τ).loc main_arg1) := (V21_of m outs c main_arg1 (by decide)).trans (V20_arg1 m outs c)
theorem V21_v3 (c : Dev nD) : V21 m outs c main_v3 = V1 m c main_v3 := (V21_of m outs c main_v3 (by decide)).trans (V20_v3 m outs c)
theorem V22_arg1 (c : Dev nD) : V22 m outs c main_arg1 = m ((c : Thread nD τ).loc main_arg1) := (V22_of m outs c main_arg1 (by decide)).trans (V21_arg1 m outs c)
theorem V22_v3 (c : Dev nD) : V22 m outs c main_v3 = V1 m c main_v3 := (V22_of m outs c main_v3 (by decide)).trans (V21_v3 m outs c)
theorem V23_arg1 (c : Dev nD) : V23 m outs c main_arg1 = m ((c : Thread nD τ).loc main_arg1) := (V23_of m outs c main_arg1 (by decide)).trans (V22_arg1 m outs c)
theorem V23_v3 (c : Dev nD) : V23 m outs c main_v3 = V1 m c main_v3 := (V23_of m outs c main_v3 (by decide)).trans (V22_v3 m outs c)
theorem V24_arg1 (c : Dev nD) : V24 m outs c main_arg1 = m ((c : Thread nD τ).loc main_arg1) := (V24_of m outs c main_arg1 (by decide)).trans (V23_arg1 m outs c)
theorem V24_v3 (c : Dev nD) : V24 m outs c main_v3 = V1 m c main_v3 := (V24_of m outs c main_v3 (by decide)).trans (V23_v3 m outs c)
theorem V25_arg1 (c : Dev nD) : V25 m outs c main_arg1 = m ((c : Thread nD τ).loc main_arg1) := (V25_of m outs c main_arg1 (by decide)).trans (V24_arg1 m outs c)
theorem V25_v3 (c : Dev nD) : V25 m outs c main_v3 = V1 m c main_v3 := (V25_of m outs c main_v3 (by decide)).trans (V24_v3 m outs c)
theorem V26_arg1 (c : Dev nD) : V26 m outs c main_arg1 = m ((c : Thread nD τ).loc main_arg1) := (V26_of m outs c main_arg1 (by decide)).trans (V25_arg1 m outs c)
theorem V26_v3 (c : Dev nD) : V26 m outs c main_v3 = V1 m c main_v3 := (V26_of m outs c main_v3 (by decide)).trans (V25_v3 m outs c)
theorem V27_arg1 (c : Dev nD) : V27 m outs c main_arg1 = m ((c : Thread nD τ).loc main_arg1) := (V27_of m outs c main_arg1 (by decide)).trans (V26_arg1 m outs c)
theorem V27_v3 (c : Dev nD) : V27 m outs c main_v3 = V1 m c main_v3 := (V27_of m outs c main_v3 (by decide)).trans (V26_v3 m outs c)
theorem V28_arg1 (c : Dev nD) : V28 m outs c main_arg1 = m ((c : Thread nD τ).loc main_arg1) := (V28_of m outs c main_arg1 (by decide)).trans (V27_arg1 m outs c)
theorem V28_v3 (c : Dev nD) : V28 m outs c main_v3 = V1 m c main_v3 := (V28_of m outs c main_v3 (by decide)).trans (V27_v3 m outs c)
theorem V29_arg1 (c : Dev nD) : V29 m outs c main_arg1 = m ((c : Thread nD τ).loc main_arg1) := (V29_of m outs c main_arg1 (by decide)).trans (V28_arg1 m outs c)
theorem V29_v3 (c : Dev nD) : V29 m outs c main_v3 = V1 m c main_v3 := (V29_of m outs c main_v3 (by decide)).trans (V28_v3 m outs c)
theorem V30_arg1 (c : Dev nD) : V30 m outs c main_arg1 = m ((c : Thread nD τ).loc main_arg1) := (V30_of m outs c main_arg1 (by decide)).trans (V29_arg1 m outs c)
theorem V30_v3 (c : Dev nD) : V30 m outs c main_v3 = V1 m c main_v3 := (V30_of m outs c main_v3 (by decide)).trans (V29_v3 m outs c)
theorem V31_arg1 (c : Dev nD) : V31 m outs c main_arg1 = m ((c : Thread nD τ).loc main_arg1) := (V31_of m outs c main_arg1 (by decide)).trans (V30_arg1 m outs c)
theorem V31_v3 (c : Dev nD) : V31 m outs c main_v3 = V1 m c main_v3 := (V31_of m outs c main_v3 (by decide)).trans (V30_v3 m outs c)
theorem V32_arg1 (c : Dev nD) : V32 m outs c main_arg1 = m ((c : Thread nD τ).loc main_arg1) := (V32_of m outs c main_arg1 (by decide)).trans (V31_arg1 m outs c)
theorem V32_v3 (c : Dev nD) : V32 m outs c main_v3 = V1 m c main_v3 := (V32_of m outs c main_v3 (by decide)).trans (V31_v3 m outs c)
theorem V33_arg1 (c : Dev nD) : V33 m outs c main_arg1 = m ((c : Thread nD τ).loc main_arg1) := (V33_of m outs c main_arg1 (by decide)).trans (V32_arg1 m outs c)
theorem V33_v3 (c : Dev nD) : V33 m outs c main_v3 = V1 m c main_v3 := (V33_of m outs c main_v3 (by decide)).trans (V32_v3 m outs c)
theorem V34_arg1 (c : Dev nD) : V34 m outs c main_arg1 = m ((c : Thread nD τ).loc main_arg1) := (V34_of m outs c main_arg1 (by decide)).trans (V33_arg1 m outs c)
theorem V34_v3 (c : Dev nD) : V34 m outs c main_v3 = V1 m c main_v3 := (V34_of m outs c main_v3 (by decide)).trans (V33_v3 m outs c)
theorem V35_arg1 (c : Dev nD) : V35 m outs c main_arg1 = m ((c : Thread nD τ).loc main_arg1) := (V35_of m outs c main_arg1 (by decide)).trans (V34_arg1 m outs c)
theorem V35_v3 (c : Dev nD) : V35 m outs c main_v3 = V1 m c main_v3 := (V35_of m outs c main_v3 (by decide)).trans (V34_v3 m outs c)
theorem V36_arg1 (c : Dev nD) : V36 m outs c main_arg1 = m ((c : Thread nD τ).loc main_arg1) := (V36_of m outs c main_arg1 (by decide)).trans (V35_arg1 m outs c)
theorem V36_v3 (c : Dev nD) : V36 m outs c main_v3 = V1 m c main_v3 := (V36_of m outs c main_v3 (by decide)).trans (V35_v3 m outs c)
theorem V37_arg1 (c : Dev nD) : V37 m outs c main_arg1 = m ((c : Thread nD τ).loc main_arg1) := (V37_of m outs c main_arg1 (by decide)).trans (V36_arg1 m outs c)
theorem V37_v3 (c : Dev nD) : V37 m outs c main_v3 = V1 m c main_v3 := (V37_of m outs c main_v3 (by decide)).trans (V36_v3 m outs c)
theorem V38_arg1 (c : Dev nD) : V38 m outs c main_arg1 = m ((c : Thread nD τ).loc main_arg1) := (V38_of m outs c main_arg1 (by decide)).trans (V37_arg1 m outs c)
theorem V38_v3 (c : Dev nD) : V38 m outs c main_v3 = V1 m c main_v3 := (V38_of m outs c main_v3 (by decide)).trans (V37_v3 m outs c)
theorem V39_arg1 (c : Dev nD) : V39 m outs c main_arg1 = m ((c : Thread nD τ).loc main_arg1) := (V39_of m outs c main_arg1 (by decide)).trans (V38_arg1 m outs c)
theorem V39_v3 (c : Dev nD) : V39 m outs c main_v3 = V1 m c main_v3 := (V39_of m outs c main_v3 (by decide)).trans (V38_v3 m outs c)
theorem V40_arg1 (c : Dev nD) : V40 m outs c main_arg1 = m ((c : Thread nD τ).loc main_arg1) := (V40_of m outs c main_arg1 (by decide)).trans (V39_arg1 m outs c)
theorem V40_v3 (c : Dev nD) : V40 m outs c main_v3 = V1 m c main_v3 := (V40_of m outs c main_v3 (by decide)).trans (V39_v3 m outs c)
theorem V41_arg1 (c : Dev nD) : V41 m outs c main_arg1 = m ((c : Thread nD τ).loc main_arg1) := (V41_of m outs c main_arg1 (by decide)).trans (V40_arg1 m outs c)
theorem V41_v3 (c : Dev nD) : V41 m outs c main_v3 = V1 m c main_v3 := (V41_of m outs c main_v3 (by decide)).trans (V40_v3 m outs c)
theorem V42_arg1 (c : Dev nD) : V42 m outs c main_arg1 = m ((c : Thread nD τ).loc main_arg1) := (V42_of m outs c main_arg1 (by decide)).trans (V41_arg1 m outs c)
theorem V42_v3 (c : Dev nD) : V42 m outs c main_v3 = V1 m c main_v3 := (V42_of m outs c main_v3 (by decide)).trans (V41_v3 m outs c)
theorem V43_arg1 (c : Dev nD) : V43 m outs c main_arg1 = m ((c : Thread nD τ).loc main_arg1) := (V43_of m outs c main_arg1 (by decide)).trans (V42_arg1 m outs c)
theorem V43_v3 (c : Dev nD) : V43 m outs c main_v3 = V1 m c main_v3 := (V43_of m outs c main_v3 (by decide)).trans (V42_v3 m outs c)
theorem V44_arg1 (c : Dev nD) : V44 m outs c main_arg1 = m ((c : Thread nD τ).loc main_arg1) := (V44_of m outs c main_arg1 (by decide)).trans (V43_arg1 m outs c)
theorem V44_v3 (c : Dev nD) : V44 m outs c main_v3 = V1 m c main_v3 := (V44_of m outs c main_v3 (by decide)).trans (V43_v3 m outs c)
theorem V45_arg1 (c : Dev nD) : V45 m outs c main_arg1 = m ((c : Thread nD τ).loc main_arg1) := (V45_of m outs c main_arg1 (by decide)).trans (V44_arg1 m outs c)
theorem V45_v3 (c : Dev nD) : V45 m outs c main_v3 = V1 m c main_v3 := (V45_of m outs c main_v3 (by decide)).trans (V44_v3 m outs c)
theorem V46_arg1 (c : Dev nD) : V46 m outs c main_arg1 = m ((c : Thread nD τ).loc main_arg1) := (V46_of m outs c main_arg1 (by decide)).trans (V45_arg1 m outs c)
theorem V46_v3 (c : Dev nD) : V46 m outs c main_v3 = V1 m c main_v3 := (V46_of m outs c main_v3 (by decide)).trans (V45_v3 m outs c)
theorem V47_arg1 (c : Dev nD) : V47 m outs c main_arg1 = m ((c : Thread nD τ).loc main_arg1) := (V47_of m outs c main_arg1 (by decide)).trans (V46_arg1 m outs c)
theorem V47_v3 (c : Dev nD) : V47 m outs c main_v3 = V1 m c main_v3 := (V47_of m outs c main_v3 (by decide)).trans (V46_v3 m outs c)
theorem V48_arg1 (c : Dev nD) : V48 m outs c main_arg1 = m ((c : Thread nD τ).loc main_arg1) := (V48_of m outs c main_arg1 (by decide)).trans (V47_arg1 m outs c)
theorem V48_v3 (c : Dev nD) : V48 m outs c main_v3 = V1 m c main_v3 := (V48_of m outs c main_v3 (by decide)).trans (V47_v3 m outs c)
theorem V49_arg1 (c : Dev nD) : V49 m outs c main_arg1 = m ((c : Thread nD τ).loc main_arg1) := (V49_of m outs c main_arg1 (by decide)).trans (V48_arg1 m outs c)
theorem V49_v3 (c : Dev nD) : V49 m outs c main_v3 = V1 m c main_v3 := (V49_of m outs c main_v3 (by decide)).trans (V48_v3 m outs c)
theorem V50_arg1 (c : Dev nD) : V50 m outs c main_arg1 = m ((c : Thread nD τ).loc main_arg1) := (V50_of m outs c main_arg1 (by decide)).trans (V49_arg1 m outs c)
theorem V50_v3 (c : Dev nD) : V50 m outs c main_v3 = V1 m c main_v3 := (V50_of m outs c main_v3 (by decide)).trans (V49_v3 m outs c)
theorem V51_arg1 (c : Dev nD) : V51 m outs c main_arg1 = m ((c : Thread nD τ).loc main_arg1) := (V51_of m outs c main_arg1 (by decide)).trans (V50_arg1 m outs c)
theorem V51_v3 (c : Dev nD) : V51 m outs c main_v3 = V1 m c main_v3 := (V51_of m outs c main_v3 (by decide)).trans (V50_v3 m outs c)
theorem V52_arg1 (c : Dev nD) : V52 m outs c main_arg1 = m ((c : Thread nD τ).loc main_arg1) := (V52_of m outs c main_arg1 (by decide)).trans (V51_arg1 m outs c)
theorem V52_v3 (c : Dev nD) : V52 m outs c main_v3 = V1 m c main_v3 := (V52_of m outs c main_v3 (by decide)).trans (V51_v3 m outs c)
theorem V53_arg1 (c : Dev nD) : V53 m outs c main_arg1 = m ((c : Thread nD τ).loc main_arg1) := (V53_of m outs c main_arg1 (by decide)).trans (V52_arg1 m outs c)
theorem V53_v3 (c : Dev nD) : V53 m outs c main_v3 = V1 m c main_v3 := (V53_of m outs c main_v3 (by decide)).trans (V52_v3 m outs c)
theorem V54_arg1 (c : Dev nD) : V54 m outs c main_arg1 = m ((c : Thread nD τ).loc main_arg1) := (V54_of m outs c main_arg1 (by decide)).trans (V53_arg1 m outs c)
theorem V54_v3 (c : Dev nD) : V54 m outs c main_v3 = V1 m c main_v3 := (V54_of m outs c main_v3 (by decide)).trans (V53_v3 m outs c)
theorem V55_arg1 (c : Dev nD) : V55 m outs c main_arg1 = m ((c : Thread nD τ).loc main_arg1) := (V55_of m outs c main_arg1 (by decide)).trans (V54_arg1 m outs c)
theorem V55_v3 (c : Dev nD) : V55 m outs c main_v3 = V1 m c main_v3 := (V55_of m outs c main_v3 (by decide)).trans (V54_v3 m outs c)
theorem V56_arg1 (c : Dev nD) : V56 m outs c main_arg1 = m ((c : Thread nD τ).loc main_arg1) := (V56_of m outs c main_arg1 (by decide)).trans (V55_arg1 m outs c)
theorem V56_v3 (c : Dev nD) : V56 m outs c main_v3 = V1 m c main_v3 := (V56_of m outs c main_v3 (by decide)).trans (V55_v3 m outs c)
theorem V57_arg1 (c : Dev nD) : V57 m outs c main_arg1 = m ((c : Thread nD τ).loc main_arg1) := (V57_of m outs c main_arg1 (by decide)).trans (V56_arg1 m outs c)
theorem V57_v3 (c : Dev nD) : V57 m outs c main_v3 = V1 m c main_v3 := (V57_of m outs c main_v3 (by decide)).trans (V56_v3 m outs c)
theorem V58_arg1 (c : Dev nD) : V58 m outs c main_arg1 = m ((c : Thread nD τ).loc main_arg1) := (V58_of m outs c main_arg1 (by decide)).trans (V57_arg1 m outs c)
theorem V58_v3 (c : Dev nD) : V58 m outs c main_v3 = V1 m c main_v3 := (V58_of m outs c main_v3 (by decide)).trans (V57_v3 m outs c)
theorem V59_arg1 (c : Dev nD) : V59 m outs c main_arg1 = m ((c : Thread nD τ).loc main_arg1) := (V59_of m outs c main_arg1 (by decide)).trans (V58_arg1 m outs c)
theorem V59_v3 (c : Dev nD) : V59 m outs c main_v3 = V1 m c main_v3 := (V59_of m outs c main_v3 (by decide)).trans (V58_v3 m outs c)
theorem V60_arg1 (c : Dev nD) : V60 m outs c main_arg1 = m ((c : Thread nD τ).loc main_arg1) := (V60_of m outs c main_arg1 (by decide)).trans (V59_arg1 m outs c)
theorem V60_v3 (c : Dev nD) : V60 m outs c main_v3 = V1 m c main_v3 := (V60_of m outs c main_v3 (by decide)).trans (V59_v3 m outs c)
theorem V61_arg1 (c : Dev nD) : V61 m outs c main_arg1 = m ((c : Thread nD τ).loc main_arg1) := (V61_of m outs c main_arg1 (by decide)).trans (V60_arg1 m outs c)
theorem V61_v3 (c : Dev nD) : V61 m outs c main_v3 = V1 m c main_v3 := (V61_of m outs c main_v3 (by decide)).trans (V60_v3 m outs c)
theorem V62_arg1 (c : Dev nD) : V62 m outs c main_arg1 = m ((c : Thread nD τ).loc main_arg1) := (V62_of m outs c main_arg1 (by decide)).trans (V61_arg1 m outs c)
theorem V62_v3 (c : Dev nD) : V62 m outs c main_v3 = V1 m c main_v3 := (V62_of m outs c main_v3 (by decide)).trans (V61_v3 m outs c)
theorem V63_arg1 (c : Dev nD) : V63 m outs c main_arg1 = m ((c : Thread nD τ).loc main_arg1) := (V63_of m outs c main_arg1 (by decide)).trans (V62_arg1 m outs c)
theorem V63_v3 (c : Dev nD) : V63 m outs c main_v3 = V1 m c main_v3 := (V63_of m outs c main_v3 (by decide)).trans (V62_v3 m outs c)
theorem V64_arg1 (c : Dev nD) : V64 m outs c main_arg1 = m ((c : Thread nD τ).loc main_arg1) := (V64_of m outs c main_arg1 (by decide)).trans (V63_arg1 m outs c)
theorem V64_v3 (c : Dev nD) : V64 m outs c main_v3 = V1 m c main_v3 := (V64_of m outs c main_v3 (by decide)).trans (V63_v3 m outs c)

/-! ## A region output array holds at the region entry what it held after the first host stretch: nothing writes it before -/
theorem V1_o0 (c : Dev nD) : V1 m c main_v6 = V1 m c main_v6 := rfl
theorem V1_o1 (c : Dev nD) : V1 m c main_v10 = V1 m c main_v10 := rfl
theorem V2_o1 (c : Dev nD) : V2 m outs c main_v10 = V1 m c main_v10 := (V2_of m outs c main_v10 (by decide)).trans (V1_o1 m c)
theorem V3_o1 (c : Dev nD) : V3 m outs c main_v10 = V1 m c main_v10 := (V3_of m outs c main_v10 (by decide)).trans (V2_o1 m outs c)
theorem V1_o2 (c : Dev nD) : V1 m c main_v14 = V1 m c main_v14 := rfl
theorem V2_o2 (c : Dev nD) : V2 m outs c main_v14 = V1 m c main_v14 := (V2_of m outs c main_v14 (by decide)).trans (V1_o2 m c)
theorem V3_o2 (c : Dev nD) : V3 m outs c main_v14 = V1 m c main_v14 := (V3_of m outs c main_v14 (by decide)).trans (V2_o2 m outs c)
theorem V4_o2 (c : Dev nD) : V4 m outs c main_v14 = V1 m c main_v14 := (V4_of m outs c main_v14 (by decide)).trans (V3_o2 m outs c)
theorem V5_o2 (c : Dev nD) : V5 m outs c main_v14 = V1 m c main_v14 := (V5_of m outs c main_v14 (by decide)).trans (V4_o2 m outs c)
theorem V1_o3 (c : Dev nD) : V1 m c main_v18 = V1 m c main_v18 := rfl
theorem V2_o3 (c : Dev nD) : V2 m outs c main_v18 = V1 m c main_v18 := (V2_of m outs c main_v18 (by decide)).trans (V1_o3 m c)
theorem V3_o3 (c : Dev nD) : V3 m outs c main_v18 = V1 m c main_v18 := (V3_of m outs c main_v18 (by decide)).trans (V2_o3 m outs c)
theorem V4_o3 (c : Dev nD) : V4 m outs c main_v18 = V1 m c main_v18 := (V4_of m outs c main_v18 (by decide)).trans (V3_o3 m outs c)
theorem V5_o3 (c : Dev nD) : V5 m outs c main_v18 = V1 m c main_v18 := (V5_of m outs c main_v18 (by decide)).trans (V4_o3 m outs c)
theorem V6_o3 (c : Dev nD) : V6 m outs c main_v18 = V1 m c main_v18 := (V6_of m outs c main_v18 (by decide)).trans (V5_o3 m outs c)
theorem V7_o3 (c : Dev nD) : V7 m outs c main_v18 = V1 m c main_v18 := (V7_of m outs c main_v18 (by decide)).trans (V6_o3 m outs c)
theorem V1_o4 (c : Dev nD) : V1 m c main_v22 = V1 m c main_v22 := rfl
theorem V2_o4 (c : Dev nD) : V2 m outs c main_v22 = V1 m c main_v22 := (V2_of m outs c main_v22 (by decide)).trans (V1_o4 m c)
theorem V3_o4 (c : Dev nD) : V3 m outs c main_v22 = V1 m c main_v22 := (V3_of m outs c main_v22 (by decide)).trans (V2_o4 m outs c)
theorem V4_o4 (c : Dev nD) : V4 m outs c main_v22 = V1 m c main_v22 := (V4_of m outs c main_v22 (by decide)).trans (V3_o4 m outs c)
theorem V5_o4 (c : Dev nD) : V5 m outs c main_v22 = V1 m c main_v22 := (V5_of m outs c main_v22 (by decide)).trans (V4_o4 m outs c)
theorem V6_o4 (c : Dev nD) : V6 m outs c main_v22 = V1 m c main_v22 := (V6_of m outs c main_v22 (by decide)).trans (V5_o4 m outs c)
theorem V7_o4 (c : Dev nD) : V7 m outs c main_v22 = V1 m c main_v22 := (V7_of m outs c main_v22 (by decide)).trans (V6_o4 m outs c)
theorem V8_o4 (c : Dev nD) : V8 m outs c main_v22 = V1 m c main_v22 := (V8_of m outs c main_v22 (by decide)).trans (V7_o4 m outs c)
theorem V9_o4 (c : Dev nD) : V9 m outs c main_v22 = V1 m c main_v22 := (V9_of m outs c main_v22 (by decide)).trans (V8_o4 m outs c)
theorem V1_o5 (c : Dev nD) : V1 m c main_v26 = V1 m c main_v26 := rfl
theorem V2_o5 (c : Dev nD) : V2 m outs c main_v26 = V1 m c main_v26 := (V2_of m outs c main_v26 (by decide)).trans (V1_o5 m c)
theorem V3_o5 (c : Dev nD) : V3 m outs c main_v26 = V1 m c main_v26 := (V3_of m outs c main_v26 (by decide)).trans (V2_o5 m outs c)
theorem V4_o5 (c : Dev nD) : V4 m outs c main_v26 = V1 m c main_v26 := (V4_of m outs c main_v26 (by decide)).trans (V3_o5 m outs c)
theorem V5_o5 (c : Dev nD) : V5 m outs c main_v26 = V1 m c main_v26 := (V5_of m outs c main_v26 (by decide)).trans (V4_o5 m outs c)
theorem V6_o5 (c : Dev nD) : V6 m outs c main_v26 = V1 m c main_v26 := (V6_of m outs c main_v26 (by decide)).trans (V5_o5 m outs c)
theorem V7_o5 (c : Dev nD) : V7 m outs c main_v26 = V1 m c main_v26 := (V7_of m outs c main_v26 (by decide)).trans (V6_o5 m outs c)
theorem V8_o5 (c : Dev nD) : V8 m outs c main_v26 = V1 m c main_v26 := (V8_of m outs c main_v26 (by decide)).trans (V7_o5 m outs c)
theorem V9_o5 (c : Dev nD) : V9 m outs c main_v26 = V1 m c main_v26 := (V9_of m outs c main_v26 (by decide)).trans (V8_o5 m outs c)
theorem V10_o5 (c : Dev nD) : V10 m outs c main_v26 = V1 m c main_v26 := (V10_of m outs c main_v26 (by decide)).trans (V9_o5 m outs c)
theorem V11_o5 (c : Dev nD) : V11 m outs c main_v26 = V1 m c main_v26 := (V11_of m outs c main_v26 (by decide)).trans (V10_o5 m outs c)
theorem V1_o6 (c : Dev nD) : V1 m c main_v30 = V1 m c main_v30 := rfl
theorem V2_o6 (c : Dev nD) : V2 m outs c main_v30 = V1 m c main_v30 := (V2_of m outs c main_v30 (by decide)).trans (V1_o6 m c)
theorem V3_o6 (c : Dev nD) : V3 m outs c main_v30 = V1 m c main_v30 := (V3_of m outs c main_v30 (by decide)).trans (V2_o6 m outs c)
theorem V4_o6 (c : Dev nD) : V4 m outs c main_v30 = V1 m c main_v30 := (V4_of m outs c main_v30 (by decide)).trans (V3_o6 m outs c)
theorem V5_o6 (c : Dev nD) : V5 m outs c main_v30 = V1 m c main_v30 := (V5_of m outs c main_v30 (by decide)).trans (V4_o6 m outs c)
theorem V6_o6 (c : Dev nD) : V6 m outs c main_v30 = V1 m c main_v30 := (V6_of m outs c main_v30 (by decide)).trans (V5_o6 m outs c)
theorem V7_o6 (c : Dev nD) : V7 m outs c main_v30 = V1 m c main_v30 := (V7_of m outs c main_v30 (by decide)).trans (V6_o6 m outs c)
theorem V8_o6 (c : Dev nD) : V8 m outs c main_v30 = V1 m c main_v30 := (V8_of m outs c main_v30 (by decide)).trans (V7_o6 m outs c)
theorem V9_o6 (c : Dev nD) : V9 m outs c main_v30 = V1 m c main_v30 := (V9_of m outs c main_v30 (by decide)).trans (V8_o6 m outs c)
theorem V10_o6 (c : Dev nD) : V10 m outs c main_v30 = V1 m c main_v30 := (V10_of m outs c main_v30 (by decide)).trans (V9_o6 m outs c)
theorem V11_o6 (c : Dev nD) : V11 m outs c main_v30 = V1 m c main_v30 := (V11_of m outs c main_v30 (by decide)).trans (V10_o6 m outs c)
theorem V12_o6 (c : Dev nD) : V12 m outs c main_v30 = V1 m c main_v30 := (V12_of m outs c main_v30 (by decide)).trans (V11_o6 m outs c)
theorem V13_o6 (c : Dev nD) : V13 m outs c main_v30 = V1 m c main_v30 := (V13_of m outs c main_v30 (by decide)).trans (V12_o6 m outs c)
theorem V1_o7 (c : Dev nD) : V1 m c main_v34 = V1 m c main_v34 := rfl
theorem V2_o7 (c : Dev nD) : V2 m outs c main_v34 = V1 m c main_v34 := (V2_of m outs c main_v34 (by decide)).trans (V1_o7 m c)
theorem V3_o7 (c : Dev nD) : V3 m outs c main_v34 = V1 m c main_v34 := (V3_of m outs c main_v34 (by decide)).trans (V2_o7 m outs c)
theorem V4_o7 (c : Dev nD) : V4 m outs c main_v34 = V1 m c main_v34 := (V4_of m outs c main_v34 (by decide)).trans (V3_o7 m outs c)
theorem V5_o7 (c : Dev nD) : V5 m outs c main_v34 = V1 m c main_v34 := (V5_of m outs c main_v34 (by decide)).trans (V4_o7 m outs c)
theorem V6_o7 (c : Dev nD) : V6 m outs c main_v34 = V1 m c main_v34 := (V6_of m outs c main_v34 (by decide)).trans (V5_o7 m outs c)
theorem V7_o7 (c : Dev nD) : V7 m outs c main_v34 = V1 m c main_v34 := (V7_of m outs c main_v34 (by decide)).trans (V6_o7 m outs c)
theorem V8_o7 (c : Dev nD) : V8 m outs c main_v34 = V1 m c main_v34 := (V8_of m outs c main_v34 (by decide)).trans (V7_o7 m outs c)
theorem V9_o7 (c : Dev nD) : V9 m outs c main_v34 = V1 m c main_v34 := (V9_of m outs c main_v34 (by decide)).trans (V8_o7 m outs c)
theorem V10_o7 (c : Dev nD) : V10 m outs c main_v34 = V1 m c main_v34 := (V10_of m outs c main_v34 (by decide)).trans (V9_o7 m outs c)
theorem V11_o7 (c : Dev nD) : V11 m outs c main_v34 = V1 m c main_v34 := (V11_of m outs c main_v34 (by decide)).trans (V10_o7 m outs c)
theorem V12_o7 (c : Dev nD) : V12 m outs c main_v34 = V1 m c main_v34 := (V12_of m outs c main_v34 (by decide)).trans (V11_o7 m outs c)
theorem V13_o7 (c : Dev nD) : V13 m outs c main_v34 = V1 m c main_v34 := (V13_of m outs c main_v34 (by decide)).trans (V12_o7 m outs c)
theorem V14_o7 (c : Dev nD) : V14 m outs c main_v34 = V1 m c main_v34 := (V14_of m outs c main_v34 (by decide)).trans (V13_o7 m outs c)
theorem V15_o7 (c : Dev nD) : V15 m outs c main_v34 = V1 m c main_v34 := (V15_of m outs c main_v34 (by decide)).trans (V14_o7 m outs c)
theorem V1_o8 (c : Dev nD) : V1 m c main_v38 = V1 m c main_v38 := rfl
theorem V2_o8 (c : Dev nD) : V2 m outs c main_v38 = V1 m c main_v38 := (V2_of m outs c main_v38 (by decide)).trans (V1_o8 m c)
theorem V3_o8 (c : Dev nD) : V3 m outs c main_v38 = V1 m c main_v38 := (V3_of m outs c main_v38 (by decide)).trans (V2_o8 m outs c)
theorem V4_o8 (c : Dev nD) : V4 m outs c main_v38 = V1 m c main_v38 := (V4_of m outs c main_v38 (by decide)).trans (V3_o8 m outs c)
theorem V5_o8 (c : Dev nD) : V5 m outs c main_v38 = V1 m c main_v38 := (V5_of m outs c main_v38 (by decide)).trans (V4_o8 m outs c)
theorem V6_o8 (c : Dev nD) : V6 m outs c main_v38 = V1 m c main_v38 := (V6_of m outs c main_v38 (by decide)).trans (V5_o8 m outs c)
theorem V7_o8 (c : Dev nD) : V7 m outs c main_v38 = V1 m c main_v38 := (V7_of m outs c main_v38 (by decide)).trans (V6_o8 m outs c)
theorem V8_o8 (c : Dev nD) : V8 m outs c main_v38 = V1 m c main_v38 := (V8_of m outs c main_v38 (by decide)).trans (V7_o8 m outs c)
theorem V9_o8 (c : Dev nD) : V9 m outs c main_v38 = V1 m c main_v38 := (V9_of m outs c main_v38 (by decide)).trans (V8_o8 m outs c)
theorem V10_o8 (c : Dev nD) : V10 m outs c main_v38 = V1 m c main_v38 := (V10_of m outs c main_v38 (by decide)).trans (V9_o8 m outs c)
theorem V11_o8 (c : Dev nD) : V11 m outs c main_v38 = V1 m c main_v38 := (V11_of m outs c main_v38 (by decide)).trans (V10_o8 m outs c)
theorem V12_o8 (c : Dev nD) : V12 m outs c main_v38 = V1 m c main_v38 := (V12_of m outs c main_v38 (by decide)).trans (V11_o8 m outs c)
theorem V13_o8 (c : Dev nD) : V13 m outs c main_v38 = V1 m c main_v38 := (V13_of m outs c main_v38 (by decide)).trans (V12_o8 m outs c)
theorem V14_o8 (c : Dev nD) : V14 m outs c main_v38 = V1 m c main_v38 := (V14_of m outs c main_v38 (by decide)).trans (V13_o8 m outs c)
theorem V15_o8 (c : Dev nD) : V15 m outs c main_v38 = V1 m c main_v38 := (V15_of m outs c main_v38 (by decide)).trans (V14_o8 m outs c)
theorem V16_o8 (c : Dev nD) : V16 m outs c main_v38 = V1 m c main_v38 := (V16_of m outs c main_v38 (by decide)).trans (V15_o8 m outs c)
theorem V17_o8 (c : Dev nD) : V17 m outs c main_v38 = V1 m c main_v38 := (V17_of m outs c main_v38 (by decide)).trans (V16_o8 m outs c)
theorem V1_o9 (c : Dev nD) : V1 m c main_v42 = V1 m c main_v42 := rfl
theorem V2_o9 (c : Dev nD) : V2 m outs c main_v42 = V1 m c main_v42 := (V2_of m outs c main_v42 (by decide)).trans (V1_o9 m c)
theorem V3_o9 (c : Dev nD) : V3 m outs c main_v42 = V1 m c main_v42 := (V3_of m outs c main_v42 (by decide)).trans (V2_o9 m outs c)
theorem V4_o9 (c : Dev nD) : V4 m outs c main_v42 = V1 m c main_v42 := (V4_of m outs c main_v42 (by decide)).trans (V3_o9 m outs c)
theorem V5_o9 (c : Dev nD) : V5 m outs c main_v42 = V1 m c main_v42 := (V5_of m outs c main_v42 (by decide)).trans (V4_o9 m outs c)
theorem V6_o9 (c : Dev nD) : V6 m outs c main_v42 = V1 m c main_v42 := (V6_of m outs c main_v42 (by decide)).trans (V5_o9 m outs c)
theorem V7_o9 (c : Dev nD) : V7 m outs c main_v42 = V1 m c main_v42 := (V7_of m outs c main_v42 (by decide)).trans (V6_o9 m outs c)
theorem V8_o9 (c : Dev nD) : V8 m outs c main_v42 = V1 m c main_v42 := (V8_of m outs c main_v42 (by decide)).trans (V7_o9 m outs c)
theorem V9_o9 (c : Dev nD) : V9 m outs c main_v42 = V1 m c main_v42 := (V9_of m outs c main_v42 (by decide)).trans (V8_o9 m outs c)
theorem V10_o9 (c : Dev nD) : V10 m outs c main_v42 = V1 m c main_v42 := (V10_of m outs c main_v42 (by decide)).trans (V9_o9 m outs c)
theorem V11_o9 (c : Dev nD) : V11 m outs c main_v42 = V1 m c main_v42 := (V11_of m outs c main_v42 (by decide)).trans (V10_o9 m outs c)
theorem V12_o9 (c : Dev nD) : V12 m outs c main_v42 = V1 m c main_v42 := (V12_of m outs c main_v42 (by decide)).trans (V11_o9 m outs c)
theorem V13_o9 (c : Dev nD) : V13 m outs c main_v42 = V1 m c main_v42 := (V13_of m outs c main_v42 (by decide)).trans (V12_o9 m outs c)
theorem V14_o9 (c : Dev nD) : V14 m outs c main_v42 = V1 m c main_v42 := (V14_of m outs c main_v42 (by decide)).trans (V13_o9 m outs c)
theorem V15_o9 (c : Dev nD) : V15 m outs c main_v42 = V1 m c main_v42 := (V15_of m outs c main_v42 (by decide)).trans (V14_o9 m outs c)
theorem V16_o9 (c : Dev nD) : V16 m outs c main_v42 = V1 m c main_v42 := (V16_of m outs c main_v42 (by decide)).trans (V15_o9 m outs c)
theorem V17_o9 (c : Dev nD) : V17 m outs c main_v42 = V1 m c main_v42 := (V17_of m outs c main_v42 (by decide)).trans (V16_o9 m outs c)
theorem V18_o9 (c : Dev nD) : V18 m outs c main_v42 = V1 m c main_v42 := (V18_of m outs c main_v42 (by decide)).trans (V17_o9 m outs c)
theorem V19_o9 (c : Dev nD) : V19 m outs c main_v42 = V1 m c main_v42 := (V19_of m outs c main_v42 (by decide)).trans (V18_o9 m outs c)
theorem V1_o10 (c : Dev nD) : V1 m c main_v46 = V1 m c main_v46 := rfl
theorem V2_o10 (c : Dev nD) : V2 m outs c main_v46 = V1 m c main_v46 := (V2_of m outs c main_v46 (by decide)).trans (V1_o10 m c)
theorem V3_o10 (c : Dev nD) : V3 m outs c main_v46 = V1 m c main_v46 := (V3_of m outs c main_v46 (by decide)).trans (V2_o10 m outs c)
theorem V4_o10 (c : Dev nD) : V4 m outs c main_v46 = V1 m c main_v46 := (V4_of m outs c main_v46 (by decide)).trans (V3_o10 m outs c)
theorem V5_o10 (c : Dev nD) : V5 m outs c main_v46 = V1 m c main_v46 := (V5_of m outs c main_v46 (by decide)).trans (V4_o10 m outs c)
theorem V6_o10 (c : Dev nD) : V6 m outs c main_v46 = V1 m c main_v46 := (V6_of m outs c main_v46 (by decide)).trans (V5_o10 m outs c)
theorem V7_o10 (c : Dev nD) : V7 m outs c main_v46 = V1 m c main_v46 := (V7_of m outs c main_v46 (by decide)).trans (V6_o10 m outs c)
theorem V8_o10 (c : Dev nD) : V8 m outs c main_v46 = V1 m c main_v46 := (V8_of m outs c main_v46 (by decide)).trans (V7_o10 m outs c)
theorem V9_o10 (c : Dev nD) : V9 m outs c main_v46 = V1 m c main_v46 := (V9_of m outs c main_v46 (by decide)).trans (V8_o10 m outs c)
theorem V10_o10 (c : Dev nD) : V10 m outs c main_v46 = V1 m c main_v46 := (V10_of m outs c main_v46 (by decide)).trans (V9_o10 m outs c)
theorem V11_o10 (c : Dev nD) : V11 m outs c main_v46 = V1 m c main_v46 := (V11_of m outs c main_v46 (by decide)).trans (V10_o10 m outs c)
theorem V12_o10 (c : Dev nD) : V12 m outs c main_v46 = V1 m c main_v46 := (V12_of m outs c main_v46 (by decide)).trans (V11_o10 m outs c)
theorem V13_o10 (c : Dev nD) : V13 m outs c main_v46 = V1 m c main_v46 := (V13_of m outs c main_v46 (by decide)).trans (V12_o10 m outs c)
theorem V14_o10 (c : Dev nD) : V14 m outs c main_v46 = V1 m c main_v46 := (V14_of m outs c main_v46 (by decide)).trans (V13_o10 m outs c)
theorem V15_o10 (c : Dev nD) : V15 m outs c main_v46 = V1 m c main_v46 := (V15_of m outs c main_v46 (by decide)).trans (V14_o10 m outs c)
theorem V16_o10 (c : Dev nD) : V16 m outs c main_v46 = V1 m c main_v46 := (V16_of m outs c main_v46 (by decide)).trans (V15_o10 m outs c)
theorem V17_o10 (c : Dev nD) : V17 m outs c main_v46 = V1 m c main_v46 := (V17_of m outs c main_v46 (by decide)).trans (V16_o10 m outs c)
theorem V18_o10 (c : Dev nD) : V18 m outs c main_v46 = V1 m c main_v46 := (V18_of m outs c main_v46 (by decide)).trans (V17_o10 m outs c)
theorem V19_o10 (c : Dev nD) : V19 m outs c main_v46 = V1 m c main_v46 := (V19_of m outs c main_v46 (by decide)).trans (V18_o10 m outs c)
theorem V20_o10 (c : Dev nD) : V20 m outs c main_v46 = V1 m c main_v46 := (V20_of m outs c main_v46 (by decide)).trans (V19_o10 m outs c)
theorem V21_o10 (c : Dev nD) : V21 m outs c main_v46 = V1 m c main_v46 := (V21_of m outs c main_v46 (by decide)).trans (V20_o10 m outs c)
theorem V1_o11 (c : Dev nD) : V1 m c main_v50 = V1 m c main_v50 := rfl
theorem V2_o11 (c : Dev nD) : V2 m outs c main_v50 = V1 m c main_v50 := (V2_of m outs c main_v50 (by decide)).trans (V1_o11 m c)
theorem V3_o11 (c : Dev nD) : V3 m outs c main_v50 = V1 m c main_v50 := (V3_of m outs c main_v50 (by decide)).trans (V2_o11 m outs c)
theorem V4_o11 (c : Dev nD) : V4 m outs c main_v50 = V1 m c main_v50 := (V4_of m outs c main_v50 (by decide)).trans (V3_o11 m outs c)
theorem V5_o11 (c : Dev nD) : V5 m outs c main_v50 = V1 m c main_v50 := (V5_of m outs c main_v50 (by decide)).trans (V4_o11 m outs c)
theorem V6_o11 (c : Dev nD) : V6 m outs c main_v50 = V1 m c main_v50 := (V6_of m outs c main_v50 (by decide)).trans (V5_o11 m outs c)
theorem V7_o11 (c : Dev nD) : V7 m outs c main_v50 = V1 m c main_v50 := (V7_of m outs c main_v50 (by decide)).trans (V6_o11 m outs c)
theorem V8_o11 (c : Dev nD) : V8 m outs c main_v50 = V1 m c main_v50 := (V8_of m outs c main_v50 (by decide)).trans (V7_o11 m outs c)
theorem V9_o11 (c : Dev nD) : V9 m outs c main_v50 = V1 m c main_v50 := (V9_of m outs c main_v50 (by decide)).trans (V8_o11 m outs c)
theorem V10_o11 (c : Dev nD) : V10 m outs c main_v50 = V1 m c main_v50 := (V10_of m outs c main_v50 (by decide)).trans (V9_o11 m outs c)
theorem V11_o11 (c : Dev nD) : V11 m outs c main_v50 = V1 m c main_v50 := (V11_of m outs c main_v50 (by decide)).trans (V10_o11 m outs c)
theorem V12_o11 (c : Dev nD) : V12 m outs c main_v50 = V1 m c main_v50 := (V12_of m outs c main_v50 (by decide)).trans (V11_o11 m outs c)
theorem V13_o11 (c : Dev nD) : V13 m outs c main_v50 = V1 m c main_v50 := (V13_of m outs c main_v50 (by decide)).trans (V12_o11 m outs c)
theorem V14_o11 (c : Dev nD) : V14 m outs c main_v50 = V1 m c main_v50 := (V14_of m outs c main_v50 (by decide)).trans (V13_o11 m outs c)
theorem V15_o11 (c : Dev nD) : V15 m outs c main_v50 = V1 m c main_v50 := (V15_of m outs c main_v50 (by decide)).trans (V14_o11 m outs c)
theorem V16_o11 (c : Dev nD) : V16 m outs c main_v50 = V1 m c main_v50 := (V16_of m outs c main_v50 (by decide)).trans (V15_o11 m outs c)
theorem V17_o11 (c : Dev nD) : V17 m outs c main_v50 = V1 m c main_v50 := (V17_of m outs c main_v50 (by decide)).trans (V16_o11 m outs c)
theorem V18_o11 (c : Dev nD) : V18 m outs c main_v50 = V1 m c main_v50 := (V18_of m outs c main_v50 (by decide)).trans (V17_o11 m outs c)
theorem V19_o11 (c : Dev nD) : V19 m outs c main_v50 = V1 m c main_v50 := (V19_of m outs c main_v50 (by decide)).trans (V18_o11 m outs c)
theorem V20_o11 (c : Dev nD) : V20 m outs c main_v50 = V1 m c main_v50 := (V20_of m outs c main_v50 (by decide)).trans (V19_o11 m outs c)
theorem V21_o11 (c : Dev nD) : V21 m outs c main_v50 = V1 m c main_v50 := (V21_of m outs c main_v50 (by decide)).trans (V20_o11 m outs c)
theorem V22_o11 (c : Dev nD) : V22 m outs c main_v50 = V1 m c main_v50 := (V22_of m outs c main_v50 (by decide)).trans (V21_o11 m outs c)
theorem V23_o11 (c : Dev nD) : V23 m outs c main_v50 = V1 m c main_v50 := (V23_of m outs c main_v50 (by decide)).trans (V22_o11 m outs c)
theorem V1_o12 (c : Dev nD) : V1 m c main_v54 = V1 m c main_v54 := rfl
theorem V2_o12 (c : Dev nD) : V2 m outs c main_v54 = V1 m c main_v54 := (V2_of m outs c main_v54 (by decide)).trans (V1_o12 m c)
theorem V3_o12 (c : Dev nD) : V3 m outs c main_v54 = V1 m c main_v54 := (V3_of m outs c main_v54 (by decide)).trans (V2_o12 m outs c)
theorem V4_o12 (c : Dev nD) : V4 m outs c main_v54 = V1 m c main_v54 := (V4_of m outs c main_v54 (by decide)).trans (V3_o12 m outs c)
theorem V5_o12 (c : Dev nD) : V5 m outs c main_v54 = V1 m c main_v54 := (V5_of m outs c main_v54 (by decide)).trans (V4_o12 m outs c)
theorem V6_o12 (c : Dev nD) : V6 m outs c main_v54 = V1 m c main_v54 := (V6_of m outs c main_v54 (by decide)).trans (V5_o12 m outs c)
theorem V7_o12 (c : Dev nD) : V7 m outs c main_v54 = V1 m c main_v54 := (V7_of m outs c main_v54 (by decide)).trans (V6_o12 m outs c)
theorem V8_o12 (c : Dev nD) : V8 m outs c main_v54 = V1 m c main_v54 := (V8_of m outs c main_v54 (by decide)).trans (V7_o12 m outs c)
theorem V9_o12 (c : Dev nD) : V9 m outs c main_v54 = V1 m c main_v54 := (V9_of m outs c main_v54 (by decide)).trans (V8_o12 m outs c)
theorem V10_o12 (c : Dev nD) : V10 m outs c main_v54 = V1 m c main_v54 := (V10_of m outs c main_v54 (by decide)).trans (V9_o12 m outs c)
theorem V11_o12 (c : Dev nD) : V11 m outs c main_v54 = V1 m c main_v54 := (V11_of m outs c main_v54 (by decide)).trans (V10_o12 m outs c)
theorem V12_o12 (c : Dev nD) : V12 m outs c main_v54 = V1 m c main_v54 := (V12_of m outs c main_v54 (by decide)).trans (V11_o12 m outs c)
theorem V13_o12 (c : Dev nD) : V13 m outs c main_v54 = V1 m c main_v54 := (V13_of m outs c main_v54 (by decide)).trans (V12_o12 m outs c)
theorem V14_o12 (c : Dev nD) : V14 m outs c main_v54 = V1 m c main_v54 := (V14_of m outs c main_v54 (by decide)).trans (V13_o12 m outs c)
theorem V15_o12 (c : Dev nD) : V15 m outs c main_v54 = V1 m c main_v54 := (V15_of m outs c main_v54 (by decide)).trans (V14_o12 m outs c)
theorem V16_o12 (c : Dev nD) : V16 m outs c main_v54 = V1 m c main_v54 := (V16_of m outs c main_v54 (by decide)).trans (V15_o12 m outs c)
theorem V17_o12 (c : Dev nD) : V17 m outs c main_v54 = V1 m c main_v54 := (V17_of m outs c main_v54 (by decide)).trans (V16_o12 m outs c)
theorem V18_o12 (c : Dev nD) : V18 m outs c main_v54 = V1 m c main_v54 := (V18_of m outs c main_v54 (by decide)).trans (V17_o12 m outs c)
theorem V19_o12 (c : Dev nD) : V19 m outs c main_v54 = V1 m c main_v54 := (V19_of m outs c main_v54 (by decide)).trans (V18_o12 m outs c)
theorem V20_o12 (c : Dev nD) : V20 m outs c main_v54 = V1 m c main_v54 := (V20_of m outs c main_v54 (by decide)).trans (V19_o12 m outs c)
theorem V21_o12 (c : Dev nD) : V21 m outs c main_v54 = V1 m c main_v54 := (V21_of m outs c main_v54 (by decide)).trans (V20_o12 m outs c)
theorem V22_o12 (c : Dev nD) : V22 m outs c main_v54 = V1 m c main_v54 := (V22_of m outs c main_v54 (by decide)).trans (V21_o12 m outs c)
theorem V23_o12 (c : Dev nD) : V23 m outs c main_v54 = V1 m c main_v54 := (V23_of m outs c main_v54 (by decide)).trans (V22_o12 m outs c)
theorem V24_o12 (c : Dev nD) : V24 m outs c main_v54 = V1 m c main_v54 := (V24_of m outs c main_v54 (by decide)).trans (V23_o12 m outs c)
theorem V25_o12 (c : Dev nD) : V25 m outs c main_v54 = V1 m c main_v54 := (V25_of m outs c main_v54 (by decide)).trans (V24_o12 m outs c)
theorem V1_o13 (c : Dev nD) : V1 m c main_v58 = V1 m c main_v58 := rfl
theorem V2_o13 (c : Dev nD) : V2 m outs c main_v58 = V1 m c main_v58 := (V2_of m outs c main_v58 (by decide)).trans (V1_o13 m c)
theorem V3_o13 (c : Dev nD) : V3 m outs c main_v58 = V1 m c main_v58 := (V3_of m outs c main_v58 (by decide)).trans (V2_o13 m outs c)
theorem V4_o13 (c : Dev nD) : V4 m outs c main_v58 = V1 m c main_v58 := (V4_of m outs c main_v58 (by decide)).trans (V3_o13 m outs c)
theorem V5_o13 (c : Dev nD) : V5 m outs c main_v58 = V1 m c main_v58 := (V5_of m outs c main_v58 (by decide)).trans (V4_o13 m outs c)
theorem V6_o13 (c : Dev nD) : V6 m outs c main_v58 = V1 m c main_v58 := (V6_of m outs c main_v58 (by decide)).trans (V5_o13 m outs c)
theorem V7_o13 (c : Dev nD) : V7 m outs c main_v58 = V1 m c main_v58 := (V7_of m outs c main_v58 (by decide)).trans (V6_o13 m outs c)
theorem V8_o13 (c : Dev nD) : V8 m outs c main_v58 = V1 m c main_v58 := (V8_of m outs c main_v58 (by decide)).trans (V7_o13 m outs c)
theorem V9_o13 (c : Dev nD) : V9 m outs c main_v58 = V1 m c main_v58 := (V9_of m outs c main_v58 (by decide)).trans (V8_o13 m outs c)
theorem V10_o13 (c : Dev nD) : V10 m outs c main_v58 = V1 m c main_v58 := (V10_of m outs c main_v58 (by decide)).trans (V9_o13 m outs c)
theorem V11_o13 (c : Dev nD) : V11 m outs c main_v58 = V1 m c main_v58 := (V11_of m outs c main_v58 (by decide)).trans (V10_o13 m outs c)
theorem V12_o13 (c : Dev nD) : V12 m outs c main_v58 = V1 m c main_v58 := (V12_of m outs c main_v58 (by decide)).trans (V11_o13 m outs c)
theorem V13_o13 (c : Dev nD) : V13 m outs c main_v58 = V1 m c main_v58 := (V13_of m outs c main_v58 (by decide)).trans (V12_o13 m outs c)
theorem V14_o13 (c : Dev nD) : V14 m outs c main_v58 = V1 m c main_v58 := (V14_of m outs c main_v58 (by decide)).trans (V13_o13 m outs c)
theorem V15_o13 (c : Dev nD) : V15 m outs c main_v58 = V1 m c main_v58 := (V15_of m outs c main_v58 (by decide)).trans (V14_o13 m outs c)
theorem V16_o13 (c : Dev nD) : V16 m outs c main_v58 = V1 m c main_v58 := (V16_of m outs c main_v58 (by decide)).trans (V15_o13 m outs c)
theorem V17_o13 (c : Dev nD) : V17 m outs c main_v58 = V1 m c main_v58 := (V17_of m outs c main_v58 (by decide)).trans (V16_o13 m outs c)
theorem V18_o13 (c : Dev nD) : V18 m outs c main_v58 = V1 m c main_v58 := (V18_of m outs c main_v58 (by decide)).trans (V17_o13 m outs c)
theorem V19_o13 (c : Dev nD) : V19 m outs c main_v58 = V1 m c main_v58 := (V19_of m outs c main_v58 (by decide)).trans (V18_o13 m outs c)
theorem V20_o13 (c : Dev nD) : V20 m outs c main_v58 = V1 m c main_v58 := (V20_of m outs c main_v58 (by decide)).trans (V19_o13 m outs c)
theorem V21_o13 (c : Dev nD) : V21 m outs c main_v58 = V1 m c main_v58 := (V21_of m outs c main_v58 (by decide)).trans (V20_o13 m outs c)
theorem V22_o13 (c : Dev nD) : V22 m outs c main_v58 = V1 m c main_v58 := (V22_of m outs c main_v58 (by decide)).trans (V21_o13 m outs c)
theorem V23_o13 (c : Dev nD) : V23 m outs c main_v58 = V1 m c main_v58 := (V23_of m outs c main_v58 (by decide)).trans (V22_o13 m outs c)
theorem V24_o13 (c : Dev nD) : V24 m outs c main_v58 = V1 m c main_v58 := (V24_of m outs c main_v58 (by decide)).trans (V23_o13 m outs c)
theorem V25_o13 (c : Dev nD) : V25 m outs c main_v58 = V1 m c main_v58 := (V25_of m outs c main_v58 (by decide)).trans (V24_o13 m outs c)
theorem V26_o13 (c : Dev nD) : V26 m outs c main_v58 = V1 m c main_v58 := (V26_of m outs c main_v58 (by decide)).trans (V25_o13 m outs c)
theorem V27_o13 (c : Dev nD) : V27 m outs c main_v58 = V1 m c main_v58 := (V27_of m outs c main_v58 (by decide)).trans (V26_o13 m outs c)
theorem V1_o14 (c : Dev nD) : V1 m c main_v62 = V1 m c main_v62 := rfl
theorem V2_o14 (c : Dev nD) : V2 m outs c main_v62 = V1 m c main_v62 := (V2_of m outs c main_v62 (by decide)).trans (V1_o14 m c)
theorem V3_o14 (c : Dev nD) : V3 m outs c main_v62 = V1 m c main_v62 := (V3_of m outs c main_v62 (by decide)).trans (V2_o14 m outs c)
theorem V4_o14 (c : Dev nD) : V4 m outs c main_v62 = V1 m c main_v62 := (V4_of m outs c main_v62 (by decide)).trans (V3_o14 m outs c)
theorem V5_o14 (c : Dev nD) : V5 m outs c main_v62 = V1 m c main_v62 := (V5_of m outs c main_v62 (by decide)).trans (V4_o14 m outs c)
theorem V6_o14 (c : Dev nD) : V6 m outs c main_v62 = V1 m c main_v62 := (V6_of m outs c main_v62 (by decide)).trans (V5_o14 m outs c)
theorem V7_o14 (c : Dev nD) : V7 m outs c main_v62 = V1 m c main_v62 := (V7_of m outs c main_v62 (by decide)).trans (V6_o14 m outs c)
theorem V8_o14 (c : Dev nD) : V8 m outs c main_v62 = V1 m c main_v62 := (V8_of m outs c main_v62 (by decide)).trans (V7_o14 m outs c)
theorem V9_o14 (c : Dev nD) : V9 m outs c main_v62 = V1 m c main_v62 := (V9_of m outs c main_v62 (by decide)).trans (V8_o14 m outs c)
theorem V10_o14 (c : Dev nD) : V10 m outs c main_v62 = V1 m c main_v62 := (V10_of m outs c main_v62 (by decide)).trans (V9_o14 m outs c)
theorem V11_o14 (c : Dev nD) : V11 m outs c main_v62 = V1 m c main_v62 := (V11_of m outs c main_v62 (by decide)).trans (V10_o14 m outs c)
theorem V12_o14 (c : Dev nD) : V12 m outs c main_v62 = V1 m c main_v62 := (V12_of m outs c main_v62 (by decide)).trans (V11_o14 m outs c)
theorem V13_o14 (c : Dev nD) : V13 m outs c main_v62 = V1 m c main_v62 := (V13_of m outs c main_v62 (by decide)).trans (V12_o14 m outs c)
theorem V14_o14 (c : Dev nD) : V14 m outs c main_v62 = V1 m c main_v62 := (V14_of m outs c main_v62 (by decide)).trans (V13_o14 m outs c)
theorem V15_o14 (c : Dev nD) : V15 m outs c main_v62 = V1 m c main_v62 := (V15_of m outs c main_v62 (by decide)).trans (V14_o14 m outs c)
theorem V16_o14 (c : Dev nD) : V16 m outs c main_v62 = V1 m c main_v62 := (V16_of m outs c main_v62 (by decide)).trans (V15_o14 m outs c)
theorem V17_o14 (c : Dev nD) : V17 m outs c main_v62 = V1 m c main_v62 := (V17_of m outs c main_v62 (by decide)).trans (V16_o14 m outs c)
theorem V18_o14 (c : Dev nD) : V18 m outs c main_v62 = V1 m c main_v62 := (V18_of m outs c main_v62 (by decide)).trans (V17_o14 m outs c)
theorem V19_o14 (c : Dev nD) : V19 m outs c main_v62 = V1 m c main_v62 := (V19_of m outs c main_v62 (by decide)).trans (V18_o14 m outs c)
theorem V20_o14 (c : Dev nD) : V20 m outs c main_v62 = V1 m c main_v62 := (V20_of m outs c main_v62 (by decide)).trans (V19_o14 m outs c)
theorem V21_o14 (c : Dev nD) : V21 m outs c main_v62 = V1 m c main_v62 := (V21_of m outs c main_v62 (by decide)).trans (V20_o14 m outs c)
theorem V22_o14 (c : Dev nD) : V22 m outs c main_v62 = V1 m c main_v62 := (V22_of m outs c main_v62 (by decide)).trans (V21_o14 m outs c)
theorem V23_o14 (c : Dev nD) : V23 m outs c main_v62 = V1 m c main_v62 := (V23_of m outs c main_v62 (by decide)).trans (V22_o14 m outs c)
theorem V24_o14 (c : Dev nD) : V24 m outs c main_v62 = V1 m c main_v62 := (V24_of m outs c main_v62 (by decide)).trans (V23_o14 m outs c)
theorem V25_o14 (c : Dev nD) : V25 m outs c main_v62 = V1 m c main_v62 := (V25_of m outs c main_v62 (by decide)).trans (V24_o14 m outs c)
theorem V26_o14 (c : Dev nD) : V26 m outs c main_v62 = V1 m c main_v62 := (V26_of m outs c main_v62 (by decide)).trans (V25_o14 m outs c)
theorem V27_o14 (c : Dev nD) : V27 m outs c main_v62 = V1 m c main_v62 := (V27_of m outs c main_v62 (by decide)).trans (V26_o14 m outs c)
theorem V28_o14 (c : Dev nD) : V28 m outs c main_v62 = V1 m c main_v62 := (V28_of m outs c main_v62 (by decide)).trans (V27_o14 m outs c)
theorem V29_o14 (c : Dev nD) : V29 m outs c main_v62 = V1 m c main_v62 := (V29_of m outs c main_v62 (by decide)).trans (V28_o14 m outs c)
theorem V1_o15 (c : Dev nD) : V1 m c main_v66 = V1 m c main_v66 := rfl
theorem V2_o15 (c : Dev nD) : V2 m outs c main_v66 = V1 m c main_v66 := (V2_of m outs c main_v66 (by decide)).trans (V1_o15 m c)
theorem V3_o15 (c : Dev nD) : V3 m outs c main_v66 = V1 m c main_v66 := (V3_of m outs c main_v66 (by decide)).trans (V2_o15 m outs c)
theorem V4_o15 (c : Dev nD) : V4 m outs c main_v66 = V1 m c main_v66 := (V4_of m outs c main_v66 (by decide)).trans (V3_o15 m outs c)
theorem V5_o15 (c : Dev nD) : V5 m outs c main_v66 = V1 m c main_v66 := (V5_of m outs c main_v66 (by decide)).trans (V4_o15 m outs c)
theorem V6_o15 (c : Dev nD) : V6 m outs c main_v66 = V1 m c main_v66 := (V6_of m outs c main_v66 (by decide)).trans (V5_o15 m outs c)
theorem V7_o15 (c : Dev nD) : V7 m outs c main_v66 = V1 m c main_v66 := (V7_of m outs c main_v66 (by decide)).trans (V6_o15 m outs c)
theorem V8_o15 (c : Dev nD) : V8 m outs c main_v66 = V1 m c main_v66 := (V8_of m outs c main_v66 (by decide)).trans (V7_o15 m outs c)
theorem V9_o15 (c : Dev nD) : V9 m outs c main_v66 = V1 m c main_v66 := (V9_of m outs c main_v66 (by decide)).trans (V8_o15 m outs c)
theorem V10_o15 (c : Dev nD) : V10 m outs c main_v66 = V1 m c main_v66 := (V10_of m outs c main_v66 (by decide)).trans (V9_o15 m outs c)
theorem V11_o15 (c : Dev nD) : V11 m outs c main_v66 = V1 m c main_v66 := (V11_of m outs c main_v66 (by decide)).trans (V10_o15 m outs c)
theorem V12_o15 (c : Dev nD) : V12 m outs c main_v66 = V1 m c main_v66 := (V12_of m outs c main_v66 (by decide)).trans (V11_o15 m outs c)
theorem V13_o15 (c : Dev nD) : V13 m outs c main_v66 = V1 m c main_v66 := (V13_of m outs c main_v66 (by decide)).trans (V12_o15 m outs c)
theorem V14_o15 (c : Dev nD) : V14 m outs c main_v66 = V1 m c main_v66 := (V14_of m outs c main_v66 (by decide)).trans (V13_o15 m outs c)
theorem V15_o15 (c : Dev nD) : V15 m outs c main_v66 = V1 m c main_v66 := (V15_of m outs c main_v66 (by decide)).trans (V14_o15 m outs c)
theorem V16_o15 (c : Dev nD) : V16 m outs c main_v66 = V1 m c main_v66 := (V16_of m outs c main_v66 (by decide)).trans (V15_o15 m outs c)
theorem V17_o15 (c : Dev nD) : V17 m outs c main_v66 = V1 m c main_v66 := (V17_of m outs c main_v66 (by decide)).trans (V16_o15 m outs c)
theorem V18_o15 (c : Dev nD) : V18 m outs c main_v66 = V1 m c main_v66 := (V18_of m outs c main_v66 (by decide)).trans (V17_o15 m outs c)
theorem V19_o15 (c : Dev nD) : V19 m outs c main_v66 = V1 m c main_v66 := (V19_of m outs c main_v66 (by decide)).trans (V18_o15 m outs c)
theorem V20_o15 (c : Dev nD) : V20 m outs c main_v66 = V1 m c main_v66 := (V20_of m outs c main_v66 (by decide)).trans (V19_o15 m outs c)
theorem V21_o15 (c : Dev nD) : V21 m outs c main_v66 = V1 m c main_v66 := (V21_of m outs c main_v66 (by decide)).trans (V20_o15 m outs c)
theorem V22_o15 (c : Dev nD) : V22 m outs c main_v66 = V1 m c main_v66 := (V22_of m outs c main_v66 (by decide)).trans (V21_o15 m outs c)
theorem V23_o15 (c : Dev nD) : V23 m outs c main_v66 = V1 m c main_v66 := (V23_of m outs c main_v66 (by decide)).trans (V22_o15 m outs c)
theorem V24_o15 (c : Dev nD) : V24 m outs c main_v66 = V1 m c main_v66 := (V24_of m outs c main_v66 (by decide)).trans (V23_o15 m outs c)
theorem V25_o15 (c : Dev nD) : V25 m outs c main_v66 = V1 m c main_v66 := (V25_of m outs c main_v66 (by decide)).trans (V24_o15 m outs c)
theorem V26_o15 (c : Dev nD) : V26 m outs c main_v66 = V1 m c main_v66 := (V26_of m outs c main_v66 (by decide)).trans (V25_o15 m outs c)
theorem V27_o15 (c : Dev nD) : V27 m outs c main_v66 = V1 m c main_v66 := (V27_of m outs c main_v66 (by decide)).trans (V26_o15 m outs c)
theorem V28_o15 (c : Dev nD) : V28 m outs c main_v66 = V1 m c main_v66 := (V28_of m outs c main_v66 (by decide)).trans (V27_o15 m outs c)
theorem V29_o15 (c : Dev nD) : V29 m outs c main_v66 = V1 m c main_v66 := (V29_of m outs c main_v66 (by decide)).trans (V28_o15 m outs c)
theorem V30_o15 (c : Dev nD) : V30 m outs c main_v66 = V1 m c main_v66 := (V30_of m outs c main_v66 (by decide)).trans (V29_o15 m outs c)
theorem V31_o15 (c : Dev nD) : V31 m outs c main_v66 = V1 m c main_v66 := (V31_of m outs c main_v66 (by decide)).trans (V30_o15 m outs c)
theorem V1_o16 (c : Dev nD) : V1 m c main_v70 = V1 m c main_v70 := rfl
theorem V2_o16 (c : Dev nD) : V2 m outs c main_v70 = V1 m c main_v70 := (V2_of m outs c main_v70 (by decide)).trans (V1_o16 m c)
theorem V3_o16 (c : Dev nD) : V3 m outs c main_v70 = V1 m c main_v70 := (V3_of m outs c main_v70 (by decide)).trans (V2_o16 m outs c)
theorem V4_o16 (c : Dev nD) : V4 m outs c main_v70 = V1 m c main_v70 := (V4_of m outs c main_v70 (by decide)).trans (V3_o16 m outs c)
theorem V5_o16 (c : Dev nD) : V5 m outs c main_v70 = V1 m c main_v70 := (V5_of m outs c main_v70 (by decide)).trans (V4_o16 m outs c)
theorem V6_o16 (c : Dev nD) : V6 m outs c main_v70 = V1 m c main_v70 := (V6_of m outs c main_v70 (by decide)).trans (V5_o16 m outs c)
theorem V7_o16 (c : Dev nD) : V7 m outs c main_v70 = V1 m c main_v70 := (V7_of m outs c main_v70 (by decide)).trans (V6_o16 m outs c)
theorem V8_o16 (c : Dev nD) : V8 m outs c main_v70 = V1 m c main_v70 := (V8_of m outs c main_v70 (by decide)).trans (V7_o16 m outs c)
theorem V9_o16 (c : Dev nD) : V9 m outs c main_v70 = V1 m c main_v70 := (V9_of m outs c main_v70 (by decide)).trans (V8_o16 m outs c)
theorem V10_o16 (c : Dev nD) : V10 m outs c main_v70 = V1 m c main_v70 := (V10_of m outs c main_v70 (by decide)).trans (V9_o16 m outs c)
theorem V11_o16 (c : Dev nD) : V11 m outs c main_v70 = V1 m c main_v70 := (V11_of m outs c main_v70 (by decide)).trans (V10_o16 m outs c)
theorem V12_o16 (c : Dev nD) : V12 m outs c main_v70 = V1 m c main_v70 := (V12_of m outs c main_v70 (by decide)).trans (V11_o16 m outs c)
theorem V13_o16 (c : Dev nD) : V13 m outs c main_v70 = V1 m c main_v70 := (V13_of m outs c main_v70 (by decide)).trans (V12_o16 m outs c)
theorem V14_o16 (c : Dev nD) : V14 m outs c main_v70 = V1 m c main_v70 := (V14_of m outs c main_v70 (by decide)).trans (V13_o16 m outs c)
theorem V15_o16 (c : Dev nD) : V15 m outs c main_v70 = V1 m c main_v70 := (V15_of m outs c main_v70 (by decide)).trans (V14_o16 m outs c)
theorem V16_o16 (c : Dev nD) : V16 m outs c main_v70 = V1 m c main_v70 := (V16_of m outs c main_v70 (by decide)).trans (V15_o16 m outs c)
theorem V17_o16 (c : Dev nD) : V17 m outs c main_v70 = V1 m c main_v70 := (V17_of m outs c main_v70 (by decide)).trans (V16_o16 m outs c)
theorem V18_o16 (c : Dev nD) : V18 m outs c main_v70 = V1 m c main_v70 := (V18_of m outs c main_v70 (by decide)).trans (V17_o16 m outs c)
theorem V19_o16 (c : Dev nD) : V19 m outs c main_v70 = V1 m c main_v70 := (V19_of m outs c main_v70 (by decide)).trans (V18_o16 m outs c)
theorem V20_o16 (c : Dev nD) : V20 m outs c main_v70 = V1 m c main_v70 := (V20_of m outs c main_v70 (by decide)).trans (V19_o16 m outs c)
theorem V21_o16 (c : Dev nD) : V21 m outs c main_v70 = V1 m c main_v70 := (V21_of m outs c main_v70 (by decide)).trans (V20_o16 m outs c)
theorem V22_o16 (c : Dev nD) : V22 m outs c main_v70 = V1 m c main_v70 := (V22_of m outs c main_v70 (by decide)).trans (V21_o16 m outs c)
theorem V23_o16 (c : Dev nD) : V23 m outs c main_v70 = V1 m c main_v70 := (V23_of m outs c main_v70 (by decide)).trans (V22_o16 m outs c)
theorem V24_o16 (c : Dev nD) : V24 m outs c main_v70 = V1 m c main_v70 := (V24_of m outs c main_v70 (by decide)).trans (V23_o16 m outs c)
theorem V25_o16 (c : Dev nD) : V25 m outs c main_v70 = V1 m c main_v70 := (V25_of m outs c main_v70 (by decide)).trans (V24_o16 m outs c)
theorem V26_o16 (c : Dev nD) : V26 m outs c main_v70 = V1 m c main_v70 := (V26_of m outs c main_v70 (by decide)).trans (V25_o16 m outs c)
theorem V27_o16 (c : Dev nD) : V27 m outs c main_v70 = V1 m c main_v70 := (V27_of m outs c main_v70 (by decide)).trans (V26_o16 m outs c)
theorem V28_o16 (c : Dev nD) : V28 m outs c main_v70 = V1 m c main_v70 := (V28_of m outs c main_v70 (by decide)).trans (V27_o16 m outs c)
theorem V29_o16 (c : Dev nD) : V29 m outs c main_v70 = V1 m c main_v70 := (V29_of m outs c main_v70 (by decide)).trans (V28_o16 m outs c)
theorem V30_o16 (c : Dev nD) : V30 m outs c main_v70 = V1 m c main_v70 := (V30_of m outs c main_v70 (by decide)).trans (V29_o16 m outs c)
theorem V31_o16 (c : Dev nD) : V31 m outs c main_v70 = V1 m c main_v70 := (V31_of m outs c main_v70 (by decide)).trans (V30_o16 m outs c)
theorem V32_o16 (c : Dev nD) : V32 m outs c main_v70 = V1 m c main_v70 := (V32_of m outs c main_v70 (by decide)).trans (V31_o16 m outs c)
theorem V33_o16 (c : Dev nD) : V33 m outs c main_v70 = V1 m c main_v70 := (V33_of m outs c main_v70 (by decide)).trans (V32_o16 m outs c)
theorem V1_o17 (c : Dev nD) : V1 m c main_v74 = V1 m c main_v74 := rfl
theorem V2_o17 (c : Dev nD) : V2 m outs c main_v74 = V1 m c main_v74 := (V2_of m outs c main_v74 (by decide)).trans (V1_o17 m c)
theorem V3_o17 (c : Dev nD) : V3 m outs c main_v74 = V1 m c main_v74 := (V3_of m outs c main_v74 (by decide)).trans (V2_o17 m outs c)
theorem V4_o17 (c : Dev nD) : V4 m outs c main_v74 = V1 m c main_v74 := (V4_of m outs c main_v74 (by decide)).trans (V3_o17 m outs c)
theorem V5_o17 (c : Dev nD) : V5 m outs c main_v74 = V1 m c main_v74 := (V5_of m outs c main_v74 (by decide)).trans (V4_o17 m outs c)
theorem V6_o17 (c : Dev nD) : V6 m outs c main_v74 = V1 m c main_v74 := (V6_of m outs c main_v74 (by decide)).trans (V5_o17 m outs c)
theorem V7_o17 (c : Dev nD) : V7 m outs c main_v74 = V1 m c main_v74 := (V7_of m outs c main_v74 (by decide)).trans (V6_o17 m outs c)
theorem V8_o17 (c : Dev nD) : V8 m outs c main_v74 = V1 m c main_v74 := (V8_of m outs c main_v74 (by decide)).trans (V7_o17 m outs c)
theorem V9_o17 (c : Dev nD) : V9 m outs c main_v74 = V1 m c main_v74 := (V9_of m outs c main_v74 (by decide)).trans (V8_o17 m outs c)
theorem V10_o17 (c : Dev nD) : V10 m outs c main_v74 = V1 m c main_v74 := (V10_of m outs c main_v74 (by decide)).trans (V9_o17 m outs c)
theorem V11_o17 (c : Dev nD) : V11 m outs c main_v74 = V1 m c main_v74 := (V11_of m outs c main_v74 (by decide)).trans (V10_o17 m outs c)
theorem V12_o17 (c : Dev nD) : V12 m outs c main_v74 = V1 m c main_v74 := (V12_of m outs c main_v74 (by decide)).trans (V11_o17 m outs c)
theorem V13_o17 (c : Dev nD) : V13 m outs c main_v74 = V1 m c main_v74 := (V13_of m outs c main_v74 (by decide)).trans (V12_o17 m outs c)
theorem V14_o17 (c : Dev nD) : V14 m outs c main_v74 = V1 m c main_v74 := (V14_of m outs c main_v74 (by decide)).trans (V13_o17 m outs c)
theorem V15_o17 (c : Dev nD) : V15 m outs c main_v74 = V1 m c main_v74 := (V15_of m outs c main_v74 (by decide)).trans (V14_o17 m outs c)
theorem V16_o17 (c : Dev nD) : V16 m outs c main_v74 = V1 m c main_v74 := (V16_of m outs c main_v74 (by decide)).trans (V15_o17 m outs c)
theorem V17_o17 (c : Dev nD) : V17 m outs c main_v74 = V1 m c main_v74 := (V17_of m outs c main_v74 (by decide)).trans (V16_o17 m outs c)
theorem V18_o17 (c : Dev nD) : V18 m outs c main_v74 = V1 m c main_v74 := (V18_of m outs c main_v74 (by decide)).trans (V17_o17 m outs c)
theorem V19_o17 (c : Dev nD) : V19 m outs c main_v74 = V1 m c main_v74 := (V19_of m outs c main_v74 (by decide)).trans (V18_o17 m outs c)
theorem V20_o17 (c : Dev nD) : V20 m outs c main_v74 = V1 m c main_v74 := (V20_of m outs c main_v74 (by decide)).trans (V19_o17 m outs c)
theorem V21_o17 (c : Dev nD) : V21 m outs c main_v74 = V1 m c main_v74 := (V21_of m outs c main_v74 (by decide)).trans (V20_o17 m outs c)
theorem V22_o17 (c : Dev nD) : V22 m outs c main_v74 = V1 m c main_v74 := (V22_of m outs c main_v74 (by decide)).trans (V21_o17 m outs c)
theorem V23_o17 (c : Dev nD) : V23 m outs c main_v74 = V1 m c main_v74 := (V23_of m outs c main_v74 (by decide)).trans (V22_o17 m outs c)
theorem V24_o17 (c : Dev nD) : V24 m outs c main_v74 = V1 m c main_v74 := (V24_of m outs c main_v74 (by decide)).trans (V23_o17 m outs c)
theorem V25_o17 (c : Dev nD) : V25 m outs c main_v74 = V1 m c main_v74 := (V25_of m outs c main_v74 (by decide)).trans (V24_o17 m outs c)
theorem V26_o17 (c : Dev nD) : V26 m outs c main_v74 = V1 m c main_v74 := (V26_of m outs c main_v74 (by decide)).trans (V25_o17 m outs c)
theorem V27_o17 (c : Dev nD) : V27 m outs c main_v74 = V1 m c main_v74 := (V27_of m outs c main_v74 (by decide)).trans (V26_o17 m outs c)
theorem V28_o17 (c : Dev nD) : V28 m outs c main_v74 = V1 m c main_v74 := (V28_of m outs c main_v74 (by decide)).trans (V27_o17 m outs c)
theorem V29_o17 (c : Dev nD) : V29 m outs c main_v74 = V1 m c main_v74 := (V29_of m outs c main_v74 (by decide)).trans (V28_o17 m outs c)
theorem V30_o17 (c : Dev nD) : V30 m outs c main_v74 = V1 m c main_v74 := (V30_of m outs c main_v74 (by decide)).trans (V29_o17 m outs c)
theorem V31_o17 (c : Dev nD) : V31 m outs c main_v74 = V1 m c main_v74 := (V31_of m outs c main_v74 (by decide)).trans (V30_o17 m outs c)
theorem V32_o17 (c : Dev nD) : V32 m outs c main_v74 = V1 m c main_v74 := (V32_of m outs c main_v74 (by decide)).trans (V31_o17 m outs c)
theorem V33_o17 (c : Dev nD) : V33 m outs c main_v74 = V1 m c main_v74 := (V33_of m outs c main_v74 (by decide)).trans (V32_o17 m outs c)
theorem V34_o17 (c : Dev nD) : V34 m outs c main_v74 = V1 m c main_v74 := (V34_of m outs c main_v74 (by decide)).trans (V33_o17 m outs c)
theorem V35_o17 (c : Dev nD) : V35 m outs c main_v74 = V1 m c main_v74 := (V35_of m outs c main_v74 (by decide)).trans (V34_o17 m outs c)
theorem V1_o18 (c : Dev nD) : V1 m c main_v78 = V1 m c main_v78 := rfl
theorem V2_o18 (c : Dev nD) : V2 m outs c main_v78 = V1 m c main_v78 := (V2_of m outs c main_v78 (by decide)).trans (V1_o18 m c)
theorem V3_o18 (c : Dev nD) : V3 m outs c main_v78 = V1 m c main_v78 := (V3_of m outs c main_v78 (by decide)).trans (V2_o18 m outs c)
theorem V4_o18 (c : Dev nD) : V4 m outs c main_v78 = V1 m c main_v78 := (V4_of m outs c main_v78 (by decide)).trans (V3_o18 m outs c)
theorem V5_o18 (c : Dev nD) : V5 m outs c main_v78 = V1 m c main_v78 := (V5_of m outs c main_v78 (by decide)).trans (V4_o18 m outs c)
theorem V6_o18 (c : Dev nD) : V6 m outs c main_v78 = V1 m c main_v78 := (V6_of m outs c main_v78 (by decide)).trans (V5_o18 m outs c)
theorem V7_o18 (c : Dev nD) : V7 m outs c main_v78 = V1 m c main_v78 := (V7_of m outs c main_v78 (by decide)).trans (V6_o18 m outs c)
theorem V8_o18 (c : Dev nD) : V8 m outs c main_v78 = V1 m c main_v78 := (V8_of m outs c main_v78 (by decide)).trans (V7_o18 m outs c)
theorem V9_o18 (c : Dev nD) : V9 m outs c main_v78 = V1 m c main_v78 := (V9_of m outs c main_v78 (by decide)).trans (V8_o18 m outs c)
theorem V10_o18 (c : Dev nD) : V10 m outs c main_v78 = V1 m c main_v78 := (V10_of m outs c main_v78 (by decide)).trans (V9_o18 m outs c)
theorem V11_o18 (c : Dev nD) : V11 m outs c main_v78 = V1 m c main_v78 := (V11_of m outs c main_v78 (by decide)).trans (V10_o18 m outs c)
theorem V12_o18 (c : Dev nD) : V12 m outs c main_v78 = V1 m c main_v78 := (V12_of m outs c main_v78 (by decide)).trans (V11_o18 m outs c)
theorem V13_o18 (c : Dev nD) : V13 m outs c main_v78 = V1 m c main_v78 := (V13_of m outs c main_v78 (by decide)).trans (V12_o18 m outs c)
theorem V14_o18 (c : Dev nD) : V14 m outs c main_v78 = V1 m c main_v78 := (V14_of m outs c main_v78 (by decide)).trans (V13_o18 m outs c)
theorem V15_o18 (c : Dev nD) : V15 m outs c main_v78 = V1 m c main_v78 := (V15_of m outs c main_v78 (by decide)).trans (V14_o18 m outs c)
theorem V16_o18 (c : Dev nD) : V16 m outs c main_v78 = V1 m c main_v78 := (V16_of m outs c main_v78 (by decide)).trans (V15_o18 m outs c)
theorem V17_o18 (c : Dev nD) : V17 m outs c main_v78 = V1 m c main_v78 := (V17_of m outs c main_v78 (by decide)).trans (V16_o18 m outs c)
theorem V18_o18 (c : Dev nD) : V18 m outs c main_v78 = V1 m c main_v78 := (V18_of m outs c main_v78 (by decide)).trans (V17_o18 m outs c)
theorem V19_o18 (c : Dev nD) : V19 m outs c main_v78 = V1 m c main_v78 := (V19_of m outs c main_v78 (by decide)).trans (V18_o18 m outs c)
theorem V20_o18 (c : Dev nD) : V20 m outs c main_v78 = V1 m c main_v78 := (V20_of m outs c main_v78 (by decide)).trans (V19_o18 m outs c)
theorem V21_o18 (c : Dev nD) : V21 m outs c main_v78 = V1 m c main_v78 := (V21_of m outs c main_v78 (by decide)).trans (V20_o18 m outs c)
theorem V22_o18 (c : Dev nD) : V22 m outs c main_v78 = V1 m c main_v78 := (V22_of m outs c main_v78 (by decide)).trans (V21_o18 m outs c)
theorem V23_o18 (c : Dev nD) : V23 m outs c main_v78 = V1 m c main_v78 := (V23_of m outs c main_v78 (by decide)).trans (V22_o18 m outs c)
theorem V24_o18 (c : Dev nD) : V24 m outs c main_v78 = V1 m c main_v78 := (V24_of m outs c main_v78 (by decide)).trans (V23_o18 m outs c)
theorem V25_o18 (c : Dev nD) : V25 m outs c main_v78 = V1 m c main_v78 := (V25_of m outs c main_v78 (by decide)).trans (V24_o18 m outs c)
theorem V26_o18 (c : Dev nD) : V26 m outs c main_v78 = V1 m c main_v78 := (V26_of m outs c main_v78 (by decide)).trans (V25_o18 m outs c)
theorem V27_o18 (c : Dev nD) : V27 m outs c main_v78 = V1 m c main_v78 := (V27_of m outs c main_v78 (by decide)).trans (V26_o18 m outs c)
theorem V28_o18 (c : Dev nD) : V28 m outs c main_v78 = V1 m c main_v78 := (V28_of m outs c main_v78 (by decide)).trans (V27_o18 m outs c)
theorem V29_o18 (c : Dev nD) : V29 m outs c main_v78 = V1 m c main_v78 := (V29_of m outs c main_v78 (by decide)).trans (V28_o18 m outs c)
theorem V30_o18 (c : Dev nD) : V30 m outs c main_v78 = V1 m c main_v78 := (V30_of m outs c main_v78 (by decide)).trans (V29_o18 m outs c)
theorem V31_o18 (c : Dev nD) : V31 m outs c main_v78 = V1 m c main_v78 := (V31_of m outs c main_v78 (by decide)).trans (V30_o18 m outs c)
theorem V32_o18 (c : Dev nD) : V32 m outs c main_v78 = V1 m c main_v78 := (V32_of m outs c main_v78 (by decide)).trans (V31_o18 m outs c)
theorem V33_o18 (c : Dev nD) : V33 m outs c main_v78 = V1 m c main_v78 := (V33_of m outs c main_v78 (by decide)).trans (V32_o18 m outs c)
theorem V34_o18 (c : Dev nD) : V34 m outs c main_v78 = V1 m c main_v78 := (V34_of m outs c main_v78 (by decide)).trans (V33_o18 m outs c)
theorem V35_o18 (c : Dev nD) : V35 m outs c main_v78 = V1 m c main_v78 := (V35_of m outs c main_v78 (by decide)).trans (V34_o18 m outs c)
theorem V36_o18 (c : Dev nD) : V36 m outs c main_v78 = V1 m c main_v78 := (V36_of m outs c main_v78 (by decide)).trans (V35_o18 m outs c)
theorem V37_o18 (c : Dev nD) : V37 m outs c main_v78 = V1 m c main_v78 := (V37_of m outs c main_v78 (by decide)).trans (V36_o18 m outs c)
theorem V1_o19 (c : Dev nD) : V1 m c main_v82 = V1 m c main_v82 := rfl
theorem V2_o19 (c : Dev nD) : V2 m outs c main_v82 = V1 m c main_v82 := (V2_of m outs c main_v82 (by decide)).trans (V1_o19 m c)
theorem V3_o19 (c : Dev nD) : V3 m outs c main_v82 = V1 m c main_v82 := (V3_of m outs c main_v82 (by decide)).trans (V2_o19 m outs c)
theorem V4_o19 (c : Dev nD) : V4 m outs c main_v82 = V1 m c main_v82 := (V4_of m outs c main_v82 (by decide)).trans (V3_o19 m outs c)
theorem V5_o19 (c : Dev nD) : V5 m outs c main_v82 = V1 m c main_v82 := (V5_of m outs c main_v82 (by decide)).trans (V4_o19 m outs c)
theorem V6_o19 (c : Dev nD) : V6 m outs c main_v82 = V1 m c main_v82 := (V6_of m outs c main_v82 (by decide)).trans (V5_o19 m outs c)
theorem V7_o19 (c : Dev nD) : V7 m outs c main_v82 = V1 m c main_v82 := (V7_of m outs c main_v82 (by decide)).trans (V6_o19 m outs c)
theorem V8_o19 (c : Dev nD) : V8 m outs c main_v82 = V1 m c main_v82 := (V8_of m outs c main_v82 (by decide)).trans (V7_o19 m outs c)
theorem V9_o19 (c : Dev nD) : V9 m outs c main_v82 = V1 m c main_v82 := (V9_of m outs c main_v82 (by decide)).trans (V8_o19 m outs c)
theorem V10_o19 (c : Dev nD) : V10 m outs c main_v82 = V1 m c main_v82 := (V10_of m outs c main_v82 (by decide)).trans (V9_o19 m outs c)
theorem V11_o19 (c : Dev nD) : V11 m outs c main_v82 = V1 m c main_v82 := (V11_of m outs c main_v82 (by decide)).trans (V10_o19 m outs c)
theorem V12_o19 (c : Dev nD) : V12 m outs c main_v82 = V1 m c main_v82 := (V12_of m outs c main_v82 (by decide)).trans (V11_o19 m outs c)
theorem V13_o19 (c : Dev nD) : V13 m outs c main_v82 = V1 m c main_v82 := (V13_of m outs c main_v82 (by decide)).trans (V12_o19 m outs c)
theorem V14_o19 (c : Dev nD) : V14 m outs c main_v82 = V1 m c main_v82 := (V14_of m outs c main_v82 (by decide)).trans (V13_o19 m outs c)
theorem V15_o19 (c : Dev nD) : V15 m outs c main_v82 = V1 m c main_v82 := (V15_of m outs c main_v82 (by decide)).trans (V14_o19 m outs c)
theorem V16_o19 (c : Dev nD) : V16 m outs c main_v82 = V1 m c main_v82 := (V16_of m outs c main_v82 (by decide)).trans (V15_o19 m outs c)
theorem V17_o19 (c : Dev nD) : V17 m outs c main_v82 = V1 m c main_v82 := (V17_of m outs c main_v82 (by decide)).trans (V16_o19 m outs c)
theorem V18_o19 (c : Dev nD) : V18 m outs c main_v82 = V1 m c main_v82 := (V18_of m outs c main_v82 (by decide)).trans (V17_o19 m outs c)
theorem V19_o19 (c : Dev nD) : V19 m outs c main_v82 = V1 m c main_v82 := (V19_of m outs c main_v82 (by decide)).trans (V18_o19 m outs c)
theorem V20_o19 (c : Dev nD) : V20 m outs c main_v82 = V1 m c main_v82 := (V20_of m outs c main_v82 (by decide)).trans (V19_o19 m outs c)
theorem V21_o19 (c : Dev nD) : V21 m outs c main_v82 = V1 m c main_v82 := (V21_of m outs c main_v82 (by decide)).trans (V20_o19 m outs c)
theorem V22_o19 (c : Dev nD) : V22 m outs c main_v82 = V1 m c main_v82 := (V22_of m outs c main_v82 (by decide)).trans (V21_o19 m outs c)
theorem V23_o19 (c : Dev nD) : V23 m outs c main_v82 = V1 m c main_v82 := (V23_of m outs c main_v82 (by decide)).trans (V22_o19 m outs c)
theorem V24_o19 (c : Dev nD) : V24 m outs c main_v82 = V1 m c main_v82 := (V24_of m outs c main_v82 (by decide)).trans (V23_o19 m outs c)
theorem V25_o19 (c : Dev nD) : V25 m outs c main_v82 = V1 m c main_v82 := (V25_of m outs c main_v82 (by decide)).trans (V24_o19 m outs c)
theorem V26_o19 (c : Dev nD) : V26 m outs c main_v82 = V1 m c main_v82 := (V26_of m outs c main_v82 (by decide)).trans (V25_o19 m outs c)
theorem V27_o19 (c : Dev nD) : V27 m outs c main_v82 = V1 m c main_v82 := (V27_of m outs c main_v82 (by decide)).trans (V26_o19 m outs c)
theorem V28_o19 (c : Dev nD) : V28 m outs c main_v82 = V1 m c main_v82 := (V28_of m outs c main_v82 (by decide)).trans (V27_o19 m outs c)
theorem V29_o19 (c : Dev nD) : V29 m outs c main_v82 = V1 m c main_v82 := (V29_of m outs c main_v82 (by decide)).trans (V28_o19 m outs c)
theorem V30_o19 (c : Dev nD) : V30 m outs c main_v82 = V1 m c main_v82 := (V30_of m outs c main_v82 (by decide)).trans (V29_o19 m outs c)
theorem V31_o19 (c : Dev nD) : V31 m outs c main_v82 = V1 m c main_v82 := (V31_of m outs c main_v82 (by decide)).trans (V30_o19 m outs c)
theorem V32_o19 (c : Dev nD) : V32 m outs c main_v82 = V1 m c main_v82 := (V32_of m outs c main_v82 (by decide)).trans (V31_o19 m outs c)
theorem V33_o19 (c : Dev nD) : V33 m outs c main_v82 = V1 m c main_v82 := (V33_of m outs c main_v82 (by decide)).trans (V32_o19 m outs c)
theorem V34_o19 (c : Dev nD) : V34 m outs c main_v82 = V1 m c main_v82 := (V34_of m outs c main_v82 (by decide)).trans (V33_o19 m outs c)
theorem V35_o19 (c : Dev nD) : V35 m outs c main_v82 = V1 m c main_v82 := (V35_of m outs c main_v82 (by decide)).trans (V34_o19 m outs c)
theorem V36_o19 (c : Dev nD) : V36 m outs c main_v82 = V1 m c main_v82 := (V36_of m outs c main_v82 (by decide)).trans (V35_o19 m outs c)
theorem V37_o19 (c : Dev nD) : V37 m outs c main_v82 = V1 m c main_v82 := (V37_of m outs c main_v82 (by decide)).trans (V36_o19 m outs c)
theorem V38_o19 (c : Dev nD) : V38 m outs c main_v82 = V1 m c main_v82 := (V38_of m outs c main_v82 (by decide)).trans (V37_o19 m outs c)
theorem V39_o19 (c : Dev nD) : V39 m outs c main_v82 = V1 m c main_v82 := (V39_of m outs c main_v82 (by decide)).trans (V38_o19 m outs c)
theorem V1_o20 (c : Dev nD) : V1 m c main_v86 = V1 m c main_v86 := rfl
theorem V2_o20 (c : Dev nD) : V2 m outs c main_v86 = V1 m c main_v86 := (V2_of m outs c main_v86 (by decide)).trans (V1_o20 m c)
theorem V3_o20 (c : Dev nD) : V3 m outs c main_v86 = V1 m c main_v86 := (V3_of m outs c main_v86 (by decide)).trans (V2_o20 m outs c)
theorem V4_o20 (c : Dev nD) : V4 m outs c main_v86 = V1 m c main_v86 := (V4_of m outs c main_v86 (by decide)).trans (V3_o20 m outs c)
theorem V5_o20 (c : Dev nD) : V5 m outs c main_v86 = V1 m c main_v86 := (V5_of m outs c main_v86 (by decide)).trans (V4_o20 m outs c)
theorem V6_o20 (c : Dev nD) : V6 m outs c main_v86 = V1 m c main_v86 := (V6_of m outs c main_v86 (by decide)).trans (V5_o20 m outs c)
theorem V7_o20 (c : Dev nD) : V7 m outs c main_v86 = V1 m c main_v86 := (V7_of m outs c main_v86 (by decide)).trans (V6_o20 m outs c)
theorem V8_o20 (c : Dev nD) : V8 m outs c main_v86 = V1 m c main_v86 := (V8_of m outs c main_v86 (by decide)).trans (V7_o20 m outs c)
theorem V9_o20 (c : Dev nD) : V9 m outs c main_v86 = V1 m c main_v86 := (V9_of m outs c main_v86 (by decide)).trans (V8_o20 m outs c)
theorem V10_o20 (c : Dev nD) : V10 m outs c main_v86 = V1 m c main_v86 := (V10_of m outs c main_v86 (by decide)).trans (V9_o20 m outs c)
theorem V11_o20 (c : Dev nD) : V11 m outs c main_v86 = V1 m c main_v86 := (V11_of m outs c main_v86 (by decide)).trans (V10_o20 m outs c)
theorem V12_o20 (c : Dev nD) : V12 m outs c main_v86 = V1 m c main_v86 := (V12_of m outs c main_v86 (by decide)).trans (V11_o20 m outs c)
theorem V13_o20 (c : Dev nD) : V13 m outs c main_v86 = V1 m c main_v86 := (V13_of m outs c main_v86 (by decide)).trans (V12_o20 m outs c)
theorem V14_o20 (c : Dev nD) : V14 m outs c main_v86 = V1 m c main_v86 := (V14_of m outs c main_v86 (by decide)).trans (V13_o20 m outs c)
theorem V15_o20 (c : Dev nD) : V15 m outs c main_v86 = V1 m c main_v86 := (V15_of m outs c main_v86 (by decide)).trans (V14_o20 m outs c)
theorem V16_o20 (c : Dev nD) : V16 m outs c main_v86 = V1 m c main_v86 := (V16_of m outs c main_v86 (by decide)).trans (V15_o20 m outs c)
theorem V17_o20 (c : Dev nD) : V17 m outs c main_v86 = V1 m c main_v86 := (V17_of m outs c main_v86 (by decide)).trans (V16_o20 m outs c)
theorem V18_o20 (c : Dev nD) : V18 m outs c main_v86 = V1 m c main_v86 := (V18_of m outs c main_v86 (by decide)).trans (V17_o20 m outs c)
theorem V19_o20 (c : Dev nD) : V19 m outs c main_v86 = V1 m c main_v86 := (V19_of m outs c main_v86 (by decide)).trans (V18_o20 m outs c)
theorem V20_o20 (c : Dev nD) : V20 m outs c main_v86 = V1 m c main_v86 := (V20_of m outs c main_v86 (by decide)).trans (V19_o20 m outs c)
theorem V21_o20 (c : Dev nD) : V21 m outs c main_v86 = V1 m c main_v86 := (V21_of m outs c main_v86 (by decide)).trans (V20_o20 m outs c)
theorem V22_o20 (c : Dev nD) : V22 m outs c main_v86 = V1 m c main_v86 := (V22_of m outs c main_v86 (by decide)).trans (V21_o20 m outs c)
theorem V23_o20 (c : Dev nD) : V23 m outs c main_v86 = V1 m c main_v86 := (V23_of m outs c main_v86 (by decide)).trans (V22_o20 m outs c)
theorem V24_o20 (c : Dev nD) : V24 m outs c main_v86 = V1 m c main_v86 := (V24_of m outs c main_v86 (by decide)).trans (V23_o20 m outs c)
theorem V25_o20 (c : Dev nD) : V25 m outs c main_v86 = V1 m c main_v86 := (V25_of m outs c main_v86 (by decide)).trans (V24_o20 m outs c)
theorem V26_o20 (c : Dev nD) : V26 m outs c main_v86 = V1 m c main_v86 := (V26_of m outs c main_v86 (by decide)).trans (V25_o20 m outs c)
theorem V27_o20 (c : Dev nD) : V27 m outs c main_v86 = V1 m c main_v86 := (V27_of m outs c main_v86 (by decide)).trans (V26_o20 m outs c)
theorem V28_o20 (c : Dev nD) : V28 m outs c main_v86 = V1 m c main_v86 := (V28_of m outs c main_v86 (by decide)).trans (V27_o20 m outs c)
theorem V29_o20 (c : Dev nD) : V29 m outs c main_v86 = V1 m c main_v86 := (V29_of m outs c main_v86 (by decide)).trans (V28_o20 m outs c)
theorem V30_o20 (c : Dev nD) : V30 m outs c main_v86 = V1 m c main_v86 := (V30_of m outs c main_v86 (by decide)).trans (V29_o20 m outs c)
theorem V31_o20 (c : Dev nD) : V31 m outs c main_v86 = V1 m c main_v86 := (V31_of m outs c main_v86 (by decide)).trans (V30_o20 m outs c)
theorem V32_o20 (c : Dev nD) : V32 m outs c main_v86 = V1 m c main_v86 := (V32_of m outs c main_v86 (by decide)).trans (V31_o20 m outs c)
theorem V33_o20 (c : Dev nD) : V33 m outs c main_v86 = V1 m c main_v86 := (V33_of m outs c main_v86 (by decide)).trans (V32_o20 m outs c)
theorem V34_o20 (c : Dev nD) : V34 m outs c main_v86 = V1 m c main_v86 := (V34_of m outs c main_v86 (by decide)).trans (V33_o20 m outs c)
theorem V35_o20 (c : Dev nD) : V35 m outs c main_v86 = V1 m c main_v86 := (V35_of m outs c main_v86 (by decide)).trans (V34_o20 m outs c)
theorem V36_o20 (c : Dev nD) : V36 m outs c main_v86 = V1 m c main_v86 := (V36_of m outs c main_v86 (by decide)).trans (V35_o20 m outs c)
theorem V37_o20 (c : Dev nD) : V37 m outs c main_v86 = V1 m c main_v86 := (V37_of m outs c main_v86 (by decide)).trans (V36_o20 m outs c)
theorem V38_o20 (c : Dev nD) : V38 m outs c main_v86 = V1 m c main_v86 := (V38_of m outs c main_v86 (by decide)).trans (V37_o20 m outs c)
theorem V39_o20 (c : Dev nD) : V39 m outs c main_v86 = V1 m c main_v86 := (V39_of m outs c main_v86 (by decide)).trans (V38_o20 m outs c)
theorem V40_o20 (c : Dev nD) : V40 m outs c main_v86 = V1 m c main_v86 := (V40_of m outs c main_v86 (by decide)).trans (V39_o20 m outs c)
theorem V41_o20 (c : Dev nD) : V41 m outs c main_v86 = V1 m c main_v86 := (V41_of m outs c main_v86 (by decide)).trans (V40_o20 m outs c)
theorem V1_o21 (c : Dev nD) : V1 m c main_v90 = V1 m c main_v90 := rfl
theorem V2_o21 (c : Dev nD) : V2 m outs c main_v90 = V1 m c main_v90 := (V2_of m outs c main_v90 (by decide)).trans (V1_o21 m c)
theorem V3_o21 (c : Dev nD) : V3 m outs c main_v90 = V1 m c main_v90 := (V3_of m outs c main_v90 (by decide)).trans (V2_o21 m outs c)
theorem V4_o21 (c : Dev nD) : V4 m outs c main_v90 = V1 m c main_v90 := (V4_of m outs c main_v90 (by decide)).trans (V3_o21 m outs c)
theorem V5_o21 (c : Dev nD) : V5 m outs c main_v90 = V1 m c main_v90 := (V5_of m outs c main_v90 (by decide)).trans (V4_o21 m outs c)
theorem V6_o21 (c : Dev nD) : V6 m outs c main_v90 = V1 m c main_v90 := (V6_of m outs c main_v90 (by decide)).trans (V5_o21 m outs c)
theorem V7_o21 (c : Dev nD) : V7 m outs c main_v90 = V1 m c main_v90 := (V7_of m outs c main_v90 (by decide)).trans (V6_o21 m outs c)
theorem V8_o21 (c : Dev nD) : V8 m outs c main_v90 = V1 m c main_v90 := (V8_of m outs c main_v90 (by decide)).trans (V7_o21 m outs c)
theorem V9_o21 (c : Dev nD) : V9 m outs c main_v90 = V1 m c main_v90 := (V9_of m outs c main_v90 (by decide)).trans (V8_o21 m outs c)
theorem V10_o21 (c : Dev nD) : V10 m outs c main_v90 = V1 m c main_v90 := (V10_of m outs c main_v90 (by decide)).trans (V9_o21 m outs c)
theorem V11_o21 (c : Dev nD) : V11 m outs c main_v90 = V1 m c main_v90 := (V11_of m outs c main_v90 (by decide)).trans (V10_o21 m outs c)
theorem V12_o21 (c : Dev nD) : V12 m outs c main_v90 = V1 m c main_v90 := (V12_of m outs c main_v90 (by decide)).trans (V11_o21 m outs c)
theorem V13_o21 (c : Dev nD) : V13 m outs c main_v90 = V1 m c main_v90 := (V13_of m outs c main_v90 (by decide)).trans (V12_o21 m outs c)
theorem V14_o21 (c : Dev nD) : V14 m outs c main_v90 = V1 m c main_v90 := (V14_of m outs c main_v90 (by decide)).trans (V13_o21 m outs c)
theorem V15_o21 (c : Dev nD) : V15 m outs c main_v90 = V1 m c main_v90 := (V15_of m outs c main_v90 (by decide)).trans (V14_o21 m outs c)
theorem V16_o21 (c : Dev nD) : V16 m outs c main_v90 = V1 m c main_v90 := (V16_of m outs c main_v90 (by decide)).trans (V15_o21 m outs c)
theorem V17_o21 (c : Dev nD) : V17 m outs c main_v90 = V1 m c main_v90 := (V17_of m outs c main_v90 (by decide)).trans (V16_o21 m outs c)
theorem V18_o21 (c : Dev nD) : V18 m outs c main_v90 = V1 m c main_v90 := (V18_of m outs c main_v90 (by decide)).trans (V17_o21 m outs c)
theorem V19_o21 (c : Dev nD) : V19 m outs c main_v90 = V1 m c main_v90 := (V19_of m outs c main_v90 (by decide)).trans (V18_o21 m outs c)
theorem V20_o21 (c : Dev nD) : V20 m outs c main_v90 = V1 m c main_v90 := (V20_of m outs c main_v90 (by decide)).trans (V19_o21 m outs c)
theorem V21_o21 (c : Dev nD) : V21 m outs c main_v90 = V1 m c main_v90 := (V21_of m outs c main_v90 (by decide)).trans (V20_o21 m outs c)
theorem V22_o21 (c : Dev nD) : V22 m outs c main_v90 = V1 m c main_v90 := (V22_of m outs c main_v90 (by decide)).trans (V21_o21 m outs c)
theorem V23_o21 (c : Dev nD) : V23 m outs c main_v90 = V1 m c main_v90 := (V23_of m outs c main_v90 (by decide)).trans (V22_o21 m outs c)
theorem V24_o21 (c : Dev nD) : V24 m outs c main_v90 = V1 m c main_v90 := (V24_of m outs c main_v90 (by decide)).trans (V23_o21 m outs c)
theorem V25_o21 (c : Dev nD) : V25 m outs c main_v90 = V1 m c main_v90 := (V25_of m outs c main_v90 (by decide)).trans (V24_o21 m outs c)
theorem V26_o21 (c : Dev nD) : V26 m outs c main_v90 = V1 m c main_v90 := (V26_of m outs c main_v90 (by decide)).trans (V25_o21 m outs c)
theorem V27_o21 (c : Dev nD) : V27 m outs c main_v90 = V1 m c main_v90 := (V27_of m outs c main_v90 (by decide)).trans (V26_o21 m outs c)
theorem V28_o21 (c : Dev nD) : V28 m outs c main_v90 = V1 m c main_v90 := (V28_of m outs c main_v90 (by decide)).trans (V27_o21 m outs c)
theorem V29_o21 (c : Dev nD) : V29 m outs c main_v90 = V1 m c main_v90 := (V29_of m outs c main_v90 (by decide)).trans (V28_o21 m outs c)
theorem V30_o21 (c : Dev nD) : V30 m outs c main_v90 = V1 m c main_v90 := (V30_of m outs c main_v90 (by decide)).trans (V29_o21 m outs c)
theorem V31_o21 (c : Dev nD) : V31 m outs c main_v90 = V1 m c main_v90 := (V31_of m outs c main_v90 (by decide)).trans (V30_o21 m outs c)
theorem V32_o21 (c : Dev nD) : V32 m outs c main_v90 = V1 m c main_v90 := (V32_of m outs c main_v90 (by decide)).trans (V31_o21 m outs c)
theorem V33_o21 (c : Dev nD) : V33 m outs c main_v90 = V1 m c main_v90 := (V33_of m outs c main_v90 (by decide)).trans (V32_o21 m outs c)
theorem V34_o21 (c : Dev nD) : V34 m outs c main_v90 = V1 m c main_v90 := (V34_of m outs c main_v90 (by decide)).trans (V33_o21 m outs c)
theorem V35_o21 (c : Dev nD) : V35 m outs c main_v90 = V1 m c main_v90 := (V35_of m outs c main_v90 (by decide)).trans (V34_o21 m outs c)
theorem V36_o21 (c : Dev nD) : V36 m outs c main_v90 = V1 m c main_v90 := (V36_of m outs c main_v90 (by decide)).trans (V35_o21 m outs c)
theorem V37_o21 (c : Dev nD) : V37 m outs c main_v90 = V1 m c main_v90 := (V37_of m outs c main_v90 (by decide)).trans (V36_o21 m outs c)
theorem V38_o21 (c : Dev nD) : V38 m outs c main_v90 = V1 m c main_v90 := (V38_of m outs c main_v90 (by decide)).trans (V37_o21 m outs c)
theorem V39_o21 (c : Dev nD) : V39 m outs c main_v90 = V1 m c main_v90 := (V39_of m outs c main_v90 (by decide)).trans (V38_o21 m outs c)
theorem V40_o21 (c : Dev nD) : V40 m outs c main_v90 = V1 m c main_v90 := (V40_of m outs c main_v90 (by decide)).trans (V39_o21 m outs c)
theorem V41_o21 (c : Dev nD) : V41 m outs c main_v90 = V1 m c main_v90 := (V41_of m outs c main_v90 (by decide)).trans (V40_o21 m outs c)
theorem V42_o21 (c : Dev nD) : V42 m outs c main_v90 = V1 m c main_v90 := (V42_of m outs c main_v90 (by decide)).trans (V41_o21 m outs c)
theorem V43_o21 (c : Dev nD) : V43 m outs c main_v90 = V1 m c main_v90 := (V43_of m outs c main_v90 (by decide)).trans (V42_o21 m outs c)
theorem V1_o22 (c : Dev nD) : V1 m c main_v94 = V1 m c main_v94 := rfl
theorem V2_o22 (c : Dev nD) : V2 m outs c main_v94 = V1 m c main_v94 := (V2_of m outs c main_v94 (by decide)).trans (V1_o22 m c)
theorem V3_o22 (c : Dev nD) : V3 m outs c main_v94 = V1 m c main_v94 := (V3_of m outs c main_v94 (by decide)).trans (V2_o22 m outs c)
theorem V4_o22 (c : Dev nD) : V4 m outs c main_v94 = V1 m c main_v94 := (V4_of m outs c main_v94 (by decide)).trans (V3_o22 m outs c)
theorem V5_o22 (c : Dev nD) : V5 m outs c main_v94 = V1 m c main_v94 := (V5_of m outs c main_v94 (by decide)).trans (V4_o22 m outs c)
theorem V6_o22 (c : Dev nD) : V6 m outs c main_v94 = V1 m c main_v94 := (V6_of m outs c main_v94 (by decide)).trans (V5_o22 m outs c)
theorem V7_o22 (c : Dev nD) : V7 m outs c main_v94 = V1 m c main_v94 := (V7_of m outs c main_v94 (by decide)).trans (V6_o22 m outs c)
theorem V8_o22 (c : Dev nD) : V8 m outs c main_v94 = V1 m c main_v94 := (V8_of m outs c main_v94 (by decide)).trans (V7_o22 m outs c)
theorem V9_o22 (c : Dev nD) : V9 m outs c main_v94 = V1 m c main_v94 := (V9_of m outs c main_v94 (by decide)).trans (V8_o22 m outs c)
theorem V10_o22 (c : Dev nD) : V10 m outs c main_v94 = V1 m c main_v94 := (V10_of m outs c main_v94 (by decide)).trans (V9_o22 m outs c)
theorem V11_o22 (c : Dev nD) : V11 m outs c main_v94 = V1 m c main_v94 := (V11_of m outs c main_v94 (by decide)).trans (V10_o22 m outs c)
theorem V12_o22 (c : Dev nD) : V12 m outs c main_v94 = V1 m c main_v94 := (V12_of m outs c main_v94 (by decide)).trans (V11_o22 m outs c)
theorem V13_o22 (c : Dev nD) : V13 m outs c main_v94 = V1 m c main_v94 := (V13_of m outs c main_v94 (by decide)).trans (V12_o22 m outs c)
theorem V14_o22 (c : Dev nD) : V14 m outs c main_v94 = V1 m c main_v94 := (V14_of m outs c main_v94 (by decide)).trans (V13_o22 m outs c)
theorem V15_o22 (c : Dev nD) : V15 m outs c main_v94 = V1 m c main_v94 := (V15_of m outs c main_v94 (by decide)).trans (V14_o22 m outs c)
theorem V16_o22 (c : Dev nD) : V16 m outs c main_v94 = V1 m c main_v94 := (V16_of m outs c main_v94 (by decide)).trans (V15_o22 m outs c)
theorem V17_o22 (c : Dev nD) : V17 m outs c main_v94 = V1 m c main_v94 := (V17_of m outs c main_v94 (by decide)).trans (V16_o22 m outs c)
theorem V18_o22 (c : Dev nD) : V18 m outs c main_v94 = V1 m c main_v94 := (V18_of m outs c main_v94 (by decide)).trans (V17_o22 m outs c)
theorem V19_o22 (c : Dev nD) : V19 m outs c main_v94 = V1 m c main_v94 := (V19_of m outs c main_v94 (by decide)).trans (V18_o22 m outs c)
theorem V20_o22 (c : Dev nD) : V20 m outs c main_v94 = V1 m c main_v94 := (V20_of m outs c main_v94 (by decide)).trans (V19_o22 m outs c)
theorem V21_o22 (c : Dev nD) : V21 m outs c main_v94 = V1 m c main_v94 := (V21_of m outs c main_v94 (by decide)).trans (V20_o22 m outs c)
theorem V22_o22 (c : Dev nD) : V22 m outs c main_v94 = V1 m c main_v94 := (V22_of m outs c main_v94 (by decide)).trans (V21_o22 m outs c)
theorem V23_o22 (c : Dev nD) : V23 m outs c main_v94 = V1 m c main_v94 := (V23_of m outs c main_v94 (by decide)).trans (V22_o22 m outs c)
theorem V24_o22 (c : Dev nD) : V24 m outs c main_v94 = V1 m c main_v94 := (V24_of m outs c main_v94 (by decide)).trans (V23_o22 m outs c)
theorem V25_o22 (c : Dev nD) : V25 m outs c main_v94 = V1 m c main_v94 := (V25_of m outs c main_v94 (by decide)).trans (V24_o22 m outs c)
theorem V26_o22 (c : Dev nD) : V26 m outs c main_v94 = V1 m c main_v94 := (V26_of m outs c main_v94 (by decide)).trans (V25_o22 m outs c)
theorem V27_o22 (c : Dev nD) : V27 m outs c main_v94 = V1 m c main_v94 := (V27_of m outs c main_v94 (by decide)).trans (V26_o22 m outs c)
theorem V28_o22 (c : Dev nD) : V28 m outs c main_v94 = V1 m c main_v94 := (V28_of m outs c main_v94 (by decide)).trans (V27_o22 m outs c)
theorem V29_o22 (c : Dev nD) : V29 m outs c main_v94 = V1 m c main_v94 := (V29_of m outs c main_v94 (by decide)).trans (V28_o22 m outs c)
theorem V30_o22 (c : Dev nD) : V30 m outs c main_v94 = V1 m c main_v94 := (V30_of m outs c main_v94 (by decide)).trans (V29_o22 m outs c)
theorem V31_o22 (c : Dev nD) : V31 m outs c main_v94 = V1 m c main_v94 := (V31_of m outs c main_v94 (by decide)).trans (V30_o22 m outs c)
theorem V32_o22 (c : Dev nD) : V32 m outs c main_v94 = V1 m c main_v94 := (V32_of m outs c main_v94 (by decide)).trans (V31_o22 m outs c)
theorem V33_o22 (c : Dev nD) : V33 m outs c main_v94 = V1 m c main_v94 := (V33_of m outs c main_v94 (by decide)).trans (V32_o22 m outs c)
theorem V34_o22 (c : Dev nD) : V34 m outs c main_v94 = V1 m c main_v94 := (V34_of m outs c main_v94 (by decide)).trans (V33_o22 m outs c)
theorem V35_o22 (c : Dev nD) : V35 m outs c main_v94 = V1 m c main_v94 := (V35_of m outs c main_v94 (by decide)).trans (V34_o22 m outs c)
theorem V36_o22 (c : Dev nD) : V36 m outs c main_v94 = V1 m c main_v94 := (V36_of m outs c main_v94 (by decide)).trans (V35_o22 m outs c)
theorem V37_o22 (c : Dev nD) : V37 m outs c main_v94 = V1 m c main_v94 := (V37_of m outs c main_v94 (by decide)).trans (V36_o22 m outs c)
theorem V38_o22 (c : Dev nD) : V38 m outs c main_v94 = V1 m c main_v94 := (V38_of m outs c main_v94 (by decide)).trans (V37_o22 m outs c)
theorem V39_o22 (c : Dev nD) : V39 m outs c main_v94 = V1 m c main_v94 := (V39_of m outs c main_v94 (by decide)).trans (V38_o22 m outs c)
theorem V40_o22 (c : Dev nD) : V40 m outs c main_v94 = V1 m c main_v94 := (V40_of m outs c main_v94 (by decide)).trans (V39_o22 m outs c)
theorem V41_o22 (c : Dev nD) : V41 m outs c main_v94 = V1 m c main_v94 := (V41_of m outs c main_v94 (by decide)).trans (V40_o22 m outs c)
theorem V42_o22 (c : Dev nD) : V42 m outs c main_v94 = V1 m c main_v94 := (V42_of m outs c main_v94 (by decide)).trans (V41_o22 m outs c)
theorem V43_o22 (c : Dev nD) : V43 m outs c main_v94 = V1 m c main_v94 := (V43_of m outs c main_v94 (by decide)).trans (V42_o22 m outs c)
theorem V44_o22 (c : Dev nD) : V44 m outs c main_v94 = V1 m c main_v94 := (V44_of m outs c main_v94 (by decide)).trans (V43_o22 m outs c)
theorem V45_o22 (c : Dev nD) : V45 m outs c main_v94 = V1 m c main_v94 := (V45_of m outs c main_v94 (by decide)).trans (V44_o22 m outs c)
theorem V1_o23 (c : Dev nD) : V1 m c main_v98 = V1 m c main_v98 := rfl
theorem V2_o23 (c : Dev nD) : V2 m outs c main_v98 = V1 m c main_v98 := (V2_of m outs c main_v98 (by decide)).trans (V1_o23 m c)
theorem V3_o23 (c : Dev nD) : V3 m outs c main_v98 = V1 m c main_v98 := (V3_of m outs c main_v98 (by decide)).trans (V2_o23 m outs c)
theorem V4_o23 (c : Dev nD) : V4 m outs c main_v98 = V1 m c main_v98 := (V4_of m outs c main_v98 (by decide)).trans (V3_o23 m outs c)
theorem V5_o23 (c : Dev nD) : V5 m outs c main_v98 = V1 m c main_v98 := (V5_of m outs c main_v98 (by decide)).trans (V4_o23 m outs c)
theorem V6_o23 (c : Dev nD) : V6 m outs c main_v98 = V1 m c main_v98 := (V6_of m outs c main_v98 (by decide)).trans (V5_o23 m outs c)
theorem V7_o23 (c : Dev nD) : V7 m outs c main_v98 = V1 m c main_v98 := (V7_of m outs c main_v98 (by decide)).trans (V6_o23 m outs c)
theorem V8_o23 (c : Dev nD) : V8 m outs c main_v98 = V1 m c main_v98 := (V8_of m outs c main_v98 (by decide)).trans (V7_o23 m outs c)
theorem V9_o23 (c : Dev nD) : V9 m outs c main_v98 = V1 m c main_v98 := (V9_of m outs c main_v98 (by decide)).trans (V8_o23 m outs c)
theorem V10_o23 (c : Dev nD) : V10 m outs c main_v98 = V1 m c main_v98 := (V10_of m outs c main_v98 (by decide)).trans (V9_o23 m outs c)
theorem V11_o23 (c : Dev nD) : V11 m outs c main_v98 = V1 m c main_v98 := (V11_of m outs c main_v98 (by decide)).trans (V10_o23 m outs c)
theorem V12_o23 (c : Dev nD) : V12 m outs c main_v98 = V1 m c main_v98 := (V12_of m outs c main_v98 (by decide)).trans (V11_o23 m outs c)
theorem V13_o23 (c : Dev nD) : V13 m outs c main_v98 = V1 m c main_v98 := (V13_of m outs c main_v98 (by decide)).trans (V12_o23 m outs c)
theorem V14_o23 (c : Dev nD) : V14 m outs c main_v98 = V1 m c main_v98 := (V14_of m outs c main_v98 (by decide)).trans (V13_o23 m outs c)
theorem V15_o23 (c : Dev nD) : V15 m outs c main_v98 = V1 m c main_v98 := (V15_of m outs c main_v98 (by decide)).trans (V14_o23 m outs c)
theorem V16_o23 (c : Dev nD) : V16 m outs c main_v98 = V1 m c main_v98 := (V16_of m outs c main_v98 (by decide)).trans (V15_o23 m outs c)
theorem V17_o23 (c : Dev nD) : V17 m outs c main_v98 = V1 m c main_v98 := (V17_of m outs c main_v98 (by decide)).trans (V16_o23 m outs c)
theorem V18_o23 (c : Dev nD) : V18 m outs c main_v98 = V1 m c main_v98 := (V18_of m outs c main_v98 (by decide)).trans (V17_o23 m outs c)
theorem V19_o23 (c : Dev nD) : V19 m outs c main_v98 = V1 m c main_v98 := (V19_of m outs c main_v98 (by decide)).trans (V18_o23 m outs c)
theorem V20_o23 (c : Dev nD) : V20 m outs c main_v98 = V1 m c main_v98 := (V20_of m outs c main_v98 (by decide)).trans (V19_o23 m outs c)
theorem V21_o23 (c : Dev nD) : V21 m outs c main_v98 = V1 m c main_v98 := (V21_of m outs c main_v98 (by decide)).trans (V20_o23 m outs c)
theorem V22_o23 (c : Dev nD) : V22 m outs c main_v98 = V1 m c main_v98 := (V22_of m outs c main_v98 (by decide)).trans (V21_o23 m outs c)
theorem V23_o23 (c : Dev nD) : V23 m outs c main_v98 = V1 m c main_v98 := (V23_of m outs c main_v98 (by decide)).trans (V22_o23 m outs c)
theorem V24_o23 (c : Dev nD) : V24 m outs c main_v98 = V1 m c main_v98 := (V24_of m outs c main_v98 (by decide)).trans (V23_o23 m outs c)
theorem V25_o23 (c : Dev nD) : V25 m outs c main_v98 = V1 m c main_v98 := (V25_of m outs c main_v98 (by decide)).trans (V24_o23 m outs c)
theorem V26_o23 (c : Dev nD) : V26 m outs c main_v98 = V1 m c main_v98 := (V26_of m outs c main_v98 (by decide)).trans (V25_o23 m outs c)
theorem V27_o23 (c : Dev nD) : V27 m outs c main_v98 = V1 m c main_v98 := (V27_of m outs c main_v98 (by decide)).trans (V26_o23 m outs c)
theorem V28_o23 (c : Dev nD) : V28 m outs c main_v98 = V1 m c main_v98 := (V28_of m outs c main_v98 (by decide)).trans (V27_o23 m outs c)
theorem V29_o23 (c : Dev nD) : V29 m outs c main_v98 = V1 m c main_v98 := (V29_of m outs c main_v98 (by decide)).trans (V28_o23 m outs c)
theorem V30_o23 (c : Dev nD) : V30 m outs c main_v98 = V1 m c main_v98 := (V30_of m outs c main_v98 (by decide)).trans (V29_o23 m outs c)
theorem V31_o23 (c : Dev nD) : V31 m outs c main_v98 = V1 m c main_v98 := (V31_of m outs c main_v98 (by decide)).trans (V30_o23 m outs c)
theorem V32_o23 (c : Dev nD) : V32 m outs c main_v98 = V1 m c main_v98 := (V32_of m outs c main_v98 (by decide)).trans (V31_o23 m outs c)
theorem V33_o23 (c : Dev nD) : V33 m outs c main_v98 = V1 m c main_v98 := (V33_of m outs c main_v98 (by decide)).trans (V32_o23 m outs c)
theorem V34_o23 (c : Dev nD) : V34 m outs c main_v98 = V1 m c main_v98 := (V34_of m outs c main_v98 (by decide)).trans (V33_o23 m outs c)
theorem V35_o23 (c : Dev nD) : V35 m outs c main_v98 = V1 m c main_v98 := (V35_of m outs c main_v98 (by decide)).trans (V34_o23 m outs c)
theorem V36_o23 (c : Dev nD) : V36 m outs c main_v98 = V1 m c main_v98 := (V36_of m outs c main_v98 (by decide)).trans (V35_o23 m outs c)
theorem V37_o23 (c : Dev nD) : V37 m outs c main_v98 = V1 m c main_v98 := (V37_of m outs c main_v98 (by decide)).trans (V36_o23 m outs c)
theorem V38_o23 (c : Dev nD) : V38 m outs c main_v98 = V1 m c main_v98 := (V38_of m outs c main_v98 (by decide)).trans (V37_o23 m outs c)
theorem V39_o23 (c : Dev nD) : V39 m outs c main_v98 = V1 m c main_v98 := (V39_of m outs c main_v98 (by decide)).trans (V38_o23 m outs c)
theorem V40_o23 (c : Dev nD) : V40 m outs c main_v98 = V1 m c main_v98 := (V40_of m outs c main_v98 (by decide)).trans (V39_o23 m outs c)
theorem V41_o23 (c : Dev nD) : V41 m outs c main_v98 = V1 m c main_v98 := (V41_of m outs c main_v98 (by decide)).trans (V40_o23 m outs c)
theorem V42_o23 (c : Dev nD) : V42 m outs c main_v98 = V1 m c main_v98 := (V42_of m outs c main_v98 (by decide)).trans (V41_o23 m outs c)
theorem V43_o23 (c : Dev nD) : V43 m outs c main_v98 = V1 m c main_v98 := (V43_of m outs c main_v98 (by decide)).trans (V42_o23 m outs c)
theorem V44_o23 (c : Dev nD) : V44 m outs c main_v98 = V1 m c main_v98 := (V44_of m outs c main_v98 (by decide)).trans (V43_o23 m outs c)
theorem V45_o23 (c : Dev nD) : V45 m outs c main_v98 = V1 m c main_v98 := (V45_of m outs c main_v98 (by decide)).trans (V44_o23 m outs c)
theorem V46_o23 (c : Dev nD) : V46 m outs c main_v98 = V1 m c main_v98 := (V46_of m outs c main_v98 (by decide)).trans (V45_o23 m outs c)
theorem V47_o23 (c : Dev nD) : V47 m outs c main_v98 = V1 m c main_v98 := (V47_of m outs c main_v98 (by decide)).trans (V46_o23 m outs c)
theorem V1_o24 (c : Dev nD) : V1 m c main_v102 = V1 m c main_v102 := rfl
theorem V2_o24 (c : Dev nD) : V2 m outs c main_v102 = V1 m c main_v102 := (V2_of m outs c main_v102 (by decide)).trans (V1_o24 m c)
theorem V3_o24 (c : Dev nD) : V3 m outs c main_v102 = V1 m c main_v102 := (V3_of m outs c main_v102 (by decide)).trans (V2_o24 m outs c)
theorem V4_o24 (c : Dev nD) : V4 m outs c main_v102 = V1 m c main_v102 := (V4_of m outs c main_v102 (by decide)).trans (V3_o24 m outs c)
theorem V5_o24 (c : Dev nD) : V5 m outs c main_v102 = V1 m c main_v102 := (V5_of m outs c main_v102 (by decide)).trans (V4_o24 m outs c)
theorem V6_o24 (c : Dev nD) : V6 m outs c main_v102 = V1 m c main_v102 := (V6_of m outs c main_v102 (by decide)).trans (V5_o24 m outs c)
theorem V7_o24 (c : Dev nD) : V7 m outs c main_v102 = V1 m c main_v102 := (V7_of m outs c main_v102 (by decide)).trans (V6_o24 m outs c)
theorem V8_o24 (c : Dev nD) : V8 m outs c main_v102 = V1 m c main_v102 := (V8_of m outs c main_v102 (by decide)).trans (V7_o24 m outs c)
theorem V9_o24 (c : Dev nD) : V9 m outs c main_v102 = V1 m c main_v102 := (V9_of m outs c main_v102 (by decide)).trans (V8_o24 m outs c)
theorem V10_o24 (c : Dev nD) : V10 m outs c main_v102 = V1 m c main_v102 := (V10_of m outs c main_v102 (by decide)).trans (V9_o24 m outs c)
theorem V11_o24 (c : Dev nD) : V11 m outs c main_v102 = V1 m c main_v102 := (V11_of m outs c main_v102 (by decide)).trans (V10_o24 m outs c)
theorem V12_o24 (c : Dev nD) : V12 m outs c main_v102 = V1 m c main_v102 := (V12_of m outs c main_v102 (by decide)).trans (V11_o24 m outs c)
theorem V13_o24 (c : Dev nD) : V13 m outs c main_v102 = V1 m c main_v102 := (V13_of m outs c main_v102 (by decide)).trans (V12_o24 m outs c)
theorem V14_o24 (c : Dev nD) : V14 m outs c main_v102 = V1 m c main_v102 := (V14_of m outs c main_v102 (by decide)).trans (V13_o24 m outs c)
theorem V15_o24 (c : Dev nD) : V15 m outs c main_v102 = V1 m c main_v102 := (V15_of m outs c main_v102 (by decide)).trans (V14_o24 m outs c)
theorem V16_o24 (c : Dev nD) : V16 m outs c main_v102 = V1 m c main_v102 := (V16_of m outs c main_v102 (by decide)).trans (V15_o24 m outs c)
theorem V17_o24 (c : Dev nD) : V17 m outs c main_v102 = V1 m c main_v102 := (V17_of m outs c main_v102 (by decide)).trans (V16_o24 m outs c)
theorem V18_o24 (c : Dev nD) : V18 m outs c main_v102 = V1 m c main_v102 := (V18_of m outs c main_v102 (by decide)).trans (V17_o24 m outs c)
theorem V19_o24 (c : Dev nD) : V19 m outs c main_v102 = V1 m c main_v102 := (V19_of m outs c main_v102 (by decide)).trans (V18_o24 m outs c)
theorem V20_o24 (c : Dev nD) : V20 m outs c main_v102 = V1 m c main_v102 := (V20_of m outs c main_v102 (by decide)).trans (V19_o24 m outs c)
theorem V21_o24 (c : Dev nD) : V21 m outs c main_v102 = V1 m c main_v102 := (V21_of m outs c main_v102 (by decide)).trans (V20_o24 m outs c)
theorem V22_o24 (c : Dev nD) : V22 m outs c main_v102 = V1 m c main_v102 := (V22_of m outs c main_v102 (by decide)).trans (V21_o24 m outs c)
theorem V23_o24 (c : Dev nD) : V23 m outs c main_v102 = V1 m c main_v102 := (V23_of m outs c main_v102 (by decide)).trans (V22_o24 m outs c)
theorem V24_o24 (c : Dev nD) : V24 m outs c main_v102 = V1 m c main_v102 := (V24_of m outs c main_v102 (by decide)).trans (V23_o24 m outs c)
theorem V25_o24 (c : Dev nD) : V25 m outs c main_v102 = V1 m c main_v102 := (V25_of m outs c main_v102 (by decide)).trans (V24_o24 m outs c)
theorem V26_o24 (c : Dev nD) : V26 m outs c main_v102 = V1 m c main_v102 := (V26_of m outs c main_v102 (by decide)).trans (V25_o24 m outs c)
theorem V27_o24 (c : Dev nD) : V27 m outs c main_v102 = V1 m c main_v102 := (V27_of m outs c main_v102 (by decide)).trans (V26_o24 m outs c)
theorem V28_o24 (c : Dev nD) : V28 m outs c main_v102 = V1 m c main_v102 := (V28_of m outs c main_v102 (by decide)).trans (V27_o24 m outs c)
theorem V29_o24 (c : Dev nD) : V29 m outs c main_v102 = V1 m c main_v102 := (V29_of m outs c main_v102 (by decide)).trans (V28_o24 m outs c)
theorem V30_o24 (c : Dev nD) : V30 m outs c main_v102 = V1 m c main_v102 := (V30_of m outs c main_v102 (by decide)).trans (V29_o24 m outs c)
theorem V31_o24 (c : Dev nD) : V31 m outs c main_v102 = V1 m c main_v102 := (V31_of m outs c main_v102 (by decide)).trans (V30_o24 m outs c)
theorem V32_o24 (c : Dev nD) : V32 m outs c main_v102 = V1 m c main_v102 := (V32_of m outs c main_v102 (by decide)).trans (V31_o24 m outs c)
theorem V33_o24 (c : Dev nD) : V33 m outs c main_v102 = V1 m c main_v102 := (V33_of m outs c main_v102 (by decide)).trans (V32_o24 m outs c)
theorem V34_o24 (c : Dev nD) : V34 m outs c main_v102 = V1 m c main_v102 := (V34_of m outs c main_v102 (by decide)).trans (V33_o24 m outs c)
theorem V35_o24 (c : Dev nD) : V35 m outs c main_v102 = V1 m c main_v102 := (V35_of m outs c main_v102 (by decide)).trans (V34_o24 m outs c)
theorem V36_o24 (c : Dev nD) : V36 m outs c main_v102 = V1 m c main_v102 := (V36_of m outs c main_v102 (by decide)).trans (V35_o24 m outs c)
theorem V37_o24 (c : Dev nD) : V37 m outs c main_v102 = V1 m c main_v102 := (V37_of m outs c main_v102 (by decide)).trans (V36_o24 m outs c)
theorem V38_o24 (c : Dev nD) : V38 m outs c main_v102 = V1 m c main_v102 := (V38_of m outs c main_v102 (by decide)).trans (V37_o24 m outs c)
theorem V39_o24 (c : Dev nD) : V39 m outs c main_v102 = V1 m c main_v102 := (V39_of m outs c main_v102 (by decide)).trans (V38_o24 m outs c)
theorem V40_o24 (c : Dev nD) : V40 m outs c main_v102 = V1 m c main_v102 := (V40_of m outs c main_v102 (by decide)).trans (V39_o24 m outs c)
theorem V41_o24 (c : Dev nD) : V41 m outs c main_v102 = V1 m c main_v102 := (V41_of m outs c main_v102 (by decide)).trans (V40_o24 m outs c)
theorem V42_o24 (c : Dev nD) : V42 m outs c main_v102 = V1 m c main_v102 := (V42_of m outs c main_v102 (by decide)).trans (V41_o24 m outs c)
theorem V43_o24 (c : Dev nD) : V43 m outs c main_v102 = V1 m c main_v102 := (V43_of m outs c main_v102 (by decide)).trans (V42_o24 m outs c)
theorem V44_o24 (c : Dev nD) : V44 m outs c main_v102 = V1 m c main_v102 := (V44_of m outs c main_v102 (by decide)).trans (V43_o24 m outs c)
theorem V45_o24 (c : Dev nD) : V45 m outs c main_v102 = V1 m c main_v102 := (V45_of m outs c main_v102 (by decide)).trans (V44_o24 m outs c)
theorem V46_o24 (c : Dev nD) : V46 m outs c main_v102 = V1 m c main_v102 := (V46_of m outs c main_v102 (by decide)).trans (V45_o24 m outs c)
theorem V47_o24 (c : Dev nD) : V47 m outs c main_v102 = V1 m c main_v102 := (V47_of m outs c main_v102 (by decide)).trans (V46_o24 m outs c)
theorem V48_o24 (c : Dev nD) : V48 m outs c main_v102 = V1 m c main_v102 := (V48_of m outs c main_v102 (by decide)).trans (V47_o24 m outs c)
theorem V49_o24 (c : Dev nD) : V49 m outs c main_v102 = V1 m c main_v102 := (V49_of m outs c main_v102 (by decide)).trans (V48_o24 m outs c)
theorem V1_o25 (c : Dev nD) : V1 m c main_v106 = V1 m c main_v106 := rfl
theorem V2_o25 (c : Dev nD) : V2 m outs c main_v106 = V1 m c main_v106 := (V2_of m outs c main_v106 (by decide)).trans (V1_o25 m c)
theorem V3_o25 (c : Dev nD) : V3 m outs c main_v106 = V1 m c main_v106 := (V3_of m outs c main_v106 (by decide)).trans (V2_o25 m outs c)
theorem V4_o25 (c : Dev nD) : V4 m outs c main_v106 = V1 m c main_v106 := (V4_of m outs c main_v106 (by decide)).trans (V3_o25 m outs c)
theorem V5_o25 (c : Dev nD) : V5 m outs c main_v106 = V1 m c main_v106 := (V5_of m outs c main_v106 (by decide)).trans (V4_o25 m outs c)
theorem V6_o25 (c : Dev nD) : V6 m outs c main_v106 = V1 m c main_v106 := (V6_of m outs c main_v106 (by decide)).trans (V5_o25 m outs c)
theorem V7_o25 (c : Dev nD) : V7 m outs c main_v106 = V1 m c main_v106 := (V7_of m outs c main_v106 (by decide)).trans (V6_o25 m outs c)
theorem V8_o25 (c : Dev nD) : V8 m outs c main_v106 = V1 m c main_v106 := (V8_of m outs c main_v106 (by decide)).trans (V7_o25 m outs c)
theorem V9_o25 (c : Dev nD) : V9 m outs c main_v106 = V1 m c main_v106 := (V9_of m outs c main_v106 (by decide)).trans (V8_o25 m outs c)
theorem V10_o25 (c : Dev nD) : V10 m outs c main_v106 = V1 m c main_v106 := (V10_of m outs c main_v106 (by decide)).trans (V9_o25 m outs c)
theorem V11_o25 (c : Dev nD) : V11 m outs c main_v106 = V1 m c main_v106 := (V11_of m outs c main_v106 (by decide)).trans (V10_o25 m outs c)
theorem V12_o25 (c : Dev nD) : V12 m outs c main_v106 = V1 m c main_v106 := (V12_of m outs c main_v106 (by decide)).trans (V11_o25 m outs c)
theorem V13_o25 (c : Dev nD) : V13 m outs c main_v106 = V1 m c main_v106 := (V13_of m outs c main_v106 (by decide)).trans (V12_o25 m outs c)
theorem V14_o25 (c : Dev nD) : V14 m outs c main_v106 = V1 m c main_v106 := (V14_of m outs c main_v106 (by decide)).trans (V13_o25 m outs c)
theorem V15_o25 (c : Dev nD) : V15 m outs c main_v106 = V1 m c main_v106 := (V15_of m outs c main_v106 (by decide)).trans (V14_o25 m outs c)
theorem V16_o25 (c : Dev nD) : V16 m outs c main_v106 = V1 m c main_v106 := (V16_of m outs c main_v106 (by decide)).trans (V15_o25 m outs c)
theorem V17_o25 (c : Dev nD) : V17 m outs c main_v106 = V1 m c main_v106 := (V17_of m outs c main_v106 (by decide)).trans (V16_o25 m outs c)
theorem V18_o25 (c : Dev nD) : V18 m outs c main_v106 = V1 m c main_v106 := (V18_of m outs c main_v106 (by decide)).trans (V17_o25 m outs c)
theorem V19_o25 (c : Dev nD) : V19 m outs c main_v106 = V1 m c main_v106 := (V19_of m outs c main_v106 (by decide)).trans (V18_o25 m outs c)
theorem V20_o25 (c : Dev nD) : V20 m outs c main_v106 = V1 m c main_v106 := (V20_of m outs c main_v106 (by decide)).trans (V19_o25 m outs c)
theorem V21_o25 (c : Dev nD) : V21 m outs c main_v106 = V1 m c main_v106 := (V21_of m outs c main_v106 (by decide)).trans (V20_o25 m outs c)
theorem V22_o25 (c : Dev nD) : V22 m outs c main_v106 = V1 m c main_v106 := (V22_of m outs c main_v106 (by decide)).trans (V21_o25 m outs c)
theorem V23_o25 (c : Dev nD) : V23 m outs c main_v106 = V1 m c main_v106 := (V23_of m outs c main_v106 (by decide)).trans (V22_o25 m outs c)
theorem V24_o25 (c : Dev nD) : V24 m outs c main_v106 = V1 m c main_v106 := (V24_of m outs c main_v106 (by decide)).trans (V23_o25 m outs c)
theorem V25_o25 (c : Dev nD) : V25 m outs c main_v106 = V1 m c main_v106 := (V25_of m outs c main_v106 (by decide)).trans (V24_o25 m outs c)
theorem V26_o25 (c : Dev nD) : V26 m outs c main_v106 = V1 m c main_v106 := (V26_of m outs c main_v106 (by decide)).trans (V25_o25 m outs c)
theorem V27_o25 (c : Dev nD) : V27 m outs c main_v106 = V1 m c main_v106 := (V27_of m outs c main_v106 (by decide)).trans (V26_o25 m outs c)
theorem V28_o25 (c : Dev nD) : V28 m outs c main_v106 = V1 m c main_v106 := (V28_of m outs c main_v106 (by decide)).trans (V27_o25 m outs c)
theorem V29_o25 (c : Dev nD) : V29 m outs c main_v106 = V1 m c main_v106 := (V29_of m outs c main_v106 (by decide)).trans (V28_o25 m outs c)
theorem V30_o25 (c : Dev nD) : V30 m outs c main_v106 = V1 m c main_v106 := (V30_of m outs c main_v106 (by decide)).trans (V29_o25 m outs c)
theorem V31_o25 (c : Dev nD) : V31 m outs c main_v106 = V1 m c main_v106 := (V31_of m outs c main_v106 (by decide)).trans (V30_o25 m outs c)
theorem V32_o25 (c : Dev nD) : V32 m outs c main_v106 = V1 m c main_v106 := (V32_of m outs c main_v106 (by decide)).trans (V31_o25 m outs c)
theorem V33_o25 (c : Dev nD) : V33 m outs c main_v106 = V1 m c main_v106 := (V33_of m outs c main_v106 (by decide)).trans (V32_o25 m outs c)
theorem V34_o25 (c : Dev nD) : V34 m outs c main_v106 = V1 m c main_v106 := (V34_of m outs c main_v106 (by decide)).trans (V33_o25 m outs c)
theorem V35_o25 (c : Dev nD) : V35 m outs c main_v106 = V1 m c main_v106 := (V35_of m outs c main_v106 (by decide)).trans (V34_o25 m outs c)
theorem V36_o25 (c : Dev nD) : V36 m outs c main_v106 = V1 m c main_v106 := (V36_of m outs c main_v106 (by decide)).trans (V35_o25 m outs c)
theorem V37_o25 (c : Dev nD) : V37 m outs c main_v106 = V1 m c main_v106 := (V37_of m outs c main_v106 (by decide)).trans (V36_o25 m outs c)
theorem V38_o25 (c : Dev nD) : V38 m outs c main_v106 = V1 m c main_v106 := (V38_of m outs c main_v106 (by decide)).trans (V37_o25 m outs c)
theorem V39_o25 (c : Dev nD) : V39 m outs c main_v106 = V1 m c main_v106 := (V39_of m outs c main_v106 (by decide)).trans (V38_o25 m outs c)
theorem V40_o25 (c : Dev nD) : V40 m outs c main_v106 = V1 m c main_v106 := (V40_of m outs c main_v106 (by decide)).trans (V39_o25 m outs c)
theorem V41_o25 (c : Dev nD) : V41 m outs c main_v106 = V1 m c main_v106 := (V41_of m outs c main_v106 (by decide)).trans (V40_o25 m outs c)
theorem V42_o25 (c : Dev nD) : V42 m outs c main_v106 = V1 m c main_v106 := (V42_of m outs c main_v106 (by decide)).trans (V41_o25 m outs c)
theorem V43_o25 (c : Dev nD) : V43 m outs c main_v106 = V1 m c main_v106 := (V43_of m outs c main_v106 (by decide)).trans (V42_o25 m outs c)
theorem V44_o25 (c : Dev nD) : V44 m outs c main_v106 = V1 m c main_v106 := (V44_of m outs c main_v106 (by decide)).trans (V43_o25 m outs c)
theorem V45_o25 (c : Dev nD) : V45 m outs c main_v106 = V1 m c main_v106 := (V45_of m outs c main_v106 (by decide)).trans (V44_o25 m outs c)
theorem V46_o25 (c : Dev nD) : V46 m outs c main_v106 = V1 m c main_v106 := (V46_of m outs c main_v106 (by decide)).trans (V45_o25 m outs c)
theorem V47_o25 (c : Dev nD) : V47 m outs c main_v106 = V1 m c main_v106 := (V47_of m outs c main_v106 (by decide)).trans (V46_o25 m outs c)
theorem V48_o25 (c : Dev nD) : V48 m outs c main_v106 = V1 m c main_v106 := (V48_of m outs c main_v106 (by decide)).trans (V47_o25 m outs c)
theorem V49_o25 (c : Dev nD) : V49 m outs c main_v106 = V1 m c main_v106 := (V49_of m outs c main_v106 (by decide)).trans (V48_o25 m outs c)
theorem V50_o25 (c : Dev nD) : V50 m outs c main_v106 = V1 m c main_v106 := (V50_of m outs c main_v106 (by decide)).trans (V49_o25 m outs c)
theorem V51_o25 (c : Dev nD) : V51 m outs c main_v106 = V1 m c main_v106 := (V51_of m outs c main_v106 (by decide)).trans (V50_o25 m outs c)
theorem V1_o26 (c : Dev nD) : V1 m c main_v110 = V1 m c main_v110 := rfl
theorem V2_o26 (c : Dev nD) : V2 m outs c main_v110 = V1 m c main_v110 := (V2_of m outs c main_v110 (by decide)).trans (V1_o26 m c)
theorem V3_o26 (c : Dev nD) : V3 m outs c main_v110 = V1 m c main_v110 := (V3_of m outs c main_v110 (by decide)).trans (V2_o26 m outs c)
theorem V4_o26 (c : Dev nD) : V4 m outs c main_v110 = V1 m c main_v110 := (V4_of m outs c main_v110 (by decide)).trans (V3_o26 m outs c)
theorem V5_o26 (c : Dev nD) : V5 m outs c main_v110 = V1 m c main_v110 := (V5_of m outs c main_v110 (by decide)).trans (V4_o26 m outs c)
theorem V6_o26 (c : Dev nD) : V6 m outs c main_v110 = V1 m c main_v110 := (V6_of m outs c main_v110 (by decide)).trans (V5_o26 m outs c)
theorem V7_o26 (c : Dev nD) : V7 m outs c main_v110 = V1 m c main_v110 := (V7_of m outs c main_v110 (by decide)).trans (V6_o26 m outs c)
theorem V8_o26 (c : Dev nD) : V8 m outs c main_v110 = V1 m c main_v110 := (V8_of m outs c main_v110 (by decide)).trans (V7_o26 m outs c)
theorem V9_o26 (c : Dev nD) : V9 m outs c main_v110 = V1 m c main_v110 := (V9_of m outs c main_v110 (by decide)).trans (V8_o26 m outs c)
theorem V10_o26 (c : Dev nD) : V10 m outs c main_v110 = V1 m c main_v110 := (V10_of m outs c main_v110 (by decide)).trans (V9_o26 m outs c)
theorem V11_o26 (c : Dev nD) : V11 m outs c main_v110 = V1 m c main_v110 := (V11_of m outs c main_v110 (by decide)).trans (V10_o26 m outs c)
theorem V12_o26 (c : Dev nD) : V12 m outs c main_v110 = V1 m c main_v110 := (V12_of m outs c main_v110 (by decide)).trans (V11_o26 m outs c)
theorem V13_o26 (c : Dev nD) : V13 m outs c main_v110 = V1 m c main_v110 := (V13_of m outs c main_v110 (by decide)).trans (V12_o26 m outs c)
theorem V14_o26 (c : Dev nD) : V14 m outs c main_v110 = V1 m c main_v110 := (V14_of m outs c main_v110 (by decide)).trans (V13_o26 m outs c)
theorem V15_o26 (c : Dev nD) : V15 m outs c main_v110 = V1 m c main_v110 := (V15_of m outs c main_v110 (by decide)).trans (V14_o26 m outs c)
theorem V16_o26 (c : Dev nD) : V16 m outs c main_v110 = V1 m c main_v110 := (V16_of m outs c main_v110 (by decide)).trans (V15_o26 m outs c)
theorem V17_o26 (c : Dev nD) : V17 m outs c main_v110 = V1 m c main_v110 := (V17_of m outs c main_v110 (by decide)).trans (V16_o26 m outs c)
theorem V18_o26 (c : Dev nD) : V18 m outs c main_v110 = V1 m c main_v110 := (V18_of m outs c main_v110 (by decide)).trans (V17_o26 m outs c)
theorem V19_o26 (c : Dev nD) : V19 m outs c main_v110 = V1 m c main_v110 := (V19_of m outs c main_v110 (by decide)).trans (V18_o26 m outs c)
theorem V20_o26 (c : Dev nD) : V20 m outs c main_v110 = V1 m c main_v110 := (V20_of m outs c main_v110 (by decide)).trans (V19_o26 m outs c)
theorem V21_o26 (c : Dev nD) : V21 m outs c main_v110 = V1 m c main_v110 := (V21_of m outs c main_v110 (by decide)).trans (V20_o26 m outs c)
theorem V22_o26 (c : Dev nD) : V22 m outs c main_v110 = V1 m c main_v110 := (V22_of m outs c main_v110 (by decide)).trans (V21_o26 m outs c)
theorem V23_o26 (c : Dev nD) : V23 m outs c main_v110 = V1 m c main_v110 := (V23_of m outs c main_v110 (by decide)).trans (V22_o26 m outs c)
theorem V24_o26 (c : Dev nD) : V24 m outs c main_v110 = V1 m c main_v110 := (V24_of m outs c main_v110 (by decide)).trans (V23_o26 m outs c)
theorem V25_o26 (c : Dev nD) : V25 m outs c main_v110 = V1 m c main_v110 := (V25_of m outs c main_v110 (by decide)).trans (V24_o26 m outs c)
theorem V26_o26 (c : Dev nD) : V26 m outs c main_v110 = V1 m c main_v110 := (V26_of m outs c main_v110 (by decide)).trans (V25_o26 m outs c)
theorem V27_o26 (c : Dev nD) : V27 m outs c main_v110 = V1 m c main_v110 := (V27_of m outs c main_v110 (by decide)).trans (V26_o26 m outs c)
theorem V28_o26 (c : Dev nD) : V28 m outs c main_v110 = V1 m c main_v110 := (V28_of m outs c main_v110 (by decide)).trans (V27_o26 m outs c)
theorem V29_o26 (c : Dev nD) : V29 m outs c main_v110 = V1 m c main_v110 := (V29_of m outs c main_v110 (by decide)).trans (V28_o26 m outs c)
theorem V30_o26 (c : Dev nD) : V30 m outs c main_v110 = V1 m c main_v110 := (V30_of m outs c main_v110 (by decide)).trans (V29_o26 m outs c)
theorem V31_o26 (c : Dev nD) : V31 m outs c main_v110 = V1 m c main_v110 := (V31_of m outs c main_v110 (by decide)).trans (V30_o26 m outs c)
theorem V32_o26 (c : Dev nD) : V32 m outs c main_v110 = V1 m c main_v110 := (V32_of m outs c main_v110 (by decide)).trans (V31_o26 m outs c)
theorem V33_o26 (c : Dev nD) : V33 m outs c main_v110 = V1 m c main_v110 := (V33_of m outs c main_v110 (by decide)).trans (V32_o26 m outs c)
theorem V34_o26 (c : Dev nD) : V34 m outs c main_v110 = V1 m c main_v110 := (V34_of m outs c main_v110 (by decide)).trans (V33_o26 m outs c)
theorem V35_o26 (c : Dev nD) : V35 m outs c main_v110 = V1 m c main_v110 := (V35_of m outs c main_v110 (by decide)).trans (V34_o26 m outs c)
theorem V36_o26 (c : Dev nD) : V36 m outs c main_v110 = V1 m c main_v110 := (V36_of m outs c main_v110 (by decide)).trans (V35_o26 m outs c)
theorem V37_o26 (c : Dev nD) : V37 m outs c main_v110 = V1 m c main_v110 := (V37_of m outs c main_v110 (by decide)).trans (V36_o26 m outs c)
theorem V38_o26 (c : Dev nD) : V38 m outs c main_v110 = V1 m c main_v110 := (V38_of m outs c main_v110 (by decide)).trans (V37_o26 m outs c)
theorem V39_o26 (c : Dev nD) : V39 m outs c main_v110 = V1 m c main_v110 := (V39_of m outs c main_v110 (by decide)).trans (V38_o26 m outs c)
theorem V40_o26 (c : Dev nD) : V40 m outs c main_v110 = V1 m c main_v110 := (V40_of m outs c main_v110 (by decide)).trans (V39_o26 m outs c)
theorem V41_o26 (c : Dev nD) : V41 m outs c main_v110 = V1 m c main_v110 := (V41_of m outs c main_v110 (by decide)).trans (V40_o26 m outs c)
theorem V42_o26 (c : Dev nD) : V42 m outs c main_v110 = V1 m c main_v110 := (V42_of m outs c main_v110 (by decide)).trans (V41_o26 m outs c)
theorem V43_o26 (c : Dev nD) : V43 m outs c main_v110 = V1 m c main_v110 := (V43_of m outs c main_v110 (by decide)).trans (V42_o26 m outs c)
theorem V44_o26 (c : Dev nD) : V44 m outs c main_v110 = V1 m c main_v110 := (V44_of m outs c main_v110 (by decide)).trans (V43_o26 m outs c)
theorem V45_o26 (c : Dev nD) : V45 m outs c main_v110 = V1 m c main_v110 := (V45_of m outs c main_v110 (by decide)).trans (V44_o26 m outs c)
theorem V46_o26 (c : Dev nD) : V46 m outs c main_v110 = V1 m c main_v110 := (V46_of m outs c main_v110 (by decide)).trans (V45_o26 m outs c)
theorem V47_o26 (c : Dev nD) : V47 m outs c main_v110 = V1 m c main_v110 := (V47_of m outs c main_v110 (by decide)).trans (V46_o26 m outs c)
theorem V48_o26 (c : Dev nD) : V48 m outs c main_v110 = V1 m c main_v110 := (V48_of m outs c main_v110 (by decide)).trans (V47_o26 m outs c)
theorem V49_o26 (c : Dev nD) : V49 m outs c main_v110 = V1 m c main_v110 := (V49_of m outs c main_v110 (by decide)).trans (V48_o26 m outs c)
theorem V50_o26 (c : Dev nD) : V50 m outs c main_v110 = V1 m c main_v110 := (V50_of m outs c main_v110 (by decide)).trans (V49_o26 m outs c)
theorem V51_o26 (c : Dev nD) : V51 m outs c main_v110 = V1 m c main_v110 := (V51_of m outs c main_v110 (by decide)).trans (V50_o26 m outs c)
theorem V52_o26 (c : Dev nD) : V52 m outs c main_v110 = V1 m c main_v110 := (V52_of m outs c main_v110 (by decide)).trans (V51_o26 m outs c)
theorem V53_o26 (c : Dev nD) : V53 m outs c main_v110 = V1 m c main_v110 := (V53_of m outs c main_v110 (by decide)).trans (V52_o26 m outs c)
theorem V1_o27 (c : Dev nD) : V1 m c main_v114 = V1 m c main_v114 := rfl
theorem V2_o27 (c : Dev nD) : V2 m outs c main_v114 = V1 m c main_v114 := (V2_of m outs c main_v114 (by decide)).trans (V1_o27 m c)
theorem V3_o27 (c : Dev nD) : V3 m outs c main_v114 = V1 m c main_v114 := (V3_of m outs c main_v114 (by decide)).trans (V2_o27 m outs c)
theorem V4_o27 (c : Dev nD) : V4 m outs c main_v114 = V1 m c main_v114 := (V4_of m outs c main_v114 (by decide)).trans (V3_o27 m outs c)
theorem V5_o27 (c : Dev nD) : V5 m outs c main_v114 = V1 m c main_v114 := (V5_of m outs c main_v114 (by decide)).trans (V4_o27 m outs c)
theorem V6_o27 (c : Dev nD) : V6 m outs c main_v114 = V1 m c main_v114 := (V6_of m outs c main_v114 (by decide)).trans (V5_o27 m outs c)
theorem V7_o27 (c : Dev nD) : V7 m outs c main_v114 = V1 m c main_v114 := (V7_of m outs c main_v114 (by decide)).trans (V6_o27 m outs c)
theorem V8_o27 (c : Dev nD) : V8 m outs c main_v114 = V1 m c main_v114 := (V8_of m outs c main_v114 (by decide)).trans (V7_o27 m outs c)
theorem V9_o27 (c : Dev nD) : V9 m outs c main_v114 = V1 m c main_v114 := (V9_of m outs c main_v114 (by decide)).trans (V8_o27 m outs c)
theorem V10_o27 (c : Dev nD) : V10 m outs c main_v114 = V1 m c main_v114 := (V10_of m outs c main_v114 (by decide)).trans (V9_o27 m outs c)
theorem V11_o27 (c : Dev nD) : V11 m outs c main_v114 = V1 m c main_v114 := (V11_of m outs c main_v114 (by decide)).trans (V10_o27 m outs c)
theorem V12_o27 (c : Dev nD) : V12 m outs c main_v114 = V1 m c main_v114 := (V12_of m outs c main_v114 (by decide)).trans (V11_o27 m outs c)
theorem V13_o27 (c : Dev nD) : V13 m outs c main_v114 = V1 m c main_v114 := (V13_of m outs c main_v114 (by decide)).trans (V12_o27 m outs c)
theorem V14_o27 (c : Dev nD) : V14 m outs c main_v114 = V1 m c main_v114 := (V14_of m outs c main_v114 (by decide)).trans (V13_o27 m outs c)
theorem V15_o27 (c : Dev nD) : V15 m outs c main_v114 = V1 m c main_v114 := (V15_of m outs c main_v114 (by decide)).trans (V14_o27 m outs c)
theorem V16_o27 (c : Dev nD) : V16 m outs c main_v114 = V1 m c main_v114 := (V16_of m outs c main_v114 (by decide)).trans (V15_o27 m outs c)
theorem V17_o27 (c : Dev nD) : V17 m outs c main_v114 = V1 m c main_v114 := (V17_of m outs c main_v114 (by decide)).trans (V16_o27 m outs c)
theorem V18_o27 (c : Dev nD) : V18 m outs c main_v114 = V1 m c main_v114 := (V18_of m outs c main_v114 (by decide)).trans (V17_o27 m outs c)
theorem V19_o27 (c : Dev nD) : V19 m outs c main_v114 = V1 m c main_v114 := (V19_of m outs c main_v114 (by decide)).trans (V18_o27 m outs c)
theorem V20_o27 (c : Dev nD) : V20 m outs c main_v114 = V1 m c main_v114 := (V20_of m outs c main_v114 (by decide)).trans (V19_o27 m outs c)
theorem V21_o27 (c : Dev nD) : V21 m outs c main_v114 = V1 m c main_v114 := (V21_of m outs c main_v114 (by decide)).trans (V20_o27 m outs c)
theorem V22_o27 (c : Dev nD) : V22 m outs c main_v114 = V1 m c main_v114 := (V22_of m outs c main_v114 (by decide)).trans (V21_o27 m outs c)
theorem V23_o27 (c : Dev nD) : V23 m outs c main_v114 = V1 m c main_v114 := (V23_of m outs c main_v114 (by decide)).trans (V22_o27 m outs c)
theorem V24_o27 (c : Dev nD) : V24 m outs c main_v114 = V1 m c main_v114 := (V24_of m outs c main_v114 (by decide)).trans (V23_o27 m outs c)
theorem V25_o27 (c : Dev nD) : V25 m outs c main_v114 = V1 m c main_v114 := (V25_of m outs c main_v114 (by decide)).trans (V24_o27 m outs c)
theorem V26_o27 (c : Dev nD) : V26 m outs c main_v114 = V1 m c main_v114 := (V26_of m outs c main_v114 (by decide)).trans (V25_o27 m outs c)
theorem V27_o27 (c : Dev nD) : V27 m outs c main_v114 = V1 m c main_v114 := (V27_of m outs c main_v114 (by decide)).trans (V26_o27 m outs c)
theorem V28_o27 (c : Dev nD) : V28 m outs c main_v114 = V1 m c main_v114 := (V28_of m outs c main_v114 (by decide)).trans (V27_o27 m outs c)
theorem V29_o27 (c : Dev nD) : V29 m outs c main_v114 = V1 m c main_v114 := (V29_of m outs c main_v114 (by decide)).trans (V28_o27 m outs c)
theorem V30_o27 (c : Dev nD) : V30 m outs c main_v114 = V1 m c main_v114 := (V30_of m outs c main_v114 (by decide)).trans (V29_o27 m outs c)
theorem V31_o27 (c : Dev nD) : V31 m outs c main_v114 = V1 m c main_v114 := (V31_of m outs c main_v114 (by decide)).trans (V30_o27 m outs c)
theorem V32_o27 (c : Dev nD) : V32 m outs c main_v114 = V1 m c main_v114 := (V32_of m outs c main_v114 (by decide)).trans (V31_o27 m outs c)
theorem V33_o27 (c : Dev nD) : V33 m outs c main_v114 = V1 m c main_v114 := (V33_of m outs c main_v114 (by decide)).trans (V32_o27 m outs c)
theorem V34_o27 (c : Dev nD) : V34 m outs c main_v114 = V1 m c main_v114 := (V34_of m outs c main_v114 (by decide)).trans (V33_o27 m outs c)
theorem V35_o27 (c : Dev nD) : V35 m outs c main_v114 = V1 m c main_v114 := (V35_of m outs c main_v114 (by decide)).trans (V34_o27 m outs c)
theorem V36_o27 (c : Dev nD) : V36 m outs c main_v114 = V1 m c main_v114 := (V36_of m outs c main_v114 (by decide)).trans (V35_o27 m outs c)
theorem V37_o27 (c : Dev nD) : V37 m outs c main_v114 = V1 m c main_v114 := (V37_of m outs c main_v114 (by decide)).trans (V36_o27 m outs c)
theorem V38_o27 (c : Dev nD) : V38 m outs c main_v114 = V1 m c main_v114 := (V38_of m outs c main_v114 (by decide)).trans (V37_o27 m outs c)
theorem V39_o27 (c : Dev nD) : V39 m outs c main_v114 = V1 m c main_v114 := (V39_of m outs c main_v114 (by decide)).trans (V38_o27 m outs c)
theorem V40_o27 (c : Dev nD) : V40 m outs c main_v114 = V1 m c main_v114 := (V40_of m outs c main_v114 (by decide)).trans (V39_o27 m outs c)
theorem V41_o27 (c : Dev nD) : V41 m outs c main_v114 = V1 m c main_v114 := (V41_of m outs c main_v114 (by decide)).trans (V40_o27 m outs c)
theorem V42_o27 (c : Dev nD) : V42 m outs c main_v114 = V1 m c main_v114 := (V42_of m outs c main_v114 (by decide)).trans (V41_o27 m outs c)
theorem V43_o27 (c : Dev nD) : V43 m outs c main_v114 = V1 m c main_v114 := (V43_of m outs c main_v114 (by decide)).trans (V42_o27 m outs c)
theorem V44_o27 (c : Dev nD) : V44 m outs c main_v114 = V1 m c main_v114 := (V44_of m outs c main_v114 (by decide)).trans (V43_o27 m outs c)
theorem V45_o27 (c : Dev nD) : V45 m outs c main_v114 = V1 m c main_v114 := (V45_of m outs c main_v114 (by decide)).trans (V44_o27 m outs c)
theorem V46_o27 (c : Dev nD) : V46 m outs c main_v114 = V1 m c main_v114 := (V46_of m outs c main_v114 (by decide)).trans (V45_o27 m outs c)
theorem V47_o27 (c : Dev nD) : V47 m outs c main_v114 = V1 m c main_v114 := (V47_of m outs c main_v114 (by decide)).trans (V46_o27 m outs c)
theorem V48_o27 (c : Dev nD) : V48 m outs c main_v114 = V1 m c main_v114 := (V48_of m outs c main_v114 (by decide)).trans (V47_o27 m outs c)
theorem V49_o27 (c : Dev nD) : V49 m outs c main_v114 = V1 m c main_v114 := (V49_of m outs c main_v114 (by decide)).trans (V48_o27 m outs c)
theorem V50_o27 (c : Dev nD) : V50 m outs c main_v114 = V1 m c main_v114 := (V50_of m outs c main_v114 (by decide)).trans (V49_o27 m outs c)
theorem V51_o27 (c : Dev nD) : V51 m outs c main_v114 = V1 m c main_v114 := (V51_of m outs c main_v114 (by decide)).trans (V50_o27 m outs c)
theorem V52_o27 (c : Dev nD) : V52 m outs c main_v114 = V1 m c main_v114 := (V52_of m outs c main_v114 (by decide)).trans (V51_o27 m outs c)
theorem V53_o27 (c : Dev nD) : V53 m outs c main_v114 = V1 m c main_v114 := (V53_of m outs c main_v114 (by decide)).trans (V52_o27 m outs c)
theorem V54_o27 (c : Dev nD) : V54 m outs c main_v114 = V1 m c main_v114 := (V54_of m outs c main_v114 (by decide)).trans (V53_o27 m outs c)
theorem V55_o27 (c : Dev nD) : V55 m outs c main_v114 = V1 m c main_v114 := (V55_of m outs c main_v114 (by decide)).trans (V54_o27 m outs c)
theorem V1_o28 (c : Dev nD) : V1 m c main_v118 = V1 m c main_v118 := rfl
theorem V2_o28 (c : Dev nD) : V2 m outs c main_v118 = V1 m c main_v118 := (V2_of m outs c main_v118 (by decide)).trans (V1_o28 m c)
theorem V3_o28 (c : Dev nD) : V3 m outs c main_v118 = V1 m c main_v118 := (V3_of m outs c main_v118 (by decide)).trans (V2_o28 m outs c)
theorem V4_o28 (c : Dev nD) : V4 m outs c main_v118 = V1 m c main_v118 := (V4_of m outs c main_v118 (by decide)).trans (V3_o28 m outs c)
theorem V5_o28 (c : Dev nD) : V5 m outs c main_v118 = V1 m c main_v118 := (V5_of m outs c main_v118 (by decide)).trans (V4_o28 m outs c)
theorem V6_o28 (c : Dev nD) : V6 m outs c main_v118 = V1 m c main_v118 := (V6_of m outs c main_v118 (by decide)).trans (V5_o28 m outs c)
theorem V7_o28 (c : Dev nD) : V7 m outs c main_v118 = V1 m c main_v118 := (V7_of m outs c main_v118 (by decide)).trans (V6_o28 m outs c)
theorem V8_o28 (c : Dev nD) : V8 m outs c main_v118 = V1 m c main_v118 := (V8_of m outs c main_v118 (by decide)).trans (V7_o28 m outs c)
theorem V9_o28 (c : Dev nD) : V9 m outs c main_v118 = V1 m c main_v118 := (V9_of m outs c main_v118 (by decide)).trans (V8_o28 m outs c)
theorem V10_o28 (c : Dev nD) : V10 m outs c main_v118 = V1 m c main_v118 := (V10_of m outs c main_v118 (by decide)).trans (V9_o28 m outs c)
theorem V11_o28 (c : Dev nD) : V11 m outs c main_v118 = V1 m c main_v118 := (V11_of m outs c main_v118 (by decide)).trans (V10_o28 m outs c)
theorem V12_o28 (c : Dev nD) : V12 m outs c main_v118 = V1 m c main_v118 := (V12_of m outs c main_v118 (by decide)).trans (V11_o28 m outs c)
theorem V13_o28 (c : Dev nD) : V13 m outs c main_v118 = V1 m c main_v118 := (V13_of m outs c main_v118 (by decide)).trans (V12_o28 m outs c)
theorem V14_o28 (c : Dev nD) : V14 m outs c main_v118 = V1 m c main_v118 := (V14_of m outs c main_v118 (by decide)).trans (V13_o28 m outs c)
theorem V15_o28 (c : Dev nD) : V15 m outs c main_v118 = V1 m c main_v118 := (V15_of m outs c main_v118 (by decide)).trans (V14_o28 m outs c)
theorem V16_o28 (c : Dev nD) : V16 m outs c main_v118 = V1 m c main_v118 := (V16_of m outs c main_v118 (by decide)).trans (V15_o28 m outs c)
theorem V17_o28 (c : Dev nD) : V17 m outs c main_v118 = V1 m c main_v118 := (V17_of m outs c main_v118 (by decide)).trans (V16_o28 m outs c)
theorem V18_o28 (c : Dev nD) : V18 m outs c main_v118 = V1 m c main_v118 := (V18_of m outs c main_v118 (by decide)).trans (V17_o28 m outs c)
theorem V19_o28 (c : Dev nD) : V19 m outs c main_v118 = V1 m c main_v118 := (V19_of m outs c main_v118 (by decide)).trans (V18_o28 m outs c)
theorem V20_o28 (c : Dev nD) : V20 m outs c main_v118 = V1 m c main_v118 := (V20_of m outs c main_v118 (by decide)).trans (V19_o28 m outs c)
theorem V21_o28 (c : Dev nD) : V21 m outs c main_v118 = V1 m c main_v118 := (V21_of m outs c main_v118 (by decide)).trans (V20_o28 m outs c)
theorem V22_o28 (c : Dev nD) : V22 m outs c main_v118 = V1 m c main_v118 := (V22_of m outs c main_v118 (by decide)).trans (V21_o28 m outs c)
theorem V23_o28 (c : Dev nD) : V23 m outs c main_v118 = V1 m c main_v118 := (V23_of m outs c main_v118 (by decide)).trans (V22_o28 m outs c)
theorem V24_o28 (c : Dev nD) : V24 m outs c main_v118 = V1 m c main_v118 := (V24_of m outs c main_v118 (by decide)).trans (V23_o28 m outs c)
theorem V25_o28 (c : Dev nD) : V25 m outs c main_v118 = V1 m c main_v118 := (V25_of m outs c main_v118 (by decide)).trans (V24_o28 m outs c)
theorem V26_o28 (c : Dev nD) : V26 m outs c main_v118 = V1 m c main_v118 := (V26_of m outs c main_v118 (by decide)).trans (V25_o28 m outs c)
theorem V27_o28 (c : Dev nD) : V27 m outs c main_v118 = V1 m c main_v118 := (V27_of m outs c main_v118 (by decide)).trans (V26_o28 m outs c)
theorem V28_o28 (c : Dev nD) : V28 m outs c main_v118 = V1 m c main_v118 := (V28_of m outs c main_v118 (by decide)).trans (V27_o28 m outs c)
theorem V29_o28 (c : Dev nD) : V29 m outs c main_v118 = V1 m c main_v118 := (V29_of m outs c main_v118 (by decide)).trans (V28_o28 m outs c)
theorem V30_o28 (c : Dev nD) : V30 m outs c main_v118 = V1 m c main_v118 := (V30_of m outs c main_v118 (by decide)).trans (V29_o28 m outs c)
theorem V31_o28 (c : Dev nD) : V31 m outs c main_v118 = V1 m c main_v118 := (V31_of m outs c main_v118 (by decide)).trans (V30_o28 m outs c)
theorem V32_o28 (c : Dev nD) : V32 m outs c main_v118 = V1 m c main_v118 := (V32_of m outs c main_v118 (by decide)).trans (V31_o28 m outs c)
theorem V33_o28 (c : Dev nD) : V33 m outs c main_v118 = V1 m c main_v118 := (V33_of m outs c main_v118 (by decide)).trans (V32_o28 m outs c)
theorem V34_o28 (c : Dev nD) : V34 m outs c main_v118 = V1 m c main_v118 := (V34_of m outs c main_v118 (by decide)).trans (V33_o28 m outs c)
theorem V35_o28 (c : Dev nD) : V35 m outs c main_v118 = V1 m c main_v118 := (V35_of m outs c main_v118 (by decide)).trans (V34_o28 m outs c)
theorem V36_o28 (c : Dev nD) : V36 m outs c main_v118 = V1 m c main_v118 := (V36_of m outs c main_v118 (by decide)).trans (V35_o28 m outs c)
theorem V37_o28 (c : Dev nD) : V37 m outs c main_v118 = V1 m c main_v118 := (V37_of m outs c main_v118 (by decide)).trans (V36_o28 m outs c)
theorem V38_o28 (c : Dev nD) : V38 m outs c main_v118 = V1 m c main_v118 := (V38_of m outs c main_v118 (by decide)).trans (V37_o28 m outs c)
theorem V39_o28 (c : Dev nD) : V39 m outs c main_v118 = V1 m c main_v118 := (V39_of m outs c main_v118 (by decide)).trans (V38_o28 m outs c)
theorem V40_o28 (c : Dev nD) : V40 m outs c main_v118 = V1 m c main_v118 := (V40_of m outs c main_v118 (by decide)).trans (V39_o28 m outs c)
theorem V41_o28 (c : Dev nD) : V41 m outs c main_v118 = V1 m c main_v118 := (V41_of m outs c main_v118 (by decide)).trans (V40_o28 m outs c)
theorem V42_o28 (c : Dev nD) : V42 m outs c main_v118 = V1 m c main_v118 := (V42_of m outs c main_v118 (by decide)).trans (V41_o28 m outs c)
theorem V43_o28 (c : Dev nD) : V43 m outs c main_v118 = V1 m c main_v118 := (V43_of m outs c main_v118 (by decide)).trans (V42_o28 m outs c)
theorem V44_o28 (c : Dev nD) : V44 m outs c main_v118 = V1 m c main_v118 := (V44_of m outs c main_v118 (by decide)).trans (V43_o28 m outs c)
theorem V45_o28 (c : Dev nD) : V45 m outs c main_v118 = V1 m c main_v118 := (V45_of m outs c main_v118 (by decide)).trans (V44_o28 m outs c)
theorem V46_o28 (c : Dev nD) : V46 m outs c main_v118 = V1 m c main_v118 := (V46_of m outs c main_v118 (by decide)).trans (V45_o28 m outs c)
theorem V47_o28 (c : Dev nD) : V47 m outs c main_v118 = V1 m c main_v118 := (V47_of m outs c main_v118 (by decide)).trans (V46_o28 m outs c)
theorem V48_o28 (c : Dev nD) : V48 m outs c main_v118 = V1 m c main_v118 := (V48_of m outs c main_v118 (by decide)).trans (V47_o28 m outs c)
theorem V49_o28 (c : Dev nD) : V49 m outs c main_v118 = V1 m c main_v118 := (V49_of m outs c main_v118 (by decide)).trans (V48_o28 m outs c)
theorem V50_o28 (c : Dev nD) : V50 m outs c main_v118 = V1 m c main_v118 := (V50_of m outs c main_v118 (by decide)).trans (V49_o28 m outs c)
theorem V51_o28 (c : Dev nD) : V51 m outs c main_v118 = V1 m c main_v118 := (V51_of m outs c main_v118 (by decide)).trans (V50_o28 m outs c)
theorem V52_o28 (c : Dev nD) : V52 m outs c main_v118 = V1 m c main_v118 := (V52_of m outs c main_v118 (by decide)).trans (V51_o28 m outs c)
theorem V53_o28 (c : Dev nD) : V53 m outs c main_v118 = V1 m c main_v118 := (V53_of m outs c main_v118 (by decide)).trans (V52_o28 m outs c)
theorem V54_o28 (c : Dev nD) : V54 m outs c main_v118 = V1 m c main_v118 := (V54_of m outs c main_v118 (by decide)).trans (V53_o28 m outs c)
theorem V55_o28 (c : Dev nD) : V55 m outs c main_v118 = V1 m c main_v118 := (V55_of m outs c main_v118 (by decide)).trans (V54_o28 m outs c)
theorem V56_o28 (c : Dev nD) : V56 m outs c main_v118 = V1 m c main_v118 := (V56_of m outs c main_v118 (by decide)).trans (V55_o28 m outs c)
theorem V57_o28 (c : Dev nD) : V57 m outs c main_v118 = V1 m c main_v118 := (V57_of m outs c main_v118 (by decide)).trans (V56_o28 m outs c)
theorem V1_o29 (c : Dev nD) : V1 m c main_v122 = V1 m c main_v122 := rfl
theorem V2_o29 (c : Dev nD) : V2 m outs c main_v122 = V1 m c main_v122 := (V2_of m outs c main_v122 (by decide)).trans (V1_o29 m c)
theorem V3_o29 (c : Dev nD) : V3 m outs c main_v122 = V1 m c main_v122 := (V3_of m outs c main_v122 (by decide)).trans (V2_o29 m outs c)
theorem V4_o29 (c : Dev nD) : V4 m outs c main_v122 = V1 m c main_v122 := (V4_of m outs c main_v122 (by decide)).trans (V3_o29 m outs c)
theorem V5_o29 (c : Dev nD) : V5 m outs c main_v122 = V1 m c main_v122 := (V5_of m outs c main_v122 (by decide)).trans (V4_o29 m outs c)
theorem V6_o29 (c : Dev nD) : V6 m outs c main_v122 = V1 m c main_v122 := (V6_of m outs c main_v122 (by decide)).trans (V5_o29 m outs c)
theorem V7_o29 (c : Dev nD) : V7 m outs c main_v122 = V1 m c main_v122 := (V7_of m outs c main_v122 (by decide)).trans (V6_o29 m outs c)
theorem V8_o29 (c : Dev nD) : V8 m outs c main_v122 = V1 m c main_v122 := (V8_of m outs c main_v122 (by decide)).trans (V7_o29 m outs c)
theorem V9_o29 (c : Dev nD) : V9 m outs c main_v122 = V1 m c main_v122 := (V9_of m outs c main_v122 (by decide)).trans (V8_o29 m outs c)
theorem V10_o29 (c : Dev nD) : V10 m outs c main_v122 = V1 m c main_v122 := (V10_of m outs c main_v122 (by decide)).trans (V9_o29 m outs c)
theorem V11_o29 (c : Dev nD) : V11 m outs c main_v122 = V1 m c main_v122 := (V11_of m outs c main_v122 (by decide)).trans (V10_o29 m outs c)
theorem V12_o29 (c : Dev nD) : V12 m outs c main_v122 = V1 m c main_v122 := (V12_of m outs c main_v122 (by decide)).trans (V11_o29 m outs c)
theorem V13_o29 (c : Dev nD) : V13 m outs c main_v122 = V1 m c main_v122 := (V13_of m outs c main_v122 (by decide)).trans (V12_o29 m outs c)
theorem V14_o29 (c : Dev nD) : V14 m outs c main_v122 = V1 m c main_v122 := (V14_of m outs c main_v122 (by decide)).trans (V13_o29 m outs c)
theorem V15_o29 (c : Dev nD) : V15 m outs c main_v122 = V1 m c main_v122 := (V15_of m outs c main_v122 (by decide)).trans (V14_o29 m outs c)
theorem V16_o29 (c : Dev nD) : V16 m outs c main_v122 = V1 m c main_v122 := (V16_of m outs c main_v122 (by decide)).trans (V15_o29 m outs c)
theorem V17_o29 (c : Dev nD) : V17 m outs c main_v122 = V1 m c main_v122 := (V17_of m outs c main_v122 (by decide)).trans (V16_o29 m outs c)
theorem V18_o29 (c : Dev nD) : V18 m outs c main_v122 = V1 m c main_v122 := (V18_of m outs c main_v122 (by decide)).trans (V17_o29 m outs c)
theorem V19_o29 (c : Dev nD) : V19 m outs c main_v122 = V1 m c main_v122 := (V19_of m outs c main_v122 (by decide)).trans (V18_o29 m outs c)
theorem V20_o29 (c : Dev nD) : V20 m outs c main_v122 = V1 m c main_v122 := (V20_of m outs c main_v122 (by decide)).trans (V19_o29 m outs c)
theorem V21_o29 (c : Dev nD) : V21 m outs c main_v122 = V1 m c main_v122 := (V21_of m outs c main_v122 (by decide)).trans (V20_o29 m outs c)
theorem V22_o29 (c : Dev nD) : V22 m outs c main_v122 = V1 m c main_v122 := (V22_of m outs c main_v122 (by decide)).trans (V21_o29 m outs c)
theorem V23_o29 (c : Dev nD) : V23 m outs c main_v122 = V1 m c main_v122 := (V23_of m outs c main_v122 (by decide)).trans (V22_o29 m outs c)
theorem V24_o29 (c : Dev nD) : V24 m outs c main_v122 = V1 m c main_v122 := (V24_of m outs c main_v122 (by decide)).trans (V23_o29 m outs c)
theorem V25_o29 (c : Dev nD) : V25 m outs c main_v122 = V1 m c main_v122 := (V25_of m outs c main_v122 (by decide)).trans (V24_o29 m outs c)
theorem V26_o29 (c : Dev nD) : V26 m outs c main_v122 = V1 m c main_v122 := (V26_of m outs c main_v122 (by decide)).trans (V25_o29 m outs c)
theorem V27_o29 (c : Dev nD) : V27 m outs c main_v122 = V1 m c main_v122 := (V27_of m outs c main_v122 (by decide)).trans (V26_o29 m outs c)
theorem V28_o29 (c : Dev nD) : V28 m outs c main_v122 = V1 m c main_v122 := (V28_of m outs c main_v122 (by decide)).trans (V27_o29 m outs c)
theorem V29_o29 (c : Dev nD) : V29 m outs c main_v122 = V1 m c main_v122 := (V29_of m outs c main_v122 (by decide)).trans (V28_o29 m outs c)
theorem V30_o29 (c : Dev nD) : V30 m outs c main_v122 = V1 m c main_v122 := (V30_of m outs c main_v122 (by decide)).trans (V29_o29 m outs c)
theorem V31_o29 (c : Dev nD) : V31 m outs c main_v122 = V1 m c main_v122 := (V31_of m outs c main_v122 (by decide)).trans (V30_o29 m outs c)
theorem V32_o29 (c : Dev nD) : V32 m outs c main_v122 = V1 m c main_v122 := (V32_of m outs c main_v122 (by decide)).trans (V31_o29 m outs c)
theorem V33_o29 (c : Dev nD) : V33 m outs c main_v122 = V1 m c main_v122 := (V33_of m outs c main_v122 (by decide)).trans (V32_o29 m outs c)
theorem V34_o29 (c : Dev nD) : V34 m outs c main_v122 = V1 m c main_v122 := (V34_of m outs c main_v122 (by decide)).trans (V33_o29 m outs c)
theorem V35_o29 (c : Dev nD) : V35 m outs c main_v122 = V1 m c main_v122 := (V35_of m outs c main_v122 (by decide)).trans (V34_o29 m outs c)
theorem V36_o29 (c : Dev nD) : V36 m outs c main_v122 = V1 m c main_v122 := (V36_of m outs c main_v122 (by decide)).trans (V35_o29 m outs c)
theorem V37_o29 (c : Dev nD) : V37 m outs c main_v122 = V1 m c main_v122 := (V37_of m outs c main_v122 (by decide)).trans (V36_o29 m outs c)
theorem V38_o29 (c : Dev nD) : V38 m outs c main_v122 = V1 m c main_v122 := (V38_of m outs c main_v122 (by decide)).trans (V37_o29 m outs c)
theorem V39_o29 (c : Dev nD) : V39 m outs c main_v122 = V1 m c main_v122 := (V39_of m outs c main_v122 (by decide)).trans (V38_o29 m outs c)
theorem V40_o29 (c : Dev nD) : V40 m outs c main_v122 = V1 m c main_v122 := (V40_of m outs c main_v122 (by decide)).trans (V39_o29 m outs c)
theorem V41_o29 (c : Dev nD) : V41 m outs c main_v122 = V1 m c main_v122 := (V41_of m outs c main_v122 (by decide)).trans (V40_o29 m outs c)
theorem V42_o29 (c : Dev nD) : V42 m outs c main_v122 = V1 m c main_v122 := (V42_of m outs c main_v122 (by decide)).trans (V41_o29 m outs c)
theorem V43_o29 (c : Dev nD) : V43 m outs c main_v122 = V1 m c main_v122 := (V43_of m outs c main_v122 (by decide)).trans (V42_o29 m outs c)
theorem V44_o29 (c : Dev nD) : V44 m outs c main_v122 = V1 m c main_v122 := (V44_of m outs c main_v122 (by decide)).trans (V43_o29 m outs c)
theorem V45_o29 (c : Dev nD) : V45 m outs c main_v122 = V1 m c main_v122 := (V45_of m outs c main_v122 (by decide)).trans (V44_o29 m outs c)
theorem V46_o29 (c : Dev nD) : V46 m outs c main_v122 = V1 m c main_v122 := (V46_of m outs c main_v122 (by decide)).trans (V45_o29 m outs c)
theorem V47_o29 (c : Dev nD) : V47 m outs c main_v122 = V1 m c main_v122 := (V47_of m outs c main_v122 (by decide)).trans (V46_o29 m outs c)
theorem V48_o29 (c : Dev nD) : V48 m outs c main_v122 = V1 m c main_v122 := (V48_of m outs c main_v122 (by decide)).trans (V47_o29 m outs c)
theorem V49_o29 (c : Dev nD) : V49 m outs c main_v122 = V1 m c main_v122 := (V49_of m outs c main_v122 (by decide)).trans (V48_o29 m outs c)
theorem V50_o29 (c : Dev nD) : V50 m outs c main_v122 = V1 m c main_v122 := (V50_of m outs c main_v122 (by decide)).trans (V49_o29 m outs c)
theorem V51_o29 (c : Dev nD) : V51 m outs c main_v122 = V1 m c main_v122 := (V51_of m outs c main_v122 (by decide)).trans (V50_o29 m outs c)
theorem V52_o29 (c : Dev nD) : V52 m outs c main_v122 = V1 m c main_v122 := (V52_of m outs c main_v122 (by decide)).trans (V51_o29 m outs c)
theorem V53_o29 (c : Dev nD) : V53 m outs c main_v122 = V1 m c main_v122 := (V53_of m outs c main_v122 (by decide)).trans (V52_o29 m outs c)
theorem V54_o29 (c : Dev nD) : V54 m outs c main_v122 = V1 m c main_v122 := (V54_of m outs c main_v122 (by decide)).trans (V53_o29 m outs c)
theorem V55_o29 (c : Dev nD) : V55 m outs c main_v122 = V1 m c main_v122 := (V55_of m outs c main_v122 (by decide)).trans (V54_o29 m outs c)
theorem V56_o29 (c : Dev nD) : V56 m outs c main_v122 = V1 m c main_v122 := (V56_of m outs c main_v122 (by decide)).trans (V55_o29 m outs c)
theorem V57_o29 (c : Dev nD) : V57 m outs c main_v122 = V1 m c main_v122 := (V57_of m outs c main_v122 (by decide)).trans (V56_o29 m outs c)
theorem V58_o29 (c : Dev nD) : V58 m outs c main_v122 = V1 m c main_v122 := (V58_of m outs c main_v122 (by decide)).trans (V57_o29 m outs c)
theorem V59_o29 (c : Dev nD) : V59 m outs c main_v122 = V1 m c main_v122 := (V59_of m outs c main_v122 (by decide)).trans (V58_o29 m outs c)
theorem V1_o30 (c : Dev nD) : V1 m c main_v126 = V1 m c main_v126 := rfl
theorem V2_o30 (c : Dev nD) : V2 m outs c main_v126 = V1 m c main_v126 := (V2_of m outs c main_v126 (by decide)).trans (V1_o30 m c)
theorem V3_o30 (c : Dev nD) : V3 m outs c main_v126 = V1 m c main_v126 := (V3_of m outs c main_v126 (by decide)).trans (V2_o30 m outs c)
theorem V4_o30 (c : Dev nD) : V4 m outs c main_v126 = V1 m c main_v126 := (V4_of m outs c main_v126 (by decide)).trans (V3_o30 m outs c)
theorem V5_o30 (c : Dev nD) : V5 m outs c main_v126 = V1 m c main_v126 := (V5_of m outs c main_v126 (by decide)).trans (V4_o30 m outs c)
theorem V6_o30 (c : Dev nD) : V6 m outs c main_v126 = V1 m c main_v126 := (V6_of m outs c main_v126 (by decide)).trans (V5_o30 m outs c)
theorem V7_o30 (c : Dev nD) : V7 m outs c main_v126 = V1 m c main_v126 := (V7_of m outs c main_v126 (by decide)).trans (V6_o30 m outs c)
theorem V8_o30 (c : Dev nD) : V8 m outs c main_v126 = V1 m c main_v126 := (V8_of m outs c main_v126 (by decide)).trans (V7_o30 m outs c)
theorem V9_o30 (c : Dev nD) : V9 m outs c main_v126 = V1 m c main_v126 := (V9_of m outs c main_v126 (by decide)).trans (V8_o30 m outs c)
theorem V10_o30 (c : Dev nD) : V10 m outs c main_v126 = V1 m c main_v126 := (V10_of m outs c main_v126 (by decide)).trans (V9_o30 m outs c)
theorem V11_o30 (c : Dev nD) : V11 m outs c main_v126 = V1 m c main_v126 := (V11_of m outs c main_v126 (by decide)).trans (V10_o30 m outs c)
theorem V12_o30 (c : Dev nD) : V12 m outs c main_v126 = V1 m c main_v126 := (V12_of m outs c main_v126 (by decide)).trans (V11_o30 m outs c)
theorem V13_o30 (c : Dev nD) : V13 m outs c main_v126 = V1 m c main_v126 := (V13_of m outs c main_v126 (by decide)).trans (V12_o30 m outs c)
theorem V14_o30 (c : Dev nD) : V14 m outs c main_v126 = V1 m c main_v126 := (V14_of m outs c main_v126 (by decide)).trans (V13_o30 m outs c)
theorem V15_o30 (c : Dev nD) : V15 m outs c main_v126 = V1 m c main_v126 := (V15_of m outs c main_v126 (by decide)).trans (V14_o30 m outs c)
theorem V16_o30 (c : Dev nD) : V16 m outs c main_v126 = V1 m c main_v126 := (V16_of m outs c main_v126 (by decide)).trans (V15_o30 m outs c)
theorem V17_o30 (c : Dev nD) : V17 m outs c main_v126 = V1 m c main_v126 := (V17_of m outs c main_v126 (by decide)).trans (V16_o30 m outs c)
theorem V18_o30 (c : Dev nD) : V18 m outs c main_v126 = V1 m c main_v126 := (V18_of m outs c main_v126 (by decide)).trans (V17_o30 m outs c)
theorem V19_o30 (c : Dev nD) : V19 m outs c main_v126 = V1 m c main_v126 := (V19_of m outs c main_v126 (by decide)).trans (V18_o30 m outs c)
theorem V20_o30 (c : Dev nD) : V20 m outs c main_v126 = V1 m c main_v126 := (V20_of m outs c main_v126 (by decide)).trans (V19_o30 m outs c)
theorem V21_o30 (c : Dev nD) : V21 m outs c main_v126 = V1 m c main_v126 := (V21_of m outs c main_v126 (by decide)).trans (V20_o30 m outs c)
theorem V22_o30 (c : Dev nD) : V22 m outs c main_v126 = V1 m c main_v126 := (V22_of m outs c main_v126 (by decide)).trans (V21_o30 m outs c)
theorem V23_o30 (c : Dev nD) : V23 m outs c main_v126 = V1 m c main_v126 := (V23_of m outs c main_v126 (by decide)).trans (V22_o30 m outs c)
theorem V24_o30 (c : Dev nD) : V24 m outs c main_v126 = V1 m c main_v126 := (V24_of m outs c main_v126 (by decide)).trans (V23_o30 m outs c)
theorem V25_o30 (c : Dev nD) : V25 m outs c main_v126 = V1 m c main_v126 := (V25_of m outs c main_v126 (by decide)).trans (V24_o30 m outs c)
theorem V26_o30 (c : Dev nD) : V26 m outs c main_v126 = V1 m c main_v126 := (V26_of m outs c main_v126 (by decide)).trans (V25_o30 m outs c)
theorem V27_o30 (c : Dev nD) : V27 m outs c main_v126 = V1 m c main_v126 := (V27_of m outs c main_v126 (by decide)).trans (V26_o30 m outs c)
theorem V28_o30 (c : Dev nD) : V28 m outs c main_v126 = V1 m c main_v126 := (V28_of m outs c main_v126 (by decide)).trans (V27_o30 m outs c)
theorem V29_o30 (c : Dev nD) : V29 m outs c main_v126 = V1 m c main_v126 := (V29_of m outs c main_v126 (by decide)).trans (V28_o30 m outs c)
theorem V30_o30 (c : Dev nD) : V30 m outs c main_v126 = V1 m c main_v126 := (V30_of m outs c main_v126 (by decide)).trans (V29_o30 m outs c)
theorem V31_o30 (c : Dev nD) : V31 m outs c main_v126 = V1 m c main_v126 := (V31_of m outs c main_v126 (by decide)).trans (V30_o30 m outs c)
theorem V32_o30 (c : Dev nD) : V32 m outs c main_v126 = V1 m c main_v126 := (V32_of m outs c main_v126 (by decide)).trans (V31_o30 m outs c)
theorem V33_o30 (c : Dev nD) : V33 m outs c main_v126 = V1 m c main_v126 := (V33_of m outs c main_v126 (by decide)).trans (V32_o30 m outs c)
theorem V34_o30 (c : Dev nD) : V34 m outs c main_v126 = V1 m c main_v126 := (V34_of m outs c main_v126 (by decide)).trans (V33_o30 m outs c)
theorem V35_o30 (c : Dev nD) : V35 m outs c main_v126 = V1 m c main_v126 := (V35_of m outs c main_v126 (by decide)).trans (V34_o30 m outs c)
theorem V36_o30 (c : Dev nD) : V36 m outs c main_v126 = V1 m c main_v126 := (V36_of m outs c main_v126 (by decide)).trans (V35_o30 m outs c)
theorem V37_o30 (c : Dev nD) : V37 m outs c main_v126 = V1 m c main_v126 := (V37_of m outs c main_v126 (by decide)).trans (V36_o30 m outs c)
theorem V38_o30 (c : Dev nD) : V38 m outs c main_v126 = V1 m c main_v126 := (V38_of m outs c main_v126 (by decide)).trans (V37_o30 m outs c)
theorem V39_o30 (c : Dev nD) : V39 m outs c main_v126 = V1 m c main_v126 := (V39_of m outs c main_v126 (by decide)).trans (V38_o30 m outs c)
theorem V40_o30 (c : Dev nD) : V40 m outs c main_v126 = V1 m c main_v126 := (V40_of m outs c main_v126 (by decide)).trans (V39_o30 m outs c)
theorem V41_o30 (c : Dev nD) : V41 m outs c main_v126 = V1 m c main_v126 := (V41_of m outs c main_v126 (by decide)).trans (V40_o30 m outs c)
theorem V42_o30 (c : Dev nD) : V42 m outs c main_v126 = V1 m c main_v126 := (V42_of m outs c main_v126 (by decide)).trans (V41_o30 m outs c)
theorem V43_o30 (c : Dev nD) : V43 m outs c main_v126 = V1 m c main_v126 := (V43_of m outs c main_v126 (by decide)).trans (V42_o30 m outs c)
theorem V44_o30 (c : Dev nD) : V44 m outs c main_v126 = V1 m c main_v126 := (V44_of m outs c main_v126 (by decide)).trans (V43_o30 m outs c)
theorem V45_o30 (c : Dev nD) : V45 m outs c main_v126 = V1 m c main_v126 := (V45_of m outs c main_v126 (by decide)).trans (V44_o30 m outs c)
theorem V46_o30 (c : Dev nD) : V46 m outs c main_v126 = V1 m c main_v126 := (V46_of m outs c main_v126 (by decide)).trans (V45_o30 m outs c)
theorem V47_o30 (c : Dev nD) : V47 m outs c main_v126 = V1 m c main_v126 := (V47_of m outs c main_v126 (by decide)).trans (V46_o30 m outs c)
theorem V48_o30 (c : Dev nD) : V48 m outs c main_v126 = V1 m c main_v126 := (V48_of m outs c main_v126 (by decide)).trans (V47_o30 m outs c)
theorem V49_o30 (c : Dev nD) : V49 m outs c main_v126 = V1 m c main_v126 := (V49_of m outs c main_v126 (by decide)).trans (V48_o30 m outs c)
theorem V50_o30 (c : Dev nD) : V50 m outs c main_v126 = V1 m c main_v126 := (V50_of m outs c main_v126 (by decide)).trans (V49_o30 m outs c)
theorem V51_o30 (c : Dev nD) : V51 m outs c main_v126 = V1 m c main_v126 := (V51_of m outs c main_v126 (by decide)).trans (V50_o30 m outs c)
theorem V52_o30 (c : Dev nD) : V52 m outs c main_v126 = V1 m c main_v126 := (V52_of m outs c main_v126 (by decide)).trans (V51_o30 m outs c)
theorem V53_o30 (c : Dev nD) : V53 m outs c main_v126 = V1 m c main_v126 := (V53_of m outs c main_v126 (by decide)).trans (V52_o30 m outs c)
theorem V54_o30 (c : Dev nD) : V54 m outs c main_v126 = V1 m c main_v126 := (V54_of m outs c main_v126 (by decide)).trans (V53_o30 m outs c)
theorem V55_o30 (c : Dev nD) : V55 m outs c main_v126 = V1 m c main_v126 := (V55_of m outs c main_v126 (by decide)).trans (V54_o30 m outs c)
theorem V56_o30 (c : Dev nD) : V56 m outs c main_v126 = V1 m c main_v126 := (V56_of m outs c main_v126 (by decide)).trans (V55_o30 m outs c)
theorem V57_o30 (c : Dev nD) : V57 m outs c main_v126 = V1 m c main_v126 := (V57_of m outs c main_v126 (by decide)).trans (V56_o30 m outs c)
theorem V58_o30 (c : Dev nD) : V58 m outs c main_v126 = V1 m c main_v126 := (V58_of m outs c main_v126 (by decide)).trans (V57_o30 m outs c)
theorem V59_o30 (c : Dev nD) : V59 m outs c main_v126 = V1 m c main_v126 := (V59_of m outs c main_v126 (by decide)).trans (V58_o30 m outs c)
theorem V60_o30 (c : Dev nD) : V60 m outs c main_v126 = V1 m c main_v126 := (V60_of m outs c main_v126 (by decide)).trans (V59_o30 m outs c)
theorem V61_o30 (c : Dev nD) : V61 m outs c main_v126 = V1 m c main_v126 := (V61_of m outs c main_v126 (by decide)).trans (V60_o30 m outs c)
theorem V1_o31 (c : Dev nD) : V1 m c main_v130 = V1 m c main_v130 := rfl
theorem V2_o31 (c : Dev nD) : V2 m outs c main_v130 = V1 m c main_v130 := (V2_of m outs c main_v130 (by decide)).trans (V1_o31 m c)
theorem V3_o31 (c : Dev nD) : V3 m outs c main_v130 = V1 m c main_v130 := (V3_of m outs c main_v130 (by decide)).trans (V2_o31 m outs c)
theorem V4_o31 (c : Dev nD) : V4 m outs c main_v130 = V1 m c main_v130 := (V4_of m outs c main_v130 (by decide)).trans (V3_o31 m outs c)
theorem V5_o31 (c : Dev nD) : V5 m outs c main_v130 = V1 m c main_v130 := (V5_of m outs c main_v130 (by decide)).trans (V4_o31 m outs c)
theorem V6_o31 (c : Dev nD) : V6 m outs c main_v130 = V1 m c main_v130 := (V6_of m outs c main_v130 (by decide)).trans (V5_o31 m outs c)
theorem V7_o31 (c : Dev nD) : V7 m outs c main_v130 = V1 m c main_v130 := (V7_of m outs c main_v130 (by decide)).trans (V6_o31 m outs c)
theorem V8_o31 (c : Dev nD) : V8 m outs c main_v130 = V1 m c main_v130 := (V8_of m outs c main_v130 (by decide)).trans (V7_o31 m outs c)
theorem V9_o31 (c : Dev nD) : V9 m outs c main_v130 = V1 m c main_v130 := (V9_of m outs c main_v130 (by decide)).trans (V8_o31 m outs c)
theorem V10_o31 (c : Dev nD) : V10 m outs c main_v130 = V1 m c main_v130 := (V10_of m outs c main_v130 (by decide)).trans (V9_o31 m outs c)
theorem V11_o31 (c : Dev nD) : V11 m outs c main_v130 = V1 m c main_v130 := (V11_of m outs c main_v130 (by decide)).trans (V10_o31 m outs c)
theorem V12_o31 (c : Dev nD) : V12 m outs c main_v130 = V1 m c main_v130 := (V12_of m outs c main_v130 (by decide)).trans (V11_o31 m outs c)
theorem V13_o31 (c : Dev nD) : V13 m outs c main_v130 = V1 m c main_v130 := (V13_of m outs c main_v130 (by decide)).trans (V12_o31 m outs c)
theorem V14_o31 (c : Dev nD) : V14 m outs c main_v130 = V1 m c main_v130 := (V14_of m outs c main_v130 (by decide)).trans (V13_o31 m outs c)
theorem V15_o31 (c : Dev nD) : V15 m outs c main_v130 = V1 m c main_v130 := (V15_of m outs c main_v130 (by decide)).trans (V14_o31 m outs c)
theorem V16_o31 (c : Dev nD) : V16 m outs c main_v130 = V1 m c main_v130 := (V16_of m outs c main_v130 (by decide)).trans (V15_o31 m outs c)
theorem V17_o31 (c : Dev nD) : V17 m outs c main_v130 = V1 m c main_v130 := (V17_of m outs c main_v130 (by decide)).trans (V16_o31 m outs c)
theorem V18_o31 (c : Dev nD) : V18 m outs c main_v130 = V1 m c main_v130 := (V18_of m outs c main_v130 (by decide)).trans (V17_o31 m outs c)
theorem V19_o31 (c : Dev nD) : V19 m outs c main_v130 = V1 m c main_v130 := (V19_of m outs c main_v130 (by decide)).trans (V18_o31 m outs c)
theorem V20_o31 (c : Dev nD) : V20 m outs c main_v130 = V1 m c main_v130 := (V20_of m outs c main_v130 (by decide)).trans (V19_o31 m outs c)
theorem V21_o31 (c : Dev nD) : V21 m outs c main_v130 = V1 m c main_v130 := (V21_of m outs c main_v130 (by decide)).trans (V20_o31 m outs c)
theorem V22_o31 (c : Dev nD) : V22 m outs c main_v130 = V1 m c main_v130 := (V22_of m outs c main_v130 (by decide)).trans (V21_o31 m outs c)
theorem V23_o31 (c : Dev nD) : V23 m outs c main_v130 = V1 m c main_v130 := (V23_of m outs c main_v130 (by decide)).trans (V22_o31 m outs c)
theorem V24_o31 (c : Dev nD) : V24 m outs c main_v130 = V1 m c main_v130 := (V24_of m outs c main_v130 (by decide)).trans (V23_o31 m outs c)
theorem V25_o31 (c : Dev nD) : V25 m outs c main_v130 = V1 m c main_v130 := (V25_of m outs c main_v130 (by decide)).trans (V24_o31 m outs c)
theorem V26_o31 (c : Dev nD) : V26 m outs c main_v130 = V1 m c main_v130 := (V26_of m outs c main_v130 (by decide)).trans (V25_o31 m outs c)
theorem V27_o31 (c : Dev nD) : V27 m outs c main_v130 = V1 m c main_v130 := (V27_of m outs c main_v130 (by decide)).trans (V26_o31 m outs c)
theorem V28_o31 (c : Dev nD) : V28 m outs c main_v130 = V1 m c main_v130 := (V28_of m outs c main_v130 (by decide)).trans (V27_o31 m outs c)
theorem V29_o31 (c : Dev nD) : V29 m outs c main_v130 = V1 m c main_v130 := (V29_of m outs c main_v130 (by decide)).trans (V28_o31 m outs c)
theorem V30_o31 (c : Dev nD) : V30 m outs c main_v130 = V1 m c main_v130 := (V30_of m outs c main_v130 (by decide)).trans (V29_o31 m outs c)
theorem V31_o31 (c : Dev nD) : V31 m outs c main_v130 = V1 m c main_v130 := (V31_of m outs c main_v130 (by decide)).trans (V30_o31 m outs c)
theorem V32_o31 (c : Dev nD) : V32 m outs c main_v130 = V1 m c main_v130 := (V32_of m outs c main_v130 (by decide)).trans (V31_o31 m outs c)
theorem V33_o31 (c : Dev nD) : V33 m outs c main_v130 = V1 m c main_v130 := (V33_of m outs c main_v130 (by decide)).trans (V32_o31 m outs c)
theorem V34_o31 (c : Dev nD) : V34 m outs c main_v130 = V1 m c main_v130 := (V34_of m outs c main_v130 (by decide)).trans (V33_o31 m outs c)
theorem V35_o31 (c : Dev nD) : V35 m outs c main_v130 = V1 m c main_v130 := (V35_of m outs c main_v130 (by decide)).trans (V34_o31 m outs c)
theorem V36_o31 (c : Dev nD) : V36 m outs c main_v130 = V1 m c main_v130 := (V36_of m outs c main_v130 (by decide)).trans (V35_o31 m outs c)
theorem V37_o31 (c : Dev nD) : V37 m outs c main_v130 = V1 m c main_v130 := (V37_of m outs c main_v130 (by decide)).trans (V36_o31 m outs c)
theorem V38_o31 (c : Dev nD) : V38 m outs c main_v130 = V1 m c main_v130 := (V38_of m outs c main_v130 (by decide)).trans (V37_o31 m outs c)
theorem V39_o31 (c : Dev nD) : V39 m outs c main_v130 = V1 m c main_v130 := (V39_of m outs c main_v130 (by decide)).trans (V38_o31 m outs c)
theorem V40_o31 (c : Dev nD) : V40 m outs c main_v130 = V1 m c main_v130 := (V40_of m outs c main_v130 (by decide)).trans (V39_o31 m outs c)
theorem V41_o31 (c : Dev nD) : V41 m outs c main_v130 = V1 m c main_v130 := (V41_of m outs c main_v130 (by decide)).trans (V40_o31 m outs c)
theorem V42_o31 (c : Dev nD) : V42 m outs c main_v130 = V1 m c main_v130 := (V42_of m outs c main_v130 (by decide)).trans (V41_o31 m outs c)
theorem V43_o31 (c : Dev nD) : V43 m outs c main_v130 = V1 m c main_v130 := (V43_of m outs c main_v130 (by decide)).trans (V42_o31 m outs c)
theorem V44_o31 (c : Dev nD) : V44 m outs c main_v130 = V1 m c main_v130 := (V44_of m outs c main_v130 (by decide)).trans (V43_o31 m outs c)
theorem V45_o31 (c : Dev nD) : V45 m outs c main_v130 = V1 m c main_v130 := (V45_of m outs c main_v130 (by decide)).trans (V44_o31 m outs c)
theorem V46_o31 (c : Dev nD) : V46 m outs c main_v130 = V1 m c main_v130 := (V46_of m outs c main_v130 (by decide)).trans (V45_o31 m outs c)
theorem V47_o31 (c : Dev nD) : V47 m outs c main_v130 = V1 m c main_v130 := (V47_of m outs c main_v130 (by decide)).trans (V46_o31 m outs c)
theorem V48_o31 (c : Dev nD) : V48 m outs c main_v130 = V1 m c main_v130 := (V48_of m outs c main_v130 (by decide)).trans (V47_o31 m outs c)
theorem V49_o31 (c : Dev nD) : V49 m outs c main_v130 = V1 m c main_v130 := (V49_of m outs c main_v130 (by decide)).trans (V48_o31 m outs c)
theorem V50_o31 (c : Dev nD) : V50 m outs c main_v130 = V1 m c main_v130 := (V50_of m outs c main_v130 (by decide)).trans (V49_o31 m outs c)
theorem V51_o31 (c : Dev nD) : V51 m outs c main_v130 = V1 m c main_v130 := (V51_of m outs c main_v130 (by decide)).trans (V50_o31 m outs c)
theorem V52_o31 (c : Dev nD) : V52 m outs c main_v130 = V1 m c main_v130 := (V52_of m outs c main_v130 (by decide)).trans (V51_o31 m outs c)
theorem V53_o31 (c : Dev nD) : V53 m outs c main_v130 = V1 m c main_v130 := (V53_of m outs c main_v130 (by decide)).trans (V52_o31 m outs c)
theorem V54_o31 (c : Dev nD) : V54 m outs c main_v130 = V1 m c main_v130 := (V54_of m outs c main_v130 (by decide)).trans (V53_o31 m outs c)
theorem V55_o31 (c : Dev nD) : V55 m outs c main_v130 = V1 m c main_v130 := (V55_of m outs c main_v130 (by decide)).trans (V54_o31 m outs c)
theorem V56_o31 (c : Dev nD) : V56 m outs c main_v130 = V1 m c main_v130 := (V56_of m outs c main_v130 (by decide)).trans (V55_o31 m outs c)
theorem V57_o31 (c : Dev nD) : V57 m outs c main_v130 = V1 m c main_v130 := (V57_of m outs c main_v130 (by decide)).trans (V56_o31 m outs c)
theorem V58_o31 (c : Dev nD) : V58 m outs c main_v130 = V1 m c main_v130 := (V58_of m outs c main_v130 (by decide)).trans (V57_o31 m outs c)
theorem V59_o31 (c : Dev nD) : V59 m outs c main_v130 = V1 m c main_v130 := (V59_of m outs c main_v130 (by decide)).trans (V58_o31 m outs c)
theorem V60_o31 (c : Dev nD) : V60 m outs c main_v130 = V1 m c main_v130 := (V60_of m outs c main_v130 (by decide)).trans (V59_o31 m outs c)
theorem V61_o31 (c : Dev nD) : V61 m outs c main_v130 = V1 m c main_v130 := (V61_of m outs c main_v130 (by decide)).trans (V60_o31 m outs c)
theorem V62_o31 (c : Dev nD) : V62 m outs c main_v130 = V1 m c main_v130 := (V62_of m outs c main_v130 (by decide)).trans (V61_o31 m outs c)
theorem V63_o31 (c : Dev nD) : V63 m outs c main_v130 = V1 m c main_v130 := (V63_of m outs c main_v130 (by decide)).trans (V62_o31 m outs c)

/-! ## The prefetched tables: host stretch k slices the index input and flattens the slice; read off the launch memory -/
def tbl0 : pre0.Contents (Elt F) := fun j => StableHlo.after hostOps0 (V0 m (0 : Dev nD)) (pre0.ref j)
def tbl1 : pre1.Contents (Elt F) := fun j => StableHlo.after hostOps1 (V0 m (0 : Dev nD)) (pre1.ref j)
def tbl2 : pre2.Contents (Elt F) := fun j => StableHlo.after hostOps2 (V0 m (0 : Dev nD)) (pre2.ref j)
def tbl3 : pre3.Contents (Elt F) := fun j => StableHlo.after hostOps3 (V0 m (0 : Dev nD)) (pre3.ref j)
def tbl4 : pre4.Contents (Elt F) := fun j => StableHlo.after hostOps4 (V0 m (0 : Dev nD)) (pre4.ref j)
def tbl5 : pre5.Contents (Elt F) := fun j => StableHlo.after hostOps5 (V0 m (0 : Dev nD)) (pre5.ref j)
def tbl6 : pre6.Contents (Elt F) := fun j => StableHlo.after hostOps6 (V0 m (0 : Dev nD)) (pre6.ref j)
def tbl7 : pre7.Contents (Elt F) := fun j => StableHlo.after hostOps7 (V0 m (0 : Dev nD)) (pre7.ref j)
def tbl8 : pre8.Contents (Elt F) := fun j => StableHlo.after hostOps8 (V0 m (0 : Dev nD)) (pre8.ref j)
def tbl9 : pre9.Contents (Elt F) := fun j => StableHlo.after hostOps9 (V0 m (0 : Dev nD)) (pre9.ref j)
def tbl10 : pre10.Contents (Elt F) := fun j => StableHlo.after hostOps10 (V0 m (0 : Dev nD)) (pre10.ref j)
def tbl11 : pre11.Contents (Elt F) := fun j => StableHlo.after hostOps11 (V0 m (0 : Dev nD)) (pre11.ref j)
def tbl12 : pre12.Contents (Elt F) := fun j => StableHlo.after hostOps12 (V0 m (0 : Dev nD)) (pre12.ref j)
def tbl13 : pre13.Contents (Elt F) := fun j => StableHlo.after hostOps13 (V0 m (0 : Dev nD)) (pre13.ref j)
def tbl14 : pre14.Contents (Elt F) := fun j => StableHlo.after hostOps14 (V0 m (0 : Dev nD)) (pre14.ref j)
def tbl15 : pre15.Contents (Elt F) := fun j => StableHlo.after hostOps15 (V0 m (0 : Dev nD)) (pre15.ref j)
def tbl16 : pre16.Contents (Elt F) := fun j => StableHlo.after hostOps16 (V0 m (0 : Dev nD)) (pre16.ref j)
def tbl17 : pre17.Contents (Elt F) := fun j => StableHlo.after hostOps17 (V0 m (0 : Dev nD)) (pre17.ref j)
def tbl18 : pre18.Contents (Elt F) := fun j => StableHlo.after hostOps18 (V0 m (0 : Dev nD)) (pre18.ref j)
def tbl19 : pre19.Contents (Elt F) := fun j => StableHlo.after hostOps19 (V0 m (0 : Dev nD)) (pre19.ref j)
def tbl20 : pre20.Contents (Elt F) := fun j => StableHlo.after hostOps20 (V0 m (0 : Dev nD)) (pre20.ref j)
def tbl21 : pre21.Contents (Elt F) := fun j => StableHlo.after hostOps21 (V0 m (0 : Dev nD)) (pre21.ref j)
def tbl22 : pre22.Contents (Elt F) := fun j => StableHlo.after hostOps22 (V0 m (0 : Dev nD)) (pre22.ref j)
def tbl23 : pre23.Contents (Elt F) := fun j => StableHlo.after hostOps23 (V0 m (0 : Dev nD)) (pre23.ref j)
def tbl24 : pre24.Contents (Elt F) := fun j => StableHlo.after hostOps24 (V0 m (0 : Dev nD)) (pre24.ref j)
def tbl25 : pre25.Contents (Elt F) := fun j => StableHlo.after hostOps25 (V0 m (0 : Dev nD)) (pre25.ref j)
def tbl26 : pre26.Contents (Elt F) := fun j => StableHlo.after hostOps26 (V0 m (0 : Dev nD)) (pre26.ref j)
def tbl27 : pre27.Contents (Elt F) := fun j => StableHlo.after hostOps27 (V0 m (0 : Dev nD)) (pre27.ref j)
def tbl28 : pre28.Contents (Elt F) := fun j => StableHlo.after hostOps28 (V0 m (0 : Dev nD)) (pre28.ref j)
def tbl29 : pre29.Contents (Elt F) := fun j => StableHlo.after hostOps29 (V0 m (0 : Dev nD)) (pre29.ref j)
def tbl30 : pre30.Contents (Elt F) := fun j => StableHlo.after hostOps30 (V0 m (0 : Dev nD)) (pre30.ref j)
def tbl31 : pre31.Contents (Elt F) := fun j => StableHlo.after hostOps31 (V0 m (0 : Dev nD)) (pre31.ref j)

/-- At the entry of region 0 its table buffer holds the table read off the launch memory, whatever the earlier regions left. -/
theorem Vin0_tbl (c : Dev nD) (j : Fin pre0.K) : V1 m c (pre0.ref j) = tbl0 m j := by
  obtain rfl : c = 0 := Subsingleton.elim _ _
  obtain rfl : j = 0 := Subsingleton.elim _ _
  rfl
/-- At the entry of region 1 its table buffer holds the table read off the launch memory, whatever the earlier regions left. -/
theorem Vin1_tbl (c : Dev nD) (j : Fin pre1.K) : V3 m outs c (pre1.ref j) = tbl1 m j := by
  obtain rfl : c = 0 := Subsingleton.elim _ _
  obtain rfl : j = 0 := Subsingleton.elim _ _
  show StableHlo.after hostOps1 (V2 m outs (0 : Dev nD)) (Proc.devRef .tc main_v9) = StableHlo.after hostOps1 (V0 m (0 : Dev nD)) (Proc.devRef .tc main_v9)
  after_results
  rw [show V2 m outs (0 : Dev nD) (Proc.devRef .tc main_arg1) = V0 m (0 : Dev nD) (Proc.devRef .tc main_arg1) from V2_arg1 m outs 0]
/-- At the entry of region 2 its table buffer holds the table read off the launch memory, whatever the earlier regions left. -/
theorem Vin2_tbl (c : Dev nD) (j : Fin pre2.K) : V5 m outs c (pre2.ref j) = tbl2 m j := by
  obtain rfl : c = 0 := Subsingleton.elim _ _
  obtain rfl : j = 0 := Subsingleton.elim _ _
  show StableHlo.after hostOps2 (V4 m outs (0 : Dev nD)) (Proc.devRef .tc main_v13) = StableHlo.after hostOps2 (V0 m (0 : Dev nD)) (Proc.devRef .tc main_v13)
  after_results
  rw [show V4 m outs (0 : Dev nD) (Proc.devRef .tc main_arg1) = V0 m (0 : Dev nD) (Proc.devRef .tc main_arg1) from V4_arg1 m outs 0]
/-- At the entry of region 3 its table buffer holds the table read off the launch memory, whatever the earlier regions left. -/
theorem Vin3_tbl (c : Dev nD) (j : Fin pre3.K) : V7 m outs c (pre3.ref j) = tbl3 m j := by
  obtain rfl : c = 0 := Subsingleton.elim _ _
  obtain rfl : j = 0 := Subsingleton.elim _ _
  show StableHlo.after hostOps3 (V6 m outs (0 : Dev nD)) (Proc.devRef .tc main_v17) = StableHlo.after hostOps3 (V0 m (0 : Dev nD)) (Proc.devRef .tc main_v17)
  after_results
  rw [show V6 m outs (0 : Dev nD) (Proc.devRef .tc main_arg1) = V0 m (0 : Dev nD) (Proc.devRef .tc main_arg1) from V6_arg1 m outs 0]
/-- At the entry of region 4 its table buffer holds the table read off the launch memory, whatever the earlier regions left. -/
theorem Vin4_tbl (c : Dev nD) (j : Fin pre4.K) : V9 m outs c (pre4.ref j) = tbl4 m j := by
  obtain rfl : c = 0 := Subsingleton.elim _ _
  obtain rfl : j = 0 := Subsingleton.elim _ _
  show StableHlo.after hostOps4 (V8 m outs (0 : Dev nD)) (Proc.devRef .tc main_v21) = StableHlo.after hostOps4 (V0 m (0 : Dev nD)) (Proc.devRef .tc main_v21)
  after_results
  rw [show V8 m outs (0 : Dev nD) (Proc.devRef .tc main_arg1) = V0 m (0 : Dev nD) (Proc.devRef .tc main_arg1) from V8_arg1 m outs 0]
/-- At the entry of region 5 its table buffer holds the table read off the launch memory, whatever the earlier regions left. -/
theorem Vin5_tbl (c : Dev nD) (j : Fin pre5.K) : V11 m outs c (pre5.ref j) = tbl5 m j := by
  obtain rfl : c = 0 := Subsingleton.elim _ _
  obtain rfl : j = 0 := Subsingleton.elim _ _
  show StableHlo.after hostOps5 (V10 m outs (0 : Dev nD)) (Proc.devRef .tc main_v25) = StableHlo.after hostOps5 (V0 m (0 : Dev nD)) (Proc.devRef .tc main_v25)
  after_results
  rw [show V10 m outs (0 : Dev nD) (Proc.devRef .tc main_arg1) = V0 m (0 : Dev nD) (Proc.devRef .tc main_arg1) from V10_arg1 m outs 0]
/-- At the entry of region 6 its table buffer holds the table read off the launch memory, whatever the earlier regions left. -/
theorem Vin6_tbl (c : Dev nD) (j : Fin pre6.K) : V13 m outs c (pre6.ref j) = tbl6 m j := by
  obtain rfl : c = 0 := Subsingleton.elim _ _
  obtain rfl : j = 0 := Subsingleton.elim _ _
  show StableHlo.after hostOps6 (V12 m outs (0 : Dev nD)) (Proc.devRef .tc main_v29) = StableHlo.after hostOps6 (V0 m (0 : Dev nD)) (Proc.devRef .tc main_v29)
  after_results
  rw [show V12 m outs (0 : Dev nD) (Proc.devRef .tc main_arg1) = V0 m (0 : Dev nD) (Proc.devRef .tc main_arg1) from V12_arg1 m outs 0]
/-- At the entry of region 7 its table buffer holds the table read off the launch memory, whatever the earlier regions left. -/
theorem Vin7_tbl (c : Dev nD) (j : Fin pre7.K) : V15 m outs c (pre7.ref j) = tbl7 m j := by
  obtain rfl : c = 0 := Subsingleton.elim _ _
  obtain rfl : j = 0 := Subsingleton.elim _ _
  show StableHlo.after hostOps7 (V14 m outs (0 : Dev nD)) (Proc.devRef .tc main_v33) = StableHlo.after hostOps7 (V0 m (0 : Dev nD)) (Proc.devRef .tc main_v33)
  after_results
  rw [show V14 m outs (0 : Dev nD) (Proc.devRef .tc main_arg1) = V0 m (0 : Dev nD) (Proc.devRef .tc main_arg1) from V14_arg1 m outs 0]
/-- At the entry of region 8 its table buffer holds the table read off the launch memory, whatever the earlier regions left. -/
theorem Vin8_tbl (c : Dev nD) (j : Fin pre8.K) : V17 m outs c (pre8.ref j) = tbl8 m j := by
  obtain rfl : c = 0 := Subsingleton.elim _ _
  obtain rfl : j = 0 := Subsingleton.elim _ _
  show StableHlo.after hostOps8 (V16 m outs (0 : Dev nD)) (Proc.devRef .tc main_v37) = StableHlo.after hostOps8 (V0 m (0 : Dev nD)) (Proc.devRef .tc main_v37)
  after_results
  rw [show V16 m outs (0 : Dev nD) (Proc.devRef .tc main_arg1) = V0 m (0 : Dev nD) (Proc.devRef .tc main_arg1) from V16_arg1 m outs 0]
/-- At the entry of region 9 its table buffer holds the table read off the launch memory, whatever the earlier regions left. -/
theorem Vin9_tbl (c : Dev nD) (j : Fin pre9.K) : V19 m outs c (pre9.ref j) = tbl9 m j := by
  obtain rfl : c = 0 := Subsingleton.elim _ _
  obtain rfl : j = 0 := Subsingleton.elim _ _
  show StableHlo.after hostOps9 (V18 m outs (0 : Dev nD)) (Proc.devRef .tc main_v41) = StableHlo.after hostOps9 (V0 m (0 : Dev nD)) (Proc.devRef .tc main_v41)
  after_results
  rw [show V18 m outs (0 : Dev nD) (Proc.devRef .tc main_arg1) = V0 m (0 : Dev nD) (Proc.devRef .tc main_arg1) from V18_arg1 m outs 0]
/-- At the entry of region 10 its table buffer holds the table read off the launch memory, whatever the earlier regions left. -/
theorem Vin10_tbl (c : Dev nD) (j : Fin pre10.K) : V21 m outs c (pre10.ref j) = tbl10 m j := by
  obtain rfl : c = 0 := Subsingleton.elim _ _
  obtain rfl : j = 0 := Subsingleton.elim _ _
  show StableHlo.after hostOps10 (V20 m outs (0 : Dev nD)) (Proc.devRef .tc main_v45) = StableHlo.after hostOps10 (V0 m (0 : Dev nD)) (Proc.devRef .tc main_v45)
  after_results
  rw [show V20 m outs (0 : Dev nD) (Proc.devRef .tc main_arg1) = V0 m (0 : Dev nD) (Proc.devRef .tc main_arg1) from V20_arg1 m outs 0]
/-- At the entry of region 11 its table buffer holds the table read off the launch memory, whatever the earlier regions left. -/
theorem Vin11_tbl (c : Dev nD) (j : Fin pre11.K) : V23 m outs c (pre11.ref j) = tbl11 m j := by
  obtain rfl : c = 0 := Subsingleton.elim _ _
  obtain rfl : j = 0 := Subsingleton.elim _ _
  show StableHlo.after hostOps11 (V22 m outs (0 : Dev nD)) (Proc.devRef .tc main_v49) = StableHlo.after hostOps11 (V0 m (0 : Dev nD)) (Proc.devRef .tc main_v49)
  after_results
  rw [show V22 m outs (0 : Dev nD) (Proc.devRef .tc main_arg1) = V0 m (0 : Dev nD) (Proc.devRef .tc main_arg1) from V22_arg1 m outs 0]
/-- At the entry of region 12 its table buffer holds the table read off the launch memory, whatever the earlier regions left. -/
theorem Vin12_tbl (c : Dev nD) (j : Fin pre12.K) : V25 m outs c (pre12.ref j) = tbl12 m j := by
  obtain rfl : c = 0 := Subsingleton.elim _ _
  obtain rfl : j = 0 := Subsingleton.elim _ _
  show StableHlo.after hostOps12 (V24 m outs (0 : Dev nD)) (Proc.devRef .tc main_v53) = StableHlo.after hostOps12 (V0 m (0 : Dev nD)) (Proc.devRef .tc main_v53)
  after_results
  rw [show V24 m outs (0 : Dev nD) (Proc.devRef .tc main_arg1) = V0 m (0 : Dev nD) (Proc.devRef .tc main_arg1) from V24_arg1 m outs 0]
/-- At the entry of region 13 its table buffer holds the table read off the launch memory, whatever the earlier regions left. -/
theorem Vin13_tbl (c : Dev nD) (j : Fin pre13.K) : V27 m outs c (pre13.ref j) = tbl13 m j := by
  obtain rfl : c = 0 := Subsingleton.elim _ _
  obtain rfl : j = 0 := Subsingleton.elim _ _
  show StableHlo.after hostOps13 (V26 m outs (0 : Dev nD)) (Proc.devRef .tc main_v57) = StableHlo.after hostOps13 (V0 m (0 : Dev nD)) (Proc.devRef .tc main_v57)
  after_results
  rw [show V26 m outs (0 : Dev nD) (Proc.devRef .tc main_arg1) = V0 m (0 : Dev nD) (Proc.devRef .tc main_arg1) from V26_arg1 m outs 0]
/-- At the entry of region 14 its table buffer holds the table read off the launch memory, whatever the earlier regions left. -/
theorem Vin14_tbl (c : Dev nD) (j : Fin pre14.K) : V29 m outs c (pre14.ref j) = tbl14 m j := by
  obtain rfl : c = 0 := Subsingleton.elim _ _
  obtain rfl : j = 0 := Subsingleton.elim _ _
  show StableHlo.after hostOps14 (V28 m outs (0 : Dev nD)) (Proc.devRef .tc main_v61) = StableHlo.after hostOps14 (V0 m (0 : Dev nD)) (Proc.devRef .tc main_v61)
  after_results
  rw [show V28 m outs (0 : Dev nD) (Proc.devRef .tc main_arg1) = V0 m (0 : Dev nD) (Proc.devRef .tc main_arg1) from V28_arg1 m outs 0]
/-- At the entry of region 15 its table buffer holds the table read off the launch memory, whatever the earlier regions left. -/
theorem Vin15_tbl (c : Dev nD) (j : Fin pre15.K) : V31 m outs c (pre15.ref j) = tbl15 m j := by
  obtain rfl : c = 0 := Subsingleton.elim _ _
  obtain rfl : j = 0 := Subsingleton.elim _ _
  show StableHlo.after hostOps15 (V30 m outs (0 : Dev nD)) (Proc.devRef .tc main_v65) = StableHlo.after hostOps15 (V0 m (0 : Dev nD)) (Proc.devRef .tc main_v65)
  after_results
  rw [show V30 m outs (0 : Dev nD) (Proc.devRef .tc main_arg1) = V0 m (0 : Dev nD) (Proc.devRef .tc main_arg1) from V30_arg1 m outs 0]
/-- At the entry of region 16 its table buffer holds the table read off the launch memory, whatever the earlier regions left. -/
theorem Vin16_tbl (c : Dev nD) (j : Fin pre16.K) : V33 m outs c (pre16.ref j) = tbl16 m j := by
  obtain rfl : c = 0 := Subsingleton.elim _ _
  obtain rfl : j = 0 := Subsingleton.elim _ _
  show StableHlo.after hostOps16 (V32 m outs (0 : Dev nD)) (Proc.devRef .tc main_v69) = StableHlo.after hostOps16 (V0 m (0 : Dev nD)) (Proc.devRef .tc main_v69)
  after_results
  rw [show V32 m outs (0 : Dev nD) (Proc.devRef .tc main_arg1) = V0 m (0 : Dev nD) (Proc.devRef .tc main_arg1) from V32_arg1 m outs 0]
/-- At the entry of region 17 its table buffer holds the table read off the launch memory, whatever the earlier regions left. -/
theorem Vin17_tbl (c : Dev nD) (j : Fin pre17.K) : V35 m outs c (pre17.ref j) = tbl17 m j := by
  obtain rfl : c = 0 := Subsingleton.elim _ _
  obtain rfl : j = 0 := Subsingleton.elim _ _
  show StableHlo.after hostOps17 (V34 m outs (0 : Dev nD)) (Proc.devRef .tc main_v73) = StableHlo.after hostOps17 (V0 m (0 : Dev nD)) (Proc.devRef .tc main_v73)
  after_results
  rw [show V34 m outs (0 : Dev nD) (Proc.devRef .tc main_arg1) = V0 m (0 : Dev nD) (Proc.devRef .tc main_arg1) from V34_arg1 m outs 0]
/-- At the entry of region 18 its table buffer holds the table read off the launch memory, whatever the earlier regions left. -/
theorem Vin18_tbl (c : Dev nD) (j : Fin pre18.K) : V37 m outs c (pre18.ref j) = tbl18 m j := by
  obtain rfl : c = 0 := Subsingleton.elim _ _
  obtain rfl : j = 0 := Subsingleton.elim _ _
  show StableHlo.after hostOps18 (V36 m outs (0 : Dev nD)) (Proc.devRef .tc main_v77) = StableHlo.after hostOps18 (V0 m (0 : Dev nD)) (Proc.devRef .tc main_v77)
  after_results
  rw [show V36 m outs (0 : Dev nD) (Proc.devRef .tc main_arg1) = V0 m (0 : Dev nD) (Proc.devRef .tc main_arg1) from V36_arg1 m outs 0]
/-- At the entry of region 19 its table buffer holds the table read off the launch memory, whatever the earlier regions left. -/
theorem Vin19_tbl (c : Dev nD) (j : Fin pre19.K) : V39 m outs c (pre19.ref j) = tbl19 m j := by
  obtain rfl : c = 0 := Subsingleton.elim _ _
  obtain rfl : j = 0 := Subsingleton.elim _ _
  show StableHlo.after hostOps19 (V38 m outs (0 : Dev nD)) (Proc.devRef .tc main_v81) = StableHlo.after hostOps19 (V0 m (0 : Dev nD)) (Proc.devRef .tc main_v81)
  after_results
  rw [show V38 m outs (0 : Dev nD) (Proc.devRef .tc main_arg1) = V0 m (0 : Dev nD) (Proc.devRef .tc main_arg1) from V38_arg1 m outs 0]
/-- At the entry of region 20 its table buffer holds the table read off the launch memory, whatever the earlier regions left. -/
theorem Vin20_tbl (c : Dev nD) (j : Fin pre20.K) : V41 m outs c (pre20.ref j) = tbl20 m j := by
  obtain rfl : c = 0 := Subsingleton.elim _ _
  obtain rfl : j = 0 := Subsingleton.elim _ _
  show StableHlo.after hostOps20 (V40 m outs (0 : Dev nD)) (Proc.devRef .tc main_v85) = StableHlo.after hostOps20 (V0 m (0 : Dev nD)) (Proc.devRef .tc main_v85)
  after_results
  rw [show V40 m outs (0 : Dev nD) (Proc.devRef .tc main_arg1) = V0 m (0 : Dev nD) (Proc.devRef .tc main_arg1) from V40_arg1 m outs 0]
/-- At the entry of region 21 its table buffer holds the table read off the launch memory, whatever the earlier regions left. -/
theorem Vin21_tbl (c : Dev nD) (j : Fin pre21.K) : V43 m outs c (pre21.ref j) = tbl21 m j := by
  obtain rfl : c = 0 := Subsingleton.elim _ _
  obtain rfl : j = 0 := Subsingleton.elim _ _
  show StableHlo.after hostOps21 (V42 m outs (0 : Dev nD)) (Proc.devRef .tc main_v89) = StableHlo.after hostOps21 (V0 m (0 : Dev nD)) (Proc.devRef .tc main_v89)
  after_results
  rw [show V42 m outs (0 : Dev nD) (Proc.devRef .tc main_arg1) = V0 m (0 : Dev nD) (Proc.devRef .tc main_arg1) from V42_arg1 m outs 0]
/-- At the entry of region 22 its table buffer holds the table read off the launch memory, whatever the earlier regions left. -/
theorem Vin22_tbl (c : Dev nD) (j : Fin pre22.K) : V45 m outs c (pre22.ref j) = tbl22 m j := by
  obtain rfl : c = 0 := Subsingleton.elim _ _
  obtain rfl : j = 0 := Subsingleton.elim _ _
  show StableHlo.after hostOps22 (V44 m outs (0 : Dev nD)) (Proc.devRef .tc main_v93) = StableHlo.after hostOps22 (V0 m (0 : Dev nD)) (Proc.devRef .tc main_v93)
  after_results
  rw [show V44 m outs (0 : Dev nD) (Proc.devRef .tc main_arg1) = V0 m (0 : Dev nD) (Proc.devRef .tc main_arg1) from V44_arg1 m outs 0]
/-- At the entry of region 23 its table buffer holds the table read off the launch memory, whatever the earlier regions left. -/
theorem Vin23_tbl (c : Dev nD) (j : Fin pre23.K) : V47 m outs c (pre23.ref j) = tbl23 m j := by
  obtain rfl : c = 0 := Subsingleton.elim _ _
  obtain rfl : j = 0 := Subsingleton.elim _ _
  show StableHlo.after hostOps23 (V46 m outs (0 : Dev nD)) (Proc.devRef .tc main_v97) = StableHlo.after hostOps23 (V0 m (0 : Dev nD)) (Proc.devRef .tc main_v97)
  after_results
  rw [show V46 m outs (0 : Dev nD) (Proc.devRef .tc main_arg1) = V0 m (0 : Dev nD) (Proc.devRef .tc main_arg1) from V46_arg1 m outs 0]
/-- At the entry of region 24 its table buffer holds the table read off the launch memory, whatever the earlier regions left. -/
theorem Vin24_tbl (c : Dev nD) (j : Fin pre24.K) : V49 m outs c (pre24.ref j) = tbl24 m j := by
  obtain rfl : c = 0 := Subsingleton.elim _ _
  obtain rfl : j = 0 := Subsingleton.elim _ _
  show StableHlo.after hostOps24 (V48 m outs (0 : Dev nD)) (Proc.devRef .tc main_v101) = StableHlo.after hostOps24 (V0 m (0 : Dev nD)) (Proc.devRef .tc main_v101)
  after_results
  rw [show V48 m outs (0 : Dev nD) (Proc.devRef .tc main_arg1) = V0 m (0 : Dev nD) (Proc.devRef .tc main_arg1) from V48_arg1 m outs 0]
/-- At the entry of region 25 its table buffer holds the table read off the launch memory, whatever the earlier regions left. -/
theorem Vin25_tbl (c : Dev nD) (j : Fin pre25.K) : V51 m outs c (pre25.ref j) = tbl25 m j := by
  obtain rfl : c = 0 := Subsingleton.elim _ _
  obtain rfl : j = 0 := Subsingleton.elim _ _
  show StableHlo.after hostOps25 (V50 m outs (0 : Dev nD)) (Proc.devRef .tc main_v105) = StableHlo.after hostOps25 (V0 m (0 : Dev nD)) (Proc.devRef .tc main_v105)
  after_results
  rw [show V50 m outs (0 : Dev nD) (Proc.devRef .tc main_arg1) = V0 m (0 : Dev nD) (Proc.devRef .tc main_arg1) from V50_arg1 m outs 0]
/-- At the entry of region 26 its table buffer holds the table read off the launch memory, whatever the earlier regions left. -/
theorem Vin26_tbl (c : Dev nD) (j : Fin pre26.K) : V53 m outs c (pre26.ref j) = tbl26 m j := by
  obtain rfl : c = 0 := Subsingleton.elim _ _
  obtain rfl : j = 0 := Subsingleton.elim _ _
  show StableHlo.after hostOps26 (V52 m outs (0 : Dev nD)) (Proc.devRef .tc main_v109) = StableHlo.after hostOps26 (V0 m (0 : Dev nD)) (Proc.devRef .tc main_v109)
  after_results
  rw [show V52 m outs (0 : Dev nD) (Proc.devRef .tc main_arg1) = V0 m (0 : Dev nD) (Proc.devRef .tc main_arg1) from V52_arg1 m outs 0]
/-- At the entry of region 27 its table buffer holds the table read off the launch memory, whatever the earlier regions left. -/
theorem Vin27_tbl (c : Dev nD) (j : Fin pre27.K) : V55 m outs c (pre27.ref j) = tbl27 m j := by
  obtain rfl : c = 0 := Subsingleton.elim _ _
  obtain rfl : j = 0 := Subsingleton.elim _ _
  show StableHlo.after hostOps27 (V54 m outs (0 : Dev nD)) (Proc.devRef .tc main_v113) = StableHlo.after hostOps27 (V0 m (0 : Dev nD)) (Proc.devRef .tc main_v113)
  after_results
  rw [show V54 m outs (0 : Dev nD) (Proc.devRef .tc main_arg1) = V0 m (0 : Dev nD) (Proc.devRef .tc main_arg1) from V54_arg1 m outs 0]
/-- At the entry of region 28 its table buffer holds the table read off the launch memory, whatever the earlier regions left. -/
theorem Vin28_tbl (c : Dev nD) (j : Fin pre28.K) : V57 m outs c (pre28.ref j) = tbl28 m j := by
  obtain rfl : c = 0 := Subsingleton.elim _ _
  obtain rfl : j = 0 := Subsingleton.elim _ _
  show StableHlo.after hostOps28 (V56 m outs (0 : Dev nD)) (Proc.devRef .tc main_v117) = StableHlo.after hostOps28 (V0 m (0 : Dev nD)) (Proc.devRef .tc main_v117)
  after_results
  rw [show V56 m outs (0 : Dev nD) (Proc.devRef .tc main_arg1) = V0 m (0 : Dev nD) (Proc.devRef .tc main_arg1) from V56_arg1 m outs 0]
/-- At the entry of region 29 its table buffer holds the table read off the launch memory, whatever the earlier regions left. -/
theorem Vin29_tbl (c : Dev nD) (j : Fin pre29.K) : V59 m outs c (pre29.ref j) = tbl29 m j := by
  obtain rfl : c = 0 := Subsingleton.elim _ _
  obtain rfl : j = 0 := Subsingleton.elim _ _
  show StableHlo.after hostOps29 (V58 m outs (0 : Dev nD)) (Proc.devRef .tc main_v121) = StableHlo.after hostOps29 (V0 m (0 : Dev nD)) (Proc.devRef .tc main_v121)
  after_results
  rw [show V58 m outs (0 : Dev nD) (Proc.devRef .tc main_arg1) = V0 m (0 : Dev nD) (Proc.devRef .tc main_arg1) from V58_arg1 m outs 0]
/-- At the entry of region 30 its table buffer holds the table read off the launch memory, whatever the earlier regions left. -/
theorem Vin30_tbl (c : Dev nD) (j : Fin pre30.K) : V61 m outs c (pre30.ref j) = tbl30 m j := by
  obtain rfl : c = 0 := Subsingleton.elim _ _
  obtain rfl : j = 0 := Subsingleton.elim _ _
  show StableHlo.after hostOps30 (V60 m outs (0 : Dev nD)) (Proc.devRef .tc main_v125) = StableHlo.after hostOps30 (V0 m (0 : Dev nD)) (Proc.devRef .tc main_v125)
  after_results
  rw [show V60 m outs (0 : Dev nD) (Proc.devRef .tc main_arg1) = V0 m (0 : Dev nD) (Proc.devRef .tc main_arg1) from V60_arg1 m outs 0]
/-- At the entry of region 31 its table buffer holds the table read off the launch memory, whatever the earlier regions left. -/
theorem Vin31_tbl (c : Dev nD) (j : Fin pre31.K) : V63 m outs c (pre31.ref j) = tbl31 m j := by
  obtain rfl : c = 0 := Subsingleton.elim _ _
  obtain rfl : j = 0 := Subsingleton.elim _ _
  show StableHlo.after hostOps31 (V62 m outs (0 : Dev nD)) (Proc.devRef .tc main_v129) = StableHlo.after hostOps31 (V0 m (0 : Dev nD)) (Proc.devRef .tc main_v129)
  after_results
  rw [show V62 m outs (0 : Dev nD) (Proc.devRef .tc main_arg1) = V0 m (0 : Dev nD) (Proc.devRef .tc main_arg1) from V62_arg1 m outs 0]

/-! ## Each region: the buffers it is entered from and left at, as the conditional frame names them -/

abbrev Vin0 (m : (ℓ : Loc nD τ sig) → Buf (Elt F) ℓ) (outs : Outs (F := F)) (c : Dev nD) : Valuation τ sig (Elt F) := V1 m c
abbrev Vout0 (m : (ℓ : Loc nD τ sig) → Buf (Elt F) ℓ) (outs : Outs (F := F)) (c : Dev nD) : Valuation τ sig (Elt F) := V2 m outs c
theorem Vin0_v3 (m : (ℓ : Loc nD τ sig) → Buf (Elt F) ℓ) (outs : Outs (F := F)) (c : Dev nD) : Vin0 m outs c main_v3 = V1 m c main_v3 := V1_v3 m c
theorem Vin0_out (m : (ℓ : Loc nD τ sig) → Buf (Elt F) ℓ) (outs : Outs (F := F)) (c : Dev nD) : Vin0 m outs c main_v6 = V1 m c main_v6 := V1_o0 m c
theorem Vout0_v3 (m : (ℓ : Loc nD τ sig) → Buf (Elt F) ℓ) (outs : Outs (F := F)) (c : Dev nD) : Vout0 m outs c main_v3 = V1 m c main_v3 := V2_v3 m outs c
theorem Vout0_out (m : (ℓ : Loc nD τ sig) → Buf (Elt F) ℓ) (outs : Outs (F := F)) (c : Dev nD) : Vout0 m outs c main_v6 = outs 2 main_v6 c := Function.update_self _ _ _
theorem Vout0_of (m : (ℓ : Loc nD τ sig) → Buf (Elt F) ℓ) (outs : Outs (F := F)) (c : Dev nD) (r : Ref sig .tc) (hr : r ∉ ([main_v6] : List (Ref sig .tc))) : Vout0 m outs c r = Vin0 m outs c r := V2_of m outs c r hr
theorem Vin0_tbl' (m : (ℓ : Loc nD τ sig) → Buf (Elt F) ℓ) (outs : Outs (F := F)) (c : Dev nD) (j : Fin pre0.K) : Vin0 m outs c (pre0.ref j) = tbl0 m j := Vin0_tbl m c j
abbrev Vin1 (m : (ℓ : Loc nD τ sig) → Buf (Elt F) ℓ) (outs : Outs (F := F)) (c : Dev nD) : Valuation τ sig (Elt F) := V3 m outs c
abbrev Vout1 (m : (ℓ : Loc nD τ sig) → Buf (Elt F) ℓ) (outs : Outs (F := F)) (c : Dev nD) : Valuation τ sig (Elt F) := V4 m outs c
theorem Vin1_v3 (m : (ℓ : Loc nD τ sig) → Buf (Elt F) ℓ) (outs : Outs (F := F)) (c : Dev nD) : Vin1 m outs c main_v3 = V1 m c main_v3 := V3_v3 m outs c
theorem Vin1_out (m : (ℓ : Loc nD τ sig) → Buf (Elt F) ℓ) (outs : Outs (F := F)) (c : Dev nD) : Vin1 m outs c main_v10 = V1 m c main_v10 := V3_o1 m outs c
theorem Vout1_v3 (m : (ℓ : Loc nD τ sig) → Buf (Elt F) ℓ) (outs : Outs (F := F)) (c : Dev nD) : Vout1 m outs c main_v3 = V1 m c main_v3 := V4_v3 m outs c
theorem Vout1_out (m : (ℓ : Loc nD τ sig) → Buf (Elt F) ℓ) (outs : Outs (F := F)) (c : Dev nD) : Vout1 m outs c main_v10 = outs 4 main_v10 c := Function.update_self _ _ _
theorem Vout1_of (m : (ℓ : Loc nD τ sig) → Buf (Elt F) ℓ) (outs : Outs (F := F)) (c : Dev nD) (r : Ref sig .tc) (hr : r ∉ ([main_v10] : List (Ref sig .tc))) : Vout1 m outs c r = Vin1 m outs c r := V4_of m outs c r hr
theorem Vin1_tbl' (m : (ℓ : Loc nD τ sig) → Buf (Elt F) ℓ) (outs : Outs (F := F)) (c : Dev nD) (j : Fin pre1.K) : Vin1 m outs c (pre1.ref j) = tbl1 m j := Vin1_tbl m outs c j
abbrev Vin2 (m : (ℓ : Loc nD τ sig) → Buf (Elt F) ℓ) (outs : Outs (F := F)) (c : Dev nD) : Valuation τ sig (Elt F) := V5 m outs c
abbrev Vout2 (m : (ℓ : Loc nD τ sig) → Buf (Elt F) ℓ) (outs : Outs (F := F)) (c : Dev nD) : Valuation τ sig (Elt F) := V6 m outs c
theorem Vin2_v3 (m : (ℓ : Loc nD τ sig) → Buf (Elt F) ℓ) (outs : Outs (F := F)) (c : Dev nD) : Vin2 m outs c main_v3 = V1 m c main_v3 := V5_v3 m outs c
theorem Vin2_out (m : (ℓ : Loc nD τ sig) → Buf (Elt F) ℓ) (outs : Outs (F := F)) (c : Dev nD) : Vin2 m outs c main_v14 = V1 m c main_v14 := V5_o2 m outs c
theorem Vout2_v3 (m : (ℓ : Loc nD τ sig) → Buf (Elt F) ℓ) (outs : Outs (F := F)) (c : Dev nD) : Vout2 m outs c main_v3 = V1 m c main_v3 := V6_v3 m outs c
theorem Vout2_out (m : (ℓ : Loc nD τ sig) → Buf (Elt F) ℓ) (outs : Outs (F := F)) (c : Dev nD) : Vout2 m outs c main_v14 = outs 6 main_v14 c := Function.update_self _ _ _
theorem Vout2_of (m : (ℓ : Loc nD τ sig) → Buf (Elt F) ℓ) (outs : Outs (F := F)) (c : Dev nD) (r : Ref sig .tc) (hr : r ∉ ([main_v14] : List (Ref sig .tc))) : Vout2 m outs c r = Vin2 m outs c r := V6_of m outs c r hr
theorem Vin2_tbl' (m : (ℓ : Loc nD τ sig) → Buf (Elt F) ℓ) (outs : Outs (F := F)) (c : Dev nD) (j : Fin pre2.K) : Vin2 m outs c (pre2.ref j) = tbl2 m j := Vin2_tbl m outs c j
abbrev Vin3 (m : (ℓ : Loc nD τ sig) → Buf (Elt F) ℓ) (outs : Outs (F := F)) (c : Dev nD) : Valuation τ sig (Elt F) := V7 m outs c
abbrev Vout3 (m : (ℓ : Loc nD τ sig) → Buf (Elt F) ℓ) (outs : Outs (F := F)) (c : Dev nD) : Valuation τ sig (Elt F) := V8 m outs c
theorem Vin3_v3 (m : (ℓ : Loc nD τ sig) → Buf (Elt F) ℓ) (outs : Outs (F := F)) (c : Dev nD) : Vin3 m outs c main_v3 = V1 m c main_v3 := V7_v3 m outs c
theorem Vin3_out (m : (ℓ : Loc nD τ sig) → Buf (Elt F) ℓ) (outs : Outs (F := F)) (c : Dev nD) : Vin3 m outs c main_v18 = V1 m c main_v18 := V7_o3 m outs c
theorem Vout3_v3 (m : (ℓ : Loc nD τ sig) → Buf (Elt F) ℓ) (outs : Outs (F := F)) (c : Dev nD) : Vout3 m outs c main_v3 = V1 m c main_v3 := V8_v3 m outs c
theorem Vout3_out (m : (ℓ : Loc nD τ sig) → Buf (Elt F) ℓ) (outs : Outs (F := F)) (c : Dev nD) : Vout3 m outs c main_v18 = outs 8 main_v18 c := Function.update_self _ _ _
theorem Vout3_of (m : (ℓ : Loc nD τ sig) → Buf (Elt F) ℓ) (outs : Outs (F := F)) (c : Dev nD) (r : Ref sig .tc) (hr : r ∉ ([main_v18] : List (Ref sig .tc))) : Vout3 m outs c r = Vin3 m outs c r := V8_of m outs c r hr
theorem Vin3_tbl' (m : (ℓ : Loc nD τ sig) → Buf (Elt F) ℓ) (outs : Outs (F := F)) (c : Dev nD) (j : Fin pre3.K) : Vin3 m outs c (pre3.ref j) = tbl3 m j := Vin3_tbl m outs c j
abbrev Vin4 (m : (ℓ : Loc nD τ sig) → Buf (Elt F) ℓ) (outs : Outs (F := F)) (c : Dev nD) : Valuation τ sig (Elt F) := V9 m outs c
abbrev Vout4 (m : (ℓ : Loc nD τ sig) → Buf (Elt F) ℓ) (outs : Outs (F := F)) (c : Dev nD) : Valuation τ sig (Elt F) := V10 m outs c
theorem Vin4_v3 (m : (ℓ : Loc nD τ sig) → Buf (Elt F) ℓ) (outs : Outs (F := F)) (c : Dev nD) : Vin4 m outs c main_v3 = V1 m c main_v3 := V9_v3 m outs c
theorem Vin4_out (m : (ℓ : Loc nD τ sig) → Buf (Elt F) ℓ) (outs : Outs (F := F)) (c : Dev nD) : Vin4 m outs c main_v22 = V1 m c main_v22 := V9_o4 m outs c
theorem Vout4_v3 (m : (ℓ : Loc nD τ sig) → Buf (Elt F) ℓ) (outs : Outs (F := F)) (c : Dev nD) : Vout4 m outs c main_v3 = V1 m c main_v3 := V10_v3 m outs c
theorem Vout4_out (m : (ℓ : Loc nD τ sig) → Buf (Elt F) ℓ) (outs : Outs (F := F)) (c : Dev nD) : Vout4 m outs c main_v22 = outs 10 main_v22 c := Function.update_self _ _ _
theorem Vout4_of (m : (ℓ : Loc nD τ sig) → Buf (Elt F) ℓ) (outs : Outs (F := F)) (c : Dev nD) (r : Ref sig .tc) (hr : r ∉ ([main_v22] : List (Ref sig .tc))) : Vout4 m outs c r = Vin4 m outs c r := V10_of m outs c r hr
theorem Vin4_tbl' (m : (ℓ : Loc nD τ sig) → Buf (Elt F) ℓ) (outs : Outs (F := F)) (c : Dev nD) (j : Fin pre4.K) : Vin4 m outs c (pre4.ref j) = tbl4 m j := Vin4_tbl m outs c j
abbrev Vin5 (m : (ℓ : Loc nD τ sig) → Buf (Elt F) ℓ) (outs : Outs (F := F)) (c : Dev nD) : Valuation τ sig (Elt F) := V11 m outs c
abbrev Vout5 (m : (ℓ : Loc nD τ sig) → Buf (Elt F) ℓ) (outs : Outs (F := F)) (c : Dev nD) : Valuation τ sig (Elt F) := V12 m outs c
theorem Vin5_v3 (m : (ℓ : Loc nD τ sig) → Buf (Elt F) ℓ) (outs : Outs (F := F)) (c : Dev nD) : Vin5 m outs c main_v3 = V1 m c main_v3 := V11_v3 m outs c
theorem Vin5_out (m : (ℓ : Loc nD τ sig) → Buf (Elt F) ℓ) (outs : Outs (F := F)) (c : Dev nD) : Vin5 m outs c main_v26 = V1 m c main_v26 := V11_o5 m outs c
theorem Vout5_v3 (m : (ℓ : Loc nD τ sig) → Buf (Elt F) ℓ) (outs : Outs (F := F)) (c : Dev nD) : Vout5 m outs c main_v3 = V1 m c main_v3 := V12_v3 m outs c
theorem Vout5_out (m : (ℓ : Loc nD τ sig) → Buf (Elt F) ℓ) (outs : Outs (F := F)) (c : Dev nD) : Vout5 m outs c main_v26 = outs 12 main_v26 c := Function.update_self _ _ _
theorem Vout5_of (m : (ℓ : Loc nD τ sig) → Buf (Elt F) ℓ) (outs : Outs (F := F)) (c : Dev nD) (r : Ref sig .tc) (hr : r ∉ ([main_v26] : List (Ref sig .tc))) : Vout5 m outs c r = Vin5 m outs c r := V12_of m outs c r hr
theorem Vin5_tbl' (m : (ℓ : Loc nD τ sig) → Buf (Elt F) ℓ) (outs : Outs (F := F)) (c : Dev nD) (j : Fin pre5.K) : Vin5 m outs c (pre5.ref j) = tbl5 m j := Vin5_tbl m outs c j
abbrev Vin6 (m : (ℓ : Loc nD τ sig) → Buf (Elt F) ℓ) (outs : Outs (F := F)) (c : Dev nD) : Valuation τ sig (Elt F) := V13 m outs c
abbrev Vout6 (m : (ℓ : Loc nD τ sig) → Buf (Elt F) ℓ) (outs : Outs (F := F)) (c : Dev nD) : Valuation τ sig (Elt F) := V14 m outs c
theorem Vin6_v3 (m : (ℓ : Loc nD τ sig) → Buf (Elt F) ℓ) (outs : Outs (F := F)) (c : Dev nD) : Vin6 m outs c main_v3 = V1 m c main_v3 := V13_v3 m outs c
theorem Vin6_out (m : (ℓ : Loc nD τ sig) → Buf (Elt F) ℓ) (outs : Outs (F := F)) (c : Dev nD) : Vin6 m outs c main_v30 = V1 m c main_v30 := V13_o6 m outs c
theorem Vout6_v3 (m : (ℓ : Loc nD τ sig) → Buf (Elt F) ℓ) (outs : Outs (F := F)) (c : Dev nD) : Vout6 m outs c main_v3 = V1 m c main_v3 := V14_v3 m outs c
theorem Vout6_out (m : (ℓ : Loc nD τ sig) → Buf (Elt F) ℓ) (outs : Outs (F := F)) (c : Dev nD) : Vout6 m outs c main_v30 = outs 14 main_v30 c := Function.update_self _ _ _
theorem Vout6_of (m : (ℓ : Loc nD τ sig) → Buf (Elt F) ℓ) (outs : Outs (F := F)) (c : Dev nD) (r : Ref sig .tc) (hr : r ∉ ([main_v30] : List (Ref sig .tc))) : Vout6 m outs c r = Vin6 m outs c r := V14_of m outs c r hr
theorem Vin6_tbl' (m : (ℓ : Loc nD τ sig) → Buf (Elt F) ℓ) (outs : Outs (F := F)) (c : Dev nD) (j : Fin pre6.K) : Vin6 m outs c (pre6.ref j) = tbl6 m j := Vin6_tbl m outs c j
abbrev Vin7 (m : (ℓ : Loc nD τ sig) → Buf (Elt F) ℓ) (outs : Outs (F := F)) (c : Dev nD) : Valuation τ sig (Elt F) := V15 m outs c
abbrev Vout7 (m : (ℓ : Loc nD τ sig) → Buf (Elt F) ℓ) (outs : Outs (F := F)) (c : Dev nD) : Valuation τ sig (Elt F) := V16 m outs c
theorem Vin7_v3 (m : (ℓ : Loc nD τ sig) → Buf (Elt F) ℓ) (outs : Outs (F := F)) (c : Dev nD) : Vin7 m outs c main_v3 = V1 m c main_v3 := V15_v3 m outs c
theorem Vin7_out (m : (ℓ : Loc nD τ sig) → Buf (Elt F) ℓ) (outs : Outs (F := F)) (c : Dev nD) : Vin7 m outs c main_v34 = V1 m c main_v34 := V15_o7 m outs c
theorem Vout7_v3 (m : (ℓ : Loc nD τ sig) → Buf (Elt F) ℓ) (outs : Outs (F := F)) (c : Dev nD) : Vout7 m outs c main_v3 = V1 m c main_v3 := V16_v3 m outs c
theorem Vout7_out (m : (ℓ : Loc nD τ sig) → Buf (Elt F) ℓ) (outs : Outs (F := F)) (c : Dev nD) : Vout7 m outs c main_v34 = outs 16 main_v34 c := Function.update_self _ _ _
theorem Vout7_of (m : (ℓ : Loc nD τ sig) → Buf (Elt F) ℓ) (outs : Outs (F := F)) (c : Dev nD) (r : Ref sig .tc) (hr : r ∉ ([main_v34] : List (Ref sig .tc))) : Vout7 m outs c r = Vin7 m outs c r := V16_of m outs c r hr
theorem Vin7_tbl' (m : (ℓ : Loc nD τ sig) → Buf (Elt F) ℓ) (outs : Outs (F := F)) (c : Dev nD) (j : Fin pre7.K) : Vin7 m outs c (pre7.ref j) = tbl7 m j := Vin7_tbl m outs c j
abbrev Vin8 (m : (ℓ : Loc nD τ sig) → Buf (Elt F) ℓ) (outs : Outs (F := F)) (c : Dev nD) : Valuation τ sig (Elt F) := V17 m outs c
abbrev Vout8 (m : (ℓ : Loc nD τ sig) → Buf (Elt F) ℓ) (outs : Outs (F := F)) (c : Dev nD) : Valuation τ sig (Elt F) := V18 m outs c
theorem Vin8_v3 (m : (ℓ : Loc nD τ sig) → Buf (Elt F) ℓ) (outs : Outs (F := F)) (c : Dev nD) : Vin8 m outs c main_v3 = V1 m c main_v3 := V17_v3 m outs c
theorem Vin8_out (m : (ℓ : Loc nD τ sig) → Buf (Elt F) ℓ) (outs : Outs (F := F)) (c : Dev nD) : Vin8 m outs c main_v38 = V1 m c main_v38 := V17_o8 m outs c
theorem Vout8_v3 (m : (ℓ : Loc nD τ sig) → Buf (Elt F) ℓ) (outs : Outs (F := F)) (c : Dev nD) : Vout8 m outs c main_v3 = V1 m c main_v3 := V18_v3 m outs c
theorem Vout8_out (m : (ℓ : Loc nD τ sig) → Buf (Elt F) ℓ) (outs : Outs (F := F)) (c : Dev nD) : Vout8 m outs c main_v38 = outs 18 main_v38 c := Function.update_self _ _ _
theorem Vout8_of (m : (ℓ : Loc nD τ sig) → Buf (Elt F) ℓ) (outs : Outs (F := F)) (c : Dev nD) (r : Ref sig .tc) (hr : r ∉ ([main_v38] : List (Ref sig .tc))) : Vout8 m outs c r = Vin8 m outs c r := V18_of m outs c r hr
theorem Vin8_tbl' (m : (ℓ : Loc nD τ sig) → Buf (Elt F) ℓ) (outs : Outs (F := F)) (c : Dev nD) (j : Fin pre8.K) : Vin8 m outs c (pre8.ref j) = tbl8 m j := Vin8_tbl m outs c j
abbrev Vin9 (m : (ℓ : Loc nD τ sig) → Buf (Elt F) ℓ) (outs : Outs (F := F)) (c : Dev nD) : Valuation τ sig (Elt F) := V19 m outs c
abbrev Vout9 (m : (ℓ : Loc nD τ sig) → Buf (Elt F) ℓ) (outs : Outs (F := F)) (c : Dev nD) : Valuation τ sig (Elt F) := V20 m outs c
theorem Vin9_v3 (m : (ℓ : Loc nD τ sig) → Buf (Elt F) ℓ) (outs : Outs (F := F)) (c : Dev nD) : Vin9 m outs c main_v3 = V1 m c main_v3 := V19_v3 m outs c
theorem Vin9_out (m : (ℓ : Loc nD τ sig) → Buf (Elt F) ℓ) (outs : Outs (F := F)) (c : Dev nD) : Vin9 m outs c main_v42 = V1 m c main_v42 := V19_o9 m outs c
theorem Vout9_v3 (m : (ℓ : Loc nD τ sig) → Buf (Elt F) ℓ) (outs : Outs (F := F)) (c : Dev nD) : Vout9 m outs c main_v3 = V1 m c main_v3 := V20_v3 m outs c
theorem Vout9_out (m : (ℓ : Loc nD τ sig) → Buf (Elt F) ℓ) (outs : Outs (F := F)) (c : Dev nD) : Vout9 m outs c main_v42 = outs 20 main_v42 c := Function.update_self _ _ _
theorem Vout9_of (m : (ℓ : Loc nD τ sig) → Buf (Elt F) ℓ) (outs : Outs (F := F)) (c : Dev nD) (r : Ref sig .tc) (hr : r ∉ ([main_v42] : List (Ref sig .tc))) : Vout9 m outs c r = Vin9 m outs c r := V20_of m outs c r hr
theorem Vin9_tbl' (m : (ℓ : Loc nD τ sig) → Buf (Elt F) ℓ) (outs : Outs (F := F)) (c : Dev nD) (j : Fin pre9.K) : Vin9 m outs c (pre9.ref j) = tbl9 m j := Vin9_tbl m outs c j
abbrev Vin10 (m : (ℓ : Loc nD τ sig) → Buf (Elt F) ℓ) (outs : Outs (F := F)) (c : Dev nD) : Valuation τ sig (Elt F) := V21 m outs c
abbrev Vout10 (m : (ℓ : Loc nD τ sig) → Buf (Elt F) ℓ) (outs : Outs (F := F)) (c : Dev nD) : Valuation τ sig (Elt F) := V22 m outs c
theorem Vin10_v3 (m : (ℓ : Loc nD τ sig) → Buf (Elt F) ℓ) (outs : Outs (F := F)) (c : Dev nD) : Vin10 m outs c main_v3 = V1 m c main_v3 := V21_v3 m outs c
theorem Vin10_out (m : (ℓ : Loc nD τ sig) → Buf (Elt F) ℓ) (outs : Outs (F := F)) (c : Dev nD) : Vin10 m outs c main_v46 = V1 m c main_v46 := V21_o10 m outs c
theorem Vout10_v3 (m : (ℓ : Loc nD τ sig) → Buf (Elt F) ℓ) (outs : Outs (F := F)) (c : Dev nD) : Vout10 m outs c main_v3 = V1 m c main_v3 := V22_v3 m outs c
theorem Vout10_out (m : (ℓ : Loc nD τ sig) → Buf (Elt F) ℓ) (outs : Outs (F := F)) (c : Dev nD) : Vout10 m outs c main_v46 = outs 22 main_v46 c := Function.update_self _ _ _
theorem Vout10_of (m : (ℓ : Loc nD τ sig) → Buf (Elt F) ℓ) (outs : Outs (F := F)) (c : Dev nD) (r : Ref sig .tc) (hr : r ∉ ([main_v46] : List (Ref sig .tc))) : Vout10 m outs c r = Vin10 m outs c r := V22_of m outs c r hr
theorem Vin10_tbl' (m : (ℓ : Loc nD τ sig) → Buf (Elt F) ℓ) (outs : Outs (F := F)) (c : Dev nD) (j : Fin pre10.K) : Vin10 m outs c (pre10.ref j) = tbl10 m j := Vin10_tbl m outs c j
abbrev Vin11 (m : (ℓ : Loc nD τ sig) → Buf (Elt F) ℓ) (outs : Outs (F := F)) (c : Dev nD) : Valuation τ sig (Elt F) := V23 m outs c
abbrev Vout11 (m : (ℓ : Loc nD τ sig) → Buf (Elt F) ℓ) (outs : Outs (F := F)) (c : Dev nD) : Valuation τ sig (Elt F) := V24 m outs c
theorem Vin11_v3 (m : (ℓ : Loc nD τ sig) → Buf (Elt F) ℓ) (outs : Outs (F := F)) (c : Dev nD) : Vin11 m outs c main_v3 = V1 m c main_v3 := V23_v3 m outs c
theorem Vin11_out (m : (ℓ : Loc nD τ sig) → Buf (Elt F) ℓ) (outs : Outs (F := F)) (c : Dev nD) : Vin11 m outs c main_v50 = V1 m c main_v50 := V23_o11 m outs c
theorem Vout11_v3 (m : (ℓ : Loc nD τ sig) → Buf (Elt F) ℓ) (outs : Outs (F := F)) (c : Dev nD) : Vout11 m outs c main_v3 = V1 m c main_v3 := V24_v3 m outs c
theorem Vout11_out (m : (ℓ : Loc nD τ sig) → Buf (Elt F) ℓ) (outs : Outs (F := F)) (c : Dev nD) : Vout11 m outs c main_v50 = outs 24 main_v50 c := Function.update_self _ _ _
theorem Vout11_of (m : (ℓ : Loc nD τ sig) → Buf (Elt F) ℓ) (outs : Outs (F := F)) (c : Dev nD) (r : Ref sig .tc) (hr : r ∉ ([main_v50] : List (Ref sig .tc))) : Vout11 m outs c r = Vin11 m outs c r := V24_of m outs c r hr
theorem Vin11_tbl' (m : (ℓ : Loc nD τ sig) → Buf (Elt F) ℓ) (outs : Outs (F := F)) (c : Dev nD) (j : Fin pre11.K) : Vin11 m outs c (pre11.ref j) = tbl11 m j := Vin11_tbl m outs c j
abbrev Vin12 (m : (ℓ : Loc nD τ sig) → Buf (Elt F) ℓ) (outs : Outs (F := F)) (c : Dev nD) : Valuation τ sig (Elt F) := V25 m outs c
abbrev Vout12 (m : (ℓ : Loc nD τ sig) → Buf (Elt F) ℓ) (outs : Outs (F := F)) (c : Dev nD) : Valuation τ sig (Elt F) := V26 m outs c
theorem Vin12_v3 (m : (ℓ : Loc nD τ sig) → Buf (Elt F) ℓ) (outs : Outs (F := F)) (c : Dev nD) : Vin12 m outs c main_v3 = V1 m c main_v3 := V25_v3 m outs c
theorem Vin12_out (m : (ℓ : Loc nD τ sig) → Buf (Elt F) ℓ) (outs : Outs (F := F)) (c : Dev nD) : Vin12 m outs c main_v54 = V1 m c main_v54 := V25_o12 m outs c
theorem Vout12_v3 (m : (ℓ : Loc nD τ sig) → Buf (Elt F) ℓ) (outs : Outs (F := F)) (c : Dev nD) : Vout12 m outs c main_v3 = V1 m c main_v3 := V26_v3 m outs c
theorem Vout12_out (m : (ℓ : Loc nD τ sig) → Buf (Elt F) ℓ) (outs : Outs (F := F)) (c : Dev nD) : Vout12 m outs c main_v54 = outs 26 main_v54 c := Function.update_self _ _ _
theorem Vout12_of (m : (ℓ : Loc nD τ sig) → Buf (Elt F) ℓ) (outs : Outs (F := F)) (c : Dev nD) (r : Ref sig .tc) (hr : r ∉ ([main_v54] : List (Ref sig .tc))) : Vout12 m outs c r = Vin12 m outs c r := V26_of m outs c r hr
theorem Vin12_tbl' (m : (ℓ : Loc nD τ sig) → Buf (Elt F) ℓ) (outs : Outs (F := F)) (c : Dev nD) (j : Fin pre12.K) : Vin12 m outs c (pre12.ref j) = tbl12 m j := Vin12_tbl m outs c j
abbrev Vin13 (m : (ℓ : Loc nD τ sig) → Buf (Elt F) ℓ) (outs : Outs (F := F)) (c : Dev nD) : Valuation τ sig (Elt F) := V27 m outs c
abbrev Vout13 (m : (ℓ : Loc nD τ sig) → Buf (Elt F) ℓ) (outs : Outs (F := F)) (c : Dev nD) : Valuation τ sig (Elt F) := V28 m outs c
theorem Vin13_v3 (m : (ℓ : Loc nD τ sig) → Buf (Elt F) ℓ) (outs : Outs (F := F)) (c : Dev nD) : Vin13 m outs c main_v3 = V1 m c main_v3 := V27_v3 m outs c
theorem Vin13_out (m : (ℓ : Loc nD τ sig) → Buf (Elt F) ℓ) (outs : Outs (F := F)) (c : Dev nD) : Vin13 m outs c main_v58 = V1 m c main_v58 := V27_o13 m outs c
theorem Vout13_v3 (m : (ℓ : Loc nD τ sig) → Buf (Elt F) ℓ) (outs : Outs (F := F)) (c : Dev nD) : Vout13 m outs c main_v3 = V1 m c main_v3 := V28_v3 m outs c
theorem Vout13_out (m : (ℓ : Loc nD τ sig) → Buf (Elt F) ℓ) (outs : Outs (F := F)) (c : Dev nD) : Vout13 m outs c main_v58 = outs 28 main_v58 c := Function.update_self _ _ _
theorem Vout13_of (m : (ℓ : Loc nD τ sig) → Buf (Elt F) ℓ) (outs : Outs (F := F)) (c : Dev nD) (r : Ref sig .tc) (hr : r ∉ ([main_v58] : List (Ref sig .tc))) : Vout13 m outs c r = Vin13 m outs c r := V28_of m outs c r hr
theorem Vin13_tbl' (m : (ℓ : Loc nD τ sig) → Buf (Elt F) ℓ) (outs : Outs (F := F)) (c : Dev nD) (j : Fin pre13.K) : Vin13 m outs c (pre13.ref j) = tbl13 m j := Vin13_tbl m outs c j
abbrev Vin14 (m : (ℓ : Loc nD τ sig) → Buf (Elt F) ℓ) (outs : Outs (F := F)) (c : Dev nD) : Valuation τ sig (Elt F) := V29 m outs c
abbrev Vout14 (m : (ℓ : Loc nD τ sig) → Buf (Elt F) ℓ) (outs : Outs (F := F)) (c : Dev nD) : Valuation τ sig (Elt F) := V30 m outs c
theorem Vin14_v3 (m : (ℓ : Loc nD τ sig) → Buf (Elt F) ℓ) (outs : Outs (F := F)) (c : Dev nD) : Vin14 m outs c main_v3 = V1 m c main_v3 := V29_v3 m outs c
theorem Vin14_out (m : (ℓ : Loc nD τ sig) → Buf (Elt F) ℓ) (outs : Outs (F := F)) (c : Dev nD) : Vin14 m outs c main_v62 = V1 m c main_v62 := V29_o14 m outs c
theorem Vout14_v3 (m : (ℓ : Loc nD τ sig) → Buf (Elt F) ℓ) (outs : Outs (F := F)) (c : Dev nD) : Vout14 m outs c main_v3 = V1 m c main_v3 := V30_v3 m outs c
theorem Vout14_out (m : (ℓ : Loc nD τ sig) → Buf (Elt F) ℓ) (outs : Outs (F := F)) (c : Dev nD) : Vout14 m outs c main_v62 = outs 30 main_v62 c := Function.update_self _ _ _
theorem Vout14_of (m : (ℓ : Loc nD τ sig) → Buf (Elt F) ℓ) (outs : Outs (F := F)) (c : Dev nD) (r : Ref sig .tc) (hr : r ∉ ([main_v62] : List (Ref sig .tc))) : Vout14 m outs c r = Vin14 m outs c r := V30_of m outs c r hr
theorem Vin14_tbl' (m : (ℓ : Loc nD τ sig) → Buf (Elt F) ℓ) (outs : Outs (F := F)) (c : Dev nD) (j : Fin pre14.K) : Vin14 m outs c (pre14.ref j) = tbl14 m j := Vin14_tbl m outs c j
abbrev Vin15 (m : (ℓ : Loc nD τ sig) → Buf (Elt F) ℓ) (outs : Outs (F := F)) (c : Dev nD) : Valuation τ sig (Elt F) := V31 m outs c
abbrev Vout15 (m : (ℓ : Loc nD τ sig) → Buf (Elt F) ℓ) (outs : Outs (F := F)) (c : Dev nD) : Valuation τ sig (Elt F) := V32 m outs c
theorem Vin15_v3 (m : (ℓ : Loc nD τ sig) → Buf (Elt F) ℓ) (outs : Outs (F := F)) (c : Dev nD) : Vin15 m outs c main_v3 = V1 m c main_v3 := V31_v3 m outs c
theorem Vin15_out (m : (ℓ : Loc nD τ sig) → Buf (Elt F) ℓ) (outs : Outs (F := F)) (c : Dev nD) : Vin15 m outs c main_v66 = V1 m c main_v66 := V31_o15 m outs c
theorem Vout15_v3 (m : (ℓ : Loc nD τ sig) → Buf (Elt F) ℓ) (outs : Outs (F := F)) (c : Dev nD) : Vout15 m outs c main_v3 = V1 m c main_v3 := V32_v3 m outs c
theorem Vout15_out (m : (ℓ : Loc nD τ sig) → Buf (Elt F) ℓ) (outs : Outs (F := F)) (c : Dev nD) : Vout15 m outs c main_v66 = outs 32 main_v66 c := Function.update_self _ _ _
theorem Vout15_of (m : (ℓ : Loc nD τ sig) → Buf (Elt F) ℓ) (outs : Outs (F := F)) (c : Dev nD) (r : Ref sig .tc) (hr : r ∉ ([main_v66] : List (Ref sig .tc))) : Vout15 m outs c r = Vin15 m outs c r := V32_of m outs c r hr
theorem Vin15_tbl' (m : (ℓ : Loc nD τ sig) → Buf (Elt F) ℓ) (outs : Outs (F := F)) (c : Dev nD) (j : Fin pre15.K) : Vin15 m outs c (pre15.ref j) = tbl15 m j := Vin15_tbl m outs c j
abbrev Vin16 (m : (ℓ : Loc nD τ sig) → Buf (Elt F) ℓ) (outs : Outs (F := F)) (c : Dev nD) : Valuation τ sig (Elt F) := V33 m outs c
abbrev Vout16 (m : (ℓ : Loc nD τ sig) → Buf (Elt F) ℓ) (outs : Outs (F := F)) (c : Dev nD) : Valuation τ sig (Elt F) := V34 m outs c
theorem Vin16_v3 (m : (ℓ : Loc nD τ sig) → Buf (Elt F) ℓ) (outs : Outs (F := F)) (c : Dev nD) : Vin16 m outs c main_v3 = V1 m c main_v3 := V33_v3 m outs c
theorem Vin16_out (m : (ℓ : Loc nD τ sig) → Buf (Elt F) ℓ) (outs : Outs (F := F)) (c : Dev nD) : Vin16 m outs c main_v70 = V1 m c main_v70 := V33_o16 m outs c
theorem Vout16_v3 (m : (ℓ : Loc nD τ sig) → Buf (Elt F) ℓ) (outs : Outs (F := F)) (c : Dev nD) : Vout16 m outs c main_v3 = V1 m c main_v3 := V34_v3 m outs c
theorem Vout16_out (m : (ℓ : Loc nD τ sig) → Buf (Elt F) ℓ) (outs : Outs (F := F)) (c : Dev nD) : Vout16 m outs c main_v70 = outs 34 main_v70 c := Function.update_self _ _ _
theorem Vout16_of (m : (ℓ : Loc nD τ sig) → Buf (Elt F) ℓ) (outs : Outs (F := F)) (c : Dev nD) (r : Ref sig .tc) (hr : r ∉ ([main_v70] : List (Ref sig .tc))) : Vout16 m outs c r = Vin16 m outs c r := V34_of m outs c r hr
theorem Vin16_tbl' (m : (ℓ : Loc nD τ sig) → Buf (Elt F) ℓ) (outs : Outs (F := F)) (c : Dev nD) (j : Fin pre16.K) : Vin16 m outs c (pre16.ref j) = tbl16 m j := Vin16_tbl m outs c j
abbrev Vin17 (m : (ℓ : Loc nD τ sig) → Buf (Elt F) ℓ) (outs : Outs (F := F)) (c : Dev nD) : Valuation τ sig (Elt F) := V35 m outs c
abbrev Vout17 (m : (ℓ : Loc nD τ sig) → Buf (Elt F) ℓ) (outs : Outs (F := F)) (c : Dev nD) : Valuation τ sig (Elt F) := V36 m outs c
theorem Vin17_v3 (m : (ℓ : Loc nD τ sig) → Buf (Elt F) ℓ) (outs : Outs (F := F)) (c : Dev nD) : Vin17 m outs c main_v3 = V1 m c main_v3 := V35_v3 m outs c
theorem Vin17_out (m : (ℓ : Loc nD τ sig) → Buf (Elt F) ℓ) (outs : Outs (F := F)) (c : Dev nD) : Vin17 m outs c main_v74 = V1 m c main_v74 := V35_o17 m outs c
theorem Vout17_v3 (m : (ℓ : Loc nD τ sig) → Buf (Elt F) ℓ) (outs : Outs (F := F)) (c : Dev nD) : Vout17 m outs c main_v3 = V1 m c main_v3 := V36_v3 m outs c
theorem Vout17_out (m : (ℓ : Loc nD τ sig) → Buf (Elt F) ℓ) (outs : Outs (F := F)) (c : Dev nD) : Vout17 m outs c main_v74 = outs 36 main_v74 c := Function.update_self _ _ _
theorem Vout17_of (m : (ℓ : Loc nD τ sig) → Buf (Elt F) ℓ) (outs : Outs (F := F)) (c : Dev nD) (r : Ref sig .tc) (hr : r ∉ ([main_v74] : List (Ref sig .tc))) : Vout17 m outs c r = Vin17 m outs c r := V36_of m outs c r hr
theorem Vin17_tbl' (m : (ℓ : Loc nD τ sig) → Buf (Elt F) ℓ) (outs : Outs (F := F)) (c : Dev nD) (j : Fin pre17.K) : Vin17 m outs c (pre17.ref j) = tbl17 m j := Vin17_tbl m outs c j
abbrev Vin18 (m : (ℓ : Loc nD τ sig) → Buf (Elt F) ℓ) (outs : Outs (F := F)) (c : Dev nD) : Valuation τ sig (Elt F) := V37 m outs c
abbrev Vout18 (m : (ℓ : Loc nD τ sig) → Buf (Elt F) ℓ) (outs : Outs (F := F)) (c : Dev nD) : Valuation τ sig (Elt F) := V38 m outs c
theorem Vin18_v3 (m : (ℓ : Loc nD τ sig) → Buf (Elt F) ℓ) (outs : Outs (F := F)) (c : Dev nD) : Vin18 m outs c main_v3 = V1 m c main_v3 := V37_v3 m outs c
theorem Vin18_out (m : (ℓ : Loc nD τ sig) → Buf (Elt F) ℓ) (outs : Outs (F := F)) (c : Dev nD) : Vin18 m outs c main_v78 = V1 m c main_v78 := V37_o18 m outs c
theorem Vout18_v3 (m : (ℓ : Loc nD τ sig) → Buf (Elt F) ℓ) (outs : Outs (F := F)) (c : Dev nD) : Vout18 m outs c main_v3 = V1 m c main_v3 := V38_v3 m outs c
theorem Vout18_out (m : (ℓ : Loc nD τ sig) → Buf (Elt F) ℓ) (outs : Outs (F := F)) (c : Dev nD) : Vout18 m outs c main_v78 = outs 38 main_v78 c := Function.update_self _ _ _
theorem Vout18_of (m : (ℓ : Loc nD τ sig) → Buf (Elt F) ℓ) (outs : Outs (F := F)) (c : Dev nD) (r : Ref sig .tc) (hr : r ∉ ([main_v78] : List (Ref sig .tc))) : Vout18 m outs c r = Vin18 m outs c r := V38_of m outs c r hr
theorem Vin18_tbl' (m : (ℓ : Loc nD τ sig) → Buf (Elt F) ℓ) (outs : Outs (F := F)) (c : Dev nD) (j : Fin pre18.K) : Vin18 m outs c (pre18.ref j) = tbl18 m j := Vin18_tbl m outs c j
abbrev Vin19 (m : (ℓ : Loc nD τ sig) → Buf (Elt F) ℓ) (outs : Outs (F := F)) (c : Dev nD) : Valuation τ sig (Elt F) := V39 m outs c
abbrev Vout19 (m : (ℓ : Loc nD τ sig) → Buf (Elt F) ℓ) (outs : Outs (F := F)) (c : Dev nD) : Valuation τ sig (Elt F) := V40 m outs c
theorem Vin19_v3 (m : (ℓ : Loc nD τ sig) → Buf (Elt F) ℓ) (outs : Outs (F := F)) (c : Dev nD) : Vin19 m outs c main_v3 = V1 m c main_v3 := V39_v3 m outs c
theorem Vin19_out (m : (ℓ : Loc nD τ sig) → Buf (Elt F) ℓ) (outs : Outs (F := F)) (c : Dev nD) : Vin19 m outs c main_v82 = V1 m c main_v82 := V39_o19 m outs c
theorem Vout19_v3 (m : (ℓ : Loc nD τ sig) → Buf (Elt F) ℓ) (outs : Outs (F := F)) (c : Dev nD) : Vout19 m outs c main_v3 = V1 m c main_v3 := V40_v3 m outs c
theorem Vout19_out (m : (ℓ : Loc nD τ sig) → Buf (Elt F) ℓ) (outs : Outs (F := F)) (c : Dev nD) : Vout19 m outs c main_v82 = outs 40 main_v82 c := Function.update_self _ _ _
theorem Vout19_of (m : (ℓ : Loc nD τ sig) → Buf (Elt F) ℓ) (outs : Outs (F := F)) (c : Dev nD) (r : Ref sig .tc) (hr : r ∉ ([main_v82] : List (Ref sig .tc))) : Vout19 m outs c r = Vin19 m outs c r := V40_of m outs c r hr
theorem Vin19_tbl' (m : (ℓ : Loc nD τ sig) → Buf (Elt F) ℓ) (outs : Outs (F := F)) (c : Dev nD) (j : Fin pre19.K) : Vin19 m outs c (pre19.ref j) = tbl19 m j := Vin19_tbl m outs c j
abbrev Vin20 (m : (ℓ : Loc nD τ sig) → Buf (Elt F) ℓ) (outs : Outs (F := F)) (c : Dev nD) : Valuation τ sig (Elt F) := V41 m outs c
abbrev Vout20 (m : (ℓ : Loc nD τ sig) → Buf (Elt F) ℓ) (outs : Outs (F := F)) (c : Dev nD) : Valuation τ sig (Elt F) := V42 m outs c
theorem Vin20_v3 (m : (ℓ : Loc nD τ sig) → Buf (Elt F) ℓ) (outs : Outs (F := F)) (c : Dev nD) : Vin20 m outs c main_v3 = V1 m c main_v3 := V41_v3 m outs c
theorem Vin20_out (m : (ℓ : Loc nD τ sig) → Buf (Elt F) ℓ) (outs : Outs (F := F)) (c : Dev nD) : Vin20 m outs c main_v86 = V1 m c main_v86 := V41_o20 m outs c
theorem Vout20_v3 (m : (ℓ : Loc nD τ sig) → Buf (Elt F) ℓ) (outs : Outs (F := F)) (c : Dev nD) : Vout20 m outs c main_v3 = V1 m c main_v3 := V42_v3 m outs c
theorem Vout20_out (m : (ℓ : Loc nD τ sig) → Buf (Elt F) ℓ) (outs : Outs (F := F)) (c : Dev nD) : Vout20 m outs c main_v86 = outs 42 main_v86 c := Function.update_self _ _ _
theorem Vout20_of (m : (ℓ : Loc nD τ sig) → Buf (Elt F) ℓ) (outs : Outs (F := F)) (c : Dev nD) (r : Ref sig .tc) (hr : r ∉ ([main_v86] : List (Ref sig .tc))) : Vout20 m outs c r = Vin20 m outs c r := V42_of m outs c r hr
theorem Vin20_tbl' (m : (ℓ : Loc nD τ sig) → Buf (Elt F) ℓ) (outs : Outs (F := F)) (c : Dev nD) (j : Fin pre20.K) : Vin20 m outs c (pre20.ref j) = tbl20 m j := Vin20_tbl m outs c j
abbrev Vin21 (m : (ℓ : Loc nD τ sig) → Buf (Elt F) ℓ) (outs : Outs (F := F)) (c : Dev nD) : Valuation τ sig (Elt F) := V43 m outs c
abbrev Vout21 (m : (ℓ : Loc nD τ sig) → Buf (Elt F) ℓ) (outs : Outs (F := F)) (c : Dev nD) : Valuation τ sig (Elt F) := V44 m outs c
theorem Vin21_v3 (m : (ℓ : Loc nD τ sig) → Buf (Elt F) ℓ) (outs : Outs (F := F)) (c : Dev nD) : Vin21 m outs c main_v3 = V1 m c main_v3 := V43_v3 m outs c
theorem Vin21_out (m : (ℓ : Loc nD τ sig) → Buf (Elt F) ℓ) (outs : Outs (F := F)) (c : Dev nD) : Vin21 m outs c main_v90 = V1 m c main_v90 := V43_o21 m outs c
theorem Vout21_v3 (m : (ℓ : Loc nD τ sig) → Buf (Elt F) ℓ) (outs : Outs (F := F)) (c : Dev nD) : Vout21 m outs c main_v3 = V1 m c main_v3 := V44_v3 m outs c
theorem Vout21_out (m : (ℓ : Loc nD τ sig) → Buf (Elt F) ℓ) (outs : Outs (F := F)) (c : Dev nD) : Vout21 m outs c main_v90 = outs 44 main_v90 c := Function.update_self _ _ _
theorem Vout21_of (m : (ℓ : Loc nD τ sig) → Buf (Elt F) ℓ) (outs : Outs (F := F)) (c : Dev nD) (r : Ref sig .tc) (hr : r ∉ ([main_v90] : List (Ref sig .tc))) : Vout21 m outs c r = Vin21 m outs c r := V44_of m outs c r hr
theorem Vin21_tbl' (m : (ℓ : Loc nD τ sig) → Buf (Elt F) ℓ) (outs : Outs (F := F)) (c : Dev nD) (j : Fin pre21.K) : Vin21 m outs c (pre21.ref j) = tbl21 m j := Vin21_tbl m outs c j
abbrev Vin22 (m : (ℓ : Loc nD τ sig) → Buf (Elt F) ℓ) (outs : Outs (F := F)) (c : Dev nD) : Valuation τ sig (Elt F) := V45 m outs c
abbrev Vout22 (m : (ℓ : Loc nD τ sig) → Buf (Elt F) ℓ) (outs : Outs (F := F)) (c : Dev nD) : Valuation τ sig (Elt F) := V46 m outs c
theorem Vin22_v3 (m : (ℓ : Loc nD τ sig) → Buf (Elt F) ℓ) (outs : Outs (F := F)) (c : Dev nD) : Vin22 m outs c main_v3 = V1 m c main_v3 := V45_v3 m outs c
theorem Vin22_out (m : (ℓ : Loc nD τ sig) → Buf (Elt F) ℓ) (outs : Outs (F := F)) (c : Dev nD) : Vin22 m outs c main_v94 = V1 m c main_v94 := V45_o22 m outs c
theorem Vout22_v3 (m : (ℓ : Loc nD τ sig) → Buf (Elt F) ℓ) (outs : Outs (F := F)) (c : Dev nD) : Vout22 m outs c main_v3 = V1 m c main_v3 := V46_v3 m outs c
theorem Vout22_out (m : (ℓ : Loc nD τ sig) → Buf (Elt F) ℓ) (outs : Outs (F := F)) (c : Dev nD) : Vout22 m outs c main_v94 = outs 46 main_v94 c := Function.update_self _ _ _
theorem Vout22_of (m : (ℓ : Loc nD τ sig) → Buf (Elt F) ℓ) (outs : Outs (F := F)) (c : Dev nD) (r : Ref sig .tc) (hr : r ∉ ([main_v94] : List (Ref sig .tc))) : Vout22 m outs c r = Vin22 m outs c r := V46_of m outs c r hr
theorem Vin22_tbl' (m : (ℓ : Loc nD τ sig) → Buf (Elt F) ℓ) (outs : Outs (F := F)) (c : Dev nD) (j : Fin pre22.K) : Vin22 m outs c (pre22.ref j) = tbl22 m j := Vin22_tbl m outs c j
abbrev Vin23 (m : (ℓ : Loc nD τ sig) → Buf (Elt F) ℓ) (outs : Outs (F := F)) (c : Dev nD) : Valuation τ sig (Elt F) := V47 m outs c
abbrev Vout23 (m : (ℓ : Loc nD τ sig) → Buf (Elt F) ℓ) (outs : Outs (F := F)) (c : Dev nD) : Valuation τ sig (Elt F) := V48 m outs c
theorem Vin23_v3 (m : (ℓ : Loc nD τ sig) → Buf (Elt F) ℓ) (outs : Outs (F := F)) (c : Dev nD) : Vin23 m outs c main_v3 = V1 m c main_v3 := V47_v3 m outs c
theorem Vin23_out (m : (ℓ : Loc nD τ sig) → Buf (Elt F) ℓ) (outs : Outs (F := F)) (c : Dev nD) : Vin23 m outs c main_v98 = V1 m c main_v98 := V47_o23 m outs c
theorem Vout23_v3 (m : (ℓ : Loc nD τ sig) → Buf (Elt F) ℓ) (outs : Outs (F := F)) (c : Dev nD) : Vout23 m outs c main_v3 = V1 m c main_v3 := V48_v3 m outs c
theorem Vout23_out (m : (ℓ : Loc nD τ sig) → Buf (Elt F) ℓ) (outs : Outs (F := F)) (c : Dev nD) : Vout23 m outs c main_v98 = outs 48 main_v98 c := Function.update_self _ _ _
theorem Vout23_of (m : (ℓ : Loc nD τ sig) → Buf (Elt F) ℓ) (outs : Outs (F := F)) (c : Dev nD) (r : Ref sig .tc) (hr : r ∉ ([main_v98] : List (Ref sig .tc))) : Vout23 m outs c r = Vin23 m outs c r := V48_of m outs c r hr
theorem Vin23_tbl' (m : (ℓ : Loc nD τ sig) → Buf (Elt F) ℓ) (outs : Outs (F := F)) (c : Dev nD) (j : Fin pre23.K) : Vin23 m outs c (pre23.ref j) = tbl23 m j := Vin23_tbl m outs c j
abbrev Vin24 (m : (ℓ : Loc nD τ sig) → Buf (Elt F) ℓ) (outs : Outs (F := F)) (c : Dev nD) : Valuation τ sig (Elt F) := V49 m outs c
abbrev Vout24 (m : (ℓ : Loc nD τ sig) → Buf (Elt F) ℓ) (outs : Outs (F := F)) (c : Dev nD) : Valuation τ sig (Elt F) := V50 m outs c
theorem Vin24_v3 (m : (ℓ : Loc nD τ sig) → Buf (Elt F) ℓ) (outs : Outs (F := F)) (c : Dev nD) : Vin24 m outs c main_v3 = V1 m c main_v3 := V49_v3 m outs c
theorem Vin24_out (m : (ℓ : Loc nD τ sig) → Buf (Elt F) ℓ) (outs : Outs (F := F)) (c : Dev nD) : Vin24 m outs c main_v102 = V1 m c main_v102 := V49_o24 m outs c
theorem Vout24_v3 (m : (ℓ : Loc nD τ sig) → Buf (Elt F) ℓ) (outs : Outs (F := F)) (c : Dev nD) : Vout24 m outs c main_v3 = V1 m c main_v3 := V50_v3 m outs c
theorem Vout24_out (m : (ℓ : Loc nD τ sig) → Buf (Elt F) ℓ) (outs : Outs (F := F)) (c : Dev nD) : Vout24 m outs c main_v102 = outs 50 main_v102 c := Function.update_self _ _ _
theorem Vout24_of (m : (ℓ : Loc nD τ sig) → Buf (Elt F) ℓ) (outs : Outs (F := F)) (c : Dev nD) (r : Ref sig .tc) (hr : r ∉ ([main_v102] : List (Ref sig .tc))) : Vout24 m outs c r = Vin24 m outs c r := V50_of m outs c r hr
theorem Vin24_tbl' (m : (ℓ : Loc nD τ sig) → Buf (Elt F) ℓ) (outs : Outs (F := F)) (c : Dev nD) (j : Fin pre24.K) : Vin24 m outs c (pre24.ref j) = tbl24 m j := Vin24_tbl m outs c j
abbrev Vin25 (m : (ℓ : Loc nD τ sig) → Buf (Elt F) ℓ) (outs : Outs (F := F)) (c : Dev nD) : Valuation τ sig (Elt F) := V51 m outs c
abbrev Vout25 (m : (ℓ : Loc nD τ sig) → Buf (Elt F) ℓ) (outs : Outs (F := F)) (c : Dev nD) : Valuation τ sig (Elt F) := V52 m outs c
theorem Vin25_v3 (m : (ℓ : Loc nD τ sig) → Buf (Elt F) ℓ) (outs : Outs (F := F)) (c : Dev nD) : Vin25 m outs c main_v3 = V1 m c main_v3 := V51_v3 m outs c
theorem Vin25_out (m : (ℓ : Loc nD τ sig) → Buf (Elt F) ℓ) (outs : Outs (F := F)) (c : Dev nD) : Vin25 m outs c main_v106 = V1 m c main_v106 := V51_o25 m outs c
theorem Vout25_v3 (m : (ℓ : Loc nD τ sig) → Buf (Elt F) ℓ) (outs : Outs (F := F)) (c : Dev nD) : Vout25 m outs c main_v3 = V1 m c main_v3 := V52_v3 m outs c
theorem Vout25_out (m : (ℓ : Loc nD τ sig) → Buf (Elt F) ℓ) (outs : Outs (F := F)) (c : Dev nD) : Vout25 m outs c main_v106 = outs 52 main_v106 c := Function.update_self _ _ _
theorem Vout25_of (m : (ℓ : Loc nD τ sig) → Buf (Elt F) ℓ) (outs : Outs (F := F)) (c : Dev nD) (r : Ref sig .tc) (hr : r ∉ ([main_v106] : List (Ref sig .tc))) : Vout25 m outs c r = Vin25 m outs c r := V52_of m outs c r hr
theorem Vin25_tbl' (m : (ℓ : Loc nD τ sig) → Buf (Elt F) ℓ) (outs : Outs (F := F)) (c : Dev nD) (j : Fin pre25.K) : Vin25 m outs c (pre25.ref j) = tbl25 m j := Vin25_tbl m outs c j
abbrev Vin26 (m : (ℓ : Loc nD τ sig) → Buf (Elt F) ℓ) (outs : Outs (F := F)) (c : Dev nD) : Valuation τ sig (Elt F) := V53 m outs c
abbrev Vout26 (m : (ℓ : Loc nD τ sig) → Buf (Elt F) ℓ) (outs : Outs (F := F)) (c : Dev nD) : Valuation τ sig (Elt F) := V54 m outs c
theorem Vin26_v3 (m : (ℓ : Loc nD τ sig) → Buf (Elt F) ℓ) (outs : Outs (F := F)) (c : Dev nD) : Vin26 m outs c main_v3 = V1 m c main_v3 := V53_v3 m outs c
theorem Vin26_out (m : (ℓ : Loc nD τ sig) → Buf (Elt F) ℓ) (outs : Outs (F := F)) (c : Dev nD) : Vin26 m outs c main_v110 = V1 m c main_v110 := V53_o26 m outs c
theorem Vout26_v3 (m : (ℓ : Loc nD τ sig) → Buf (Elt F) ℓ) (outs : Outs (F := F)) (c : Dev nD) : Vout26 m outs c main_v3 = V1 m c main_v3 := V54_v3 m outs c
theorem Vout26_out (m : (ℓ : Loc nD τ sig) → Buf (Elt F) ℓ) (outs : Outs (F := F)) (c : Dev nD) : Vout26 m outs c main_v110 = outs 54 main_v110 c := Function.update_self _ _ _
theorem Vout26_of (m : (ℓ : Loc nD τ sig) → Buf (Elt F) ℓ) (outs : Outs (F := F)) (c : Dev nD) (r : Ref sig .tc) (hr : r ∉ ([main_v110] : List (Ref sig .tc))) : Vout26 m outs c r = Vin26 m outs c r := V54_of m outs c r hr
theorem Vin26_tbl' (m : (ℓ : Loc nD τ sig) → Buf (Elt F) ℓ) (outs : Outs (F := F)) (c : Dev nD) (j : Fin pre26.K) : Vin26 m outs c (pre26.ref j) = tbl26 m j := Vin26_tbl m outs c j
abbrev Vin27 (m : (ℓ : Loc nD τ sig) → Buf (Elt F) ℓ) (outs : Outs (F := F)) (c : Dev nD) : Valuation τ sig (Elt F) := V55 m outs c
abbrev Vout27 (m : (ℓ : Loc nD τ sig) → Buf (Elt F) ℓ) (outs : Outs (F := F)) (c : Dev nD) : Valuation τ sig (Elt F) := V56 m outs c
theorem Vin27_v3 (m : (ℓ : Loc nD τ sig) → Buf (Elt F) ℓ) (outs : Outs (F := F)) (c : Dev nD) : Vin27 m outs c main_v3 = V1 m c main_v3 := V55_v3 m outs c
theorem Vin27_out (m : (ℓ : Loc nD τ sig) → Buf (Elt F) ℓ) (outs : Outs (F := F)) (c : Dev nD) : Vin27 m outs c main_v114 = V1 m c main_v114 := V55_o27 m outs c
theorem Vout27_v3 (m : (ℓ : Loc nD τ sig) → Buf (Elt F) ℓ) (outs : Outs (F := F)) (c : Dev nD) : Vout27 m outs c main_v3 = V1 m c main_v3 := V56_v3 m outs c
theorem Vout27_out (m : (ℓ : Loc nD τ sig) → Buf (Elt F) ℓ) (outs : Outs (F := F)) (c : Dev nD) : Vout27 m outs c main_v114 = outs 56 main_v114 c := Function.update_self _ _ _
theorem Vout27_of (m : (ℓ : Loc nD τ sig) → Buf (Elt F) ℓ) (outs : Outs (F := F)) (c : Dev nD) (r : Ref sig .tc) (hr : r ∉ ([main_v114] : List (Ref sig .tc))) : Vout27 m outs c r = Vin27 m outs c r := V56_of m outs c r hr
theorem Vin27_tbl' (m : (ℓ : Loc nD τ sig) → Buf (Elt F) ℓ) (outs : Outs (F := F)) (c : Dev nD) (j : Fin pre27.K) : Vin27 m outs c (pre27.ref j) = tbl27 m j := Vin27_tbl m outs c j
abbrev Vin28 (m : (ℓ : Loc nD τ sig) → Buf (Elt F) ℓ) (outs : Outs (F := F)) (c : Dev nD) : Valuation τ sig (Elt F) := V57 m outs c
abbrev Vout28 (m : (ℓ : Loc nD τ sig) → Buf (Elt F) ℓ) (outs : Outs (F := F)) (c : Dev nD) : Valuation τ sig (Elt F) := V58 m outs c
theorem Vin28_v3 (m : (ℓ : Loc nD τ sig) → Buf (Elt F) ℓ) (outs : Outs (F := F)) (c : Dev nD) : Vin28 m outs c main_v3 = V1 m c main_v3 := V57_v3 m outs c
theorem Vin28_out (m : (ℓ : Loc nD τ sig) → Buf (Elt F) ℓ) (outs : Outs (F := F)) (c : Dev nD) : Vin28 m outs c main_v118 = V1 m c main_v118 := V57_o28 m outs c
theorem Vout28_v3 (m : (ℓ : Loc nD τ sig) → Buf (Elt F) ℓ) (outs : Outs (F := F)) (c : Dev nD) : Vout28 m outs c main_v3 = V1 m c main_v3 := V58_v3 m outs c
theorem Vout28_out (m : (ℓ : Loc nD τ sig) → Buf (Elt F) ℓ) (outs : Outs (F := F)) (c : Dev nD) : Vout28 m outs c main_v118 = outs 58 main_v118 c := Function.update_self _ _ _
theorem Vout28_of (m : (ℓ : Loc nD τ sig) → Buf (Elt F) ℓ) (outs : Outs (F := F)) (c : Dev nD) (r : Ref sig .tc) (hr : r ∉ ([main_v118] : List (Ref sig .tc))) : Vout28 m outs c r = Vin28 m outs c r := V58_of m outs c r hr
theorem Vin28_tbl' (m : (ℓ : Loc nD τ sig) → Buf (Elt F) ℓ) (outs : Outs (F := F)) (c : Dev nD) (j : Fin pre28.K) : Vin28 m outs c (pre28.ref j) = tbl28 m j := Vin28_tbl m outs c j
abbrev Vin29 (m : (ℓ : Loc nD τ sig) → Buf (Elt F) ℓ) (outs : Outs (F := F)) (c : Dev nD) : Valuation τ sig (Elt F) := V59 m outs c
abbrev Vout29 (m : (ℓ : Loc nD τ sig) → Buf (Elt F) ℓ) (outs : Outs (F := F)) (c : Dev nD) : Valuation τ sig (Elt F) := V60 m outs c
theorem Vin29_v3 (m : (ℓ : Loc nD τ sig) → Buf (Elt F) ℓ) (outs : Outs (F := F)) (c : Dev nD) : Vin29 m outs c main_v3 = V1 m c main_v3 := V59_v3 m outs c
theorem Vin29_out (m : (ℓ : Loc nD τ sig) → Buf (Elt F) ℓ) (outs : Outs (F := F)) (c : Dev nD) : Vin29 m outs c main_v122 = V1 m c main_v122 := V59_o29 m outs c
theorem Vout29_v3 (m : (ℓ : Loc nD τ sig) → Buf (Elt F) ℓ) (outs : Outs (F := F)) (c : Dev nD) : Vout29 m outs c main_v3 = V1 m c main_v3 := V60_v3 m outs c
theorem Vout29_out (m : (ℓ : Loc nD τ sig) → Buf (Elt F) ℓ) (outs : Outs (F := F)) (c : Dev nD) : Vout29 m outs c main_v122 = outs 60 main_v122 c := Function.update_self _ _ _
theorem Vout29_of (m : (ℓ : Loc nD τ sig) → Buf (Elt F) ℓ) (outs : Outs (F := F)) (c : Dev nD) (r : Ref sig .tc) (hr : r ∉ ([main_v122] : List (Ref sig .tc))) : Vout29 m outs c r = Vin29 m outs c r := V60_of m outs c r hr
theorem Vin29_tbl' (m : (ℓ : Loc nD τ sig) → Buf (Elt F) ℓ) (outs : Outs (F := F)) (c : Dev nD) (j : Fin pre29.K) : Vin29 m outs c (pre29.ref j) = tbl29 m j := Vin29_tbl m outs c j
abbrev Vin30 (m : (ℓ : Loc nD τ sig) → Buf (Elt F) ℓ) (outs : Outs (F := F)) (c : Dev nD) : Valuation τ sig (Elt F) := V61 m outs c
abbrev Vout30 (m : (ℓ : Loc nD τ sig) → Buf (Elt F) ℓ) (outs : Outs (F := F)) (c : Dev nD) : Valuation τ sig (Elt F) := V62 m outs c
theorem Vin30_v3 (m : (ℓ : Loc nD τ sig) → Buf (Elt F) ℓ) (outs : Outs (F := F)) (c : Dev nD) : Vin30 m outs c main_v3 = V1 m c main_v3 := V61_v3 m outs c
theorem Vin30_out (m : (ℓ : Loc nD τ sig) → Buf (Elt F) ℓ) (outs : Outs (F := F)) (c : Dev nD) : Vin30 m outs c main_v126 = V1 m c main_v126 := V61_o30 m outs c
theorem Vout30_v3 (m : (ℓ : Loc nD τ sig) → Buf (Elt F) ℓ) (outs : Outs (F := F)) (c : Dev nD) : Vout30 m outs c main_v3 = V1 m c main_v3 := V62_v3 m outs c
theorem Vout30_out (m : (ℓ : Loc nD τ sig) → Buf (Elt F) ℓ) (outs : Outs (F := F)) (c : Dev nD) : Vout30 m outs c main_v126 = outs 62 main_v126 c := Function.update_self _ _ _
theorem Vout30_of (m : (ℓ : Loc nD τ sig) → Buf (Elt F) ℓ) (outs : Outs (F := F)) (c : Dev nD) (r : Ref sig .tc) (hr : r ∉ ([main_v126] : List (Ref sig .tc))) : Vout30 m outs c r = Vin30 m outs c r := V62_of m outs c r hr
theorem Vin30_tbl' (m : (ℓ : Loc nD τ sig) → Buf (Elt F) ℓ) (outs : Outs (F := F)) (c : Dev nD) (j : Fin pre30.K) : Vin30 m outs c (pre30.ref j) = tbl30 m j := Vin30_tbl m outs c j
abbrev Vin31 (m : (ℓ : Loc nD τ sig) → Buf (Elt F) ℓ) (outs : Outs (F := F)) (c : Dev nD) : Valuation τ sig (Elt F) := V63 m outs c
abbrev Vout31 (m : (ℓ : Loc nD τ sig) → Buf (Elt F) ℓ) (outs : Outs (F := F)) (c : Dev nD) : Valuation τ sig (Elt F) := V64 m outs c
theorem Vin31_v3 (m : (ℓ : Loc nD τ sig) → Buf (Elt F) ℓ) (outs : Outs (F := F)) (c : Dev nD) : Vin31 m outs c main_v3 = V1 m c main_v3 := V63_v3 m outs c
theorem Vin31_out (m : (ℓ : Loc nD τ sig) → Buf (Elt F) ℓ) (outs : Outs (F := F)) (c : Dev nD) : Vin31 m outs c main_v130 = V1 m c main_v130 := V63_o31 m outs c
theorem Vout31_v3 (m : (ℓ : Loc nD τ sig) → Buf (Elt F) ℓ) (outs : Outs (F := F)) (c : Dev nD) : Vout31 m outs c main_v3 = V1 m c main_v3 := V64_v3 m outs c
theorem Vout31_out (m : (ℓ : Loc nD τ sig) → Buf (Elt F) ℓ) (outs : Outs (F := F)) (c : Dev nD) : Vout31 m outs c main_v130 = outs 64 main_v130 c := Function.update_self _ _ _
theorem Vout31_of (m : (ℓ : Loc nD τ sig) → Buf (Elt F) ℓ) (outs : Outs (F := F)) (c : Dev nD) (r : Ref sig .tc) (hr : r ∉ ([main_v130] : List (Ref sig .tc))) : Vout31 m outs c r = Vin31 m outs c r := V64_of m outs c r hr
theorem Vin31_tbl' (m : (ℓ : Loc nD τ sig) → Buf (Elt F) ℓ) (outs : Outs (F := F)) (c : Dev nD) (j : Fin pre31.K) : Vin31 m outs c (pre31.ref j) = tbl31 m j := Vin31_tbl m outs c j

end Cert.KernelIdeal.Hand

end
-- ==== Proof.Spec.lean ====
/- The mathematics of the pooled maximum, free of any program: out[i, l] = max over the 32 neighbours k of
   xpad[row i k, l], computed as a running maximum from -inf in the order k = 0, 1, ..., 31. -/
import Idealize.ShloMosaic.PureOps
import Idealize.ShloMosaic.PureOps.Ideal
import Idealize.ShloMosaic.Lib.ValueIdx

noncomputable section

namespace Cert.PoolSpec

open Idealize.ShloMosaic Idealize.ShloMosaic.ValueIdx

variable {F : FTy → Type} [FloatOps F]

abbrev Sx : Shape := ⟨3, ![262145, 1, 128]⟩
abbrev So : Shape := ⟨3, ![2048, 1, 128]⟩

/-- -inf, the value the running maximum starts from. -/
abbrev ninf : F .f32 := Scalar.ofBits .f32 0xFF800000#32

/-- The running maximum of g 0, ..., g (n - 1), from -inf, in that order. -/
def runMax (g : ℕ → F .f32) : ℕ → F .f32
  | 0 => ninf
  | n + 1 => FloatOps.maximumf (runMax g n) (g n)

/-- One chunk's pooled row i at lane l: the running maximum over the 32 rows of the padded feature array that
    `row i` names. -/
def regionOutAt (x : FVec F Sx .f32) (row : Fin 2048 → Fin 32 → Fin 262145) (i : Fin 2048) (l : Fin 128) : F .f32 :=
  runMax (fun k => if h : k < 32 then x (ix3 (row i ⟨k, h⟩) 0 l) else ninf) 32

/-- One chunk's pooled rows as an array of 2048 x 1 x 128. -/
def regionOut (x : FVec F Sx .f32) (row : Fin 2048 → Fin 32 → Fin 262145) : FVec F So .f32 :=
  fun j => regionOutAt x row ⟨(j 0).val, (j 0).isLt⟩ ⟨(j 2).val, (j 2).isLt⟩

theorem regionOut_apply (x : FVec F Sx .f32) (row : Fin 2048 → Fin 32 → Fin 262145) (i : Fin 2048) (l : Fin 128) :
    regionOut x row (ix3 i 0 l) = regionOutAt x row i l := rfl

end Cert.PoolSpec

end
-- ==== Proof.KI.R0.Pipe.lean ====
/- Region 0 (the first 2048 pooled rows): the pipeline at an admissible table, the blocks its windows stage,
   the branch condition of the body and the names the runs are stated over. -/
/- Region 0: the body run once per case of its one branch. Case A (neighbour 0): the accumulator is set to -inf and
   then maximised with the gathered row. Case B (a later neighbour): the accumulator the point before left is
   maximised with the gathered row. Each run finds the pieces the output's staging buffer ends with. -/
/- Region 0: where the grid meets the body's branch and where the output row is written back, in closed form.
   The grid is 2048 rows by 32 neighbours, the neighbour axis fastest: point t is row t / 32, neighbour t % 32. -/
/- Region 0: what the output's staging buffer holds after each point (the running maximum over a row's neighbours
   so far), the pipeline's proof data over it, and the body obligation at every point. -/
/- Region 0: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg0
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre0.Contents (Elt F)) (hO : ok0 (F := F) pf)

abbrev adm : (pcfg0 (F := F)).Adm := ⟨pf, hO⟩
abbrev cfgM : Pipeline.Cfg sig Λ₀ := cfg0 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec0 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec0 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid0.Coords) : Prop := (Scalar.cmpi .ne (Scalar.extui (Scalar.cmpi .eq (BitVec.ofNat 32 (i 1).val) 0#32)) 0#32) = 1#1

abbrev VO_1 : View sig .tc .vmem S1x1x128 .f32 := (Memref.whole cc0_stg1_0 : Memref sig .tc .vmem S1x1x128 .f32).view
abbrev tbM : Memref sig .tc .smem S65536 .i32 := Memref.whole main_v5
abbrev htbM : (tbM).IsWhole := Memref.isWhole_whole _
abbrev ms_0 (t : Fin (cfgM pf hO).N) : Memref sig .tc .vmem S1x1x128 .f32 := spec0_0.stage ((cfgM pf hO).slots t 0)
abbrev hs_0 (t : Fin (cfgM pf hO).N) : (ms_0 pf hO t).IsWhole := hstage0_0 (((cfgM pf hO).slots t 0).cast nbuf0_0)
abbrev ms_1 (t : Fin (cfgM pf hO).N) : Memref sig .tc .vmem S1x1x128 .f32 := spec0_1.stage ((cfgM pf hO).slots t 1)
abbrev hs_1 (t : Fin (cfgM pf hO).N) : (ms_1 pf hO t).IsWhole := hstage0_1 (((cfgM pf hO).slots t 1).cast nbuf0_1)

/-- The body as the pipeline calls it at point `t`. -/
abbrev bodyAt (t : Fin (cfgM pf hO).N) : Prog (TpuEff nD τ sig (Elt F) Λ₀ .tc) PUnit :=
  cc0__gather_max_kernel (grid0.coords t) (Memref.whole main_v5) (Memref.isWhole_whole _) (spec0_0.stage ((cfgM pf hO).slots t 0)) (hstage0_0 (((cfgM pf hO).slots t 0).cast nbuf0_0)) (spec0_1.stage ((cfgM pf hO).slots t 1)) (hstage0_1 (((cfgM pf hO).slots t 1).cast nbuf0_1))

theorem N_eq : (cfgM pf hO).N = 65536 := N_0

end
end Cert.KernelIdeal.Rg0

namespace Cert.KernelIdeal.Rg0
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid0.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc0__gather_max_kernel i tbM htbM arg3 harg3 arg4 harg4) K } := by
  refine ⟨?_, fun E K => ?run⟩
  case run =>
    simp only [cc0__gather_max_kernel_eq_skeleton]; unfold cc0__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid0.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc0__gather_max_kernel i tbM htbM arg3 harg3 arg4 harg4) K } := by
  refine ⟨?_, fun E K => ?run⟩
  case run =>
    simp only [cc0__gather_max_kernel_eq_skeleton]; unfold cc0__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg0

namespace Cert.KernelIdeal.Rg0
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre0.Contents (Elt F)) (hO : ok0 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid0.stride 1 = 1 := by decide
/-- A row lasts 32 consecutive points. -/
theorem stride_0 : grid0.stride 0 = 32 := by decide

/-- The neighbour coordinate of point t is t % 32. -/
theorem coords_1 (t : Fin grid0.N) : (grid0.coords t 1).val = t.val % 32 := by
  show t.val / grid0.stride 1 % grid0.bound 1 = t.val % 32
  rw [stride_1, Nat.div_one]; rfl

/-- The row coordinate of point t is t / 32 (modulo the 2048 rows). -/
theorem coords_0 (t : Fin grid0.N) : (grid0.coords t 0).val = t.val / 32 % 2048 := by
  show t.val / grid0.stride 0 % grid0.bound 0 = _
  rw [stride_0]; rfl

/-- The branch is taken exactly at a row's first neighbour. -/
theorem hcond : ∀ t : Fin (cfgM pf hO).N, cond (grid0.coords t) ↔ t.val % 32 = 0 := by
  intro t
  have e : (grid0.coords t 1).val = t.val % 32 := coords_1 t
  exact (cond_fin32 (grid0.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc0_transform_1 (grid0.coords t) = _
  unfold cc0_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg0

namespace Cert.KernelIdeal.Rg0
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre0.Contents (Elt F)) (hO : ok0 (F := F) pf)

/-- Case A's pieces for the output tile its block, so they cover it. -/
theorem cover_A_1 (c : Dev nD) (i : grid0.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid0.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid0.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid0.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid0.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid0.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid0.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid0.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid0.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec0 w)
  after w t := match w with
    | ⟨0, _⟩ => iblk V pf hO c 0 t
    | ⟨1, _⟩ => (outsAt V pf hO c t.val t.isLt)
  Φ _ := iprop(Pipeline.ΦA spec0 c ∗ Pipeline.prefHeld pre0 c (fun _ => fullShare) pf)
  q _ := fullShare
  owed _ := 0

theorem A_eq (c : Dev nD) (w : Fin (cfgM pf hO).W) : (dat V pf hO c).A w = V c (Pipeline.arrRef spec0 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid0.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid0.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W0, bigSep_W0]
  exact sound_body V pf hO c t

end
end Cert.KernelIdeal.Rg0

namespace Cert.KernelIdeal.Rg0
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre0.Contents (Elt F)) (hO : ok0 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid0.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k0_pay2 (k0_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid0.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k0_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k0_pay2 a b j = FloatOps.maximumf (a j) (b j) := by
  unfold k0_pay2
  simp only [shapeCast_self]
  rfl

/-- The reset value is -inf on every lane. -/
theorem pay1_apply (j : S1x1x128.Idx) : k0_pay1 (F := F) j = PoolSpec.ninf := rfl

/-! ## The table's words and the rows they name -/

/-- The table's word at flat position p (row p / 32, neighbour p % 32 of this chunk). -/
def tabWord (pf : pre0.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid0.N) (ht : t.val < 65536) : k0_off1 (grid0.coords t) 0 = t.val := by
  show (Scalar.indexCast (Scalar.addi (Scalar.muli (BitVec.ofNat 32 (grid0.coords t 0).val) 32#32) (BitVec.ofNat 32 (grid0.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre0.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid0.Coords, ∀ a, (k0_off1 i) a + S1.size a ≤ S65536.size a) (h2 : S1.numel = 1)
    (pf : pre0.Contents (Elt F)) (i : grid0.Coords) (n : ℕ) (hn : n < 65536) (e : k0_off1 i 0 = n) :
    cc0_transform_0 h1 h2 pf i = ![(tabWord pf ⟨n, hn⟩).toNat, 0, 0] := by
  rw [← at_unit pf (k0_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc0_transform_0 _ _ pf (grid0.coords t) = _
  exact transform_0_eq _ _ pf (grid0.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb0 pf hO 0 (grid0.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre0.Contents (Elt F)) (hO : ok0 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v6 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg0

end
-- ==== Proof.KI.R1.Pipe.lean ====
/- Region 1 (the first 2048 pooled rows): the pipeline at an admissible table, the blocks its windows stage,
   the branch condition of the body and the names the runs are stated over. -/
/- Region 1: the body run once per case of its one branch. Case A (neighbour 0): the accumulator is set to -inf and
   then maximised with the gathered row. Case B (a later neighbour): the accumulator the point before left is
   maximised with the gathered row. Each run finds the pieces the output's staging buffer ends with. -/
/- Region 1: where the grid meets the body's branch and where the output row is written back, in closed form.
   The grid is 2048 rows by 32 neighbours, the neighbour axis fastest: point t is row t / 32, neighbour t % 32. -/
/- Region 1: what the output's staging buffer holds after each point (the running maximum over a row's neighbours
   so far), the pipeline's proof data over it, and the body obligation at every point. -/
/- Region 1: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg1
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre1.Contents (Elt F)) (hO : ok1 (F := F) pf)

abbrev adm : (pcfg1 (F := F)).Adm := ⟨pf, hO⟩
abbrev cfgM : Pipeline.Cfg sig Λ₀ := cfg1 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec1 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec1 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid1.Coords) : Prop := (Scalar.cmpi .ne (Scalar.extui (Scalar.cmpi .eq (BitVec.ofNat 32 (i 1).val) 0#32)) 0#32) = 1#1

abbrev VO_1 : View sig .tc .vmem S1x1x128 .f32 := (Memref.whole cc1_stg1_0 : Memref sig .tc .vmem S1x1x128 .f32).view
abbrev tbM : Memref sig .tc .smem S65536 .i32 := Memref.whole main_v9
abbrev htbM : (tbM).IsWhole := Memref.isWhole_whole _
abbrev ms_0 (t : Fin (cfgM pf hO).N) : Memref sig .tc .vmem S1x1x128 .f32 := spec1_0.stage ((cfgM pf hO).slots t 0)
abbrev hs_0 (t : Fin (cfgM pf hO).N) : (ms_0 pf hO t).IsWhole := hstage1_0 (((cfgM pf hO).slots t 0).cast nbuf1_0)
abbrev ms_1 (t : Fin (cfgM pf hO).N) : Memref sig .tc .vmem S1x1x128 .f32 := spec1_1.stage ((cfgM pf hO).slots t 1)
abbrev hs_1 (t : Fin (cfgM pf hO).N) : (ms_1 pf hO t).IsWhole := hstage1_1 (((cfgM pf hO).slots t 1).cast nbuf1_1)

/-- The body as the pipeline calls it at point `t`. -/
abbrev bodyAt (t : Fin (cfgM pf hO).N) : Prog (TpuEff nD τ sig (Elt F) Λ₀ .tc) PUnit :=
  cc1__gather_max_kernel (grid1.coords t) (Memref.whole main_v9) (Memref.isWhole_whole _) (spec1_0.stage ((cfgM pf hO).slots t 0)) (hstage1_0 (((cfgM pf hO).slots t 0).cast nbuf1_0)) (spec1_1.stage ((cfgM pf hO).slots t 1)) (hstage1_1 (((cfgM pf hO).slots t 1).cast nbuf1_1))

theorem N_eq : (cfgM pf hO).N = 65536 := N_1

end
end Cert.KernelIdeal.Rg1

namespace Cert.KernelIdeal.Rg1
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid1.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc1__gather_max_kernel i tbM htbM arg3 harg3 arg4 harg4) K } := by
  refine ⟨?_, fun E K => ?run⟩
  case run =>
    simp only [cc1__gather_max_kernel_eq_skeleton]; unfold cc1__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid1.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc1__gather_max_kernel i tbM htbM arg3 harg3 arg4 harg4) K } := by
  refine ⟨?_, fun E K => ?run⟩
  case run =>
    simp only [cc1__gather_max_kernel_eq_skeleton]; unfold cc1__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg1

namespace Cert.KernelIdeal.Rg1
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre1.Contents (Elt F)) (hO : ok1 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid1.stride 1 = 1 := by decide
/-- A row lasts 32 consecutive points. -/
theorem stride_0 : grid1.stride 0 = 32 := by decide

/-- The neighbour coordinate of point t is t % 32. -/
theorem coords_1 (t : Fin grid1.N) : (grid1.coords t 1).val = t.val % 32 := by
  show t.val / grid1.stride 1 % grid1.bound 1 = t.val % 32
  rw [stride_1, Nat.div_one]; rfl

/-- The row coordinate of point t is t / 32 (modulo the 2048 rows). -/
theorem coords_0 (t : Fin grid1.N) : (grid1.coords t 0).val = t.val / 32 % 2048 := by
  show t.val / grid1.stride 0 % grid1.bound 0 = _
  rw [stride_0]; rfl

/-- The branch is taken exactly at a row's first neighbour. -/
theorem hcond : ∀ t : Fin (cfgM pf hO).N, cond (grid1.coords t) ↔ t.val % 32 = 0 := by
  intro t
  have e : (grid1.coords t 1).val = t.val % 32 := coords_1 t
  exact (cond_fin32 (grid1.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc1_transform_1 (grid1.coords t) = _
  unfold cc1_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg1

namespace Cert.KernelIdeal.Rg1
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre1.Contents (Elt F)) (hO : ok1 (F := F) pf)

/-- Case A's pieces for the output tile its block, so they cover it. -/
theorem cover_A_1 (c : Dev nD) (i : grid1.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid1.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid1.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid1.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid1.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid1.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid1.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid1.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid1.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec1 w)
  after w t := match w with
    | ⟨0, _⟩ => iblk V pf hO c 0 t
    | ⟨1, _⟩ => (outsAt V pf hO c t.val t.isLt)
  Φ _ := iprop(Pipeline.ΦA spec1 c ∗ Pipeline.prefHeld pre1 c (fun _ => fullShare) pf)
  q _ := fullShare
  owed _ := 0

theorem A_eq (c : Dev nD) (w : Fin (cfgM pf hO).W) : (dat V pf hO c).A w = V c (Pipeline.arrRef spec1 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid1.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid1.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W1, bigSep_W1]
  exact sound_body V pf hO c t

end
end Cert.KernelIdeal.Rg1

namespace Cert.KernelIdeal.Rg1
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre1.Contents (Elt F)) (hO : ok1 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid1.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k1_pay2 (k1_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid1.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k1_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k1_pay2 a b j = FloatOps.maximumf (a j) (b j) := by
  unfold k1_pay2
  simp only [shapeCast_self]
  rfl

/-- The reset value is -inf on every lane. -/
theorem pay1_apply (j : S1x1x128.Idx) : k1_pay1 (F := F) j = PoolSpec.ninf := rfl

/-! ## The table's words and the rows they name -/

/-- The table's word at flat position p (row p / 32, neighbour p % 32 of this chunk). -/
def tabWord (pf : pre1.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid1.N) (ht : t.val < 65536) : k1_off1 (grid1.coords t) 0 = t.val := by
  show (Scalar.indexCast (Scalar.addi (Scalar.muli (BitVec.ofNat 32 (grid1.coords t 0).val) 32#32) (BitVec.ofNat 32 (grid1.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre1.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid1.Coords, ∀ a, (k1_off1 i) a + S1.size a ≤ S65536.size a) (h2 : S1.numel = 1)
    (pf : pre1.Contents (Elt F)) (i : grid1.Coords) (n : ℕ) (hn : n < 65536) (e : k1_off1 i 0 = n) :
    cc1_transform_0 h1 h2 pf i = ![(tabWord pf ⟨n, hn⟩).toNat, 0, 0] := by
  rw [← at_unit pf (k1_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc1_transform_0 _ _ pf (grid1.coords t) = _
  exact transform_0_eq _ _ pf (grid1.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb1 pf hO 0 (grid1.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre1.Contents (Elt F)) (hO : ok1 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v10 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg1

end
-- ==== Proof.KI.R2.Pipe.lean ====
/- Region 2 (the first 2048 pooled rows): the pipeline at an admissible table, the blocks its windows stage,
   the branch condition of the body and the names the runs are stated over. -/
/- Region 2: the body run once per case of its one branch. Case A (neighbour 0): the accumulator is set to -inf and
   then maximised with the gathered row. Case B (a later neighbour): the accumulator the point before left is
   maximised with the gathered row. Each run finds the pieces the output's staging buffer ends with. -/
/- Region 2: where the grid meets the body's branch and where the output row is written back, in closed form.
   The grid is 2048 rows by 32 neighbours, the neighbour axis fastest: point t is row t / 32, neighbour t % 32. -/
/- Region 2: what the output's staging buffer holds after each point (the running maximum over a row's neighbours
   so far), the pipeline's proof data over it, and the body obligation at every point. -/
/- Region 2: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg2
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre2.Contents (Elt F)) (hO : ok2 (F := F) pf)

abbrev adm : (pcfg2 (F := F)).Adm := ⟨pf, hO⟩
abbrev cfgM : Pipeline.Cfg sig Λ₀ := cfg2 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec2 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec2 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid2.Coords) : Prop := (Scalar.cmpi .ne (Scalar.extui (Scalar.cmpi .eq (BitVec.ofNat 32 (i 1).val) 0#32)) 0#32) = 1#1

abbrev VO_1 : View sig .tc .vmem S1x1x128 .f32 := (Memref.whole cc2_stg1_0 : Memref sig .tc .vmem S1x1x128 .f32).view
abbrev tbM : Memref sig .tc .smem S65536 .i32 := Memref.whole main_v13
abbrev htbM : (tbM).IsWhole := Memref.isWhole_whole _
abbrev ms_0 (t : Fin (cfgM pf hO).N) : Memref sig .tc .vmem S1x1x128 .f32 := spec2_0.stage ((cfgM pf hO).slots t 0)
abbrev hs_0 (t : Fin (cfgM pf hO).N) : (ms_0 pf hO t).IsWhole := hstage2_0 (((cfgM pf hO).slots t 0).cast nbuf2_0)
abbrev ms_1 (t : Fin (cfgM pf hO).N) : Memref sig .tc .vmem S1x1x128 .f32 := spec2_1.stage ((cfgM pf hO).slots t 1)
abbrev hs_1 (t : Fin (cfgM pf hO).N) : (ms_1 pf hO t).IsWhole := hstage2_1 (((cfgM pf hO).slots t 1).cast nbuf2_1)

/-- The body as the pipeline calls it at point `t`. -/
abbrev bodyAt (t : Fin (cfgM pf hO).N) : Prog (TpuEff nD τ sig (Elt F) Λ₀ .tc) PUnit :=
  cc2__gather_max_kernel (grid2.coords t) (Memref.whole main_v13) (Memref.isWhole_whole _) (spec2_0.stage ((cfgM pf hO).slots t 0)) (hstage2_0 (((cfgM pf hO).slots t 0).cast nbuf2_0)) (spec2_1.stage ((cfgM pf hO).slots t 1)) (hstage2_1 (((cfgM pf hO).slots t 1).cast nbuf2_1))

theorem N_eq : (cfgM pf hO).N = 65536 := N_2

end
end Cert.KernelIdeal.Rg2

namespace Cert.KernelIdeal.Rg2
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid2.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc2__gather_max_kernel i tbM htbM arg3 harg3 arg4 harg4) K } := by
  refine ⟨?_, fun E K => ?run⟩
  case run =>
    simp only [cc2__gather_max_kernel_eq_skeleton]; unfold cc2__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid2.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc2__gather_max_kernel i tbM htbM arg3 harg3 arg4 harg4) K } := by
  refine ⟨?_, fun E K => ?run⟩
  case run =>
    simp only [cc2__gather_max_kernel_eq_skeleton]; unfold cc2__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg2

namespace Cert.KernelIdeal.Rg2
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre2.Contents (Elt F)) (hO : ok2 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid2.stride 1 = 1 := by decide
/-- A row lasts 32 consecutive points. -/
theorem stride_0 : grid2.stride 0 = 32 := by decide

/-- The neighbour coordinate of point t is t % 32. -/
theorem coords_1 (t : Fin grid2.N) : (grid2.coords t 1).val = t.val % 32 := by
  show t.val / grid2.stride 1 % grid2.bound 1 = t.val % 32
  rw [stride_1, Nat.div_one]; rfl

/-- The row coordinate of point t is t / 32 (modulo the 2048 rows). -/
theorem coords_0 (t : Fin grid2.N) : (grid2.coords t 0).val = t.val / 32 % 2048 := by
  show t.val / grid2.stride 0 % grid2.bound 0 = _
  rw [stride_0]; rfl

/-- The branch is taken exactly at a row's first neighbour. -/
theorem hcond : ∀ t : Fin (cfgM pf hO).N, cond (grid2.coords t) ↔ t.val % 32 = 0 := by
  intro t
  have e : (grid2.coords t 1).val = t.val % 32 := coords_1 t
  exact (cond_fin32 (grid2.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc2_transform_1 (grid2.coords t) = _
  unfold cc2_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg2

namespace Cert.KernelIdeal.Rg2
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre2.Contents (Elt F)) (hO : ok2 (F := F) pf)

/-- Case A's pieces for the output tile its block, so they cover it. -/
theorem cover_A_1 (c : Dev nD) (i : grid2.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid2.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid2.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid2.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid2.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid2.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid2.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid2.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid2.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec2 w)
  after w t := match w with
    | ⟨0, _⟩ => iblk V pf hO c 0 t
    | ⟨1, _⟩ => (outsAt V pf hO c t.val t.isLt)
  Φ _ := iprop(Pipeline.ΦA spec2 c ∗ Pipeline.prefHeld pre2 c (fun _ => fullShare) pf)
  q _ := fullShare
  owed _ := 0

theorem A_eq (c : Dev nD) (w : Fin (cfgM pf hO).W) : (dat V pf hO c).A w = V c (Pipeline.arrRef spec2 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid2.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid2.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W2, bigSep_W2]
  exact sound_body V pf hO c t

end
end Cert.KernelIdeal.Rg2

namespace Cert.KernelIdeal.Rg2
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre2.Contents (Elt F)) (hO : ok2 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid2.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k2_pay2 (k2_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid2.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k2_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k2_pay2 a b j = FloatOps.maximumf (a j) (b j) := by
  unfold k2_pay2
  simp only [shapeCast_self]
  rfl

/-- The reset value is -inf on every lane. -/
theorem pay1_apply (j : S1x1x128.Idx) : k2_pay1 (F := F) j = PoolSpec.ninf := rfl

/-! ## The table's words and the rows they name -/

/-- The table's word at flat position p (row p / 32, neighbour p % 32 of this chunk). -/
def tabWord (pf : pre2.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid2.N) (ht : t.val < 65536) : k2_off1 (grid2.coords t) 0 = t.val := by
  show (Scalar.indexCast (Scalar.addi (Scalar.muli (BitVec.ofNat 32 (grid2.coords t 0).val) 32#32) (BitVec.ofNat 32 (grid2.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre2.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid2.Coords, ∀ a, (k2_off1 i) a + S1.size a ≤ S65536.size a) (h2 : S1.numel = 1)
    (pf : pre2.Contents (Elt F)) (i : grid2.Coords) (n : ℕ) (hn : n < 65536) (e : k2_off1 i 0 = n) :
    cc2_transform_0 h1 h2 pf i = ![(tabWord pf ⟨n, hn⟩).toNat, 0, 0] := by
  rw [← at_unit pf (k2_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc2_transform_0 _ _ pf (grid2.coords t) = _
  exact transform_0_eq _ _ pf (grid2.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb2 pf hO 0 (grid2.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre2.Contents (Elt F)) (hO : ok2 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v14 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg2

end
-- ==== Proof.KI.R3.Pipe.lean ====
/- Region 3 (the first 2048 pooled rows): the pipeline at an admissible table, the blocks its windows stage,
   the branch condition of the body and the names the runs are stated over. -/
/- Region 3: the body run once per case of its one branch. Case A (neighbour 0): the accumulator is set to -inf and
   then maximised with the gathered row. Case B (a later neighbour): the accumulator the point before left is
   maximised with the gathered row. Each run finds the pieces the output's staging buffer ends with. -/
/- Region 3: where the grid meets the body's branch and where the output row is written back, in closed form.
   The grid is 2048 rows by 32 neighbours, the neighbour axis fastest: point t is row t / 32, neighbour t % 32. -/
/- Region 3: what the output's staging buffer holds after each point (the running maximum over a row's neighbours
   so far), the pipeline's proof data over it, and the body obligation at every point. -/
/- Region 3: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg3
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre3.Contents (Elt F)) (hO : ok3 (F := F) pf)

abbrev adm : (pcfg3 (F := F)).Adm := ⟨pf, hO⟩
abbrev cfgM : Pipeline.Cfg sig Λ₀ := cfg3 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec3 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec3 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid3.Coords) : Prop := (Scalar.cmpi .ne (Scalar.extui (Scalar.cmpi .eq (BitVec.ofNat 32 (i 1).val) 0#32)) 0#32) = 1#1

abbrev VO_1 : View sig .tc .vmem S1x1x128 .f32 := (Memref.whole cc3_stg1_0 : Memref sig .tc .vmem S1x1x128 .f32).view
abbrev tbM : Memref sig .tc .smem S65536 .i32 := Memref.whole main_v17
abbrev htbM : (tbM).IsWhole := Memref.isWhole_whole _
abbrev ms_0 (t : Fin (cfgM pf hO).N) : Memref sig .tc .vmem S1x1x128 .f32 := spec3_0.stage ((cfgM pf hO).slots t 0)
abbrev hs_0 (t : Fin (cfgM pf hO).N) : (ms_0 pf hO t).IsWhole := hstage3_0 (((cfgM pf hO).slots t 0).cast nbuf3_0)
abbrev ms_1 (t : Fin (cfgM pf hO).N) : Memref sig .tc .vmem S1x1x128 .f32 := spec3_1.stage ((cfgM pf hO).slots t 1)
abbrev hs_1 (t : Fin (cfgM pf hO).N) : (ms_1 pf hO t).IsWhole := hstage3_1 (((cfgM pf hO).slots t 1).cast nbuf3_1)

/-- The body as the pipeline calls it at point `t`. -/
abbrev bodyAt (t : Fin (cfgM pf hO).N) : Prog (TpuEff nD τ sig (Elt F) Λ₀ .tc) PUnit :=
  cc3__gather_max_kernel (grid3.coords t) (Memref.whole main_v17) (Memref.isWhole_whole _) (spec3_0.stage ((cfgM pf hO).slots t 0)) (hstage3_0 (((cfgM pf hO).slots t 0).cast nbuf3_0)) (spec3_1.stage ((cfgM pf hO).slots t 1)) (hstage3_1 (((cfgM pf hO).slots t 1).cast nbuf3_1))

theorem N_eq : (cfgM pf hO).N = 65536 := N_3

end
end Cert.KernelIdeal.Rg3

namespace Cert.KernelIdeal.Rg3
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid3.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc3__gather_max_kernel i tbM htbM arg3 harg3 arg4 harg4) K } := by
  refine ⟨?_, fun E K => ?run⟩
  case run =>
    simp only [cc3__gather_max_kernel_eq_skeleton]; unfold cc3__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid3.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc3__gather_max_kernel i tbM htbM arg3 harg3 arg4 harg4) K } := by
  refine ⟨?_, fun E K => ?run⟩
  case run =>
    simp only [cc3__gather_max_kernel_eq_skeleton]; unfold cc3__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg3

namespace Cert.KernelIdeal.Rg3
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre3.Contents (Elt F)) (hO : ok3 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid3.stride 1 = 1 := by decide
/-- A row lasts 32 consecutive points. -/
theorem stride_0 : grid3.stride 0 = 32 := by decide

/-- The neighbour coordinate of point t is t % 32. -/
theorem coords_1 (t : Fin grid3.N) : (grid3.coords t 1).val = t.val % 32 := by
  show t.val / grid3.stride 1 % grid3.bound 1 = t.val % 32
  rw [stride_1, Nat.div_one]; rfl

/-- The row coordinate of point t is t / 32 (modulo the 2048 rows). -/
theorem coords_0 (t : Fin grid3.N) : (grid3.coords t 0).val = t.val / 32 % 2048 := by
  show t.val / grid3.stride 0 % grid3.bound 0 = _
  rw [stride_0]; rfl

/-- The branch is taken exactly at a row's first neighbour. -/
theorem hcond : ∀ t : Fin (cfgM pf hO).N, cond (grid3.coords t) ↔ t.val % 32 = 0 := by
  intro t
  have e : (grid3.coords t 1).val = t.val % 32 := coords_1 t
  exact (cond_fin32 (grid3.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc3_transform_1 (grid3.coords t) = _
  unfold cc3_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg3

namespace Cert.KernelIdeal.Rg3
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre3.Contents (Elt F)) (hO : ok3 (F := F) pf)

/-- Case A's pieces for the output tile its block, so they cover it. -/
theorem cover_A_1 (c : Dev nD) (i : grid3.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid3.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid3.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid3.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid3.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid3.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid3.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid3.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid3.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec3 w)
  after w t := match w with
    | ⟨0, _⟩ => iblk V pf hO c 0 t
    | ⟨1, _⟩ => (outsAt V pf hO c t.val t.isLt)
  Φ _ := iprop(Pipeline.ΦA spec3 c ∗ Pipeline.prefHeld pre3 c (fun _ => fullShare) pf)
  q _ := fullShare
  owed _ := 0

theorem A_eq (c : Dev nD) (w : Fin (cfgM pf hO).W) : (dat V pf hO c).A w = V c (Pipeline.arrRef spec3 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid3.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid3.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W3, bigSep_W3]
  exact sound_body V pf hO c t

end
end Cert.KernelIdeal.Rg3

namespace Cert.KernelIdeal.Rg3
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre3.Contents (Elt F)) (hO : ok3 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid3.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k3_pay2 (k3_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid3.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k3_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k3_pay2 a b j = FloatOps.maximumf (a j) (b j) := by
  unfold k3_pay2
  simp only [shapeCast_self]
  rfl

/-- The reset value is -inf on every lane. -/
theorem pay1_apply (j : S1x1x128.Idx) : k3_pay1 (F := F) j = PoolSpec.ninf := rfl

/-! ## The table's words and the rows they name -/

/-- The table's word at flat position p (row p / 32, neighbour p % 32 of this chunk). -/
def tabWord (pf : pre3.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid3.N) (ht : t.val < 65536) : k3_off1 (grid3.coords t) 0 = t.val := by
  show (Scalar.indexCast (Scalar.addi (Scalar.muli (BitVec.ofNat 32 (grid3.coords t 0).val) 32#32) (BitVec.ofNat 32 (grid3.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre3.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid3.Coords, ∀ a, (k3_off1 i) a + S1.size a ≤ S65536.size a) (h2 : S1.numel = 1)
    (pf : pre3.Contents (Elt F)) (i : grid3.Coords) (n : ℕ) (hn : n < 65536) (e : k3_off1 i 0 = n) :
    cc3_transform_0 h1 h2 pf i = ![(tabWord pf ⟨n, hn⟩).toNat, 0, 0] := by
  rw [← at_unit pf (k3_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc3_transform_0 _ _ pf (grid3.coords t) = _
  exact transform_0_eq _ _ pf (grid3.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb3 pf hO 0 (grid3.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre3.Contents (Elt F)) (hO : ok3 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v18 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg3

end
-- ==== Proof.KI.R4.Pipe.lean ====
/- Region 4 (the first 2048 pooled rows): the pipeline at an admissible table, the blocks its windows stage,
   the branch condition of the body and the names the runs are stated over. -/
/- Region 4: the body run once per case of its one branch. Case A (neighbour 0): the accumulator is set to -inf and
   then maximised with the gathered row. Case B (a later neighbour): the accumulator the point before left is
   maximised with the gathered row. Each run finds the pieces the output's staging buffer ends with. -/
/- Region 4: where the grid meets the body's branch and where the output row is written back, in closed form.
   The grid is 2048 rows by 32 neighbours, the neighbour axis fastest: point t is row t / 32, neighbour t % 32. -/
/- Region 4: what the output's staging buffer holds after each point (the running maximum over a row's neighbours
   so far), the pipeline's proof data over it, and the body obligation at every point. -/
/- Region 4: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg4
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre4.Contents (Elt F)) (hO : ok4 (F := F) pf)

abbrev adm : (pcfg4 (F := F)).Adm := ⟨pf, hO⟩
abbrev cfgM : Pipeline.Cfg sig Λ₀ := cfg4 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec4 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec4 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid4.Coords) : Prop := (Scalar.cmpi .ne (Scalar.extui (Scalar.cmpi .eq (BitVec.ofNat 32 (i 1).val) 0#32)) 0#32) = 1#1

abbrev VO_1 : View sig .tc .vmem S1x1x128 .f32 := (Memref.whole cc4_stg1_0 : Memref sig .tc .vmem S1x1x128 .f32).view
abbrev tbM : Memref sig .tc .smem S65536 .i32 := Memref.whole main_v21
abbrev htbM : (tbM).IsWhole := Memref.isWhole_whole _
abbrev ms_0 (t : Fin (cfgM pf hO).N) : Memref sig .tc .vmem S1x1x128 .f32 := spec4_0.stage ((cfgM pf hO).slots t 0)
abbrev hs_0 (t : Fin (cfgM pf hO).N) : (ms_0 pf hO t).IsWhole := hstage4_0 (((cfgM pf hO).slots t 0).cast nbuf4_0)
abbrev ms_1 (t : Fin (cfgM pf hO).N) : Memref sig .tc .vmem S1x1x128 .f32 := spec4_1.stage ((cfgM pf hO).slots t 1)
abbrev hs_1 (t : Fin (cfgM pf hO).N) : (ms_1 pf hO t).IsWhole := hstage4_1 (((cfgM pf hO).slots t 1).cast nbuf4_1)

/-- The body as the pipeline calls it at point `t`. -/
abbrev bodyAt (t : Fin (cfgM pf hO).N) : Prog (TpuEff nD τ sig (Elt F) Λ₀ .tc) PUnit :=
  cc4__gather_max_kernel (grid4.coords t) (Memref.whole main_v21) (Memref.isWhole_whole _) (spec4_0.stage ((cfgM pf hO).slots t 0)) (hstage4_0 (((cfgM pf hO).slots t 0).cast nbuf4_0)) (spec4_1.stage ((cfgM pf hO).slots t 1)) (hstage4_1 (((cfgM pf hO).slots t 1).cast nbuf4_1))

theorem N_eq : (cfgM pf hO).N = 65536 := N_4

end
end Cert.KernelIdeal.Rg4

namespace Cert.KernelIdeal.Rg4
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid4.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc4__gather_max_kernel i tbM htbM arg3 harg3 arg4 harg4) K } := by
  refine ⟨?_, fun E K => ?run⟩
  case run =>
    simp only [cc4__gather_max_kernel_eq_skeleton]; unfold cc4__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid4.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc4__gather_max_kernel i tbM htbM arg3 harg3 arg4 harg4) K } := by
  refine ⟨?_, fun E K => ?run⟩
  case run =>
    simp only [cc4__gather_max_kernel_eq_skeleton]; unfold cc4__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg4

namespace Cert.KernelIdeal.Rg4
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre4.Contents (Elt F)) (hO : ok4 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid4.stride 1 = 1 := by decide
/-- A row lasts 32 consecutive points. -/
theorem stride_0 : grid4.stride 0 = 32 := by decide

/-- The neighbour coordinate of point t is t % 32. -/
theorem coords_1 (t : Fin grid4.N) : (grid4.coords t 1).val = t.val % 32 := by
  show t.val / grid4.stride 1 % grid4.bound 1 = t.val % 32
  rw [stride_1, Nat.div_one]; rfl

/-- The row coordinate of point t is t / 32 (modulo the 2048 rows). -/
theorem coords_0 (t : Fin grid4.N) : (grid4.coords t 0).val = t.val / 32 % 2048 := by
  show t.val / grid4.stride 0 % grid4.bound 0 = _
  rw [stride_0]; rfl

/-- The branch is taken exactly at a row's first neighbour. -/
theorem hcond : ∀ t : Fin (cfgM pf hO).N, cond (grid4.coords t) ↔ t.val % 32 = 0 := by
  intro t
  have e : (grid4.coords t 1).val = t.val % 32 := coords_1 t
  exact (cond_fin32 (grid4.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc4_transform_1 (grid4.coords t) = _
  unfold cc4_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg4

namespace Cert.KernelIdeal.Rg4
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre4.Contents (Elt F)) (hO : ok4 (F := F) pf)

/-- Case A's pieces for the output tile its block, so they cover it. -/
theorem cover_A_1 (c : Dev nD) (i : grid4.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid4.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid4.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid4.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid4.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid4.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid4.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid4.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid4.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec4 w)
  after w t := match w with
    | ⟨0, _⟩ => iblk V pf hO c 0 t
    | ⟨1, _⟩ => (outsAt V pf hO c t.val t.isLt)
  Φ _ := iprop(Pipeline.ΦA spec4 c ∗ Pipeline.prefHeld pre4 c (fun _ => fullShare) pf)
  q _ := fullShare
  owed _ := 0

theorem A_eq (c : Dev nD) (w : Fin (cfgM pf hO).W) : (dat V pf hO c).A w = V c (Pipeline.arrRef spec4 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid4.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid4.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W4, bigSep_W4]
  exact sound_body V pf hO c t

end
end Cert.KernelIdeal.Rg4

namespace Cert.KernelIdeal.Rg4
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre4.Contents (Elt F)) (hO : ok4 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid4.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k4_pay2 (k4_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid4.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k4_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k4_pay2 a b j = FloatOps.maximumf (a j) (b j) := by
  unfold k4_pay2
  simp only [shapeCast_self]
  rfl

/-- The reset value is -inf on every lane. -/
theorem pay1_apply (j : S1x1x128.Idx) : k4_pay1 (F := F) j = PoolSpec.ninf := rfl

/-! ## The table's words and the rows they name -/

/-- The table's word at flat position p (row p / 32, neighbour p % 32 of this chunk). -/
def tabWord (pf : pre4.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid4.N) (ht : t.val < 65536) : k4_off1 (grid4.coords t) 0 = t.val := by
  show (Scalar.indexCast (Scalar.addi (Scalar.muli (BitVec.ofNat 32 (grid4.coords t 0).val) 32#32) (BitVec.ofNat 32 (grid4.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre4.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid4.Coords, ∀ a, (k4_off1 i) a + S1.size a ≤ S65536.size a) (h2 : S1.numel = 1)
    (pf : pre4.Contents (Elt F)) (i : grid4.Coords) (n : ℕ) (hn : n < 65536) (e : k4_off1 i 0 = n) :
    cc4_transform_0 h1 h2 pf i = ![(tabWord pf ⟨n, hn⟩).toNat, 0, 0] := by
  rw [← at_unit pf (k4_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc4_transform_0 _ _ pf (grid4.coords t) = _
  exact transform_0_eq _ _ pf (grid4.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb4 pf hO 0 (grid4.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre4.Contents (Elt F)) (hO : ok4 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v22 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg4

end
-- ==== Proof.KI.R5.Pipe.lean ====
/- Region 5 (the first 2048 pooled rows): the pipeline at an admissible table, the blocks its windows stage,
   the branch condition of the body and the names the runs are stated over. -/
/- Region 5: the body run once per case of its one branch. Case A (neighbour 0): the accumulator is set to -inf and
   then maximised with the gathered row. Case B (a later neighbour): the accumulator the point before left is
   maximised with the gathered row. Each run finds the pieces the output's staging buffer ends with. -/
/- Region 5: where the grid meets the body's branch and where the output row is written back, in closed form.
   The grid is 2048 rows by 32 neighbours, the neighbour axis fastest: point t is row t / 32, neighbour t % 32. -/
/- Region 5: what the output's staging buffer holds after each point (the running maximum over a row's neighbours
   so far), the pipeline's proof data over it, and the body obligation at every point. -/
/- Region 5: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg5
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre5.Contents (Elt F)) (hO : ok5 (F := F) pf)

abbrev adm : (pcfg5 (F := F)).Adm := ⟨pf, hO⟩
abbrev cfgM : Pipeline.Cfg sig Λ₀ := cfg5 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec5 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec5 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid5.Coords) : Prop := (Scalar.cmpi .ne (Scalar.extui (Scalar.cmpi .eq (BitVec.ofNat 32 (i 1).val) 0#32)) 0#32) = 1#1

abbrev VO_1 : View sig .tc .vmem S1x1x128 .f32 := (Memref.whole cc5_stg1_0 : Memref sig .tc .vmem S1x1x128 .f32).view
abbrev tbM : Memref sig .tc .smem S65536 .i32 := Memref.whole main_v25
abbrev htbM : (tbM).IsWhole := Memref.isWhole_whole _
abbrev ms_0 (t : Fin (cfgM pf hO).N) : Memref sig .tc .vmem S1x1x128 .f32 := spec5_0.stage ((cfgM pf hO).slots t 0)
abbrev hs_0 (t : Fin (cfgM pf hO).N) : (ms_0 pf hO t).IsWhole := hstage5_0 (((cfgM pf hO).slots t 0).cast nbuf5_0)
abbrev ms_1 (t : Fin (cfgM pf hO).N) : Memref sig .tc .vmem S1x1x128 .f32 := spec5_1.stage ((cfgM pf hO).slots t 1)
abbrev hs_1 (t : Fin (cfgM pf hO).N) : (ms_1 pf hO t).IsWhole := hstage5_1 (((cfgM pf hO).slots t 1).cast nbuf5_1)

/-- The body as the pipeline calls it at point `t`. -/
abbrev bodyAt (t : Fin (cfgM pf hO).N) : Prog (TpuEff nD τ sig (Elt F) Λ₀ .tc) PUnit :=
  cc5__gather_max_kernel (grid5.coords t) (Memref.whole main_v25) (Memref.isWhole_whole _) (spec5_0.stage ((cfgM pf hO).slots t 0)) (hstage5_0 (((cfgM pf hO).slots t 0).cast nbuf5_0)) (spec5_1.stage ((cfgM pf hO).slots t 1)) (hstage5_1 (((cfgM pf hO).slots t 1).cast nbuf5_1))

theorem N_eq : (cfgM pf hO).N = 65536 := N_5

end
end Cert.KernelIdeal.Rg5

namespace Cert.KernelIdeal.Rg5
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid5.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc5__gather_max_kernel i tbM htbM arg3 harg3 arg4 harg4) K } := by
  refine ⟨?_, fun E K => ?run⟩
  case run =>
    simp only [cc5__gather_max_kernel_eq_skeleton]; unfold cc5__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid5.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc5__gather_max_kernel i tbM htbM arg3 harg3 arg4 harg4) K } := by
  refine ⟨?_, fun E K => ?run⟩
  case run =>
    simp only [cc5__gather_max_kernel_eq_skeleton]; unfold cc5__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg5

namespace Cert.KernelIdeal.Rg5
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre5.Contents (Elt F)) (hO : ok5 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid5.stride 1 = 1 := by decide
/-- A row lasts 32 consecutive points. -/
theorem stride_0 : grid5.stride 0 = 32 := by decide

/-- The neighbour coordinate of point t is t % 32. -/
theorem coords_1 (t : Fin grid5.N) : (grid5.coords t 1).val = t.val % 32 := by
  show t.val / grid5.stride 1 % grid5.bound 1 = t.val % 32
  rw [stride_1, Nat.div_one]; rfl

/-- The row coordinate of point t is t / 32 (modulo the 2048 rows). -/
theorem coords_0 (t : Fin grid5.N) : (grid5.coords t 0).val = t.val / 32 % 2048 := by
  show t.val / grid5.stride 0 % grid5.bound 0 = _
  rw [stride_0]; rfl

/-- The branch is taken exactly at a row's first neighbour. -/
theorem hcond : ∀ t : Fin (cfgM pf hO).N, cond (grid5.coords t) ↔ t.val % 32 = 0 := by
  intro t
  have e : (grid5.coords t 1).val = t.val % 32 := coords_1 t
  exact (cond_fin32 (grid5.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc5_transform_1 (grid5.coords t) = _
  unfold cc5_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg5

namespace Cert.KernelIdeal.Rg5
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre5.Contents (Elt F)) (hO : ok5 (F := F) pf)

/-- Case A's pieces for the output tile its block, so they cover it. -/
theorem cover_A_1 (c : Dev nD) (i : grid5.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid5.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid5.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid5.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid5.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid5.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid5.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid5.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid5.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec5 w)
  after w t := match w with
    | ⟨0, _⟩ => iblk V pf hO c 0 t
    | ⟨1, _⟩ => (outsAt V pf hO c t.val t.isLt)
  Φ _ := iprop(Pipeline.ΦA spec5 c ∗ Pipeline.prefHeld pre5 c (fun _ => fullShare) pf)
  q _ := fullShare
  owed _ := 0

theorem A_eq (c : Dev nD) (w : Fin (cfgM pf hO).W) : (dat V pf hO c).A w = V c (Pipeline.arrRef spec5 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid5.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid5.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W5, bigSep_W5]
  exact sound_body V pf hO c t

end
end Cert.KernelIdeal.Rg5

namespace Cert.KernelIdeal.Rg5
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre5.Contents (Elt F)) (hO : ok5 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid5.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k5_pay2 (k5_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid5.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k5_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k5_pay2 a b j = FloatOps.maximumf (a j) (b j) := by
  unfold k5_pay2
  simp only [shapeCast_self]
  rfl

/-- The reset value is -inf on every lane. -/
theorem pay1_apply (j : S1x1x128.Idx) : k5_pay1 (F := F) j = PoolSpec.ninf := rfl

/-! ## The table's words and the rows they name -/

/-- The table's word at flat position p (row p / 32, neighbour p % 32 of this chunk). -/
def tabWord (pf : pre5.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid5.N) (ht : t.val < 65536) : k5_off1 (grid5.coords t) 0 = t.val := by
  show (Scalar.indexCast (Scalar.addi (Scalar.muli (BitVec.ofNat 32 (grid5.coords t 0).val) 32#32) (BitVec.ofNat 32 (grid5.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre5.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid5.Coords, ∀ a, (k5_off1 i) a + S1.size a ≤ S65536.size a) (h2 : S1.numel = 1)
    (pf : pre5.Contents (Elt F)) (i : grid5.Coords) (n : ℕ) (hn : n < 65536) (e : k5_off1 i 0 = n) :
    cc5_transform_0 h1 h2 pf i = ![(tabWord pf ⟨n, hn⟩).toNat, 0, 0] := by
  rw [← at_unit pf (k5_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc5_transform_0 _ _ pf (grid5.coords t) = _
  exact transform_0_eq _ _ pf (grid5.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb5 pf hO 0 (grid5.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre5.Contents (Elt F)) (hO : ok5 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v26 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg5

end
-- ==== Proof.KI.R6.Pipe.lean ====
/- Region 6 (the first 2048 pooled rows): the pipeline at an admissible table, the blocks its windows stage,
   the branch condition of the body and the names the runs are stated over. -/
/- Region 6: the body run once per case of its one branch. Case A (neighbour 0): the accumulator is set to -inf and
   then maximised with the gathered row. Case B (a later neighbour): the accumulator the point before left is
   maximised with the gathered row. Each run finds the pieces the output's staging buffer ends with. -/
/- Region 6: where the grid meets the body's branch and where the output row is written back, in closed form.
   The grid is 2048 rows by 32 neighbours, the neighbour axis fastest: point t is row t / 32, neighbour t % 32. -/
/- Region 6: what the output's staging buffer holds after each point (the running maximum over a row's neighbours
   so far), the pipeline's proof data over it, and the body obligation at every point. -/
/- Region 6: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg6
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre6.Contents (Elt F)) (hO : ok6 (F := F) pf)

abbrev adm : (pcfg6 (F := F)).Adm := ⟨pf, hO⟩
abbrev cfgM : Pipeline.Cfg sig Λ₀ := cfg6 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec6 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec6 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid6.Coords) : Prop := (Scalar.cmpi .ne (Scalar.extui (Scalar.cmpi .eq (BitVec.ofNat 32 (i 1).val) 0#32)) 0#32) = 1#1

abbrev VO_1 : View sig .tc .vmem S1x1x128 .f32 := (Memref.whole cc6_stg1_0 : Memref sig .tc .vmem S1x1x128 .f32).view
abbrev tbM : Memref sig .tc .smem S65536 .i32 := Memref.whole main_v29
abbrev htbM : (tbM).IsWhole := Memref.isWhole_whole _
abbrev ms_0 (t : Fin (cfgM pf hO).N) : Memref sig .tc .vmem S1x1x128 .f32 := spec6_0.stage ((cfgM pf hO).slots t 0)
abbrev hs_0 (t : Fin (cfgM pf hO).N) : (ms_0 pf hO t).IsWhole := hstage6_0 (((cfgM pf hO).slots t 0).cast nbuf6_0)
abbrev ms_1 (t : Fin (cfgM pf hO).N) : Memref sig .tc .vmem S1x1x128 .f32 := spec6_1.stage ((cfgM pf hO).slots t 1)
abbrev hs_1 (t : Fin (cfgM pf hO).N) : (ms_1 pf hO t).IsWhole := hstage6_1 (((cfgM pf hO).slots t 1).cast nbuf6_1)

/-- The body as the pipeline calls it at point `t`. -/
abbrev bodyAt (t : Fin (cfgM pf hO).N) : Prog (TpuEff nD τ sig (Elt F) Λ₀ .tc) PUnit :=
  cc6__gather_max_kernel (grid6.coords t) (Memref.whole main_v29) (Memref.isWhole_whole _) (spec6_0.stage ((cfgM pf hO).slots t 0)) (hstage6_0 (((cfgM pf hO).slots t 0).cast nbuf6_0)) (spec6_1.stage ((cfgM pf hO).slots t 1)) (hstage6_1 (((cfgM pf hO).slots t 1).cast nbuf6_1))

theorem N_eq : (cfgM pf hO).N = 65536 := N_6

end
end Cert.KernelIdeal.Rg6

namespace Cert.KernelIdeal.Rg6
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid6.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc6__gather_max_kernel i tbM htbM arg3 harg3 arg4 harg4) K } := by
  refine ⟨?_, fun E K => ?run⟩
  case run =>
    simp only [cc6__gather_max_kernel_eq_skeleton]; unfold cc6__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid6.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc6__gather_max_kernel i tbM htbM arg3 harg3 arg4 harg4) K } := by
  refine ⟨?_, fun E K => ?run⟩
  case run =>
    simp only [cc6__gather_max_kernel_eq_skeleton]; unfold cc6__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg6

namespace Cert.KernelIdeal.Rg6
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre6.Contents (Elt F)) (hO : ok6 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid6.stride 1 = 1 := by decide
/-- A row lasts 32 consecutive points. -/
theorem stride_0 : grid6.stride 0 = 32 := by decide

/-- The neighbour coordinate of point t is t % 32. -/
theorem coords_1 (t : Fin grid6.N) : (grid6.coords t 1).val = t.val % 32 := by
  show t.val / grid6.stride 1 % grid6.bound 1 = t.val % 32
  rw [stride_1, Nat.div_one]; rfl

/-- The row coordinate of point t is t / 32 (modulo the 2048 rows). -/
theorem coords_0 (t : Fin grid6.N) : (grid6.coords t 0).val = t.val / 32 % 2048 := by
  show t.val / grid6.stride 0 % grid6.bound 0 = _
  rw [stride_0]; rfl

/-- The branch is taken exactly at a row's first neighbour. -/
theorem hcond : ∀ t : Fin (cfgM pf hO).N, cond (grid6.coords t) ↔ t.val % 32 = 0 := by
  intro t
  have e : (grid6.coords t 1).val = t.val % 32 := coords_1 t
  exact (cond_fin32 (grid6.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc6_transform_1 (grid6.coords t) = _
  unfold cc6_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg6

namespace Cert.KernelIdeal.Rg6
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre6.Contents (Elt F)) (hO : ok6 (F := F) pf)

/-- Case A's pieces for the output tile its block, so they cover it. -/
theorem cover_A_1 (c : Dev nD) (i : grid6.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid6.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid6.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid6.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid6.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid6.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid6.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid6.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid6.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec6 w)
  after w t := match w with
    | ⟨0, _⟩ => iblk V pf hO c 0 t
    | ⟨1, _⟩ => (outsAt V pf hO c t.val t.isLt)
  Φ _ := iprop(Pipeline.ΦA spec6 c ∗ Pipeline.prefHeld pre6 c (fun _ => fullShare) pf)
  q _ := fullShare
  owed _ := 0

theorem A_eq (c : Dev nD) (w : Fin (cfgM pf hO).W) : (dat V pf hO c).A w = V c (Pipeline.arrRef spec6 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid6.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid6.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W6, bigSep_W6]
  exact sound_body V pf hO c t

end
end Cert.KernelIdeal.Rg6

namespace Cert.KernelIdeal.Rg6
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre6.Contents (Elt F)) (hO : ok6 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid6.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k6_pay2 (k6_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid6.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k6_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k6_pay2 a b j = FloatOps.maximumf (a j) (b j) := by
  unfold k6_pay2
  simp only [shapeCast_self]
  rfl

/-- The reset value is -inf on every lane. -/
theorem pay1_apply (j : S1x1x128.Idx) : k6_pay1 (F := F) j = PoolSpec.ninf := rfl

/-! ## The table's words and the rows they name -/

/-- The table's word at flat position p (row p / 32, neighbour p % 32 of this chunk). -/
def tabWord (pf : pre6.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid6.N) (ht : t.val < 65536) : k6_off1 (grid6.coords t) 0 = t.val := by
  show (Scalar.indexCast (Scalar.addi (Scalar.muli (BitVec.ofNat 32 (grid6.coords t 0).val) 32#32) (BitVec.ofNat 32 (grid6.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre6.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid6.Coords, ∀ a, (k6_off1 i) a + S1.size a ≤ S65536.size a) (h2 : S1.numel = 1)
    (pf : pre6.Contents (Elt F)) (i : grid6.Coords) (n : ℕ) (hn : n < 65536) (e : k6_off1 i 0 = n) :
    cc6_transform_0 h1 h2 pf i = ![(tabWord pf ⟨n, hn⟩).toNat, 0, 0] := by
  rw [← at_unit pf (k6_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc6_transform_0 _ _ pf (grid6.coords t) = _
  exact transform_0_eq _ _ pf (grid6.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb6 pf hO 0 (grid6.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre6.Contents (Elt F)) (hO : ok6 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v30 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg6

end
-- ==== Proof.KI.R7.Pipe.lean ====
/- Region 7 (the first 2048 pooled rows): the pipeline at an admissible table, the blocks its windows stage,
   the branch condition of the body and the names the runs are stated over. -/
/- Region 7: the body run once per case of its one branch. Case A (neighbour 0): the accumulator is set to -inf and
   then maximised with the gathered row. Case B (a later neighbour): the accumulator the point before left is
   maximised with the gathered row. Each run finds the pieces the output's staging buffer ends with. -/
/- Region 7: where the grid meets the body's branch and where the output row is written back, in closed form.
   The grid is 2048 rows by 32 neighbours, the neighbour axis fastest: point t is row t / 32, neighbour t % 32. -/
/- Region 7: what the output's staging buffer holds after each point (the running maximum over a row's neighbours
   so far), the pipeline's proof data over it, and the body obligation at every point. -/
/- Region 7: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg7
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre7.Contents (Elt F)) (hO : ok7 (F := F) pf)

abbrev adm : (pcfg7 (F := F)).Adm := ⟨pf, hO⟩
abbrev cfgM : Pipeline.Cfg sig Λ₀ := cfg7 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec7 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec7 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid7.Coords) : Prop := (Scalar.cmpi .ne (Scalar.extui (Scalar.cmpi .eq (BitVec.ofNat 32 (i 1).val) 0#32)) 0#32) = 1#1

abbrev VO_1 : View sig .tc .vmem S1x1x128 .f32 := (Memref.whole cc7_stg1_0 : Memref sig .tc .vmem S1x1x128 .f32).view
abbrev tbM : Memref sig .tc .smem S65536 .i32 := Memref.whole main_v33
abbrev htbM : (tbM).IsWhole := Memref.isWhole_whole _
abbrev ms_0 (t : Fin (cfgM pf hO).N) : Memref sig .tc .vmem S1x1x128 .f32 := spec7_0.stage ((cfgM pf hO).slots t 0)
abbrev hs_0 (t : Fin (cfgM pf hO).N) : (ms_0 pf hO t).IsWhole := hstage7_0 (((cfgM pf hO).slots t 0).cast nbuf7_0)
abbrev ms_1 (t : Fin (cfgM pf hO).N) : Memref sig .tc .vmem S1x1x128 .f32 := spec7_1.stage ((cfgM pf hO).slots t 1)
abbrev hs_1 (t : Fin (cfgM pf hO).N) : (ms_1 pf hO t).IsWhole := hstage7_1 (((cfgM pf hO).slots t 1).cast nbuf7_1)

/-- The body as the pipeline calls it at point `t`. -/
abbrev bodyAt (t : Fin (cfgM pf hO).N) : Prog (TpuEff nD τ sig (Elt F) Λ₀ .tc) PUnit :=
  cc7__gather_max_kernel (grid7.coords t) (Memref.whole main_v33) (Memref.isWhole_whole _) (spec7_0.stage ((cfgM pf hO).slots t 0)) (hstage7_0 (((cfgM pf hO).slots t 0).cast nbuf7_0)) (spec7_1.stage ((cfgM pf hO).slots t 1)) (hstage7_1 (((cfgM pf hO).slots t 1).cast nbuf7_1))

theorem N_eq : (cfgM pf hO).N = 65536 := N_7

end
end Cert.KernelIdeal.Rg7

namespace Cert.KernelIdeal.Rg7
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid7.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc7__gather_max_kernel i tbM htbM arg3 harg3 arg4 harg4) K } := by
  refine ⟨?_, fun E K => ?run⟩
  case run =>
    simp only [cc7__gather_max_kernel_eq_skeleton]; unfold cc7__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid7.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc7__gather_max_kernel i tbM htbM arg3 harg3 arg4 harg4) K } := by
  refine ⟨?_, fun E K => ?run⟩
  case run =>
    simp only [cc7__gather_max_kernel_eq_skeleton]; unfold cc7__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg7

namespace Cert.KernelIdeal.Rg7
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre7.Contents (Elt F)) (hO : ok7 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid7.stride 1 = 1 := by decide
/-- A row lasts 32 consecutive points. -/
theorem stride_0 : grid7.stride 0 = 32 := by decide

/-- The neighbour coordinate of point t is t % 32. -/
theorem coords_1 (t : Fin grid7.N) : (grid7.coords t 1).val = t.val % 32 := by
  show t.val / grid7.stride 1 % grid7.bound 1 = t.val % 32
  rw [stride_1, Nat.div_one]; rfl

/-- The row coordinate of point t is t / 32 (modulo the 2048 rows). -/
theorem coords_0 (t : Fin grid7.N) : (grid7.coords t 0).val = t.val / 32 % 2048 := by
  show t.val / grid7.stride 0 % grid7.bound 0 = _
  rw [stride_0]; rfl

/-- The branch is taken exactly at a row's first neighbour. -/
theorem hcond : ∀ t : Fin (cfgM pf hO).N, cond (grid7.coords t) ↔ t.val % 32 = 0 := by
  intro t
  have e : (grid7.coords t 1).val = t.val % 32 := coords_1 t
  exact (cond_fin32 (grid7.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc7_transform_1 (grid7.coords t) = _
  unfold cc7_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg7

namespace Cert.KernelIdeal.Rg7
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre7.Contents (Elt F)) (hO : ok7 (F := F) pf)

/-- Case A's pieces for the output tile its block, so they cover it. -/
theorem cover_A_1 (c : Dev nD) (i : grid7.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid7.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid7.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid7.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid7.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid7.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid7.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid7.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid7.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec7 w)
  after w t := match w with
    | ⟨0, _⟩ => iblk V pf hO c 0 t
    | ⟨1, _⟩ => (outsAt V pf hO c t.val t.isLt)
  Φ _ := iprop(Pipeline.ΦA spec7 c ∗ Pipeline.prefHeld pre7 c (fun _ => fullShare) pf)
  q _ := fullShare
  owed _ := 0

theorem A_eq (c : Dev nD) (w : Fin (cfgM pf hO).W) : (dat V pf hO c).A w = V c (Pipeline.arrRef spec7 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid7.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid7.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W7, bigSep_W7]
  exact sound_body V pf hO c t

end
end Cert.KernelIdeal.Rg7

namespace Cert.KernelIdeal.Rg7
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre7.Contents (Elt F)) (hO : ok7 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid7.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k7_pay2 (k7_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid7.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k7_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k7_pay2 a b j = FloatOps.maximumf (a j) (b j) := by
  unfold k7_pay2
  simp only [shapeCast_self]
  rfl

/-- The reset value is -inf on every lane. -/
theorem pay1_apply (j : S1x1x128.Idx) : k7_pay1 (F := F) j = PoolSpec.ninf := rfl

/-! ## The table's words and the rows they name -/

/-- The table's word at flat position p (row p / 32, neighbour p % 32 of this chunk). -/
def tabWord (pf : pre7.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid7.N) (ht : t.val < 65536) : k7_off1 (grid7.coords t) 0 = t.val := by
  show (Scalar.indexCast (Scalar.addi (Scalar.muli (BitVec.ofNat 32 (grid7.coords t 0).val) 32#32) (BitVec.ofNat 32 (grid7.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre7.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid7.Coords, ∀ a, (k7_off1 i) a + S1.size a ≤ S65536.size a) (h2 : S1.numel = 1)
    (pf : pre7.Contents (Elt F)) (i : grid7.Coords) (n : ℕ) (hn : n < 65536) (e : k7_off1 i 0 = n) :
    cc7_transform_0 h1 h2 pf i = ![(tabWord pf ⟨n, hn⟩).toNat, 0, 0] := by
  rw [← at_unit pf (k7_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc7_transform_0 _ _ pf (grid7.coords t) = _
  exact transform_0_eq _ _ pf (grid7.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb7 pf hO 0 (grid7.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre7.Contents (Elt F)) (hO : ok7 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v34 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg7

end
-- ==== Proof.KI.R8.Pipe.lean ====
/- Region 8 (the first 2048 pooled rows): the pipeline at an admissible table, the blocks its windows stage,
   the branch condition of the body and the names the runs are stated over. -/
/- Region 8: the body run once per case of its one branch. Case A (neighbour 0): the accumulator is set to -inf and
   then maximised with the gathered row. Case B (a later neighbour): the accumulator the point before left is
   maximised with the gathered row. Each run finds the pieces the output's staging buffer ends with. -/
/- Region 8: where the grid meets the body's branch and where the output row is written back, in closed form.
   The grid is 2048 rows by 32 neighbours, the neighbour axis fastest: point t is row t / 32, neighbour t % 32. -/
/- Region 8: what the output's staging buffer holds after each point (the running maximum over a row's neighbours
   so far), the pipeline's proof data over it, and the body obligation at every point. -/
/- Region 8: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg8
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre8.Contents (Elt F)) (hO : ok8 (F := F) pf)

abbrev adm : (pcfg8 (F := F)).Adm := ⟨pf, hO⟩
abbrev cfgM : Pipeline.Cfg sig Λ₀ := cfg8 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec8 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec8 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid8.Coords) : Prop := (Scalar.cmpi .ne (Scalar.extui (Scalar.cmpi .eq (BitVec.ofNat 32 (i 1).val) 0#32)) 0#32) = 1#1

abbrev VO_1 : View sig .tc .vmem S1x1x128 .f32 := (Memref.whole cc8_stg1_0 : Memref sig .tc .vmem S1x1x128 .f32).view
abbrev tbM : Memref sig .tc .smem S65536 .i32 := Memref.whole main_v37
abbrev htbM : (tbM).IsWhole := Memref.isWhole_whole _
abbrev ms_0 (t : Fin (cfgM pf hO).N) : Memref sig .tc .vmem S1x1x128 .f32 := spec8_0.stage ((cfgM pf hO).slots t 0)
abbrev hs_0 (t : Fin (cfgM pf hO).N) : (ms_0 pf hO t).IsWhole := hstage8_0 (((cfgM pf hO).slots t 0).cast nbuf8_0)
abbrev ms_1 (t : Fin (cfgM pf hO).N) : Memref sig .tc .vmem S1x1x128 .f32 := spec8_1.stage ((cfgM pf hO).slots t 1)
abbrev hs_1 (t : Fin (cfgM pf hO).N) : (ms_1 pf hO t).IsWhole := hstage8_1 (((cfgM pf hO).slots t 1).cast nbuf8_1)

/-- The body as the pipeline calls it at point `t`. -/
abbrev bodyAt (t : Fin (cfgM pf hO).N) : Prog (TpuEff nD τ sig (Elt F) Λ₀ .tc) PUnit :=
  cc8__gather_max_kernel (grid8.coords t) (Memref.whole main_v37) (Memref.isWhole_whole _) (spec8_0.stage ((cfgM pf hO).slots t 0)) (hstage8_0 (((cfgM pf hO).slots t 0).cast nbuf8_0)) (spec8_1.stage ((cfgM pf hO).slots t 1)) (hstage8_1 (((cfgM pf hO).slots t 1).cast nbuf8_1))

theorem N_eq : (cfgM pf hO).N = 65536 := N_8

end
end Cert.KernelIdeal.Rg8

namespace Cert.KernelIdeal.Rg8
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid8.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc8__gather_max_kernel i tbM htbM arg3 harg3 arg4 harg4) K } := by
  refine ⟨?_, fun E K => ?run⟩
  case run =>
    simp only [cc8__gather_max_kernel_eq_skeleton]; unfold cc8__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid8.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc8__gather_max_kernel i tbM htbM arg3 harg3 arg4 harg4) K } := by
  refine ⟨?_, fun E K => ?run⟩
  case run =>
    simp only [cc8__gather_max_kernel_eq_skeleton]; unfold cc8__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg8

namespace Cert.KernelIdeal.Rg8
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre8.Contents (Elt F)) (hO : ok8 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid8.stride 1 = 1 := by decide
/-- A row lasts 32 consecutive points. -/
theorem stride_0 : grid8.stride 0 = 32 := by decide

/-- The neighbour coordinate of point t is t % 32. -/
theorem coords_1 (t : Fin grid8.N) : (grid8.coords t 1).val = t.val % 32 := by
  show t.val / grid8.stride 1 % grid8.bound 1 = t.val % 32
  rw [stride_1, Nat.div_one]; rfl

/-- The row coordinate of point t is t / 32 (modulo the 2048 rows). -/
theorem coords_0 (t : Fin grid8.N) : (grid8.coords t 0).val = t.val / 32 % 2048 := by
  show t.val / grid8.stride 0 % grid8.bound 0 = _
  rw [stride_0]; rfl

/-- The branch is taken exactly at a row's first neighbour. -/
theorem hcond : ∀ t : Fin (cfgM pf hO).N, cond (grid8.coords t) ↔ t.val % 32 = 0 := by
  intro t
  have e : (grid8.coords t 1).val = t.val % 32 := coords_1 t
  exact (cond_fin32 (grid8.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc8_transform_1 (grid8.coords t) = _
  unfold cc8_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg8

namespace Cert.KernelIdeal.Rg8
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre8.Contents (Elt F)) (hO : ok8 (F := F) pf)

/-- Case A's pieces for the output tile its block, so they cover it. -/
theorem cover_A_1 (c : Dev nD) (i : grid8.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid8.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid8.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid8.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid8.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid8.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid8.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid8.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid8.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec8 w)
  after w t := match w with
    | ⟨0, _⟩ => iblk V pf hO c 0 t
    | ⟨1, _⟩ => (outsAt V pf hO c t.val t.isLt)
  Φ _ := iprop(Pipeline.ΦA spec8 c ∗ Pipeline.prefHeld pre8 c (fun _ => fullShare) pf)
  q _ := fullShare
  owed _ := 0

theorem A_eq (c : Dev nD) (w : Fin (cfgM pf hO).W) : (dat V pf hO c).A w = V c (Pipeline.arrRef spec8 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid8.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid8.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W8, bigSep_W8]
  exact sound_body V pf hO c t

end
end Cert.KernelIdeal.Rg8

namespace Cert.KernelIdeal.Rg8
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre8.Contents (Elt F)) (hO : ok8 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid8.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k8_pay2 (k8_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid8.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k8_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k8_pay2 a b j = FloatOps.maximumf (a j) (b j) := by
  unfold k8_pay2
  simp only [shapeCast_self]
  rfl

/-- The reset value is -inf on every lane. -/
theorem pay1_apply (j : S1x1x128.Idx) : k8_pay1 (F := F) j = PoolSpec.ninf := rfl

/-! ## The table's words and the rows they name -/

/-- The table's word at flat position p (row p / 32, neighbour p % 32 of this chunk). -/
def tabWord (pf : pre8.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid8.N) (ht : t.val < 65536) : k8_off1 (grid8.coords t) 0 = t.val := by
  show (Scalar.indexCast (Scalar.addi (Scalar.muli (BitVec.ofNat 32 (grid8.coords t 0).val) 32#32) (BitVec.ofNat 32 (grid8.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre8.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid8.Coords, ∀ a, (k8_off1 i) a + S1.size a ≤ S65536.size a) (h2 : S1.numel = 1)
    (pf : pre8.Contents (Elt F)) (i : grid8.Coords) (n : ℕ) (hn : n < 65536) (e : k8_off1 i 0 = n) :
    cc8_transform_0 h1 h2 pf i = ![(tabWord pf ⟨n, hn⟩).toNat, 0, 0] := by
  rw [← at_unit pf (k8_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc8_transform_0 _ _ pf (grid8.coords t) = _
  exact transform_0_eq _ _ pf (grid8.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb8 pf hO 0 (grid8.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre8.Contents (Elt F)) (hO : ok8 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v38 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg8

end
-- ==== Proof.KI.R9.Pipe.lean ====
/- Region 9 (the first 2048 pooled rows): the pipeline at an admissible table, the blocks its windows stage,
   the branch condition of the body and the names the runs are stated over. -/
/- Region 9: the body run once per case of its one branch. Case A (neighbour 0): the accumulator is set to -inf and
   then maximised with the gathered row. Case B (a later neighbour): the accumulator the point before left is
   maximised with the gathered row. Each run finds the pieces the output's staging buffer ends with. -/
/- Region 9: where the grid meets the body's branch and where the output row is written back, in closed form.
   The grid is 2048 rows by 32 neighbours, the neighbour axis fastest: point t is row t / 32, neighbour t % 32. -/
/- Region 9: what the output's staging buffer holds after each point (the running maximum over a row's neighbours
   so far), the pipeline's proof data over it, and the body obligation at every point. -/
/- Region 9: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg9
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre9.Contents (Elt F)) (hO : ok9 (F := F) pf)

abbrev adm : (pcfg9 (F := F)).Adm := ⟨pf, hO⟩
abbrev cfgM : Pipeline.Cfg sig Λ₀ := cfg9 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec9 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec9 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid9.Coords) : Prop := (Scalar.cmpi .ne (Scalar.extui (Scalar.cmpi .eq (BitVec.ofNat 32 (i 1).val) 0#32)) 0#32) = 1#1

abbrev VO_1 : View sig .tc .vmem S1x1x128 .f32 := (Memref.whole cc9_stg1_0 : Memref sig .tc .vmem S1x1x128 .f32).view
abbrev tbM : Memref sig .tc .smem S65536 .i32 := Memref.whole main_v41
abbrev htbM : (tbM).IsWhole := Memref.isWhole_whole _
abbrev ms_0 (t : Fin (cfgM pf hO).N) : Memref sig .tc .vmem S1x1x128 .f32 := spec9_0.stage ((cfgM pf hO).slots t 0)
abbrev hs_0 (t : Fin (cfgM pf hO).N) : (ms_0 pf hO t).IsWhole := hstage9_0 (((cfgM pf hO).slots t 0).cast nbuf9_0)
abbrev ms_1 (t : Fin (cfgM pf hO).N) : Memref sig .tc .vmem S1x1x128 .f32 := spec9_1.stage ((cfgM pf hO).slots t 1)
abbrev hs_1 (t : Fin (cfgM pf hO).N) : (ms_1 pf hO t).IsWhole := hstage9_1 (((cfgM pf hO).slots t 1).cast nbuf9_1)

/-- The body as the pipeline calls it at point `t`. -/
abbrev bodyAt (t : Fin (cfgM pf hO).N) : Prog (TpuEff nD τ sig (Elt F) Λ₀ .tc) PUnit :=
  cc9__gather_max_kernel (grid9.coords t) (Memref.whole main_v41) (Memref.isWhole_whole _) (spec9_0.stage ((cfgM pf hO).slots t 0)) (hstage9_0 (((cfgM pf hO).slots t 0).cast nbuf9_0)) (spec9_1.stage ((cfgM pf hO).slots t 1)) (hstage9_1 (((cfgM pf hO).slots t 1).cast nbuf9_1))

theorem N_eq : (cfgM pf hO).N = 65536 := N_9

end
end Cert.KernelIdeal.Rg9

namespace Cert.KernelIdeal.Rg9
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid9.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc9__gather_max_kernel i tbM htbM arg3 harg3 arg4 harg4) K } := by
  refine ⟨?_, fun E K => ?run⟩
  case run =>
    simp only [cc9__gather_max_kernel_eq_skeleton]; unfold cc9__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid9.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc9__gather_max_kernel i tbM htbM arg3 harg3 arg4 harg4) K } := by
  refine ⟨?_, fun E K => ?run⟩
  case run =>
    simp only [cc9__gather_max_kernel_eq_skeleton]; unfold cc9__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg9

namespace Cert.KernelIdeal.Rg9
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre9.Contents (Elt F)) (hO : ok9 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid9.stride 1 = 1 := by decide
/-- A row lasts 32 consecutive points. -/
theorem stride_0 : grid9.stride 0 = 32 := by decide

/-- The neighbour coordinate of point t is t % 32. -/
theorem coords_1 (t : Fin grid9.N) : (grid9.coords t 1).val = t.val % 32 := by
  show t.val / grid9.stride 1 % grid9.bound 1 = t.val % 32
  rw [stride_1, Nat.div_one]; rfl

/-- The row coordinate of point t is t / 32 (modulo the 2048 rows). -/
theorem coords_0 (t : Fin grid9.N) : (grid9.coords t 0).val = t.val / 32 % 2048 := by
  show t.val / grid9.stride 0 % grid9.bound 0 = _
  rw [stride_0]; rfl

/-- The branch is taken exactly at a row's first neighbour. -/
theorem hcond : ∀ t : Fin (cfgM pf hO).N, cond (grid9.coords t) ↔ t.val % 32 = 0 := by
  intro t
  have e : (grid9.coords t 1).val = t.val % 32 := coords_1 t
  exact (cond_fin32 (grid9.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc9_transform_1 (grid9.coords t) = _
  unfold cc9_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg9

namespace Cert.KernelIdeal.Rg9
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre9.Contents (Elt F)) (hO : ok9 (F := F) pf)

/-- Case A's pieces for the output tile its block, so they cover it. -/
theorem cover_A_1 (c : Dev nD) (i : grid9.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid9.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid9.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid9.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid9.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid9.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid9.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid9.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid9.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec9 w)
  after w t := match w with
    | ⟨0, _⟩ => iblk V pf hO c 0 t
    | ⟨1, _⟩ => (outsAt V pf hO c t.val t.isLt)
  Φ _ := iprop(Pipeline.ΦA spec9 c ∗ Pipeline.prefHeld pre9 c (fun _ => fullShare) pf)
  q _ := fullShare
  owed _ := 0

theorem A_eq (c : Dev nD) (w : Fin (cfgM pf hO).W) : (dat V pf hO c).A w = V c (Pipeline.arrRef spec9 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid9.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid9.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W9, bigSep_W9]
  exact sound_body V pf hO c t

end
end Cert.KernelIdeal.Rg9

namespace Cert.KernelIdeal.Rg9
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre9.Contents (Elt F)) (hO : ok9 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid9.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k9_pay2 (k9_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid9.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k9_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k9_pay2 a b j = FloatOps.maximumf (a j) (b j) := by
  unfold k9_pay2
  simp only [shapeCast_self]
  rfl

/-- The reset value is -inf on every lane. -/
theorem pay1_apply (j : S1x1x128.Idx) : k9_pay1 (F := F) j = PoolSpec.ninf := rfl

/-! ## The table's words and the rows they name -/

/-- The table's word at flat position p (row p / 32, neighbour p % 32 of this chunk). -/
def tabWord (pf : pre9.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid9.N) (ht : t.val < 65536) : k9_off1 (grid9.coords t) 0 = t.val := by
  show (Scalar.indexCast (Scalar.addi (Scalar.muli (BitVec.ofNat 32 (grid9.coords t 0).val) 32#32) (BitVec.ofNat 32 (grid9.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre9.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid9.Coords, ∀ a, (k9_off1 i) a + S1.size a ≤ S65536.size a) (h2 : S1.numel = 1)
    (pf : pre9.Contents (Elt F)) (i : grid9.Coords) (n : ℕ) (hn : n < 65536) (e : k9_off1 i 0 = n) :
    cc9_transform_0 h1 h2 pf i = ![(tabWord pf ⟨n, hn⟩).toNat, 0, 0] := by
  rw [← at_unit pf (k9_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc9_transform_0 _ _ pf (grid9.coords t) = _
  exact transform_0_eq _ _ pf (grid9.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb9 pf hO 0 (grid9.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre9.Contents (Elt F)) (hO : ok9 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v42 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg9

end
-- ==== Proof.KI.R10.Pipe.lean ====
/- Region 10 (the first 2048 pooled rows): the pipeline at an admissible table, the blocks its windows stage,
   the branch condition of the body and the names the runs are stated over. -/
/- Region 10: the body run once per case of its one branch. Case A (neighbour 0): the accumulator is set to -inf and
   then maximised with the gathered row. Case B (a later neighbour): the accumulator the point before left is
   maximised with the gathered row. Each run finds the pieces the output's staging buffer ends with. -/
/- Region 10: where the grid meets the body's branch and where the output row is written back, in closed form.
   The grid is 2048 rows by 32 neighbours, the neighbour axis fastest: point t is row t / 32, neighbour t % 32. -/
/- Region 10: what the output's staging buffer holds after each point (the running maximum over a row's neighbours
   so far), the pipeline's proof data over it, and the body obligation at every point. -/
/- Region 10: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg10
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre10.Contents (Elt F)) (hO : ok10 (F := F) pf)

abbrev adm : (pcfg10 (F := F)).Adm := ⟨pf, hO⟩
abbrev cfgM : Pipeline.Cfg sig Λ₀ := cfg10 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec10 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec10 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid10.Coords) : Prop := (Scalar.cmpi .ne (Scalar.extui (Scalar.cmpi .eq (BitVec.ofNat 32 (i 1).val) 0#32)) 0#32) = 1#1

abbrev VO_1 : View sig .tc .vmem S1x1x128 .f32 := (Memref.whole cc10_stg1_0 : Memref sig .tc .vmem S1x1x128 .f32).view
abbrev tbM : Memref sig .tc .smem S65536 .i32 := Memref.whole main_v45
abbrev htbM : (tbM).IsWhole := Memref.isWhole_whole _
abbrev ms_0 (t : Fin (cfgM pf hO).N) : Memref sig .tc .vmem S1x1x128 .f32 := spec10_0.stage ((cfgM pf hO).slots t 0)
abbrev hs_0 (t : Fin (cfgM pf hO).N) : (ms_0 pf hO t).IsWhole := hstage10_0 (((cfgM pf hO).slots t 0).cast nbuf10_0)
abbrev ms_1 (t : Fin (cfgM pf hO).N) : Memref sig .tc .vmem S1x1x128 .f32 := spec10_1.stage ((cfgM pf hO).slots t 1)
abbrev hs_1 (t : Fin (cfgM pf hO).N) : (ms_1 pf hO t).IsWhole := hstage10_1 (((cfgM pf hO).slots t 1).cast nbuf10_1)

/-- The body as the pipeline calls it at point `t`. -/
abbrev bodyAt (t : Fin (cfgM pf hO).N) : Prog (TpuEff nD τ sig (Elt F) Λ₀ .tc) PUnit :=
  cc10__gather_max_kernel (grid10.coords t) (Memref.whole main_v45) (Memref.isWhole_whole _) (spec10_0.stage ((cfgM pf hO).slots t 0)) (hstage10_0 (((cfgM pf hO).slots t 0).cast nbuf10_0)) (spec10_1.stage ((cfgM pf hO).slots t 1)) (hstage10_1 (((cfgM pf hO).slots t 1).cast nbuf10_1))

theorem N_eq : (cfgM pf hO).N = 65536 := N_10

end
end Cert.KernelIdeal.Rg10

namespace Cert.KernelIdeal.Rg10
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid10.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc10__gather_max_kernel i tbM htbM arg3 harg3 arg4 harg4) K } := by
  refine ⟨?_, fun E K => ?run⟩
  case run =>
    simp only [cc10__gather_max_kernel_eq_skeleton]; unfold cc10__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid10.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc10__gather_max_kernel i tbM htbM arg3 harg3 arg4 harg4) K } := by
  refine ⟨?_, fun E K => ?run⟩
  case run =>
    simp only [cc10__gather_max_kernel_eq_skeleton]; unfold cc10__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg10

namespace Cert.KernelIdeal.Rg10
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre10.Contents (Elt F)) (hO : ok10 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid10.stride 1 = 1 := by decide
/-- A row lasts 32 consecutive points. -/
theorem stride_0 : grid10.stride 0 = 32 := by decide

/-- The neighbour coordinate of point t is t % 32. -/
theorem coords_1 (t : Fin grid10.N) : (grid10.coords t 1).val = t.val % 32 := by
  show t.val / grid10.stride 1 % grid10.bound 1 = t.val % 32
  rw [stride_1, Nat.div_one]; rfl

/-- The row coordinate of point t is t / 32 (modulo the 2048 rows). -/
theorem coords_0 (t : Fin grid10.N) : (grid10.coords t 0).val = t.val / 32 % 2048 := by
  show t.val / grid10.stride 0 % grid10.bound 0 = _
  rw [stride_0]; rfl

/-- The branch is taken exactly at a row's first neighbour. -/
theorem hcond : ∀ t : Fin (cfgM pf hO).N, cond (grid10.coords t) ↔ t.val % 32 = 0 := by
  intro t
  have e : (grid10.coords t 1).val = t.val % 32 := coords_1 t
  exact (cond_fin32 (grid10.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc10_transform_1 (grid10.coords t) = _
  unfold cc10_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg10

namespace Cert.KernelIdeal.Rg10
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre10.Contents (Elt F)) (hO : ok10 (F := F) pf)

/-- Case A's pieces for the output tile its block, so they cover it. -/
theorem cover_A_1 (c : Dev nD) (i : grid10.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid10.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid10.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid10.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid10.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid10.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid10.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid10.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid10.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec10 w)
  after w t := match w with
    | ⟨0, _⟩ => iblk V pf hO c 0 t
    | ⟨1, _⟩ => (outsAt V pf hO c t.val t.isLt)
  Φ _ := iprop(Pipeline.ΦA spec10 c ∗ Pipeline.prefHeld pre10 c (fun _ => fullShare) pf)
  q _ := fullShare
  owed _ := 0

theorem A_eq (c : Dev nD) (w : Fin (cfgM pf hO).W) : (dat V pf hO c).A w = V c (Pipeline.arrRef spec10 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid10.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid10.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W10, bigSep_W10]
  exact sound_body V pf hO c t

end
end Cert.KernelIdeal.Rg10

namespace Cert.KernelIdeal.Rg10
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre10.Contents (Elt F)) (hO : ok10 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid10.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k10_pay2 (k10_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid10.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k10_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k10_pay2 a b j = FloatOps.maximumf (a j) (b j) := by
  unfold k10_pay2
  simp only [shapeCast_self]
  rfl

/-- The reset value is -inf on every lane. -/
theorem pay1_apply (j : S1x1x128.Idx) : k10_pay1 (F := F) j = PoolSpec.ninf := rfl

/-! ## The table's words and the rows they name -/

/-- The table's word at flat position p (row p / 32, neighbour p % 32 of this chunk). -/
def tabWord (pf : pre10.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid10.N) (ht : t.val < 65536) : k10_off1 (grid10.coords t) 0 = t.val := by
  show (Scalar.indexCast (Scalar.addi (Scalar.muli (BitVec.ofNat 32 (grid10.coords t 0).val) 32#32) (BitVec.ofNat 32 (grid10.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre10.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid10.Coords, ∀ a, (k10_off1 i) a + S1.size a ≤ S65536.size a) (h2 : S1.numel = 1)
    (pf : pre10.Contents (Elt F)) (i : grid10.Coords) (n : ℕ) (hn : n < 65536) (e : k10_off1 i 0 = n) :
    cc10_transform_0 h1 h2 pf i = ![(tabWord pf ⟨n, hn⟩).toNat, 0, 0] := by
  rw [← at_unit pf (k10_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc10_transform_0 _ _ pf (grid10.coords t) = _
  exact transform_0_eq _ _ pf (grid10.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb10 pf hO 0 (grid10.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre10.Contents (Elt F)) (hO : ok10 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v46 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg10

end
-- ==== Proof.KI.R11.Pipe.lean ====
/- Region 11 (the first 2048 pooled rows): the pipeline at an admissible table, the blocks its windows stage,
   the branch condition of the body and the names the runs are stated over. -/
/- Region 11: the body run once per case of its one branch. Case A (neighbour 0): the accumulator is set to -inf and
   then maximised with the gathered row. Case B (a later neighbour): the accumulator the point before left is
   maximised with the gathered row. Each run finds the pieces the output's staging buffer ends with. -/
/- Region 11: where the grid meets the body's branch and where the output row is written back, in closed form.
   The grid is 2048 rows by 32 neighbours, the neighbour axis fastest: point t is row t / 32, neighbour t % 32. -/
/- Region 11: what the output's staging buffer holds after each point (the running maximum over a row's neighbours
   so far), the pipeline's proof data over it, and the body obligation at every point. -/
/- Region 11: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg11
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre11.Contents (Elt F)) (hO : ok11 (F := F) pf)

abbrev adm : (pcfg11 (F := F)).Adm := ⟨pf, hO⟩
abbrev cfgM : Pipeline.Cfg sig Λ₀ := cfg11 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec11 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec11 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid11.Coords) : Prop := (Scalar.cmpi .ne (Scalar.extui (Scalar.cmpi .eq (BitVec.ofNat 32 (i 1).val) 0#32)) 0#32) = 1#1

abbrev VO_1 : View sig .tc .vmem S1x1x128 .f32 := (Memref.whole cc11_stg1_0 : Memref sig .tc .vmem S1x1x128 .f32).view
abbrev tbM : Memref sig .tc .smem S65536 .i32 := Memref.whole main_v49
abbrev htbM : (tbM).IsWhole := Memref.isWhole_whole _
abbrev ms_0 (t : Fin (cfgM pf hO).N) : Memref sig .tc .vmem S1x1x128 .f32 := spec11_0.stage ((cfgM pf hO).slots t 0)
abbrev hs_0 (t : Fin (cfgM pf hO).N) : (ms_0 pf hO t).IsWhole := hstage11_0 (((cfgM pf hO).slots t 0).cast nbuf11_0)
abbrev ms_1 (t : Fin (cfgM pf hO).N) : Memref sig .tc .vmem S1x1x128 .f32 := spec11_1.stage ((cfgM pf hO).slots t 1)
abbrev hs_1 (t : Fin (cfgM pf hO).N) : (ms_1 pf hO t).IsWhole := hstage11_1 (((cfgM pf hO).slots t 1).cast nbuf11_1)

/-- The body as the pipeline calls it at point `t`. -/
abbrev bodyAt (t : Fin (cfgM pf hO).N) : Prog (TpuEff nD τ sig (Elt F) Λ₀ .tc) PUnit :=
  cc11__gather_max_kernel (grid11.coords t) (Memref.whole main_v49) (Memref.isWhole_whole _) (spec11_0.stage ((cfgM pf hO).slots t 0)) (hstage11_0 (((cfgM pf hO).slots t 0).cast nbuf11_0)) (spec11_1.stage ((cfgM pf hO).slots t 1)) (hstage11_1 (((cfgM pf hO).slots t 1).cast nbuf11_1))

theorem N_eq : (cfgM pf hO).N = 65536 := N_11

end
end Cert.KernelIdeal.Rg11

namespace Cert.KernelIdeal.Rg11
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid11.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc11__gather_max_kernel i tbM htbM arg3 harg3 arg4 harg4) K } := by
  refine ⟨?_, fun E K => ?run⟩
  case run =>
    simp only [cc11__gather_max_kernel_eq_skeleton]; unfold cc11__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid11.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc11__gather_max_kernel i tbM htbM arg3 harg3 arg4 harg4) K } := by
  refine ⟨?_, fun E K => ?run⟩
  case run =>
    simp only [cc11__gather_max_kernel_eq_skeleton]; unfold cc11__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg11

namespace Cert.KernelIdeal.Rg11
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre11.Contents (Elt F)) (hO : ok11 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid11.stride 1 = 1 := by decide
/-- A row lasts 32 consecutive points. -/
theorem stride_0 : grid11.stride 0 = 32 := by decide

/-- The neighbour coordinate of point t is t % 32. -/
theorem coords_1 (t : Fin grid11.N) : (grid11.coords t 1).val = t.val % 32 := by
  show t.val / grid11.stride 1 % grid11.bound 1 = t.val % 32
  rw [stride_1, Nat.div_one]; rfl

/-- The row coordinate of point t is t / 32 (modulo the 2048 rows). -/
theorem coords_0 (t : Fin grid11.N) : (grid11.coords t 0).val = t.val / 32 % 2048 := by
  show t.val / grid11.stride 0 % grid11.bound 0 = _
  rw [stride_0]; rfl

/-- The branch is taken exactly at a row's first neighbour. -/
theorem hcond : ∀ t : Fin (cfgM pf hO).N, cond (grid11.coords t) ↔ t.val % 32 = 0 := by
  intro t
  have e : (grid11.coords t 1).val = t.val % 32 := coords_1 t
  exact (cond_fin32 (grid11.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc11_transform_1 (grid11.coords t) = _
  unfold cc11_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg11

namespace Cert.KernelIdeal.Rg11
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre11.Contents (Elt F)) (hO : ok11 (F := F) pf)

/-- Case A's pieces for the output tile its block, so they cover it. -/
theorem cover_A_1 (c : Dev nD) (i : grid11.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid11.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid11.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid11.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid11.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid11.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid11.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid11.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid11.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec11 w)
  after w t := match w with
    | ⟨0, _⟩ => iblk V pf hO c 0 t
    | ⟨1, _⟩ => (outsAt V pf hO c t.val t.isLt)
  Φ _ := iprop(Pipeline.ΦA spec11 c ∗ Pipeline.prefHeld pre11 c (fun _ => fullShare) pf)
  q _ := fullShare
  owed _ := 0

theorem A_eq (c : Dev nD) (w : Fin (cfgM pf hO).W) : (dat V pf hO c).A w = V c (Pipeline.arrRef spec11 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid11.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid11.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W11, bigSep_W11]
  exact sound_body V pf hO c t

end
end Cert.KernelIdeal.Rg11

namespace Cert.KernelIdeal.Rg11
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre11.Contents (Elt F)) (hO : ok11 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid11.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k11_pay2 (k11_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid11.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k11_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k11_pay2 a b j = FloatOps.maximumf (a j) (b j) := by
  unfold k11_pay2
  simp only [shapeCast_self]
  rfl

/-- The reset value is -inf on every lane. -/
theorem pay1_apply (j : S1x1x128.Idx) : k11_pay1 (F := F) j = PoolSpec.ninf := rfl

/-! ## The table's words and the rows they name -/

/-- The table's word at flat position p (row p / 32, neighbour p % 32 of this chunk). -/
def tabWord (pf : pre11.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid11.N) (ht : t.val < 65536) : k11_off1 (grid11.coords t) 0 = t.val := by
  show (Scalar.indexCast (Scalar.addi (Scalar.muli (BitVec.ofNat 32 (grid11.coords t 0).val) 32#32) (BitVec.ofNat 32 (grid11.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre11.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid11.Coords, ∀ a, (k11_off1 i) a + S1.size a ≤ S65536.size a) (h2 : S1.numel = 1)
    (pf : pre11.Contents (Elt F)) (i : grid11.Coords) (n : ℕ) (hn : n < 65536) (e : k11_off1 i 0 = n) :
    cc11_transform_0 h1 h2 pf i = ![(tabWord pf ⟨n, hn⟩).toNat, 0, 0] := by
  rw [← at_unit pf (k11_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc11_transform_0 _ _ pf (grid11.coords t) = _
  exact transform_0_eq _ _ pf (grid11.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb11 pf hO 0 (grid11.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre11.Contents (Elt F)) (hO : ok11 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v50 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg11

end
-- ==== Proof.KI.R12.Pipe.lean ====
/- Region 12 (the first 2048 pooled rows): the pipeline at an admissible table, the blocks its windows stage,
   the branch condition of the body and the names the runs are stated over. -/
/- Region 12: the body run once per case of its one branch. Case A (neighbour 0): the accumulator is set to -inf and
   then maximised with the gathered row. Case B (a later neighbour): the accumulator the point before left is
   maximised with the gathered row. Each run finds the pieces the output's staging buffer ends with. -/
/- Region 12: where the grid meets the body's branch and where the output row is written back, in closed form.
   The grid is 2048 rows by 32 neighbours, the neighbour axis fastest: point t is row t / 32, neighbour t % 32. -/
/- Region 12: what the output's staging buffer holds after each point (the running maximum over a row's neighbours
   so far), the pipeline's proof data over it, and the body obligation at every point. -/
/- Region 12: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg12
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre12.Contents (Elt F)) (hO : ok12 (F := F) pf)

abbrev adm : (pcfg12 (F := F)).Adm := ⟨pf, hO⟩
abbrev cfgM : Pipeline.Cfg sig Λ₀ := cfg12 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec12 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec12 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid12.Coords) : Prop := (Scalar.cmpi .ne (Scalar.extui (Scalar.cmpi .eq (BitVec.ofNat 32 (i 1).val) 0#32)) 0#32) = 1#1

abbrev VO_1 : View sig .tc .vmem S1x1x128 .f32 := (Memref.whole cc12_stg1_0 : Memref sig .tc .vmem S1x1x128 .f32).view
abbrev tbM : Memref sig .tc .smem S65536 .i32 := Memref.whole main_v53
abbrev htbM : (tbM).IsWhole := Memref.isWhole_whole _
abbrev ms_0 (t : Fin (cfgM pf hO).N) : Memref sig .tc .vmem S1x1x128 .f32 := spec12_0.stage ((cfgM pf hO).slots t 0)
abbrev hs_0 (t : Fin (cfgM pf hO).N) : (ms_0 pf hO t).IsWhole := hstage12_0 (((cfgM pf hO).slots t 0).cast nbuf12_0)
abbrev ms_1 (t : Fin (cfgM pf hO).N) : Memref sig .tc .vmem S1x1x128 .f32 := spec12_1.stage ((cfgM pf hO).slots t 1)
abbrev hs_1 (t : Fin (cfgM pf hO).N) : (ms_1 pf hO t).IsWhole := hstage12_1 (((cfgM pf hO).slots t 1).cast nbuf12_1)

/-- The body as the pipeline calls it at point `t`. -/
abbrev bodyAt (t : Fin (cfgM pf hO).N) : Prog (TpuEff nD τ sig (Elt F) Λ₀ .tc) PUnit :=
  cc12__gather_max_kernel (grid12.coords t) (Memref.whole main_v53) (Memref.isWhole_whole _) (spec12_0.stage ((cfgM pf hO).slots t 0)) (hstage12_0 (((cfgM pf hO).slots t 0).cast nbuf12_0)) (spec12_1.stage ((cfgM pf hO).slots t 1)) (hstage12_1 (((cfgM pf hO).slots t 1).cast nbuf12_1))

theorem N_eq : (cfgM pf hO).N = 65536 := N_12

end
end Cert.KernelIdeal.Rg12

namespace Cert.KernelIdeal.Rg12
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid12.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc12__gather_max_kernel i tbM htbM arg3 harg3 arg4 harg4) K } := by
  refine ⟨?_, fun E K => ?run⟩
  case run =>
    simp only [cc12__gather_max_kernel_eq_skeleton]; unfold cc12__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid12.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc12__gather_max_kernel i tbM htbM arg3 harg3 arg4 harg4) K } := by
  refine ⟨?_, fun E K => ?run⟩
  case run =>
    simp only [cc12__gather_max_kernel_eq_skeleton]; unfold cc12__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg12

namespace Cert.KernelIdeal.Rg12
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre12.Contents (Elt F)) (hO : ok12 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid12.stride 1 = 1 := by decide
/-- A row lasts 32 consecutive points. -/
theorem stride_0 : grid12.stride 0 = 32 := by decide

/-- The neighbour coordinate of point t is t % 32. -/
theorem coords_1 (t : Fin grid12.N) : (grid12.coords t 1).val = t.val % 32 := by
  show t.val / grid12.stride 1 % grid12.bound 1 = t.val % 32
  rw [stride_1, Nat.div_one]; rfl

/-- The row coordinate of point t is t / 32 (modulo the 2048 rows). -/
theorem coords_0 (t : Fin grid12.N) : (grid12.coords t 0).val = t.val / 32 % 2048 := by
  show t.val / grid12.stride 0 % grid12.bound 0 = _
  rw [stride_0]; rfl

/-- The branch is taken exactly at a row's first neighbour. -/
theorem hcond : ∀ t : Fin (cfgM pf hO).N, cond (grid12.coords t) ↔ t.val % 32 = 0 := by
  intro t
  have e : (grid12.coords t 1).val = t.val % 32 := coords_1 t
  exact (cond_fin32 (grid12.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc12_transform_1 (grid12.coords t) = _
  unfold cc12_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg12

namespace Cert.KernelIdeal.Rg12
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre12.Contents (Elt F)) (hO : ok12 (F := F) pf)

/-- Case A's pieces for the output tile its block, so they cover it. -/
theorem cover_A_1 (c : Dev nD) (i : grid12.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid12.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid12.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid12.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid12.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid12.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid12.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid12.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid12.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec12 w)
  after w t := match w with
    | ⟨0, _⟩ => iblk V pf hO c 0 t
    | ⟨1, _⟩ => (outsAt V pf hO c t.val t.isLt)
  Φ _ := iprop(Pipeline.ΦA spec12 c ∗ Pipeline.prefHeld pre12 c (fun _ => fullShare) pf)
  q _ := fullShare
  owed _ := 0

theorem A_eq (c : Dev nD) (w : Fin (cfgM pf hO).W) : (dat V pf hO c).A w = V c (Pipeline.arrRef spec12 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid12.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid12.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W12, bigSep_W12]
  exact sound_body V pf hO c t

end
end Cert.KernelIdeal.Rg12

namespace Cert.KernelIdeal.Rg12
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre12.Contents (Elt F)) (hO : ok12 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid12.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k12_pay2 (k12_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid12.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k12_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k12_pay2 a b j = FloatOps.maximumf (a j) (b j) := by
  unfold k12_pay2
  simp only [shapeCast_self]
  rfl

/-- The reset value is -inf on every lane. -/
theorem pay1_apply (j : S1x1x128.Idx) : k12_pay1 (F := F) j = PoolSpec.ninf := rfl

/-! ## The table's words and the rows they name -/

/-- The table's word at flat position p (row p / 32, neighbour p % 32 of this chunk). -/
def tabWord (pf : pre12.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid12.N) (ht : t.val < 65536) : k12_off1 (grid12.coords t) 0 = t.val := by
  show (Scalar.indexCast (Scalar.addi (Scalar.muli (BitVec.ofNat 32 (grid12.coords t 0).val) 32#32) (BitVec.ofNat 32 (grid12.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre12.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid12.Coords, ∀ a, (k12_off1 i) a + S1.size a ≤ S65536.size a) (h2 : S1.numel = 1)
    (pf : pre12.Contents (Elt F)) (i : grid12.Coords) (n : ℕ) (hn : n < 65536) (e : k12_off1 i 0 = n) :
    cc12_transform_0 h1 h2 pf i = ![(tabWord pf ⟨n, hn⟩).toNat, 0, 0] := by
  rw [← at_unit pf (k12_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc12_transform_0 _ _ pf (grid12.coords t) = _
  exact transform_0_eq _ _ pf (grid12.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb12 pf hO 0 (grid12.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre12.Contents (Elt F)) (hO : ok12 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v54 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg12

end
-- ==== Proof.KI.R13.Pipe.lean ====
/- Region 13 (the first 2048 pooled rows): the pipeline at an admissible table, the blocks its windows stage,
   the branch condition of the body and the names the runs are stated over. -/
/- Region 13: the body run once per case of its one branch. Case A (neighbour 0): the accumulator is set to -inf and
   then maximised with the gathered row. Case B (a later neighbour): the accumulator the point before left is
   maximised with the gathered row. Each run finds the pieces the output's staging buffer ends with. -/
/- Region 13: where the grid meets the body's branch and where the output row is written back, in closed form.
   The grid is 2048 rows by 32 neighbours, the neighbour axis fastest: point t is row t / 32, neighbour t % 32. -/
/- Region 13: what the output's staging buffer holds after each point (the running maximum over a row's neighbours
   so far), the pipeline's proof data over it, and the body obligation at every point. -/
/- Region 13: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg13
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre13.Contents (Elt F)) (hO : ok13 (F := F) pf)

abbrev adm : (pcfg13 (F := F)).Adm := ⟨pf, hO⟩
abbrev cfgM : Pipeline.Cfg sig Λ₀ := cfg13 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec13 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec13 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid13.Coords) : Prop := (Scalar.cmpi .ne (Scalar.extui (Scalar.cmpi .eq (BitVec.ofNat 32 (i 1).val) 0#32)) 0#32) = 1#1

abbrev VO_1 : View sig .tc .vmem S1x1x128 .f32 := (Memref.whole cc13_stg1_0 : Memref sig .tc .vmem S1x1x128 .f32).view
abbrev tbM : Memref sig .tc .smem S65536 .i32 := Memref.whole main_v57
abbrev htbM : (tbM).IsWhole := Memref.isWhole_whole _
abbrev ms_0 (t : Fin (cfgM pf hO).N) : Memref sig .tc .vmem S1x1x128 .f32 := spec13_0.stage ((cfgM pf hO).slots t 0)
abbrev hs_0 (t : Fin (cfgM pf hO).N) : (ms_0 pf hO t).IsWhole := hstage13_0 (((cfgM pf hO).slots t 0).cast nbuf13_0)
abbrev ms_1 (t : Fin (cfgM pf hO).N) : Memref sig .tc .vmem S1x1x128 .f32 := spec13_1.stage ((cfgM pf hO).slots t 1)
abbrev hs_1 (t : Fin (cfgM pf hO).N) : (ms_1 pf hO t).IsWhole := hstage13_1 (((cfgM pf hO).slots t 1).cast nbuf13_1)

/-- The body as the pipeline calls it at point `t`. -/
abbrev bodyAt (t : Fin (cfgM pf hO).N) : Prog (TpuEff nD τ sig (Elt F) Λ₀ .tc) PUnit :=
  cc13__gather_max_kernel (grid13.coords t) (Memref.whole main_v57) (Memref.isWhole_whole _) (spec13_0.stage ((cfgM pf hO).slots t 0)) (hstage13_0 (((cfgM pf hO).slots t 0).cast nbuf13_0)) (spec13_1.stage ((cfgM pf hO).slots t 1)) (hstage13_1 (((cfgM pf hO).slots t 1).cast nbuf13_1))

theorem N_eq : (cfgM pf hO).N = 65536 := N_13

end
end Cert.KernelIdeal.Rg13

namespace Cert.KernelIdeal.Rg13
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid13.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc13__gather_max_kernel i tbM htbM arg3 harg3 arg4 harg4) K } := by
  refine ⟨?_, fun E K => ?run⟩
  case run =>
    simp only [cc13__gather_max_kernel_eq_skeleton]; unfold cc13__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid13.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc13__gather_max_kernel i tbM htbM arg3 harg3 arg4 harg4) K } := by
  refine ⟨?_, fun E K => ?run⟩
  case run =>
    simp only [cc13__gather_max_kernel_eq_skeleton]; unfold cc13__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg13

namespace Cert.KernelIdeal.Rg13
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre13.Contents (Elt F)) (hO : ok13 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid13.stride 1 = 1 := by decide
/-- A row lasts 32 consecutive points. -/
theorem stride_0 : grid13.stride 0 = 32 := by decide

/-- The neighbour coordinate of point t is t % 32. -/
theorem coords_1 (t : Fin grid13.N) : (grid13.coords t 1).val = t.val % 32 := by
  show t.val / grid13.stride 1 % grid13.bound 1 = t.val % 32
  rw [stride_1, Nat.div_one]; rfl

/-- The row coordinate of point t is t / 32 (modulo the 2048 rows). -/
theorem coords_0 (t : Fin grid13.N) : (grid13.coords t 0).val = t.val / 32 % 2048 := by
  show t.val / grid13.stride 0 % grid13.bound 0 = _
  rw [stride_0]; rfl

/-- The branch is taken exactly at a row's first neighbour. -/
theorem hcond : ∀ t : Fin (cfgM pf hO).N, cond (grid13.coords t) ↔ t.val % 32 = 0 := by
  intro t
  have e : (grid13.coords t 1).val = t.val % 32 := coords_1 t
  exact (cond_fin32 (grid13.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc13_transform_1 (grid13.coords t) = _
  unfold cc13_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg13

namespace Cert.KernelIdeal.Rg13
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre13.Contents (Elt F)) (hO : ok13 (F := F) pf)

/-- Case A's pieces for the output tile its block, so they cover it. -/
theorem cover_A_1 (c : Dev nD) (i : grid13.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid13.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid13.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid13.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid13.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid13.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid13.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid13.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid13.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec13 w)
  after w t := match w with
    | ⟨0, _⟩ => iblk V pf hO c 0 t
    | ⟨1, _⟩ => (outsAt V pf hO c t.val t.isLt)
  Φ _ := iprop(Pipeline.ΦA spec13 c ∗ Pipeline.prefHeld pre13 c (fun _ => fullShare) pf)
  q _ := fullShare
  owed _ := 0

theorem A_eq (c : Dev nD) (w : Fin (cfgM pf hO).W) : (dat V pf hO c).A w = V c (Pipeline.arrRef spec13 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid13.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid13.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W13, bigSep_W13]
  exact sound_body V pf hO c t

end
end Cert.KernelIdeal.Rg13

namespace Cert.KernelIdeal.Rg13
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre13.Contents (Elt F)) (hO : ok13 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid13.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k13_pay2 (k13_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid13.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k13_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k13_pay2 a b j = FloatOps.maximumf (a j) (b j) := by
  unfold k13_pay2
  simp only [shapeCast_self]
  rfl

/-- The reset value is -inf on every lane. -/
theorem pay1_apply (j : S1x1x128.Idx) : k13_pay1 (F := F) j = PoolSpec.ninf := rfl

/-! ## The table's words and the rows they name -/

/-- The table's word at flat position p (row p / 32, neighbour p % 32 of this chunk). -/
def tabWord (pf : pre13.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid13.N) (ht : t.val < 65536) : k13_off1 (grid13.coords t) 0 = t.val := by
  show (Scalar.indexCast (Scalar.addi (Scalar.muli (BitVec.ofNat 32 (grid13.coords t 0).val) 32#32) (BitVec.ofNat 32 (grid13.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre13.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid13.Coords, ∀ a, (k13_off1 i) a + S1.size a ≤ S65536.size a) (h2 : S1.numel = 1)
    (pf : pre13.Contents (Elt F)) (i : grid13.Coords) (n : ℕ) (hn : n < 65536) (e : k13_off1 i 0 = n) :
    cc13_transform_0 h1 h2 pf i = ![(tabWord pf ⟨n, hn⟩).toNat, 0, 0] := by
  rw [← at_unit pf (k13_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc13_transform_0 _ _ pf (grid13.coords t) = _
  exact transform_0_eq _ _ pf (grid13.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb13 pf hO 0 (grid13.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre13.Contents (Elt F)) (hO : ok13 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v58 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg13

end
-- ==== Proof.KI.R14.Pipe.lean ====
/- Region 14 (the first 2048 pooled rows): the pipeline at an admissible table, the blocks its windows stage,
   the branch condition of the body and the names the runs are stated over. -/
/- Region 14: the body run once per case of its one branch. Case A (neighbour 0): the accumulator is set to -inf and
   then maximised with the gathered row. Case B (a later neighbour): the accumulator the point before left is
   maximised with the gathered row. Each run finds the pieces the output's staging buffer ends with. -/
/- Region 14: where the grid meets the body's branch and where the output row is written back, in closed form.
   The grid is 2048 rows by 32 neighbours, the neighbour axis fastest: point t is row t / 32, neighbour t % 32. -/
/- Region 14: what the output's staging buffer holds after each point (the running maximum over a row's neighbours
   so far), the pipeline's proof data over it, and the body obligation at every point. -/
/- Region 14: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg14
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre14.Contents (Elt F)) (hO : ok14 (F := F) pf)

abbrev adm : (pcfg14 (F := F)).Adm := ⟨pf, hO⟩
abbrev cfgM : Pipeline.Cfg sig Λ₀ := cfg14 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec14 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec14 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid14.Coords) : Prop := (Scalar.cmpi .ne (Scalar.extui (Scalar.cmpi .eq (BitVec.ofNat 32 (i 1).val) 0#32)) 0#32) = 1#1

abbrev VO_1 : View sig .tc .vmem S1x1x128 .f32 := (Memref.whole cc14_stg1_0 : Memref sig .tc .vmem S1x1x128 .f32).view
abbrev tbM : Memref sig .tc .smem S65536 .i32 := Memref.whole main_v61
abbrev htbM : (tbM).IsWhole := Memref.isWhole_whole _
abbrev ms_0 (t : Fin (cfgM pf hO).N) : Memref sig .tc .vmem S1x1x128 .f32 := spec14_0.stage ((cfgM pf hO).slots t 0)
abbrev hs_0 (t : Fin (cfgM pf hO).N) : (ms_0 pf hO t).IsWhole := hstage14_0 (((cfgM pf hO).slots t 0).cast nbuf14_0)
abbrev ms_1 (t : Fin (cfgM pf hO).N) : Memref sig .tc .vmem S1x1x128 .f32 := spec14_1.stage ((cfgM pf hO).slots t 1)
abbrev hs_1 (t : Fin (cfgM pf hO).N) : (ms_1 pf hO t).IsWhole := hstage14_1 (((cfgM pf hO).slots t 1).cast nbuf14_1)

/-- The body as the pipeline calls it at point `t`. -/
abbrev bodyAt (t : Fin (cfgM pf hO).N) : Prog (TpuEff nD τ sig (Elt F) Λ₀ .tc) PUnit :=
  cc14__gather_max_kernel (grid14.coords t) (Memref.whole main_v61) (Memref.isWhole_whole _) (spec14_0.stage ((cfgM pf hO).slots t 0)) (hstage14_0 (((cfgM pf hO).slots t 0).cast nbuf14_0)) (spec14_1.stage ((cfgM pf hO).slots t 1)) (hstage14_1 (((cfgM pf hO).slots t 1).cast nbuf14_1))

theorem N_eq : (cfgM pf hO).N = 65536 := N_14

end
end Cert.KernelIdeal.Rg14

namespace Cert.KernelIdeal.Rg14
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid14.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc14__gather_max_kernel i tbM htbM arg3 harg3 arg4 harg4) K } := by
  refine ⟨?_, fun E K => ?run⟩
  case run =>
    simp only [cc14__gather_max_kernel_eq_skeleton]; unfold cc14__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid14.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc14__gather_max_kernel i tbM htbM arg3 harg3 arg4 harg4) K } := by
  refine ⟨?_, fun E K => ?run⟩
  case run =>
    simp only [cc14__gather_max_kernel_eq_skeleton]; unfold cc14__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg14

namespace Cert.KernelIdeal.Rg14
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre14.Contents (Elt F)) (hO : ok14 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid14.stride 1 = 1 := by decide
/-- A row lasts 32 consecutive points. -/
theorem stride_0 : grid14.stride 0 = 32 := by decide

/-- The neighbour coordinate of point t is t % 32. -/
theorem coords_1 (t : Fin grid14.N) : (grid14.coords t 1).val = t.val % 32 := by
  show t.val / grid14.stride 1 % grid14.bound 1 = t.val % 32
  rw [stride_1, Nat.div_one]; rfl

/-- The row coordinate of point t is t / 32 (modulo the 2048 rows). -/
theorem coords_0 (t : Fin grid14.N) : (grid14.coords t 0).val = t.val / 32 % 2048 := by
  show t.val / grid14.stride 0 % grid14.bound 0 = _
  rw [stride_0]; rfl

/-- The branch is taken exactly at a row's first neighbour. -/
theorem hcond : ∀ t : Fin (cfgM pf hO).N, cond (grid14.coords t) ↔ t.val % 32 = 0 := by
  intro t
  have e : (grid14.coords t 1).val = t.val % 32 := coords_1 t
  exact (cond_fin32 (grid14.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc14_transform_1 (grid14.coords t) = _
  unfold cc14_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg14

namespace Cert.KernelIdeal.Rg14
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre14.Contents (Elt F)) (hO : ok14 (F := F) pf)

/-- Case A's pieces for the output tile its block, so they cover it. -/
theorem cover_A_1 (c : Dev nD) (i : grid14.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid14.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid14.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid14.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid14.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid14.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid14.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid14.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid14.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec14 w)
  after w t := match w with
    | ⟨0, _⟩ => iblk V pf hO c 0 t
    | ⟨1, _⟩ => (outsAt V pf hO c t.val t.isLt)
  Φ _ := iprop(Pipeline.ΦA spec14 c ∗ Pipeline.prefHeld pre14 c (fun _ => fullShare) pf)
  q _ := fullShare
  owed _ := 0

theorem A_eq (c : Dev nD) (w : Fin (cfgM pf hO).W) : (dat V pf hO c).A w = V c (Pipeline.arrRef spec14 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid14.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid14.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W14, bigSep_W14]
  exact sound_body V pf hO c t

end
end Cert.KernelIdeal.Rg14

namespace Cert.KernelIdeal.Rg14
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre14.Contents (Elt F)) (hO : ok14 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid14.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k14_pay2 (k14_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid14.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k14_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k14_pay2 a b j = FloatOps.maximumf (a j) (b j) := by
  unfold k14_pay2
  simp only [shapeCast_self]
  rfl

/-- The reset value is -inf on every lane. -/
theorem pay1_apply (j : S1x1x128.Idx) : k14_pay1 (F := F) j = PoolSpec.ninf := rfl

/-! ## The table's words and the rows they name -/

/-- The table's word at flat position p (row p / 32, neighbour p % 32 of this chunk). -/
def tabWord (pf : pre14.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid14.N) (ht : t.val < 65536) : k14_off1 (grid14.coords t) 0 = t.val := by
  show (Scalar.indexCast (Scalar.addi (Scalar.muli (BitVec.ofNat 32 (grid14.coords t 0).val) 32#32) (BitVec.ofNat 32 (grid14.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre14.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid14.Coords, ∀ a, (k14_off1 i) a + S1.size a ≤ S65536.size a) (h2 : S1.numel = 1)
    (pf : pre14.Contents (Elt F)) (i : grid14.Coords) (n : ℕ) (hn : n < 65536) (e : k14_off1 i 0 = n) :
    cc14_transform_0 h1 h2 pf i = ![(tabWord pf ⟨n, hn⟩).toNat, 0, 0] := by
  rw [← at_unit pf (k14_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc14_transform_0 _ _ pf (grid14.coords t) = _
  exact transform_0_eq _ _ pf (grid14.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb14 pf hO 0 (grid14.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre14.Contents (Elt F)) (hO : ok14 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v62 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg14

end
-- ==== Proof.KI.R15.Pipe.lean ====
/- Region 15 (the first 2048 pooled rows): the pipeline at an admissible table, the blocks its windows stage,
   the branch condition of the body and the names the runs are stated over. -/
/- Region 15: the body run once per case of its one branch. Case A (neighbour 0): the accumulator is set to -inf and
   then maximised with the gathered row. Case B (a later neighbour): the accumulator the point before left is
   maximised with the gathered row. Each run finds the pieces the output's staging buffer ends with. -/
/- Region 15: where the grid meets the body's branch and where the output row is written back, in closed form.
   The grid is 2048 rows by 32 neighbours, the neighbour axis fastest: point t is row t / 32, neighbour t % 32. -/
/- Region 15: what the output's staging buffer holds after each point (the running maximum over a row's neighbours
   so far), the pipeline's proof data over it, and the body obligation at every point. -/
/- Region 15: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg15
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre15.Contents (Elt F)) (hO : ok15 (F := F) pf)

abbrev adm : (pcfg15 (F := F)).Adm := ⟨pf, hO⟩
abbrev cfgM : Pipeline.Cfg sig Λ₀ := cfg15 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec15 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec15 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid15.Coords) : Prop := (Scalar.cmpi .ne (Scalar.extui (Scalar.cmpi .eq (BitVec.ofNat 32 (i 1).val) 0#32)) 0#32) = 1#1

abbrev VO_1 : View sig .tc .vmem S1x1x128 .f32 := (Memref.whole cc15_stg1_0 : Memref sig .tc .vmem S1x1x128 .f32).view
abbrev tbM : Memref sig .tc .smem S65536 .i32 := Memref.whole main_v65
abbrev htbM : (tbM).IsWhole := Memref.isWhole_whole _
abbrev ms_0 (t : Fin (cfgM pf hO).N) : Memref sig .tc .vmem S1x1x128 .f32 := spec15_0.stage ((cfgM pf hO).slots t 0)
abbrev hs_0 (t : Fin (cfgM pf hO).N) : (ms_0 pf hO t).IsWhole := hstage15_0 (((cfgM pf hO).slots t 0).cast nbuf15_0)
abbrev ms_1 (t : Fin (cfgM pf hO).N) : Memref sig .tc .vmem S1x1x128 .f32 := spec15_1.stage ((cfgM pf hO).slots t 1)
abbrev hs_1 (t : Fin (cfgM pf hO).N) : (ms_1 pf hO t).IsWhole := hstage15_1 (((cfgM pf hO).slots t 1).cast nbuf15_1)

/-- The body as the pipeline calls it at point `t`. -/
abbrev bodyAt (t : Fin (cfgM pf hO).N) : Prog (TpuEff nD τ sig (Elt F) Λ₀ .tc) PUnit :=
  cc15__gather_max_kernel (grid15.coords t) (Memref.whole main_v65) (Memref.isWhole_whole _) (spec15_0.stage ((cfgM pf hO).slots t 0)) (hstage15_0 (((cfgM pf hO).slots t 0).cast nbuf15_0)) (spec15_1.stage ((cfgM pf hO).slots t 1)) (hstage15_1 (((cfgM pf hO).slots t 1).cast nbuf15_1))

theorem N_eq : (cfgM pf hO).N = 65536 := N_15

end
end Cert.KernelIdeal.Rg15

namespace Cert.KernelIdeal.Rg15
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid15.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc15__gather_max_kernel i tbM htbM arg3 harg3 arg4 harg4) K } := by
  refine ⟨?_, fun E K => ?run⟩
  case run =>
    simp only [cc15__gather_max_kernel_eq_skeleton]; unfold cc15__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid15.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc15__gather_max_kernel i tbM htbM arg3 harg3 arg4 harg4) K } := by
  refine ⟨?_, fun E K => ?run⟩
  case run =>
    simp only [cc15__gather_max_kernel_eq_skeleton]; unfold cc15__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg15

namespace Cert.KernelIdeal.Rg15
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre15.Contents (Elt F)) (hO : ok15 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid15.stride 1 = 1 := by decide
/-- A row lasts 32 consecutive points. -/
theorem stride_0 : grid15.stride 0 = 32 := by decide

/-- The neighbour coordinate of point t is t % 32. -/
theorem coords_1 (t : Fin grid15.N) : (grid15.coords t 1).val = t.val % 32 := by
  show t.val / grid15.stride 1 % grid15.bound 1 = t.val % 32
  rw [stride_1, Nat.div_one]; rfl

/-- The row coordinate of point t is t / 32 (modulo the 2048 rows). -/
theorem coords_0 (t : Fin grid15.N) : (grid15.coords t 0).val = t.val / 32 % 2048 := by
  show t.val / grid15.stride 0 % grid15.bound 0 = _
  rw [stride_0]; rfl

/-- The branch is taken exactly at a row's first neighbour. -/
theorem hcond : ∀ t : Fin (cfgM pf hO).N, cond (grid15.coords t) ↔ t.val % 32 = 0 := by
  intro t
  have e : (grid15.coords t 1).val = t.val % 32 := coords_1 t
  exact (cond_fin32 (grid15.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc15_transform_1 (grid15.coords t) = _
  unfold cc15_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg15

namespace Cert.KernelIdeal.Rg15
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre15.Contents (Elt F)) (hO : ok15 (F := F) pf)

/-- Case A's pieces for the output tile its block, so they cover it. -/
theorem cover_A_1 (c : Dev nD) (i : grid15.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid15.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid15.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid15.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid15.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid15.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid15.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid15.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid15.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec15 w)
  after w t := match w with
    | ⟨0, _⟩ => iblk V pf hO c 0 t
    | ⟨1, _⟩ => (outsAt V pf hO c t.val t.isLt)
  Φ _ := iprop(Pipeline.ΦA spec15 c ∗ Pipeline.prefHeld pre15 c (fun _ => fullShare) pf)
  q _ := fullShare
  owed _ := 0

theorem A_eq (c : Dev nD) (w : Fin (cfgM pf hO).W) : (dat V pf hO c).A w = V c (Pipeline.arrRef spec15 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid15.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid15.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W15, bigSep_W15]
  exact sound_body V pf hO c t

end
end Cert.KernelIdeal.Rg15

namespace Cert.KernelIdeal.Rg15
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre15.Contents (Elt F)) (hO : ok15 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid15.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k15_pay2 (k15_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid15.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k15_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k15_pay2 a b j = FloatOps.maximumf (a j) (b j) := by
  unfold k15_pay2
  simp only [shapeCast_self]
  rfl

/-- The reset value is -inf on every lane. -/
theorem pay1_apply (j : S1x1x128.Idx) : k15_pay1 (F := F) j = PoolSpec.ninf := rfl

/-! ## The table's words and the rows they name -/

/-- The table's word at flat position p (row p / 32, neighbour p % 32 of this chunk). -/
def tabWord (pf : pre15.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid15.N) (ht : t.val < 65536) : k15_off1 (grid15.coords t) 0 = t.val := by
  show (Scalar.indexCast (Scalar.addi (Scalar.muli (BitVec.ofNat 32 (grid15.coords t 0).val) 32#32) (BitVec.ofNat 32 (grid15.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre15.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid15.Coords, ∀ a, (k15_off1 i) a + S1.size a ≤ S65536.size a) (h2 : S1.numel = 1)
    (pf : pre15.Contents (Elt F)) (i : grid15.Coords) (n : ℕ) (hn : n < 65536) (e : k15_off1 i 0 = n) :
    cc15_transform_0 h1 h2 pf i = ![(tabWord pf ⟨n, hn⟩).toNat, 0, 0] := by
  rw [← at_unit pf (k15_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc15_transform_0 _ _ pf (grid15.coords t) = _
  exact transform_0_eq _ _ pf (grid15.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb15 pf hO 0 (grid15.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre15.Contents (Elt F)) (hO : ok15 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v66 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg15

end
-- ==== Proof.KI.R16.Pipe.lean ====
/- Region 16 (the first 2048 pooled rows): the pipeline at an admissible table, the blocks its windows stage,
   the branch condition of the body and the names the runs are stated over. -/
/- Region 16: the body run once per case of its one branch. Case A (neighbour 0): the accumulator is set to -inf and
   then maximised with the gathered row. Case B (a later neighbour): the accumulator the point before left is
   maximised with the gathered row. Each run finds the pieces the output's staging buffer ends with. -/
/- Region 16: where the grid meets the body's branch and where the output row is written back, in closed form.
   The grid is 2048 rows by 32 neighbours, the neighbour axis fastest: point t is row t / 32, neighbour t % 32. -/
/- Region 16: what the output's staging buffer holds after each point (the running maximum over a row's neighbours
   so far), the pipeline's proof data over it, and the body obligation at every point. -/
/- Region 16: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg16
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre16.Contents (Elt F)) (hO : ok16 (F := F) pf)

abbrev adm : (pcfg16 (F := F)).Adm := ⟨pf, hO⟩
abbrev cfgM : Pipeline.Cfg sig Λ₀ := cfg16 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec16 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec16 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid16.Coords) : Prop := (Scalar.cmpi .ne (Scalar.extui (Scalar.cmpi .eq (BitVec.ofNat 32 (i 1).val) 0#32)) 0#32) = 1#1

abbrev VO_1 : View sig .tc .vmem S1x1x128 .f32 := (Memref.whole cc16_stg1_0 : Memref sig .tc .vmem S1x1x128 .f32).view
abbrev tbM : Memref sig .tc .smem S65536 .i32 := Memref.whole main_v69
abbrev htbM : (tbM).IsWhole := Memref.isWhole_whole _
abbrev ms_0 (t : Fin (cfgM pf hO).N) : Memref sig .tc .vmem S1x1x128 .f32 := spec16_0.stage ((cfgM pf hO).slots t 0)
abbrev hs_0 (t : Fin (cfgM pf hO).N) : (ms_0 pf hO t).IsWhole := hstage16_0 (((cfgM pf hO).slots t 0).cast nbuf16_0)
abbrev ms_1 (t : Fin (cfgM pf hO).N) : Memref sig .tc .vmem S1x1x128 .f32 := spec16_1.stage ((cfgM pf hO).slots t 1)
abbrev hs_1 (t : Fin (cfgM pf hO).N) : (ms_1 pf hO t).IsWhole := hstage16_1 (((cfgM pf hO).slots t 1).cast nbuf16_1)

/-- The body as the pipeline calls it at point `t`. -/
abbrev bodyAt (t : Fin (cfgM pf hO).N) : Prog (TpuEff nD τ sig (Elt F) Λ₀ .tc) PUnit :=
  cc16__gather_max_kernel (grid16.coords t) (Memref.whole main_v69) (Memref.isWhole_whole _) (spec16_0.stage ((cfgM pf hO).slots t 0)) (hstage16_0 (((cfgM pf hO).slots t 0).cast nbuf16_0)) (spec16_1.stage ((cfgM pf hO).slots t 1)) (hstage16_1 (((cfgM pf hO).slots t 1).cast nbuf16_1))

theorem N_eq : (cfgM pf hO).N = 65536 := N_16

end
end Cert.KernelIdeal.Rg16

namespace Cert.KernelIdeal.Rg16
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid16.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc16__gather_max_kernel i tbM htbM arg3 harg3 arg4 harg4) K } := by
  refine ⟨?_, fun E K => ?run⟩
  case run =>
    simp only [cc16__gather_max_kernel_eq_skeleton]; unfold cc16__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid16.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc16__gather_max_kernel i tbM htbM arg3 harg3 arg4 harg4) K } := by
  refine ⟨?_, fun E K => ?run⟩
  case run =>
    simp only [cc16__gather_max_kernel_eq_skeleton]; unfold cc16__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg16

namespace Cert.KernelIdeal.Rg16
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre16.Contents (Elt F)) (hO : ok16 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid16.stride 1 = 1 := by decide
/-- A row lasts 32 consecutive points. -/
theorem stride_0 : grid16.stride 0 = 32 := by decide

/-- The neighbour coordinate of point t is t % 32. -/
theorem coords_1 (t : Fin grid16.N) : (grid16.coords t 1).val = t.val % 32 := by
  show t.val / grid16.stride 1 % grid16.bound 1 = t.val % 32
  rw [stride_1, Nat.div_one]; rfl

/-- The row coordinate of point t is t / 32 (modulo the 2048 rows). -/
theorem coords_0 (t : Fin grid16.N) : (grid16.coords t 0).val = t.val / 32 % 2048 := by
  show t.val / grid16.stride 0 % grid16.bound 0 = _
  rw [stride_0]; rfl

/-- The branch is taken exactly at a row's first neighbour. -/
theorem hcond : ∀ t : Fin (cfgM pf hO).N, cond (grid16.coords t) ↔ t.val % 32 = 0 := by
  intro t
  have e : (grid16.coords t 1).val = t.val % 32 := coords_1 t
  exact (cond_fin32 (grid16.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc16_transform_1 (grid16.coords t) = _
  unfold cc16_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg16

namespace Cert.KernelIdeal.Rg16
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre16.Contents (Elt F)) (hO : ok16 (F := F) pf)

/-- Case A's pieces for the output tile its block, so they cover it. -/
theorem cover_A_1 (c : Dev nD) (i : grid16.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid16.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid16.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid16.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid16.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid16.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid16.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid16.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid16.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec16 w)
  after w t := match w with
    | ⟨0, _⟩ => iblk V pf hO c 0 t
    | ⟨1, _⟩ => (outsAt V pf hO c t.val t.isLt)
  Φ _ := iprop(Pipeline.ΦA spec16 c ∗ Pipeline.prefHeld pre16 c (fun _ => fullShare) pf)
  q _ := fullShare
  owed _ := 0

theorem A_eq (c : Dev nD) (w : Fin (cfgM pf hO).W) : (dat V pf hO c).A w = V c (Pipeline.arrRef spec16 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid16.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid16.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W16, bigSep_W16]
  exact sound_body V pf hO c t

end
end Cert.KernelIdeal.Rg16

namespace Cert.KernelIdeal.Rg16
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre16.Contents (Elt F)) (hO : ok16 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid16.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k16_pay2 (k16_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid16.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k16_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k16_pay2 a b j = FloatOps.maximumf (a j) (b j) := by
  unfold k16_pay2
  simp only [shapeCast_self]
  rfl

/-- The reset value is -inf on every lane. -/
theorem pay1_apply (j : S1x1x128.Idx) : k16_pay1 (F := F) j = PoolSpec.ninf := rfl

/-! ## The table's words and the rows they name -/

/-- The table's word at flat position p (row p / 32, neighbour p % 32 of this chunk). -/
def tabWord (pf : pre16.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid16.N) (ht : t.val < 65536) : k16_off1 (grid16.coords t) 0 = t.val := by
  show (Scalar.indexCast (Scalar.addi (Scalar.muli (BitVec.ofNat 32 (grid16.coords t 0).val) 32#32) (BitVec.ofNat 32 (grid16.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre16.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid16.Coords, ∀ a, (k16_off1 i) a + S1.size a ≤ S65536.size a) (h2 : S1.numel = 1)
    (pf : pre16.Contents (Elt F)) (i : grid16.Coords) (n : ℕ) (hn : n < 65536) (e : k16_off1 i 0 = n) :
    cc16_transform_0 h1 h2 pf i = ![(tabWord pf ⟨n, hn⟩).toNat, 0, 0] := by
  rw [← at_unit pf (k16_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc16_transform_0 _ _ pf (grid16.coords t) = _
  exact transform_0_eq _ _ pf (grid16.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb16 pf hO 0 (grid16.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre16.Contents (Elt F)) (hO : ok16 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v70 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg16

end
-- ==== Proof.KI.R17.Pipe.lean ====
/- Region 17 (the first 2048 pooled rows): the pipeline at an admissible table, the blocks its windows stage,
   the branch condition of the body and the names the runs are stated over. -/
/- Region 17: the body run once per case of its one branch. Case A (neighbour 0): the accumulator is set to -inf and
   then maximised with the gathered row. Case B (a later neighbour): the accumulator the point before left is
   maximised with the gathered row. Each run finds the pieces the output's staging buffer ends with. -/
/- Region 17: where the grid meets the body's branch and where the output row is written back, in closed form.
   The grid is 2048 rows by 32 neighbours, the neighbour axis fastest: point t is row t / 32, neighbour t % 32. -/
/- Region 17: what the output's staging buffer holds after each point (the running maximum over a row's neighbours
   so far), the pipeline's proof data over it, and the body obligation at every point. -/
/- Region 17: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg17
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre17.Contents (Elt F)) (hO : ok17 (F := F) pf)

abbrev adm : (pcfg17 (F := F)).Adm := ⟨pf, hO⟩
abbrev cfgM : Pipeline.Cfg sig Λ₀ := cfg17 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec17 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec17 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid17.Coords) : Prop := (Scalar.cmpi .ne (Scalar.extui (Scalar.cmpi .eq (BitVec.ofNat 32 (i 1).val) 0#32)) 0#32) = 1#1

abbrev VO_1 : View sig .tc .vmem S1x1x128 .f32 := (Memref.whole cc17_stg1_0 : Memref sig .tc .vmem S1x1x128 .f32).view
abbrev tbM : Memref sig .tc .smem S65536 .i32 := Memref.whole main_v73
abbrev htbM : (tbM).IsWhole := Memref.isWhole_whole _
abbrev ms_0 (t : Fin (cfgM pf hO).N) : Memref sig .tc .vmem S1x1x128 .f32 := spec17_0.stage ((cfgM pf hO).slots t 0)
abbrev hs_0 (t : Fin (cfgM pf hO).N) : (ms_0 pf hO t).IsWhole := hstage17_0 (((cfgM pf hO).slots t 0).cast nbuf17_0)
abbrev ms_1 (t : Fin (cfgM pf hO).N) : Memref sig .tc .vmem S1x1x128 .f32 := spec17_1.stage ((cfgM pf hO).slots t 1)
abbrev hs_1 (t : Fin (cfgM pf hO).N) : (ms_1 pf hO t).IsWhole := hstage17_1 (((cfgM pf hO).slots t 1).cast nbuf17_1)

/-- The body as the pipeline calls it at point `t`. -/
abbrev bodyAt (t : Fin (cfgM pf hO).N) : Prog (TpuEff nD τ sig (Elt F) Λ₀ .tc) PUnit :=
  cc17__gather_max_kernel (grid17.coords t) (Memref.whole main_v73) (Memref.isWhole_whole _) (spec17_0.stage ((cfgM pf hO).slots t 0)) (hstage17_0 (((cfgM pf hO).slots t 0).cast nbuf17_0)) (spec17_1.stage ((cfgM pf hO).slots t 1)) (hstage17_1 (((cfgM pf hO).slots t 1).cast nbuf17_1))

theorem N_eq : (cfgM pf hO).N = 65536 := N_17

end
end Cert.KernelIdeal.Rg17

namespace Cert.KernelIdeal.Rg17
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid17.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc17__gather_max_kernel i tbM htbM arg3 harg3 arg4 harg4) K } := by
  refine ⟨?_, fun E K => ?run⟩
  case run =>
    simp only [cc17__gather_max_kernel_eq_skeleton]; unfold cc17__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid17.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc17__gather_max_kernel i tbM htbM arg3 harg3 arg4 harg4) K } := by
  refine ⟨?_, fun E K => ?run⟩
  case run =>
    simp only [cc17__gather_max_kernel_eq_skeleton]; unfold cc17__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg17

namespace Cert.KernelIdeal.Rg17
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre17.Contents (Elt F)) (hO : ok17 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid17.stride 1 = 1 := by decide
/-- A row lasts 32 consecutive points. -/
theorem stride_0 : grid17.stride 0 = 32 := by decide

/-- The neighbour coordinate of point t is t % 32. -/
theorem coords_1 (t : Fin grid17.N) : (grid17.coords t 1).val = t.val % 32 := by
  show t.val / grid17.stride 1 % grid17.bound 1 = t.val % 32
  rw [stride_1, Nat.div_one]; rfl

/-- The row coordinate of point t is t / 32 (modulo the 2048 rows). -/
theorem coords_0 (t : Fin grid17.N) : (grid17.coords t 0).val = t.val / 32 % 2048 := by
  show t.val / grid17.stride 0 % grid17.bound 0 = _
  rw [stride_0]; rfl

/-- The branch is taken exactly at a row's first neighbour. -/
theorem hcond : ∀ t : Fin (cfgM pf hO).N, cond (grid17.coords t) ↔ t.val % 32 = 0 := by
  intro t
  have e : (grid17.coords t 1).val = t.val % 32 := coords_1 t
  exact (cond_fin32 (grid17.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc17_transform_1 (grid17.coords t) = _
  unfold cc17_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg17

namespace Cert.KernelIdeal.Rg17
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre17.Contents (Elt F)) (hO : ok17 (F := F) pf)

/-- Case A's pieces for the output tile its block, so they cover it. -/
theorem cover_A_1 (c : Dev nD) (i : grid17.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid17.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid17.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid17.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid17.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid17.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid17.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid17.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid17.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec17 w)
  after w t := match w with
    | ⟨0, _⟩ => iblk V pf hO c 0 t
    | ⟨1, _⟩ => (outsAt V pf hO c t.val t.isLt)
  Φ _ := iprop(Pipeline.ΦA spec17 c ∗ Pipeline.prefHeld pre17 c (fun _ => fullShare) pf)
  q _ := fullShare
  owed _ := 0

theorem A_eq (c : Dev nD) (w : Fin (cfgM pf hO).W) : (dat V pf hO c).A w = V c (Pipeline.arrRef spec17 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid17.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid17.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W17, bigSep_W17]
  exact sound_body V pf hO c t

end
end Cert.KernelIdeal.Rg17

namespace Cert.KernelIdeal.Rg17
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre17.Contents (Elt F)) (hO : ok17 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid17.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k17_pay2 (k17_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid17.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k17_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k17_pay2 a b j = FloatOps.maximumf (a j) (b j) := by
  unfold k17_pay2
  simp only [shapeCast_self]
  rfl

/-- The reset value is -inf on every lane. -/
theorem pay1_apply (j : S1x1x128.Idx) : k17_pay1 (F := F) j = PoolSpec.ninf := rfl

/-! ## The table's words and the rows they name -/

/-- The table's word at flat position p (row p / 32, neighbour p % 32 of this chunk). -/
def tabWord (pf : pre17.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid17.N) (ht : t.val < 65536) : k17_off1 (grid17.coords t) 0 = t.val := by
  show (Scalar.indexCast (Scalar.addi (Scalar.muli (BitVec.ofNat 32 (grid17.coords t 0).val) 32#32) (BitVec.ofNat 32 (grid17.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre17.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid17.Coords, ∀ a, (k17_off1 i) a + S1.size a ≤ S65536.size a) (h2 : S1.numel = 1)
    (pf : pre17.Contents (Elt F)) (i : grid17.Coords) (n : ℕ) (hn : n < 65536) (e : k17_off1 i 0 = n) :
    cc17_transform_0 h1 h2 pf i = ![(tabWord pf ⟨n, hn⟩).toNat, 0, 0] := by
  rw [← at_unit pf (k17_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc17_transform_0 _ _ pf (grid17.coords t) = _
  exact transform_0_eq _ _ pf (grid17.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb17 pf hO 0 (grid17.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre17.Contents (Elt F)) (hO : ok17 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v74 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg17

end
-- ==== Proof.KI.R18.Pipe.lean ====
/- Region 18 (the first 2048 pooled rows): the pipeline at an admissible table, the blocks its windows stage,
   the branch condition of the body and the names the runs are stated over. -/
/- Region 18: the body run once per case of its one branch. Case A (neighbour 0): the accumulator is set to -inf and
   then maximised with the gathered row. Case B (a later neighbour): the accumulator the point before left is
   maximised with the gathered row. Each run finds the pieces the output's staging buffer ends with. -/
/- Region 18: where the grid meets the body's branch and where the output row is written back, in closed form.
   The grid is 2048 rows by 32 neighbours, the neighbour axis fastest: point t is row t / 32, neighbour t % 32. -/
/- Region 18: what the output's staging buffer holds after each point (the running maximum over a row's neighbours
   so far), the pipeline's proof data over it, and the body obligation at every point. -/
/- Region 18: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg18
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre18.Contents (Elt F)) (hO : ok18 (F := F) pf)

abbrev adm : (pcfg18 (F := F)).Adm := ⟨pf, hO⟩
abbrev cfgM : Pipeline.Cfg sig Λ₀ := cfg18 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec18 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec18 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid18.Coords) : Prop := (Scalar.cmpi .ne (Scalar.extui (Scalar.cmpi .eq (BitVec.ofNat 32 (i 1).val) 0#32)) 0#32) = 1#1

abbrev VO_1 : View sig .tc .vmem S1x1x128 .f32 := (Memref.whole cc18_stg1_0 : Memref sig .tc .vmem S1x1x128 .f32).view
abbrev tbM : Memref sig .tc .smem S65536 .i32 := Memref.whole main_v77
abbrev htbM : (tbM).IsWhole := Memref.isWhole_whole _
abbrev ms_0 (t : Fin (cfgM pf hO).N) : Memref sig .tc .vmem S1x1x128 .f32 := spec18_0.stage ((cfgM pf hO).slots t 0)
abbrev hs_0 (t : Fin (cfgM pf hO).N) : (ms_0 pf hO t).IsWhole := hstage18_0 (((cfgM pf hO).slots t 0).cast nbuf18_0)
abbrev ms_1 (t : Fin (cfgM pf hO).N) : Memref sig .tc .vmem S1x1x128 .f32 := spec18_1.stage ((cfgM pf hO).slots t 1)
abbrev hs_1 (t : Fin (cfgM pf hO).N) : (ms_1 pf hO t).IsWhole := hstage18_1 (((cfgM pf hO).slots t 1).cast nbuf18_1)

/-- The body as the pipeline calls it at point `t`. -/
abbrev bodyAt (t : Fin (cfgM pf hO).N) : Prog (TpuEff nD τ sig (Elt F) Λ₀ .tc) PUnit :=
  cc18__gather_max_kernel (grid18.coords t) (Memref.whole main_v77) (Memref.isWhole_whole _) (spec18_0.stage ((cfgM pf hO).slots t 0)) (hstage18_0 (((cfgM pf hO).slots t 0).cast nbuf18_0)) (spec18_1.stage ((cfgM pf hO).slots t 1)) (hstage18_1 (((cfgM pf hO).slots t 1).cast nbuf18_1))

theorem N_eq : (cfgM pf hO).N = 65536 := N_18

end
end Cert.KernelIdeal.Rg18

namespace Cert.KernelIdeal.Rg18
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid18.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc18__gather_max_kernel i tbM htbM arg3 harg3 arg4 harg4) K } := by
  refine ⟨?_, fun E K => ?run⟩
  case run =>
    simp only [cc18__gather_max_kernel_eq_skeleton]; unfold cc18__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid18.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc18__gather_max_kernel i tbM htbM arg3 harg3 arg4 harg4) K } := by
  refine ⟨?_, fun E K => ?run⟩
  case run =>
    simp only [cc18__gather_max_kernel_eq_skeleton]; unfold cc18__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg18

namespace Cert.KernelIdeal.Rg18
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre18.Contents (Elt F)) (hO : ok18 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid18.stride 1 = 1 := by decide
/-- A row lasts 32 consecutive points. -/
theorem stride_0 : grid18.stride 0 = 32 := by decide

/-- The neighbour coordinate of point t is t % 32. -/
theorem coords_1 (t : Fin grid18.N) : (grid18.coords t 1).val = t.val % 32 := by
  show t.val / grid18.stride 1 % grid18.bound 1 = t.val % 32
  rw [stride_1, Nat.div_one]; rfl

/-- The row coordinate of point t is t / 32 (modulo the 2048 rows). -/
theorem coords_0 (t : Fin grid18.N) : (grid18.coords t 0).val = t.val / 32 % 2048 := by
  show t.val / grid18.stride 0 % grid18.bound 0 = _
  rw [stride_0]; rfl

/-- The branch is taken exactly at a row's first neighbour. -/
theorem hcond : ∀ t : Fin (cfgM pf hO).N, cond (grid18.coords t) ↔ t.val % 32 = 0 := by
  intro t
  have e : (grid18.coords t 1).val = t.val % 32 := coords_1 t
  exact (cond_fin32 (grid18.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc18_transform_1 (grid18.coords t) = _
  unfold cc18_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg18

namespace Cert.KernelIdeal.Rg18
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre18.Contents (Elt F)) (hO : ok18 (F := F) pf)

/-- Case A's pieces for the output tile its block, so they cover it. -/
theorem cover_A_1 (c : Dev nD) (i : grid18.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid18.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid18.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid18.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid18.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid18.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid18.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid18.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid18.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec18 w)
  after w t := match w with
    | ⟨0, _⟩ => iblk V pf hO c 0 t
    | ⟨1, _⟩ => (outsAt V pf hO c t.val t.isLt)
  Φ _ := iprop(Pipeline.ΦA spec18 c ∗ Pipeline.prefHeld pre18 c (fun _ => fullShare) pf)
  q _ := fullShare
  owed _ := 0

theorem A_eq (c : Dev nD) (w : Fin (cfgM pf hO).W) : (dat V pf hO c).A w = V c (Pipeline.arrRef spec18 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid18.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid18.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W18, bigSep_W18]
  exact sound_body V pf hO c t

end
end Cert.KernelIdeal.Rg18

namespace Cert.KernelIdeal.Rg18
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre18.Contents (Elt F)) (hO : ok18 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid18.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k18_pay2 (k18_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid18.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k18_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k18_pay2 a b j = FloatOps.maximumf (a j) (b j) := by
  unfold k18_pay2
  simp only [shapeCast_self]
  rfl

/-- The reset value is -inf on every lane. -/
theorem pay1_apply (j : S1x1x128.Idx) : k18_pay1 (F := F) j = PoolSpec.ninf := rfl

/-! ## The table's words and the rows they name -/

/-- The table's word at flat position p (row p / 32, neighbour p % 32 of this chunk). -/
def tabWord (pf : pre18.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid18.N) (ht : t.val < 65536) : k18_off1 (grid18.coords t) 0 = t.val := by
  show (Scalar.indexCast (Scalar.addi (Scalar.muli (BitVec.ofNat 32 (grid18.coords t 0).val) 32#32) (BitVec.ofNat 32 (grid18.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre18.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid18.Coords, ∀ a, (k18_off1 i) a + S1.size a ≤ S65536.size a) (h2 : S1.numel = 1)
    (pf : pre18.Contents (Elt F)) (i : grid18.Coords) (n : ℕ) (hn : n < 65536) (e : k18_off1 i 0 = n) :
    cc18_transform_0 h1 h2 pf i = ![(tabWord pf ⟨n, hn⟩).toNat, 0, 0] := by
  rw [← at_unit pf (k18_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc18_transform_0 _ _ pf (grid18.coords t) = _
  exact transform_0_eq _ _ pf (grid18.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb18 pf hO 0 (grid18.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre18.Contents (Elt F)) (hO : ok18 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v78 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg18

end
-- ==== Proof.KI.R19.Pipe.lean ====
/- Region 19 (the first 2048 pooled rows): the pipeline at an admissible table, the blocks its windows stage,
   the branch condition of the body and the names the runs are stated over. -/
/- Region 19: the body run once per case of its one branch. Case A (neighbour 0): the accumulator is set to -inf and
   then maximised with the gathered row. Case B (a later neighbour): the accumulator the point before left is
   maximised with the gathered row. Each run finds the pieces the output's staging buffer ends with. -/
/- Region 19: where the grid meets the body's branch and where the output row is written back, in closed form.
   The grid is 2048 rows by 32 neighbours, the neighbour axis fastest: point t is row t / 32, neighbour t % 32. -/
/- Region 19: what the output's staging buffer holds after each point (the running maximum over a row's neighbours
   so far), the pipeline's proof data over it, and the body obligation at every point. -/
/- Region 19: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg19
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre19.Contents (Elt F)) (hO : ok19 (F := F) pf)

abbrev adm : (pcfg19 (F := F)).Adm := ⟨pf, hO⟩
abbrev cfgM : Pipeline.Cfg sig Λ₀ := cfg19 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec19 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec19 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid19.Coords) : Prop := (Scalar.cmpi .ne (Scalar.extui (Scalar.cmpi .eq (BitVec.ofNat 32 (i 1).val) 0#32)) 0#32) = 1#1

abbrev VO_1 : View sig .tc .vmem S1x1x128 .f32 := (Memref.whole cc19_stg1_0 : Memref sig .tc .vmem S1x1x128 .f32).view
abbrev tbM : Memref sig .tc .smem S65536 .i32 := Memref.whole main_v81
abbrev htbM : (tbM).IsWhole := Memref.isWhole_whole _
abbrev ms_0 (t : Fin (cfgM pf hO).N) : Memref sig .tc .vmem S1x1x128 .f32 := spec19_0.stage ((cfgM pf hO).slots t 0)
abbrev hs_0 (t : Fin (cfgM pf hO).N) : (ms_0 pf hO t).IsWhole := hstage19_0 (((cfgM pf hO).slots t 0).cast nbuf19_0)
abbrev ms_1 (t : Fin (cfgM pf hO).N) : Memref sig .tc .vmem S1x1x128 .f32 := spec19_1.stage ((cfgM pf hO).slots t 1)
abbrev hs_1 (t : Fin (cfgM pf hO).N) : (ms_1 pf hO t).IsWhole := hstage19_1 (((cfgM pf hO).slots t 1).cast nbuf19_1)

/-- The body as the pipeline calls it at point `t`. -/
abbrev bodyAt (t : Fin (cfgM pf hO).N) : Prog (TpuEff nD τ sig (Elt F) Λ₀ .tc) PUnit :=
  cc19__gather_max_kernel (grid19.coords t) (Memref.whole main_v81) (Memref.isWhole_whole _) (spec19_0.stage ((cfgM pf hO).slots t 0)) (hstage19_0 (((cfgM pf hO).slots t 0).cast nbuf19_0)) (spec19_1.stage ((cfgM pf hO).slots t 1)) (hstage19_1 (((cfgM pf hO).slots t 1).cast nbuf19_1))

theorem N_eq : (cfgM pf hO).N = 65536 := N_19

end
end Cert.KernelIdeal.Rg19

namespace Cert.KernelIdeal.Rg19
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid19.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc19__gather_max_kernel i tbM htbM arg3 harg3 arg4 harg4) K } := by
  refine ⟨?_, fun E K => ?run⟩
  case run =>
    simp only [cc19__gather_max_kernel_eq_skeleton]; unfold cc19__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid19.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc19__gather_max_kernel i tbM htbM arg3 harg3 arg4 harg4) K } := by
  refine ⟨?_, fun E K => ?run⟩
  case run =>
    simp only [cc19__gather_max_kernel_eq_skeleton]; unfold cc19__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg19

namespace Cert.KernelIdeal.Rg19
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre19.Contents (Elt F)) (hO : ok19 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid19.stride 1 = 1 := by decide
/-- A row lasts 32 consecutive points. -/
theorem stride_0 : grid19.stride 0 = 32 := by decide

/-- The neighbour coordinate of point t is t % 32. -/
theorem coords_1 (t : Fin grid19.N) : (grid19.coords t 1).val = t.val % 32 := by
  show t.val / grid19.stride 1 % grid19.bound 1 = t.val % 32
  rw [stride_1, Nat.div_one]; rfl

/-- The row coordinate of point t is t / 32 (modulo the 2048 rows). -/
theorem coords_0 (t : Fin grid19.N) : (grid19.coords t 0).val = t.val / 32 % 2048 := by
  show t.val / grid19.stride 0 % grid19.bound 0 = _
  rw [stride_0]; rfl

/-- The branch is taken exactly at a row's first neighbour. -/
theorem hcond : ∀ t : Fin (cfgM pf hO).N, cond (grid19.coords t) ↔ t.val % 32 = 0 := by
  intro t
  have e : (grid19.coords t 1).val = t.val % 32 := coords_1 t
  exact (cond_fin32 (grid19.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc19_transform_1 (grid19.coords t) = _
  unfold cc19_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg19

namespace Cert.KernelIdeal.Rg19
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre19.Contents (Elt F)) (hO : ok19 (F := F) pf)

/-- Case A's pieces for the output tile its block, so they cover it. -/
theorem cover_A_1 (c : Dev nD) (i : grid19.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid19.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid19.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid19.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid19.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid19.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid19.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid19.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid19.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec19 w)
  after w t := match w with
    | ⟨0, _⟩ => iblk V pf hO c 0 t
    | ⟨1, _⟩ => (outsAt V pf hO c t.val t.isLt)
  Φ _ := iprop(Pipeline.ΦA spec19 c ∗ Pipeline.prefHeld pre19 c (fun _ => fullShare) pf)
  q _ := fullShare
  owed _ := 0

theorem A_eq (c : Dev nD) (w : Fin (cfgM pf hO).W) : (dat V pf hO c).A w = V c (Pipeline.arrRef spec19 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid19.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid19.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W19, bigSep_W19]
  exact sound_body V pf hO c t

end
end Cert.KernelIdeal.Rg19

namespace Cert.KernelIdeal.Rg19
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre19.Contents (Elt F)) (hO : ok19 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid19.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k19_pay2 (k19_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid19.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k19_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k19_pay2 a b j = FloatOps.maximumf (a j) (b j) := by
  unfold k19_pay2
  simp only [shapeCast_self]
  rfl

/-- The reset value is -inf on every lane. -/
theorem pay1_apply (j : S1x1x128.Idx) : k19_pay1 (F := F) j = PoolSpec.ninf := rfl

/-! ## The table's words and the rows they name -/

/-- The table's word at flat position p (row p / 32, neighbour p % 32 of this chunk). -/
def tabWord (pf : pre19.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid19.N) (ht : t.val < 65536) : k19_off1 (grid19.coords t) 0 = t.val := by
  show (Scalar.indexCast (Scalar.addi (Scalar.muli (BitVec.ofNat 32 (grid19.coords t 0).val) 32#32) (BitVec.ofNat 32 (grid19.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre19.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid19.Coords, ∀ a, (k19_off1 i) a + S1.size a ≤ S65536.size a) (h2 : S1.numel = 1)
    (pf : pre19.Contents (Elt F)) (i : grid19.Coords) (n : ℕ) (hn : n < 65536) (e : k19_off1 i 0 = n) :
    cc19_transform_0 h1 h2 pf i = ![(tabWord pf ⟨n, hn⟩).toNat, 0, 0] := by
  rw [← at_unit pf (k19_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc19_transform_0 _ _ pf (grid19.coords t) = _
  exact transform_0_eq _ _ pf (grid19.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb19 pf hO 0 (grid19.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre19.Contents (Elt F)) (hO : ok19 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v82 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg19

end
-- ==== Proof.KI.R20.Pipe.lean ====
/- Region 20 (the first 2048 pooled rows): the pipeline at an admissible table, the blocks its windows stage,
   the branch condition of the body and the names the runs are stated over. -/
/- Region 20: the body run once per case of its one branch. Case A (neighbour 0): the accumulator is set to -inf and
   then maximised with the gathered row. Case B (a later neighbour): the accumulator the point before left is
   maximised with the gathered row. Each run finds the pieces the output's staging buffer ends with. -/
/- Region 20: where the grid meets the body's branch and where the output row is written back, in closed form.
   The grid is 2048 rows by 32 neighbours, the neighbour axis fastest: point t is row t / 32, neighbour t % 32. -/
/- Region 20: what the output's staging buffer holds after each point (the running maximum over a row's neighbours
   so far), the pipeline's proof data over it, and the body obligation at every point. -/
/- Region 20: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg20
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre20.Contents (Elt F)) (hO : ok20 (F := F) pf)

abbrev adm : (pcfg20 (F := F)).Adm := ⟨pf, hO⟩
abbrev cfgM : Pipeline.Cfg sig Λ₀ := cfg20 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec20 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec20 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid20.Coords) : Prop := (Scalar.cmpi .ne (Scalar.extui (Scalar.cmpi .eq (BitVec.ofNat 32 (i 1).val) 0#32)) 0#32) = 1#1

abbrev VO_1 : View sig .tc .vmem S1x1x128 .f32 := (Memref.whole cc20_stg1_0 : Memref sig .tc .vmem S1x1x128 .f32).view
abbrev tbM : Memref sig .tc .smem S65536 .i32 := Memref.whole main_v85
abbrev htbM : (tbM).IsWhole := Memref.isWhole_whole _
abbrev ms_0 (t : Fin (cfgM pf hO).N) : Memref sig .tc .vmem S1x1x128 .f32 := spec20_0.stage ((cfgM pf hO).slots t 0)
abbrev hs_0 (t : Fin (cfgM pf hO).N) : (ms_0 pf hO t).IsWhole := hstage20_0 (((cfgM pf hO).slots t 0).cast nbuf20_0)
abbrev ms_1 (t : Fin (cfgM pf hO).N) : Memref sig .tc .vmem S1x1x128 .f32 := spec20_1.stage ((cfgM pf hO).slots t 1)
abbrev hs_1 (t : Fin (cfgM pf hO).N) : (ms_1 pf hO t).IsWhole := hstage20_1 (((cfgM pf hO).slots t 1).cast nbuf20_1)

/-- The body as the pipeline calls it at point `t`. -/
abbrev bodyAt (t : Fin (cfgM pf hO).N) : Prog (TpuEff nD τ sig (Elt F) Λ₀ .tc) PUnit :=
  cc20__gather_max_kernel (grid20.coords t) (Memref.whole main_v85) (Memref.isWhole_whole _) (spec20_0.stage ((cfgM pf hO).slots t 0)) (hstage20_0 (((cfgM pf hO).slots t 0).cast nbuf20_0)) (spec20_1.stage ((cfgM pf hO).slots t 1)) (hstage20_1 (((cfgM pf hO).slots t 1).cast nbuf20_1))

theorem N_eq : (cfgM pf hO).N = 65536 := N_20

end
end Cert.KernelIdeal.Rg20

namespace Cert.KernelIdeal.Rg20
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid20.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc20__gather_max_kernel i tbM htbM arg3 harg3 arg4 harg4) K } := by
  refine ⟨?_, fun E K => ?run⟩
  case run =>
    simp only [cc20__gather_max_kernel_eq_skeleton]; unfold cc20__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid20.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc20__gather_max_kernel i tbM htbM arg3 harg3 arg4 harg4) K } := by
  refine ⟨?_, fun E K => ?run⟩
  case run =>
    simp only [cc20__gather_max_kernel_eq_skeleton]; unfold cc20__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg20

namespace Cert.KernelIdeal.Rg20
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre20.Contents (Elt F)) (hO : ok20 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid20.stride 1 = 1 := by decide
/-- A row lasts 32 consecutive points. -/
theorem stride_0 : grid20.stride 0 = 32 := by decide

/-- The neighbour coordinate of point t is t % 32. -/
theorem coords_1 (t : Fin grid20.N) : (grid20.coords t 1).val = t.val % 32 := by
  show t.val / grid20.stride 1 % grid20.bound 1 = t.val % 32
  rw [stride_1, Nat.div_one]; rfl

/-- The row coordinate of point t is t / 32 (modulo the 2048 rows). -/
theorem coords_0 (t : Fin grid20.N) : (grid20.coords t 0).val = t.val / 32 % 2048 := by
  show t.val / grid20.stride 0 % grid20.bound 0 = _
  rw [stride_0]; rfl

/-- The branch is taken exactly at a row's first neighbour. -/
theorem hcond : ∀ t : Fin (cfgM pf hO).N, cond (grid20.coords t) ↔ t.val % 32 = 0 := by
  intro t
  have e : (grid20.coords t 1).val = t.val % 32 := coords_1 t
  exact (cond_fin32 (grid20.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc20_transform_1 (grid20.coords t) = _
  unfold cc20_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg20

namespace Cert.KernelIdeal.Rg20
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre20.Contents (Elt F)) (hO : ok20 (F := F) pf)

/-- Case A's pieces for the output tile its block, so they cover it. -/
theorem cover_A_1 (c : Dev nD) (i : grid20.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid20.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid20.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid20.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid20.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid20.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid20.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid20.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid20.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec20 w)
  after w t := match w with
    | ⟨0, _⟩ => iblk V pf hO c 0 t
    | ⟨1, _⟩ => (outsAt V pf hO c t.val t.isLt)
  Φ _ := iprop(Pipeline.ΦA spec20 c ∗ Pipeline.prefHeld pre20 c (fun _ => fullShare) pf)
  q _ := fullShare
  owed _ := 0

theorem A_eq (c : Dev nD) (w : Fin (cfgM pf hO).W) : (dat V pf hO c).A w = V c (Pipeline.arrRef spec20 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid20.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid20.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W20, bigSep_W20]
  exact sound_body V pf hO c t

end
end Cert.KernelIdeal.Rg20

namespace Cert.KernelIdeal.Rg20
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre20.Contents (Elt F)) (hO : ok20 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid20.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k20_pay2 (k20_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid20.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k20_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k20_pay2 a b j = FloatOps.maximumf (a j) (b j) := by
  unfold k20_pay2
  simp only [shapeCast_self]
  rfl

/-- The reset value is -inf on every lane. -/
theorem pay1_apply (j : S1x1x128.Idx) : k20_pay1 (F := F) j = PoolSpec.ninf := rfl

/-! ## The table's words and the rows they name -/

/-- The table's word at flat position p (row p / 32, neighbour p % 32 of this chunk). -/
def tabWord (pf : pre20.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid20.N) (ht : t.val < 65536) : k20_off1 (grid20.coords t) 0 = t.val := by
  show (Scalar.indexCast (Scalar.addi (Scalar.muli (BitVec.ofNat 32 (grid20.coords t 0).val) 32#32) (BitVec.ofNat 32 (grid20.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre20.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid20.Coords, ∀ a, (k20_off1 i) a + S1.size a ≤ S65536.size a) (h2 : S1.numel = 1)
    (pf : pre20.Contents (Elt F)) (i : grid20.Coords) (n : ℕ) (hn : n < 65536) (e : k20_off1 i 0 = n) :
    cc20_transform_0 h1 h2 pf i = ![(tabWord pf ⟨n, hn⟩).toNat, 0, 0] := by
  rw [← at_unit pf (k20_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc20_transform_0 _ _ pf (grid20.coords t) = _
  exact transform_0_eq _ _ pf (grid20.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb20 pf hO 0 (grid20.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre20.Contents (Elt F)) (hO : ok20 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v86 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg20

end
-- ==== Proof.KI.R21.Pipe.lean ====
/- Region 21 (the first 2048 pooled rows): the pipeline at an admissible table, the blocks its windows stage,
   the branch condition of the body and the names the runs are stated over. -/
/- Region 21: the body run once per case of its one branch. Case A (neighbour 0): the accumulator is set to -inf and
   then maximised with the gathered row. Case B (a later neighbour): the accumulator the point before left is
   maximised with the gathered row. Each run finds the pieces the output's staging buffer ends with. -/
/- Region 21: where the grid meets the body's branch and where the output row is written back, in closed form.
   The grid is 2048 rows by 32 neighbours, the neighbour axis fastest: point t is row t / 32, neighbour t % 32. -/
/- Region 21: what the output's staging buffer holds after each point (the running maximum over a row's neighbours
   so far), the pipeline's proof data over it, and the body obligation at every point. -/
/- Region 21: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg21
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre21.Contents (Elt F)) (hO : ok21 (F := F) pf)

abbrev adm : (pcfg21 (F := F)).Adm := ⟨pf, hO⟩
abbrev cfgM : Pipeline.Cfg sig Λ₀ := cfg21 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec21 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec21 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid21.Coords) : Prop := (Scalar.cmpi .ne (Scalar.extui (Scalar.cmpi .eq (BitVec.ofNat 32 (i 1).val) 0#32)) 0#32) = 1#1

abbrev VO_1 : View sig .tc .vmem S1x1x128 .f32 := (Memref.whole cc21_stg1_0 : Memref sig .tc .vmem S1x1x128 .f32).view
abbrev tbM : Memref sig .tc .smem S65536 .i32 := Memref.whole main_v89
abbrev htbM : (tbM).IsWhole := Memref.isWhole_whole _
abbrev ms_0 (t : Fin (cfgM pf hO).N) : Memref sig .tc .vmem S1x1x128 .f32 := spec21_0.stage ((cfgM pf hO).slots t 0)
abbrev hs_0 (t : Fin (cfgM pf hO).N) : (ms_0 pf hO t).IsWhole := hstage21_0 (((cfgM pf hO).slots t 0).cast nbuf21_0)
abbrev ms_1 (t : Fin (cfgM pf hO).N) : Memref sig .tc .vmem S1x1x128 .f32 := spec21_1.stage ((cfgM pf hO).slots t 1)
abbrev hs_1 (t : Fin (cfgM pf hO).N) : (ms_1 pf hO t).IsWhole := hstage21_1 (((cfgM pf hO).slots t 1).cast nbuf21_1)

/-- The body as the pipeline calls it at point `t`. -/
abbrev bodyAt (t : Fin (cfgM pf hO).N) : Prog (TpuEff nD τ sig (Elt F) Λ₀ .tc) PUnit :=
  cc21__gather_max_kernel (grid21.coords t) (Memref.whole main_v89) (Memref.isWhole_whole _) (spec21_0.stage ((cfgM pf hO).slots t 0)) (hstage21_0 (((cfgM pf hO).slots t 0).cast nbuf21_0)) (spec21_1.stage ((cfgM pf hO).slots t 1)) (hstage21_1 (((cfgM pf hO).slots t 1).cast nbuf21_1))

theorem N_eq : (cfgM pf hO).N = 65536 := N_21

end
end Cert.KernelIdeal.Rg21

namespace Cert.KernelIdeal.Rg21
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid21.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc21__gather_max_kernel i tbM htbM arg3 harg3 arg4 harg4) K } := by
  refine ⟨?_, fun E K => ?run⟩
  case run =>
    simp only [cc21__gather_max_kernel_eq_skeleton]; unfold cc21__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid21.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc21__gather_max_kernel i tbM htbM arg3 harg3 arg4 harg4) K } := by
  refine ⟨?_, fun E K => ?run⟩
  case run =>
    simp only [cc21__gather_max_kernel_eq_skeleton]; unfold cc21__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg21

namespace Cert.KernelIdeal.Rg21
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre21.Contents (Elt F)) (hO : ok21 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid21.stride 1 = 1 := by decide
/-- A row lasts 32 consecutive points. -/
theorem stride_0 : grid21.stride 0 = 32 := by decide

/-- The neighbour coordinate of point t is t % 32. -/
theorem coords_1 (t : Fin grid21.N) : (grid21.coords t 1).val = t.val % 32 := by
  show t.val / grid21.stride 1 % grid21.bound 1 = t.val % 32
  rw [stride_1, Nat.div_one]; rfl

/-- The row coordinate of point t is t / 32 (modulo the 2048 rows). -/
theorem coords_0 (t : Fin grid21.N) : (grid21.coords t 0).val = t.val / 32 % 2048 := by
  show t.val / grid21.stride 0 % grid21.bound 0 = _
  rw [stride_0]; rfl

/-- The branch is taken exactly at a row's first neighbour. -/
theorem hcond : ∀ t : Fin (cfgM pf hO).N, cond (grid21.coords t) ↔ t.val % 32 = 0 := by
  intro t
  have e : (grid21.coords t 1).val = t.val % 32 := coords_1 t
  exact (cond_fin32 (grid21.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc21_transform_1 (grid21.coords t) = _
  unfold cc21_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg21

namespace Cert.KernelIdeal.Rg21
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre21.Contents (Elt F)) (hO : ok21 (F := F) pf)

/-- Case A's pieces for the output tile its block, so they cover it. -/
theorem cover_A_1 (c : Dev nD) (i : grid21.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid21.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid21.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid21.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid21.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid21.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid21.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid21.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid21.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec21 w)
  after w t := match w with
    | ⟨0, _⟩ => iblk V pf hO c 0 t
    | ⟨1, _⟩ => (outsAt V pf hO c t.val t.isLt)
  Φ _ := iprop(Pipeline.ΦA spec21 c ∗ Pipeline.prefHeld pre21 c (fun _ => fullShare) pf)
  q _ := fullShare
  owed _ := 0

theorem A_eq (c : Dev nD) (w : Fin (cfgM pf hO).W) : (dat V pf hO c).A w = V c (Pipeline.arrRef spec21 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid21.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid21.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W21, bigSep_W21]
  exact sound_body V pf hO c t

end
end Cert.KernelIdeal.Rg21

namespace Cert.KernelIdeal.Rg21
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre21.Contents (Elt F)) (hO : ok21 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid21.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k21_pay2 (k21_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid21.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k21_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k21_pay2 a b j = FloatOps.maximumf (a j) (b j) := by
  unfold k21_pay2
  simp only [shapeCast_self]
  rfl

/-- The reset value is -inf on every lane. -/
theorem pay1_apply (j : S1x1x128.Idx) : k21_pay1 (F := F) j = PoolSpec.ninf := rfl

/-! ## The table's words and the rows they name -/

/-- The table's word at flat position p (row p / 32, neighbour p % 32 of this chunk). -/
def tabWord (pf : pre21.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid21.N) (ht : t.val < 65536) : k21_off1 (grid21.coords t) 0 = t.val := by
  show (Scalar.indexCast (Scalar.addi (Scalar.muli (BitVec.ofNat 32 (grid21.coords t 0).val) 32#32) (BitVec.ofNat 32 (grid21.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre21.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid21.Coords, ∀ a, (k21_off1 i) a + S1.size a ≤ S65536.size a) (h2 : S1.numel = 1)
    (pf : pre21.Contents (Elt F)) (i : grid21.Coords) (n : ℕ) (hn : n < 65536) (e : k21_off1 i 0 = n) :
    cc21_transform_0 h1 h2 pf i = ![(tabWord pf ⟨n, hn⟩).toNat, 0, 0] := by
  rw [← at_unit pf (k21_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc21_transform_0 _ _ pf (grid21.coords t) = _
  exact transform_0_eq _ _ pf (grid21.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb21 pf hO 0 (grid21.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre21.Contents (Elt F)) (hO : ok21 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v90 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg21

end
-- ==== Proof.KI.R22.Pipe.lean ====
/- Region 22 (the first 2048 pooled rows): the pipeline at an admissible table, the blocks its windows stage,
   the branch condition of the body and the names the runs are stated over. -/
/- Region 22: the body run once per case of its one branch. Case A (neighbour 0): the accumulator is set to -inf and
   then maximised with the gathered row. Case B (a later neighbour): the accumulator the point before left is
   maximised with the gathered row. Each run finds the pieces the output's staging buffer ends with. -/
/- Region 22: where the grid meets the body's branch and where the output row is written back, in closed form.
   The grid is 2048 rows by 32 neighbours, the neighbour axis fastest: point t is row t / 32, neighbour t % 32. -/
/- Region 22: what the output's staging buffer holds after each point (the running maximum over a row's neighbours
   so far), the pipeline's proof data over it, and the body obligation at every point. -/
/- Region 22: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg22
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre22.Contents (Elt F)) (hO : ok22 (F := F) pf)

abbrev adm : (pcfg22 (F := F)).Adm := ⟨pf, hO⟩
abbrev cfgM : Pipeline.Cfg sig Λ₀ := cfg22 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec22 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec22 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid22.Coords) : Prop := (Scalar.cmpi .ne (Scalar.extui (Scalar.cmpi .eq (BitVec.ofNat 32 (i 1).val) 0#32)) 0#32) = 1#1

abbrev VO_1 : View sig .tc .vmem S1x1x128 .f32 := (Memref.whole cc22_stg1_0 : Memref sig .tc .vmem S1x1x128 .f32).view
abbrev tbM : Memref sig .tc .smem S65536 .i32 := Memref.whole main_v93
abbrev htbM : (tbM).IsWhole := Memref.isWhole_whole _
abbrev ms_0 (t : Fin (cfgM pf hO).N) : Memref sig .tc .vmem S1x1x128 .f32 := spec22_0.stage ((cfgM pf hO).slots t 0)
abbrev hs_0 (t : Fin (cfgM pf hO).N) : (ms_0 pf hO t).IsWhole := hstage22_0 (((cfgM pf hO).slots t 0).cast nbuf22_0)
abbrev ms_1 (t : Fin (cfgM pf hO).N) : Memref sig .tc .vmem S1x1x128 .f32 := spec22_1.stage ((cfgM pf hO).slots t 1)
abbrev hs_1 (t : Fin (cfgM pf hO).N) : (ms_1 pf hO t).IsWhole := hstage22_1 (((cfgM pf hO).slots t 1).cast nbuf22_1)

/-- The body as the pipeline calls it at point `t`. -/
abbrev bodyAt (t : Fin (cfgM pf hO).N) : Prog (TpuEff nD τ sig (Elt F) Λ₀ .tc) PUnit :=
  cc22__gather_max_kernel (grid22.coords t) (Memref.whole main_v93) (Memref.isWhole_whole _) (spec22_0.stage ((cfgM pf hO).slots t 0)) (hstage22_0 (((cfgM pf hO).slots t 0).cast nbuf22_0)) (spec22_1.stage ((cfgM pf hO).slots t 1)) (hstage22_1 (((cfgM pf hO).slots t 1).cast nbuf22_1))

theorem N_eq : (cfgM pf hO).N = 65536 := N_22

end
end Cert.KernelIdeal.Rg22

namespace Cert.KernelIdeal.Rg22
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid22.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc22__gather_max_kernel i tbM htbM arg3 harg3 arg4 harg4) K } := by
  refine ⟨?_, fun E K => ?run⟩
  case run =>
    simp only [cc22__gather_max_kernel_eq_skeleton]; unfold cc22__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid22.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc22__gather_max_kernel i tbM htbM arg3 harg3 arg4 harg4) K } := by
  refine ⟨?_, fun E K => ?run⟩
  case run =>
    simp only [cc22__gather_max_kernel_eq_skeleton]; unfold cc22__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg22

namespace Cert.KernelIdeal.Rg22
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre22.Contents (Elt F)) (hO : ok22 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid22.stride 1 = 1 := by decide
/-- A row lasts 32 consecutive points. -/
theorem stride_0 : grid22.stride 0 = 32 := by decide

/-- The neighbour coordinate of point t is t % 32. -/
theorem coords_1 (t : Fin grid22.N) : (grid22.coords t 1).val = t.val % 32 := by
  show t.val / grid22.stride 1 % grid22.bound 1 = t.val % 32
  rw [stride_1, Nat.div_one]; rfl

/-- The row coordinate of point t is t / 32 (modulo the 2048 rows). -/
theorem coords_0 (t : Fin grid22.N) : (grid22.coords t 0).val = t.val / 32 % 2048 := by
  show t.val / grid22.stride 0 % grid22.bound 0 = _
  rw [stride_0]; rfl

/-- The branch is taken exactly at a row's first neighbour. -/
theorem hcond : ∀ t : Fin (cfgM pf hO).N, cond (grid22.coords t) ↔ t.val % 32 = 0 := by
  intro t
  have e : (grid22.coords t 1).val = t.val % 32 := coords_1 t
  exact (cond_fin32 (grid22.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc22_transform_1 (grid22.coords t) = _
  unfold cc22_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg22

namespace Cert.KernelIdeal.Rg22
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre22.Contents (Elt F)) (hO : ok22 (F := F) pf)

/-- Case A's pieces for the output tile its block, so they cover it. -/
theorem cover_A_1 (c : Dev nD) (i : grid22.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid22.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid22.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid22.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid22.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid22.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid22.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid22.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid22.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec22 w)
  after w t := match w with
    | ⟨0, _⟩ => iblk V pf hO c 0 t
    | ⟨1, _⟩ => (outsAt V pf hO c t.val t.isLt)
  Φ _ := iprop(Pipeline.ΦA spec22 c ∗ Pipeline.prefHeld pre22 c (fun _ => fullShare) pf)
  q _ := fullShare
  owed _ := 0

theorem A_eq (c : Dev nD) (w : Fin (cfgM pf hO).W) : (dat V pf hO c).A w = V c (Pipeline.arrRef spec22 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid22.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid22.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W22, bigSep_W22]
  exact sound_body V pf hO c t

end
end Cert.KernelIdeal.Rg22

namespace Cert.KernelIdeal.Rg22
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre22.Contents (Elt F)) (hO : ok22 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid22.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k22_pay2 (k22_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid22.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k22_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k22_pay2 a b j = FloatOps.maximumf (a j) (b j) := by
  unfold k22_pay2
  simp only [shapeCast_self]
  rfl

/-- The reset value is -inf on every lane. -/
theorem pay1_apply (j : S1x1x128.Idx) : k22_pay1 (F := F) j = PoolSpec.ninf := rfl

/-! ## The table's words and the rows they name -/

/-- The table's word at flat position p (row p / 32, neighbour p % 32 of this chunk). -/
def tabWord (pf : pre22.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid22.N) (ht : t.val < 65536) : k22_off1 (grid22.coords t) 0 = t.val := by
  show (Scalar.indexCast (Scalar.addi (Scalar.muli (BitVec.ofNat 32 (grid22.coords t 0).val) 32#32) (BitVec.ofNat 32 (grid22.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre22.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid22.Coords, ∀ a, (k22_off1 i) a + S1.size a ≤ S65536.size a) (h2 : S1.numel = 1)
    (pf : pre22.Contents (Elt F)) (i : grid22.Coords) (n : ℕ) (hn : n < 65536) (e : k22_off1 i 0 = n) :
    cc22_transform_0 h1 h2 pf i = ![(tabWord pf ⟨n, hn⟩).toNat, 0, 0] := by
  rw [← at_unit pf (k22_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc22_transform_0 _ _ pf (grid22.coords t) = _
  exact transform_0_eq _ _ pf (grid22.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb22 pf hO 0 (grid22.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre22.Contents (Elt F)) (hO : ok22 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v94 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg22

end
-- ==== Proof.KI.R23.Pipe.lean ====
/- Region 23 (the first 2048 pooled rows): the pipeline at an admissible table, the blocks its windows stage,
   the branch condition of the body and the names the runs are stated over. -/
/- Region 23: the body run once per case of its one branch. Case A (neighbour 0): the accumulator is set to -inf and
   then maximised with the gathered row. Case B (a later neighbour): the accumulator the point before left is
   maximised with the gathered row. Each run finds the pieces the output's staging buffer ends with. -/
/- Region 23: where the grid meets the body's branch and where the output row is written back, in closed form.
   The grid is 2048 rows by 32 neighbours, the neighbour axis fastest: point t is row t / 32, neighbour t % 32. -/
/- Region 23: what the output's staging buffer holds after each point (the running maximum over a row's neighbours
   so far), the pipeline's proof data over it, and the body obligation at every point. -/
/- Region 23: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg23
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre23.Contents (Elt F)) (hO : ok23 (F := F) pf)

abbrev adm : (pcfg23 (F := F)).Adm := ⟨pf, hO⟩
abbrev cfgM : Pipeline.Cfg sig Λ₀ := cfg23 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec23 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec23 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid23.Coords) : Prop := (Scalar.cmpi .ne (Scalar.extui (Scalar.cmpi .eq (BitVec.ofNat 32 (i 1).val) 0#32)) 0#32) = 1#1

abbrev VO_1 : View sig .tc .vmem S1x1x128 .f32 := (Memref.whole cc23_stg1_0 : Memref sig .tc .vmem S1x1x128 .f32).view
abbrev tbM : Memref sig .tc .smem S65536 .i32 := Memref.whole main_v97
abbrev htbM : (tbM).IsWhole := Memref.isWhole_whole _
abbrev ms_0 (t : Fin (cfgM pf hO).N) : Memref sig .tc .vmem S1x1x128 .f32 := spec23_0.stage ((cfgM pf hO).slots t 0)
abbrev hs_0 (t : Fin (cfgM pf hO).N) : (ms_0 pf hO t).IsWhole := hstage23_0 (((cfgM pf hO).slots t 0).cast nbuf23_0)
abbrev ms_1 (t : Fin (cfgM pf hO).N) : Memref sig .tc .vmem S1x1x128 .f32 := spec23_1.stage ((cfgM pf hO).slots t 1)
abbrev hs_1 (t : Fin (cfgM pf hO).N) : (ms_1 pf hO t).IsWhole := hstage23_1 (((cfgM pf hO).slots t 1).cast nbuf23_1)

/-- The body as the pipeline calls it at point `t`. -/
abbrev bodyAt (t : Fin (cfgM pf hO).N) : Prog (TpuEff nD τ sig (Elt F) Λ₀ .tc) PUnit :=
  cc23__gather_max_kernel (grid23.coords t) (Memref.whole main_v97) (Memref.isWhole_whole _) (spec23_0.stage ((cfgM pf hO).slots t 0)) (hstage23_0 (((cfgM pf hO).slots t 0).cast nbuf23_0)) (spec23_1.stage ((cfgM pf hO).slots t 1)) (hstage23_1 (((cfgM pf hO).slots t 1).cast nbuf23_1))

theorem N_eq : (cfgM pf hO).N = 65536 := N_23

end
end Cert.KernelIdeal.Rg23

namespace Cert.KernelIdeal.Rg23
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid23.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc23__gather_max_kernel i tbM htbM arg3 harg3 arg4 harg4) K } := by
  refine ⟨?_, fun E K => ?run⟩
  case run =>
    simp only [cc23__gather_max_kernel_eq_skeleton]; unfold cc23__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid23.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc23__gather_max_kernel i tbM htbM arg3 harg3 arg4 harg4) K } := by
  refine ⟨?_, fun E K => ?run⟩
  case run =>
    simp only [cc23__gather_max_kernel_eq_skeleton]; unfold cc23__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg23

namespace Cert.KernelIdeal.Rg23
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre23.Contents (Elt F)) (hO : ok23 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid23.stride 1 = 1 := by decide
/-- A row lasts 32 consecutive points. -/
theorem stride_0 : grid23.stride 0 = 32 := by decide

/-- The neighbour coordinate of point t is t % 32. -/
theorem coords_1 (t : Fin grid23.N) : (grid23.coords t 1).val = t.val % 32 := by
  show t.val / grid23.stride 1 % grid23.bound 1 = t.val % 32
  rw [stride_1, Nat.div_one]; rfl

/-- The row coordinate of point t is t / 32 (modulo the 2048 rows). -/
theorem coords_0 (t : Fin grid23.N) : (grid23.coords t 0).val = t.val / 32 % 2048 := by
  show t.val / grid23.stride 0 % grid23.bound 0 = _
  rw [stride_0]; rfl

/-- The branch is taken exactly at a row's first neighbour. -/
theorem hcond : ∀ t : Fin (cfgM pf hO).N, cond (grid23.coords t) ↔ t.val % 32 = 0 := by
  intro t
  have e : (grid23.coords t 1).val = t.val % 32 := coords_1 t
  exact (cond_fin32 (grid23.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc23_transform_1 (grid23.coords t) = _
  unfold cc23_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg23

namespace Cert.KernelIdeal.Rg23
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre23.Contents (Elt F)) (hO : ok23 (F := F) pf)

/-- Case A's pieces for the output tile its block, so they cover it. -/
theorem cover_A_1 (c : Dev nD) (i : grid23.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid23.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid23.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid23.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid23.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid23.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid23.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid23.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid23.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec23 w)
  after w t := match w with
    | ⟨0, _⟩ => iblk V pf hO c 0 t
    | ⟨1, _⟩ => (outsAt V pf hO c t.val t.isLt)
  Φ _ := iprop(Pipeline.ΦA spec23 c ∗ Pipeline.prefHeld pre23 c (fun _ => fullShare) pf)
  q _ := fullShare
  owed _ := 0

theorem A_eq (c : Dev nD) (w : Fin (cfgM pf hO).W) : (dat V pf hO c).A w = V c (Pipeline.arrRef spec23 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid23.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid23.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W23, bigSep_W23]
  exact sound_body V pf hO c t

end
end Cert.KernelIdeal.Rg23

namespace Cert.KernelIdeal.Rg23
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre23.Contents (Elt F)) (hO : ok23 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid23.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k23_pay2 (k23_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid23.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k23_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k23_pay2 a b j = FloatOps.maximumf (a j) (b j) := by
  unfold k23_pay2
  simp only [shapeCast_self]
  rfl

/-- The reset value is -inf on every lane. -/
theorem pay1_apply (j : S1x1x128.Idx) : k23_pay1 (F := F) j = PoolSpec.ninf := rfl

/-! ## The table's words and the rows they name -/

/-- The table's word at flat position p (row p / 32, neighbour p % 32 of this chunk). -/
def tabWord (pf : pre23.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid23.N) (ht : t.val < 65536) : k23_off1 (grid23.coords t) 0 = t.val := by
  show (Scalar.indexCast (Scalar.addi (Scalar.muli (BitVec.ofNat 32 (grid23.coords t 0).val) 32#32) (BitVec.ofNat 32 (grid23.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre23.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid23.Coords, ∀ a, (k23_off1 i) a + S1.size a ≤ S65536.size a) (h2 : S1.numel = 1)
    (pf : pre23.Contents (Elt F)) (i : grid23.Coords) (n : ℕ) (hn : n < 65536) (e : k23_off1 i 0 = n) :
    cc23_transform_0 h1 h2 pf i = ![(tabWord pf ⟨n, hn⟩).toNat, 0, 0] := by
  rw [← at_unit pf (k23_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc23_transform_0 _ _ pf (grid23.coords t) = _
  exact transform_0_eq _ _ pf (grid23.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb23 pf hO 0 (grid23.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre23.Contents (Elt F)) (hO : ok23 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v98 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg23

end
-- ==== Proof.KI.R24.Pipe.lean ====
/- Region 24 (the first 2048 pooled rows): the pipeline at an admissible table, the blocks its windows stage,
   the branch condition of the body and the names the runs are stated over. -/
/- Region 24: the body run once per case of its one branch. Case A (neighbour 0): the accumulator is set to -inf and
   then maximised with the gathered row. Case B (a later neighbour): the accumulator the point before left is
   maximised with the gathered row. Each run finds the pieces the output's staging buffer ends with. -/
/- Region 24: where the grid meets the body's branch and where the output row is written back, in closed form.
   The grid is 2048 rows by 32 neighbours, the neighbour axis fastest: point t is row t / 32, neighbour t % 32. -/
/- Region 24: what the output's staging buffer holds after each point (the running maximum over a row's neighbours
   so far), the pipeline's proof data over it, and the body obligation at every point. -/
/- Region 24: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg24
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre24.Contents (Elt F)) (hO : ok24 (F := F) pf)

abbrev adm : (pcfg24 (F := F)).Adm := ⟨pf, hO⟩
abbrev cfgM : Pipeline.Cfg sig Λ₀ := cfg24 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec24 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec24 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid24.Coords) : Prop := (Scalar.cmpi .ne (Scalar.extui (Scalar.cmpi .eq (BitVec.ofNat 32 (i 1).val) 0#32)) 0#32) = 1#1

abbrev VO_1 : View sig .tc .vmem S1x1x128 .f32 := (Memref.whole cc24_stg1_0 : Memref sig .tc .vmem S1x1x128 .f32).view
abbrev tbM : Memref sig .tc .smem S65536 .i32 := Memref.whole main_v101
abbrev htbM : (tbM).IsWhole := Memref.isWhole_whole _
abbrev ms_0 (t : Fin (cfgM pf hO).N) : Memref sig .tc .vmem S1x1x128 .f32 := spec24_0.stage ((cfgM pf hO).slots t 0)
abbrev hs_0 (t : Fin (cfgM pf hO).N) : (ms_0 pf hO t).IsWhole := hstage24_0 (((cfgM pf hO).slots t 0).cast nbuf24_0)
abbrev ms_1 (t : Fin (cfgM pf hO).N) : Memref sig .tc .vmem S1x1x128 .f32 := spec24_1.stage ((cfgM pf hO).slots t 1)
abbrev hs_1 (t : Fin (cfgM pf hO).N) : (ms_1 pf hO t).IsWhole := hstage24_1 (((cfgM pf hO).slots t 1).cast nbuf24_1)

/-- The body as the pipeline calls it at point `t`. -/
abbrev bodyAt (t : Fin (cfgM pf hO).N) : Prog (TpuEff nD τ sig (Elt F) Λ₀ .tc) PUnit :=
  cc24__gather_max_kernel (grid24.coords t) (Memref.whole main_v101) (Memref.isWhole_whole _) (spec24_0.stage ((cfgM pf hO).slots t 0)) (hstage24_0 (((cfgM pf hO).slots t 0).cast nbuf24_0)) (spec24_1.stage ((cfgM pf hO).slots t 1)) (hstage24_1 (((cfgM pf hO).slots t 1).cast nbuf24_1))

theorem N_eq : (cfgM pf hO).N = 65536 := N_24

end
end Cert.KernelIdeal.Rg24

namespace Cert.KernelIdeal.Rg24
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid24.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc24__gather_max_kernel i tbM htbM arg3 harg3 arg4 harg4) K } := by
  refine ⟨?_, fun E K => ?run⟩
  case run =>
    simp only [cc24__gather_max_kernel_eq_skeleton]; unfold cc24__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid24.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc24__gather_max_kernel i tbM htbM arg3 harg3 arg4 harg4) K } := by
  refine ⟨?_, fun E K => ?run⟩
  case run =>
    simp only [cc24__gather_max_kernel_eq_skeleton]; unfold cc24__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg24

namespace Cert.KernelIdeal.Rg24
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre24.Contents (Elt F)) (hO : ok24 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid24.stride 1 = 1 := by decide
/-- A row lasts 32 consecutive points. -/
theorem stride_0 : grid24.stride 0 = 32 := by decide

/-- The neighbour coordinate of point t is t % 32. -/
theorem coords_1 (t : Fin grid24.N) : (grid24.coords t 1).val = t.val % 32 := by
  show t.val / grid24.stride 1 % grid24.bound 1 = t.val % 32
  rw [stride_1, Nat.div_one]; rfl

/-- The row coordinate of point t is t / 32 (modulo the 2048 rows). -/
theorem coords_0 (t : Fin grid24.N) : (grid24.coords t 0).val = t.val / 32 % 2048 := by
  show t.val / grid24.stride 0 % grid24.bound 0 = _
  rw [stride_0]; rfl

/-- The branch is taken exactly at a row's first neighbour. -/
theorem hcond : ∀ t : Fin (cfgM pf hO).N, cond (grid24.coords t) ↔ t.val % 32 = 0 := by
  intro t
  have e : (grid24.coords t 1).val = t.val % 32 := coords_1 t
  exact (cond_fin32 (grid24.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc24_transform_1 (grid24.coords t) = _
  unfold cc24_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg24

namespace Cert.KernelIdeal.Rg24
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre24.Contents (Elt F)) (hO : ok24 (F := F) pf)

/-- Case A's pieces for the output tile its block, so they cover it. -/
theorem cover_A_1 (c : Dev nD) (i : grid24.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid24.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid24.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid24.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid24.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid24.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid24.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid24.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid24.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec24 w)
  after w t := match w with
    | ⟨0, _⟩ => iblk V pf hO c 0 t
    | ⟨1, _⟩ => (outsAt V pf hO c t.val t.isLt)
  Φ _ := iprop(Pipeline.ΦA spec24 c ∗ Pipeline.prefHeld pre24 c (fun _ => fullShare) pf)
  q _ := fullShare
  owed _ := 0

theorem A_eq (c : Dev nD) (w : Fin (cfgM pf hO).W) : (dat V pf hO c).A w = V c (Pipeline.arrRef spec24 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid24.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid24.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W24, bigSep_W24]
  exact sound_body V pf hO c t

end
end Cert.KernelIdeal.Rg24

namespace Cert.KernelIdeal.Rg24
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre24.Contents (Elt F)) (hO : ok24 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid24.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k24_pay2 (k24_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid24.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k24_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k24_pay2 a b j = FloatOps.maximumf (a j) (b j) := by
  unfold k24_pay2
  simp only [shapeCast_self]
  rfl

/-- The reset value is -inf on every lane. -/
theorem pay1_apply (j : S1x1x128.Idx) : k24_pay1 (F := F) j = PoolSpec.ninf := rfl

/-! ## The table's words and the rows they name -/

/-- The table's word at flat position p (row p / 32, neighbour p % 32 of this chunk). -/
def tabWord (pf : pre24.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid24.N) (ht : t.val < 65536) : k24_off1 (grid24.coords t) 0 = t.val := by
  show (Scalar.indexCast (Scalar.addi (Scalar.muli (BitVec.ofNat 32 (grid24.coords t 0).val) 32#32) (BitVec.ofNat 32 (grid24.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre24.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid24.Coords, ∀ a, (k24_off1 i) a + S1.size a ≤ S65536.size a) (h2 : S1.numel = 1)
    (pf : pre24.Contents (Elt F)) (i : grid24.Coords) (n : ℕ) (hn : n < 65536) (e : k24_off1 i 0 = n) :
    cc24_transform_0 h1 h2 pf i = ![(tabWord pf ⟨n, hn⟩).toNat, 0, 0] := by
  rw [← at_unit pf (k24_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc24_transform_0 _ _ pf (grid24.coords t) = _
  exact transform_0_eq _ _ pf (grid24.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb24 pf hO 0 (grid24.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre24.Contents (Elt F)) (hO : ok24 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v102 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg24

end
-- ==== Proof.KI.R25.Pipe.lean ====
/- Region 25 (the first 2048 pooled rows): the pipeline at an admissible table, the blocks its windows stage,
   the branch condition of the body and the names the runs are stated over. -/
/- Region 25: the body run once per case of its one branch. Case A (neighbour 0): the accumulator is set to -inf and
   then maximised with the gathered row. Case B (a later neighbour): the accumulator the point before left is
   maximised with the gathered row. Each run finds the pieces the output's staging buffer ends with. -/
/- Region 25: where the grid meets the body's branch and where the output row is written back, in closed form.
   The grid is 2048 rows by 32 neighbours, the neighbour axis fastest: point t is row t / 32, neighbour t % 32. -/
/- Region 25: what the output's staging buffer holds after each point (the running maximum over a row's neighbours
   so far), the pipeline's proof data over it, and the body obligation at every point. -/
/- Region 25: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg25
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre25.Contents (Elt F)) (hO : ok25 (F := F) pf)

abbrev adm : (pcfg25 (F := F)).Adm := ⟨pf, hO⟩
abbrev cfgM : Pipeline.Cfg sig Λ₀ := cfg25 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec25 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec25 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid25.Coords) : Prop := (Scalar.cmpi .ne (Scalar.extui (Scalar.cmpi .eq (BitVec.ofNat 32 (i 1).val) 0#32)) 0#32) = 1#1

abbrev VO_1 : View sig .tc .vmem S1x1x128 .f32 := (Memref.whole cc25_stg1_0 : Memref sig .tc .vmem S1x1x128 .f32).view
abbrev tbM : Memref sig .tc .smem S65536 .i32 := Memref.whole main_v105
abbrev htbM : (tbM).IsWhole := Memref.isWhole_whole _
abbrev ms_0 (t : Fin (cfgM pf hO).N) : Memref sig .tc .vmem S1x1x128 .f32 := spec25_0.stage ((cfgM pf hO).slots t 0)
abbrev hs_0 (t : Fin (cfgM pf hO).N) : (ms_0 pf hO t).IsWhole := hstage25_0 (((cfgM pf hO).slots t 0).cast nbuf25_0)
abbrev ms_1 (t : Fin (cfgM pf hO).N) : Memref sig .tc .vmem S1x1x128 .f32 := spec25_1.stage ((cfgM pf hO).slots t 1)
abbrev hs_1 (t : Fin (cfgM pf hO).N) : (ms_1 pf hO t).IsWhole := hstage25_1 (((cfgM pf hO).slots t 1).cast nbuf25_1)

/-- The body as the pipeline calls it at point `t`. -/
abbrev bodyAt (t : Fin (cfgM pf hO).N) : Prog (TpuEff nD τ sig (Elt F) Λ₀ .tc) PUnit :=
  cc25__gather_max_kernel (grid25.coords t) (Memref.whole main_v105) (Memref.isWhole_whole _) (spec25_0.stage ((cfgM pf hO).slots t 0)) (hstage25_0 (((cfgM pf hO).slots t 0).cast nbuf25_0)) (spec25_1.stage ((cfgM pf hO).slots t 1)) (hstage25_1 (((cfgM pf hO).slots t 1).cast nbuf25_1))

theorem N_eq : (cfgM pf hO).N = 65536 := N_25

end
end Cert.KernelIdeal.Rg25

namespace Cert.KernelIdeal.Rg25
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid25.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc25__gather_max_kernel i tbM htbM arg3 harg3 arg4 harg4) K } := by
  refine ⟨?_, fun E K => ?run⟩
  case run =>
    simp only [cc25__gather_max_kernel_eq_skeleton]; unfold cc25__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid25.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc25__gather_max_kernel i tbM htbM arg3 harg3 arg4 harg4) K } := by
  refine ⟨?_, fun E K => ?run⟩
  case run =>
    simp only [cc25__gather_max_kernel_eq_skeleton]; unfold cc25__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg25

namespace Cert.KernelIdeal.Rg25
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre25.Contents (Elt F)) (hO : ok25 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid25.stride 1 = 1 := by decide
/-- A row lasts 32 consecutive points. -/
theorem stride_0 : grid25.stride 0 = 32 := by decide

/-- The neighbour coordinate of point t is t % 32. -/
theorem coords_1 (t : Fin grid25.N) : (grid25.coords t 1).val = t.val % 32 := by
  show t.val / grid25.stride 1 % grid25.bound 1 = t.val % 32
  rw [stride_1, Nat.div_one]; rfl

/-- The row coordinate of point t is t / 32 (modulo the 2048 rows). -/
theorem coords_0 (t : Fin grid25.N) : (grid25.coords t 0).val = t.val / 32 % 2048 := by
  show t.val / grid25.stride 0 % grid25.bound 0 = _
  rw [stride_0]; rfl

/-- The branch is taken exactly at a row's first neighbour. -/
theorem hcond : ∀ t : Fin (cfgM pf hO).N, cond (grid25.coords t) ↔ t.val % 32 = 0 := by
  intro t
  have e : (grid25.coords t 1).val = t.val % 32 := coords_1 t
  exact (cond_fin32 (grid25.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc25_transform_1 (grid25.coords t) = _
  unfold cc25_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg25

namespace Cert.KernelIdeal.Rg25
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre25.Contents (Elt F)) (hO : ok25 (F := F) pf)

/-- Case A's pieces for the output tile its block, so they cover it. -/
theorem cover_A_1 (c : Dev nD) (i : grid25.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid25.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid25.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid25.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid25.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid25.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid25.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid25.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid25.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec25 w)
  after w t := match w with
    | ⟨0, _⟩ => iblk V pf hO c 0 t
    | ⟨1, _⟩ => (outsAt V pf hO c t.val t.isLt)
  Φ _ := iprop(Pipeline.ΦA spec25 c ∗ Pipeline.prefHeld pre25 c (fun _ => fullShare) pf)
  q _ := fullShare
  owed _ := 0

theorem A_eq (c : Dev nD) (w : Fin (cfgM pf hO).W) : (dat V pf hO c).A w = V c (Pipeline.arrRef spec25 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid25.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid25.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W25, bigSep_W25]
  exact sound_body V pf hO c t

end
end Cert.KernelIdeal.Rg25

namespace Cert.KernelIdeal.Rg25
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre25.Contents (Elt F)) (hO : ok25 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid25.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k25_pay2 (k25_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid25.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k25_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k25_pay2 a b j = FloatOps.maximumf (a j) (b j) := by
  unfold k25_pay2
  simp only [shapeCast_self]
  rfl

/-- The reset value is -inf on every lane. -/
theorem pay1_apply (j : S1x1x128.Idx) : k25_pay1 (F := F) j = PoolSpec.ninf := rfl

/-! ## The table's words and the rows they name -/

/-- The table's word at flat position p (row p / 32, neighbour p % 32 of this chunk). -/
def tabWord (pf : pre25.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid25.N) (ht : t.val < 65536) : k25_off1 (grid25.coords t) 0 = t.val := by
  show (Scalar.indexCast (Scalar.addi (Scalar.muli (BitVec.ofNat 32 (grid25.coords t 0).val) 32#32) (BitVec.ofNat 32 (grid25.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre25.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid25.Coords, ∀ a, (k25_off1 i) a + S1.size a ≤ S65536.size a) (h2 : S1.numel = 1)
    (pf : pre25.Contents (Elt F)) (i : grid25.Coords) (n : ℕ) (hn : n < 65536) (e : k25_off1 i 0 = n) :
    cc25_transform_0 h1 h2 pf i = ![(tabWord pf ⟨n, hn⟩).toNat, 0, 0] := by
  rw [← at_unit pf (k25_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc25_transform_0 _ _ pf (grid25.coords t) = _
  exact transform_0_eq _ _ pf (grid25.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb25 pf hO 0 (grid25.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre25.Contents (Elt F)) (hO : ok25 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v106 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg25

end
-- ==== Proof.KI.R26.Pipe.lean ====
/- Region 26 (the first 2048 pooled rows): the pipeline at an admissible table, the blocks its windows stage,
   the branch condition of the body and the names the runs are stated over. -/
/- Region 26: the body run once per case of its one branch. Case A (neighbour 0): the accumulator is set to -inf and
   then maximised with the gathered row. Case B (a later neighbour): the accumulator the point before left is
   maximised with the gathered row. Each run finds the pieces the output's staging buffer ends with. -/
/- Region 26: where the grid meets the body's branch and where the output row is written back, in closed form.
   The grid is 2048 rows by 32 neighbours, the neighbour axis fastest: point t is row t / 32, neighbour t % 32. -/
/- Region 26: what the output's staging buffer holds after each point (the running maximum over a row's neighbours
   so far), the pipeline's proof data over it, and the body obligation at every point. -/
/- Region 26: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg26
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre26.Contents (Elt F)) (hO : ok26 (F := F) pf)

abbrev adm : (pcfg26 (F := F)).Adm := ⟨pf, hO⟩
abbrev cfgM : Pipeline.Cfg sig Λ₀ := cfg26 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec26 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec26 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid26.Coords) : Prop := (Scalar.cmpi .ne (Scalar.extui (Scalar.cmpi .eq (BitVec.ofNat 32 (i 1).val) 0#32)) 0#32) = 1#1

abbrev VO_1 : View sig .tc .vmem S1x1x128 .f32 := (Memref.whole cc26_stg1_0 : Memref sig .tc .vmem S1x1x128 .f32).view
abbrev tbM : Memref sig .tc .smem S65536 .i32 := Memref.whole main_v109
abbrev htbM : (tbM).IsWhole := Memref.isWhole_whole _
abbrev ms_0 (t : Fin (cfgM pf hO).N) : Memref sig .tc .vmem S1x1x128 .f32 := spec26_0.stage ((cfgM pf hO).slots t 0)
abbrev hs_0 (t : Fin (cfgM pf hO).N) : (ms_0 pf hO t).IsWhole := hstage26_0 (((cfgM pf hO).slots t 0).cast nbuf26_0)
abbrev ms_1 (t : Fin (cfgM pf hO).N) : Memref sig .tc .vmem S1x1x128 .f32 := spec26_1.stage ((cfgM pf hO).slots t 1)
abbrev hs_1 (t : Fin (cfgM pf hO).N) : (ms_1 pf hO t).IsWhole := hstage26_1 (((cfgM pf hO).slots t 1).cast nbuf26_1)

/-- The body as the pipeline calls it at point `t`. -/
abbrev bodyAt (t : Fin (cfgM pf hO).N) : Prog (TpuEff nD τ sig (Elt F) Λ₀ .tc) PUnit :=
  cc26__gather_max_kernel (grid26.coords t) (Memref.whole main_v109) (Memref.isWhole_whole _) (spec26_0.stage ((cfgM pf hO).slots t 0)) (hstage26_0 (((cfgM pf hO).slots t 0).cast nbuf26_0)) (spec26_1.stage ((cfgM pf hO).slots t 1)) (hstage26_1 (((cfgM pf hO).slots t 1).cast nbuf26_1))

theorem N_eq : (cfgM pf hO).N = 65536 := N_26

end
end Cert.KernelIdeal.Rg26

namespace Cert.KernelIdeal.Rg26
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid26.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc26__gather_max_kernel i tbM htbM arg3 harg3 arg4 harg4) K } := by
  refine ⟨?_, fun E K => ?run⟩
  case run =>
    simp only [cc26__gather_max_kernel_eq_skeleton]; unfold cc26__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid26.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc26__gather_max_kernel i tbM htbM arg3 harg3 arg4 harg4) K } := by
  refine ⟨?_, fun E K => ?run⟩
  case run =>
    simp only [cc26__gather_max_kernel_eq_skeleton]; unfold cc26__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg26

namespace Cert.KernelIdeal.Rg26
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre26.Contents (Elt F)) (hO : ok26 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid26.stride 1 = 1 := by decide
/-- A row lasts 32 consecutive points. -/
theorem stride_0 : grid26.stride 0 = 32 := by decide

/-- The neighbour coordinate of point t is t % 32. -/
theorem coords_1 (t : Fin grid26.N) : (grid26.coords t 1).val = t.val % 32 := by
  show t.val / grid26.stride 1 % grid26.bound 1 = t.val % 32
  rw [stride_1, Nat.div_one]; rfl

/-- The row coordinate of point t is t / 32 (modulo the 2048 rows). -/
theorem coords_0 (t : Fin grid26.N) : (grid26.coords t 0).val = t.val / 32 % 2048 := by
  show t.val / grid26.stride 0 % grid26.bound 0 = _
  rw [stride_0]; rfl

/-- The branch is taken exactly at a row's first neighbour. -/
theorem hcond : ∀ t : Fin (cfgM pf hO).N, cond (grid26.coords t) ↔ t.val % 32 = 0 := by
  intro t
  have e : (grid26.coords t 1).val = t.val % 32 := coords_1 t
  exact (cond_fin32 (grid26.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc26_transform_1 (grid26.coords t) = _
  unfold cc26_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg26

namespace Cert.KernelIdeal.Rg26
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre26.Contents (Elt F)) (hO : ok26 (F := F) pf)

/-- Case A's pieces for the output tile its block, so they cover it. -/
theorem cover_A_1 (c : Dev nD) (i : grid26.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid26.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid26.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid26.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid26.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid26.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid26.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid26.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid26.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec26 w)
  after w t := match w with
    | ⟨0, _⟩ => iblk V pf hO c 0 t
    | ⟨1, _⟩ => (outsAt V pf hO c t.val t.isLt)
  Φ _ := iprop(Pipeline.ΦA spec26 c ∗ Pipeline.prefHeld pre26 c (fun _ => fullShare) pf)
  q _ := fullShare
  owed _ := 0

theorem A_eq (c : Dev nD) (w : Fin (cfgM pf hO).W) : (dat V pf hO c).A w = V c (Pipeline.arrRef spec26 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid26.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid26.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W26, bigSep_W26]
  exact sound_body V pf hO c t

end
end Cert.KernelIdeal.Rg26

namespace Cert.KernelIdeal.Rg26
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre26.Contents (Elt F)) (hO : ok26 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid26.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k26_pay2 (k26_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid26.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k26_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k26_pay2 a b j = FloatOps.maximumf (a j) (b j) := by
  unfold k26_pay2
  simp only [shapeCast_self]
  rfl

/-- The reset value is -inf on every lane. -/
theorem pay1_apply (j : S1x1x128.Idx) : k26_pay1 (F := F) j = PoolSpec.ninf := rfl

/-! ## The table's words and the rows they name -/

/-- The table's word at flat position p (row p / 32, neighbour p % 32 of this chunk). -/
def tabWord (pf : pre26.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid26.N) (ht : t.val < 65536) : k26_off1 (grid26.coords t) 0 = t.val := by
  show (Scalar.indexCast (Scalar.addi (Scalar.muli (BitVec.ofNat 32 (grid26.coords t 0).val) 32#32) (BitVec.ofNat 32 (grid26.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre26.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid26.Coords, ∀ a, (k26_off1 i) a + S1.size a ≤ S65536.size a) (h2 : S1.numel = 1)
    (pf : pre26.Contents (Elt F)) (i : grid26.Coords) (n : ℕ) (hn : n < 65536) (e : k26_off1 i 0 = n) :
    cc26_transform_0 h1 h2 pf i = ![(tabWord pf ⟨n, hn⟩).toNat, 0, 0] := by
  rw [← at_unit pf (k26_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc26_transform_0 _ _ pf (grid26.coords t) = _
  exact transform_0_eq _ _ pf (grid26.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb26 pf hO 0 (grid26.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre26.Contents (Elt F)) (hO : ok26 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v110 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg26

end
-- ==== Proof.KI.R27.Pipe.lean ====
/- Region 27 (the first 2048 pooled rows): the pipeline at an admissible table, the blocks its windows stage,
   the branch condition of the body and the names the runs are stated over. -/
/- Region 27: the body run once per case of its one branch. Case A (neighbour 0): the accumulator is set to -inf and
   then maximised with the gathered row. Case B (a later neighbour): the accumulator the point before left is
   maximised with the gathered row. Each run finds the pieces the output's staging buffer ends with. -/
/- Region 27: where the grid meets the body's branch and where the output row is written back, in closed form.
   The grid is 2048 rows by 32 neighbours, the neighbour axis fastest: point t is row t / 32, neighbour t % 32. -/
/- Region 27: what the output's staging buffer holds after each point (the running maximum over a row's neighbours
   so far), the pipeline's proof data over it, and the body obligation at every point. -/
/- Region 27: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg27
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre27.Contents (Elt F)) (hO : ok27 (F := F) pf)

abbrev adm : (pcfg27 (F := F)).Adm := ⟨pf, hO⟩
abbrev cfgM : Pipeline.Cfg sig Λ₀ := cfg27 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec27 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec27 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid27.Coords) : Prop := (Scalar.cmpi .ne (Scalar.extui (Scalar.cmpi .eq (BitVec.ofNat 32 (i 1).val) 0#32)) 0#32) = 1#1

abbrev VO_1 : View sig .tc .vmem S1x1x128 .f32 := (Memref.whole cc27_stg1_0 : Memref sig .tc .vmem S1x1x128 .f32).view
abbrev tbM : Memref sig .tc .smem S65536 .i32 := Memref.whole main_v113
abbrev htbM : (tbM).IsWhole := Memref.isWhole_whole _
abbrev ms_0 (t : Fin (cfgM pf hO).N) : Memref sig .tc .vmem S1x1x128 .f32 := spec27_0.stage ((cfgM pf hO).slots t 0)
abbrev hs_0 (t : Fin (cfgM pf hO).N) : (ms_0 pf hO t).IsWhole := hstage27_0 (((cfgM pf hO).slots t 0).cast nbuf27_0)
abbrev ms_1 (t : Fin (cfgM pf hO).N) : Memref sig .tc .vmem S1x1x128 .f32 := spec27_1.stage ((cfgM pf hO).slots t 1)
abbrev hs_1 (t : Fin (cfgM pf hO).N) : (ms_1 pf hO t).IsWhole := hstage27_1 (((cfgM pf hO).slots t 1).cast nbuf27_1)

/-- The body as the pipeline calls it at point `t`. -/
abbrev bodyAt (t : Fin (cfgM pf hO).N) : Prog (TpuEff nD τ sig (Elt F) Λ₀ .tc) PUnit :=
  cc27__gather_max_kernel (grid27.coords t) (Memref.whole main_v113) (Memref.isWhole_whole _) (spec27_0.stage ((cfgM pf hO).slots t 0)) (hstage27_0 (((cfgM pf hO).slots t 0).cast nbuf27_0)) (spec27_1.stage ((cfgM pf hO).slots t 1)) (hstage27_1 (((cfgM pf hO).slots t 1).cast nbuf27_1))

theorem N_eq : (cfgM pf hO).N = 65536 := N_27

end
end Cert.KernelIdeal.Rg27

namespace Cert.KernelIdeal.Rg27
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid27.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc27__gather_max_kernel i tbM htbM arg3 harg3 arg4 harg4) K } := by
  refine ⟨?_, fun E K => ?run⟩
  case run =>
    simp only [cc27__gather_max_kernel_eq_skeleton]; unfold cc27__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid27.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc27__gather_max_kernel i tbM htbM arg3 harg3 arg4 harg4) K } := by
  refine ⟨?_, fun E K => ?run⟩
  case run =>
    simp only [cc27__gather_max_kernel_eq_skeleton]; unfold cc27__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg27

namespace Cert.KernelIdeal.Rg27
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre27.Contents (Elt F)) (hO : ok27 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid27.stride 1 = 1 := by decide
/-- A row lasts 32 consecutive points. -/
theorem stride_0 : grid27.stride 0 = 32 := by decide

/-- The neighbour coordinate of point t is t % 32. -/
theorem coords_1 (t : Fin grid27.N) : (grid27.coords t 1).val = t.val % 32 := by
  show t.val / grid27.stride 1 % grid27.bound 1 = t.val % 32
  rw [stride_1, Nat.div_one]; rfl

/-- The row coordinate of point t is t / 32 (modulo the 2048 rows). -/
theorem coords_0 (t : Fin grid27.N) : (grid27.coords t 0).val = t.val / 32 % 2048 := by
  show t.val / grid27.stride 0 % grid27.bound 0 = _
  rw [stride_0]; rfl

/-- The branch is taken exactly at a row's first neighbour. -/
theorem hcond : ∀ t : Fin (cfgM pf hO).N, cond (grid27.coords t) ↔ t.val % 32 = 0 := by
  intro t
  have e : (grid27.coords t 1).val = t.val % 32 := coords_1 t
  exact (cond_fin32 (grid27.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc27_transform_1 (grid27.coords t) = _
  unfold cc27_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg27

namespace Cert.KernelIdeal.Rg27
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre27.Contents (Elt F)) (hO : ok27 (F := F) pf)

/-- Case A's pieces for the output tile its block, so they cover it. -/
theorem cover_A_1 (c : Dev nD) (i : grid27.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid27.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid27.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid27.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid27.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid27.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid27.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid27.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid27.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec27 w)
  after w t := match w with
    | ⟨0, _⟩ => iblk V pf hO c 0 t
    | ⟨1, _⟩ => (outsAt V pf hO c t.val t.isLt)
  Φ _ := iprop(Pipeline.ΦA spec27 c ∗ Pipeline.prefHeld pre27 c (fun _ => fullShare) pf)
  q _ := fullShare
  owed _ := 0

theorem A_eq (c : Dev nD) (w : Fin (cfgM pf hO).W) : (dat V pf hO c).A w = V c (Pipeline.arrRef spec27 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid27.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid27.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W27, bigSep_W27]
  exact sound_body V pf hO c t

end
end Cert.KernelIdeal.Rg27

namespace Cert.KernelIdeal.Rg27
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre27.Contents (Elt F)) (hO : ok27 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid27.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k27_pay2 (k27_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid27.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k27_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k27_pay2 a b j = FloatOps.maximumf (a j) (b j) := by
  unfold k27_pay2
  simp only [shapeCast_self]
  rfl

/-- The reset value is -inf on every lane. -/
theorem pay1_apply (j : S1x1x128.Idx) : k27_pay1 (F := F) j = PoolSpec.ninf := rfl

/-! ## The table's words and the rows they name -/

/-- The table's word at flat position p (row p / 32, neighbour p % 32 of this chunk). -/
def tabWord (pf : pre27.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid27.N) (ht : t.val < 65536) : k27_off1 (grid27.coords t) 0 = t.val := by
  show (Scalar.indexCast (Scalar.addi (Scalar.muli (BitVec.ofNat 32 (grid27.coords t 0).val) 32#32) (BitVec.ofNat 32 (grid27.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre27.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid27.Coords, ∀ a, (k27_off1 i) a + S1.size a ≤ S65536.size a) (h2 : S1.numel = 1)
    (pf : pre27.Contents (Elt F)) (i : grid27.Coords) (n : ℕ) (hn : n < 65536) (e : k27_off1 i 0 = n) :
    cc27_transform_0 h1 h2 pf i = ![(tabWord pf ⟨n, hn⟩).toNat, 0, 0] := by
  rw [← at_unit pf (k27_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc27_transform_0 _ _ pf (grid27.coords t) = _
  exact transform_0_eq _ _ pf (grid27.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb27 pf hO 0 (grid27.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre27.Contents (Elt F)) (hO : ok27 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v114 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg27

end
-- ==== Proof.KI.R28.Pipe.lean ====
/- Region 28 (the first 2048 pooled rows): the pipeline at an admissible table, the blocks its windows stage,
   the branch condition of the body and the names the runs are stated over. -/
/- Region 28: the body run once per case of its one branch. Case A (neighbour 0): the accumulator is set to -inf and
   then maximised with the gathered row. Case B (a later neighbour): the accumulator the point before left is
   maximised with the gathered row. Each run finds the pieces the output's staging buffer ends with. -/
/- Region 28: where the grid meets the body's branch and where the output row is written back, in closed form.
   The grid is 2048 rows by 32 neighbours, the neighbour axis fastest: point t is row t / 32, neighbour t % 32. -/
/- Region 28: what the output's staging buffer holds after each point (the running maximum over a row's neighbours
   so far), the pipeline's proof data over it, and the body obligation at every point. -/
/- Region 28: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg28
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre28.Contents (Elt F)) (hO : ok28 (F := F) pf)

abbrev adm : (pcfg28 (F := F)).Adm := ⟨pf, hO⟩
abbrev cfgM : Pipeline.Cfg sig Λ₀ := cfg28 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec28 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec28 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid28.Coords) : Prop := (Scalar.cmpi .ne (Scalar.extui (Scalar.cmpi .eq (BitVec.ofNat 32 (i 1).val) 0#32)) 0#32) = 1#1

abbrev VO_1 : View sig .tc .vmem S1x1x128 .f32 := (Memref.whole cc28_stg1_0 : Memref sig .tc .vmem S1x1x128 .f32).view
abbrev tbM : Memref sig .tc .smem S65536 .i32 := Memref.whole main_v117
abbrev htbM : (tbM).IsWhole := Memref.isWhole_whole _
abbrev ms_0 (t : Fin (cfgM pf hO).N) : Memref sig .tc .vmem S1x1x128 .f32 := spec28_0.stage ((cfgM pf hO).slots t 0)
abbrev hs_0 (t : Fin (cfgM pf hO).N) : (ms_0 pf hO t).IsWhole := hstage28_0 (((cfgM pf hO).slots t 0).cast nbuf28_0)
abbrev ms_1 (t : Fin (cfgM pf hO).N) : Memref sig .tc .vmem S1x1x128 .f32 := spec28_1.stage ((cfgM pf hO).slots t 1)
abbrev hs_1 (t : Fin (cfgM pf hO).N) : (ms_1 pf hO t).IsWhole := hstage28_1 (((cfgM pf hO).slots t 1).cast nbuf28_1)

/-- The body as the pipeline calls it at point `t`. -/
abbrev bodyAt (t : Fin (cfgM pf hO).N) : Prog (TpuEff nD τ sig (Elt F) Λ₀ .tc) PUnit :=
  cc28__gather_max_kernel (grid28.coords t) (Memref.whole main_v117) (Memref.isWhole_whole _) (spec28_0.stage ((cfgM pf hO).slots t 0)) (hstage28_0 (((cfgM pf hO).slots t 0).cast nbuf28_0)) (spec28_1.stage ((cfgM pf hO).slots t 1)) (hstage28_1 (((cfgM pf hO).slots t 1).cast nbuf28_1))

theorem N_eq : (cfgM pf hO).N = 65536 := N_28

end
end Cert.KernelIdeal.Rg28

namespace Cert.KernelIdeal.Rg28
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid28.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc28__gather_max_kernel i tbM htbM arg3 harg3 arg4 harg4) K } := by
  refine ⟨?_, fun E K => ?run⟩
  case run =>
    simp only [cc28__gather_max_kernel_eq_skeleton]; unfold cc28__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid28.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc28__gather_max_kernel i tbM htbM arg3 harg3 arg4 harg4) K } := by
  refine ⟨?_, fun E K => ?run⟩
  case run =>
    simp only [cc28__gather_max_kernel_eq_skeleton]; unfold cc28__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg28

namespace Cert.KernelIdeal.Rg28
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre28.Contents (Elt F)) (hO : ok28 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid28.stride 1 = 1 := by decide
/-- A row lasts 32 consecutive points. -/
theorem stride_0 : grid28.stride 0 = 32 := by decide

/-- The neighbour coordinate of point t is t % 32. -/
theorem coords_1 (t : Fin grid28.N) : (grid28.coords t 1).val = t.val % 32 := by
  show t.val / grid28.stride 1 % grid28.bound 1 = t.val % 32
  rw [stride_1, Nat.div_one]; rfl

/-- The row coordinate of point t is t / 32 (modulo the 2048 rows). -/
theorem coords_0 (t : Fin grid28.N) : (grid28.coords t 0).val = t.val / 32 % 2048 := by
  show t.val / grid28.stride 0 % grid28.bound 0 = _
  rw [stride_0]; rfl

/-- The branch is taken exactly at a row's first neighbour. -/
theorem hcond : ∀ t : Fin (cfgM pf hO).N, cond (grid28.coords t) ↔ t.val % 32 = 0 := by
  intro t
  have e : (grid28.coords t 1).val = t.val % 32 := coords_1 t
  exact (cond_fin32 (grid28.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc28_transform_1 (grid28.coords t) = _
  unfold cc28_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg28

namespace Cert.KernelIdeal.Rg28
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre28.Contents (Elt F)) (hO : ok28 (F := F) pf)

/-- Case A's pieces for the output tile its block, so they cover it. -/
theorem cover_A_1 (c : Dev nD) (i : grid28.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid28.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid28.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid28.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid28.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid28.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid28.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid28.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid28.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec28 w)
  after w t := match w with
    | ⟨0, _⟩ => iblk V pf hO c 0 t
    | ⟨1, _⟩ => (outsAt V pf hO c t.val t.isLt)
  Φ _ := iprop(Pipeline.ΦA spec28 c ∗ Pipeline.prefHeld pre28 c (fun _ => fullShare) pf)
  q _ := fullShare
  owed _ := 0

theorem A_eq (c : Dev nD) (w : Fin (cfgM pf hO).W) : (dat V pf hO c).A w = V c (Pipeline.arrRef spec28 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid28.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid28.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W28, bigSep_W28]
  exact sound_body V pf hO c t

end
end Cert.KernelIdeal.Rg28

namespace Cert.KernelIdeal.Rg28
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre28.Contents (Elt F)) (hO : ok28 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid28.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k28_pay2 (k28_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid28.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k28_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k28_pay2 a b j = FloatOps.maximumf (a j) (b j) := by
  unfold k28_pay2
  simp only [shapeCast_self]
  rfl

/-- The reset value is -inf on every lane. -/
theorem pay1_apply (j : S1x1x128.Idx) : k28_pay1 (F := F) j = PoolSpec.ninf := rfl

/-! ## The table's words and the rows they name -/

/-- The table's word at flat position p (row p / 32, neighbour p % 32 of this chunk). -/
def tabWord (pf : pre28.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid28.N) (ht : t.val < 65536) : k28_off1 (grid28.coords t) 0 = t.val := by
  show (Scalar.indexCast (Scalar.addi (Scalar.muli (BitVec.ofNat 32 (grid28.coords t 0).val) 32#32) (BitVec.ofNat 32 (grid28.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre28.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid28.Coords, ∀ a, (k28_off1 i) a + S1.size a ≤ S65536.size a) (h2 : S1.numel = 1)
    (pf : pre28.Contents (Elt F)) (i : grid28.Coords) (n : ℕ) (hn : n < 65536) (e : k28_off1 i 0 = n) :
    cc28_transform_0 h1 h2 pf i = ![(tabWord pf ⟨n, hn⟩).toNat, 0, 0] := by
  rw [← at_unit pf (k28_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc28_transform_0 _ _ pf (grid28.coords t) = _
  exact transform_0_eq _ _ pf (grid28.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb28 pf hO 0 (grid28.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre28.Contents (Elt F)) (hO : ok28 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v118 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg28

end
-- ==== Proof.KI.R29.Pipe.lean ====
/- Region 29 (the first 2048 pooled rows): the pipeline at an admissible table, the blocks its windows stage,
   the branch condition of the body and the names the runs are stated over. -/
/- Region 29: the body run once per case of its one branch. Case A (neighbour 0): the accumulator is set to -inf and
   then maximised with the gathered row. Case B (a later neighbour): the accumulator the point before left is
   maximised with the gathered row. Each run finds the pieces the output's staging buffer ends with. -/
/- Region 29: where the grid meets the body's branch and where the output row is written back, in closed form.
   The grid is 2048 rows by 32 neighbours, the neighbour axis fastest: point t is row t / 32, neighbour t % 32. -/
/- Region 29: what the output's staging buffer holds after each point (the running maximum over a row's neighbours
   so far), the pipeline's proof data over it, and the body obligation at every point. -/
/- Region 29: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg29
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre29.Contents (Elt F)) (hO : ok29 (F := F) pf)

abbrev adm : (pcfg29 (F := F)).Adm := ⟨pf, hO⟩
abbrev cfgM : Pipeline.Cfg sig Λ₀ := cfg29 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec29 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec29 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid29.Coords) : Prop := (Scalar.cmpi .ne (Scalar.extui (Scalar.cmpi .eq (BitVec.ofNat 32 (i 1).val) 0#32)) 0#32) = 1#1

abbrev VO_1 : View sig .tc .vmem S1x1x128 .f32 := (Memref.whole cc29_stg1_0 : Memref sig .tc .vmem S1x1x128 .f32).view
abbrev tbM : Memref sig .tc .smem S65536 .i32 := Memref.whole main_v121
abbrev htbM : (tbM).IsWhole := Memref.isWhole_whole _
abbrev ms_0 (t : Fin (cfgM pf hO).N) : Memref sig .tc .vmem S1x1x128 .f32 := spec29_0.stage ((cfgM pf hO).slots t 0)
abbrev hs_0 (t : Fin (cfgM pf hO).N) : (ms_0 pf hO t).IsWhole := hstage29_0 (((cfgM pf hO).slots t 0).cast nbuf29_0)
abbrev ms_1 (t : Fin (cfgM pf hO).N) : Memref sig .tc .vmem S1x1x128 .f32 := spec29_1.stage ((cfgM pf hO).slots t 1)
abbrev hs_1 (t : Fin (cfgM pf hO).N) : (ms_1 pf hO t).IsWhole := hstage29_1 (((cfgM pf hO).slots t 1).cast nbuf29_1)

/-- The body as the pipeline calls it at point `t`. -/
abbrev bodyAt (t : Fin (cfgM pf hO).N) : Prog (TpuEff nD τ sig (Elt F) Λ₀ .tc) PUnit :=
  cc29__gather_max_kernel (grid29.coords t) (Memref.whole main_v121) (Memref.isWhole_whole _) (spec29_0.stage ((cfgM pf hO).slots t 0)) (hstage29_0 (((cfgM pf hO).slots t 0).cast nbuf29_0)) (spec29_1.stage ((cfgM pf hO).slots t 1)) (hstage29_1 (((cfgM pf hO).slots t 1).cast nbuf29_1))

theorem N_eq : (cfgM pf hO).N = 65536 := N_29

end
end Cert.KernelIdeal.Rg29

namespace Cert.KernelIdeal.Rg29
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid29.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc29__gather_max_kernel i tbM htbM arg3 harg3 arg4 harg4) K } := by
  refine ⟨?_, fun E K => ?run⟩
  case run =>
    simp only [cc29__gather_max_kernel_eq_skeleton]; unfold cc29__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid29.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc29__gather_max_kernel i tbM htbM arg3 harg3 arg4 harg4) K } := by
  refine ⟨?_, fun E K => ?run⟩
  case run =>
    simp only [cc29__gather_max_kernel_eq_skeleton]; unfold cc29__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg29

namespace Cert.KernelIdeal.Rg29
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre29.Contents (Elt F)) (hO : ok29 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid29.stride 1 = 1 := by decide
/-- A row lasts 32 consecutive points. -/
theorem stride_0 : grid29.stride 0 = 32 := by decide

/-- The neighbour coordinate of point t is t % 32. -/
theorem coords_1 (t : Fin grid29.N) : (grid29.coords t 1).val = t.val % 32 := by
  show t.val / grid29.stride 1 % grid29.bound 1 = t.val % 32
  rw [stride_1, Nat.div_one]; rfl

/-- The row coordinate of point t is t / 32 (modulo the 2048 rows). -/
theorem coords_0 (t : Fin grid29.N) : (grid29.coords t 0).val = t.val / 32 % 2048 := by
  show t.val / grid29.stride 0 % grid29.bound 0 = _
  rw [stride_0]; rfl

/-- The branch is taken exactly at a row's first neighbour. -/
theorem hcond : ∀ t : Fin (cfgM pf hO).N, cond (grid29.coords t) ↔ t.val % 32 = 0 := by
  intro t
  have e : (grid29.coords t 1).val = t.val % 32 := coords_1 t
  exact (cond_fin32 (grid29.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc29_transform_1 (grid29.coords t) = _
  unfold cc29_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg29

namespace Cert.KernelIdeal.Rg29
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre29.Contents (Elt F)) (hO : ok29 (F := F) pf)

/-- Case A's pieces for the output tile its block, so they cover it. -/
theorem cover_A_1 (c : Dev nD) (i : grid29.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid29.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid29.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid29.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid29.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid29.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid29.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid29.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid29.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec29 w)
  after w t := match w with
    | ⟨0, _⟩ => iblk V pf hO c 0 t
    | ⟨1, _⟩ => (outsAt V pf hO c t.val t.isLt)
  Φ _ := iprop(Pipeline.ΦA spec29 c ∗ Pipeline.prefHeld pre29 c (fun _ => fullShare) pf)
  q _ := fullShare
  owed _ := 0

theorem A_eq (c : Dev nD) (w : Fin (cfgM pf hO).W) : (dat V pf hO c).A w = V c (Pipeline.arrRef spec29 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid29.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid29.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W29, bigSep_W29]
  exact sound_body V pf hO c t

end
end Cert.KernelIdeal.Rg29

namespace Cert.KernelIdeal.Rg29
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre29.Contents (Elt F)) (hO : ok29 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid29.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k29_pay2 (k29_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid29.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k29_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k29_pay2 a b j = FloatOps.maximumf (a j) (b j) := by
  unfold k29_pay2
  simp only [shapeCast_self]
  rfl

/-- The reset value is -inf on every lane. -/
theorem pay1_apply (j : S1x1x128.Idx) : k29_pay1 (F := F) j = PoolSpec.ninf := rfl

/-! ## The table's words and the rows they name -/

/-- The table's word at flat position p (row p / 32, neighbour p % 32 of this chunk). -/
def tabWord (pf : pre29.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid29.N) (ht : t.val < 65536) : k29_off1 (grid29.coords t) 0 = t.val := by
  show (Scalar.indexCast (Scalar.addi (Scalar.muli (BitVec.ofNat 32 (grid29.coords t 0).val) 32#32) (BitVec.ofNat 32 (grid29.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre29.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid29.Coords, ∀ a, (k29_off1 i) a + S1.size a ≤ S65536.size a) (h2 : S1.numel = 1)
    (pf : pre29.Contents (Elt F)) (i : grid29.Coords) (n : ℕ) (hn : n < 65536) (e : k29_off1 i 0 = n) :
    cc29_transform_0 h1 h2 pf i = ![(tabWord pf ⟨n, hn⟩).toNat, 0, 0] := by
  rw [← at_unit pf (k29_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc29_transform_0 _ _ pf (grid29.coords t) = _
  exact transform_0_eq _ _ pf (grid29.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb29 pf hO 0 (grid29.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre29.Contents (Elt F)) (hO : ok29 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v122 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg29

end
-- ==== Proof.KI.R30.Pipe.lean ====
/- Region 30 (the first 2048 pooled rows): the pipeline at an admissible table, the blocks its windows stage,
   the branch condition of the body and the names the runs are stated over. -/
/- Region 30: the body run once per case of its one branch. Case A (neighbour 0): the accumulator is set to -inf and
   then maximised with the gathered row. Case B (a later neighbour): the accumulator the point before left is
   maximised with the gathered row. Each run finds the pieces the output's staging buffer ends with. -/
/- Region 30: where the grid meets the body's branch and where the output row is written back, in closed form.
   The grid is 2048 rows by 32 neighbours, the neighbour axis fastest: point t is row t / 32, neighbour t % 32. -/
/- Region 30: what the output's staging buffer holds after each point (the running maximum over a row's neighbours
   so far), the pipeline's proof data over it, and the body obligation at every point. -/
/- Region 30: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg30
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre30.Contents (Elt F)) (hO : ok30 (F := F) pf)

abbrev adm : (pcfg30 (F := F)).Adm := ⟨pf, hO⟩
abbrev cfgM : Pipeline.Cfg sig Λ₀ := cfg30 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec30 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec30 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid30.Coords) : Prop := (Scalar.cmpi .ne (Scalar.extui (Scalar.cmpi .eq (BitVec.ofNat 32 (i 1).val) 0#32)) 0#32) = 1#1

abbrev VO_1 : View sig .tc .vmem S1x1x128 .f32 := (Memref.whole cc30_stg1_0 : Memref sig .tc .vmem S1x1x128 .f32).view
abbrev tbM : Memref sig .tc .smem S65536 .i32 := Memref.whole main_v125
abbrev htbM : (tbM).IsWhole := Memref.isWhole_whole _
abbrev ms_0 (t : Fin (cfgM pf hO).N) : Memref sig .tc .vmem S1x1x128 .f32 := spec30_0.stage ((cfgM pf hO).slots t 0)
abbrev hs_0 (t : Fin (cfgM pf hO).N) : (ms_0 pf hO t).IsWhole := hstage30_0 (((cfgM pf hO).slots t 0).cast nbuf30_0)
abbrev ms_1 (t : Fin (cfgM pf hO).N) : Memref sig .tc .vmem S1x1x128 .f32 := spec30_1.stage ((cfgM pf hO).slots t 1)
abbrev hs_1 (t : Fin (cfgM pf hO).N) : (ms_1 pf hO t).IsWhole := hstage30_1 (((cfgM pf hO).slots t 1).cast nbuf30_1)

/-- The body as the pipeline calls it at point `t`. -/
abbrev bodyAt (t : Fin (cfgM pf hO).N) : Prog (TpuEff nD τ sig (Elt F) Λ₀ .tc) PUnit :=
  cc30__gather_max_kernel (grid30.coords t) (Memref.whole main_v125) (Memref.isWhole_whole _) (spec30_0.stage ((cfgM pf hO).slots t 0)) (hstage30_0 (((cfgM pf hO).slots t 0).cast nbuf30_0)) (spec30_1.stage ((cfgM pf hO).slots t 1)) (hstage30_1 (((cfgM pf hO).slots t 1).cast nbuf30_1))

theorem N_eq : (cfgM pf hO).N = 65536 := N_30

end
end Cert.KernelIdeal.Rg30

namespace Cert.KernelIdeal.Rg30
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid30.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc30__gather_max_kernel i tbM htbM arg3 harg3 arg4 harg4) K } := by
  refine ⟨?_, fun E K => ?run⟩
  case run =>
    simp only [cc30__gather_max_kernel_eq_skeleton]; unfold cc30__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid30.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc30__gather_max_kernel i tbM htbM arg3 harg3 arg4 harg4) K } := by
  refine ⟨?_, fun E K => ?run⟩
  case run =>
    simp only [cc30__gather_max_kernel_eq_skeleton]; unfold cc30__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg30

namespace Cert.KernelIdeal.Rg30
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre30.Contents (Elt F)) (hO : ok30 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid30.stride 1 = 1 := by decide
/-- A row lasts 32 consecutive points. -/
theorem stride_0 : grid30.stride 0 = 32 := by decide

/-- The neighbour coordinate of point t is t % 32. -/
theorem coords_1 (t : Fin grid30.N) : (grid30.coords t 1).val = t.val % 32 := by
  show t.val / grid30.stride 1 % grid30.bound 1 = t.val % 32
  rw [stride_1, Nat.div_one]; rfl

/-- The row coordinate of point t is t / 32 (modulo the 2048 rows). -/
theorem coords_0 (t : Fin grid30.N) : (grid30.coords t 0).val = t.val / 32 % 2048 := by
  show t.val / grid30.stride 0 % grid30.bound 0 = _
  rw [stride_0]; rfl

/-- The branch is taken exactly at a row's first neighbour. -/
theorem hcond : ∀ t : Fin (cfgM pf hO).N, cond (grid30.coords t) ↔ t.val % 32 = 0 := by
  intro t
  have e : (grid30.coords t 1).val = t.val % 32 := coords_1 t
  exact (cond_fin32 (grid30.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc30_transform_1 (grid30.coords t) = _
  unfold cc30_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg30

namespace Cert.KernelIdeal.Rg30
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre30.Contents (Elt F)) (hO : ok30 (F := F) pf)

/-- Case A's pieces for the output tile its block, so they cover it. -/
theorem cover_A_1 (c : Dev nD) (i : grid30.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid30.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid30.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid30.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid30.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid30.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid30.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid30.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid30.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec30 w)
  after w t := match w with
    | ⟨0, _⟩ => iblk V pf hO c 0 t
    | ⟨1, _⟩ => (outsAt V pf hO c t.val t.isLt)
  Φ _ := iprop(Pipeline.ΦA spec30 c ∗ Pipeline.prefHeld pre30 c (fun _ => fullShare) pf)
  q _ := fullShare
  owed _ := 0

theorem A_eq (c : Dev nD) (w : Fin (cfgM pf hO).W) : (dat V pf hO c).A w = V c (Pipeline.arrRef spec30 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid30.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid30.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W30, bigSep_W30]
  exact sound_body V pf hO c t

end
end Cert.KernelIdeal.Rg30

namespace Cert.KernelIdeal.Rg30
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre30.Contents (Elt F)) (hO : ok30 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid30.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k30_pay2 (k30_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid30.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k30_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k30_pay2 a b j = FloatOps.maximumf (a j) (b j) := by
  unfold k30_pay2
  simp only [shapeCast_self]
  rfl

/-- The reset value is -inf on every lane. -/
theorem pay1_apply (j : S1x1x128.Idx) : k30_pay1 (F := F) j = PoolSpec.ninf := rfl

/-! ## The table's words and the rows they name -/

/-- The table's word at flat position p (row p / 32, neighbour p % 32 of this chunk). -/
def tabWord (pf : pre30.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid30.N) (ht : t.val < 65536) : k30_off1 (grid30.coords t) 0 = t.val := by
  show (Scalar.indexCast (Scalar.addi (Scalar.muli (BitVec.ofNat 32 (grid30.coords t 0).val) 32#32) (BitVec.ofNat 32 (grid30.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre30.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid30.Coords, ∀ a, (k30_off1 i) a + S1.size a ≤ S65536.size a) (h2 : S1.numel = 1)
    (pf : pre30.Contents (Elt F)) (i : grid30.Coords) (n : ℕ) (hn : n < 65536) (e : k30_off1 i 0 = n) :
    cc30_transform_0 h1 h2 pf i = ![(tabWord pf ⟨n, hn⟩).toNat, 0, 0] := by
  rw [← at_unit pf (k30_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc30_transform_0 _ _ pf (grid30.coords t) = _
  exact transform_0_eq _ _ pf (grid30.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb30 pf hO 0 (grid30.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre30.Contents (Elt F)) (hO : ok30 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v126 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg30

end
-- ==== Proof.KI.R31.Pipe.lean ====
/- Region 31 (the first 2048 pooled rows): the pipeline at an admissible table, the blocks its windows stage,
   the branch condition of the body and the names the runs are stated over. -/
/- Region 31: the body run once per case of its one branch. Case A (neighbour 0): the accumulator is set to -inf and
   then maximised with the gathered row. Case B (a later neighbour): the accumulator the point before left is
   maximised with the gathered row. Each run finds the pieces the output's staging buffer ends with. -/
/- Region 31: where the grid meets the body's branch and where the output row is written back, in closed form.
   The grid is 2048 rows by 32 neighbours, the neighbour axis fastest: point t is row t / 32, neighbour t % 32. -/
/- Region 31: what the output's staging buffer holds after each point (the running maximum over a row's neighbours
   so far), the pipeline's proof data over it, and the body obligation at every point. -/
/- Region 31: THE VALUE of its output array. One point leaves in the output's staging buffer the lane-by-lane maximum of
   what the buffer held (-inf at a row's first neighbour) and the row of the feature array the table names there; so
   after a row's 32 points the buffer holds the running maximum from -inf over the 32 rows the table names, in
   neighbour order, and that is what the row's last point writes back: the array ends as the specification's. -/
import proofs.«411409_j5669356831307_3_alg».proof.Proof.Gen.KernelIdeal.Launch
import proofs.«411409_j5669356831307_3_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic
import proofs.«411409_j5669356831307_3_alg».proof.Proof.Spec
import Idealize.ShloMosaic.Lib.Pipeline.Value
import Idealize.ShloMosaic.Lib.ValueIdx

set_option maxRecDepth 16384

noncomputable section

namespace Cert.KernelIdeal.Rg31
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What the region finds in the TensorCore's buffers (any contents: the lemmas below are stated for all).
variable (V : (c : Dev nD) → (b : Ref sig .tc) → Buf (Elt F) ((c : Thread nD τ).loc b))
-- The prefetched table (the 2048 x 32 neighbour indices of this chunk, flattened) and its side condition:
-- every index names a row of the padded feature array.
variable (pf : pre31.Contents (Elt F)) (hO : ok31 (F := F) pf)

abbrev adm : (pcfg31 (F := F)).Adm := ⟨pf, hO⟩
abbrev cfgM : Pipeline.Cfg sig Λ₀ := cfg31 (adm pf hO)

/-- Window `w`'s block at point `t`, read off its array as the region finds it: for the feature window the ONE row
    the table names at `t`. -/
def iblk (c : Dev nD) (w : Fin (cfgM pf hO).W) (t : Fin (cfgM pf hO).N) :
    (((cfgM pf hO).win w).xblock ((cfgM pf hO).grid.coords t)).Idx → Elt F ((cfgM pf hO).win w).elt :=
  (((cfgM pf hO).win w).blk t).view.read (Elt F) (V c (Pipeline.arrRef spec31 w))

/-- The feature window's staging buffer holds the row the table names at every point, fetched there or not. -/
theorem before_0_of {c : Dev nD} (dat : Dat τ (Elt F) Unit ℕ (UR sig nD τ) ℕ (cfgM pf hO) c) (hA : dat.A 0 = V c (Pipeline.arrRef spec31 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body's one branch: the neighbour coordinate is 0 (the running maximum is reset to -inf there). -/
abbrev cond (i : grid31.Coords) : Prop := (Scalar.cmpi .ne (Scalar.extui (Scalar.cmpi .eq (BitVec.ofNat 32 (i 1).val) 0#32)) 0#32) = 1#1

abbrev VO_1 : View sig .tc .vmem S1x1x128 .f32 := (Memref.whole cc31_stg1_0 : Memref sig .tc .vmem S1x1x128 .f32).view
abbrev tbM : Memref sig .tc .smem S65536 .i32 := Memref.whole main_v129
abbrev htbM : (tbM).IsWhole := Memref.isWhole_whole _
abbrev ms_0 (t : Fin (cfgM pf hO).N) : Memref sig .tc .vmem S1x1x128 .f32 := spec31_0.stage ((cfgM pf hO).slots t 0)
abbrev hs_0 (t : Fin (cfgM pf hO).N) : (ms_0 pf hO t).IsWhole := hstage31_0 (((cfgM pf hO).slots t 0).cast nbuf31_0)
abbrev ms_1 (t : Fin (cfgM pf hO).N) : Memref sig .tc .vmem S1x1x128 .f32 := spec31_1.stage ((cfgM pf hO).slots t 1)
abbrev hs_1 (t : Fin (cfgM pf hO).N) : (ms_1 pf hO t).IsWhole := hstage31_1 (((cfgM pf hO).slots t 1).cast nbuf31_1)

/-- The body as the pipeline calls it at point `t`. -/
abbrev bodyAt (t : Fin (cfgM pf hO).N) : Prog (TpuEff nD τ sig (Elt F) Λ₀ .tc) PUnit :=
  cc31__gather_max_kernel (grid31.coords t) (Memref.whole main_v129) (Memref.isWhole_whole _) (spec31_0.stage ((cfgM pf hO).slots t 0)) (hstage31_0 (((cfgM pf hO).slots t 0).cast nbuf31_0)) (spec31_1.stage ((cfgM pf hO).slots t 1)) (hstage31_1 (((cfgM pf hO).slots t 1).cast nbuf31_1))

theorem N_eq : (cfgM pf hO).N = 65536 := N_31

end
end Cert.KernelIdeal.Rg31

namespace Cert.KernelIdeal.Rg31
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid31.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    { L1 : List (View.Piece (Elt F) S1x1x128 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc31__gather_max_kernel i tbM htbM arg3 harg3 arg4 harg4) K } := by
  refine ⟨?_, fun E K => ?run⟩
  case run =>
    simp only [cc31__gather_max_kernel_eq_skeleton]; unfold cc31__gather_max_kernel_skel
    unfold owns
    iintro ⟨⟨%f0, %hf0, H0⟩, ⟨%d1, %f1, -, H1⟩, Hk⟩
    obtain rfl := harg3.eq_unread hf0
    sl_exec (disch := first | exact hc0)
    sl_step
    iapply Hk
    isplitl [H0]
    · iexists _; isplitr; · ipureintro; exact harg3.read_unread _
      iexact H0
    iexists _; iexact H1

set_option maxHeartbeats 1000000 in
noncomputable def kernelRun_B (c : Dev nD) (i : grid31.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    { L1 : List (View.Piece (Elt F) S1x1x128 .f32) //
      ∀ (E : Set ℕ) (K : PUnit → sProp 𝕄),
        iprop(owns (c : Thread nD τ) arg3 fullShare x0 ∗ owns (c : Thread nD τ) arg4 fullShare xo1
            ∗ (iprop(owns (c : Thread nD τ) arg3 fullShare x0 ∗ (∃ f, arg4.view.loc (c : Thread nD τ) ↦[arg4.view.set]{fullShare} arg4.view.writes (Elt F) f L1)) -∗ K ⟨⟩))
          ⊢ wp frame (wpE (defs₀ (F := F)) Variants.none c none) E (cc31__gather_max_kernel i tbM htbM arg3 harg3 arg4 harg4) K } := by
  refine ⟨?_, fun E K => ?run⟩
  case run =>
    simp only [cc31__gather_max_kernel_eq_skeleton]; unfold cc31__gather_max_kernel_skel
    unfold owns
    iintro ⟨⟨%f0, %hf0, H0⟩, ⟨%f1, %hf1, H1⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    iexists _; iexact H1

end
end Cert.KernelIdeal.Rg31

namespace Cert.KernelIdeal.Rg31
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre31.Contents (Elt F)) (hO : ok31 (F := F) pf)

/-- The branch condition, as a fact about a neighbour number below 32: it holds exactly at 0. -/
theorem cond_fin32 : ∀ x : Fin 32, ((Scalar.cmpi .ne (Scalar.extui (Scalar.cmpi .eq (BitVec.ofNat 32 x.val) 0#32)) 0#32) = 1#1) ↔ x.val = 0 := by decide

/-- Consecutive points differ in the neighbour axis first: its stride is 1. -/
theorem stride_1 : grid31.stride 1 = 1 := by decide
/-- A row lasts 32 consecutive points. -/
theorem stride_0 : grid31.stride 0 = 32 := by decide

/-- The neighbour coordinate of point t is t % 32. -/
theorem coords_1 (t : Fin grid31.N) : (grid31.coords t 1).val = t.val % 32 := by
  show t.val / grid31.stride 1 % grid31.bound 1 = t.val % 32
  rw [stride_1, Nat.div_one]; rfl

/-- The row coordinate of point t is t / 32 (modulo the 2048 rows). -/
theorem coords_0 (t : Fin grid31.N) : (grid31.coords t 0).val = t.val / 32 % 2048 := by
  show t.val / grid31.stride 0 % grid31.bound 0 = _
  rw [stride_0]; rfl

/-- The branch is taken exactly at a row's first neighbour. -/
theorem hcond : ∀ t : Fin (cfgM pf hO).N, cond (grid31.coords t) ↔ t.val % 32 = 0 := by
  intro t
  have e : (grid31.coords t 1).val = t.val % 32 := coords_1 t
  exact (cond_fin32 (grid31.coords t 1)).trans (by rw [e])

/-- The output window's block index at point t: row t / 32 of the output, the other two entries 0. -/
theorem index_1 (t : Fin (cfgM pf hO).N) : ((cfgM pf hO).win 1).index t = ![t.val / 32, 0, 0] := by
  have ht : t.val < 65536 := lt_of_lt_of_eq t.isLt (N_eq pf hO)
  have e : (BitVec.ofNat 32 (t.val / 32 % 2048)).toNat = t.val / 32 := by
    rw [BitVec.toNat_ofNat]; omega
  show cc31_transform_1 (grid31.coords t) = _
  unfold cc31_transform_1
  simp only [coords_0]
  rw [e]; rfl

/-- The output row is written back exactly after a row's last neighbour. -/
theorem flush_1 : ∀ t : Fin (cfgM pf hO).N, ((cfgM pf hO).win 1).flush t = true ↔ t.val % 32 = 31 := by
  intro t
  have ht : t.val < 65536 := lt_of_lt_of_eq t.isLt (N_eq pf hO)
  have hN : (cfgM pf hO).grid.N = 65536 := N_eq pf hO
  have hout : ((cfgM pf hO).win 1).isOut = true := rfl
  unfold Pipeline.Window.flush
  rw [hout, Bool.true_and, Bool.or_eq_true, decide_eq_true_eq, decide_eq_true_eq]
  constructor
  · rintro (h | ⟨h, hne⟩)
    · omega
    · rw [index_1, index_1] at hne
      by_contra hc
      apply hne
      have : (t.val + 1) / 32 = t.val / 32 := by omega
      show ![(t.val + 1) / 32, 0, 0] = ![t.val / 32, 0, 0]
      rw [this]
  · intro h
    by_cases hl : t.val + 1 = 65536
    · left; omega
    · right
      refine ⟨by omega, ?_⟩
      rw [index_1, index_1]
      intro heq
      have h0 := congrFun heq 0
      simp only [Matrix.cons_val_zero] at h0
      omega

end
end Cert.KernelIdeal.Rg31

namespace Cert.KernelIdeal.Rg31
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre31.Contents (Elt F)) (hO : ok31 (F := F) pf)

/-- Case A's pieces for the output tile its block, so they cover it. -/
theorem cover_A_1 (c : Dev nD) (i : grid31.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) (y : S1x1x128.Idx) :
    ∃ pc ∈ (kernelRun_A c i arg3 harg3 arg4 harg4 hc0 x0).1, y ∈ pc.1.set :=
  View.cover_of_tiledL (kernelRun_A c i arg3 harg3 arg4 harg4 hc0 x0).1 S1x1x128.size (by sl_kernel_rfl) y

/-- What case A leaves in the output's staging buffer: its pieces read back. -/
def out_A_1 (c : Dev nD) (i : grid31.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) : Vec F S1x1x128 .f32 :=
  VO_1.read (Elt F) (VO_1.writes (Elt F) VO_1.junk (kernelRun_A c i arg3 harg3 arg4 harg4 hc0 x0).1)

/-- Case B's pieces for the output tile its block, so they cover it. -/
theorem cover_B_1 (c : Dev nD) (i : grid31.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) (y : S1x1x128.Idx) :
    ∃ pc ∈ (kernelRun_B c i arg3 harg3 arg4 harg4 hc0 x0 xo1).1, y ∈ pc.1.set :=
  View.cover_of_tiledL (kernelRun_B c i arg3 harg3 arg4 harg4 hc0 x0 xo1).1 S1x1x128.size (by sl_kernel_rfl) y

/-- What case B leaves in the output's staging buffer: its pieces read back. -/
def out_B_1 (c : Dev nD) (i : grid31.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) : Vec F S1x1x128 .f32 :=
  VO_1.read (Elt F) (VO_1.writes (Elt F) VO_1.junk (kernelRun_B c i arg3 harg3 arg4 harg4 hc0 x0 xo1).1)

/-- THE RUNNING MAXIMUM: what the output's staging buffer holds after the body at position `n`. At a row's first
    neighbour case A's contents (reset, then the gathered row); at a later neighbour case B's over what position
    `n - 1` left (the buffer is not written back in between). -/
def outsAt (c : Dev nD) : (n : ℕ) → n < (cfgM pf hO).N → Vec F S1x1x128 .f32
  | 0, hn => out_A_1 c (grid31.coords ⟨0, hn⟩) (ms_0 pf hO ⟨0, hn⟩) (hs_0 pf hO ⟨0, hn⟩) (ms_1 pf hO ⟨0, hn⟩) (hs_1 pf hO ⟨0, hn⟩) ((hcond pf hO ⟨0, hn⟩).mpr (Nat.zero_mod _)) (iblk V pf hO c 0 ⟨0, hn⟩)
  | n + 1, hn =>
    if h0 : (n + 1) % 32 = 0 then
      out_A_1 c (grid31.coords ⟨n + 1, hn⟩) (ms_0 pf hO ⟨n + 1, hn⟩) (hs_0 pf hO ⟨n + 1, hn⟩) (ms_1 pf hO ⟨n + 1, hn⟩) (hs_1 pf hO ⟨n + 1, hn⟩) ((hcond pf hO ⟨n + 1, hn⟩).mpr h0) (iblk V pf hO c 0 ⟨n + 1, hn⟩)
    else
      out_B_1 c (grid31.coords ⟨n + 1, hn⟩) (ms_0 pf hO ⟨n + 1, hn⟩) (hs_0 pf hO ⟨n + 1, hn⟩) (ms_1 pf hO ⟨n + 1, hn⟩) (hs_1 pf hO ⟨n + 1, hn⟩) (fun h => h0 ((hcond pf hO ⟨n + 1, hn⟩).mp h)) (iblk V pf hO c 0 ⟨n + 1, hn⟩) (outsAt c n (Nat.lt_of_succ_lt hn))

theorem outsAt_A (c : Dev nD) (t : Fin (cfgM pf hO).N) (h0 : t.val % 32 = 0) :
    outsAt V pf hO c t.val t.isLt = out_A_1 c (grid31.coords t) (ms_0 pf hO t) (hs_0 pf hO t) (ms_1 pf hO t) (hs_1 pf hO t) ((hcond pf hO t).mpr h0) (iblk V pf hO c 0 t) := by
  obtain ⟨n, hn⟩ := t
  cases n with
  | zero => exact rfl
  | succ n => exact (dif_pos h0).trans rfl

theorem outsAt_B (c : Dev nD) (t : Fin (cfgM pf hO).N) (h0 : ¬t.val % 32 = 0) :
    outsAt V pf hO c t.val t.isLt = out_B_1 c (grid31.coords t) (ms_0 pf hO t) (hs_0 pf hO t) (ms_1 pf hO t) (hs_1 pf hO t) (fun h => h0 ((hcond pf hO t).mp h)) (iblk V pf hO c 0 t) (outsAt V pf hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The pipeline's proof data on core `c`: the arrays as the region finds them; after the body the feature window's
    buffer at its row, the output's at the running maximum; the invariant the scoped rest, the generator register
    and the table (the body reads none of them); nothing owed; full shares. -/
def dat (c : Dev nD) : Dat τ (Elt F) Unit ℕ (UR sig nD τ) ℕ (cfgM pf hO) c where
  A w := V c (Pipeline.arrRef spec31 w)
  after w t := match w with
    | ⟨0, _⟩ => iblk V pf hO c 0 t
    | ⟨1, _⟩ => (outsAt V pf hO c t.val t.isLt)
  Φ _ := iprop(Pipeline.ΦA spec31 c ∗ Pipeline.prefHeld pre31 c (fun _ => fullShare) pf)
  q _ := fullShare
  owed _ := 0

theorem A_eq (c : Dev nD) (w : Fin (cfgM pf hO).W) : (dat V pf hO c).A w = V c (Pipeline.arrRef spec31 w) := by
  dsimp only [dat]

theorem after_0 (c : Dev nD) (t : Fin (cfgM pf hO).N) : (dat V pf hO c).after 0 t = iblk V pf hO c 0 t := by dsimp only [dat]; try rfl
theorem after_1 (c : Dev nD) (t : Fin (cfgM pf hO).N) : (dat V pf hO c).after 1 t = (outsAt V pf hO c t.val t.isLt) := by dsimp only [dat]; try rfl

theorem before_0 (c : Dev nD) (t : Fin (cfgM pf hO).N) (d) : (dat V pf hO c).before 0 t d = iblk V pf hO c 0 t :=
  before_0_of V pf hO (dat V pf hO c) (A_eq V pf hO c 0) (after_0 V pf hO c) t d

/-- At a later neighbour the output's staging buffer holds what the body left at the point before: the buffer was
    not written back in between. -/
theorem before_1_B (c : Dev nD) (t : Fin (cfgM pf hO).N) (h0 : ¬t.val % 32 = 0) (d) :
    (dat V pf hO c).before 1 t d = (outsAt V pf hO c (t.val - 1) (Nat.lt_of_le_of_lt (Nat.sub_le _ _) t.isLt)) := by
  have hN : t.val < 65536 := lt_of_lt_of_eq t.isLt (N_eq pf hO)
  rw [Dat.before_out_kept _ 1 rfl t (by omega) (Bool.eq_false_iff.mpr fun h => by have := (flush_1 pf hO _).mp h; dsimp only at this; omega)
    (fun _ => rfl) (fun _ _ => rfl)]
  dsimp only [dat]
  rfl

def bodyPre (c : Dev nD) (t : Fin (cfgM pf hO).N) : sProp 𝕄 :=
  iprop((dat V pf hO c).Φ t.castSucc ∗ (dat V pf hO c).owesAt () t.castSucc
    ∗ (∃ d, owns (c : Thread nD τ) (ms_0 pf hO t) fullShare ((dat V pf hO c).before 0 t d))
    ∗ (∃ d, owns (c : Thread nD τ) (ms_1 pf hO t) fullShare ((dat V pf hO c).before 1 t d)))

def bodyPost (c : Dev nD) (t : Fin (cfgM pf hO).N) : sProp 𝕄 :=
  iprop((dat V pf hO c).Φ t.succ ∗ (dat V pf hO c).owesAt () t.succ
    ∗ owns (c : Thread nD τ) (ms_0 pf hO t) fullShare ((dat V pf hO c).after 0 t)
    ∗ owns (c : Thread nD τ) (ms_1 pf hO t) fullShare ((dat V pf hO c).after 1 t))

set_option maxHeartbeats 800000 in
theorem sound_body (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before_0]
  rw [show (dat V pf hO c).Φ t.succ = (dat V pf hO c).Φ t.castSucc from rfl,
    show (dat V pf hO c).owesAt () t.succ = (dat V pf hO c).owesAt () t.castSucc from rfl,
    after_0, after_1]
  by_cases h0 : t.val % 32 = 0
  · rw [outsAt_A V pf hO c t h0]
    unfold out_A_1
    iintro ⟨HΦ, Ho, ⟨%d0, H0⟩, ⟨%d1, H1⟩⟩
    iapply ((kernelRun_A c (grid31.coords t) _ _ _ _ ((hcond pf hO t).mpr h0) (iblk V pf hO c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_A_1 c _ _ _ _ _ _ _)
  · rw [outsAt_B V pf hO c t h0]
    simp only [before_1_B V pf hO c t h0]
    unfold out_B_1
    iintro ⟨HΦ, Ho, ⟨%d0, H0⟩, ⟨%d1, H1⟩⟩
    iapply ((kernelRun_B c (grid31.coords t) _ _ _ _ (fun h => h0 ((hcond pf hO t).mp h)) (iblk V pf hO c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_B_1 c _ _ _ _ _ _ _ _)

theorem body_obligation (c : Dev nD) : BodyObligation (dat (F := F) V pf hO c) (defs₀ (F := F)) Variants.none () Set.univ := fun t => by
  rw [bigSep_W31, bigSep_W31]
  exact sound_body V pf hO c t

end
end Cert.KernelIdeal.Rg31

namespace Cert.KernelIdeal.Rg31
section

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (pf : pre31.Contents (Elt F)) (hO : ok31 (F := F) pf)

/-! ## What one point leaves: the maximum of the accumulator and the gathered row -/

theorem hz3 : (![0, 0, 0] : Fin 3 → Nat) = fun _ => 0 := funext fun a => by fin_cases a <;> rfl

/-- At a row's first neighbour the body resets the accumulator to -inf, reads it back and leaves the maximum of
    that and the gathered row. -/
theorem out_A_val (c : Dev nD) (i : grid31.Coords) (arg3 : Memref sig .tc .vmem S1x1x128 .f32) (harg3 : arg3.IsWhole) (arg4 : Memref sig .tc .vmem S1x1x128 .f32) (harg4 : arg4.IsWhole) (hc0 : cond i)
    (x0 : Vec F S1x1x128 .f32) :
    out_A_1 c i arg3 harg3 arg4 harg4 hc0 x0 = k31_pay2 (k31_pay1 (F := F)) x0 := by
  unfold out_A_1
  rw [View.read_writes_eq_canon _ _ _ (cover_A_1 c i arg3 harg3 arg4 harg4 hc0 x0)]
  unfold kernelRun_A
  dsimp only
  sl_unfold_words
  rw [View.canon_cons_unit_zero (S := S1x1x128) hz3, View.readCov_unit_zero (S := S1x1x128) _ hz3]
  simp only [View.readAt_eq_ld, harg3.read_unread, View.ld_unit_zero (S := S1x1x128) hz3]

/-- At a later neighbour it leaves the maximum of what the accumulator held and the gathered row. -/
theorem out_B_val (c : Dev nD) (i : grid31.Coords) (arg3 : Memref sig .tc .vmem S1x1x128 .f32) (harg3 : arg3.IsWhole) (arg4 : Memref sig .tc .vmem S1x1x128 .f32) (harg4 : arg4.IsWhole) (hc0 : ¬cond i)
    (x0 : Vec F S1x1x128 .f32) (xo1 : Vec F S1x1x128 .f32) :
    out_B_1 c i arg3 harg3 arg4 harg4 hc0 x0 xo1 = k31_pay2 xo1 x0 := by
  unfold out_B_1
  rw [View.read_writes_eq_canon _ _ _ (cover_B_1 c i arg3 harg3 arg4 harg4 hc0 x0 xo1)]
  unfold kernelRun_B
  dsimp only
  sl_unfold_words
  rw [View.canon_unit_zero hz3]
  simp only [View.readAt_eq_ld, harg3.read_unread, harg4.read_unread, View.ld_unit_zero (S := S1x1x128) hz3]

/-- The maximum is taken lane by lane (the shape casts to the same shape change nothing). -/
theorem pay2_apply (a b : Vec F S1x1x128 .f32) (j : S1x1x128.Idx) :
    k31_pay2 a b j = FloatOps.maximumf (a j) (b j) := by
  unfold k31_pay2
  simp only [shapeCast_self]
  rfl

/-- The reset value is -inf on every lane. -/
theorem pay1_apply (j : S1x1x128.Idx) : k31_pay1 (F := F) j = PoolSpec.ninf := rfl

/-! ## The table's words and the rows they name -/

/-- The table's word at flat position p (row p / 32, neighbour p % 32 of this chunk). -/
def tabWord (pf : pre31.Contents (Elt F)) (p : Fin 65536) : BitVec 32 := pf 0 (ValueIdx.ix1 p)

/-- The flat position the index map computes from a row below 2048 and a neighbour below 32, in 32-bit arithmetic,
    is 32 * row + neighbour: nothing wraps. -/
theorem flat_val (x y : ℕ) (hx : x < 2048) (hy : y < 32) :
    (Scalar.indexCast (Scalar.addi (Scalar.muli (BitVec.ofNat 32 x) 32#32) (BitVec.ofNat 32 y))).toNat = 32 * x + y := by
  unfold Scalar.indexCast Scalar.addi Scalar.muli IntOp.addi IntOp.muli
  rw [BitVec.toNat_add, BitVec.toNat_mul, BitVec.toNat_ofNat, BitVec.toNat_ofNat]
  show (x % 4294967296 * 32 % 4294967296 + y % 4294967296) % 4294967296 = 32 * x + y
  omega

/-- At point t the index map reads the table at flat position t. -/
theorem off_coords (t : Fin grid31.N) (ht : t.val < 65536) : k31_off1 (grid31.coords t) 0 = t.val := by
  show (Scalar.indexCast (Scalar.addi (Scalar.muli (BitVec.ofNat 32 (grid31.coords t 0).val) 32#32) (BitVec.ofNat 32 (grid31.coords t 1).val))).toNat = t.val
  rw [coords_0, coords_1, flat_val _ _ (Nat.mod_lt _ (by decide)) (Nat.mod_lt _ (by decide))]
  omega

/-- The word a scalar load reads through the one-word rectangle at offset n is the table's word at n. -/
theorem at_unit (pf : pre31.Contents (Elt F)) (off : Fin 1 → ℕ) (h : ∀ a, off a + S1.size a ≤ S65536.size a) (h1 : S1.numel = 1)
    (n : ℕ) (hn : n < 65536) (e : off 0 = n) :
    pf.at 0 (Rect.unit (s := S65536) off S1.size h) h1 = tabWord pf ⟨n, hn⟩ := by
  subst e
  unfold tabWord
  refine congrArg (pf 0) (?_ : (_ : S65536.Idx) = ValueIdx.ix1 ⟨off 0, hn⟩)
  funext d
  apply Fin.ext
  match d with
  | ⟨0, _⟩ => show off 0 + 1 * 0 = off 0; omega

/-- The feature window's index map in closed form: the row is the table's word, the other two entries 0. -/
theorem transform_0_eq (h1 : ∀ i : grid31.Coords, ∀ a, (k31_off1 i) a + S1.size a ≤ S65536.size a) (h2 : S1.numel = 1)
    (pf : pre31.Contents (Elt F)) (i : grid31.Coords) (n : ℕ) (hn : n < 65536) (e : k31_off1 i 0 = n) :
    cc31_transform_0 h1 h2 pf i = ![(tabWord pf ⟨n, hn⟩).toNat, 0, 0] := by
  rw [← at_unit pf (k31_off1 i) (h1 i) h2 n hn e]
  rfl

/-- The feature window's block index at point t: row (the table's word at t), the other two entries 0. -/
theorem index_0 (t : Fin (cfgM pf hO).N) (ht : t.val < 65536) :
    ((cfgM pf hO).win 0).index t = ![(tabWord pf ⟨t.val, ht⟩).toNat, 0, 0] := by
  show cc31_transform_0 _ _ pf (grid31.coords t) = _
  exact transform_0_eq _ _ pf (grid31.coords t) t.val ht (off_coords t ht)

include hO in
/-- Every word of an admissible table names a row of the padded feature array. -/
theorem tabWord_lt (p : Fin 65536) : (tabWord pf p).toNat < 262145 := by
  have hp : p.val < (cfgM pf hO).N := lt_of_lt_of_eq p.isLt (N_eq pf hO).symm
  have h : (((cfgM pf hO).win 0).index ⟨p.val, hp⟩ (0 : Fin 3) + 1) * 1 ≤ 262145 := hinb31 pf hO 0 (grid31.coords ⟨p.val, hp⟩) 0
  rw [index_0 pf hO ⟨p.val, hp⟩ p.isLt] at h
  have e : (![(tabWord pf ⟨p.val, p.isLt⟩).toNat, 0, 0] : Fin 3 → ℕ) 0 = (tabWord pf p).toNat := rfl
  rw [e] at h
  omega

/-- the row of the padded feature array the table names at row i, neighbour k -/
def tabRow (pf : pre31.Contents (Elt F)) (hO : ok31 (F := F) pf) (i : Fin 2048) (k : Fin 32) : Fin 262145 :=
  ⟨(tabWord pf ⟨32 * i.val + k.val, by have := i.isLt; have := k.isLt; omega⟩).toNat, tabWord_lt pf hO _⟩

/-- It is the table's word at flat position 32 * i + k, read as a natural number. -/
theorem tabRow_val (i : Fin 2048) (k : Fin 32) :
    (tabRow pf hO i k).val = (pf 0 (ValueIdx.ix1 (⟨32 * i.val + k.val, by have := i.isLt; have := k.isLt; omega⟩ : Fin 65536)) : BitVec 32).toNat := rfl

/-- At the point of row i, neighbour k, the feature window's block index is that row, the other two entries 0. -/
theorem tabRow_index (i : Fin 2048) (k : Fin 32) (t : Fin (cfgM pf hO).N) (e : t.val = 32 * i.val + k.val) :
    ((cfgM pf hO).win 0).index t = ![(tabRow pf hO i k).val, 0, 0] := by
  obtain ⟨n, hn⟩ := t
  dsimp only at e
  subst e
  rw [index_0 pf hO _ (by have := i.isLt; have := k.isLt; dsimp only; omega)]
  rfl

/-! ## The gathered row a point reads -/

/-- The feature window's block at point t, at lane l, is the feature array at row (the window's block row), lane l. -/
theorem iblk_apply (c : Dev nD) (t : Fin (cfgM pf hO).N) (j : S1x1x128.Idx) (r : Fin 262145)
    (hidx : ((cfgM pf hO).win 0).index t = ![r.val, 0, 0]) :
    (iblk V pf hO c 0 t : Vec F S1x1x128 .f32) j = (V c main_v3 : FVec F PoolSpec.Sx .f32) (ValueIdx.ix3 r 0 (j 2)) := by
  show (V c main_v3 : FVec F PoolSpec.Sx .f32) ((((cfgM pf hO).win 0).blk t).view.emb j) = (V c main_v3 : FVec F PoolSpec.Sx .f32) _
  refine congrArg (V c main_v3 : FVec F PoolSpec.Sx .f32) (?_ : (_ : PoolSpec.Sx.Idx) = _)
  funext a
  apply Fin.ext
  have hj0 : (j 0).val < 1 := (j 0).isLt
  have hj1 : (j 1).val < 1 := (j 1).isLt
  match a with
  | ⟨0, _⟩ => show ((cfgM pf hO).win 0).index t (0 : Fin 3) * 1 + 1 * (j 0).val = r.val; rw [hidx]; show r.val * 1 + 1 * (j 0).val = r.val; omega
  | ⟨1, _⟩ => show ((cfgM pf hO).win 0).index t (1 : Fin 3) * 1 + 1 * (j 1).val = 0; rw [hidx]; show 0 * 1 + 1 * (j 1).val = 0; omega
  | ⟨2, _⟩ => show ((cfgM pf hO).win 0).index t (2 : Fin 3) * 128 + 1 * (j 2).val = (j 2).val; rw [hidx]; show 0 * 128 + 1 * (j 2).val = (j 2).val; omega

/-! ## The running maximum along a row -/

/-- The rows gathered for pooled row i, at lane l, in neighbour order (the sequence the specification maximises). -/
def gath (x : FVec F PoolSpec.Sx .f32) (row : Fin 2048 → Fin 32 → Fin 262145) (i : Fin 2048) (l : Fin 128) : ℕ → F .f32 :=
  fun k => if h : k < 32 then x (ValueIdx.ix3 (row i ⟨k, h⟩) 0 l) else PoolSpec.ninf

theorem gath_of_lt (x : FVec F PoolSpec.Sx .f32) (row : Fin 2048 → Fin 32 → Fin 262145) (i : Fin 2048) (l : Fin 128) (k : ℕ) (h : k < 32) :
    gath x row i l k = x (ValueIdx.ix3 (row i ⟨k, h⟩) 0 l) := dif_pos h

theorem regionOutAt_eq (x : FVec F PoolSpec.Sx .f32) (row : Fin 2048 → Fin 32 → Fin 262145) (i : Fin 2048) (l : Fin 128) :
    PoolSpec.regionOutAt x row i l = PoolSpec.runMax (gath x row i l) 32 := rfl

/-- After the point of row i, neighbour k, the output's staging buffer holds, lane by lane, the running maximum of the
    first k + 1 gathered rows: by induction on the neighbour. -/
theorem outsAt_run (c : Dev nD) (i : Fin 2048) (j : S1x1x128.Idx) :
    ∀ (k : ℕ) (hk : k < 32) (n : ℕ) (hn : n < (cfgM pf hO).N), n = 32 * i.val + k →
      outsAt V pf hO c n hn j = PoolSpec.runMax (gath (V c main_v3 : FVec F PoolSpec.Sx .f32) (tabRow pf hO) i (j 2)) (k + 1)
  | 0, hk, n, hn, e => by
    have hi := i.isLt
    refine (congrFun (outsAt_A V pf hO c ⟨n, hn⟩ (by dsimp only; omega)) j).trans ?_
    refine (congrFun (out_A_val c _ _ _ _ _ _ _) j).trans ?_
    refine (pay2_apply _ _ j).trans ?_
    show FloatOps.maximumf PoolSpec.ninf _ = FloatOps.maximumf PoolSpec.ninf (gath _ _ i (j 2) 0)
    refine congrArg _ ?_
    exact (iblk_apply V pf hO c ⟨n, hn⟩ j (tabRow pf hO i ⟨0, hk⟩) (tabRow_index pf hO i ⟨0, hk⟩ ⟨n, hn⟩ (by dsimp only; omega))).trans
      (gath_of_lt _ _ _ _ 0 hk).symm
  | k + 1, hk, n, hn, e => by
    have hi := i.isLt
    have hN : (cfgM pf hO).N = 65536 := N_eq pf hO
    refine (congrFun (outsAt_B V pf hO c ⟨n, hn⟩ (by dsimp only; omega)) j).trans ?_
    refine (congrFun (out_B_val c _ _ _ _ _ _ _ _) j).trans ?_
    refine (pay2_apply _ _ j).trans ?_
    show FloatOps.maximumf _ _ = FloatOps.maximumf (PoolSpec.runMax _ (k + 1)) (gath _ _ i (j 2) (k + 1))
    refine congr (congrArg _ ?_) ?_
    · exact outsAt_run c i j k (by omega) (n - 1) _ (by omega)
    · exact (iblk_apply V pf hO c ⟨n, hn⟩ j (tabRow pf hO i ⟨k + 1, hk⟩) (tabRow_index pf hO i ⟨k + 1, hk⟩ ⟨n, hn⟩ (by dsimp only; omega))).trans
        (gath_of_lt _ _ _ _ (k + 1) hk).symm

/-! ## From the blocks to the array -/

/-- The specification's array at an index whose row and lane are known. -/
theorem regionOut_at (x : FVec F PoolSpec.Sx .f32) (row : Fin 2048 → Fin 32 → Fin 262145) (J : PoolSpec.So.Idx) (i : Fin 2048) (l : Fin 128)
    (h0 : (J 0).val = i.val) (h2 : (J 2).val = l.val) : PoolSpec.regionOut x row J = PoolSpec.regionOutAt x row i l := by
  show PoolSpec.regionOutAt x row ⟨(J 0).val, (J 0).isLt⟩ ⟨(J 2).val, (J 2).isLt⟩ = _
  rw [show (⟨(J 0).val, (J 0).isLt⟩ : Fin 2048) = i from Fin.ext h0, show (⟨(J 2).val, (J 2).isLt⟩ : Fin 128) = l from Fin.ext h2]

set_option maxHeartbeats 400000 in
/-- What a row's last point writes back is its block of the specification's array. -/
theorem flushed_eq (c : Dev nD) (t : Fin (cfgM pf hO).N) (hf : ((cfgM pf hO).win 1).flush t = true) :
    (dat V pf hO c).flushed 1 t = (((cfgM pf hO).win 1).blk t).view.read (Elt F) (PoolSpec.regionOut (V c main_v3 : FVec F PoolSpec.Sx .f32) (tabRow pf hO) : FVec F PoolSpec.So .f32) := by
  have ht : t.val < 65536 := lt_of_lt_of_eq t.isLt (N_eq pf hO)
  have h31 : t.val % 32 = 31 := (flush_1 pf hO t).mp hf
  have hidx := index_1 pf hO t
  refine funext fun (j : S1x1x128.Idx) => ?_
  show outsAt V pf hO c t.val t.isLt j = (PoolSpec.regionOut (V c main_v3 : FVec F PoolSpec.Sx .f32) (tabRow pf hO) : FVec F PoolSpec.So .f32) ((((cfgM pf hO).win 1).blk t).view.emb j)
  have hj0 : (j 0).val < 1 := (j 0).isLt
  refine (outsAt_run V pf hO c ⟨t.val / 32, by omega⟩ j 31 (by decide) t.val t.isLt (by dsimp only; omega)).trans ?_
  refine ((regionOut_at _ _ _ ⟨t.val / 32, by omega⟩ (j 2) ?_ ?_).trans (regionOutAt_eq _ _ _ _)).symm
  · show ((cfgM pf hO).win 1).index t (0 : Fin 3) * 1 + 1 * (j 0).val = t.val / 32
    rw [hidx]
    show t.val / 32 * 1 + 1 * (j 0).val = t.val / 32
    omega
  · show ((cfgM pf hO).win 1).index t (2 : Fin 3) * 128 + 1 * (j 2).val = (j 2).val
    rw [hidx]
    show 0 * 128 + 1 * (j 2).val = (j 2).val
    omega

/-- An index of a 2048 x 1 x 128 array is in a unit-stride rectangle when each coordinate is in its range. -/
theorem mem_unit3 (off size : Fin 3 → ℕ) (inb : ∀ a, off a + size a ≤ S2048x1x128.size a) (J : S2048x1x128.Idx)
    (h0 : off 0 ≤ (J 0).val ∧ (J 0).val < off 0 + size 0) (h1 : off 1 ≤ (J 1).val ∧ (J 1).val < off 1 + size 1)
    (h2 : off 2 ≤ (J 2).val ∧ (J 2).val < off 2 + size 2) : J ∈ (Rect.unit (s := S2048x1x128) off size inb).set :=
  Rect.mem_set_unit.mpr fun a => match a with | ⟨0, _⟩ => h0 | ⟨1, _⟩ => h1 | ⟨2, _⟩ => h2

set_option maxHeartbeats 400000 in
/-- An index of the output array whose row is t / 32 is in point t's block. -/
theorem mem_blk_1_of (t : Fin (cfgM pf hO).N) (J : S2048x1x128.Idx) (h0 : (J 0).val = t.val / 32) :
    J ∈ (((cfgM pf hO).win 1).blk t).view.set := by
  have hJ1 : (J 1).val < 1 := (J 1).isLt
  have hJ2 : (J 2).val < 128 := (J 2).isLt
  have hidx := index_1 pf hO t
  have hmem : J ∈ (((cfgM pf hO).win 1).rect t).set := by
    refine mem_unit3 _ _ _ J ?_ ?_ ?_
    · show ((cfgM pf hO).win 1).index t (0 : Fin 3) * 1 ≤ (J 0).val ∧ (J 0).val < ((cfgM pf hO).win 1).index t (0 : Fin 3) * 1 + 1
      rw [hidx]
      show t.val / 32 * 1 ≤ (J 0).val ∧ (J 0).val < t.val / 32 * 1 + 1
      omega
    · show ((cfgM pf hO).win 1).index t (1 : Fin 3) * 1 ≤ (J 1).val ∧ (J 1).val < ((cfgM pf hO).win 1).index t (1 : Fin 3) * 1 + 1
      rw [hidx]
      show 0 * 1 ≤ (J 1).val ∧ (J 1).val < 0 * 1 + 1
      omega
    · show ((cfgM pf hO).win 1).index t (2 : Fin 3) * 128 ≤ (J 2).val ∧ (J 2).val < ((cfgM pf hO).win 1).index t (2 : Fin 3) * 128 + 128
      rw [hidx]
      show 0 * 128 ≤ (J 2).val ∧ (J 2).val < 0 * 128 + 128
      omega
  exact (Finset.ext_iff.mp (View.set_slice_whole main_v130 (((cfgM pf hO).win 1).rect t)) J).mpr hmem

/-- Every index of the output array is in the block of its row's last point, which writes it back. -/
theorem cover_1 (J : S2048x1x128.Idx) :
    ∃ t : Fin (cfgM pf hO).N, ((cfgM pf hO).win 1).flush t = true ∧ J ∈ (((cfgM pf hO).win 1).blk t).view.set := by
  have hJ0 : (J 0).val < 2048 := (J 0).isLt
  have hlt : 32 * (J 0).val + 31 < (cfgM pf hO).N := by rw [N_eq pf hO]; omega
  exact ⟨⟨32 * (J 0).val + 31, hlt⟩, (flush_1 pf hO _).mpr (by dsimp only; omega), mem_blk_1_of pf hO _ J (by dsimp only; omega)⟩

/-- THE VALUE OF THE REGION'S OUTPUT ARRAY: after its 65536 points it holds, row by row and lane by lane, the running
    maximum from -inf over the 32 rows of the feature array the table names. -/
theorem out_eq (c : Dev nD) :
    (dat V pf hO c).arrAt 1 (cfgM pf hO).N = (PoolSpec.regionOut (V c main_v3 : FVec F PoolSpec.Sx .f32) (tabRow pf hO) : FVec F PoolSpec.So .f32) :=
  (dat V pf hO c).arrAt_eq_of_cover 1 _ (fun t hf => flushed_eq V pf hO c t hf) (cover_1 pf hO)

end
end Cert.KernelIdeal.Rg31

end
-- ==== Proof.KI.Family.lean ====
import proofs.«411409_j5669356831307_3_alg».proof.Proof.KI.Chain
import proofs.«411409_j5669356831307_3_alg».proof.Proof.KI.R0.Pipe
import proofs.«411409_j5669356831307_3_alg».proof.Proof.KI.R1.Pipe
import proofs.«411409_j5669356831307_3_alg».proof.Proof.KI.R2.Pipe
import proofs.«411409_j5669356831307_3_alg».proof.Proof.KI.R3.Pipe
import proofs.«411409_j5669356831307_3_alg».proof.Proof.KI.R4.Pipe
import proofs.«411409_j5669356831307_3_alg».proof.Proof.KI.R5.Pipe
import proofs.«411409_j5669356831307_3_alg».proof.Proof.KI.R6.Pipe
import proofs.«411409_j5669356831307_3_alg».proof.Proof.KI.R7.Pipe
import proofs.«411409_j5669356831307_3_alg».proof.Proof.KI.R8.Pipe
import proofs.«411409_j5669356831307_3_alg».proof.Proof.KI.R9.Pipe
import proofs.«411409_j5669356831307_3_alg».proof.Proof.KI.R10.Pipe
import proofs.«411409_j5669356831307_3_alg».proof.Proof.KI.R11.Pipe
import proofs.«411409_j5669356831307_3_alg».proof.Proof.KI.R12.Pipe
import proofs.«411409_j5669356831307_3_alg».proof.Proof.KI.R13.Pipe
import proofs.«411409_j5669356831307_3_alg».proof.Proof.KI.R14.Pipe
import proofs.«411409_j5669356831307_3_alg».proof.Proof.KI.R15.Pipe
import proofs.«411409_j5669356831307_3_alg».proof.Proof.KI.R16.Pipe
import proofs.«411409_j5669356831307_3_alg».proof.Proof.KI.R17.Pipe
import proofs.«411409_j5669356831307_3_alg».proof.Proof.KI.R18.Pipe
import proofs.«411409_j5669356831307_3_alg».proof.Proof.KI.R19.Pipe
import proofs.«411409_j5669356831307_3_alg».proof.Proof.KI.R20.Pipe
import proofs.«411409_j5669356831307_3_alg».proof.Proof.KI.R21.Pipe
import proofs.«411409_j5669356831307_3_alg».proof.Proof.KI.R22.Pipe
import proofs.«411409_j5669356831307_3_alg».proof.Proof.KI.R23.Pipe
import proofs.«411409_j5669356831307_3_alg».proof.Proof.KI.R24.Pipe
import proofs.«411409_j5669356831307_3_alg».proof.Proof.KI.R25.Pipe
import proofs.«411409_j5669356831307_3_alg».proof.Proof.KI.R26.Pipe
import proofs.«411409_j5669356831307_3_alg».proof.Proof.KI.R27.Pipe
import proofs.«411409_j5669356831307_3_alg».proof.Proof.KI.R28.Pipe
import proofs.«411409_j5669356831307_3_alg».proof.Proof.KI.R29.Pipe
import proofs.«411409_j5669356831307_3_alg».proof.Proof.KI.R30.Pipe
import proofs.«411409_j5669356831307_3_alg».proof.Proof.KI.R31.Pipe
import Idealize.ShloMosaic.Lib.Pipeline.FrameSuffix
import Idealize.ShloMosaic.Lib.StableHlo.Run
import Idealize.ShloMosaic.Lib.Pipeline.Kit
import Idealize.ShloMosaic.Lib.Pipeline.RegionsLoop

set_option maxRecDepth 16384

noncomputable section

namespace Cert.KernelIdeal.Hand

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- Every table is admissible: each index names a row of the padded feature array. -/
structure OkAll : Prop where
  h0 : ok0 (F := F) (tbl0 m)
  h1 : ok1 (F := F) (tbl1 m)
  h2 : ok2 (F := F) (tbl2 m)
  h3 : ok3 (F := F) (tbl3 m)
  h4 : ok4 (F := F) (tbl4 m)
  h5 : ok5 (F := F) (tbl5 m)
  h6 : ok6 (F := F) (tbl6 m)
  h7 : ok7 (F := F) (tbl7 m)
  h8 : ok8 (F := F) (tbl8 m)
  h9 : ok9 (F := F) (tbl9 m)
  h10 : ok10 (F := F) (tbl10 m)
  h11 : ok11 (F := F) (tbl11 m)
  h12 : ok12 (F := F) (tbl12 m)
  h13 : ok13 (F := F) (tbl13 m)
  h14 : ok14 (F := F) (tbl14 m)
  h15 : ok15 (F := F) (tbl15 m)
  h16 : ok16 (F := F) (tbl16 m)
  h17 : ok17 (F := F) (tbl17 m)
  h18 : ok18 (F := F) (tbl18 m)
  h19 : ok19 (F := F) (tbl19 m)
  h20 : ok20 (F := F) (tbl20 m)
  h21 : ok21 (F := F) (tbl21 m)
  h22 : ok22 (F := F) (tbl22 m)
  h23 : ok23 (F := F) (tbl23 m)
  h24 : ok24 (F := F) (tbl24 m)
  h25 : ok25 (F := F) (tbl25 m)
  h26 : ok26 (F := F) (tbl26 m)
  h27 : ok27 (F := F) (tbl27 m)
  h28 : ok28 (F := F) (tbl28 m)
  h29 : ok29 (F := F) (tbl29 m)
  h30 : ok30 (F := F) (tbl30 m)
  h31 : ok31 (F := F) (tbl31 m)

variable (h : OkAll m)

/-- The tables as admissible contents, region by region. -/
def admAll : (p : Fin 32) → (pcfgs (F := F) p).Adm
  | ⟨0, _⟩ => ⟨tbl0 m, h.h0⟩
  | ⟨1, _⟩ => ⟨tbl1 m, h.h1⟩
  | ⟨2, _⟩ => ⟨tbl2 m, h.h2⟩
  | ⟨3, _⟩ => ⟨tbl3 m, h.h3⟩
  | ⟨4, _⟩ => ⟨tbl4 m, h.h4⟩
  | ⟨5, _⟩ => ⟨tbl5 m, h.h5⟩
  | ⟨6, _⟩ => ⟨tbl6 m, h.h6⟩
  | ⟨7, _⟩ => ⟨tbl7 m, h.h7⟩
  | ⟨8, _⟩ => ⟨tbl8 m, h.h8⟩
  | ⟨9, _⟩ => ⟨tbl9 m, h.h9⟩
  | ⟨10, _⟩ => ⟨tbl10 m, h.h10⟩
  | ⟨11, _⟩ => ⟨tbl11 m, h.h11⟩
  | ⟨12, _⟩ => ⟨tbl12 m, h.h12⟩
  | ⟨13, _⟩ => ⟨tbl13 m, h.h13⟩
  | ⟨14, _⟩ => ⟨tbl14 m, h.h14⟩
  | ⟨15, _⟩ => ⟨tbl15 m, h.h15⟩
  | ⟨16, _⟩ => ⟨tbl16 m, h.h16⟩
  | ⟨17, _⟩ => ⟨tbl17 m, h.h17⟩
  | ⟨18, _⟩ => ⟨tbl18 m, h.h18⟩
  | ⟨19, _⟩ => ⟨tbl19 m, h.h19⟩
  | ⟨20, _⟩ => ⟨tbl20 m, h.h20⟩
  | ⟨21, _⟩ => ⟨tbl21 m, h.h21⟩
  | ⟨22, _⟩ => ⟨tbl22 m, h.h22⟩
  | ⟨23, _⟩ => ⟨tbl23 m, h.h23⟩
  | ⟨24, _⟩ => ⟨tbl24 m, h.h24⟩
  | ⟨25, _⟩ => ⟨tbl25 m, h.h25⟩
  | ⟨26, _⟩ => ⟨tbl26 m, h.h26⟩
  | ⟨27, _⟩ => ⟨tbl27 m, h.h27⟩
  | ⟨28, _⟩ => ⟨tbl28 m, h.h28⟩
  | ⟨29, _⟩ => ⟨tbl29 m, h.h29⟩
  | ⟨30, _⟩ => ⟨tbl30 m, h.h30⟩
  | ⟨31, _⟩ => ⟨tbl31 m, h.h31⟩
  | ⟨_ + 32, hh⟩ => absurd hh (Nat.not_lt.2 (Nat.le_add_left _ _))

/-- The proof data of every region, over the buffers after the first host stretch and the table of the region. -/
def pdats : (p : Fin 32) → (c : Dev nD) → Dat τ (Elt F) Unit ℕ (UR sig nD τ) ℕ (Pipeline.pin (pcfgs (F := F)) (admAll m h) p) c
  | ⟨0, _⟩ => fun c => Rg0.dat (Vent m) (tbl0 m) h.h0 c
  | ⟨1, _⟩ => fun c => Rg1.dat (Vent m) (tbl1 m) h.h1 c
  | ⟨2, _⟩ => fun c => Rg2.dat (Vent m) (tbl2 m) h.h2 c
  | ⟨3, _⟩ => fun c => Rg3.dat (Vent m) (tbl3 m) h.h3 c
  | ⟨4, _⟩ => fun c => Rg4.dat (Vent m) (tbl4 m) h.h4 c
  | ⟨5, _⟩ => fun c => Rg5.dat (Vent m) (tbl5 m) h.h5 c
  | ⟨6, _⟩ => fun c => Rg6.dat (Vent m) (tbl6 m) h.h6 c
  | ⟨7, _⟩ => fun c => Rg7.dat (Vent m) (tbl7 m) h.h7 c
  | ⟨8, _⟩ => fun c => Rg8.dat (Vent m) (tbl8 m) h.h8 c
  | ⟨9, _⟩ => fun c => Rg9.dat (Vent m) (tbl9 m) h.h9 c
  | ⟨10, _⟩ => fun c => Rg10.dat (Vent m) (tbl10 m) h.h10 c
  | ⟨11, _⟩ => fun c => Rg11.dat (Vent m) (tbl11 m) h.h11 c
  | ⟨12, _⟩ => fun c => Rg12.dat (Vent m) (tbl12 m) h.h12 c
  | ⟨13, _⟩ => fun c => Rg13.dat (Vent m) (tbl13 m) h.h13 c
  | ⟨14, _⟩ => fun c => Rg14.dat (Vent m) (tbl14 m) h.h14 c
  | ⟨15, _⟩ => fun c => Rg15.dat (Vent m) (tbl15 m) h.h15 c
  | ⟨16, _⟩ => fun c => Rg16.dat (Vent m) (tbl16 m) h.h16 c
  | ⟨17, _⟩ => fun c => Rg17.dat (Vent m) (tbl17 m) h.h17 c
  | ⟨18, _⟩ => fun c => Rg18.dat (Vent m) (tbl18 m) h.h18 c
  | ⟨19, _⟩ => fun c => Rg19.dat (Vent m) (tbl19 m) h.h19 c
  | ⟨20, _⟩ => fun c => Rg20.dat (Vent m) (tbl20 m) h.h20 c
  | ⟨21, _⟩ => fun c => Rg21.dat (Vent m) (tbl21 m) h.h21 c
  | ⟨22, _⟩ => fun c => Rg22.dat (Vent m) (tbl22 m) h.h22 c
  | ⟨23, _⟩ => fun c => Rg23.dat (Vent m) (tbl23 m) h.h23 c
  | ⟨24, _⟩ => fun c => Rg24.dat (Vent m) (tbl24 m) h.h24 c
  | ⟨25, _⟩ => fun c => Rg25.dat (Vent m) (tbl25 m) h.h25 c
  | ⟨26, _⟩ => fun c => Rg26.dat (Vent m) (tbl26 m) h.h26 c
  | ⟨27, _⟩ => fun c => Rg27.dat (Vent m) (tbl27 m) h.h27 c
  | ⟨28, _⟩ => fun c => Rg28.dat (Vent m) (tbl28 m) h.h28 c
  | ⟨29, _⟩ => fun c => Rg29.dat (Vent m) (tbl29 m) h.h29 c
  | ⟨30, _⟩ => fun c => Rg30.dat (Vent m) (tbl30 m) h.h30 c
  | ⟨31, _⟩ => fun c => Rg31.dat (Vent m) (tbl31 m) h.h31 c
  | ⟨_ + 32, hh⟩ => absurd hh (Nat.not_lt.2 (Nat.le_add_left _ _))

/-- What region k leaves in the buffers: its output array at the pooled rows (the write-backs folded), everything else as found. -/
def outsJ0 (c : Dev nD) : Valuation τ sig (Elt F) := Pipeline.withArrays spec0 c (V1 m c) fun w => (Rg0.dat (Vent m) (tbl0 m) h.h0 c).arrAt w (Rg0.cfgM (tbl0 m) h.h0).N
def outsJ1 (c : Dev nD) : Valuation τ sig (Elt F) := Pipeline.withArrays spec1 c (V1 m c) fun w => (Rg1.dat (Vent m) (tbl1 m) h.h1 c).arrAt w (Rg1.cfgM (tbl1 m) h.h1).N
def outsJ2 (c : Dev nD) : Valuation τ sig (Elt F) := Pipeline.withArrays spec2 c (V1 m c) fun w => (Rg2.dat (Vent m) (tbl2 m) h.h2 c).arrAt w (Rg2.cfgM (tbl2 m) h.h2).N
def outsJ3 (c : Dev nD) : Valuation τ sig (Elt F) := Pipeline.withArrays spec3 c (V1 m c) fun w => (Rg3.dat (Vent m) (tbl3 m) h.h3 c).arrAt w (Rg3.cfgM (tbl3 m) h.h3).N
def outsJ4 (c : Dev nD) : Valuation τ sig (Elt F) := Pipeline.withArrays spec4 c (V1 m c) fun w => (Rg4.dat (Vent m) (tbl4 m) h.h4 c).arrAt w (Rg4.cfgM (tbl4 m) h.h4).N
def outsJ5 (c : Dev nD) : Valuation τ sig (Elt F) := Pipeline.withArrays spec5 c (V1 m c) fun w => (Rg5.dat (Vent m) (tbl5 m) h.h5 c).arrAt w (Rg5.cfgM (tbl5 m) h.h5).N
def outsJ6 (c : Dev nD) : Valuation τ sig (Elt F) := Pipeline.withArrays spec6 c (V1 m c) fun w => (Rg6.dat (Vent m) (tbl6 m) h.h6 c).arrAt w (Rg6.cfgM (tbl6 m) h.h6).N
def outsJ7 (c : Dev nD) : Valuation τ sig (Elt F) := Pipeline.withArrays spec7 c (V1 m c) fun w => (Rg7.dat (Vent m) (tbl7 m) h.h7 c).arrAt w (Rg7.cfgM (tbl7 m) h.h7).N
def outsJ8 (c : Dev nD) : Valuation τ sig (Elt F) := Pipeline.withArrays spec8 c (V1 m c) fun w => (Rg8.dat (Vent m) (tbl8 m) h.h8 c).arrAt w (Rg8.cfgM (tbl8 m) h.h8).N
def outsJ9 (c : Dev nD) : Valuation τ sig (Elt F) := Pipeline.withArrays spec9 c (V1 m c) fun w => (Rg9.dat (Vent m) (tbl9 m) h.h9 c).arrAt w (Rg9.cfgM (tbl9 m) h.h9).N
def outsJ10 (c : Dev nD) : Valuation τ sig (Elt F) := Pipeline.withArrays spec10 c (V1 m c) fun w => (Rg10.dat (Vent m) (tbl10 m) h.h10 c).arrAt w (Rg10.cfgM (tbl10 m) h.h10).N
def outsJ11 (c : Dev nD) : Valuation τ sig (Elt F) := Pipeline.withArrays spec11 c (V1 m c) fun w => (Rg11.dat (Vent m) (tbl11 m) h.h11 c).arrAt w (Rg11.cfgM (tbl11 m) h.h11).N
def outsJ12 (c : Dev nD) : Valuation τ sig (Elt F) := Pipeline.withArrays spec12 c (V1 m c) fun w => (Rg12.dat (Vent m) (tbl12 m) h.h12 c).arrAt w (Rg12.cfgM (tbl12 m) h.h12).N
def outsJ13 (c : Dev nD) : Valuation τ sig (Elt F) := Pipeline.withArrays spec13 c (V1 m c) fun w => (Rg13.dat (Vent m) (tbl13 m) h.h13 c).arrAt w (Rg13.cfgM (tbl13 m) h.h13).N
def outsJ14 (c : Dev nD) : Valuation τ sig (Elt F) := Pipeline.withArrays spec14 c (V1 m c) fun w => (Rg14.dat (Vent m) (tbl14 m) h.h14 c).arrAt w (Rg14.cfgM (tbl14 m) h.h14).N
def outsJ15 (c : Dev nD) : Valuation τ sig (Elt F) := Pipeline.withArrays spec15 c (V1 m c) fun w => (Rg15.dat (Vent m) (tbl15 m) h.h15 c).arrAt w (Rg15.cfgM (tbl15 m) h.h15).N
def outsJ16 (c : Dev nD) : Valuation τ sig (Elt F) := Pipeline.withArrays spec16 c (V1 m c) fun w => (Rg16.dat (Vent m) (tbl16 m) h.h16 c).arrAt w (Rg16.cfgM (tbl16 m) h.h16).N
def outsJ17 (c : Dev nD) : Valuation τ sig (Elt F) := Pipeline.withArrays spec17 c (V1 m c) fun w => (Rg17.dat (Vent m) (tbl17 m) h.h17 c).arrAt w (Rg17.cfgM (tbl17 m) h.h17).N
def outsJ18 (c : Dev nD) : Valuation τ sig (Elt F) := Pipeline.withArrays spec18 c (V1 m c) fun w => (Rg18.dat (Vent m) (tbl18 m) h.h18 c).arrAt w (Rg18.cfgM (tbl18 m) h.h18).N
def outsJ19 (c : Dev nD) : Valuation τ sig (Elt F) := Pipeline.withArrays spec19 c (V1 m c) fun w => (Rg19.dat (Vent m) (tbl19 m) h.h19 c).arrAt w (Rg19.cfgM (tbl19 m) h.h19).N
def outsJ20 (c : Dev nD) : Valuation τ sig (Elt F) := Pipeline.withArrays spec20 c (V1 m c) fun w => (Rg20.dat (Vent m) (tbl20 m) h.h20 c).arrAt w (Rg20.cfgM (tbl20 m) h.h20).N
def outsJ21 (c : Dev nD) : Valuation τ sig (Elt F) := Pipeline.withArrays spec21 c (V1 m c) fun w => (Rg21.dat (Vent m) (tbl21 m) h.h21 c).arrAt w (Rg21.cfgM (tbl21 m) h.h21).N
def outsJ22 (c : Dev nD) : Valuation τ sig (Elt F) := Pipeline.withArrays spec22 c (V1 m c) fun w => (Rg22.dat (Vent m) (tbl22 m) h.h22 c).arrAt w (Rg22.cfgM (tbl22 m) h.h22).N
def outsJ23 (c : Dev nD) : Valuation τ sig (Elt F) := Pipeline.withArrays spec23 c (V1 m c) fun w => (Rg23.dat (Vent m) (tbl23 m) h.h23 c).arrAt w (Rg23.cfgM (tbl23 m) h.h23).N
def outsJ24 (c : Dev nD) : Valuation τ sig (Elt F) := Pipeline.withArrays spec24 c (V1 m c) fun w => (Rg24.dat (Vent m) (tbl24 m) h.h24 c).arrAt w (Rg24.cfgM (tbl24 m) h.h24).N
def outsJ25 (c : Dev nD) : Valuation τ sig (Elt F) := Pipeline.withArrays spec25 c (V1 m c) fun w => (Rg25.dat (Vent m) (tbl25 m) h.h25 c).arrAt w (Rg25.cfgM (tbl25 m) h.h25).N
def outsJ26 (c : Dev nD) : Valuation τ sig (Elt F) := Pipeline.withArrays spec26 c (V1 m c) fun w => (Rg26.dat (Vent m) (tbl26 m) h.h26 c).arrAt w (Rg26.cfgM (tbl26 m) h.h26).N
def outsJ27 (c : Dev nD) : Valuation τ sig (Elt F) := Pipeline.withArrays spec27 c (V1 m c) fun w => (Rg27.dat (Vent m) (tbl27 m) h.h27 c).arrAt w (Rg27.cfgM (tbl27 m) h.h27).N
def outsJ28 (c : Dev nD) : Valuation τ sig (Elt F) := Pipeline.withArrays spec28 c (V1 m c) fun w => (Rg28.dat (Vent m) (tbl28 m) h.h28 c).arrAt w (Rg28.cfgM (tbl28 m) h.h28).N
def outsJ29 (c : Dev nD) : Valuation τ sig (Elt F) := Pipeline.withArrays spec29 c (V1 m c) fun w => (Rg29.dat (Vent m) (tbl29 m) h.h29 c).arrAt w (Rg29.cfgM (tbl29 m) h.h29).N
def outsJ30 (c : Dev nD) : Valuation τ sig (Elt F) := Pipeline.withArrays spec30 c (V1 m c) fun w => (Rg30.dat (Vent m) (tbl30 m) h.h30 c).arrAt w (Rg30.cfgM (tbl30 m) h.h30).N
def outsJ31 (c : Dev nD) : Valuation τ sig (Elt F) := Pipeline.withArrays spec31 c (V1 m c) fun w => (Rg31.dat (Vent m) (tbl31 m) h.h31 c).arrAt w (Rg31.cfgM (tbl31 m) h.h31).N

def outsAll : Outs (F := F) := fun J r c => match J with
  | 2 => outsJ0 m h c r
  | 4 => outsJ1 m h c r
  | 6 => outsJ2 m h c r
  | 8 => outsJ3 m h c r
  | 10 => outsJ4 m h c r
  | 12 => outsJ5 m h c r
  | 14 => outsJ6 m h c r
  | 16 => outsJ7 m h c r
  | 18 => outsJ8 m h c r
  | 20 => outsJ9 m h c r
  | 22 => outsJ10 m h c r
  | 24 => outsJ11 m h c r
  | 26 => outsJ12 m h c r
  | 28 => outsJ13 m h c r
  | 30 => outsJ14 m h c r
  | 32 => outsJ15 m h c r
  | 34 => outsJ16 m h c r
  | 36 => outsJ17 m h c r
  | 38 => outsJ18 m h c r
  | 40 => outsJ19 m h c r
  | 42 => outsJ20 m h c r
  | 44 => outsJ21 m h c r
  | 46 => outsJ22 m h c r
  | 48 => outsJ23 m h c r
  | 50 => outsJ24 m h c r
  | 52 => outsJ25 m h c r
  | 54 => outsJ26 m h c r
  | 56 => outsJ27 m h c r
  | 58 => outsJ28 m h c r
  | 60 => outsJ29 m h c r
  | 62 => outsJ30 m h c r
  | 64 => outsJ31 m h c r
  | _ => m ((c : Thread nD τ).loc r)

theorem outsAll_0 (c : Dev nD) : outsAll m h 2 main_v6 c = (Rg0.dat (Vent m) (tbl0 m) h.h0 c).arrAt 1 (Rg0.cfgM (tbl0 m) h.h0).N := by
  show outsJ0 m h c (Proc.devRef (τ := τ) .tc main_v6) = _
  exact Pipeline.withArrays_arr spec0 winFacts0.arr_inj c _ _ 1
theorem outsAll_1 (c : Dev nD) : outsAll m h 4 main_v10 c = (Rg1.dat (Vent m) (tbl1 m) h.h1 c).arrAt 1 (Rg1.cfgM (tbl1 m) h.h1).N := by
  show outsJ1 m h c (Proc.devRef (τ := τ) .tc main_v10) = _
  exact Pipeline.withArrays_arr spec1 winFacts1.arr_inj c _ _ 1
theorem outsAll_2 (c : Dev nD) : outsAll m h 6 main_v14 c = (Rg2.dat (Vent m) (tbl2 m) h.h2 c).arrAt 1 (Rg2.cfgM (tbl2 m) h.h2).N := by
  show outsJ2 m h c (Proc.devRef (τ := τ) .tc main_v14) = _
  exact Pipeline.withArrays_arr spec2 winFacts2.arr_inj c _ _ 1
theorem outsAll_3 (c : Dev nD) : outsAll m h 8 main_v18 c = (Rg3.dat (Vent m) (tbl3 m) h.h3 c).arrAt 1 (Rg3.cfgM (tbl3 m) h.h3).N := by
  show outsJ3 m h c (Proc.devRef (τ := τ) .tc main_v18) = _
  exact Pipeline.withArrays_arr spec3 winFacts3.arr_inj c _ _ 1
theorem outsAll_4 (c : Dev nD) : outsAll m h 10 main_v22 c = (Rg4.dat (Vent m) (tbl4 m) h.h4 c).arrAt 1 (Rg4.cfgM (tbl4 m) h.h4).N := by
  show outsJ4 m h c (Proc.devRef (τ := τ) .tc main_v22) = _
  exact Pipeline.withArrays_arr spec4 winFacts4.arr_inj c _ _ 1
theorem outsAll_5 (c : Dev nD) : outsAll m h 12 main_v26 c = (Rg5.dat (Vent m) (tbl5 m) h.h5 c).arrAt 1 (Rg5.cfgM (tbl5 m) h.h5).N := by
  show outsJ5 m h c (Proc.devRef (τ := τ) .tc main_v26) = _
  exact Pipeline.withArrays_arr spec5 winFacts5.arr_inj c _ _ 1
theorem outsAll_6 (c : Dev nD) : outsAll m h 14 main_v30 c = (Rg6.dat (Vent m) (tbl6 m) h.h6 c).arrAt 1 (Rg6.cfgM (tbl6 m) h.h6).N := by
  show outsJ6 m h c (Proc.devRef (τ := τ) .tc main_v30) = _
  exact Pipeline.withArrays_arr spec6 winFacts6.arr_inj c _ _ 1
theorem outsAll_7 (c : Dev nD) : outsAll m h 16 main_v34 c = (Rg7.dat (Vent m) (tbl7 m) h.h7 c).arrAt 1 (Rg7.cfgM (tbl7 m) h.h7).N := by
  show outsJ7 m h c (Proc.devRef (τ := τ) .tc main_v34) = _
  exact Pipeline.withArrays_arr spec7 winFacts7.arr_inj c _ _ 1
theorem outsAll_8 (c : Dev nD) : outsAll m h 18 main_v38 c = (Rg8.dat (Vent m) (tbl8 m) h.h8 c).arrAt 1 (Rg8.cfgM (tbl8 m) h.h8).N := by
  show outsJ8 m h c (Proc.devRef (τ := τ) .tc main_v38) = _
  exact Pipeline.withArrays_arr spec8 winFacts8.arr_inj c _ _ 1
theorem outsAll_9 (c : Dev nD) : outsAll m h 20 main_v42 c = (Rg9.dat (Vent m) (tbl9 m) h.h9 c).arrAt 1 (Rg9.cfgM (tbl9 m) h.h9).N := by
  show outsJ9 m h c (Proc.devRef (τ := τ) .tc main_v42) = _
  exact Pipeline.withArrays_arr spec9 winFacts9.arr_inj c _ _ 1
theorem outsAll_10 (c : Dev nD) : outsAll m h 22 main_v46 c = (Rg10.dat (Vent m) (tbl10 m) h.h10 c).arrAt 1 (Rg10.cfgM (tbl10 m) h.h10).N := by
  show outsJ10 m h c (Proc.devRef (τ := τ) .tc main_v46) = _
  exact Pipeline.withArrays_arr spec10 winFacts10.arr_inj c _ _ 1
theorem outsAll_11 (c : Dev nD) : outsAll m h 24 main_v50 c = (Rg11.dat (Vent m) (tbl11 m) h.h11 c).arrAt 1 (Rg11.cfgM (tbl11 m) h.h11).N := by
  show outsJ11 m h c (Proc.devRef (τ := τ) .tc main_v50) = _
  exact Pipeline.withArrays_arr spec11 winFacts11.arr_inj c _ _ 1
theorem outsAll_12 (c : Dev nD) : outsAll m h 26 main_v54 c = (Rg12.dat (Vent m) (tbl12 m) h.h12 c).arrAt 1 (Rg12.cfgM (tbl12 m) h.h12).N := by
  show outsJ12 m h c (Proc.devRef (τ := τ) .tc main_v54) = _
  exact Pipeline.withArrays_arr spec12 winFacts12.arr_inj c _ _ 1
theorem outsAll_13 (c : Dev nD) : outsAll m h 28 main_v58 c = (Rg13.dat (Vent m) (tbl13 m) h.h13 c).arrAt 1 (Rg13.cfgM (tbl13 m) h.h13).N := by
  show outsJ13 m h c (Proc.devRef (τ := τ) .tc main_v58) = _
  exact Pipeline.withArrays_arr spec13 winFacts13.arr_inj c _ _ 1
theorem outsAll_14 (c : Dev nD) : outsAll m h 30 main_v62 c = (Rg14.dat (Vent m) (tbl14 m) h.h14 c).arrAt 1 (Rg14.cfgM (tbl14 m) h.h14).N := by
  show outsJ14 m h c (Proc.devRef (τ := τ) .tc main_v62) = _
  exact Pipeline.withArrays_arr spec14 winFacts14.arr_inj c _ _ 1
theorem outsAll_15 (c : Dev nD) : outsAll m h 32 main_v66 c = (Rg15.dat (Vent m) (tbl15 m) h.h15 c).arrAt 1 (Rg15.cfgM (tbl15 m) h.h15).N := by
  show outsJ15 m h c (Proc.devRef (τ := τ) .tc main_v66) = _
  exact Pipeline.withArrays_arr spec15 winFacts15.arr_inj c _ _ 1
theorem outsAll_16 (c : Dev nD) : outsAll m h 34 main_v70 c = (Rg16.dat (Vent m) (tbl16 m) h.h16 c).arrAt 1 (Rg16.cfgM (tbl16 m) h.h16).N := by
  show outsJ16 m h c (Proc.devRef (τ := τ) .tc main_v70) = _
  exact Pipeline.withArrays_arr spec16 winFacts16.arr_inj c _ _ 1
theorem outsAll_17 (c : Dev nD) : outsAll m h 36 main_v74 c = (Rg17.dat (Vent m) (tbl17 m) h.h17 c).arrAt 1 (Rg17.cfgM (tbl17 m) h.h17).N := by
  show outsJ17 m h c (Proc.devRef (τ := τ) .tc main_v74) = _
  exact Pipeline.withArrays_arr spec17 winFacts17.arr_inj c _ _ 1
theorem outsAll_18 (c : Dev nD) : outsAll m h 38 main_v78 c = (Rg18.dat (Vent m) (tbl18 m) h.h18 c).arrAt 1 (Rg18.cfgM (tbl18 m) h.h18).N := by
  show outsJ18 m h c (Proc.devRef (τ := τ) .tc main_v78) = _
  exact Pipeline.withArrays_arr spec18 winFacts18.arr_inj c _ _ 1
theorem outsAll_19 (c : Dev nD) : outsAll m h 40 main_v82 c = (Rg19.dat (Vent m) (tbl19 m) h.h19 c).arrAt 1 (Rg19.cfgM (tbl19 m) h.h19).N := by
  show outsJ19 m h c (Proc.devRef (τ := τ) .tc main_v82) = _
  exact Pipeline.withArrays_arr spec19 winFacts19.arr_inj c _ _ 1
theorem outsAll_20 (c : Dev nD) : outsAll m h 42 main_v86 c = (Rg20.dat (Vent m) (tbl20 m) h.h20 c).arrAt 1 (Rg20.cfgM (tbl20 m) h.h20).N := by
  show outsJ20 m h c (Proc.devRef (τ := τ) .tc main_v86) = _
  exact Pipeline.withArrays_arr spec20 winFacts20.arr_inj c _ _ 1
theorem outsAll_21 (c : Dev nD) : outsAll m h 44 main_v90 c = (Rg21.dat (Vent m) (tbl21 m) h.h21 c).arrAt 1 (Rg21.cfgM (tbl21 m) h.h21).N := by
  show outsJ21 m h c (Proc.devRef (τ := τ) .tc main_v90) = _
  exact Pipeline.withArrays_arr spec21 winFacts21.arr_inj c _ _ 1
theorem outsAll_22 (c : Dev nD) : outsAll m h 46 main_v94 c = (Rg22.dat (Vent m) (tbl22 m) h.h22 c).arrAt 1 (Rg22.cfgM (tbl22 m) h.h22).N := by
  show outsJ22 m h c (Proc.devRef (τ := τ) .tc main_v94) = _
  exact Pipeline.withArrays_arr spec22 winFacts22.arr_inj c _ _ 1
theorem outsAll_23 (c : Dev nD) : outsAll m h 48 main_v98 c = (Rg23.dat (Vent m) (tbl23 m) h.h23 c).arrAt 1 (Rg23.cfgM (tbl23 m) h.h23).N := by
  show outsJ23 m h c (Proc.devRef (τ := τ) .tc main_v98) = _
  exact Pipeline.withArrays_arr spec23 winFacts23.arr_inj c _ _ 1
theorem outsAll_24 (c : Dev nD) : outsAll m h 50 main_v102 c = (Rg24.dat (Vent m) (tbl24 m) h.h24 c).arrAt 1 (Rg24.cfgM (tbl24 m) h.h24).N := by
  show outsJ24 m h c (Proc.devRef (τ := τ) .tc main_v102) = _
  exact Pipeline.withArrays_arr spec24 winFacts24.arr_inj c _ _ 1
theorem outsAll_25 (c : Dev nD) : outsAll m h 52 main_v106 c = (Rg25.dat (Vent m) (tbl25 m) h.h25 c).arrAt 1 (Rg25.cfgM (tbl25 m) h.h25).N := by
  show outsJ25 m h c (Proc.devRef (τ := τ) .tc main_v106) = _
  exact Pipeline.withArrays_arr spec25 winFacts25.arr_inj c _ _ 1
theorem outsAll_26 (c : Dev nD) : outsAll m h 54 main_v110 c = (Rg26.dat (Vent m) (tbl26 m) h.h26 c).arrAt 1 (Rg26.cfgM (tbl26 m) h.h26).N := by
  show outsJ26 m h c (Proc.devRef (τ := τ) .tc main_v110) = _
  exact Pipeline.withArrays_arr spec26 winFacts26.arr_inj c _ _ 1
theorem outsAll_27 (c : Dev nD) : outsAll m h 56 main_v114 c = (Rg27.dat (Vent m) (tbl27 m) h.h27 c).arrAt 1 (Rg27.cfgM (tbl27 m) h.h27).N := by
  show outsJ27 m h c (Proc.devRef (τ := τ) .tc main_v114) = _
  exact Pipeline.withArrays_arr spec27 winFacts27.arr_inj c _ _ 1
theorem outsAll_28 (c : Dev nD) : outsAll m h 58 main_v118 c = (Rg28.dat (Vent m) (tbl28 m) h.h28 c).arrAt 1 (Rg28.cfgM (tbl28 m) h.h28).N := by
  show outsJ28 m h c (Proc.devRef (τ := τ) .tc main_v118) = _
  exact Pipeline.withArrays_arr spec28 winFacts28.arr_inj c _ _ 1
theorem outsAll_29 (c : Dev nD) : outsAll m h 60 main_v122 c = (Rg29.dat (Vent m) (tbl29 m) h.h29 c).arrAt 1 (Rg29.cfgM (tbl29 m) h.h29).N := by
  show outsJ29 m h c (Proc.devRef (τ := τ) .tc main_v122) = _
  exact Pipeline.withArrays_arr spec29 winFacts29.arr_inj c _ _ 1
theorem outsAll_30 (c : Dev nD) : outsAll m h 62 main_v126 c = (Rg30.dat (Vent m) (tbl30 m) h.h30 c).arrAt 1 (Rg30.cfgM (tbl30 m) h.h30).N := by
  show outsJ30 m h c (Proc.devRef (τ := τ) .tc main_v126) = _
  exact Pipeline.withArrays_arr spec30 winFacts30.arr_inj c _ _ 1
theorem outsAll_31 (c : Dev nD) : outsAll m h 64 main_v130 c = (Rg31.dat (Vent m) (tbl31 m) h.h31 c).arrAt 1 (Rg31.cfgM (tbl31 m) h.h31).N := by
  show outsJ31 m h c (Proc.devRef (τ := τ) .tc main_v130) = _
  exact Pipeline.withArrays_arr spec31 winFacts31.arr_inj c _ _ 1

end Cert.KernelIdeal.Hand

end
-- ==== Proof.KI.TblLib.lean ====
/- Two reads at an index, for the table of a chunk: a block of 2048 rows cut out of the 65536 x 32 index array, and
   a 2048 x 32 array flattened row by row. Both hold for every chunk. -/
import proofs.«411409_j5669356831307_3_alg».proof.Proof.KernelIdealRegions
import Idealize.ShloMosaic.Lib.Pipeline.Value
import Idealize.ShloMosaic.Lib.ValueIdx

noncomputable section

namespace Cert.KernelIdeal.Hand

open Cert.KernelIdeal
open Idealize.ShloMosaic

/-- A block of 2048 rows cut out of the 65536 x 32 index array, read at row i and column k: the array's row
    (first offset + i), column k, when the second offset is zero. Stated for any offsets, so that it applies to the
    slice as the program prints it. -/
theorem slice_rows_apply {α : Type} (off : Fin S65536x32.rank → ℕ) (x : S65536x32.Idx → α)
    (h : S65536x32.Slices off S2048x32) (r : ℕ) (h0 : off ⟨0, by decide⟩ = r) (h1 : off ⟨1, by decide⟩ = 0)
    (i : Fin 2048) (k : Fin 32) (hr : r + i.val < 65536) :
    extractStridedSlice S2048x32 off x h (ValueIdx.ix2 i k) = x (ValueIdx.ix2 ⟨r + i.val, hr⟩ k) := by
  refine extractStridedSlice_apply off x h (ValueIdx.ix2 i k) (ValueIdx.ix2 ⟨r + i.val, hr⟩ k) fun a => ?_
  match a with
  | ⟨0, _⟩ => show r + i.val = off ⟨0, _⟩ + i.val; rw [h0]
  | ⟨1, _⟩ => show k.val = off ⟨1, _⟩ + k.val; rw [h1, Nat.zero_add]

/-- A 2048 x 32 array flattened row by row, read at position 32 i + k: its entry (i, k). -/
theorem flatten_rows_apply {α : Type} (x : S2048x32.Idx → α) (h : S2048x32.ShapeCasts S65536) (i : Fin 2048) (k : Fin 32)
    (hp : 32 * i.val + k.val < 65536) :
    shapeCast S65536 x h (ValueIdx.ix1 ⟨32 * i.val + k.val, hp⟩) = x (ValueIdx.ix2 i k) := by
  refine shapeCast_apply x h (ValueIdx.ix1 ⟨32 * i.val + k.val, hp⟩) (ValueIdx.ix2 i k) ?_
  rw [Shape.rowMajor_val_two, Shape.rowMajor_val_one]
  show i.val * 32 + k.val = 32 * i.val + k.val
  omega

end Cert.KernelIdeal.Hand

end
-- ==== Proof.KI.XPad.lean ====
/- The padded feature array as the regions find it: the input's rows, then one row of zeros, each row given a unit
   middle axis. -/
import proofs.«411409_j5669356831307_3_alg».proof.Proof.KernelIdealRegions
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ)

/-- The padded array as one term over the feature input: the input and a row of the zero constant, joined along the
    rows, then a unit axis put between rows and lanes. -/
theorem xpad3_term (c : Dev nD) :
    (V1 m c main_v3 : FVec Ideal S262145x1x128 .f32) =
      broadcastInDim S262145x1x128 ![0, 2] bcast_S262145x128_S262145x1x128_0_2
        (concatenate S262145x128 0
          [⟨S262144x128, (m ((c : Thread nD τ).loc main_arg0) : FVec Ideal S262144x128 .f32)⟩,
            ⟨S1x128, broadcastInDim S1x128 ![] bcast_S_S1x128 (constant (F := Ideal) S_ FTy.f32 0x00000000#32)⟩]
          concatenates_S262144x128_S1x128_S262145x128_d0) := by
  show StableHlo.after hostOps0 (V0 m c) (Proc.devRef .tc main_v3) = _
  after_results

/-- Two pieces joined along the rows, read at a row of the first piece. -/
theorem concat_rows_left (x : FVec Ideal S262144x128 .f32) (z : FVec Ideal S1x128 .f32) (j : Fin 262145) (l : Fin 128)
    (h : j.val < 262144) :
    concatenate S262145x128 0 [⟨S262144x128, x⟩, ⟨S1x128, z⟩] concatenates_S262144x128_S1x128_S262145x128_d0 (ValueIdx.ix2 j l)
      = x (ValueIdx.ix2 ⟨j.val, h⟩ l) := by
  refine concatenate_pair_apply_left (0 : Fin S262145x128.rank) x z _ (ValueIdx.ix2 j l) rfl (ValueIdx.ix2 ⟨j.val, h⟩ l) fun b => ?_
  match b with
  | ⟨0, _⟩ => rfl
  | ⟨1, _⟩ => rfl

/-- Two pieces joined along the rows, read at the one row of the second piece. -/
theorem concat_rows_right (x : FVec Ideal S262144x128 .f32) (z : FVec Ideal S1x128 .f32) (j : Fin 262145) (l : Fin 128)
    (h : ¬ j.val < 262144) :
    concatenate S262145x128 0 [⟨S262144x128, x⟩, ⟨S1x128, z⟩] concatenates_S262144x128_S1x128_S262145x128_d0 (ValueIdx.ix2 j l)
      = z (ValueIdx.ix2 0 l) := by
  refine concatenate_pair_apply_right (0 : Fin S262145x128.rank) x z _ (ValueIdx.ix2 j l) rfl rfl (ValueIdx.ix2 0 l) (fun b hb => ?_) ?_
  · match b with
    | ⟨0, _⟩ => exact absurd rfl hb
    | ⟨1, _⟩ => rfl
  · show 0 + 262144 = j.val
    have := j.isLt
    omega

/-- The padded array at row j, lane l: the feature input's row j while j is one of its 262144 rows, zero on the
    appended row. -/
theorem xpad3_apply (c : Dev nD) (j : Fin 262145) (l : Fin 128) :
    (V1 m c main_v3 : FVec Ideal S262145x1x128 .f32) (ValueIdx.ix3 j 0 l)
      = if h : j.val < 262144 then (m ((c : Thread nD τ).loc main_arg0) : FVec Ideal S262144x128 .f32) (ValueIdx.ix2 ⟨j.val, h⟩ l) else (0 : Ideal .f32) := by
  rw [xpad3_term m c]
  refine (broadcastInDim_apply _ _ _ (ValueIdx.ix3 j 0 l) (ValueIdx.ix2 j l) fun a => ?_).trans ?_
  · match a with
    | ⟨0, _⟩ => rfl
    | ⟨1, _⟩ => rfl
  by_cases h : j.val < 262144
  · rw [dif_pos h]
    exact concat_rows_left _ _ j l h
  · rw [dif_neg h]
    refine (concat_rows_right _ _ j l h).trans ?_
    rw [broadcastInDim_scalar_apply]
    exact Ideal.ofBits_zero_f32

end Cert.KernelIdeal.Hand

end
-- ==== Proof.RefValue.lean ====
/- The reference program's result, read index by index at the ideal instance: the pooled maximum of the padded
   feature array over each row's 32 neighbours, as the running maximum from -inf. -/
import proofs.«411409_j5669356831307_3_alg».proof.Proof.Gen.ReferenceIdeal.Run
import proofs.«411409_j5669356831307_3_alg».proof.Proof.Gen.ReferenceIdeal.Read
import proofs.«411409_j5669356831307_3_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The pooled maximum, stated index by index -/

/-- Row `j` of the padded feature array at lane `l`: the feature array's row below 262144, zero at the appended row. -/
def xpadAt (x : FVec Ideal S262144x128 .f32) (j : Fin 262145) (l : Fin 128) : Ideal .f32 :=
  if h : j.val < 262144 then x (ix2 ⟨j.val, h⟩ l) else 0

/-- The row of the padded array that neighbour `k` of pooled row `r` names: the index word read signed, clamped to the
    padded array's rows. -/
def rowAt (p : IVec S65536x32 32) (r : Fin 65536) (k : Fin 32) : Fin 262145 :=
  ⟨min (p (ix2 r k)).toInt.toNat 262144, by omega⟩

/-- A word between 0 and 262144 (signed) names the row it spells, unsigned. -/
theorem rowAt_val (p : IVec S65536x32 32) (r : Fin 65536) (k : Fin 32)
    (h : 0 ≤ (p (ix2 r k)).toInt ∧ (p (ix2 r k)).toInt ≤ 262144) : (rowAt p r k).val = (p (ix2 r k)).toNat := by
  show min (p (ix2 r k)).toInt.toNat 262144 = _
  have e : (p (ix2 r k)).toInt = ((p (ix2 r k)).toNat : Int) := by
    rcases BitVec.toInt_eq_toNat_cond (p (ix2 r k)) with h'
    rw [h']; split
    · rfl
    · rename_i hn; rw [h'] at h; rw [if_neg hn] at h; omega
  rw [e, Int.toNat_natCast]
  rw [e] at h
  omega

/-- The reference's result: at (r, l) the running maximum over the 32 neighbours of row r of the padded feature array
    at the rows they name. -/
def refG (x : FVec Ideal S262144x128 .f32) (p : IVec S65536x32 32) : FVec Ideal S65536x128 .f32 :=
  fun i => Cert.PoolSpec.runMax (F := Ideal)
    (fun k => if h : k < 32 then xpadAt x (rowAt p ⟨(i 0).val, (i 0).isLt⟩ ⟨k, h⟩) ⟨(i 1).val, (i 1).isLt⟩ else Cert.PoolSpec.ninf) 32

theorem refG_apply (x : FVec Ideal S262144x128 .f32) (p : IVec S65536x32 32) (r : Fin 65536) (l : Fin 128) :
    refG x p (ix2 r l) = Cert.PoolSpec.runMax (F := Ideal)
      (fun k => if h : k < 32 then xpadAt x (rowAt p r ⟨k, h⟩) l else Cert.PoolSpec.ninf) 32 := rfl

/-! ## A maximum folded over the coordinates of an axis is the running maximum -/

/-- The fold of `max` from -inf over the n coordinates of an axis is the running maximum in their order. -/
theorem fold_max_eq_runMax (g : ℕ → Ideal .f32) : ∀ n : ℕ,
    (Finset.univ : Finset (Fin n)).fold (FloatOps.maximumf (F := Ideal)) (Cert.PoolSpec.ninf (F := Ideal)) (fun k => g k.val)
      = Cert.PoolSpec.runMax (F := Ideal) g n
  | 0 => by rw [Finset.univ_eq_empty, Finset.fold_empty]; rfl
  | n + 1 => by
    rw [Fin.univ_castSuccEmb, Finset.fold_cons, Finset.fold_map]
    show FloatOps.maximumf (g n) (Finset.fold _ _ (fun k : Fin n => g k.val) Finset.univ) = _
    rw [fold_max_eq_runMax g n]
    exact Std.Commutative.comm (op := FloatOps.maximumf (F := Ideal) (φ := .f32)) _ _

/-! ## The reference's stages read at an index -/

open Cert.ReferenceIdeal.Read

/-- No index word is negative, so the select that wraps negative indices is the identity. -/
theorem v7_apply (p : IVec S65536x32 32) (hp : ∀ idx, 0 ≤ (p idx).toInt ∧ (p idx).toInt ≤ 262144) (j : S65536x32.Idx) :
    val_main_v7 (F := Ideal) p j = p j := by
  rw [val_main_v7_apply, val_main_v4_apply, val_main_v3_apply, val_main_c_apply]
  have hc : IntOp.cmpi .slt (p j) 0#32 = 0#1 := by
    have h0 := (hp j).1
    unfold IntOp.cmpi
    have : (p j).slt 0#32 = false := by
      rw [BitVec.slt]; simp only [decide_eq_false_iff_not, not_lt]
      exact h0
    rw [this]; rfl
  rw [hc, select_zero]

/-- The start indices at (r, k, 0) are the index word at (r, k). -/
theorem v8_apply (p : IVec S65536x32 32) (hp : ∀ idx, 0 ≤ (p idx).toInt ∧ (p idx).toInt ≤ 262144) (r : Fin 65536) (k : Fin 32) :
    val_main_v8 (F := Ideal) p (ix3 r k 0) = p (ix2 r k) := by
  rw [val_main_v8_apply, v7_apply p hp]
  congr 1
  funext a
  match a with
  | ⟨0, _⟩ => rfl
  | ⟨1, _⟩ => rfl

/-- The padded feature array at (j, l). -/
theorem v2_apply (x : FVec Ideal S262144x128 .f32) (j : Fin 262145) (l : Fin 128) :
    val_main_v2 (F := Ideal) x (ix2 j l) = xpadAt x j l := by
  unfold val_main_v2 xpadAt
  by_cases h : j.val < 262144
  · rw [dif_pos h]
    exact concatenate_pair_apply_left (s₁ := S262144x128) (s₂ := S1x128) (0 : Fin S262145x128.rank) _ _ _ (ix2 j l) rfl (ix2 (⟨j.val, h⟩ : Fin 262144) l : S262144x128.Idx) (fun b => by
      match b with
      | ⟨0, _⟩ => rfl
      | ⟨1, _⟩ => rfl)
  · rw [dif_neg h]
    have hj : j.val = 262144 := by have := j.isLt; omega
    refine (concatenate_pair_apply_right (s₁ := S262144x128) (s₂ := S1x128) (0 : Fin S262145x128.rank) _ _ _ (ix2 j l) rfl rfl (ix2 (0 : Fin 1) l : S1x128.Idx) (fun b hb => by
      match b with
      | ⟨0, _⟩ => exact absurd rfl hb
      | ⟨1, _⟩ => rfl) (by show 0 + 262144 = j.val; omega)).trans ?_
    rw [val_main_v1_apply, val_main_cst_apply]
    exact Ideal.ofBits_zero_f32

/-- The gathered rows at (r, k, l): the padded feature array at the row the start index names (read signed, clamped
    to the array's rows) and lane l. -/
theorem v9_apply (x : FVec Ideal S262144x128 .f32) (p : IVec S65536x32 32)
    (hp : ∀ idx, 0 ≤ (p idx).toInt ∧ (p idx).toInt ≤ 262144) (r : Fin 65536) (k : Fin 32) (l : Fin 128) :
    val_main_v9 (F := Ideal) x p (ix3 r k l) = xpadAt x (rowAt p r k) l := by
  rw [← v2_apply x (rowAt p r k) l]
  unfold val_main_v9 Host.gather
  congr 1
  funext a
  refine Fin.ext ?_
  show gather_S262145x128_S65536x32x1_S65536x32x128_2_0_n_n_0_2_1128.start (ix3 r k l) (val_main_v8 (F := Ideal) p) a
      + gather_S262145x128_S65536x32x1_S65536x32x128_2_0_n_n_0_2_1128.batchCoord (ix3 r k l) a
      + gather_S262145x128_S65536x32x1_S65536x32x128_2_0_n_n_0_2_1128.offCoord (ix3 r k l) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S262145x128_S65536x32x1_S65536x32x128_2_0_n_n_0_2_1128.startIndexMap from List.mem_singleton.mpr rfl)]
    have hsi : gather_S262145x128_S65536x32x1_S65536x32x128_2_0_n_n_0_2_1128.siIdx (ix3 r k l)
        ⟨List.idxOf (0 : Fin 2) gather_S262145x128_S65536x32x1_S65536x32x128_2_0_n_n_0_2_1128.startIndexMap,
          List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi, v8_apply p hp]
    rfl
  ·
    rw [GatherDims.start, dif_neg (by decide)]
    simp only [Nat.zero_add]
    unfold GatherDims.offCoord
    rw [dif_pos (by decide)]
    rfl

/-! ## The result -/

/-- The pooled index (r, l) with neighbour k put back on the reduced axis is (r, k, l). -/
theorem lift_ix (h : S65536x32x128.Reduces [1] S65536x128) (r : Fin 65536) (l : Fin 128) (k : Fin (S65536x32x128.size 1)) :
    h.lift (ix2 r l) k = ix3 r (⟨k.val, k.isLt⟩ : Fin 32) l := by
  funext c; apply Fin.ext
  fin_cases c <;> rfl

/-- The reference computes the pooled maximum: under the precondition on the index words its result is `refG`. -/
theorem ref_eq (x : FVec Ideal S262144x128 .f32) (p : IVec S65536x32 32)
    (hp : ∀ idx, 0 ≤ (p idx).toInt ∧ (p idx).toInt ≤ 262144) :
    val_main_v10 (F := Ideal) x p = refG x p := by
  funext j
  obtain ⟨r, l, rfl⟩ : ∃ r l, j = ix2 r l := ⟨j 0, j 1, eq_ix2 j⟩
  rw [refG_apply]
  unfold val_main_v10
  have hred : S65536x32x128.Reduces [1] S65536x128 := by decide
  rw [Host.reduce_eq_fold_single FloatOps.maximumf _ _ reducesTo_S65536x32x128_S65536x128_d1 hred h_S_]
  have hf : (val_main_v9 (F := Ideal) x p ∘ hred.lift (ix2 r l))
      = fun k : Fin 32 => (fun n : ℕ => if h : n < 32 then xpadAt x (rowAt p r ⟨n, h⟩) l else Cert.PoolSpec.ninf) k.val := by
    funext k
    show val_main_v9 (F := Ideal) x p (hred.lift (ix2 r l) k) = _
    rw [lift_ix, v9_apply x p hp]
    show _ = dite (k.val < 32) (fun h => xpadAt x (rowAt p r ⟨k.val, h⟩) l) (fun _ => Cert.PoolSpec.ninf)
    rw [dif_pos (show k.val < 32 from k.isLt)]
  rw [hf]
  exact fold_max_eq_runMax (fun n : ℕ => if h : n < 32 then xpadAt x (rowAt p r ⟨n, h⟩) l else Cert.PoolSpec.ninf) 32

/-- The same for the composed term the reference's run states for its result buffer. -/
theorem ref_run_eq (x : FVec Ideal S262144x128 .f32) (p : IVec S65536x32 32)
    (hp : ∀ idx, 0 ≤ (p idx).toInt ∧ (p idx).toInt ≤ 262144) :
    (Host.reduce FloatOps.maximumf (Host.gather gather_S262145x128_S65536x32x1_S65536x32x128_2_0_n_n_0_2_1128 (concatenate S262145x128 0 [⟨S262144x128, (x)⟩, ⟨S1x128, (broadcastInDim S1x128 ![] bcast_S_S1x128 (constant S_ .f32 0x00000000#32))⟩] concatenates_S262144x128_S1x128_S262145x128_d0) (broadcastInDim S65536x32x1 ![0, 1] bcast_S65536x32_S65536x32x1_0_1 (select (cmpi .slt (p) (broadcastInDim S65536x32 ![] bcast_S_S65536x32 (constantI S_ 32 0#32))) (addi (p) (broadcastInDim S65536x32 ![] bcast_S_S65536x32 (constantI S_ 32 262145#32))) (p)))) (constant S_ .f32 0xFF800000#32) reducesTo_S65536x32x128_S65536x128_d1 h_S_ : FVec Ideal S65536x128 .f32)
      = refG x p :=
  (val_main_v10_eq (F := Ideal) x p).trans (ref_eq x p hp)

end Cert.ReferenceIdeal.RefValue

end
-- ==== Proof.LibRunMax.lean ====
/- The running maximum depends only on the terms it folds: two sequences that agree below n have the same running
   maximum of their first n terms. -/
import proofs.«411409_j5669356831307_3_alg».proof.Proof.Spec

noncomputable section

namespace Cert.PoolSpec

open Idealize.ShloMosaic

variable {F : FTy → Type} [FloatOps F]

/-- One more term: the running maximum of n + 1 terms is the maximum of that of n terms and the next term. -/
theorem runMax_succ (g : ℕ → F .f32) (n : ℕ) : runMax g (n + 1) = FloatOps.maximumf (runMax g n) (g n) := rfl

/-- Sequences that agree below n have the same running maximum of their first n terms. -/
theorem runMax_congr (g g' : ℕ → F .f32) (n : ℕ) (h : ∀ k, k < n → g k = g' k) : runMax g n = runMax g' n := by
  induction n with
  | zero => rfl
  | succ n ih =>
    rw [runMax_succ, runMax_succ, ih fun k hk => h k (Nat.lt_succ_of_lt hk), h n (Nat.lt_succ_self n)]

end Cert.PoolSpec

end
-- ==== Proof.KI.R0.Link.lean ====
/- Region 0's table satisfies the pipeline's side condition: its words are pooling indices, which the precondition
   bounds by 262144, the last row of the padded feature array. -/
/- Region 0 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R0.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 0's table is one of the pooling indices, so at most 262144. -/
theorem tbl0_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl0 m 0 x : BitVec 32).toNat ≤ 262144 := by
  show (StableHlo.after hostOps0 (V0 m (0 : Dev nD)) (Proc.devRef .tc main_v5) x : BitVec 32).toNat ≤ 262144
  after_results
  exact slice_cast_all (fun w : BitVec 32 => w.toNat ≤ 262144) _ _ _ _ (fun k => Cert.PreDecode.toNat_le_of_toInt _ (hb k)) x

/-- The pipeline's side condition at region 0's table: the feature window's block, at the row the table names,
    lies inside the padded feature array (and a transfer of 32-bit elements moves whole words). -/
theorem okT0 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok0 (F := F) (tbl0 m) := by
  intro i
  exact ⟨block_inside _ _ (tbl0_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 0's proof data are what the region finds: the padded feature array and the (not yet
    written) output array hold at its entry what they held after the first host stretch. -/
theorem hA0 (c : Dev nD) (w : Fin 2) : (pdats m h 0 c).A w = Vin0 m (outsAll m h) c (Pipeline.arrRef spec0 w) :=
  match w with
  | ⟨0, _⟩ => (Vin0_v3 m (outsAll m h) c).symm
  | ⟨1, _⟩ => (Vin0_out m (outsAll m h) c).symm

/-- At the exit each array holds what the pipeline leaves. -/
theorem hF0 (c : Dev nD) (w : Fin 2) : (pdats m h 0 c).arrAt w (Pipeline.pin (pcfgs (F := F)) (admAll m h) 0).N = Vout0 m (outsAll m h) c (Pipeline.arrRef spec0 w) :=
  match w with
  | ⟨0, _⟩ => ((pdats m h 0 c).arrAt_in 0 rfl _).trans (Vout0_v3 m (outsAll m h) c).symm
  | ⟨1, _⟩ => ((Vout0_out m (outsAll m h) c).trans (outsAll_0 m h c)).symm

theorem hrest0 (c : Dev nD) : ∀ b, b ∉ Finset.univ.image (Pipeline.arrRef spec0) → Vout0 m (outsAll m h) c b = Vin0 m (outsAll m h) c b :=
  fun b hb => Vout0_of m (outsAll m h) c b (fun hm => hb (by
    rw [List.mem_singleton] at hm; subst hm
    exact Finset.mem_image.mpr ⟨1, Finset.mem_univ _, rfl⟩))

set_option backward.isDefEq.respectTransparency.types false in
def reg0 : Pipeline.RegionSeg (pcfgs (F := F)) (admAll m h) (pdats m h) () defs₀ 𝒱₀ L lv 0 where
  win := winFacts0.to₀
  block_pos := block_pos0
  stage_whole := stage_whole0
  K := PEmpty
  osem k := k.elim
  ho := Pipeline.OwnSemFacts.none _
  hbody c := (Rg0.body_obligation (Vent m) (tbl0 m) h.h0 c).loose
  hwaits := Pipeline.hwaits_of_owed_zero _ _ _ _ L lv 0 fun _ _ => rfl
  pre c := iprop(StableHlo.held (c : Thread nD τ) (Pipeline.ucRefs τ sig) (Vin0 m (outsAll m h) c) ∗ Rst c)
  post c := iprop(StableHlo.held (c : Thread nD τ) (Pipeline.ucRefs τ sig) (Vout0 m (outsAll m h) c) ∗ Rst c)
  X c := iprop(∃ r, prngReg c r)
  Y c := iprop((∃ r, prngReg c r) ∗ Pipeline.prefHeld pre0 c (fun _ => fullShare) (tbl0 m))
  Z c := Pipeline.unscopedRestP (Ix := Unit) (Name := ℕ) (U := UR sig nD τ) (Lvl := ℕ) pre0 spec0 c (fun b => Vin0 m (outsAll m h) c b)
  hentry c := by
    rw [Pipeline.ownSems0_none]
    have hsplit0 := Pipeline.arrays_of_unscopedBufs (p := 0) (pcfgs (F := F)) (admAll m h) (pdats m h) winFacts0 arr_whole0 c
      ((pdats m h 0 c).share_full fun _ => rfl) (fun b => Vin0 m (outsAll m h) c b) (hA0 m h c)
    rw [Pipeline.unscopedBufs_held] at hsplit0
    have hsplit : (StableHlo.held (c : Thread nD τ) (Pipeline.ucRefs τ sig) (Vin0 m (outsAll m h) c) : sProp 𝕄)
        ⊢ iprop((pdats m h 0 c).arrays ((pdats m h 0 c).arrAt · 0) ∗ Pipeline.unscopedRest spec0 c (fun b => Vin0 m (outsAll m h) c b)) := hsplit0
    rw [Pipeline.unscopedRest_split preFacts0 c,
      show (fun k => Vin0 m (outsAll m h) c (pre0.ref k)) = tbl0 m from funext fun k => Vin0_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 0 c).Φ 0 = iprop(Pipeline.ΦA spec0 c ∗ Pipeline.prefHeld pre0 c (fun _ => fullShare) (tbl0 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 0 c).Φ (Fin.last _) = iprop(Pipeline.ΦA spec0 c ∗ Pipeline.prefHeld pre0 c (fun _ => fullShare) (tbl0 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 0) (pcfgs (F := F)) (admAll m h) (Ix := Unit) (Name := ℕ) (U := UR sig nD τ) (Lvl := ℕ)
      winFacts0 arr_whole0 c (pdats m h) ((pdats m h 0 c).share_full fun _ => rfl)
      (fun b => Vin0 m (outsAll m h) c b) (fun b => Vout0 m (outsAll m h) c b) ((pdats m h 0 c).arrAt · (Pipeline.pin (pcfgs (F := F)) (admAll m h) 0).N) (hF0 m h c) (hrest0 m h c)
    rw [Pipeline.unscopedBufs_held] at hjoin0
    have hjoin : (iprop((pdats m h 0 c).arrays ((pdats m h 0 c).arrAt · (Pipeline.pin (pcfgs (F := F)) (admAll m h) 0).N) ∗ Pipeline.unscopedRest spec0 c (fun b => Vin0 m (outsAll m h) c b)) : sProp 𝕄)
        ⊢ StableHlo.held (c : Thread nD τ) (Pipeline.ucRefs τ sig) (Vout0 m (outsAll m h) c) := hjoin0
    rw [Pipeline.unscopedRest_split preFacts0 c,
      show (fun k => Vin0 m (outsAll m h) c (pre0.ref k)) = tbl0 m from funext fun k => Vin0_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl0_word (i : Fin 2048) (k : Fin 32) :
    (tbl0 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 0 + i.val, by have := i.isLt; omega⟩ k) := by
  show (StableHlo.after hostOps0 (V0 m (0 : Dev nD)) (Proc.devRef .tc main_v5) : IVec S65536 32) _ = _
  after_results
  refine (flatten_rows_apply _ _ i k _).trans ?_
  exact slice_rows_apply _ _ _ (2048 * 0) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge0_core (m : (ℓ : Loc nD τ sig) → Buf (Elt Ideal) ℓ) (pf : pre0.Contents (Elt Ideal)) (hO : ok0 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 0 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg0.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 0 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg0.tabRow pf hO i ⟨k, hk⟩) l).trans ?_
  show Cert.ReferenceIdeal.RefValue.xpadAt _ (Rg0.tabRow pf hO i ⟨k, hk⟩) l = _
  refine congrArg (fun j => Cert.ReferenceIdeal.RefValue.xpadAt _ j l) (Fin.ext ?_)
  rw [Rg0.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge0 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 0 + 2) main_v6 c (ValueIdx.ix3 i 0 l)
      = Cert.ReferenceIdeal.RefValue.refG (m ((c.tc : Thread nD τ).loc main_arg0)) (m ((c.tc : Thread nD τ).loc main_arg1))
          (ValueIdx.ix2 ⟨2048 * 0 + i.val, by have := i.isLt; omega⟩ l) := by
  obtain rfl : c = 0 := Subsingleton.elim _ _
  refine (congrFun (outsAll_0 m h (0 : Dev nD)) _).trans ?_
  refine (congrFun (Rg0.out_eq (Vent m) (tbl0 m) h.h0 (0 : Dev nD)) _).trans ?_
  exact bridge0_core m (tbl0 m) h.h0 (tbl0_word m) hp i l

end
end Cert.KernelIdeal.Hand

end
-- ==== Proof.KI.R1.Link.lean ====
/- Region 1's table satisfies the pipeline's side condition: its words are pooling indices, which the precondition
   bounds by 262144, the last row of the padded feature array. -/
/- Region 1 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R1.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 1's table is one of the pooling indices, so at most 262144. -/
theorem tbl1_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl1 m 0 x : BitVec 32).toNat ≤ 262144 := by
  show (StableHlo.after hostOps1 (V0 m (0 : Dev nD)) (Proc.devRef .tc main_v9) x : BitVec 32).toNat ≤ 262144
  after_results
  exact slice_cast_all (fun w : BitVec 32 => w.toNat ≤ 262144) _ _ _ _ (fun k => Cert.PreDecode.toNat_le_of_toInt _ (hb k)) x

/-- The pipeline's side condition at region 1's table: the feature window's block, at the row the table names,
    lies inside the padded feature array (and a transfer of 32-bit elements moves whole words). -/
theorem okT1 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok1 (F := F) (tbl1 m) := by
  intro i
  exact ⟨block_inside _ _ (tbl1_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 1's proof data are what the region finds: the padded feature array and the (not yet
    written) output array hold at its entry what they held after the first host stretch. -/
theorem hA1 (c : Dev nD) (w : Fin 2) : (pdats m h 1 c).A w = Vin1 m (outsAll m h) c (Pipeline.arrRef spec1 w) :=
  match w with
  | ⟨0, _⟩ => (Vin1_v3 m (outsAll m h) c).symm
  | ⟨1, _⟩ => (Vin1_out m (outsAll m h) c).symm

/-- At the exit each array holds what the pipeline leaves. -/
theorem hF1 (c : Dev nD) (w : Fin 2) : (pdats m h 1 c).arrAt w (Pipeline.pin (pcfgs (F := F)) (admAll m h) 1).N = Vout1 m (outsAll m h) c (Pipeline.arrRef spec1 w) :=
  match w with
  | ⟨0, _⟩ => ((pdats m h 1 c).arrAt_in 0 rfl _).trans (Vout1_v3 m (outsAll m h) c).symm
  | ⟨1, _⟩ => ((Vout1_out m (outsAll m h) c).trans (outsAll_1 m h c)).symm

theorem hrest1 (c : Dev nD) : ∀ b, b ∉ Finset.univ.image (Pipeline.arrRef spec1) → Vout1 m (outsAll m h) c b = Vin1 m (outsAll m h) c b :=
  fun b hb => Vout1_of m (outsAll m h) c b (fun hm => hb (by
    rw [List.mem_singleton] at hm; subst hm
    exact Finset.mem_image.mpr ⟨1, Finset.mem_univ _, rfl⟩))

set_option backward.isDefEq.respectTransparency.types false in
def reg1 : Pipeline.RegionSeg (pcfgs (F := F)) (admAll m h) (pdats m h) () defs₀ 𝒱₀ L lv 1 where
  win := winFacts1.to₀
  block_pos := block_pos1
  stage_whole := stage_whole1
  K := PEmpty
  osem k := k.elim
  ho := Pipeline.OwnSemFacts.none _
  hbody c := (Rg1.body_obligation (Vent m) (tbl1 m) h.h1 c).loose
  hwaits := Pipeline.hwaits_of_owed_zero _ _ _ _ L lv 1 fun _ _ => rfl
  pre c := iprop(StableHlo.held (c : Thread nD τ) (Pipeline.ucRefs τ sig) (Vin1 m (outsAll m h) c) ∗ Rst c)
  post c := iprop(StableHlo.held (c : Thread nD τ) (Pipeline.ucRefs τ sig) (Vout1 m (outsAll m h) c) ∗ Rst c)
  X c := iprop(∃ r, prngReg c r)
  Y c := iprop((∃ r, prngReg c r) ∗ Pipeline.prefHeld pre1 c (fun _ => fullShare) (tbl1 m))
  Z c := Pipeline.unscopedRestP (Ix := Unit) (Name := ℕ) (U := UR sig nD τ) (Lvl := ℕ) pre1 spec1 c (fun b => Vin1 m (outsAll m h) c b)
  hentry c := by
    rw [Pipeline.ownSems0_none]
    have hsplit0 := Pipeline.arrays_of_unscopedBufs (p := 1) (pcfgs (F := F)) (admAll m h) (pdats m h) winFacts1 arr_whole1 c
      ((pdats m h 1 c).share_full fun _ => rfl) (fun b => Vin1 m (outsAll m h) c b) (hA1 m h c)
    rw [Pipeline.unscopedBufs_held] at hsplit0
    have hsplit : (StableHlo.held (c : Thread nD τ) (Pipeline.ucRefs τ sig) (Vin1 m (outsAll m h) c) : sProp 𝕄)
        ⊢ iprop((pdats m h 1 c).arrays ((pdats m h 1 c).arrAt · 0) ∗ Pipeline.unscopedRest spec1 c (fun b => Vin1 m (outsAll m h) c b)) := hsplit0
    rw [Pipeline.unscopedRest_split preFacts1 c,
      show (fun k => Vin1 m (outsAll m h) c (pre1.ref k)) = tbl1 m from funext fun k => Vin1_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 1 c).Φ 0 = iprop(Pipeline.ΦA spec1 c ∗ Pipeline.prefHeld pre1 c (fun _ => fullShare) (tbl1 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 1 c).Φ (Fin.last _) = iprop(Pipeline.ΦA spec1 c ∗ Pipeline.prefHeld pre1 c (fun _ => fullShare) (tbl1 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 1) (pcfgs (F := F)) (admAll m h) (Ix := Unit) (Name := ℕ) (U := UR sig nD τ) (Lvl := ℕ)
      winFacts1 arr_whole1 c (pdats m h) ((pdats m h 1 c).share_full fun _ => rfl)
      (fun b => Vin1 m (outsAll m h) c b) (fun b => Vout1 m (outsAll m h) c b) ((pdats m h 1 c).arrAt · (Pipeline.pin (pcfgs (F := F)) (admAll m h) 1).N) (hF1 m h c) (hrest1 m h c)
    rw [Pipeline.unscopedBufs_held] at hjoin0
    have hjoin : (iprop((pdats m h 1 c).arrays ((pdats m h 1 c).arrAt · (Pipeline.pin (pcfgs (F := F)) (admAll m h) 1).N) ∗ Pipeline.unscopedRest spec1 c (fun b => Vin1 m (outsAll m h) c b)) : sProp 𝕄)
        ⊢ StableHlo.held (c : Thread nD τ) (Pipeline.ucRefs τ sig) (Vout1 m (outsAll m h) c) := hjoin0
    rw [Pipeline.unscopedRest_split preFacts1 c,
      show (fun k => Vin1 m (outsAll m h) c (pre1.ref k)) = tbl1 m from funext fun k => Vin1_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl1_word (i : Fin 2048) (k : Fin 32) :
    (tbl1 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 1 + i.val, by have := i.isLt; omega⟩ k) := by
  show (StableHlo.after hostOps1 (V0 m (0 : Dev nD)) (Proc.devRef .tc main_v9) : IVec S65536 32) _ = _
  after_results
  refine (flatten_rows_apply _ _ i k _).trans ?_
  exact slice_rows_apply _ _ _ (2048 * 1) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge1_core (m : (ℓ : Loc nD τ sig) → Buf (Elt Ideal) ℓ) (pf : pre1.Contents (Elt Ideal)) (hO : ok1 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 1 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg1.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 1 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg1.tabRow pf hO i ⟨k, hk⟩) l).trans ?_
  show Cert.ReferenceIdeal.RefValue.xpadAt _ (Rg1.tabRow pf hO i ⟨k, hk⟩) l = _
  refine congrArg (fun j => Cert.ReferenceIdeal.RefValue.xpadAt _ j l) (Fin.ext ?_)
  rw [Rg1.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge1 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 1 + 2) main_v10 c (ValueIdx.ix3 i 0 l)
      = Cert.ReferenceIdeal.RefValue.refG (m ((c.tc : Thread nD τ).loc main_arg0)) (m ((c.tc : Thread nD τ).loc main_arg1))
          (ValueIdx.ix2 ⟨2048 * 1 + i.val, by have := i.isLt; omega⟩ l) := by
  obtain rfl : c = 0 := Subsingleton.elim _ _
  refine (congrFun (outsAll_1 m h (0 : Dev nD)) _).trans ?_
  refine (congrFun (Rg1.out_eq (Vent m) (tbl1 m) h.h1 (0 : Dev nD)) _).trans ?_
  exact bridge1_core m (tbl1 m) h.h1 (tbl1_word m) hp i l

end
end Cert.KernelIdeal.Hand

end
-- ==== Proof.KI.R2.Link.lean ====
/- Region 2's table satisfies the pipeline's side condition: its words are pooling indices, which the precondition
   bounds by 262144, the last row of the padded feature array. -/
/- Region 2 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R2.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 2's table is one of the pooling indices, so at most 262144. -/
theorem tbl2_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl2 m 0 x : BitVec 32).toNat ≤ 262144 := by
  show (StableHlo.after hostOps2 (V0 m (0 : Dev nD)) (Proc.devRef .tc main_v13) x : BitVec 32).toNat ≤ 262144
  after_results
  exact slice_cast_all (fun w : BitVec 32 => w.toNat ≤ 262144) _ _ _ _ (fun k => Cert.PreDecode.toNat_le_of_toInt _ (hb k)) x

/-- The pipeline's side condition at region 2's table: the feature window's block, at the row the table names,
    lies inside the padded feature array (and a transfer of 32-bit elements moves whole words). -/
theorem okT2 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok2 (F := F) (tbl2 m) := by
  intro i
  exact ⟨block_inside _ _ (tbl2_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 2's proof data are what the region finds: the padded feature array and the (not yet
    written) output array hold at its entry what they held after the first host stretch. -/
theorem hA2 (c : Dev nD) (w : Fin 2) : (pdats m h 2 c).A w = Vin2 m (outsAll m h) c (Pipeline.arrRef spec2 w) :=
  match w with
  | ⟨0, _⟩ => (Vin2_v3 m (outsAll m h) c).symm
  | ⟨1, _⟩ => (Vin2_out m (outsAll m h) c).symm

/-- At the exit each array holds what the pipeline leaves. -/
theorem hF2 (c : Dev nD) (w : Fin 2) : (pdats m h 2 c).arrAt w (Pipeline.pin (pcfgs (F := F)) (admAll m h) 2).N = Vout2 m (outsAll m h) c (Pipeline.arrRef spec2 w) :=
  match w with
  | ⟨0, _⟩ => ((pdats m h 2 c).arrAt_in 0 rfl _).trans (Vout2_v3 m (outsAll m h) c).symm
  | ⟨1, _⟩ => ((Vout2_out m (outsAll m h) c).trans (outsAll_2 m h c)).symm

theorem hrest2 (c : Dev nD) : ∀ b, b ∉ Finset.univ.image (Pipeline.arrRef spec2) → Vout2 m (outsAll m h) c b = Vin2 m (outsAll m h) c b :=
  fun b hb => Vout2_of m (outsAll m h) c b (fun hm => hb (by
    rw [List.mem_singleton] at hm; subst hm
    exact Finset.mem_image.mpr ⟨1, Finset.mem_univ _, rfl⟩))

set_option backward.isDefEq.respectTransparency.types false in
def reg2 : Pipeline.RegionSeg (pcfgs (F := F)) (admAll m h) (pdats m h) () defs₀ 𝒱₀ L lv 2 where
  win := winFacts2.to₀
  block_pos := block_pos2
  stage_whole := stage_whole2
  K := PEmpty
  osem k := k.elim
  ho := Pipeline.OwnSemFacts.none _
  hbody c := (Rg2.body_obligation (Vent m) (tbl2 m) h.h2 c).loose
  hwaits := Pipeline.hwaits_of_owed_zero _ _ _ _ L lv 2 fun _ _ => rfl
  pre c := iprop(StableHlo.held (c : Thread nD τ) (Pipeline.ucRefs τ sig) (Vin2 m (outsAll m h) c) ∗ Rst c)
  post c := iprop(StableHlo.held (c : Thread nD τ) (Pipeline.ucRefs τ sig) (Vout2 m (outsAll m h) c) ∗ Rst c)
  X c := iprop(∃ r, prngReg c r)
  Y c := iprop((∃ r, prngReg c r) ∗ Pipeline.prefHeld pre2 c (fun _ => fullShare) (tbl2 m))
  Z c := Pipeline.unscopedRestP (Ix := Unit) (Name := ℕ) (U := UR sig nD τ) (Lvl := ℕ) pre2 spec2 c (fun b => Vin2 m (outsAll m h) c b)
  hentry c := by
    rw [Pipeline.ownSems0_none]
    have hsplit0 := Pipeline.arrays_of_unscopedBufs (p := 2) (pcfgs (F := F)) (admAll m h) (pdats m h) winFacts2 arr_whole2 c
      ((pdats m h 2 c).share_full fun _ => rfl) (fun b => Vin2 m (outsAll m h) c b) (hA2 m h c)
    rw [Pipeline.unscopedBufs_held] at hsplit0
    have hsplit : (StableHlo.held (c : Thread nD τ) (Pipeline.ucRefs τ sig) (Vin2 m (outsAll m h) c) : sProp 𝕄)
        ⊢ iprop((pdats m h 2 c).arrays ((pdats m h 2 c).arrAt · 0) ∗ Pipeline.unscopedRest spec2 c (fun b => Vin2 m (outsAll m h) c b)) := hsplit0
    rw [Pipeline.unscopedRest_split preFacts2 c,
      show (fun k => Vin2 m (outsAll m h) c (pre2.ref k)) = tbl2 m from funext fun k => Vin2_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 2 c).Φ 0 = iprop(Pipeline.ΦA spec2 c ∗ Pipeline.prefHeld pre2 c (fun _ => fullShare) (tbl2 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 2 c).Φ (Fin.last _) = iprop(Pipeline.ΦA spec2 c ∗ Pipeline.prefHeld pre2 c (fun _ => fullShare) (tbl2 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 2) (pcfgs (F := F)) (admAll m h) (Ix := Unit) (Name := ℕ) (U := UR sig nD τ) (Lvl := ℕ)
      winFacts2 arr_whole2 c (pdats m h) ((pdats m h 2 c).share_full fun _ => rfl)
      (fun b => Vin2 m (outsAll m h) c b) (fun b => Vout2 m (outsAll m h) c b) ((pdats m h 2 c).arrAt · (Pipeline.pin (pcfgs (F := F)) (admAll m h) 2).N) (hF2 m h c) (hrest2 m h c)
    rw [Pipeline.unscopedBufs_held] at hjoin0
    have hjoin : (iprop((pdats m h 2 c).arrays ((pdats m h 2 c).arrAt · (Pipeline.pin (pcfgs (F := F)) (admAll m h) 2).N) ∗ Pipeline.unscopedRest spec2 c (fun b => Vin2 m (outsAll m h) c b)) : sProp 𝕄)
        ⊢ StableHlo.held (c : Thread nD τ) (Pipeline.ucRefs τ sig) (Vout2 m (outsAll m h) c) := hjoin0
    rw [Pipeline.unscopedRest_split preFacts2 c,
      show (fun k => Vin2 m (outsAll m h) c (pre2.ref k)) = tbl2 m from funext fun k => Vin2_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl2_word (i : Fin 2048) (k : Fin 32) :
    (tbl2 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 2 + i.val, by have := i.isLt; omega⟩ k) := by
  show (StableHlo.after hostOps2 (V0 m (0 : Dev nD)) (Proc.devRef .tc main_v13) : IVec S65536 32) _ = _
  after_results
  refine (flatten_rows_apply _ _ i k _).trans ?_
  exact slice_rows_apply _ _ _ (2048 * 2) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge2_core (m : (ℓ : Loc nD τ sig) → Buf (Elt Ideal) ℓ) (pf : pre2.Contents (Elt Ideal)) (hO : ok2 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 2 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg2.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 2 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg2.tabRow pf hO i ⟨k, hk⟩) l).trans ?_
  show Cert.ReferenceIdeal.RefValue.xpadAt _ (Rg2.tabRow pf hO i ⟨k, hk⟩) l = _
  refine congrArg (fun j => Cert.ReferenceIdeal.RefValue.xpadAt _ j l) (Fin.ext ?_)
  rw [Rg2.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge2 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 2 + 2) main_v14 c (ValueIdx.ix3 i 0 l)
      = Cert.ReferenceIdeal.RefValue.refG (m ((c.tc : Thread nD τ).loc main_arg0)) (m ((c.tc : Thread nD τ).loc main_arg1))
          (ValueIdx.ix2 ⟨2048 * 2 + i.val, by have := i.isLt; omega⟩ l) := by
  obtain rfl : c = 0 := Subsingleton.elim _ _
  refine (congrFun (outsAll_2 m h (0 : Dev nD)) _).trans ?_
  refine (congrFun (Rg2.out_eq (Vent m) (tbl2 m) h.h2 (0 : Dev nD)) _).trans ?_
  exact bridge2_core m (tbl2 m) h.h2 (tbl2_word m) hp i l

end
end Cert.KernelIdeal.Hand

end
-- ==== Proof.KI.R3.Link.lean ====
/- Region 3's table satisfies the pipeline's side condition: its words are pooling indices, which the precondition
   bounds by 262144, the last row of the padded feature array. -/
/- Region 3 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R3.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 3's table is one of the pooling indices, so at most 262144. -/
theorem tbl3_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl3 m 0 x : BitVec 32).toNat ≤ 262144 := by
  show (StableHlo.after hostOps3 (V0 m (0 : Dev nD)) (Proc.devRef .tc main_v17) x : BitVec 32).toNat ≤ 262144
  after_results
  exact slice_cast_all (fun w : BitVec 32 => w.toNat ≤ 262144) _ _ _ _ (fun k => Cert.PreDecode.toNat_le_of_toInt _ (hb k)) x

/-- The pipeline's side condition at region 3's table: the feature window's block, at the row the table names,
    lies inside the padded feature array (and a transfer of 32-bit elements moves whole words). -/
theorem okT3 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok3 (F := F) (tbl3 m) := by
  intro i
  exact ⟨block_inside _ _ (tbl3_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 3's proof data are what the region finds: the padded feature array and the (not yet
    written) output array hold at its entry what they held after the first host stretch. -/
theorem hA3 (c : Dev nD) (w : Fin 2) : (pdats m h 3 c).A w = Vin3 m (outsAll m h) c (Pipeline.arrRef spec3 w) :=
  match w with
  | ⟨0, _⟩ => (Vin3_v3 m (outsAll m h) c).symm
  | ⟨1, _⟩ => (Vin3_out m (outsAll m h) c).symm

/-- At the exit each array holds what the pipeline leaves. -/
theorem hF3 (c : Dev nD) (w : Fin 2) : (pdats m h 3 c).arrAt w (Pipeline.pin (pcfgs (F := F)) (admAll m h) 3).N = Vout3 m (outsAll m h) c (Pipeline.arrRef spec3 w) :=
  match w with
  | ⟨0, _⟩ => ((pdats m h 3 c).arrAt_in 0 rfl _).trans (Vout3_v3 m (outsAll m h) c).symm
  | ⟨1, _⟩ => ((Vout3_out m (outsAll m h) c).trans (outsAll_3 m h c)).symm

theorem hrest3 (c : Dev nD) : ∀ b, b ∉ Finset.univ.image (Pipeline.arrRef spec3) → Vout3 m (outsAll m h) c b = Vin3 m (outsAll m h) c b :=
  fun b hb => Vout3_of m (outsAll m h) c b (fun hm => hb (by
    rw [List.mem_singleton] at hm; subst hm
    exact Finset.mem_image.mpr ⟨1, Finset.mem_univ _, rfl⟩))

set_option backward.isDefEq.respectTransparency.types false in
def reg3 : Pipeline.RegionSeg (pcfgs (F := F)) (admAll m h) (pdats m h) () defs₀ 𝒱₀ L lv 3 where
  win := winFacts3.to₀
  block_pos := block_pos3
  stage_whole := stage_whole3
  K := PEmpty
  osem k := k.elim
  ho := Pipeline.OwnSemFacts.none _
  hbody c := (Rg3.body_obligation (Vent m) (tbl3 m) h.h3 c).loose
  hwaits := Pipeline.hwaits_of_owed_zero _ _ _ _ L lv 3 fun _ _ => rfl
  pre c := iprop(StableHlo.held (c : Thread nD τ) (Pipeline.ucRefs τ sig) (Vin3 m (outsAll m h) c) ∗ Rst c)
  post c := iprop(StableHlo.held (c : Thread nD τ) (Pipeline.ucRefs τ sig) (Vout3 m (outsAll m h) c) ∗ Rst c)
  X c := iprop(∃ r, prngReg c r)
  Y c := iprop((∃ r, prngReg c r) ∗ Pipeline.prefHeld pre3 c (fun _ => fullShare) (tbl3 m))
  Z c := Pipeline.unscopedRestP (Ix := Unit) (Name := ℕ) (U := UR sig nD τ) (Lvl := ℕ) pre3 spec3 c (fun b => Vin3 m (outsAll m h) c b)
  hentry c := by
    rw [Pipeline.ownSems0_none]
    have hsplit0 := Pipeline.arrays_of_unscopedBufs (p := 3) (pcfgs (F := F)) (admAll m h) (pdats m h) winFacts3 arr_whole3 c
      ((pdats m h 3 c).share_full fun _ => rfl) (fun b => Vin3 m (outsAll m h) c b) (hA3 m h c)
    rw [Pipeline.unscopedBufs_held] at hsplit0
    have hsplit : (StableHlo.held (c : Thread nD τ) (Pipeline.ucRefs τ sig) (Vin3 m (outsAll m h) c) : sProp 𝕄)
        ⊢ iprop((pdats m h 3 c).arrays ((pdats m h 3 c).arrAt · 0) ∗ Pipeline.unscopedRest spec3 c (fun b => Vin3 m (outsAll m h) c b)) := hsplit0
    rw [Pipeline.unscopedRest_split preFacts3 c,
      show (fun k => Vin3 m (outsAll m h) c (pre3.ref k)) = tbl3 m from funext fun k => Vin3_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 3 c).Φ 0 = iprop(Pipeline.ΦA spec3 c ∗ Pipeline.prefHeld pre3 c (fun _ => fullShare) (tbl3 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 3 c).Φ (Fin.last _) = iprop(Pipeline.ΦA spec3 c ∗ Pipeline.prefHeld pre3 c (fun _ => fullShare) (tbl3 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 3) (pcfgs (F := F)) (admAll m h) (Ix := Unit) (Name := ℕ) (U := UR sig nD τ) (Lvl := ℕ)
      winFacts3 arr_whole3 c (pdats m h) ((pdats m h 3 c).share_full fun _ => rfl)
      (fun b => Vin3 m (outsAll m h) c b) (fun b => Vout3 m (outsAll m h) c b) ((pdats m h 3 c).arrAt · (Pipeline.pin (pcfgs (F := F)) (admAll m h) 3).N) (hF3 m h c) (hrest3 m h c)
    rw [Pipeline.unscopedBufs_held] at hjoin0
    have hjoin : (iprop((pdats m h 3 c).arrays ((pdats m h 3 c).arrAt · (Pipeline.pin (pcfgs (F := F)) (admAll m h) 3).N) ∗ Pipeline.unscopedRest spec3 c (fun b => Vin3 m (outsAll m h) c b)) : sProp 𝕄)
        ⊢ StableHlo.held (c : Thread nD τ) (Pipeline.ucRefs τ sig) (Vout3 m (outsAll m h) c) := hjoin0
    rw [Pipeline.unscopedRest_split preFacts3 c,
      show (fun k => Vin3 m (outsAll m h) c (pre3.ref k)) = tbl3 m from funext fun k => Vin3_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl3_word (i : Fin 2048) (k : Fin 32) :
    (tbl3 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 3 + i.val, by have := i.isLt; omega⟩ k) := by
  show (StableHlo.after hostOps3 (V0 m (0 : Dev nD)) (Proc.devRef .tc main_v17) : IVec S65536 32) _ = _
  after_results
  refine (flatten_rows_apply _ _ i k _).trans ?_
  exact slice_rows_apply _ _ _ (2048 * 3) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge3_core (m : (ℓ : Loc nD τ sig) → Buf (Elt Ideal) ℓ) (pf : pre3.Contents (Elt Ideal)) (hO : ok3 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 3 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg3.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 3 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg3.tabRow pf hO i ⟨k, hk⟩) l).trans ?_
  show Cert.ReferenceIdeal.RefValue.xpadAt _ (Rg3.tabRow pf hO i ⟨k, hk⟩) l = _
  refine congrArg (fun j => Cert.ReferenceIdeal.RefValue.xpadAt _ j l) (Fin.ext ?_)
  rw [Rg3.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge3 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 3 + 2) main_v18 c (ValueIdx.ix3 i 0 l)
      = Cert.ReferenceIdeal.RefValue.refG (m ((c.tc : Thread nD τ).loc main_arg0)) (m ((c.tc : Thread nD τ).loc main_arg1))
          (ValueIdx.ix2 ⟨2048 * 3 + i.val, by have := i.isLt; omega⟩ l) := by
  obtain rfl : c = 0 := Subsingleton.elim _ _
  refine (congrFun (outsAll_3 m h (0 : Dev nD)) _).trans ?_
  refine (congrFun (Rg3.out_eq (Vent m) (tbl3 m) h.h3 (0 : Dev nD)) _).trans ?_
  exact bridge3_core m (tbl3 m) h.h3 (tbl3_word m) hp i l

end
end Cert.KernelIdeal.Hand

end
-- ==== Proof.KI.R4.Link.lean ====
/- Region 4's table satisfies the pipeline's side condition: its words are pooling indices, which the precondition
   bounds by 262144, the last row of the padded feature array. -/
/- Region 4 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R4.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 4's table is one of the pooling indices, so at most 262144. -/
theorem tbl4_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl4 m 0 x : BitVec 32).toNat ≤ 262144 := by
  show (StableHlo.after hostOps4 (V0 m (0 : Dev nD)) (Proc.devRef .tc main_v21) x : BitVec 32).toNat ≤ 262144
  after_results
  exact slice_cast_all (fun w : BitVec 32 => w.toNat ≤ 262144) _ _ _ _ (fun k => Cert.PreDecode.toNat_le_of_toInt _ (hb k)) x

/-- The pipeline's side condition at region 4's table: the feature window's block, at the row the table names,
    lies inside the padded feature array (and a transfer of 32-bit elements moves whole words). -/
theorem okT4 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok4 (F := F) (tbl4 m) := by
  intro i
  exact ⟨block_inside _ _ (tbl4_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 4's proof data are what the region finds: the padded feature array and the (not yet
    written) output array hold at its entry what they held after the first host stretch. -/
theorem hA4 (c : Dev nD) (w : Fin 2) : (pdats m h 4 c).A w = Vin4 m (outsAll m h) c (Pipeline.arrRef spec4 w) :=
  match w with
  | ⟨0, _⟩ => (Vin4_v3 m (outsAll m h) c).symm
  | ⟨1, _⟩ => (Vin4_out m (outsAll m h) c).symm

/-- At the exit each array holds what the pipeline leaves. -/
theorem hF4 (c : Dev nD) (w : Fin 2) : (pdats m h 4 c).arrAt w (Pipeline.pin (pcfgs (F := F)) (admAll m h) 4).N = Vout4 m (outsAll m h) c (Pipeline.arrRef spec4 w) :=
  match w with
  | ⟨0, _⟩ => ((pdats m h 4 c).arrAt_in 0 rfl _).trans (Vout4_v3 m (outsAll m h) c).symm
  | ⟨1, _⟩ => ((Vout4_out m (outsAll m h) c).trans (outsAll_4 m h c)).symm

theorem hrest4 (c : Dev nD) : ∀ b, b ∉ Finset.univ.image (Pipeline.arrRef spec4) → Vout4 m (outsAll m h) c b = Vin4 m (outsAll m h) c b :=
  fun b hb => Vout4_of m (outsAll m h) c b (fun hm => hb (by
    rw [List.mem_singleton] at hm; subst hm
    exact Finset.mem_image.mpr ⟨1, Finset.mem_univ _, rfl⟩))

set_option backward.isDefEq.respectTransparency.types false in
def reg4 : Pipeline.RegionSeg (pcfgs (F := F)) (admAll m h) (pdats m h) () defs₀ 𝒱₀ L lv 4 where
  win := winFacts4.to₀
  block_pos := block_pos4
  stage_whole := stage_whole4
  K := PEmpty
  osem k := k.elim
  ho := Pipeline.OwnSemFacts.none _
  hbody c := (Rg4.body_obligation (Vent m) (tbl4 m) h.h4 c).loose
  hwaits := Pipeline.hwaits_of_owed_zero _ _ _ _ L lv 4 fun _ _ => rfl
  pre c := iprop(StableHlo.held (c : Thread nD τ) (Pipeline.ucRefs τ sig) (Vin4 m (outsAll m h) c) ∗ Rst c)
  post c := iprop(StableHlo.held (c : Thread nD τ) (Pipeline.ucRefs τ sig) (Vout4 m (outsAll m h) c) ∗ Rst c)
  X c := iprop(∃ r, prngReg c r)
  Y c := iprop((∃ r, prngReg c r) ∗ Pipeline.prefHeld pre4 c (fun _ => fullShare) (tbl4 m))
  Z c := Pipeline.unscopedRestP (Ix := Unit) (Name := ℕ) (U := UR sig nD τ) (Lvl := ℕ) pre4 spec4 c (fun b => Vin4 m (outsAll m h) c b)
  hentry c := by
    rw [Pipeline.ownSems0_none]
    have hsplit0 := Pipeline.arrays_of_unscopedBufs (p := 4) (pcfgs (F := F)) (admAll m h) (pdats m h) winFacts4 arr_whole4 c
      ((pdats m h 4 c).share_full fun _ => rfl) (fun b => Vin4 m (outsAll m h) c b) (hA4 m h c)
    rw [Pipeline.unscopedBufs_held] at hsplit0
    have hsplit : (StableHlo.held (c : Thread nD τ) (Pipeline.ucRefs τ sig) (Vin4 m (outsAll m h) c) : sProp 𝕄)
        ⊢ iprop((pdats m h 4 c).arrays ((pdats m h 4 c).arrAt · 0) ∗ Pipeline.unscopedRest spec4 c (fun b => Vin4 m (outsAll m h) c b)) := hsplit0
    rw [Pipeline.unscopedRest_split preFacts4 c,
      show (fun k => Vin4 m (outsAll m h) c (pre4.ref k)) = tbl4 m from funext fun k => Vin4_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 4 c).Φ 0 = iprop(Pipeline.ΦA spec4 c ∗ Pipeline.prefHeld pre4 c (fun _ => fullShare) (tbl4 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 4 c).Φ (Fin.last _) = iprop(Pipeline.ΦA spec4 c ∗ Pipeline.prefHeld pre4 c (fun _ => fullShare) (tbl4 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 4) (pcfgs (F := F)) (admAll m h) (Ix := Unit) (Name := ℕ) (U := UR sig nD τ) (Lvl := ℕ)
      winFacts4 arr_whole4 c (pdats m h) ((pdats m h 4 c).share_full fun _ => rfl)
      (fun b => Vin4 m (outsAll m h) c b) (fun b => Vout4 m (outsAll m h) c b) ((pdats m h 4 c).arrAt · (Pipeline.pin (pcfgs (F := F)) (admAll m h) 4).N) (hF4 m h c) (hrest4 m h c)
    rw [Pipeline.unscopedBufs_held] at hjoin0
    have hjoin : (iprop((pdats m h 4 c).arrays ((pdats m h 4 c).arrAt · (Pipeline.pin (pcfgs (F := F)) (admAll m h) 4).N) ∗ Pipeline.unscopedRest spec4 c (fun b => Vin4 m (outsAll m h) c b)) : sProp 𝕄)
        ⊢ StableHlo.held (c : Thread nD τ) (Pipeline.ucRefs τ sig) (Vout4 m (outsAll m h) c) := hjoin0
    rw [Pipeline.unscopedRest_split preFacts4 c,
      show (fun k => Vin4 m (outsAll m h) c (pre4.ref k)) = tbl4 m from funext fun k => Vin4_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl4_word (i : Fin 2048) (k : Fin 32) :
    (tbl4 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 4 + i.val, by have := i.isLt; omega⟩ k) := by
  show (StableHlo.after hostOps4 (V0 m (0 : Dev nD)) (Proc.devRef .tc main_v21) : IVec S65536 32) _ = _
  after_results
  refine (flatten_rows_apply _ _ i k _).trans ?_
  exact slice_rows_apply _ _ _ (2048 * 4) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge4_core (m : (ℓ : Loc nD τ sig) → Buf (Elt Ideal) ℓ) (pf : pre4.Contents (Elt Ideal)) (hO : ok4 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 4 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg4.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 4 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg4.tabRow pf hO i ⟨k, hk⟩) l).trans ?_
  show Cert.ReferenceIdeal.RefValue.xpadAt _ (Rg4.tabRow pf hO i ⟨k, hk⟩) l = _
  refine congrArg (fun j => Cert.ReferenceIdeal.RefValue.xpadAt _ j l) (Fin.ext ?_)
  rw [Rg4.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge4 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 4 + 2) main_v22 c (ValueIdx.ix3 i 0 l)
      = Cert.ReferenceIdeal.RefValue.refG (m ((c.tc : Thread nD τ).loc main_arg0)) (m ((c.tc : Thread nD τ).loc main_arg1))
          (ValueIdx.ix2 ⟨2048 * 4 + i.val, by have := i.isLt; omega⟩ l) := by
  obtain rfl : c = 0 := Subsingleton.elim _ _
  refine (congrFun (outsAll_4 m h (0 : Dev nD)) _).trans ?_
  refine (congrFun (Rg4.out_eq (Vent m) (tbl4 m) h.h4 (0 : Dev nD)) _).trans ?_
  exact bridge4_core m (tbl4 m) h.h4 (tbl4_word m) hp i l

end
end Cert.KernelIdeal.Hand

end
-- ==== Proof.KI.R5.Link.lean ====
/- Region 5's table satisfies the pipeline's side condition: its words are pooling indices, which the precondition
   bounds by 262144, the last row of the padded feature array. -/
/- Region 5 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R5.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 5's table is one of the pooling indices, so at most 262144. -/
theorem tbl5_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl5 m 0 x : BitVec 32).toNat ≤ 262144 := by
  show (StableHlo.after hostOps5 (V0 m (0 : Dev nD)) (Proc.devRef .tc main_v25) x : BitVec 32).toNat ≤ 262144
  after_results
  exact slice_cast_all (fun w : BitVec 32 => w.toNat ≤ 262144) _ _ _ _ (fun k => Cert.PreDecode.toNat_le_of_toInt _ (hb k)) x

/-- The pipeline's side condition at region 5's table: the feature window's block, at the row the table names,
    lies inside the padded feature array (and a transfer of 32-bit elements moves whole words). -/
theorem okT5 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok5 (F := F) (tbl5 m) := by
  intro i
  exact ⟨block_inside _ _ (tbl5_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 5's proof data are what the region finds: the padded feature array and the (not yet
    written) output array hold at its entry what they held after the first host stretch. -/
theorem hA5 (c : Dev nD) (w : Fin 2) : (pdats m h 5 c).A w = Vin5 m (outsAll m h) c (Pipeline.arrRef spec5 w) :=
  match w with
  | ⟨0, _⟩ => (Vin5_v3 m (outsAll m h) c).symm
  | ⟨1, _⟩ => (Vin5_out m (outsAll m h) c).symm

/-- At the exit each array holds what the pipeline leaves. -/
theorem hF5 (c : Dev nD) (w : Fin 2) : (pdats m h 5 c).arrAt w (Pipeline.pin (pcfgs (F := F)) (admAll m h) 5).N = Vout5 m (outsAll m h) c (Pipeline.arrRef spec5 w) :=
  match w with
  | ⟨0, _⟩ => ((pdats m h 5 c).arrAt_in 0 rfl _).trans (Vout5_v3 m (outsAll m h) c).symm
  | ⟨1, _⟩ => ((Vout5_out m (outsAll m h) c).trans (outsAll_5 m h c)).symm

theorem hrest5 (c : Dev nD) : ∀ b, b ∉ Finset.univ.image (Pipeline.arrRef spec5) → Vout5 m (outsAll m h) c b = Vin5 m (outsAll m h) c b :=
  fun b hb => Vout5_of m (outsAll m h) c b (fun hm => hb (by
    rw [List.mem_singleton] at hm; subst hm
    exact Finset.mem_image.mpr ⟨1, Finset.mem_univ _, rfl⟩))

set_option backward.isDefEq.respectTransparency.types false in
def reg5 : Pipeline.RegionSeg (pcfgs (F := F)) (admAll m h) (pdats m h) () defs₀ 𝒱₀ L lv 5 where
  win := winFacts5.to₀
  block_pos := block_pos5
  stage_whole := stage_whole5
  K := PEmpty
  osem k := k.elim
  ho := Pipeline.OwnSemFacts.none _
  hbody c := (Rg5.body_obligation (Vent m) (tbl5 m) h.h5 c).loose
  hwaits := Pipeline.hwaits_of_owed_zero _ _ _ _ L lv 5 fun _ _ => rfl
  pre c := iprop(StableHlo.held (c : Thread nD τ) (Pipeline.ucRefs τ sig) (Vin5 m (outsAll m h) c) ∗ Rst c)
  post c := iprop(StableHlo.held (c : Thread nD τ) (Pipeline.ucRefs τ sig) (Vout5 m (outsAll m h) c) ∗ Rst c)
  X c := iprop(∃ r, prngReg c r)
  Y c := iprop((∃ r, prngReg c r) ∗ Pipeline.prefHeld pre5 c (fun _ => fullShare) (tbl5 m))
  Z c := Pipeline.unscopedRestP (Ix := Unit) (Name := ℕ) (U := UR sig nD τ) (Lvl := ℕ) pre5 spec5 c (fun b => Vin5 m (outsAll m h) c b)
  hentry c := by
    rw [Pipeline.ownSems0_none]
    have hsplit0 := Pipeline.arrays_of_unscopedBufs (p := 5) (pcfgs (F := F)) (admAll m h) (pdats m h) winFacts5 arr_whole5 c
      ((pdats m h 5 c).share_full fun _ => rfl) (fun b => Vin5 m (outsAll m h) c b) (hA5 m h c)
    rw [Pipeline.unscopedBufs_held] at hsplit0
    have hsplit : (StableHlo.held (c : Thread nD τ) (Pipeline.ucRefs τ sig) (Vin5 m (outsAll m h) c) : sProp 𝕄)
        ⊢ iprop((pdats m h 5 c).arrays ((pdats m h 5 c).arrAt · 0) ∗ Pipeline.unscopedRest spec5 c (fun b => Vin5 m (outsAll m h) c b)) := hsplit0
    rw [Pipeline.unscopedRest_split preFacts5 c,
      show (fun k => Vin5 m (outsAll m h) c (pre5.ref k)) = tbl5 m from funext fun k => Vin5_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 5 c).Φ 0 = iprop(Pipeline.ΦA spec5 c ∗ Pipeline.prefHeld pre5 c (fun _ => fullShare) (tbl5 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 5 c).Φ (Fin.last _) = iprop(Pipeline.ΦA spec5 c ∗ Pipeline.prefHeld pre5 c (fun _ => fullShare) (tbl5 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 5) (pcfgs (F := F)) (admAll m h) (Ix := Unit) (Name := ℕ) (U := UR sig nD τ) (Lvl := ℕ)
      winFacts5 arr_whole5 c (pdats m h) ((pdats m h 5 c).share_full fun _ => rfl)
      (fun b => Vin5 m (outsAll m h) c b) (fun b => Vout5 m (outsAll m h) c b) ((pdats m h 5 c).arrAt · (Pipeline.pin (pcfgs (F := F)) (admAll m h) 5).N) (hF5 m h c) (hrest5 m h c)
    rw [Pipeline.unscopedBufs_held] at hjoin0
    have hjoin : (iprop((pdats m h 5 c).arrays ((pdats m h 5 c).arrAt · (Pipeline.pin (pcfgs (F := F)) (admAll m h) 5).N) ∗ Pipeline.unscopedRest spec5 c (fun b => Vin5 m (outsAll m h) c b)) : sProp 𝕄)
        ⊢ StableHlo.held (c : Thread nD τ) (Pipeline.ucRefs τ sig) (Vout5 m (outsAll m h) c) := hjoin0
    rw [Pipeline.unscopedRest_split preFacts5 c,
      show (fun k => Vin5 m (outsAll m h) c (pre5.ref k)) = tbl5 m from funext fun k => Vin5_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl5_word (i : Fin 2048) (k : Fin 32) :
    (tbl5 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 5 + i.val, by have := i.isLt; omega⟩ k) := by
  show (StableHlo.after hostOps5 (V0 m (0 : Dev nD)) (Proc.devRef .tc main_v25) : IVec S65536 32) _ = _
  after_results
  refine (flatten_rows_apply _ _ i k _).trans ?_
  exact slice_rows_apply _ _ _ (2048 * 5) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge5_core (m : (ℓ : Loc nD τ sig) → Buf (Elt Ideal) ℓ) (pf : pre5.Contents (Elt Ideal)) (hO : ok5 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 5 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg5.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 5 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg5.tabRow pf hO i ⟨k, hk⟩) l).trans ?_
  show Cert.ReferenceIdeal.RefValue.xpadAt _ (Rg5.tabRow pf hO i ⟨k, hk⟩) l = _
  refine congrArg (fun j => Cert.ReferenceIdeal.RefValue.xpadAt _ j l) (Fin.ext ?_)
  rw [Rg5.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge5 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 5 + 2) main_v26 c (ValueIdx.ix3 i 0 l)
      = Cert.ReferenceIdeal.RefValue.refG (m ((c.tc : Thread nD τ).loc main_arg0)) (m ((c.tc : Thread nD τ).loc main_arg1))
          (ValueIdx.ix2 ⟨2048 * 5 + i.val, by have := i.isLt; omega⟩ l) := by
  obtain rfl : c = 0 := Subsingleton.elim _ _
  refine (congrFun (outsAll_5 m h (0 : Dev nD)) _).trans ?_
  refine (congrFun (Rg5.out_eq (Vent m) (tbl5 m) h.h5 (0 : Dev nD)) _).trans ?_
  exact bridge5_core m (tbl5 m) h.h5 (tbl5_word m) hp i l

end
end Cert.KernelIdeal.Hand

end
-- ==== Proof.KI.R6.Link.lean ====
/- Region 6's table satisfies the pipeline's side condition: its words are pooling indices, which the precondition
   bounds by 262144, the last row of the padded feature array. -/
/- Region 6 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R6.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 6's table is one of the pooling indices, so at most 262144. -/
theorem tbl6_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl6 m 0 x : BitVec 32).toNat ≤ 262144 := by
  show (StableHlo.after hostOps6 (V0 m (0 : Dev nD)) (Proc.devRef .tc main_v29) x : BitVec 32).toNat ≤ 262144
  after_results
  exact slice_cast_all (fun w : BitVec 32 => w.toNat ≤ 262144) _ _ _ _ (fun k => Cert.PreDecode.toNat_le_of_toInt _ (hb k)) x

/-- The pipeline's side condition at region 6's table: the feature window's block, at the row the table names,
    lies inside the padded feature array (and a transfer of 32-bit elements moves whole words). -/
theorem okT6 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok6 (F := F) (tbl6 m) := by
  intro i
  exact ⟨block_inside _ _ (tbl6_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 6's proof data are what the region finds: the padded feature array and the (not yet
    written) output array hold at its entry what they held after the first host stretch. -/
theorem hA6 (c : Dev nD) (w : Fin 2) : (pdats m h 6 c).A w = Vin6 m (outsAll m h) c (Pipeline.arrRef spec6 w) :=
  match w with
  | ⟨0, _⟩ => (Vin6_v3 m (outsAll m h) c).symm
  | ⟨1, _⟩ => (Vin6_out m (outsAll m h) c).symm

/-- At the exit each array holds what the pipeline leaves. -/
theorem hF6 (c : Dev nD) (w : Fin 2) : (pdats m h 6 c).arrAt w (Pipeline.pin (pcfgs (F := F)) (admAll m h) 6).N = Vout6 m (outsAll m h) c (Pipeline.arrRef spec6 w) :=
  match w with
  | ⟨0, _⟩ => ((pdats m h 6 c).arrAt_in 0 rfl _).trans (Vout6_v3 m (outsAll m h) c).symm
  | ⟨1, _⟩ => ((Vout6_out m (outsAll m h) c).trans (outsAll_6 m h c)).symm

theorem hrest6 (c : Dev nD) : ∀ b, b ∉ Finset.univ.image (Pipeline.arrRef spec6) → Vout6 m (outsAll m h) c b = Vin6 m (outsAll m h) c b :=
  fun b hb => Vout6_of m (outsAll m h) c b (fun hm => hb (by
    rw [List.mem_singleton] at hm; subst hm
    exact Finset.mem_image.mpr ⟨1, Finset.mem_univ _, rfl⟩))

set_option backward.isDefEq.respectTransparency.types false in
def reg6 : Pipeline.RegionSeg (pcfgs (F := F)) (admAll m h) (pdats m h) () defs₀ 𝒱₀ L lv 6 where
  win := winFacts6.to₀
  block_pos := block_pos6
  stage_whole := stage_whole6
  K := PEmpty
  osem k := k.elim
  ho := Pipeline.OwnSemFacts.none _
  hbody c := (Rg6.body_obligation (Vent m) (tbl6 m) h.h6 c).loose
  hwaits := Pipeline.hwaits_of_owed_zero _ _ _ _ L lv 6 fun _ _ => rfl
  pre c := iprop(StableHlo.held (c : Thread nD τ) (Pipeline.ucRefs τ sig) (Vin6 m (outsAll m h) c) ∗ Rst c)
  post c := iprop(StableHlo.held (c : Thread nD τ) (Pipeline.ucRefs τ sig) (Vout6 m (outsAll m h) c) ∗ Rst c)
  X c := iprop(∃ r, prngReg c r)
  Y c := iprop((∃ r, prngReg c r) ∗ Pipeline.prefHeld pre6 c (fun _ => fullShare) (tbl6 m))
  Z c := Pipeline.unscopedRestP (Ix := Unit) (Name := ℕ) (U := UR sig nD τ) (Lvl := ℕ) pre6 spec6 c (fun b => Vin6 m (outsAll m h) c b)
  hentry c := by
    rw [Pipeline.ownSems0_none]
    have hsplit0 := Pipeline.arrays_of_unscopedBufs (p := 6) (pcfgs (F := F)) (admAll m h) (pdats m h) winFacts6 arr_whole6 c
      ((pdats m h 6 c).share_full fun _ => rfl) (fun b => Vin6 m (outsAll m h) c b) (hA6 m h c)
    rw [Pipeline.unscopedBufs_held] at hsplit0
    have hsplit : (StableHlo.held (c : Thread nD τ) (Pipeline.ucRefs τ sig) (Vin6 m (outsAll m h) c) : sProp 𝕄)
        ⊢ iprop((pdats m h 6 c).arrays ((pdats m h 6 c).arrAt · 0) ∗ Pipeline.unscopedRest spec6 c (fun b => Vin6 m (outsAll m h) c b)) := hsplit0
    rw [Pipeline.unscopedRest_split preFacts6 c,
      show (fun k => Vin6 m (outsAll m h) c (pre6.ref k)) = tbl6 m from funext fun k => Vin6_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 6 c).Φ 0 = iprop(Pipeline.ΦA spec6 c ∗ Pipeline.prefHeld pre6 c (fun _ => fullShare) (tbl6 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 6 c).Φ (Fin.last _) = iprop(Pipeline.ΦA spec6 c ∗ Pipeline.prefHeld pre6 c (fun _ => fullShare) (tbl6 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 6) (pcfgs (F := F)) (admAll m h) (Ix := Unit) (Name := ℕ) (U := UR sig nD τ) (Lvl := ℕ)
      winFacts6 arr_whole6 c (pdats m h) ((pdats m h 6 c).share_full fun _ => rfl)
      (fun b => Vin6 m (outsAll m h) c b) (fun b => Vout6 m (outsAll m h) c b) ((pdats m h 6 c).arrAt · (Pipeline.pin (pcfgs (F := F)) (admAll m h) 6).N) (hF6 m h c) (hrest6 m h c)
    rw [Pipeline.unscopedBufs_held] at hjoin0
    have hjoin : (iprop((pdats m h 6 c).arrays ((pdats m h 6 c).arrAt · (Pipeline.pin (pcfgs (F := F)) (admAll m h) 6).N) ∗ Pipeline.unscopedRest spec6 c (fun b => Vin6 m (outsAll m h) c b)) : sProp 𝕄)
        ⊢ StableHlo.held (c : Thread nD τ) (Pipeline.ucRefs τ sig) (Vout6 m (outsAll m h) c) := hjoin0
    rw [Pipeline.unscopedRest_split preFacts6 c,
      show (fun k => Vin6 m (outsAll m h) c (pre6.ref k)) = tbl6 m from funext fun k => Vin6_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl6_word (i : Fin 2048) (k : Fin 32) :
    (tbl6 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 6 + i.val, by have := i.isLt; omega⟩ k) := by
  show (StableHlo.after hostOps6 (V0 m (0 : Dev nD)) (Proc.devRef .tc main_v29) : IVec S65536 32) _ = _
  after_results
  refine (flatten_rows_apply _ _ i k _).trans ?_
  exact slice_rows_apply _ _ _ (2048 * 6) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge6_core (m : (ℓ : Loc nD τ sig) → Buf (Elt Ideal) ℓ) (pf : pre6.Contents (Elt Ideal)) (hO : ok6 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 6 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg6.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 6 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg6.tabRow pf hO i ⟨k, hk⟩) l).trans ?_
  show Cert.ReferenceIdeal.RefValue.xpadAt _ (Rg6.tabRow pf hO i ⟨k, hk⟩) l = _
  refine congrArg (fun j => Cert.ReferenceIdeal.RefValue.xpadAt _ j l) (Fin.ext ?_)
  rw [Rg6.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge6 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 6 + 2) main_v30 c (ValueIdx.ix3 i 0 l)
      = Cert.ReferenceIdeal.RefValue.refG (m ((c.tc : Thread nD τ).loc main_arg0)) (m ((c.tc : Thread nD τ).loc main_arg1))
          (ValueIdx.ix2 ⟨2048 * 6 + i.val, by have := i.isLt; omega⟩ l) := by
  obtain rfl : c = 0 := Subsingleton.elim _ _
  refine (congrFun (outsAll_6 m h (0 : Dev nD)) _).trans ?_
  refine (congrFun (Rg6.out_eq (Vent m) (tbl6 m) h.h6 (0 : Dev nD)) _).trans ?_
  exact bridge6_core m (tbl6 m) h.h6 (tbl6_word m) hp i l

end
end Cert.KernelIdeal.Hand

end
-- ==== Proof.KI.R7.Link.lean ====
/- Region 7's table satisfies the pipeline's side condition: its words are pooling indices, which the precondition
   bounds by 262144, the last row of the padded feature array. -/
/- Region 7 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R7.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 7's table is one of the pooling indices, so at most 262144. -/
theorem tbl7_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl7 m 0 x : BitVec 32).toNat ≤ 262144 := by
  show (StableHlo.after hostOps7 (V0 m (0 : Dev nD)) (Proc.devRef .tc main_v33) x : BitVec 32).toNat ≤ 262144
  after_results
  exact slice_cast_all (fun w : BitVec 32 => w.toNat ≤ 262144) _ _ _ _ (fun k => Cert.PreDecode.toNat_le_of_toInt _ (hb k)) x

/-- The pipeline's side condition at region 7's table: the feature window's block, at the row the table names,
    lies inside the padded feature array (and a transfer of 32-bit elements moves whole words). -/
theorem okT7 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok7 (F := F) (tbl7 m) := by
  intro i
  exact ⟨block_inside _ _ (tbl7_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 7's proof data are what the region finds: the padded feature array and the (not yet
    written) output array hold at its entry what they held after the first host stretch. -/
theorem hA7 (c : Dev nD) (w : Fin 2) : (pdats m h 7 c).A w = Vin7 m (outsAll m h) c (Pipeline.arrRef spec7 w) :=
  match w with
  | ⟨0, _⟩ => (Vin7_v3 m (outsAll m h) c).symm
  | ⟨1, _⟩ => (Vin7_out m (outsAll m h) c).symm

/-- At the exit each array holds what the pipeline leaves. -/
theorem hF7 (c : Dev nD) (w : Fin 2) : (pdats m h 7 c).arrAt w (Pipeline.pin (pcfgs (F := F)) (admAll m h) 7).N = Vout7 m (outsAll m h) c (Pipeline.arrRef spec7 w) :=
  match w with
  | ⟨0, _⟩ => ((pdats m h 7 c).arrAt_in 0 rfl _).trans (Vout7_v3 m (outsAll m h) c).symm
  | ⟨1, _⟩ => ((Vout7_out m (outsAll m h) c).trans (outsAll_7 m h c)).symm

theorem hrest7 (c : Dev nD) : ∀ b, b ∉ Finset.univ.image (Pipeline.arrRef spec7) → Vout7 m (outsAll m h) c b = Vin7 m (outsAll m h) c b :=
  fun b hb => Vout7_of m (outsAll m h) c b (fun hm => hb (by
    rw [List.mem_singleton] at hm; subst hm
    exact Finset.mem_image.mpr ⟨1, Finset.mem_univ _, rfl⟩))

set_option backward.isDefEq.respectTransparency.types false in
def reg7 : Pipeline.RegionSeg (pcfgs (F := F)) (admAll m h) (pdats m h) () defs₀ 𝒱₀ L lv 7 where
  win := winFacts7.to₀
  block_pos := block_pos7
  stage_whole := stage_whole7
  K := PEmpty
  osem k := k.elim
  ho := Pipeline.OwnSemFacts.none _
  hbody c := (Rg7.body_obligation (Vent m) (tbl7 m) h.h7 c).loose
  hwaits := Pipeline.hwaits_of_owed_zero _ _ _ _ L lv 7 fun _ _ => rfl
  pre c := iprop(StableHlo.held (c : Thread nD τ) (Pipeline.ucRefs τ sig) (Vin7 m (outsAll m h) c) ∗ Rst c)
  post c := iprop(StableHlo.held (c : Thread nD τ) (Pipeline.ucRefs τ sig) (Vout7 m (outsAll m h) c) ∗ Rst c)
  X c := iprop(∃ r, prngReg c r)
  Y c := iprop((∃ r, prngReg c r) ∗ Pipeline.prefHeld pre7 c (fun _ => fullShare) (tbl7 m))
  Z c := Pipeline.unscopedRestP (Ix := Unit) (Name := ℕ) (U := UR sig nD τ) (Lvl := ℕ) pre7 spec7 c (fun b => Vin7 m (outsAll m h) c b)
  hentry c := by
    rw [Pipeline.ownSems0_none]
    have hsplit0 := Pipeline.arrays_of_unscopedBufs (p := 7) (pcfgs (F := F)) (admAll m h) (pdats m h) winFacts7 arr_whole7 c
      ((pdats m h 7 c).share_full fun _ => rfl) (fun b => Vin7 m (outsAll m h) c b) (hA7 m h c)
    rw [Pipeline.unscopedBufs_held] at hsplit0
    have hsplit : (StableHlo.held (c : Thread nD τ) (Pipeline.ucRefs τ sig) (Vin7 m (outsAll m h) c) : sProp 𝕄)
        ⊢ iprop((pdats m h 7 c).arrays ((pdats m h 7 c).arrAt · 0) ∗ Pipeline.unscopedRest spec7 c (fun b => Vin7 m (outsAll m h) c b)) := hsplit0
    rw [Pipeline.unscopedRest_split preFacts7 c,
      show (fun k => Vin7 m (outsAll m h) c (pre7.ref k)) = tbl7 m from funext fun k => Vin7_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 7 c).Φ 0 = iprop(Pipeline.ΦA spec7 c ∗ Pipeline.prefHeld pre7 c (fun _ => fullShare) (tbl7 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 7 c).Φ (Fin.last _) = iprop(Pipeline.ΦA spec7 c ∗ Pipeline.prefHeld pre7 c (fun _ => fullShare) (tbl7 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 7) (pcfgs (F := F)) (admAll m h) (Ix := Unit) (Name := ℕ) (U := UR sig nD τ) (Lvl := ℕ)
      winFacts7 arr_whole7 c (pdats m h) ((pdats m h 7 c).share_full fun _ => rfl)
      (fun b => Vin7 m (outsAll m h) c b) (fun b => Vout7 m (outsAll m h) c b) ((pdats m h 7 c).arrAt · (Pipeline.pin (pcfgs (F := F)) (admAll m h) 7).N) (hF7 m h c) (hrest7 m h c)
    rw [Pipeline.unscopedBufs_held] at hjoin0
    have hjoin : (iprop((pdats m h 7 c).arrays ((pdats m h 7 c).arrAt · (Pipeline.pin (pcfgs (F := F)) (admAll m h) 7).N) ∗ Pipeline.unscopedRest spec7 c (fun b => Vin7 m (outsAll m h) c b)) : sProp 𝕄)
        ⊢ StableHlo.held (c : Thread nD τ) (Pipeline.ucRefs τ sig) (Vout7 m (outsAll m h) c) := hjoin0
    rw [Pipeline.unscopedRest_split preFacts7 c,
      show (fun k => Vin7 m (outsAll m h) c (pre7.ref k)) = tbl7 m from funext fun k => Vin7_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl7_word (i : Fin 2048) (k : Fin 32) :
    (tbl7 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 7 + i.val, by have := i.isLt; omega⟩ k) := by
  show (StableHlo.after hostOps7 (V0 m (0 : Dev nD)) (Proc.devRef .tc main_v33) : IVec S65536 32) _ = _
  after_results
  refine (flatten_rows_apply _ _ i k _).trans ?_
  exact slice_rows_apply _ _ _ (2048 * 7) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge7_core (m : (ℓ : Loc nD τ sig) → Buf (Elt Ideal) ℓ) (pf : pre7.Contents (Elt Ideal)) (hO : ok7 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 7 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg7.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 7 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg7.tabRow pf hO i ⟨k, hk⟩) l).trans ?_
  show Cert.ReferenceIdeal.RefValue.xpadAt _ (Rg7.tabRow pf hO i ⟨k, hk⟩) l = _
  refine congrArg (fun j => Cert.ReferenceIdeal.RefValue.xpadAt _ j l) (Fin.ext ?_)
  rw [Rg7.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge7 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 7 + 2) main_v34 c (ValueIdx.ix3 i 0 l)
      = Cert.ReferenceIdeal.RefValue.refG (m ((c.tc : Thread nD τ).loc main_arg0)) (m ((c.tc : Thread nD τ).loc main_arg1))
          (ValueIdx.ix2 ⟨2048 * 7 + i.val, by have := i.isLt; omega⟩ l) := by
  obtain rfl : c = 0 := Subsingleton.elim _ _
  refine (congrFun (outsAll_7 m h (0 : Dev nD)) _).trans ?_
  refine (congrFun (Rg7.out_eq (Vent m) (tbl7 m) h.h7 (0 : Dev nD)) _).trans ?_
  exact bridge7_core m (tbl7 m) h.h7 (tbl7_word m) hp i l

end
end Cert.KernelIdeal.Hand

end
-- ==== Proof.KI.R8.Link.lean ====
/- Region 8's table satisfies the pipeline's side condition: its words are pooling indices, which the precondition
   bounds by 262144, the last row of the padded feature array. -/
/- Region 8 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R8.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 8's table is one of the pooling indices, so at most 262144. -/
theorem tbl8_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl8 m 0 x : BitVec 32).toNat ≤ 262144 := by
  show (StableHlo.after hostOps8 (V0 m (0 : Dev nD)) (Proc.devRef .tc main_v37) x : BitVec 32).toNat ≤ 262144
  after_results
  exact slice_cast_all (fun w : BitVec 32 => w.toNat ≤ 262144) _ _ _ _ (fun k => Cert.PreDecode.toNat_le_of_toInt _ (hb k)) x

/-- The pipeline's side condition at region 8's table: the feature window's block, at the row the table names,
    lies inside the padded feature array (and a transfer of 32-bit elements moves whole words). -/
theorem okT8 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok8 (F := F) (tbl8 m) := by
  intro i
  exact ⟨block_inside _ _ (tbl8_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 8's proof data are what the region finds: the padded feature array and the (not yet
    written) output array hold at its entry what they held after the first host stretch. -/
theorem hA8 (c : Dev nD) (w : Fin 2) : (pdats m h 8 c).A w = Vin8 m (outsAll m h) c (Pipeline.arrRef spec8 w) :=
  match w with
  | ⟨0, _⟩ => (Vin8_v3 m (outsAll m h) c).symm
  | ⟨1, _⟩ => (Vin8_out m (outsAll m h) c).symm

/-- At the exit each array holds what the pipeline leaves. -/
theorem hF8 (c : Dev nD) (w : Fin 2) : (pdats m h 8 c).arrAt w (Pipeline.pin (pcfgs (F := F)) (admAll m h) 8).N = Vout8 m (outsAll m h) c (Pipeline.arrRef spec8 w) :=
  match w with
  | ⟨0, _⟩ => ((pdats m h 8 c).arrAt_in 0 rfl _).trans (Vout8_v3 m (outsAll m h) c).symm
  | ⟨1, _⟩ => ((Vout8_out m (outsAll m h) c).trans (outsAll_8 m h c)).symm

theorem hrest8 (c : Dev nD) : ∀ b, b ∉ Finset.univ.image (Pipeline.arrRef spec8) → Vout8 m (outsAll m h) c b = Vin8 m (outsAll m h) c b :=
  fun b hb => Vout8_of m (outsAll m h) c b (fun hm => hb (by
    rw [List.mem_singleton] at hm; subst hm
    exact Finset.mem_image.mpr ⟨1, Finset.mem_univ _, rfl⟩))

set_option backward.isDefEq.respectTransparency.types false in
def reg8 : Pipeline.RegionSeg (pcfgs (F := F)) (admAll m h) (pdats m h) () defs₀ 𝒱₀ L lv 8 where
  win := winFacts8.to₀
  block_pos := block_pos8
  stage_whole := stage_whole8
  K := PEmpty
  osem k := k.elim
  ho := Pipeline.OwnSemFacts.none _
  hbody c := (Rg8.body_obligation (Vent m) (tbl8 m) h.h8 c).loose
  hwaits := Pipeline.hwaits_of_owed_zero _ _ _ _ L lv 8 fun _ _ => rfl
  pre c := iprop(StableHlo.held (c : Thread nD τ) (Pipeline.ucRefs τ sig) (Vin8 m (outsAll m h) c) ∗ Rst c)
  post c := iprop(StableHlo.held (c : Thread nD τ) (Pipeline.ucRefs τ sig) (Vout8 m (outsAll m h) c) ∗ Rst c)
  X c := iprop(∃ r, prngReg c r)
  Y c := iprop((∃ r, prngReg c r) ∗ Pipeline.prefHeld pre8 c (fun _ => fullShare) (tbl8 m))
  Z c := Pipeline.unscopedRestP (Ix := Unit) (Name := ℕ) (U := UR sig nD τ) (Lvl := ℕ) pre8 spec8 c (fun b => Vin8 m (outsAll m h) c b)
  hentry c := by
    rw [Pipeline.ownSems0_none]
    have hsplit0 := Pipeline.arrays_of_unscopedBufs (p := 8) (pcfgs (F := F)) (admAll m h) (pdats m h) winFacts8 arr_whole8 c
      ((pdats m h 8 c).share_full fun _ => rfl) (fun b => Vin8 m (outsAll m h) c b) (hA8 m h c)
    rw [Pipeline.unscopedBufs_held] at hsplit0
    have hsplit : (StableHlo.held (c : Thread nD τ) (Pipeline.ucRefs τ sig) (Vin8 m (outsAll m h) c) : sProp 𝕄)
        ⊢ iprop((pdats m h 8 c).arrays ((pdats m h 8 c).arrAt · 0) ∗ Pipeline.unscopedRest spec8 c (fun b => Vin8 m (outsAll m h) c b)) := hsplit0
    rw [Pipeline.unscopedRest_split preFacts8 c,
      show (fun k => Vin8 m (outsAll m h) c (pre8.ref k)) = tbl8 m from funext fun k => Vin8_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 8 c).Φ 0 = iprop(Pipeline.ΦA spec8 c ∗ Pipeline.prefHeld pre8 c (fun _ => fullShare) (tbl8 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 8 c).Φ (Fin.last _) = iprop(Pipeline.ΦA spec8 c ∗ Pipeline.prefHeld pre8 c (fun _ => fullShare) (tbl8 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 8) (pcfgs (F := F)) (admAll m h) (Ix := Unit) (Name := ℕ) (U := UR sig nD τ) (Lvl := ℕ)
      winFacts8 arr_whole8 c (pdats m h) ((pdats m h 8 c).share_full fun _ => rfl)
      (fun b => Vin8 m (outsAll m h) c b) (fun b => Vout8 m (outsAll m h) c b) ((pdats m h 8 c).arrAt · (Pipeline.pin (pcfgs (F := F)) (admAll m h) 8).N) (hF8 m h c) (hrest8 m h c)
    rw [Pipeline.unscopedBufs_held] at hjoin0
    have hjoin : (iprop((pdats m h 8 c).arrays ((pdats m h 8 c).arrAt · (Pipeline.pin (pcfgs (F := F)) (admAll m h) 8).N) ∗ Pipeline.unscopedRest spec8 c (fun b => Vin8 m (outsAll m h) c b)) : sProp 𝕄)
        ⊢ StableHlo.held (c : Thread nD τ) (Pipeline.ucRefs τ sig) (Vout8 m (outsAll m h) c) := hjoin0
    rw [Pipeline.unscopedRest_split preFacts8 c,
      show (fun k => Vin8 m (outsAll m h) c (pre8.ref k)) = tbl8 m from funext fun k => Vin8_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl8_word (i : Fin 2048) (k : Fin 32) :
    (tbl8 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 8 + i.val, by have := i.isLt; omega⟩ k) := by
  show (StableHlo.after hostOps8 (V0 m (0 : Dev nD)) (Proc.devRef .tc main_v37) : IVec S65536 32) _ = _
  after_results
  refine (flatten_rows_apply _ _ i k _).trans ?_
  exact slice_rows_apply _ _ _ (2048 * 8) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge8_core (m : (ℓ : Loc nD τ sig) → Buf (Elt Ideal) ℓ) (pf : pre8.Contents (Elt Ideal)) (hO : ok8 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 8 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg8.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 8 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg8.tabRow pf hO i ⟨k, hk⟩) l).trans ?_
  show Cert.ReferenceIdeal.RefValue.xpadAt _ (Rg8.tabRow pf hO i ⟨k, hk⟩) l = _
  refine congrArg (fun j => Cert.ReferenceIdeal.RefValue.xpadAt _ j l) (Fin.ext ?_)
  rw [Rg8.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge8 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 8 + 2) main_v38 c (ValueIdx.ix3 i 0 l)
      = Cert.ReferenceIdeal.RefValue.refG (m ((c.tc : Thread nD τ).loc main_arg0)) (m ((c.tc : Thread nD τ).loc main_arg1))
          (ValueIdx.ix2 ⟨2048 * 8 + i.val, by have := i.isLt; omega⟩ l) := by
  obtain rfl : c = 0 := Subsingleton.elim _ _
  refine (congrFun (outsAll_8 m h (0 : Dev nD)) _).trans ?_
  refine (congrFun (Rg8.out_eq (Vent m) (tbl8 m) h.h8 (0 : Dev nD)) _).trans ?_
  exact bridge8_core m (tbl8 m) h.h8 (tbl8_word m) hp i l

end
end Cert.KernelIdeal.Hand

end
-- ==== Proof.KI.R9.Link.lean ====
/- Region 9's table satisfies the pipeline's side condition: its words are pooling indices, which the precondition
   bounds by 262144, the last row of the padded feature array. -/
/- Region 9 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R9.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 9's table is one of the pooling indices, so at most 262144. -/
theorem tbl9_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl9 m 0 x : BitVec 32).toNat ≤ 262144 := by
  show (StableHlo.after hostOps9 (V0 m (0 : Dev nD)) (Proc.devRef .tc main_v41) x : BitVec 32).toNat ≤ 262144
  after_results
  exact slice_cast_all (fun w : BitVec 32 => w.toNat ≤ 262144) _ _ _ _ (fun k => Cert.PreDecode.toNat_le_of_toInt _ (hb k)) x

/-- The pipeline's side condition at region 9's table: the feature window's block, at the row the table names,
    lies inside the padded feature array (and a transfer of 32-bit elements moves whole words). -/
theorem okT9 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok9 (F := F) (tbl9 m) := by
  intro i
  exact ⟨block_inside _ _ (tbl9_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 9's proof data are what the region finds: the padded feature array and the (not yet
    written) output array hold at its entry what they held after the first host stretch. -/
theorem hA9 (c : Dev nD) (w : Fin 2) : (pdats m h 9 c).A w = Vin9 m (outsAll m h) c (Pipeline.arrRef spec9 w) :=
  match w with
  | ⟨0, _⟩ => (Vin9_v3 m (outsAll m h) c).symm
  | ⟨1, _⟩ => (Vin9_out m (outsAll m h) c).symm

/-- At the exit each array holds what the pipeline leaves. -/
theorem hF9 (c : Dev nD) (w : Fin 2) : (pdats m h 9 c).arrAt w (Pipeline.pin (pcfgs (F := F)) (admAll m h) 9).N = Vout9 m (outsAll m h) c (Pipeline.arrRef spec9 w) :=
  match w with
  | ⟨0, _⟩ => ((pdats m h 9 c).arrAt_in 0 rfl _).trans (Vout9_v3 m (outsAll m h) c).symm
  | ⟨1, _⟩ => ((Vout9_out m (outsAll m h) c).trans (outsAll_9 m h c)).symm

theorem hrest9 (c : Dev nD) : ∀ b, b ∉ Finset.univ.image (Pipeline.arrRef spec9) → Vout9 m (outsAll m h) c b = Vin9 m (outsAll m h) c b :=
  fun b hb => Vout9_of m (outsAll m h) c b (fun hm => hb (by
    rw [List.mem_singleton] at hm; subst hm
    exact Finset.mem_image.mpr ⟨1, Finset.mem_univ _, rfl⟩))

set_option backward.isDefEq.respectTransparency.types false in
def reg9 : Pipeline.RegionSeg (pcfgs (F := F)) (admAll m h) (pdats m h) () defs₀ 𝒱₀ L lv 9 where
  win := winFacts9.to₀
  block_pos := block_pos9
  stage_whole := stage_whole9
  K := PEmpty
  osem k := k.elim
  ho := Pipeline.OwnSemFacts.none _
  hbody c := (Rg9.body_obligation (Vent m) (tbl9 m) h.h9 c).loose
  hwaits := Pipeline.hwaits_of_owed_zero _ _ _ _ L lv 9 fun _ _ => rfl
  pre c := iprop(StableHlo.held (c : Thread nD τ) (Pipeline.ucRefs τ sig) (Vin9 m (outsAll m h) c) ∗ Rst c)
  post c := iprop(StableHlo.held (c : Thread nD τ) (Pipeline.ucRefs τ sig) (Vout9 m (outsAll m h) c) ∗ Rst c)
  X c := iprop(∃ r, prngReg c r)
  Y c := iprop((∃ r, prngReg c r) ∗ Pipeline.prefHeld pre9 c (fun _ => fullShare) (tbl9 m))
  Z c := Pipeline.unscopedRestP (Ix := Unit) (Name := ℕ) (U := UR sig nD τ) (Lvl := ℕ) pre9 spec9 c (fun b => Vin9 m (outsAll m h) c b)
  hentry c := by
    rw [Pipeline.ownSems0_none]
    have hsplit0 := Pipeline.arrays_of_unscopedBufs (p := 9) (pcfgs (F := F)) (admAll m h) (pdats m h) winFacts9 arr_whole9 c
      ((pdats m h 9 c).share_full fun _ => rfl) (fun b => Vin9 m (outsAll m h) c b) (hA9 m h c)
    rw [Pipeline.unscopedBufs_held] at hsplit0
    have hsplit : (StableHlo.held (c : Thread nD τ) (Pipeline.ucRefs τ sig) (Vin9 m (outsAll m h) c) : sProp 𝕄)
        ⊢ iprop((pdats m h 9 c).arrays ((pdats m h 9 c).arrAt · 0) ∗ Pipeline.unscopedRest spec9 c (fun b => Vin9 m (outsAll m h) c b)) := hsplit0
    rw [Pipeline.unscopedRest_split preFacts9 c,
      show (fun k => Vin9 m (outsAll m h) c (pre9.ref k)) = tbl9 m from funext fun k => Vin9_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 9 c).Φ 0 = iprop(Pipeline.ΦA spec9 c ∗ Pipeline.prefHeld pre9 c (fun _ => fullShare) (tbl9 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 9 c).Φ (Fin.last _) = iprop(Pipeline.ΦA spec9 c ∗ Pipeline.prefHeld pre9 c (fun _ => fullShare) (tbl9 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 9) (pcfgs (F := F)) (admAll m h) (Ix := Unit) (Name := ℕ) (U := UR sig nD τ) (Lvl := ℕ)
      winFacts9 arr_whole9 c (pdats m h) ((pdats m h 9 c).share_full fun _ => rfl)
      (fun b => Vin9 m (outsAll m h) c b) (fun b => Vout9 m (outsAll m h) c b) ((pdats m h 9 c).arrAt · (Pipeline.pin (pcfgs (F := F)) (admAll m h) 9).N) (hF9 m h c) (hrest9 m h c)
    rw [Pipeline.unscopedBufs_held] at hjoin0
    have hjoin : (iprop((pdats m h 9 c).arrays ((pdats m h 9 c).arrAt · (Pipeline.pin (pcfgs (F := F)) (admAll m h) 9).N) ∗ Pipeline.unscopedRest spec9 c (fun b => Vin9 m (outsAll m h) c b)) : sProp 𝕄)
        ⊢ StableHlo.held (c : Thread nD τ) (Pipeline.ucRefs τ sig) (Vout9 m (outsAll m h) c) := hjoin0
    rw [Pipeline.unscopedRest_split preFacts9 c,
      show (fun k => Vin9 m (outsAll m h) c (pre9.ref k)) = tbl9 m from funext fun k => Vin9_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl9_word (i : Fin 2048) (k : Fin 32) :
    (tbl9 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 9 + i.val, by have := i.isLt; omega⟩ k) := by
  show (StableHlo.after hostOps9 (V0 m (0 : Dev nD)) (Proc.devRef .tc main_v41) : IVec S65536 32) _ = _
  after_results
  refine (flatten_rows_apply _ _ i k _).trans ?_
  exact slice_rows_apply _ _ _ (2048 * 9) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge9_core (m : (ℓ : Loc nD τ sig) → Buf (Elt Ideal) ℓ) (pf : pre9.Contents (Elt Ideal)) (hO : ok9 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 9 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg9.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 9 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg9.tabRow pf hO i ⟨k, hk⟩) l).trans ?_
  show Cert.ReferenceIdeal.RefValue.xpadAt _ (Rg9.tabRow pf hO i ⟨k, hk⟩) l = _
  refine congrArg (fun j => Cert.ReferenceIdeal.RefValue.xpadAt _ j l) (Fin.ext ?_)
  rw [Rg9.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge9 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 9 + 2) main_v42 c (ValueIdx.ix3 i 0 l)
      = Cert.ReferenceIdeal.RefValue.refG (m ((c.tc : Thread nD τ).loc main_arg0)) (m ((c.tc : Thread nD τ).loc main_arg1))
          (ValueIdx.ix2 ⟨2048 * 9 + i.val, by have := i.isLt; omega⟩ l) := by
  obtain rfl : c = 0 := Subsingleton.elim _ _
  refine (congrFun (outsAll_9 m h (0 : Dev nD)) _).trans ?_
  refine (congrFun (Rg9.out_eq (Vent m) (tbl9 m) h.h9 (0 : Dev nD)) _).trans ?_
  exact bridge9_core m (tbl9 m) h.h9 (tbl9_word m) hp i l

end
end Cert.KernelIdeal.Hand

end
-- ==== Proof.KI.R10.Link.lean ====
/- Region 10's table satisfies the pipeline's side condition: its words are pooling indices, which the precondition
   bounds by 262144, the last row of the padded feature array. -/
/- Region 10 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R10.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 10's table is one of the pooling indices, so at most 262144. -/
theorem tbl10_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl10 m 0 x : BitVec 32).toNat ≤ 262144 := by
  show (StableHlo.after hostOps10 (V0 m (0 : Dev nD)) (Proc.devRef .tc main_v45) x : BitVec 32).toNat ≤ 262144
  after_results
  exact slice_cast_all (fun w : BitVec 32 => w.toNat ≤ 262144) _ _ _ _ (fun k => Cert.PreDecode.toNat_le_of_toInt _ (hb k)) x

/-- The pipeline's side condition at region 10's table: the feature window's block, at the row the table names,
    lies inside the padded feature array (and a transfer of 32-bit elements moves whole words). -/
theorem okT10 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok10 (F := F) (tbl10 m) := by
  intro i
  exact ⟨block_inside _ _ (tbl10_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 10's proof data are what the region finds: the padded feature array and the (not yet
    written) output array hold at its entry what they held after the first host stretch. -/
theorem hA10 (c : Dev nD) (w : Fin 2) : (pdats m h 10 c).A w = Vin10 m (outsAll m h) c (Pipeline.arrRef spec10 w) :=
  match w with
  | ⟨0, _⟩ => (Vin10_v3 m (outsAll m h) c).symm
  | ⟨1, _⟩ => (Vin10_out m (outsAll m h) c).symm

/-- At the exit each array holds what the pipeline leaves. -/
theorem hF10 (c : Dev nD) (w : Fin 2) : (pdats m h 10 c).arrAt w (Pipeline.pin (pcfgs (F := F)) (admAll m h) 10).N = Vout10 m (outsAll m h) c (Pipeline.arrRef spec10 w) :=
  match w with
  | ⟨0, _⟩ => ((pdats m h 10 c).arrAt_in 0 rfl _).trans (Vout10_v3 m (outsAll m h) c).symm
  | ⟨1, _⟩ => ((Vout10_out m (outsAll m h) c).trans (outsAll_10 m h c)).symm

theorem hrest10 (c : Dev nD) : ∀ b, b ∉ Finset.univ.image (Pipeline.arrRef spec10) → Vout10 m (outsAll m h) c b = Vin10 m (outsAll m h) c b :=
  fun b hb => Vout10_of m (outsAll m h) c b (fun hm => hb (by
    rw [List.mem_singleton] at hm; subst hm
    exact Finset.mem_image.mpr ⟨1, Finset.mem_univ _, rfl⟩))

set_option backward.isDefEq.respectTransparency.types false in
def reg10 : Pipeline.RegionSeg (pcfgs (F := F)) (admAll m h) (pdats m h) () defs₀ 𝒱₀ L lv 10 where
  win := winFacts10.to₀
  block_pos := block_pos10
  stage_whole := stage_whole10
  K := PEmpty
  osem k := k.elim
  ho := Pipeline.OwnSemFacts.none _
  hbody c := (Rg10.body_obligation (Vent m) (tbl10 m) h.h10 c).loose
  hwaits := Pipeline.hwaits_of_owed_zero _ _ _ _ L lv 10 fun _ _ => rfl
  pre c := iprop(StableHlo.held (c : Thread nD τ) (Pipeline.ucRefs τ sig) (Vin10 m (outsAll m h) c) ∗ Rst c)
  post c := iprop(StableHlo.held (c : Thread nD τ) (Pipeline.ucRefs τ sig) (Vout10 m (outsAll m h) c) ∗ Rst c)
  X c := iprop(∃ r, prngReg c r)
  Y c := iprop((∃ r, prngReg c r) ∗ Pipeline.prefHeld pre10 c (fun _ => fullShare) (tbl10 m))
  Z c := Pipeline.unscopedRestP (Ix := Unit) (Name := ℕ) (U := UR sig nD τ) (Lvl := ℕ) pre10 spec10 c (fun b => Vin10 m (outsAll m h) c b)
  hentry c := by
    rw [Pipeline.ownSems0_none]
    have hsplit0 := Pipeline.arrays_of_unscopedBufs (p := 10) (pcfgs (F := F)) (admAll m h) (pdats m h) winFacts10 arr_whole10 c
      ((pdats m h 10 c).share_full fun _ => rfl) (fun b => Vin10 m (outsAll m h) c b) (hA10 m h c)
    rw [Pipeline.unscopedBufs_held] at hsplit0
    have hsplit : (StableHlo.held (c : Thread nD τ) (Pipeline.ucRefs τ sig) (Vin10 m (outsAll m h) c) : sProp 𝕄)
        ⊢ iprop((pdats m h 10 c).arrays ((pdats m h 10 c).arrAt · 0) ∗ Pipeline.unscopedRest spec10 c (fun b => Vin10 m (outsAll m h) c b)) := hsplit0
    rw [Pipeline.unscopedRest_split preFacts10 c,
      show (fun k => Vin10 m (outsAll m h) c (pre10.ref k)) = tbl10 m from funext fun k => Vin10_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 10 c).Φ 0 = iprop(Pipeline.ΦA spec10 c ∗ Pipeline.prefHeld pre10 c (fun _ => fullShare) (tbl10 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 10 c).Φ (Fin.last _) = iprop(Pipeline.ΦA spec10 c ∗ Pipeline.prefHeld pre10 c (fun _ => fullShare) (tbl10 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 10) (pcfgs (F := F)) (admAll m h) (Ix := Unit) (Name := ℕ) (U := UR sig nD τ) (Lvl := ℕ)
      winFacts10 arr_whole10 c (pdats m h) ((pdats m h 10 c).share_full fun _ => rfl)
      (fun b => Vin10 m (outsAll m h) c b) (fun b => Vout10 m (outsAll m h) c b) ((pdats m h 10 c).arrAt · (Pipeline.pin (pcfgs (F := F)) (admAll m h) 10).N) (hF10 m h c) (hrest10 m h c)
    rw [Pipeline.unscopedBufs_held] at hjoin0
    have hjoin : (iprop((pdats m h 10 c).arrays ((pdats m h 10 c).arrAt · (Pipeline.pin (pcfgs (F := F)) (admAll m h) 10).N) ∗ Pipeline.unscopedRest spec10 c (fun b => Vin10 m (outsAll m h) c b)) : sProp 𝕄)
        ⊢ StableHlo.held (c : Thread nD τ) (Pipeline.ucRefs τ sig) (Vout10 m (outsAll m h) c) := hjoin0
    rw [Pipeline.unscopedRest_split preFacts10 c,
      show (fun k => Vin10 m (outsAll m h) c (pre10.ref k)) = tbl10 m from funext fun k => Vin10_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl10_word (i : Fin 2048) (k : Fin 32) :
    (tbl10 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 10 + i.val, by have := i.isLt; omega⟩ k) := by
  show (StableHlo.after hostOps10 (V0 m (0 : Dev nD)) (Proc.devRef .tc main_v45) : IVec S65536 32) _ = _
  after_results
  refine (flatten_rows_apply _ _ i k _).trans ?_
  exact slice_rows_apply _ _ _ (2048 * 10) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge10_core (m : (ℓ : Loc nD τ sig) → Buf (Elt Ideal) ℓ) (pf : pre10.Contents (Elt Ideal)) (hO : ok10 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 10 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg10.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 10 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg10.tabRow pf hO i ⟨k, hk⟩) l).trans ?_
  show Cert.ReferenceIdeal.RefValue.xpadAt _ (Rg10.tabRow pf hO i ⟨k, hk⟩) l = _
  refine congrArg (fun j => Cert.ReferenceIdeal.RefValue.xpadAt _ j l) (Fin.ext ?_)
  rw [Rg10.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge10 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 10 + 2) main_v46 c (ValueIdx.ix3 i 0 l)
      = Cert.ReferenceIdeal.RefValue.refG (m ((c.tc : Thread nD τ).loc main_arg0)) (m ((c.tc : Thread nD τ).loc main_arg1))
          (ValueIdx.ix2 ⟨2048 * 10 + i.val, by have := i.isLt; omega⟩ l) := by
  obtain rfl : c = 0 := Subsingleton.elim _ _
  refine (congrFun (outsAll_10 m h (0 : Dev nD)) _).trans ?_
  refine (congrFun (Rg10.out_eq (Vent m) (tbl10 m) h.h10 (0 : Dev nD)) _).trans ?_
  exact bridge10_core m (tbl10 m) h.h10 (tbl10_word m) hp i l

end
end Cert.KernelIdeal.Hand

end
-- ==== Proof.KI.R11.Link.lean ====
/- Region 11's table satisfies the pipeline's side condition: its words are pooling indices, which the precondition
   bounds by 262144, the last row of the padded feature array. -/
/- Region 11 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R11.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 11's table is one of the pooling indices, so at most 262144. -/
theorem tbl11_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl11 m 0 x : BitVec 32).toNat ≤ 262144 := by
  show (StableHlo.after hostOps11 (V0 m (0 : Dev nD)) (Proc.devRef .tc main_v49) x : BitVec 32).toNat ≤ 262144
  after_results
  exact slice_cast_all (fun w : BitVec 32 => w.toNat ≤ 262144) _ _ _ _ (fun k => Cert.PreDecode.toNat_le_of_toInt _ (hb k)) x

/-- The pipeline's side condition at region 11's table: the feature window's block, at the row the table names,
    lies inside the padded feature array (and a transfer of 32-bit elements moves whole words). -/
theorem okT11 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok11 (F := F) (tbl11 m) := by
  intro i
  exact ⟨block_inside _ _ (tbl11_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 11's proof data are what the region finds: the padded feature array and the (not yet
    written) output array hold at its entry what they held after the first host stretch. -/
theorem hA11 (c : Dev nD) (w : Fin 2) : (pdats m h 11 c).A w = Vin11 m (outsAll m h) c (Pipeline.arrRef spec11 w) :=
  match w with
  | ⟨0, _⟩ => (Vin11_v3 m (outsAll m h) c).symm
  | ⟨1, _⟩ => (Vin11_out m (outsAll m h) c).symm

/-- At the exit each array holds what the pipeline leaves. -/
theorem hF11 (c : Dev nD) (w : Fin 2) : (pdats m h 11 c).arrAt w (Pipeline.pin (pcfgs (F := F)) (admAll m h) 11).N = Vout11 m (outsAll m h) c (Pipeline.arrRef spec11 w) :=
  match w with
  | ⟨0, _⟩ => ((pdats m h 11 c).arrAt_in 0 rfl _).trans (Vout11_v3 m (outsAll m h) c).symm
  | ⟨1, _⟩ => ((Vout11_out m (outsAll m h) c).trans (outsAll_11 m h c)).symm

theorem hrest11 (c : Dev nD) : ∀ b, b ∉ Finset.univ.image (Pipeline.arrRef spec11) → Vout11 m (outsAll m h) c b = Vin11 m (outsAll m h) c b :=
  fun b hb => Vout11_of m (outsAll m h) c b (fun hm => hb (by
    rw [List.mem_singleton] at hm; subst hm
    exact Finset.mem_image.mpr ⟨1, Finset.mem_univ _, rfl⟩))

set_option backward.isDefEq.respectTransparency.types false in
def reg11 : Pipeline.RegionSeg (pcfgs (F := F)) (admAll m h) (pdats m h) () defs₀ 𝒱₀ L lv 11 where
  win := winFacts11.to₀
  block_pos := block_pos11
  stage_whole := stage_whole11
  K := PEmpty
  osem k := k.elim
  ho := Pipeline.OwnSemFacts.none _
  hbody c := (Rg11.body_obligation (Vent m) (tbl11 m) h.h11 c).loose
  hwaits := Pipeline.hwaits_of_owed_zero _ _ _ _ L lv 11 fun _ _ => rfl
  pre c := iprop(StableHlo.held (c : Thread nD τ) (Pipeline.ucRefs τ sig) (Vin11 m (outsAll m h) c) ∗ Rst c)
  post c := iprop(StableHlo.held (c : Thread nD τ) (Pipeline.ucRefs τ sig) (Vout11 m (outsAll m h) c) ∗ Rst c)
  X c := iprop(∃ r, prngReg c r)
  Y c := iprop((∃ r, prngReg c r) ∗ Pipeline.prefHeld pre11 c (fun _ => fullShare) (tbl11 m))
  Z c := Pipeline.unscopedRestP (Ix := Unit) (Name := ℕ) (U := UR sig nD τ) (Lvl := ℕ) pre11 spec11 c (fun b => Vin11 m (outsAll m h) c b)
  hentry c := by
    rw [Pipeline.ownSems0_none]
    have hsplit0 := Pipeline.arrays_of_unscopedBufs (p := 11) (pcfgs (F := F)) (admAll m h) (pdats m h) winFacts11 arr_whole11 c
      ((pdats m h 11 c).share_full fun _ => rfl) (fun b => Vin11 m (outsAll m h) c b) (hA11 m h c)
    rw [Pipeline.unscopedBufs_held] at hsplit0
    have hsplit : (StableHlo.held (c : Thread nD τ) (Pipeline.ucRefs τ sig) (Vin11 m (outsAll m h) c) : sProp 𝕄)
        ⊢ iprop((pdats m h 11 c).arrays ((pdats m h 11 c).arrAt · 0) ∗ Pipeline.unscopedRest spec11 c (fun b => Vin11 m (outsAll m h) c b)) := hsplit0
    rw [Pipeline.unscopedRest_split preFacts11 c,
      show (fun k => Vin11 m (outsAll m h) c (pre11.ref k)) = tbl11 m from funext fun k => Vin11_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 11 c).Φ 0 = iprop(Pipeline.ΦA spec11 c ∗ Pipeline.prefHeld pre11 c (fun _ => fullShare) (tbl11 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 11 c).Φ (Fin.last _) = iprop(Pipeline.ΦA spec11 c ∗ Pipeline.prefHeld pre11 c (fun _ => fullShare) (tbl11 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 11) (pcfgs (F := F)) (admAll m h) (Ix := Unit) (Name := ℕ) (U := UR sig nD τ) (Lvl := ℕ)
      winFacts11 arr_whole11 c (pdats m h) ((pdats m h 11 c).share_full fun _ => rfl)
      (fun b => Vin11 m (outsAll m h) c b) (fun b => Vout11 m (outsAll m h) c b) ((pdats m h 11 c).arrAt · (Pipeline.pin (pcfgs (F := F)) (admAll m h) 11).N) (hF11 m h c) (hrest11 m h c)
    rw [Pipeline.unscopedBufs_held] at hjoin0
    have hjoin : (iprop((pdats m h 11 c).arrays ((pdats m h 11 c).arrAt · (Pipeline.pin (pcfgs (F := F)) (admAll m h) 11).N) ∗ Pipeline.unscopedRest spec11 c (fun b => Vin11 m (outsAll m h) c b)) : sProp 𝕄)
        ⊢ StableHlo.held (c : Thread nD τ) (Pipeline.ucRefs τ sig) (Vout11 m (outsAll m h) c) := hjoin0
    rw [Pipeline.unscopedRest_split preFacts11 c,
      show (fun k => Vin11 m (outsAll m h) c (pre11.ref k)) = tbl11 m from funext fun k => Vin11_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl11_word (i : Fin 2048) (k : Fin 32) :
    (tbl11 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 11 + i.val, by have := i.isLt; omega⟩ k) := by
  show (StableHlo.after hostOps11 (V0 m (0 : Dev nD)) (Proc.devRef .tc main_v49) : IVec S65536 32) _ = _
  after_results
  refine (flatten_rows_apply _ _ i k _).trans ?_
  exact slice_rows_apply _ _ _ (2048 * 11) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge11_core (m : (ℓ : Loc nD τ sig) → Buf (Elt Ideal) ℓ) (pf : pre11.Contents (Elt Ideal)) (hO : ok11 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 11 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg11.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 11 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg11.tabRow pf hO i ⟨k, hk⟩) l).trans ?_
  show Cert.ReferenceIdeal.RefValue.xpadAt _ (Rg11.tabRow pf hO i ⟨k, hk⟩) l = _
  refine congrArg (fun j => Cert.ReferenceIdeal.RefValue.xpadAt _ j l) (Fin.ext ?_)
  rw [Rg11.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge11 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 11 + 2) main_v50 c (ValueIdx.ix3 i 0 l)
      = Cert.ReferenceIdeal.RefValue.refG (m ((c.tc : Thread nD τ).loc main_arg0)) (m ((c.tc : Thread nD τ).loc main_arg1))
          (ValueIdx.ix2 ⟨2048 * 11 + i.val, by have := i.isLt; omega⟩ l) := by
  obtain rfl : c = 0 := Subsingleton.elim _ _
  refine (congrFun (outsAll_11 m h (0 : Dev nD)) _).trans ?_
  refine (congrFun (Rg11.out_eq (Vent m) (tbl11 m) h.h11 (0 : Dev nD)) _).trans ?_
  exact bridge11_core m (tbl11 m) h.h11 (tbl11_word m) hp i l

end
end Cert.KernelIdeal.Hand

end
-- ==== Proof.KI.R12.Link.lean ====
/- Region 12's table satisfies the pipeline's side condition: its words are pooling indices, which the precondition
   bounds by 262144, the last row of the padded feature array. -/
/- Region 12 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R12.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 12's table is one of the pooling indices, so at most 262144. -/
theorem tbl12_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl12 m 0 x : BitVec 32).toNat ≤ 262144 := by
  show (StableHlo.after hostOps12 (V0 m (0 : Dev nD)) (Proc.devRef .tc main_v53) x : BitVec 32).toNat ≤ 262144
  after_results
  exact slice_cast_all (fun w : BitVec 32 => w.toNat ≤ 262144) _ _ _ _ (fun k => Cert.PreDecode.toNat_le_of_toInt _ (hb k)) x

/-- The pipeline's side condition at region 12's table: the feature window's block, at the row the table names,
    lies inside the padded feature array (and a transfer of 32-bit elements moves whole words). -/
theorem okT12 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok12 (F := F) (tbl12 m) := by
  intro i
  exact ⟨block_inside _ _ (tbl12_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 12's proof data are what the region finds: the padded feature array and the (not yet
    written) output array hold at its entry what they held after the first host stretch. -/
theorem hA12 (c : Dev nD) (w : Fin 2) : (pdats m h 12 c).A w = Vin12 m (outsAll m h) c (Pipeline.arrRef spec12 w) :=
  match w with
  | ⟨0, _⟩ => (Vin12_v3 m (outsAll m h) c).symm
  | ⟨1, _⟩ => (Vin12_out m (outsAll m h) c).symm

/-- At the exit each array holds what the pipeline leaves. -/
theorem hF12 (c : Dev nD) (w : Fin 2) : (pdats m h 12 c).arrAt w (Pipeline.pin (pcfgs (F := F)) (admAll m h) 12).N = Vout12 m (outsAll m h) c (Pipeline.arrRef spec12 w) :=
  match w with
  | ⟨0, _⟩ => ((pdats m h 12 c).arrAt_in 0 rfl _).trans (Vout12_v3 m (outsAll m h) c).symm
  | ⟨1, _⟩ => ((Vout12_out m (outsAll m h) c).trans (outsAll_12 m h c)).symm

theorem hrest12 (c : Dev nD) : ∀ b, b ∉ Finset.univ.image (Pipeline.arrRef spec12) → Vout12 m (outsAll m h) c b = Vin12 m (outsAll m h) c b :=
  fun b hb => Vout12_of m (outsAll m h) c b (fun hm => hb (by
    rw [List.mem_singleton] at hm; subst hm
    exact Finset.mem_image.mpr ⟨1, Finset.mem_univ _, rfl⟩))

set_option backward.isDefEq.respectTransparency.types false in
def reg12 : Pipeline.RegionSeg (pcfgs (F := F)) (admAll m h) (pdats m h) () defs₀ 𝒱₀ L lv 12 where
  win := winFacts12.to₀
  block_pos := block_pos12
  stage_whole := stage_whole12
  K := PEmpty
  osem k := k.elim
  ho := Pipeline.OwnSemFacts.none _
  hbody c := (Rg12.body_obligation (Vent m) (tbl12 m) h.h12 c).loose
  hwaits := Pipeline.hwaits_of_owed_zero _ _ _ _ L lv 12 fun _ _ => rfl
  pre c := iprop(StableHlo.held (c : Thread nD τ) (Pipeline.ucRefs τ sig) (Vin12 m (outsAll m h) c) ∗ Rst c)
  post c := iprop(StableHlo.held (c : Thread nD τ) (Pipeline.ucRefs τ sig) (Vout12 m (outsAll m h) c) ∗ Rst c)
  X c := iprop(∃ r, prngReg c r)
  Y c := iprop((∃ r, prngReg c r) ∗ Pipeline.prefHeld pre12 c (fun _ => fullShare) (tbl12 m))
  Z c := Pipeline.unscopedRestP (Ix := Unit) (Name := ℕ) (U := UR sig nD τ) (Lvl := ℕ) pre12 spec12 c (fun b => Vin12 m (outsAll m h) c b)
  hentry c := by
    rw [Pipeline.ownSems0_none]
    have hsplit0 := Pipeline.arrays_of_unscopedBufs (p := 12) (pcfgs (F := F)) (admAll m h) (pdats m h) winFacts12 arr_whole12 c
      ((pdats m h 12 c).share_full fun _ => rfl) (fun b => Vin12 m (outsAll m h) c b) (hA12 m h c)
    rw [Pipeline.unscopedBufs_held] at hsplit0
    have hsplit : (StableHlo.held (c : Thread nD τ) (Pipeline.ucRefs τ sig) (Vin12 m (outsAll m h) c) : sProp 𝕄)
        ⊢ iprop((pdats m h 12 c).arrays ((pdats m h 12 c).arrAt · 0) ∗ Pipeline.unscopedRest spec12 c (fun b => Vin12 m (outsAll m h) c b)) := hsplit0
    rw [Pipeline.unscopedRest_split preFacts12 c,
      show (fun k => Vin12 m (outsAll m h) c (pre12.ref k)) = tbl12 m from funext fun k => Vin12_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 12 c).Φ 0 = iprop(Pipeline.ΦA spec12 c ∗ Pipeline.prefHeld pre12 c (fun _ => fullShare) (tbl12 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 12 c).Φ (Fin.last _) = iprop(Pipeline.ΦA spec12 c ∗ Pipeline.prefHeld pre12 c (fun _ => fullShare) (tbl12 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 12) (pcfgs (F := F)) (admAll m h) (Ix := Unit) (Name := ℕ) (U := UR sig nD τ) (Lvl := ℕ)
      winFacts12 arr_whole12 c (pdats m h) ((pdats m h 12 c).share_full fun _ => rfl)
      (fun b => Vin12 m (outsAll m h) c b) (fun b => Vout12 m (outsAll m h) c b) ((pdats m h 12 c).arrAt · (Pipeline.pin (pcfgs (F := F)) (admAll m h) 12).N) (hF12 m h c) (hrest12 m h c)
    rw [Pipeline.unscopedBufs_held] at hjoin0
    have hjoin : (iprop((pdats m h 12 c).arrays ((pdats m h 12 c).arrAt · (Pipeline.pin (pcfgs (F := F)) (admAll m h) 12).N) ∗ Pipeline.unscopedRest spec12 c (fun b => Vin12 m (outsAll m h) c b)) : sProp 𝕄)
        ⊢ StableHlo.held (c : Thread nD τ) (Pipeline.ucRefs τ sig) (Vout12 m (outsAll m h) c) := hjoin0
    rw [Pipeline.unscopedRest_split preFacts12 c,
      show (fun k => Vin12 m (outsAll m h) c (pre12.ref k)) = tbl12 m from funext fun k => Vin12_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl12_word (i : Fin 2048) (k : Fin 32) :
    (tbl12 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 12 + i.val, by have := i.isLt; omega⟩ k) := by
  show (StableHlo.after hostOps12 (V0 m (0 : Dev nD)) (Proc.devRef .tc main_v53) : IVec S65536 32) _ = _
  after_results
  refine (flatten_rows_apply _ _ i k _).trans ?_
  exact slice_rows_apply _ _ _ (2048 * 12) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge12_core (m : (ℓ : Loc nD τ sig) → Buf (Elt Ideal) ℓ) (pf : pre12.Contents (Elt Ideal)) (hO : ok12 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 12 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg12.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 12 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg12.tabRow pf hO i ⟨k, hk⟩) l).trans ?_
  show Cert.ReferenceIdeal.RefValue.xpadAt _ (Rg12.tabRow pf hO i ⟨k, hk⟩) l = _
  refine congrArg (fun j => Cert.ReferenceIdeal.RefValue.xpadAt _ j l) (Fin.ext ?_)
  rw [Rg12.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge12 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 12 + 2) main_v54 c (ValueIdx.ix3 i 0 l)
      = Cert.ReferenceIdeal.RefValue.refG (m ((c.tc : Thread nD τ).loc main_arg0)) (m ((c.tc : Thread nD τ).loc main_arg1))
          (ValueIdx.ix2 ⟨2048 * 12 + i.val, by have := i.isLt; omega⟩ l) := by
  obtain rfl : c = 0 := Subsingleton.elim _ _
  refine (congrFun (outsAll_12 m h (0 : Dev nD)) _).trans ?_
  refine (congrFun (Rg12.out_eq (Vent m) (tbl12 m) h.h12 (0 : Dev nD)) _).trans ?_
  exact bridge12_core m (tbl12 m) h.h12 (tbl12_word m) hp i l

end
end Cert.KernelIdeal.Hand

end
-- ==== Proof.KI.R13.Link.lean ====
/- Region 13's table satisfies the pipeline's side condition: its words are pooling indices, which the precondition
   bounds by 262144, the last row of the padded feature array. -/
/- Region 13 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R13.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 13's table is one of the pooling indices, so at most 262144. -/
theorem tbl13_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl13 m 0 x : BitVec 32).toNat ≤ 262144 := by
  show (StableHlo.after hostOps13 (V0 m (0 : Dev nD)) (Proc.devRef .tc main_v57) x : BitVec 32).toNat ≤ 262144
  after_results
  exact slice_cast_all (fun w : BitVec 32 => w.toNat ≤ 262144) _ _ _ _ (fun k => Cert.PreDecode.toNat_le_of_toInt _ (hb k)) x

/-- The pipeline's side condition at region 13's table: the feature window's block, at the row the table names,
    lies inside the padded feature array (and a transfer of 32-bit elements moves whole words). -/
theorem okT13 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok13 (F := F) (tbl13 m) := by
  intro i
  exact ⟨block_inside _ _ (tbl13_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 13's proof data are what the region finds: the padded feature array and the (not yet
    written) output array hold at its entry what they held after the first host stretch. -/
theorem hA13 (c : Dev nD) (w : Fin 2) : (pdats m h 13 c).A w = Vin13 m (outsAll m h) c (Pipeline.arrRef spec13 w) :=
  match w with
  | ⟨0, _⟩ => (Vin13_v3 m (outsAll m h) c).symm
  | ⟨1, _⟩ => (Vin13_out m (outsAll m h) c).symm

/-- At the exit each array holds what the pipeline leaves. -/
theorem hF13 (c : Dev nD) (w : Fin 2) : (pdats m h 13 c).arrAt w (Pipeline.pin (pcfgs (F := F)) (admAll m h) 13).N = Vout13 m (outsAll m h) c (Pipeline.arrRef spec13 w) :=
  match w with
  | ⟨0, _⟩ => ((pdats m h 13 c).arrAt_in 0 rfl _).trans (Vout13_v3 m (outsAll m h) c).symm
  | ⟨1, _⟩ => ((Vout13_out m (outsAll m h) c).trans (outsAll_13 m h c)).symm

theorem hrest13 (c : Dev nD) : ∀ b, b ∉ Finset.univ.image (Pipeline.arrRef spec13) → Vout13 m (outsAll m h) c b = Vin13 m (outsAll m h) c b :=
  fun b hb => Vout13_of m (outsAll m h) c b (fun hm => hb (by
    rw [List.mem_singleton] at hm; subst hm
    exact Finset.mem_image.mpr ⟨1, Finset.mem_univ _, rfl⟩))

set_option backward.isDefEq.respectTransparency.types false in
def reg13 : Pipeline.RegionSeg (pcfgs (F := F)) (admAll m h) (pdats m h) () defs₀ 𝒱₀ L lv 13 where
  win := winFacts13.to₀
  block_pos := block_pos13
  stage_whole := stage_whole13
  K := PEmpty
  osem k := k.elim
  ho := Pipeline.OwnSemFacts.none _
  hbody c := (Rg13.body_obligation (Vent m) (tbl13 m) h.h13 c).loose
  hwaits := Pipeline.hwaits_of_owed_zero _ _ _ _ L lv 13 fun _ _ => rfl
  pre c := iprop(StableHlo.held (c : Thread nD τ) (Pipeline.ucRefs τ sig) (Vin13 m (outsAll m h) c) ∗ Rst c)
  post c := iprop(StableHlo.held (c : Thread nD τ) (Pipeline.ucRefs τ sig) (Vout13 m (outsAll m h) c) ∗ Rst c)
  X c := iprop(∃ r, prngReg c r)
  Y c := iprop((∃ r, prngReg c r) ∗ Pipeline.prefHeld pre13 c (fun _ => fullShare) (tbl13 m))
  Z c := Pipeline.unscopedRestP (Ix := Unit) (Name := ℕ) (U := UR sig nD τ) (Lvl := ℕ) pre13 spec13 c (fun b => Vin13 m (outsAll m h) c b)
  hentry c := by
    rw [Pipeline.ownSems0_none]
    have hsplit0 := Pipeline.arrays_of_unscopedBufs (p := 13) (pcfgs (F := F)) (admAll m h) (pdats m h) winFacts13 arr_whole13 c
      ((pdats m h 13 c).share_full fun _ => rfl) (fun b => Vin13 m (outsAll m h) c b) (hA13 m h c)
    rw [Pipeline.unscopedBufs_held] at hsplit0
    have hsplit : (StableHlo.held (c : Thread nD τ) (Pipeline.ucRefs τ sig) (Vin13 m (outsAll m h) c) : sProp 𝕄)
        ⊢ iprop((pdats m h 13 c).arrays ((pdats m h 13 c).arrAt · 0) ∗ Pipeline.unscopedRest spec13 c (fun b => Vin13 m (outsAll m h) c b)) := hsplit0
    rw [Pipeline.unscopedRest_split preFacts13 c,
      show (fun k => Vin13 m (outsAll m h) c (pre13.ref k)) = tbl13 m from funext fun k => Vin13_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 13 c).Φ 0 = iprop(Pipeline.ΦA spec13 c ∗ Pipeline.prefHeld pre13 c (fun _ => fullShare) (tbl13 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 13 c).Φ (Fin.last _) = iprop(Pipeline.ΦA spec13 c ∗ Pipeline.prefHeld pre13 c (fun _ => fullShare) (tbl13 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 13) (pcfgs (F := F)) (admAll m h) (Ix := Unit) (Name := ℕ) (U := UR sig nD τ) (Lvl := ℕ)
      winFacts13 arr_whole13 c (pdats m h) ((pdats m h 13 c).share_full fun _ => rfl)
      (fun b => Vin13 m (outsAll m h) c b) (fun b => Vout13 m (outsAll m h) c b) ((pdats m h 13 c).arrAt · (Pipeline.pin (pcfgs (F := F)) (admAll m h) 13).N) (hF13 m h c) (hrest13 m h c)
    rw [Pipeline.unscopedBufs_held] at hjoin0
    have hjoin : (iprop((pdats m h 13 c).arrays ((pdats m h 13 c).arrAt · (Pipeline.pin (pcfgs (F := F)) (admAll m h) 13).N) ∗ Pipeline.unscopedRest spec13 c (fun b => Vin13 m (outsAll m h) c b)) : sProp 𝕄)
        ⊢ StableHlo.held (c : Thread nD τ) (Pipeline.ucRefs τ sig) (Vout13 m (outsAll m h) c) := hjoin0
    rw [Pipeline.unscopedRest_split preFacts13 c,
      show (fun k => Vin13 m (outsAll m h) c (pre13.ref k)) = tbl13 m from funext fun k => Vin13_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl13_word (i : Fin 2048) (k : Fin 32) :
    (tbl13 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 13 + i.val, by have := i.isLt; omega⟩ k) := by
  show (StableHlo.after hostOps13 (V0 m (0 : Dev nD)) (Proc.devRef .tc main_v57) : IVec S65536 32) _ = _
  after_results
  refine (flatten_rows_apply _ _ i k _).trans ?_
  exact slice_rows_apply _ _ _ (2048 * 13) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge13_core (m : (ℓ : Loc nD τ sig) → Buf (Elt Ideal) ℓ) (pf : pre13.Contents (Elt Ideal)) (hO : ok13 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 13 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg13.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 13 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg13.tabRow pf hO i ⟨k, hk⟩) l).trans ?_
  show Cert.ReferenceIdeal.RefValue.xpadAt _ (Rg13.tabRow pf hO i ⟨k, hk⟩) l = _
  refine congrArg (fun j => Cert.ReferenceIdeal.RefValue.xpadAt _ j l) (Fin.ext ?_)
  rw [Rg13.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge13 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 13 + 2) main_v58 c (ValueIdx.ix3 i 0 l)
      = Cert.ReferenceIdeal.RefValue.refG (m ((c.tc : Thread nD τ).loc main_arg0)) (m ((c.tc : Thread nD τ).loc main_arg1))
          (ValueIdx.ix2 ⟨2048 * 13 + i.val, by have := i.isLt; omega⟩ l) := by
  obtain rfl : c = 0 := Subsingleton.elim _ _
  refine (congrFun (outsAll_13 m h (0 : Dev nD)) _).trans ?_
  refine (congrFun (Rg13.out_eq (Vent m) (tbl13 m) h.h13 (0 : Dev nD)) _).trans ?_
  exact bridge13_core m (tbl13 m) h.h13 (tbl13_word m) hp i l

end
end Cert.KernelIdeal.Hand

end
-- ==== Proof.KI.R14.Link.lean ====
/- Region 14's table satisfies the pipeline's side condition: its words are pooling indices, which the precondition
   bounds by 262144, the last row of the padded feature array. -/
/- Region 14 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R14.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 14's table is one of the pooling indices, so at most 262144. -/
theorem tbl14_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl14 m 0 x : BitVec 32).toNat ≤ 262144 := by
  show (StableHlo.after hostOps14 (V0 m (0 : Dev nD)) (Proc.devRef .tc main_v61) x : BitVec 32).toNat ≤ 262144
  after_results
  exact slice_cast_all (fun w : BitVec 32 => w.toNat ≤ 262144) _ _ _ _ (fun k => Cert.PreDecode.toNat_le_of_toInt _ (hb k)) x

/-- The pipeline's side condition at region 14's table: the feature window's block, at the row the table names,
    lies inside the padded feature array (and a transfer of 32-bit elements moves whole words). -/
theorem okT14 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok14 (F := F) (tbl14 m) := by
  intro i
  exact ⟨block_inside _ _ (tbl14_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 14's proof data are what the region finds: the padded feature array and the (not yet
    written) output array hold at its entry what they held after the first host stretch. -/
theorem hA14 (c : Dev nD) (w : Fin 2) : (pdats m h 14 c).A w = Vin14 m (outsAll m h) c (Pipeline.arrRef spec14 w) :=
  match w with
  | ⟨0, _⟩ => (Vin14_v3 m (outsAll m h) c).symm
  | ⟨1, _⟩ => (Vin14_out m (outsAll m h) c).symm

/-- At the exit each array holds what the pipeline leaves. -/
theorem hF14 (c : Dev nD) (w : Fin 2) : (pdats m h 14 c).arrAt w (Pipeline.pin (pcfgs (F := F)) (admAll m h) 14).N = Vout14 m (outsAll m h) c (Pipeline.arrRef spec14 w) :=
  match w with
  | ⟨0, _⟩ => ((pdats m h 14 c).arrAt_in 0 rfl _).trans (Vout14_v3 m (outsAll m h) c).symm
  | ⟨1, _⟩ => ((Vout14_out m (outsAll m h) c).trans (outsAll_14 m h c)).symm

theorem hrest14 (c : Dev nD) : ∀ b, b ∉ Finset.univ.image (Pipeline.arrRef spec14) → Vout14 m (outsAll m h) c b = Vin14 m (outsAll m h) c b :=
  fun b hb => Vout14_of m (outsAll m h) c b (fun hm => hb (by
    rw [List.mem_singleton] at hm; subst hm
    exact Finset.mem_image.mpr ⟨1, Finset.mem_univ _, rfl⟩))

set_option backward.isDefEq.respectTransparency.types false in
def reg14 : Pipeline.RegionSeg (pcfgs (F := F)) (admAll m h) (pdats m h) () defs₀ 𝒱₀ L lv 14 where
  win := winFacts14.to₀
  block_pos := block_pos14
  stage_whole := stage_whole14
  K := PEmpty
  osem k := k.elim
  ho := Pipeline.OwnSemFacts.none _
  hbody c := (Rg14.body_obligation (Vent m) (tbl14 m) h.h14 c).loose
  hwaits := Pipeline.hwaits_of_owed_zero _ _ _ _ L lv 14 fun _ _ => rfl
  pre c := iprop(StableHlo.held (c : Thread nD τ) (Pipeline.ucRefs τ sig) (Vin14 m (outsAll m h) c) ∗ Rst c)
  post c := iprop(StableHlo.held (c : Thread nD τ) (Pipeline.ucRefs τ sig) (Vout14 m (outsAll m h) c) ∗ Rst c)
  X c := iprop(∃ r, prngReg c r)
  Y c := iprop((∃ r, prngReg c r) ∗ Pipeline.prefHeld pre14 c (fun _ => fullShare) (tbl14 m))
  Z c := Pipeline.unscopedRestP (Ix := Unit) (Name := ℕ) (U := UR sig nD τ) (Lvl := ℕ) pre14 spec14 c (fun b => Vin14 m (outsAll m h) c b)
  hentry c := by
    rw [Pipeline.ownSems0_none]
    have hsplit0 := Pipeline.arrays_of_unscopedBufs (p := 14) (pcfgs (F := F)) (admAll m h) (pdats m h) winFacts14 arr_whole14 c
      ((pdats m h 14 c).share_full fun _ => rfl) (fun b => Vin14 m (outsAll m h) c b) (hA14 m h c)
    rw [Pipeline.unscopedBufs_held] at hsplit0
    have hsplit : (StableHlo.held (c : Thread nD τ) (Pipeline.ucRefs τ sig) (Vin14 m (outsAll m h) c) : sProp 𝕄)
        ⊢ iprop((pdats m h 14 c).arrays ((pdats m h 14 c).arrAt · 0) ∗ Pipeline.unscopedRest spec14 c (fun b => Vin14 m (outsAll m h) c b)) := hsplit0
    rw [Pipeline.unscopedRest_split preFacts14 c,
      show (fun k => Vin14 m (outsAll m h) c (pre14.ref k)) = tbl14 m from funext fun k => Vin14_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 14 c).Φ 0 = iprop(Pipeline.ΦA spec14 c ∗ Pipeline.prefHeld pre14 c (fun _ => fullShare) (tbl14 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 14 c).Φ (Fin.last _) = iprop(Pipeline.ΦA spec14 c ∗ Pipeline.prefHeld pre14 c (fun _ => fullShare) (tbl14 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 14) (pcfgs (F := F)) (admAll m h) (Ix := Unit) (Name := ℕ) (U := UR sig nD τ) (Lvl := ℕ)
      winFacts14 arr_whole14 c (pdats m h) ((pdats m h 14 c).share_full fun _ => rfl)
      (fun b => Vin14 m (outsAll m h) c b) (fun b => Vout14 m (outsAll m h) c b) ((pdats m h 14 c).arrAt · (Pipeline.pin (pcfgs (F := F)) (admAll m h) 14).N) (hF14 m h c) (hrest14 m h c)
    rw [Pipeline.unscopedBufs_held] at hjoin0
    have hjoin : (iprop((pdats m h 14 c).arrays ((pdats m h 14 c).arrAt · (Pipeline.pin (pcfgs (F := F)) (admAll m h) 14).N) ∗ Pipeline.unscopedRest spec14 c (fun b => Vin14 m (outsAll m h) c b)) : sProp 𝕄)
        ⊢ StableHlo.held (c : Thread nD τ) (Pipeline.ucRefs τ sig) (Vout14 m (outsAll m h) c) := hjoin0
    rw [Pipeline.unscopedRest_split preFacts14 c,
      show (fun k => Vin14 m (outsAll m h) c (pre14.ref k)) = tbl14 m from funext fun k => Vin14_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl14_word (i : Fin 2048) (k : Fin 32) :
    (tbl14 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 14 + i.val, by have := i.isLt; omega⟩ k) := by
  show (StableHlo.after hostOps14 (V0 m (0 : Dev nD)) (Proc.devRef .tc main_v61) : IVec S65536 32) _ = _
  after_results
  refine (flatten_rows_apply _ _ i k _).trans ?_
  exact slice_rows_apply _ _ _ (2048 * 14) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge14_core (m : (ℓ : Loc nD τ sig) → Buf (Elt Ideal) ℓ) (pf : pre14.Contents (Elt Ideal)) (hO : ok14 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 14 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg14.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 14 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg14.tabRow pf hO i ⟨k, hk⟩) l).trans ?_
  show Cert.ReferenceIdeal.RefValue.xpadAt _ (Rg14.tabRow pf hO i ⟨k, hk⟩) l = _
  refine congrArg (fun j => Cert.ReferenceIdeal.RefValue.xpadAt _ j l) (Fin.ext ?_)
  rw [Rg14.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge14 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 14 + 2) main_v62 c (ValueIdx.ix3 i 0 l)
      = Cert.ReferenceIdeal.RefValue.refG (m ((c.tc : Thread nD τ).loc main_arg0)) (m ((c.tc : Thread nD τ).loc main_arg1))
          (ValueIdx.ix2 ⟨2048 * 14 + i.val, by have := i.isLt; omega⟩ l) := by
  obtain rfl : c = 0 := Subsingleton.elim _ _
  refine (congrFun (outsAll_14 m h (0 : Dev nD)) _).trans ?_
  refine (congrFun (Rg14.out_eq (Vent m) (tbl14 m) h.h14 (0 : Dev nD)) _).trans ?_
  exact bridge14_core m (tbl14 m) h.h14 (tbl14_word m) hp i l

end
end Cert.KernelIdeal.Hand

end
-- ==== Proof.KI.R15.Link.lean ====
/- Region 15's table satisfies the pipeline's side condition: its words are pooling indices, which the precondition
   bounds by 262144, the last row of the padded feature array. -/
/- Region 15 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R15.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 15's table is one of the pooling indices, so at most 262144. -/
theorem tbl15_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl15 m 0 x : BitVec 32).toNat ≤ 262144 := by
  show (StableHlo.after hostOps15 (V0 m (0 : Dev nD)) (Proc.devRef .tc main_v65) x : BitVec 32).toNat ≤ 262144
  after_results
  exact slice_cast_all (fun w : BitVec 32 => w.toNat ≤ 262144) _ _ _ _ (fun k => Cert.PreDecode.toNat_le_of_toInt _ (hb k)) x

/-- The pipeline's side condition at region 15's table: the feature window's block, at the row the table names,
    lies inside the padded feature array (and a transfer of 32-bit elements moves whole words). -/
theorem okT15 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok15 (F := F) (tbl15 m) := by
  intro i
  exact ⟨block_inside _ _ (tbl15_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 15's proof data are what the region finds: the padded feature array and the (not yet
    written) output array hold at its entry what they held after the first host stretch. -/
theorem hA15 (c : Dev nD) (w : Fin 2) : (pdats m h 15 c).A w = Vin15 m (outsAll m h) c (Pipeline.arrRef spec15 w) :=
  match w with
  | ⟨0, _⟩ => (Vin15_v3 m (outsAll m h) c).symm
  | ⟨1, _⟩ => (Vin15_out m (outsAll m h) c).symm

/-- At the exit each array holds what the pipeline leaves. -/
theorem hF15 (c : Dev nD) (w : Fin 2) : (pdats m h 15 c).arrAt w (Pipeline.pin (pcfgs (F := F)) (admAll m h) 15).N = Vout15 m (outsAll m h) c (Pipeline.arrRef spec15 w) :=
  match w with
  | ⟨0, _⟩ => ((pdats m h 15 c).arrAt_in 0 rfl _).trans (Vout15_v3 m (outsAll m h) c).symm
  | ⟨1, _⟩ => ((Vout15_out m (outsAll m h) c).trans (outsAll_15 m h c)).symm

theorem hrest15 (c : Dev nD) : ∀ b, b ∉ Finset.univ.image (Pipeline.arrRef spec15) → Vout15 m (outsAll m h) c b = Vin15 m (outsAll m h) c b :=
  fun b hb => Vout15_of m (outsAll m h) c b (fun hm => hb (by
    rw [List.mem_singleton] at hm; subst hm
    exact Finset.mem_image.mpr ⟨1, Finset.mem_univ _, rfl⟩))

set_option backward.isDefEq.respectTransparency.types false in
def reg15 : Pipeline.RegionSeg (pcfgs (F := F)) (admAll m h) (pdats m h) () defs₀ 𝒱₀ L lv 15 where
  win := winFacts15.to₀
  block_pos := block_pos15
  stage_whole := stage_whole15
  K := PEmpty
  osem k := k.elim
  ho := Pipeline.OwnSemFacts.none _
  hbody c := (Rg15.body_obligation (Vent m) (tbl15 m) h.h15 c).loose
  hwaits := Pipeline.hwaits_of_owed_zero _ _ _ _ L lv 15 fun _ _ => rfl
  pre c := iprop(StableHlo.held (c : Thread nD τ) (Pipeline.ucRefs τ sig) (Vin15 m (outsAll m h) c) ∗ Rst c)
  post c := iprop(StableHlo.held (c : Thread nD τ) (Pipeline.ucRefs τ sig) (Vout15 m (outsAll m h) c) ∗ Rst c)
  X c := iprop(∃ r, prngReg c r)
  Y c := iprop((∃ r, prngReg c r) ∗ Pipeline.prefHeld pre15 c (fun _ => fullShare) (tbl15 m))
  Z c := Pipeline.unscopedRestP (Ix := Unit) (Name := ℕ) (U := UR sig nD τ) (Lvl := ℕ) pre15 spec15 c (fun b => Vin15 m (outsAll m h) c b)
  hentry c := by
    rw [Pipeline.ownSems0_none]
    have hsplit0 := Pipeline.arrays_of_unscopedBufs (p := 15) (pcfgs (F := F)) (admAll m h) (pdats m h) winFacts15 arr_whole15 c
      ((pdats m h 15 c).share_full fun _ => rfl) (fun b => Vin15 m (outsAll m h) c b) (hA15 m h c)
    rw [Pipeline.unscopedBufs_held] at hsplit0
    have hsplit : (StableHlo.held (c : Thread nD τ) (Pipeline.ucRefs τ sig) (Vin15 m (outsAll m h) c) : sProp 𝕄)
        ⊢ iprop((pdats m h 15 c).arrays ((pdats m h 15 c).arrAt · 0) ∗ Pipeline.unscopedRest spec15 c (fun b => Vin15 m (outsAll m h) c b)) := hsplit0
    rw [Pipeline.unscopedRest_split preFacts15 c,
      show (fun k => Vin15 m (outsAll m h) c (pre15.ref k)) = tbl15 m from funext fun k => Vin15_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 15 c).Φ 0 = iprop(Pipeline.ΦA spec15 c ∗ Pipeline.prefHeld pre15 c (fun _ => fullShare) (tbl15 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 15 c).Φ (Fin.last _) = iprop(Pipeline.ΦA spec15 c ∗ Pipeline.prefHeld pre15 c (fun _ => fullShare) (tbl15 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 15) (pcfgs (F := F)) (admAll m h) (Ix := Unit) (Name := ℕ) (U := UR sig nD τ) (Lvl := ℕ)
      winFacts15 arr_whole15 c (pdats m h) ((pdats m h 15 c).share_full fun _ => rfl)
      (fun b => Vin15 m (outsAll m h) c b) (fun b => Vout15 m (outsAll m h) c b) ((pdats m h 15 c).arrAt · (Pipeline.pin (pcfgs (F := F)) (admAll m h) 15).N) (hF15 m h c) (hrest15 m h c)
    rw [Pipeline.unscopedBufs_held] at hjoin0
    have hjoin : (iprop((pdats m h 15 c).arrays ((pdats m h 15 c).arrAt · (Pipeline.pin (pcfgs (F := F)) (admAll m h) 15).N) ∗ Pipeline.unscopedRest spec15 c (fun b => Vin15 m (outsAll m h) c b)) : sProp 𝕄)
        ⊢ StableHlo.held (c : Thread nD τ) (Pipeline.ucRefs τ sig) (Vout15 m (outsAll m h) c) := hjoin0
    rw [Pipeline.unscopedRest_split preFacts15 c,
      show (fun k => Vin15 m (outsAll m h) c (pre15.ref k)) = tbl15 m from funext fun k => Vin15_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl15_word (i : Fin 2048) (k : Fin 32) :
    (tbl15 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 15 + i.val, by have := i.isLt; omega⟩ k) := by
  show (StableHlo.after hostOps15 (V0 m (0 : Dev nD)) (Proc.devRef .tc main_v65) : IVec S65536 32) _ = _
  after_results
  refine (flatten_rows_apply _ _ i k _).trans ?_
  exact slice_rows_apply _ _ _ (2048 * 15) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge15_core (m : (ℓ : Loc nD τ sig) → Buf (Elt Ideal) ℓ) (pf : pre15.Contents (Elt Ideal)) (hO : ok15 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 15 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg15.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 15 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg15.tabRow pf hO i ⟨k, hk⟩) l).trans ?_
  show Cert.ReferenceIdeal.RefValue.xpadAt _ (Rg15.tabRow pf hO i ⟨k, hk⟩) l = _
  refine congrArg (fun j => Cert.ReferenceIdeal.RefValue.xpadAt _ j l) (Fin.ext ?_)
  rw [Rg15.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge15 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 15 + 2) main_v66 c (ValueIdx.ix3 i 0 l)
      = Cert.ReferenceIdeal.RefValue.refG (m ((c.tc : Thread nD τ).loc main_arg0)) (m ((c.tc : Thread nD τ).loc main_arg1))
          (ValueIdx.ix2 ⟨2048 * 15 + i.val, by have := i.isLt; omega⟩ l) := by
  obtain rfl : c = 0 := Subsingleton.elim _ _
  refine (congrFun (outsAll_15 m h (0 : Dev nD)) _).trans ?_
  refine (congrFun (Rg15.out_eq (Vent m) (tbl15 m) h.h15 (0 : Dev nD)) _).trans ?_
  exact bridge15_core m (tbl15 m) h.h15 (tbl15_word m) hp i l

end
end Cert.KernelIdeal.Hand

end
-- ==== Proof.KI.R16.Link.lean ====
/- Region 16's table satisfies the pipeline's side condition: its words are pooling indices, which the precondition
   bounds by 262144, the last row of the padded feature array. -/
/- Region 16 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R16.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 16's table is one of the pooling indices, so at most 262144. -/
theorem tbl16_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl16 m 0 x : BitVec 32).toNat ≤ 262144 := by
  show (StableHlo.after hostOps16 (V0 m (0 : Dev nD)) (Proc.devRef .tc main_v69) x : BitVec 32).toNat ≤ 262144
  after_results
  exact slice_cast_all (fun w : BitVec 32 => w.toNat ≤ 262144) _ _ _ _ (fun k => Cert.PreDecode.toNat_le_of_toInt _ (hb k)) x

/-- The pipeline's side condition at region 16's table: the feature window's block, at the row the table names,
    lies inside the padded feature array (and a transfer of 32-bit elements moves whole words). -/
theorem okT16 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok16 (F := F) (tbl16 m) := by
  intro i
  exact ⟨block_inside _ _ (tbl16_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 16's proof data are what the region finds: the padded feature array and the (not yet
    written) output array hold at its entry what they held after the first host stretch. -/
theorem hA16 (c : Dev nD) (w : Fin 2) : (pdats m h 16 c).A w = Vin16 m (outsAll m h) c (Pipeline.arrRef spec16 w) :=
  match w with
  | ⟨0, _⟩ => (Vin16_v3 m (outsAll m h) c).symm
  | ⟨1, _⟩ => (Vin16_out m (outsAll m h) c).symm

/-- At the exit each array holds what the pipeline leaves. -/
theorem hF16 (c : Dev nD) (w : Fin 2) : (pdats m h 16 c).arrAt w (Pipeline.pin (pcfgs (F := F)) (admAll m h) 16).N = Vout16 m (outsAll m h) c (Pipeline.arrRef spec16 w) :=
  match w with
  | ⟨0, _⟩ => ((pdats m h 16 c).arrAt_in 0 rfl _).trans (Vout16_v3 m (outsAll m h) c).symm
  | ⟨1, _⟩ => ((Vout16_out m (outsAll m h) c).trans (outsAll_16 m h c)).symm

theorem hrest16 (c : Dev nD) : ∀ b, b ∉ Finset.univ.image (Pipeline.arrRef spec16) → Vout16 m (outsAll m h) c b = Vin16 m (outsAll m h) c b :=
  fun b hb => Vout16_of m (outsAll m h) c b (fun hm => hb (by
    rw [List.mem_singleton] at hm; subst hm
    exact Finset.mem_image.mpr ⟨1, Finset.mem_univ _, rfl⟩))

set_option backward.isDefEq.respectTransparency.types false in
def reg16 : Pipeline.RegionSeg (pcfgs (F := F)) (admAll m h) (pdats m h) () defs₀ 𝒱₀ L lv 16 where
  win := winFacts16.to₀
  block_pos := block_pos16
  stage_whole := stage_whole16
  K := PEmpty
  osem k := k.elim
  ho := Pipeline.OwnSemFacts.none _
  hbody c := (Rg16.body_obligation (Vent m) (tbl16 m) h.h16 c).loose
  hwaits := Pipeline.hwaits_of_owed_zero _ _ _ _ L lv 16 fun _ _ => rfl
  pre c := iprop(StableHlo.held (c : Thread nD τ) (Pipeline.ucRefs τ sig) (Vin16 m (outsAll m h) c) ∗ Rst c)
  post c := iprop(StableHlo.held (c : Thread nD τ) (Pipeline.ucRefs τ sig) (Vout16 m (outsAll m h) c) ∗ Rst c)
  X c := iprop(∃ r, prngReg c r)
  Y c := iprop((∃ r, prngReg c r) ∗ Pipeline.prefHeld pre16 c (fun _ => fullShare) (tbl16 m))
  Z c := Pipeline.unscopedRestP (Ix := Unit) (Name := ℕ) (U := UR sig nD τ) (Lvl := ℕ) pre16 spec16 c (fun b => Vin16 m (outsAll m h) c b)
  hentry c := by
    rw [Pipeline.ownSems0_none]
    have hsplit0 := Pipeline.arrays_of_unscopedBufs (p := 16) (pcfgs (F := F)) (admAll m h) (pdats m h) winFacts16 arr_whole16 c
      ((pdats m h 16 c).share_full fun _ => rfl) (fun b => Vin16 m (outsAll m h) c b) (hA16 m h c)
    rw [Pipeline.unscopedBufs_held] at hsplit0
    have hsplit : (StableHlo.held (c : Thread nD τ) (Pipeline.ucRefs τ sig) (Vin16 m (outsAll m h) c) : sProp 𝕄)
        ⊢ iprop((pdats m h 16 c).arrays ((pdats m h 16 c).arrAt · 0) ∗ Pipeline.unscopedRest spec16 c (fun b => Vin16 m (outsAll m h) c b)) := hsplit0
    rw [Pipeline.unscopedRest_split preFacts16 c,
      show (fun k => Vin16 m (outsAll m h) c (pre16.ref k)) = tbl16 m from funext fun k => Vin16_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 16 c).Φ 0 = iprop(Pipeline.ΦA spec16 c ∗ Pipeline.prefHeld pre16 c (fun _ => fullShare) (tbl16 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 16 c).Φ (Fin.last _) = iprop(Pipeline.ΦA spec16 c ∗ Pipeline.prefHeld pre16 c (fun _ => fullShare) (tbl16 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 16) (pcfgs (F := F)) (admAll m h) (Ix := Unit) (Name := ℕ) (U := UR sig nD τ) (Lvl := ℕ)
      winFacts16 arr_whole16 c (pdats m h) ((pdats m h 16 c).share_full fun _ => rfl)
      (fun b => Vin16 m (outsAll m h) c b) (fun b => Vout16 m (outsAll m h) c b) ((pdats m h 16 c).arrAt · (Pipeline.pin (pcfgs (F := F)) (admAll m h) 16).N) (hF16 m h c) (hrest16 m h c)
    rw [Pipeline.unscopedBufs_held] at hjoin0
    have hjoin : (iprop((pdats m h 16 c).arrays ((pdats m h 16 c).arrAt · (Pipeline.pin (pcfgs (F := F)) (admAll m h) 16).N) ∗ Pipeline.unscopedRest spec16 c (fun b => Vin16 m (outsAll m h) c b)) : sProp 𝕄)
        ⊢ StableHlo.held (c : Thread nD τ) (Pipeline.ucRefs τ sig) (Vout16 m (outsAll m h) c) := hjoin0
    rw [Pipeline.unscopedRest_split preFacts16 c,
      show (fun k => Vin16 m (outsAll m h) c (pre16.ref k)) = tbl16 m from funext fun k => Vin16_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl16_word (i : Fin 2048) (k : Fin 32) :
    (tbl16 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 16 + i.val, by have := i.isLt; omega⟩ k) := by
  show (StableHlo.after hostOps16 (V0 m (0 : Dev nD)) (Proc.devRef .tc main_v69) : IVec S65536 32) _ = _
  after_results
  refine (flatten_rows_apply _ _ i k _).trans ?_
  exact slice_rows_apply _ _ _ (2048 * 16) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge16_core (m : (ℓ : Loc nD τ sig) → Buf (Elt Ideal) ℓ) (pf : pre16.Contents (Elt Ideal)) (hO : ok16 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 16 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg16.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 16 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg16.tabRow pf hO i ⟨k, hk⟩) l).trans ?_
  show Cert.ReferenceIdeal.RefValue.xpadAt _ (Rg16.tabRow pf hO i ⟨k, hk⟩) l = _
  refine congrArg (fun j => Cert.ReferenceIdeal.RefValue.xpadAt _ j l) (Fin.ext ?_)
  rw [Rg16.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge16 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 16 + 2) main_v70 c (ValueIdx.ix3 i 0 l)
      = Cert.ReferenceIdeal.RefValue.refG (m ((c.tc : Thread nD τ).loc main_arg0)) (m ((c.tc : Thread nD τ).loc main_arg1))
          (ValueIdx.ix2 ⟨2048 * 16 + i.val, by have := i.isLt; omega⟩ l) := by
  obtain rfl : c = 0 := Subsingleton.elim _ _
  refine (congrFun (outsAll_16 m h (0 : Dev nD)) _).trans ?_
  refine (congrFun (Rg16.out_eq (Vent m) (tbl16 m) h.h16 (0 : Dev nD)) _).trans ?_
  exact bridge16_core m (tbl16 m) h.h16 (tbl16_word m) hp i l

end
end Cert.KernelIdeal.Hand

end
-- ==== Proof.KI.R17.Link.lean ====
/- Region 17's table satisfies the pipeline's side condition: its words are pooling indices, which the precondition
   bounds by 262144, the last row of the padded feature array. -/
/- Region 17 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R17.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 17's table is one of the pooling indices, so at most 262144. -/
theorem tbl17_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl17 m 0 x : BitVec 32).toNat ≤ 262144 := by
  show (StableHlo.after hostOps17 (V0 m (0 : Dev nD)) (Proc.devRef .tc main_v73) x : BitVec 32).toNat ≤ 262144
  after_results
  exact slice_cast_all (fun w : BitVec 32 => w.toNat ≤ 262144) _ _ _ _ (fun k => Cert.PreDecode.toNat_le_of_toInt _ (hb k)) x

/-- The pipeline's side condition at region 17's table: the feature window's block, at the row the table names,
    lies inside the padded feature array (and a transfer of 32-bit elements moves whole words). -/
theorem okT17 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok17 (F := F) (tbl17 m) := by
  intro i
  exact ⟨block_inside _ _ (tbl17_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 17's proof data are what the region finds: the padded feature array and the (not yet
    written) output array hold at its entry what they held after the first host stretch. -/
theorem hA17 (c : Dev nD) (w : Fin 2) : (pdats m h 17 c).A w = Vin17 m (outsAll m h) c (Pipeline.arrRef spec17 w) :=
  match w with
  | ⟨0, _⟩ => (Vin17_v3 m (outsAll m h) c).symm
  | ⟨1, _⟩ => (Vin17_out m (outsAll m h) c).symm

/-- At the exit each array holds what the pipeline leaves. -/
theorem hF17 (c : Dev nD) (w : Fin 2) : (pdats m h 17 c).arrAt w (Pipeline.pin (pcfgs (F := F)) (admAll m h) 17).N = Vout17 m (outsAll m h) c (Pipeline.arrRef spec17 w) :=
  match w with
  | ⟨0, _⟩ => ((pdats m h 17 c).arrAt_in 0 rfl _).trans (Vout17_v3 m (outsAll m h) c).symm
  | ⟨1, _⟩ => ((Vout17_out m (outsAll m h) c).trans (outsAll_17 m h c)).symm

theorem hrest17 (c : Dev nD) : ∀ b, b ∉ Finset.univ.image (Pipeline.arrRef spec17) → Vout17 m (outsAll m h) c b = Vin17 m (outsAll m h) c b :=
  fun b hb => Vout17_of m (outsAll m h) c b (fun hm => hb (by
    rw [List.mem_singleton] at hm; subst hm
    exact Finset.mem_image.mpr ⟨1, Finset.mem_univ _, rfl⟩))

set_option backward.isDefEq.respectTransparency.types false in
def reg17 : Pipeline.RegionSeg (pcfgs (F := F)) (admAll m h) (pdats m h) () defs₀ 𝒱₀ L lv 17 where
  win := winFacts17.to₀
  block_pos := block_pos17
  stage_whole := stage_whole17
  K := PEmpty
  osem k := k.elim
  ho := Pipeline.OwnSemFacts.none _
  hbody c := (Rg17.body_obligation (Vent m) (tbl17 m) h.h17 c).loose
  hwaits := Pipeline.hwaits_of_owed_zero _ _ _ _ L lv 17 fun _ _ => rfl
  pre c := iprop(StableHlo.held (c : Thread nD τ) (Pipeline.ucRefs τ sig) (Vin17 m (outsAll m h) c) ∗ Rst c)
  post c := iprop(StableHlo.held (c : Thread nD τ) (Pipeline.ucRefs τ sig) (Vout17 m (outsAll m h) c) ∗ Rst c)
  X c := iprop(∃ r, prngReg c r)
  Y c := iprop((∃ r, prngReg c r) ∗ Pipeline.prefHeld pre17 c (fun _ => fullShare) (tbl17 m))
  Z c := Pipeline.unscopedRestP (Ix := Unit) (Name := ℕ) (U := UR sig nD τ) (Lvl := ℕ) pre17 spec17 c (fun b => Vin17 m (outsAll m h) c b)
  hentry c := by
    rw [Pipeline.ownSems0_none]
    have hsplit0 := Pipeline.arrays_of_unscopedBufs (p := 17) (pcfgs (F := F)) (admAll m h) (pdats m h) winFacts17 arr_whole17 c
      ((pdats m h 17 c).share_full fun _ => rfl) (fun b => Vin17 m (outsAll m h) c b) (hA17 m h c)
    rw [Pipeline.unscopedBufs_held] at hsplit0
    have hsplit : (StableHlo.held (c : Thread nD τ) (Pipeline.ucRefs τ sig) (Vin17 m (outsAll m h) c) : sProp 𝕄)
        ⊢ iprop((pdats m h 17 c).arrays ((pdats m h 17 c).arrAt · 0) ∗ Pipeline.unscopedRest spec17 c (fun b => Vin17 m (outsAll m h) c b)) := hsplit0
    rw [Pipeline.unscopedRest_split preFacts17 c,
      show (fun k => Vin17 m (outsAll m h) c (pre17.ref k)) = tbl17 m from funext fun k => Vin17_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 17 c).Φ 0 = iprop(Pipeline.ΦA spec17 c ∗ Pipeline.prefHeld pre17 c (fun _ => fullShare) (tbl17 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 17 c).Φ (Fin.last _) = iprop(Pipeline.ΦA spec17 c ∗ Pipeline.prefHeld pre17 c (fun _ => fullShare) (tbl17 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 17) (pcfgs (F := F)) (admAll m h) (Ix := Unit) (Name := ℕ) (U := UR sig nD τ) (Lvl := ℕ)
      winFacts17 arr_whole17 c (pdats m h) ((pdats m h 17 c).share_full fun _ => rfl)
      (fun b => Vin17 m (outsAll m h) c b) (fun b => Vout17 m (outsAll m h) c b) ((pdats m h 17 c).arrAt · (Pipeline.pin (pcfgs (F := F)) (admAll m h) 17).N) (hF17 m h c) (hrest17 m h c)
    rw [Pipeline.unscopedBufs_held] at hjoin0
    have hjoin : (iprop((pdats m h 17 c).arrays ((pdats m h 17 c).arrAt · (Pipeline.pin (pcfgs (F := F)) (admAll m h) 17).N) ∗ Pipeline.unscopedRest spec17 c (fun b => Vin17 m (outsAll m h) c b)) : sProp 𝕄)
        ⊢ StableHlo.held (c : Thread nD τ) (Pipeline.ucRefs τ sig) (Vout17 m (outsAll m h) c) := hjoin0
    rw [Pipeline.unscopedRest_split preFacts17 c,
      show (fun k => Vin17 m (outsAll m h) c (pre17.ref k)) = tbl17 m from funext fun k => Vin17_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl17_word (i : Fin 2048) (k : Fin 32) :
    (tbl17 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 17 + i.val, by have := i.isLt; omega⟩ k) := by
  show (StableHlo.after hostOps17 (V0 m (0 : Dev nD)) (Proc.devRef .tc main_v73) : IVec S65536 32) _ = _
  after_results
  refine (flatten_rows_apply _ _ i k _).trans ?_
  exact slice_rows_apply _ _ _ (2048 * 17) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge17_core (m : (ℓ : Loc nD τ sig) → Buf (Elt Ideal) ℓ) (pf : pre17.Contents (Elt Ideal)) (hO : ok17 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 17 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg17.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 17 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg17.tabRow pf hO i ⟨k, hk⟩) l).trans ?_
  show Cert.ReferenceIdeal.RefValue.xpadAt _ (Rg17.tabRow pf hO i ⟨k, hk⟩) l = _
  refine congrArg (fun j => Cert.ReferenceIdeal.RefValue.xpadAt _ j l) (Fin.ext ?_)
  rw [Rg17.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge17 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 17 + 2) main_v74 c (ValueIdx.ix3 i 0 l)
      = Cert.ReferenceIdeal.RefValue.refG (m ((c.tc : Thread nD τ).loc main_arg0)) (m ((c.tc : Thread nD τ).loc main_arg1))
          (ValueIdx.ix2 ⟨2048 * 17 + i.val, by have := i.isLt; omega⟩ l) := by
  obtain rfl : c = 0 := Subsingleton.elim _ _
  refine (congrFun (outsAll_17 m h (0 : Dev nD)) _).trans ?_
  refine (congrFun (Rg17.out_eq (Vent m) (tbl17 m) h.h17 (0 : Dev nD)) _).trans ?_
  exact bridge17_core m (tbl17 m) h.h17 (tbl17_word m) hp i l

end
end Cert.KernelIdeal.Hand

end
-- ==== Proof.KI.R18.Link.lean ====
/- Region 18's table satisfies the pipeline's side condition: its words are pooling indices, which the precondition
   bounds by 262144, the last row of the padded feature array. -/
/- Region 18 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R18.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 18's table is one of the pooling indices, so at most 262144. -/
theorem tbl18_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl18 m 0 x : BitVec 32).toNat ≤ 262144 := by
  show (StableHlo.after hostOps18 (V0 m (0 : Dev nD)) (Proc.devRef .tc main_v77) x : BitVec 32).toNat ≤ 262144
  after_results
  exact slice_cast_all (fun w : BitVec 32 => w.toNat ≤ 262144) _ _ _ _ (fun k => Cert.PreDecode.toNat_le_of_toInt _ (hb k)) x

/-- The pipeline's side condition at region 18's table: the feature window's block, at the row the table names,
    lies inside the padded feature array (and a transfer of 32-bit elements moves whole words). -/
theorem okT18 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok18 (F := F) (tbl18 m) := by
  intro i
  exact ⟨block_inside _ _ (tbl18_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 18's proof data are what the region finds: the padded feature array and the (not yet
    written) output array hold at its entry what they held after the first host stretch. -/
theorem hA18 (c : Dev nD) (w : Fin 2) : (pdats m h 18 c).A w = Vin18 m (outsAll m h) c (Pipeline.arrRef spec18 w) :=
  match w with
  | ⟨0, _⟩ => (Vin18_v3 m (outsAll m h) c).symm
  | ⟨1, _⟩ => (Vin18_out m (outsAll m h) c).symm

/-- At the exit each array holds what the pipeline leaves. -/
theorem hF18 (c : Dev nD) (w : Fin 2) : (pdats m h 18 c).arrAt w (Pipeline.pin (pcfgs (F := F)) (admAll m h) 18).N = Vout18 m (outsAll m h) c (Pipeline.arrRef spec18 w) :=
  match w with
  | ⟨0, _⟩ => ((pdats m h 18 c).arrAt_in 0 rfl _).trans (Vout18_v3 m (outsAll m h) c).symm
  | ⟨1, _⟩ => ((Vout18_out m (outsAll m h) c).trans (outsAll_18 m h c)).symm

theorem hrest18 (c : Dev nD) : ∀ b, b ∉ Finset.univ.image (Pipeline.arrRef spec18) → Vout18 m (outsAll m h) c b = Vin18 m (outsAll m h) c b :=
  fun b hb => Vout18_of m (outsAll m h) c b (fun hm => hb (by
    rw [List.mem_singleton] at hm; subst hm
    exact Finset.mem_image.mpr ⟨1, Finset.mem_univ _, rfl⟩))

set_option backward.isDefEq.respectTransparency.types false in
def reg18 : Pipeline.RegionSeg (pcfgs (F := F)) (admAll m h) (pdats m h) () defs₀ 𝒱₀ L lv 18 where
  win := winFacts18.to₀
  block_pos := block_pos18
  stage_whole := stage_whole18
  K := PEmpty
  osem k := k.elim
  ho := Pipeline.OwnSemFacts.none _
  hbody c := (Rg18.body_obligation (Vent m) (tbl18 m) h.h18 c).loose
  hwaits := Pipeline.hwaits_of_owed_zero _ _ _ _ L lv 18 fun _ _ => rfl
  pre c := iprop(StableHlo.held (c : Thread nD τ) (Pipeline.ucRefs τ sig) (Vin18 m (outsAll m h) c) ∗ Rst c)
  post c := iprop(StableHlo.held (c : Thread nD τ) (Pipeline.ucRefs τ sig) (Vout18 m (outsAll m h) c) ∗ Rst c)
  X c := iprop(∃ r, prngReg c r)
  Y c := iprop((∃ r, prngReg c r) ∗ Pipeline.prefHeld pre18 c (fun _ => fullShare) (tbl18 m))
  Z c := Pipeline.unscopedRestP (Ix := Unit) (Name := ℕ) (U := UR sig nD τ) (Lvl := ℕ) pre18 spec18 c (fun b => Vin18 m (outsAll m h) c b)
  hentry c := by
    rw [Pipeline.ownSems0_none]
    have hsplit0 := Pipeline.arrays_of_unscopedBufs (p := 18) (pcfgs (F := F)) (admAll m h) (pdats m h) winFacts18 arr_whole18 c
      ((pdats m h 18 c).share_full fun _ => rfl) (fun b => Vin18 m (outsAll m h) c b) (hA18 m h c)
    rw [Pipeline.unscopedBufs_held] at hsplit0
    have hsplit : (StableHlo.held (c : Thread nD τ) (Pipeline.ucRefs τ sig) (Vin18 m (outsAll m h) c) : sProp 𝕄)
        ⊢ iprop((pdats m h 18 c).arrays ((pdats m h 18 c).arrAt · 0) ∗ Pipeline.unscopedRest spec18 c (fun b => Vin18 m (outsAll m h) c b)) := hsplit0
    rw [Pipeline.unscopedRest_split preFacts18 c,
      show (fun k => Vin18 m (outsAll m h) c (pre18.ref k)) = tbl18 m from funext fun k => Vin18_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 18 c).Φ 0 = iprop(Pipeline.ΦA spec18 c ∗ Pipeline.prefHeld pre18 c (fun _ => fullShare) (tbl18 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 18 c).Φ (Fin.last _) = iprop(Pipeline.ΦA spec18 c ∗ Pipeline.prefHeld pre18 c (fun _ => fullShare) (tbl18 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 18) (pcfgs (F := F)) (admAll m h) (Ix := Unit) (Name := ℕ) (U := UR sig nD τ) (Lvl := ℕ)
      winFacts18 arr_whole18 c (pdats m h) ((pdats m h 18 c).share_full fun _ => rfl)
      (fun b => Vin18 m (outsAll m h) c b) (fun b => Vout18 m (outsAll m h) c b) ((pdats m h 18 c).arrAt · (Pipeline.pin (pcfgs (F := F)) (admAll m h) 18).N) (hF18 m h c) (hrest18 m h c)
    rw [Pipeline.unscopedBufs_held] at hjoin0
    have hjoin : (iprop((pdats m h 18 c).arrays ((pdats m h 18 c).arrAt · (Pipeline.pin (pcfgs (F := F)) (admAll m h) 18).N) ∗ Pipeline.unscopedRest spec18 c (fun b => Vin18 m (outsAll m h) c b)) : sProp 𝕄)
        ⊢ StableHlo.held (c : Thread nD τ) (Pipeline.ucRefs τ sig) (Vout18 m (outsAll m h) c) := hjoin0
    rw [Pipeline.unscopedRest_split preFacts18 c,
      show (fun k => Vin18 m (outsAll m h) c (pre18.ref k)) = tbl18 m from funext fun k => Vin18_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl18_word (i : Fin 2048) (k : Fin 32) :
    (tbl18 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 18 + i.val, by have := i.isLt; omega⟩ k) := by
  show (StableHlo.after hostOps18 (V0 m (0 : Dev nD)) (Proc.devRef .tc main_v77) : IVec S65536 32) _ = _
  after_results
  refine (flatten_rows_apply _ _ i k _).trans ?_
  exact slice_rows_apply _ _ _ (2048 * 18) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge18_core (m : (ℓ : Loc nD τ sig) → Buf (Elt Ideal) ℓ) (pf : pre18.Contents (Elt Ideal)) (hO : ok18 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 18 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg18.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 18 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg18.tabRow pf hO i ⟨k, hk⟩) l).trans ?_
  show Cert.ReferenceIdeal.RefValue.xpadAt _ (Rg18.tabRow pf hO i ⟨k, hk⟩) l = _
  refine congrArg (fun j => Cert.ReferenceIdeal.RefValue.xpadAt _ j l) (Fin.ext ?_)
  rw [Rg18.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge18 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 18 + 2) main_v78 c (ValueIdx.ix3 i 0 l)
      = Cert.ReferenceIdeal.RefValue.refG (m ((c.tc : Thread nD τ).loc main_arg0)) (m ((c.tc : Thread nD τ).loc main_arg1))
          (ValueIdx.ix2 ⟨2048 * 18 + i.val, by have := i.isLt; omega⟩ l) := by
  obtain rfl : c = 0 := Subsingleton.elim _ _
  refine (congrFun (outsAll_18 m h (0 : Dev nD)) _).trans ?_
  refine (congrFun (Rg18.out_eq (Vent m) (tbl18 m) h.h18 (0 : Dev nD)) _).trans ?_
  exact bridge18_core m (tbl18 m) h.h18 (tbl18_word m) hp i l

end
end Cert.KernelIdeal.Hand

end
-- ==== Proof.KI.R19.Link.lean ====
/- Region 19's table satisfies the pipeline's side condition: its words are pooling indices, which the precondition
   bounds by 262144, the last row of the padded feature array. -/
/- Region 19 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R19.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 19's table is one of the pooling indices, so at most 262144. -/
theorem tbl19_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl19 m 0 x : BitVec 32).toNat ≤ 262144 := by
  show (StableHlo.after hostOps19 (V0 m (0 : Dev nD)) (Proc.devRef .tc main_v81) x : BitVec 32).toNat ≤ 262144
  after_results
  exact slice_cast_all (fun w : BitVec 32 => w.toNat ≤ 262144) _ _ _ _ (fun k => Cert.PreDecode.toNat_le_of_toInt _ (hb k)) x

/-- The pipeline's side condition at region 19's table: the feature window's block, at the row the table names,
    lies inside the padded feature array (and a transfer of 32-bit elements moves whole words). -/
theorem okT19 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok19 (F := F) (tbl19 m) := by
  intro i
  exact ⟨block_inside _ _ (tbl19_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 19's proof data are what the region finds: the padded feature array and the (not yet
    written) output array hold at its entry what they held after the first host stretch. -/
theorem hA19 (c : Dev nD) (w : Fin 2) : (pdats m h 19 c).A w = Vin19 m (outsAll m h) c (Pipeline.arrRef spec19 w) :=
  match w with
  | ⟨0, _⟩ => (Vin19_v3 m (outsAll m h) c).symm
  | ⟨1, _⟩ => (Vin19_out m (outsAll m h) c).symm

/-- At the exit each array holds what the pipeline leaves. -/
theorem hF19 (c : Dev nD) (w : Fin 2) : (pdats m h 19 c).arrAt w (Pipeline.pin (pcfgs (F := F)) (admAll m h) 19).N = Vout19 m (outsAll m h) c (Pipeline.arrRef spec19 w) :=
  match w with
  | ⟨0, _⟩ => ((pdats m h 19 c).arrAt_in 0 rfl _).trans (Vout19_v3 m (outsAll m h) c).symm
  | ⟨1, _⟩ => ((Vout19_out m (outsAll m h) c).trans (outsAll_19 m h c)).symm

theorem hrest19 (c : Dev nD) : ∀ b, b ∉ Finset.univ.image (Pipeline.arrRef spec19) → Vout19 m (outsAll m h) c b = Vin19 m (outsAll m h) c b :=
  fun b hb => Vout19_of m (outsAll m h) c b (fun hm => hb (by
    rw [List.mem_singleton] at hm; subst hm
    exact Finset.mem_image.mpr ⟨1, Finset.mem_univ _, rfl⟩))

set_option backward.isDefEq.respectTransparency.types false in
def reg19 : Pipeline.RegionSeg (pcfgs (F := F)) (admAll m h) (pdats m h) () defs₀ 𝒱₀ L lv 19 where
  win := winFacts19.to₀
  block_pos := block_pos19
  stage_whole := stage_whole19
  K := PEmpty
  osem k := k.elim
  ho := Pipeline.OwnSemFacts.none _
  hbody c := (Rg19.body_obligation (Vent m) (tbl19 m) h.h19 c).loose
  hwaits := Pipeline.hwaits_of_owed_zero _ _ _ _ L lv 19 fun _ _ => rfl
  pre c := iprop(StableHlo.held (c : Thread nD τ) (Pipeline.ucRefs τ sig) (Vin19 m (outsAll m h) c) ∗ Rst c)
  post c := iprop(StableHlo.held (c : Thread nD τ) (Pipeline.ucRefs τ sig) (Vout19 m (outsAll m h) c) ∗ Rst c)
  X c := iprop(∃ r, prngReg c r)
  Y c := iprop((∃ r, prngReg c r) ∗ Pipeline.prefHeld pre19 c (fun _ => fullShare) (tbl19 m))
  Z c := Pipeline.unscopedRestP (Ix := Unit) (Name := ℕ) (U := UR sig nD τ) (Lvl := ℕ) pre19 spec19 c (fun b => Vin19 m (outsAll m h) c b)
  hentry c := by
    rw [Pipeline.ownSems0_none]
    have hsplit0 := Pipeline.arrays_of_unscopedBufs (p := 19) (pcfgs (F := F)) (admAll m h) (pdats m h) winFacts19 arr_whole19 c
      ((pdats m h 19 c).share_full fun _ => rfl) (fun b => Vin19 m (outsAll m h) c b) (hA19 m h c)
    rw [Pipeline.unscopedBufs_held] at hsplit0
    have hsplit : (StableHlo.held (c : Thread nD τ) (Pipeline.ucRefs τ sig) (Vin19 m (outsAll m h) c) : sProp 𝕄)
        ⊢ iprop((pdats m h 19 c).arrays ((pdats m h 19 c).arrAt · 0) ∗ Pipeline.unscopedRest spec19 c (fun b => Vin19 m (outsAll m h) c b)) := hsplit0
    rw [Pipeline.unscopedRest_split preFacts19 c,
      show (fun k => Vin19 m (outsAll m h) c (pre19.ref k)) = tbl19 m from funext fun k => Vin19_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 19 c).Φ 0 = iprop(Pipeline.ΦA spec19 c ∗ Pipeline.prefHeld pre19 c (fun _ => fullShare) (tbl19 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 19 c).Φ (Fin.last _) = iprop(Pipeline.ΦA spec19 c ∗ Pipeline.prefHeld pre19 c (fun _ => fullShare) (tbl19 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 19) (pcfgs (F := F)) (admAll m h) (Ix := Unit) (Name := ℕ) (U := UR sig nD τ) (Lvl := ℕ)
      winFacts19 arr_whole19 c (pdats m h) ((pdats m h 19 c).share_full fun _ => rfl)
      (fun b => Vin19 m (outsAll m h) c b) (fun b => Vout19 m (outsAll m h) c b) ((pdats m h 19 c).arrAt · (Pipeline.pin (pcfgs (F := F)) (admAll m h) 19).N) (hF19 m h c) (hrest19 m h c)
    rw [Pipeline.unscopedBufs_held] at hjoin0
    have hjoin : (iprop((pdats m h 19 c).arrays ((pdats m h 19 c).arrAt · (Pipeline.pin (pcfgs (F := F)) (admAll m h) 19).N) ∗ Pipeline.unscopedRest spec19 c (fun b => Vin19 m (outsAll m h) c b)) : sProp 𝕄)
        ⊢ StableHlo.held (c : Thread nD τ) (Pipeline.ucRefs τ sig) (Vout19 m (outsAll m h) c) := hjoin0
    rw [Pipeline.unscopedRest_split preFacts19 c,
      show (fun k => Vin19 m (outsAll m h) c (pre19.ref k)) = tbl19 m from funext fun k => Vin19_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl19_word (i : Fin 2048) (k : Fin 32) :
    (tbl19 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 19 + i.val, by have := i.isLt; omega⟩ k) := by
  show (StableHlo.after hostOps19 (V0 m (0 : Dev nD)) (Proc.devRef .tc main_v81) : IVec S65536 32) _ = _
  after_results
  refine (flatten_rows_apply _ _ i k _).trans ?_
  exact slice_rows_apply _ _ _ (2048 * 19) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge19_core (m : (ℓ : Loc nD τ sig) → Buf (Elt Ideal) ℓ) (pf : pre19.Contents (Elt Ideal)) (hO : ok19 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 19 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg19.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 19 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg19.tabRow pf hO i ⟨k, hk⟩) l).trans ?_
  show Cert.ReferenceIdeal.RefValue.xpadAt _ (Rg19.tabRow pf hO i ⟨k, hk⟩) l = _
  refine congrArg (fun j => Cert.ReferenceIdeal.RefValue.xpadAt _ j l) (Fin.ext ?_)
  rw [Rg19.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge19 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 19 + 2) main_v82 c (ValueIdx.ix3 i 0 l)
      = Cert.ReferenceIdeal.RefValue.refG (m ((c.tc : Thread nD τ).loc main_arg0)) (m ((c.tc : Thread nD τ).loc main_arg1))
          (ValueIdx.ix2 ⟨2048 * 19 + i.val, by have := i.isLt; omega⟩ l) := by
  obtain rfl : c = 0 := Subsingleton.elim _ _
  refine (congrFun (outsAll_19 m h (0 : Dev nD)) _).trans ?_
  refine (congrFun (Rg19.out_eq (Vent m) (tbl19 m) h.h19 (0 : Dev nD)) _).trans ?_
  exact bridge19_core m (tbl19 m) h.h19 (tbl19_word m) hp i l

end
end Cert.KernelIdeal.Hand

end
-- ==== Proof.KI.R20.Link.lean ====
/- Region 20's table satisfies the pipeline's side condition: its words are pooling indices, which the precondition
   bounds by 262144, the last row of the padded feature array. -/
/- Region 20 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R20.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 20's table is one of the pooling indices, so at most 262144. -/
theorem tbl20_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl20 m 0 x : BitVec 32).toNat ≤ 262144 := by
  show (StableHlo.after hostOps20 (V0 m (0 : Dev nD)) (Proc.devRef .tc main_v85) x : BitVec 32).toNat ≤ 262144
  after_results
  exact slice_cast_all (fun w : BitVec 32 => w.toNat ≤ 262144) _ _ _ _ (fun k => Cert.PreDecode.toNat_le_of_toInt _ (hb k)) x

/-- The pipeline's side condition at region 20's table: the feature window's block, at the row the table names,
    lies inside the padded feature array (and a transfer of 32-bit elements moves whole words). -/
theorem okT20 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok20 (F := F) (tbl20 m) := by
  intro i
  exact ⟨block_inside _ _ (tbl20_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 20's proof data are what the region finds: the padded feature array and the (not yet
    written) output array hold at its entry what they held after the first host stretch. -/
theorem hA20 (c : Dev nD) (w : Fin 2) : (pdats m h 20 c).A w = Vin20 m (outsAll m h) c (Pipeline.arrRef spec20 w) :=
  match w with
  | ⟨0, _⟩ => (Vin20_v3 m (outsAll m h) c).symm
  | ⟨1, _⟩ => (Vin20_out m (outsAll m h) c).symm

/-- At the exit each array holds what the pipeline leaves. -/
theorem hF20 (c : Dev nD) (w : Fin 2) : (pdats m h 20 c).arrAt w (Pipeline.pin (pcfgs (F := F)) (admAll m h) 20).N = Vout20 m (outsAll m h) c (Pipeline.arrRef spec20 w) :=
  match w with
  | ⟨0, _⟩ => ((pdats m h 20 c).arrAt_in 0 rfl _).trans (Vout20_v3 m (outsAll m h) c).symm
  | ⟨1, _⟩ => ((Vout20_out m (outsAll m h) c).trans (outsAll_20 m h c)).symm

theorem hrest20 (c : Dev nD) : ∀ b, b ∉ Finset.univ.image (Pipeline.arrRef spec20) → Vout20 m (outsAll m h) c b = Vin20 m (outsAll m h) c b :=
  fun b hb => Vout20_of m (outsAll m h) c b (fun hm => hb (by
    rw [List.mem_singleton] at hm; subst hm
    exact Finset.mem_image.mpr ⟨1, Finset.mem_univ _, rfl⟩))

set_option backward.isDefEq.respectTransparency.types false in
def reg20 : Pipeline.RegionSeg (pcfgs (F := F)) (admAll m h) (pdats m h) () defs₀ 𝒱₀ L lv 20 where
  win := winFacts20.to₀
  block_pos := block_pos20
  stage_whole := stage_whole20
  K := PEmpty
  osem k := k.elim
  ho := Pipeline.OwnSemFacts.none _
  hbody c := (Rg20.body_obligation (Vent m) (tbl20 m) h.h20 c).loose
  hwaits := Pipeline.hwaits_of_owed_zero _ _ _ _ L lv 20 fun _ _ => rfl
  pre c := iprop(StableHlo.held (c : Thread nD τ) (Pipeline.ucRefs τ sig) (Vin20 m (outsAll m h) c) ∗ Rst c)
  post c := iprop(StableHlo.held (c : Thread nD τ) (Pipeline.ucRefs τ sig) (Vout20 m (outsAll m h) c) ∗ Rst c)
  X c := iprop(∃ r, prngReg c r)
  Y c := iprop((∃ r, prngReg c r) ∗ Pipeline.prefHeld pre20 c (fun _ => fullShare) (tbl20 m))
  Z c := Pipeline.unscopedRestP (Ix := Unit) (Name := ℕ) (U := UR sig nD τ) (Lvl := ℕ) pre20 spec20 c (fun b => Vin20 m (outsAll m h) c b)
  hentry c := by
    rw [Pipeline.ownSems0_none]
    have hsplit0 := Pipeline.arrays_of_unscopedBufs (p := 20) (pcfgs (F := F)) (admAll m h) (pdats m h) winFacts20 arr_whole20 c
      ((pdats m h 20 c).share_full fun _ => rfl) (fun b => Vin20 m (outsAll m h) c b) (hA20 m h c)
    rw [Pipeline.unscopedBufs_held] at hsplit0
    have hsplit : (StableHlo.held (c : Thread nD τ) (Pipeline.ucRefs τ sig) (Vin20 m (outsAll m h) c) : sProp 𝕄)
        ⊢ iprop((pdats m h 20 c).arrays ((pdats m h 20 c).arrAt · 0) ∗ Pipeline.unscopedRest spec20 c (fun b => Vin20 m (outsAll m h) c b)) := hsplit0
    rw [Pipeline.unscopedRest_split preFacts20 c,
      show (fun k => Vin20 m (outsAll m h) c (pre20.ref k)) = tbl20 m from funext fun k => Vin20_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 20 c).Φ 0 = iprop(Pipeline.ΦA spec20 c ∗ Pipeline.prefHeld pre20 c (fun _ => fullShare) (tbl20 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 20 c).Φ (Fin.last _) = iprop(Pipeline.ΦA spec20 c ∗ Pipeline.prefHeld pre20 c (fun _ => fullShare) (tbl20 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 20) (pcfgs (F := F)) (admAll m h) (Ix := Unit) (Name := ℕ) (U := UR sig nD τ) (Lvl := ℕ)
      winFacts20 arr_whole20 c (pdats m h) ((pdats m h 20 c).share_full fun _ => rfl)
      (fun b => Vin20 m (outsAll m h) c b) (fun b => Vout20 m (outsAll m h) c b) ((pdats m h 20 c).arrAt · (Pipeline.pin (pcfgs (F := F)) (admAll m h) 20).N) (hF20 m h c) (hrest20 m h c)
    rw [Pipeline.unscopedBufs_held] at hjoin0
    have hjoin : (iprop((pdats m h 20 c).arrays ((pdats m h 20 c).arrAt · (Pipeline.pin (pcfgs (F := F)) (admAll m h) 20).N) ∗ Pipeline.unscopedRest spec20 c (fun b => Vin20 m (outsAll m h) c b)) : sProp 𝕄)
        ⊢ StableHlo.held (c : Thread nD τ) (Pipeline.ucRefs τ sig) (Vout20 m (outsAll m h) c) := hjoin0
    rw [Pipeline.unscopedRest_split preFacts20 c,
      show (fun k => Vin20 m (outsAll m h) c (pre20.ref k)) = tbl20 m from funext fun k => Vin20_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl20_word (i : Fin 2048) (k : Fin 32) :
    (tbl20 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 20 + i.val, by have := i.isLt; omega⟩ k) := by
  show (StableHlo.after hostOps20 (V0 m (0 : Dev nD)) (Proc.devRef .tc main_v85) : IVec S65536 32) _ = _
  after_results
  refine (flatten_rows_apply _ _ i k _).trans ?_
  exact slice_rows_apply _ _ _ (2048 * 20) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge20_core (m : (ℓ : Loc nD τ sig) → Buf (Elt Ideal) ℓ) (pf : pre20.Contents (Elt Ideal)) (hO : ok20 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 20 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg20.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 20 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg20.tabRow pf hO i ⟨k, hk⟩) l).trans ?_
  show Cert.ReferenceIdeal.RefValue.xpadAt _ (Rg20.tabRow pf hO i ⟨k, hk⟩) l = _
  refine congrArg (fun j => Cert.ReferenceIdeal.RefValue.xpadAt _ j l) (Fin.ext ?_)
  rw [Rg20.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge20 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 20 + 2) main_v86 c (ValueIdx.ix3 i 0 l)
      = Cert.ReferenceIdeal.RefValue.refG (m ((c.tc : Thread nD τ).loc main_arg0)) (m ((c.tc : Thread nD τ).loc main_arg1))
          (ValueIdx.ix2 ⟨2048 * 20 + i.val, by have := i.isLt; omega⟩ l) := by
  obtain rfl : c = 0 := Subsingleton.elim _ _
  refine (congrFun (outsAll_20 m h (0 : Dev nD)) _).trans ?_
  refine (congrFun (Rg20.out_eq (Vent m) (tbl20 m) h.h20 (0 : Dev nD)) _).trans ?_
  exact bridge20_core m (tbl20 m) h.h20 (tbl20_word m) hp i l

end
end Cert.KernelIdeal.Hand

end
-- ==== Proof.KI.R21.Link.lean ====
/- Region 21's table satisfies the pipeline's side condition: its words are pooling indices, which the precondition
   bounds by 262144, the last row of the padded feature array. -/
/- Region 21 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R21.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 21's table is one of the pooling indices, so at most 262144. -/
theorem tbl21_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl21 m 0 x : BitVec 32).toNat ≤ 262144 := by
  show (StableHlo.after hostOps21 (V0 m (0 : Dev nD)) (Proc.devRef .tc main_v89) x : BitVec 32).toNat ≤ 262144
  after_results
  exact slice_cast_all (fun w : BitVec 32 => w.toNat ≤ 262144) _ _ _ _ (fun k => Cert.PreDecode.toNat_le_of_toInt _ (hb k)) x

/-- The pipeline's side condition at region 21's table: the feature window's block, at the row the table names,
    lies inside the padded feature array (and a transfer of 32-bit elements moves whole words). -/
theorem okT21 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok21 (F := F) (tbl21 m) := by
  intro i
  exact ⟨block_inside _ _ (tbl21_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 21's proof data are what the region finds: the padded feature array and the (not yet
    written) output array hold at its entry what they held after the first host stretch. -/
theorem hA21 (c : Dev nD) (w : Fin 2) : (pdats m h 21 c).A w = Vin21 m (outsAll m h) c (Pipeline.arrRef spec21 w) :=
  match w with
  | ⟨0, _⟩ => (Vin21_v3 m (outsAll m h) c).symm
  | ⟨1, _⟩ => (Vin21_out m (outsAll m h) c).symm

/-- At the exit each array holds what the pipeline leaves. -/
theorem hF21 (c : Dev nD) (w : Fin 2) : (pdats m h 21 c).arrAt w (Pipeline.pin (pcfgs (F := F)) (admAll m h) 21).N = Vout21 m (outsAll m h) c (Pipeline.arrRef spec21 w) :=
  match w with
  | ⟨0, _⟩ => ((pdats m h 21 c).arrAt_in 0 rfl _).trans (Vout21_v3 m (outsAll m h) c).symm
  | ⟨1, _⟩ => ((Vout21_out m (outsAll m h) c).trans (outsAll_21 m h c)).symm

theorem hrest21 (c : Dev nD) : ∀ b, b ∉ Finset.univ.image (Pipeline.arrRef spec21) → Vout21 m (outsAll m h) c b = Vin21 m (outsAll m h) c b :=
  fun b hb => Vout21_of m (outsAll m h) c b (fun hm => hb (by
    rw [List.mem_singleton] at hm; subst hm
    exact Finset.mem_image.mpr ⟨1, Finset.mem_univ _, rfl⟩))

set_option backward.isDefEq.respectTransparency.types false in
def reg21 : Pipeline.RegionSeg (pcfgs (F := F)) (admAll m h) (pdats m h) () defs₀ 𝒱₀ L lv 21 where
  win := winFacts21.to₀
  block_pos := block_pos21
  stage_whole := stage_whole21
  K := PEmpty
  osem k := k.elim
  ho := Pipeline.OwnSemFacts.none _
  hbody c := (Rg21.body_obligation (Vent m) (tbl21 m) h.h21 c).loose
  hwaits := Pipeline.hwaits_of_owed_zero _ _ _ _ L lv 21 fun _ _ => rfl
  pre c := iprop(StableHlo.held (c : Thread nD τ) (Pipeline.ucRefs τ sig) (Vin21 m (outsAll m h) c) ∗ Rst c)
  post c := iprop(StableHlo.held (c : Thread nD τ) (Pipeline.ucRefs τ sig) (Vout21 m (outsAll m h) c) ∗ Rst c)
  X c := iprop(∃ r, prngReg c r)
  Y c := iprop((∃ r, prngReg c r) ∗ Pipeline.prefHeld pre21 c (fun _ => fullShare) (tbl21 m))
  Z c := Pipeline.unscopedRestP (Ix := Unit) (Name := ℕ) (U := UR sig nD τ) (Lvl := ℕ) pre21 spec21 c (fun b => Vin21 m (outsAll m h) c b)
  hentry c := by
    rw [Pipeline.ownSems0_none]
    have hsplit0 := Pipeline.arrays_of_unscopedBufs (p := 21) (pcfgs (F := F)) (admAll m h) (pdats m h) winFacts21 arr_whole21 c
      ((pdats m h 21 c).share_full fun _ => rfl) (fun b => Vin21 m (outsAll m h) c b) (hA21 m h c)
    rw [Pipeline.unscopedBufs_held] at hsplit0
    have hsplit : (StableHlo.held (c : Thread nD τ) (Pipeline.ucRefs τ sig) (Vin21 m (outsAll m h) c) : sProp 𝕄)
        ⊢ iprop((pdats m h 21 c).arrays ((pdats m h 21 c).arrAt · 0) ∗ Pipeline.unscopedRest spec21 c (fun b => Vin21 m (outsAll m h) c b)) := hsplit0
    rw [Pipeline.unscopedRest_split preFacts21 c,
      show (fun k => Vin21 m (outsAll m h) c (pre21.ref k)) = tbl21 m from funext fun k => Vin21_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 21 c).Φ 0 = iprop(Pipeline.ΦA spec21 c ∗ Pipeline.prefHeld pre21 c (fun _ => fullShare) (tbl21 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 21 c).Φ (Fin.last _) = iprop(Pipeline.ΦA spec21 c ∗ Pipeline.prefHeld pre21 c (fun _ => fullShare) (tbl21 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 21) (pcfgs (F := F)) (admAll m h) (Ix := Unit) (Name := ℕ) (U := UR sig nD τ) (Lvl := ℕ)
      winFacts21 arr_whole21 c (pdats m h) ((pdats m h 21 c).share_full fun _ => rfl)
      (fun b => Vin21 m (outsAll m h) c b) (fun b => Vout21 m (outsAll m h) c b) ((pdats m h 21 c).arrAt · (Pipeline.pin (pcfgs (F := F)) (admAll m h) 21).N) (hF21 m h c) (hrest21 m h c)
    rw [Pipeline.unscopedBufs_held] at hjoin0
    have hjoin : (iprop((pdats m h 21 c).arrays ((pdats m h 21 c).arrAt · (Pipeline.pin (pcfgs (F := F)) (admAll m h) 21).N) ∗ Pipeline.unscopedRest spec21 c (fun b => Vin21 m (outsAll m h) c b)) : sProp 𝕄)
        ⊢ StableHlo.held (c : Thread nD τ) (Pipeline.ucRefs τ sig) (Vout21 m (outsAll m h) c) := hjoin0
    rw [Pipeline.unscopedRest_split preFacts21 c,
      show (fun k => Vin21 m (outsAll m h) c (pre21.ref k)) = tbl21 m from funext fun k => Vin21_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl21_word (i : Fin 2048) (k : Fin 32) :
    (tbl21 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 21 + i.val, by have := i.isLt; omega⟩ k) := by
  show (StableHlo.after hostOps21 (V0 m (0 : Dev nD)) (Proc.devRef .tc main_v89) : IVec S65536 32) _ = _
  after_results
  refine (flatten_rows_apply _ _ i k _).trans ?_
  exact slice_rows_apply _ _ _ (2048 * 21) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge21_core (m : (ℓ : Loc nD τ sig) → Buf (Elt Ideal) ℓ) (pf : pre21.Contents (Elt Ideal)) (hO : ok21 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 21 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg21.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 21 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg21.tabRow pf hO i ⟨k, hk⟩) l).trans ?_
  show Cert.ReferenceIdeal.RefValue.xpadAt _ (Rg21.tabRow pf hO i ⟨k, hk⟩) l = _
  refine congrArg (fun j => Cert.ReferenceIdeal.RefValue.xpadAt _ j l) (Fin.ext ?_)
  rw [Rg21.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge21 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 21 + 2) main_v90 c (ValueIdx.ix3 i 0 l)
      = Cert.ReferenceIdeal.RefValue.refG (m ((c.tc : Thread nD τ).loc main_arg0)) (m ((c.tc : Thread nD τ).loc main_arg1))
          (ValueIdx.ix2 ⟨2048 * 21 + i.val, by have := i.isLt; omega⟩ l) := by
  obtain rfl : c = 0 := Subsingleton.elim _ _
  refine (congrFun (outsAll_21 m h (0 : Dev nD)) _).trans ?_
  refine (congrFun (Rg21.out_eq (Vent m) (tbl21 m) h.h21 (0 : Dev nD)) _).trans ?_
  exact bridge21_core m (tbl21 m) h.h21 (tbl21_word m) hp i l

end
end Cert.KernelIdeal.Hand

end
-- ==== Proof.KI.R22.Link.lean ====
/- Region 22's table satisfies the pipeline's side condition: its words are pooling indices, which the precondition
   bounds by 262144, the last row of the padded feature array. -/
/- Region 22 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R22.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 22's table is one of the pooling indices, so at most 262144. -/
theorem tbl22_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl22 m 0 x : BitVec 32).toNat ≤ 262144 := by
  show (StableHlo.after hostOps22 (V0 m (0 : Dev nD)) (Proc.devRef .tc main_v93) x : BitVec 32).toNat ≤ 262144
  after_results
  exact slice_cast_all (fun w : BitVec 32 => w.toNat ≤ 262144) _ _ _ _ (fun k => Cert.PreDecode.toNat_le_of_toInt _ (hb k)) x

/-- The pipeline's side condition at region 22's table: the feature window's block, at the row the table names,
    lies inside the padded feature array (and a transfer of 32-bit elements moves whole words). -/
theorem okT22 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok22 (F := F) (tbl22 m) := by
  intro i
  exact ⟨block_inside _ _ (tbl22_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 22's proof data are what the region finds: the padded feature array and the (not yet
    written) output array hold at its entry what they held after the first host stretch. -/
theorem hA22 (c : Dev nD) (w : Fin 2) : (pdats m h 22 c).A w = Vin22 m (outsAll m h) c (Pipeline.arrRef spec22 w) :=
  match w with
  | ⟨0, _⟩ => (Vin22_v3 m (outsAll m h) c).symm
  | ⟨1, _⟩ => (Vin22_out m (outsAll m h) c).symm

/-- At the exit each array holds what the pipeline leaves. -/
theorem hF22 (c : Dev nD) (w : Fin 2) : (pdats m h 22 c).arrAt w (Pipeline.pin (pcfgs (F := F)) (admAll m h) 22).N = Vout22 m (outsAll m h) c (Pipeline.arrRef spec22 w) :=
  match w with
  | ⟨0, _⟩ => ((pdats m h 22 c).arrAt_in 0 rfl _).trans (Vout22_v3 m (outsAll m h) c).symm
  | ⟨1, _⟩ => ((Vout22_out m (outsAll m h) c).trans (outsAll_22 m h c)).symm

theorem hrest22 (c : Dev nD) : ∀ b, b ∉ Finset.univ.image (Pipeline.arrRef spec22) → Vout22 m (outsAll m h) c b = Vin22 m (outsAll m h) c b :=
  fun b hb => Vout22_of m (outsAll m h) c b (fun hm => hb (by
    rw [List.mem_singleton] at hm; subst hm
    exact Finset.mem_image.mpr ⟨1, Finset.mem_univ _, rfl⟩))

set_option backward.isDefEq.respectTransparency.types false in
def reg22 : Pipeline.RegionSeg (pcfgs (F := F)) (admAll m h) (pdats m h) () defs₀ 𝒱₀ L lv 22 where
  win := winFacts22.to₀
  block_pos := block_pos22
  stage_whole := stage_whole22
  K := PEmpty
  osem k := k.elim
  ho := Pipeline.OwnSemFacts.none _
  hbody c := (Rg22.body_obligation (Vent m) (tbl22 m) h.h22 c).loose
  hwaits := Pipeline.hwaits_of_owed_zero _ _ _ _ L lv 22 fun _ _ => rfl
  pre c := iprop(StableHlo.held (c : Thread nD τ) (Pipeline.ucRefs τ sig) (Vin22 m (outsAll m h) c) ∗ Rst c)
  post c := iprop(StableHlo.held (c : Thread nD τ) (Pipeline.ucRefs τ sig) (Vout22 m (outsAll m h) c) ∗ Rst c)
  X c := iprop(∃ r, prngReg c r)
  Y c := iprop((∃ r, prngReg c r) ∗ Pipeline.prefHeld pre22 c (fun _ => fullShare) (tbl22 m))
  Z c := Pipeline.unscopedRestP (Ix := Unit) (Name := ℕ) (U := UR sig nD τ) (Lvl := ℕ) pre22 spec22 c (fun b => Vin22 m (outsAll m h) c b)
  hentry c := by
    rw [Pipeline.ownSems0_none]
    have hsplit0 := Pipeline.arrays_of_unscopedBufs (p := 22) (pcfgs (F := F)) (admAll m h) (pdats m h) winFacts22 arr_whole22 c
      ((pdats m h 22 c).share_full fun _ => rfl) (fun b => Vin22 m (outsAll m h) c b) (hA22 m h c)
    rw [Pipeline.unscopedBufs_held] at hsplit0
    have hsplit : (StableHlo.held (c : Thread nD τ) (Pipeline.ucRefs τ sig) (Vin22 m (outsAll m h) c) : sProp 𝕄)
        ⊢ iprop((pdats m h 22 c).arrays ((pdats m h 22 c).arrAt · 0) ∗ Pipeline.unscopedRest spec22 c (fun b => Vin22 m (outsAll m h) c b)) := hsplit0
    rw [Pipeline.unscopedRest_split preFacts22 c,
      show (fun k => Vin22 m (outsAll m h) c (pre22.ref k)) = tbl22 m from funext fun k => Vin22_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 22 c).Φ 0 = iprop(Pipeline.ΦA spec22 c ∗ Pipeline.prefHeld pre22 c (fun _ => fullShare) (tbl22 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 22 c).Φ (Fin.last _) = iprop(Pipeline.ΦA spec22 c ∗ Pipeline.prefHeld pre22 c (fun _ => fullShare) (tbl22 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 22) (pcfgs (F := F)) (admAll m h) (Ix := Unit) (Name := ℕ) (U := UR sig nD τ) (Lvl := ℕ)
      winFacts22 arr_whole22 c (pdats m h) ((pdats m h 22 c).share_full fun _ => rfl)
      (fun b => Vin22 m (outsAll m h) c b) (fun b => Vout22 m (outsAll m h) c b) ((pdats m h 22 c).arrAt · (Pipeline.pin (pcfgs (F := F)) (admAll m h) 22).N) (hF22 m h c) (hrest22 m h c)
    rw [Pipeline.unscopedBufs_held] at hjoin0
    have hjoin : (iprop((pdats m h 22 c).arrays ((pdats m h 22 c).arrAt · (Pipeline.pin (pcfgs (F := F)) (admAll m h) 22).N) ∗ Pipeline.unscopedRest spec22 c (fun b => Vin22 m (outsAll m h) c b)) : sProp 𝕄)
        ⊢ StableHlo.held (c : Thread nD τ) (Pipeline.ucRefs τ sig) (Vout22 m (outsAll m h) c) := hjoin0
    rw [Pipeline.unscopedRest_split preFacts22 c,
      show (fun k => Vin22 m (outsAll m h) c (pre22.ref k)) = tbl22 m from funext fun k => Vin22_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl22_word (i : Fin 2048) (k : Fin 32) :
    (tbl22 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 22 + i.val, by have := i.isLt; omega⟩ k) := by
  show (StableHlo.after hostOps22 (V0 m (0 : Dev nD)) (Proc.devRef .tc main_v93) : IVec S65536 32) _ = _
  after_results
  refine (flatten_rows_apply _ _ i k _).trans ?_
  exact slice_rows_apply _ _ _ (2048 * 22) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge22_core (m : (ℓ : Loc nD τ sig) → Buf (Elt Ideal) ℓ) (pf : pre22.Contents (Elt Ideal)) (hO : ok22 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 22 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg22.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 22 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg22.tabRow pf hO i ⟨k, hk⟩) l).trans ?_
  show Cert.ReferenceIdeal.RefValue.xpadAt _ (Rg22.tabRow pf hO i ⟨k, hk⟩) l = _
  refine congrArg (fun j => Cert.ReferenceIdeal.RefValue.xpadAt _ j l) (Fin.ext ?_)
  rw [Rg22.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge22 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 22 + 2) main_v94 c (ValueIdx.ix3 i 0 l)
      = Cert.ReferenceIdeal.RefValue.refG (m ((c.tc : Thread nD τ).loc main_arg0)) (m ((c.tc : Thread nD τ).loc main_arg1))
          (ValueIdx.ix2 ⟨2048 * 22 + i.val, by have := i.isLt; omega⟩ l) := by
  obtain rfl : c = 0 := Subsingleton.elim _ _
  refine (congrFun (outsAll_22 m h (0 : Dev nD)) _).trans ?_
  refine (congrFun (Rg22.out_eq (Vent m) (tbl22 m) h.h22 (0 : Dev nD)) _).trans ?_
  exact bridge22_core m (tbl22 m) h.h22 (tbl22_word m) hp i l

end
end Cert.KernelIdeal.Hand

end
-- ==== Proof.KI.R23.Link.lean ====
/- Region 23's table satisfies the pipeline's side condition: its words are pooling indices, which the precondition
   bounds by 262144, the last row of the padded feature array. -/
/- Region 23 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R23.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 23's table is one of the pooling indices, so at most 262144. -/
theorem tbl23_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl23 m 0 x : BitVec 32).toNat ≤ 262144 := by
  show (StableHlo.after hostOps23 (V0 m (0 : Dev nD)) (Proc.devRef .tc main_v97) x : BitVec 32).toNat ≤ 262144
  after_results
  exact slice_cast_all (fun w : BitVec 32 => w.toNat ≤ 262144) _ _ _ _ (fun k => Cert.PreDecode.toNat_le_of_toInt _ (hb k)) x

/-- The pipeline's side condition at region 23's table: the feature window's block, at the row the table names,
    lies inside the padded feature array (and a transfer of 32-bit elements moves whole words). -/
theorem okT23 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok23 (F := F) (tbl23 m) := by
  intro i
  exact ⟨block_inside _ _ (tbl23_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 23's proof data are what the region finds: the padded feature array and the (not yet
    written) output array hold at its entry what they held after the first host stretch. -/
theorem hA23 (c : Dev nD) (w : Fin 2) : (pdats m h 23 c).A w = Vin23 m (outsAll m h) c (Pipeline.arrRef spec23 w) :=
  match w with
  | ⟨0, _⟩ => (Vin23_v3 m (outsAll m h) c).symm
  | ⟨1, _⟩ => (Vin23_out m (outsAll m h) c).symm

/-- At the exit each array holds what the pipeline leaves. -/
theorem hF23 (c : Dev nD) (w : Fin 2) : (pdats m h 23 c).arrAt w (Pipeline.pin (pcfgs (F := F)) (admAll m h) 23).N = Vout23 m (outsAll m h) c (Pipeline.arrRef spec23 w) :=
  match w with
  | ⟨0, _⟩ => ((pdats m h 23 c).arrAt_in 0 rfl _).trans (Vout23_v3 m (outsAll m h) c).symm
  | ⟨1, _⟩ => ((Vout23_out m (outsAll m h) c).trans (outsAll_23 m h c)).symm

theorem hrest23 (c : Dev nD) : ∀ b, b ∉ Finset.univ.image (Pipeline.arrRef spec23) → Vout23 m (outsAll m h) c b = Vin23 m (outsAll m h) c b :=
  fun b hb => Vout23_of m (outsAll m h) c b (fun hm => hb (by
    rw [List.mem_singleton] at hm; subst hm
    exact Finset.mem_image.mpr ⟨1, Finset.mem_univ _, rfl⟩))

set_option backward.isDefEq.respectTransparency.types false in
def reg23 : Pipeline.RegionSeg (pcfgs (F := F)) (admAll m h) (pdats m h) () defs₀ 𝒱₀ L lv 23 where
  win := winFacts23.to₀
  block_pos := block_pos23
  stage_whole := stage_whole23
  K := PEmpty
  osem k := k.elim
  ho := Pipeline.OwnSemFacts.none _
  hbody c := (Rg23.body_obligation (Vent m) (tbl23 m) h.h23 c).loose
  hwaits := Pipeline.hwaits_of_owed_zero _ _ _ _ L lv 23 fun _ _ => rfl
  pre c := iprop(StableHlo.held (c : Thread nD τ) (Pipeline.ucRefs τ sig) (Vin23 m (outsAll m h) c) ∗ Rst c)
  post c := iprop(StableHlo.held (c : Thread nD τ) (Pipeline.ucRefs τ sig) (Vout23 m (outsAll m h) c) ∗ Rst c)
  X c := iprop(∃ r, prngReg c r)
  Y c := iprop((∃ r, prngReg c r) ∗ Pipeline.prefHeld pre23 c (fun _ => fullShare) (tbl23 m))
  Z c := Pipeline.unscopedRestP (Ix := Unit) (Name := ℕ) (U := UR sig nD τ) (Lvl := ℕ) pre23 spec23 c (fun b => Vin23 m (outsAll m h) c b)
  hentry c := by
    rw [Pipeline.ownSems0_none]
    have hsplit0 := Pipeline.arrays_of_unscopedBufs (p := 23) (pcfgs (F := F)) (admAll m h) (pdats m h) winFacts23 arr_whole23 c
      ((pdats m h 23 c).share_full fun _ => rfl) (fun b => Vin23 m (outsAll m h) c b) (hA23 m h c)
    rw [Pipeline.unscopedBufs_held] at hsplit0
    have hsplit : (StableHlo.held (c : Thread nD τ) (Pipeline.ucRefs τ sig) (Vin23 m (outsAll m h) c) : sProp 𝕄)
        ⊢ iprop((pdats m h 23 c).arrays ((pdats m h 23 c).arrAt · 0) ∗ Pipeline.unscopedRest spec23 c (fun b => Vin23 m (outsAll m h) c b)) := hsplit0
    rw [Pipeline.unscopedRest_split preFacts23 c,
      show (fun k => Vin23 m (outsAll m h) c (pre23.ref k)) = tbl23 m from funext fun k => Vin23_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 23 c).Φ 0 = iprop(Pipeline.ΦA spec23 c ∗ Pipeline.prefHeld pre23 c (fun _ => fullShare) (tbl23 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 23 c).Φ (Fin.last _) = iprop(Pipeline.ΦA spec23 c ∗ Pipeline.prefHeld pre23 c (fun _ => fullShare) (tbl23 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 23) (pcfgs (F := F)) (admAll m h) (Ix := Unit) (Name := ℕ) (U := UR sig nD τ) (Lvl := ℕ)
      winFacts23 arr_whole23 c (pdats m h) ((pdats m h 23 c).share_full fun _ => rfl)
      (fun b => Vin23 m (outsAll m h) c b) (fun b => Vout23 m (outsAll m h) c b) ((pdats m h 23 c).arrAt · (Pipeline.pin (pcfgs (F := F)) (admAll m h) 23).N) (hF23 m h c) (hrest23 m h c)
    rw [Pipeline.unscopedBufs_held] at hjoin0
    have hjoin : (iprop((pdats m h 23 c).arrays ((pdats m h 23 c).arrAt · (Pipeline.pin (pcfgs (F := F)) (admAll m h) 23).N) ∗ Pipeline.unscopedRest spec23 c (fun b => Vin23 m (outsAll m h) c b)) : sProp 𝕄)
        ⊢ StableHlo.held (c : Thread nD τ) (Pipeline.ucRefs τ sig) (Vout23 m (outsAll m h) c) := hjoin0
    rw [Pipeline.unscopedRest_split preFacts23 c,
      show (fun k => Vin23 m (outsAll m h) c (pre23.ref k)) = tbl23 m from funext fun k => Vin23_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl23_word (i : Fin 2048) (k : Fin 32) :
    (tbl23 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 23 + i.val, by have := i.isLt; omega⟩ k) := by
  show (StableHlo.after hostOps23 (V0 m (0 : Dev nD)) (Proc.devRef .tc main_v97) : IVec S65536 32) _ = _
  after_results
  refine (flatten_rows_apply _ _ i k _).trans ?_
  exact slice_rows_apply _ _ _ (2048 * 23) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge23_core (m : (ℓ : Loc nD τ sig) → Buf (Elt Ideal) ℓ) (pf : pre23.Contents (Elt Ideal)) (hO : ok23 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 23 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg23.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 23 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg23.tabRow pf hO i ⟨k, hk⟩) l).trans ?_
  show Cert.ReferenceIdeal.RefValue.xpadAt _ (Rg23.tabRow pf hO i ⟨k, hk⟩) l = _
  refine congrArg (fun j => Cert.ReferenceIdeal.RefValue.xpadAt _ j l) (Fin.ext ?_)
  rw [Rg23.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge23 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 23 + 2) main_v98 c (ValueIdx.ix3 i 0 l)
      = Cert.ReferenceIdeal.RefValue.refG (m ((c.tc : Thread nD τ).loc main_arg0)) (m ((c.tc : Thread nD τ).loc main_arg1))
          (ValueIdx.ix2 ⟨2048 * 23 + i.val, by have := i.isLt; omega⟩ l) := by
  obtain rfl : c = 0 := Subsingleton.elim _ _
  refine (congrFun (outsAll_23 m h (0 : Dev nD)) _).trans ?_
  refine (congrFun (Rg23.out_eq (Vent m) (tbl23 m) h.h23 (0 : Dev nD)) _).trans ?_
  exact bridge23_core m (tbl23 m) h.h23 (tbl23_word m) hp i l

end
end Cert.KernelIdeal.Hand

end
-- ==== Proof.KI.R24.Link.lean ====
/- Region 24's table satisfies the pipeline's side condition: its words are pooling indices, which the precondition
   bounds by 262144, the last row of the padded feature array. -/
/- Region 24 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R24.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 24's table is one of the pooling indices, so at most 262144. -/
theorem tbl24_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl24 m 0 x : BitVec 32).toNat ≤ 262144 := by
  show (StableHlo.after hostOps24 (V0 m (0 : Dev nD)) (Proc.devRef .tc main_v101) x : BitVec 32).toNat ≤ 262144
  after_results
  exact slice_cast_all (fun w : BitVec 32 => w.toNat ≤ 262144) _ _ _ _ (fun k => Cert.PreDecode.toNat_le_of_toInt _ (hb k)) x

/-- The pipeline's side condition at region 24's table: the feature window's block, at the row the table names,
    lies inside the padded feature array (and a transfer of 32-bit elements moves whole words). -/
theorem okT24 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok24 (F := F) (tbl24 m) := by
  intro i
  exact ⟨block_inside _ _ (tbl24_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 24's proof data are what the region finds: the padded feature array and the (not yet
    written) output array hold at its entry what they held after the first host stretch. -/
theorem hA24 (c : Dev nD) (w : Fin 2) : (pdats m h 24 c).A w = Vin24 m (outsAll m h) c (Pipeline.arrRef spec24 w) :=
  match w with
  | ⟨0, _⟩ => (Vin24_v3 m (outsAll m h) c).symm
  | ⟨1, _⟩ => (Vin24_out m (outsAll m h) c).symm

/-- At the exit each array holds what the pipeline leaves. -/
theorem hF24 (c : Dev nD) (w : Fin 2) : (pdats m h 24 c).arrAt w (Pipeline.pin (pcfgs (F := F)) (admAll m h) 24).N = Vout24 m (outsAll m h) c (Pipeline.arrRef spec24 w) :=
  match w with
  | ⟨0, _⟩ => ((pdats m h 24 c).arrAt_in 0 rfl _).trans (Vout24_v3 m (outsAll m h) c).symm
  | ⟨1, _⟩ => ((Vout24_out m (outsAll m h) c).trans (outsAll_24 m h c)).symm

theorem hrest24 (c : Dev nD) : ∀ b, b ∉ Finset.univ.image (Pipeline.arrRef spec24) → Vout24 m (outsAll m h) c b = Vin24 m (outsAll m h) c b :=
  fun b hb => Vout24_of m (outsAll m h) c b (fun hm => hb (by
    rw [List.mem_singleton] at hm; subst hm
    exact Finset.mem_image.mpr ⟨1, Finset.mem_univ _, rfl⟩))

set_option backward.isDefEq.respectTransparency.types false in
def reg24 : Pipeline.RegionSeg (pcfgs (F := F)) (admAll m h) (pdats m h) () defs₀ 𝒱₀ L lv 24 where
  win := winFacts24.to₀
  block_pos := block_pos24
  stage_whole := stage_whole24
  K := PEmpty
  osem k := k.elim
  ho := Pipeline.OwnSemFacts.none _
  hbody c := (Rg24.body_obligation (Vent m) (tbl24 m) h.h24 c).loose
  hwaits := Pipeline.hwaits_of_owed_zero _ _ _ _ L lv 24 fun _ _ => rfl
  pre c := iprop(StableHlo.held (c : Thread nD τ) (Pipeline.ucRefs τ sig) (Vin24 m (outsAll m h) c) ∗ Rst c)
  post c := iprop(StableHlo.held (c : Thread nD τ) (Pipeline.ucRefs τ sig) (Vout24 m (outsAll m h) c) ∗ Rst c)
  X c := iprop(∃ r, prngReg c r)
  Y c := iprop((∃ r, prngReg c r) ∗ Pipeline.prefHeld pre24 c (fun _ => fullShare) (tbl24 m))
  Z c := Pipeline.unscopedRestP (Ix := Unit) (Name := ℕ) (U := UR sig nD τ) (Lvl := ℕ) pre24 spec24 c (fun b => Vin24 m (outsAll m h) c b)
  hentry c := by
    rw [Pipeline.ownSems0_none]
    have hsplit0 := Pipeline.arrays_of_unscopedBufs (p := 24) (pcfgs (F := F)) (admAll m h) (pdats m h) winFacts24 arr_whole24 c
      ((pdats m h 24 c).share_full fun _ => rfl) (fun b => Vin24 m (outsAll m h) c b) (hA24 m h c)
    rw [Pipeline.unscopedBufs_held] at hsplit0
    have hsplit : (StableHlo.held (c : Thread nD τ) (Pipeline.ucRefs τ sig) (Vin24 m (outsAll m h) c) : sProp 𝕄)
        ⊢ iprop((pdats m h 24 c).arrays ((pdats m h 24 c).arrAt · 0) ∗ Pipeline.unscopedRest spec24 c (fun b => Vin24 m (outsAll m h) c b)) := hsplit0
    rw [Pipeline.unscopedRest_split preFacts24 c,
      show (fun k => Vin24 m (outsAll m h) c (pre24.ref k)) = tbl24 m from funext fun k => Vin24_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 24 c).Φ 0 = iprop(Pipeline.ΦA spec24 c ∗ Pipeline.prefHeld pre24 c (fun _ => fullShare) (tbl24 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 24 c).Φ (Fin.last _) = iprop(Pipeline.ΦA spec24 c ∗ Pipeline.prefHeld pre24 c (fun _ => fullShare) (tbl24 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 24) (pcfgs (F := F)) (admAll m h) (Ix := Unit) (Name := ℕ) (U := UR sig nD τ) (Lvl := ℕ)
      winFacts24 arr_whole24 c (pdats m h) ((pdats m h 24 c).share_full fun _ => rfl)
      (fun b => Vin24 m (outsAll m h) c b) (fun b => Vout24 m (outsAll m h) c b) ((pdats m h 24 c).arrAt · (Pipeline.pin (pcfgs (F := F)) (admAll m h) 24).N) (hF24 m h c) (hrest24 m h c)
    rw [Pipeline.unscopedBufs_held] at hjoin0
    have hjoin : (iprop((pdats m h 24 c).arrays ((pdats m h 24 c).arrAt · (Pipeline.pin (pcfgs (F := F)) (admAll m h) 24).N) ∗ Pipeline.unscopedRest spec24 c (fun b => Vin24 m (outsAll m h) c b)) : sProp 𝕄)
        ⊢ StableHlo.held (c : Thread nD τ) (Pipeline.ucRefs τ sig) (Vout24 m (outsAll m h) c) := hjoin0
    rw [Pipeline.unscopedRest_split preFacts24 c,
      show (fun k => Vin24 m (outsAll m h) c (pre24.ref k)) = tbl24 m from funext fun k => Vin24_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl24_word (i : Fin 2048) (k : Fin 32) :
    (tbl24 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 24 + i.val, by have := i.isLt; omega⟩ k) := by
  show (StableHlo.after hostOps24 (V0 m (0 : Dev nD)) (Proc.devRef .tc main_v101) : IVec S65536 32) _ = _
  after_results
  refine (flatten_rows_apply _ _ i k _).trans ?_
  exact slice_rows_apply _ _ _ (2048 * 24) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge24_core (m : (ℓ : Loc nD τ sig) → Buf (Elt Ideal) ℓ) (pf : pre24.Contents (Elt Ideal)) (hO : ok24 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 24 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg24.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 24 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg24.tabRow pf hO i ⟨k, hk⟩) l).trans ?_
  show Cert.ReferenceIdeal.RefValue.xpadAt _ (Rg24.tabRow pf hO i ⟨k, hk⟩) l = _
  refine congrArg (fun j => Cert.ReferenceIdeal.RefValue.xpadAt _ j l) (Fin.ext ?_)
  rw [Rg24.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge24 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 24 + 2) main_v102 c (ValueIdx.ix3 i 0 l)
      = Cert.ReferenceIdeal.RefValue.refG (m ((c.tc : Thread nD τ).loc main_arg0)) (m ((c.tc : Thread nD τ).loc main_arg1))
          (ValueIdx.ix2 ⟨2048 * 24 + i.val, by have := i.isLt; omega⟩ l) := by
  obtain rfl : c = 0 := Subsingleton.elim _ _
  refine (congrFun (outsAll_24 m h (0 : Dev nD)) _).trans ?_
  refine (congrFun (Rg24.out_eq (Vent m) (tbl24 m) h.h24 (0 : Dev nD)) _).trans ?_
  exact bridge24_core m (tbl24 m) h.h24 (tbl24_word m) hp i l

end
end Cert.KernelIdeal.Hand

end
-- ==== Proof.KI.R25.Link.lean ====
/- Region 25's table satisfies the pipeline's side condition: its words are pooling indices, which the precondition
   bounds by 262144, the last row of the padded feature array. -/
/- Region 25 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R25.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 25's table is one of the pooling indices, so at most 262144. -/
theorem tbl25_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl25 m 0 x : BitVec 32).toNat ≤ 262144 := by
  show (StableHlo.after hostOps25 (V0 m (0 : Dev nD)) (Proc.devRef .tc main_v105) x : BitVec 32).toNat ≤ 262144
  after_results
  exact slice_cast_all (fun w : BitVec 32 => w.toNat ≤ 262144) _ _ _ _ (fun k => Cert.PreDecode.toNat_le_of_toInt _ (hb k)) x

/-- The pipeline's side condition at region 25's table: the feature window's block, at the row the table names,
    lies inside the padded feature array (and a transfer of 32-bit elements moves whole words). -/
theorem okT25 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok25 (F := F) (tbl25 m) := by
  intro i
  exact ⟨block_inside _ _ (tbl25_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 25's proof data are what the region finds: the padded feature array and the (not yet
    written) output array hold at its entry what they held after the first host stretch. -/
theorem hA25 (c : Dev nD) (w : Fin 2) : (pdats m h 25 c).A w = Vin25 m (outsAll m h) c (Pipeline.arrRef spec25 w) :=
  match w with
  | ⟨0, _⟩ => (Vin25_v3 m (outsAll m h) c).symm
  | ⟨1, _⟩ => (Vin25_out m (outsAll m h) c).symm

/-- At the exit each array holds what the pipeline leaves. -/
theorem hF25 (c : Dev nD) (w : Fin 2) : (pdats m h 25 c).arrAt w (Pipeline.pin (pcfgs (F := F)) (admAll m h) 25).N = Vout25 m (outsAll m h) c (Pipeline.arrRef spec25 w) :=
  match w with
  | ⟨0, _⟩ => ((pdats m h 25 c).arrAt_in 0 rfl _).trans (Vout25_v3 m (outsAll m h) c).symm
  | ⟨1, _⟩ => ((Vout25_out m (outsAll m h) c).trans (outsAll_25 m h c)).symm

theorem hrest25 (c : Dev nD) : ∀ b, b ∉ Finset.univ.image (Pipeline.arrRef spec25) → Vout25 m (outsAll m h) c b = Vin25 m (outsAll m h) c b :=
  fun b hb => Vout25_of m (outsAll m h) c b (fun hm => hb (by
    rw [List.mem_singleton] at hm; subst hm
    exact Finset.mem_image.mpr ⟨1, Finset.mem_univ _, rfl⟩))

set_option backward.isDefEq.respectTransparency.types false in
def reg25 : Pipeline.RegionSeg (pcfgs (F := F)) (admAll m h) (pdats m h) () defs₀ 𝒱₀ L lv 25 where
  win := winFacts25.to₀
  block_pos := block_pos25
  stage_whole := stage_whole25
  K := PEmpty
  osem k := k.elim
  ho := Pipeline.OwnSemFacts.none _
  hbody c := (Rg25.body_obligation (Vent m) (tbl25 m) h.h25 c).loose
  hwaits := Pipeline.hwaits_of_owed_zero _ _ _ _ L lv 25 fun _ _ => rfl
  pre c := iprop(StableHlo.held (c : Thread nD τ) (Pipeline.ucRefs τ sig) (Vin25 m (outsAll m h) c) ∗ Rst c)
  post c := iprop(StableHlo.held (c : Thread nD τ) (Pipeline.ucRefs τ sig) (Vout25 m (outsAll m h) c) ∗ Rst c)
  X c := iprop(∃ r, prngReg c r)
  Y c := iprop((∃ r, prngReg c r) ∗ Pipeline.prefHeld pre25 c (fun _ => fullShare) (tbl25 m))
  Z c := Pipeline.unscopedRestP (Ix := Unit) (Name := ℕ) (U := UR sig nD τ) (Lvl := ℕ) pre25 spec25 c (fun b => Vin25 m (outsAll m h) c b)
  hentry c := by
    rw [Pipeline.ownSems0_none]
    have hsplit0 := Pipeline.arrays_of_unscopedBufs (p := 25) (pcfgs (F := F)) (admAll m h) (pdats m h) winFacts25 arr_whole25 c
      ((pdats m h 25 c).share_full fun _ => rfl) (fun b => Vin25 m (outsAll m h) c b) (hA25 m h c)
    rw [Pipeline.unscopedBufs_held] at hsplit0
    have hsplit : (StableHlo.held (c : Thread nD τ) (Pipeline.ucRefs τ sig) (Vin25 m (outsAll m h) c) : sProp 𝕄)
        ⊢ iprop((pdats m h 25 c).arrays ((pdats m h 25 c).arrAt · 0) ∗ Pipeline.unscopedRest spec25 c (fun b => Vin25 m (outsAll m h) c b)) := hsplit0
    rw [Pipeline.unscopedRest_split preFacts25 c,
      show (fun k => Vin25 m (outsAll m h) c (pre25.ref k)) = tbl25 m from funext fun k => Vin25_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 25 c).Φ 0 = iprop(Pipeline.ΦA spec25 c ∗ Pipeline.prefHeld pre25 c (fun _ => fullShare) (tbl25 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 25 c).Φ (Fin.last _) = iprop(Pipeline.ΦA spec25 c ∗ Pipeline.prefHeld pre25 c (fun _ => fullShare) (tbl25 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 25) (pcfgs (F := F)) (admAll m h) (Ix := Unit) (Name := ℕ) (U := UR sig nD τ) (Lvl := ℕ)
      winFacts25 arr_whole25 c (pdats m h) ((pdats m h 25 c).share_full fun _ => rfl)
      (fun b => Vin25 m (outsAll m h) c b) (fun b => Vout25 m (outsAll m h) c b) ((pdats m h 25 c).arrAt · (Pipeline.pin (pcfgs (F := F)) (admAll m h) 25).N) (hF25 m h c) (hrest25 m h c)
    rw [Pipeline.unscopedBufs_held] at hjoin0
    have hjoin : (iprop((pdats m h 25 c).arrays ((pdats m h 25 c).arrAt · (Pipeline.pin (pcfgs (F := F)) (admAll m h) 25).N) ∗ Pipeline.unscopedRest spec25 c (fun b => Vin25 m (outsAll m h) c b)) : sProp 𝕄)
        ⊢ StableHlo.held (c : Thread nD τ) (Pipeline.ucRefs τ sig) (Vout25 m (outsAll m h) c) := hjoin0
    rw [Pipeline.unscopedRest_split preFacts25 c,
      show (fun k => Vin25 m (outsAll m h) c (pre25.ref k)) = tbl25 m from funext fun k => Vin25_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl25_word (i : Fin 2048) (k : Fin 32) :
    (tbl25 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 25 + i.val, by have := i.isLt; omega⟩ k) := by
  show (StableHlo.after hostOps25 (V0 m (0 : Dev nD)) (Proc.devRef .tc main_v105) : IVec S65536 32) _ = _
  after_results
  refine (flatten_rows_apply _ _ i k _).trans ?_
  exact slice_rows_apply _ _ _ (2048 * 25) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge25_core (m : (ℓ : Loc nD τ sig) → Buf (Elt Ideal) ℓ) (pf : pre25.Contents (Elt Ideal)) (hO : ok25 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 25 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg25.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 25 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg25.tabRow pf hO i ⟨k, hk⟩) l).trans ?_
  show Cert.ReferenceIdeal.RefValue.xpadAt _ (Rg25.tabRow pf hO i ⟨k, hk⟩) l = _
  refine congrArg (fun j => Cert.ReferenceIdeal.RefValue.xpadAt _ j l) (Fin.ext ?_)
  rw [Rg25.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge25 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 25 + 2) main_v106 c (ValueIdx.ix3 i 0 l)
      = Cert.ReferenceIdeal.RefValue.refG (m ((c.tc : Thread nD τ).loc main_arg0)) (m ((c.tc : Thread nD τ).loc main_arg1))
          (ValueIdx.ix2 ⟨2048 * 25 + i.val, by have := i.isLt; omega⟩ l) := by
  obtain rfl : c = 0 := Subsingleton.elim _ _
  refine (congrFun (outsAll_25 m h (0 : Dev nD)) _).trans ?_
  refine (congrFun (Rg25.out_eq (Vent m) (tbl25 m) h.h25 (0 : Dev nD)) _).trans ?_
  exact bridge25_core m (tbl25 m) h.h25 (tbl25_word m) hp i l

end
end Cert.KernelIdeal.Hand

end
-- ==== Proof.KI.R26.Link.lean ====
/- Region 26's table satisfies the pipeline's side condition: its words are pooling indices, which the precondition
   bounds by 262144, the last row of the padded feature array. -/
/- Region 26 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R26.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 26's table is one of the pooling indices, so at most 262144. -/
theorem tbl26_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl26 m 0 x : BitVec 32).toNat ≤ 262144 := by
  show (StableHlo.after hostOps26 (V0 m (0 : Dev nD)) (Proc.devRef .tc main_v109) x : BitVec 32).toNat ≤ 262144
  after_results
  exact slice_cast_all (fun w : BitVec 32 => w.toNat ≤ 262144) _ _ _ _ (fun k => Cert.PreDecode.toNat_le_of_toInt _ (hb k)) x

/-- The pipeline's side condition at region 26's table: the feature window's block, at the row the table names,
    lies inside the padded feature array (and a transfer of 32-bit elements moves whole words). -/
theorem okT26 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok26 (F := F) (tbl26 m) := by
  intro i
  exact ⟨block_inside _ _ (tbl26_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 26's proof data are what the region finds: the padded feature array and the (not yet
    written) output array hold at its entry what they held after the first host stretch. -/
theorem hA26 (c : Dev nD) (w : Fin 2) : (pdats m h 26 c).A w = Vin26 m (outsAll m h) c (Pipeline.arrRef spec26 w) :=
  match w with
  | ⟨0, _⟩ => (Vin26_v3 m (outsAll m h) c).symm
  | ⟨1, _⟩ => (Vin26_out m (outsAll m h) c).symm

/-- At the exit each array holds what the pipeline leaves. -/
theorem hF26 (c : Dev nD) (w : Fin 2) : (pdats m h 26 c).arrAt w (Pipeline.pin (pcfgs (F := F)) (admAll m h) 26).N = Vout26 m (outsAll m h) c (Pipeline.arrRef spec26 w) :=
  match w with
  | ⟨0, _⟩ => ((pdats m h 26 c).arrAt_in 0 rfl _).trans (Vout26_v3 m (outsAll m h) c).symm
  | ⟨1, _⟩ => ((Vout26_out m (outsAll m h) c).trans (outsAll_26 m h c)).symm

theorem hrest26 (c : Dev nD) : ∀ b, b ∉ Finset.univ.image (Pipeline.arrRef spec26) → Vout26 m (outsAll m h) c b = Vin26 m (outsAll m h) c b :=
  fun b hb => Vout26_of m (outsAll m h) c b (fun hm => hb (by
    rw [List.mem_singleton] at hm; subst hm
    exact Finset.mem_image.mpr ⟨1, Finset.mem_univ _, rfl⟩))

set_option backward.isDefEq.respectTransparency.types false in
def reg26 : Pipeline.RegionSeg (pcfgs (F := F)) (admAll m h) (pdats m h) () defs₀ 𝒱₀ L lv 26 where
  win := winFacts26.to₀
  block_pos := block_pos26
  stage_whole := stage_whole26
  K := PEmpty
  osem k := k.elim
  ho := Pipeline.OwnSemFacts.none _
  hbody c := (Rg26.body_obligation (Vent m) (tbl26 m) h.h26 c).loose
  hwaits := Pipeline.hwaits_of_owed_zero _ _ _ _ L lv 26 fun _ _ => rfl
  pre c := iprop(StableHlo.held (c : Thread nD τ) (Pipeline.ucRefs τ sig) (Vin26 m (outsAll m h) c) ∗ Rst c)
  post c := iprop(StableHlo.held (c : Thread nD τ) (Pipeline.ucRefs τ sig) (Vout26 m (outsAll m h) c) ∗ Rst c)
  X c := iprop(∃ r, prngReg c r)
  Y c := iprop((∃ r, prngReg c r) ∗ Pipeline.prefHeld pre26 c (fun _ => fullShare) (tbl26 m))
  Z c := Pipeline.unscopedRestP (Ix := Unit) (Name := ℕ) (U := UR sig nD τ) (Lvl := ℕ) pre26 spec26 c (fun b => Vin26 m (outsAll m h) c b)
  hentry c := by
    rw [Pipeline.ownSems0_none]
    have hsplit0 := Pipeline.arrays_of_unscopedBufs (p := 26) (pcfgs (F := F)) (admAll m h) (pdats m h) winFacts26 arr_whole26 c
      ((pdats m h 26 c).share_full fun _ => rfl) (fun b => Vin26 m (outsAll m h) c b) (hA26 m h c)
    rw [Pipeline.unscopedBufs_held] at hsplit0
    have hsplit : (StableHlo.held (c : Thread nD τ) (Pipeline.ucRefs τ sig) (Vin26 m (outsAll m h) c) : sProp 𝕄)
        ⊢ iprop((pdats m h 26 c).arrays ((pdats m h 26 c).arrAt · 0) ∗ Pipeline.unscopedRest spec26 c (fun b => Vin26 m (outsAll m h) c b)) := hsplit0
    rw [Pipeline.unscopedRest_split preFacts26 c,
      show (fun k => Vin26 m (outsAll m h) c (pre26.ref k)) = tbl26 m from funext fun k => Vin26_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 26 c).Φ 0 = iprop(Pipeline.ΦA spec26 c ∗ Pipeline.prefHeld pre26 c (fun _ => fullShare) (tbl26 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 26 c).Φ (Fin.last _) = iprop(Pipeline.ΦA spec26 c ∗ Pipeline.prefHeld pre26 c (fun _ => fullShare) (tbl26 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 26) (pcfgs (F := F)) (admAll m h) (Ix := Unit) (Name := ℕ) (U := UR sig nD τ) (Lvl := ℕ)
      winFacts26 arr_whole26 c (pdats m h) ((pdats m h 26 c).share_full fun _ => rfl)
      (fun b => Vin26 m (outsAll m h) c b) (fun b => Vout26 m (outsAll m h) c b) ((pdats m h 26 c).arrAt · (Pipeline.pin (pcfgs (F := F)) (admAll m h) 26).N) (hF26 m h c) (hrest26 m h c)
    rw [Pipeline.unscopedBufs_held] at hjoin0
    have hjoin : (iprop((pdats m h 26 c).arrays ((pdats m h 26 c).arrAt · (Pipeline.pin (pcfgs (F := F)) (admAll m h) 26).N) ∗ Pipeline.unscopedRest spec26 c (fun b => Vin26 m (outsAll m h) c b)) : sProp 𝕄)
        ⊢ StableHlo.held (c : Thread nD τ) (Pipeline.ucRefs τ sig) (Vout26 m (outsAll m h) c) := hjoin0
    rw [Pipeline.unscopedRest_split preFacts26 c,
      show (fun k => Vin26 m (outsAll m h) c (pre26.ref k)) = tbl26 m from funext fun k => Vin26_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl26_word (i : Fin 2048) (k : Fin 32) :
    (tbl26 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 26 + i.val, by have := i.isLt; omega⟩ k) := by
  show (StableHlo.after hostOps26 (V0 m (0 : Dev nD)) (Proc.devRef .tc main_v109) : IVec S65536 32) _ = _
  after_results
  refine (flatten_rows_apply _ _ i k _).trans ?_
  exact slice_rows_apply _ _ _ (2048 * 26) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge26_core (m : (ℓ : Loc nD τ sig) → Buf (Elt Ideal) ℓ) (pf : pre26.Contents (Elt Ideal)) (hO : ok26 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 26 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg26.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 26 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg26.tabRow pf hO i ⟨k, hk⟩) l).trans ?_
  show Cert.ReferenceIdeal.RefValue.xpadAt _ (Rg26.tabRow pf hO i ⟨k, hk⟩) l = _
  refine congrArg (fun j => Cert.ReferenceIdeal.RefValue.xpadAt _ j l) (Fin.ext ?_)
  rw [Rg26.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge26 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 26 + 2) main_v110 c (ValueIdx.ix3 i 0 l)
      = Cert.ReferenceIdeal.RefValue.refG (m ((c.tc : Thread nD τ).loc main_arg0)) (m ((c.tc : Thread nD τ).loc main_arg1))
          (ValueIdx.ix2 ⟨2048 * 26 + i.val, by have := i.isLt; omega⟩ l) := by
  obtain rfl : c = 0 := Subsingleton.elim _ _
  refine (congrFun (outsAll_26 m h (0 : Dev nD)) _).trans ?_
  refine (congrFun (Rg26.out_eq (Vent m) (tbl26 m) h.h26 (0 : Dev nD)) _).trans ?_
  exact bridge26_core m (tbl26 m) h.h26 (tbl26_word m) hp i l

end
end Cert.KernelIdeal.Hand

end
-- ==== Proof.KI.R27.Link.lean ====
/- Region 27's table satisfies the pipeline's side condition: its words are pooling indices, which the precondition
   bounds by 262144, the last row of the padded feature array. -/
/- Region 27 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R27.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 27's table is one of the pooling indices, so at most 262144. -/
theorem tbl27_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl27 m 0 x : BitVec 32).toNat ≤ 262144 := by
  show (StableHlo.after hostOps27 (V0 m (0 : Dev nD)) (Proc.devRef .tc main_v113) x : BitVec 32).toNat ≤ 262144
  after_results
  exact slice_cast_all (fun w : BitVec 32 => w.toNat ≤ 262144) _ _ _ _ (fun k => Cert.PreDecode.toNat_le_of_toInt _ (hb k)) x

/-- The pipeline's side condition at region 27's table: the feature window's block, at the row the table names,
    lies inside the padded feature array (and a transfer of 32-bit elements moves whole words). -/
theorem okT27 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok27 (F := F) (tbl27 m) := by
  intro i
  exact ⟨block_inside _ _ (tbl27_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 27's proof data are what the region finds: the padded feature array and the (not yet
    written) output array hold at its entry what they held after the first host stretch. -/
theorem hA27 (c : Dev nD) (w : Fin 2) : (pdats m h 27 c).A w = Vin27 m (outsAll m h) c (Pipeline.arrRef spec27 w) :=
  match w with
  | ⟨0, _⟩ => (Vin27_v3 m (outsAll m h) c).symm
  | ⟨1, _⟩ => (Vin27_out m (outsAll m h) c).symm

/-- At the exit each array holds what the pipeline leaves. -/
theorem hF27 (c : Dev nD) (w : Fin 2) : (pdats m h 27 c).arrAt w (Pipeline.pin (pcfgs (F := F)) (admAll m h) 27).N = Vout27 m (outsAll m h) c (Pipeline.arrRef spec27 w) :=
  match w with
  | ⟨0, _⟩ => ((pdats m h 27 c).arrAt_in 0 rfl _).trans (Vout27_v3 m (outsAll m h) c).symm
  | ⟨1, _⟩ => ((Vout27_out m (outsAll m h) c).trans (outsAll_27 m h c)).symm

theorem hrest27 (c : Dev nD) : ∀ b, b ∉ Finset.univ.image (Pipeline.arrRef spec27) → Vout27 m (outsAll m h) c b = Vin27 m (outsAll m h) c b :=
  fun b hb => Vout27_of m (outsAll m h) c b (fun hm => hb (by
    rw [List.mem_singleton] at hm; subst hm
    exact Finset.mem_image.mpr ⟨1, Finset.mem_univ _, rfl⟩))

set_option backward.isDefEq.respectTransparency.types false in
def reg27 : Pipeline.RegionSeg (pcfgs (F := F)) (admAll m h) (pdats m h) () defs₀ 𝒱₀ L lv 27 where
  win := winFacts27.to₀
  block_pos := block_pos27
  stage_whole := stage_whole27
  K := PEmpty
  osem k := k.elim
  ho := Pipeline.OwnSemFacts.none _
  hbody c := (Rg27.body_obligation (Vent m) (tbl27 m) h.h27 c).loose
  hwaits := Pipeline.hwaits_of_owed_zero _ _ _ _ L lv 27 fun _ _ => rfl
  pre c := iprop(StableHlo.held (c : Thread nD τ) (Pipeline.ucRefs τ sig) (Vin27 m (outsAll m h) c) ∗ Rst c)
  post c := iprop(StableHlo.held (c : Thread nD τ) (Pipeline.ucRefs τ sig) (Vout27 m (outsAll m h) c) ∗ Rst c)
  X c := iprop(∃ r, prngReg c r)
  Y c := iprop((∃ r, prngReg c r) ∗ Pipeline.prefHeld pre27 c (fun _ => fullShare) (tbl27 m))
  Z c := Pipeline.unscopedRestP (Ix := Unit) (Name := ℕ) (U := UR sig nD τ) (Lvl := ℕ) pre27 spec27 c (fun b => Vin27 m (outsAll m h) c b)
  hentry c := by
    rw [Pipeline.ownSems0_none]
    have hsplit0 := Pipeline.arrays_of_unscopedBufs (p := 27) (pcfgs (F := F)) (admAll m h) (pdats m h) winFacts27 arr_whole27 c
      ((pdats m h 27 c).share_full fun _ => rfl) (fun b => Vin27 m (outsAll m h) c b) (hA27 m h c)
    rw [Pipeline.unscopedBufs_held] at hsplit0
    have hsplit : (StableHlo.held (c : Thread nD τ) (Pipeline.ucRefs τ sig) (Vin27 m (outsAll m h) c) : sProp 𝕄)
        ⊢ iprop((pdats m h 27 c).arrays ((pdats m h 27 c).arrAt · 0) ∗ Pipeline.unscopedRest spec27 c (fun b => Vin27 m (outsAll m h) c b)) := hsplit0
    rw [Pipeline.unscopedRest_split preFacts27 c,
      show (fun k => Vin27 m (outsAll m h) c (pre27.ref k)) = tbl27 m from funext fun k => Vin27_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 27 c).Φ 0 = iprop(Pipeline.ΦA spec27 c ∗ Pipeline.prefHeld pre27 c (fun _ => fullShare) (tbl27 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 27 c).Φ (Fin.last _) = iprop(Pipeline.ΦA spec27 c ∗ Pipeline.prefHeld pre27 c (fun _ => fullShare) (tbl27 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 27) (pcfgs (F := F)) (admAll m h) (Ix := Unit) (Name := ℕ) (U := UR sig nD τ) (Lvl := ℕ)
      winFacts27 arr_whole27 c (pdats m h) ((pdats m h 27 c).share_full fun _ => rfl)
      (fun b => Vin27 m (outsAll m h) c b) (fun b => Vout27 m (outsAll m h) c b) ((pdats m h 27 c).arrAt · (Pipeline.pin (pcfgs (F := F)) (admAll m h) 27).N) (hF27 m h c) (hrest27 m h c)
    rw [Pipeline.unscopedBufs_held] at hjoin0
    have hjoin : (iprop((pdats m h 27 c).arrays ((pdats m h 27 c).arrAt · (Pipeline.pin (pcfgs (F := F)) (admAll m h) 27).N) ∗ Pipeline.unscopedRest spec27 c (fun b => Vin27 m (outsAll m h) c b)) : sProp 𝕄)
        ⊢ StableHlo.held (c : Thread nD τ) (Pipeline.ucRefs τ sig) (Vout27 m (outsAll m h) c) := hjoin0
    rw [Pipeline.unscopedRest_split preFacts27 c,
      show (fun k => Vin27 m (outsAll m h) c (pre27.ref k)) = tbl27 m from funext fun k => Vin27_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl27_word (i : Fin 2048) (k : Fin 32) :
    (tbl27 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 27 + i.val, by have := i.isLt; omega⟩ k) := by
  show (StableHlo.after hostOps27 (V0 m (0 : Dev nD)) (Proc.devRef .tc main_v113) : IVec S65536 32) _ = _
  after_results
  refine (flatten_rows_apply _ _ i k _).trans ?_
  exact slice_rows_apply _ _ _ (2048 * 27) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge27_core (m : (ℓ : Loc nD τ sig) → Buf (Elt Ideal) ℓ) (pf : pre27.Contents (Elt Ideal)) (hO : ok27 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 27 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg27.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 27 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg27.tabRow pf hO i ⟨k, hk⟩) l).trans ?_
  show Cert.ReferenceIdeal.RefValue.xpadAt _ (Rg27.tabRow pf hO i ⟨k, hk⟩) l = _
  refine congrArg (fun j => Cert.ReferenceIdeal.RefValue.xpadAt _ j l) (Fin.ext ?_)
  rw [Rg27.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge27 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 27 + 2) main_v114 c (ValueIdx.ix3 i 0 l)
      = Cert.ReferenceIdeal.RefValue.refG (m ((c.tc : Thread nD τ).loc main_arg0)) (m ((c.tc : Thread nD τ).loc main_arg1))
          (ValueIdx.ix2 ⟨2048 * 27 + i.val, by have := i.isLt; omega⟩ l) := by
  obtain rfl : c = 0 := Subsingleton.elim _ _
  refine (congrFun (outsAll_27 m h (0 : Dev nD)) _).trans ?_
  refine (congrFun (Rg27.out_eq (Vent m) (tbl27 m) h.h27 (0 : Dev nD)) _).trans ?_
  exact bridge27_core m (tbl27 m) h.h27 (tbl27_word m) hp i l

end
end Cert.KernelIdeal.Hand

end
-- ==== Proof.KI.R28.Link.lean ====
/- Region 28's table satisfies the pipeline's side condition: its words are pooling indices, which the precondition
   bounds by 262144, the last row of the padded feature array. -/
/- Region 28 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R28.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 28's table is one of the pooling indices, so at most 262144. -/
theorem tbl28_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl28 m 0 x : BitVec 32).toNat ≤ 262144 := by
  show (StableHlo.after hostOps28 (V0 m (0 : Dev nD)) (Proc.devRef .tc main_v117) x : BitVec 32).toNat ≤ 262144
  after_results
  exact slice_cast_all (fun w : BitVec 32 => w.toNat ≤ 262144) _ _ _ _ (fun k => Cert.PreDecode.toNat_le_of_toInt _ (hb k)) x

/-- The pipeline's side condition at region 28's table: the feature window's block, at the row the table names,
    lies inside the padded feature array (and a transfer of 32-bit elements moves whole words). -/
theorem okT28 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok28 (F := F) (tbl28 m) := by
  intro i
  exact ⟨block_inside _ _ (tbl28_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 28's proof data are what the region finds: the padded feature array and the (not yet
    written) output array hold at its entry what they held after the first host stretch. -/
theorem hA28 (c : Dev nD) (w : Fin 2) : (pdats m h 28 c).A w = Vin28 m (outsAll m h) c (Pipeline.arrRef spec28 w) :=
  match w with
  | ⟨0, _⟩ => (Vin28_v3 m (outsAll m h) c).symm
  | ⟨1, _⟩ => (Vin28_out m (outsAll m h) c).symm

/-- At the exit each array holds what the pipeline leaves. -/
theorem hF28 (c : Dev nD) (w : Fin 2) : (pdats m h 28 c).arrAt w (Pipeline.pin (pcfgs (F := F)) (admAll m h) 28).N = Vout28 m (outsAll m h) c (Pipeline.arrRef spec28 w) :=
  match w with
  | ⟨0, _⟩ => ((pdats m h 28 c).arrAt_in 0 rfl _).trans (Vout28_v3 m (outsAll m h) c).symm
  | ⟨1, _⟩ => ((Vout28_out m (outsAll m h) c).trans (outsAll_28 m h c)).symm

theorem hrest28 (c : Dev nD) : ∀ b, b ∉ Finset.univ.image (Pipeline.arrRef spec28) → Vout28 m (outsAll m h) c b = Vin28 m (outsAll m h) c b :=
  fun b hb => Vout28_of m (outsAll m h) c b (fun hm => hb (by
    rw [List.mem_singleton] at hm; subst hm
    exact Finset.mem_image.mpr ⟨1, Finset.mem_univ _, rfl⟩))

set_option backward.isDefEq.respectTransparency.types false in
def reg28 : Pipeline.RegionSeg (pcfgs (F := F)) (admAll m h) (pdats m h) () defs₀ 𝒱₀ L lv 28 where
  win := winFacts28.to₀
  block_pos := block_pos28
  stage_whole := stage_whole28
  K := PEmpty
  osem k := k.elim
  ho := Pipeline.OwnSemFacts.none _
  hbody c := (Rg28.body_obligation (Vent m) (tbl28 m) h.h28 c).loose
  hwaits := Pipeline.hwaits_of_owed_zero _ _ _ _ L lv 28 fun _ _ => rfl
  pre c := iprop(StableHlo.held (c : Thread nD τ) (Pipeline.ucRefs τ sig) (Vin28 m (outsAll m h) c) ∗ Rst c)
  post c := iprop(StableHlo.held (c : Thread nD τ) (Pipeline.ucRefs τ sig) (Vout28 m (outsAll m h) c) ∗ Rst c)
  X c := iprop(∃ r, prngReg c r)
  Y c := iprop((∃ r, prngReg c r) ∗ Pipeline.prefHeld pre28 c (fun _ => fullShare) (tbl28 m))
  Z c := Pipeline.unscopedRestP (Ix := Unit) (Name := ℕ) (U := UR sig nD τ) (Lvl := ℕ) pre28 spec28 c (fun b => Vin28 m (outsAll m h) c b)
  hentry c := by
    rw [Pipeline.ownSems0_none]
    have hsplit0 := Pipeline.arrays_of_unscopedBufs (p := 28) (pcfgs (F := F)) (admAll m h) (pdats m h) winFacts28 arr_whole28 c
      ((pdats m h 28 c).share_full fun _ => rfl) (fun b => Vin28 m (outsAll m h) c b) (hA28 m h c)
    rw [Pipeline.unscopedBufs_held] at hsplit0
    have hsplit : (StableHlo.held (c : Thread nD τ) (Pipeline.ucRefs τ sig) (Vin28 m (outsAll m h) c) : sProp 𝕄)
        ⊢ iprop((pdats m h 28 c).arrays ((pdats m h 28 c).arrAt · 0) ∗ Pipeline.unscopedRest spec28 c (fun b => Vin28 m (outsAll m h) c b)) := hsplit0
    rw [Pipeline.unscopedRest_split preFacts28 c,
      show (fun k => Vin28 m (outsAll m h) c (pre28.ref k)) = tbl28 m from funext fun k => Vin28_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 28 c).Φ 0 = iprop(Pipeline.ΦA spec28 c ∗ Pipeline.prefHeld pre28 c (fun _ => fullShare) (tbl28 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 28 c).Φ (Fin.last _) = iprop(Pipeline.ΦA spec28 c ∗ Pipeline.prefHeld pre28 c (fun _ => fullShare) (tbl28 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 28) (pcfgs (F := F)) (admAll m h) (Ix := Unit) (Name := ℕ) (U := UR sig nD τ) (Lvl := ℕ)
      winFacts28 arr_whole28 c (pdats m h) ((pdats m h 28 c).share_full fun _ => rfl)
      (fun b => Vin28 m (outsAll m h) c b) (fun b => Vout28 m (outsAll m h) c b) ((pdats m h 28 c).arrAt · (Pipeline.pin (pcfgs (F := F)) (admAll m h) 28).N) (hF28 m h c) (hrest28 m h c)
    rw [Pipeline.unscopedBufs_held] at hjoin0
    have hjoin : (iprop((pdats m h 28 c).arrays ((pdats m h 28 c).arrAt · (Pipeline.pin (pcfgs (F := F)) (admAll m h) 28).N) ∗ Pipeline.unscopedRest spec28 c (fun b => Vin28 m (outsAll m h) c b)) : sProp 𝕄)
        ⊢ StableHlo.held (c : Thread nD τ) (Pipeline.ucRefs τ sig) (Vout28 m (outsAll m h) c) := hjoin0
    rw [Pipeline.unscopedRest_split preFacts28 c,
      show (fun k => Vin28 m (outsAll m h) c (pre28.ref k)) = tbl28 m from funext fun k => Vin28_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl28_word (i : Fin 2048) (k : Fin 32) :
    (tbl28 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 28 + i.val, by have := i.isLt; omega⟩ k) := by
  show (StableHlo.after hostOps28 (V0 m (0 : Dev nD)) (Proc.devRef .tc main_v117) : IVec S65536 32) _ = _
  after_results
  refine (flatten_rows_apply _ _ i k _).trans ?_
  exact slice_rows_apply _ _ _ (2048 * 28) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge28_core (m : (ℓ : Loc nD τ sig) → Buf (Elt Ideal) ℓ) (pf : pre28.Contents (Elt Ideal)) (hO : ok28 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 28 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg28.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 28 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg28.tabRow pf hO i ⟨k, hk⟩) l).trans ?_
  show Cert.ReferenceIdeal.RefValue.xpadAt _ (Rg28.tabRow pf hO i ⟨k, hk⟩) l = _
  refine congrArg (fun j => Cert.ReferenceIdeal.RefValue.xpadAt _ j l) (Fin.ext ?_)
  rw [Rg28.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge28 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 28 + 2) main_v118 c (ValueIdx.ix3 i 0 l)
      = Cert.ReferenceIdeal.RefValue.refG (m ((c.tc : Thread nD τ).loc main_arg0)) (m ((c.tc : Thread nD τ).loc main_arg1))
          (ValueIdx.ix2 ⟨2048 * 28 + i.val, by have := i.isLt; omega⟩ l) := by
  obtain rfl : c = 0 := Subsingleton.elim _ _
  refine (congrFun (outsAll_28 m h (0 : Dev nD)) _).trans ?_
  refine (congrFun (Rg28.out_eq (Vent m) (tbl28 m) h.h28 (0 : Dev nD)) _).trans ?_
  exact bridge28_core m (tbl28 m) h.h28 (tbl28_word m) hp i l

end
end Cert.KernelIdeal.Hand

end
-- ==== Proof.KI.R29.Link.lean ====
/- Region 29's table satisfies the pipeline's side condition: its words are pooling indices, which the precondition
   bounds by 262144, the last row of the padded feature array. -/
/- Region 29 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R29.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 29's table is one of the pooling indices, so at most 262144. -/
theorem tbl29_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl29 m 0 x : BitVec 32).toNat ≤ 262144 := by
  show (StableHlo.after hostOps29 (V0 m (0 : Dev nD)) (Proc.devRef .tc main_v121) x : BitVec 32).toNat ≤ 262144
  after_results
  exact slice_cast_all (fun w : BitVec 32 => w.toNat ≤ 262144) _ _ _ _ (fun k => Cert.PreDecode.toNat_le_of_toInt _ (hb k)) x

/-- The pipeline's side condition at region 29's table: the feature window's block, at the row the table names,
    lies inside the padded feature array (and a transfer of 32-bit elements moves whole words). -/
theorem okT29 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok29 (F := F) (tbl29 m) := by
  intro i
  exact ⟨block_inside _ _ (tbl29_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 29's proof data are what the region finds: the padded feature array and the (not yet
    written) output array hold at its entry what they held after the first host stretch. -/
theorem hA29 (c : Dev nD) (w : Fin 2) : (pdats m h 29 c).A w = Vin29 m (outsAll m h) c (Pipeline.arrRef spec29 w) :=
  match w with
  | ⟨0, _⟩ => (Vin29_v3 m (outsAll m h) c).symm
  | ⟨1, _⟩ => (Vin29_out m (outsAll m h) c).symm

/-- At the exit each array holds what the pipeline leaves. -/
theorem hF29 (c : Dev nD) (w : Fin 2) : (pdats m h 29 c).arrAt w (Pipeline.pin (pcfgs (F := F)) (admAll m h) 29).N = Vout29 m (outsAll m h) c (Pipeline.arrRef spec29 w) :=
  match w with
  | ⟨0, _⟩ => ((pdats m h 29 c).arrAt_in 0 rfl _).trans (Vout29_v3 m (outsAll m h) c).symm
  | ⟨1, _⟩ => ((Vout29_out m (outsAll m h) c).trans (outsAll_29 m h c)).symm

theorem hrest29 (c : Dev nD) : ∀ b, b ∉ Finset.univ.image (Pipeline.arrRef spec29) → Vout29 m (outsAll m h) c b = Vin29 m (outsAll m h) c b :=
  fun b hb => Vout29_of m (outsAll m h) c b (fun hm => hb (by
    rw [List.mem_singleton] at hm; subst hm
    exact Finset.mem_image.mpr ⟨1, Finset.mem_univ _, rfl⟩))

set_option backward.isDefEq.respectTransparency.types false in
def reg29 : Pipeline.RegionSeg (pcfgs (F := F)) (admAll m h) (pdats m h) () defs₀ 𝒱₀ L lv 29 where
  win := winFacts29.to₀
  block_pos := block_pos29
  stage_whole := stage_whole29
  K := PEmpty
  osem k := k.elim
  ho := Pipeline.OwnSemFacts.none _
  hbody c := (Rg29.body_obligation (Vent m) (tbl29 m) h.h29 c).loose
  hwaits := Pipeline.hwaits_of_owed_zero _ _ _ _ L lv 29 fun _ _ => rfl
  pre c := iprop(StableHlo.held (c : Thread nD τ) (Pipeline.ucRefs τ sig) (Vin29 m (outsAll m h) c) ∗ Rst c)
  post c := iprop(StableHlo.held (c : Thread nD τ) (Pipeline.ucRefs τ sig) (Vout29 m (outsAll m h) c) ∗ Rst c)
  X c := iprop(∃ r, prngReg c r)
  Y c := iprop((∃ r, prngReg c r) ∗ Pipeline.prefHeld pre29 c (fun _ => fullShare) (tbl29 m))
  Z c := Pipeline.unscopedRestP (Ix := Unit) (Name := ℕ) (U := UR sig nD τ) (Lvl := ℕ) pre29 spec29 c (fun b => Vin29 m (outsAll m h) c b)
  hentry c := by
    rw [Pipeline.ownSems0_none]
    have hsplit0 := Pipeline.arrays_of_unscopedBufs (p := 29) (pcfgs (F := F)) (admAll m h) (pdats m h) winFacts29 arr_whole29 c
      ((pdats m h 29 c).share_full fun _ => rfl) (fun b => Vin29 m (outsAll m h) c b) (hA29 m h c)
    rw [Pipeline.unscopedBufs_held] at hsplit0
    have hsplit : (StableHlo.held (c : Thread nD τ) (Pipeline.ucRefs τ sig) (Vin29 m (outsAll m h) c) : sProp 𝕄)
        ⊢ iprop((pdats m h 29 c).arrays ((pdats m h 29 c).arrAt · 0) ∗ Pipeline.unscopedRest spec29 c (fun b => Vin29 m (outsAll m h) c b)) := hsplit0
    rw [Pipeline.unscopedRest_split preFacts29 c,
      show (fun k => Vin29 m (outsAll m h) c (pre29.ref k)) = tbl29 m from funext fun k => Vin29_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 29 c).Φ 0 = iprop(Pipeline.ΦA spec29 c ∗ Pipeline.prefHeld pre29 c (fun _ => fullShare) (tbl29 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 29 c).Φ (Fin.last _) = iprop(Pipeline.ΦA spec29 c ∗ Pipeline.prefHeld pre29 c (fun _ => fullShare) (tbl29 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 29) (pcfgs (F := F)) (admAll m h) (Ix := Unit) (Name := ℕ) (U := UR sig nD τ) (Lvl := ℕ)
      winFacts29 arr_whole29 c (pdats m h) ((pdats m h 29 c).share_full fun _ => rfl)
      (fun b => Vin29 m (outsAll m h) c b) (fun b => Vout29 m (outsAll m h) c b) ((pdats m h 29 c).arrAt · (Pipeline.pin (pcfgs (F := F)) (admAll m h) 29).N) (hF29 m h c) (hrest29 m h c)
    rw [Pipeline.unscopedBufs_held] at hjoin0
    have hjoin : (iprop((pdats m h 29 c).arrays ((pdats m h 29 c).arrAt · (Pipeline.pin (pcfgs (F := F)) (admAll m h) 29).N) ∗ Pipeline.unscopedRest spec29 c (fun b => Vin29 m (outsAll m h) c b)) : sProp 𝕄)
        ⊢ StableHlo.held (c : Thread nD τ) (Pipeline.ucRefs τ sig) (Vout29 m (outsAll m h) c) := hjoin0
    rw [Pipeline.unscopedRest_split preFacts29 c,
      show (fun k => Vin29 m (outsAll m h) c (pre29.ref k)) = tbl29 m from funext fun k => Vin29_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl29_word (i : Fin 2048) (k : Fin 32) :
    (tbl29 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 29 + i.val, by have := i.isLt; omega⟩ k) := by
  show (StableHlo.after hostOps29 (V0 m (0 : Dev nD)) (Proc.devRef .tc main_v121) : IVec S65536 32) _ = _
  after_results
  refine (flatten_rows_apply _ _ i k _).trans ?_
  exact slice_rows_apply _ _ _ (2048 * 29) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge29_core (m : (ℓ : Loc nD τ sig) → Buf (Elt Ideal) ℓ) (pf : pre29.Contents (Elt Ideal)) (hO : ok29 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 29 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg29.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 29 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg29.tabRow pf hO i ⟨k, hk⟩) l).trans ?_
  show Cert.ReferenceIdeal.RefValue.xpadAt _ (Rg29.tabRow pf hO i ⟨k, hk⟩) l = _
  refine congrArg (fun j => Cert.ReferenceIdeal.RefValue.xpadAt _ j l) (Fin.ext ?_)
  rw [Rg29.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge29 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 29 + 2) main_v122 c (ValueIdx.ix3 i 0 l)
      = Cert.ReferenceIdeal.RefValue.refG (m ((c.tc : Thread nD τ).loc main_arg0)) (m ((c.tc : Thread nD τ).loc main_arg1))
          (ValueIdx.ix2 ⟨2048 * 29 + i.val, by have := i.isLt; omega⟩ l) := by
  obtain rfl : c = 0 := Subsingleton.elim _ _
  refine (congrFun (outsAll_29 m h (0 : Dev nD)) _).trans ?_
  refine (congrFun (Rg29.out_eq (Vent m) (tbl29 m) h.h29 (0 : Dev nD)) _).trans ?_
  exact bridge29_core m (tbl29 m) h.h29 (tbl29_word m) hp i l

end
end Cert.KernelIdeal.Hand

end
-- ==== Proof.KI.R30.Link.lean ====
/- Region 30's table satisfies the pipeline's side condition: its words are pooling indices, which the precondition
   bounds by 262144, the last row of the padded feature array. -/
/- Region 30 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R30.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 30's table is one of the pooling indices, so at most 262144. -/
theorem tbl30_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl30 m 0 x : BitVec 32).toNat ≤ 262144 := by
  show (StableHlo.after hostOps30 (V0 m (0 : Dev nD)) (Proc.devRef .tc main_v125) x : BitVec 32).toNat ≤ 262144
  after_results
  exact slice_cast_all (fun w : BitVec 32 => w.toNat ≤ 262144) _ _ _ _ (fun k => Cert.PreDecode.toNat_le_of_toInt _ (hb k)) x

/-- The pipeline's side condition at region 30's table: the feature window's block, at the row the table names,
    lies inside the padded feature array (and a transfer of 32-bit elements moves whole words). -/
theorem okT30 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok30 (F := F) (tbl30 m) := by
  intro i
  exact ⟨block_inside _ _ (tbl30_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 30's proof data are what the region finds: the padded feature array and the (not yet
    written) output array hold at its entry what they held after the first host stretch. -/
theorem hA30 (c : Dev nD) (w : Fin 2) : (pdats m h 30 c).A w = Vin30 m (outsAll m h) c (Pipeline.arrRef spec30 w) :=
  match w with
  | ⟨0, _⟩ => (Vin30_v3 m (outsAll m h) c).symm
  | ⟨1, _⟩ => (Vin30_out m (outsAll m h) c).symm

/-- At the exit each array holds what the pipeline leaves. -/
theorem hF30 (c : Dev nD) (w : Fin 2) : (pdats m h 30 c).arrAt w (Pipeline.pin (pcfgs (F := F)) (admAll m h) 30).N = Vout30 m (outsAll m h) c (Pipeline.arrRef spec30 w) :=
  match w with
  | ⟨0, _⟩ => ((pdats m h 30 c).arrAt_in 0 rfl _).trans (Vout30_v3 m (outsAll m h) c).symm
  | ⟨1, _⟩ => ((Vout30_out m (outsAll m h) c).trans (outsAll_30 m h c)).symm

theorem hrest30 (c : Dev nD) : ∀ b, b ∉ Finset.univ.image (Pipeline.arrRef spec30) → Vout30 m (outsAll m h) c b = Vin30 m (outsAll m h) c b :=
  fun b hb => Vout30_of m (outsAll m h) c b (fun hm => hb (by
    rw [List.mem_singleton] at hm; subst hm
    exact Finset.mem_image.mpr ⟨1, Finset.mem_univ _, rfl⟩))

set_option backward.isDefEq.respectTransparency.types false in
def reg30 : Pipeline.RegionSeg (pcfgs (F := F)) (admAll m h) (pdats m h) () defs₀ 𝒱₀ L lv 30 where
  win := winFacts30.to₀
  block_pos := block_pos30
  stage_whole := stage_whole30
  K := PEmpty
  osem k := k.elim
  ho := Pipeline.OwnSemFacts.none _
  hbody c := (Rg30.body_obligation (Vent m) (tbl30 m) h.h30 c).loose
  hwaits := Pipeline.hwaits_of_owed_zero _ _ _ _ L lv 30 fun _ _ => rfl
  pre c := iprop(StableHlo.held (c : Thread nD τ) (Pipeline.ucRefs τ sig) (Vin30 m (outsAll m h) c) ∗ Rst c)
  post c := iprop(StableHlo.held (c : Thread nD τ) (Pipeline.ucRefs τ sig) (Vout30 m (outsAll m h) c) ∗ Rst c)
  X c := iprop(∃ r, prngReg c r)
  Y c := iprop((∃ r, prngReg c r) ∗ Pipeline.prefHeld pre30 c (fun _ => fullShare) (tbl30 m))
  Z c := Pipeline.unscopedRestP (Ix := Unit) (Name := ℕ) (U := UR sig nD τ) (Lvl := ℕ) pre30 spec30 c (fun b => Vin30 m (outsAll m h) c b)
  hentry c := by
    rw [Pipeline.ownSems0_none]
    have hsplit0 := Pipeline.arrays_of_unscopedBufs (p := 30) (pcfgs (F := F)) (admAll m h) (pdats m h) winFacts30 arr_whole30 c
      ((pdats m h 30 c).share_full fun _ => rfl) (fun b => Vin30 m (outsAll m h) c b) (hA30 m h c)
    rw [Pipeline.unscopedBufs_held] at hsplit0
    have hsplit : (StableHlo.held (c : Thread nD τ) (Pipeline.ucRefs τ sig) (Vin30 m (outsAll m h) c) : sProp 𝕄)
        ⊢ iprop((pdats m h 30 c).arrays ((pdats m h 30 c).arrAt · 0) ∗ Pipeline.unscopedRest spec30 c (fun b => Vin30 m (outsAll m h) c b)) := hsplit0
    rw [Pipeline.unscopedRest_split preFacts30 c,
      show (fun k => Vin30 m (outsAll m h) c (pre30.ref k)) = tbl30 m from funext fun k => Vin30_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 30 c).Φ 0 = iprop(Pipeline.ΦA spec30 c ∗ Pipeline.prefHeld pre30 c (fun _ => fullShare) (tbl30 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 30 c).Φ (Fin.last _) = iprop(Pipeline.ΦA spec30 c ∗ Pipeline.prefHeld pre30 c (fun _ => fullShare) (tbl30 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 30) (pcfgs (F := F)) (admAll m h) (Ix := Unit) (Name := ℕ) (U := UR sig nD τ) (Lvl := ℕ)
      winFacts30 arr_whole30 c (pdats m h) ((pdats m h 30 c).share_full fun _ => rfl)
      (fun b => Vin30 m (outsAll m h) c b) (fun b => Vout30 m (outsAll m h) c b) ((pdats m h 30 c).arrAt · (Pipeline.pin (pcfgs (F := F)) (admAll m h) 30).N) (hF30 m h c) (hrest30 m h c)
    rw [Pipeline.unscopedBufs_held] at hjoin0
    have hjoin : (iprop((pdats m h 30 c).arrays ((pdats m h 30 c).arrAt · (Pipeline.pin (pcfgs (F := F)) (admAll m h) 30).N) ∗ Pipeline.unscopedRest spec30 c (fun b => Vin30 m (outsAll m h) c b)) : sProp 𝕄)
        ⊢ StableHlo.held (c : Thread nD τ) (Pipeline.ucRefs τ sig) (Vout30 m (outsAll m h) c) := hjoin0
    rw [Pipeline.unscopedRest_split preFacts30 c,
      show (fun k => Vin30 m (outsAll m h) c (pre30.ref k)) = tbl30 m from funext fun k => Vin30_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl30_word (i : Fin 2048) (k : Fin 32) :
    (tbl30 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 30 + i.val, by have := i.isLt; omega⟩ k) := by
  show (StableHlo.after hostOps30 (V0 m (0 : Dev nD)) (Proc.devRef .tc main_v125) : IVec S65536 32) _ = _
  after_results
  refine (flatten_rows_apply _ _ i k _).trans ?_
  exact slice_rows_apply _ _ _ (2048 * 30) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge30_core (m : (ℓ : Loc nD τ sig) → Buf (Elt Ideal) ℓ) (pf : pre30.Contents (Elt Ideal)) (hO : ok30 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 30 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg30.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 30 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg30.tabRow pf hO i ⟨k, hk⟩) l).trans ?_
  show Cert.ReferenceIdeal.RefValue.xpadAt _ (Rg30.tabRow pf hO i ⟨k, hk⟩) l = _
  refine congrArg (fun j => Cert.ReferenceIdeal.RefValue.xpadAt _ j l) (Fin.ext ?_)
  rw [Rg30.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge30 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 30 + 2) main_v126 c (ValueIdx.ix3 i 0 l)
      = Cert.ReferenceIdeal.RefValue.refG (m ((c.tc : Thread nD τ).loc main_arg0)) (m ((c.tc : Thread nD τ).loc main_arg1))
          (ValueIdx.ix2 ⟨2048 * 30 + i.val, by have := i.isLt; omega⟩ l) := by
  obtain rfl : c = 0 := Subsingleton.elim _ _
  refine (congrFun (outsAll_30 m h (0 : Dev nD)) _).trans ?_
  refine (congrFun (Rg30.out_eq (Vent m) (tbl30 m) h.h30 (0 : Dev nD)) _).trans ?_
  exact bridge30_core m (tbl30 m) h.h30 (tbl30_word m) hp i l

end
end Cert.KernelIdeal.Hand

end
-- ==== Proof.KI.R31.Link.lean ====
/- Region 31's table satisfies the pipeline's side condition: its words are pooling indices, which the precondition
   bounds by 262144, the last row of the padded feature array. -/
/- Region 31 as a segment of the program: entered from the buffers after the host stretch before it, left at those
   buffers with its output array at the pooled rows. Its two arrays are split out of the unscoped buffers and put back;
   its table is lent to the pipeline and returned; the generator register rides through; nothing is owed. -/
/- The words of the chunk's table are the index input's entries: the table is the chunk's 2048 rows of the index
   input, flattened row by row. -/
/- The chunk's 2048 pooled rows, as the region leaves them in its output array, are the reference's pooled rows
   2048 * (chunk) .. 2048 * (chunk) + 2047: both are the running maximum from -inf over the 32 rows of the padded
   feature array that the index input names for the row. -/
import proofs.«411409_j5669356831307_3_alg».proof.Proof.KI.Chain
import proofs.«411409_j5669356831307_3_alg».proof.Proof.PreDecode
import Idealize.ShloMosaic.Lib.StableHlo.Run
import Idealize.ShloMosaic.Lib.Pipeline.Value
import proofs.«411409_j5669356831307_3_alg».proof.Proof.KI.Family
import Idealize.ShloMosaic.Lib.Pipeline.Frame
import Idealize.ShloMosaic.Lib.Pipeline.Regions
import Idealize.ShloMosaic.Lib.Pipeline.RegionsLoop
import Idealize.ShloMosaic.Lib.Pipeline.Kit
import proofs.«411409_j5669356831307_3_alg».proof.Proof.KI.TblLib
import Idealize.ShloMosaic.Lib.ValueIdx
import Idealize.ShloMosaic.Lib.ValueLayout
import proofs.«411409_j5669356831307_3_alg».proof.Proof.KI.R31.Pipe
import proofs.«411409_j5669356831307_3_alg».proof.Proof.KI.XPad
import proofs.«411409_j5669356831307_3_alg».proof.Proof.RefValue
import proofs.«411409_j5669356831307_3_alg».proof.Proof.LibRunMax
import proofs.«411409_j5669356831307_3_alg».proof.Proof.Spec

set_option maxRecDepth 16384

noncomputable section

namespace Cert.KernelIdeal.Hand
section

open Cert.KernelIdeal.Gen Cert.KernelIdeal.GenP
open Idealize.ShloMosaic Idealize.ShloMosaic.TcCoe
open Idealize.SL Idealize.SL.Sem

variable {F : FTy → Type} [FloatOps F]

/-- A property of every element of an array holds of every element of a reshape of a slice of it:
    each element of the result is some element of the array. -/
theorem slice_cast_all {s t u : Shape} {α : Type} (P : α → Prop) (off : Fin s.rank → Nat) (x : s.Idx → α)
    (hs : s.Slices off t) (hc : t.ShapeCasts u) (hx : ∀ k, P (x k)) (j : u.Idx) :
    P (shapeCast u (extractStridedSlice t off x hs) hc j) := hx _

/-- A block index whose row is a word at most 262144 and whose other entries are 0 names a [1, 1, 128] block
    inside the [262145, 1, 128] array. -/
theorem block_inside (v : Fin 3 → Nat) (w : BitVec 32) (hw : w.toNat ≤ 262144) (e : v = ![w.toNat, 0, 0]) :
    ∀ a, (v a + 1) * S1x1x128.size a ≤ S262145x1x128.size a := by
  subst e
  intro a
  fin_cases a
  · show (w.toNat + 1) * 1 ≤ 262145
    omega
  · show (0 + 1) * 1 ≤ 1
    omega
  · show (0 + 1) * 128 ≤ 128
    omega

/-- Every word of region 31's table is one of the pooling indices, so at most 262144. -/
theorem tbl31_le (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144)
    (x : S65536.Idx) : (tbl31 m 0 x : BitVec 32).toNat ≤ 262144 := by
  show (StableHlo.after hostOps31 (V0 m (0 : Dev nD)) (Proc.devRef .tc main_v129) x : BitVec 32).toNat ≤ 262144
  after_results
  exact slice_cast_all (fun w : BitVec 32 => w.toNat ≤ 262144) _ _ _ _ (fun k => Cert.PreDecode.toNat_le_of_toInt _ (hb k)) x

/-- The pipeline's side condition at region 31's table: the feature window's block, at the row the table names,
    lies inside the padded feature array (and a transfer of 32-bit elements moves whole words). -/
theorem okT31 (m : (ℓ : Loc nD τ sig) → Buf (Elt F) ℓ)
    (hb : ∀ idx, 0 ≤ ((m ((0 : Dev nD).tc.loc main_arg1)) idx).toInt ∧ ((m ((0 : Dev nD).tc.loc main_arg1)) idx).toInt ≤ 262144) :
    ok31 (F := F) (tbl31 m) := by
  intro i
  exact ⟨block_inside _ _ (tbl31_le m hb _) rfl, Or.inl rfl⟩

end
end Cert.KernelIdeal.Hand

namespace Cert.KernelIdeal.Hand
section

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : OkAll m)

/-- The arrays of region 31's proof data are what the region finds: the padded feature array and the (not yet
    written) output array hold at its entry what they held after the first host stretch. -/
theorem hA31 (c : Dev nD) (w : Fin 2) : (pdats m h 31 c).A w = Vin31 m (outsAll m h) c (Pipeline.arrRef spec31 w) :=
  match w with
  | ⟨0, _⟩ => (Vin31_v3 m (outsAll m h) c).symm
  | ⟨1, _⟩ => (Vin31_out m (outsAll m h) c).symm

/-- At the exit each array holds what the pipeline leaves. -/
theorem hF31 (c : Dev nD) (w : Fin 2) : (pdats m h 31 c).arrAt w (Pipeline.pin (pcfgs (F := F)) (admAll m h) 31).N = Vout31 m (outsAll m h) c (Pipeline.arrRef spec31 w) :=
  match w with
  | ⟨0, _⟩ => ((pdats m h 31 c).arrAt_in 0 rfl _).trans (Vout31_v3 m (outsAll m h) c).symm
  | ⟨1, _⟩ => ((Vout31_out m (outsAll m h) c).trans (outsAll_31 m h c)).symm

theorem hrest31 (c : Dev nD) : ∀ b, b ∉ Finset.univ.image (Pipeline.arrRef spec31) → Vout31 m (outsAll m h) c b = Vin31 m (outsAll m h) c b :=
  fun b hb => Vout31_of m (outsAll m h) c b (fun hm => hb (by
    rw [List.mem_singleton] at hm; subst hm
    exact Finset.mem_image.mpr ⟨1, Finset.mem_univ _, rfl⟩))

set_option backward.isDefEq.respectTransparency.types false in
def reg31 : Pipeline.RegionSeg (pcfgs (F := F)) (admAll m h) (pdats m h) () defs₀ 𝒱₀ L lv 31 where
  win := winFacts31.to₀
  block_pos := block_pos31
  stage_whole := stage_whole31
  K := PEmpty
  osem k := k.elim
  ho := Pipeline.OwnSemFacts.none _
  hbody c := (Rg31.body_obligation (Vent m) (tbl31 m) h.h31 c).loose
  hwaits := Pipeline.hwaits_of_owed_zero _ _ _ _ L lv 31 fun _ _ => rfl
  pre c := iprop(StableHlo.held (c : Thread nD τ) (Pipeline.ucRefs τ sig) (Vin31 m (outsAll m h) c) ∗ Rst c)
  post c := iprop(StableHlo.held (c : Thread nD τ) (Pipeline.ucRefs τ sig) (Vout31 m (outsAll m h) c) ∗ Rst c)
  X c := iprop(∃ r, prngReg c r)
  Y c := iprop((∃ r, prngReg c r) ∗ Pipeline.prefHeld pre31 c (fun _ => fullShare) (tbl31 m))
  Z c := Pipeline.unscopedRestP (Ix := Unit) (Name := ℕ) (U := UR sig nD τ) (Lvl := ℕ) pre31 spec31 c (fun b => Vin31 m (outsAll m h) c b)
  hentry c := by
    rw [Pipeline.ownSems0_none]
    have hsplit0 := Pipeline.arrays_of_unscopedBufs (p := 31) (pcfgs (F := F)) (admAll m h) (pdats m h) winFacts31 arr_whole31 c
      ((pdats m h 31 c).share_full fun _ => rfl) (fun b => Vin31 m (outsAll m h) c b) (hA31 m h c)
    rw [Pipeline.unscopedBufs_held] at hsplit0
    have hsplit : (StableHlo.held (c : Thread nD τ) (Pipeline.ucRefs τ sig) (Vin31 m (outsAll m h) c) : sProp 𝕄)
        ⊢ iprop((pdats m h 31 c).arrays ((pdats m h 31 c).arrAt · 0) ∗ Pipeline.unscopedRest spec31 c (fun b => Vin31 m (outsAll m h) c b)) := hsplit0
    rw [Pipeline.unscopedRest_split preFacts31 c,
      show (fun k => Vin31 m (outsAll m h) c (pre31.ref k)) = tbl31 m from funext fun k => Vin31_tbl' m (outsAll m h) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h 31 c).Φ 0 = iprop(Pipeline.ΦA spec31 c ∗ Pipeline.prefHeld pre31 c (fun _ => fullShare) (tbl31 m)) from rfl]; unfold Pipeline.ΦA
    iintro ⟨Hp, Hpf, Hr⟩
    isplitl [Hr Hp]
    · isplitl [Hr]; · iexact Hr
      iexact Hp
    iexact Hpf
  hout c := by
    rw [Pipeline.ownSems0_none, show (pdats m h 31 c).Φ (Fin.last _) = iprop(Pipeline.ΦA spec31 c ∗ Pipeline.prefHeld pre31 c (fun _ => fullShare) (tbl31 m)) from rfl]; unfold Pipeline.ΦA
    iintro ⟨⟨Hr, Hp⟩, Hpf⟩
    isplitl [Hp Hpf]
    · isplitl [Hp]; · iexact Hp
      iexact Hpf
    isplitr; · iempintro
    iexact Hr
  hexit c := by
    have hjoin0 := Pipeline.unscopedBufs_of_arrays (p := 31) (pcfgs (F := F)) (admAll m h) (Ix := Unit) (Name := ℕ) (U := UR sig nD τ) (Lvl := ℕ)
      winFacts31 arr_whole31 c (pdats m h) ((pdats m h 31 c).share_full fun _ => rfl)
      (fun b => Vin31 m (outsAll m h) c b) (fun b => Vout31 m (outsAll m h) c b) ((pdats m h 31 c).arrAt · (Pipeline.pin (pcfgs (F := F)) (admAll m h) 31).N) (hF31 m h c) (hrest31 m h c)
    rw [Pipeline.unscopedBufs_held] at hjoin0
    have hjoin : (iprop((pdats m h 31 c).arrays ((pdats m h 31 c).arrAt · (Pipeline.pin (pcfgs (F := F)) (admAll m h) 31).N) ∗ Pipeline.unscopedRest spec31 c (fun b => Vin31 m (outsAll m h) c b)) : sProp 𝕄)
        ⊢ StableHlo.held (c : Thread nD τ) (Pipeline.ucRefs τ sig) (Vout31 m (outsAll m h) c) := hjoin0
    rw [Pipeline.unscopedRest_split preFacts31 c,
      show (fun k => Vin31 m (outsAll m h) c (pre31.ref k)) = tbl31 m from funext fun k => Vin31_tbl' m (outsAll m h) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ)

/-- Word 32 i + k of the chunk's table is the index input's entry at the chunk's row i, column k. -/
theorem tbl31_word (i : Fin 2048) (k : Fin 32) :
    (tbl31 m 0 : IVec S65536 32) (ValueIdx.ix1 ⟨32 * i.val + k.val, by have := i.isLt; have := k.isLt; omega⟩)
      = (m (((0 : Dev nD) : Thread nD τ).loc main_arg1) : IVec S65536x32 32)
          (ValueIdx.ix2 ⟨2048 * 31 + i.val, by have := i.isLt; omega⟩ k) := by
  show (StableHlo.after hostOps31 (V0 m (0 : Dev nD)) (Proc.devRef .tc main_v129) : IVec S65536 32) _ = _
  after_results
  refine (flatten_rows_apply _ _ i k _).trans ?_
  exact slice_rows_apply _ _ _ (2048 * 31) (by decide) (by decide) i k _

end
end Cert.KernelIdeal.Hand

namespace Cert.KernelIdeal.Hand
section

open Cert.KernelIdeal Cert.KernelIdeal.Gen Cert.KernelIdeal.GenP
open Idealize.ShloMosaic Idealize.ShloMosaic.TcCoe
open Idealize.SL Idealize.SL.Sem

/-- The chunk's pooled rows are the reference's: row i of the chunk is row 2048 * (chunk) + i of the reference's
    result. Stated over any admissible table whose words are the index input's entries at the chunk's rows. Both
    sides are the running maximum from -inf of 32 terms; term k on either side is the padded feature array at the
    row the k-th index word names, and an index word between 0 and 262144 names the same row read signed and
    clamped as read unsigned. -/
theorem bridge31_core (m : (ℓ : Loc nD τ sig) → Buf (Elt Ideal) ℓ) (pf : pre31.Contents (Elt Ideal)) (hO : ok31 (F := Ideal) pf)
    (hw : ∀ (i : Fin 2048) (k : Fin 32),
      (pf 0 : IVec S65536 32) (ValueIdx.ix1 ⟨32 * i.val + k.val, by have := i.isLt; have := k.isLt; omega⟩)
        = (m (((0 : Dev nD) : Thread nD τ).loc main_arg1) : IVec S65536x32 32)
            (ValueIdx.ix2 ⟨2048 * 31 + i.val, by have := i.isLt; omega⟩ k))
    (hp : ∀ idx, 0 ≤ ((m (((0 : Dev nD) : Thread nD τ).loc main_arg1) : IVec S65536x32 32) idx).toInt
      ∧ ((m (((0 : Dev nD) : Thread nD τ).loc main_arg1) : IVec S65536x32 32) idx).toInt ≤ 262144)
    (i : Fin 2048) (l : Fin 128) :
    (PoolSpec.regionOut (V1 m (0 : Dev nD) main_v3 : FVec Ideal PoolSpec.Sx .f32) (Rg31.tabRow pf hO) : FVec Ideal PoolSpec.So .f32)
        (ValueIdx.ix3 i 0 l)
      = Cert.ReferenceIdeal.RefValue.refG (m (((0 : Dev nD) : Thread nD τ).loc main_arg0)) (m (((0 : Dev nD) : Thread nD τ).loc main_arg1))
          (ValueIdx.ix2 ⟨2048 * 31 + i.val, by have := i.isLt; omega⟩ l) := by
  rw [PoolSpec.regionOut_apply, Cert.ReferenceIdeal.RefValue.refG_apply]
  refine PoolSpec.runMax_congr _ _ 32 fun k hk => ?_
  show dite (k < 32) _ _ = dite (k < 32) _ _
  rw [dif_pos hk, dif_pos hk]
  refine (xpad3_apply m (0 : Dev nD) (Rg31.tabRow pf hO i ⟨k, hk⟩) l).trans ?_
  show Cert.ReferenceIdeal.RefValue.xpadAt _ (Rg31.tabRow pf hO i ⟨k, hk⟩) l = _
  refine congrArg (fun j => Cert.ReferenceIdeal.RefValue.xpadAt _ j l) (Fin.ext ?_)
  rw [Rg31.tabRow_val, Cert.ReferenceIdeal.RefValue.rowAt_val _ _ _ (hp _), hw i ⟨k, hk⟩]

/-- What the region leaves in its output array, at row i and lane l, is the reference's result at row
    2048 * (chunk) + i, lane l: the array ends as the specification's pooled rows over the table, the table's words
    are the index input's entries, and the padded feature array is the input with a zero row appended. -/
theorem bridge31 (m : (ℓ : Loc nD τ sig) → Buf (Elt Ideal) ℓ) (h : OkAll m) (c : Dev nD)
    (hp : ∀ idx, 0 ≤ ((m ((c.tc : Thread nD τ).loc main_arg1) : IVec S65536x32 32) idx).toInt
      ∧ ((m ((c.tc : Thread nD τ).loc main_arg1) : IVec S65536x32 32) idx).toInt ≤ 262144)
    (i : Fin 2048) (l : Fin 128) :
    outsAll m h (2 * 31 + 2) main_v130 c (ValueIdx.ix3 i 0 l)
      = Cert.ReferenceIdeal.RefValue.refG (m ((c.tc : Thread nD τ).loc main_arg0)) (m ((c.tc : Thread nD τ).loc main_arg1))
          (ValueIdx.ix2 ⟨2048 * 31 + i.val, by have := i.isLt; omega⟩ l) := by
  obtain rfl : c = 0 := Subsingleton.elim _ _
  refine (congrFun (outsAll_31 m h (0 : Dev nD)) _).trans ?_
  refine (congrFun (Rg31.out_eq (Vent m) (tbl31 m) h.h31 (0 : Dev nD)) _).trans ?_
  exact bridge31_core m (tbl31 m) h.h31 (tbl31_word m) hp i l

end
end Cert.KernelIdeal.Hand

end
-- ==== Proof.KI.Frame.lean ====
import proofs.«411409_j5669356831307_3_alg».proof.Proof.KI.R0.Link
import proofs.«411409_j5669356831307_3_alg».proof.Proof.KI.R1.Link
import proofs.«411409_j5669356831307_3_alg».proof.Proof.KI.R2.Link
import proofs.«411409_j5669356831307_3_alg».proof.Proof.KI.R3.Link
import proofs.«411409_j5669356831307_3_alg».proof.Proof.KI.R4.Link
import proofs.«411409_j5669356831307_3_alg».proof.Proof.KI.R5.Link
import proofs.«411409_j5669356831307_3_alg».proof.Proof.KI.R6.Link
import proofs.«411409_j5669356831307_3_alg».proof.Proof.KI.R7.Link
import proofs.«411409_j5669356831307_3_alg».proof.Proof.KI.R8.Link
import proofs.«411409_j5669356831307_3_alg».proof.Proof.KI.R9.Link
import proofs.«411409_j5669356831307_3_alg».proof.Proof.KI.R10.Link
import proofs.«411409_j5669356831307_3_alg».proof.Proof.KI.R11.Link
import proofs.«411409_j5669356831307_3_alg».proof.Proof.KI.R12.Link
import proofs.«411409_j5669356831307_3_alg».proof.Proof.KI.R13.Link
import proofs.«411409_j5669356831307_3_alg».proof.Proof.KI.R14.Link
import proofs.«411409_j5669356831307_3_alg».proof.Proof.KI.R15.Link
import proofs.«411409_j5669356831307_3_alg».proof.Proof.KI.R16.Link
import proofs.«411409_j5669356831307_3_alg».proof.Proof.KI.R17.Link
import proofs.«411409_j5669356831307_3_alg».proof.Proof.KI.R18.Link
import proofs.«411409_j5669356831307_3_alg».proof.Proof.KI.R19.Link
import proofs.«411409_j5669356831307_3_alg».proof.Proof.KI.R20.Link
import proofs.«411409_j5669356831307_3_alg».proof.Proof.KI.R21.Link
import proofs.«411409_j5669356831307_3_alg».proof.Proof.KI.R22.Link
import proofs.«411409_j5669356831307_3_alg».proof.Proof.KI.R23.Link
import proofs.«411409_j5669356831307_3_alg».proof.Proof.KI.R24.Link
import proofs.«411409_j5669356831307_3_alg».proof.Proof.KI.R25.Link
import proofs.«411409_j5669356831307_3_alg».proof.Proof.KI.R26.Link
import proofs.«411409_j5669356831307_3_alg».proof.Proof.KI.R27.Link
import proofs.«411409_j5669356831307_3_alg».proof.Proof.KI.R28.Link
import proofs.«411409_j5669356831307_3_alg».proof.Proof.KI.R29.Link
import proofs.«411409_j5669356831307_3_alg».proof.Proof.KI.R30.Link
import proofs.«411409_j5669356831307_3_alg».proof.Proof.KI.R31.Link
import Idealize.ShloMosaic.Lib.Pipeline.Kit

set_option maxRecDepth 16384

noncomputable section

namespace Cert.KernelIdeal.Hand

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (h : OkAll m)

set_option backward.isDefEq.respectTransparency.types false in
/-- THE RUN. Under admissible tables every weakly fair execution of @main terminates, faults nowhere, leaves the
    arguments as launched (and, where the conditional frame names it, the result buffer at the last valuation). -/
theorem run_all (m : (ℓ : Loc nD τ sig) → Buf (Elt F) ℓ) (ρ : Dev nD → PrngReg) (h : OkAll m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v134) = V65 m (outsAll m h) c main_v134) :=
  frame_cond (F := F) m emb₁ () 𝒱₀ L lv (fun _ _ => rfl) ρ (outsAll m h) (admAll m h) (pdats m h) (O₀ := 0) (G := fun _ => iprop(emp))
    (u₀ := initOf (Pipeline.cells (Pipeline.pin (pcfgs (F := F)) (admAll m h)) (cellOf_inj (admAll m h))) (Pipeline.launchToks (Pipeline.pin (pcfgs (F := F)) (admAll m h)) (cellOf_inj (admAll m h))))
    (hu₀ := by
      iintro Hu; imodintro
      isplitl [Hu]
      · iapply (show (ownU (initOf (Pipeline.cells (Pipeline.pin (pcfgs (F := F)) (admAll m h)) (cellOf_inj (admAll m h))) (Pipeline.launchToks (Pipeline.pin (pcfgs (F := F)) (admAll m h)) (cellOf_inj (admAll m h)))) : sProp 𝕄)
            ⊢ BI.own (emb₁ (initOf (Pipeline.cells (Pipeline.pin (pcfgs (F := F)) (admAll m h)) (cellOf_inj (admAll m h))) (Pipeline.launchToks (Pipeline.pin (pcfgs (F := F)) (admAll m h)) (cellOf_inj (admAll m h))))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE32 := fun c => by iintro ⟨-, HO⟩; iexact HO)
    (reg0 m h) (fun c => .rfl) (fun c => .rfl)
    (reg1 m h) (fun c => .rfl) (fun c => .rfl)
    (reg2 m h) (fun c => .rfl) (fun c => .rfl)
    (reg3 m h) (fun c => .rfl) (fun c => .rfl)
    (reg4 m h) (fun c => .rfl) (fun c => .rfl)
    (reg5 m h) (fun c => .rfl) (fun c => .rfl)
    (reg6 m h) (fun c => .rfl) (fun c => .rfl)
    (reg7 m h) (fun c => .rfl) (fun c => .rfl)
    (reg8 m h) (fun c => .rfl) (fun c => .rfl)
    (reg9 m h) (fun c => .rfl) (fun c => .rfl)
    (reg10 m h) (fun c => .rfl) (fun c => .rfl)
    (reg11 m h) (fun c => .rfl) (fun c => .rfl)
    (reg12 m h) (fun c => .rfl) (fun c => .rfl)
    (reg13 m h) (fun c => .rfl) (fun c => .rfl)
    (reg14 m h) (fun c => .rfl) (fun c => .rfl)
    (reg15 m h) (fun c => .rfl) (fun c => .rfl)
    (reg16 m h) (fun c => .rfl) (fun c => .rfl)
    (reg17 m h) (fun c => .rfl) (fun c => .rfl)
    (reg18 m h) (fun c => .rfl) (fun c => .rfl)
    (reg19 m h) (fun c => .rfl) (fun c => .rfl)
    (reg20 m h) (fun c => .rfl) (fun c => .rfl)
    (reg21 m h) (fun c => .rfl) (fun c => .rfl)
    (reg22 m h) (fun c => .rfl) (fun c => .rfl)
    (reg23 m h) (fun c => .rfl) (fun c => .rfl)
    (reg24 m h) (fun c => .rfl) (fun c => .rfl)
    (reg25 m h) (fun c => .rfl) (fun c => .rfl)
    (reg26 m h) (fun c => .rfl) (fun c => .rfl)
    (reg27 m h) (fun c => .rfl) (fun c => .rfl)
    (reg28 m h) (fun c => .rfl) (fun c => .rfl)
    (reg29 m h) (fun c => .rfl) (fun c => .rfl)
    (reg30 m h) (fun c => .rfl) (fun c => .rfl)
    (reg31 m h) (fun c => .rfl) (fun c => .rfl)

end Cert.KernelIdeal.Hand

end
-- ==== Proof.KI.Pre.lean ====
import proofs.«411409_j5669356831307_3_alg».proof.Proof.KI.R0.Link
import proofs.«411409_j5669356831307_3_alg».proof.Proof.KI.R1.Link
import proofs.«411409_j5669356831307_3_alg».proof.Proof.KI.R2.Link
import proofs.«411409_j5669356831307_3_alg».proof.Proof.KI.R3.Link
import proofs.«411409_j5669356831307_3_alg».proof.Proof.KI.R4.Link
import proofs.«411409_j5669356831307_3_alg».proof.Proof.KI.R5.Link
import proofs.«411409_j5669356831307_3_alg».proof.Proof.KI.R6.Link
import proofs.«411409_j5669356831307_3_alg».proof.Proof.KI.R7.Link
import proofs.«411409_j5669356831307_3_alg».proof.Proof.KI.R8.Link
import proofs.«411409_j5669356831307_3_alg».proof.Proof.KI.R9.Link
import proofs.«411409_j5669356831307_3_alg».proof.Proof.KI.R10.Link
import proofs.«411409_j5669356831307_3_alg».proof.Proof.KI.R11.Link
import proofs.«411409_j5669356831307_3_alg».proof.Proof.KI.R12.Link
import proofs.«411409_j5669356831307_3_alg».proof.Proof.KI.R13.Link
import proofs.«411409_j5669356831307_3_alg».proof.Proof.KI.R14.Link
import proofs.«411409_j5669356831307_3_alg».proof.Proof.KI.R15.Link
import proofs.«411409_j5669356831307_3_alg».proof.Proof.KI.R16.Link
import proofs.«411409_j5669356831307_3_alg».proof.Proof.KI.R17.Link
import proofs.«411409_j5669356831307_3_alg».proof.Proof.KI.R18.Link
import proofs.«411409_j5669356831307_3_alg».proof.Proof.KI.R19.Link
import proofs.«411409_j5669356831307_3_alg».proof.Proof.KI.R20.Link
import proofs.«411409_j5669356831307_3_alg».proof.Proof.KI.R21.Link
import proofs.«411409_j5669356831307_3_alg».proof.Proof.KI.R22.Link
import proofs.«411409_j5669356831307_3_alg».proof.Proof.KI.R23.Link
import proofs.«411409_j5669356831307_3_alg».proof.Proof.KI.R24.Link
import proofs.«411409_j5669356831307_3_alg».proof.Proof.KI.R25.Link
import proofs.«411409_j5669356831307_3_alg».proof.Proof.KI.R26.Link
import proofs.«411409_j5669356831307_3_alg».proof.Proof.KI.R27.Link
import proofs.«411409_j5669356831307_3_alg».proof.Proof.KI.R28.Link
import proofs.«411409_j5669356831307_3_alg».proof.Proof.KI.R29.Link
import proofs.«411409_j5669356831307_3_alg».proof.Proof.KI.R30.Link
import proofs.«411409_j5669356831307_3_alg».proof.Proof.KI.R31.Link
import proofs.«411409_j5669356831307_3_alg».proof.Proof.PreDecode

noncomputable section

namespace Cert.KernelIdeal.Hand

open Cert.KernelIdeal.Gen Cert.KernelIdeal.GenP
open Idealize.ShloMosaic Idealize.ShloMosaic.TcCoe Idealize.SL.Sem

variable {F : FTy → Type} [FloatOps F]

/-- Under the precondition (every index names a row of the padded feature array) every region table is admissible. -/
theorem okAll_of_pre (m : (ℓ : Loc nD τ sig) → Buf (Elt F) ℓ)
    (hpre : ∀ c : Dev nD, Cert.Pre_finite_inputs.fn (F := F) (m ((c.tc : Thread nD τ).loc main_arg0)) (m ((c.tc : Thread nD τ).loc main_arg1)) = (fun _ => 1#1)) : OkAll m :=
  have hb := Cert.PreDecode.pools_in_range _ _ (hpre 0)
  ⟨okT0 m hb, okT1 m hb, okT2 m hb, okT3 m hb, okT4 m hb, okT5 m hb, okT6 m hb, okT7 m hb, okT8 m hb, okT9 m hb, okT10 m hb, okT11 m hb, okT12 m hb, okT13 m hb, okT14 m hb, okT15 m hb, okT16 m hb, okT17 m hb, okT18 m hb, okT19 m hb, okT20 m hb, okT21 m hb, okT22 m hb, okT23 m hb, okT24 m hb, okT25 m hb, okT26 m hb, okT27 m hb, okT28 m hb, okT29 m hb, okT30 m hb, okT31 m hb⟩

end Cert.KernelIdeal.Hand

end
-- ==== Proof.LibNary.lean ====
/- A host operation over a literal family of sixteen references (a sixteen-operand concatenation): its result with
   each operand's contents at its own reference, so that the operands' contents can be rewritten further. General:
   nothing here depends on a program. -/
import Idealize.ShloMosaic.Lib.StableHlo.Run

noncomputable section

namespace Idealize.ShloMosaic.StableHlo

open Idealize.ShloMosaic Idealize.SL.Sem

variable {τ : Topo} {sig : RefSig} {Val : EltTy → Type}

/-! The sixteen references are named x0 … x15; a macro writes the sixteen binders, the literal family and the family
    of the operands' contents. -/

open Lean in
set_option hygiene false in
/-- Writes `nary16_result`: `nary` over a literal family of sixteen references is the function applied to the family
    of the operands' contents, each read at its own reference (the family is `Fin.cons` sixteen times, so that operand
    `k` at a literal `k` is the `k`-th entry by computation). -/
macro "nary16_result_decl" : command => do
  let names : Array Ident := (Array.range 16).map fun k => mkIdent (Name.mkSimple s!"x{k}")
  let mut fam ← `(fun i => i.elim0)
  for x in names.reverse do
    fam ← `(Fin.cons (F (Proc.devRef .tc $x)) $fam)
  `(theorem nary16_result {$names* y : Ref sig .tc}
        (f : ((k : Fin 16) → ((![$names,*] : Fin 16 → Ref sig .tc) k).ty.Contents Val) → y.ty.Contents Val) (hxs hy)
        (F : Valuation τ sig Val) :
        (nary (τ := τ) ![$names,*] y f hxs hy).result F (Proc.devRef .tc y) = f $fam := by
      rw [nary_result]; congr 1; funext k; fin_cases k <;> rfl)

nary16_result_decl

end Idealize.ShloMosaic.StableHlo

end
-- ==== Proof.KI.Tail.lean ====
/- The kernel program's last host stretch: the 32 pooled chunks, each the cast of its region's output, joined into the
   result. Read at a row r of the result: row r mod 2048 of the output of region r / 2048. -/
import proofs.«411409_j5669356831307_3_alg».proof.Proof.KernelIdealRegions
import proofs.«411409_j5669356831307_3_alg».proof.Proof.LibNary
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ) (outs : Outs (F := F))

/-! ## The two layout operations of the last stretch, read at an index -/

/-- A [2048, 1, 128] array cast to [2048, 128], read at (i, l), is the array at (i, 0, l). -/
theorem cast_read {α : Type} (z : S2048x1x128.Idx → α) (h : S2048x1x128.ShapeCasts S2048x128) (i : Fin 2048) (l : Fin 128) :
    shapeCast S2048x128 z h (ValueIdx.ix2 i l) = z (ValueIdx.ix3 i 0 l) :=
  shapeCast_apply z h (ValueIdx.ix2 i l) (ValueIdx.ix3 i 0 l) (by
    rw [Shape.rowMajor_val_two, Shape.rowMajor_val_three]
    show (i.val * 1 + 0) * 128 + l.val = i.val * 128 + l.val
    omega)

/-! Sixteen pieces are named a0 … a15; a macro writes the sixteen binders and the list of the pieces. -/

open Lean in
set_option hygiene false in
/-- Writes `cat16_read`: sixteen [2048, 128] pieces joined along the rows, read at row 2048 k + i, are piece k (the
    list's k-th entry) at row i. -/
macro "cat16_read_decl" : command => do
  let names : Array Ident := (Array.range 16).map fun k => mkIdent (Name.mkSimple s!"a{k}")
  let shapes ← names.mapM fun _ => `(S2048x128)
  let ps ← names.mapM fun a => `((⟨S2048x128, $a⟩ : (s : Shape) × (s.Idx → α)))
  `(theorem cat16_read {α : Type} ($names* : S2048x128.Idx → α)
        (h : Shape.Concatenates [$shapes,*] S32768x128 0)
        (k : ℕ) (hk : k < 16) (x : S2048x128.Idx → α)
        (hx : [$ps,*][k]'hk = ⟨S2048x128, x⟩)
        (r : Fin 32768) (i : Fin 2048) (hr : r.val = 2048 * k + i.val) (l : Fin 128) :
        concatenate S32768x128 0 [$ps,*] h (ValueIdx.ix2 r l) = x (ValueIdx.ix2 i l) := by
      have hi : ∀ b : Fin S2048x128.rank, b.cast (rfl : S2048x128.rank = S32768x128.rank) ≠ (0 : Fin S32768x128.rank) →
          ((ValueIdx.ix2 i l : S2048x128.Idx) b).val = ((ValueIdx.ix2 r l : S32768x128.Idx) (b.cast rfl)).val := fun b hb => by
        match b with
        | ⟨0, _⟩ => exact absurd rfl hb
        | ⟨1, _⟩ => rfl
      refine concatenate_apply_piece (0 : Fin S32768x128.rank) [$ps,*] h (ValueIdx.ix2 r l) k hk S2048x128 x hx rfl (2048 * k) ?_
        (ValueIdx.ix2 i l) hi (by show 2048 * k + i.val = r.val; omega)
      interval_cases k <;> simp only [List.take_succ_cons, List.take_zero, List.map_cons, List.map_nil, List.sum_cons, List.sum_nil] <;> rfl)

cat16_read_decl

/-! The sixteen chunk buffers of a half, main_v(s), main_v(s + 4), …, main_v(s + 60), are written out by a macro. -/

open Lean in
/-- `chunks% W s`: the list of the sixteen [2048, 128] pieces `W main_v(s)`, `W main_v(s + 4)`, …, `W main_v(s + 60)`. -/
macro "chunks% " W:term:max s:num : term => do
  let F := mkIdent (Name.mkSimple "F")
  let ps ← (Array.range 16).mapM fun k =>
    let r := mkIdent (Name.mkSimple s!"main_v{s.getNat + 4 * k}")
    `((⟨S2048x128, $W $r⟩ : (s : Shape) × (s.Idx → Elt $F .f32)))
  `([$ps,*])

/-! ## The last stretch, one operation at a time -/

/-- The stretch's four operations: the cast of the last region's output, the two joinings of sixteen chunks each,
    and the joining of the two halves. -/
abbrev opR : HloOp τ sig (Elt F) := (hostOps32 (F := F))[0]
abbrev opA : HloOp τ sig (Elt F) := (hostOps32 (F := F))[1]
abbrev opB : HloOp τ sig (Elt F) := (hostOps32 (F := F))[2]
abbrev opC : HloOp τ sig (Elt F) := (hostOps32 (F := F))[3]

theorem hostOps32_eq : (hostOps32 : List (HloOp τ sig (Elt F))) = [opR, opA, opB, opC] := rfl

/-- Sixteen chunk buffers joined: the first half of the result, over any contents of the buffers. -/
abbrev halfA (W : Valuation τ sig (Elt F)) : Vec F S32768x128 .f32 :=
  concatenate S32768x128 0 (chunks% W 7) concatenates_S2048x128_S2048x128_S2048x128_S2048x128_S2048x128_S2048x128_S2048x128_S2048x128_S2048x128_S2048x128_S2048x128_S2048x128_S2048x128_S2048x128_S2048x128_S2048x128_S32768x128_d0

/-- The other sixteen chunk buffers joined: the second half. -/
abbrev halfB (W : Valuation τ sig (Elt F)) : Vec F S32768x128 .f32 :=
  concatenate S32768x128 0 (chunks% W 71) concatenates_S2048x128_S2048x128_S2048x128_S2048x128_S2048x128_S2048x128_S2048x128_S2048x128_S2048x128_S2048x128_S2048x128_S2048x128_S2048x128_S2048x128_S2048x128_S2048x128_S32768x128_d0

theorem opR_of (W : Valuation τ sig (Elt F)) (r : Ref sig .tc) (h : r ≠ main_v131) : (opR (F := F)).result W r = W r := by
  show (StableHlo.reshape main_v130 main_v131 rfl shapeCasts_S2048x1x128_S2048x128).result W (Proc.devRef .tc r) = _
  exact reshape_result_ne (τ := τ) _ _ _ _ _ _ W h

theorem opR_result (W : Valuation τ sig (Elt F)) :
    ((opR (F := F)).result W main_v131 : Vec F S2048x128 .f32)
      = shapeCast S2048x128 (W main_v130 : Vec F S2048x1x128 .f32) shapeCasts_S2048x1x128_S2048x128 := by
  show (StableHlo.reshape main_v130 main_v131 rfl shapeCasts_S2048x1x128_S2048x128).result W (Proc.devRef .tc main_v131) = _
  rw [reshape_result]
  rfl

theorem opA_of (W : Valuation τ sig (Elt F)) (r : Ref sig .tc) (h : r ≠ main_v132) : (opA (F := F)).result W r = W r := by
  simp only [opA, hostOps32, List.getElem_cons_succ, List.getElem_cons_zero]
  exact nary_result_ne (τ := τ) _ _ _ _ _ W h

theorem opA_result (W : Valuation τ sig (Elt F)) : (opA (F := F)).result W main_v132 = halfA W := by
  simp only [opA, hostOps32, List.getElem_cons_succ, List.getElem_cons_zero]
  rw [nary16_result]
  rfl

theorem opB_of (W : Valuation τ sig (Elt F)) (r : Ref sig .tc) (h : r ≠ main_v133) : (opB (F := F)).result W r = W r := by
  simp only [opB, hostOps32, List.getElem_cons_succ, List.getElem_cons_zero]
  exact nary_result_ne (τ := τ) _ _ _ _ _ W h

theorem opB_result (W : Valuation τ sig (Elt F)) : (opB (F := F)).result W main_v133 = halfB W := by
  simp only [opB, hostOps32, List.getElem_cons_succ, List.getElem_cons_zero]
  rw [nary16_result]
  rfl

theorem opC_result (W : Valuation τ sig (Elt F)) :
    (opC (F := F)).result W main_v134 = concatenate S65536x128 0 [⟨S32768x128, W main_v132⟩, ⟨S32768x128, W main_v133⟩]
      concatenates_S32768x128_S32768x128_S65536x128_d0 := by
  simp only [opC, hostOps32, List.getElem_cons_succ, List.getElem_cons_zero]
  rw [binary_result]

/-- The buffers' contents after the first, the second and the third operation of the stretch. -/
abbrev W1 (c : Dev nD) : Valuation τ sig (Elt F) := (opR (F := F)).result (V64 m outs c)
abbrev W2 (c : Dev nD) : Valuation τ sig (Elt F) := (opA (F := F)).result (W1 m outs c)
abbrev W3 (c : Dev nD) : Valuation τ sig (Elt F) := (opB (F := F)).result (W2 m outs c)

/-- The result buffer after the stretch: the two halves joined. -/
theorem v134_eq (c : Dev nD) :
    V65 m outs c main_v134 = concatenate S65536x128 0 [⟨S32768x128, halfA (W1 m outs c)⟩, ⟨S32768x128, halfB (W2 m outs c)⟩]
      concatenates_S32768x128_S32768x128_S65536x128_d0 := by
  have e132 : W3 m outs c main_v132 = halfA (W1 m outs c) :=
    (opB_of (W2 m outs c) main_v132 (by decide)).trans (opA_result (W1 m outs c))
  have e133 : W3 m outs c main_v133 = halfB (W2 m outs c) := opB_result (W2 m outs c)
  refine (opC_result (W3 m outs c)).trans ?_
  rw [e132, e133]

/-- A row of the first half: chunk k (below 16), the k-th of the joined buffers, at its row i. -/
theorem read_lo (c : Dev nD) (k : ℕ) (hk : k < 16) (x : Vec F S2048x128 .f32)
    (hx : (chunks% (W1 m outs c) 7)[k]'hk = ⟨S2048x128, x⟩)
    (r : Fin 65536) (i : Fin 2048) (hr : r.val = 2048 * k + i.val) (l : Fin 128) :
    V65 m outs c main_v134 (ValueIdx.ix2 r l) = x (ValueIdx.ix2 i l) := by
  have hlt : r.val < 32768 := by have := i.isLt; omega
  have hi : ∀ b : Fin S32768x128.rank,
      ((ValueIdx.ix2 (⟨r.val, hlt⟩ : Fin 32768) l : S32768x128.Idx) b).val = ((ValueIdx.ix2 r l : S65536x128.Idx) (b.cast rfl)).val := fun b => by
    match b with
    | ⟨0, _⟩ => rfl
    | ⟨1, _⟩ => rfl
  refine (congrFun (v134_eq m outs c) (ValueIdx.ix2 r l)).trans ?_
  refine (concatenate_pair_apply_left (s₁ := S32768x128) (s₂ := S32768x128) (0 : Fin S65536x128.rank) _ _ _ (ValueIdx.ix2 r l) rfl
    (ValueIdx.ix2 (⟨r.val, hlt⟩ : Fin 32768) l : S32768x128.Idx) hi).trans ?_
  exact cat16_read _ _ _ _ _ _ _ _ _ _ _ _ _ _ _ _ _ k hk x hx ⟨r.val, hlt⟩ i hr l

/-- A row of the second half: chunk 16 + k at its row i. -/
theorem read_hi (c : Dev nD) (k : ℕ) (hk : k < 16) (x : Vec F S2048x128 .f32)
    (hx : (chunks% (W2 m outs c) 71)[k]'hk = ⟨S2048x128, x⟩)
    (r : Fin 65536) (i : Fin 2048) (hr : r.val = 32768 + 2048 * k + i.val) (l : Fin 128) :
    V65 m outs c main_v134 (ValueIdx.ix2 r l) = x (ValueIdx.ix2 i l) := by
  obtain ⟨r', hr'⟩ : ∃ r' : Fin 32768, r'.val + 32768 = r.val :=
    ⟨⟨2048 * k + i.val, by have := i.isLt; omega⟩, by show 2048 * k + i.val + 32768 = r.val; omega⟩
  have hi : ∀ b : Fin S32768x128.rank, b.cast (rfl : S32768x128.rank = S65536x128.rank) ≠ (0 : Fin S65536x128.rank) →
      ((ValueIdx.ix2 r' l : S32768x128.Idx) b).val = ((ValueIdx.ix2 r l : S65536x128.Idx) (b.cast rfl)).val := fun b hb => by
    match b with
    | ⟨0, _⟩ => exact absurd rfl hb
    | ⟨1, _⟩ => rfl
  refine (congrFun (v134_eq m outs c) (ValueIdx.ix2 r l)).trans ?_
  refine (concatenate_pair_apply_right (s₁ := S32768x128) (s₂ := S32768x128) (0 : Fin S65536x128.rank) _ _ _ (ValueIdx.ix2 r l) rfl rfl
    (ValueIdx.ix2 r' l : S32768x128.Idx) hi hr').trans ?_
  exact cat16_read _ _ _ _ _ _ _ _ _ _ _ _ _ _ _ _ _ k hk x hx r' i (by omega) l

/-! The per-chunk lemmas below differ only in numerals and buffer names; a macro writes them from the chunk's
    number: chunk K's region (item 2K+1) leaves its output in main_v(4K+6), the next stretch (hostOps(K+1), item 2K+2)
    casts it into main_v(4K+7), and no later item writes that buffer. -/

open Lean in
/-- `tail_case K` (K below 31) states and proves `keep_K`, `mid_K`, `tail_K_of` and `tail_K`. -/
macro "tail_case " K:num : command => do
  let k := K.getNat
  let id (s : String) : Ident := mkIdent (Name.mkSimple s)
  let m := id "m"; let outs := id "outs"; let c := id "c"
  let vo := id s!"main_v{4*k+6}"
  let vm := id s!"main_v{4*k+7}"
  let ops := id s!"hostOps{k+1}"
  let Vr := id s!"V{2*k+2}"
  let nOut := Syntax.mkNumLit (toString (2*k+2))
  let kLit := Syntax.mkNumLit (toString k)
  let k16 := Syntax.mkNumLit (toString (k % 16))
  let mut keep ← `(rfl)
  for j in [2*k+4 : 65] do
    let nm := mkIdent (Name.mkSimple s!"V{j}_of")
    keep ← `(($nm $m $outs $c $vm (by decide)).trans $keep)
  let midName := id s!"mid_{k}"
  let keepName := id s!"keep_{k}"
  let Vm := id s!"V{2*k+3}"
  let ofName := id s!"tail_{k}_of"
  let tName := id s!"tail_{k}"
  let readStep : Term ← if k < 16 then
      `(read_lo $m $outs $c $k16 (by decide) (W1 $m $outs $c $vm) rfl r i hr l)
    else
      `(read_hi $m $outs $c $k16 (by decide) (W2 $m $outs $c $vm) rfl r i (by omega) l)
  let pieceEq : Term ← if k < 16 then
      `((opR_of (V64 $m $outs $c) $vm (by decide) : W1 $m $outs $c $vm = V64 $m $outs $c $vm))
    else
      `(((opA_of (W1 $m $outs $c) $vm (by decide)).trans (opR_of (V64 $m $outs $c) $vm (by decide)) :
          W2 $m $outs $c $vm = V64 $m $outs $c $vm))
  `(theorem $keepName ($c : Dev nD) : V64 $m $outs $c $vm = $Vm $m $outs $c $vm := $keep
    theorem $midName ($c : Dev nD) :
        (V64 $m $outs $c $vm : Vec F S2048x128 .f32)
          = shapeCast S2048x128 ($outs $nOut $vo $c : Vec F S2048x1x128 .f32) shapeCasts_S2048x1x128_S2048x128 :=
      ($keepName $m $outs $c).trans (by
        show StableHlo.after $ops _ (Proc.devRef .tc $vm) = _
        after_results
        rw [show $Vr $m $outs $c $vo = $outs $nOut $vo $c from Function.update_self _ _ _]
        rfl)
    theorem $ofName ($c : Dev nD) (r : Fin 65536) (i : Fin 2048) (hr : r.val = 2048 * $kLit + i.val) (l : Fin 128) :
        V65 $m $outs $c main_v134 (ValueIdx.ix2 r l) = $outs $nOut $vo $c (ValueIdx.ix3 i 0 l) := by
      refine ($readStep).trans ?_
      refine (congrFun $pieceEq (ValueIdx.ix2 i l)).trans ?_
      rw [$midName $m $outs $c]
      exact cast_read _ _ i l
    theorem $tName ($c : Dev nD) (i : Fin 2048) (l : Fin 128) :
        V65 $m $outs $c main_v134 (ValueIdx.ix2 (⟨2048 * $kLit + i.val, by have := i.isLt; omega⟩ : Fin 65536) l)
          = $outs $nOut $vo $c (ValueIdx.ix3 i 0 l) :=
      $ofName $m $outs $c ⟨2048 * $kLit + i.val, by have := i.isLt; omega⟩ i rfl l)

/-! ## Each chunk of the result is its region's output -/

tail_case 0
tail_case 1
tail_case 2
tail_case 3
tail_case 4
tail_case 5
tail_case 6
tail_case 7
tail_case 8
tail_case 9
tail_case 10
tail_case 11
tail_case 12
tail_case 13
tail_case 14
tail_case 15
tail_case 16
tail_case 17
tail_case 18
tail_case 19
tail_case 20
tail_case 21
tail_case 22
tail_case 23
tail_case 24
tail_case 25
tail_case 26
tail_case 27
tail_case 28
tail_case 29
tail_case 30

/-- The last chunk: its buffer is written by the last stretch itself, from the last region's output. -/
theorem tail_31_of (c : Dev nD) (r : Fin 65536) (i : Fin 2048) (hr : r.val = 2048 * 31 + i.val) (l : Fin 128) :
    V65 m outs c main_v134 (ValueIdx.ix2 r l) = outs 64 main_v130 c (ValueIdx.ix3 i 0 l) := by
  refine (read_hi m outs c 15 (by decide) (W2 m outs c main_v131) rfl r i (by omega) l).trans ?_
  have e : (W2 m outs c main_v131 : Vec F S2048x128 .f32)
      = shapeCast S2048x128 (V64 m outs c main_v130 : Vec F S2048x1x128 .f32) shapeCasts_S2048x1x128_S2048x128 :=
    (opA_of (W1 m outs c) main_v131 (by decide)).trans (opR_result (V64 m outs c))
  refine (congrFun e (ValueIdx.ix2 i l)).trans ?_
  refine (cast_read _ _ i l).trans ?_
  exact congrFun (Function.update_self _ _ _ : V64 m outs c main_v130 = outs 64 main_v130 c) (ValueIdx.ix3 i 0 l)

theorem tail_31 (c : Dev nD) (i : Fin 2048) (l : Fin 128) :
    V65 m outs c main_v134 (ValueIdx.ix2 (⟨2048 * 31 + i.val, by have := i.isLt; omega⟩ : Fin 65536) l)
      = outs 64 main_v130 c (ValueIdx.ix3 i 0 l) :=
  tail_31_of m outs c ⟨2048 * 31 + i.val, by have := i.isLt; omega⟩ i rfl l

/-! ## All rows at once -/

open Lean Lean.Parser.Term in
/-- Writes the table `outAt` (chunk k's region output at (i, 0, l), over the chunk's number) and the theorem
    `tail_apply` (row r of the result is row r mod 2048 of the output of region r / 2048), one arm per chunk. -/
macro "tail_tables" : command => do
  let id (s : String) : Ident := mkIdent (Name.mkSimple s)
  let m := id "m"; let outs := id "outs"; let c := id "c"; let F := id "F"
  let outAtName := id "outAt"; let applyName := id "tail_apply"
  let mut outAlts := #[]
  let mut appAlts := #[]
  for k in [0:32] do
    let kLit := Syntax.mkNumLit (toString k)
    let nOut := Syntax.mkNumLit (toString (2 * k + 2))
    let vo := id s!"main_v{4 * k + 6}"
    let ofName := id s!"tail_{k}_of"
    outAlts := outAlts.push (← `(matchAltExpr| | $kLit, i, l => $outs $nOut $vo $c (ValueIdx.ix3 i 0 l)))
    appAlts := appAlts.push (← `(matchAltExpr| | $kLit, _, hr => $ofName $m $outs $c r _ hr l))
  outAlts := outAlts.push (← `(matchAltExpr| | _ + 32, i, l => $outs 2 main_v6 $c (ValueIdx.ix3 i 0 l)))
  appAlts := appAlts.push (← `(matchAltExpr| | n + 32, hk, _ => absurd hk (by omega)))
  `(def $outAtName ($c : Dev nD) : ℕ → Fin 2048 → Fin 128 → Elt $F .f32 :=
      fun k i l => match k, i, l with $outAlts:matchAlt*
    theorem $applyName ($c : Dev nD) (r : Fin 65536) (l : Fin 128) :
        V65 $m $outs $c main_v134 (ValueIdx.ix2 r l)
          = $outAtName $outs $c (r.val / 2048) ⟨r.val % 2048, Nat.mod_lt _ (by decide)⟩ l := by
      have hk : r.val / 2048 < 32 := by have := r.isLt; omega
      have hr : r.val = 2048 * (r.val / 2048) + r.val % 2048 := (Nat.div_add_mod _ _).symm
      generalize r.val / 2048 = k at hk hr ⊢
      exact match k, hk, hr with $appAlts:matchAlt*)

tail_tables

end Cert.KernelIdeal.Hand

end
-- ==== Proof.KI.Final.lean ====
import proofs.«411409_j5669356831307_3_alg».proof.Proof.KI.Tail
import Mathlib.Tactic.IntervalCases
import proofs.«411409_j5669356831307_3_alg».proof.Proof.RefValue
import proofs.«411409_j5669356831307_3_alg».proof.Proof.KI.R0.Link
import proofs.«411409_j5669356831307_3_alg».proof.Proof.KI.R1.Link
import proofs.«411409_j5669356831307_3_alg».proof.Proof.KI.R2.Link
import proofs.«411409_j5669356831307_3_alg».proof.Proof.KI.R3.Link
import proofs.«411409_j5669356831307_3_alg».proof.Proof.KI.R4.Link
import proofs.«411409_j5669356831307_3_alg».proof.Proof.KI.R5.Link
import proofs.«411409_j5669356831307_3_alg».proof.Proof.KI.R6.Link
import proofs.«411409_j5669356831307_3_alg».proof.Proof.KI.R7.Link
import proofs.«411409_j5669356831307_3_alg».proof.Proof.KI.R8.Link
import proofs.«411409_j5669356831307_3_alg».proof.Proof.KI.R9.Link
import proofs.«411409_j5669356831307_3_alg».proof.Proof.KI.R10.Link
import proofs.«411409_j5669356831307_3_alg».proof.Proof.KI.R11.Link
import proofs.«411409_j5669356831307_3_alg».proof.Proof.KI.R12.Link
import proofs.«411409_j5669356831307_3_alg».proof.Proof.KI.R13.Link
import proofs.«411409_j5669356831307_3_alg».proof.Proof.KI.R14.Link
import proofs.«411409_j5669356831307_3_alg».proof.Proof.KI.R15.Link
import proofs.«411409_j5669356831307_3_alg».proof.Proof.KI.R16.Link
import proofs.«411409_j5669356831307_3_alg».proof.Proof.KI.R17.Link
import proofs.«411409_j5669356831307_3_alg».proof.Proof.KI.R18.Link
import proofs.«411409_j5669356831307_3_alg».proof.Proof.KI.R19.Link
import proofs.«411409_j5669356831307_3_alg».proof.Proof.KI.R20.Link
import proofs.«411409_j5669356831307_3_alg».proof.Proof.KI.R21.Link
import proofs.«411409_j5669356831307_3_alg».proof.Proof.KI.R22.Link
import proofs.«411409_j5669356831307_3_alg».proof.Proof.KI.R23.Link
import proofs.«411409_j5669356831307_3_alg».proof.Proof.KI.R24.Link
import proofs.«411409_j5669356831307_3_alg».proof.Proof.KI.R25.Link
import proofs.«411409_j5669356831307_3_alg».proof.Proof.KI.R26.Link
import proofs.«411409_j5669356831307_3_alg».proof.Proof.KI.R27.Link
import proofs.«411409_j5669356831307_3_alg».proof.Proof.KI.R28.Link
import proofs.«411409_j5669356831307_3_alg».proof.Proof.KI.R29.Link
import proofs.«411409_j5669356831307_3_alg».proof.Proof.KI.R30.Link
import proofs.«411409_j5669356831307_3_alg».proof.Proof.KI.R31.Link

set_option maxRecDepth 16384

noncomputable section

namespace Cert.KernelIdeal.Hand

open Cert.KernelIdeal.Gen Cert.KernelIdeal.GenP
open Idealize.ShloMosaic Idealize.ShloMosaic.TcCoe Idealize.SL.Sem

/-- THE RESULT. Row r = 2048 K + i of the result buffer is row i of what region K left, which is the reference row r. -/
theorem result_eq (m : (ℓ : Loc nD τ sig) → Buf (Elt Ideal) ℓ) (h : OkAll m) (c : Dev nD)
    (hp : ∀ idx, 0 ≤ ((m ((c.tc : Thread nD τ).loc main_arg1) : IVec S65536x32 32) idx).toInt ∧ ((m ((c.tc : Thread nD τ).loc main_arg1) : IVec S65536x32 32) idx).toInt ≤ 262144) :
    (V65 m (outsAll m h) c main_v134 : FVec Ideal S65536x128 .f32)
    = Cert.ReferenceIdeal.RefValue.refG (m ((c.tc : Thread nD τ).loc main_arg0)) (m ((c.tc : Thread nD τ).loc main_arg1)) := by
  funext j
  obtain ⟨r, l, rfl⟩ : ∃ (r : Fin 65536) (l : Fin 128), j = ValueIdx.ix2 r l := ⟨j 0, j 1, ValueIdx.eq_ix2 j⟩
  obtain ⟨rv, hrv⟩ := r
  obtain ⟨K, i, hK, hi, rfl⟩ : ∃ K i, K < 32 ∧ i < 2048 ∧ rv = 2048 * K + i := ⟨rv / 2048, rv % 2048, by omega, Nat.mod_lt _ (by decide), by omega⟩
  interval_cases K
  · exact (tail_0 m (outsAll m h) c ⟨i, hi⟩ l).trans (bridge0 m h c hp ⟨i, hi⟩ l)
  · exact (tail_1 m (outsAll m h) c ⟨i, hi⟩ l).trans (bridge1 m h c hp ⟨i, hi⟩ l)
  · exact (tail_2 m (outsAll m h) c ⟨i, hi⟩ l).trans (bridge2 m h c hp ⟨i, hi⟩ l)
  · exact (tail_3 m (outsAll m h) c ⟨i, hi⟩ l).trans (bridge3 m h c hp ⟨i, hi⟩ l)
  · exact (tail_4 m (outsAll m h) c ⟨i, hi⟩ l).trans (bridge4 m h c hp ⟨i, hi⟩ l)
  · exact (tail_5 m (outsAll m h) c ⟨i, hi⟩ l).trans (bridge5 m h c hp ⟨i, hi⟩ l)
  · exact (tail_6 m (outsAll m h) c ⟨i, hi⟩ l).trans (bridge6 m h c hp ⟨i, hi⟩ l)
  · exact (tail_7 m (outsAll m h) c ⟨i, hi⟩ l).trans (bridge7 m h c hp ⟨i, hi⟩ l)
  · exact (tail_8 m (outsAll m h) c ⟨i, hi⟩ l).trans (bridge8 m h c hp ⟨i, hi⟩ l)
  · exact (tail_9 m (outsAll m h) c ⟨i, hi⟩ l).trans (bridge9 m h c hp ⟨i, hi⟩ l)
  · exact (tail_10 m (outsAll m h) c ⟨i, hi⟩ l).trans (bridge10 m h c hp ⟨i, hi⟩ l)
  · exact (tail_11 m (outsAll m h) c ⟨i, hi⟩ l).trans (bridge11 m h c hp ⟨i, hi⟩ l)
  · exact (tail_12 m (outsAll m h) c ⟨i, hi⟩ l).trans (bridge12 m h c hp ⟨i, hi⟩ l)
  · exact (tail_13 m (outsAll m h) c ⟨i, hi⟩ l).trans (bridge13 m h c hp ⟨i, hi⟩ l)
  · exact (tail_14 m (outsAll m h) c ⟨i, hi⟩ l).trans (bridge14 m h c hp ⟨i, hi⟩ l)
  · exact (tail_15 m (outsAll m h) c ⟨i, hi⟩ l).trans (bridge15 m h c hp ⟨i, hi⟩ l)
  · exact (tail_16 m (outsAll m h) c ⟨i, hi⟩ l).trans (bridge16 m h c hp ⟨i, hi⟩ l)
  · exact (tail_17 m (outsAll m h) c ⟨i, hi⟩ l).trans (bridge17 m h c hp ⟨i, hi⟩ l)
  · exact (tail_18 m (outsAll m h) c ⟨i, hi⟩ l).trans (bridge18 m h c hp ⟨i, hi⟩ l)
  · exact (tail_19 m (outsAll m h) c ⟨i, hi⟩ l).trans (bridge19 m h c hp ⟨i, hi⟩ l)
  · exact (tail_20 m (outsAll m h) c ⟨i, hi⟩ l).trans (bridge20 m h c hp ⟨i, hi⟩ l)
  · exact (tail_21 m (outsAll m h) c ⟨i, hi⟩ l).trans (bridge21 m h c hp ⟨i, hi⟩ l)
  · exact (tail_22 m (outsAll m h) c ⟨i, hi⟩ l).trans (bridge22 m h c hp ⟨i, hi⟩ l)
  · exact (tail_23 m (outsAll m h) c ⟨i, hi⟩ l).trans (bridge23 m h c hp ⟨i, hi⟩ l)
  · exact (tail_24 m (outsAll m h) c ⟨i, hi⟩ l).trans (bridge24 m h c hp ⟨i, hi⟩ l)
  · exact (tail_25 m (outsAll m h) c ⟨i, hi⟩ l).trans (bridge25 m h c hp ⟨i, hi⟩ l)
  · exact (tail_26 m (outsAll m h) c ⟨i, hi⟩ l).trans (bridge26 m h c hp ⟨i, hi⟩ l)
  · exact (tail_27 m (outsAll m h) c ⟨i, hi⟩ l).trans (bridge27 m h c hp ⟨i, hi⟩ l)
  · exact (tail_28 m (outsAll m h) c ⟨i, hi⟩ l).trans (bridge28 m h c hp ⟨i, hi⟩ l)
  · exact (tail_29 m (outsAll m h) c ⟨i, hi⟩ l).trans (bridge29 m h c hp ⟨i, hi⟩ l)
  · exact (tail_30 m (outsAll m h) c ⟨i, hi⟩ l).trans (bridge30 m h c hp ⟨i, hi⟩ l)
  · exact (tail_31 m (outsAll m h) c ⟨i, hi⟩ l).trans (bridge31 m h c hp ⟨i, hi⟩ l)

end Cert.KernelIdeal.Hand

end
-- ==== Proof.lean ====
/- The certificate of the pooled maximum: out[i, :] = max over the 32 neighbours k of xpad[pools[i, k], :], where
   xpad is x with one zero row appended. The kernel computes it chunk by chunk (32 pallas_calls of 2048 rows), each
   call gathering ONE row per grid point through a prefetched table of the chunk's indices and keeping a running
   maximum from -inf over the neighbour axis; the reference gathers all rows and reduces with maximum.
   Under the precondition (x finite; every index names a row of xpad) every table is admissible, so every region runs
   (the frames); at the extended reals the running maximum over k = 0..31 is the reference's reduction, row by row
   (the algebraic claim). The ideal pass rewrote nothing, so the idealization claim is trivial. -/
import proofs.«411409_j5669356831307_3_alg».proof.Defs
import proofs.«411409_j5669356831307_3_alg».proof.Proof.Gen.Kernel
import proofs.«411409_j5669356831307_3_alg».proof.Proof.Gen.KernelIdeal
import proofs.«411409_j5669356831307_3_alg».proof.Proof.Gen.ReferenceIdeal
import proofs.«411409_j5669356831307_3_alg».proof.Proof.Gen.ReferenceIdeal.Run
import proofs.«411409_j5669356831307_3_alg».proof.Proof.Gen.Pre_finite_inputs
import proofs.«411409_j5669356831307_3_alg».proof.Proof.KB.Frame
import proofs.«411409_j5669356831307_3_alg».proof.Proof.KB.Pre
import proofs.«411409_j5669356831307_3_alg».proof.Proof.KI.Frame
import proofs.«411409_j5669356831307_3_alg».proof.Proof.KI.Pre
import proofs.«411409_j5669356831307_3_alg».proof.Proof.KI.Final
import proofs.«411409_j5669356831307_3_alg».proof.Proof.RefValue
import Idealize.ShloMosaic.Adequacy
import Idealize.ShloMosaic.Init

noncomputable section

namespace Cert.Proof

open Idealize.ShloMosaic Idealize.SL.Sem

/-- The word-level kernel runs and leaves its arguments: every table is admissible under the precondition. -/
theorem frame_k : Cert.frame_Kernel := fun m ρ hpre =>
  Cert.Kernel.Hand.run_all m ρ (Cert.Kernel.Hand.okAll_of_pre m hpre)

/-- The idealized kernel runs and leaves its arguments. -/
theorem frame_ki : Cert.frame_KernelIdeal := fun m ρ hpre =>
  (θ_run Cert.KernelIdeal.defs _ _).mono (fun _ h c => ⟨(h c).1, (h c).2.1⟩)
    (Cert.KernelIdeal.Hand.run_all m ρ (Cert.KernelIdeal.Hand.okAll_of_pre m hpre))

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the pooled maximum: the kernel's result buffer row by row (32 chunks), the reference's
    reduction, one function of the arguments. -/
theorem algebraic : Cert.algebraic_KernelIdeal_ReferenceIdeal := by
  intro m ρ m' ρ' hpre hagree
  have h := Cert.KernelIdeal.Hand.okAll_of_pre m hpre
  refine ⟨fun c => Cert.ReferenceIdeal.RefValue.refG (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono
      (fun _ hh c => ⟨((hh c).2.2).trans (Cert.KernelIdeal.Hand.result_eq m h c (Cert.PreDecode.pools_in_range _ _ (hpre c))), (hh c).1, (hh c).2.1⟩)
      (Cert.KernelIdeal.Hand.run_all m ρ h)
  · refine (θ_run Cert.ReferenceIdeal.defs _ _).mono (fun _ hh c => ⟨(hh c).1.trans ?_, (hh c).2⟩)
      (Cert.ReferenceIdeal.Value.run (F := Ideal) m' ρ')
    rw [(hagree c).1, (hagree c).2]
    exact Cert.ReferenceIdeal.RefValue.ref_run_eq _ _ (Cert.PreDecode.pools_in_range _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
